-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v270)) (v1 : (c : Dev Cert.KernelIdeal.nD) → Buf (Elt Ideal) ((c.tc : Thread Cert.KernelIdeal.nD Cert.KernelIdeal.τ).loc Cert.KernelIdeal.main_v255)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v270) = v0 c
          ∧ r.2.mem ((c.tc : Thread Cert.KernelIdeal.nD Cert.KernelIdeal.τ).loc Cert.KernelIdeal.main_v255) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v361) = v0 c
          ∧ r.2.mem ((c.tc : Thread Cert.ReferenceIdeal.nD Cert.ReferenceIdeal.τ).loc Cert.ReferenceIdeal.main_v340) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S3x3x128x128 : Shape := ⟨4, ![3, 3, 128, 128]⟩
abbrev S3x128 : Shape := ⟨2, ![3, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S2x800000 : Shape := ⟨2, ![2, 800000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x3x128x128 : S_.BroadcastsInDim S3x3x128x128 (![] : Fin 0 → Fin S3x3x128x128.rank)
  reducesTo_S3x3x128x128_S_d0_1_2_3 : S3x3x128x128.ReducesTo [0, 1, 2, 3] S_
  bcast_S_S3x128 : S_.BroadcastsInDim S3x128 (![] : Fin 0 → Fin S3x128.rank)
  reducesTo_S3x128_S_d0_1 : S3x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_
  bcast_S_S2x800000 : S_.BroadcastsInDim S2x800000 (![] : Fin 0 → Fin S2x800000.rank)
  reducesTo_S2x800000_S_d0_1 : S2x800000.ReducesTo [0, 1] S_

variable [Facts]

def fn_part4 {F : FTy → Type} [FloatOps F] (main_v63 : IVec S_ 1) (main_v65 : IVec S2x800000 1) (main_v67 : IVec S2x800000 1) : IVec S_ 1 :=
  let main_v68 : IVec S2x800000 1 := andi main_v65 main_v67
  let main_c_26 : IVec S_ 1 := constantI S_ 1 1#1
  let main_v69 : IVec S_ 1 := (fun x v => Host.reduce IntOp.andi x v reducesTo_S2x800000_S_d0_1 h_S_) main_v68 main_c_26
  let main_v70 : IVec S_ 1 := andi main_v63 main_v69
  main_v70

def fn_part3 {F : FTy → Type} [FloatOps F] (main_arg11 : FVec F S64x2 .f32) (main_arg12 : FVec F S2 .f32) (main_arg13 : IVec S2x800000 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x2 .f32 := Host.absf main_arg11
  let main_cst_20 : FVec F S_ .f32 := constant S_ .f32 0x7F800000#32
  let main_v55 : FVec F S64x2 .f32 := broadcastInDim S64x2 ![] bcast_S_S64x2 main_cst_20
  let main_v56 : IVec S64x2 1 := cmpf .olt main_v54 main_v55
  let main_c_21 : IVec S_ 1 := constantI S_ 1 1#1
  let main_v57 : IVec S_ 1 := (fun x v => Host.reduce IntOp.andi x v reducesTo_S64x2_S_d0_1 h_S_) main_v56 main_c_21
  let main_v58 : IVec S_ 1 := andi main_v53 main_v57
  let main_v59 : FVec F S2 .f32 := Host.absf main_arg12
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  let main_c_24 : IVec S_ 32 := constantI S_ 32 0#32
  let main_v64 : IVec S2x800000 32 := broadcastInDim S2x800000 ![] bcast_S_S2x800000 main_c_24
  let main_v65 : IVec S2x800000 1 := cmpi .sge main_arg13 main_v64
  let main_c_25 : IVec S_ 32 := constantI S_ 32 50000#32
  let main_v66 : IVec S2x800000 32 := broadcastInDim S2x800000 ![] bcast_S_S2x800000 main_c_25
  let main_v67 : IVec S2x800000 1 := cmpi .slt main_arg13 main_v66
  fn_part4 (F := F) main_v63 main_v65 main_v67

def fn_part2 {F : FTy → Type} [FloatOps F] (main_arg7 : FVec F S3x128 .f32) (main_arg8 : FVec F S3x128 .f32) (main_arg9 : FVec F S128x64 .f32) (main_arg10 : FVec F S64 .f32) (main_arg11 : FVec F S64x2 .f32) (main_arg12 : FVec F S2 .f32) (main_arg13 : IVec S2x800000 32) (main_v33 : IVec S_ 1) : IVec S_ 1 :=
  let main_v34 : FVec F S3x128 .f32 := Host.absf main_arg7
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128 .f32 := Host.absf main_arg8
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S128x64 .f32 := Host.absf main_arg9
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_v48 main_v49 main_v50

def fn_part1 {F : FTy → Type} [FloatOps F] (main_arg4 : FVec F S128 .f32) (main_arg5 : FVec F S3x3x128x128 .f32) (main_arg6 : FVec F S3x128 .f32) (main_arg7 : FVec F S3x128 .f32) (main_arg8 : FVec F S3x128 .f32) (main_arg9 : FVec F S128x64 .f32) (main_arg10 : FVec F S64 .f32) (main_arg11 : FVec F S64x2 .f32) (main_arg12 : FVec F S2 .f32) (main_arg13 : IVec S2x800000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S3x3x128x128 .f32 := Host.absf main_arg5
  let main_cst_8 : FVec F S_ .f32 := constant S_ .f32 0x7F800000#32
  let main_v25 : FVec F S3x3x128x128 .f32 := broadcastInDim S3x3x128x128 ![] bcast_S_S3x3x128x128 main_cst_8
  let main_v26 : IVec S3x3x128x128 1 := cmpf .olt main_v24 main_v25
  let main_c_9 : IVec S_ 1 := constantI S_ 1 1#1
  let main_v27 : IVec S_ 1 := (fun x v => Host.reduce IntOp.andi x v reducesTo_S3x3x128x128_S_d0_1_2_3 h_S_) main_v26 main_c_9
  let main_v28 : IVec S_ 1 := andi main_v23 main_v27
  let main_v29 : FVec F S3x128 .f32 := Host.absf main_arg6
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S50000x128 .f32) (main_arg1 : FVec F S128x128 .f32) (main_arg2 : FVec F S128 .f32) (main_arg3 : FVec F S128 .f32) (main_arg4 : FVec F S128 .f32) (main_arg5 : FVec F S3x3x128x128 .f32) (main_arg6 : FVec F S3x128 .f32) (main_arg7 : FVec F S3x128 .f32) (main_arg8 : FVec F S3x128 .f32) (main_arg9 : FVec F S128x64 .f32) (main_arg10 : FVec F S64 .f32) (main_arg11 : FVec F S64x2 .f32) (main_arg12 : FVec F S2 .f32) (main_arg13 : IVec S2x800000 32) (main_arg14 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_v13 main_v16
-- ==== Kernel.lean ====
abbrev S50000x128 : Shape := ⟨2, ![50000, 128]⟩
abbrev S128x128 : Shape := ⟨2, ![128, 128]⟩
abbrev S128 : Shape := ⟨1, ![128]⟩
abbrev S3x3x128x128 : Shape := ⟨4, ![3, 3, 128, 128]⟩
abbrev S3x128 : Shape := ⟨2, ![3, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩
abbrev S800000x128 : Shape := ⟨2, ![800000, 128]⟩
abbrev S1x1x128x128 : Shape := ⟨4, ![1, 1, 128, 128]⟩
abbrev S1x1 : Shape := ⟨2, ![1, 1]⟩
abbrev S1 : Shape := ⟨1, ![1]⟩
abbrev S128x1 : Shape := ⟨2, ![128, 1]⟩
abbrev S1x64 : Shape := ⟨2, ![1, 64]⟩
abbrev S1x2 : Shape := ⟨2, ![1, 2]⟩
abbrev S128x2 : Shape := ⟨2, ![128, 2]⟩

abbrev nBuf : Space → Nat
  | .hbm => 351
  | .vmem => 118
  | .smem => 0
  | _ => 0

abbrev hbmTy0_0 (i : Nat) : BufTy := match i % 128 with
  | 0 => ⟨S50000x128, .f32⟩
  | 1 => ⟨S128x128, .f32⟩
  | 2 => ⟨S128, .f32⟩
  | 3 => ⟨S128, .f32⟩
  | 4 => ⟨S128, .f32⟩
  | 5 => ⟨S3x3x128x128, .f32⟩
  | 6 => ⟨S3x128, .f32⟩
  | 7 => ⟨S3x128, .f32⟩
  | 8 => ⟨S3x128, .f32⟩
  | 9 => ⟨S128x64, .f32⟩
  | 10 => ⟨S64, .f32⟩
  | 11 => ⟨S64x2, .f32⟩
  | 12 => ⟨S2, .f32⟩
  | 13 => ⟨S2x800000, .i32⟩
  | 14 => ⟨S50000, .i32⟩
  | 15 => ⟨S1x800000, .i32⟩
  | 16 => ⟨S800000, .i32⟩
  | 17 => ⟨S1x800000, .i32⟩
  | 18 => ⟨S800000, .i32⟩
  | 19 => ⟨S_, .f32⟩
  | 20 => ⟨S800000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S800000, .f32⟩
  | 27 => ⟨S_, .f32⟩
  | 28 => ⟨S50000, .f32⟩
  | 29 => ⟨S800000x1, .i32⟩
  | 30 => ⟨S50000, .f32⟩
  | 31 => ⟨S_, .f32⟩
  | 32 => ⟨S50000, .f32⟩
  | 33 => ⟨S50000, .i1⟩
  | 34 => ⟨S_, .f32⟩
  | 35 => ⟨S50000, .f32⟩
  | 36 => ⟨S50000, .f32⟩
  | 37 => ⟨S50000, .f32⟩
  | 38 => ⟨S_, .f32⟩
  | 39 => ⟨S_, .f32⟩
  | 40 => ⟨S50000, .f32⟩
  | 41 => ⟨S50000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000, .f32⟩
  | 51 => ⟨S800000, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000, .f32⟩
  | 61 => ⟨S800000, .f32⟩
  | 62 => ⟨S50000, .f32⟩
  | 63 => ⟨S50000x1, .f32⟩
  | 64 => ⟨S1x128, .f32⟩
  | 65 => ⟨S1x128, .f32⟩
  | 66 => ⟨S1x128, .f32⟩
  | 67 => ⟨S50000x128, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x128, .f32⟩
  | 77 => ⟨S800000x1, .f32⟩
  | 78 => ⟨S800000x128, .f32⟩
  | 79 => ⟨S800000x128, .f32⟩
  | 80 => ⟨S_, .f32⟩
  | 81 => ⟨S50000x128, .f32⟩
  | 82 => ⟨S800000x1, .i32⟩
  | 83 => ⟨S50000x128, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x128, .f32⟩
  | 93 => ⟨S800000x1, .f32⟩
  | 94 => ⟨S800000x128, .f32⟩
  | 95 => ⟨S800000x128, .f32⟩
  | 96 => ⟨S_, .f32⟩
  | 97 => ⟨S50000x128, .f32⟩
  | 98 => ⟨S800000x1, .i32⟩
  | 99 => ⟨S50000x128, .f32⟩
  | 100 => ⟨S1x1x128x128, .f32⟩
  | 101 => ⟨S128x128, .f32⟩
  | 102 => ⟨S1x1x128x128, .f32⟩
  | 103 => ⟨S128x128, .f32⟩
  | 104 => ⟨S1x1x128x128, .f32⟩
  | 105 => ⟨S128x128, .f32⟩
  | 106 => ⟨S1x128, .f32⟩
  | 107 => ⟨S128, .f32⟩
  | 108 => ⟨S1x128, .f32⟩
  | 109 => ⟨S50000x128, .f32⟩
  | 110 => ⟨S1x128, .f32⟩
  | 111 => ⟨S1x128, .f32⟩
  | 112 => ⟨S_, .f32⟩
  | 113 => ⟨S1x128, .f32⟩
  | 114 => ⟨S1x128, .f32⟩
  | 115 => ⟨S_, .f32⟩
  | 116 => ⟨S1x128, .f32⟩
  | 117 => ⟨S1x128, .f32⟩
  | 118 => ⟨S1x128, .f32⟩
  | 119 => ⟨S1x128, .f32⟩
  | 120 => ⟨S128, .f32⟩
  | 121 => ⟨S128, .f32⟩
  | 122 => ⟨S1x128, .f32⟩
  | 123 => ⟨S128, .f32⟩
  | 124 => ⟨S1x128, .f32⟩
  | 125 => ⟨S128, .f32⟩
  | 126 => ⟨S1x128, .f32⟩
  | 127 => ⟨S1x128, .f32⟩
  | _ => ⟨S50000x128, .f32⟩

abbrev hbmTy0_1 (i : Nat) : BufTy := match i % 128 with
  | 0 => ⟨S1x128, .f32⟩
  | 1 => ⟨S1x128, .f32⟩
  | 2 => ⟨S50000x128, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000x128, .f32⟩
  | 12 => ⟨S800000x1, .f32⟩
  | 13 => ⟨S800000x128, .f32⟩
  | 14 => ⟨S800000x128, .f32⟩
  | 15 => ⟨S_, .f32⟩
  | 16 => ⟨S50000x128, .f32⟩
  | 17 => ⟨S800000x1, .i32⟩
  | 18 => ⟨S50000x128, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x128, .f32⟩
  | 28 => ⟨S800000x1, .f32⟩
  | 29 => ⟨S800000x128, .f32⟩
  | 30 => ⟨S800000x128, .f32⟩
  | 31 => ⟨S_, .f32⟩
  | 32 => ⟨S50000x128, .f32⟩
  | 33 => ⟨S800000x1, .i32⟩
  | 34 => ⟨S50000x128, .f32⟩
  | 35 => ⟨S1x1x128x128, .f32⟩
  | 36 => ⟨S128x128, .f32⟩
  | 37 => ⟨S1x1x128x128, .f32⟩
  | 38 => ⟨S128x128, .f32⟩
  | 39 => ⟨S1x1x128x128, .f32⟩
  | 40 => ⟨S128x128, .f32⟩
  | 41 => ⟨S1x128, .f32⟩
  | 42 => ⟨S128, .f32⟩
  | 43 => ⟨S1x128, .f32⟩
  | 44 => ⟨S50000x128, .f32⟩
  | 45 => ⟨S1x128, .f32⟩
  | 46 => ⟨S1x128, .f32⟩
  | 47 => ⟨S_, .f32⟩
  | 48 => ⟨S1x128, .f32⟩
  | 49 => ⟨S1x128, .f32⟩
  | 50 => ⟨S_, .f32⟩
  | 51 => ⟨S1x128, .f32⟩
  | 52 => ⟨S1x128, .f32⟩
  | 53 => ⟨S1x128, .f32⟩
  | 54 => ⟨S1x128, .f32⟩
  | 55 => ⟨S128, .f32⟩
  | 56 => ⟨S128, .f32⟩
  | 57 => ⟨S1x128, .f32⟩
  | 58 => ⟨S128, .f32⟩
  | 59 => ⟨S1x128, .f32⟩
  | 60 => ⟨S128, .f32⟩
  | 61 => ⟨S1x128, .f32⟩
  | 62 => ⟨S1x128, .f32⟩
  | 63 => ⟨S1x128, .f32⟩
  | 64 => ⟨S1x128, .f32⟩
  | 65 => ⟨S50000x128, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x128, .f32⟩
  | 75 => ⟨S800000x1, .f32⟩
  | 76 => ⟨S800000x128, .f32⟩
  | 77 => ⟨S800000x128, .f32⟩
  | 78 => ⟨S_, .f32⟩
  | 79 => ⟨S50000x128, .f32⟩
  | 80 => ⟨S800000x1, .i32⟩
  | 81 => ⟨S50000x128, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000x128, .f32⟩
  | 91 => ⟨S800000x1, .f32⟩
  | 92 => ⟨S800000x128, .f32⟩
  | 93 => ⟨S800000x128, .f32⟩
  | 94 => ⟨S_, .f32⟩
  | 95 => ⟨S50000x128, .f32⟩
  | 96 => ⟨S800000x1, .i32⟩
  | 97 => ⟨S50000x128, .f32⟩
  | 98 => ⟨S1x1x128x128, .f32⟩
  | 99 => ⟨S128x128, .f32⟩
  | 100 => ⟨S1x1x128x128, .f32⟩
  | 101 => ⟨S128x128, .f32⟩
  | 102 => ⟨S1x1x128x128, .f32⟩
  | 103 => ⟨S128x128, .f32⟩
  | 104 => ⟨S1x128, .f32⟩
  | 105 => ⟨S128, .f32⟩
  | 106 => ⟨S1x128, .f32⟩
  | 107 => ⟨S50000x128, .f32⟩
  | 108 => ⟨S1x128, .f32⟩
  | 109 => ⟨S1x128, .f32⟩
  | 110 => ⟨S_, .f32⟩
  | 111 => ⟨S1x128, .f32⟩
  | 112 => ⟨S1x128, .f32⟩
  | 113 => ⟨S_, .f32⟩
  | 114 => ⟨S1x128, .f32⟩
  | 115 => ⟨S1x128, .f32⟩
  | 116 => ⟨S1x128, .f32⟩
  | 117 => ⟨S1x128, .f32⟩
  | 118 => ⟨S128, .f32⟩
  | 119 => ⟨S128, .f32⟩
  | 120 => ⟨S1x128, .f32⟩
  | 121 => ⟨S128, .f32⟩
  | 122 => ⟨S1x128, .f32⟩
  | 123 => ⟨S128, .f32⟩
  | 124 => ⟨S1x128, .f32⟩
  | 125 => ⟨S1x128, .f32⟩
  | 126 => ⟨S1x128, .f32⟩
  | 127 => ⟨S1x128, .f32⟩
  | _ => ⟨S50000x128, .f32⟩

abbrev hbmTy0_2 (i : Nat) : BufTy := match i % 128 with
  | 0 => ⟨S50000x128, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x128, .f32⟩
  | 10 => ⟨S_, .f32⟩
  | 11 => ⟨S50000x128, .f32⟩
  | 12 => ⟨S800000x1, .i32⟩
  | 13 => ⟨S50000x128, .f32⟩
  | 14 => ⟨S1x1, .f32⟩
  | 15 => ⟨S_, .f32⟩
  | 16 => ⟨S_, .f32⟩
  | 17 => ⟨S_, .f32⟩
  | 18 => ⟨S_, .f32⟩
  | 19 => ⟨S_, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x128, .f32⟩
  | 29 => ⟨S_, .f32⟩
  | 30 => ⟨S50000x128, .f32⟩
  | 31 => ⟨S800000x1, .i32⟩
  | 32 => ⟨S50000x128, .f32⟩
  | 33 => ⟨S1x1, .f32⟩
  | 34 => ⟨S_, .f32⟩
  | 35 => ⟨S_, .f32⟩
  | 36 => ⟨S_, .f32⟩
  | 37 => ⟨S_, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x128, .f32⟩
  | 47 => ⟨S_, .f32⟩
  | 48 => ⟨S50000x128, .f32⟩
  | 49 => ⟨S800000x1, .i32⟩
  | 50 => ⟨S50000x128, .f32⟩
  | 51 => ⟨S1x1, .f32⟩
  | 52 => ⟨S_, .f32⟩
  | 53 => ⟨S_, .f32⟩
  | 54 => ⟨S_, .f32⟩
  | 55 => ⟨S_, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x128, .f32⟩
  | 65 => ⟨S_, .f32⟩
  | 66 => ⟨S50000x128, .f32⟩
  | 67 => ⟨S800000x1, .i32⟩
  | 68 => ⟨S50000x128, .f32⟩
  | 69 => ⟨S1x1, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S50000, .f32⟩
  | 78 => ⟨S_, .f32⟩
  | 79 => ⟨S128, .f32⟩
  | 80 => ⟨S50000x1, .i32⟩
  | 81 => ⟨S128, .f32⟩
  | 82 => ⟨S_, .f32⟩
  | 83 => ⟨S128x128, .f32⟩
  | 84 => ⟨S50000x1, .i32⟩
  | 85 => ⟨S128x128, .f32⟩
  | 86 => ⟨S_, .f32⟩
  | 87 => ⟨S128, .f32⟩
  | 88 => ⟨S128, .f32⟩
  | 89 => ⟨S128x1, .f32⟩
  | 90 => ⟨S128x128, .f32⟩
  | 91 => ⟨S128x128, .f32⟩
  | 92 => ⟨S1x64, .f32⟩
  | 93 => ⟨S1x2, .f32⟩
  | 94 => ⟨S128x2, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x128, .f32⟩
  | .local _ .vmem, ⟨39, _⟩ => ⟨S128x128, .f32⟩
  | .local _ .vmem, ⟨40, _⟩ => ⟨S128x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S1x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S1x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S128x128, .f32⟩
  | .local _ .vmem, ⟨63, _⟩ => ⟨S128x128, .f32⟩
  | .local _ .vmem, ⟨64, _⟩ => ⟨S128x128, .f32⟩
  | .local _ .vmem, ⟨65, _⟩ => ⟨S1x128, .f32⟩
  | .local _ .vmem, ⟨66, _⟩ => ⟨S5000x128, .f32⟩
  | .local _ .vmem, ⟨67, _⟩ => ⟨S5000x128, .f32⟩
  | .local _ .vmem, ⟨68, _⟩ => ⟨S1x128, .f32⟩
  | .local _ .vmem, ⟨69, _⟩ => ⟨S1x128, .f32⟩
  | .local _ .vmem, ⟨70, _⟩ => ⟨S1x128, .f32⟩
  | .local _ .vmem, ⟨71, _⟩ => ⟨S1x128, .f32⟩
  | .local _ .vmem, ⟨72, _⟩ => ⟨S5000x128, .f32⟩
  | .local _ .vmem, ⟨73, _⟩ => ⟨S5000x128, .f32⟩
  | .local _ .vmem, ⟨74, _⟩ => ⟨S1x128, .f32⟩
  | .local _ .vmem, ⟨75, _⟩ => ⟨S1x128, .f32⟩
  | .local _ .vmem, ⟨76, _⟩ => ⟨S1x128, .f32⟩
  | .local _ .vmem, ⟨77, _⟩ => ⟨S1x128, .f32⟩
  | .local _ .vmem, ⟨78, _⟩ => ⟨S5000x128, .f32⟩
  | .local _ .vmem, ⟨79, _⟩ => ⟨S5000x128, .f32⟩
  | .local _ .vmem, ⟨80, _⟩ => ⟨S5000x128, .f32⟩
  | .local _ .vmem, ⟨81, _⟩ => ⟨S5000x128, .f32⟩
  | .local _ .vmem, ⟨82, _⟩ => ⟨S5000x128, .f32⟩
  | .local _ .vmem, ⟨83, _⟩ => ⟨S5000x128, .f32⟩
  | .local _ .vmem, ⟨84, _⟩ => ⟨S5000x1, .f32⟩
  | .local _ .vmem, ⟨85, _⟩ => ⟨S5000x1, .f32⟩
  | .local _ .vmem, ⟨86, _⟩ => ⟨S1x1, .f32⟩
  | .local _ .vmem, ⟨87, _⟩ => ⟨S1x1, .f32⟩
  | .local _ .vmem, ⟨88, _⟩ => ⟨S5000x128, .f32⟩
  | .local _ .vmem, ⟨89, _⟩ => ⟨S5000x128, .f32⟩
  | .local _ .vmem, ⟨90, _⟩ => ⟨S5000x128, .f32⟩
  | .local _ .vmem, ⟨91, _⟩ => ⟨S5000x128, .f32⟩
  | .local _ .vmem, ⟨92, _⟩ => ⟨S5000x1, .f32⟩
  | .local _ .vmem, ⟨93, _⟩ => ⟨S5000x1, .f32⟩
  | .local _ .vmem, ⟨94, _⟩ => ⟨S1x1, .f32⟩
  | .local _ .vmem, ⟨95, _⟩ => ⟨S1x1, .f32⟩
  | .local _ .vmem, ⟨96, _⟩ => ⟨S5000x128, .f32⟩
  | .local _ .vmem, ⟨97, _⟩ => ⟨S5000x128, .f32⟩
  | .local _ .vmem, ⟨98, _⟩ => ⟨S5000x128, .f32⟩
  | .local _ .vmem, ⟨99, _⟩ => ⟨S5000x128, .f32⟩
  | .local _ .vmem, ⟨100, _⟩ => ⟨S5000x1, .f32⟩
  | .local _ .vmem, ⟨101, _⟩ => ⟨S5000x1, .f32⟩
  | .local _ .vmem, ⟨102, _⟩ => ⟨S1x1, .f32⟩
  | .local _ .vmem, ⟨103, _⟩ => ⟨S1x1, .f32⟩
  | .local _ .vmem, ⟨104, _⟩ => ⟨S5000x128, .f32⟩
  | .local _ .vmem, ⟨105, _⟩ => ⟨S5000x128, .f32⟩
  | .local _ .vmem, ⟨106, _⟩ => ⟨S5000x128, .f32⟩
  | .local _ .vmem, ⟨107, _⟩ => ⟨S5000x128, .f32⟩
  | .local _ .vmem, ⟨108, _⟩ => ⟨S5000x1, .f32⟩
  | .local _ .vmem, ⟨109, _⟩ => ⟨S5000x1, .f32⟩
  | .local _ .vmem, ⟨110, _⟩ => ⟨S1x1, .f32⟩
  | .local _ .vmem, ⟨111, _⟩ => ⟨S1x1, .f32⟩
  | .local _ .vmem, ⟨112, _⟩ => ⟨S128x128, .f32⟩
  | .local _ .vmem, ⟨113, _⟩ => ⟨S128x64, .f32⟩
  | .local _ .vmem, ⟨114, _⟩ => ⟨S1x64, .f32⟩
  | .local _ .vmem, ⟨115, _⟩ => ⟨S64x2, .f32⟩
  | .local _ .vmem, ⟨116, _⟩ => ⟨S1x2, .f32⟩
  | .local _ .vmem, ⟨117, _⟩ => ⟨S128x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | _, _ => false

abbrev semScoped : Fin 0 → Bool
  | ⟨_, h⟩ => absurd h (Nat.not_lt_zero _)

abbrev dmaSemScoped : Fin 108 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | _ => false

abbrev sig : RefSig :=
  ofTc nBuf bufTy 0 108 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_cst_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_3 : Ref sig .tc := ⟨.hbm, 31, rfl⟩
abbrev main_v12 : Ref sig .tc := ⟨.hbm, 32, rfl⟩
abbrev main_v13 : Ref sig .tc := ⟨.hbm, 33, rfl⟩
abbrev main_cst_4 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_5 : Ref sig .tc := ⟨.hbm, 38, rfl⟩
abbrev main_call0_v0 : Ref sig .tc := ⟨.hbm, 39, rfl⟩
abbrev main_call0_v1 : Ref sig .tc := ⟨.hbm, 40, rfl⟩
abbrev main_v17 : Ref sig .tc := ⟨.hbm, 41, rfl⟩
abbrev main_c : Ref sig .tc := ⟨.hbm, 42, rfl⟩
abbrev main_v18 : Ref sig .tc := ⟨.hbm, 43, rfl⟩
abbrev main_v19 : Ref sig .tc := ⟨.hbm, 44, rfl⟩
abbrev main_c_6 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c_7 : Ref sig .tc := ⟨.hbm, 52, rfl⟩
abbrev main_v26 : Ref sig .tc := ⟨.hbm, 53, rfl⟩
abbrev main_v27 : Ref sig .tc := ⟨.hbm, 54, rfl⟩
abbrev main_c_8 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_c_9 : Ref sig .tc := ⟨.hbm, 68, rfl⟩
abbrev main_v40 : Ref sig .tc := ⟨.hbm, 69, rfl⟩
abbrev main_v41 : Ref sig .tc := ⟨.hbm, 70, rfl⟩
abbrev main_c_10 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_11 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_c_12 : Ref sig .tc := ⟨.hbm, 84, rfl⟩
abbrev main_v53 : Ref sig .tc := ⟨.hbm, 85, rfl⟩
abbrev main_v54 : Ref sig .tc := ⟨.hbm, 86, rfl⟩
abbrev main_c_13 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_14 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75_0 : Ref sig .tc := ⟨.hbm, 109, rfl⟩
abbrev main_v75_1 : Ref sig .tc := ⟨.hbm, 110, rfl⟩
abbrev main_v75_2 : Ref sig .tc := ⟨.hbm, 111, rfl⟩
abbrev main_cst_15 : Ref sig .tc := ⟨.hbm, 112, rfl⟩
abbrev main_v76 : Ref sig .tc := ⟨.hbm, 113, rfl⟩
abbrev main_v77 : Ref sig .tc := ⟨.hbm, 114, rfl⟩
abbrev main_cst_16 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_c_17 : Ref sig .tc := ⟨.hbm, 131, rfl⟩
abbrev main_v93 : Ref sig .tc := ⟨.hbm, 132, rfl⟩
abbrev main_v94 : Ref sig .tc := ⟨.hbm, 133, rfl⟩
abbrev main_c_18 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_19 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_c_20 : Ref sig .tc := ⟨.hbm, 147, rfl⟩
abbrev main_v106 : Ref sig .tc := ⟨.hbm, 148, rfl⟩
abbrev main_v107 : Ref sig .tc := ⟨.hbm, 149, rfl⟩
abbrev main_c_21 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_cst_22 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128_0 : Ref sig .tc := ⟨.hbm, 172, rfl⟩
abbrev main_v128_1 : Ref sig .tc := ⟨.hbm, 173, rfl⟩
abbrev main_v128_2 : Ref sig .tc := ⟨.hbm, 174, rfl⟩
abbrev main_cst_23 : Ref sig .tc := ⟨.hbm, 175, rfl⟩
abbrev main_v129 : Ref sig .tc := ⟨.hbm, 176, rfl⟩
abbrev main_v130 : Ref sig .tc := ⟨.hbm, 177, rfl⟩
abbrev main_cst_24 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_c_25 : Ref sig .tc := ⟨.hbm, 194, rfl⟩
abbrev main_v146 : Ref sig .tc := ⟨.hbm, 195, rfl⟩
abbrev main_v147 : Ref sig .tc := ⟨.hbm, 196, rfl⟩
abbrev main_c_26 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_cst_27 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_c_28 : Ref sig .tc := ⟨.hbm, 210, rfl⟩
abbrev main_v159 : Ref sig .tc := ⟨.hbm, 211, rfl⟩
abbrev main_v160 : Ref sig .tc := ⟨.hbm, 212, rfl⟩
abbrev main_c_29 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_cst_30 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181_0 : Ref sig .tc := ⟨.hbm, 235, rfl⟩
abbrev main_v181_1 : Ref sig .tc := ⟨.hbm, 236, rfl⟩
abbrev main_v181_2 : Ref sig .tc := ⟨.hbm, 237, rfl⟩
abbrev main_cst_31 : Ref sig .tc := ⟨.hbm, 238, rfl⟩
abbrev main_v182 : Ref sig .tc := ⟨.hbm, 239, rfl⟩
abbrev main_v183 : Ref sig .tc := ⟨.hbm, 240, rfl⟩
abbrev main_cst_32 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_c_33 : Ref sig .tc := ⟨.hbm, 257, rfl⟩
abbrev main_v199 : Ref sig .tc := ⟨.hbm, 258, rfl⟩
abbrev main_v200 : Ref sig .tc := ⟨.hbm, 259, rfl⟩
abbrev main_c_34 : Ref sig .tc := ⟨.hbm, 260, rfl⟩
abbrev main_v201 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_v205 : Ref sig .tc := ⟨.hbm, 265, rfl⟩
abbrev main_cst_35 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_cst_36 : Ref sig .tc := ⟨.hbm, 272, rfl⟩
abbrev main_v211 : Ref sig .tc := ⟨.hbm, 273, rfl⟩
abbrev main_cst_37 : Ref sig .tc := ⟨.hbm, 274, rfl⟩
abbrev main_v212 : Ref sig .tc := ⟨.hbm, 275, rfl⟩
abbrev main_c_38 : Ref sig .tc := ⟨.hbm, 276, rfl⟩
abbrev main_v213 : Ref sig .tc := ⟨.hbm, 277, rfl⟩
abbrev main_v214 : Ref sig .tc := ⟨.hbm, 278, rfl⟩
abbrev main_c_39 : Ref sig .tc := ⟨.hbm, 279, rfl⟩
abbrev main_v215 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_cst_40 : Ref sig .tc := ⟨.hbm, 285, rfl⟩
abbrev main_v220 : Ref sig .tc := ⟨.hbm, 286, rfl⟩
abbrev main_v221 : Ref sig .tc := ⟨.hbm, 287, rfl⟩
abbrev main_v222 : Ref sig .tc := ⟨.hbm, 288, rfl⟩
abbrev main_v223 : Ref sig .tc := ⟨.hbm, 289, rfl⟩
abbrev main_v224 : Ref sig .tc := ⟨.hbm, 290, rfl⟩
abbrev main_cst_41 : Ref sig .tc := ⟨.hbm, 291, rfl⟩
abbrev main_v225 : Ref sig .tc := ⟨.hbm, 292, rfl⟩
abbrev main_v226 : Ref sig .tc := ⟨.hbm, 293, rfl⟩
abbrev main_c_42 : Ref sig .tc := ⟨.hbm, 294, rfl⟩
abbrev main_v227 : Ref sig .tc := ⟨.hbm, 295, rfl⟩
abbrev main_v228 : Ref sig .tc := ⟨.hbm, 296, rfl⟩
abbrev main_c_43 : Ref sig .tc := ⟨.hbm, 297, rfl⟩
abbrev main_v229 : Ref sig .tc := ⟨.hbm, 298, rfl⟩
abbrev main_v230 : Ref sig .tc := ⟨.hbm, 299, rfl⟩
abbrev main_v231 : Ref sig .tc := ⟨.hbm, 300, rfl⟩
abbrev main_v232 : Ref sig .tc := ⟨.hbm, 301, rfl⟩
abbrev main_v233 : Ref sig .tc := ⟨.hbm, 302, rfl⟩
abbrev main_cst_44 : Ref sig .tc := ⟨.hbm, 303, rfl⟩
abbrev main_v234 : Ref sig .tc := ⟨.hbm, 304, rfl⟩
abbrev main_v235 : Ref sig .tc := ⟨.hbm, 305, rfl⟩
abbrev main_v236 : Ref sig .tc := ⟨.hbm, 306, rfl⟩
abbrev main_v237 : Ref sig .tc := ⟨.hbm, 307, rfl⟩
abbrev main_v238 : Ref sig .tc := ⟨.hbm, 308, rfl⟩
abbrev main_cst_45 : Ref sig .tc := ⟨.hbm, 309, rfl⟩
abbrev main_v239 : Ref sig .tc := ⟨.hbm, 310, rfl⟩
abbrev main_v240 : Ref sig .tc := ⟨.hbm, 311, rfl⟩
abbrev main_c_46 : Ref sig .tc := ⟨.hbm, 312, rfl⟩
abbrev main_v241 : Ref sig .tc := ⟨.hbm, 313, rfl⟩
abbrev main_v242 : Ref sig .tc := ⟨.hbm, 314, rfl⟩
abbrev main_c_47 : Ref sig .tc := ⟨.hbm, 315, rfl⟩
abbrev main_v243 : Ref sig .tc := ⟨.hbm, 316, rfl⟩
abbrev main_v244 : Ref sig .tc := ⟨.hbm, 317, rfl⟩
abbrev main_v245 : Ref sig .tc := ⟨.hbm, 318, rfl⟩
abbrev main_v246 : Ref sig .tc := ⟨.hbm, 319, rfl⟩
abbrev main_v247 : Ref sig .tc := ⟨.hbm, 320, rfl⟩
abbrev main_cst_48 : Ref sig .tc := ⟨.hbm, 321, rfl⟩
abbrev main_v248 : Ref sig .tc := ⟨.hbm, 322, rfl⟩
abbrev main_v249 : Ref sig .tc := ⟨.hbm, 323, rfl⟩
abbrev main_v250 : Ref sig .tc := ⟨.hbm, 324, rfl⟩
abbrev main_v251 : Ref sig .tc := ⟨.hbm, 325, rfl⟩
abbrev main_v252 : Ref sig .tc := ⟨.hbm, 326, rfl⟩
abbrev main_cst_49 : Ref sig .tc := ⟨.hbm, 327, rfl⟩
abbrev main_v253 : Ref sig .tc := ⟨.hbm, 328, rfl⟩
abbrev main_v254 : Ref sig .tc := ⟨.hbm, 329, rfl⟩
abbrev main_cst_50 : Ref sig .tc := ⟨.hbm, 330, rfl⟩
abbrev main_v255 : Ref sig .tc := ⟨.hbm, 331, rfl⟩
abbrev main_cst_51 : Ref sig .tc := ⟨.hbm, 332, rfl⟩
abbrev main_v256 : Ref sig .tc := ⟨.hbm, 333, rfl⟩
abbrev main_cst_52 : Ref sig .tc := ⟨.hbm, 334, rfl⟩
abbrev main_v257 : Ref sig .tc := ⟨.hbm, 335, rfl⟩
abbrev main_v258 : Ref sig .tc := ⟨.hbm, 336, rfl⟩
abbrev main_v259 : Ref sig .tc := ⟨.hbm, 337, rfl⟩
abbrev main_cst_53 : Ref sig .tc := ⟨.hbm, 338, rfl⟩
abbrev main_v260 : Ref sig .tc := ⟨.hbm, 339, rfl⟩
abbrev main_v261 : Ref sig .tc := ⟨.hbm, 340, rfl⟩
abbrev main_v262 : Ref sig .tc := ⟨.hbm, 341, rfl⟩
abbrev main_cst_54 : Ref sig .tc := ⟨.hbm, 342, rfl⟩
abbrev main_v263 : Ref sig .tc := ⟨.hbm, 343, rfl⟩
abbrev main_v264 : Ref sig .tc := ⟨.hbm, 344, rfl⟩
abbrev main_v265 : Ref sig .tc := ⟨.hbm, 345, rfl⟩
abbrev main_v266 : Ref sig .tc := ⟨.hbm, 346, rfl⟩
abbrev main_v267 : Ref sig .tc := ⟨.hbm, 347, rfl⟩
abbrev main_v268 : Ref sig .tc := ⟨.hbm, 348, rfl⟩
abbrev main_v269 : Ref sig .tc := ⟨.hbm, 349, rfl⟩
abbrev main_v270 : Ref sig .tc := ⟨.hbm, 350, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg9_0 : Ref sig .tc := ⟨.vmem, 21, rfl⟩
abbrev cc1_scratch0 : Ref sig .tc := ⟨.vmem, 22, rfl⟩
abbrev cc1_scratch1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg7_0 : Ref sig .tc := ⟨.vmem, 42, rfl⟩
abbrev cc3_stg7_1 : Ref sig .tc := ⟨.vmem, 43, rfl⟩
abbrev cc3_stg8_0 : Ref sig .tc := ⟨.vmem, 44, rfl⟩
abbrev cc3_stg9_0 : Ref sig .tc := ⟨.vmem, 45, rfl⟩
abbrev cc3_scratch0 : Ref sig .tc := ⟨.vmem, 46, rfl⟩
abbrev cc3_scratch1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg2_0 : Ref sig .tc := ⟨.vmem, 51, rfl⟩
abbrev cc4_stg3_0 : Ref sig .tc := ⟨.vmem, 52, rfl⟩
abbrev cc4_stg4_0 : Ref sig .tc := ⟨.vmem, 53, rfl⟩
abbrev cc4_stg5_0 : Ref sig .tc := ⟨.vmem, 54, rfl⟩
abbrev cc4_stg5_1 : Ref sig .tc := ⟨.vmem, 55, rfl⟩
abbrev cc5_stg0_0 : Ref sig .tc := ⟨.vmem, 56, rfl⟩
abbrev cc5_stg0_1 : Ref sig .tc := ⟨.vmem, 57, rfl⟩
abbrev cc5_stg1_0 : Ref sig .tc := ⟨.vmem, 58, rfl⟩
abbrev cc5_stg1_1 : Ref sig .tc := ⟨.vmem, 59, rfl⟩
abbrev cc5_stg2_0 : Ref sig .tc := ⟨.vmem, 60, rfl⟩
abbrev cc5_stg2_1 : Ref sig .tc := ⟨.vmem, 61, rfl⟩
abbrev cc5_stg3_0 : Ref sig .tc := ⟨.vmem, 62, rfl⟩
abbrev cc5_stg4_0 : Ref sig .tc := ⟨.vmem, 63, rfl⟩
abbrev cc5_stg5_0 : Ref sig .tc := ⟨.vmem, 64, rfl⟩
abbrev cc5_stg6_0 : Ref sig .tc := ⟨.vmem, 65, rfl⟩
abbrev cc5_stg7_0 : Ref sig .tc := ⟨.vmem, 66, rfl⟩
abbrev cc5_stg7_1 : Ref sig .tc := ⟨.vmem, 67, rfl⟩
abbrev cc5_stg8_0 : Ref sig .tc := ⟨.vmem, 68, rfl⟩
abbrev cc5_stg9_0 : Ref sig .tc := ⟨.vmem, 69, rfl⟩
abbrev cc5_scratch0 : Ref sig .tc := ⟨.vmem, 70, rfl⟩
abbrev cc5_scratch1 : Ref sig .tc := ⟨.vmem, 71, rfl⟩
abbrev cc6_stg0_0 : Ref sig .tc := ⟨.vmem, 72, rfl⟩
abbrev cc6_stg0_1 : Ref sig .tc := ⟨.vmem, 73, rfl⟩
abbrev cc6_stg1_0 : Ref sig .tc := ⟨.vmem, 74, rfl⟩
abbrev cc6_stg2_0 : Ref sig .tc := ⟨.vmem, 75, rfl⟩
abbrev cc6_stg3_0 : Ref sig .tc := ⟨.vmem, 76, rfl⟩
abbrev cc6_stg4_0 : Ref sig .tc := ⟨.vmem, 77, rfl⟩
abbrev cc6_stg5_0 : Ref sig .tc := ⟨.vmem, 78, rfl⟩
abbrev cc6_stg5_1 : Ref sig .tc := ⟨.vmem, 79, rfl⟩
abbrev cc7_stg0_0 : Ref sig .tc := ⟨.vmem, 80, rfl⟩
abbrev cc7_stg0_1 : Ref sig .tc := ⟨.vmem, 81, rfl⟩
abbrev cc7_stg1_0 : Ref sig .tc := ⟨.vmem, 82, rfl⟩
abbrev cc7_stg1_1 : Ref sig .tc := ⟨.vmem, 83, rfl⟩
abbrev cc7_stg2_0 : Ref sig .tc := ⟨.vmem, 84, rfl⟩
abbrev cc7_stg2_1 : Ref sig .tc := ⟨.vmem, 85, rfl⟩
abbrev cc7_stg3_0 : Ref sig .tc := ⟨.vmem, 86, rfl⟩
abbrev cc7_scratch0 : Ref sig .tc := ⟨.vmem, 87, rfl⟩
abbrev cc8_stg0_0 : Ref sig .tc := ⟨.vmem, 88, rfl⟩
abbrev cc8_stg0_1 : Ref sig .tc := ⟨.vmem, 89, rfl⟩
abbrev cc8_stg1_0 : Ref sig .tc := ⟨.vmem, 90, rfl⟩
abbrev cc8_stg1_1 : Ref sig .tc := ⟨.vmem, 91, rfl⟩
abbrev cc8_stg2_0 : Ref sig .tc := ⟨.vmem, 92, rfl⟩
abbrev cc8_stg2_1 : Ref sig .tc := ⟨.vmem, 93, rfl⟩
abbrev cc8_stg3_0 : Ref sig .tc := ⟨.vmem, 94, rfl⟩
abbrev cc8_scratch0 : Ref sig .tc := ⟨.vmem, 95, rfl⟩
abbrev cc9_stg0_0 : Ref sig .tc := ⟨.vmem, 96, rfl⟩
abbrev cc9_stg0_1 : Ref sig .tc := ⟨.vmem, 97, rfl⟩
abbrev cc9_stg1_0 : Ref sig .tc := ⟨.vmem, 98, rfl⟩
abbrev cc9_stg1_1 : Ref sig .tc := ⟨.vmem, 99, rfl⟩
abbrev cc9_stg2_0 : Ref sig .tc := ⟨.vmem, 100, rfl⟩
abbrev cc9_stg2_1 : Ref sig .tc := ⟨.vmem, 101, rfl⟩
abbrev cc9_stg3_0 : Ref sig .tc := ⟨.vmem, 102, rfl⟩
abbrev cc9_scratch0 : Ref sig .tc := ⟨.vmem, 103, rfl⟩
abbrev cc10_stg0_0 : Ref sig .tc := ⟨.vmem, 104, rfl⟩
abbrev cc10_stg0_1 : Ref sig .tc := ⟨.vmem, 105, rfl⟩
abbrev cc10_stg1_0 : Ref sig .tc := ⟨.vmem, 106, rfl⟩
abbrev cc10_stg1_1 : Ref sig .tc := ⟨.vmem, 107, rfl⟩
abbrev cc10_stg2_0 : Ref sig .tc := ⟨.vmem, 108, rfl⟩
abbrev cc10_stg2_1 : Ref sig .tc := ⟨.vmem, 109, rfl⟩
abbrev cc10_stg3_0 : Ref sig .tc := ⟨.vmem, 110, rfl⟩
abbrev cc10_scratch0 : Ref sig .tc := ⟨.vmem, 111, rfl⟩
abbrev cc11_stg0_0 : Ref sig .tc := ⟨.vmem, 112, rfl⟩
abbrev cc11_stg1_0 : Ref sig .tc := ⟨.vmem, 113, rfl⟩
abbrev cc11_stg2_0 : Ref sig .tc := ⟨.vmem, 114, rfl⟩
abbrev cc11_stg3_0 : Ref sig .tc := ⟨.vmem, 115, rfl⟩
abbrev cc11_stg4_0 : Ref sig .tc := ⟨.vmem, 116, rfl⟩
abbrev cc11_stg5_0 : Ref sig .tc := ⟨.vmem, 117, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc1_sem8_0 : DmaSem sig := 20
abbrev cc1_sem9_0 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem6_0 : DmaSem sig := 39
abbrev cc3_sem7_0 : DmaSem sig := 40
abbrev cc3_sem7_1 : DmaSem sig := 41
abbrev cc3_sem8_0 : DmaSem sig := 42
abbrev cc3_sem9_0 : DmaSem sig := 43
abbrev cc4_sem0_0 : DmaSem sig := 44
abbrev cc4_sem0_1 : DmaSem sig := 45
abbrev cc4_sem1_0 : DmaSem sig := 46
abbrev cc4_sem2_0 : DmaSem sig := 47
abbrev cc4_sem3_0 : DmaSem sig := 48
abbrev cc4_sem4_0 : DmaSem sig := 49
abbrev cc4_sem5_0 : DmaSem sig := 50
abbrev cc4_sem5_1 : DmaSem sig := 51
abbrev cc5_sem0_0 : DmaSem sig := 52
abbrev cc5_sem0_1 : DmaSem sig := 53
abbrev cc5_sem1_0 : DmaSem sig := 54
abbrev cc5_sem1_1 : DmaSem sig := 55
abbrev cc5_sem2_0 : DmaSem sig := 56
abbrev cc5_sem2_1 : DmaSem sig := 57
abbrev cc5_sem3_0 : DmaSem sig := 58
abbrev cc5_sem4_0 : DmaSem sig := 59
abbrev cc5_sem5_0 : DmaSem sig := 60
abbrev cc5_sem6_0 : DmaSem sig := 61
abbrev cc5_sem7_0 : DmaSem sig := 62
abbrev cc5_sem7_1 : DmaSem sig := 63
abbrev cc5_sem8_0 : DmaSem sig := 64
abbrev cc5_sem9_0 : DmaSem sig := 65
abbrev cc6_sem0_0 : DmaSem sig := 66
abbrev cc6_sem0_1 : DmaSem sig := 67
abbrev cc6_sem1_0 : DmaSem sig := 68
abbrev cc6_sem2_0 : DmaSem sig := 69
abbrev cc6_sem3_0 : DmaSem sig := 70
abbrev cc6_sem4_0 : DmaSem sig := 71
abbrev cc6_sem5_0 : DmaSem sig := 72
abbrev cc6_sem5_1 : DmaSem sig := 73
abbrev cc7_sem0_0 : DmaSem sig := 74
abbrev cc7_sem0_1 : DmaSem sig := 75
abbrev cc7_sem1_0 : DmaSem sig := 76
abbrev cc7_sem1_1 : DmaSem sig := 77
abbrev cc7_sem2_0 : DmaSem sig := 78
abbrev cc7_sem2_1 : DmaSem sig := 79
abbrev cc7_sem3_0 : DmaSem sig := 80
abbrev cc8_sem0_0 : DmaSem sig := 81
abbrev cc8_sem0_1 : DmaSem sig := 82
abbrev cc8_sem1_0 : DmaSem sig := 83
abbrev cc8_sem1_1 : DmaSem sig := 84
abbrev cc8_sem2_0 : DmaSem sig := 85
abbrev cc8_sem2_1 : DmaSem sig := 86
abbrev cc8_sem3_0 : DmaSem sig := 87
abbrev cc9_sem0_0 : DmaSem sig := 88
abbrev cc9_sem0_1 : DmaSem sig := 89
abbrev cc9_sem1_0 : DmaSem sig := 90
abbrev cc9_sem1_1 : DmaSem sig := 91
abbrev cc9_sem2_0 : DmaSem sig := 92
abbrev cc9_sem2_1 : DmaSem sig := 93
abbrev cc9_sem3_0 : DmaSem sig := 94
abbrev cc10_sem0_0 : DmaSem sig := 95
abbrev cc10_sem0_1 : DmaSem sig := 96
abbrev cc10_sem1_0 : DmaSem sig := 97
abbrev cc10_sem1_1 : DmaSem sig := 98
abbrev cc10_sem2_0 : DmaSem sig := 99
abbrev cc10_sem2_1 : DmaSem sig := 100
abbrev cc10_sem3_0 : DmaSem sig := 101
abbrev cc11_sem0_0 : DmaSem sig := 102
abbrev cc11_sem1_0 : DmaSem sig := 103
abbrev cc11_sem2_0 : DmaSem sig := 104
abbrev cc11_sem3_0 : DmaSem sig := 105
abbrev cc11_sem4_0 : DmaSem sig := 106
abbrev cc11_sem5_0 : DmaSem sig := 107

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v49 : BitVec 1 := Scalar.cmpi .eq arg0 c9_i32
  let v50 : BitVec 32 := Scalar.extui v49
  let c0_i32_29 : BitVec 32 := 0#32
  let v51 : BitVec 1 := Scalar.cmpi .ne v50 c0_i32_29
  v51

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v49 : BitVec 1 := Scalar.cmpi .eq arg0 c9_i32
  let v50 : BitVec 32 := Scalar.extui v49
  let c0_i32_29 : BitVec 32 := 0#32
  let v51 : BitVec 1 := Scalar.cmpi .ne v50 c0_i32_29
  v51

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def k5_cond2 (i : grid5.Coords) : BitVec 1 :=
  let arg0 : BitVec 32 := BitVec.ofNat 32 (i 0).val
  let c9_i32 : BitVec 32 := 9#32
  let v49 : BitVec 1 := Scalar.cmpi .eq arg0 c9_i32
  let v50 : BitVec 32 := Scalar.extui v49
  let c0_i32_29 : BitVec 32 := 0#32
  let v51 : BitVec 1 := Scalar.cmpi .ne v50 c0_i32_29
  v51

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 1 → Memref sig .tc .vmem S1x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S1x128 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![10], ![false]⟩

def k7_cond2 (i : grid7.Coords) : BitVec 1 :=
  let arg0 : BitVec 32 := BitVec.ofNat 32 (i 0).val
  let c9_i32 : BitVec 32 := 9#32
  let v26 : BitVec 1 := Scalar.cmpi .eq arg0 c9_i32
  let v27 : BitVec 32 := Scalar.extui v26
  let c0_i32_13 : BitVec 32 := 0#32
  let v28 : BitVec 1 := Scalar.cmpi .ne v27 c0_i32_13
  v28

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev grid8 : Pipeline.Grid := ⟨1, ![10], ![false]⟩

def k8_cond2 (i : grid8.Coords) : BitVec 1 :=
  let arg0 : BitVec 32 := BitVec.ofNat 32 (i 0).val
  let c9_i32 : BitVec 32 := 9#32
  let v26 : BitVec 1 := Scalar.cmpi .eq arg0 c9_i32
  let v27 : BitVec 32 := Scalar.extui v26
  let c0_i32_13 : BitVec 32 := 0#32
  let v28 : BitVec 1 := Scalar.cmpi .ne v27 c0_i32_13
  v28

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S1x1 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev grid9 : Pipeline.Grid := ⟨1, ![10], ![false]⟩

def k9_cond2 (i : grid9.Coords) : BitVec 1 :=
  let arg0 : BitVec 32 := BitVec.ofNat 32 (i 0).val
  let c9_i32 : BitVec 32 := 9#32
  let v26 : BitVec 1 := Scalar.cmpi .eq arg0 c9_i32
  let v27 : BitVec 32 := Scalar.extui v26
  let c0_i32_13 : BitVec 32 := 0#32
  let v28 : BitVec 1 := Scalar.cmpi .ne v27 c0_i32_13
  v28

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S5000x1 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S1x1 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev grid10 : Pipeline.Grid := ⟨1, ![10], ![false]⟩

def k10_cond2 (i : grid10.Coords) : BitVec 1 :=
  let arg0 : BitVec 32 := BitVec.ofNat 32 (i 0).val
  let c9_i32 : BitVec 32 := 9#32
  let v26 : BitVec 1 := Scalar.cmpi .eq arg0 c9_i32
  let v27 : BitVec 32 := Scalar.extui v26
  let c0_i32_13 : BitVec 32 := 0#32
  let v28 : BitVec 1 := Scalar.cmpi .ne v27 c0_i32_13
  v28

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S5000x1 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S1x1 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev grid11 : Pipeline.Grid := ⟨1, ![1], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 1 → Memref sig .tc .vmem S128x128 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![false]

abbrev stage11_1 : Fin 1 → Memref sig .tc .vmem S128x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S64x2 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x2 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S128x2 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S3x3x128x128_S1x1x128x128_0_0_0_0 : S3x3x128x128.Slices ![0, 0, 0, 0] S1x1x128x128
  shapeCasts_S1x1x128x128_S128x128 : S1x1x128x128.ShapeCasts S128x128
  slices_S3x3x128x128_S1x1x128x128_0_1_0_0 : S3x3x128x128.Slices ![0, 1, 0, 0] S1x1x128x128
  slices_S3x3x128x128_S1x1x128x128_0_2_0_0 : S3x3x128x128.Slices ![0, 2, 0, 0] S1x1x128x128
  slices_S3x128_S1x128_0_0 : S3x128.Slices ![0, 0] S1x128
  shapeCasts_S1x128_S128 : S1x128.ShapeCasts S128
  shapeCasts_S5000x128_S5000x128 : S5000x128.ShapeCasts S5000x128
  shapeCasts_S128x128_S128x128 : S128x128.ShapeCasts S128x128
  reduces_S5000x128_S128 : S5000x128.Reduces [0] S128
  bcast_S_S1x128 : S_.BroadcastsInDim S1x128 (![] : Fin 0 → Fin S1x128.rank)
  slices_S3x3x128x128_S1x1x128x128_1_0_0_0 : S3x3x128x128.Slices ![1, 0, 0, 0] S1x1x128x128
  slices_S3x3x128x128_S1x1x128x128_1_1_0_0 : S3x3x128x128.Slices ![1, 1, 0, 0] S1x1x128x128
  slices_S3x3x128x128_S1x1x128x128_1_2_0_0 : S3x3x128x128.Slices ![1, 2, 0, 0] S1x1x128x128
  slices_S3x128_S1x128_1_0 : S3x128.Slices ![1, 0] S1x128
  slices_S3x3x128x128_S1x1x128x128_2_0_0_0 : S3x3x128x128.Slices ![2, 0, 0, 0] S1x1x128x128
  slices_S3x3x128x128_S1x1x128x128_2_1_0_0 : S3x3x128x128.Slices ![2, 1, 0, 0] S1x1x128x128
  slices_S3x3x128x128_S1x1x128x128_2_2_0_0 : S3x3x128x128.Slices ![2, 2, 0, 0] S1x1x128x128
  slices_S3x128_S1x128_2_0 : S3x128.Slices ![2, 0] S1x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  reduces_S5000x1_S1 : S5000x1.Reduces [0] S1
  shapeCasts_S1_S1x1 : S1.ShapeCasts S1x1
  shapeCasts_S1x1_S_ : S1x1.ShapeCasts S_
  bcast_S_S128 : S_.BroadcastsInDim S128 (![] : Fin 0 → Fin S128.rank)
  bcast_S50000_S50000x1_0 : S50000.BroadcastsInDim S50000x1 (![0] : Fin 1 → Fin S50000x1.rank)
  bcast_S_S128x128 : S_.BroadcastsInDim S128x128 (![] : Fin 0 → Fin S128x128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  shapeCasts_S64_S1x64 : S64.ShapeCasts S1x64
  shapeCasts_S2_S1x2 : S2.ShapeCasts S1x2
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S128x64 : S1x64.Broadcasts S128x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S128x2 : S1x2.Broadcasts S128x2
  inb_S128x2_S128x2_0_0 : ∀ a, (![0, 0] : Fin 2 → Nat) a + S128x2.size a ≤ S128x2.size a
  h_S128x2 : 0 < S128x2.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S128_S50000x1_S50000_n_0_0_1_wf : ScatterDims.WF S128 S50000x1 S50000 [] [0] [0] 1
  scatter_S128x128_S50000x1_S50000x128_1_0_0_1_wf : ScatterDims.WF S128x128 S50000x1 S50000x128 [1] [0] [0] 1
  dot_S128x128_S128x64_S128x64_1_0_0_1_n_n_wf : DotDims.WF S128x128 S128x64 S128x64 [1] [0] [0] [1] [] []
  dot_S128x64_S64x2_S128x2_1_0_0_1_n_n_wf : DotDims.WF S128x64 S64x2 S128x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S50000x128.size a
  hwx3_7 : ∀ i : grid3.Coords, EltTy.bits .f32 = 32 ∨ (Rect.block (s := S50000x128) S5000x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x128.size a ≤ S1x128.size a
  hwx3_9 : ∀ i : grid3.Coords, EltTy.bits .f32 = 32 ∨ (Rect.block (s := S1x128) S1x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x128.size a ≤ S50000x128.size a
  hwx5_7 : ∀ i : grid5.Coords, EltTy.bits .f32 = 32 ∨ (Rect.block (s := S50000x128) S5000x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x128.size a ≤ S1x128.size a
  hwx5_8 : ∀ i : grid5.Coords, EltTy.bits .f32 = 32 ∨ (Rect.block (s := S1x128) S1x128.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S1x128.size a ≤ S1x128.size a
  hwx5_9 : ∀ i : grid5.Coords, EltTy.bits .f32 = 32 ∨ (Rect.block (s := S1x128) S1x128.size (cc5_transform_9 i) (hinb5_9 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S50000x128.size a
  hwx6_5 : ∀ i : grid6.Coords, EltTy.bits .f32 = 32 ∨ (Rect.block (s := S50000x128) S5000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S50000x128.size a
  hwx7_1 : ∀ i : grid7.Coords, EltTy.bits .f32 = 32 ∨ (Rect.block (s := S50000x128) S5000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S50000x1.size a
  hwx7_2 : ∀ i : grid7.Coords, EltTy.bits .f32 = 32 ∨ (Rect.block (s := S50000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x1.size a ≤ S1x1.size a
  hwx7_3 : ∀ i : grid7.Coords, EltTy.bits .f32 = 32 ∨ (Rect.block (s := S1x1) S1x1.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S50000x128.size a
  hwx8_1 : ∀ i : grid8.Coords, EltTy.bits .f32 = 32 ∨ (Rect.block (s := S50000x128) S5000x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x1.size a ≤ S50000x1.size a
  hwx8_2 : ∀ i : grid8.Coords, EltTy.bits .f32 = 32 ∨ (Rect.block (s := S50000x1) S5000x1.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x1.size a ≤ S1x1.size a
  hwx8_3 : ∀ i : grid8.Coords, EltTy.bits .f32 = 32 ∨ (Rect.block (s := S1x1) S1x1.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x128.size a ≤ S50000x128.size a
  hwx9_1 : ∀ i : grid9.Coords, EltTy.bits .f32 = 32 ∨ (Rect.block (s := S50000x128) S5000x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x1.size a ≤ S50000x1.size a
  hwx9_2 : ∀ i : grid9.Coords, EltTy.bits .f32 = 32 ∨ (Rect.block (s := S50000x1) S5000x1.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x1.size a ≤ S1x1.size a
  hwx9_3 : ∀ i : grid9.Coords, EltTy.bits .f32 = 32 ∨ (Rect.block (s := S1x1) S1x1.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x128.size a ≤ S50000x128.size a
  hwx10_1 : ∀ i : grid10.Coords, EltTy.bits .f32 = 32 ∨ (Rect.block (s := S50000x128) S5000x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x1.size a ≤ S50000x1.size a
  hwx10_2 : ∀ i : grid10.Coords, EltTy.bits .f32 = 32 ∨ (Rect.block (s := S50000x1) S5000x1.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x1.size a ≤ S1x1.size a
  hwx10_3 : ∀ i : grid10.Coords, EltTy.bits .f32 = 32 ∨ (Rect.block (s := S1x1) S1x1.size (cc10_transform_3 i) (hinb10_3 i)).WholeWords (EltTy.packing .f32)
  hrank11 : 0 < grid11.rank
  hstage11_0 : ∀ j, (stage11_0 j).IsWhole
  nbuf11_0 : grid11.bufCount reads11_0 true = 1
  hreads11_0 : ∀ i i' : grid11.Coords, (∀ a, reads11_0 a = true → i a = i' a) → cc11_transform_0 i = cc11_transform_0 i'
  hinb11_0 : ∀ (i : grid11.Coords) a, (cc11_transform_0 i a + 1) * S128x128.size a ≤ S128x128.size a
  hwx11_0 : ∀ i : grid11.Coords, EltTy.bits .f32 = 32 ∨ (Rect.block (s := S128x128) S128x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S128x64.size a ≤ S128x64.size a
  hwx11_1 : ∀ i : grid11.Coords, EltTy.bits .f32 = 32 ∨ (Rect.block (s := S128x64) S128x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S64x2.size a ≤ S64x2.size a
  hwx11_3 : ∀ i : grid11.Coords, EltTy.bits .f32 = 32 ∨ (Rect.block (s := S64x2) S64x2.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x2.size a ≤ S1x2.size a
  hwx11_4 : ∀ i : grid11.Coords, EltTy.bits .f32 = 32 ∨ (Rect.block (s := S1x2) S1x2.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S128x2.size a ≤ S128x2.size a
  hwx11_5 : ∀ i : grid11.Coords, EltTy.bits .f32 = 32 ∨ (Rect.block (s := S128x2) S128x2.size (cc11_transform_5 i) (hinb11_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf
def dot_S128x64_S64x2_S128x2_1_0_0_1_n_n : DotDims S128x64 S64x2 S128x2 where
  lhsContracting := [1]
  rhsContracting := [0]
  lhsNonContracting := [0]
  rhsNonContracting := [1]
  lhsBatch := []
  rhsBatch := []
  wf := dot_S128x64_S64x2_S128x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v65) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v67) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v69) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v71) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v74) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v75_0) S5000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v75_1) S1x128.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v75_2) S1x128.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev idle1 : Fin 10 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | 9 => fun i => !(k1_cond2 i == 1#1) | ⟨_ + 10, h⟩ => absurd h (Nat.not_lt.2 (Nat.le_add_left _ _))

abbrev win2_0 : Pipeline.Window sig grid2 :=
  Pipeline.Window.ofSpec (Memref.whole main_v75_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v88) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v89) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v90) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v91) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v92) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v92) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v105) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v118) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v120) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v122) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v124) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v127) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v128_0) S5000x128.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v128_1) S1x128.size cc3_transform_8 reads3_8 true true 1 stage3_8 sem3_8
    hrank3 hreads3_8 hinb3_8 nbuf3_8 (Memref.isWhole_whole _) hwx3_8 hstage3_8

abbrev win3_9 : Pipeline.Window sig grid3 :=
  Pipeline.Window.ofSpec (Memref.whole main_v128_2) S1x128.size cc3_transform_9 reads3_9 true true 1 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev idle3 : Fin 10 → grid3.Coords → Bool := fun | 0 => fun _ => false | 1 => fun _ => false | 2 => fun _ => false | 3 => fun _ => false | 4 => fun _ => false | 5 => fun _ => false | 6 => fun _ => false | 7 => fun _ => false | 8 => fun i => !(k3_cond2 i == 1#1) | 9 => fun i => !(k3_cond2 i == 1#1) | ⟨_ + 10, h⟩ => absurd h (Nat.not_lt.2 (Nat.le_add_left _ _))

abbrev win4_0 : Pipeline.Window sig grid4 :=
  Pipeline.Window.ofSpec (Memref.whole main_v128_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v141) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v142) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v143) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v144) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v145) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v145) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v158) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v171) S5000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v173) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v175) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v177) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v180) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v181_0) S5000x128.size cc5_transform_7 reads5_7 true false 2 stage5_7 sem5_7
    hrank5 hreads5_7 hinb5_7 nbuf5_7 (Memref.isWhole_whole _) hwx5_7 hstage5_7

abbrev win5_8 : Pipeline.Window sig grid5 :=
  Pipeline.Window.ofSpec (Memref.whole main_v181_1) S1x128.size cc5_transform_8 reads5_8 true true 1 stage5_8 sem5_8
    hrank5 hreads5_8 hinb5_8 nbuf5_8 (Memref.isWhole_whole _) hwx5_8 hstage5_8

abbrev win5_9 : Pipeline.Window sig grid5 :=
  Pipeline.Window.ofSpec (Memref.whole main_v181_2) S1x128.size cc5_transform_9 reads5_9 true true 1 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

abbrev idle5 : Fin 10 → grid5.Coords → Bool := fun | 0 => fun _ => false | 1 => fun _ => false | 2 => fun _ => false | 3 => fun _ => false | 4 => fun _ => false | 5 => fun _ => false | 6 => fun _ => false | 7 => fun _ => false | 8 => fun i => !(k5_cond2 i == 1#1) | 9 => fun i => !(k5_cond2 i == 1#1) | ⟨_ + 10, h⟩ => absurd h (Nat.not_lt.2 (Nat.le_add_left _ _))

abbrev win6_0 : Pipeline.Window sig grid6 :=
  Pipeline.Window.ofSpec (Memref.whole main_v181_0) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v194) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v195) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v196) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v197) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v198) S5000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v39) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v208) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v35) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v209) S1x1.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun _ => false | 3 => fun i => !(k7_cond2 i == 1#1) | ⟨_ + 4, h⟩ => absurd h (Nat.not_lt.2 (Nat.le_add_left _ _))

abbrev win8_0 : Pipeline.Window sig grid8 :=
  Pipeline.Window.ofSpec (Memref.whole main_v92) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v222) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v35) S5000x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v223) S1x1.size cc8_transform_3 reads8_3 true true 1 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev idle8 : Fin 4 → grid8.Coords → Bool := fun | 0 => fun _ => false | 1 => fun _ => false | 2 => fun _ => false | 3 => fun i => !(k8_cond2 i == 1#1) | ⟨_ + 4, h⟩ => absurd h (Nat.not_lt.2 (Nat.le_add_left _ _))

abbrev win9_0 : Pipeline.Window sig grid9 :=
  Pipeline.Window.ofSpec (Memref.whole main_v145) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v236) S5000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v35) S5000x1.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v237) S1x1.size cc9_transform_3 reads9_3 true true 1 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev idle9 : Fin 4 → grid9.Coords → Bool := fun | 0 => fun _ => false | 1 => fun _ => false | 2 => fun _ => false | 3 => fun i => !(k9_cond2 i == 1#1) | ⟨_ + 4, h⟩ => absurd h (Nat.not_lt.2 (Nat.le_add_left _ _))

abbrev win10_0 : Pipeline.Window sig grid10 :=
  Pipeline.Window.ofSpec (Memref.whole main_v198) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v250) S5000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v35) S5000x1.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v251) S1x1.size cc10_transform_3 reads10_3 true true 1 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev idle10 : Fin 4 → grid10.Coords → Bool := fun | 0 => fun _ => false | 1 => fun _ => false | 2 => fun _ => false | 3 => fun i => !(k10_cond2 i == 1#1) | ⟨_ + 4, h⟩ => absurd h (Nat.not_lt.2 (Nat.le_add_left _ _))

abbrev win11_0 : Pipeline.Window sig grid11 :=
  Pipeline.Window.ofSpec (Memref.whole main_v267) S128x128.size cc11_transform_0 reads11_0 false true 1 stage11_0 sem11_0
    hrank11 hreads11_0 hinb11_0 nbuf11_0 (Memref.isWhole_whole _) hwx11_0 hstage11_0

abbrev win11_1 : Pipeline.Window sig grid11 :=
  Pipeline.Window.ofSpec (Memref.whole main_arg9) S128x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v268) S1x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_arg11) S64x2.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v269) S1x2.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v270) S128x2.size cc11_transform_5 reads11_5 true true 1 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S3x3x128x128 : Shape := ⟨4, ![3, 3, 128, 128]⟩
abbrev S3x128 : Shape := ⟨2, ![3, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x128 : Shape := ⟨2, ![1, 128]⟩
abbrev S50000x1 : Shape := ⟨2, ![50000, 1]⟩
abbrev S1x1x128x128 : Shape := ⟨4, ![1, 1, 128, 128]⟩
abbrev S800000x128 : Shape := ⟨2, ![800000, 128]⟩
abbrev S128x1 : Shape := ⟨2, ![128, 1]⟩
abbrev S1x64 : Shape := ⟨2, ![1, 64]⟩
abbrev S128x2 : Shape := ⟨2, ![128, 2]⟩
abbrev S1x2 : Shape := ⟨2, ![1, 2]⟩

abbrev nBuf : Space → Nat
  | .hbm => 554
  | .vmem => 0
  | .smem => 0
  | _ => 0

abbrev hbmTy0_0 (i : Nat) : BufTy := match i % 128 with
  | 0 => ⟨S50000x128, .f32⟩
  | 1 => ⟨S128x128, .f32⟩
  | 2 => ⟨S128, .f32⟩
  | 3 => ⟨S128, .f32⟩
  | 4 => ⟨S128, .f32⟩
  | 5 => ⟨S3x3x128x128, .f32⟩
  | 6 => ⟨S3x128, .f32⟩
  | 7 => ⟨S3x128, .f32⟩
  | 8 => ⟨S3x128, .f32⟩
  | 9 => ⟨S128x64, .f32⟩
  | 10 => ⟨S64, .f32⟩
  | 11 => ⟨S64x2, .f32⟩
  | 12 => ⟨S2, .f32⟩
  | 13 => ⟨S2x800000, .i32⟩
  | 14 => ⟨S50000, .i32⟩
  | 15 => ⟨S1x800000, .i32⟩
  | 16 => ⟨S800000, .i32⟩
  | 17 => ⟨S1x800000, .i32⟩
  | 18 => ⟨S800000, .i32⟩
  | 19 => ⟨S_, .f32⟩
  | 20 => ⟨S800000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S50000, .i1⟩
  | 28 => ⟨S_, .f32⟩
  | 29 => ⟨S50000, .f32⟩
  | 30 => ⟨S50000, .f32⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S800000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000, .f32⟩
  | 55 => ⟨S800000, .f32⟩
  | 56 => ⟨S50000x128, .f32⟩
  | 57 => ⟨S1x128, .f32⟩
  | 58 => ⟨S50000x128, .f32⟩
  | 59 => ⟨S50000x128, .f32⟩
  | 60 => ⟨S_, .f32⟩
  | 61 => ⟨S50000, .f32⟩
  | 62 => ⟨S50000x1, .f32⟩
  | 63 => ⟨S_, .f32⟩
  | 64 => ⟨S50000x1, .f32⟩
  | 65 => ⟨S50000x1, .f32⟩
  | 66 => ⟨S_, .i32⟩
  | 67 => ⟨S_, .f32⟩
  | 68 => ⟨S50000, .f32⟩
  | 69 => ⟨S50000x1, .f32⟩
  | 70 => ⟨S_, .f32⟩
  | 71 => ⟨S50000x1, .f32⟩
  | 72 => ⟨S50000x1, .f32⟩
  | 73 => ⟨S50000x128, .f32⟩
  | 74 => ⟨S50000x128, .f32⟩
  | 75 => ⟨S50000x128, .f32⟩
  | 76 => ⟨S_, .f32⟩
  | 77 => ⟨S_, .f32⟩
  | 78 => ⟨S_, .f32⟩
  | 79 => ⟨S_, .f32⟩
  | 80 => ⟨S50000, .f32⟩
  | 81 => ⟨S50000x1, .f32⟩
  | 82 => ⟨S50000x1, .f32⟩
  | 83 => ⟨S50000x1, .f32⟩
  | 84 => ⟨S_, .f32⟩
  | 85 => ⟨S_, .i1⟩
  | 86 => ⟨S_, .f32⟩
  | 87 => ⟨S_, .f32⟩
  | 88 => ⟨S50000x1, .f32⟩
  | 89 => ⟨S50000x1, .f32⟩
  | 90 => ⟨S50000x128, .f32⟩
  | 91 => ⟨S50000x128, .f32⟩
  | 92 => ⟨S_, .f32⟩
  | 93 => ⟨S50000x1, .f32⟩
  | 94 => ⟨S50000x1, .f32⟩
  | 95 => ⟨S50000x1, .f32⟩
  | 96 => ⟨S50000x128, .f32⟩
  | 97 => ⟨S50000x128, .f32⟩
  | 98 => ⟨S1x128, .f32⟩
  | 99 => ⟨S50000x128, .f32⟩
  | 100 => ⟨S50000x128, .f32⟩
  | 101 => ⟨S1x128, .f32⟩
  | 102 => ⟨S50000x128, .f32⟩
  | 103 => ⟨S50000x128, .f32⟩
  | 104 => ⟨S_, .f32⟩
  | 105 => ⟨S50000x128, .f32⟩
  | 106 => ⟨S50000x128, .f32⟩
  | 107 => ⟨S1x1x128x128, .f32⟩
  | 108 => ⟨S128x128, .f32⟩
  | 109 => ⟨S50000x128, .f32⟩
  | 110 => ⟨S800000x1, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x128, .f32⟩
  | 120 => ⟨S800000x128, .f32⟩
  | 121 => ⟨S800000x128, .f32⟩
  | 122 => ⟨S_, .f32⟩
  | 123 => ⟨S50000x128, .f32⟩
  | 124 => ⟨S800000x1, .i32⟩
  | 125 => ⟨S50000x128, .f32⟩
  | 126 => ⟨S1x1x128x128, .f32⟩
  | 127 => ⟨S128x128, .f32⟩
  | _ => ⟨S50000x128, .f32⟩

abbrev hbmTy0_1 (i : Nat) : BufTy := match i % 128 with
  | 0 => ⟨S50000x128, .f32⟩
  | 1 => ⟨S50000x128, .f32⟩
  | 2 => ⟨S800000x1, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000x128, .f32⟩
  | 12 => ⟨S800000x128, .f32⟩
  | 13 => ⟨S800000x128, .f32⟩
  | 14 => ⟨S_, .f32⟩
  | 15 => ⟨S50000x128, .f32⟩
  | 16 => ⟨S800000x1, .i32⟩
  | 17 => ⟨S50000x128, .f32⟩
  | 18 => ⟨S_, .f32⟩
  | 19 => ⟨S50000x128, .f32⟩
  | 20 => ⟨S50000x128, .f32⟩
  | 21 => ⟨S50000x128, .f32⟩
  | 22 => ⟨S1x1x128x128, .f32⟩
  | 23 => ⟨S128x128, .f32⟩
  | 24 => ⟨S50000x128, .f32⟩
  | 25 => ⟨S50000x128, .f32⟩
  | 26 => ⟨S1x128, .f32⟩
  | 27 => ⟨S128, .f32⟩
  | 28 => ⟨S1x128, .f32⟩
  | 29 => ⟨S50000x128, .f32⟩
  | 30 => ⟨S50000x128, .f32⟩
  | 31 => ⟨S_, .f32⟩
  | 32 => ⟨S128, .f32⟩
  | 33 => ⟨S_, .f32⟩
  | 34 => ⟨S128, .f32⟩
  | 35 => ⟨S128, .f32⟩
  | 36 => ⟨S_, .i32⟩
  | 37 => ⟨S_, .f32⟩
  | 38 => ⟨S128, .f32⟩
  | 39 => ⟨S1x128, .f32⟩
  | 40 => ⟨S_, .f32⟩
  | 41 => ⟨S1x128, .f32⟩
  | 42 => ⟨S1x128, .f32⟩
  | 43 => ⟨S50000x128, .f32⟩
  | 44 => ⟨S50000x128, .f32⟩
  | 45 => ⟨S50000x128, .f32⟩
  | 46 => ⟨S_, .f32⟩
  | 47 => ⟨S_, .f32⟩
  | 48 => ⟨S_, .f32⟩
  | 49 => ⟨S_, .f32⟩
  | 50 => ⟨S128, .f32⟩
  | 51 => ⟨S128, .f32⟩
  | 52 => ⟨S128, .f32⟩
  | 53 => ⟨S_, .f32⟩
  | 54 => ⟨S_, .i1⟩
  | 55 => ⟨S_, .f32⟩
  | 56 => ⟨S_, .f32⟩
  | 57 => ⟨S128, .f32⟩
  | 58 => ⟨S128, .f32⟩
  | 59 => ⟨S1x128, .f32⟩
  | 60 => ⟨S50000x128, .f32⟩
  | 61 => ⟨S50000x128, .f32⟩
  | 62 => ⟨S_, .f32⟩
  | 63 => ⟨S128, .f32⟩
  | 64 => ⟨S128, .f32⟩
  | 65 => ⟨S128, .f32⟩
  | 66 => ⟨S1x128, .f32⟩
  | 67 => ⟨S50000x128, .f32⟩
  | 68 => ⟨S50000x128, .f32⟩
  | 69 => ⟨S1x128, .f32⟩
  | 70 => ⟨S128, .f32⟩
  | 71 => ⟨S1x128, .f32⟩
  | 72 => ⟨S50000x128, .f32⟩
  | 73 => ⟨S50000x128, .f32⟩
  | 74 => ⟨S1x128, .f32⟩
  | 75 => ⟨S128, .f32⟩
  | 76 => ⟨S1x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S1x1x128x128, .f32⟩
  | 83 => ⟨S128x128, .f32⟩
  | 84 => ⟨S50000x128, .f32⟩
  | 85 => ⟨S800000x1, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x128, .f32⟩
  | 95 => ⟨S800000x128, .f32⟩
  | 96 => ⟨S800000x128, .f32⟩
  | 97 => ⟨S_, .f32⟩
  | 98 => ⟨S50000x128, .f32⟩
  | 99 => ⟨S800000x1, .i32⟩
  | 100 => ⟨S50000x128, .f32⟩
  | 101 => ⟨S1x1x128x128, .f32⟩
  | 102 => ⟨S128x128, .f32⟩
  | 103 => ⟨S50000x128, .f32⟩
  | 104 => ⟨S50000x128, .f32⟩
  | 105 => ⟨S800000x1, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x128, .f32⟩
  | 115 => ⟨S800000x128, .f32⟩
  | 116 => ⟨S800000x128, .f32⟩
  | 117 => ⟨S_, .f32⟩
  | 118 => ⟨S50000x128, .f32⟩
  | 119 => ⟨S800000x1, .i32⟩
  | 120 => ⟨S50000x128, .f32⟩
  | 121 => ⟨S_, .f32⟩
  | 122 => ⟨S50000x128, .f32⟩
  | 123 => ⟨S50000x128, .f32⟩
  | 124 => ⟨S50000x128, .f32⟩
  | 125 => ⟨S1x1x128x128, .f32⟩
  | 126 => ⟨S128x128, .f32⟩
  | 127 => ⟨S50000x128, .f32⟩
  | _ => ⟨S50000x128, .f32⟩

abbrev hbmTy0_2 (i : Nat) : BufTy := match i % 128 with
  | 0 => ⟨S50000x128, .f32⟩
  | 1 => ⟨S1x128, .f32⟩
  | 2 => ⟨S128, .f32⟩
  | 3 => ⟨S1x128, .f32⟩
  | 4 => ⟨S50000x128, .f32⟩
  | 5 => ⟨S50000x128, .f32⟩
  | 6 => ⟨S_, .f32⟩
  | 7 => ⟨S128, .f32⟩
  | 8 => ⟨S_, .f32⟩
  | 9 => ⟨S128, .f32⟩
  | 10 => ⟨S128, .f32⟩
  | 11 => ⟨S_, .i32⟩
  | 12 => ⟨S_, .f32⟩
  | 13 => ⟨S128, .f32⟩
  | 14 => ⟨S1x128, .f32⟩
  | 15 => ⟨S_, .f32⟩
  | 16 => ⟨S1x128, .f32⟩
  | 17 => ⟨S1x128, .f32⟩
  | 18 => ⟨S50000x128, .f32⟩
  | 19 => ⟨S50000x128, .f32⟩
  | 20 => ⟨S50000x128, .f32⟩
  | 21 => ⟨S_, .f32⟩
  | 22 => ⟨S_, .f32⟩
  | 23 => ⟨S_, .f32⟩
  | 24 => ⟨S_, .f32⟩
  | 25 => ⟨S128, .f32⟩
  | 26 => ⟨S128, .f32⟩
  | 27 => ⟨S128, .f32⟩
  | 28 => ⟨S_, .f32⟩
  | 29 => ⟨S_, .i1⟩
  | 30 => ⟨S_, .f32⟩
  | 31 => ⟨S_, .f32⟩
  | 32 => ⟨S128, .f32⟩
  | 33 => ⟨S128, .f32⟩
  | 34 => ⟨S1x128, .f32⟩
  | 35 => ⟨S50000x128, .f32⟩
  | 36 => ⟨S50000x128, .f32⟩
  | 37 => ⟨S_, .f32⟩
  | 38 => ⟨S128, .f32⟩
  | 39 => ⟨S128, .f32⟩
  | 40 => ⟨S128, .f32⟩
  | 41 => ⟨S1x128, .f32⟩
  | 42 => ⟨S50000x128, .f32⟩
  | 43 => ⟨S50000x128, .f32⟩
  | 44 => ⟨S1x128, .f32⟩
  | 45 => ⟨S128, .f32⟩
  | 46 => ⟨S1x128, .f32⟩
  | 47 => ⟨S50000x128, .f32⟩
  | 48 => ⟨S50000x128, .f32⟩
  | 49 => ⟨S1x128, .f32⟩
  | 50 => ⟨S128, .f32⟩
  | 51 => ⟨S1x128, .f32⟩
  | 52 => ⟨S50000x128, .f32⟩
  | 53 => ⟨S50000x128, .f32⟩
  | 54 => ⟨S_, .f32⟩
  | 55 => ⟨S50000x128, .f32⟩
  | 56 => ⟨S50000x128, .f32⟩
  | 57 => ⟨S1x1x128x128, .f32⟩
  | 58 => ⟨S128x128, .f32⟩
  | 59 => ⟨S50000x128, .f32⟩
  | 60 => ⟨S800000x1, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x128, .f32⟩
  | 70 => ⟨S800000x128, .f32⟩
  | 71 => ⟨S800000x128, .f32⟩
  | 72 => ⟨S_, .f32⟩
  | 73 => ⟨S50000x128, .f32⟩
  | 74 => ⟨S800000x1, .i32⟩
  | 75 => ⟨S50000x128, .f32⟩
  | 76 => ⟨S1x1x128x128, .f32⟩
  | 77 => ⟨S128x128, .f32⟩
  | 78 => ⟨S50000x128, .f32⟩
  | 79 => ⟨S50000x128, .f32⟩
  | 80 => ⟨S800000x1, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000x128, .f32⟩
  | 90 => ⟨S800000x128, .f32⟩
  | 91 => ⟨S800000x128, .f32⟩
  | 92 => ⟨S_, .f32⟩
  | 93 => ⟨S50000x128, .f32⟩
  | 94 => ⟨S800000x1, .i32⟩
  | 95 => ⟨S50000x128, .f32⟩
  | 96 => ⟨S_, .f32⟩
  | 97 => ⟨S50000x128, .f32⟩
  | 98 => ⟨S50000x128, .f32⟩
  | 99 => ⟨S50000x128, .f32⟩
  | 100 => ⟨S1x1x128x128, .f32⟩
  | 101 => ⟨S128x128, .f32⟩
  | 102 => ⟨S50000x128, .f32⟩
  | 103 => ⟨S50000x128, .f32⟩
  | 104 => ⟨S1x128, .f32⟩
  | 105 => ⟨S128, .f32⟩
  | 106 => ⟨S1x128, .f32⟩
  | 107 => ⟨S50000x128, .f32⟩
  | 108 => ⟨S50000x128, .f32⟩
  | 109 => ⟨S_, .f32⟩
  | 110 => ⟨S128, .f32⟩
  | 111 => ⟨S_, .f32⟩
  | 112 => ⟨S128, .f32⟩
  | 113 => ⟨S128, .f32⟩
  | 114 => ⟨S_, .i32⟩
  | 115 => ⟨S_, .f32⟩
  | 116 => ⟨S128, .f32⟩
  | 117 => ⟨S1x128, .f32⟩
  | 118 => ⟨S_, .f32⟩
  | 119 => ⟨S1x128, .f32⟩
  | 120 => ⟨S1x128, .f32⟩
  | 121 => ⟨S50000x128, .f32⟩
  | 122 => ⟨S50000x128, .f32⟩
  | 123 => ⟨S50000x128, .f32⟩
  | 124 => ⟨S_, .f32⟩
  | 125 => ⟨S_, .f32⟩
  | 126 => ⟨S_, .f32⟩
  | 127 => ⟨S_, .f32⟩
  | _ => ⟨S50000x128, .f32⟩

abbrev hbmTy0_3 (i : Nat) : BufTy := match i % 128 with
  | 0 => ⟨S128, .f32⟩
  | 1 => ⟨S128, .f32⟩
  | 2 => ⟨S128, .f32⟩
  | 3 => ⟨S_, .f32⟩
  | 4 => ⟨S_, .i1⟩
  | 5 => ⟨S_, .f32⟩
  | 6 => ⟨S_, .f32⟩
  | 7 => ⟨S128, .f32⟩
  | 8 => ⟨S128, .f32⟩
  | 9 => ⟨S1x128, .f32⟩
  | 10 => ⟨S50000x128, .f32⟩
  | 11 => ⟨S50000x128, .f32⟩
  | 12 => ⟨S_, .f32⟩
  | 13 => ⟨S128, .f32⟩
  | 14 => ⟨S128, .f32⟩
  | 15 => ⟨S128, .f32⟩
  | 16 => ⟨S1x128, .f32⟩
  | 17 => ⟨S50000x128, .f32⟩
  | 18 => ⟨S50000x128, .f32⟩
  | 19 => ⟨S1x128, .f32⟩
  | 20 => ⟨S128, .f32⟩
  | 21 => ⟨S1x128, .f32⟩
  | 22 => ⟨S50000x128, .f32⟩
  | 23 => ⟨S50000x128, .f32⟩
  | 24 => ⟨S1x128, .f32⟩
  | 25 => ⟨S128, .f32⟩
  | 26 => ⟨S1x128, .f32⟩
  | 27 => ⟨S50000x128, .f32⟩
  | 28 => ⟨S50000x128, .f32⟩
  | 29 => ⟨S_, .f32⟩
  | 30 => ⟨S50000x128, .f32⟩
  | 31 => ⟨S50000x128, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x128, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x128, .f32⟩
  | 50 => ⟨S800000x128, .f32⟩
  | 51 => ⟨S800000x128, .f32⟩
  | 52 => ⟨S_, .f32⟩
  | 53 => ⟨S800000, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000x128, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x128, .f32⟩
  | 78 => ⟨S800000x128, .f32⟩
  | 79 => ⟨S800000x128, .f32⟩
  | 80 => ⟨S_, .f32⟩
  | 81 => ⟨S800000, .f32⟩
  | 82 => ⟨S_, .f32⟩
  | 83 => ⟨S_, .f32⟩
  | 84 => ⟨S_, .f32⟩
  | 85 => ⟨S_, .f32⟩
  | 86 => ⟨S_, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x128, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x128, .f32⟩
  | 105 => ⟨S800000x128, .f32⟩
  | 106 => ⟨S800000x128, .f32⟩
  | 107 => ⟨S_, .f32⟩
  | 108 => ⟨S800000, .f32⟩
  | 109 => ⟨S_, .f32⟩
  | 110 => ⟨S_, .f32⟩
  | 111 => ⟨S_, .f32⟩
  | 112 => ⟨S_, .f32⟩
  | 113 => ⟨S_, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000x128, .f32⟩
  | 123 => ⟨S_, .i32⟩
  | 124 => ⟨S800000, .i32⟩
  | 125 => ⟨S800000, .i1⟩
  | 126 => ⟨S_, .i32⟩
  | 127 => ⟨S800000, .i32⟩
  | _ => ⟨S50000x128, .f32⟩

abbrev hbmTy0_4 (i : Nat) : BufTy := match i % 128 with
  | 0 => ⟨S800000, .i32⟩
  | 1 => ⟨S800000, .i32⟩
  | 2 => ⟨S800000x1, .i32⟩
  | 3 => ⟨S800000x128, .f32⟩
  | 4 => ⟨S800000x128, .f32⟩
  | 5 => ⟨S800000x128, .f32⟩
  | 6 => ⟨S_, .f32⟩
  | 7 => ⟨S800000, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S50000, .f32⟩
  | 17 => ⟨S_, .f32⟩
  | 18 => ⟨S128, .f32⟩
  | 19 => ⟨S50000x1, .i32⟩
  | 20 => ⟨S128, .f32⟩
  | 21 => ⟨S_, .f32⟩
  | 22 => ⟨S128x128, .f32⟩
  | 23 => ⟨S50000x1, .i32⟩
  | 24 => ⟨S128x128, .f32⟩
  | 25 => ⟨S_, .f32⟩
  | 26 => ⟨S128, .f32⟩
  | 27 => ⟨S128, .f32⟩
  | 28 => ⟨S128x1, .f32⟩
  | 29 => ⟨S128x128, .f32⟩
  | 30 => ⟨S128x128, .f32⟩
  | 31 => ⟨S128x64, .f32⟩
  | 32 => ⟨S1x64, .f32⟩
  | 33 => ⟨S128x64, .f32⟩
  | 34 => ⟨S128x64, .f32⟩
  | 35 => ⟨S_, .f32⟩
  | 36 => ⟨S128x64, .f32⟩
  | 37 => ⟨S128x64, .f32⟩
  | 38 => ⟨S128x2, .f32⟩
  | 39 => ⟨S1x2, .f32⟩
  | 40 => ⟨S128x2, .f32⟩
  | 41 => ⟨S128x2, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v13 : Ref sig .tc := ⟨.hbm, 35, rfl⟩
abbrev main_c : Ref sig .tc := ⟨.hbm, 36, rfl⟩
abbrev main_v14 : Ref sig .tc := ⟨.hbm, 37, rfl⟩
abbrev main_v15 : Ref sig .tc := ⟨.hbm, 38, rfl⟩
abbrev main_c_4 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_5 : Ref sig .tc := ⟨.hbm, 46, rfl⟩
abbrev main_v22 : Ref sig .tc := ⟨.hbm, 47, rfl⟩
abbrev main_v23 : Ref sig .tc := ⟨.hbm, 48, rfl⟩
abbrev main_c_6 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_7 : Ref sig .tc := ⟨.hbm, 60, rfl⟩
abbrev main_v34 : Ref sig .tc := ⟨.hbm, 61, rfl⟩
abbrev main_v35 : Ref sig .tc := ⟨.hbm, 62, rfl⟩
abbrev main_cst_8 : Ref sig .tc := ⟨.hbm, 63, rfl⟩
abbrev main_v36 : Ref sig .tc := ⟨.hbm, 64, rfl⟩
abbrev main_v37 : Ref sig .tc := ⟨.hbm, 65, rfl⟩
abbrev main_c_9 : Ref sig .tc := ⟨.hbm, 66, rfl⟩
abbrev main_call1_cst : Ref sig .tc := ⟨.hbm, 67, rfl⟩
abbrev main_call1_v0 : Ref sig .tc := ⟨.hbm, 68, rfl⟩
abbrev main_call1_v1 : Ref sig .tc := ⟨.hbm, 69, rfl⟩
abbrev main_call1_cst_0 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_v6 : Ref sig .tc := ⟨.hbm, 75, rfl⟩
abbrev main_call1_v7 : Ref sig .tc := ⟨.hbm, 76, rfl⟩
abbrev main_call1_cst_1 : Ref sig .tc := ⟨.hbm, 77, rfl⟩
abbrev main_call1_v8 : Ref sig .tc := ⟨.hbm, 78, rfl⟩
abbrev main_call1_cst_2 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_v12 : Ref sig .tc := ⟨.hbm, 83, rfl⟩
abbrev main_call1_cst_3 : Ref sig .tc := ⟨.hbm, 84, rfl⟩
abbrev main_call1_v13 : Ref sig .tc := ⟨.hbm, 85, rfl⟩
abbrev main_call1_cst_4 : Ref sig .tc := ⟨.hbm, 86, rfl⟩
abbrev main_call1_call0_v0 : Ref sig .tc := ⟨.hbm, 87, rfl⟩
abbrev main_call1_call0_v1 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_cst_10 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_call2_cst : Ref sig .tc := ⟨.hbm, 104, rfl⟩
abbrev main_call2_v0 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_c_11 : Ref sig .tc := ⟨.hbm, 111, rfl⟩
abbrev main_v57 : Ref sig .tc := ⟨.hbm, 112, rfl⟩
abbrev main_v58 : Ref sig .tc := ⟨.hbm, 113, rfl⟩
abbrev main_c_12 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_cst_13 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_c_14 : Ref sig .tc := ⟨.hbm, 131, rfl⟩
abbrev main_v74 : Ref sig .tc := ⟨.hbm, 132, rfl⟩
abbrev main_v75 : Ref sig .tc := ⟨.hbm, 133, rfl⟩
abbrev main_c_15 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_cst_16 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_cst_17 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_cst_18 : Ref sig .tc := ⟨.hbm, 159, rfl⟩
abbrev main_v98 : Ref sig .tc := ⟨.hbm, 160, rfl⟩
abbrev main_cst_19 : Ref sig .tc := ⟨.hbm, 161, rfl⟩
abbrev main_v99 : Ref sig .tc := ⟨.hbm, 162, rfl⟩
abbrev main_v100 : Ref sig .tc := ⟨.hbm, 163, rfl⟩
abbrev main_c_20 : Ref sig .tc := ⟨.hbm, 164, rfl⟩
abbrev main_call3_cst : Ref sig .tc := ⟨.hbm, 165, rfl⟩
abbrev main_call3_v0 : Ref sig .tc := ⟨.hbm, 166, rfl⟩
abbrev main_call3_v1 : Ref sig .tc := ⟨.hbm, 167, rfl⟩
abbrev main_call3_cst_0 : Ref sig .tc := ⟨.hbm, 168, rfl⟩
abbrev main_call3_v2 : Ref sig .tc := ⟨.hbm, 169, rfl⟩
abbrev main_call3_v3 : Ref sig .tc := ⟨.hbm, 170, rfl⟩
abbrev main_call3_v4 : Ref sig .tc := ⟨.hbm, 171, rfl⟩
abbrev main_call3_v5 : Ref sig .tc := ⟨.hbm, 172, rfl⟩
abbrev main_call3_v6 : Ref sig .tc := ⟨.hbm, 173, rfl⟩
abbrev main_call3_v7 : Ref sig .tc := ⟨.hbm, 174, rfl⟩
abbrev main_call3_cst_1 : Ref sig .tc := ⟨.hbm, 175, rfl⟩
abbrev main_call3_v8 : Ref sig .tc := ⟨.hbm, 176, rfl⟩
abbrev main_call3_cst_2 : Ref sig .tc := ⟨.hbm, 177, rfl⟩
abbrev main_call3_v9 : Ref sig .tc := ⟨.hbm, 178, rfl⟩
abbrev main_call3_v10 : Ref sig .tc := ⟨.hbm, 179, rfl⟩
abbrev main_call3_v11 : Ref sig .tc := ⟨.hbm, 180, rfl⟩
abbrev main_call3_cst_3 : Ref sig .tc := ⟨.hbm, 181, rfl⟩
abbrev main_call3_v12 : Ref sig .tc := ⟨.hbm, 182, rfl⟩
abbrev main_call3_cst_4 : Ref sig .tc := ⟨.hbm, 183, rfl⟩
abbrev main_call3_call0_v0 : Ref sig .tc := ⟨.hbm, 184, rfl⟩
abbrev main_call3_call0_v1 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_cst_21 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_v112 : Ref sig .tc := ⟨.hbm, 198, rfl⟩
abbrev main_v113 : Ref sig .tc := ⟨.hbm, 199, rfl⟩
abbrev main_v114 : Ref sig .tc := ⟨.hbm, 200, rfl⟩
abbrev main_v115 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_call4_cst : Ref sig .tc := ⟨.hbm, 207, rfl⟩
abbrev main_call4_v0 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_v124 : Ref sig .tc := ⟨.hbm, 212, rfl⟩
abbrev main_v125 : Ref sig .tc := ⟨.hbm, 213, rfl⟩
abbrev main_c_22 : Ref sig .tc := ⟨.hbm, 214, rfl⟩
abbrev main_v126 : Ref sig .tc := ⟨.hbm, 215, rfl⟩
abbrev main_v127 : Ref sig .tc := ⟨.hbm, 216, rfl⟩
abbrev main_c_23 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_v131 : Ref sig .tc := ⟨.hbm, 221, rfl⟩
abbrev main_v132 : Ref sig .tc := ⟨.hbm, 222, rfl⟩
abbrev main_v133 : Ref sig .tc := ⟨.hbm, 223, rfl⟩
abbrev main_v134 : Ref sig .tc := ⟨.hbm, 224, rfl⟩
abbrev main_cst_24 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_v138 : Ref sig .tc := ⟨.hbm, 229, rfl⟩
abbrev main_v139 : Ref sig .tc := ⟨.hbm, 230, rfl⟩
abbrev main_v140 : Ref sig .tc := ⟨.hbm, 231, rfl⟩
abbrev main_v141 : Ref sig .tc := ⟨.hbm, 232, rfl⟩
abbrev main_v142 : Ref sig .tc := ⟨.hbm, 233, rfl⟩
abbrev main_c_25 : Ref sig .tc := ⟨.hbm, 234, rfl⟩
abbrev main_v143 : Ref sig .tc := ⟨.hbm, 235, rfl⟩
abbrev main_v144 : Ref sig .tc := ⟨.hbm, 236, rfl⟩
abbrev main_c_26 : Ref sig .tc := ⟨.hbm, 237, rfl⟩
abbrev main_v145 : Ref sig .tc := ⟨.hbm, 238, rfl⟩
abbrev main_v146 : Ref sig .tc := ⟨.hbm, 239, rfl⟩
abbrev main_v147 : Ref sig .tc := ⟨.hbm, 240, rfl⟩
abbrev main_v148 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_cst_27 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_cst_28 : Ref sig .tc := ⟨.hbm, 249, rfl⟩
abbrev main_v155 : Ref sig .tc := ⟨.hbm, 250, rfl⟩
abbrev main_v156 : Ref sig .tc := ⟨.hbm, 251, rfl⟩
abbrev main_v157 : Ref sig .tc := ⟨.hbm, 252, rfl⟩
abbrev main_v158 : Ref sig .tc := ⟨.hbm, 253, rfl⟩
abbrev main_v159 : Ref sig .tc := ⟨.hbm, 254, rfl⟩
abbrev main_v160 : Ref sig .tc := ⟨.hbm, 255, rfl⟩
abbrev main_v161 : Ref sig .tc := ⟨.hbm, 256, rfl⟩
abbrev main_v162 : Ref sig .tc := ⟨.hbm, 257, rfl⟩
abbrev main_v163 : Ref sig .tc := ⟨.hbm, 258, rfl⟩
abbrev main_v164 : Ref sig .tc := ⟨.hbm, 259, rfl⟩
abbrev main_v165 : Ref sig .tc := ⟨.hbm, 260, rfl⟩
abbrev main_v166 : Ref sig .tc := ⟨.hbm, 261, rfl⟩
abbrev main_cst_29 : Ref sig .tc := ⟨.hbm, 262, rfl⟩
abbrev main_v167 : Ref sig .tc := ⟨.hbm, 263, rfl⟩
abbrev main_cst_30 : Ref sig .tc := ⟨.hbm, 264, rfl⟩
abbrev main_v168 : Ref sig .tc := ⟨.hbm, 265, rfl⟩
abbrev main_v169 : Ref sig .tc := ⟨.hbm, 266, rfl⟩
abbrev main_c_31 : Ref sig .tc := ⟨.hbm, 267, rfl⟩
abbrev main_call5_cst : Ref sig .tc := ⟨.hbm, 268, rfl⟩
abbrev main_call5_v0 : Ref sig .tc := ⟨.hbm, 269, rfl⟩
abbrev main_call5_v1 : Ref sig .tc := ⟨.hbm, 270, rfl⟩
abbrev main_call5_cst_0 : Ref sig .tc := ⟨.hbm, 271, rfl⟩
abbrev main_call5_v2 : Ref sig .tc := ⟨.hbm, 272, rfl⟩
abbrev main_call5_v3 : Ref sig .tc := ⟨.hbm, 273, rfl⟩
abbrev main_call5_v4 : Ref sig .tc := ⟨.hbm, 274, rfl⟩
abbrev main_call5_v5 : Ref sig .tc := ⟨.hbm, 275, rfl⟩
abbrev main_call5_v6 : Ref sig .tc := ⟨.hbm, 276, rfl⟩
abbrev main_call5_v7 : Ref sig .tc := ⟨.hbm, 277, rfl⟩
abbrev main_call5_cst_1 : Ref sig .tc := ⟨.hbm, 278, rfl⟩
abbrev main_call5_v8 : Ref sig .tc := ⟨.hbm, 279, rfl⟩
abbrev main_call5_cst_2 : Ref sig .tc := ⟨.hbm, 280, rfl⟩
abbrev main_call5_v9 : Ref sig .tc := ⟨.hbm, 281, rfl⟩
abbrev main_call5_v10 : Ref sig .tc := ⟨.hbm, 282, rfl⟩
abbrev main_call5_v11 : Ref sig .tc := ⟨.hbm, 283, rfl⟩
abbrev main_call5_cst_3 : Ref sig .tc := ⟨.hbm, 284, rfl⟩
abbrev main_call5_v12 : Ref sig .tc := ⟨.hbm, 285, rfl⟩
abbrev main_call5_cst_4 : Ref sig .tc := ⟨.hbm, 286, rfl⟩
abbrev main_call5_call0_v0 : Ref sig .tc := ⟨.hbm, 287, rfl⟩
abbrev main_call5_call0_v1 : Ref sig .tc := ⟨.hbm, 288, rfl⟩
abbrev main_v170 : Ref sig .tc := ⟨.hbm, 289, rfl⟩
abbrev main_v171 : Ref sig .tc := ⟨.hbm, 290, rfl⟩
abbrev main_v172 : Ref sig .tc := ⟨.hbm, 291, rfl⟩
abbrev main_v173 : Ref sig .tc := ⟨.hbm, 292, rfl⟩
abbrev main_cst_32 : Ref sig .tc := ⟨.hbm, 293, rfl⟩
abbrev main_v174 : Ref sig .tc := ⟨.hbm, 294, rfl⟩
abbrev main_v175 : Ref sig .tc := ⟨.hbm, 295, rfl⟩
abbrev main_v176 : Ref sig .tc := ⟨.hbm, 296, rfl⟩
abbrev main_v177 : Ref sig .tc := ⟨.hbm, 297, rfl⟩
abbrev main_v178 : Ref sig .tc := ⟨.hbm, 298, rfl⟩
abbrev main_v179 : Ref sig .tc := ⟨.hbm, 299, rfl⟩
abbrev main_v180 : Ref sig .tc := ⟨.hbm, 300, rfl⟩
abbrev main_v181 : Ref sig .tc := ⟨.hbm, 301, rfl⟩
abbrev main_v182 : Ref sig .tc := ⟨.hbm, 302, rfl⟩
abbrev main_v183 : Ref sig .tc := ⟨.hbm, 303, rfl⟩
abbrev main_v184 : Ref sig .tc := ⟨.hbm, 304, rfl⟩
abbrev main_v185 : Ref sig .tc := ⟨.hbm, 305, rfl⟩
abbrev main_v186 : Ref sig .tc := ⟨.hbm, 306, rfl⟩
abbrev main_v187 : Ref sig .tc := ⟨.hbm, 307, rfl⟩
abbrev main_v188 : Ref sig .tc := ⟨.hbm, 308, rfl⟩
abbrev main_v189 : Ref sig .tc := ⟨.hbm, 309, rfl⟩
abbrev main_call6_cst : Ref sig .tc := ⟨.hbm, 310, rfl⟩
abbrev main_call6_v0 : Ref sig .tc := ⟨.hbm, 311, rfl⟩
abbrev main_v190 : Ref sig .tc := ⟨.hbm, 312, rfl⟩
abbrev main_v191 : Ref sig .tc := ⟨.hbm, 313, rfl⟩
abbrev main_v192 : Ref sig .tc := ⟨.hbm, 314, rfl⟩
abbrev main_v193 : Ref sig .tc := ⟨.hbm, 315, rfl⟩
abbrev main_v194 : Ref sig .tc := ⟨.hbm, 316, rfl⟩
abbrev main_c_33 : Ref sig .tc := ⟨.hbm, 317, rfl⟩
abbrev main_v195 : Ref sig .tc := ⟨.hbm, 318, rfl⟩
abbrev main_v196 : Ref sig .tc := ⟨.hbm, 319, rfl⟩
abbrev main_c_34 : Ref sig .tc := ⟨.hbm, 320, rfl⟩
abbrev main_v197 : Ref sig .tc := ⟨.hbm, 321, rfl⟩
abbrev main_v198 : Ref sig .tc := ⟨.hbm, 322, rfl⟩
abbrev main_v199 : Ref sig .tc := ⟨.hbm, 323, rfl⟩
abbrev main_v200 : Ref sig .tc := ⟨.hbm, 324, rfl⟩
abbrev main_v201 : Ref sig .tc := ⟨.hbm, 325, rfl⟩
abbrev main_v202 : Ref sig .tc := ⟨.hbm, 326, rfl⟩
abbrev main_v203 : Ref sig .tc := ⟨.hbm, 327, rfl⟩
abbrev main_cst_35 : Ref sig .tc := ⟨.hbm, 328, rfl⟩
abbrev main_v204 : Ref sig .tc := ⟨.hbm, 329, rfl⟩
abbrev main_v205 : Ref sig .tc := ⟨.hbm, 330, rfl⟩
abbrev main_v206 : Ref sig .tc := ⟨.hbm, 331, rfl⟩
abbrev main_v207 : Ref sig .tc := ⟨.hbm, 332, rfl⟩
abbrev main_v208 : Ref sig .tc := ⟨.hbm, 333, rfl⟩
abbrev main_v209 : Ref sig .tc := ⟨.hbm, 334, rfl⟩
abbrev main_v210 : Ref sig .tc := ⟨.hbm, 335, rfl⟩
abbrev main_v211 : Ref sig .tc := ⟨.hbm, 336, rfl⟩
abbrev main_c_36 : Ref sig .tc := ⟨.hbm, 337, rfl⟩
abbrev main_v212 : Ref sig .tc := ⟨.hbm, 338, rfl⟩
abbrev main_v213 : Ref sig .tc := ⟨.hbm, 339, rfl⟩
abbrev main_c_37 : Ref sig .tc := ⟨.hbm, 340, rfl⟩
abbrev main_v214 : Ref sig .tc := ⟨.hbm, 341, rfl⟩
abbrev main_v215 : Ref sig .tc := ⟨.hbm, 342, rfl⟩
abbrev main_v216 : Ref sig .tc := ⟨.hbm, 343, rfl⟩
abbrev main_v217 : Ref sig .tc := ⟨.hbm, 344, rfl⟩
abbrev main_v218 : Ref sig .tc := ⟨.hbm, 345, rfl⟩
abbrev main_v219 : Ref sig .tc := ⟨.hbm, 346, rfl⟩
abbrev main_v220 : Ref sig .tc := ⟨.hbm, 347, rfl⟩
abbrev main_cst_38 : Ref sig .tc := ⟨.hbm, 348, rfl⟩
abbrev main_v221 : Ref sig .tc := ⟨.hbm, 349, rfl⟩
abbrev main_v222 : Ref sig .tc := ⟨.hbm, 350, rfl⟩
abbrev main_v223 : Ref sig .tc := ⟨.hbm, 351, rfl⟩
abbrev main_cst_39 : Ref sig .tc := ⟨.hbm, 352, rfl⟩
abbrev main_v224 : Ref sig .tc := ⟨.hbm, 353, rfl⟩
abbrev main_v225 : Ref sig .tc := ⟨.hbm, 354, rfl⟩
abbrev main_v226 : Ref sig .tc := ⟨.hbm, 355, rfl⟩
abbrev main_v227 : Ref sig .tc := ⟨.hbm, 356, rfl⟩
abbrev main_v228 : Ref sig .tc := ⟨.hbm, 357, rfl⟩
abbrev main_v229 : Ref sig .tc := ⟨.hbm, 358, rfl⟩
abbrev main_v230 : Ref sig .tc := ⟨.hbm, 359, rfl⟩
abbrev main_v231 : Ref sig .tc := ⟨.hbm, 360, rfl⟩
abbrev main_v232 : Ref sig .tc := ⟨.hbm, 361, rfl⟩
abbrev main_v233 : Ref sig .tc := ⟨.hbm, 362, rfl⟩
abbrev main_v234 : Ref sig .tc := ⟨.hbm, 363, rfl⟩
abbrev main_v235 : Ref sig .tc := ⟨.hbm, 364, rfl⟩
abbrev main_cst_40 : Ref sig .tc := ⟨.hbm, 365, rfl⟩
abbrev main_v236 : Ref sig .tc := ⟨.hbm, 366, rfl⟩
abbrev main_cst_41 : Ref sig .tc := ⟨.hbm, 367, rfl⟩
abbrev main_v237 : Ref sig .tc := ⟨.hbm, 368, rfl⟩
abbrev main_v238 : Ref sig .tc := ⟨.hbm, 369, rfl⟩
abbrev main_c_42 : Ref sig .tc := ⟨.hbm, 370, rfl⟩
abbrev main_call7_cst : Ref sig .tc := ⟨.hbm, 371, rfl⟩
abbrev main_call7_v0 : Ref sig .tc := ⟨.hbm, 372, rfl⟩
abbrev main_call7_v1 : Ref sig .tc := ⟨.hbm, 373, rfl⟩
abbrev main_call7_cst_0 : Ref sig .tc := ⟨.hbm, 374, rfl⟩
abbrev main_call7_v2 : Ref sig .tc := ⟨.hbm, 375, rfl⟩
abbrev main_call7_v3 : Ref sig .tc := ⟨.hbm, 376, rfl⟩
abbrev main_call7_v4 : Ref sig .tc := ⟨.hbm, 377, rfl⟩
abbrev main_call7_v5 : Ref sig .tc := ⟨.hbm, 378, rfl⟩
abbrev main_call7_v6 : Ref sig .tc := ⟨.hbm, 379, rfl⟩
abbrev main_call7_v7 : Ref sig .tc := ⟨.hbm, 380, rfl⟩
abbrev main_call7_cst_1 : Ref sig .tc := ⟨.hbm, 381, rfl⟩
abbrev main_call7_v8 : Ref sig .tc := ⟨.hbm, 382, rfl⟩
abbrev main_call7_cst_2 : Ref sig .tc := ⟨.hbm, 383, rfl⟩
abbrev main_call7_v9 : Ref sig .tc := ⟨.hbm, 384, rfl⟩
abbrev main_call7_v10 : Ref sig .tc := ⟨.hbm, 385, rfl⟩
abbrev main_call7_v11 : Ref sig .tc := ⟨.hbm, 386, rfl⟩
abbrev main_call7_cst_3 : Ref sig .tc := ⟨.hbm, 387, rfl⟩
abbrev main_call7_v12 : Ref sig .tc := ⟨.hbm, 388, rfl⟩
abbrev main_call7_cst_4 : Ref sig .tc := ⟨.hbm, 389, rfl⟩
abbrev main_call7_call0_v0 : Ref sig .tc := ⟨.hbm, 390, rfl⟩
abbrev main_call7_call0_v1 : Ref sig .tc := ⟨.hbm, 391, rfl⟩
abbrev main_v239 : Ref sig .tc := ⟨.hbm, 392, rfl⟩
abbrev main_v240 : Ref sig .tc := ⟨.hbm, 393, rfl⟩
abbrev main_v241 : Ref sig .tc := ⟨.hbm, 394, rfl⟩
abbrev main_v242 : Ref sig .tc := ⟨.hbm, 395, rfl⟩
abbrev main_cst_43 : Ref sig .tc := ⟨.hbm, 396, rfl⟩
abbrev main_v243 : Ref sig .tc := ⟨.hbm, 397, rfl⟩
abbrev main_v244 : Ref sig .tc := ⟨.hbm, 398, rfl⟩
abbrev main_v245 : Ref sig .tc := ⟨.hbm, 399, rfl⟩
abbrev main_v246 : Ref sig .tc := ⟨.hbm, 400, rfl⟩
abbrev main_v247 : Ref sig .tc := ⟨.hbm, 401, rfl⟩
abbrev main_v248 : Ref sig .tc := ⟨.hbm, 402, rfl⟩
abbrev main_v249 : Ref sig .tc := ⟨.hbm, 403, rfl⟩
abbrev main_v250 : Ref sig .tc := ⟨.hbm, 404, rfl⟩
abbrev main_v251 : Ref sig .tc := ⟨.hbm, 405, rfl⟩
abbrev main_v252 : Ref sig .tc := ⟨.hbm, 406, rfl⟩
abbrev main_v253 : Ref sig .tc := ⟨.hbm, 407, rfl⟩
abbrev main_v254 : Ref sig .tc := ⟨.hbm, 408, rfl⟩
abbrev main_v255 : Ref sig .tc := ⟨.hbm, 409, rfl⟩
abbrev main_v256 : Ref sig .tc := ⟨.hbm, 410, rfl⟩
abbrev main_v257 : Ref sig .tc := ⟨.hbm, 411, rfl⟩
abbrev main_v258 : Ref sig .tc := ⟨.hbm, 412, rfl⟩
abbrev main_call8_cst : Ref sig .tc := ⟨.hbm, 413, rfl⟩
abbrev main_call8_v0 : Ref sig .tc := ⟨.hbm, 414, rfl⟩
abbrev main_v259 : Ref sig .tc := ⟨.hbm, 415, rfl⟩
abbrev main_c_44 : Ref sig .tc := ⟨.hbm, 416, rfl⟩
abbrev main_v260 : Ref sig .tc := ⟨.hbm, 417, rfl⟩
abbrev main_v261 : Ref sig .tc := ⟨.hbm, 418, rfl⟩
abbrev main_c_45 : Ref sig .tc := ⟨.hbm, 419, rfl⟩
abbrev main_v262 : Ref sig .tc := ⟨.hbm, 420, rfl⟩
abbrev main_v263 : Ref sig .tc := ⟨.hbm, 421, rfl⟩
abbrev main_v264 : Ref sig .tc := ⟨.hbm, 422, rfl⟩
abbrev main_v265 : Ref sig .tc := ⟨.hbm, 423, rfl⟩
abbrev main_v266 : Ref sig .tc := ⟨.hbm, 424, rfl⟩
abbrev main_c_46 : Ref sig .tc := ⟨.hbm, 425, rfl⟩
abbrev main_v267 : Ref sig .tc := ⟨.hbm, 426, rfl⟩
abbrev main_v268 : Ref sig .tc := ⟨.hbm, 427, rfl⟩
abbrev main_c_47 : Ref sig .tc := ⟨.hbm, 428, rfl⟩
abbrev main_v269 : Ref sig .tc := ⟨.hbm, 429, rfl⟩
abbrev main_v270 : Ref sig .tc := ⟨.hbm, 430, rfl⟩
abbrev main_v271 : Ref sig .tc := ⟨.hbm, 431, rfl⟩
abbrev main_v272 : Ref sig .tc := ⟨.hbm, 432, rfl⟩
abbrev main_v273 : Ref sig .tc := ⟨.hbm, 433, rfl⟩
abbrev main_v274 : Ref sig .tc := ⟨.hbm, 434, rfl⟩
abbrev main_v275 : Ref sig .tc := ⟨.hbm, 435, rfl⟩
abbrev main_cst_48 : Ref sig .tc := ⟨.hbm, 436, rfl⟩
abbrev main_v276 : Ref sig .tc := ⟨.hbm, 437, rfl⟩
abbrev main_cst_49 : Ref sig .tc := ⟨.hbm, 438, rfl⟩
abbrev main_v277 : Ref sig .tc := ⟨.hbm, 439, rfl⟩
abbrev main_cst_50 : Ref sig .tc := ⟨.hbm, 440, rfl⟩
abbrev main_v278 : Ref sig .tc := ⟨.hbm, 441, rfl⟩
abbrev main_cst_51 : Ref sig .tc := ⟨.hbm, 442, rfl⟩
abbrev main_v279 : Ref sig .tc := ⟨.hbm, 443, rfl⟩
abbrev main_c_52 : Ref sig .tc := ⟨.hbm, 444, rfl⟩
abbrev main_v280 : Ref sig .tc := ⟨.hbm, 445, rfl⟩
abbrev main_v281 : Ref sig .tc := ⟨.hbm, 446, rfl⟩
abbrev main_c_53 : Ref sig .tc := ⟨.hbm, 447, rfl⟩
abbrev main_v282 : Ref sig .tc := ⟨.hbm, 448, rfl⟩
abbrev main_v283 : Ref sig .tc := ⟨.hbm, 449, rfl⟩
abbrev main_v284 : Ref sig .tc := ⟨.hbm, 450, rfl⟩
abbrev main_v285 : Ref sig .tc := ⟨.hbm, 451, rfl⟩
abbrev main_v286 : Ref sig .tc := ⟨.hbm, 452, rfl⟩
abbrev main_c_54 : Ref sig .tc := ⟨.hbm, 453, rfl⟩
abbrev main_v287 : Ref sig .tc := ⟨.hbm, 454, rfl⟩
abbrev main_v288 : Ref sig .tc := ⟨.hbm, 455, rfl⟩
abbrev main_c_55 : Ref sig .tc := ⟨.hbm, 456, rfl⟩
abbrev main_v289 : Ref sig .tc := ⟨.hbm, 457, rfl⟩
abbrev main_v290 : Ref sig .tc := ⟨.hbm, 458, rfl⟩
abbrev main_v291 : Ref sig .tc := ⟨.hbm, 459, rfl⟩
abbrev main_v292 : Ref sig .tc := ⟨.hbm, 460, rfl⟩
abbrev main_v293 : Ref sig .tc := ⟨.hbm, 461, rfl⟩
abbrev main_v294 : Ref sig .tc := ⟨.hbm, 462, rfl⟩
abbrev main_v295 : Ref sig .tc := ⟨.hbm, 463, rfl⟩
abbrev main_cst_56 : Ref sig .tc := ⟨.hbm, 464, rfl⟩
abbrev main_v296 : Ref sig .tc := ⟨.hbm, 465, rfl⟩
abbrev main_cst_57 : Ref sig .tc := ⟨.hbm, 466, rfl⟩
abbrev main_v297 : Ref sig .tc := ⟨.hbm, 467, rfl⟩
abbrev main_cst_58 : Ref sig .tc := ⟨.hbm, 468, rfl⟩
abbrev main_v298 : Ref sig .tc := ⟨.hbm, 469, rfl⟩
abbrev main_v299 : Ref sig .tc := ⟨.hbm, 470, rfl⟩
abbrev main_c_59 : Ref sig .tc := ⟨.hbm, 471, rfl⟩
abbrev main_v300 : Ref sig .tc := ⟨.hbm, 472, rfl⟩
abbrev main_v301 : Ref sig .tc := ⟨.hbm, 473, rfl⟩
abbrev main_c_60 : Ref sig .tc := ⟨.hbm, 474, rfl⟩
abbrev main_v302 : Ref sig .tc := ⟨.hbm, 475, rfl⟩
abbrev main_v303 : Ref sig .tc := ⟨.hbm, 476, rfl⟩
abbrev main_v304 : Ref sig .tc := ⟨.hbm, 477, rfl⟩
abbrev main_v305 : Ref sig .tc := ⟨.hbm, 478, rfl⟩
abbrev main_v306 : Ref sig .tc := ⟨.hbm, 479, rfl⟩
abbrev main_c_61 : Ref sig .tc := ⟨.hbm, 480, rfl⟩
abbrev main_v307 : Ref sig .tc := ⟨.hbm, 481, rfl⟩
abbrev main_v308 : Ref sig .tc := ⟨.hbm, 482, rfl⟩
abbrev main_c_62 : Ref sig .tc := ⟨.hbm, 483, rfl⟩
abbrev main_v309 : Ref sig .tc := ⟨.hbm, 484, rfl⟩
abbrev main_v310 : Ref sig .tc := ⟨.hbm, 485, rfl⟩
abbrev main_v311 : Ref sig .tc := ⟨.hbm, 486, rfl⟩
abbrev main_v312 : Ref sig .tc := ⟨.hbm, 487, rfl⟩
abbrev main_v313 : Ref sig .tc := ⟨.hbm, 488, rfl⟩
abbrev main_v314 : Ref sig .tc := ⟨.hbm, 489, rfl⟩
abbrev main_v315 : Ref sig .tc := ⟨.hbm, 490, rfl⟩
abbrev main_cst_63 : Ref sig .tc := ⟨.hbm, 491, rfl⟩
abbrev main_v316 : Ref sig .tc := ⟨.hbm, 492, rfl⟩
abbrev main_cst_64 : Ref sig .tc := ⟨.hbm, 493, rfl⟩
abbrev main_v317 : Ref sig .tc := ⟨.hbm, 494, rfl⟩
abbrev main_cst_65 : Ref sig .tc := ⟨.hbm, 495, rfl⟩
abbrev main_v318 : Ref sig .tc := ⟨.hbm, 496, rfl⟩
abbrev main_v319 : Ref sig .tc := ⟨.hbm, 497, rfl⟩
abbrev main_c_66 : Ref sig .tc := ⟨.hbm, 498, rfl⟩
abbrev main_v320 : Ref sig .tc := ⟨.hbm, 499, rfl⟩
abbrev main_v321 : Ref sig .tc := ⟨.hbm, 500, rfl⟩
abbrev main_c_67 : Ref sig .tc := ⟨.hbm, 501, rfl⟩
abbrev main_v322 : Ref sig .tc := ⟨.hbm, 502, rfl⟩
abbrev main_v323 : Ref sig .tc := ⟨.hbm, 503, rfl⟩
abbrev main_v324 : Ref sig .tc := ⟨.hbm, 504, rfl⟩
abbrev main_v325 : Ref sig .tc := ⟨.hbm, 505, rfl⟩
abbrev main_v326 : Ref sig .tc := ⟨.hbm, 506, rfl⟩
abbrev main_c_68 : Ref sig .tc := ⟨.hbm, 507, rfl⟩
abbrev main_v327 : Ref sig .tc := ⟨.hbm, 508, rfl⟩
abbrev main_v328 : Ref sig .tc := ⟨.hbm, 509, rfl⟩
abbrev main_c_69 : Ref sig .tc := ⟨.hbm, 510, rfl⟩
abbrev main_v329 : Ref sig .tc := ⟨.hbm, 511, rfl⟩
abbrev main_v330 : Ref sig .tc := ⟨.hbm, 512, rfl⟩
abbrev main_v331 : Ref sig .tc := ⟨.hbm, 513, rfl⟩
abbrev main_v332 : Ref sig .tc := ⟨.hbm, 514, rfl⟩
abbrev main_v333 : Ref sig .tc := ⟨.hbm, 515, rfl⟩
abbrev main_v334 : Ref sig .tc := ⟨.hbm, 516, rfl⟩
abbrev main_v335 : Ref sig .tc := ⟨.hbm, 517, rfl⟩
abbrev main_cst_70 : Ref sig .tc := ⟨.hbm, 518, rfl⟩
abbrev main_v336 : Ref sig .tc := ⟨.hbm, 519, rfl⟩
abbrev main_cst_71 : Ref sig .tc := ⟨.hbm, 520, rfl⟩
abbrev main_v337 : Ref sig .tc := ⟨.hbm, 521, rfl⟩
abbrev main_cst_72 : Ref sig .tc := ⟨.hbm, 522, rfl⟩
abbrev main_v338 : Ref sig .tc := ⟨.hbm, 523, rfl⟩
abbrev main_v339 : Ref sig .tc := ⟨.hbm, 524, rfl⟩
abbrev main_cst_73 : Ref sig .tc := ⟨.hbm, 525, rfl⟩
abbrev main_v340 : Ref sig .tc := ⟨.hbm, 526, rfl⟩
abbrev main_cst_74 : Ref sig .tc := ⟨.hbm, 527, rfl⟩
abbrev main_v341 : Ref sig .tc := ⟨.hbm, 528, rfl⟩
abbrev main_cst_75 : Ref sig .tc := ⟨.hbm, 529, rfl⟩
abbrev main_v342 : Ref sig .tc := ⟨.hbm, 530, rfl⟩
abbrev main_v343 : Ref sig .tc := ⟨.hbm, 531, rfl⟩
abbrev main_v344 : Ref sig .tc := ⟨.hbm, 532, rfl⟩
abbrev main_cst_76 : Ref sig .tc := ⟨.hbm, 533, rfl⟩
abbrev main_v345 : Ref sig .tc := ⟨.hbm, 534, rfl⟩
abbrev main_v346 : Ref sig .tc := ⟨.hbm, 535, rfl⟩
abbrev main_v347 : Ref sig .tc := ⟨.hbm, 536, rfl⟩
abbrev main_cst_77 : Ref sig .tc := ⟨.hbm, 537, rfl⟩
abbrev main_v348 : Ref sig .tc := ⟨.hbm, 538, rfl⟩
abbrev main_v349 : Ref sig .tc := ⟨.hbm, 539, rfl⟩
abbrev main_v350 : Ref sig .tc := ⟨.hbm, 540, rfl⟩
abbrev main_v351 : Ref sig .tc := ⟨.hbm, 541, rfl⟩
abbrev main_v352 : Ref sig .tc := ⟨.hbm, 542, rfl⟩
abbrev main_v353 : Ref sig .tc := ⟨.hbm, 543, rfl⟩
abbrev main_v354 : Ref sig .tc := ⟨.hbm, 544, rfl⟩
abbrev main_v355 : Ref sig .tc := ⟨.hbm, 545, rfl⟩
abbrev main_v356 : Ref sig .tc := ⟨.hbm, 546, rfl⟩
abbrev main_call9_cst : Ref sig .tc := ⟨.hbm, 547, rfl⟩
abbrev main_call9_v0 : Ref sig .tc := ⟨.hbm, 548, rfl⟩
abbrev main_v357 : Ref sig .tc := ⟨.hbm, 549, rfl⟩
abbrev main_v358 : Ref sig .tc := ⟨.hbm, 550, rfl⟩
abbrev main_v359 : Ref sig .tc := ⟨.hbm, 551, rfl⟩
abbrev main_v360 : Ref sig .tc := ⟨.hbm, 552, rfl⟩
abbrev main_v361 : Ref sig .tc := ⟨.hbm, 553, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  slices_S3x3x128x128_S1x1x128x128_0_0_0_0 : S3x3x128x128.Slices ![0, 0, 0, 0] S1x1x128x128
  shapeCasts_S1x1x128x128_S128x128 : S1x1x128x128.ShapeCasts S128x128
  bcast_S800000x1_S800000x128_0_1 : S800000x1.BroadcastsInDim S800000x128 (![0, 1] : Fin 2 → Fin S800000x128.rank)
  slices_S3x3x128x128_S1x1x128x128_0_1_0_0 : S3x3x128x128.Slices ![0, 1, 0, 0] S1x1x128x128
  slices_S3x3x128x128_S1x1x128x128_0_2_0_0 : S3x3x128x128.Slices ![0, 2, 0, 0] S1x1x128x128
  slices_S3x128_S1x128_0_0 : S3x128.Slices ![0, 0] S1x128
  shapeCasts_S1x128_S128 : S1x128.ShapeCasts S128
  reducesTo_S50000x128_S128_d0 : S50000x128.ReducesTo [0] S128
  bcast_S_S128 : S_.BroadcastsInDim S128 (![] : Fin 0 → Fin S128.rank)
  bcast_S_S1x128 : S_.BroadcastsInDim S1x128 (![] : Fin 0 → Fin S1x128.rank)
  slices_S3x3x128x128_S1x1x128x128_1_0_0_0 : S3x3x128x128.Slices ![1, 0, 0, 0] S1x1x128x128
  slices_S3x3x128x128_S1x1x128x128_1_1_0_0 : S3x3x128x128.Slices ![1, 1, 0, 0] S1x1x128x128
  slices_S3x3x128x128_S1x1x128x128_1_2_0_0 : S3x3x128x128.Slices ![1, 2, 0, 0] S1x1x128x128
  slices_S3x128_S1x128_1_0 : S3x128.Slices ![1, 0] S1x128
  slices_S3x3x128x128_S1x1x128x128_2_0_0_0 : S3x3x128x128.Slices ![2, 0, 0, 0] S1x1x128x128
  slices_S3x3x128x128_S1x1x128x128_2_1_0_0 : S3x3x128x128.Slices ![2, 1, 0, 0] S1x1x128x128
  slices_S3x3x128x128_S1x1x128x128_2_2_0_0 : S3x3x128x128.Slices ![2, 2, 0, 0] S1x1x128x128
  slices_S3x128_S1x128_2_0 : S3x128.Slices ![2, 0] S1x128
  reducesTo_S800000x128_S800000_d1 : S800000x128.ReducesTo [1] S800000
  reducesTo_S800000_S_d0 : S800000.ReducesTo [0] S_
  bcast_S_S128x128 : S_.BroadcastsInDim S128x128 (![] : Fin 0 → Fin S128x128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  bcast_S_S128x64 : S_.BroadcastsInDim S128x64 (![] : Fin 0 → Fin S128x64.rank)
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S128_S50000x1_S50000_n_0_0_1_wf : ScatterDims.WF S128 S50000x1 S50000 [] [0] [0] 1
  scatter_S128x128_S50000x1_S50000x128_1_0_0_1_wf : ScatterDims.WF S128x128 S50000x1 S50000x128 [1] [0] [0] 1
  dot_S128x128_S128x64_S128x64_1_0_0_1_n_n_wf : DotDims.WF S128x128 S128x64 S128x64 [1] [0] [0] [1] [] []
  dot_S128x64_S64x2_S128x2_1_0_0_1_n_n_wf : DotDims.WF S128x64 S64x2 S128x2 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf
def dot_S128x64_S64x2_S128x2_1_0_0_1_n_n : DotDims S128x64 S64x2 S128x2 where
  lhsContracting := [1]
  rhsContracting := [0]
  lhsNonContracting := [0]
  rhsNonContracting := [1]
  lhsBatch := []
  rhsBatch := []
  wf := dot_S128x64_S64x2_S128x2_1_0_0_1_n_n_wf

class Facts : Prop extends Facts₀ where

variable [Facts]
-- ==== Proof.KB.Iface.lean ====
/-
  The shared header of the kernel program's hand-written run: what every region module and the run import, the
  type of a region's entry contents, and the one resource that passes through every region's invariant.
  The kernel program is twelve pipelined regions among thirteen stretches of host operations. Each region is
  described at a PARAMETER: the contents of the TensorCore's buffers when the region is entered. The run then folds
  these descriptions through the program, from the launch memory to the return.
-/
import proofs.«160050_j32744830665390_2_alg».proof.Proof.Gen.Kernel.Launch
import proofs.«160050_j32744830665390_2_alg».proof.Proof.Gen.Kernel.Skeleton
import proofs.«160050_j32744830665390_2_alg».proof.Proof.Gen.Kernel.Points
import Idealize.ShloMosaic.Lib.Pipeline.FrameBody
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-- The contents of a TensorCore's buffers at the moment a region is entered, for every core: the parameter each
    region's proof data, invariant and body obligation are stated at. -/
abbrev Entry (F : FTy → Type) : Type :=
  (c : Dev nD) → (b : Ref sig .tc) → Buf (Elt F) ((c : Thread nD τ).loc b)

variable {F : FTy → Type} [FloatOps F]

local notation "𝕄" => MT nD τ sig Unit (Elt F) ℕ (UR sig nD τ) ℕ

/-- The core's generator register at some state: it enters every region's invariant at the first point and is
    given back at the last, whether the region draws from it or not. -/
abbrev Xr (c : Dev nD) : sProp 𝕄 := iprop(∃ r, prngReg c r)

end Cert.Kernel.Hand

end
-- ==== Proof.KB.RegionOf.lean ====
/-
  A pipelined region of the kernel program as a segment of its run, stated once for a region index: the region
  splits its windows' arrays out of the core's unscoped buffers, runs its pipeline, and puts them back.
-/
import proofs.«160050_j32744830665390_2_alg».proof.Proof.KB.Iface
import proofs.«160050_j32744830665390_2_alg».proof.Proof.Gen.Kernel.Regions

-- memberships decided over the program's references recurse past the default depth
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! # A pipelined region as a segment of the run

Every one of the twelve regions enters the run the same way. Between two segments a core holds every unscoped buffer
whole, at a named valuation, beside its generator register and the statement that it owes no other core anything. A
region splits its windows' arrays out of those buffers, runs its pipeline from the proof data's entry contents, and
puts the arrays back at what the write-backs leave; the generator register passes through the invariant; the
unscoped buffers that are no window's array bypass the region untouched. This is said once, for a region index `p`. -/

/-- No variant is measured: the program has no loop on the host. -/
abbrev noVariants : Variants := Variants.none
/-- No core owes another anything, so no pair is assigned a level. -/
abbrev noPairs : GSem nD τ sig → Finset Unit := fun _ => ∅
abbrev noLevel : GSem nD τ sig → Unit → ℕ := fun _ _ => 0

/-- What rides beside the unscoped buffers through every segment: the core's generator register at some state, and
    the core owing nothing. -/
abbrev Ride (c : Dev nD) : sProp 𝕄 :=
  iprop((∃ r, prngReg c r) ∗ ∃ W, owes (c : Thread nD τ) (0 : CellTallies nD τ sig Unit) W)

section RegionOf

variable (pdats : (p : Fin 12) → (c : Dev nD) → Dat τ (Elt F) Unit ℕ (UR sig nD τ) ℕ (cfgs p) c)

/-- A core that owes nothing meets the first tallies of proof data that owe nothing and bound no recorded pair. -/
theorem owes_enter (p : Fin 12) (c : Dev nD) (howed : ∀ t, (pdats p c).owed t = 0) (hrec : ∀ t, (pdats p c).recorded t = Set.univ) :
    (iprop(∃ W, owes (c : Thread nD τ) (0 : CellTallies nD τ sig Unit) W) : sProp 𝕄) ⊢ (pdats p c).owesAt () 0 := by
  unfold Pipeline.Dat.owesAt Pipeline.owesWithin
  rw [howed 0]
  iintro ⟨%W, Howes⟩
  iexists W
  isplitr
  · ipureintro
    intro x _
    exact Or.inl (by rw [hrec 0]; exact Set.mem_univ x)
  · iexact Howes

/-- At the last point such proof data still owe nothing. -/
theorem owes_leave (p : Fin 12) (c : Dev nD) (howed : ∀ t, (pdats p c).owed t = 0) :
    (pdats p c).owesAt () (Fin.last (cfgs p).N) ⊢ (iprop(∃ W, owes (c : Thread nD τ) (0 : CellTallies nD τ sig Unit) W) : sProp 𝕄) := by
  unfold Pipeline.Dat.owesAt Pipeline.owesWithin
  rw [howed (Fin.last (cfgs p).N)]
  iintro ⟨%W, -, Howes⟩
  iexists W
  iexact Howes

-- a library lemma stated over the pinned configuration unifies with the printed one only when unification may unfold
-- plain definitions in a metavariable's type
set_option backward.isDefEq.respectTransparency.types false in
/-- Region `p` as a segment, entered with the unscoped buffers at `Win` and left with them at `Wout`, given: the
    proof data read their arrays off `Win` (`hA`) at the full share (`hq`), owe nothing (`howed`) and bound no
    recorded pair (`hrec`); the body obligation; the invariant takes the scoped rest and the generator register in
    (`hΦi`) and gives them back (`hΦo`); `Wout` has each array at what the write-backs leave (`hF`) and agrees
    with `Win` off the arrays (`hrest`). -/
def regionOf (p : Fin 12) (hl : Pipeline.LaunchFacts (nD := nD) (τ := τ) cfgs p)
    (Win Wout : Dev nD → Valuation τ sig (Elt F))
    (hob : ∀ c, BodyObligation (pdats p c) (defs₀ (F := F)) Variants.none () Set.univ)
    (hq : ∀ c w, (pdats p c).q w = fullShare)
    (howed : ∀ c t, (pdats p c).owed t = 0)
    (hrec : ∀ c t, (pdats p c).recorded t = Set.univ)
    (hA : ∀ c w, (pdats p c).A w = Win c (Pipeline.arrRef (cfgs p).spec w))
    (hΦi : ∀ c, (Pipeline.ΦA (U := UR sig nD τ) (Val := Elt F) (cfgs p).spec c : sProp 𝕄) ⊢ (pdats p c).Φ 0)
    (hΦo : ∀ c, (pdats p c).Φ (Fin.last (cfgs p).N) ⊢ (Pipeline.ΦA (U := UR sig nD τ) (Val := Elt F) (cfgs p).spec c : sProp 𝕄))
    (hF : ∀ c w, (pdats p c).arrAt w (cfgs p).N = Wout c (Pipeline.arrRef (cfgs p).spec w))
    (hrest : ∀ c (b : Ref sig .tc), b ∉ Finset.univ.image (Pipeline.arrRef (cfgs p).spec) → Wout c b = Win c b) :
    RegionSeg (pcfgs (F := F)) adm pdats () defs₀ noVariants noPairs noLevel p where
  win := hl.win.to₀
  block_pos := hl.block_pos
  stage_whole := hl.stage_whole
  K := PEmpty
  osem k := k.elim
  ho := Pipeline.OwnSemFacts.none _
  hbody c := (hob c).loose
  hwaits := Pipeline.hwaits_of_owed_zero _ _ _ _ noPairs noLevel p howed
  pre c := iprop(StableHlo.held (c : Thread nD τ) (Pipeline.ucRefs τ sig) (Win c) ∗ Ride c)
  post c := iprop(StableHlo.held (c : Thread nD τ) (Pipeline.ucRefs τ sig) (Wout c) ∗ Ride c)
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    -- the unscoped buffers at `Win` are the windows' arrays at the entry contents and the rest
    have hsplit := Pipeline.arrays_of_unscopedBufs (p := p) (pcfgs (F := F)) adm pdats hl.win hl.arr_whole c
      ((pdats p c).share_full (hq c)) (fun b => Win c b) (hA c)
    rw [Pipeline.unscopedBufs_held] at hsplit
    iintro ⟨⟨Hheld, Hreg, Howes⟩, -, -⟩
    imodintro
    ihave Hsp := hsplit $$ Hheld
    icases Hsp with ⟨Harr, Hother⟩
    isplitl [Harr]; · iexact Harr
    -- the pipeline prefetches no table
    isplitr
    · unfold Pipeline.prefHeld
      rw [show (Finset.univ : Finset (Fin 0)) = ∅ from rfl, BI.bigSep_empty]
      iempintro
    isplitl [Howes]
    · iapply (owes_enter pdats p c (howed c) (hrec c)); iexact Howes
    isplitl [Hreg]; · iexact Hreg
    iexact Hother
  hin c := by
    refine BIBase.Entails.trans ?_ (hΦi c)
    unfold Pipeline.ΦA
    iintro ⟨Hreg, -, Hscoped⟩
    isplitl [Hscoped]; · iexact Hscoped
    iexact Hreg
  hout c := by
    rw [Pipeline.ownSems0_none]
    refine (hΦo c).trans ?_
    unfold Pipeline.ΦA
    iintro ⟨Hscoped, Hreg⟩
    isplitl [Hreg]; · iexact Hreg
    isplitr; · iempintro
    iexact Hscoped
  hexit c := by
    -- the arrays at what the write-backs leave and the untouched rest are the unscoped buffers at `Wout`
    have hjoin := Pipeline.unscopedBufs_of_arrays (p := p) (pcfgs (F := F)) adm (Ix := Unit) (Name := ℕ) (U := UR sig nD τ) (Lvl := ℕ)
      hl.win hl.arr_whole c pdats ((pdats p c).share_full (hq c))
      (fun b => Win c b) (fun b => Wout c b) ((pdats p c).arrAt · (cfgs p).N) (hF c) (hrest c)
    rw [Pipeline.unscopedBufs_held] at hjoin
    iintro ⟨Harr, Howes, Hreg, Hother⟩
    imodintro
    isplitl [Harr Hother]
    · iapply hjoin; isplitl [Harr]; · iexact Harr
      iexact Hother
    isplitl [Hreg]; · iexact Hreg
    iapply (owes_leave pdats p c (howed c)); iexact Howes

end RegionOf

end Cert.Kernel.Hand

end
-- ==== Proof.KB.Reg0.lean ====
import proofs.«160050_j32744830665390_2_alg».proof.Proof.KB.Iface
import Idealize.ShloMosaic.Lib.Pipeline.Value
import Idealize.ShloMosaic.Lib.ValueIdx

/-! # The embedding stage (the first pallas_call): Linear, LayerNorm over the feature axis, ReLU

One grid point handles one tile of 5000 node rows.  It reads the tile of the node features, the whole
weight matrix and the three feature-wise rows (bias, LayerNorm scale, LayerNorm shift), and stores one
tile of 5000 embedded rows.  Nothing is carried from one tile to the next.

This module says, at the buffer contents V the stage is entered with:
* which block of each operand a grid point sees,
* what the point leaves in the output tile (one store over the whole tile, so the tile IS the stored value),
* that the printed body does exactly that (a separation-logic triple, run by the symbolic executor),
* the per-tile obligation the pipeline's launch rule asks of the body,
* and finally the whole output array after all ten tiles, entry by entry. -/

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 eq_ix2 idx2_lt0 idx2_lt1)

variable {F : FTy → Type} [FloatOps F]

local notation "𝕄" => MT nD τ sig Unit (Elt F) ℕ (UR sig nD τ) ℕ

section Embed

/- The contents of every buffer of the core when the stage is entered. -/
variable (V : Entry F)

/-! ## Blocks -/

/-- The block of operand w that grid point t works on, cut out of the operand as the stage finds it. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-! ## The one access shape of each operand: the whole tile, offset zero -/

/-- Both offsets of every access of the body are zero. -/
theorem zeroOffsets0 : (![0, 0] : Fin 2 → Nat) = fun _ => 0 := funext fun a => by fin_cases a <;> rfl

/-- The whole 5000×128 tile (node features in, embedded rows out). -/
abbrev tileRows0 : Rect S5000x128 := Rect.unit (s := S5000x128) ![0, 0] S5000x128.size inb_S5000x128_S5000x128_0_0
/-- The whole 128×128 weight matrix. -/
abbrev tileWeight0 : Rect S128x128 := Rect.unit (s := S128x128) ![0, 0] S128x128.size inb_S128x128_S128x128_0_0
/-- A whole 1×128 feature row (bias, scale, shift). -/
abbrev tileFeat0 : Rect S1x128 := Rect.unit (s := S1x128) ![0, 0] S1x128.size inb_S1x128_S1x128_0_0

/-! ## What a grid point leaves in the output tile -/

/-- The output tile after the body, from the five operand blocks: the body's single store, as the list of
    written pieces (here one piece, the whole tile) over the stored value k0_pay1 of the loaded blocks. -/
def out0_5 (x : Vec F S5000x128 .f32) (wt : Vec F S128x128 .f32) (bias scale shift : Vec F S1x128 .f32) :
    Vec F S5000x128 .f32 :=
  View.canon [⟨tileRows0, k0_pay1 (View.ld x tileRows0) (View.ld wt tileWeight0) (View.ld bias tileFeat0)
    (View.ld scale tileFeat0) (View.ld shift tileFeat0)⟩]

/-- Since the store fills the tile and every load reads a whole block, the tile is just the stored value
    of the blocks themselves. -/
theorem out0_5_eq (x : Vec F S5000x128 .f32) (wt : Vec F S128x128 .f32) (bias scale shift : Vec F S1x128 .f32) :
    out0_5 x wt bias scale shift = k0_pay1 x wt bias scale shift := by
  unfold out0_5
  rw [View.canon_unit_zero zeroOffsets0]
  simp only [View.ld_unit_zero (S := S5000x128) zeroOffsets0, View.ld_unit_zero (S := S128x128) zeroOffsets0,
    View.ld_unit_zero (S := S1x128) zeroOffsets0]

/-- The single store reaches every element of the tile. -/
theorem store_fills_tile0 (p : Vec F S5000x128 .f32) (y : S5000x128.Idx) :
    ∃ pc ∈ ([⟨tileRows0, p⟩] : List (View.Piece (Elt F) S5000x128 .f32)), y ∈ pc.1.set :=
  ⟨_, List.mem_singleton_self _, View.mem_set_unit_zero zeroOffsets0 inb_S5000x128_S5000x128_0_0 y⟩

/-! ## The body's triple -/

set_option maxHeartbeats 1000000 in
/-- The printed body at any grid coordinate, called on whole staging memrefs: given the five operand
    buffers at contents x, wt, bias, scale, shift and the output buffer at anything, it runs to its
    continuation with the operands untouched and the output buffer at out0_5 of them.  The printed function
    is its skeleton of loads and one store, which the symbolic executor runs. -/
theorem sound_kernel0 (c : Dev nD) (E : Set ℕ) (i : grid0.Coords)
    (arg1 : Memref sig .tc .vmem S5000x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x : Vec F S5000x128 .f32) (wt : Vec F S128x128 .f32) (bias scale shift : Vec F S1x128 .f32)
    (K : PUnit → sProp 𝕄) :
    iprop(owns (c : Thread nD τ) arg1 fullShare x ∗ owns (c : Thread nD τ) arg2 fullShare wt
        ∗ owns (c : Thread nD τ) arg3 fullShare bias ∗ owns (c : Thread nD τ) arg4 fullShare scale
        ∗ owns (c : Thread nD τ) arg5 fullShare shift ∗ (∃ d, owns (c : Thread nD τ) arg6 fullShare d)
        ∗ (iprop(owns (c : Thread nD τ) arg1 fullShare x ∗ owns (c : Thread nD τ) arg2 fullShare wt
            ∗ owns (c : Thread nD τ) arg3 fullShare bias ∗ owns (c : Thread nD τ) arg4 fullShare scale
            ∗ owns (c : Thread nD τ) arg5 fullShare shift
            ∗ owns (c : Thread nD τ) arg6 fullShare (out0_5 x wt bias scale shift)) -∗ K ⟨⟩))
      ⊢ wp frame (wpE (defs₀ (F := F)) Variants.none c none) E
          (cc0_embed_kernel i arg1 harg1 arg2 harg2 arg3 harg3 arg4 harg4 arg5 harg5 arg6 harg6) K := by
  simp only [cc0_embed_kernel_eq_skeleton]; unfold cc0_embed_kernel_skel
  unfold owns
  iintro ⟨⟨%fx, %hx, Hx⟩, ⟨%fw, %hw, Hw⟩, ⟨%fb, %hb, Hb⟩, ⟨%fg, %hg, Hg⟩, ⟨%fs, %hs, Hs⟩, ⟨%d, %fo, -, Ho⟩, Hk⟩
  subst hx hw hb hg hs
  sl_exec
  sl_step
  iapply Hk
  isplitl [Hx]
  · iexists fx; isplitr; · ipureintro; rfl
    iexact Hx
  isplitl [Hw]
  · iexists fw; isplitr; · ipureintro; rfl
    iexact Hw
  isplitl [Hb]
  · iexists fb; isplitr; · ipureintro; rfl
    iexact Hb
  isplitl [Hg]
  · iexists fg; isplitr; · ipureintro; rfl
    iexact Hg
  isplitl [Hs]
  · iexists fs; isplitr; · ipureintro; rfl
    iexact Hs
  iexists _; isplitr
  swap; · iexact Ho
  ipureintro
  exact View.read_writes_eq_canon _ _ _ (store_fills_tile0 _)

/-! ## The pipeline's proof data -/

/-- What the launch rule is told about this stage on core c: every operand array as the stage finds it;
    after the body at tile t, each operand's staging buffer still at its block and the output's at
    out0_5 of the five blocks; the invariant is the class's (everything the body neither reads nor writes);
    nothing is owed to other cores; every share is whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The arrays of the proof data are the entry contents. -/
theorem A_eq0 (c : Dev nD) (w : Fin cfg0.W) : (dat0 V c).A w = V c (Pipeline.arrRef spec0 w) := by
  dsimp only [dat0]

/-- What the body leaves, operand by operand. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

/-! ## What the body finds in each operand's staging buffer

The feature tile is fetched afresh at every tile.  The weight matrix and the three feature rows are fetched
at the first tile only; at a later tile their buffers hold what the previous body left, which is the block
again, and the block does not depend on the tile.  Either way the buffer holds the block of this tile. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-! ## The obligation of the body, at any tile -/

/-- What the pipeline hands the body at tile t: the invariant, what the core owes, and the six current
    staging buffers at what they then hold. -/
def tilePre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it takes back. -/
def tilePost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at tile t: the operand buffers hold their blocks, so the body's triple applies; the invariant
    and what the core owes are not touched. -/
theorem sound_tile0 (c : Dev nD) (t : Fin cfg0.N) :
    tilePre0 V c t ⊢ wp frame (wpE (defs₀ (F := F)) Variants.none c none) Set.univ (bodyAt0 t)
      (fun _ => tilePost0 V c t) := by
  unfold tilePre0 tilePost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Howe, ⟨%d0, Hx⟩, ⟨%d1, Hw⟩, ⟨%d2, Hb⟩, ⟨%d3, Hg⟩, ⟨%d4, Hs⟩, ⟨%d5, Ho⟩⟩
  iapply (sound_kernel0 c Set.univ (grid0.coords t) _ _ _ _ _ _ _ _ _ _ _ _
    (iblk0 V c 0 t) (iblk0 V c 1 t) (iblk0 V c 2 t) (iblk0 V c 3 t) (iblk0 V c 4 t) _)
  isplitl [Hx]; · iexact Hx
  isplitl [Hw]; · iexact Hw
  isplitl [Hb]; · iexact Hb
  isplitl [Hg]; · iexact Hg
  isplitl [Hs]; · iexact Hs
  isplitl [Ho]; · iexists _; iexact Ho
  iintro ⟨Hx, Hw, Hb, Hg, Hs, Ho⟩
  isplitl [HΦ]; · iexact HΦ
  isplitl [Howe]; · iexact Howe
  isplitl [Hx]; · iexact Hx
  isplitl [Hw]; · iexact Hw
  isplitl [Hb]; · iexact Hb
  isplitl [Hg]; · iexact Hg
  isplitl [Hs]; · iexact Hs
  iexact Ho

/-- The obligation the launch rule asks of the body, at every tile. -/
theorem body_obligation0 (c : Dev nD) :
    BodyObligation (dat0 (F := F) V c) (defs₀ (F := F)) Variants.none () Set.univ := fun t => by
  rw [bigSep_W0, bigSep_W0]
  exact sound_tile0 V c t

/-- Every share of the proof data is whole, -/
theorem q_eq0 (c : Dev nD) (w : Fin cfg0.W) : (dat0 V c).q w = fullShare := by dsimp only [dat0]

/-- and nothing is ever owed. -/
theorem owed_eq0 (c : Dev nD) (t : Fin (cfg0.N + 1)) : (dat0 V c).owed t = 0 := by dsimp only [dat0]

/-- The invariant is the class's at every tile: it is entered from it and gives it back. -/
theorem Phi_in0 (c : Dev nD) :
    (Pipeline.ΦA (U := UR sig nD τ) (Val := Elt F) spec0 c : sProp 𝕄) ⊢ (dat0 V c).Φ 0 := .rfl

theorem Phi_out0 (c : Dev nD) :
    (dat0 V c).Φ (Fin.last cfg0.N) ⊢ (Pipeline.ΦA (U := UR sig nD τ) (Val := Elt F) spec0 c : sProp 𝕄) := .rfl

/-! ## The whole embedded array after the ten tiles

Row r of the 50000 node rows lies in tile r / 5000, at row r mod 5000 of that tile; the columns are not tiled.
So entry (r, k) of the embedded array is entry (r mod 5000, k) of the value the body stores for tile r / 5000,
and that value is k0_pay1 of rows 5000·(r / 5000) … 5000·(r / 5000) + 4999 of the features and of the whole
weight matrix, bias, scale and shift. -/

/-- Rows 5000·q … 5000·q + 4999 of a 50000-row array, as one tile. -/
def rowTile0 (x : S50000x128.Idx → Elt F .f32) (q : Nat) (hq : q < 10) : Vec F S5000x128 .f32 :=
  fun j => x (ix2 (⟨q * 5000 + (j 0).val, by have := idx2_lt0 j; omega⟩ : Fin 50000) (⟨(j 1).val, idx2_lt1 j⟩ : Fin 128))

theorem rowTile0_congr (x : S50000x128.Idx → Elt F .f32) {q q' : Nat} (h : q = q') (hq : q < 10) (hq' : q' < 10) :
    rowTile0 x q hq = rowTile0 x q' hq' := by subst h; rfl

/-- The tile that holds an entry of the array, -/
def tileNo0 (i : S50000x128.Idx) : Nat := (i 0).val / 5000

theorem tileNo0_lt (i : S50000x128.Idx) : tileNo0 i < 10 := by
  unfold tileNo0; have := idx2_lt0 i; omega

/-- and where the entry sits inside that tile. -/
def posInTile0 (i : S50000x128.Idx) : S5000x128.Idx :=
  ix2 (⟨(i 0).val % 5000, Nat.mod_lt _ (by decide)⟩ : Fin 5000) (⟨(i 1).val, idx2_lt1 i⟩ : Fin 128)

/-- THE EMBEDDED ARRAY as one function of the five operand arrays, entry by entry. -/
def G0_5 (x : S50000x128.Idx → Elt F .f32) (wt : S128x128.Idx → Elt F .f32)
    (bias scale shift : S1x128.Idx → Elt F .f32) : S50000x128.Idx → Elt F .f32 :=
  fun i => k0_pay1 (rowTile0 x (tileNo0 i) (tileNo0_lt i)) wt bias scale shift (posInTile0 i)

/-- Entry (5000·q + r, k) of it is entry (r, k) of the stored value of tile q. -/
theorem G0_5_at (x : S50000x128.Idx → Elt F .f32) (wt : S128x128.Idx → Elt F .f32)
    (bias scale shift : S1x128.Idx → Elt F .f32) (q : Nat) (hq : q < 10) (j : S5000x128.Idx) (i : S50000x128.Idx)
    (hrow : (i 0).val = q * 5000 + (j 0).val) (hcol : (i 1).val = (j 1).val) :
    G0_5 x wt bias scale shift i = k0_pay1 (rowTile0 x q hq) wt bias scale shift j := by
  have hj0 : (j 0).val < 5000 := idx2_lt0 j
  have hq' : tileNo0 i = q := by unfold tileNo0; omega
  have hj : posInTile0 i = j := by
    funext a; apply Fin.ext
    match a with
    | ⟨0, _⟩ => show (i 0).val % 5000 = (j 0).val; omega
    | ⟨1, _⟩ => show (i 1).val = (j 1).val; exact hcol
  unfold G0_5
  rw [hj, rowTile0_congr x hq' (tileNo0_lt i) hq]

/-- Decided over the ten tiles: the feature tile and the output tile of grid point t are tile t of their
    arrays; the weight matrix and the three feature rows are always their one block. -/
theorem tile_indices0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The feature block of tile t is rows 5000·t … of the features. -/
theorem feat_block0 (c : Dev nD) (t : Fin cfg0.N) (ht : t.val < 10) :
    iblk0 V c 0 t = rowTile0 (V c main_arg0) t.val ht := by
  obtain ⟨e0, e1, -⟩ := tile_indices0 t
  funext y
  unfold rowTile0
  show V c main_arg0 (((cfg0.win 0).blk t).view.emb y) = V c main_arg0 _
  congr 1
  funext a; apply Fin.ext
  match a with
  | ⟨0, _⟩ => show win0_0.index t (0 : Fin 2) * 5000 + 1 * (y 0).val = t.val * 5000 + (y 0).val; omega
  | ⟨1, _⟩ => show win0_0.index t (1 : Fin 2) * 128 + 1 * (y 1).val = (y 1).val; omega

/-- The weight block is the whole weight matrix, at every tile. -/
theorem weight_block0 (c : Dev nD) (t : Fin cfg0.N) : iblk0 V c 1 t = V c main_arg1 := by
  obtain ⟨-, -, e0, e1, -⟩ := tile_indices0 t
  funext y
  show V c main_arg1 (((cfg0.win 1).blk t).view.emb y) = V c main_arg1 y
  congr 1
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The bias block is the whole bias row, -/
theorem bias_block0 (c : Dev nD) (t : Fin cfg0.N) : iblk0 V c 2 t = V c main_v36 := by
  obtain ⟨-, -, -, -, e0, e1, -⟩ := tile_indices0 t
  funext y
  show V c main_v36 (((cfg0.win 2).blk t).view.emb y) = V c main_v36 y
  congr 1
  funext a; apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- the scale block the whole scale row, -/
theorem scale_block0 (c : Dev nD) (t : Fin cfg0.N) : iblk0 V c 3 t = V c main_v37 := by
  obtain ⟨-, -, -, -, -, -, e0, e1, -⟩ := tile_indices0 t
  funext y
  show V c main_v37 (((cfg0.win 3).blk t).view.emb y) = V c main_v37 y
  congr 1
  funext a; apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- and the shift block the whole shift row. -/
theorem shift_block0 (c : Dev nD) (t : Fin cfg0.N) : iblk0 V c 4 t = V c main_v38 := by
  obtain ⟨-, -, -, -, -, -, -, -, e0, e1, -⟩ := tile_indices0 t
  funext y
  show V c main_v38 (((cfg0.win 4).blk t).view.emb y) = V c main_v38 y
  congr 1
  funext a; apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- WHAT TILE t WRITES BACK is block t of G0_5 of the operand arrays as the stage finds them. -/
theorem flushed0_5_eq (c : Dev nD) (t : Fin cfg0.N) :
    (dat0 V c).flushed 5 t = ((cfg0.win 5).blk t).view.read (Elt F)
      (G0_5 (V c main_arg0) (V c main_arg1) (V c main_v36) (V c main_v37) (V c main_v38)) := by
  have ht : t.val < 10 := lt_of_lt_of_eq t.isLt N_0
  obtain ⟨-, -, -, -, -, -, -, -, -, -, e0, e1⟩ := tile_indices0 t
  show (cfg0.win 5).cut (grid0.coords t) ((dat0 V c).after 5 t) = _
  rw [after0_5, out0_5_eq, feat_block0 V c t ht, weight_block0, bias_block0, scale_block0, shift_block0]
  funext j
  show k0_pay1 (rowTile0 (V c main_arg0) t.val ht) (V c main_arg1) (V c main_v36) (V c main_v37) (V c main_v38) j
    = G0_5 (V c main_arg0) (V c main_arg1) (V c main_v36) (V c main_v37) (V c main_v38)
        (((cfg0.win 5).blk t).view.emb j)
  refine (G0_5_at _ _ _ _ _ t.val ht j _ ?_ ?_).symm
  · show win0_5.index t (0 : Fin 2) * 5000 + 1 * (j 0).val = t.val * 5000 + (j 0).val; omega
  · show win0_5.index t (1 : Fin 2) * 128 + 1 * (j 1).val = (j 1).val; omega

/-- An entry of the array is in tile t's block iff each coordinate is in the block's range on its axis. -/
theorem mem_tile0_5 (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v39).slice (win0_5.rect t)).set ↔ _
  rw [View.set_slice_whole, Rect.mem_set_unit]
  exact Iff.rfl

/-- The ten tiles cover the array: entry (r, k) is in the block of tile r / 5000, and every tile is written back. -/
theorem tiles_cover0_5 (i : S50000x128.Idx) :
    ∃ t : Fin cfg0.N, (cfg0.win 5).flush t = true ∧ i ∈ ((cfg0.win 5).blk t).view.set := by
  have hi0 : (i 0).val < 50000 := idx2_lt0 i
  have hi1 : (i 1).val < 128 := idx2_lt1 i
  obtain ⟨t, ht⟩ : ∃ t : Fin cfg0.N, t.val = (i 0).val / 5000 :=
    ⟨⟨(i 0).val / 5000, by rw [show cfg0.N = 10 from N_0]; omega⟩, rfl⟩
  obtain ⟨-, -, -, -, -, -, -, -, -, -, e0, e1⟩ := tile_indices0 t
  refine ⟨t, flush0_5 t, ?_⟩
  rw [mem_tile0_5]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-- THE EMBEDDED ARRAY after the stage: G0_5 of the operand arrays as the stage finds them. -/
theorem final0_5 (c : Dev nD) :
    (dat0 V c).arrAt 5 cfg0.N
      = G0_5 (V c main_arg0) (V c main_arg1) (V c main_v36) (V c main_v37) (V c main_v38) :=
  (dat0 V c).arrAt_eq_of_cover 5 _ (fun t _ => flushed0_5_eq V c t) tiles_cover0_5

end Embed

end Cert.Kernel.Hand

end
-- ==== Proof.KB.Reg1.Runs.lean ====
/- Region 1 (the Chebyshev affine layer with column statistics), what its three control cases share:
   the two branch conditions of the body as propositions over the grid coordinates, decided over the ten
   points in closed form; where the two small output windows are idle and where they are written back;
   the memrefs the body is called with at a point. -/
import proofs.«160050_j32744830665390_2_alg».proof.Proof.KB.Iface

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- "This is the first row tile": the accumulators are cleared under it. The scalar chain the body computes from
    the grid coordinate, compared with 1. -/
abbrev cond1_0 (i : grid1.Coords) : Prop :=
  (Scalar.cmpi .ne (Scalar.extui (Scalar.cmpi .eq (BitVec.ofNat 32 (i 0).val) 0#32)) 0#32) = 1#1

/-- "This is the last row tile": the accumulators are copied to the two small outputs under it. -/
abbrev cond1_1 (i : grid1.Coords) : Prop := k1_cond2 i = 1#1

/-- The first condition holds exactly at point 0 of the ten. -/
theorem hcond1_0 : ∀ t : Fin cfg1.N, cond1_0 (grid1.coords t) ↔ t.val % 10 = 0 :=
  (by decide +kernel : ∀ t : Fin grid1.N, cond1_0 (grid1.coords t) ↔ t.val % 10 = 0)

/-- The second holds exactly at point 9. -/
theorem hcond1_1 : ∀ t : Fin cfg1.N, cond1_1 (grid1.coords t) ↔ t.val % 10 = 9 :=
  (by decide +kernel : ∀ t : Fin grid1.N, cond1_1 (grid1.coords t) ↔ t.val % 10 = 9)

/-! ## Idle and live points of the windows -/

/-- The seven inputs and the row-tile output are live at every point. -/
theorem live1_0 : ∀ i : grid1.Coords, cfg1.idle 0 i = false := fun _ => rfl
theorem live1_1 : ∀ i : grid1.Coords, cfg1.idle 1 i = false := fun _ => rfl
theorem live1_2 : ∀ i : grid1.Coords, cfg1.idle 2 i = false := fun _ => rfl
theorem live1_3 : ∀ i : grid1.Coords, cfg1.idle 3 i = false := fun _ => rfl
theorem live1_4 : ∀ i : grid1.Coords, cfg1.idle 4 i = false := fun _ => rfl
theorem live1_5 : ∀ i : grid1.Coords, cfg1.idle 5 i = false := fun _ => rfl
theorem live1_6 : ∀ i : grid1.Coords, cfg1.idle 6 i = false := fun _ => rfl
theorem live1_7 : ∀ i : grid1.Coords, cfg1.idle 7 i = false := fun _ => rfl

/-- Away from the last point the two small outputs are idle and not written back; at the last point they are live. -/
theorem idle1_8 : ∀ t : Fin cfg1.N, ¬cond1_1 (grid1.coords t) → cfg1.idle 8 (grid1.coords t) = true := by decide +kernel
theorem idle1_9 : ∀ t : Fin cfg1.N, ¬cond1_1 (grid1.coords t) → cfg1.idle 9 (grid1.coords t) = true := by decide +kernel
theorem noFlush1_8 : ∀ t : Fin cfg1.N, ¬cond1_1 (grid1.coords t) → (cfg1.win 8).flush t = false := by decide +kernel
theorem noFlush1_9 : ∀ t : Fin cfg1.N, ¬cond1_1 (grid1.coords t) → (cfg1.win 9).flush t = false := by decide +kernel
theorem liveLast1_8 : ∀ t : Fin cfg1.N, cond1_1 (grid1.coords t) → cfg1.idle 8 (grid1.coords t) = false := by decide +kernel
theorem liveLast1_9 : ∀ t : Fin cfg1.N, cond1_1 (grid1.coords t) → cfg1.idle 9 (grid1.coords t) = false := by decide +kernel

/-! ## The memrefs of a point -/

/-- Window `w`'s current staging memref at point `t`, spelled as the body is called with it, and its wholeness. -/
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S5000x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S5000x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x128 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x128 .f32 := win1_9.stage (cfg1.slots t 9)
abbrev hs1_9 (t : Fin cfg1.N) : (ms1_9 t).IsWhole := hstage1_9 ((cfg1.slots t 9).cast nbuf1_9)

/-- The two accumulators: whole scoped buffers of the kernel's own, passed after the windows. -/
abbrev scM1_0 : Memref sig .tc .vmem S1x128 .f32 := Memref.whole cc1_scratch0
abbrev scM1_1 : Memref sig .tc .vmem S1x128 .f32 := Memref.whole cc1_scratch1

/-- Views through which the contents of the written buffers are stated (which staging buffer of a window is taken
    does not matter: the pieces cover it). -/
abbrev VO1_7 : View sig .tc .vmem S5000x128 .f32 := (Memref.whole cc1_stg7_0 : Memref sig .tc .vmem S5000x128 .f32).view
abbrev VO1_8 : View sig .tc .vmem S1x128 .f32 := (Memref.whole cc1_stg8_0 : Memref sig .tc .vmem S1x128 .f32).view
abbrev VO1_9 : View sig .tc .vmem S1x128 .f32 := (Memref.whole cc1_stg9_0 : Memref sig .tc .vmem S1x128 .f32).view
abbrev VS1_0 : View sig .tc .vmem S1x128 .f32 := scM1_0.view
abbrev VS1_1 : View sig .tc .vmem S1x128 .f32 := scM1_1.view

end Cert.Kernel.Hand

end
-- ==== Proof.KB.Reg1.RunA.lean ====
/- Region 1, the body at the FIRST row tile (the clearing branch taken, the copying branch not): the two
   accumulators are set to zero and the tile's column sum and column sum of squares added to them; the tile
   of the affine result is stored; the two small outputs are not touched. -/
import proofs.«160050_j32744830665390_2_alg».proof.Proof.KB.Iface
import proofs.«160050_j32744830665390_2_alg».proof.Proof.KB.Reg1.Runs
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords)
  (arg1 : Memref sig .tc .vmem S5000x128 .f32) (harg1 : arg1.IsWhole)
  (arg2 : Memref sig .tc .vmem S5000x128 .f32) (harg2 : arg2.IsWhole)
  (arg3 : Memref sig .tc .vmem S5000x128 .f32) (harg3 : arg3.IsWhole)
  (arg4 : Memref sig .tc .vmem S128x128 .f32) (harg4 : arg4.IsWhole)
  (arg5 : Memref sig .tc .vmem S128x128 .f32) (harg5 : arg5.IsWhole)
  (arg6 : Memref sig .tc .vmem S128x128 .f32) (harg6 : arg6.IsWhole)
  (arg7 : Memref sig .tc .vmem S1x128 .f32) (harg7 : arg7.IsWhole)
  (arg8 : Memref sig .tc .vmem S5000x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x128 .f32) (harg11 : arg11.IsWhole)
  (arg12 : Memref sig .tc .vmem S1x128 .f32) (harg12 : arg12.IsWhole)

set_option maxHeartbeats 1000000 in
/-- The body's triple at a point where only the first condition holds. Given the seven input buffers at
    `x0 … x6`, the row-tile output and both accumulators at anything, and the two small outputs at `xi8`, `xi9`,
    it runs to the inputs and the small outputs as they were, the row-tile output with the stores `L7` applied
    and the accumulators with `LS0`, `LS1` applied. The three lists are not written down: they are whatever the
    symbolic run of the body leaves, fixed when each buffer is handed to the continuation. -/
def kernelRun1_A (hc0 : cond1_0 i) (hc1 : ¬cond1_1 i) (x0 x1 x2 : Vec F S5000x128 .f32) (x3 x4 x5 : Vec F S128x128 .f32) (x6 : Vec F S1x128 .f32) :
    Σ' (L7 : List (View.Piece (Elt F) S5000x128 .f32)), Σ' (LS0 : List (View.Piece (Elt F) S1x128 .f32)),
      { LS1 : List (View.Piece (Elt F) S1x128 .f32) //
      ∀ (xi8 xi9 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ (∃ d, owns (c : Thread nD τ) arg8 fullShare d)
            ∗ owns (c : Thread nD τ) arg9 fullShare xi8 ∗ owns (c : Thread nD τ) arg10 fullShare xi9
            ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
                ∗ (∃ f, arg8.view.loc (c : Thread nD τ) ↦[arg8.view.set]{fullShare} arg8.view.writes (Elt F) f L7)
                ∗ owns (c : Thread nD τ) arg9 fullShare xi8 ∗ owns (c : Thread nD τ) arg10 fullShare xi9
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)) -∗ K ⟨⟩))
          ⊢ wp frame (wpE (defs₀ (F := F)) Variants.none c none) E (cc1_cheb_affine_kernel i arg1 harg1 arg2 harg2 arg3 harg3 arg4 harg4 arg5 harg5 arg6 harg6 arg7 harg7 arg8 harg8 arg9 harg9 arg10 harg10 arg11 harg11 arg12 harg12) K } := by
  refine ⟨?_, ?_, ?_, fun xi8 xi9 E K => ?run⟩
  case run =>
    sl_unfold [cc1_cheb_affine_kernel]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
      ⟨%d7, %f7, -, H7⟩, ⟨%f8, %hf8, H8⟩, ⟨%f9, %hf9, H9⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg9.eq_unread hf8; obtain rfl := harg10.eq_unread hf9
    sl_exec (disch := first | exact hc0 | exact hc1)
    sl_step
    iapply Hk
    isplitl [H0]
    · iexists _; isplitr
      · ipureintro; exact harg1.read_unread _
      iexact H0
    isplitl [H1]
    · iexists _; isplitr
      · ipureintro; exact harg2.read_unread _
      iexact H1
    isplitl [H2]
    · iexists _; isplitr
      · ipureintro; exact harg3.read_unread _
      iexact H2
    isplitl [H3]
    · iexists _; isplitr
      · ipureintro; exact harg4.read_unread _
      iexact H3
    isplitl [H4]
    · iexists _; isplitr
      · ipureintro; exact harg5.read_unread _
      iexact H4
    isplitl [H5]
    · iexists _; isplitr
      · ipureintro; exact harg6.read_unread _
      iexact H5
    isplitl [H6]
    · iexists _; isplitr
      · ipureintro; exact harg7.read_unread _
      iexact H6
    isplitl [H7]
    · iexists _; iexact H7
    isplitl [H8]
    · iexists _; isplitr
      · ipureintro; exact harg9.read_unread _
      iexact H8
    isplitl [H9]
    · iexists _; isplitr
      · ipureintro; exact harg10.read_unread _
      iexact H9
    isplitl [HS0]
    · iexists _; iexact HS0
    iexists _; iexact HS1

end Cert.Kernel.Hand

end
-- ==== Proof.KB.Reg1.RunB.lean ====
/- Region 1, the body at a MIDDLE row tile (neither branch taken): the tile's column sum and column sum of
   squares are added to what the accumulators held; the tile of the affine result is stored; the two small
   outputs are not touched. -/
import proofs.«160050_j32744830665390_2_alg».proof.Proof.KB.Iface
import proofs.«160050_j32744830665390_2_alg».proof.Proof.KB.Reg1.Runs
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords)
  (arg1 : Memref sig .tc .vmem S5000x128 .f32) (harg1 : arg1.IsWhole)
  (arg2 : Memref sig .tc .vmem S5000x128 .f32) (harg2 : arg2.IsWhole)
  (arg3 : Memref sig .tc .vmem S5000x128 .f32) (harg3 : arg3.IsWhole)
  (arg4 : Memref sig .tc .vmem S128x128 .f32) (harg4 : arg4.IsWhole)
  (arg5 : Memref sig .tc .vmem S128x128 .f32) (harg5 : arg5.IsWhole)
  (arg6 : Memref sig .tc .vmem S128x128 .f32) (harg6 : arg6.IsWhole)
  (arg7 : Memref sig .tc .vmem S1x128 .f32) (harg7 : arg7.IsWhole)
  (arg8 : Memref sig .tc .vmem S5000x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x128 .f32) (harg11 : arg11.IsWhole)
  (arg12 : Memref sig .tc .vmem S1x128 .f32) (harg12 : arg12.IsWhole)

set_option maxHeartbeats 1000000 in
/-- The body's triple at a point where neither condition holds. Given the seven input buffers at `x0 … x6`, the
    accumulators at `xs0`, `xs1` (what the point before left), the row-tile output at anything and the two small
    outputs at `xi8`, `xi9`, it runs to the inputs and the small outputs as they were, the row-tile output with the
    stores `L7` applied and the accumulators with `LS0`, `LS1` applied; the lists are what the symbolic run of the
    body leaves. -/
def kernelRun1_B (hc0 : ¬cond1_0 i) (hc1 : ¬cond1_1 i) (x0 x1 x2 : Vec F S5000x128 .f32) (x3 x4 x5 : Vec F S128x128 .f32) (x6 : Vec F S1x128 .f32)
    (xs0 xs1 : Vec F S1x128 .f32) :
    Σ' (L7 : List (View.Piece (Elt F) S5000x128 .f32)), Σ' (LS0 : List (View.Piece (Elt F) S1x128 .f32)),
      { LS1 : List (View.Piece (Elt F) S1x128 .f32) //
      ∀ (xi8 xi9 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ (∃ d, owns (c : Thread nD τ) arg8 fullShare d)
            ∗ owns (c : Thread nD τ) arg9 fullShare xi8 ∗ owns (c : Thread nD τ) arg10 fullShare xi9
            ∗ owns (c : Thread nD τ) arg11 fullShare xs0 ∗ owns (c : Thread nD τ) arg12 fullShare xs1
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
                ∗ (∃ f, arg8.view.loc (c : Thread nD τ) ↦[arg8.view.set]{fullShare} arg8.view.writes (Elt F) f L7)
                ∗ owns (c : Thread nD τ) arg9 fullShare xi8 ∗ owns (c : Thread nD τ) arg10 fullShare xi9
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)) -∗ K ⟨⟩))
          ⊢ wp frame (wpE (defs₀ (F := F)) Variants.none c none) E (cc1_cheb_affine_kernel i arg1 harg1 arg2 harg2 arg3 harg3 arg4 harg4 arg5 harg5 arg6 harg6 arg7 harg7 arg8 harg8 arg9 harg9 arg10 harg10 arg11 harg11 arg12 harg12) K } := by
  refine ⟨?_, ?_, ?_, fun xi8 xi9 E K => ?run⟩
  case run =>
    sl_unfold [cc1_cheb_affine_kernel]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
      ⟨%d7, %f7, -, H7⟩, ⟨%f8, %hf8, H8⟩, ⟨%f9, %hf9, H9⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg9.eq_unread hf8; obtain rfl := harg10.eq_unread hf9
    obtain rfl := harg11.eq_unread hfs0; obtain rfl := harg12.eq_unread hfs1
    sl_exec (disch := first | exact hc0 | exact hc1)
    sl_step
    iapply Hk
    isplitl [H0]
    · iexists _; isplitr
      · ipureintro; exact harg1.read_unread _
      iexact H0
    isplitl [H1]
    · iexists _; isplitr
      · ipureintro; exact harg2.read_unread _
      iexact H1
    isplitl [H2]
    · iexists _; isplitr
      · ipureintro; exact harg3.read_unread _
      iexact H2
    isplitl [H3]
    · iexists _; isplitr
      · ipureintro; exact harg4.read_unread _
      iexact H3
    isplitl [H4]
    · iexists _; isplitr
      · ipureintro; exact harg5.read_unread _
      iexact H4
    isplitl [H5]
    · iexists _; isplitr
      · ipureintro; exact harg6.read_unread _
      iexact H5
    isplitl [H6]
    · iexists _; isplitr
      · ipureintro; exact harg7.read_unread _
      iexact H6
    isplitl [H7]
    · iexists _; iexact H7
    isplitl [H8]
    · iexists _; isplitr
      · ipureintro; exact harg9.read_unread _
      iexact H8
    isplitl [H9]
    · iexists _; isplitr
      · ipureintro; exact harg10.read_unread _
      iexact H9
    isplitl [HS0]
    · iexists _; iexact HS0
    iexists _; iexact HS1

end Cert.Kernel.Hand

end
-- ==== Proof.KB.Reg1.RunC.lean ====
/- Region 1, the body at the LAST row tile (the clearing branch not taken, the copying branch taken): the
   tile's column sum and column sum of squares are added to what the accumulators held, the tile of the
   affine result is stored, and the accumulators' final contents are copied into the two small outputs. -/
import proofs.«160050_j32744830665390_2_alg».proof.Proof.KB.Iface
import proofs.«160050_j32744830665390_2_alg».proof.Proof.KB.Reg1.Runs
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords)
  (arg1 : Memref sig .tc .vmem S5000x128 .f32) (harg1 : arg1.IsWhole)
  (arg2 : Memref sig .tc .vmem S5000x128 .f32) (harg2 : arg2.IsWhole)
  (arg3 : Memref sig .tc .vmem S5000x128 .f32) (harg3 : arg3.IsWhole)
  (arg4 : Memref sig .tc .vmem S128x128 .f32) (harg4 : arg4.IsWhole)
  (arg5 : Memref sig .tc .vmem S128x128 .f32) (harg5 : arg5.IsWhole)
  (arg6 : Memref sig .tc .vmem S128x128 .f32) (harg6 : arg6.IsWhole)
  (arg7 : Memref sig .tc .vmem S1x128 .f32) (harg7 : arg7.IsWhole)
  (arg8 : Memref sig .tc .vmem S5000x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x128 .f32) (harg11 : arg11.IsWhole)
  (arg12 : Memref sig .tc .vmem S1x128 .f32) (harg12 : arg12.IsWhole)

set_option maxHeartbeats 1000000 in
/-- The body's triple at a point where only the second condition holds. Given the seven input buffers at
    `x0 … x6`, the accumulators at `xs0`, `xs1` (what the point before left) and all three outputs at anything, it
    runs to the inputs as they were, the three outputs with the stores `L7`, `L8`, `L9` applied and the accumulators
    with `LS0`, `LS1` applied; the lists are what the symbolic run of the body leaves. -/
def kernelRun1_C (hc0 : ¬cond1_0 i) (hc1 : cond1_1 i) (x0 x1 x2 : Vec F S5000x128 .f32) (x3 x4 x5 : Vec F S128x128 .f32) (x6 : Vec F S1x128 .f32)
    (xs0 xs1 : Vec F S1x128 .f32) :
    Σ' (L7 : List (View.Piece (Elt F) S5000x128 .f32)), Σ' (L8 : List (View.Piece (Elt F) S1x128 .f32)),
      Σ' (L9 : List (View.Piece (Elt F) S1x128 .f32)), Σ' (LS0 : List (View.Piece (Elt F) S1x128 .f32)),
      { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ (∃ d, owns (c : Thread nD τ) arg8 fullShare d)
            ∗ (∃ d, owns (c : Thread nD τ) arg9 fullShare d) ∗ (∃ d, owns (c : Thread nD τ) arg10 fullShare d)
            ∗ owns (c : Thread nD τ) arg11 fullShare xs0 ∗ owns (c : Thread nD τ) arg12 fullShare xs1
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f L8)
                ∗ (∃ f, arg10.view.loc (c : Thread nD τ) ↦[arg10.view.set]{fullShare} arg10.view.writes (Elt F) f L9)
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)) -∗ K ⟨⟩))
          ⊢ wp frame (wpE (defs₀ (F := F)) Variants.none c none) E (cc1_cheb_affine_kernel i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    sl_unfold [cc1_cheb_affine_kernel]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
      ⟨%d7, %f7, -, H7⟩, ⟨%d8, %f8, -, H8⟩, ⟨%d9, %f9, -, H9⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6
    obtain rfl := harg11.eq_unread hfs0; obtain rfl := harg12.eq_unread hfs1
    sl_exec (disch := first | exact hc0 | exact hc1)
    sl_step
    iapply Hk
    isplitl [H0]
    · iexists _; isplitr
      · ipureintro; exact harg1.read_unread _
      iexact H0
    isplitl [H1]
    · iexists _; isplitr
      · ipureintro; exact harg2.read_unread _
      iexact H1
    isplitl [H2]
    · iexists _; isplitr
      · ipureintro; exact harg3.read_unread _
      iexact H2
    isplitl [H3]
    · iexists _; isplitr
      · ipureintro; exact harg4.read_unread _
      iexact H3
    isplitl [H4]
    · iexists _; isplitr
      · ipureintro; exact harg5.read_unread _
      iexact H4
    isplitl [H5]
    · iexists _; isplitr
      · ipureintro; exact harg6.read_unread _
      iexact H5
    isplitl [H6]
    · iexists _; isplitr
      · ipureintro; exact harg7.read_unread _
      iexact H6
    isplitl [H7]
    · iexists _; iexact H7
    isplitl [H8]
    · iexists _; iexact H8
    isplitl [H9]
    · iexists _; iexact H9
    isplitl [HS0]
    · iexists _; iexact HS0
    iexists _; iexact HS1

end Cert.Kernel.Hand

end
-- ==== Proof.KB.Reg1.lean ====
/- Region 1 of the kernel program: one Chebyshev affine layer over ten row tiles of 5000 nodes, with the column sum and
   the column sum of squares of its result accumulated across the tiles in two small buffers and copied out at the
   last tile. This module: what each of the three control cases leaves in the buffers it stores into; what the outputs
   and the two accumulators hold after each tile, by recursion on the tile; the proof data of the pipelined region
   at a parameter `V` (the buffers' contents when the region is entered); the body obligation at every tile; and
   the two ends of the invariant. -/
import proofs.«160050_j32744830665390_2_alg».proof.Proof.KB.Iface
import proofs.«160050_j32744830665390_2_alg».proof.Proof.KB.Reg1.RunA
import proofs.«160050_j32744830665390_2_alg».proof.Proof.KB.Reg1.RunB
import proofs.«160050_j32744830665390_2_alg».proof.Proof.KB.Reg1.RunC
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

section Cases

variable (c : Dev nD) (i : grid1.Coords)
  (arg1 : Memref sig .tc .vmem S5000x128 .f32) (harg1 : arg1.IsWhole)
  (arg2 : Memref sig .tc .vmem S5000x128 .f32) (harg2 : arg2.IsWhole)
  (arg3 : Memref sig .tc .vmem S5000x128 .f32) (harg3 : arg3.IsWhole)
  (arg4 : Memref sig .tc .vmem S128x128 .f32) (harg4 : arg4.IsWhole)
  (arg5 : Memref sig .tc .vmem S128x128 .f32) (harg5 : arg5.IsWhole)
  (arg6 : Memref sig .tc .vmem S128x128 .f32) (harg6 : arg6.IsWhole)
  (arg7 : Memref sig .tc .vmem S1x128 .f32) (harg7 : arg7.IsWhole)
  (arg8 : Memref sig .tc .vmem S5000x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x128 .f32) (harg11 : arg11.IsWhole)
  (arg12 : Memref sig .tc .vmem S1x128 .f32) (harg12 : arg12.IsWhole)

/-! ### At the first row tile -/

/-- At the first row tile the stores into the row-tile output tile it: every index lies in some piece. -/
theorem cover1_A_7 (hc0 : cond1_0 i) (hc1 : ¬cond1_1 i) (x0 x1 x2 : Vec F S5000x128 .f32) (x3 x4 x5 : Vec F S128x128 .f32) (x6 : Vec F S1x128 .f32) (y : S5000x128.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).1 S5000x128.size (by sl_kernel_rfl) y

/-- What the row-tile output holds after the body at the first row tile: the pieces read back (over contents that do not show,
    the pieces covering the buffer). -/
def out1_A_7 (hc0 : cond1_0 i) (hc1 : ¬cond1_1 i) (x0 x1 x2 : Vec F S5000x128 .f32) (x3 x4 x5 : Vec F S128x128 .f32) (x6 : Vec F S1x128 .f32) : Vec F S5000x128 .f32 :=
  VO1_7.read (Elt F) (VO1_7.writes (Elt F) VO1_7.junk (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).1)

/-- At the first row tile the stores into the first accumulator tile it: every index lies in some piece. -/
theorem scover1_A_0 (hc0 : cond1_0 i) (hc1 : ¬cond1_1 i) (x0 x1 x2 : Vec F S5000x128 .f32) (x3 x4 x5 : Vec F S128x128 .f32) (x6 : Vec F S1x128 .f32) (y : S1x128.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.1 S1x128.size (by sl_kernel_rfl) y

/-- What the first accumulator holds after the body at the first row tile: the pieces read back (over contents that do not show,
    the pieces covering the buffer). -/
def sout1_A_0 (hc0 : cond1_0 i) (hc1 : ¬cond1_1 i) (x0 x1 x2 : Vec F S5000x128 .f32) (x3 x4 x5 : Vec F S128x128 .f32) (x6 : Vec F S1x128 .f32) : Vec F S1x128 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.1)

/-- At the first row tile the stores into the second accumulator tile it: every index lies in some piece. -/
theorem scover1_A_1 (hc0 : cond1_0 i) (hc1 : ¬cond1_1 i) (x0 x1 x2 : Vec F S5000x128 .f32) (x3 x4 x5 : Vec F S128x128 .f32) (x6 : Vec F S1x128 .f32) (y : S1x128.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.2.1 S1x128.size (by sl_kernel_rfl) y

/-- What the second accumulator holds after the body at the first row tile: the pieces read back (over contents that do not show,
    the pieces covering the buffer). -/
def sout1_A_1 (hc0 : cond1_0 i) (hc1 : ¬cond1_1 i) (x0 x1 x2 : Vec F S5000x128 .f32) (x3 x4 x5 : Vec F S128x128 .f32) (x6 : Vec F S1x128 .f32) : Vec F S1x128 .f32 :=
  VS1_1.read (Elt F) (VS1_1.writes (Elt F) VS1_1.junk (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.2.1)

/-! ### At a middle row tile -/

/-- At a middle row tile the stores into the row-tile output tile it: every index lies in some piece. -/
theorem cover1_B_7 (hc0 : ¬cond1_0 i) (hc1 : ¬cond1_1 i) (x0 x1 x2 : Vec F S5000x128 .f32) (x3 x4 x5 : Vec F S128x128 .f32) (x6 : Vec F S1x128 .f32) (xs0 xs1 : Vec F S1x128 .f32) (y : S5000x128.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1 S5000x128.size (by sl_kernel_rfl) y

/-- What the row-tile output holds after the body at a middle row tile: the pieces read back (over contents that do not show,
    the pieces covering the buffer). -/
def out1_B_7 (hc0 : ¬cond1_0 i) (hc1 : ¬cond1_1 i) (x0 x1 x2 : Vec F S5000x128 .f32) (x3 x4 x5 : Vec F S128x128 .f32) (x6 : Vec F S1x128 .f32) (xs0 xs1 : Vec F S1x128 .f32) : Vec F S5000x128 .f32 :=
  VO1_7.read (Elt F) (VO1_7.writes (Elt F) VO1_7.junk (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1)

/-- At a middle row tile the stores into the first accumulator tile it: every index lies in some piece. -/
theorem scover1_B_0 (hc0 : ¬cond1_0 i) (hc1 : ¬cond1_1 i) (x0 x1 x2 : Vec F S5000x128 .f32) (x3 x4 x5 : Vec F S128x128 .f32) (x6 : Vec F S1x128 .f32) (xs0 xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1 S1x128.size (by sl_kernel_rfl) y

/-- What the first accumulator holds after the body at a middle row tile: the pieces read back (over contents that do not show,
    the pieces covering the buffer). -/
def sout1_B_0 (hc0 : ¬cond1_0 i) (hc1 : ¬cond1_1 i) (x0 x1 x2 : Vec F S5000x128 .f32) (x3 x4 x5 : Vec F S128x128 .f32) (x6 : Vec F S1x128 .f32) (xs0 xs1 : Vec F S1x128 .f32) : Vec F S1x128 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1)

/-- At a middle row tile the stores into the second accumulator tile it: every index lies in some piece. -/
theorem scover1_B_1 (hc0 : ¬cond1_0 i) (hc1 : ¬cond1_1 i) (x0 x1 x2 : Vec F S5000x128 .f32) (x3 x4 x5 : Vec F S128x128 .f32) (x6 : Vec F S1x128 .f32) (xs0 xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1 S1x128.size (by sl_kernel_rfl) y

/-- What the second accumulator holds after the body at a middle row tile: the pieces read back (over contents that do not show,
    the pieces covering the buffer). -/
def sout1_B_1 (hc0 : ¬cond1_0 i) (hc1 : ¬cond1_1 i) (x0 x1 x2 : Vec F S5000x128 .f32) (x3 x4 x5 : Vec F S128x128 .f32) (x6 : Vec F S1x128 .f32) (xs0 xs1 : Vec F S1x128 .f32) : Vec F S1x128 .f32 :=
  VS1_1.read (Elt F) (VS1_1.writes (Elt F) VS1_1.junk (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1)

/-! ### At the last row tile -/

/-- At the last row tile the stores into the row-tile output tile it: every index lies in some piece. -/
theorem cover1_C_7 (hc0 : ¬cond1_0 i) (hc1 : cond1_1 i) (x0 x1 x2 : Vec F S5000x128 .f32) (x3 x4 x5 : Vec F S128x128 .f32) (x6 : Vec F S1x128 .f32) (xs0 xs1 : Vec F S1x128 .f32) (y : S5000x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1 S5000x128.size (by sl_kernel_rfl) y

/-- What the row-tile output holds after the body at the last row tile: the pieces read back (over contents that do not show,
    the pieces covering the buffer). -/
def out1_C_7 (hc0 : ¬cond1_0 i) (hc1 : cond1_1 i) (x0 x1 x2 : Vec F S5000x128 .f32) (x3 x4 x5 : Vec F S128x128 .f32) (x6 : Vec F S1x128 .f32) (xs0 xs1 : Vec F S1x128 .f32) : Vec F S5000x128 .f32 :=
  VO1_7.read (Elt F) (VO1_7.writes (Elt F) VO1_7.junk (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1)

/-- At the last row tile the stores into the column-sum output tile it: every index lies in some piece. -/
theorem cover1_C_8 (hc0 : ¬cond1_0 i) (hc1 : cond1_1 i) (x0 x1 x2 : Vec F S5000x128 .f32) (x3 x4 x5 : Vec F S128x128 .f32) (x6 : Vec F S1x128 .f32) (xs0 xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1 S1x128.size (by sl_kernel_rfl) y

/-- What the column-sum output holds after the body at the last row tile: the pieces read back (over contents that do not show,
    the pieces covering the buffer). -/
def out1_C_8 (hc0 : ¬cond1_0 i) (hc1 : cond1_1 i) (x0 x1 x2 : Vec F S5000x128 .f32) (x3 x4 x5 : Vec F S128x128 .f32) (x6 : Vec F S1x128 .f32) (xs0 xs1 : Vec F S1x128 .f32) : Vec F S1x128 .f32 :=
  VO1_8.read (Elt F) (VO1_8.writes (Elt F) VO1_8.junk (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1)

/-- At the last row tile the stores into the sum-of-squares output tile it: every index lies in some piece. -/
theorem cover1_C_9 (hc0 : ¬cond1_0 i) (hc1 : cond1_1 i) (x0 x1 x2 : Vec F S5000x128 .f32) (x3 x4 x5 : Vec F S128x128 .f32) (x6 : Vec F S1x128 .f32) (xs0 xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1 S1x128.size (by sl_kernel_rfl) y

/-- What the sum-of-squares output holds after the body at the last row tile: the pieces read back (over contents that do not show,
    the pieces covering the buffer). -/
def out1_C_9 (hc0 : ¬cond1_0 i) (hc1 : cond1_1 i) (x0 x1 x2 : Vec F S5000x128 .f32) (x3 x4 x5 : Vec F S128x128 .f32) (x6 : Vec F S1x128 .f32) (xs0 xs1 : Vec F S1x128 .f32) : Vec F S1x128 .f32 :=
  VO1_9.read (Elt F) (VO1_9.writes (Elt F) VO1_9.junk (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1)

/-- At the last row tile the stores into the first accumulator tile it: every index lies in some piece. -/
theorem scover1_C_0 (hc0 : ¬cond1_0 i) (hc1 : cond1_1 i) (x0 x1 x2 : Vec F S5000x128 .f32) (x3 x4 x5 : Vec F S128x128 .f32) (x6 : Vec F S1x128 .f32) (xs0 xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1 S1x128.size (by sl_kernel_rfl) y

/-- What the first accumulator holds after the body at the last row tile: the pieces read back (over contents that do not show,
    the pieces covering the buffer). -/
def sout1_C_0 (hc0 : ¬cond1_0 i) (hc1 : cond1_1 i) (x0 x1 x2 : Vec F S5000x128 .f32) (x3 x4 x5 : Vec F S128x128 .f32) (x6 : Vec F S1x128 .f32) (xs0 xs1 : Vec F S1x128 .f32) : Vec F S1x128 .f32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1)

/-- At the last row tile the stores into the second accumulator tile it: every index lies in some piece. -/
theorem scover1_C_1 (hc0 : ¬cond1_0 i) (hc1 : cond1_1 i) (x0 x1 x2 : Vec F S5000x128 .f32) (x3 x4 x5 : Vec F S128x128 .f32) (x6 : Vec F S1x128 .f32) (xs0 xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.2.1 S1x128.size (by sl_kernel_rfl) y

/-- What the second accumulator holds after the body at the last row tile: the pieces read back (over contents that do not show,
    the pieces covering the buffer). -/
def sout1_C_1 (hc0 : ¬cond1_0 i) (hc1 : cond1_1 i) (x0 x1 x2 : Vec F S5000x128 .f32) (x3 x4 x5 : Vec F S128x128 .f32) (x6 : Vec F S1x128 .f32) (xs0 xs1 : Vec F S1x128 .f32) : Vec F S1x128 .f32 :=
  VS1_1.read (Elt F) (VS1_1.writes (Elt F) VS1_1.junk (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.2.1)

end Cases

/-! ## The tiles' input blocks -/

variable (V : Entry F)

/-- Window `w`'s block at tile `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## After each tile -/

/-- What is tracked after a tile: the row-tile output, the two small outputs, the two accumulators. -/
abbrev Outs1 (F : FTy → Type) : Type :=
  Vec F S5000x128 .f32 × Vec F S1x128 .f32 × Vec F S1x128 .f32 × Vec F S1x128 .f32 × Vec F S1x128 .f32

/-- The first tile. The small outputs are not stored into there (nor written back): their entries repeat the
    accumulators' and are never consulted. -/
def pt1_A (c : Dev nD) (t : Fin cfg1.N) (h0 : t.val % 10 = 0) (h1 : ¬t.val % 10 = 9) : Outs1 F :=
  (out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t),
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t),
   sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t),
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t),
   sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t))

/-- A middle tile, over what the tile before left in the accumulators. The small outputs' entries as at the first tile. -/
def pt1_B (c : Dev nD) (t : Fin cfg1.N) (h0 : ¬t.val % 10 = 0) (h1 : ¬t.val % 10 = 9) (xs0 xs1 : Vec F S1x128 .f32) : Outs1 F :=
  (out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) xs0 xs1,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) xs0 xs1,
   sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) xs0 xs1,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) xs0 xs1,
   sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) xs0 xs1)

/-- The last tile, over what the tile before left in the accumulators: here the small outputs are stored into. -/
def pt1_C (c : Dev nD) (t : Fin cfg1.N) (h0 : ¬t.val % 10 = 0) (h1 : t.val % 10 = 9) (xs0 xs1 : Vec F S1x128 .f32) : Outs1 F :=
  (out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) xs0 xs1,
   out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) xs0 xs1,
   out1_C_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) xs0 xs1,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) xs0 xs1,
   sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) xs0 xs1)

/-- A tile after the first is not the first among ten. -/
theorem succ_ne_first1 {n : ℕ} (hn : n + 1 < cfg1.N) : ¬(n + 1) % 10 = 0 := by
  have : n + 1 < 10 := lt_of_lt_of_eq hn (show cfg1.N = 10 from N_1)
  omega

/-- THE ACCUMULATION: what the outputs and the accumulators hold after tile `n`. The first tile clears and adds;
    every later tile adds onto what the tile before left; the last of them also copies out. -/
def outsAt1 (c : Dev nD) : (n : ℕ) → n < cfg1.N → Outs1 F
  | 0, hn => pt1_A V c ⟨0, hn⟩ (Nat.zero_mod _) (by show ¬(0 % 10 = 9); decide)
  | n + 1, hn =>
    if h1 : (n + 1) % 10 = 9 then
      pt1_C V c ⟨n + 1, hn⟩ (succ_ne_first1 hn) h1 (outsAt1 c n (Nat.lt_of_succ_lt hn)).2.2.2.1 (outsAt1 c n (Nat.lt_of_succ_lt hn)).2.2.2.2
    else
      pt1_B V c ⟨n + 1, hn⟩ (succ_ne_first1 hn) h1 (outsAt1 c n (Nat.lt_of_succ_lt hn)).2.2.2.1 (outsAt1 c n (Nat.lt_of_succ_lt hn)).2.2.2.2

/-- The recursion's own two equations at a tile after the first. -/
theorem outsAt1_succ_mid (c : Dev nD) (n : ℕ) (hn : n + 1 < cfg1.N) (h1 : ¬(n + 1) % 10 = 9) :
    outsAt1 V c (n + 1) hn
      = pt1_B V c ⟨n + 1, hn⟩ (succ_ne_first1 hn) h1 (outsAt1 V c n (Nat.lt_of_succ_lt hn)).2.2.2.1 (outsAt1 V c n (Nat.lt_of_succ_lt hn)).2.2.2.2 :=
  (dif_neg h1).trans rfl

theorem outsAt1_succ_last (c : Dev nD) (n : ℕ) (hn : n + 1 < cfg1.N) (h1 : (n + 1) % 10 = 9) :
    outsAt1 V c (n + 1) hn
      = pt1_C V c ⟨n + 1, hn⟩ (succ_ne_first1 hn) h1 (outsAt1 V c n (Nat.lt_of_succ_lt hn)).2.2.2.1 (outsAt1 V c n (Nat.lt_of_succ_lt hn)).2.2.2.2 :=
  (dif_pos h1).trans rfl

/-- The tile before `t` is a tile. -/
theorem pred_lt1 (t : Fin cfg1.N) : t.val - 1 < cfg1.N := Nat.lt_of_le_of_lt (Nat.sub_le _ _) t.isLt

theorem outsAt1_first (c : Dev nD) (t : Fin cfg1.N) (h0 : t.val % 10 = 0) (h1 : ¬t.val % 10 = 9) :
    outsAt1 V c t.val t.isLt = pt1_A V c t h0 h1 := by
  obtain ⟨n, hn⟩ := t
  cases n with
  | zero => exact rfl
  | succ n => exact absurd h0 (succ_ne_first1 hn)

theorem outsAt1_mid (c : Dev nD) (t : Fin cfg1.N) (h0 : ¬t.val % 10 = 0) (h1 : ¬t.val % 10 = 9) :
    outsAt1 V c t.val t.isLt
      = pt1_B V c t h0 h1 (outsAt1 V c (t.val - 1) (pred_lt1 t)).2.2.2.1 (outsAt1 V c (t.val - 1) (pred_lt1 t)).2.2.2.2 := by
  obtain ⟨n, hn⟩ := t
  cases n with
  | zero => exact absurd (Nat.zero_mod _) h0
  | succ n => exact (dif_neg h1).trans rfl

theorem outsAt1_last (c : Dev nD) (t : Fin cfg1.N) (h0 : ¬t.val % 10 = 0) (h1 : t.val % 10 = 9) :
    outsAt1 V c t.val t.isLt
      = pt1_C V c t h0 h1 (outsAt1 V c (t.val - 1) (pred_lt1 t)).2.2.2.1 (outsAt1 V c (t.val - 1) (pred_lt1 t)).2.2.2.2 := by
  obtain ⟨n, hn⟩ := t
  cases n with
  | zero => exact absurd (Nat.zero_mod _) h0
  | succ n => exact (dif_pos h1).trans rfl

/-! ## The invariant -/

/-- A buffer into which a covering list of pieces was written is owned at the pieces read back, whatever it held. -/
theorem owns_of_cover1 {S : Shape} (c : Dev nD) (a : Memref sig .tc .vmem S .f32) (v : View sig .tc .vmem S .f32)
    (L : List (View.Piece (Elt F) S .f32)) (hcov : ∀ y : S.Idx, ∃ pc ∈ L, y ∈ pc.1.set) :
    (iprop(∃ f, a.view.loc (c : Thread nD τ) ↦[a.view.set]{fullShare} a.view.writes (Elt F) f L) : sProp 𝕄)
      ⊢ owns (c : Thread nD τ) a fullShare (v.read (Elt F) (v.writes (Elt F) v.junk L)) := by
  iintro ⟨%f, H⟩
  unfold owns; iexists _; isplitr
  swap
  · iexact H
  ipureintro; exact View.read_writes_of_cover _ _ _ _ _ hcov

/-- The region invariant before tile `n`. Before the first tile it is what the launch hands over: every scoped
    buffer that is no staging buffer at some contents, and the generator register at some state. After tile `n`
    the two accumulators are held at that tile's sums, the other such buffers unopened, the register as before. -/
def Phi1 (c : Dev nD) : (n : ℕ) → n ≤ cfg1.N → sProp 𝕄
  | 0, _ => Pipeline.ΦA (U := UR sig nD τ) (Val := Elt F) spec1 c
  | n + 1, hn => iprop(iprop(owns (c : Thread nD τ) scM1_0 fullShare (outsAt1 V c n hn).2.2.2.1
        ∗ owns (c : Thread nD τ) scM1_1 fullShare (outsAt1 V c n hn).2.2.2.2
        ∗ Pipeline.scopedRestBut (Ix := Unit) (Name := ℕ) (U := UR sig nD τ) (Lvl := ℕ) (Val := Elt F) spec1 c [cc1_scratch0, cc1_scratch1])
      ∗ (∃ r, prngReg c r))

theorem Phi1_zero (c : Dev nD) (n : ℕ) (h : n ≤ cfg1.N) (hz : n = 0) :
    Phi1 V c n h = Pipeline.ΦA (U := UR sig nD τ) (Val := Elt F) spec1 c := by
  subst hz; rfl

theorem Phi1_succ (c : Dev nD) (n : ℕ) (hn : n < cfg1.N) :
    Phi1 V c (n + 1) hn = iprop(iprop(owns (c : Thread nD τ) scM1_0 fullShare (outsAt1 V c n hn).2.2.2.1
        ∗ owns (c : Thread nD τ) scM1_1 fullShare (outsAt1 V c n hn).2.2.2.2
        ∗ Pipeline.scopedRestBut (Ix := Unit) (Name := ℕ) (U := UR sig nD τ) (Lvl := ℕ) (Val := Elt F) spec1 c [cc1_scratch0, cc1_scratch1])
      ∗ (∃ r, prngReg c r)) := rfl

theorem Phi1_pos (c : Dev nD) (n : ℕ) (h : n ≤ cfg1.N) (hz : n ≠ 0) :
    Phi1 V c n h = iprop(iprop(owns (c : Thread nD τ) scM1_0 fullShare (outsAt1 V c (n - 1) (by omega)).2.2.2.1
        ∗ owns (c : Thread nD τ) scM1_1 fullShare (outsAt1 V c (n - 1) (by omega)).2.2.2.2
        ∗ Pipeline.scopedRestBut (Ix := Unit) (Name := ℕ) (U := UR sig nD τ) (Lvl := ℕ) (Val := Elt F) spec1 c [cc1_scratch0, cc1_scratch1])
      ∗ (∃ r, prngReg c r)) := by
  cases n with
  | zero => exact absurd rfl hz
  | succ n => rfl

/-- What the launch hands over, with the two accumulators taken out of the scoped rest as owned memrefs. -/
theorem PhiA1_eq (c : Dev nD) :
    (Pipeline.ΦA (U := UR sig nD τ) (Val := Elt F) spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1])
        ∗ (∃ r, prngReg c r)) := by
  unfold Pipeline.ΦA; rw [scopedRest1_split]; simp only [scM1_0, scM1_1, owns_whole]
  rfl

/-! ## The proof data -/

/-- The region's proof data on core `c`: the arrays as the region finds them; after the body at tile `t` each input's
    buffer at its block, the outputs' at the accumulation's entries; the invariant above; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
    | ⟨8, _⟩ => (outsAt1 V c t.val t.isLt).2.1
    | ⟨9, _⟩ => (outsAt1 V c t.val t.isLt).2.2.1
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem q_eq1 (c : Dev nD) (w : Fin cfg1.W) : (dat1 V c).q w = fullShare := by
  dsimp only [dat1]

theorem owed_eq1 (c : Dev nD) (t : Fin (cfg1.N + 1)) : (dat1 V c).owed t = 0 := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]
theorem after1_8 (c : Dev nD) (t : Fin cfg1.N) : (dat1 V c).after 8 t = (outsAt1 V c t.val t.isLt).2.1 := by dsimp only [dat1]
theorem after1_9 (c : Dev nD) (t : Fin cfg1.N) : (dat1 V c).after 9 t = (outsAt1 V c t.val t.isLt).2.2.1 := by dsimp only [dat1]

/-! ## What each window's buffer holds when the body runs, and what it is left at -/

theorem before1_0 (c : Dev nD) (t : Fin cfg1.N) (d) : (dat1 V c).before 0 t d = iblk1 V c 0 t :=
  ((dat1 V c).before_in_eq_fetched 0 rfl live1_0 (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl live1_1 (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl live1_2 (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl live1_3 (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl live1_4 (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl live1_5 (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl live1_6 (fun _ _ _ => rfl)
    (fun t => by rw [after1_6]; unfold Dat.blockOf iblk1; rw [A_eq1]; try rfl) t d).trans
    (by unfold Dat.fetched Dat.blockOf iblk1; rw [A_eq1]; try rfl)

theorem leaves1_0 (c : Dev nD) (t : Fin cfg1.N) :
    (dat1 V c).leavesExact 0 t = owns (c : Thread nD τ) (ms1_0 t) fullShare ((dat1 V c).after 0 t) := by
  unfold Dat.leavesExact; rw [live1_0]
theorem leaves1_1 (c : Dev nD) (t : Fin cfg1.N) :
    (dat1 V c).leavesExact 1 t = owns (c : Thread nD τ) (ms1_1 t) fullShare ((dat1 V c).after 1 t) := by
  unfold Dat.leavesExact; rw [live1_1]
theorem leaves1_2 (c : Dev nD) (t : Fin cfg1.N) :
    (dat1 V c).leavesExact 2 t = owns (c : Thread nD τ) (ms1_2 t) fullShare ((dat1 V c).after 2 t) := by
  unfold Dat.leavesExact; rw [live1_2]
theorem leaves1_3 (c : Dev nD) (t : Fin cfg1.N) :
    (dat1 V c).leavesExact 3 t = owns (c : Thread nD τ) (ms1_3 t) fullShare ((dat1 V c).after 3 t) := by
  unfold Dat.leavesExact; rw [live1_3]
theorem leaves1_4 (c : Dev nD) (t : Fin cfg1.N) :
    (dat1 V c).leavesExact 4 t = owns (c : Thread nD τ) (ms1_4 t) fullShare ((dat1 V c).after 4 t) := by
  unfold Dat.leavesExact; rw [live1_4]
theorem leaves1_5 (c : Dev nD) (t : Fin cfg1.N) :
    (dat1 V c).leavesExact 5 t = owns (c : Thread nD τ) (ms1_5 t) fullShare ((dat1 V c).after 5 t) := by
  unfold Dat.leavesExact; rw [live1_5]
theorem leaves1_6 (c : Dev nD) (t : Fin cfg1.N) :
    (dat1 V c).leavesExact 6 t = owns (c : Thread nD τ) (ms1_6 t) fullShare ((dat1 V c).after 6 t) := by
  unfold Dat.leavesExact; rw [live1_6]
theorem leaves1_7 (c : Dev nD) (t : Fin cfg1.N) :
    (dat1 V c).leavesExact 7 t = owns (c : Thread nD τ) (ms1_7 t) fullShare ((dat1 V c).after 7 t) := by
  unfold Dat.leavesExact; rw [live1_7]

/-! ## The body obligation -/

/-- What the body is called with at tile `t`: the invariant, what the core owes, the ten windows' current buffers. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t)

set_option maxHeartbeats 4800000 in
/-- The body at any tile. The seven inputs' buffers hold their blocks; the tile's number says which of the three cases
    it is, and that case's run applies. The invariant hands the body the accumulators at what the tile before left
    (at anything, at the first tile) and takes them back at this tile's sums; the small outputs are handed back
    untouched except at the last tile, where they receive the accumulators' final contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = Phi1 V c (t.val + 1) t.isLt from rfl, Phi1_succ]
  rw [leaves1_0, leaves1_1, leaves1_2, leaves1_3, leaves1_4, leaves1_5, leaves1_6, leaves1_7]
  rw [after1_0, after1_1, after1_2, after1_3, after1_4, after1_5, after1_6, after1_7]
  rw [Phi1_castSucc]
  have hN : t.val < 10 := lt_of_lt_of_eq t.isLt (show cfg1.N = 10 from N_1)
  by_cases h0 : t.val % 10 = 0
  · -- the first tile
    have h1 : ¬t.val % 10 = 9 := by omega
    have hz : t.val = 0 := by omega
    rw [Dat.leavesExact_idle (dat1 V c) 8 t (idle1_8 t (fun h => h1 ((hcond1_1 t).mp h))) (noFlush1_8 t (fun h => h1 ((hcond1_1 t).mp h)))]
    rw [Dat.leavesExact_idle (dat1 V c) 9 t (idle1_9 t (fun h => h1 ((hcond1_1 t).mp h))) (noFlush1_9 t (fun h => h1 ((hcond1_1 t).mp h)))]
    rw [outsAt1_first V c t h0 h1]
    unfold pt1_A; dsimp only
    unfold out1_A_7 sout1_A_0 sout1_A_1
    rw [Phi1_zero V c _ _ hz, PhiA1_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2.2
      ((dat1 V c).before 8 t d8) ((dat1 V c).before 9 t d9) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [HS0]; · iexact HS0
    isplitl [HS1]; · iexact HS1
    iintro ⟨H0, H1, H2, H3, H4, H5, H6, H7, H8, H9, HS0, HS1⟩
    isplitl [HS0 HS1 Hrest Hg]
    · isplitr [Hg]
      · isplitl [HS0]
        · iapply (owns_of_cover1 (F := F) c scM1_0 VS1_0 _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t))); iexact HS0
        isplitl [HS1]
        · iapply (owns_of_cover1 (F := F) c scM1_1 VS1_1 _ (scover1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t))); iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iapply (owns_of_cover1 (F := F) c (ms1_7 t) VO1_7 _ (cover1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t))); iexact H7
    isplitl [H8]; · iexists _; iexact H8
    iexists _; iexact H9
  · by_cases h1 : t.val % 10 = 9
    · -- the last tile
      have hz : t.val ≠ 0 := by omega
      rw [show (dat1 V c).leavesExact 8 t = owns (c : Thread nD τ) (ms1_8 t) fullShare ((dat1 V c).after 8 t) from by
        unfold Dat.leavesExact; rw [liveLast1_8 t ((hcond1_1 t).mpr h1)], after1_8]
      rw [show (dat1 V c).leavesExact 9 t = owns (c : Thread nD τ) (ms1_9 t) fullShare ((dat1 V c).after 9 t) from by
        unfold Dat.leavesExact; rw [liveLast1_9 t ((hcond1_1 t).mpr h1)], after1_9]
      rw [outsAt1_last V c t h0 h1]
      unfold pt1_C; dsimp only
      unfold out1_C_7 out1_C_8 out1_C_9 sout1_C_0 sout1_C_1
      rw [Phi1_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (pred_lt1 t)).2.2.2.1 (outsAt1 V c (t.val - 1) (pred_lt1 t)).2.2.2.2).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 Hrest Hg]
      · isplitr [Hg]
        · isplitl [HS0]
          · iapply (owns_of_cover1 (F := F) c scM1_0 VS1_0 _ (scover1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (pred_lt1 t)).2.2.2.1 (outsAt1 V c (t.val - 1) (pred_lt1 t)).2.2.2.2)); iexact HS0
          isplitl [HS1]
          · iapply (owns_of_cover1 (F := F) c scM1_1 VS1_1 _ (scover1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (pred_lt1 t)).2.2.2.1 (outsAt1 V c (t.val - 1) (pred_lt1 t)).2.2.2.2)); iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · iapply (owns_of_cover1 (F := F) c (ms1_7 t) VO1_7 _ (cover1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (pred_lt1 t)).2.2.2.1 (outsAt1 V c (t.val - 1) (pred_lt1 t)).2.2.2.2)); iexact H7
      isplitl [H8]
      · iapply (owns_of_cover1 (F := F) c (ms1_8 t) VO1_8 _ (cover1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (pred_lt1 t)).2.2.2.1 (outsAt1 V c (t.val - 1) (pred_lt1 t)).2.2.2.2)); iexact H8
      iapply (owns_of_cover1 (F := F) c (ms1_9 t) VO1_9 _ (cover1_C_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (pred_lt1 t)).2.2.2.1 (outsAt1 V c (t.val - 1) (pred_lt1 t)).2.2.2.2)); iexact H9
    · -- a middle tile
      have hz : t.val ≠ 0 := by omega
      rw [Dat.leavesExact_idle (dat1 V c) 8 t (idle1_8 t (fun h => h1 ((hcond1_1 t).mp h))) (noFlush1_8 t (fun h => h1 ((hcond1_1 t).mp h)))]
      rw [Dat.leavesExact_idle (dat1 V c) 9 t (idle1_9 t (fun h => h1 ((hcond1_1 t).mp h))) (noFlush1_9 t (fun h => h1 ((hcond1_1 t).mp h)))]
      rw [outsAt1_mid V c t h0 h1]
      unfold pt1_B; dsimp only
      unfold out1_B_7 sout1_B_0 sout1_B_1
      rw [Phi1_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (pred_lt1 t)).2.2.2.1 (outsAt1 V c (t.val - 1) (pred_lt1 t)).2.2.2.2).2.2.2
        ((dat1 V c).before 8 t d8) ((dat1 V c).before 9 t d9) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexact HS0
      isplitl [HS1]; · iexact HS1
      iintro ⟨H0, H1, H2, H3, H4, H5, H6, H7, H8, H9, HS0, HS1⟩
      isplitl [HS0 HS1 Hrest Hg]
      · isplitr [Hg]
        · isplitl [HS0]
          · iapply (owns_of_cover1 (F := F) c scM1_0 VS1_0 _ (scover1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (pred_lt1 t)).2.2.2.1 (outsAt1 V c (t.val - 1) (pred_lt1 t)).2.2.2.2)); iexact HS0
          isplitl [HS1]
          · iapply (owns_of_cover1 (F := F) c scM1_1 VS1_1 _ (scover1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (pred_lt1 t)).2.2.2.1 (outsAt1 V c (t.val - 1) (pred_lt1 t)).2.2.2.2)); iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · iapply (owns_of_cover1 (F := F) c (ms1_7 t) VO1_7 _ (cover1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (pred_lt1 t)).2.2.2.1 (outsAt1 V c (t.val - 1) (pred_lt1 t)).2.2.2.2)); iexact H7
      isplitl [H8]; · iexists _; iexact H8
      iexists _; iexact H9

/-- The library's body obligation, at every tile. -/
theorem body_obligation1 (c : Dev nD) : BodyObligation (dat1 (F := F) V c) (defs₀ (F := F)) Variants.none () Set.univ := fun t => by
  rw [bigSep_W1, bigSep_W1]
  exact sound_body1 V c t

/-! ## The two ends of the invariant -/

/-- What the launch hands the region is the invariant before the first tile. -/
theorem Phi_in1 (c : Dev nD) : (Pipeline.ΦA (U := UR sig nD τ) (Val := Elt F) spec1 c : sProp 𝕄) ⊢ (dat1 V c).Φ 0 := by
  rw [show (dat1 V c).Φ 0 = Phi1 V c 0 (Nat.zero_le _) from rfl, Phi1_zero V c 0 _ rfl]

/-- After the last tile the invariant gives it back: the accumulators' named contents are forgotten. -/
theorem Phi_out1 (c : Dev nD) : (dat1 V c).Φ (Fin.last cfg1.N) ⊢ (Pipeline.ΦA (U := UR sig nD τ) (Val := Elt F) spec1 c : sProp 𝕄) := by
  have hne : (Fin.last cfg1.N).val ≠ 0 := by rw [Fin.val_last]; have : cfg1.N = 10 := N_1; omega
  rw [show (dat1 V c).Φ (Fin.last cfg1.N) = Phi1 V c (Fin.last cfg1.N).val (Nat.le_of_lt_succ (Fin.last cfg1.N).isLt) from rfl,
    Phi1_pos V c _ _ hne, PhiA1_eq]
  iintro ⟨⟨HS0, HS1, Hrest⟩, Hg⟩
  isplitl [HS0 HS1 Hrest]
  · isplitl [HS0 HS1]
    · isplitl [HS0]
      · iexists _; iexact HS0
      iexists _; iexact HS1
    iexact Hrest
  iexact Hg

end Cert.Kernel.Hand

end
-- ==== Proof.KB.Reg2.lean ====
import proofs.«160050_j32744830665390_2_alg».proof.Proof.KB.Iface
import Idealize.ShloMosaic.Lib.ValueLayout

/-! # Region 2: normalise a row tile by the layer statistics, scale, shift, clamp at zero

The region walks the node axis in ten row tiles of 5000 rows. At each tile it is handed the tile of the
pre-normalisation activations and the four per-feature rows (mean, variance, scale, shift), and stores into the
output tile `max ((x - mean) * rsqrt (variance + ε) * scale + shift, 0)`, feature by feature. The four rows are
staged once, at the first tile, and found again unchanged at the later ones; the activations' tile is staged anew
at every tile; the output tile is written back at every tile.

First the frame half at a parameter `V` (the core's buffer contents when the region is entered): the blocks, what
the body leaves, the body's triple, the proof data and the body obligation. Then the value half: the output array
after the ten write-backs as one function of the five input arrays, row by row and feature by feature. -/

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : Entry F)

/-! ## The blocks the pipeline stages -/

/-- The block of window `w` at tile `t`: the window's rectangle at that tile, read off the window's array as the
    region finds it. For the activations and the output this is rows `5000 t … 5000 t + 4999`; for the four
    statistics rows it is the whole row at every tile. -/
def iblk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-! ## Each input window holds its block whenever the body is called

An input window of region 2 holds its block at every tile, staged at this tile or at an earlier one: a window not
staged anew has not moved (the statistics rows' block index is constant), so what an earlier tile left there, the
body having left it alone, is this tile's block. Stated for any proof data over `V`'s arrays whose body leaves the
window's block in place. -/

/-- The activations' tile, staged anew at every tile. -/
theorem held2_0_of {c : Dev nD} (dat : Dat τ (Elt F) Unit ℕ (UR sig nD τ) ℕ cfg2 c)
    (hA : dat.A 0 = V c (Pipeline.arrRef spec2 0)) (hafter : ∀ t, dat.after 0 t = iblk2 V c 0 t)
    (t : Fin cfg2.N) (d) : dat.before 0 t d = iblk2 V c 0 t := by
  refine (dat.before_in_eq_fetched 0 rfl (fun _ => rfl) (fun _ _ _ => rfl) (fun u => ?_) t d).trans ?_
  · rw [hafter]; unfold Dat.blockOf iblk2; rw [hA]; try rfl
  · unfold Dat.fetched Dat.blockOf iblk2; rw [hA]; try rfl

/-- The mean row, staged at the first tile only. -/
theorem held2_1_of {c : Dev nD} (dat : Dat τ (Elt F) Unit ℕ (UR sig nD τ) ℕ cfg2 c)
    (hA : dat.A 1 = V c (Pipeline.arrRef spec2 1)) (hafter : ∀ t, dat.after 1 t = iblk2 V c 1 t)
    (t : Fin cfg2.N) (d) : dat.before 1 t d = iblk2 V c 1 t := by
  refine (dat.before_in_eq_fetched 1 rfl (fun _ => rfl) (fun _ _ _ => rfl) (fun u => ?_) t d).trans ?_
  · rw [hafter]; unfold Dat.blockOf iblk2; rw [hA]; try rfl
  · unfold Dat.fetched Dat.blockOf iblk2; rw [hA]; try rfl

/-- The variance row, staged at the first tile only. -/
theorem held2_2_of {c : Dev nD} (dat : Dat τ (Elt F) Unit ℕ (UR sig nD τ) ℕ cfg2 c)
    (hA : dat.A 2 = V c (Pipeline.arrRef spec2 2)) (hafter : ∀ t, dat.after 2 t = iblk2 V c 2 t)
    (t : Fin cfg2.N) (d) : dat.before 2 t d = iblk2 V c 2 t := by
  refine (dat.before_in_eq_fetched 2 rfl (fun _ => rfl) (fun _ _ _ => rfl) (fun u => ?_) t d).trans ?_
  · rw [hafter]; unfold Dat.blockOf iblk2; rw [hA]; try rfl
  · unfold Dat.fetched Dat.blockOf iblk2; rw [hA]; try rfl

/-- The scale row, staged at the first tile only. -/
theorem held2_3_of {c : Dev nD} (dat : Dat τ (Elt F) Unit ℕ (UR sig nD τ) ℕ cfg2 c)
    (hA : dat.A 3 = V c (Pipeline.arrRef spec2 3)) (hafter : ∀ t, dat.after 3 t = iblk2 V c 3 t)
    (t : Fin cfg2.N) (d) : dat.before 3 t d = iblk2 V c 3 t := by
  refine (dat.before_in_eq_fetched 3 rfl (fun _ => rfl) (fun _ _ _ => rfl) (fun u => ?_) t d).trans ?_
  · rw [hafter]; unfold Dat.blockOf iblk2; rw [hA]; try rfl
  · unfold Dat.fetched Dat.blockOf iblk2; rw [hA]; try rfl

/-- The shift row, staged at the first tile only. -/
theorem held2_4_of {c : Dev nD} (dat : Dat τ (Elt F) Unit ℕ (UR sig nD τ) ℕ cfg2 c)
    (hA : dat.A 4 = V c (Pipeline.arrRef spec2 4)) (hafter : ∀ t, dat.after 4 t = iblk2 V c 4 t)
    (t : Fin cfg2.N) (d) : dat.before 4 t d = iblk2 V c 4 t := by
  refine (dat.before_in_eq_fetched 4 rfl (fun _ => rfl) (fun _ _ _ => rfl) (fun u => ?_) t d).trans ?_
  · rw [hafter]; unfold Dat.blockOf iblk2; rw [hA]; try rfl
  · unfold Dat.fetched Dat.blockOf iblk2; rw [hA]; try rfl

/-! ## The body's accesses and what it leaves in the output tile -/

/-- The whole 5000 × 128 tile: the one rectangle through which the body loads the activations and stores the
    result. -/
abbrev tile2 : Rect S5000x128 := Rect.unit (s := S5000x128) ![0, 0] S5000x128.size inb_S5000x128_S5000x128_0_0

/-- The whole 1 × 128 row: the rectangle through which the body loads each of the four statistics rows. -/
abbrev row2 : Rect S1x128 := Rect.unit (s := S1x128) ![0, 0] S1x128.size inb_S1x128_S1x128_0_0

/-- The output tile after the body, from the five input blocks: the body's single store, through the whole-tile
    rectangle, of the normalised, scaled, shifted and clamped activations (the skeleton's payload of the five
    loads). -/
def out2_5 (x : Vec F S5000x128 .f32) (mean var scale shift : Vec F S1x128 .f32) : Vec F S5000x128 .f32 :=
  View.canon [⟨tile2, k2_pay1 (View.ld x tile2) (View.ld mean row2) (View.ld var row2) (View.ld scale row2)
    (View.ld shift row2)⟩]

/-- That one store reaches every element of the tile. -/
theorem cover2_5 (p : Vec F S5000x128 .f32) (y : S5000x128.Idx) :
    ∃ pc ∈ ([⟨tile2, p⟩] : List (View.Piece (Elt F) S5000x128 .f32)), y ∈ pc.1.set :=
  View.cover_of_tiled [⟨tile2, p⟩] S5000x128.size (by rfl) y

/-! ## The body's triple -/

set_option maxHeartbeats 1000000 in
/-- The body on six whole staging memrefs — the five inputs at contents `x`, `mean`, `var`, `scale`, `shift`, the
    output at anything — runs to a state where the inputs are as they were and the output holds `out2_5` of them.
    (The body also loads the output tile before storing into it; the loaded value is not used.) -/
theorem sound_kernel2 (c : Dev nD) (E : Set ℕ) (i : grid2.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x : Vec F S5000x128 .f32) (mean var scale shift : Vec F S1x128 .f32) (K : PUnit → sProp 𝕄) :
    iprop(owns (c : Thread nD τ) arg1 fullShare x ∗ owns (c : Thread nD τ) arg2 fullShare mean
        ∗ owns (c : Thread nD τ) arg3 fullShare var ∗ owns (c : Thread nD τ) arg4 fullShare scale
        ∗ owns (c : Thread nD τ) arg5 fullShare shift ∗ (∃ d, owns (c : Thread nD τ) arg6 fullShare d)
        ∗ (iprop(owns (c : Thread nD τ) arg1 fullShare x ∗ owns (c : Thread nD τ) arg2 fullShare mean
            ∗ owns (c : Thread nD τ) arg3 fullShare var ∗ owns (c : Thread nD τ) arg4 fullShare scale
            ∗ owns (c : Thread nD τ) arg5 fullShare shift
            ∗ owns (c : Thread nD τ) arg6 fullShare (out2_5 x mean var scale shift)) -∗ K ⟨⟩))
      ⊢ wp frame (wpE (defs₀ (F := F)) Variants.none c none) E
          (cc2_bn_relu_kernel i arg1 harg1 arg2 harg2 arg3 harg3 arg4 harg4 arg5 harg5 arg6 harg6) K := by
  simp only [cc2_bn_relu_kernel_eq_skeleton]; unfold cc2_bn_relu_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_5 _)

/-! ## The proof data -/

/-- Region 2's proof data on core `c`: the six arrays as the region finds them; after the body at tile `t` each
    input's buffer still at its block and the output's at `out2_5` of the five input blocks; the invariant is the
    untouched rest of the core (scoped buffers, generator register); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- Its arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t
    = out2_5 (iblk2 V c 0 t) (iblk2 V c 1 t) (iblk2 V c 2 t) (iblk2 V c 3 t) (iblk2 V c 4 t) := by
  dsimp only [dat2]

/-- Each input's current buffer holds its block at every tile. -/
theorem before2_0 (c : Dev nD) (t : Fin cfg2.N) (d) : (dat2 V c).before 0 t d = iblk2 V c 0 t :=
  held2_0_of V (dat2 V c) (A_eq2 V c 0) (after2_0 V c) t d
theorem before2_1 (c : Dev nD) (t : Fin cfg2.N) (d) : (dat2 V c).before 1 t d = iblk2 V c 1 t :=
  held2_1_of V (dat2 V c) (A_eq2 V c 1) (after2_1 V c) t d
theorem before2_2 (c : Dev nD) (t : Fin cfg2.N) (d) : (dat2 V c).before 2 t d = iblk2 V c 2 t :=
  held2_2_of V (dat2 V c) (A_eq2 V c 2) (after2_2 V c) t d
theorem before2_3 (c : Dev nD) (t : Fin cfg2.N) (d) : (dat2 V c).before 3 t d = iblk2 V c 3 t :=
  held2_3_of V (dat2 V c) (A_eq2 V c 3) (after2_3 V c) t d
theorem before2_4 (c : Dev nD) (t : Fin cfg2.N) (d) : (dat2 V c).before 4 t d = iblk2 V c 4 t :=
  held2_4_of V (dat2 V c) (A_eq2 V c 4) (after2_4 V c) t d

/-- Full shares of every array. -/
theorem q_eq2 (c : Dev nD) (w : Fin cfg2.W) : (dat2 V c).q w = fullShare := by dsimp only [dat2]

/-- The core owes nothing at any tile. -/
theorem owed_eq2 (c : Dev nD) (t : Fin (cfg2.N + 1)) : (dat2 V c).owed t = 0 := by dsimp only [dat2]

/-- The invariant is the untouched rest of the core at every tile: what the region is entered with is the invariant
    before the first tile, -/
theorem Phi_in2 (c : Dev nD) :
    (Pipeline.ΦA (U := UR sig nD τ) (Val := Elt F) spec2 c : sProp 𝕄) ⊢ (dat2 V c).Φ 0 := .rfl

/-- and the invariant after the last tile is what the region gives back. -/
theorem Phi_out2 (c : Dev nD) :
    (dat2 V c).Φ (Fin.last cfg2.N) ⊢ (Pipeline.ΦA (U := UR sig nD τ) (Val := Elt F) spec2 c : sProp 𝕄) := .rfl

/-! ## The body obligation -/

/-- What the body is called with at tile `t`: the invariant, the core's dues, and the six current staging buffers,
    each at what the pipeline put or left there. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- What it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any tile: the five inputs hold their blocks, so the body's triple applies; the invariant and the
    dues pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t)
    (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for region 2, at every tile. -/
theorem body_obligation2 (c : Dev nD) :
    BodyObligation (dat2 (F := F) V c) (defs₀ (F := F)) Variants.none () Set.univ := fun t => by
  rw [bigSep_W2, bigSep_W2]
  exact sound_body2 V c t

/-! # The value half: the output array after the region -/

open Idealize.ShloMosaic.ValueIdx

/-! ## One activation through the layer -/

/-- One activation through the layer: centre by the mean, scale by the reciprocal square root of the variance
    plus ε (the f32 word `0x3727C5AC`, about 1e-5), multiply by the learnt scale, add the learnt shift, clamp
    below at zero. -/
def bnRelu246 (x mean var scale shift : Elt F .f32) : Elt F .f32 :=
  FloatOps.maximumf
    (FloatOps.addf
      (FloatOps.mulf
        (FloatOps.mulf (FloatOps.subf x mean)
          (FloatOps.rsqrt (FloatOps.addf var (Scalar.ofBits .f32 0x3727C5AC#32))))
        scale)
      shift)
    (Scalar.ofBits .f32 0x00000000#32)

/-- The entry of a 1 × 128 statistics row that belongs to the feature (column) of the array index `i`. -/
abbrev featOf246 (i : S50000x128.Idx) : S1x128.Idx := ix2 (0 : Fin 1) (⟨(i 1).val, idx2_lt1 i⟩ : Fin 128)

/-- All offsets of a whole-tile or whole-row rectangle are zero. -/
theorem zeroOff246 : (![0, 0] : Fin 2 → Nat) = fun _ => 0 := funext fun a => by fin_cases a <;> rfl

/-! ## The output array as one function of the input arrays -/

/-- What the output array holds after the region: every activation through `bnRelu246` with its own feature's
    mean, variance, scale and shift. -/
def G2_5 (a : S50000x128.Idx → Elt F .f32) (mean var scale shift : S1x128.Idx → Elt F .f32) :
    S50000x128.Idx → Elt F .f32 :=
  fun i => bnRelu246 (a i) (mean (featOf246 i)) (var (featOf246 i)) (scale (featOf246 i)) (shift (featOf246 i))

/-- The body's payload at row `p`, feature `q` of the tile: the layout casts are identities, each broadcast of a
    statistics row reads the row at `q`, and the arithmetic is pointwise. -/
theorem pay2_at (x : Vec F S5000x128 .f32) (mean var scale shift : Vec F S1x128 .f32) (p : Fin 5000) (q : Fin 128) :
    k2_pay1 x mean var scale shift (ix2 p q)
      = bnRelu246 (x (ix2 p q)) (mean (ix2 (0 : Fin 1) q)) (var (ix2 (0 : Fin 1) q)) (scale (ix2 (0 : Fin 1) q))
          (shift (ix2 (0 : Fin 1) q)) := by
  unfold k2_pay1 bnRelu246
  simp only [shapeCast_self]
  show FloatOps.maximumf
      (FloatOps.addf
        (FloatOps.mulf
          (FloatOps.mulf
            (FloatOps.subf (x (ix2 p q)) (broadcastTo S5000x128 mean broadcasts_S1x128_S5000x128 (ix2 p q)))
            (broadcastTo S5000x128 (rsqrt (addf var (broadcast S1x128 (Scalar.ofBits .f32 0x3727C5AC#32))))
              broadcasts_S1x128_S5000x128 (ix2 p q)))
          (broadcastTo S5000x128 scale broadcasts_S1x128_S5000x128 (ix2 p q)))
        (broadcastTo S5000x128 shift broadcasts_S1x128_S5000x128 (ix2 p q)))
      (Scalar.ofBits .f32 0x00000000#32) = _
  rw [broadcastTo_1b_ab_apply mean, broadcastTo_1b_ab_apply scale, broadcastTo_1b_ab_apply shift,
    broadcastTo_1b_ab_apply (rsqrt (addf var (broadcast S1x128 (Scalar.ofBits .f32 0x3727C5AC#32))))]
  rfl

/-- The printed index maps over the ten tiles: the activations' block moves with the output's along the rows, no
    block moves along the features, and the statistics rows' blocks never move. -/
theorem idx_facts2 : ∀ t : Fin cfg2.N,
    win2_0.index t (0 : Fin 2) = win2_5.index t (0 : Fin 2) ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Every row tile is some point's output block. -/
theorem idx_onto2 : ∀ r : Fin 10, ∃ t : Fin cfg2.N, win2_5.index t = ![r.val, 0] :=
  (by decide +kernel : ∀ r : Fin 10, ∃ t : Fin grid2.N, win2_5.index t = ![r.val, 0])

/-- WHAT TILE `t` WRITES BACK is block `t` of `G2_5` of the five input arrays as the region finds them. -/
theorem flushed2_5_eq (c : Dev nD) (t : Fin cfg2.N) :
    (dat2 V c).flushed 5 t = ((cfg2.win 5).blk t).view.read (Elt F)
      (G2_5 (V c main_v75_0) (V c main_v88) (V c main_v89) (V c main_v90) (V c main_v91)) := by
  show (cfg2.win 5).cut (grid2.coords t) ((dat2 V c).after 5 t) = _
  rw [after2_5]
  unfold out2_5
  rw [View.canon_unit_zero zeroOff246]
  simp only [View.ld_unit_zero (S := S5000x128) zeroOff246, View.ld_unit_zero (S := S1x128) zeroOff246]
  obtain ⟨e0, e1, e2, e3, m0, m1, v0, v1, s0, s1, b0, b1⟩ := idx_facts2 t
  funext j
  obtain ⟨p, q, rfl⟩ : ∃ (p : Fin 5000) (q : Fin 128), j = ix2 p q := ⟨j 0, j 1, eq_ix2 j⟩
  show k2_pay1 (iblk2 V c 0 t) (iblk2 V c 1 t) (iblk2 V c 2 t) (iblk2 V c 3 t) (iblk2 V c 4 t) (ix2 p q)
    = G2_5 (V c main_v75_0) (V c main_v88) (V c main_v89) (V c main_v90) (V c main_v91)
        (((cfg2.win 5).blk t).view.emb (ix2 p q))
  rw [pay2_at]
  unfold G2_5
  have hx : iblk2 V c 0 t (ix2 p q) = V c main_v75_0 (((cfg2.win 5).blk t).view.emb (ix2 p q)) := by
    show V c main_v75_0 (((cfg2.win 0).blk t).view.emb (ix2 p q)) = _
    refine congrArg (V c main_v75_0) (funext fun a => Fin.ext ?_)
    match a with
    | ⟨0, _⟩ =>
      show win2_0.index t (0 : Fin 2) * 5000 + 1 * p.val = win2_5.index t (0 : Fin 2) * 5000 + 1 * p.val
      omega
    | ⟨1, _⟩ =>
      show win2_0.index t (1 : Fin 2) * 128 + 1 * q.val = win2_5.index t (1 : Fin 2) * 128 + 1 * q.val
      omega
  have hmean : iblk2 V c 1 t (ix2 (0 : Fin 1) q)
      = V c main_v88 (featOf246 (((cfg2.win 5).blk t).view.emb (ix2 p q))) := by
    show V c main_v88 (((cfg2.win 1).blk t).view.emb (ix2 (0 : Fin 1) q)) = _
    refine congrArg (V c main_v88) (funext fun a => Fin.ext ?_)
    match a with
    | ⟨0, _⟩ => show win2_1.index t (0 : Fin 2) * 1 + 1 * 0 = 0; omega
    | ⟨1, _⟩ =>
      show win2_1.index t (1 : Fin 2) * 128 + 1 * q.val = win2_5.index t (1 : Fin 2) * 128 + 1 * q.val
      omega
  have hvar : iblk2 V c 2 t (ix2 (0 : Fin 1) q)
      = V c main_v89 (featOf246 (((cfg2.win 5).blk t).view.emb (ix2 p q))) := by
    show V c main_v89 (((cfg2.win 2).blk t).view.emb (ix2 (0 : Fin 1) q)) = _
    refine congrArg (V c main_v89) (funext fun a => Fin.ext ?_)
    match a with
    | ⟨0, _⟩ => show win2_2.index t (0 : Fin 2) * 1 + 1 * 0 = 0; omega
    | ⟨1, _⟩ =>
      show win2_2.index t (1 : Fin 2) * 128 + 1 * q.val = win2_5.index t (1 : Fin 2) * 128 + 1 * q.val
      omega
  have hscale : iblk2 V c 3 t (ix2 (0 : Fin 1) q)
      = V c main_v90 (featOf246 (((cfg2.win 5).blk t).view.emb (ix2 p q))) := by
    show V c main_v90 (((cfg2.win 3).blk t).view.emb (ix2 (0 : Fin 1) q)) = _
    refine congrArg (V c main_v90) (funext fun a => Fin.ext ?_)
    match a with
    | ⟨0, _⟩ => show win2_3.index t (0 : Fin 2) * 1 + 1 * 0 = 0; omega
    | ⟨1, _⟩ =>
      show win2_3.index t (1 : Fin 2) * 128 + 1 * q.val = win2_5.index t (1 : Fin 2) * 128 + 1 * q.val
      omega
  have hshift : iblk2 V c 4 t (ix2 (0 : Fin 1) q)
      = V c main_v91 (featOf246 (((cfg2.win 5).blk t).view.emb (ix2 p q))) := by
    show V c main_v91 (((cfg2.win 4).blk t).view.emb (ix2 (0 : Fin 1) q)) = _
    refine congrArg (V c main_v91) (funext fun a => Fin.ext ?_)
    match a with
    | ⟨0, _⟩ => show win2_4.index t (0 : Fin 2) * 1 + 1 * 0 = 0; omega
    | ⟨1, _⟩ =>
      show win2_4.index t (1 : Fin 2) * 128 + 1 * q.val = win2_5.index t (1 : Fin 2) * 128 + 1 * q.val
      omega
  rw [hx, hmean, hvar, hscale, hshift]

/-- An index of the output array lies in tile `t`'s block iff each coordinate lies in the block's range on its
    axis. -/
theorem mem_blk2_5 (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v92).slice (win2_5.rect t)).set ↔ _
  rw [View.set_slice_whole, Rect.mem_set_unit]
  exact Iff.rfl

/-- The ten row tiles cover the output array: row `r` lies in tile `r / 5000`, which is written back. -/
theorem covered2_5 (i : S50000x128.Idx) :
    ∃ t : Fin cfg2.N, (cfg2.win 5).flush t = true ∧ i ∈ ((cfg2.win 5).blk t).view.set := by
  have hi0 : (i 0).val < 50000 := idx2_lt0 i
  have hi1 : (i 1).val < 128 := idx2_lt1 i
  obtain ⟨t, ht⟩ := idx_onto2 ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk2_5]
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 128 ≤ (i 1).val ∧ (i 1).val < win2_5.index t (1 : Fin 2) * 128 + 128
    omega

/-- THE OUTPUT ARRAY after the region: `G2_5` of the five input arrays as the region finds them, everywhere. -/
theorem final2_5 (c : Dev nD) : (dat2 V c).arrAt 5 cfg2.N
    = G2_5 (V c main_v75_0) (V c main_v88) (V c main_v89) (V c main_v90) (V c main_v91) :=
  (dat2 V c).arrAt_eq_of_cover 5 _ (fun t _ => flushed2_5_eq V c t) covered2_5

end Region2

end Cert.Kernel.Hand

end
-- ==== Proof.KB.Reg3.Runs.lean ====
/- Region 3 (the Chebyshev affine layer with column statistics), what its three control cases share:
   the two branch conditions of the body as propositions over the grid coordinates, decided over the ten
   points in closed form; where the two small output windows are idle and where they are written back;
   the memrefs the body is called with at a point. -/
import proofs.«160050_j32744830665390_2_alg».proof.Proof.KB.Iface

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- "This is the first row tile": the accumulators are cleared under it. The scalar chain the body computes from
    the grid coordinate, compared with 1. -/
abbrev cond3_0 (i : grid3.Coords) : Prop :=
  (Scalar.cmpi .ne (Scalar.extui (Scalar.cmpi .eq (BitVec.ofNat 32 (i 0).val) 0#32)) 0#32) = 1#1

/-- "This is the last row tile": the accumulators are copied to the two small outputs under it. -/
abbrev cond3_1 (i : grid3.Coords) : Prop := k3_cond2 i = 1#1

/-- The first condition holds exactly at point 0 of the ten. -/
theorem hcond3_0 : ∀ t : Fin cfg3.N, cond3_0 (grid3.coords t) ↔ t.val % 10 = 0 :=
  (by decide +kernel : ∀ t : Fin grid3.N, cond3_0 (grid3.coords t) ↔ t.val % 10 = 0)

/-- The second holds exactly at point 9. -/
theorem hcond3_1 : ∀ t : Fin cfg3.N, cond3_1 (grid3.coords t) ↔ t.val % 10 = 9 :=
  (by decide +kernel : ∀ t : Fin grid3.N, cond3_1 (grid3.coords t) ↔ t.val % 10 = 9)

/-! ## Idle and live points of the windows -/

/-- The seven inputs and the row-tile output are live at every point. -/
theorem live3_0 : ∀ i : grid3.Coords, cfg3.idle 0 i = false := fun _ => rfl
theorem live3_1 : ∀ i : grid3.Coords, cfg3.idle 1 i = false := fun _ => rfl
theorem live3_2 : ∀ i : grid3.Coords, cfg3.idle 2 i = false := fun _ => rfl
theorem live3_3 : ∀ i : grid3.Coords, cfg3.idle 3 i = false := fun _ => rfl
theorem live3_4 : ∀ i : grid3.Coords, cfg3.idle 4 i = false := fun _ => rfl
theorem live3_5 : ∀ i : grid3.Coords, cfg3.idle 5 i = false := fun _ => rfl
theorem live3_6 : ∀ i : grid3.Coords, cfg3.idle 6 i = false := fun _ => rfl
theorem live3_7 : ∀ i : grid3.Coords, cfg3.idle 7 i = false := fun _ => rfl

/-- Away from the last point the two small outputs are idle and not written back; at the last point they are live. -/
theorem idle3_8 : ∀ t : Fin cfg3.N, ¬cond3_1 (grid3.coords t) → cfg3.idle 8 (grid3.coords t) = true := by decide +kernel
theorem idle3_9 : ∀ t : Fin cfg3.N, ¬cond3_1 (grid3.coords t) → cfg3.idle 9 (grid3.coords t) = true := by decide +kernel
theorem noFlush3_8 : ∀ t : Fin cfg3.N, ¬cond3_1 (grid3.coords t) → (cfg3.win 8).flush t = false := by decide +kernel
theorem noFlush3_9 : ∀ t : Fin cfg3.N, ¬cond3_1 (grid3.coords t) → (cfg3.win 9).flush t = false := by decide +kernel
theorem liveLast3_8 : ∀ t : Fin cfg3.N, cond3_1 (grid3.coords t) → cfg3.idle 8 (grid3.coords t) = false := by decide +kernel
theorem liveLast3_9 : ∀ t : Fin cfg3.N, cond3_1 (grid3.coords t) → cfg3.idle 9 (grid3.coords t) = false := by decide +kernel

/-! ## The memrefs of a point -/

/-- Window `w`'s current staging memref at point `t`, spelled as the body is called with it, and its wholeness. -/
abbrev ms3_0 (t : Fin cfg3.N) : Memref sig .tc .vmem S5000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S5000x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S5000x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S128x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S128x128 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S128x128 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1x128 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S5000x128 .f32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S1x128 .f32 := win3_8.stage (cfg3.slots t 8)
abbrev hs3_8 (t : Fin cfg3.N) : (ms3_8 t).IsWhole := hstage3_8 ((cfg3.slots t 8).cast nbuf3_8)
abbrev ms3_9 (t : Fin cfg3.N) : Memref sig .tc .vmem S1x128 .f32 := win3_9.stage (cfg3.slots t 9)
abbrev hs3_9 (t : Fin cfg3.N) : (ms3_9 t).IsWhole := hstage3_9 ((cfg3.slots t 9).cast nbuf3_9)

/-- The two accumulators: whole scoped buffers of the kernel's own, passed after the windows. -/
abbrev scM3_0 : Memref sig .tc .vmem S1x128 .f32 := Memref.whole cc3_scratch0
abbrev scM3_1 : Memref sig .tc .vmem S1x128 .f32 := Memref.whole cc3_scratch1

/-- Views through which the contents of the written buffers are stated (which staging buffer of a window is taken
    does not matter: the pieces cover it). -/
abbrev VO3_7 : View sig .tc .vmem S5000x128 .f32 := (Memref.whole cc3_stg7_0 : Memref sig .tc .vmem S5000x128 .f32).view
abbrev VO3_8 : View sig .tc .vmem S1x128 .f32 := (Memref.whole cc3_stg8_0 : Memref sig .tc .vmem S1x128 .f32).view
abbrev VO3_9 : View sig .tc .vmem S1x128 .f32 := (Memref.whole cc3_stg9_0 : Memref sig .tc .vmem S1x128 .f32).view
abbrev VS3_0 : View sig .tc .vmem S1x128 .f32 := scM3_0.view
abbrev VS3_1 : View sig .tc .vmem S1x128 .f32 := scM3_1.view

end Cert.Kernel.Hand

end
-- ==== Proof.KB.Reg3.RunA.lean ====
/- Region 3, the body at the FIRST row tile (the clearing branch taken, the copying branch not): the two
   accumulators are set to zero and the tile's column sum and column sum of squares added to them; the tile
   of the affine result is stored; the two small outputs are not touched. -/
import proofs.«160050_j32744830665390_2_alg».proof.Proof.KB.Iface
import proofs.«160050_j32744830665390_2_alg».proof.Proof.KB.Reg3.Runs
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid3.Coords)
  (arg1 : Memref sig .tc .vmem S5000x128 .f32) (harg1 : arg1.IsWhole)
  (arg2 : Memref sig .tc .vmem S5000x128 .f32) (harg2 : arg2.IsWhole)
  (arg3 : Memref sig .tc .vmem S5000x128 .f32) (harg3 : arg3.IsWhole)
  (arg4 : Memref sig .tc .vmem S128x128 .f32) (harg4 : arg4.IsWhole)
  (arg5 : Memref sig .tc .vmem S128x128 .f32) (harg5 : arg5.IsWhole)
  (arg6 : Memref sig .tc .vmem S128x128 .f32) (harg6 : arg6.IsWhole)
  (arg7 : Memref sig .tc .vmem S1x128 .f32) (harg7 : arg7.IsWhole)
  (arg8 : Memref sig .tc .vmem S5000x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x128 .f32) (harg11 : arg11.IsWhole)
  (arg12 : Memref sig .tc .vmem S1x128 .f32) (harg12 : arg12.IsWhole)

set_option maxHeartbeats 1000000 in
/-- The body's triple at a point where only the first condition holds. Given the seven input buffers at
    `x0 … x6`, the row-tile output and both accumulators at anything, and the two small outputs at `xi8`, `xi9`,
    it runs to the inputs and the small outputs as they were, the row-tile output with the stores `L7` applied
    and the accumulators with `LS0`, `LS1` applied. The three lists are not written down: they are whatever the
    symbolic run of the body leaves, fixed when each buffer is handed to the continuation. -/
def kernelRun3_A (hc0 : cond3_0 i) (hc1 : ¬cond3_1 i) (x0 x1 x2 : Vec F S5000x128 .f32) (x3 x4 x5 : Vec F S128x128 .f32) (x6 : Vec F S1x128 .f32) :
    Σ' (L7 : List (View.Piece (Elt F) S5000x128 .f32)), Σ' (LS0 : List (View.Piece (Elt F) S1x128 .f32)),
      { LS1 : List (View.Piece (Elt F) S1x128 .f32) //
      ∀ (xi8 xi9 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ (∃ d, owns (c : Thread nD τ) arg8 fullShare d)
            ∗ owns (c : Thread nD τ) arg9 fullShare xi8 ∗ owns (c : Thread nD τ) arg10 fullShare xi9
            ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
                ∗ (∃ f, arg8.view.loc (c : Thread nD τ) ↦[arg8.view.set]{fullShare} arg8.view.writes (Elt F) f L7)
                ∗ owns (c : Thread nD τ) arg9 fullShare xi8 ∗ owns (c : Thread nD τ) arg10 fullShare xi9
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)) -∗ K ⟨⟩))
          ⊢ wp frame (wpE (defs₀ (F := F)) Variants.none c none) E (cc3_cheb_affine_kernel i arg1 harg1 arg2 harg2 arg3 harg3 arg4 harg4 arg5 harg5 arg6 harg6 arg7 harg7 arg8 harg8 arg9 harg9 arg10 harg10 arg11 harg11 arg12 harg12) K } := by
  refine ⟨?_, ?_, ?_, fun xi8 xi9 E K => ?run⟩
  case run =>
    sl_unfold [cc3_cheb_affine_kernel]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
      ⟨%d7, %f7, -, H7⟩, ⟨%f8, %hf8, H8⟩, ⟨%f9, %hf9, H9⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg9.eq_unread hf8; obtain rfl := harg10.eq_unread hf9
    sl_exec (disch := first | exact hc0 | exact hc1)
    sl_step
    iapply Hk
    isplitl [H0]
    · iexists _; isplitr
      · ipureintro; exact harg1.read_unread _
      iexact H0
    isplitl [H1]
    · iexists _; isplitr
      · ipureintro; exact harg2.read_unread _
      iexact H1
    isplitl [H2]
    · iexists _; isplitr
      · ipureintro; exact harg3.read_unread _
      iexact H2
    isplitl [H3]
    · iexists _; isplitr
      · ipureintro; exact harg4.read_unread _
      iexact H3
    isplitl [H4]
    · iexists _; isplitr
      · ipureintro; exact harg5.read_unread _
      iexact H4
    isplitl [H5]
    · iexists _; isplitr
      · ipureintro; exact harg6.read_unread _
      iexact H5
    isplitl [H6]
    · iexists _; isplitr
      · ipureintro; exact harg7.read_unread _
      iexact H6
    isplitl [H7]
    · iexists _; iexact H7
    isplitl [H8]
    · iexists _; isplitr
      · ipureintro; exact harg9.read_unread _
      iexact H8
    isplitl [H9]
    · iexists _; isplitr
      · ipureintro; exact harg10.read_unread _
      iexact H9
    isplitl [HS0]
    · iexists _; iexact HS0
    iexists _; iexact HS1

end Cert.Kernel.Hand

end
-- ==== Proof.KB.Reg3.RunB.lean ====
/- Region 3, the body at a MIDDLE row tile (neither branch taken): the tile's column sum and column sum of
   squares are added to what the accumulators held; the tile of the affine result is stored; the two small
   outputs are not touched. -/
import proofs.«160050_j32744830665390_2_alg».proof.Proof.KB.Iface
import proofs.«160050_j32744830665390_2_alg».proof.Proof.KB.Reg3.Runs
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid3.Coords)
  (arg1 : Memref sig .tc .vmem S5000x128 .f32) (harg1 : arg1.IsWhole)
  (arg2 : Memref sig .tc .vmem S5000x128 .f32) (harg2 : arg2.IsWhole)
  (arg3 : Memref sig .tc .vmem S5000x128 .f32) (harg3 : arg3.IsWhole)
  (arg4 : Memref sig .tc .vmem S128x128 .f32) (harg4 : arg4.IsWhole)
  (arg5 : Memref sig .tc .vmem S128x128 .f32) (harg5 : arg5.IsWhole)
  (arg6 : Memref sig .tc .vmem S128x128 .f32) (harg6 : arg6.IsWhole)
  (arg7 : Memref sig .tc .vmem S1x128 .f32) (harg7 : arg7.IsWhole)
  (arg8 : Memref sig .tc .vmem S5000x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x128 .f32) (harg11 : arg11.IsWhole)
  (arg12 : Memref sig .tc .vmem S1x128 .f32) (harg12 : arg12.IsWhole)

set_option maxHeartbeats 1000000 in
/-- The body's triple at a point where neither condition holds. Given the seven input buffers at `x0 … x6`, the
    accumulators at `xs0`, `xs1` (what the point before left), the row-tile output at anything and the two small
    outputs at `xi8`, `xi9`, it runs to the inputs and the small outputs as they were, the row-tile output with the
    stores `L7` applied and the accumulators with `LS0`, `LS1` applied; the lists are what the symbolic run of the
    body leaves. -/
def kernelRun3_B (hc0 : ¬cond3_0 i) (hc1 : ¬cond3_1 i) (x0 x1 x2 : Vec F S5000x128 .f32) (x3 x4 x5 : Vec F S128x128 .f32) (x6 : Vec F S1x128 .f32)
    (xs0 xs1 : Vec F S1x128 .f32) :
    Σ' (L7 : List (View.Piece (Elt F) S5000x128 .f32)), Σ' (LS0 : List (View.Piece (Elt F) S1x128 .f32)),
      { LS1 : List (View.Piece (Elt F) S1x128 .f32) //
      ∀ (xi8 xi9 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ (∃ d, owns (c : Thread nD τ) arg8 fullShare d)
            ∗ owns (c : Thread nD τ) arg9 fullShare xi8 ∗ owns (c : Thread nD τ) arg10 fullShare xi9
            ∗ owns (c : Thread nD τ) arg11 fullShare xs0 ∗ owns (c : Thread nD τ) arg12 fullShare xs1
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
                ∗ (∃ f, arg8.view.loc (c : Thread nD τ) ↦[arg8.view.set]{fullShare} arg8.view.writes (Elt F) f L7)
                ∗ owns (c : Thread nD τ) arg9 fullShare xi8 ∗ owns (c : Thread nD τ) arg10 fullShare xi9
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)) -∗ K ⟨⟩))
          ⊢ wp frame (wpE (defs₀ (F := F)) Variants.none c none) E (cc3_cheb_affine_kernel i arg1 harg1 arg2 harg2 arg3 harg3 arg4 harg4 arg5 harg5 arg6 harg6 arg7 harg7 arg8 harg8 arg9 harg9 arg10 harg10 arg11 harg11 arg12 harg12) K } := by
  refine ⟨?_, ?_, ?_, fun xi8 xi9 E K => ?run⟩
  case run =>
    sl_unfold [cc3_cheb_affine_kernel]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
      ⟨%d7, %f7, -, H7⟩, ⟨%f8, %hf8, H8⟩, ⟨%f9, %hf9, H9⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg9.eq_unread hf8; obtain rfl := harg10.eq_unread hf9
    obtain rfl := harg11.eq_unread hfs0; obtain rfl := harg12.eq_unread hfs1
    sl_exec (disch := first | exact hc0 | exact hc1)
    sl_step
    iapply Hk
    isplitl [H0]
    · iexists _; isplitr
      · ipureintro; exact harg1.read_unread _
      iexact H0
    isplitl [H1]
    · iexists _; isplitr
      · ipureintro; exact harg2.read_unread _
      iexact H1
    isplitl [H2]
    · iexists _; isplitr
      · ipureintro; exact harg3.read_unread _
      iexact H2
    isplitl [H3]
    · iexists _; isplitr
      · ipureintro; exact harg4.read_unread _
      iexact H3
    isplitl [H4]
    · iexists _; isplitr
      · ipureintro; exact harg5.read_unread _
      iexact H4
    isplitl [H5]
    · iexists _; isplitr
      · ipureintro; exact harg6.read_unread _
      iexact H5
    isplitl [H6]
    · iexists _; isplitr
      · ipureintro; exact harg7.read_unread _
      iexact H6
    isplitl [H7]
    · iexists _; iexact H7
    isplitl [H8]
    · iexists _; isplitr
      · ipureintro; exact harg9.read_unread _
      iexact H8
    isplitl [H9]
    · iexists _; isplitr
      · ipureintro; exact harg10.read_unread _
      iexact H9
    isplitl [HS0]
    · iexists _; iexact HS0
    iexists _; iexact HS1

end Cert.Kernel.Hand

end
-- ==== Proof.KB.Reg3.RunC.lean ====
/- Region 3, the body at the LAST row tile (the clearing branch not taken, the copying branch taken): the
   tile's column sum and column sum of squares are added to what the accumulators held, the tile of the
   affine result is stored, and the accumulators' final contents are copied into the two small outputs. -/
import proofs.«160050_j32744830665390_2_alg».proof.Proof.KB.Iface
import proofs.«160050_j32744830665390_2_alg».proof.Proof.KB.Reg3.Runs
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid3.Coords)
  (arg1 : Memref sig .tc .vmem S5000x128 .f32) (harg1 : arg1.IsWhole)
  (arg2 : Memref sig .tc .vmem S5000x128 .f32) (harg2 : arg2.IsWhole)
  (arg3 : Memref sig .tc .vmem S5000x128 .f32) (harg3 : arg3.IsWhole)
  (arg4 : Memref sig .tc .vmem S128x128 .f32) (harg4 : arg4.IsWhole)
  (arg5 : Memref sig .tc .vmem S128x128 .f32) (harg5 : arg5.IsWhole)
  (arg6 : Memref sig .tc .vmem S128x128 .f32) (harg6 : arg6.IsWhole)
  (arg7 : Memref sig .tc .vmem S1x128 .f32) (harg7 : arg7.IsWhole)
  (arg8 : Memref sig .tc .vmem S5000x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x128 .f32) (harg11 : arg11.IsWhole)
  (arg12 : Memref sig .tc .vmem S1x128 .f32) (harg12 : arg12.IsWhole)

set_option maxHeartbeats 1000000 in
/-- The body's triple at a point where only the second condition holds. Given the seven input buffers at
    `x0 … x6`, the accumulators at `xs0`, `xs1` (what the point before left) and all three outputs at anything, it
    runs to the inputs as they were, the three outputs with the stores `L7`, `L8`, `L9` applied and the accumulators
    with `LS0`, `LS1` applied; the lists are what the symbolic run of the body leaves. -/
def kernelRun3_C (hc0 : ¬cond3_0 i) (hc1 : cond3_1 i) (x0 x1 x2 : Vec F S5000x128 .f32) (x3 x4 x5 : Vec F S128x128 .f32) (x6 : Vec F S1x128 .f32)
    (xs0 xs1 : Vec F S1x128 .f32) :
    Σ' (L7 : List (View.Piece (Elt F) S5000x128 .f32)), Σ' (L8 : List (View.Piece (Elt F) S1x128 .f32)),
      Σ' (L9 : List (View.Piece (Elt F) S1x128 .f32)), Σ' (LS0 : List (View.Piece (Elt F) S1x128 .f32)),
      { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ (∃ d, owns (c : Thread nD τ) arg8 fullShare d)
            ∗ (∃ d, owns (c : Thread nD τ) arg9 fullShare d) ∗ (∃ d, owns (c : Thread nD τ) arg10 fullShare d)
            ∗ owns (c : Thread nD τ) arg11 fullShare xs0 ∗ owns (c : Thread nD τ) arg12 fullShare xs1
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f L8)
                ∗ (∃ f, arg10.view.loc (c : Thread nD τ) ↦[arg10.view.set]{fullShare} arg10.view.writes (Elt F) f L9)
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)) -∗ K ⟨⟩))
          ⊢ wp frame (wpE (defs₀ (F := F)) Variants.none c none) E (cc3_cheb_affine_kernel i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    sl_unfold [cc3_cheb_affine_kernel]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
      ⟨%d7, %f7, -, H7⟩, ⟨%d8, %f8, -, H8⟩, ⟨%d9, %f9, -, H9⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6
    obtain rfl := harg11.eq_unread hfs0; obtain rfl := harg12.eq_unread hfs1
    sl_exec (disch := first | exact hc0 | exact hc1)
    sl_step
    iapply Hk
    isplitl [H0]
    · iexists _; isplitr
      · ipureintro; exact harg1.read_unread _
      iexact H0
    isplitl [H1]
    · iexists _; isplitr
      · ipureintro; exact harg2.read_unread _
      iexact H1
    isplitl [H2]
    · iexists _; isplitr
      · ipureintro; exact harg3.read_unread _
      iexact H2
    isplitl [H3]
    · iexists _; isplitr
      · ipureintro; exact harg4.read_unread _
      iexact H3
    isplitl [H4]
    · iexists _; isplitr
      · ipureintro; exact harg5.read_unread _
      iexact H4
    isplitl [H5]
    · iexists _; isplitr
      · ipureintro; exact harg6.read_unread _
      iexact H5
    isplitl [H6]
    · iexists _; isplitr
      · ipureintro; exact harg7.read_unread _
      iexact H6
    isplitl [H7]
    · iexists _; iexact H7
    isplitl [H8]
    · iexists _; iexact H8
    isplitl [H9]
    · iexists _; iexact H9
    isplitl [HS0]
    · iexists _; iexact HS0
    iexists _; iexact HS1

end Cert.Kernel.Hand

end
-- ==== Proof.KB.Reg3.lean ====
/- Region 3 of the kernel program: one Chebyshev affine layer over ten row tiles of 5000 nodes, with the column sum and
   the column sum of squares of its result accumulated across the tiles in two small buffers and copied out at the
   last tile. This module: what each of the three control cases leaves in the buffers it stores into; what the outputs
   and the two accumulators hold after each tile, by recursion on the tile; the proof data of the pipelined region
   at a parameter `V` (the buffers' contents when the region is entered); the body obligation at every tile; and
   the two ends of the invariant. -/
import proofs.«160050_j32744830665390_2_alg».proof.Proof.KB.Iface
import proofs.«160050_j32744830665390_2_alg».proof.Proof.KB.Reg3.RunA
import proofs.«160050_j32744830665390_2_alg».proof.Proof.KB.Reg3.RunB
import proofs.«160050_j32744830665390_2_alg».proof.Proof.KB.Reg3.RunC
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

section Cases

variable (c : Dev nD) (i : grid3.Coords)
  (arg1 : Memref sig .tc .vmem S5000x128 .f32) (harg1 : arg1.IsWhole)
  (arg2 : Memref sig .tc .vmem S5000x128 .f32) (harg2 : arg2.IsWhole)
  (arg3 : Memref sig .tc .vmem S5000x128 .f32) (harg3 : arg3.IsWhole)
  (arg4 : Memref sig .tc .vmem S128x128 .f32) (harg4 : arg4.IsWhole)
  (arg5 : Memref sig .tc .vmem S128x128 .f32) (harg5 : arg5.IsWhole)
  (arg6 : Memref sig .tc .vmem S128x128 .f32) (harg6 : arg6.IsWhole)
  (arg7 : Memref sig .tc .vmem S1x128 .f32) (harg7 : arg7.IsWhole)
  (arg8 : Memref sig .tc .vmem S5000x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x128 .f32) (harg11 : arg11.IsWhole)
  (arg12 : Memref sig .tc .vmem S1x128 .f32) (harg12 : arg12.IsWhole)

/-! ### At the first row tile -/

/-- At the first row tile the stores into the row-tile output tile it: every index lies in some piece. -/
theorem cover3_A_7 (hc0 : cond3_0 i) (hc1 : ¬cond3_1 i) (x0 x1 x2 : Vec F S5000x128 .f32) (x3 x4 x5 : Vec F S128x128 .f32) (x6 : Vec F S1x128 .f32) (y : S5000x128.Idx) :
    ∃ pc ∈ (kernelRun3_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).1, y ∈ pc.1.set :=
  View.cover_of_tiledL (kernelRun3_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).1 S5000x128.size (by sl_kernel_rfl) y

/-- What the row-tile output holds after the body at the first row tile: the pieces read back (over contents that do not show,
    the pieces covering the buffer). -/
def out3_A_7 (hc0 : cond3_0 i) (hc1 : ¬cond3_1 i) (x0 x1 x2 : Vec F S5000x128 .f32) (x3 x4 x5 : Vec F S128x128 .f32) (x6 : Vec F S1x128 .f32) : Vec F S5000x128 .f32 :=
  VO3_7.read (Elt F) (VO3_7.writes (Elt F) VO3_7.junk (kernelRun3_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).1)

/-- At the first row tile the stores into the first accumulator tile it: every index lies in some piece. -/
theorem scover3_A_0 (hc0 : cond3_0 i) (hc1 : ¬cond3_1 i) (x0 x1 x2 : Vec F S5000x128 .f32) (x3 x4 x5 : Vec F S128x128 .f32) (x6 : Vec F S1x128 .f32) (y : S1x128.Idx) :
    ∃ pc ∈ (kernelRun3_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.1, y ∈ pc.1.set :=
  View.cover_of_tiledL (kernelRun3_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.1 S1x128.size (by sl_kernel_rfl) y

/-- What the first accumulator holds after the body at the first row tile: the pieces read back (over contents that do not show,
    the pieces covering the buffer). -/
def sout3_A_0 (hc0 : cond3_0 i) (hc1 : ¬cond3_1 i) (x0 x1 x2 : Vec F S5000x128 .f32) (x3 x4 x5 : Vec F S128x128 .f32) (x6 : Vec F S1x128 .f32) : Vec F S1x128 .f32 :=
  VS3_0.read (Elt F) (VS3_0.writes (Elt F) VS3_0.junk (kernelRun3_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.1)

/-- At the first row tile the stores into the second accumulator tile it: every index lies in some piece. -/
theorem scover3_A_1 (hc0 : cond3_0 i) (hc1 : ¬cond3_1 i) (x0 x1 x2 : Vec F S5000x128 .f32) (x3 x4 x5 : Vec F S128x128 .f32) (x6 : Vec F S1x128 .f32) (y : S1x128.Idx) :
    ∃ pc ∈ (kernelRun3_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.2.1, y ∈ pc.1.set :=
  View.cover_of_tiledL (kernelRun3_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.2.1 S1x128.size (by sl_kernel_rfl) y

/-- What the second accumulator holds after the body at the first row tile: the pieces read back (over contents that do not show,
    the pieces covering the buffer). -/
def sout3_A_1 (hc0 : cond3_0 i) (hc1 : ¬cond3_1 i) (x0 x1 x2 : Vec F S5000x128 .f32) (x3 x4 x5 : Vec F S128x128 .f32) (x6 : Vec F S1x128 .f32) : Vec F S1x128 .f32 :=
  VS3_1.read (Elt F) (VS3_1.writes (Elt F) VS3_1.junk (kernelRun3_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.2.1)

/-! ### At a middle row tile -/

/-- At a middle row tile the stores into the row-tile output tile it: every index lies in some piece. -/
theorem cover3_B_7 (hc0 : ¬cond3_0 i) (hc1 : ¬cond3_1 i) (x0 x1 x2 : Vec F S5000x128 .f32) (x3 x4 x5 : Vec F S128x128 .f32) (x6 : Vec F S1x128 .f32) (xs0 xs1 : Vec F S1x128 .f32) (y : S5000x128.Idx) :
    ∃ pc ∈ (kernelRun3_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1, y ∈ pc.1.set :=
  View.cover_of_tiledL (kernelRun3_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1 S5000x128.size (by sl_kernel_rfl) y

/-- What the row-tile output holds after the body at a middle row tile: the pieces read back (over contents that do not show,
    the pieces covering the buffer). -/
def out3_B_7 (hc0 : ¬cond3_0 i) (hc1 : ¬cond3_1 i) (x0 x1 x2 : Vec F S5000x128 .f32) (x3 x4 x5 : Vec F S128x128 .f32) (x6 : Vec F S1x128 .f32) (xs0 xs1 : Vec F S1x128 .f32) : Vec F S5000x128 .f32 :=
  VO3_7.read (Elt F) (VO3_7.writes (Elt F) VO3_7.junk (kernelRun3_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1)

/-- At a middle row tile the stores into the first accumulator tile it: every index lies in some piece. -/
theorem scover3_B_0 (hc0 : ¬cond3_0 i) (hc1 : ¬cond3_1 i) (x0 x1 x2 : Vec F S5000x128 .f32) (x3 x4 x5 : Vec F S128x128 .f32) (x6 : Vec F S1x128 .f32) (xs0 xs1 : Vec F S1x128 .f32) (y : S1x128.Idx) :
    ∃ pc ∈ (kernelRun3_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ pc.1.set :=
  View.cover_of_tiledL (kernelRun3_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1 S1x128.size (by sl_kernel_rfl) y

/-- What the first accumulator holds after the body at a middle row tile: the pieces read back (over contents that do not show,
    the pieces covering the buffer). -/
def sout3_B_0 (hc0 : ¬cond3_0 i) (hc1 : ¬cond3_1 i) (x0 x1 x2 : Vec F S5000x128 .f32) (x3 x4 x5 : Vec F S128x128 .f32) (x6 : Vec F S1x128 .f32) (xs0 xs1 : Vec F S1x128 .f32) : Vec F S1x128 .f32 :=
  VS3_0.read (Elt F) (VS3_0.writes (Elt F) VS3_0.junk (kernelRun3_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1)

/-- At a middle row tile the stores into the second accumulator tile it: every index lies in some piece. -/
theorem scover3_B_1 (hc0 : ¬cond3_0 i) (hc1 : ¬cond3_1 i) (x0 x1 x2 : Vec F S5000x128 .f32) (x3 x4 x5 : Vec F S128x128 .f32) (x6 : Vec F S1x128 .f32) (xs0 xs1 : Vec F S1x128 .f32) (y : S1x128.Idx) :
    ∃ pc ∈ (kernelRun3_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL (kernelRun3_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1 S1x128.size (by sl_kernel_rfl) y

/-- What the second accumulator holds after the body at a middle row tile: the pieces read back (over contents that do not show,
    the pieces covering the buffer). -/
def sout3_B_1 (hc0 : ¬cond3_0 i) (hc1 : ¬cond3_1 i) (x0 x1 x2 : Vec F S5000x128 .f32) (x3 x4 x5 : Vec F S128x128 .f32) (x6 : Vec F S1x128 .f32) (xs0 xs1 : Vec F S1x128 .f32) : Vec F S1x128 .f32 :=
  VS3_1.read (Elt F) (VS3_1.writes (Elt F) VS3_1.junk (kernelRun3_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1)

/-! ### At the last row tile -/

/-- At the last row tile the stores into the row-tile output tile it: every index lies in some piece. -/
theorem cover3_C_7 (hc0 : ¬cond3_0 i) (hc1 : cond3_1 i) (x0 x1 x2 : Vec F S5000x128 .f32) (x3 x4 x5 : Vec F S128x128 .f32) (x6 : Vec F S1x128 .f32) (xs0 xs1 : Vec F S1x128 .f32) (y : S5000x128.Idx) :
    ∃ pc ∈ (kernelRun3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1 S5000x128.size (by sl_kernel_rfl) y

/-- What the row-tile output holds after the body at the last row tile: the pieces read back (over contents that do not show,
    the pieces covering the buffer). -/
def out3_C_7 (hc0 : ¬cond3_0 i) (hc1 : cond3_1 i) (x0 x1 x2 : Vec F S5000x128 .f32) (x3 x4 x5 : Vec F S128x128 .f32) (x6 : Vec F S1x128 .f32) (xs0 xs1 : Vec F S1x128 .f32) : Vec F S5000x128 .f32 :=
  VO3_7.read (Elt F) (VO3_7.writes (Elt F) VO3_7.junk (kernelRun3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1)

/-- At the last row tile the stores into the column-sum output tile it: every index lies in some piece. -/
theorem cover3_C_8 (hc0 : ¬cond3_0 i) (hc1 : cond3_1 i) (x0 x1 x2 : Vec F S5000x128 .f32) (x3 x4 x5 : Vec F S128x128 .f32) (x6 : Vec F S1x128 .f32) (xs0 xs1 : Vec F S1x128 .f32) (y : S1x128.Idx) :
    ∃ pc ∈ (kernelRun3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1 S1x128.size (by sl_kernel_rfl) y

/-- What the column-sum output holds after the body at the last row tile: the pieces read back (over contents that do not show,
    the pieces covering the buffer). -/
def out3_C_8 (hc0 : ¬cond3_0 i) (hc1 : cond3_1 i) (x0 x1 x2 : Vec F S5000x128 .f32) (x3 x4 x5 : Vec F S128x128 .f32) (x6 : Vec F S1x128 .f32) (xs0 xs1 : Vec F S1x128 .f32) : Vec F S1x128 .f32 :=
  VO3_8.read (Elt F) (VO3_8.writes (Elt F) VO3_8.junk (kernelRun3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1)

/-- At the last row tile the stores into the sum-of-squares output tile it: every index lies in some piece. -/
theorem cover3_C_9 (hc0 : ¬cond3_0 i) (hc1 : cond3_1 i) (x0 x1 x2 : Vec F S5000x128 .f32) (x3 x4 x5 : Vec F S128x128 .f32) (x6 : Vec F S1x128 .f32) (xs0 xs1 : Vec F S1x128 .f32) (y : S1x128.Idx) :
    ∃ pc ∈ (kernelRun3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1 S1x128.size (by sl_kernel_rfl) y

/-- What the sum-of-squares output holds after the body at the last row tile: the pieces read back (over contents that do not show,
    the pieces covering the buffer). -/
def out3_C_9 (hc0 : ¬cond3_0 i) (hc1 : cond3_1 i) (x0 x1 x2 : Vec F S5000x128 .f32) (x3 x4 x5 : Vec F S128x128 .f32) (x6 : Vec F S1x128 .f32) (xs0 xs1 : Vec F S1x128 .f32) : Vec F S1x128 .f32 :=
  VO3_9.read (Elt F) (VO3_9.writes (Elt F) VO3_9.junk (kernelRun3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1)

/-- At the last row tile the stores into the first accumulator tile it: every index lies in some piece. -/
theorem scover3_C_0 (hc0 : ¬cond3_0 i) (hc1 : cond3_1 i) (x0 x1 x2 : Vec F S5000x128 .f32) (x3 x4 x5 : Vec F S128x128 .f32) (x6 : Vec F S1x128 .f32) (xs0 xs1 : Vec F S1x128 .f32) (y : S1x128.Idx) :
    ∃ pc ∈ (kernelRun3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1 S1x128.size (by sl_kernel_rfl) y

/-- What the first accumulator holds after the body at the last row tile: the pieces read back (over contents that do not show,
    the pieces covering the buffer). -/
def sout3_C_0 (hc0 : ¬cond3_0 i) (hc1 : cond3_1 i) (x0 x1 x2 : Vec F S5000x128 .f32) (x3 x4 x5 : Vec F S128x128 .f32) (x6 : Vec F S1x128 .f32) (xs0 xs1 : Vec F S1x128 .f32) : Vec F S1x128 .f32 :=
  VS3_0.read (Elt F) (VS3_0.writes (Elt F) VS3_0.junk (kernelRun3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1)

/-- At the last row tile the stores into the second accumulator tile it: every index lies in some piece. -/
theorem scover3_C_1 (hc0 : ¬cond3_0 i) (hc1 : cond3_1 i) (x0 x1 x2 : Vec F S5000x128 .f32) (x3 x4 x5 : Vec F S128x128 .f32) (x6 : Vec F S1x128 .f32) (xs0 xs1 : Vec F S1x128 .f32) (y : S1x128.Idx) :
    ∃ pc ∈ (kernelRun3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.2.1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.2.1 S1x128.size (by sl_kernel_rfl) y

/-- What the second accumulator holds after the body at the last row tile: the pieces read back (over contents that do not show,
    the pieces covering the buffer). -/
def sout3_C_1 (hc0 : ¬cond3_0 i) (hc1 : cond3_1 i) (x0 x1 x2 : Vec F S5000x128 .f32) (x3 x4 x5 : Vec F S128x128 .f32) (x6 : Vec F S1x128 .f32) (xs0 xs1 : Vec F S1x128 .f32) : Vec F S1x128 .f32 :=
  VS3_1.read (Elt F) (VS3_1.writes (Elt F) VS3_1.junk (kernelRun3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.2.1)

end Cases

/-! ## The tiles' input blocks -/

variable (V : Entry F)

/-- Window `w`'s block at tile `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## After each tile -/

/-- What is tracked after a tile: the row-tile output, the two small outputs, the two accumulators. -/
abbrev Outs3 (F : FTy → Type) : Type :=
  Vec F S5000x128 .f32 × Vec F S1x128 .f32 × Vec F S1x128 .f32 × Vec F S1x128 .f32 × Vec F S1x128 .f32

/-- The first tile. The small outputs are not stored into there (nor written back): their entries repeat the
    accumulators' and are never consulted. -/
def pt3_A (c : Dev nD) (t : Fin cfg3.N) (h0 : t.val % 10 = 0) (h1 : ¬t.val % 10 = 9) : Outs3 F :=
  (out3_A_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t),
   sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t),
   sout3_A_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t),
   sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t),
   sout3_A_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t))

/-- A middle tile, over what the tile before left in the accumulators. The small outputs' entries as at the first tile. -/
def pt3_B (c : Dev nD) (t : Fin cfg3.N) (h0 : ¬t.val % 10 = 0) (h1 : ¬t.val % 10 = 9) (xs0 xs1 : Vec F S1x128 .f32) : Outs3 F :=
  (out3_B_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) xs0 xs1,
   sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) xs0 xs1,
   sout3_B_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) xs0 xs1,
   sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) xs0 xs1,
   sout3_B_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) xs0 xs1)

/-- The last tile, over what the tile before left in the accumulators: here the small outputs are stored into. -/
def pt3_C (c : Dev nD) (t : Fin cfg3.N) (h0 : ¬t.val % 10 = 0) (h1 : t.val % 10 = 9) (xs0 xs1 : Vec F S1x128 .f32) : Outs3 F :=
  (out3_C_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) xs0 xs1,
   out3_C_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) xs0 xs1,
   out3_C_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) xs0 xs1,
   sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) xs0 xs1,
   sout3_C_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) xs0 xs1)

/-- A tile after the first is not the first among ten. -/
theorem succ_ne_first3 {n : ℕ} (hn : n + 1 < cfg3.N) : ¬(n + 1) % 10 = 0 := by
  have : n + 1 < 10 := lt_of_lt_of_eq hn (show cfg3.N = 10 from N_3)
  omega

/-- THE ACCUMULATION: what the outputs and the accumulators hold after tile `n`. The first tile clears and adds;
    every later tile adds onto what the tile before left; the last of them also copies out. -/
def outsAt3 (c : Dev nD) : (n : ℕ) → n < cfg3.N → Outs3 F
  | 0, hn => pt3_A V c ⟨0, hn⟩ (Nat.zero_mod _) (by show ¬(0 % 10 = 9); decide)
  | n + 1, hn =>
    if h1 : (n + 1) % 10 = 9 then
      pt3_C V c ⟨n + 1, hn⟩ (succ_ne_first3 hn) h1 (outsAt3 c n (Nat.lt_of_succ_lt hn)).2.2.2.1 (outsAt3 c n (Nat.lt_of_succ_lt hn)).2.2.2.2
    else
      pt3_B V c ⟨n + 1, hn⟩ (succ_ne_first3 hn) h1 (outsAt3 c n (Nat.lt_of_succ_lt hn)).2.2.2.1 (outsAt3 c n (Nat.lt_of_succ_lt hn)).2.2.2.2

/-- The recursion's own two equations at a tile after the first. -/
theorem outsAt3_succ_mid (c : Dev nD) (n : ℕ) (hn : n + 1 < cfg3.N) (h1 : ¬(n + 1) % 10 = 9) :
    outsAt3 V c (n + 1) hn
      = pt3_B V c ⟨n + 1, hn⟩ (succ_ne_first3 hn) h1 (outsAt3 V c n (Nat.lt_of_succ_lt hn)).2.2.2.1 (outsAt3 V c n (Nat.lt_of_succ_lt hn)).2.2.2.2 :=
  (dif_neg h1).trans rfl

theorem outsAt3_succ_last (c : Dev nD) (n : ℕ) (hn : n + 1 < cfg3.N) (h1 : (n + 1) % 10 = 9) :
    outsAt3 V c (n + 1) hn
      = pt3_C V c ⟨n + 1, hn⟩ (succ_ne_first3 hn) h1 (outsAt3 V c n (Nat.lt_of_succ_lt hn)).2.2.2.1 (outsAt3 V c n (Nat.lt_of_succ_lt hn)).2.2.2.2 :=
  (dif_pos h1).trans rfl

/-- The tile before `t` is a tile. -/
theorem pred_lt3 (t : Fin cfg3.N) : t.val - 1 < cfg3.N := Nat.lt_of_le_of_lt (Nat.sub_le _ _) t.isLt

theorem outsAt3_first (c : Dev nD) (t : Fin cfg3.N) (h0 : t.val % 10 = 0) (h1 : ¬t.val % 10 = 9) :
    outsAt3 V c t.val t.isLt = pt3_A V c t h0 h1 := by
  obtain ⟨n, hn⟩ := t
  cases n with
  | zero => exact rfl
  | succ n => exact absurd h0 (succ_ne_first3 hn)

theorem outsAt3_mid (c : Dev nD) (t : Fin cfg3.N) (h0 : ¬t.val % 10 = 0) (h1 : ¬t.val % 10 = 9) :
    outsAt3 V c t.val t.isLt
      = pt3_B V c t h0 h1 (outsAt3 V c (t.val - 1) (pred_lt3 t)).2.2.2.1 (outsAt3 V c (t.val - 1) (pred_lt3 t)).2.2.2.2 := by
  obtain ⟨n, hn⟩ := t
  cases n with
  | zero => exact absurd (Nat.zero_mod _) h0
  | succ n => exact (dif_neg h1).trans rfl

theorem outsAt3_last (c : Dev nD) (t : Fin cfg3.N) (h0 : ¬t.val % 10 = 0) (h1 : t.val % 10 = 9) :
    outsAt3 V c t.val t.isLt
      = pt3_C V c t h0 h1 (outsAt3 V c (t.val - 1) (pred_lt3 t)).2.2.2.1 (outsAt3 V c (t.val - 1) (pred_lt3 t)).2.2.2.2 := by
  obtain ⟨n, hn⟩ := t
  cases n with
  | zero => exact absurd (Nat.zero_mod _) h0
  | succ n => exact (dif_pos h1).trans rfl

/-! ## The invariant -/

/-- A buffer into which a covering list of pieces was written is owned at the pieces read back, whatever it held. -/
theorem owns_of_cover3 {S : Shape} (c : Dev nD) (a : Memref sig .tc .vmem S .f32) (v : View sig .tc .vmem S .f32)
    (L : List (View.Piece (Elt F) S .f32)) (hcov : ∀ y : S.Idx, ∃ pc ∈ L, y ∈ pc.1.set) :
    (iprop(∃ f, a.view.loc (c : Thread nD τ) ↦[a.view.set]{fullShare} a.view.writes (Elt F) f L) : sProp 𝕄)
      ⊢ owns (c : Thread nD τ) a fullShare (v.read (Elt F) (v.writes (Elt F) v.junk L)) := by
  iintro ⟨%f, H⟩
  unfold owns; iexists _; isplitr
  swap
  · iexact H
  ipureintro; exact View.read_writes_of_cover _ _ _ _ _ hcov

/-- The region invariant before tile `n`. Before the first tile it is what the launch hands over: every scoped
    buffer that is no staging buffer at some contents, and the generator register at some state. After tile `n`
    the two accumulators are held at that tile's sums, the other such buffers unopened, the register as before. -/
def Phi3 (c : Dev nD) : (n : ℕ) → n ≤ cfg3.N → sProp 𝕄
  | 0, _ => Pipeline.ΦA (U := UR sig nD τ) (Val := Elt F) spec3 c
  | n + 1, hn => iprop(iprop(owns (c : Thread nD τ) scM3_0 fullShare (outsAt3 V c n hn).2.2.2.1
        ∗ owns (c : Thread nD τ) scM3_1 fullShare (outsAt3 V c n hn).2.2.2.2
        ∗ Pipeline.scopedRestBut (Ix := Unit) (Name := ℕ) (U := UR sig nD τ) (Lvl := ℕ) (Val := Elt F) spec3 c [cc3_scratch0, cc3_scratch1])
      ∗ (∃ r, prngReg c r))

theorem Phi3_zero (c : Dev nD) (n : ℕ) (h : n ≤ cfg3.N) (hz : n = 0) :
    Phi3 V c n h = Pipeline.ΦA (U := UR sig nD τ) (Val := Elt F) spec3 c := by
  subst hz; rfl

theorem Phi3_succ (c : Dev nD) (n : ℕ) (hn : n < cfg3.N) :
    Phi3 V c (n + 1) hn = iprop(iprop(owns (c : Thread nD τ) scM3_0 fullShare (outsAt3 V c n hn).2.2.2.1
        ∗ owns (c : Thread nD τ) scM3_1 fullShare (outsAt3 V c n hn).2.2.2.2
        ∗ Pipeline.scopedRestBut (Ix := Unit) (Name := ℕ) (U := UR sig nD τ) (Lvl := ℕ) (Val := Elt F) spec3 c [cc3_scratch0, cc3_scratch1])
      ∗ (∃ r, prngReg c r)) := rfl

theorem Phi3_pos (c : Dev nD) (n : ℕ) (h : n ≤ cfg3.N) (hz : n ≠ 0) :
    Phi3 V c n h = iprop(iprop(owns (c : Thread nD τ) scM3_0 fullShare (outsAt3 V c (n - 1) (by omega)).2.2.2.1
        ∗ owns (c : Thread nD τ) scM3_1 fullShare (outsAt3 V c (n - 1) (by omega)).2.2.2.2
        ∗ Pipeline.scopedRestBut (Ix := Unit) (Name := ℕ) (U := UR sig nD τ) (Lvl := ℕ) (Val := Elt F) spec3 c [cc3_scratch0, cc3_scratch1])
      ∗ (∃ r, prngReg c r)) := by
  cases n with
  | zero => exact absurd rfl hz
  | succ n => rfl

/-- What the launch hands over, with the two accumulators taken out of the scoped rest as owned memrefs. -/
theorem PhiA3_eq (c : Dev nD) :
    (Pipeline.ΦA (U := UR sig nD τ) (Val := Elt F) spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1])
        ∗ (∃ r, prngReg c r)) := by
  unfold Pipeline.ΦA; rw [scopedRest3_split]; simp only [scM3_0, scM3_1, owns_whole]
  rfl

/-! ## The proof data -/

/-- The region's proof data on core `c`: the arrays as the region finds them; after the body at tile `t` each input's
    buffer at its block, the outputs' at the accumulation's entries; the invariant above; full shares; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => (outsAt3 V c t.val t.isLt).1
    | ⟨8, _⟩ => (outsAt3 V c t.val t.isLt).2.1
    | ⟨9, _⟩ => (outsAt3 V c t.val t.isLt).2.2.1
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem q_eq3 (c : Dev nD) (w : Fin cfg3.W) : (dat3 V c).q w = fullShare := by
  dsimp only [dat3]

theorem owed_eq3 (c : Dev nD) (t : Fin (cfg3.N + 1)) : (dat3 V c).owed t = 0 := by
  dsimp only [dat3]

theorem Phi3_castSucc (c : Dev nD) (t : Fin cfg3.N) :
    (dat3 V c).Φ t.castSucc = Phi3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = (outsAt3 V c t.val t.isLt).1 := by dsimp only [dat3]
theorem after3_8 (c : Dev nD) (t : Fin cfg3.N) : (dat3 V c).after 8 t = (outsAt3 V c t.val t.isLt).2.1 := by dsimp only [dat3]
theorem after3_9 (c : Dev nD) (t : Fin cfg3.N) : (dat3 V c).after 9 t = (outsAt3 V c t.val t.isLt).2.2.1 := by dsimp only [dat3]

/-! ## What each window's buffer holds when the body runs, and what it is left at -/

theorem before3_0 (c : Dev nD) (t : Fin cfg3.N) (d) : (dat3 V c).before 0 t d = iblk3 V c 0 t :=
  ((dat3 V c).before_in_eq_fetched 0 rfl live3_0 (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl live3_1 (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl live3_2 (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl live3_3 (fun _ _ _ => rfl)
    (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl live3_4 (fun _ _ _ => rfl)
    (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl live3_5 (fun _ _ _ => rfl)
    (fun t => by rw [after3_5]; unfold Dat.blockOf iblk3; rw [A_eq3]; try rfl) t d).trans
    (by unfold Dat.fetched Dat.blockOf iblk3; rw [A_eq3]; try rfl)
theorem before3_6 (c : Dev nD) (t : Fin cfg3.N) (d) : (dat3 V c).before 6 t d = iblk3 V c 6 t :=
  ((dat3 V c).before_in_eq_fetched 6 rfl live3_6 (fun _ _ _ => rfl)
    (fun t => by rw [after3_6]; unfold Dat.blockOf iblk3; rw [A_eq3]; try rfl) t d).trans
    (by unfold Dat.fetched Dat.blockOf iblk3; rw [A_eq3]; try rfl)

theorem leaves3_0 (c : Dev nD) (t : Fin cfg3.N) :
    (dat3 V c).leavesExact 0 t = owns (c : Thread nD τ) (ms3_0 t) fullShare ((dat3 V c).after 0 t) := by
  unfold Dat.leavesExact; rw [live3_0]
theorem leaves3_1 (c : Dev nD) (t : Fin cfg3.N) :
    (dat3 V c).leavesExact 1 t = owns (c : Thread nD τ) (ms3_1 t) fullShare ((dat3 V c).after 1 t) := by
  unfold Dat.leavesExact; rw [live3_1]
theorem leaves3_2 (c : Dev nD) (t : Fin cfg3.N) :
    (dat3 V c).leavesExact 2 t = owns (c : Thread nD τ) (ms3_2 t) fullShare ((dat3 V c).after 2 t) := by
  unfold Dat.leavesExact; rw [live3_2]
theorem leaves3_3 (c : Dev nD) (t : Fin cfg3.N) :
    (dat3 V c).leavesExact 3 t = owns (c : Thread nD τ) (ms3_3 t) fullShare ((dat3 V c).after 3 t) := by
  unfold Dat.leavesExact; rw [live3_3]
theorem leaves3_4 (c : Dev nD) (t : Fin cfg3.N) :
    (dat3 V c).leavesExact 4 t = owns (c : Thread nD τ) (ms3_4 t) fullShare ((dat3 V c).after 4 t) := by
  unfold Dat.leavesExact; rw [live3_4]
theorem leaves3_5 (c : Dev nD) (t : Fin cfg3.N) :
    (dat3 V c).leavesExact 5 t = owns (c : Thread nD τ) (ms3_5 t) fullShare ((dat3 V c).after 5 t) := by
  unfold Dat.leavesExact; rw [live3_5]
theorem leaves3_6 (c : Dev nD) (t : Fin cfg3.N) :
    (dat3 V c).leavesExact 6 t = owns (c : Thread nD τ) (ms3_6 t) fullShare ((dat3 V c).after 6 t) := by
  unfold Dat.leavesExact; rw [live3_6]
theorem leaves3_7 (c : Dev nD) (t : Fin cfg3.N) :
    (dat3 V c).leavesExact 7 t = owns (c : Thread nD τ) (ms3_7 t) fullShare ((dat3 V c).after 7 t) := by
  unfold Dat.leavesExact; rw [live3_7]

/-! ## The body obligation -/

/-- What the body is called with at tile `t`: the invariant, what the core owes, the ten windows' current buffers. -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d))
    ∗ (∃ d, owns (c : Thread nD τ) (ms3_9 t) fullShare ((dat3 V c).before 9 t d)))

/-- What it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t
    ∗ (dat3 V c).leavesExact 8 t
    ∗ (dat3 V c).leavesExact 9 t)

set_option maxHeartbeats 4800000 in
/-- The body at any tile. The seven inputs' buffers hold their blocks; the tile's number says which of the three cases
    it is, and that case's run applies. The invariant hands the body the accumulators at what the tile before left
    (at anything, at the first tile) and takes them back at this tile's sums; the small outputs are handed back
    untouched except at the last tile, where they receive the accumulators' final contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).owesAt () t.succ = (dat3 V c).owesAt () t.castSucc from rfl]
  rw [show (dat3 V c).Φ t.succ = Phi3 V c (t.val + 1) t.isLt from rfl, Phi3_succ]
  rw [leaves3_0, leaves3_1, leaves3_2, leaves3_3, leaves3_4, leaves3_5, leaves3_6, leaves3_7]
  rw [after3_0, after3_1, after3_2, after3_3, after3_4, after3_5, after3_6, after3_7]
  rw [Phi3_castSucc]
  have hN : t.val < 10 := lt_of_lt_of_eq t.isLt (show cfg3.N = 10 from N_3)
  by_cases h0 : t.val % 10 = 0
  · -- the first tile
    have h1 : ¬t.val % 10 = 9 := by omega
    have hz : t.val = 0 := by omega
    rw [Dat.leavesExact_idle (dat3 V c) 8 t (idle3_8 t (fun h => h1 ((hcond3_1 t).mp h))) (noFlush3_8 t (fun h => h1 ((hcond3_1 t).mp h)))]
    rw [Dat.leavesExact_idle (dat3 V c) 9 t (idle3_9 t (fun h => h1 ((hcond3_1 t).mp h))) (noFlush3_9 t (fun h => h1 ((hcond3_1 t).mp h)))]
    rw [outsAt3_first V c t h0 h1]
    unfold pt3_A; dsimp only
    unfold out3_A_7 sout3_A_0 sout3_A_1
    rw [Phi3_zero V c _ _ hz, PhiA3_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t)).2.2.2
      ((dat3 V c).before 8 t d8) ((dat3 V c).before 9 t d9) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [HS0]; · iexact HS0
    isplitl [HS1]; · iexact HS1
    iintro ⟨H0, H1, H2, H3, H4, H5, H6, H7, H8, H9, HS0, HS1⟩
    isplitl [HS0 HS1 Hrest Hg]
    · isplitr [Hg]
      · isplitl [HS0]
        · iapply (owns_of_cover3 (F := F) c scM3_0 VS3_0 _ (scover3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t))); iexact HS0
        isplitl [HS1]
        · iapply (owns_of_cover3 (F := F) c scM3_1 VS3_1 _ (scover3_A_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t))); iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iapply (owns_of_cover3 (F := F) c (ms3_7 t) VO3_7 _ (cover3_A_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t))); iexact H7
    isplitl [H8]; · iexists _; iexact H8
    iexists _; iexact H9
  · by_cases h1 : t.val % 10 = 9
    · -- the last tile
      have hz : t.val ≠ 0 := by omega
      rw [show (dat3 V c).leavesExact 8 t = owns (c : Thread nD τ) (ms3_8 t) fullShare ((dat3 V c).after 8 t) from by
        unfold Dat.leavesExact; rw [liveLast3_8 t ((hcond3_1 t).mpr h1)], after3_8]
      rw [show (dat3 V c).leavesExact 9 t = owns (c : Thread nD τ) (ms3_9 t) fullShare ((dat3 V c).after 9 t) from by
        unfold Dat.leavesExact; rw [liveLast3_9 t ((hcond3_1 t).mpr h1)], after3_9]
      rw [outsAt3_last V c t h0 h1]
      unfold pt3_C; dsimp only
      unfold out3_C_7 out3_C_8 out3_C_9 sout3_C_0 sout3_C_1
      rw [Phi3_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun3_C c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (outsAt3 V c (t.val - 1) (pred_lt3 t)).2.2.2.1 (outsAt3 V c (t.val - 1) (pred_lt3 t)).2.2.2.2).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 Hrest Hg]
      · isplitr [Hg]
        · isplitl [HS0]
          · iapply (owns_of_cover3 (F := F) c scM3_0 VS3_0 _ (scover3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (outsAt3 V c (t.val - 1) (pred_lt3 t)).2.2.2.1 (outsAt3 V c (t.val - 1) (pred_lt3 t)).2.2.2.2)); iexact HS0
          isplitl [HS1]
          · iapply (owns_of_cover3 (F := F) c scM3_1 VS3_1 _ (scover3_C_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (outsAt3 V c (t.val - 1) (pred_lt3 t)).2.2.2.1 (outsAt3 V c (t.val - 1) (pred_lt3 t)).2.2.2.2)); iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · iapply (owns_of_cover3 (F := F) c (ms3_7 t) VO3_7 _ (cover3_C_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (outsAt3 V c (t.val - 1) (pred_lt3 t)).2.2.2.1 (outsAt3 V c (t.val - 1) (pred_lt3 t)).2.2.2.2)); iexact H7
      isplitl [H8]
      · iapply (owns_of_cover3 (F := F) c (ms3_8 t) VO3_8 _ (cover3_C_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (outsAt3 V c (t.val - 1) (pred_lt3 t)).2.2.2.1 (outsAt3 V c (t.val - 1) (pred_lt3 t)).2.2.2.2)); iexact H8
      iapply (owns_of_cover3 (F := F) c (ms3_9 t) VO3_9 _ (cover3_C_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (outsAt3 V c (t.val - 1) (pred_lt3 t)).2.2.2.1 (outsAt3 V c (t.val - 1) (pred_lt3 t)).2.2.2.2)); iexact H9
    · -- a middle tile
      have hz : t.val ≠ 0 := by omega
      rw [Dat.leavesExact_idle (dat3 V c) 8 t (idle3_8 t (fun h => h1 ((hcond3_1 t).mp h))) (noFlush3_8 t (fun h => h1 ((hcond3_1 t).mp h)))]
      rw [Dat.leavesExact_idle (dat3 V c) 9 t (idle3_9 t (fun h => h1 ((hcond3_1 t).mp h))) (noFlush3_9 t (fun h => h1 ((hcond3_1 t).mp h)))]
      rw [outsAt3_mid V c t h0 h1]
      unfold pt3_B; dsimp only
      unfold out3_B_7 sout3_B_0 sout3_B_1
      rw [Phi3_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun3_B c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (outsAt3 V c (t.val - 1) (pred_lt3 t)).2.2.2.1 (outsAt3 V c (t.val - 1) (pred_lt3 t)).2.2.2.2).2.2.2
        ((dat3 V c).before 8 t d8) ((dat3 V c).before 9 t d9) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexact HS0
      isplitl [HS1]; · iexact HS1
      iintro ⟨H0, H1, H2, H3, H4, H5, H6, H7, H8, H9, HS0, HS1⟩
      isplitl [HS0 HS1 Hrest Hg]
      · isplitr [Hg]
        · isplitl [HS0]
          · iapply (owns_of_cover3 (F := F) c scM3_0 VS3_0 _ (scover3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (outsAt3 V c (t.val - 1) (pred_lt3 t)).2.2.2.1 (outsAt3 V c (t.val - 1) (pred_lt3 t)).2.2.2.2)); iexact HS0
          isplitl [HS1]
          · iapply (owns_of_cover3 (F := F) c scM3_1 VS3_1 _ (scover3_B_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (outsAt3 V c (t.val - 1) (pred_lt3 t)).2.2.2.1 (outsAt3 V c (t.val - 1) (pred_lt3 t)).2.2.2.2)); iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · iapply (owns_of_cover3 (F := F) c (ms3_7 t) VO3_7 _ (cover3_B_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (outsAt3 V c (t.val - 1) (pred_lt3 t)).2.2.2.1 (outsAt3 V c (t.val - 1) (pred_lt3 t)).2.2.2.2)); iexact H7
      isplitl [H8]; · iexists _; iexact H8
      iexists _; iexact H9

/-- The library's body obligation, at every tile. -/
theorem body_obligation3 (c : Dev nD) : BodyObligation (dat3 (F := F) V c) (defs₀ (F := F)) Variants.none () Set.univ := fun t => by
  rw [bigSep_W3, bigSep_W3]
  exact sound_body3 V c t

/-! ## The two ends of the invariant -/

/-- What the launch hands the region is the invariant before the first tile. -/
theorem Phi_in3 (c : Dev nD) : (Pipeline.ΦA (U := UR sig nD τ) (Val := Elt F) spec3 c : sProp 𝕄) ⊢ (dat3 V c).Φ 0 := by
  rw [show (dat3 V c).Φ 0 = Phi3 V c 0 (Nat.zero_le _) from rfl, Phi3_zero V c 0 _ rfl]

/-- After the last tile the invariant gives it back: the accumulators' named contents are forgotten. -/
theorem Phi_out3 (c : Dev nD) : (dat3 V c).Φ (Fin.last cfg3.N) ⊢ (Pipeline.ΦA (U := UR sig nD τ) (Val := Elt F) spec3 c : sProp 𝕄) := by
  have hne : (Fin.last cfg3.N).val ≠ 0 := by rw [Fin.val_last]; have : cfg3.N = 10 := N_3; omega
  rw [show (dat3 V c).Φ (Fin.last cfg3.N) = Phi3 V c (Fin.last cfg3.N).val (Nat.le_of_lt_succ (Fin.last cfg3.N).isLt) from rfl,
    Phi3_pos V c _ _ hne, PhiA3_eq]
  iintro ⟨⟨HS0, HS1, Hrest⟩, Hg⟩
  isplitl [HS0 HS1 Hrest]
  · isplitl [HS0 HS1]
    · isplitl [HS0]
      · iexists _; iexact HS0
      iexists _; iexact HS1
    iexact Hrest
  iexact Hg

end Cert.Kernel.Hand

end
-- ==== Proof.KB.Reg4.lean ====
import proofs.«160050_j32744830665390_2_alg».proof.Proof.KB.Iface
import proofs.«160050_j32744830665390_2_alg».proof.Proof.KB.Reg2
import Idealize.ShloMosaic.Lib.ValueLayout

/-! # Region 4: normalise a row tile by the layer statistics, scale, shift, clamp at zero

The region walks the node axis in ten row tiles of 5000 rows. At each tile it is handed the tile of the
pre-normalisation activations and the four per-feature rows (mean, variance, scale, shift), and stores into the
output tile `max ((x - mean) * rsqrt (variance + ε) * scale + shift, 0)`, feature by feature. The four rows are
staged once, at the first tile, and found again unchanged at the later ones; the activations' tile is staged anew
at every tile; the output tile is written back at every tile.

First the frame half at a parameter `V` (the core's buffer contents when the region is entered): the blocks, what
the body leaves, the body's triple, the proof data and the body obligation. Then the value half: the output array
after the ten write-backs as one function of the five input arrays, row by row and feature by feature. -/

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4

variable (V : Entry F)

/-! ## The blocks the pipeline stages -/

/-- The block of window `w` at tile `t`: the window's rectangle at that tile, read off the window's array as the
    region finds it. For the activations and the output this is rows `5000 t … 5000 t + 4999`; for the four
    statistics rows it is the whole row at every tile. -/
def iblk4 (c : Dev nD) (w : Fin cfg4.W) (t : Fin cfg4.N) :
    ((cfg4.win w).xblock (cfg4.grid.coords t)).Idx → Elt F (cfg4.win w).elt :=
  ((cfg4.win w).blk t).view.read (Elt F) (V c (Pipeline.arrRef spec4 w))

/-! ## Each input window holds its block whenever the body is called

An input window of region 4 holds its block at every tile, staged at this tile or at an earlier one: a window not
staged anew has not moved (the statistics rows' block index is constant), so what an earlier tile left there, the
body having left it alone, is this tile's block. Stated for any proof data over `V`'s arrays whose body leaves the
window's block in place. -/

/-- The activations' tile, staged anew at every tile. -/
theorem held4_0_of {c : Dev nD} (dat : Dat τ (Elt F) Unit ℕ (UR sig nD τ) ℕ cfg4 c)
    (hA : dat.A 0 = V c (Pipeline.arrRef spec4 0)) (hafter : ∀ t, dat.after 0 t = iblk4 V c 0 t)
    (t : Fin cfg4.N) (d) : dat.before 0 t d = iblk4 V c 0 t := by
  refine (dat.before_in_eq_fetched 0 rfl (fun _ => rfl) (fun _ _ _ => rfl) (fun u => ?_) t d).trans ?_
  · rw [hafter]; unfold Dat.blockOf iblk4; rw [hA]; try rfl
  · unfold Dat.fetched Dat.blockOf iblk4; rw [hA]; try rfl

/-- The mean row, staged at the first tile only. -/
theorem held4_1_of {c : Dev nD} (dat : Dat τ (Elt F) Unit ℕ (UR sig nD τ) ℕ cfg4 c)
    (hA : dat.A 1 = V c (Pipeline.arrRef spec4 1)) (hafter : ∀ t, dat.after 1 t = iblk4 V c 1 t)
    (t : Fin cfg4.N) (d) : dat.before 1 t d = iblk4 V c 1 t := by
  refine (dat.before_in_eq_fetched 1 rfl (fun _ => rfl) (fun _ _ _ => rfl) (fun u => ?_) t d).trans ?_
  · rw [hafter]; unfold Dat.blockOf iblk4; rw [hA]; try rfl
  · unfold Dat.fetched Dat.blockOf iblk4; rw [hA]; try rfl

/-- The variance row, staged at the first tile only. -/
theorem held4_2_of {c : Dev nD} (dat : Dat τ (Elt F) Unit ℕ (UR sig nD τ) ℕ cfg4 c)
    (hA : dat.A 2 = V c (Pipeline.arrRef spec4 2)) (hafter : ∀ t, dat.after 2 t = iblk4 V c 2 t)
    (t : Fin cfg4.N) (d) : dat.before 2 t d = iblk4 V c 2 t := by
  refine (dat.before_in_eq_fetched 2 rfl (fun _ => rfl) (fun _ _ _ => rfl) (fun u => ?_) t d).trans ?_
  · rw [hafter]; unfold Dat.blockOf iblk4; rw [hA]; try rfl
  · unfold Dat.fetched Dat.blockOf iblk4; rw [hA]; try rfl

/-- The scale row, staged at the first tile only. -/
theorem held4_3_of {c : Dev nD} (dat : Dat τ (Elt F) Unit ℕ (UR sig nD τ) ℕ cfg4 c)
    (hA : dat.A 3 = V c (Pipeline.arrRef spec4 3)) (hafter : ∀ t, dat.after 3 t = iblk4 V c 3 t)
    (t : Fin cfg4.N) (d) : dat.before 3 t d = iblk4 V c 3 t := by
  refine (dat.before_in_eq_fetched 3 rfl (fun _ => rfl) (fun _ _ _ => rfl) (fun u => ?_) t d).trans ?_
  · rw [hafter]; unfold Dat.blockOf iblk4; rw [hA]; try rfl
  · unfold Dat.fetched Dat.blockOf iblk4; rw [hA]; try rfl

/-- The shift row, staged at the first tile only. -/
theorem held4_4_of {c : Dev nD} (dat : Dat τ (Elt F) Unit ℕ (UR sig nD τ) ℕ cfg4 c)
    (hA : dat.A 4 = V c (Pipeline.arrRef spec4 4)) (hafter : ∀ t, dat.after 4 t = iblk4 V c 4 t)
    (t : Fin cfg4.N) (d) : dat.before 4 t d = iblk4 V c 4 t := by
  refine (dat.before_in_eq_fetched 4 rfl (fun _ => rfl) (fun _ _ _ => rfl) (fun u => ?_) t d).trans ?_
  · rw [hafter]; unfold Dat.blockOf iblk4; rw [hA]; try rfl
  · unfold Dat.fetched Dat.blockOf iblk4; rw [hA]; try rfl

/-! ## The body's accesses and what it leaves in the output tile -/

/-- The whole 5000 × 128 tile: the one rectangle through which the body loads the activations and stores the
    result. -/
abbrev tile4 : Rect S5000x128 := Rect.unit (s := S5000x128) ![0, 0] S5000x128.size inb_S5000x128_S5000x128_0_0

/-- The whole 1 × 128 row: the rectangle through which the body loads each of the four statistics rows. -/
abbrev row4 : Rect S1x128 := Rect.unit (s := S1x128) ![0, 0] S1x128.size inb_S1x128_S1x128_0_0

/-- The output tile after the body, from the five input blocks: the body's single store, through the whole-tile
    rectangle, of the normalised, scaled, shifted and clamped activations (the skeleton's payload of the five
    loads). -/
def out4_5 (x : Vec F S5000x128 .f32) (mean var scale shift : Vec F S1x128 .f32) : Vec F S5000x128 .f32 :=
  View.canon [⟨tile4, k4_pay1 (View.ld x tile4) (View.ld mean row4) (View.ld var row4) (View.ld scale row4)
    (View.ld shift row4)⟩]

/-- That one store reaches every element of the tile. -/
theorem cover4_5 (p : Vec F S5000x128 .f32) (y : S5000x128.Idx) :
    ∃ pc ∈ ([⟨tile4, p⟩] : List (View.Piece (Elt F) S5000x128 .f32)), y ∈ pc.1.set :=
  View.cover_of_tiled [⟨tile4, p⟩] S5000x128.size (by rfl) y

/-! ## The body's triple -/

set_option maxHeartbeats 1000000 in
/-- The body on six whole staging memrefs — the five inputs at contents `x`, `mean`, `var`, `scale`, `shift`, the
    output at anything — runs to a state where the inputs are as they were and the output holds `out4_5` of them.
    (The body also loads the output tile before storing into it; the loaded value is not used.) -/
theorem sound_kernel4 (c : Dev nD) (E : Set ℕ) (i : grid4.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x : Vec F S5000x128 .f32) (mean var scale shift : Vec F S1x128 .f32) (K : PUnit → sProp 𝕄) :
    iprop(owns (c : Thread nD τ) arg1 fullShare x ∗ owns (c : Thread nD τ) arg2 fullShare mean
        ∗ owns (c : Thread nD τ) arg3 fullShare var ∗ owns (c : Thread nD τ) arg4 fullShare scale
        ∗ owns (c : Thread nD τ) arg5 fullShare shift ∗ (∃ d, owns (c : Thread nD τ) arg6 fullShare d)
        ∗ (iprop(owns (c : Thread nD τ) arg1 fullShare x ∗ owns (c : Thread nD τ) arg2 fullShare mean
            ∗ owns (c : Thread nD τ) arg3 fullShare var ∗ owns (c : Thread nD τ) arg4 fullShare scale
            ∗ owns (c : Thread nD τ) arg5 fullShare shift
            ∗ owns (c : Thread nD τ) arg6 fullShare (out4_5 x mean var scale shift)) -∗ K ⟨⟩))
      ⊢ wp frame (wpE (defs₀ (F := F)) Variants.none c none) E
          (cc4_bn_relu_kernel i arg1 harg1 arg2 harg2 arg3 harg3 arg4 harg4 arg5 harg5 arg6 harg6) K := by
  simp only [cc4_bn_relu_kernel_eq_skeleton]; unfold cc4_bn_relu_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_5 _)

/-! ## The proof data -/

/-- Region 4's proof data on core `c`: the six arrays as the region finds them; after the body at tile `t` each
    input's buffer still at its block and the output's at `out4_5` of the five input blocks; the invariant is the
    untouched rest of the core (scoped buffers, generator register); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- Its arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t
    = out4_5 (iblk4 V c 0 t) (iblk4 V c 1 t) (iblk4 V c 2 t) (iblk4 V c 3 t) (iblk4 V c 4 t) := by
  dsimp only [dat4]

/-- Each input's current buffer holds its block at every tile. -/
theorem before4_0 (c : Dev nD) (t : Fin cfg4.N) (d) : (dat4 V c).before 0 t d = iblk4 V c 0 t :=
  held4_0_of V (dat4 V c) (A_eq4 V c 0) (after4_0 V c) t d
theorem before4_1 (c : Dev nD) (t : Fin cfg4.N) (d) : (dat4 V c).before 1 t d = iblk4 V c 1 t :=
  held4_1_of V (dat4 V c) (A_eq4 V c 1) (after4_1 V c) t d
theorem before4_2 (c : Dev nD) (t : Fin cfg4.N) (d) : (dat4 V c).before 2 t d = iblk4 V c 2 t :=
  held4_2_of V (dat4 V c) (A_eq4 V c 2) (after4_2 V c) t d
theorem before4_3 (c : Dev nD) (t : Fin cfg4.N) (d) : (dat4 V c).before 3 t d = iblk4 V c 3 t :=
  held4_3_of V (dat4 V c) (A_eq4 V c 3) (after4_3 V c) t d
theorem before4_4 (c : Dev nD) (t : Fin cfg4.N) (d) : (dat4 V c).before 4 t d = iblk4 V c 4 t :=
  held4_4_of V (dat4 V c) (A_eq4 V c 4) (after4_4 V c) t d

/-- Full shares of every array. -/
theorem q_eq4 (c : Dev nD) (w : Fin cfg4.W) : (dat4 V c).q w = fullShare := by dsimp only [dat4]

/-- The core owes nothing at any tile. -/
theorem owed_eq4 (c : Dev nD) (t : Fin (cfg4.N + 1)) : (dat4 V c).owed t = 0 := by dsimp only [dat4]

/-- The invariant is the untouched rest of the core at every tile: what the region is entered with is the invariant
    before the first tile, -/
theorem Phi_in4 (c : Dev nD) :
    (Pipeline.ΦA (U := UR sig nD τ) (Val := Elt F) spec4 c : sProp 𝕄) ⊢ (dat4 V c).Φ 0 := .rfl

/-- and the invariant after the last tile is what the region gives back. -/
theorem Phi_out4 (c : Dev nD) :
    (dat4 V c).Φ (Fin.last cfg4.N) ⊢ (Pipeline.ΦA (U := UR sig nD τ) (Val := Elt F) spec4 c : sProp 𝕄) := .rfl

/-! ## The body obligation -/

/-- What the body is called with at tile `t`: the invariant, the core's dues, and the six current staging buffers,
    each at what the pipeline put or left there. -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- What it hands back. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any tile: the five inputs hold their blocks, so the body's triple applies; the invariant and the
    dues pass through untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t)
    (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for region 4, at every tile. -/
theorem body_obligation4 (c : Dev nD) :
    BodyObligation (dat4 (F := F) V c) (defs₀ (F := F)) Variants.none () Set.univ := fun t => by
  rw [bigSep_W4, bigSep_W4]
  exact sound_body4 V c t

/-! # The value half: the output array after the region -/

open Idealize.ShloMosaic.ValueIdx

/-! ## The output array as one function of the input arrays -/

/-- What the output array holds after the region: every activation through `bnRelu246` with its own feature's
    mean, variance, scale and shift. -/
def G4_5 (a : S50000x128.Idx → Elt F .f32) (mean var scale shift : S1x128.Idx → Elt F .f32) :
    S50000x128.Idx → Elt F .f32 :=
  fun i => bnRelu246 (a i) (mean (featOf246 i)) (var (featOf246 i)) (scale (featOf246 i)) (shift (featOf246 i))

/-- The body's payload at row `p`, feature `q` of the tile: the layout casts are identities, each broadcast of a
    statistics row reads the row at `q`, and the arithmetic is pointwise. -/
theorem pay4_at (x : Vec F S5000x128 .f32) (mean var scale shift : Vec F S1x128 .f32) (p : Fin 5000) (q : Fin 128) :
    k4_pay1 x mean var scale shift (ix2 p q)
      = bnRelu246 (x (ix2 p q)) (mean (ix2 (0 : Fin 1) q)) (var (ix2 (0 : Fin 1) q)) (scale (ix2 (0 : Fin 1) q))
          (shift (ix2 (0 : Fin 1) q)) := by
  unfold k4_pay1 bnRelu246
  simp only [shapeCast_self]
  show FloatOps.maximumf
      (FloatOps.addf
        (FloatOps.mulf
          (FloatOps.mulf
            (FloatOps.subf (x (ix2 p q)) (broadcastTo S5000x128 mean broadcasts_S1x128_S5000x128 (ix2 p q)))
            (broadcastTo S5000x128 (rsqrt (addf var (broadcast S1x128 (Scalar.ofBits .f32 0x3727C5AC#32))))
              broadcasts_S1x128_S5000x128 (ix2 p q)))
          (broadcastTo S5000x128 scale broadcasts_S1x128_S5000x128 (ix2 p q)))
        (broadcastTo S5000x128 shift broadcasts_S1x128_S5000x128 (ix2 p q)))
      (Scalar.ofBits .f32 0x00000000#32) = _
  rw [broadcastTo_1b_ab_apply mean, broadcastTo_1b_ab_apply scale, broadcastTo_1b_ab_apply shift,
    broadcastTo_1b_ab_apply (rsqrt (addf var (broadcast S1x128 (Scalar.ofBits .f32 0x3727C5AC#32))))]
  rfl

/-- The printed index maps over the ten tiles: the activations' block moves with the output's along the rows, no
    block moves along the features, and the statistics rows' blocks never move. -/
theorem idx_facts4 : ∀ t : Fin cfg4.N,
    win4_0.index t (0 : Fin 2) = win4_5.index t (0 : Fin 2) ∧ win4_0.index t (1 : Fin 2) = 0
    ∧ win4_5.index t (0 : Fin 2) = t.val ∧ win4_5.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- Every row tile is some point's output block. -/
theorem idx_onto4 : ∀ r : Fin 10, ∃ t : Fin cfg4.N, win4_5.index t = ![r.val, 0] :=
  (by decide +kernel : ∀ r : Fin 10, ∃ t : Fin grid4.N, win4_5.index t = ![r.val, 0])

/-- WHAT TILE `t` WRITES BACK is block `t` of `G4_5` of the five input arrays as the region finds them. -/
theorem flushed4_5_eq (c : Dev nD) (t : Fin cfg4.N) :
    (dat4 V c).flushed 5 t = ((cfg4.win 5).blk t).view.read (Elt F)
      (G4_5 (V c main_v128_0) (V c main_v141) (V c main_v142) (V c main_v143) (V c main_v144)) := by
  show (cfg4.win 5).cut (grid4.coords t) ((dat4 V c).after 5 t) = _
  rw [after4_5]
  unfold out4_5
  rw [View.canon_unit_zero zeroOff246]
  simp only [View.ld_unit_zero (S := S5000x128) zeroOff246, View.ld_unit_zero (S := S1x128) zeroOff246]
  obtain ⟨e0, e1, e2, e3, m0, m1, v0, v1, s0, s1, b0, b1⟩ := idx_facts4 t
  funext j
  obtain ⟨p, q, rfl⟩ : ∃ (p : Fin 5000) (q : Fin 128), j = ix2 p q := ⟨j 0, j 1, eq_ix2 j⟩
  show k4_pay1 (iblk4 V c 0 t) (iblk4 V c 1 t) (iblk4 V c 2 t) (iblk4 V c 3 t) (iblk4 V c 4 t) (ix2 p q)
    = G4_5 (V c main_v128_0) (V c main_v141) (V c main_v142) (V c main_v143) (V c main_v144)
        (((cfg4.win 5).blk t).view.emb (ix2 p q))
  rw [pay4_at]
  unfold G4_5
  have hx : iblk4 V c 0 t (ix2 p q) = V c main_v128_0 (((cfg4.win 5).blk t).view.emb (ix2 p q)) := by
    show V c main_v128_0 (((cfg4.win 0).blk t).view.emb (ix2 p q)) = _
    refine congrArg (V c main_v128_0) (funext fun a => Fin.ext ?_)
    match a with
    | ⟨0, _⟩ =>
      show win4_0.index t (0 : Fin 2) * 5000 + 1 * p.val = win4_5.index t (0 : Fin 2) * 5000 + 1 * p.val
      omega
    | ⟨1, _⟩ =>
      show win4_0.index t (1 : Fin 2) * 128 + 1 * q.val = win4_5.index t (1 : Fin 2) * 128 + 1 * q.val
      omega
  have hmean : iblk4 V c 1 t (ix2 (0 : Fin 1) q)
      = V c main_v141 (featOf246 (((cfg4.win 5).blk t).view.emb (ix2 p q))) := by
    show V c main_v141 (((cfg4.win 1).blk t).view.emb (ix2 (0 : Fin 1) q)) = _
    refine congrArg (V c main_v141) (funext fun a => Fin.ext ?_)
    match a with
    | ⟨0, _⟩ => show win4_1.index t (0 : Fin 2) * 1 + 1 * 0 = 0; omega
    | ⟨1, _⟩ =>
      show win4_1.index t (1 : Fin 2) * 128 + 1 * q.val = win4_5.index t (1 : Fin 2) * 128 + 1 * q.val
      omega
  have hvar : iblk4 V c 2 t (ix2 (0 : Fin 1) q)
      = V c main_v142 (featOf246 (((cfg4.win 5).blk t).view.emb (ix2 p q))) := by
    show V c main_v142 (((cfg4.win 2).blk t).view.emb (ix2 (0 : Fin 1) q)) = _
    refine congrArg (V c main_v142) (funext fun a => Fin.ext ?_)
    match a with
    | ⟨0, _⟩ => show win4_2.index t (0 : Fin 2) * 1 + 1 * 0 = 0; omega
    | ⟨1, _⟩ =>
      show win4_2.index t (1 : Fin 2) * 128 + 1 * q.val = win4_5.index t (1 : Fin 2) * 128 + 1 * q.val
      omega
  have hscale : iblk4 V c 3 t (ix2 (0 : Fin 1) q)
      = V c main_v143 (featOf246 (((cfg4.win 5).blk t).view.emb (ix2 p q))) := by
    show V c main_v143 (((cfg4.win 3).blk t).view.emb (ix2 (0 : Fin 1) q)) = _
    refine congrArg (V c main_v143) (funext fun a => Fin.ext ?_)
    match a with
    | ⟨0, _⟩ => show win4_3.index t (0 : Fin 2) * 1 + 1 * 0 = 0; omega
    | ⟨1, _⟩ =>
      show win4_3.index t (1 : Fin 2) * 128 + 1 * q.val = win4_5.index t (1 : Fin 2) * 128 + 1 * q.val
      omega
  have hshift : iblk4 V c 4 t (ix2 (0 : Fin 1) q)
      = V c main_v144 (featOf246 (((cfg4.win 5).blk t).view.emb (ix2 p q))) := by
    show V c main_v144 (((cfg4.win 4).blk t).view.emb (ix2 (0 : Fin 1) q)) = _
    refine congrArg (V c main_v144) (funext fun a => Fin.ext ?_)
    match a with
    | ⟨0, _⟩ => show win4_4.index t (0 : Fin 2) * 1 + 1 * 0 = 0; omega
    | ⟨1, _⟩ =>
      show win4_4.index t (1 : Fin 2) * 128 + 1 * q.val = win4_5.index t (1 : Fin 2) * 128 + 1 * q.val
      omega
  rw [hx, hmean, hvar, hscale, hshift]

/-- An index of the output array lies in tile `t`'s block iff each coordinate lies in the block's range on its
    axis. -/
theorem mem_blk4_5 (t : Fin cfg4.N) (i : S50000x128.Idx) :
    i ∈ ((cfg4.win 5).blk t).view.set ↔ ∀ a : Fin 2, win4_5.index t a * S5000x128.size a ≤ (i a).val
      ∧ (i a).val < win4_5.index t a * S5000x128.size a + S5000x128.size a := by
  show i ∈ ((View.whole main_v145).slice (win4_5.rect t)).set ↔ _
  rw [View.set_slice_whole, Rect.mem_set_unit]
  exact Iff.rfl

/-- The ten row tiles cover the output array: row `r` lies in tile `r / 5000`, which is written back. -/
theorem covered4_5 (i : S50000x128.Idx) :
    ∃ t : Fin cfg4.N, (cfg4.win 5).flush t = true ∧ i ∈ ((cfg4.win 5).blk t).view.set := by
  have hi0 : (i 0).val < 50000 := idx2_lt0 i
  have hi1 : (i 1).val < 128 := idx2_lt1 i
  obtain ⟨t, ht⟩ := idx_onto4 ⟨(i 0).val / 5000, by omega⟩
  have q0 : win4_5.index t (0 : Fin 2) = (i 0).val / 5000 := congrFun ht 0
  have q1 : win4_5.index t (1 : Fin 2) = 0 := congrFun ht 1
  refine ⟨t, flush4_5 t, ?_⟩
  rw [mem_blk4_5]
  intro a
  match a with
  | ⟨0, _⟩ =>
    show win4_5.index t (0 : Fin 2) * 5000 ≤ (i 0).val ∧ (i 0).val < win4_5.index t (0 : Fin 2) * 5000 + 5000
    omega
  | ⟨1, _⟩ =>
    show win4_5.index t (1 : Fin 2) * 128 ≤ (i 1).val ∧ (i 1).val < win4_5.index t (1 : Fin 2) * 128 + 128
    omega

/-- THE OUTPUT ARRAY after the region: `G4_5` of the five input arrays as the region finds them, everywhere. -/
theorem final4_5 (c : Dev nD) : (dat4 V c).arrAt 5 cfg4.N
    = G4_5 (V c main_v128_0) (V c main_v141) (V c main_v142) (V c main_v143) (V c main_v144) :=
  (dat4 V c).arrAt_eq_of_cover 5 _ (fun t _ => flushed4_5_eq V c t) covered4_5

end Region4

end Cert.Kernel.Hand

end
-- ==== Proof.KB.Reg5.Runs.lean ====
/- Region 5 (the Chebyshev affine layer with column statistics), what its three control cases share:
   the two branch conditions of the body as propositions over the grid coordinates, decided over the ten
   points in closed form; where the two small output windows are idle and where they are written back;
   the memrefs the body is called with at a point. -/
import proofs.«160050_j32744830665390_2_alg».proof.Proof.KB.Iface

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- "This is the first row tile": the accumulators are cleared under it. The scalar chain the body computes from
    the grid coordinate, compared with 1. -/
abbrev cond5_0 (i : grid5.Coords) : Prop :=
  (Scalar.cmpi .ne (Scalar.extui (Scalar.cmpi .eq (BitVec.ofNat 32 (i 0).val) 0#32)) 0#32) = 1#1

/-- "This is the last row tile": the accumulators are copied to the two small outputs under it. -/
abbrev cond5_1 (i : grid5.Coords) : Prop := k5_cond2 i = 1#1

/-- The first condition holds exactly at point 0 of the ten. -/
theorem hcond5_0 : ∀ t : Fin cfg5.N, cond5_0 (grid5.coords t) ↔ t.val % 10 = 0 :=
  (by decide +kernel : ∀ t : Fin grid5.N, cond5_0 (grid5.coords t) ↔ t.val % 10 = 0)

/-- The second holds exactly at point 9. -/
theorem hcond5_1 : ∀ t : Fin cfg5.N, cond5_1 (grid5.coords t) ↔ t.val % 10 = 9 :=
  (by decide +kernel : ∀ t : Fin grid5.N, cond5_1 (grid5.coords t) ↔ t.val % 10 = 9)

/-! ## Idle and live points of the windows -/

/-- The seven inputs and the row-tile output are live at every point. -/
theorem live5_0 : ∀ i : grid5.Coords, cfg5.idle 0 i = false := fun _ => rfl
theorem live5_1 : ∀ i : grid5.Coords, cfg5.idle 1 i = false := fun _ => rfl
theorem live5_2 : ∀ i : grid5.Coords, cfg5.idle 2 i = false := fun _ => rfl
theorem live5_3 : ∀ i : grid5.Coords, cfg5.idle 3 i = false := fun _ => rfl
theorem live5_4 : ∀ i : grid5.Coords, cfg5.idle 4 i = false := fun _ => rfl
theorem live5_5 : ∀ i : grid5.Coords, cfg5.idle 5 i = false := fun _ => rfl
theorem live5_6 : ∀ i : grid5.Coords, cfg5.idle 6 i = false := fun _ => rfl
theorem live5_7 : ∀ i : grid5.Coords, cfg5.idle 7 i = false := fun _ => rfl

/-- Away from the last point the two small outputs are idle and not written back; at the last point they are live. -/
theorem idle5_8 : ∀ t : Fin cfg5.N, ¬cond5_1 (grid5.coords t) → cfg5.idle 8 (grid5.coords t) = true := by decide +kernel
theorem idle5_9 : ∀ t : Fin cfg5.N, ¬cond5_1 (grid5.coords t) → cfg5.idle 9 (grid5.coords t) = true := by decide +kernel
theorem noFlush5_8 : ∀ t : Fin cfg5.N, ¬cond5_1 (grid5.coords t) → (cfg5.win 8).flush t = false := by decide +kernel
theorem noFlush5_9 : ∀ t : Fin cfg5.N, ¬cond5_1 (grid5.coords t) → (cfg5.win 9).flush t = false := by decide +kernel
theorem liveLast5_8 : ∀ t : Fin cfg5.N, cond5_1 (grid5.coords t) → cfg5.idle 8 (grid5.coords t) = false := by decide +kernel
theorem liveLast5_9 : ∀ t : Fin cfg5.N, cond5_1 (grid5.coords t) → cfg5.idle 9 (grid5.coords t) = false := by decide +kernel

/-! ## The memrefs of a point -/

/-- Window `w`'s current staging memref at point `t`, spelled as the body is called with it, and its wholeness. -/
abbrev ms5_0 (t : Fin cfg5.N) : Memref sig .tc .vmem S5000x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S5000x128 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S5000x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S128x128 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S128x128 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S128x128 .f32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S1x128 .f32 := win5_6.stage (cfg5.slots t 6)
abbrev hs5_6 (t : Fin cfg5.N) : (ms5_6 t).IsWhole := hstage5_6 ((cfg5.slots t 6).cast nbuf5_6)
abbrev ms5_7 (t : Fin cfg5.N) : Memref sig .tc .vmem S5000x128 .f32 := win5_7.stage (cfg5.slots t 7)
abbrev hs5_7 (t : Fin cfg5.N) : (ms5_7 t).IsWhole := hstage5_7 ((cfg5.slots t 7).cast nbuf5_7)
abbrev ms5_8 (t : Fin cfg5.N) : Memref sig .tc .vmem S1x128 .f32 := win5_8.stage (cfg5.slots t 8)
abbrev hs5_8 (t : Fin cfg5.N) : (ms5_8 t).IsWhole := hstage5_8 ((cfg5.slots t 8).cast nbuf5_8)
abbrev ms5_9 (t : Fin cfg5.N) : Memref sig .tc .vmem S1x128 .f32 := win5_9.stage (cfg5.slots t 9)
abbrev hs5_9 (t : Fin cfg5.N) : (ms5_9 t).IsWhole := hstage5_9 ((cfg5.slots t 9).cast nbuf5_9)

/-- The two accumulators: whole scoped buffers of the kernel's own, passed after the windows. -/
abbrev scM5_0 : Memref sig .tc .vmem S1x128 .f32 := Memref.whole cc5_scratch0
abbrev scM5_1 : Memref sig .tc .vmem S1x128 .f32 := Memref.whole cc5_scratch1

/-- Views through which the contents of the written buffers are stated (which staging buffer of a window is taken
    does not matter: the pieces cover it). -/
abbrev VO5_7 : View sig .tc .vmem S5000x128 .f32 := (Memref.whole cc5_stg7_0 : Memref sig .tc .vmem S5000x128 .f32).view
abbrev VO5_8 : View sig .tc .vmem S1x128 .f32 := (Memref.whole cc5_stg8_0 : Memref sig .tc .vmem S1x128 .f32).view
abbrev VO5_9 : View sig .tc .vmem S1x128 .f32 := (Memref.whole cc5_stg9_0 : Memref sig .tc .vmem S1x128 .f32).view
abbrev VS5_0 : View sig .tc .vmem S1x128 .f32 := scM5_0.view
abbrev VS5_1 : View sig .tc .vmem S1x128 .f32 := scM5_1.view

end Cert.Kernel.Hand

end
-- ==== Proof.KB.Reg5.RunA.lean ====
/- Region 5, the body at the FIRST row tile (the clearing branch taken, the copying branch not): the two
   accumulators are set to zero and the tile's column sum and column sum of squares added to them; the tile
   of the affine result is stored; the two small outputs are not touched. -/
import proofs.«160050_j32744830665390_2_alg».proof.Proof.KB.Iface
import proofs.«160050_j32744830665390_2_alg».proof.Proof.KB.Reg5.Runs
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid5.Coords)
  (arg1 : Memref sig .tc .vmem S5000x128 .f32) (harg1 : arg1.IsWhole)
  (arg2 : Memref sig .tc .vmem S5000x128 .f32) (harg2 : arg2.IsWhole)
  (arg3 : Memref sig .tc .vmem S5000x128 .f32) (harg3 : arg3.IsWhole)
  (arg4 : Memref sig .tc .vmem S128x128 .f32) (harg4 : arg4.IsWhole)
  (arg5 : Memref sig .tc .vmem S128x128 .f32) (harg5 : arg5.IsWhole)
  (arg6 : Memref sig .tc .vmem S128x128 .f32) (harg6 : arg6.IsWhole)
  (arg7 : Memref sig .tc .vmem S1x128 .f32) (harg7 : arg7.IsWhole)
  (arg8 : Memref sig .tc .vmem S5000x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x128 .f32) (harg11 : arg11.IsWhole)
  (arg12 : Memref sig .tc .vmem S1x128 .f32) (harg12 : arg12.IsWhole)

set_option maxHeartbeats 1000000 in
/-- The body's triple at a point where only the first condition holds. Given the seven input buffers at
    `x0 … x6`, the row-tile output and both accumulators at anything, and the two small outputs at `xi8`, `xi9`,
    it runs to the inputs and the small outputs as they were, the row-tile output with the stores `L7` applied
    and the accumulators with `LS0`, `LS1` applied. The three lists are not written down: they are whatever the
    symbolic run of the body leaves, fixed when each buffer is handed to the continuation. -/
def kernelRun5_A (hc0 : cond5_0 i) (hc1 : ¬cond5_1 i) (x0 x1 x2 : Vec F S5000x128 .f32) (x3 x4 x5 : Vec F S128x128 .f32) (x6 : Vec F S1x128 .f32) :
    Σ' (L7 : List (View.Piece (Elt F) S5000x128 .f32)), Σ' (LS0 : List (View.Piece (Elt F) S1x128 .f32)),
      { LS1 : List (View.Piece (Elt F) S1x128 .f32) //
      ∀ (xi8 xi9 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ (∃ d, owns (c : Thread nD τ) arg8 fullShare d)
            ∗ owns (c : Thread nD τ) arg9 fullShare xi8 ∗ owns (c : Thread nD τ) arg10 fullShare xi9
            ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
                ∗ (∃ f, arg8.view.loc (c : Thread nD τ) ↦[arg8.view.set]{fullShare} arg8.view.writes (Elt F) f L7)
                ∗ owns (c : Thread nD τ) arg9 fullShare xi8 ∗ owns (c : Thread nD τ) arg10 fullShare xi9
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)) -∗ K ⟨⟩))
          ⊢ wp frame (wpE (defs₀ (F := F)) Variants.none c none) E (cc5_cheb_affine_kernel i arg1 harg1 arg2 harg2 arg3 harg3 arg4 harg4 arg5 harg5 arg6 harg6 arg7 harg7 arg8 harg8 arg9 harg9 arg10 harg10 arg11 harg11 arg12 harg12) K } := by
  refine ⟨?_, ?_, ?_, fun xi8 xi9 E K => ?run⟩
  case run =>
    sl_unfold [cc5_cheb_affine_kernel]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
      ⟨%d7, %f7, -, H7⟩, ⟨%f8, %hf8, H8⟩, ⟨%f9, %hf9, H9⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg9.eq_unread hf8; obtain rfl := harg10.eq_unread hf9
    sl_exec (disch := first | exact hc0 | exact hc1)
    sl_step
    iapply Hk
    isplitl [H0]
    · iexists _; isplitr
      · ipureintro; exact harg1.read_unread _
      iexact H0
    isplitl [H1]
    · iexists _; isplitr
      · ipureintro; exact harg2.read_unread _
      iexact H1
    isplitl [H2]
    · iexists _; isplitr
      · ipureintro; exact harg3.read_unread _
      iexact H2
    isplitl [H3]
    · iexists _; isplitr
      · ipureintro; exact harg4.read_unread _
      iexact H3
    isplitl [H4]
    · iexists _; isplitr
      · ipureintro; exact harg5.read_unread _
      iexact H4
    isplitl [H5]
    · iexists _; isplitr
      · ipureintro; exact harg6.read_unread _
      iexact H5
    isplitl [H6]
    · iexists _; isplitr
      · ipureintro; exact harg7.read_unread _
      iexact H6
    isplitl [H7]
    · iexists _; iexact H7
    isplitl [H8]
    · iexists _; isplitr
      · ipureintro; exact harg9.read_unread _
      iexact H8
    isplitl [H9]
    · iexists _; isplitr
      · ipureintro; exact harg10.read_unread _
      iexact H9
    isplitl [HS0]
    · iexists _; iexact HS0
    iexists _; iexact HS1

end Cert.Kernel.Hand

end
-- ==== Proof.KB.Reg5.RunB.lean ====
/- Region 5, the body at a MIDDLE row tile (neither branch taken): the tile's column sum and column sum of
   squares are added to what the accumulators held; the tile of the affine result is stored; the two small
   outputs are not touched. -/
import proofs.«160050_j32744830665390_2_alg».proof.Proof.KB.Iface
import proofs.«160050_j32744830665390_2_alg».proof.Proof.KB.Reg5.Runs
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid5.Coords)
  (arg1 : Memref sig .tc .vmem S5000x128 .f32) (harg1 : arg1.IsWhole)
  (arg2 : Memref sig .tc .vmem S5000x128 .f32) (harg2 : arg2.IsWhole)
  (arg3 : Memref sig .tc .vmem S5000x128 .f32) (harg3 : arg3.IsWhole)
  (arg4 : Memref sig .tc .vmem S128x128 .f32) (harg4 : arg4.IsWhole)
  (arg5 : Memref sig .tc .vmem S128x128 .f32) (harg5 : arg5.IsWhole)
  (arg6 : Memref sig .tc .vmem S128x128 .f32) (harg6 : arg6.IsWhole)
  (arg7 : Memref sig .tc .vmem S1x128 .f32) (harg7 : arg7.IsWhole)
  (arg8 : Memref sig .tc .vmem S5000x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x128 .f32) (harg11 : arg11.IsWhole)
  (arg12 : Memref sig .tc .vmem S1x128 .f32) (harg12 : arg12.IsWhole)

set_option maxHeartbeats 1000000 in
/-- The body's triple at a point where neither condition holds. Given the seven input buffers at `x0 … x6`, the
    accumulators at `xs0`, `xs1` (what the point before left), the row-tile output at anything and the two small
    outputs at `xi8`, `xi9`, it runs to the inputs and the small outputs as they were, the row-tile output with the
    stores `L7` applied and the accumulators with `LS0`, `LS1` applied; the lists are what the symbolic run of the
    body leaves. -/
def kernelRun5_B (hc0 : ¬cond5_0 i) (hc1 : ¬cond5_1 i) (x0 x1 x2 : Vec F S5000x128 .f32) (x3 x4 x5 : Vec F S128x128 .f32) (x6 : Vec F S1x128 .f32)
    (xs0 xs1 : Vec F S1x128 .f32) :
    Σ' (L7 : List (View.Piece (Elt F) S5000x128 .f32)), Σ' (LS0 : List (View.Piece (Elt F) S1x128 .f32)),
      { LS1 : List (View.Piece (Elt F) S1x128 .f32) //
      ∀ (xi8 xi9 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ (∃ d, owns (c : Thread nD τ) arg8 fullShare d)
            ∗ owns (c : Thread nD τ) arg9 fullShare xi8 ∗ owns (c : Thread nD τ) arg10 fullShare xi9
            ∗ owns (c : Thread nD τ) arg11 fullShare xs0 ∗ owns (c : Thread nD τ) arg12 fullShare xs1
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
                ∗ (∃ f, arg8.view.loc (c : Thread nD τ) ↦[arg8.view.set]{fullShare} arg8.view.writes (Elt F) f L7)
                ∗ owns (c : Thread nD τ) arg9 fullShare xi8 ∗ owns (c : Thread nD τ) arg10 fullShare xi9
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)) -∗ K ⟨⟩))
          ⊢ wp frame (wpE (defs₀ (F := F)) Variants.none c none) E (cc5_cheb_affine_kernel i arg1 harg1 arg2 harg2 arg3 harg3 arg4 harg4 arg5 harg5 arg6 harg6 arg7 harg7 arg8 harg8 arg9 harg9 arg10 harg10 arg11 harg11 arg12 harg12) K } := by
  refine ⟨?_, ?_, ?_, fun xi8 xi9 E K => ?run⟩
  case run =>
    sl_unfold [cc5_cheb_affine_kernel]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
      ⟨%d7, %f7, -, H7⟩, ⟨%f8, %hf8, H8⟩, ⟨%f9, %hf9, H9⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg9.eq_unread hf8; obtain rfl := harg10.eq_unread hf9
    obtain rfl := harg11.eq_unread hfs0; obtain rfl := harg12.eq_unread hfs1
    sl_exec (disch := first | exact hc0 | exact hc1)
    sl_step
    iapply Hk
    isplitl [H0]
    · iexists _; isplitr
      · ipureintro; exact harg1.read_unread _
      iexact H0
    isplitl [H1]
    · iexists _; isplitr
      · ipureintro; exact harg2.read_unread _
      iexact H1
    isplitl [H2]
    · iexists _; isplitr
      · ipureintro; exact harg3.read_unread _
      iexact H2
    isplitl [H3]
    · iexists _; isplitr
      · ipureintro; exact harg4.read_unread _
      iexact H3
    isplitl [H4]
    · iexists _; isplitr
      · ipureintro; exact harg5.read_unread _
      iexact H4
    isplitl [H5]
    · iexists _; isplitr
      · ipureintro; exact harg6.read_unread _
      iexact H5
    isplitl [H6]
    · iexists _; isplitr
      · ipureintro; exact harg7.read_unread _
      iexact H6
    isplitl [H7]
    · iexists _; iexact H7
    isplitl [H8]
    · iexists _; isplitr
      · ipureintro; exact harg9.read_unread _
      iexact H8
    isplitl [H9]
    · iexists _; isplitr
      · ipureintro; exact harg10.read_unread _
      iexact H9
    isplitl [HS0]
    · iexists _; iexact HS0
    iexists _; iexact HS1

end Cert.Kernel.Hand

end
-- ==== Proof.KB.Reg5.RunC.lean ====
/- Region 5, the body at the LAST row tile (the clearing branch not taken, the copying branch taken): the
   tile's column sum and column sum of squares are added to what the accumulators held, the tile of the
   affine result is stored, and the accumulators' final contents are copied into the two small outputs. -/
import proofs.«160050_j32744830665390_2_alg».proof.Proof.KB.Iface
import proofs.«160050_j32744830665390_2_alg».proof.Proof.KB.Reg5.Runs
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid5.Coords)
  (arg1 : Memref sig .tc .vmem S5000x128 .f32) (harg1 : arg1.IsWhole)
  (arg2 : Memref sig .tc .vmem S5000x128 .f32) (harg2 : arg2.IsWhole)
  (arg3 : Memref sig .tc .vmem S5000x128 .f32) (harg3 : arg3.IsWhole)
  (arg4 : Memref sig .tc .vmem S128x128 .f32) (harg4 : arg4.IsWhole)
  (arg5 : Memref sig .tc .vmem S128x128 .f32) (harg5 : arg5.IsWhole)
  (arg6 : Memref sig .tc .vmem S128x128 .f32) (harg6 : arg6.IsWhole)
  (arg7 : Memref sig .tc .vmem S1x128 .f32) (harg7 : arg7.IsWhole)
  (arg8 : Memref sig .tc .vmem S5000x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x128 .f32) (harg11 : arg11.IsWhole)
  (arg12 : Memref sig .tc .vmem S1x128 .f32) (harg12 : arg12.IsWhole)

set_option maxHeartbeats 1000000 in
/-- The body's triple at a point where only the second condition holds. Given the seven input buffers at
    `x0 … x6`, the accumulators at `xs0`, `xs1` (what the point before left) and all three outputs at anything, it
    runs to the inputs as they were, the three outputs with the stores `L7`, `L8`, `L9` applied and the accumulators
    with `LS0`, `LS1` applied; the lists are what the symbolic run of the body leaves. -/
def kernelRun5_C (hc0 : ¬cond5_0 i) (hc1 : cond5_1 i) (x0 x1 x2 : Vec F S5000x128 .f32) (x3 x4 x5 : Vec F S128x128 .f32) (x6 : Vec F S1x128 .f32)
    (xs0 xs1 : Vec F S1x128 .f32) :
    Σ' (L7 : List (View.Piece (Elt F) S5000x128 .f32)), Σ' (L8 : List (View.Piece (Elt F) S1x128 .f32)),
      Σ' (L9 : List (View.Piece (Elt F) S1x128 .f32)), Σ' (LS0 : List (View.Piece (Elt F) S1x128 .f32)),
      { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ (∃ d, owns (c : Thread nD τ) arg8 fullShare d)
            ∗ (∃ d, owns (c : Thread nD τ) arg9 fullShare d) ∗ (∃ d, owns (c : Thread nD τ) arg10 fullShare d)
            ∗ owns (c : Thread nD τ) arg11 fullShare xs0 ∗ owns (c : Thread nD τ) arg12 fullShare xs1
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f L8)
                ∗ (∃ f, arg10.view.loc (c : Thread nD τ) ↦[arg10.view.set]{fullShare} arg10.view.writes (Elt F) f L9)
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)) -∗ K ⟨⟩))
          ⊢ wp frame (wpE (defs₀ (F := F)) Variants.none c none) E (cc5_cheb_affine_kernel i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    sl_unfold [cc5_cheb_affine_kernel]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
      ⟨%d7, %f7, -, H7⟩, ⟨%d8, %f8, -, H8⟩, ⟨%d9, %f9, -, H9⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6
    obtain rfl := harg11.eq_unread hfs0; obtain rfl := harg12.eq_unread hfs1
    sl_exec (disch := first | exact hc0 | exact hc1)
    sl_step
    iapply Hk
    isplitl [H0]
    · iexists _; isplitr
      · ipureintro; exact harg1.read_unread _
      iexact H0
    isplitl [H1]
    · iexists _; isplitr
      · ipureintro; exact harg2.read_unread _
      iexact H1
    isplitl [H2]
    · iexists _; isplitr
      · ipureintro; exact harg3.read_unread _
      iexact H2
    isplitl [H3]
    · iexists _; isplitr
      · ipureintro; exact harg4.read_unread _
      iexact H3
    isplitl [H4]
    · iexists _; isplitr
      · ipureintro; exact harg5.read_unread _
      iexact H4
    isplitl [H5]
    · iexists _; isplitr
      · ipureintro; exact harg6.read_unread _
      iexact H5
    isplitl [H6]
    · iexists _; isplitr
      · ipureintro; exact harg7.read_unread _
      iexact H6
    isplitl [H7]
    · iexists _; iexact H7
    isplitl [H8]
    · iexists _; iexact H8
    isplitl [H9]
    · iexists _; iexact H9
    isplitl [HS0]
    · iexists _; iexact HS0
    iexists _; iexact HS1

end Cert.Kernel.Hand

end
-- ==== Proof.KB.Reg5.lean ====
/- Region 5 of the kernel program: one Chebyshev affine layer over ten row tiles of 5000 nodes, with the column sum and
   the column sum of squares of its result accumulated across the tiles in two small buffers and copied out at the
   last tile. This module: what each of the three control cases leaves in the buffers it stores into; what the outputs
   and the two accumulators hold after each tile, by recursion on the tile; the proof data of the pipelined region
   at a parameter `V` (the buffers' contents when the region is entered); the body obligation at every tile; and
   the two ends of the invariant. -/
import proofs.«160050_j32744830665390_2_alg».proof.Proof.KB.Iface
import proofs.«160050_j32744830665390_2_alg».proof.Proof.KB.Reg5.RunA
import proofs.«160050_j32744830665390_2_alg».proof.Proof.KB.Reg5.RunB
import proofs.«160050_j32744830665390_2_alg».proof.Proof.KB.Reg5.RunC
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

section Cases

variable (c : Dev nD) (i : grid5.Coords)
  (arg1 : Memref sig .tc .vmem S5000x128 .f32) (harg1 : arg1.IsWhole)
  (arg2 : Memref sig .tc .vmem S5000x128 .f32) (harg2 : arg2.IsWhole)
  (arg3 : Memref sig .tc .vmem S5000x128 .f32) (harg3 : arg3.IsWhole)
  (arg4 : Memref sig .tc .vmem S128x128 .f32) (harg4 : arg4.IsWhole)
  (arg5 : Memref sig .tc .vmem S128x128 .f32) (harg5 : arg5.IsWhole)
  (arg6 : Memref sig .tc .vmem S128x128 .f32) (harg6 : arg6.IsWhole)
  (arg7 : Memref sig .tc .vmem S1x128 .f32) (harg7 : arg7.IsWhole)
  (arg8 : Memref sig .tc .vmem S5000x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x128 .f32) (harg11 : arg11.IsWhole)
  (arg12 : Memref sig .tc .vmem S1x128 .f32) (harg12 : arg12.IsWhole)

/-! ### At the first row tile -/

/-- At the first row tile the stores into the row-tile output tile it: every index lies in some piece. -/
theorem cover5_A_7 (hc0 : cond5_0 i) (hc1 : ¬cond5_1 i) (x0 x1 x2 : Vec F S5000x128 .f32) (x3 x4 x5 : Vec F S128x128 .f32) (x6 : Vec F S1x128 .f32) (y : S5000x128.Idx) :
    ∃ pc ∈ (kernelRun5_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).1, y ∈ pc.1.set :=
  View.cover_of_tiledL (kernelRun5_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).1 S5000x128.size (by sl_kernel_rfl) y

/-- What the row-tile output holds after the body at the first row tile: the pieces read back (over contents that do not show,
    the pieces covering the buffer). -/
def out5_A_7 (hc0 : cond5_0 i) (hc1 : ¬cond5_1 i) (x0 x1 x2 : Vec F S5000x128 .f32) (x3 x4 x5 : Vec F S128x128 .f32) (x6 : Vec F S1x128 .f32) : Vec F S5000x128 .f32 :=
  VO5_7.read (Elt F) (VO5_7.writes (Elt F) VO5_7.junk (kernelRun5_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).1)

/-- At the first row tile the stores into the first accumulator tile it: every index lies in some piece. -/
theorem scover5_A_0 (hc0 : cond5_0 i) (hc1 : ¬cond5_1 i) (x0 x1 x2 : Vec F S5000x128 .f32) (x3 x4 x5 : Vec F S128x128 .f32) (x6 : Vec F S1x128 .f32) (y : S1x128.Idx) :
    ∃ pc ∈ (kernelRun5_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.1, y ∈ pc.1.set :=
  View.cover_of_tiledL (kernelRun5_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.1 S1x128.size (by sl_kernel_rfl) y

/-- What the first accumulator holds after the body at the first row tile: the pieces read back (over contents that do not show,
    the pieces covering the buffer). -/
def sout5_A_0 (hc0 : cond5_0 i) (hc1 : ¬cond5_1 i) (x0 x1 x2 : Vec F S5000x128 .f32) (x3 x4 x5 : Vec F S128x128 .f32) (x6 : Vec F S1x128 .f32) : Vec F S1x128 .f32 :=
  VS5_0.read (Elt F) (VS5_0.writes (Elt F) VS5_0.junk (kernelRun5_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.1)

/-- At the first row tile the stores into the second accumulator tile it: every index lies in some piece. -/
theorem scover5_A_1 (hc0 : cond5_0 i) (hc1 : ¬cond5_1 i) (x0 x1 x2 : Vec F S5000x128 .f32) (x3 x4 x5 : Vec F S128x128 .f32) (x6 : Vec F S1x128 .f32) (y : S1x128.Idx) :
    ∃ pc ∈ (kernelRun5_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.2.1, y ∈ pc.1.set :=
  View.cover_of_tiledL (kernelRun5_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.2.1 S1x128.size (by sl_kernel_rfl) y

/-- What the second accumulator holds after the body at the first row tile: the pieces read back (over contents that do not show,
    the pieces covering the buffer). -/
def sout5_A_1 (hc0 : cond5_0 i) (hc1 : ¬cond5_1 i) (x0 x1 x2 : Vec F S5000x128 .f32) (x3 x4 x5 : Vec F S128x128 .f32) (x6 : Vec F S1x128 .f32) : Vec F S1x128 .f32 :=
  VS5_1.read (Elt F) (VS5_1.writes (Elt F) VS5_1.junk (kernelRun5_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.2.1)

/-! ### At a middle row tile -/

/-- At a middle row tile the stores into the row-tile output tile it: every index lies in some piece. -/
theorem cover5_B_7 (hc0 : ¬cond5_0 i) (hc1 : ¬cond5_1 i) (x0 x1 x2 : Vec F S5000x128 .f32) (x3 x4 x5 : Vec F S128x128 .f32) (x6 : Vec F S1x128 .f32) (xs0 xs1 : Vec F S1x128 .f32) (y : S5000x128.Idx) :
    ∃ pc ∈ (kernelRun5_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1, y ∈ pc.1.set :=
  View.cover_of_tiledL (kernelRun5_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1 S5000x128.size (by sl_kernel_rfl) y

/-- What the row-tile output holds after the body at a middle row tile: the pieces read back (over contents that do not show,
    the pieces covering the buffer). -/
def out5_B_7 (hc0 : ¬cond5_0 i) (hc1 : ¬cond5_1 i) (x0 x1 x2 : Vec F S5000x128 .f32) (x3 x4 x5 : Vec F S128x128 .f32) (x6 : Vec F S1x128 .f32) (xs0 xs1 : Vec F S1x128 .f32) : Vec F S5000x128 .f32 :=
  VO5_7.read (Elt F) (VO5_7.writes (Elt F) VO5_7.junk (kernelRun5_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1)

/-- At a middle row tile the stores into the first accumulator tile it: every index lies in some piece. -/
theorem scover5_B_0 (hc0 : ¬cond5_0 i) (hc1 : ¬cond5_1 i) (x0 x1 x2 : Vec F S5000x128 .f32) (x3 x4 x5 : Vec F S128x128 .f32) (x6 : Vec F S1x128 .f32) (xs0 xs1 : Vec F S1x128 .f32) (y : S1x128.Idx) :
    ∃ pc ∈ (kernelRun5_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ pc.1.set :=
  View.cover_of_tiledL (kernelRun5_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1 S1x128.size (by sl_kernel_rfl) y

/-- What the first accumulator holds after the body at a middle row tile: the pieces read back (over contents that do not show,
    the pieces covering the buffer). -/
def sout5_B_0 (hc0 : ¬cond5_0 i) (hc1 : ¬cond5_1 i) (x0 x1 x2 : Vec F S5000x128 .f32) (x3 x4 x5 : Vec F S128x128 .f32) (x6 : Vec F S1x128 .f32) (xs0 xs1 : Vec F S1x128 .f32) : Vec F S1x128 .f32 :=
  VS5_0.read (Elt F) (VS5_0.writes (Elt F) VS5_0.junk (kernelRun5_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1)

/-- At a middle row tile the stores into the second accumulator tile it: every index lies in some piece. -/
theorem scover5_B_1 (hc0 : ¬cond5_0 i) (hc1 : ¬cond5_1 i) (x0 x1 x2 : Vec F S5000x128 .f32) (x3 x4 x5 : Vec F S128x128 .f32) (x6 : Vec F S1x128 .f32) (xs0 xs1 : Vec F S1x128 .f32) (y : S1x128.Idx) :
    ∃ pc ∈ (kernelRun5_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL (kernelRun5_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1 S1x128.size (by sl_kernel_rfl) y

/-- What the second accumulator holds after the body at a middle row tile: the pieces read back (over contents that do not show,
    the pieces covering the buffer). -/
def sout5_B_1 (hc0 : ¬cond5_0 i) (hc1 : ¬cond5_1 i) (x0 x1 x2 : Vec F S5000x128 .f32) (x3 x4 x5 : Vec F S128x128 .f32) (x6 : Vec F S1x128 .f32) (xs0 xs1 : Vec F S1x128 .f32) : Vec F S1x128 .f32 :=
  VS5_1.read (Elt F) (VS5_1.writes (Elt F) VS5_1.junk (kernelRun5_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1)

/-! ### At the last row tile -/

/-- At the last row tile the stores into the row-tile output tile it: every index lies in some piece. -/
theorem cover5_C_7 (hc0 : ¬cond5_0 i) (hc1 : cond5_1 i) (x0 x1 x2 : Vec F S5000x128 .f32) (x3 x4 x5 : Vec F S128x128 .f32) (x6 : Vec F S1x128 .f32) (xs0 xs1 : Vec F S1x128 .f32) (y : S5000x128.Idx) :
    ∃ pc ∈ (kernelRun5_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1, y ∈ pc.1.set :=
  View.cover_of_tiledL (kernelRun5_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1 S5000x128.size (by sl_kernel_rfl) y

/-- What the row-tile output holds after the body at the last row tile: the pieces read back (over contents that do not show,
    the pieces covering the buffer). -/
def out5_C_7 (hc0 : ¬cond5_0 i) (hc1 : cond5_1 i) (x0 x1 x2 : Vec F S5000x128 .f32) (x3 x4 x5 : Vec F S128x128 .f32) (x6 : Vec F S1x128 .f32) (xs0 xs1 : Vec F S1x128 .f32) : Vec F S5000x128 .f32 :=
  VO5_7.read (Elt F) (VO5_7.writes (Elt F) VO5_7.junk (kernelRun5_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1)

/-- At the last row tile the stores into the column-sum output tile it: every index lies in some piece. -/
theorem cover5_C_8 (hc0 : ¬cond5_0 i) (hc1 : cond5_1 i) (x0 x1 x2 : Vec F S5000x128 .f32) (x3 x4 x5 : Vec F S128x128 .f32) (x6 : Vec F S1x128 .f32) (xs0 xs1 : Vec F S1x128 .f32) (y : S1x128.Idx) :
    ∃ pc ∈ (kernelRun5_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ pc.1.set :=
  View.cover_of_tiledL (kernelRun5_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1 S1x128.size (by sl_kernel_rfl) y

/-- What the column-sum output holds after the body at the last row tile: the pieces read back (over contents that do not show,
    the pieces covering the buffer). -/
def out5_C_8 (hc0 : ¬cond5_0 i) (hc1 : cond5_1 i) (x0 x1 x2 : Vec F S5000x128 .f32) (x3 x4 x5 : Vec F S128x128 .f32) (x6 : Vec F S1x128 .f32) (xs0 xs1 : Vec F S1x128 .f32) : Vec F S1x128 .f32 :=
  VO5_8.read (Elt F) (VO5_8.writes (Elt F) VO5_8.junk (kernelRun5_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1)

/-- At the last row tile the stores into the sum-of-squares output tile it: every index lies in some piece. -/
theorem cover5_C_9 (hc0 : ¬cond5_0 i) (hc1 : cond5_1 i) (x0 x1 x2 : Vec F S5000x128 .f32) (x3 x4 x5 : Vec F S128x128 .f32) (x6 : Vec F S1x128 .f32) (xs0 xs1 : Vec F S1x128 .f32) (y : S1x128.Idx) :
    ∃ pc ∈ (kernelRun5_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL (kernelRun5_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1 S1x128.size (by sl_kernel_rfl) y

/-- What the sum-of-squares output holds after the body at the last row tile: the pieces read back (over contents that do not show,
    the pieces covering the buffer). -/
def out5_C_9 (hc0 : ¬cond5_0 i) (hc1 : cond5_1 i) (x0 x1 x2 : Vec F S5000x128 .f32) (x3 x4 x5 : Vec F S128x128 .f32) (x6 : Vec F S1x128 .f32) (xs0 xs1 : Vec F S1x128 .f32) : Vec F S1x128 .f32 :=
  VO5_9.read (Elt F) (VO5_9.writes (Elt F) VO5_9.junk (kernelRun5_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1)

/-- At the last row tile the stores into the first accumulator tile it: every index lies in some piece. -/
theorem scover5_C_0 (hc0 : ¬cond5_0 i) (hc1 : cond5_1 i) (x0 x1 x2 : Vec F S5000x128 .f32) (x3 x4 x5 : Vec F S128x128 .f32) (x6 : Vec F S1x128 .f32) (xs0 xs1 : Vec F S1x128 .f32) (y : S1x128.Idx) :
    ∃ pc ∈ (kernelRun5_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1, y ∈ pc.1.set :=
  View.cover_of_tiledL (kernelRun5_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1 S1x128.size (by sl_kernel_rfl) y

/-- What the first accumulator holds after the body at the last row tile: the pieces read back (over contents that do not show,
    the pieces covering the buffer). -/
def sout5_C_0 (hc0 : ¬cond5_0 i) (hc1 : cond5_1 i) (x0 x1 x2 : Vec F S5000x128 .f32) (x3 x4 x5 : Vec F S128x128 .f32) (x6 : Vec F S1x128 .f32) (xs0 xs1 : Vec F S1x128 .f32) : Vec F S1x128 .f32 :=
  VS5_0.read (Elt F) (VS5_0.writes (Elt F) VS5_0.junk (kernelRun5_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1)

/-- At the last row tile the stores into the second accumulator tile it: every index lies in some piece. -/
theorem scover5_C_1 (hc0 : ¬cond5_0 i) (hc1 : cond5_1 i) (x0 x1 x2 : Vec F S5000x128 .f32) (x3 x4 x5 : Vec F S128x128 .f32) (x6 : Vec F S1x128 .f32) (xs0 xs1 : Vec F S1x128 .f32) (y : S1x128.Idx) :
    ∃ pc ∈ (kernelRun5_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.2.1, y ∈ pc.1.set :=
  View.cover_of_tiledL (kernelRun5_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.2.1 S1x128.size (by sl_kernel_rfl) y

/-- What the second accumulator holds after the body at the last row tile: the pieces read back (over contents that do not show,
    the pieces covering the buffer). -/
def sout5_C_1 (hc0 : ¬cond5_0 i) (hc1 : cond5_1 i) (x0 x1 x2 : Vec F S5000x128 .f32) (x3 x4 x5 : Vec F S128x128 .f32) (x6 : Vec F S1x128 .f32) (xs0 xs1 : Vec F S1x128 .f32) : Vec F S1x128 .f32 :=
  VS5_1.read (Elt F) (VS5_1.writes (Elt F) VS5_1.junk (kernelRun5_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.2.1)

end Cases

/-! ## The tiles' input blocks -/

variable (V : Entry F)

/-- Window `w`'s block at tile `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## After each tile -/

/-- What is tracked after a tile: the row-tile output, the two small outputs, the two accumulators. -/
abbrev Outs5 (F : FTy → Type) : Type :=
  Vec F S5000x128 .f32 × Vec F S1x128 .f32 × Vec F S1x128 .f32 × Vec F S1x128 .f32 × Vec F S1x128 .f32

/-- The first tile. The small outputs are not stored into there (nor written back): their entries repeat the
    accumulators' and are never consulted. -/
def pt5_A (c : Dev nD) (t : Fin cfg5.N) (h0 : t.val % 10 = 0) (h1 : ¬t.val % 10 = 9) : Outs5 F :=
  (out5_A_7 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t),
   sout5_A_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t),
   sout5_A_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t),
   sout5_A_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t),
   sout5_A_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t))

/-- A middle tile, over what the tile before left in the accumulators. The small outputs' entries as at the first tile. -/
def pt5_B (c : Dev nD) (t : Fin cfg5.N) (h0 : ¬t.val % 10 = 0) (h1 : ¬t.val % 10 = 9) (xs0 xs1 : Vec F S1x128 .f32) : Outs5 F :=
  (out5_B_7 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) xs0 xs1,
   sout5_B_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) xs0 xs1,
   sout5_B_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) xs0 xs1,
   sout5_B_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) xs0 xs1,
   sout5_B_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) xs0 xs1)

/-- The last tile, over what the tile before left in the accumulators: here the small outputs are stored into. -/
def pt5_C (c : Dev nD) (t : Fin cfg5.N) (h0 : ¬t.val % 10 = 0) (h1 : t.val % 10 = 9) (xs0 xs1 : Vec F S1x128 .f32) : Outs5 F :=
  (out5_C_7 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) xs0 xs1,
   out5_C_8 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) xs0 xs1,
   out5_C_9 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) xs0 xs1,
   sout5_C_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) xs0 xs1,
   sout5_C_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) xs0 xs1)

/-- A tile after the first is not the first among ten. -/
theorem succ_ne_first5 {n : ℕ} (hn : n + 1 < cfg5.N) : ¬(n + 1) % 10 = 0 := by
  have : n + 1 < 10 := lt_of_lt_of_eq hn (show cfg5.N = 10 from N_5)
  omega

/-- THE ACCUMULATION: what the outputs and the accumulators hold after tile `n`. The first tile clears and adds;
    every later tile adds onto what the tile before left; the last of them also copies out. -/
def outsAt5 (c : Dev nD) : (n : ℕ) → n < cfg5.N → Outs5 F
  | 0, hn => pt5_A V c ⟨0, hn⟩ (Nat.zero_mod _) (by show ¬(0 % 10 = 9); decide)
  | n + 1, hn =>
    if h1 : (n + 1) % 10 = 9 then
      pt5_C V c ⟨n + 1, hn⟩ (succ_ne_first5 hn) h1 (outsAt5 c n (Nat.lt_of_succ_lt hn)).2.2.2.1 (outsAt5 c n (Nat.lt_of_succ_lt hn)).2.2.2.2
    else
      pt5_B V c ⟨n + 1, hn⟩ (succ_ne_first5 hn) h1 (outsAt5 c n (Nat.lt_of_succ_lt hn)).2.2.2.1 (outsAt5 c n (Nat.lt_of_succ_lt hn)).2.2.2.2

/-- The recursion's own two equations at a tile after the first. -/
theorem outsAt5_succ_mid (c : Dev nD) (n : ℕ) (hn : n + 1 < cfg5.N) (h1 : ¬(n + 1) % 10 = 9) :
    outsAt5 V c (n + 1) hn
      = pt5_B V c ⟨n + 1, hn⟩ (succ_ne_first5 hn) h1 (outsAt5 V c n (Nat.lt_of_succ_lt hn)).2.2.2.1 (outsAt5 V c n (Nat.lt_of_succ_lt hn)).2.2.2.2 :=
  (dif_neg h1).trans rfl

theorem outsAt5_succ_last (c : Dev nD) (n : ℕ) (hn : n + 1 < cfg5.N) (h1 : (n + 1) % 10 = 9) :
    outsAt5 V c (n + 1) hn
      = pt5_C V c ⟨n + 1, hn⟩ (succ_ne_first5 hn) h1 (outsAt5 V c n (Nat.lt_of_succ_lt hn)).2.2.2.1 (outsAt5 V c n (Nat.lt_of_succ_lt hn)).2.2.2.2 :=
  (dif_pos h1).trans rfl

/-- The tile before `t` is a tile. -/
theorem pred_lt5 (t : Fin cfg5.N) : t.val - 1 < cfg5.N := Nat.lt_of_le_of_lt (Nat.sub_le _ _) t.isLt

theorem outsAt5_first (c : Dev nD) (t : Fin cfg5.N) (h0 : t.val % 10 = 0) (h1 : ¬t.val % 10 = 9) :
    outsAt5 V c t.val t.isLt = pt5_A V c t h0 h1 := by
  obtain ⟨n, hn⟩ := t
  cases n with
  | zero => exact rfl
  | succ n => exact absurd h0 (succ_ne_first5 hn)

theorem outsAt5_mid (c : Dev nD) (t : Fin cfg5.N) (h0 : ¬t.val % 10 = 0) (h1 : ¬t.val % 10 = 9) :
    outsAt5 V c t.val t.isLt
      = pt5_B V c t h0 h1 (outsAt5 V c (t.val - 1) (pred_lt5 t)).2.2.2.1 (outsAt5 V c (t.val - 1) (pred_lt5 t)).2.2.2.2 := by
  obtain ⟨n, hn⟩ := t
  cases n with
  | zero => exact absurd (Nat.zero_mod _) h0
  | succ n => exact (dif_neg h1).trans rfl

theorem outsAt5_last (c : Dev nD) (t : Fin cfg5.N) (h0 : ¬t.val % 10 = 0) (h1 : t.val % 10 = 9) :
    outsAt5 V c t.val t.isLt
      = pt5_C V c t h0 h1 (outsAt5 V c (t.val - 1) (pred_lt5 t)).2.2.2.1 (outsAt5 V c (t.val - 1) (pred_lt5 t)).2.2.2.2 := by
  obtain ⟨n, hn⟩ := t
  cases n with
  | zero => exact absurd (Nat.zero_mod _) h0
  | succ n => exact (dif_pos h1).trans rfl

/-! ## The invariant -/

/-- A buffer into which a covering list of pieces was written is owned at the pieces read back, whatever it held. -/
theorem owns_of_cover5 {S : Shape} (c : Dev nD) (a : Memref sig .tc .vmem S .f32) (v : View sig .tc .vmem S .f32)
    (L : List (View.Piece (Elt F) S .f32)) (hcov : ∀ y : S.Idx, ∃ pc ∈ L, y ∈ pc.1.set) :
    (iprop(∃ f, a.view.loc (c : Thread nD τ) ↦[a.view.set]{fullShare} a.view.writes (Elt F) f L) : sProp 𝕄)
      ⊢ owns (c : Thread nD τ) a fullShare (v.read (Elt F) (v.writes (Elt F) v.junk L)) := by
  iintro ⟨%f, H⟩
  unfold owns; iexists _; isplitr
  swap
  · iexact H
  ipureintro; exact View.read_writes_of_cover _ _ _ _ _ hcov

/-- The region invariant before tile `n`. Before the first tile it is what the launch hands over: every scoped
    buffer that is no staging buffer at some contents, and the generator register at some state. After tile `n`
    the two accumulators are held at that tile's sums, the other such buffers unopened, the register as before. -/
def Phi5 (c : Dev nD) : (n : ℕ) → n ≤ cfg5.N → sProp 𝕄
  | 0, _ => Pipeline.ΦA (U := UR sig nD τ) (Val := Elt F) spec5 c
  | n + 1, hn => iprop(iprop(owns (c : Thread nD τ) scM5_0 fullShare (outsAt5 V c n hn).2.2.2.1
        ∗ owns (c : Thread nD τ) scM5_1 fullShare (outsAt5 V c n hn).2.2.2.2
        ∗ Pipeline.scopedRestBut (Ix := Unit) (Name := ℕ) (U := UR sig nD τ) (Lvl := ℕ) (Val := Elt F) spec5 c [cc5_scratch0, cc5_scratch1])
      ∗ (∃ r, prngReg c r))

theorem Phi5_zero (c : Dev nD) (n : ℕ) (h : n ≤ cfg5.N) (hz : n = 0) :
    Phi5 V c n h = Pipeline.ΦA (U := UR sig nD τ) (Val := Elt F) spec5 c := by
  subst hz; rfl

theorem Phi5_succ (c : Dev nD) (n : ℕ) (hn : n < cfg5.N) :
    Phi5 V c (n + 1) hn = iprop(iprop(owns (c : Thread nD τ) scM5_0 fullShare (outsAt5 V c n hn).2.2.2.1
        ∗ owns (c : Thread nD τ) scM5_1 fullShare (outsAt5 V c n hn).2.2.2.2
        ∗ Pipeline.scopedRestBut (Ix := Unit) (Name := ℕ) (U := UR sig nD τ) (Lvl := ℕ) (Val := Elt F) spec5 c [cc5_scratch0, cc5_scratch1])
      ∗ (∃ r, prngReg c r)) := rfl

theorem Phi5_pos (c : Dev nD) (n : ℕ) (h : n ≤ cfg5.N) (hz : n ≠ 0) :
    Phi5 V c n h = iprop(iprop(owns (c : Thread nD τ) scM5_0 fullShare (outsAt5 V c (n - 1) (by omega)).2.2.2.1
        ∗ owns (c : Thread nD τ) scM5_1 fullShare (outsAt5 V c (n - 1) (by omega)).2.2.2.2
        ∗ Pipeline.scopedRestBut (Ix := Unit) (Name := ℕ) (U := UR sig nD τ) (Lvl := ℕ) (Val := Elt F) spec5 c [cc5_scratch0, cc5_scratch1])
      ∗ (∃ r, prngReg c r)) := by
  cases n with
  | zero => exact absurd rfl hz
  | succ n => rfl

/-- What the launch hands over, with the two accumulators taken out of the scoped rest as owned memrefs. -/
theorem PhiA5_eq (c : Dev nD) :
    (Pipeline.ΦA (U := UR sig nD τ) (Val := Elt F) spec5 c : sProp 𝕄)
      = iprop(iprop(iprop((∃ d, owns (c : Thread nD τ) scM5_0 fullShare d) ∗ (∃ d, owns (c : Thread nD τ) scM5_1 fullShare d))
          ∗ Pipeline.scopedRestBut (Ix := Unit) (Name := ℕ) (U := UR sig nD τ) (Lvl := ℕ) (Val := Elt F) spec5 c [cc5_scratch0, cc5_scratch1])
        ∗ (∃ r, prngReg c r)) := by
  unfold Pipeline.ΦA; rw [scopedRest5_split]; simp only [scM5_0, scM5_1, owns_whole]
  rfl

/-! ## The proof data -/

/-- The region's proof data on core `c`: the arrays as the region finds them; after the body at tile `t` each input's
    buffer at its block, the outputs' at the accumulation's entries; the invariant above; full shares; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => (outsAt5 V c t.val t.isLt).1
    | ⟨8, _⟩ => (outsAt5 V c t.val t.isLt).2.1
    | ⟨9, _⟩ => (outsAt5 V c t.val t.isLt).2.2.1
  Φ t := Phi5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem q_eq5 (c : Dev nD) (w : Fin cfg5.W) : (dat5 V c).q w = fullShare := by
  dsimp only [dat5]

theorem owed_eq5 (c : Dev nD) (t : Fin (cfg5.N + 1)) : (dat5 V c).owed t = 0 := by
  dsimp only [dat5]

theorem Phi5_castSucc (c : Dev nD) (t : Fin cfg5.N) :
    (dat5 V c).Φ t.castSucc = Phi5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = (outsAt5 V c t.val t.isLt).1 := by dsimp only [dat5]
theorem after5_8 (c : Dev nD) (t : Fin cfg5.N) : (dat5 V c).after 8 t = (outsAt5 V c t.val t.isLt).2.1 := by dsimp only [dat5]
theorem after5_9 (c : Dev nD) (t : Fin cfg5.N) : (dat5 V c).after 9 t = (outsAt5 V c t.val t.isLt).2.2.1 := by dsimp only [dat5]

/-! ## What each window's buffer holds when the body runs, and what it is left at -/

theorem before5_0 (c : Dev nD) (t : Fin cfg5.N) (d) : (dat5 V c).before 0 t d = iblk5 V c 0 t :=
  ((dat5 V c).before_in_eq_fetched 0 rfl live5_0 (fun _ _ _ => rfl)
    (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl live5_1 (fun _ _ _ => rfl)
    (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl live5_2 (fun _ _ _ => rfl)
    (fun t => by rw [after5_2]; unfold Dat.blockOf iblk5; rw [A_eq5]; try rfl) t d).trans
    (by unfold Dat.fetched Dat.blockOf iblk5; rw [A_eq5]; try rfl)
theorem before5_3 (c : Dev nD) (t : Fin cfg5.N) (d) : (dat5 V c).before 3 t d = iblk5 V c 3 t :=
  ((dat5 V c).before_in_eq_fetched 3 rfl live5_3 (fun _ _ _ => rfl)
    (fun t => by rw [after5_3]; unfold Dat.blockOf iblk5; rw [A_eq5]; try rfl) t d).trans
    (by unfold Dat.fetched Dat.blockOf iblk5; rw [A_eq5]; try rfl)
theorem before5_4 (c : Dev nD) (t : Fin cfg5.N) (d) : (dat5 V c).before 4 t d = iblk5 V c 4 t :=
  ((dat5 V c).before_in_eq_fetched 4 rfl live5_4 (fun _ _ _ => rfl)
    (fun t => by rw [after5_4]; unfold Dat.blockOf iblk5; rw [A_eq5]; try rfl) t d).trans
    (by unfold Dat.fetched Dat.blockOf iblk5; rw [A_eq5]; try rfl)
theorem before5_5 (c : Dev nD) (t : Fin cfg5.N) (d) : (dat5 V c).before 5 t d = iblk5 V c 5 t :=
  ((dat5 V c).before_in_eq_fetched 5 rfl live5_5 (fun _ _ _ => rfl)
    (fun t => by rw [after5_5]; unfold Dat.blockOf iblk5; rw [A_eq5]; try rfl) t d).trans
    (by unfold Dat.fetched Dat.blockOf iblk5; rw [A_eq5]; try rfl)
theorem before5_6 (c : Dev nD) (t : Fin cfg5.N) (d) : (dat5 V c).before 6 t d = iblk5 V c 6 t :=
  ((dat5 V c).before_in_eq_fetched 6 rfl live5_6 (fun _ _ _ => rfl)
    (fun t => by rw [after5_6]; unfold Dat.blockOf iblk5; rw [A_eq5]; try rfl) t d).trans
    (by unfold Dat.fetched Dat.blockOf iblk5; rw [A_eq5]; try rfl)

theorem leaves5_0 (c : Dev nD) (t : Fin cfg5.N) :
    (dat5 V c).leavesExact 0 t = owns (c : Thread nD τ) (ms5_0 t) fullShare ((dat5 V c).after 0 t) := by
  unfold Dat.leavesExact; rw [live5_0]
theorem leaves5_1 (c : Dev nD) (t : Fin cfg5.N) :
    (dat5 V c).leavesExact 1 t = owns (c : Thread nD τ) (ms5_1 t) fullShare ((dat5 V c).after 1 t) := by
  unfold Dat.leavesExact; rw [live5_1]
theorem leaves5_2 (c : Dev nD) (t : Fin cfg5.N) :
    (dat5 V c).leavesExact 2 t = owns (c : Thread nD τ) (ms5_2 t) fullShare ((dat5 V c).after 2 t) := by
  unfold Dat.leavesExact; rw [live5_2]
theorem leaves5_3 (c : Dev nD) (t : Fin cfg5.N) :
    (dat5 V c).leavesExact 3 t = owns (c : Thread nD τ) (ms5_3 t) fullShare ((dat5 V c).after 3 t) := by
  unfold Dat.leavesExact; rw [live5_3]
theorem leaves5_4 (c : Dev nD) (t : Fin cfg5.N) :
    (dat5 V c).leavesExact 4 t = owns (c : Thread nD τ) (ms5_4 t) fullShare ((dat5 V c).after 4 t) := by
  unfold Dat.leavesExact; rw [live5_4]
theorem leaves5_5 (c : Dev nD) (t : Fin cfg5.N) :
    (dat5 V c).leavesExact 5 t = owns (c : Thread nD τ) (ms5_5 t) fullShare ((dat5 V c).after 5 t) := by
  unfold Dat.leavesExact; rw [live5_5]
theorem leaves5_6 (c : Dev nD) (t : Fin cfg5.N) :
    (dat5 V c).leavesExact 6 t = owns (c : Thread nD τ) (ms5_6 t) fullShare ((dat5 V c).after 6 t) := by
  unfold Dat.leavesExact; rw [live5_6]
theorem leaves5_7 (c : Dev nD) (t : Fin cfg5.N) :
    (dat5 V c).leavesExact 7 t = owns (c : Thread nD τ) (ms5_7 t) fullShare ((dat5 V c).after 7 t) := by
  unfold Dat.leavesExact; rw [live5_7]

/-! ## The body obligation -/

/-- What the body is called with at tile `t`: the invariant, what the core owes, the ten windows' current buffers. -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d))
    ∗ (∃ d, owns (c : Thread nD τ) (ms5_6 t) fullShare ((dat5 V c).before 6 t d))
    ∗ (∃ d, owns (c : Thread nD τ) (ms5_7 t) fullShare ((dat5 V c).before 7 t d))
    ∗ (∃ d, owns (c : Thread nD τ) (ms5_8 t) fullShare ((dat5 V c).before 8 t d))
    ∗ (∃ d, owns (c : Thread nD τ) (ms5_9 t) fullShare ((dat5 V c).before 9 t d)))

/-- What it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t
    ∗ (dat5 V c).leavesExact 6 t
    ∗ (dat5 V c).leavesExact 7 t
    ∗ (dat5 V c).leavesExact 8 t
    ∗ (dat5 V c).leavesExact 9 t)

set_option maxHeartbeats 4800000 in
/-- The body at any tile. The seven inputs' buffers hold their blocks; the tile's number says which of the three cases
    it is, and that case's run applies. The invariant hands the body the accumulators at what the tile before left
    (at anything, at the first tile) and takes them back at this tile's sums; the small outputs are handed back
    untouched except at the last tile, where they receive the accumulators' final contents. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).owesAt () t.succ = (dat5 V c).owesAt () t.castSucc from rfl]
  rw [show (dat5 V c).Φ t.succ = Phi5 V c (t.val + 1) t.isLt from rfl, Phi5_succ]
  rw [leaves5_0, leaves5_1, leaves5_2, leaves5_3, leaves5_4, leaves5_5, leaves5_6, leaves5_7]
  rw [after5_0, after5_1, after5_2, after5_3, after5_4, after5_5, after5_6, after5_7]
  rw [Phi5_castSucc]
  have hN : t.val < 10 := lt_of_lt_of_eq t.isLt (show cfg5.N = 10 from N_5)
  by_cases h0 : t.val % 10 = 0
  · -- the first tile
    have h1 : ¬t.val % 10 = 9 := by omega
    have hz : t.val = 0 := by omega
    rw [Dat.leavesExact_idle (dat5 V c) 8 t (idle5_8 t (fun h => h1 ((hcond5_1 t).mp h))) (noFlush5_8 t (fun h => h1 ((hcond5_1 t).mp h)))]
    rw [Dat.leavesExact_idle (dat5 V c) 9 t (idle5_9 t (fun h => h1 ((hcond5_1 t).mp h))) (noFlush5_9 t (fun h => h1 ((hcond5_1 t).mp h)))]
    rw [outsAt5_first V c t h0 h1]
    unfold pt5_A; dsimp only
    unfold out5_A_7 sout5_A_0 sout5_A_1
    rw [Phi5_zero V c _ _ hz, PhiA5_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun5_A c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t)).2.2.2
      ((dat5 V c).before 8 t d8) ((dat5 V c).before 9 t d9) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [HS0]; · iexact HS0
    isplitl [HS1]; · iexact HS1
    iintro ⟨H0, H1, H2, H3, H4, H5, H6, H7, H8, H9, HS0, HS1⟩
    isplitl [HS0 HS1 Hrest Hg]
    · isplitr [Hg]
      · isplitl [HS0]
        · iapply (owns_of_cover5 (F := F) c scM5_0 VS5_0 _ (scover5_A_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t))); iexact HS0
        isplitl [HS1]
        · iapply (owns_of_cover5 (F := F) c scM5_1 VS5_1 _ (scover5_A_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t))); iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iapply (owns_of_cover5 (F := F) c (ms5_7 t) VO5_7 _ (cover5_A_7 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t))); iexact H7
    isplitl [H8]; · iexists _; iexact H8
    iexists _; iexact H9
  · by_cases h1 : t.val % 10 = 9
    · -- the last tile
      have hz : t.val ≠ 0 := by omega
      rw [show (dat5 V c).leavesExact 8 t = owns (c : Thread nD τ) (ms5_8 t) fullShare ((dat5 V c).after 8 t) from by
        unfold Dat.leavesExact; rw [liveLast5_8 t ((hcond5_1 t).mpr h1)], after5_8]
      rw [show (dat5 V c).leavesExact 9 t = owns (c : Thread nD τ) (ms5_9 t) fullShare ((dat5 V c).after 9 t) from by
        unfold Dat.leavesExact; rw [liveLast5_9 t ((hcond5_1 t).mpr h1)], after5_9]
      rw [outsAt5_last V c t h0 h1]
      unfold pt5_C; dsimp only
      unfold out5_C_7 out5_C_8 out5_C_9 sout5_C_0 sout5_C_1
      rw [Phi5_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun5_C c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (outsAt5 V c (t.val - 1) (pred_lt5 t)).2.2.2.1 (outsAt5 V c (t.val - 1) (pred_lt5 t)).2.2.2.2).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 Hrest Hg]
      · isplitr [Hg]
        · isplitl [HS0]
          · iapply (owns_of_cover5 (F := F) c scM5_0 VS5_0 _ (scover5_C_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (outsAt5 V c (t.val - 1) (pred_lt5 t)).2.2.2.1 (outsAt5 V c (t.val - 1) (pred_lt5 t)).2.2.2.2)); iexact HS0
          isplitl [HS1]
          · iapply (owns_of_cover5 (F := F) c scM5_1 VS5_1 _ (scover5_C_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (outsAt5 V c (t.val - 1) (pred_lt5 t)).2.2.2.1 (outsAt5 V c (t.val - 1) (pred_lt5 t)).2.2.2.2)); iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · iapply (owns_of_cover5 (F := F) c (ms5_7 t) VO5_7 _ (cover5_C_7 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (outsAt5 V c (t.val - 1) (pred_lt5 t)).2.2.2.1 (outsAt5 V c (t.val - 1) (pred_lt5 t)).2.2.2.2)); iexact H7
      isplitl [H8]
      · iapply (owns_of_cover5 (F := F) c (ms5_8 t) VO5_8 _ (cover5_C_8 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (outsAt5 V c (t.val - 1) (pred_lt5 t)).2.2.2.1 (outsAt5 V c (t.val - 1) (pred_lt5 t)).2.2.2.2)); iexact H8
      iapply (owns_of_cover5 (F := F) c (ms5_9 t) VO5_9 _ (cover5_C_9 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (outsAt5 V c (t.val - 1) (pred_lt5 t)).2.2.2.1 (outsAt5 V c (t.val - 1) (pred_lt5 t)).2.2.2.2)); iexact H9
    · -- a middle tile
      have hz : t.val ≠ 0 := by omega
      rw [Dat.leavesExact_idle (dat5 V c) 8 t (idle5_8 t (fun h => h1 ((hcond5_1 t).mp h))) (noFlush5_8 t (fun h => h1 ((hcond5_1 t).mp h)))]
      rw [Dat.leavesExact_idle (dat5 V c) 9 t (idle5_9 t (fun h => h1 ((hcond5_1 t).mp h))) (noFlush5_9 t (fun h => h1 ((hcond5_1 t).mp h)))]
      rw [outsAt5_mid V c t h0 h1]
      unfold pt5_B; dsimp only
      unfold out5_B_7 sout5_B_0 sout5_B_1
      rw [Phi5_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun5_B c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) (outsAt5 V c (t.val - 1) (pred_lt5 t)).2.2.2.1 (outsAt5 V c (t.val - 1) (pred_lt5 t)).2.2.2.2).2.2.2
        ((dat5 V c).before 8 t d8) ((dat5 V c).before 9 t d9) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexact HS0
      isplitl [HS1]; · iexact HS1
      iintro ⟨H0, H1, H2, H3, H4, H5, H6, H7, H8, H9, HS0, HS1⟩
      isplitl [HS0 HS1 Hrest Hg]
      · isplitr [Hg]
        · isplitl [HS0]
          · iapply (owns_of_cover5 (F := F) c scM5_0 VS5_0 _ (scover5_B_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) (outsAt5 V c (t.val - 1) (pred_lt5 t)).2.2.2.1 (outsAt5 V c (t.val - 1) (pred_lt5 t)).2.2.2.2)); iexact HS0
          isplitl [HS1]
          · iapply (owns_of_cover5 (F := F) c scM5_1 VS5_1 _ (scover5_B_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) (outsAt5 V c (t.val - 1) (pred_lt5 t)).2.2.2.1 (outsAt5 V c (t.val - 1) (pred_lt5 t)).2.2.2.2)); iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · iapply (owns_of_cover5 (F := F) c (ms5_7 t) VO5_7 _ (cover5_B_7 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) (outsAt5 V c (t.val - 1) (pred_lt5 t)).2.2.2.1 (outsAt5 V c (t.val - 1) (pred_lt5 t)).2.2.2.2)); iexact H7
      isplitl [H8]; · iexists _; iexact H8
      iexists _; iexact H9

/-- The library's body obligation, at every tile. -/
theorem body_obligation5 (c : Dev nD) : BodyObligation (dat5 (F := F) V c) (defs₀ (F := F)) Variants.none () Set.univ := fun t => by
  rw [bigSep_W5, bigSep_W5]
  exact sound_body5 V c t

/-! ## The two ends of the invariant -/

/-- What the launch hands the region is the invariant before the first tile. -/
theorem Phi_in5 (c : Dev nD) : (Pipeline.ΦA (U := UR sig nD τ) (Val := Elt F) spec5 c : sProp 𝕄) ⊢ (dat5 V c).Φ 0 := by
  rw [show (dat5 V c).Φ 0 = Phi5 V c 0 (Nat.zero_le _) from rfl, Phi5_zero V c 0 _ rfl]

/-- After the last tile the invariant gives it back: the accumulators' named contents are forgotten. -/
theorem Phi_out5 (c : Dev nD) : (dat5 V c).Φ (Fin.last cfg5.N) ⊢ (Pipeline.ΦA (U := UR sig nD τ) (Val := Elt F) spec5 c : sProp 𝕄) := by
  have hne : (Fin.last cfg5.N).val ≠ 0 := by rw [Fin.val_last]; have : cfg5.N = 10 := N_5; omega
  rw [show (dat5 V c).Φ (Fin.last cfg5.N) = Phi5 V c (Fin.last cfg5.N).val (Nat.le_of_lt_succ (Fin.last cfg5.N).isLt) from rfl,
    Phi5_pos V c _ _ hne, PhiA5_eq]
  iintro ⟨⟨HS0, HS1, Hrest⟩, Hg⟩
  isplitl [HS0 HS1 Hrest]
  · isplitl [HS0 HS1]
    · isplitl [HS0]
      · iexists _; iexact HS0
      iexists _; iexact HS1
    iexact Hrest
  iexact Hg

end Cert.Kernel.Hand

end
-- ==== Proof.KB.Reg6.lean ====
import proofs.«160050_j32744830665390_2_alg».proof.Proof.KB.Iface
import proofs.«160050_j32744830665390_2_alg».proof.Proof.KB.Reg2
import Idealize.ShloMosaic.Lib.ValueLayout

/-! # Region 6: normalise a row tile by the layer statistics, scale, shift, clamp at zero

The region walks the node axis in ten row tiles of 5000 rows. At each tile it is handed the tile of the
pre-normalisation activations and the four per-feature rows (mean, variance, scale, shift), and stores into the
output tile `max ((x - mean) * rsqrt (variance + ε) * scale + shift, 0)`, feature by feature. The four rows are
staged once, at the first tile, and found again unchanged at the later ones; the activations' tile is staged anew
at every tile; the output tile is written back at every tile.

First the frame half at a parameter `V` (the core's buffer contents when the region is entered): the blocks, what
the body leaves, the body's triple, the proof data and the body obligation. Then the value half: the output array
after the ten write-backs as one function of the five input arrays, row by row and feature by feature. -/

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6

variable (V : Entry F)

/-! ## The blocks the pipeline stages -/

/-- The block of window `w` at tile `t`: the window's rectangle at that tile, read off the window's array as the
    region finds it. For the activations and the output this is rows `5000 t … 5000 t + 4999`; for the four
    statistics rows it is the whole row at every tile. -/
def iblk6 (c : Dev nD) (w : Fin cfg6.W) (t : Fin cfg6.N) :
    ((cfg6.win w).xblock (cfg6.grid.coords t)).Idx → Elt F (cfg6.win w).elt :=
  ((cfg6.win w).blk t).view.read (Elt F) (V c (Pipeline.arrRef spec6 w))

/-! ## Each input window holds its block whenever the body is called

An input window of region 6 holds its block at every tile, staged at this tile or at an earlier one: a window not
staged anew has not moved (the statistics rows' block index is constant), so what an earlier tile left there, the
body having left it alone, is this tile's block. Stated for any proof data over `V`'s arrays whose body leaves the
window's block in place. -/

/-- The activations' tile, staged anew at every tile. -/
theorem held6_0_of {c : Dev nD} (dat : Dat τ (Elt F) Unit ℕ (UR sig nD τ) ℕ cfg6 c)
    (hA : dat.A 0 = V c (Pipeline.arrRef spec6 0)) (hafter : ∀ t, dat.after 0 t = iblk6 V c 0 t)
    (t : Fin cfg6.N) (d) : dat.before 0 t d = iblk6 V c 0 t := by
  refine (dat.before_in_eq_fetched 0 rfl (fun _ => rfl) (fun _ _ _ => rfl) (fun u => ?_) t d).trans ?_
  · rw [hafter]; unfold Dat.blockOf iblk6; rw [hA]; try rfl
  · unfold Dat.fetched Dat.blockOf iblk6; rw [hA]; try rfl

/-- The mean row, staged at the first tile only. -/
theorem held6_1_of {c : Dev nD} (dat : Dat τ (Elt F) Unit ℕ (UR sig nD τ) ℕ cfg6 c)
    (hA : dat.A 1 = V c (Pipeline.arrRef spec6 1)) (hafter : ∀ t, dat.after 1 t = iblk6 V c 1 t)
    (t : Fin cfg6.N) (d) : dat.before 1 t d = iblk6 V c 1 t := by
  refine (dat.before_in_eq_fetched 1 rfl (fun _ => rfl) (fun _ _ _ => rfl) (fun u => ?_) t d).trans ?_
  · rw [hafter]; unfold Dat.blockOf iblk6; rw [hA]; try rfl
  · unfold Dat.fetched Dat.blockOf iblk6; rw [hA]; try rfl

/-- The variance row, staged at the first tile only. -/
theorem held6_2_of {c : Dev nD} (dat : Dat τ (Elt F) Unit ℕ (UR sig nD τ) ℕ cfg6 c)
    (hA : dat.A 2 = V c (Pipeline.arrRef spec6 2)) (hafter : ∀ t, dat.after 2 t = iblk6 V c 2 t)
    (t : Fin cfg6.N) (d) : dat.before 2 t d = iblk6 V c 2 t := by
  refine (dat.before_in_eq_fetched 2 rfl (fun _ => rfl) (fun _ _ _ => rfl) (fun u => ?_) t d).trans ?_
  · rw [hafter]; unfold Dat.blockOf iblk6; rw [hA]; try rfl
  · unfold Dat.fetched Dat.blockOf iblk6; rw [hA]; try rfl

/-- The scale row, staged at the first tile only. -/
theorem held6_3_of {c : Dev nD} (dat : Dat τ (Elt F) Unit ℕ (UR sig nD τ) ℕ cfg6 c)
    (hA : dat.A 3 = V c (Pipeline.arrRef spec6 3)) (hafter : ∀ t, dat.after 3 t = iblk6 V c 3 t)
    (t : Fin cfg6.N) (d) : dat.before 3 t d = iblk6 V c 3 t := by
  refine (dat.before_in_eq_fetched 3 rfl (fun _ => rfl) (fun _ _ _ => rfl) (fun u => ?_) t d).trans ?_
  · rw [hafter]; unfold Dat.blockOf iblk6; rw [hA]; try rfl
  · unfold Dat.fetched Dat.blockOf iblk6; rw [hA]; try rfl

/-- The shift row, staged at the first tile only. -/
theorem held6_4_of {c : Dev nD} (dat : Dat τ (Elt F) Unit ℕ (UR sig nD τ) ℕ cfg6 c)
    (hA : dat.A 4 = V c (Pipeline.arrRef spec6 4)) (hafter : ∀ t, dat.after 4 t = iblk6 V c 4 t)
    (t : Fin cfg6.N) (d) : dat.before 4 t d = iblk6 V c 4 t := by
  refine (dat.before_in_eq_fetched 4 rfl (fun _ => rfl) (fun _ _ _ => rfl) (fun u => ?_) t d).trans ?_
  · rw [hafter]; unfold Dat.blockOf iblk6; rw [hA]; try rfl
  · unfold Dat.fetched Dat.blockOf iblk6; rw [hA]; try rfl

/-! ## The body's accesses and what it leaves in the output tile -/

/-- The whole 5000 × 128 tile: the one rectangle through which the body loads the activations and stores the
    result. -/
abbrev tile6 : Rect S5000x128 := Rect.unit (s := S5000x128) ![0, 0] S5000x128.size inb_S5000x128_S5000x128_0_0

/-- The whole 1 × 128 row: the rectangle through which the body loads each of the four statistics rows. -/
abbrev row6 : Rect S1x128 := Rect.unit (s := S1x128) ![0, 0] S1x128.size inb_S1x128_S1x128_0_0

/-- The output tile after the body, from the five input blocks: the body's single store, through the whole-tile
    rectangle, of the normalised, scaled, shifted and clamped activations (the skeleton's payload of the five
    loads). -/
def out6_5 (x : Vec F S5000x128 .f32) (mean var scale shift : Vec F S1x128 .f32) : Vec F S5000x128 .f32 :=
  View.canon [⟨tile6, k6_pay1 (View.ld x tile6) (View.ld mean row6) (View.ld var row6) (View.ld scale row6)
    (View.ld shift row6)⟩]

/-- That one store reaches every element of the tile. -/
theorem cover6_5 (p : Vec F S5000x128 .f32) (y : S5000x128.Idx) :
    ∃ pc ∈ ([⟨tile6, p⟩] : List (View.Piece (Elt F) S5000x128 .f32)), y ∈ pc.1.set :=
  View.cover_of_tiled [⟨tile6, p⟩] S5000x128.size (by rfl) y

/-! ## The body's triple -/

set_option maxHeartbeats 1000000 in
/-- The body on six whole staging memrefs — the five inputs at contents `x`, `mean`, `var`, `scale`, `shift`, the
    output at anything — runs to a state where the inputs are as they were and the output holds `out6_5` of them.
    (The body also loads the output tile before storing into it; the loaded value is not used.) -/
theorem sound_kernel6 (c : Dev nD) (E : Set ℕ) (i : grid6.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x : Vec F S5000x128 .f32) (mean var scale shift : Vec F S1x128 .f32) (K : PUnit → sProp 𝕄) :
    iprop(owns (c : Thread nD τ) arg1 fullShare x ∗ owns (c : Thread nD τ) arg2 fullShare mean
        ∗ owns (c : Thread nD τ) arg3 fullShare var ∗ owns (c : Thread nD τ) arg4 fullShare scale
        ∗ owns (c : Thread nD τ) arg5 fullShare shift ∗ (∃ d, owns (c : Thread nD τ) arg6 fullShare d)
        ∗ (iprop(owns (c : Thread nD τ) arg1 fullShare x ∗ owns (c : Thread nD τ) arg2 fullShare mean
            ∗ owns (c : Thread nD τ) arg3 fullShare var ∗ owns (c : Thread nD τ) arg4 fullShare scale
            ∗ owns (c : Thread nD τ) arg5 fullShare shift
            ∗ owns (c : Thread nD τ) arg6 fullShare (out6_5 x mean var scale shift)) -∗ K ⟨⟩))
      ⊢ wp frame (wpE (defs₀ (F := F)) Variants.none c none) E
          (cc6_bn_relu_kernel i arg1 harg1 arg2 harg2 arg3 harg3 arg4 harg4 arg5 harg5 arg6 harg6) K := by
  simp only [cc6_bn_relu_kernel_eq_skeleton]; unfold cc6_bn_relu_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6_5 _)

/-! ## The proof data -/

/-- Region 6's proof data on core `c`: the six arrays as the region finds them; after the body at tile `t` each
    input's buffer still at its block and the output's at `out6_5` of the five input blocks; the invariant is the
    untouched rest of the core (scoped buffers, generator register); nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- Its arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t
    = out6_5 (iblk6 V c 0 t) (iblk6 V c 1 t) (iblk6 V c 2 t) (iblk6 V c 3 t) (iblk6 V c 4 t) := by
  dsimp only [dat6]

/-- Each input's current buffer holds its block at every tile. -/
theorem before6_0 (c : Dev nD) (t : Fin cfg6.N) (d) : (dat6 V c).before 0 t d = iblk6 V c 0 t :=
  held6_0_of V (dat6 V c) (A_eq6 V c 0) (after6_0 V c) t d
theorem before6_1 (c : Dev nD) (t : Fin cfg6.N) (d) : (dat6 V c).before 1 t d = iblk6 V c 1 t :=
  held6_1_of V (dat6 V c) (A_eq6 V c 1) (after6_1 V c) t d
theorem before6_2 (c : Dev nD) (t : Fin cfg6.N) (d) : (dat6 V c).before 2 t d = iblk6 V c 2 t :=
  held6_2_of V (dat6 V c) (A_eq6 V c 2) (after6_2 V c) t d
theorem before6_3 (c : Dev nD) (t : Fin cfg6.N) (d) : (dat6 V c).before 3 t d = iblk6 V c 3 t :=
  held6_3_of V (dat6 V c) (A_eq6 V c 3) (after6_3 V c) t d
theorem before6_4 (c : Dev nD) (t : Fin cfg6.N) (d) : (dat6 V c).before 4 t d = iblk6 V c 4 t :=
  held6_4_of V (dat6 V c) (A_eq6 V c 4) (after6_4 V c) t d

/-- Full shares of every array. -/
theorem q_eq6 (c : Dev nD) (w : Fin cfg6.W) : (dat6 V c).q w = fullShare := by dsimp only [dat6]

/-- The core owes nothing at any tile. -/
theorem owed_eq6 (c : Dev nD) (t : Fin (cfg6.N + 1)) : (dat6 V c).owed t = 0 := by dsimp only [dat6]

/-- The invariant is the untouched rest of the core at every tile: what the region is entered with is the invariant
    before the first tile, -/
theorem Phi_in6 (c : Dev nD) :
    (Pipeline.ΦA (U := UR sig nD τ) (Val := Elt F) spec6 c : sProp 𝕄) ⊢ (dat6 V c).Φ 0 := .rfl

/-- and the invariant after the last tile is what the region gives back. -/
theorem Phi_out6 (c : Dev nD) :
    (dat6 V c).Φ (Fin.last cfg6.N) ⊢ (Pipeline.ΦA (U := UR sig nD τ) (Val := Elt F) spec6 c : sProp 𝕄) := .rfl

/-! ## The body obligation -/

/-- What the body is called with at tile `t`: the invariant, the core's dues, and the six current staging buffers,
    each at what the pipeline put or left there. -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- What it hands back. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any tile: the five inputs hold their blocks, so the body's triple applies; the invariant and the
    dues pass through untouched. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t)
    (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for region 6, at every tile. -/
theorem body_obligation6 (c : Dev nD) :
    BodyObligation (dat6 (F := F) V c) (defs₀ (F := F)) Variants.none () Set.univ := fun t => by
  rw [bigSep_W6, bigSep_W6]
  exact sound_body6 V c t

/-! # The value half: the output array after the region -/

open Idealize.ShloMosaic.ValueIdx

/-! ## The output array as one function of the input arrays -/

/-- What the output array holds after the region: every activation through `bnRelu246` with its own feature's
    mean, variance, scale and shift. -/
def G6_5 (a : S50000x128.Idx → Elt F .f32) (mean var scale shift : S1x128.Idx → Elt F .f32) :
    S50000x128.Idx → Elt F .f32 :=
  fun i => bnRelu246 (a i) (mean (featOf246 i)) (var (featOf246 i)) (scale (featOf246 i)) (shift (featOf246 i))

/-- The body's payload at row `p`, feature `q` of the tile: the layout casts are identities, each broadcast of a
    statistics row reads the row at `q`, and the arithmetic is pointwise. -/
theorem pay6_at (x : Vec F S5000x128 .f32) (mean var scale shift : Vec F S1x128 .f32) (p : Fin 5000) (q : Fin 128) :
    k6_pay1 x mean var scale shift (ix2 p q)
      = bnRelu246 (x (ix2 p q)) (mean (ix2 (0 : Fin 1) q)) (var (ix2 (0 : Fin 1) q)) (scale (ix2 (0 : Fin 1) q))
          (shift (ix2 (0 : Fin 1) q)) := by
  unfold k6_pay1 bnRelu246
  simp only [shapeCast_self]
  show FloatOps.maximumf
      (FloatOps.addf
        (FloatOps.mulf
          (FloatOps.mulf
            (FloatOps.subf (x (ix2 p q)) (broadcastTo S5000x128 mean broadcasts_S1x128_S5000x128 (ix2 p q)))
            (broadcastTo S5000x128 (rsqrt (addf var (broadcast S1x128 (Scalar.ofBits .f32 0x3727C5AC#32))))
              broadcasts_S1x128_S5000x128 (ix2 p q)))
          (broadcastTo S5000x128 scale broadcasts_S1x128_S5000x128 (ix2 p q)))
        (broadcastTo S5000x128 shift broadcasts_S1x128_S5000x128 (ix2 p q)))
      (Scalar.ofBits .f32 0x00000000#32) = _
  rw [broadcastTo_1b_ab_apply mean, broadcastTo_1b_ab_apply scale, broadcastTo_1b_ab_apply shift,
    broadcastTo_1b_ab_apply (rsqrt (addf var (broadcast S1x128 (Scalar.ofBits .f32 0x3727C5AC#32))))]
  rfl

/-- The printed index maps over the ten tiles: the activations' block moves with the output's along the rows, no
    block moves along the features, and the statistics rows' blocks never move. -/
theorem idx_facts6 : ∀ t : Fin cfg6.N,
    win6_0.index t (0 : Fin 2) = win6_5.index t (0 : Fin 2) ∧ win6_0.index t (1 : Fin 2) = 0
    ∧ win6_5.index t (0 : Fin 2) = t.val ∧ win6_5.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0 :=
  (by decide +kernel : ∀ t : Fin grid6.N, _)

/-- Every row tile is some point's output block. -/
theorem idx_onto6 : ∀ r : Fin 10, ∃ t : Fin cfg6.N, win6_5.index t = ![r.val, 0] :=
  (by decide +kernel : ∀ r : Fin 10, ∃ t : Fin grid6.N, win6_5.index t = ![r.val, 0])

/-- WHAT TILE `t` WRITES BACK is block `t` of `G6_5` of the five input arrays as the region finds them. -/
theorem flushed6_5_eq (c : Dev nD) (t : Fin cfg6.N) :
    (dat6 V c).flushed 5 t = ((cfg6.win 5).blk t).view.read (Elt F)
      (G6_5 (V c main_v181_0) (V c main_v194) (V c main_v195) (V c main_v196) (V c main_v197)) := by
  show (cfg6.win 5).cut (grid6.coords t) ((dat6 V c).after 5 t) = _
  rw [after6_5]
  unfold out6_5
  rw [View.canon_unit_zero zeroOff246]
  simp only [View.ld_unit_zero (S := S5000x128) zeroOff246, View.ld_unit_zero (S := S1x128) zeroOff246]
  obtain ⟨e0, e1, e2, e3, m0, m1, v0, v1, s0, s1, b0, b1⟩ := idx_facts6 t
  funext j
  obtain ⟨p, q, rfl⟩ : ∃ (p : Fin 5000) (q : Fin 128), j = ix2 p q := ⟨j 0, j 1, eq_ix2 j⟩
  show k6_pay1 (iblk6 V c 0 t) (iblk6 V c 1 t) (iblk6 V c 2 t) (iblk6 V c 3 t) (iblk6 V c 4 t) (ix2 p q)
    = G6_5 (V c main_v181_0) (V c main_v194) (V c main_v195) (V c main_v196) (V c main_v197)
        (((cfg6.win 5).blk t).view.emb (ix2 p q))
  rw [pay6_at]
  unfold G6_5
  have hx : iblk6 V c 0 t (ix2 p q) = V c main_v181_0 (((cfg6.win 5).blk t).view.emb (ix2 p q)) := by
    show V c main_v181_0 (((cfg6.win 0).blk t).view.emb (ix2 p q)) = _
    refine congrArg (V c main_v181_0) (funext fun a => Fin.ext ?_)
    match a with
    | ⟨0, _⟩ =>
      show win6_0.index t (0 : Fin 2) * 5000 + 1 * p.val = win6_5.index t (0 : Fin 2) * 5000 + 1 * p.val
      omega
    | ⟨1, _⟩ =>
      show win6_0.index t (1 : Fin 2) * 128 + 1 * q.val = win6_5.index t (1 : Fin 2) * 128 + 1 * q.val
      omega
  have hmean : iblk6 V c 1 t (ix2 (0 : Fin 1) q)
      = V c main_v194 (featOf246 (((cfg6.win 5).blk t).view.emb (ix2 p q))) := by
    show V c main_v194 (((cfg6.win 1).blk t).view.emb (ix2 (0 : Fin 1) q)) = _
    refine congrArg (V c main_v194) (funext fun a => Fin.ext ?_)
    match a with
    | ⟨0, _⟩ => show win6_1.index t (0 : Fin 2) * 1 + 1 * 0 = 0; omega
    | ⟨1, _⟩ =>
      show win6_1.index t (1 : Fin 2) * 128 + 1 * q.val = win6_5.index t (1 : Fin 2) * 128 + 1 * q.val
      omega
  have hvar : iblk6 V c 2 t (ix2 (0 : Fin 1) q)
      = V c main_v195 (featOf246 (((cfg6.win 5).blk t).view.emb (ix2 p q))) := by
    show V c main_v195 (((cfg6.win 2).blk t).view.emb (ix2 (0 : Fin 1) q)) = _
    refine congrArg (V c main_v195) (funext fun a => Fin.ext ?_)
    match a with
    | ⟨0, _⟩ => show win6_2.index t (0 : Fin 2) * 1 + 1 * 0 = 0; omega
    | ⟨1, _⟩ =>
      show win6_2.index t (1 : Fin 2) * 128 + 1 * q.val = win6_5.index t (1 : Fin 2) * 128 + 1 * q.val
      omega
  have hscale : iblk6 V c 3 t (ix2 (0 : Fin 1) q)
      = V c main_v196 (featOf246 (((cfg6.win 5).blk t).view.emb (ix2 p q))) := by
    show V c main_v196 (((cfg6.win 3).blk t).view.emb (ix2 (0 : Fin 1) q)) = _
    refine congrArg (V c main_v196) (funext fun a => Fin.ext ?_)
    match a with
    | ⟨0, _⟩ => show win6_3.index t (0 : Fin 2) * 1 + 1 * 0 = 0; omega
    | ⟨1, _⟩ =>
      show win6_3.index t (1 : Fin 2) * 128 + 1 * q.val = win6_5.index t (1 : Fin 2) * 128 + 1 * q.val
      omega
  have hshift : iblk6 V c 4 t (ix2 (0 : Fin 1) q)
      = V c main_v197 (featOf246 (((cfg6.win 5).blk t).view.emb (ix2 p q))) := by
    show V c main_v197 (((cfg6.win 4).blk t).view.emb (ix2 (0 : Fin 1) q)) = _
    refine congrArg (V c main_v197) (funext fun a => Fin.ext ?_)
    match a with
    | ⟨0, _⟩ => show win6_4.index t (0 : Fin 2) * 1 + 1 * 0 = 0; omega
    | ⟨1, _⟩ =>
      show win6_4.index t (1 : Fin 2) * 128 + 1 * q.val = win6_5.index t (1 : Fin 2) * 128 + 1 * q.val
      omega
  rw [hx, hmean, hvar, hscale, hshift]

/-- An index of the output array lies in tile `t`'s block iff each coordinate lies in the block's range on its
    axis. -/
theorem mem_blk6_5 (t : Fin cfg6.N) (i : S50000x128.Idx) :
    i ∈ ((cfg6.win 5).blk t).view.set ↔ ∀ a : Fin 2, win6_5.index t a * S5000x128.size a ≤ (i a).val
      ∧ (i a).val < win6_5.index t a * S5000x128.size a + S5000x128.size a := by
  show i ∈ ((View.whole main_v198).slice (win6_5.rect t)).set ↔ _
  rw [View.set_slice_whole, Rect.mem_set_unit]
  exact Iff.rfl

/-- The ten row tiles cover the output array: row `r` lies in tile `r / 5000`, which is written back. -/
theorem covered6_5 (i : S50000x128.Idx) :
    ∃ t : Fin cfg6.N, (cfg6.win 5).flush t = true ∧ i ∈ ((cfg6.win 5).blk t).view.set := by
  have hi0 : (i 0).val < 50000 := idx2_lt0 i
  have hi1 : (i 1).val < 128 := idx2_lt1 i
  obtain ⟨t, ht⟩ := idx_onto6 ⟨(i 0).val / 5000, by omega⟩
  have q0 : win6_5.index t (0 : Fin 2) = (i 0).val / 5000 := congrFun ht 0
  have q1 : win6_5.index t (1 : Fin 2) = 0 := congrFun ht 1
  refine ⟨t, flush6_5 t, ?_⟩
  rw [mem_blk6_5]
  intro a
  match a with
  | ⟨0, _⟩ =>
    show win6_5.index t (0 : Fin 2) * 5000 ≤ (i 0).val ∧ (i 0).val < win6_5.index t (0 : Fin 2) * 5000 + 5000
    omega
  | ⟨1, _⟩ =>
    show win6_5.index t (1 : Fin 2) * 128 ≤ (i 1).val ∧ (i 1).val < win6_5.index t (1 : Fin 2) * 128 + 128
    omega

/-- THE OUTPUT ARRAY after the region: `G6_5` of the five input arrays as the region finds them, everywhere. -/
theorem final6_5 (c : Dev nD) : (dat6 V c).arrAt 5 cfg6.N
    = G6_5 (V c main_v181_0) (V c main_v194) (V c main_v195) (V c main_v196) (V c main_v197) :=
  (dat6 V c).arrAt_eq_of_cover 5 _ (fun t _ => flushed6_5_eq V c t) covered6_5

end Region6

end Cert.Kernel.Hand

end
-- ==== Proof.KB.Reg7.Runs.lean ====
/-
  Region 7 (custom call 7, the node-wise Dirichlet term of one hidden state): the kernel body run once per
  control case.

  The body has two conditionals on the grid coordinate. At the first row tile it clears the one-cell accumulator;
  at every tile it adds the tile's partial sum  Σ_r (w r · Σ_k h r k · h r k − 2 · Σ_k h r k · s r k)  to the
  accumulator; at the last row tile it copies the accumulator to the one-cell output block. With ten tiles the
  two conditions never hold together, so there are three cases: first tile, a middle tile, last tile.

  For each case the body is run symbolically on arbitrary whole memrefs and the list of stores each written
  buffer ends with is recorded (last store first); the lists are found by the run itself.
-/
import proofs.«160050_j32744830665390_2_alg».proof.Proof.KB.Iface

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, and where on the grid they hold -/

/-- "This is the first row tile": the printed comparison chain of the first conditional. -/
abbrev isFirst7 (i : grid7.Coords) : Prop :=
  (Scalar.cmpi .ne (Scalar.extui (Scalar.cmpi .eq (BitVec.ofNat 32 (i 0).val) 0#32)) 0#32) = 1#1

/-- "This is the last row tile": the printed condition of the second conditional. -/
abbrev isLast7 (i : grid7.Coords) : Prop := k7_cond2 i = 1#1

/-- The first condition holds at point 0 and nowhere else. -/
theorem isFirst7_iff : ∀ t : Fin cfg7.N, isFirst7 (grid7.coords t) ↔ t.val = 0 :=
  (by decide +kernel : ∀ t : Fin grid7.N, isFirst7 (grid7.coords t) ↔ t.val = 0)

/-- The second condition holds at point 9 and nowhere else. -/
theorem isLast7_iff : ∀ t : Fin cfg7.N, isLast7 (grid7.coords t) ↔ t.val = 9 :=
  (by decide +kernel : ∀ t : Fin grid7.N, isLast7 (grid7.coords t) ↔ t.val = 9)

/-- The three input windows are never idle. -/
theorem live7_0 : ∀ t : Fin cfg7.N, cfg7.idle 0 (grid7.coords t) = false := by decide +kernel
theorem live7_1 : ∀ t : Fin cfg7.N, cfg7.idle 1 (grid7.coords t) = false := by decide +kernel
theorem live7_2 : ∀ t : Fin cfg7.N, cfg7.idle 2 (grid7.coords t) = false := by decide +kernel
/-- The output window is idle, and not written back, at every point but the last; there it is live. -/
theorem idle7_3 : ∀ t : Fin cfg7.N, t.val ≠ 9 → cfg7.idle 3 (grid7.coords t) = true := by decide +kernel
theorem keep7_3 : ∀ t : Fin cfg7.N, t.val ≠ 9 → (cfg7.win 3).flush t = false := by decide +kernel
theorem live7_3 : ∀ t : Fin cfg7.N, t.val = 9 → cfg7.idle 3 (grid7.coords t) = false := by decide +kernel

/-! ## The memrefs the pipeline passes the body at a point -/

abbrev ms7_0 (t : Fin cfg7.N) : Memref sig .tc .vmem S5000x128 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S5000x128 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S5000x1 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x1 .f32 := win7_3.stage (cfg7.slots t 3)
abbrev hs7_3 (t : Fin cfg7.N) : (ms7_3 t).IsWhole := hstage7_3 ((cfg7.slots t 3).cast nbuf7_3)
/-- The accumulator: a whole scoped buffer of the kernel's own. -/
abbrev acM7 : Memref sig .tc .vmem S1x1 .f32 := Memref.whole cc7_scratch0
/-- The views through which the accumulator's and the output block's contents are stated. -/
abbrev acV7 : View sig .tc .vmem S1x1 .f32 := acM7.view
abbrev outV7 : View sig .tc .vmem S1x1 .f32 := (Memref.whole cc7_stg3_0 : Memref sig .tc .vmem S1x1 .f32).view

/-! ## The three runs -/

set_option maxHeartbeats 1000000 in
/-- FIRST TILE. The accumulator may hold anything; the output block `xo` is not touched. The accumulator ends with
    the stores `LA`: the clearing store, then the store of  0 + (the tile's partial sum). -/
def run7_first (c : Dev nD) (i : grid7.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : isFirst7 i) (hlast : ¬isLast7 i)
    (h : Vec F S5000x128 .f32) (s : Vec F S5000x128 .f32) (w : Vec F S5000x1 .f32) :
    { LA : List (View.Piece (Elt F) S1x1 .f32) //
      ∀ (xo : Vec F S1x1 .f32) (E : Set ℕ) (K : PUnit → sProp 𝕄),
        iprop(owns (c : Thread nD τ) arg1 fullShare h ∗ owns (c : Thread nD τ) arg2 fullShare s ∗ owns (c : Thread nD τ) arg3 fullShare w
            ∗ owns (c : Thread nD τ) arg4 fullShare xo ∗ (∃ d, owns (c : Thread nD τ) arg5 fullShare d)
            ∗ (iprop(owns (c : Thread nD τ) arg1 fullShare h ∗ owns (c : Thread nD τ) arg2 fullShare s ∗ owns (c : Thread nD τ) arg3 fullShare w
                ∗ owns (c : Thread nD τ) arg4 fullShare xo
                ∗ (∃ f, arg5.view.loc (c : Thread nD τ) ↦[arg5.view.set]{fullShare} arg5.view.writes (Elt F) f LA)) -∗ K ⟨⟩))
          ⊢ wp frame (wpE (defs₀ (F := F)) Variants.none c none) E (cc7_node_reg_kernel i arg1 harg1 arg2 harg2 arg3 harg3 arg4 harg4 arg5 harg5) K } := by
  refine ⟨?_, fun xo E K => ?run⟩
  case run =>
    simp only [cc7_node_reg_kernel_eq_skeleton]; unfold cc7_node_reg_kernel_skel
    unfold owns
    iintro ⟨⟨%f1, %hf1, H1⟩, ⟨%f2, %hf2, H2⟩, ⟨%f3, %hf3, H3⟩, ⟨%f4, %hf4, H4⟩, ⟨%da, %fa, -, HA⟩, Hk⟩
    obtain rfl := harg1.eq_unread hf1; obtain rfl := harg2.eq_unread hf2
    obtain rfl := harg3.eq_unread hf3; obtain rfl := harg4.eq_unread hf4
    sl_exec (disch := first | exact hfirst | exact hlast)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact HA

set_option maxHeartbeats 1000000 in
/-- A MIDDLE TILE. The accumulator holds `a`, what the tile before left; the output block `xo` is not touched. The
    accumulator ends with the one store of  a + (the tile's partial sum). -/
def run7_mid (c : Dev nD) (i : grid7.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst7 i) (hlast : ¬isLast7 i)
    (h : Vec F S5000x128 .f32) (s : Vec F S5000x128 .f32) (w : Vec F S5000x1 .f32) (a : Vec F S1x1 .f32) :
    { LA : List (View.Piece (Elt F) S1x1 .f32) //
      ∀ (xo : Vec F S1x1 .f32) (E : Set ℕ) (K : PUnit → sProp 𝕄),
        iprop(owns (c : Thread nD τ) arg1 fullShare h ∗ owns (c : Thread nD τ) arg2 fullShare s ∗ owns (c : Thread nD τ) arg3 fullShare w
            ∗ owns (c : Thread nD τ) arg4 fullShare xo ∗ owns (c : Thread nD τ) arg5 fullShare a
            ∗ (iprop(owns (c : Thread nD τ) arg1 fullShare h ∗ owns (c : Thread nD τ) arg2 fullShare s ∗ owns (c : Thread nD τ) arg3 fullShare w
                ∗ owns (c : Thread nD τ) arg4 fullShare xo
                ∗ (∃ f, arg5.view.loc (c : Thread nD τ) ↦[arg5.view.set]{fullShare} arg5.view.writes (Elt F) f LA)) -∗ K ⟨⟩))
          ⊢ wp frame (wpE (defs₀ (F := F)) Variants.none c none) E (cc7_node_reg_kernel i arg1 harg1 arg2 harg2 arg3 harg3 arg4 harg4 arg5 harg5) K } := by
  refine ⟨?_, fun xo E K => ?run⟩
  case run =>
    simp only [cc7_node_reg_kernel_eq_skeleton]; unfold cc7_node_reg_kernel_skel
    unfold owns
    iintro ⟨⟨%f1, %hf1, H1⟩, ⟨%f2, %hf2, H2⟩, ⟨%f3, %hf3, H3⟩, ⟨%f4, %hf4, H4⟩, ⟨%fa, %hfa, HA⟩, Hk⟩
    obtain rfl := harg1.eq_unread hf1; obtain rfl := harg2.eq_unread hf2
    obtain rfl := harg3.eq_unread hf3; obtain rfl := harg4.eq_unread hf4
    obtain rfl := harg5.eq_unread hfa
    sl_exec (disch := first | exact hfirst | exact hlast)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact HA

set_option maxHeartbeats 1000000 in
/-- THE LAST TILE. The accumulator holds `a`; the output block may hold anything. The accumulator ends with the store
    `LA` of  a + (the tile's partial sum), the output block with the store `LO` of that same value read back. -/
def run7_last (c : Dev nD) (i : grid7.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst7 i) (hlast : isLast7 i)
    (h : Vec F S5000x128 .f32) (s : Vec F S5000x128 .f32) (w : Vec F S5000x1 .f32) (a : Vec F S1x1 .f32) :
    Σ' (LO : List (View.Piece (Elt F) S1x1 .f32)), { LA : List (View.Piece (Elt F) S1x1 .f32) //
      ∀ (E : Set ℕ) (K : PUnit → sProp 𝕄),
        iprop(owns (c : Thread nD τ) arg1 fullShare h ∗ owns (c : Thread nD τ) arg2 fullShare s ∗ owns (c : Thread nD τ) arg3 fullShare w
            ∗ (∃ d, owns (c : Thread nD τ) arg4 fullShare d) ∗ owns (c : Thread nD τ) arg5 fullShare a
            ∗ (iprop(owns (c : Thread nD τ) arg1 fullShare h ∗ owns (c : Thread nD τ) arg2 fullShare s ∗ owns (c : Thread nD τ) arg3 fullShare w
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LA)) -∗ K ⟨⟩))
          ⊢ wp frame (wpE (defs₀ (F := F)) Variants.none c none) E (cc7_node_reg_kernel i arg1 harg1 arg2 harg2 arg3 harg3 arg4 harg4 arg5 harg5) K } := by
  refine ⟨?_, ?_, fun E K => ?run⟩
  case run =>
    simp only [cc7_node_reg_kernel_eq_skeleton]; unfold cc7_node_reg_kernel_skel
    unfold owns
    iintro ⟨⟨%f1, %hf1, H1⟩, ⟨%f2, %hf2, H2⟩, ⟨%f3, %hf3, H3⟩, ⟨%d4, %f4, -, H4⟩, ⟨%fa, %hfa, HA⟩, Hk⟩
    obtain rfl := harg1.eq_unread hf1; obtain rfl := harg2.eq_unread hf2
    obtain rfl := harg3.eq_unread hf3; obtain rfl := harg5.eq_unread hfa
    sl_exec (disch := first | exact hfirst | exact hlast)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    iexists _; iexact HA

end Cert.Kernel.Hand

end
-- ==== Proof.KB.Reg7.Frame.lean ====
/-
  Region 7: what the accumulator and the output block hold after each row tile, the region's proof data at the
  entry contents `V`, its invariant, and the body obligation.

  The accumulator after tile 0 is what the first-tile run leaves; after tile n + 1 it is what the middle-tile run
  (the last-tile run at n + 1 = 9) leaves when started from the accumulator after tile n. The invariant before
  tile 0 is the class's: every scoped buffer that is no staging buffer at some contents, and the generator register.
  Before tile n + 1 it holds the accumulator at exactly the contents named above, the other scoped buffers at some
  contents, and the generator register. The output block is live only at the last tile, where it receives the
  accumulator's final value; everywhere else its staging buffer is handed back as found.
-/
import proofs.«160050_j32744830665390_2_alg».proof.Proof.KB.Reg7.Runs

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## The input blocks -/

/-- Window `w`'s block at point `t`, read off its array as the region finds it. -/
def blk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## What each case leaves, read back through one fixed view -/

/-- The accumulator after the first tile. -/
def acc7_first (c : Dev nD) (t : Fin cfg7.N) (h0 : t.val = 0)
    (h : Vec F S5000x128 .f32) (s : Vec F S5000x128 .f32) (w : Vec F S5000x1 .f32) : Vec F S1x1 .f32 :=
  acV7.read (Elt F) (acV7.writes (Elt F) acV7.junk
    (run7_first c (grid7.coords t) (ms7_0 t) (hs7_0 t) (ms7_1 t) (hs7_1 t) (ms7_2 t) (hs7_2 t) (ms7_3 t) (hs7_3 t) acM7 (Memref.isWhole_whole _)
      ((isFirst7_iff t).mpr h0) (fun hl => by have := (isLast7_iff t).mp hl; omega) h s w).1)

/-- The accumulator after a middle tile that found it at `a`. -/
def acc7_mid (c : Dev nD) (t : Fin cfg7.N) (h0 : t.val ≠ 0) (h9 : t.val ≠ 9)
    (h : Vec F S5000x128 .f32) (s : Vec F S5000x128 .f32) (w : Vec F S5000x1 .f32) (a : Vec F S1x1 .f32) : Vec F S1x1 .f32 :=
  acV7.read (Elt F) (acV7.writes (Elt F) acV7.junk
    (run7_mid c (grid7.coords t) (ms7_0 t) (hs7_0 t) (ms7_1 t) (hs7_1 t) (ms7_2 t) (hs7_2 t) (ms7_3 t) (hs7_3 t) acM7 (Memref.isWhole_whole _)
      (fun hf => h0 ((isFirst7_iff t).mp hf)) (fun hl => h9 ((isLast7_iff t).mp hl)) h s w a).1)

/-- The accumulator after the last tile, which found it at `a`. -/
def acc7_last (c : Dev nD) (t : Fin cfg7.N) (h9 : t.val = 9)
    (h : Vec F S5000x128 .f32) (s : Vec F S5000x128 .f32) (w : Vec F S5000x1 .f32) (a : Vec F S1x1 .f32) : Vec F S1x1 .f32 :=
  acV7.read (Elt F) (acV7.writes (Elt F) acV7.junk
    (run7_last c (grid7.coords t) (ms7_0 t) (hs7_0 t) (ms7_1 t) (hs7_1 t) (ms7_2 t) (hs7_2 t) (ms7_3 t) (hs7_3 t) acM7 (Memref.isWhole_whole _)
      (fun hf => by have := (isFirst7_iff t).mp hf; omega) ((isLast7_iff t).mpr h9) h s w a).2.1)

/-- The output block after the last tile. -/
def out7_last (c : Dev nD) (t : Fin cfg7.N) (h9 : t.val = 9)
    (h : Vec F S5000x128 .f32) (s : Vec F S5000x128 .f32) (w : Vec F S5000x1 .f32) (a : Vec F S1x1 .f32) : Vec F S1x1 .f32 :=
  outV7.read (Elt F) (outV7.writes (Elt F) outV7.junk
    (run7_last c (grid7.coords t) (ms7_0 t) (hs7_0 t) (ms7_1 t) (hs7_1 t) (ms7_2 t) (hs7_2 t) (ms7_3 t) (hs7_3 t) acM7 (Memref.isWhole_whole _)
      (fun hf => by have := (isFirst7_iff t).mp hf; omega) ((isLast7_iff t).mpr h9) h s w a).1)

/-- Each list of stores covers its one-cell buffer. -/
theorem cover7_first (c : Dev nD) (i : grid7.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : isFirst7 i) (hlast : ¬isLast7 i)
    (h : Vec F S5000x128 .f32) (s : Vec F S5000x128 .f32) (w : Vec F S5000x1 .f32) (y : S1x1.Idx) :
    ∃ pc ∈ (run7_first c i arg1 harg1 arg2 harg2 arg3 harg3 arg4 harg4 arg5 harg5 hfirst hlast h s w).1, y ∈ pc.1.set :=
  View.cover_of_tiledL _ S1x1.size (by sl_kernel_rfl) y

theorem cover7_mid (c : Dev nD) (i : grid7.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst7 i) (hlast : ¬isLast7 i)
    (h : Vec F S5000x128 .f32) (s : Vec F S5000x128 .f32) (w : Vec F S5000x1 .f32) (a : Vec F S1x1 .f32) (y : S1x1.Idx) :
    ∃ pc ∈ (run7_mid c i arg1 harg1 arg2 harg2 arg3 harg3 arg4 harg4 arg5 harg5 hfirst hlast h s w a).1, y ∈ pc.1.set :=
  View.cover_of_tiledL _ S1x1.size (by sl_kernel_rfl) y

theorem cover7_last_acc (c : Dev nD) (i : grid7.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst7 i) (hlast : isLast7 i)
    (h : Vec F S5000x128 .f32) (s : Vec F S5000x128 .f32) (w : Vec F S5000x1 .f32) (a : Vec F S1x1 .f32) (y : S1x1.Idx) :
    ∃ pc ∈ (run7_last c i arg1 harg1 arg2 harg2 arg3 harg3 arg4 harg4 arg5 harg5 hfirst hlast h s w a).2.1, y ∈ pc.1.set :=
  View.cover_of_tiledL _ S1x1.size (by sl_kernel_rfl) y

theorem cover7_last_out (c : Dev nD) (i : grid7.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst7 i) (hlast : isLast7 i)
    (h : Vec F S5000x128 .f32) (s : Vec F S5000x128 .f32) (w : Vec F S5000x1 .f32) (a : Vec F S1x1 .f32) (y : S1x1.Idx) :
    ∃ pc ∈ (run7_last c i arg1 harg1 arg2 harg2 arg3 harg3 arg4 harg4 arg5 harg5 hfirst hlast h s w a).1, y ∈ pc.1.set :=
  View.cover_of_tiledL _ S1x1.size (by sl_kernel_rfl) y

/-! ## The accumulator and the output block, tile by tile -/

/-- THE RUNNING TOTAL: what the accumulator holds after the body at position `n`. -/
def acc7 (c : Dev nD) : (n : ℕ) → n < cfg7.N → Vec F S1x1 .f32
  | 0, hn => acc7_first c ⟨0, hn⟩ rfl (blk7 V c 0 ⟨0, hn⟩) (blk7 V c 1 ⟨0, hn⟩) (blk7 V c 2 ⟨0, hn⟩)
  | n + 1, hn =>
    if h9 : n + 1 = 9 then
      acc7_last c ⟨n + 1, hn⟩ h9 (blk7 V c 0 ⟨n + 1, hn⟩) (blk7 V c 1 ⟨n + 1, hn⟩) (blk7 V c 2 ⟨n + 1, hn⟩) (acc7 c n (Nat.lt_of_succ_lt hn))
    else
      acc7_mid c ⟨n + 1, hn⟩ (Nat.succ_ne_zero n) h9 (blk7 V c 0 ⟨n + 1, hn⟩) (blk7 V c 1 ⟨n + 1, hn⟩) (blk7 V c 2 ⟨n + 1, hn⟩) (acc7 c n (Nat.lt_of_succ_lt hn))

/-- The accumulator just before point `t`, for `t` not the first: what the point before left. -/
abbrev accBefore7 (c : Dev nD) (t : Fin cfg7.N) : Vec F S1x1 .f32 :=
  acc7 V c (t.val - 1) (Nat.lt_of_le_of_lt (Nat.sub_le _ _) t.isLt)

theorem acc7_at_first (c : Dev nD) (t : Fin cfg7.N) (h0 : t.val = 0) :
    acc7 V c t.val t.isLt = acc7_first c t h0 (blk7 V c 0 t) (blk7 V c 1 t) (blk7 V c 2 t) := by
  obtain ⟨n, hn⟩ := t
  cases n with
  | zero => rfl
  | succ n => exact absurd h0 (Nat.succ_ne_zero n)

theorem acc7_at_mid (c : Dev nD) (t : Fin cfg7.N) (h0 : t.val ≠ 0) (h9 : t.val ≠ 9) :
    acc7 V c t.val t.isLt = acc7_mid c t h0 h9 (blk7 V c 0 t) (blk7 V c 1 t) (blk7 V c 2 t) (accBefore7 V c t) := by
  obtain ⟨n, hn⟩ := t
  cases n with
  | zero => exact absurd rfl h0
  | succ n => exact (dif_neg h9).trans rfl

theorem acc7_at_last (c : Dev nD) (t : Fin cfg7.N) (h9 : t.val = 9) :
    acc7 V c t.val t.isLt = acc7_last c t h9 (blk7 V c 0 t) (blk7 V c 1 t) (blk7 V c 2 t) (accBefore7 V c t) := by
  obtain ⟨n, hn⟩ := t
  cases n with
  | zero => exact absurd h9 (show ¬ (0 : ℕ) = 9 by decide)
  | succ n => exact (dif_pos h9).trans rfl

/-- What the output window's staging buffer holds after the body at point `t`: at the last point the accumulator's
    final value as the last-tile run stores it; the value at the other points is consulted nowhere (the window is
    idle there and not written back). -/
def out7 (c : Dev nD) (t : Fin cfg7.N) : Vec F S1x1 .f32 :=
  if h9 : t.val = 9 then out7_last c t h9 (blk7 V c 0 t) (blk7 V c 1 t) (blk7 V c 2 t) (accBefore7 V c t)
  else acc7 V c t.val t.isLt

/-! ## The invariant -/

/-- Before position `n`: at the first point the class's invariant; afterwards the accumulator at the running total,
    the other scoped buffers at some contents, the generator register at some state. -/
def Phi7 (c : Dev nD) : (n : ℕ) → n ≤ cfg7.N → sProp 𝕄
  | 0, _ => Pipeline.ΦA (U := UR sig nD τ) (Val := Elt F) spec7 c
  | n + 1, hn => iprop(iprop(owns (c : Thread nD τ) acM7 fullShare (acc7 V c n hn)
      ∗ Pipeline.scopedRestBut (Ix := Unit) (Name := ℕ) (U := UR sig nD τ) (Lvl := ℕ) (Val := Elt F) spec7 c [cc7_scratch0]) ∗ (∃ r, prngReg c r))

theorem Phi7_zero (c : Dev nD) (n : ℕ) (hn : n ≤ cfg7.N) (hz : n = 0) :
    Phi7 V c n hn = Pipeline.ΦA (U := UR sig nD τ) (Val := Elt F) spec7 c := by
  subst hz; rfl

theorem Phi7_succ (c : Dev nD) (n : ℕ) (hn : n < cfg7.N) :
    Phi7 V c (n + 1) hn = iprop(iprop(owns (c : Thread nD τ) acM7 fullShare (acc7 V c n hn)
      ∗ Pipeline.scopedRestBut (Ix := Unit) (Name := ℕ) (U := UR sig nD τ) (Lvl := ℕ) (Val := Elt F) spec7 c [cc7_scratch0]) ∗ (∃ r, prngReg c r)) := rfl

theorem Phi7_pos (c : Dev nD) (n : ℕ) (hn : n ≤ cfg7.N) (hz : n ≠ 0) :
    Phi7 V c n hn = iprop(iprop(owns (c : Thread nD τ) acM7 fullShare (acc7 V c (n - 1) (by omega))
      ∗ Pipeline.scopedRestBut (Ix := Unit) (Name := ℕ) (U := UR sig nD τ) (Lvl := ℕ) (Val := Elt F) spec7 c [cc7_scratch0]) ∗ (∃ r, prngReg c r)) := by
  cases n with
  | zero => exact absurd rfl hz
  | succ n => rfl

/-- The class's invariant with the accumulator singled out of the scoped rest. -/
theorem PhiA7_open (c : Dev nD) :
    (Pipeline.ΦA (U := UR sig nD τ) (Val := Elt F) spec7 c : sProp 𝕄)
      = iprop(iprop((∃ d, owns (c : Thread nD τ) acM7 fullShare d)
          ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [acM7, owns_whole]; try rfl

/-! ## The proof data -/

/-- Region 7's proof data on core `c`: the arrays as the region finds them; after the body each input's buffer still
    at its block, the output's at `out7`; the invariant `Phi7`; full shares; nothing owed. -/
def dat7 (c : Dev nD) : Dat τ (Elt F) Unit ℕ (UR sig nD τ) ℕ cfg7 c where
  A w := V c (Pipeline.arrRef spec7 w)
  after w t := match w with
    | ⟨0, _⟩ => blk7 V c 0 t
    | ⟨1, _⟩ => blk7 V c 1 t
    | ⟨2, _⟩ => blk7 V c 2 t
    | ⟨3, _⟩ => out7 V c t
  Φ t := Phi7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem q_eq7 (c : Dev nD) (w : Fin cfg7.W) : (dat7 V c).q w = fullShare := by
  dsimp only [dat7]

theorem owed_eq7 (c : Dev nD) (t : Fin (cfg7.N + 1)) : (dat7 V c).owed t = 0 := by
  dsimp only [dat7]

theorem Phi7_castSucc (c : Dev nD) (t : Fin cfg7.N) :
    (dat7 V c).Φ t.castSucc = Phi7 V c t.val (Nat.le_of_lt t.isLt) := by
  dsimp only [dat7]; simp only [Fin.coe_castSucc]

theorem after7_0 (c : Dev nD) (t : Fin cfg7.N) : (dat7 V c).after 0 t = blk7 V c 0 t := by dsimp only [dat7]
theorem after7_1 (c : Dev nD) (t : Fin cfg7.N) : (dat7 V c).after 1 t = blk7 V c 1 t := by dsimp only [dat7]
theorem after7_2 (c : Dev nD) (t : Fin cfg7.N) : (dat7 V c).after 2 t = blk7 V c 2 t := by dsimp only [dat7]
theorem after7_3 (c : Dev nD) (t : Fin cfg7.N) : (dat7 V c).after 3 t = out7 V c t := by dsimp only [dat7]

/-- Every input window is fetched at every point, so its current buffer holds the array's block there. -/
theorem before7_0 (c : Dev nD) (t : Fin cfg7.N) (d) : (dat7 V c).before 0 t d = blk7 V c 0 t :=
  ((dat7 V c).before_fetched 0 t (fetch7_0 t) d).trans (by unfold Dat.fetched Dat.blockOf blk7; rw [A_eq7]; try rfl)
theorem before7_1 (c : Dev nD) (t : Fin cfg7.N) (d) : (dat7 V c).before 1 t d = blk7 V c 1 t :=
  ((dat7 V c).before_fetched 1 t (fetch7_1 t) d).trans (by unfold Dat.fetched Dat.blockOf blk7; rw [A_eq7]; try rfl)
theorem before7_2 (c : Dev nD) (t : Fin cfg7.N) (d) : (dat7 V c).before 2 t d = blk7 V c 2 t :=
  ((dat7 V c).before_fetched 2 t (fetch7_2 t) d).trans (by unfold Dat.fetched Dat.blockOf blk7; rw [A_eq7]; try rfl)

/-! ## The body obligation -/

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

theorem leaves7_0 (c : Dev nD) (t : Fin cfg7.N) :
    (dat7 V c).leavesExact 0 t = owns (c : Thread nD τ) (ms7_0 t) fullShare (blk7 V c 0 t) := by
  unfold Dat.leavesExact; rw [live7_0 t, after7_0]
theorem leaves7_1 (c : Dev nD) (t : Fin cfg7.N) :
    (dat7 V c).leavesExact 1 t = owns (c : Thread nD τ) (ms7_1 t) fullShare (blk7 V c 1 t) := by
  unfold Dat.leavesExact; rw [live7_1 t, after7_1]
theorem leaves7_2 (c : Dev nD) (t : Fin cfg7.N) :
    (dat7 V c).leavesExact 2 t = owns (c : Thread nD τ) (ms7_2 t) fullShare (blk7 V c 2 t) := by
  unfold Dat.leavesExact; rw [live7_2 t, after7_2]
theorem leaves7_3_idle (c : Dev nD) (t : Fin cfg7.N) (h9 : t.val ≠ 9) :
    (dat7 V c).leavesExact 3 t = iprop(∃ d, owns (c : Thread nD τ) (ms7_3 t) fullShare ((dat7 V c).before 3 t d)) :=
  Dat.leavesExact_idle (dat7 V c) 3 t (idle7_3 t h9) (keep7_3 t h9)
theorem leaves7_3_live (c : Dev nD) (t : Fin cfg7.N) (h9 : t.val = 9) :
    (dat7 V c).leavesExact 3 t = owns (c : Thread nD τ) (ms7_3 t) fullShare (out7 V c t) := by
  unfold Dat.leavesExact; rw [live7_3 t h9, after7_3]

set_option maxHeartbeats 4800000 in
/-- The body at any point. The inputs' buffers hold their blocks; the point's position decides the case; the invariant
    hands the run the accumulator (at anything before the first tile, at the running total afterwards) and takes it
    back at the new running total, the run's stores covering the one cell; the rest of the invariant and what the
    core owes pass through untouched. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).owesAt () t.succ = (dat7 V c).owesAt () t.castSucc from rfl]
  rw [show (dat7 V c).Φ t.succ = Phi7 V c (t.val + 1) t.isLt from rfl, Phi7_succ]
  rw [leaves7_0, leaves7_1, leaves7_2, Phi7_castSucc]
  have hN : t.val < 10 := lt_of_lt_of_eq t.isLt (show cfg7.N = 10 from N_7)
  by_cases h0 : t.val = 0
  · -- the first tile
    have h9 : t.val ≠ 9 := by omega
    rw [leaves7_3_idle V c t h9, acc7_at_first V c t h0, Phi7_zero V c _ _ h0, PhiA7_open]
    unfold acc7_first
    iintro ⟨⟨⟨HA, HR⟩, Hg⟩, Ho, ⟨%d0, H0⟩, ⟨%d1, H1⟩, ⟨%d2, H2⟩, ⟨%d3, H3⟩⟩
    iapply ((run7_first c (grid7.coords t) _ _ _ _ _ _ _ _ _ _ ((isFirst7_iff t).mpr h0)
      (fun hl => by have := (isLast7_iff t).mp hl; omega) (blk7 V c 0 t) (blk7 V c 1 t) (blk7 V c 2 t)).2 _ Set.univ _)
    isplitl [H0]; · iexact H0
    isplitl [H1]; · iexact H1
    isplitl [H2]; · iexact H2
    isplitl [H3]; · iexact H3
    isplitl [HA]; · iexact HA
    iintro ⟨H0, H1, H2, H3, ⟨%ea, HA⟩⟩
    isplitl [HA HR Hg]
    · isplitr [Hg]
      · isplitl [HA]
        · unfold owns; iexists _; isplitr
          swap; · iexact HA
          ipureintro; exact View.read_writes_of_cover _ _ _ _ _ (cover7_first c _ _ _ _ _ _ _ _ _ _ _ _ _ _ _ _)
        iexact HR
      iexact Hg
    isplitl [Ho]; · iexact Ho
    isplitl [H0]; · iexact H0
    isplitl [H1]; · iexact H1
    isplitl [H2]; · iexact H2
    iexists _; iexact H3
  · by_cases h9 : t.val = 9
    · -- the last tile
      rw [leaves7_3_live V c t h9, acc7_at_last V c t h9, Phi7_pos V c _ _ h0]
      unfold out7; rw [dif_pos h9]
      unfold acc7_last out7_last
      iintro ⟨⟨⟨HA, HR⟩, Hg⟩, Ho, ⟨%d0, H0⟩, ⟨%d1, H1⟩, ⟨%d2, H2⟩, ⟨%d3, H3⟩⟩
      iapply ((run7_last c (grid7.coords t) _ _ _ _ _ _ _ _ _ _ (fun hf => by have := (isFirst7_iff t).mp hf; omega)
        ((isLast7_iff t).mpr h9) (blk7 V c 0 t) (blk7 V c 1 t) (blk7 V c 2 t) (accBefore7 V c t)).2.2 Set.univ _)
      isplitl [H0]; · iexact H0
      isplitl [H1]; · iexact H1
      isplitl [H2]; · iexact H2
      isplitl [H3]; · iexists _; iexact H3
      isplitl [HA]; · iexact HA
      iintro ⟨H0, H1, H2, ⟨%eo, H3⟩, ⟨%ea, HA⟩⟩
      isplitl [HA HR Hg]
      · isplitr [Hg]
        · isplitl [HA]
          · unfold owns; iexists _; isplitr
            swap; · iexact HA
            ipureintro; exact View.read_writes_of_cover _ _ _ _ _ (cover7_last_acc c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover7_last_out c _ _ _ _ _ _ _ _ _ _ _ _ _ _ _ _ _)
    · -- a middle tile
      rw [leaves7_3_idle V c t h9, acc7_at_mid V c t h0 h9, Phi7_pos V c _ _ h0]
      unfold acc7_mid
      iintro ⟨⟨⟨HA, HR⟩, Hg⟩, Ho, ⟨%d0, H0⟩, ⟨%d1, H1⟩, ⟨%d2, H2⟩, ⟨%d3, H3⟩⟩
      iapply ((run7_mid c (grid7.coords t) _ _ _ _ _ _ _ _ _ _ (fun hf => h0 ((isFirst7_iff t).mp hf))
        (fun hl => h9 ((isLast7_iff t).mp hl)) (blk7 V c 0 t) (blk7 V c 1 t) (blk7 V c 2 t) (accBefore7 V c t)).2 _ Set.univ _)
      isplitl [H0]; · iexact H0
      isplitl [H1]; · iexact H1
      isplitl [H2]; · iexact H2
      isplitl [H3]; · iexact H3
      isplitl [HA]; · iexact HA
      iintro ⟨H0, H1, H2, H3, ⟨%ea, HA⟩⟩
      isplitl [HA HR Hg]
      · isplitr [Hg]
        · isplitl [HA]
          · unfold owns; iexists _; isplitr
            swap; · iexact HA
            ipureintro; exact View.read_writes_of_cover _ _ _ _ _ (cover7_mid c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## The invariant's two ends -/

/-- The class's invariant is the invariant before the first point. -/
theorem Phi_in7 (c : Dev nD) : (Pipeline.ΦA (U := UR sig nD τ) (Val := Elt F) spec7 c : sProp 𝕄) ⊢ (dat7 V c).Φ 0 := by
  rw [show (dat7 V c).Φ 0 = Phi7 V c 0 (Nat.zero_le _) from rfl, Phi7_zero V c 0 _ rfl]
  try exact Entails.refl _

/-- After the last point the invariant gives the class's back: the accumulator's contents are forgotten. -/
theorem Phi_out7 (c : Dev nD) : (dat7 V c).Φ (Fin.last cfg7.N) ⊢ (Pipeline.ΦA (U := UR sig nD τ) (Val := Elt F) spec7 c : sProp 𝕄) := by
  have hne : (Fin.last cfg7.N).val ≠ 0 := by rw [Fin.val_last]; have : cfg7.N = 10 := N_7; omega
  rw [show (dat7 V c).Φ (Fin.last cfg7.N) = Phi7 V c (Fin.last cfg7.N).val (Nat.le_of_lt_succ (Fin.last cfg7.N).isLt) from rfl,
    Phi7_pos V c _ _ hne, PhiA7_open]
  iintro ⟨⟨HA, HR⟩, Hg⟩
  isplitr [Hg]
  · isplitl [HA]
    · iexists _; iexact HA
    iexact HR
  iexact Hg

end Cert.Kernel.Hand

end
-- ==== Proof.KB.Reg7.Value.lean ====
/-
  Region 7: the value. After the run the one-cell result array holds the running total after the tenth row tile:
  starting from the cleared accumulator, tile after tile in grid order, the accumulator plus the tile's partial sum
    Σ_r (w r · Σ_k h r k · h r k − 2 · Σ_k h r k · s r k),   r over the tile's 5000 rows, k over the 128 features,
  each tile being rows 5000·n … 5000·n + 4999 of the three input arrays.

  First each case's list of stores is read back as the update applied to the tile's blocks and the accumulator found;
  then the running total is the ordered chain over the tiles (induction on the tile); then each block is the array's
  rows; then the single write-back, at the last tile, covers the one-cell array.
-/
import proofs.«160050_j32744830665390_2_alg».proof.Proof.KB.Reg7.Frame
import Idealize.ShloMosaic.Lib.Pipeline.Value
import Idealize.ShloMosaic.Lib.ValueIdx

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

open Idealize.ShloMosaic.ValueIdx (ix2)

theorem hz7 : (![0, 0] : Fin 2 → Nat) = fun _ => 0 := funext fun a => by fin_cases a <;> rfl

/-! ## What each case's stores leave -/

/-- First tile: the accumulator is cleared, then the tile's partial sum is added to the cleared value. -/
theorem first_stores7 (c : Dev nD) (i : grid7.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : isFirst7 i) (hlast : ¬isLast7 i)
    (h : Vec F S5000x128 .f32) (s : Vec F S5000x128 .f32) (w : Vec F S5000x1 .f32) :
    acV7.read (Elt F) (acV7.writes (Elt F) acV7.junk
      (run7_first c i arg1 harg1 arg2 harg2 arg3 harg3 arg4 harg4 arg5 harg5 hfirst hlast h s w).1) = k7_pay2 h s w (k7_pay1 (F := F)) := by
  rw [View.read_writes_eq_canon _ _ _ (cover7_first c i arg1 harg1 arg2 harg2 arg3 harg3 arg4 harg4 arg5 harg5 hfirst hlast h s w)]
  unfold run7_first
  dsimp only
  try sl_unfold_words
  rw [View.canon_cons_unit_zero (S := S1x1) hz7]
  simp only [View.readAt_eq_ld, harg1.read_unread, harg2.read_unread, harg3.read_unread, View.ld_unit_zero (S := S5000x128) hz7,
    View.ld_unit_zero (S := S5000x1) hz7, View.readCov_unit_zero (S := S1x1) _ hz7]

/-- A middle tile: the tile's partial sum is added to what the accumulator held. -/
theorem mid_stores7 (c : Dev nD) (i : grid7.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst7 i) (hlast : ¬isLast7 i)
    (h : Vec F S5000x128 .f32) (s : Vec F S5000x128 .f32) (w : Vec F S5000x1 .f32) (a : Vec F S1x1 .f32) :
    acV7.read (Elt F) (acV7.writes (Elt F) acV7.junk
      (run7_mid c i arg1 harg1 arg2 harg2 arg3 harg3 arg4 harg4 arg5 harg5 hfirst hlast h s w a).1) = k7_pay2 h s w a := by
  rw [View.read_writes_eq_canon _ _ _ (cover7_mid c i arg1 harg1 arg2 harg2 arg3 harg3 arg4 harg4 arg5 harg5 hfirst hlast h s w a)]
  unfold run7_mid
  dsimp only
  try sl_unfold_words
  rw [View.canon_unit_zero (S := S1x1) hz7]
  simp only [View.readAt_eq_ld, harg1.read_unread, harg2.read_unread, harg3.read_unread, harg5.read_unread, View.ld_unit_zero (S := S5000x128) hz7,
    View.ld_unit_zero (S := S5000x1) hz7, View.ld_unit_zero (S := S1x1) hz7]

/-- The last tile leaves the same update in the accumulator, -/
theorem last_stores_acc7 (c : Dev nD) (i : grid7.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst7 i) (hlast : isLast7 i)
    (h : Vec F S5000x128 .f32) (s : Vec F S5000x128 .f32) (w : Vec F S5000x1 .f32) (a : Vec F S1x1 .f32) :
    acV7.read (Elt F) (acV7.writes (Elt F) acV7.junk
      (run7_last c i arg1 harg1 arg2 harg2 arg3 harg3 arg4 harg4 arg5 harg5 hfirst hlast h s w a).2.1) = k7_pay2 h s w a := by
  rw [View.read_writes_eq_canon _ _ _ (cover7_last_acc c i arg1 harg1 arg2 harg2 arg3 harg3 arg4 harg4 arg5 harg5 hfirst hlast h s w a)]
  unfold run7_last
  dsimp only
  try sl_unfold_words
  rw [View.canon_unit_zero (S := S1x1) hz7]
  simp only [View.readAt_eq_ld, harg1.read_unread, harg2.read_unread, harg3.read_unread, harg5.read_unread, View.ld_unit_zero (S := S5000x128) hz7,
    View.ld_unit_zero (S := S5000x1) hz7, View.ld_unit_zero (S := S1x1) hz7]

/-- and copies that value, read back from the accumulator, to the output block. -/
theorem last_stores_out7 (c : Dev nD) (i : grid7.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst7 i) (hlast : isLast7 i)
    (h : Vec F S5000x128 .f32) (s : Vec F S5000x128 .f32) (w : Vec F S5000x1 .f32) (a : Vec F S1x1 .f32) :
    outV7.read (Elt F) (outV7.writes (Elt F) outV7.junk
      (run7_last c i arg1 harg1 arg2 harg2 arg3 harg3 arg4 harg4 arg5 harg5 hfirst hlast h s w a).1) = k7_pay2 h s w a := by
  rw [View.read_writes_eq_canon _ _ _ (cover7_last_out c i arg1 harg1 arg2 harg2 arg3 harg3 arg4 harg4 arg5 harg5 hfirst hlast h s w a)]
  unfold run7_last
  dsimp only
  try sl_unfold_words
  rw [View.canon_unit_zero (S := S1x1) hz7]
  simp only [View.readAt_eq_ld, harg1.read_unread, harg2.read_unread, harg3.read_unread, harg5.read_unread, View.ld_unit_zero (S := S5000x128) hz7,
    View.ld_unit_zero (S := S5000x1) hz7, View.ld_unit_zero (S := S1x1) hz7, View.readCov_unit_zero (S := S1x1) _ hz7]

/-! ## The arrays' row tiles and the ordered chain over them -/

/-- Row tile `n` of a table with 50000 rows of 128 entries: rows 5000·n … 5000·n + 4999. -/
def rowsA7 (X : Vec F S50000x128 .f32) (n : Fin 10) : Vec F S5000x128 .f32 := fun y =>
  X (ix2 ⟨5000 * n.val + (y 0).val, by have h1 : (y 0).val < 5000 := (y 0).isLt; have h2 := n.isLt; omega⟩ ⟨(y 1).val, (y 1).isLt⟩)

/-- Row tile `n` of a column of 50000 entries. -/
def rowsW7 (X : Vec F S50000x1 .f32) (n : Fin 10) : Vec F S5000x1 .f32 := fun y =>
  X (ix2 ⟨5000 * n.val + (y 0).val, by have h1 : (y 0).val < 5000 := (y 0).isLt; have h2 := n.isLt; omega⟩ ⟨(y 1).val, (y 1).isLt⟩)

/-- The running total after row tile `n`, as a function of the three whole arrays: the cleared accumulator updated
    by tile 0, then by tile 1, …, then by tile `n`. -/
def tot7 (H S : Vec F S50000x128 .f32) (W : Vec F S50000x1 .f32) : (n : ℕ) → n < 10 → Vec F S1x1 .f32
  | 0, hn => k7_pay2 (rowsA7 H ⟨0, hn⟩) (rowsA7 S ⟨0, hn⟩) (rowsW7 W ⟨0, hn⟩) (k7_pay1 (F := F))
  | n + 1, hn => k7_pay2 (rowsA7 H ⟨n + 1, hn⟩) (rowsA7 S ⟨n + 1, hn⟩) (rowsW7 W ⟨n + 1, hn⟩) (tot7 H S W n (Nat.lt_of_succ_lt hn))

/-- THE RESULT as one function of the region's three input arrays: the running total after the tenth tile. -/
def G7_3 (H S : Vec F S50000x128 .f32) (W : Vec F S50000x1 .f32) : Vec F S1x1 .f32 := tot7 H S W 9 (by decide)

/-- The three input arrays as the region finds them. -/
abbrev hArr7 (c : Dev nD) : Vec F S50000x128 .f32 := V c (Pipeline.arrRef spec7 0)
abbrev sArr7 (c : Dev nD) : Vec F S50000x128 .f32 := V c (Pipeline.arrRef spec7 1)
abbrev wArr7 (c : Dev nD) : Vec F S50000x1 .f32 := V c (Pipeline.arrRef spec7 2)

/-! ## Each input block is its array's row tile -/

theorem point_lt7 (t : Fin cfg7.N) : t.val < 10 := lt_of_lt_of_eq t.isLt (show cfg7.N = 10 from N_7)

theorem blk7_0_rows (c : Dev nD) (t : Fin cfg7.N) :
    (blk7 V c 0 t : Vec F S5000x128 .f32) = rowsA7 (hArr7 V c) ⟨t.val, point_lt7 t⟩ := by
  have hi : win7_0.index t 0 = t.val ∧ win7_0.index t 1 = 0 := by
    rcases fin_N7 t with rfl | rfl | rfl | rfl | rfl | rfl | rfl | rfl | rfl | rfl <;> decide
  funext y
  unfold blk7 rowsA7
  rw [View.read_apply]
  show V c (Pipeline.arrRef spec7 0) _ = V c (Pipeline.arrRef spec7 0) _
  congr 1
  funext a
  apply Fin.ext
  match a with
  | ⟨0, _⟩ => show win7_0.index t 0 * 5000 + 1 * (y 0).val = 5000 * t.val + (y 0).val; rw [hi.1]; omega
  | ⟨1, _⟩ => show win7_0.index t 1 * 128 + 1 * (y 1).val = (y 1).val; rw [hi.2]; omega

theorem blk7_1_rows (c : Dev nD) (t : Fin cfg7.N) :
    (blk7 V c 1 t : Vec F S5000x128 .f32) = rowsA7 (sArr7 V c) ⟨t.val, point_lt7 t⟩ := by
  have hi : win7_1.index t 0 = t.val ∧ win7_1.index t 1 = 0 := by
    rcases fin_N7 t with rfl | rfl | rfl | rfl | rfl | rfl | rfl | rfl | rfl | rfl <;> decide
  funext y
  unfold blk7 rowsA7
  rw [View.read_apply]
  show V c (Pipeline.arrRef spec7 1) _ = V c (Pipeline.arrRef spec7 1) _
  congr 1
  funext a
  apply Fin.ext
  match a with
  | ⟨0, _⟩ => show win7_1.index t 0 * 5000 + 1 * (y 0).val = 5000 * t.val + (y 0).val; rw [hi.1]; omega
  | ⟨1, _⟩ => show win7_1.index t 1 * 128 + 1 * (y 1).val = (y 1).val; rw [hi.2]; omega

theorem blk7_2_rows (c : Dev nD) (t : Fin cfg7.N) :
    (blk7 V c 2 t : Vec F S5000x1 .f32) = rowsW7 (wArr7 V c) ⟨t.val, point_lt7 t⟩ := by
  have hi : win7_2.index t 0 = t.val ∧ win7_2.index t 1 = 0 := by
    rcases fin_N7 t with rfl | rfl | rfl | rfl | rfl | rfl | rfl | rfl | rfl | rfl <;> decide
  funext y
  unfold blk7 rowsW7
  rw [View.read_apply]
  show V c (Pipeline.arrRef spec7 2) _ = V c (Pipeline.arrRef spec7 2) _
  congr 1
  funext a
  apply Fin.ext
  match a with
  | ⟨0, _⟩ => show win7_2.index t 0 * 5000 + 1 * (y 0).val = 5000 * t.val + (y 0).val; rw [hi.1]; omega
  | ⟨1, _⟩ => show win7_2.index t 1 * 1 + 1 * (y 1).val = (y 1).val; rw [hi.2]; omega

/-! ## The running total is the chain -/

theorem acc7_eq_tot (c : Dev nD) : ∀ (n : ℕ) (hn : n < cfg7.N),
    acc7 V c n hn = tot7 (hArr7 V c) (sArr7 V c) (wArr7 V c) n (lt_of_lt_of_eq hn (show cfg7.N = 10 from N_7))
  | 0, hn => by
    refine (acc7_at_first V c ⟨0, hn⟩ rfl).trans ?_
    unfold acc7_first
    rw [first_stores7, blk7_0_rows, blk7_1_rows, blk7_2_rows]
    rfl
  | n + 1, hn => by
    by_cases h9 : n + 1 = 9
    · refine (acc7_at_last V c ⟨n + 1, hn⟩ h9).trans ?_
      unfold acc7_last
      rw [last_stores_acc7, blk7_0_rows, blk7_1_rows, blk7_2_rows]
      show k7_pay2 _ _ _ (acc7 V c n _) = _
      rw [acc7_eq_tot c n (Nat.lt_of_succ_lt hn)]
      rfl
    · refine (acc7_at_mid V c ⟨n + 1, hn⟩ (Nat.succ_ne_zero n) h9).trans ?_
      unfold acc7_mid
      rw [mid_stores7, blk7_0_rows, blk7_1_rows, blk7_2_rows]
      show k7_pay2 _ _ _ (acc7 V c n _) = _
      rw [acc7_eq_tot c n (Nat.lt_of_succ_lt hn)]
      rfl

/-- At the last tile the output block receives the accumulator's final value. -/
theorem out7_at_last (c : Dev nD) (t : Fin cfg7.N) (h9 : t.val = 9) : out7 V c t = acc7 V c t.val t.isLt := by
  unfold out7
  rw [dif_pos h9, acc7_at_last V c t h9]
  unfold out7_last acc7_last
  rw [last_stores_out7, last_stores_acc7]

/-! ## The write-back and the array after the run -/

/-- The one write-back, at the last tile, writes the result: the window's block there is the whole one-cell array. -/
theorem flushed7_3 (c : Dev nD) (t : Fin cfg7.N) (hf : (cfg7.win 3).flush t = true) :
    (dat7 V c).flushed 3 t = ((cfg7.win 3).blk t).view.read (Elt F) (G7_3 (hArr7 V c) (sArr7 V c) (wArr7 V c)) := by
  have hN : cfg7.N = 10 := N_7
  have h9 : t.val = 9 := by have := (flush7_3 t).mp hf; have := t.isLt; omega
  show (cfg7.win 3).cut (grid7.coords t) ((dat7 V c).after 3 t) = _
  rw [after7_3, out7_at_last V c t h9, acc7_eq_tot V c t.val t.isLt]
  obtain rfl : t = t7_9 := Fin.ext h9
  have hz' : (fun a => win7_3.index t7_9 a * (Pipeline.arrRef spec7 3).ty.shape.size a) = fun _ => 0 :=
    funext fun a => by fin_cases a <;> decide
  exact (Memref.read_access_unit_zero (Elt F) (Pipeline.arrRef spec7 3) hz' (fun a => by rw [congrFun hz' a]; simp)
    (G7_3 (hArr7 V c) (sArr7 V c) (wArr7 V c))).symm

/-- THE VALUE: after the run the result array holds `G7_3` of the three input arrays as the region found them. -/
theorem final7_3 (c : Dev nD) :
    (dat7 V c).arrAt 3 cfg7.N = G7_3 (hArr7 V c) (sArr7 V c) (wArr7 V c) :=
  (dat7 V c).arrAt_eq_of_cover 3 (G7_3 (hArr7 V c) (sArr7 V c) (wArr7 V c)) (flushed7_3 V c) fun i =>
    ⟨t7_9, (flush7_3 t7_9).mpr rfl, by
      -- the array has one cell, at coordinates (0, 0); the last point's block starts at (0, 0) and has extent (1, 1)
      show i ∈ ((View.whole (Pipeline.arrRef spec7 3)).slice (win7_3.rect t7_9)).set
      rw [View.set_slice_whole, Rect.mem_set_unit]
      intro a
      have hlt : (i a : Nat) < 1 := by fin_cases a <;> exact (i _).isLt
      have hoff : win7_3.index t7_9 a * win7_3.size a = 0 := by fin_cases a <;> decide
      have hext : win7_3.xsize (grid7.coords t7_9) a = 1 := by fin_cases a <;> decide
      show win7_3.index t7_9 a * win7_3.size a ≤ (i a : Nat)
        ∧ (i a : Nat) < win7_3.index t7_9 a * win7_3.size a + win7_3.xsize (grid7.coords t7_9) a
      rw [hoff, hext]; omega⟩

end Cert.Kernel.Hand

end
-- ==== Proof.KB.Reg7.lean ====
/-
  Region 7 (custom call 7): the body's runs per control case, the proof data with its invariant and body
  obligation, and the value of the result array — one import for the three modules.
-/
import proofs.«160050_j32744830665390_2_alg».proof.Proof.KB.Reg7.Frame
import proofs.«160050_j32744830665390_2_alg».proof.Proof.KB.Reg7.Value
-- ==== Proof.KB.Reg8.Runs.lean ====
/-
  Region 8 (custom call 8, the node-wise Dirichlet term of one hidden state): the kernel body run once per
  control case.

  The body has two conditionals on the grid coordinate. At the first row tile it clears the one-cell accumulator;
  at every tile it adds the tile's partial sum  Σ_r (w r · Σ_k h r k · h r k − 2 · Σ_k h r k · s r k)  to the
  accumulator; at the last row tile it copies the accumulator to the one-cell output block. With ten tiles the
  two conditions never hold together, so there are three cases: first tile, a middle tile, last tile.

  For each case the body is run symbolically on arbitrary whole memrefs and the list of stores each written
  buffer ends with is recorded (last store first); the lists are found by the run itself.
-/
import proofs.«160050_j32744830665390_2_alg».proof.Proof.KB.Iface

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, and where on the grid they hold -/

/-- "This is the first row tile": the printed comparison chain of the first conditional. -/
abbrev isFirst8 (i : grid8.Coords) : Prop :=
  (Scalar.cmpi .ne (Scalar.extui (Scalar.cmpi .eq (BitVec.ofNat 32 (i 0).val) 0#32)) 0#32) = 1#1

/-- "This is the last row tile": the printed condition of the second conditional. -/
abbrev isLast8 (i : grid8.Coords) : Prop := k8_cond2 i = 1#1

/-- The first condition holds at point 0 and nowhere else. -/
theorem isFirst8_iff : ∀ t : Fin cfg8.N, isFirst8 (grid8.coords t) ↔ t.val = 0 :=
  (by decide +kernel : ∀ t : Fin grid8.N, isFirst8 (grid8.coords t) ↔ t.val = 0)

/-- The second condition holds at point 9 and nowhere else. -/
theorem isLast8_iff : ∀ t : Fin cfg8.N, isLast8 (grid8.coords t) ↔ t.val = 9 :=
  (by decide +kernel : ∀ t : Fin grid8.N, isLast8 (grid8.coords t) ↔ t.val = 9)

/-- The three input windows are never idle. -/
theorem live8_0 : ∀ t : Fin cfg8.N, cfg8.idle 0 (grid8.coords t) = false := by decide +kernel
theorem live8_1 : ∀ t : Fin cfg8.N, cfg8.idle 1 (grid8.coords t) = false := by decide +kernel
theorem live8_2 : ∀ t : Fin cfg8.N, cfg8.idle 2 (grid8.coords t) = false := by decide +kernel
/-- The output window is idle, and not written back, at every point but the last; there it is live. -/
theorem idle8_3 : ∀ t : Fin cfg8.N, t.val ≠ 9 → cfg8.idle 3 (grid8.coords t) = true := by decide +kernel
theorem keep8_3 : ∀ t : Fin cfg8.N, t.val ≠ 9 → (cfg8.win 3).flush t = false := by decide +kernel
theorem live8_3 : ∀ t : Fin cfg8.N, t.val = 9 → cfg8.idle 3 (grid8.coords t) = false := by decide +kernel

/-! ## The memrefs the pipeline passes the body at a point -/

abbrev ms8_0 (t : Fin cfg8.N) : Memref sig .tc .vmem S5000x128 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S5000x128 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S5000x1 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S1x1 .f32 := win8_3.stage (cfg8.slots t 3)
abbrev hs8_3 (t : Fin cfg8.N) : (ms8_3 t).IsWhole := hstage8_3 ((cfg8.slots t 3).cast nbuf8_3)
/-- The accumulator: a whole scoped buffer of the kernel's own. -/
abbrev acM8 : Memref sig .tc .vmem S1x1 .f32 := Memref.whole cc8_scratch0
/-- The views through which the accumulator's and the output block's contents are stated. -/
abbrev acV8 : View sig .tc .vmem S1x1 .f32 := acM8.view
abbrev outV8 : View sig .tc .vmem S1x1 .f32 := (Memref.whole cc8_stg3_0 : Memref sig .tc .vmem S1x1 .f32).view

/-! ## The three runs -/

set_option maxHeartbeats 1000000 in
/-- FIRST TILE. The accumulator may hold anything; the output block `xo` is not touched. The accumulator ends with
    the stores `LA`: the clearing store, then the store of  0 + (the tile's partial sum). -/
def run8_first (c : Dev nD) (i : grid8.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : isFirst8 i) (hlast : ¬isLast8 i)
    (h : Vec F S5000x128 .f32) (s : Vec F S5000x128 .f32) (w : Vec F S5000x1 .f32) :
    { LA : List (View.Piece (Elt F) S1x1 .f32) //
      ∀ (xo : Vec F S1x1 .f32) (E : Set ℕ) (K : PUnit → sProp 𝕄),
        iprop(owns (c : Thread nD τ) arg1 fullShare h ∗ owns (c : Thread nD τ) arg2 fullShare s ∗ owns (c : Thread nD τ) arg3 fullShare w
            ∗ owns (c : Thread nD τ) arg4 fullShare xo ∗ (∃ d, owns (c : Thread nD τ) arg5 fullShare d)
            ∗ (iprop(owns (c : Thread nD τ) arg1 fullShare h ∗ owns (c : Thread nD τ) arg2 fullShare s ∗ owns (c : Thread nD τ) arg3 fullShare w
                ∗ owns (c : Thread nD τ) arg4 fullShare xo
                ∗ (∃ f, arg5.view.loc (c : Thread nD τ) ↦[arg5.view.set]{fullShare} arg5.view.writes (Elt F) f LA)) -∗ K ⟨⟩))
          ⊢ wp frame (wpE (defs₀ (F := F)) Variants.none c none) E (cc8_node_reg_kernel i arg1 harg1 arg2 harg2 arg3 harg3 arg4 harg4 arg5 harg5) K } := by
  refine ⟨?_, fun xo E K => ?run⟩
  case run =>
    simp only [cc8_node_reg_kernel_eq_skeleton]; unfold cc8_node_reg_kernel_skel
    unfold owns
    iintro ⟨⟨%f1, %hf1, H1⟩, ⟨%f2, %hf2, H2⟩, ⟨%f3, %hf3, H3⟩, ⟨%f4, %hf4, H4⟩, ⟨%da, %fa, -, HA⟩, Hk⟩
    obtain rfl := harg1.eq_unread hf1; obtain rfl := harg2.eq_unread hf2
    obtain rfl := harg3.eq_unread hf3; obtain rfl := harg4.eq_unread hf4
    sl_exec (disch := first | exact hfirst | exact hlast)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact HA

set_option maxHeartbeats 1000000 in
/-- A MIDDLE TILE. The accumulator holds `a`, what the tile before left; the output block `xo` is not touched. The
    accumulator ends with the one store of  a + (the tile's partial sum). -/
def run8_mid (c : Dev nD) (i : grid8.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst8 i) (hlast : ¬isLast8 i)
    (h : Vec F S5000x128 .f32) (s : Vec F S5000x128 .f32) (w : Vec F S5000x1 .f32) (a : Vec F S1x1 .f32) :
    { LA : List (View.Piece (Elt F) S1x1 .f32) //
      ∀ (xo : Vec F S1x1 .f32) (E : Set ℕ) (K : PUnit → sProp 𝕄),
        iprop(owns (c : Thread nD τ) arg1 fullShare h ∗ owns (c : Thread nD τ) arg2 fullShare s ∗ owns (c : Thread nD τ) arg3 fullShare w
            ∗ owns (c : Thread nD τ) arg4 fullShare xo ∗ owns (c : Thread nD τ) arg5 fullShare a
            ∗ (iprop(owns (c : Thread nD τ) arg1 fullShare h ∗ owns (c : Thread nD τ) arg2 fullShare s ∗ owns (c : Thread nD τ) arg3 fullShare w
                ∗ owns (c : Thread nD τ) arg4 fullShare xo
                ∗ (∃ f, arg5.view.loc (c : Thread nD τ) ↦[arg5.view.set]{fullShare} arg5.view.writes (Elt F) f LA)) -∗ K ⟨⟩))
          ⊢ wp frame (wpE (defs₀ (F := F)) Variants.none c none) E (cc8_node_reg_kernel i arg1 harg1 arg2 harg2 arg3 harg3 arg4 harg4 arg5 harg5) K } := by
  refine ⟨?_, fun xo E K => ?run⟩
  case run =>
    simp only [cc8_node_reg_kernel_eq_skeleton]; unfold cc8_node_reg_kernel_skel
    unfold owns
    iintro ⟨⟨%f1, %hf1, H1⟩, ⟨%f2, %hf2, H2⟩, ⟨%f3, %hf3, H3⟩, ⟨%f4, %hf4, H4⟩, ⟨%fa, %hfa, HA⟩, Hk⟩
    obtain rfl := harg1.eq_unread hf1; obtain rfl := harg2.eq_unread hf2
    obtain rfl := harg3.eq_unread hf3; obtain rfl := harg4.eq_unread hf4
    obtain rfl := harg5.eq_unread hfa
    sl_exec (disch := first | exact hfirst | exact hlast)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact HA

set_option maxHeartbeats 1000000 in
/-- THE LAST TILE. The accumulator holds `a`; the output block may hold anything. The accumulator ends with the store
    `LA` of  a + (the tile's partial sum), the output block with the store `LO` of that same value read back. -/
def run8_last (c : Dev nD) (i : grid8.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst8 i) (hlast : isLast8 i)
    (h : Vec F S5000x128 .f32) (s : Vec F S5000x128 .f32) (w : Vec F S5000x1 .f32) (a : Vec F S1x1 .f32) :
    Σ' (LO : List (View.Piece (Elt F) S1x1 .f32)), { LA : List (View.Piece (Elt F) S1x1 .f32) //
      ∀ (E : Set ℕ) (K : PUnit → sProp 𝕄),
        iprop(owns (c : Thread nD τ) arg1 fullShare h ∗ owns (c : Thread nD τ) arg2 fullShare s ∗ owns (c : Thread nD τ) arg3 fullShare w
            ∗ (∃ d, owns (c : Thread nD τ) arg4 fullShare d) ∗ owns (c : Thread nD τ) arg5 fullShare a
            ∗ (iprop(owns (c : Thread nD τ) arg1 fullShare h ∗ owns (c : Thread nD τ) arg2 fullShare s ∗ owns (c : Thread nD τ) arg3 fullShare w
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LA)) -∗ K ⟨⟩))
          ⊢ wp frame (wpE (defs₀ (F := F)) Variants.none c none) E (cc8_node_reg_kernel i arg1 harg1 arg2 harg2 arg3 harg3 arg4 harg4 arg5 harg5) K } := by
  refine ⟨?_, ?_, fun E K => ?run⟩
  case run =>
    simp only [cc8_node_reg_kernel_eq_skeleton]; unfold cc8_node_reg_kernel_skel
    unfold owns
    iintro ⟨⟨%f1, %hf1, H1⟩, ⟨%f2, %hf2, H2⟩, ⟨%f3, %hf3, H3⟩, ⟨%d4, %f4, -, H4⟩, ⟨%fa, %hfa, HA⟩, Hk⟩
    obtain rfl := harg1.eq_unread hf1; obtain rfl := harg2.eq_unread hf2
    obtain rfl := harg3.eq_unread hf3; obtain rfl := harg5.eq_unread hfa
    sl_exec (disch := first | exact hfirst | exact hlast)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    iexists _; iexact HA

end Cert.Kernel.Hand

end
-- ==== Proof.KB.Reg8.Frame.lean ====
/-
  Region 8: what the accumulator and the output block hold after each row tile, the region's proof data at the
  entry contents `V`, its invariant, and the body obligation.

  The accumulator after tile 0 is what the first-tile run leaves; after tile n + 1 it is what the middle-tile run
  (the last-tile run at n + 1 = 9) leaves when started from the accumulator after tile n. The invariant before
  tile 0 is the class's: every scoped buffer that is no staging buffer at some contents, and the generator register.
  Before tile n + 1 it holds the accumulator at exactly the contents named above, the other scoped buffers at some
  contents, and the generator register. The output block is live only at the last tile, where it receives the
  accumulator's final value; everywhere else its staging buffer is handed back as found.
-/
import proofs.«160050_j32744830665390_2_alg».proof.Proof.KB.Reg8.Runs

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## The input blocks -/

/-- Window `w`'s block at point `t`, read off its array as the region finds it. -/
def blk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## What each case leaves, read back through one fixed view -/

/-- The accumulator after the first tile. -/
def acc8_first (c : Dev nD) (t : Fin cfg8.N) (h0 : t.val = 0)
    (h : Vec F S5000x128 .f32) (s : Vec F S5000x128 .f32) (w : Vec F S5000x1 .f32) : Vec F S1x1 .f32 :=
  acV8.read (Elt F) (acV8.writes (Elt F) acV8.junk
    (run8_first c (grid8.coords t) (ms8_0 t) (hs8_0 t) (ms8_1 t) (hs8_1 t) (ms8_2 t) (hs8_2 t) (ms8_3 t) (hs8_3 t) acM8 (Memref.isWhole_whole _)
      ((isFirst8_iff t).mpr h0) (fun hl => by have := (isLast8_iff t).mp hl; omega) h s w).1)

/-- The accumulator after a middle tile that found it at `a`. -/
def acc8_mid (c : Dev nD) (t : Fin cfg8.N) (h0 : t.val ≠ 0) (h9 : t.val ≠ 9)
    (h : Vec F S5000x128 .f32) (s : Vec F S5000x128 .f32) (w : Vec F S5000x1 .f32) (a : Vec F S1x1 .f32) : Vec F S1x1 .f32 :=
  acV8.read (Elt F) (acV8.writes (Elt F) acV8.junk
    (run8_mid c (grid8.coords t) (ms8_0 t) (hs8_0 t) (ms8_1 t) (hs8_1 t) (ms8_2 t) (hs8_2 t) (ms8_3 t) (hs8_3 t) acM8 (Memref.isWhole_whole _)
      (fun hf => h0 ((isFirst8_iff t).mp hf)) (fun hl => h9 ((isLast8_iff t).mp hl)) h s w a).1)

/-- The accumulator after the last tile, which found it at `a`. -/
def acc8_last (c : Dev nD) (t : Fin cfg8.N) (h9 : t.val = 9)
    (h : Vec F S5000x128 .f32) (s : Vec F S5000x128 .f32) (w : Vec F S5000x1 .f32) (a : Vec F S1x1 .f32) : Vec F S1x1 .f32 :=
  acV8.read (Elt F) (acV8.writes (Elt F) acV8.junk
    (run8_last c (grid8.coords t) (ms8_0 t) (hs8_0 t) (ms8_1 t) (hs8_1 t) (ms8_2 t) (hs8_2 t) (ms8_3 t) (hs8_3 t) acM8 (Memref.isWhole_whole _)
      (fun hf => by have := (isFirst8_iff t).mp hf; omega) ((isLast8_iff t).mpr h9) h s w a).2.1)

/-- The output block after the last tile. -/
def out8_last (c : Dev nD) (t : Fin cfg8.N) (h9 : t.val = 9)
    (h : Vec F S5000x128 .f32) (s : Vec F S5000x128 .f32) (w : Vec F S5000x1 .f32) (a : Vec F S1x1 .f32) : Vec F S1x1 .f32 :=
  outV8.read (Elt F) (outV8.writes (Elt F) outV8.junk
    (run8_last c (grid8.coords t) (ms8_0 t) (hs8_0 t) (ms8_1 t) (hs8_1 t) (ms8_2 t) (hs8_2 t) (ms8_3 t) (hs8_3 t) acM8 (Memref.isWhole_whole _)
      (fun hf => by have := (isFirst8_iff t).mp hf; omega) ((isLast8_iff t).mpr h9) h s w a).1)

/-- Each list of stores covers its one-cell buffer. -/
theorem cover8_first (c : Dev nD) (i : grid8.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : isFirst8 i) (hlast : ¬isLast8 i)
    (h : Vec F S5000x128 .f32) (s : Vec F S5000x128 .f32) (w : Vec F S5000x1 .f32) (y : S1x1.Idx) :
    ∃ pc ∈ (run8_first c i arg1 harg1 arg2 harg2 arg3 harg3 arg4 harg4 arg5 harg5 hfirst hlast h s w).1, y ∈ pc.1.set :=
  View.cover_of_tiledL _ S1x1.size (by sl_kernel_rfl) y

theorem cover8_mid (c : Dev nD) (i : grid8.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst8 i) (hlast : ¬isLast8 i)
    (h : Vec F S5000x128 .f32) (s : Vec F S5000x128 .f32) (w : Vec F S5000x1 .f32) (a : Vec F S1x1 .f32) (y : S1x1.Idx) :
    ∃ pc ∈ (run8_mid c i arg1 harg1 arg2 harg2 arg3 harg3 arg4 harg4 arg5 harg5 hfirst hlast h s w a).1, y ∈ pc.1.set :=
  View.cover_of_tiledL _ S1x1.size (by sl_kernel_rfl) y

theorem cover8_last_acc (c : Dev nD) (i : grid8.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst8 i) (hlast : isLast8 i)
    (h : Vec F S5000x128 .f32) (s : Vec F S5000x128 .f32) (w : Vec F S5000x1 .f32) (a : Vec F S1x1 .f32) (y : S1x1.Idx) :
    ∃ pc ∈ (run8_last c i arg1 harg1 arg2 harg2 arg3 harg3 arg4 harg4 arg5 harg5 hfirst hlast h s w a).2.1, y ∈ pc.1.set :=
  View.cover_of_tiledL _ S1x1.size (by sl_kernel_rfl) y

theorem cover8_last_out (c : Dev nD) (i : grid8.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst8 i) (hlast : isLast8 i)
    (h : Vec F S5000x128 .f32) (s : Vec F S5000x128 .f32) (w : Vec F S5000x1 .f32) (a : Vec F S1x1 .f32) (y : S1x1.Idx) :
    ∃ pc ∈ (run8_last c i arg1 harg1 arg2 harg2 arg3 harg3 arg4 harg4 arg5 harg5 hfirst hlast h s w a).1, y ∈ pc.1.set :=
  View.cover_of_tiledL _ S1x1.size (by sl_kernel_rfl) y

/-! ## The accumulator and the output block, tile by tile -/

/-- THE RUNNING TOTAL: what the accumulator holds after the body at position `n`. -/
def acc8 (c : Dev nD) : (n : ℕ) → n < cfg8.N → Vec F S1x1 .f32
  | 0, hn => acc8_first c ⟨0, hn⟩ rfl (blk8 V c 0 ⟨0, hn⟩) (blk8 V c 1 ⟨0, hn⟩) (blk8 V c 2 ⟨0, hn⟩)
  | n + 1, hn =>
    if h9 : n + 1 = 9 then
      acc8_last c ⟨n + 1, hn⟩ h9 (blk8 V c 0 ⟨n + 1, hn⟩) (blk8 V c 1 ⟨n + 1, hn⟩) (blk8 V c 2 ⟨n + 1, hn⟩) (acc8 c n (Nat.lt_of_succ_lt hn))
    else
      acc8_mid c ⟨n + 1, hn⟩ (Nat.succ_ne_zero n) h9 (blk8 V c 0 ⟨n + 1, hn⟩) (blk8 V c 1 ⟨n + 1, hn⟩) (blk8 V c 2 ⟨n + 1, hn⟩) (acc8 c n (Nat.lt_of_succ_lt hn))

/-- The accumulator just before point `t`, for `t` not the first: what the point before left. -/
abbrev accBefore8 (c : Dev nD) (t : Fin cfg8.N) : Vec F S1x1 .f32 :=
  acc8 V c (t.val - 1) (Nat.lt_of_le_of_lt (Nat.sub_le _ _) t.isLt)

theorem acc8_at_first (c : Dev nD) (t : Fin cfg8.N) (h0 : t.val = 0) :
    acc8 V c t.val t.isLt = acc8_first c t h0 (blk8 V c 0 t) (blk8 V c 1 t) (blk8 V c 2 t) := by
  obtain ⟨n, hn⟩ := t
  cases n with
  | zero => rfl
  | succ n => exact absurd h0 (Nat.succ_ne_zero n)

theorem acc8_at_mid (c : Dev nD) (t : Fin cfg8.N) (h0 : t.val ≠ 0) (h9 : t.val ≠ 9) :
    acc8 V c t.val t.isLt = acc8_mid c t h0 h9 (blk8 V c 0 t) (blk8 V c 1 t) (blk8 V c 2 t) (accBefore8 V c t) := by
  obtain ⟨n, hn⟩ := t
  cases n with
  | zero => exact absurd rfl h0
  | succ n => exact (dif_neg h9).trans rfl

theorem acc8_at_last (c : Dev nD) (t : Fin cfg8.N) (h9 : t.val = 9) :
    acc8 V c t.val t.isLt = acc8_last c t h9 (blk8 V c 0 t) (blk8 V c 1 t) (blk8 V c 2 t) (accBefore8 V c t) := by
  obtain ⟨n, hn⟩ := t
  cases n with
  | zero => exact absurd h9 (show ¬ (0 : ℕ) = 9 by decide)
  | succ n => exact (dif_pos h9).trans rfl

/-- What the output window's staging buffer holds after the body at point `t`: at the last point the accumulator's
    final value as the last-tile run stores it; the value at the other points is consulted nowhere (the window is
    idle there and not written back). -/
def out8 (c : Dev nD) (t : Fin cfg8.N) : Vec F S1x1 .f32 :=
  if h9 : t.val = 9 then out8_last c t h9 (blk8 V c 0 t) (blk8 V c 1 t) (blk8 V c 2 t) (accBefore8 V c t)
  else acc8 V c t.val t.isLt

/-! ## The invariant -/

/-- Before position `n`: at the first point the class's invariant; afterwards the accumulator at the running total,
    the other scoped buffers at some contents, the generator register at some state. -/
def Phi8 (c : Dev nD) : (n : ℕ) → n ≤ cfg8.N → sProp 𝕄
  | 0, _ => Pipeline.ΦA (U := UR sig nD τ) (Val := Elt F) spec8 c
  | n + 1, hn => iprop(iprop(owns (c : Thread nD τ) acM8 fullShare (acc8 V c n hn)
      ∗ Pipeline.scopedRestBut (Ix := Unit) (Name := ℕ) (U := UR sig nD τ) (Lvl := ℕ) (Val := Elt F) spec8 c [cc8_scratch0]) ∗ (∃ r, prngReg c r))

theorem Phi8_zero (c : Dev nD) (n : ℕ) (hn : n ≤ cfg8.N) (hz : n = 0) :
    Phi8 V c n hn = Pipeline.ΦA (U := UR sig nD τ) (Val := Elt F) spec8 c := by
  subst hz; rfl

theorem Phi8_succ (c : Dev nD) (n : ℕ) (hn : n < cfg8.N) :
    Phi8 V c (n + 1) hn = iprop(iprop(owns (c : Thread nD τ) acM8 fullShare (acc8 V c n hn)
      ∗ Pipeline.scopedRestBut (Ix := Unit) (Name := ℕ) (U := UR sig nD τ) (Lvl := ℕ) (Val := Elt F) spec8 c [cc8_scratch0]) ∗ (∃ r, prngReg c r)) := rfl

theorem Phi8_pos (c : Dev nD) (n : ℕ) (hn : n ≤ cfg8.N) (hz : n ≠ 0) :
    Phi8 V c n hn = iprop(iprop(owns (c : Thread nD τ) acM8 fullShare (acc8 V c (n - 1) (by omega))
      ∗ Pipeline.scopedRestBut (Ix := Unit) (Name := ℕ) (U := UR sig nD τ) (Lvl := ℕ) (Val := Elt F) spec8 c [cc8_scratch0]) ∗ (∃ r, prngReg c r)) := by
  cases n with
  | zero => exact absurd rfl hz
  | succ n => rfl

/-- The class's invariant with the accumulator singled out of the scoped rest. -/
theorem PhiA8_open (c : Dev nD) :
    (Pipeline.ΦA (U := UR sig nD τ) (Val := Elt F) spec8 c : sProp 𝕄)
      = iprop(iprop((∃ d, owns (c : Thread nD τ) acM8 fullShare d)
          ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [acM8, owns_whole]; try rfl

/-! ## The proof data -/

/-- Region 8's proof data on core `c`: the arrays as the region finds them; after the body each input's buffer still
    at its block, the output's at `out8`; the invariant `Phi8`; full shares; nothing owed. -/
def dat8 (c : Dev nD) : Dat τ (Elt F) Unit ℕ (UR sig nD τ) ℕ cfg8 c where
  A w := V c (Pipeline.arrRef spec8 w)
  after w t := match w with
    | ⟨0, _⟩ => blk8 V c 0 t
    | ⟨1, _⟩ => blk8 V c 1 t
    | ⟨2, _⟩ => blk8 V c 2 t
    | ⟨3, _⟩ => out8 V c t
  Φ t := Phi8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem q_eq8 (c : Dev nD) (w : Fin cfg8.W) : (dat8 V c).q w = fullShare := by
  dsimp only [dat8]

theorem owed_eq8 (c : Dev nD) (t : Fin (cfg8.N + 1)) : (dat8 V c).owed t = 0 := by
  dsimp only [dat8]

theorem Phi8_castSucc (c : Dev nD) (t : Fin cfg8.N) :
    (dat8 V c).Φ t.castSucc = Phi8 V c t.val (Nat.le_of_lt t.isLt) := by
  dsimp only [dat8]; simp only [Fin.coe_castSucc]

theorem after8_0 (c : Dev nD) (t : Fin cfg8.N) : (dat8 V c).after 0 t = blk8 V c 0 t := by dsimp only [dat8]
theorem after8_1 (c : Dev nD) (t : Fin cfg8.N) : (dat8 V c).after 1 t = blk8 V c 1 t := by dsimp only [dat8]
theorem after8_2 (c : Dev nD) (t : Fin cfg8.N) : (dat8 V c).after 2 t = blk8 V c 2 t := by dsimp only [dat8]
theorem after8_3 (c : Dev nD) (t : Fin cfg8.N) : (dat8 V c).after 3 t = out8 V c t := by dsimp only [dat8]

/-- Every input window is fetched at every point, so its current buffer holds the array's block there. -/
theorem before8_0 (c : Dev nD) (t : Fin cfg8.N) (d) : (dat8 V c).before 0 t d = blk8 V c 0 t :=
  ((dat8 V c).before_fetched 0 t (fetch8_0 t) d).trans (by unfold Dat.fetched Dat.blockOf blk8; rw [A_eq8]; try rfl)
theorem before8_1 (c : Dev nD) (t : Fin cfg8.N) (d) : (dat8 V c).before 1 t d = blk8 V c 1 t :=
  ((dat8 V c).before_fetched 1 t (fetch8_1 t) d).trans (by unfold Dat.fetched Dat.blockOf blk8; rw [A_eq8]; try rfl)
theorem before8_2 (c : Dev nD) (t : Fin cfg8.N) (d) : (dat8 V c).before 2 t d = blk8 V c 2 t :=
  ((dat8 V c).before_fetched 2 t (fetch8_2 t) d).trans (by unfold Dat.fetched Dat.blockOf blk8; rw [A_eq8]; try rfl)

/-! ## The body obligation -/

/-- What the body is called with at point `t`, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t)

theorem leaves8_0 (c : Dev nD) (t : Fin cfg8.N) :
    (dat8 V c).leavesExact 0 t = owns (c : Thread nD τ) (ms8_0 t) fullShare (blk8 V c 0 t) := by
  unfold Dat.leavesExact; rw [live8_0 t, after8_0]
theorem leaves8_1 (c : Dev nD) (t : Fin cfg8.N) :
    (dat8 V c).leavesExact 1 t = owns (c : Thread nD τ) (ms8_1 t) fullShare (blk8 V c 1 t) := by
  unfold Dat.leavesExact; rw [live8_1 t, after8_1]
theorem leaves8_2 (c : Dev nD) (t : Fin cfg8.N) :
    (dat8 V c).leavesExact 2 t = owns (c : Thread nD τ) (ms8_2 t) fullShare (blk8 V c 2 t) := by
  unfold Dat.leavesExact; rw [live8_2 t, after8_2]
theorem leaves8_3_idle (c : Dev nD) (t : Fin cfg8.N) (h9 : t.val ≠ 9) :
    (dat8 V c).leavesExact 3 t = iprop(∃ d, owns (c : Thread nD τ) (ms8_3 t) fullShare ((dat8 V c).before 3 t d)) :=
  Dat.leavesExact_idle (dat8 V c) 3 t (idle8_3 t h9) (keep8_3 t h9)
theorem leaves8_3_live (c : Dev nD) (t : Fin cfg8.N) (h9 : t.val = 9) :
    (dat8 V c).leavesExact 3 t = owns (c : Thread nD τ) (ms8_3 t) fullShare (out8 V c t) := by
  unfold Dat.leavesExact; rw [live8_3 t h9, after8_3]

set_option maxHeartbeats 4800000 in
/-- The body at any point. The inputs' buffers hold their blocks; the point's position decides the case; the invariant
    hands the run the accumulator (at anything before the first tile, at the running total afterwards) and takes it
    back at the new running total, the run's stores covering the one cell; the rest of the invariant and what the
    core owes pass through untouched. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).owesAt () t.succ = (dat8 V c).owesAt () t.castSucc from rfl]
  rw [show (dat8 V c).Φ t.succ = Phi8 V c (t.val + 1) t.isLt from rfl, Phi8_succ]
  rw [leaves8_0, leaves8_1, leaves8_2, Phi8_castSucc]
  have hN : t.val < 10 := lt_of_lt_of_eq t.isLt (show cfg8.N = 10 from N_8)
  by_cases h0 : t.val = 0
  · -- the first tile
    have h9 : t.val ≠ 9 := by omega
    rw [leaves8_3_idle V c t h9, acc8_at_first V c t h0, Phi8_zero V c _ _ h0, PhiA8_open]
    unfold acc8_first
    iintro ⟨⟨⟨HA, HR⟩, Hg⟩, Ho, ⟨%d0, H0⟩, ⟨%d1, H1⟩, ⟨%d2, H2⟩, ⟨%d3, H3⟩⟩
    iapply ((run8_first c (grid8.coords t) _ _ _ _ _ _ _ _ _ _ ((isFirst8_iff t).mpr h0)
      (fun hl => by have := (isLast8_iff t).mp hl; omega) (blk8 V c 0 t) (blk8 V c 1 t) (blk8 V c 2 t)).2 _ Set.univ _)
    isplitl [H0]; · iexact H0
    isplitl [H1]; · iexact H1
    isplitl [H2]; · iexact H2
    isplitl [H3]; · iexact H3
    isplitl [HA]; · iexact HA
    iintro ⟨H0, H1, H2, H3, ⟨%ea, HA⟩⟩
    isplitl [HA HR Hg]
    · isplitr [Hg]
      · isplitl [HA]
        · unfold owns; iexists _; isplitr
          swap; · iexact HA
          ipureintro; exact View.read_writes_of_cover _ _ _ _ _ (cover8_first c _ _ _ _ _ _ _ _ _ _ _ _ _ _ _ _)
        iexact HR
      iexact Hg
    isplitl [Ho]; · iexact Ho
    isplitl [H0]; · iexact H0
    isplitl [H1]; · iexact H1
    isplitl [H2]; · iexact H2
    iexists _; iexact H3
  · by_cases h9 : t.val = 9
    · -- the last tile
      rw [leaves8_3_live V c t h9, acc8_at_last V c t h9, Phi8_pos V c _ _ h0]
      unfold out8; rw [dif_pos h9]
      unfold acc8_last out8_last
      iintro ⟨⟨⟨HA, HR⟩, Hg⟩, Ho, ⟨%d0, H0⟩, ⟨%d1, H1⟩, ⟨%d2, H2⟩, ⟨%d3, H3⟩⟩
      iapply ((run8_last c (grid8.coords t) _ _ _ _ _ _ _ _ _ _ (fun hf => by have := (isFirst8_iff t).mp hf; omega)
        ((isLast8_iff t).mpr h9) (blk8 V c 0 t) (blk8 V c 1 t) (blk8 V c 2 t) (accBefore8 V c t)).2.2 Set.univ _)
      isplitl [H0]; · iexact H0
      isplitl [H1]; · iexact H1
      isplitl [H2]; · iexact H2
      isplitl [H3]; · iexists _; iexact H3
      isplitl [HA]; · iexact HA
      iintro ⟨H0, H1, H2, ⟨%eo, H3⟩, ⟨%ea, HA⟩⟩
      isplitl [HA HR Hg]
      · isplitr [Hg]
        · isplitl [HA]
          · unfold owns; iexists _; isplitr
            swap; · iexact HA
            ipureintro; exact View.read_writes_of_cover _ _ _ _ _ (cover8_last_acc c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover8_last_out c _ _ _ _ _ _ _ _ _ _ _ _ _ _ _ _ _)
    · -- a middle tile
      rw [leaves8_3_idle V c t h9, acc8_at_mid V c t h0 h9, Phi8_pos V c _ _ h0]
      unfold acc8_mid
      iintro ⟨⟨⟨HA, HR⟩, Hg⟩, Ho, ⟨%d0, H0⟩, ⟨%d1, H1⟩, ⟨%d2, H2⟩, ⟨%d3, H3⟩⟩
      iapply ((run8_mid c (grid8.coords t) _ _ _ _ _ _ _ _ _ _ (fun hf => h0 ((isFirst8_iff t).mp hf))
        (fun hl => h9 ((isLast8_iff t).mp hl)) (blk8 V c 0 t) (blk8 V c 1 t) (blk8 V c 2 t) (accBefore8 V c t)).2 _ Set.univ _)
      isplitl [H0]; · iexact H0
      isplitl [H1]; · iexact H1
      isplitl [H2]; · iexact H2
      isplitl [H3]; · iexact H3
      isplitl [HA]; · iexact HA
      iintro ⟨H0, H1, H2, H3, ⟨%ea, HA⟩⟩
      isplitl [HA HR Hg]
      · isplitr [Hg]
        · isplitl [HA]
          · unfold owns; iexists _; isplitr
            swap; · iexact HA
            ipureintro; exact View.read_writes_of_cover _ _ _ _ _ (cover8_mid c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation8 (c : Dev nD) : BodyObligation (dat8 (F := F) V c) (defs₀ (F := F)) Variants.none () Set.univ := fun t => by
  rw [bigSep_W8, bigSep_W8]
  exact sound_body8 V c t

/-! ## The invariant's two ends -/

/-- The class's invariant is the invariant before the first point. -/
theorem Phi_in8 (c : Dev nD) : (Pipeline.ΦA (U := UR sig nD τ) (Val := Elt F) spec8 c : sProp 𝕄) ⊢ (dat8 V c).Φ 0 := by
  rw [show (dat8 V c).Φ 0 = Phi8 V c 0 (Nat.zero_le _) from rfl, Phi8_zero V c 0 _ rfl]
  try exact Entails.refl _

/-- After the last point the invariant gives the class's back: the accumulator's contents are forgotten. -/
theorem Phi_out8 (c : Dev nD) : (dat8 V c).Φ (Fin.last cfg8.N) ⊢ (Pipeline.ΦA (U := UR sig nD τ) (Val := Elt F) spec8 c : sProp 𝕄) := by
  have hne : (Fin.last cfg8.N).val ≠ 0 := by rw [Fin.val_last]; have : cfg8.N = 10 := N_8; omega
  rw [show (dat8 V c).Φ (Fin.last cfg8.N) = Phi8 V c (Fin.last cfg8.N).val (Nat.le_of_lt_succ (Fin.last cfg8.N).isLt) from rfl,
    Phi8_pos V c _ _ hne, PhiA8_open]
  iintro ⟨⟨HA, HR⟩, Hg⟩
  isplitr [Hg]
  · isplitl [HA]
    · iexists _; iexact HA
    iexact HR
  iexact Hg

end Cert.Kernel.Hand

end
-- ==== Proof.KB.Reg8.Value.lean ====
/-
  Region 8: the value. After the run the one-cell result array holds the running total after the tenth row tile:
  starting from the cleared accumulator, tile after tile in grid order, the accumulator plus the tile's partial sum
    Σ_r (w r · Σ_k h r k · h r k − 2 · Σ_k h r k · s r k),   r over the tile's 5000 rows, k over the 128 features,
  each tile being rows 5000·n … 5000·n + 4999 of the three input arrays.

  First each case's list of stores is read back as the update applied to the tile's blocks and the accumulator found;
  then the running total is the ordered chain over the tiles (induction on the tile); then each block is the array's
  rows; then the single write-back, at the last tile, covers the one-cell array.
-/
import proofs.«160050_j32744830665390_2_alg».proof.Proof.KB.Reg8.Frame
import Idealize.ShloMosaic.Lib.Pipeline.Value
import Idealize.ShloMosaic.Lib.ValueIdx

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

open Idealize.ShloMosaic.ValueIdx (ix2)

theorem hz8 : (![0, 0] : Fin 2 → Nat) = fun _ => 0 := funext fun a => by fin_cases a <;> rfl

/-! ## What each case's stores leave -/

/-- First tile: the accumulator is cleared, then the tile's partial sum is added to the cleared value. -/
theorem first_stores8 (c : Dev nD) (i : grid8.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : isFirst8 i) (hlast : ¬isLast8 i)
    (h : Vec F S5000x128 .f32) (s : Vec F S5000x128 .f32) (w : Vec F S5000x1 .f32) :
    acV8.read (Elt F) (acV8.writes (Elt F) acV8.junk
      (run8_first c i arg1 harg1 arg2 harg2 arg3 harg3 arg4 harg4 arg5 harg5 hfirst hlast h s w).1) = k8_pay2 h s w (k8_pay1 (F := F)) := by
  rw [View.read_writes_eq_canon _ _ _ (cover8_first c i arg1 harg1 arg2 harg2 arg3 harg3 arg4 harg4 arg5 harg5 hfirst hlast h s w)]
  unfold run8_first
  dsimp only
  try sl_unfold_words
  rw [View.canon_cons_unit_zero (S := S1x1) hz8]
  simp only [View.readAt_eq_ld, harg1.read_unread, harg2.read_unread, harg3.read_unread, View.ld_unit_zero (S := S5000x128) hz8,
    View.ld_unit_zero (S := S5000x1) hz8, View.readCov_unit_zero (S := S1x1) _ hz8]

/-- A middle tile: the tile's partial sum is added to what the accumulator held. -/
theorem mid_stores8 (c : Dev nD) (i : grid8.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst8 i) (hlast : ¬isLast8 i)
    (h : Vec F S5000x128 .f32) (s : Vec F S5000x128 .f32) (w : Vec F S5000x1 .f32) (a : Vec F S1x1 .f32) :
    acV8.read (Elt F) (acV8.writes (Elt F) acV8.junk
      (run8_mid c i arg1 harg1 arg2 harg2 arg3 harg3 arg4 harg4 arg5 harg5 hfirst hlast h s w a).1) = k8_pay2 h s w a := by
  rw [View.read_writes_eq_canon _ _ _ (cover8_mid c i arg1 harg1 arg2 harg2 arg3 harg3 arg4 harg4 arg5 harg5 hfirst hlast h s w a)]
  unfold run8_mid
  dsimp only
  try sl_unfold_words
  rw [View.canon_unit_zero (S := S1x1) hz8]
  simp only [View.readAt_eq_ld, harg1.read_unread, harg2.read_unread, harg3.read_unread, harg5.read_unread, View.ld_unit_zero (S := S5000x128) hz8,
    View.ld_unit_zero (S := S5000x1) hz8, View.ld_unit_zero (S := S1x1) hz8]

/-- The last tile leaves the same update in the accumulator, -/
theorem last_stores_acc8 (c : Dev nD) (i : grid8.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst8 i) (hlast : isLast8 i)
    (h : Vec F S5000x128 .f32) (s : Vec F S5000x128 .f32) (w : Vec F S5000x1 .f32) (a : Vec F S1x1 .f32) :
    acV8.read (Elt F) (acV8.writes (Elt F) acV8.junk
      (run8_last c i arg1 harg1 arg2 harg2 arg3 harg3 arg4 harg4 arg5 harg5 hfirst hlast h s w a).2.1) = k8_pay2 h s w a := by
  rw [View.read_writes_eq_canon _ _ _ (cover8_last_acc c i arg1 harg1 arg2 harg2 arg3 harg3 arg4 harg4 arg5 harg5 hfirst hlast h s w a)]
  unfold run8_last
  dsimp only
  try sl_unfold_words
  rw [View.canon_unit_zero (S := S1x1) hz8]
  simp only [View.readAt_eq_ld, harg1.read_unread, harg2.read_unread, harg3.read_unread, harg5.read_unread, View.ld_unit_zero (S := S5000x128) hz8,
    View.ld_unit_zero (S := S5000x1) hz8, View.ld_unit_zero (S := S1x1) hz8]

/-- and copies that value, read back from the accumulator, to the output block. -/
theorem last_stores_out8 (c : Dev nD) (i : grid8.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst8 i) (hlast : isLast8 i)
    (h : Vec F S5000x128 .f32) (s : Vec F S5000x128 .f32) (w : Vec F S5000x1 .f32) (a : Vec F S1x1 .f32) :
    outV8.read (Elt F) (outV8.writes (Elt F) outV8.junk
      (run8_last c i arg1 harg1 arg2 harg2 arg3 harg3 arg4 harg4 arg5 harg5 hfirst hlast h s w a).1) = k8_pay2 h s w a := by
  rw [View.read_writes_eq_canon _ _ _ (cover8_last_out c i arg1 harg1 arg2 harg2 arg3 harg3 arg4 harg4 arg5 harg5 hfirst hlast h s w a)]
  unfold run8_last
  dsimp only
  try sl_unfold_words
  rw [View.canon_unit_zero (S := S1x1) hz8]
  simp only [View.readAt_eq_ld, harg1.read_unread, harg2.read_unread, harg3.read_unread, harg5.read_unread, View.ld_unit_zero (S := S5000x128) hz8,
    View.ld_unit_zero (S := S5000x1) hz8, View.ld_unit_zero (S := S1x1) hz8, View.readCov_unit_zero (S := S1x1) _ hz8]

/-! ## The arrays' row tiles and the ordered chain over them -/

/-- Row tile `n` of a table with 50000 rows of 128 entries: rows 5000·n … 5000·n + 4999. -/
def rowsA8 (X : Vec F S50000x128 .f32) (n : Fin 10) : Vec F S5000x128 .f32 := fun y =>
  X (ix2 ⟨5000 * n.val + (y 0).val, by have h1 : (y 0).val < 5000 := (y 0).isLt; have h2 := n.isLt; omega⟩ ⟨(y 1).val, (y 1).isLt⟩)

/-- Row tile `n` of a column of 50000 entries. -/
def rowsW8 (X : Vec F S50000x1 .f32) (n : Fin 10) : Vec F S5000x1 .f32 := fun y =>
  X (ix2 ⟨5000 * n.val + (y 0).val, by have h1 : (y 0).val < 5000 := (y 0).isLt; have h2 := n.isLt; omega⟩ ⟨(y 1).val, (y 1).isLt⟩)

/-- The running total after row tile `n`, as a function of the three whole arrays: the cleared accumulator updated
    by tile 0, then by tile 1, …, then by tile `n`. -/
def tot8 (H S : Vec F S50000x128 .f32) (W : Vec F S50000x1 .f32) : (n : ℕ) → n < 10 → Vec F S1x1 .f32
  | 0, hn => k8_pay2 (rowsA8 H ⟨0, hn⟩) (rowsA8 S ⟨0, hn⟩) (rowsW8 W ⟨0, hn⟩) (k8_pay1 (F := F))
  | n + 1, hn => k8_pay2 (rowsA8 H ⟨n + 1, hn⟩) (rowsA8 S ⟨n + 1, hn⟩) (rowsW8 W ⟨n + 1, hn⟩) (tot8 H S W n (Nat.lt_of_succ_lt hn))

/-- THE RESULT as one function of the region's three input arrays: the running total after the tenth tile. -/
def G8_3 (H S : Vec F S50000x128 .f32) (W : Vec F S50000x1 .f32) : Vec F S1x1 .f32 := tot8 H S W 9 (by decide)

/-- The three input arrays as the region finds them. -/
abbrev hArr8 (c : Dev nD) : Vec F S50000x128 .f32 := V c (Pipeline.arrRef spec8 0)
abbrev sArr8 (c : Dev nD) : Vec F S50000x128 .f32 := V c (Pipeline.arrRef spec8 1)
abbrev wArr8 (c : Dev nD) : Vec F S50000x1 .f32 := V c (Pipeline.arrRef spec8 2)

/-! ## Each input block is its array's row tile -/

theorem point_lt8 (t : Fin cfg8.N) : t.val < 10 := lt_of_lt_of_eq t.isLt (show cfg8.N = 10 from N_8)

theorem blk8_0_rows (c : Dev nD) (t : Fin cfg8.N) :
    (blk8 V c 0 t : Vec F S5000x128 .f32) = rowsA8 (hArr8 V c) ⟨t.val, point_lt8 t⟩ := by
  have hi : win8_0.index t 0 = t.val ∧ win8_0.index t 1 = 0 := by
    rcases fin_N8 t with rfl | rfl | rfl | rfl | rfl | rfl | rfl | rfl | rfl | rfl <;> decide
  funext y
  unfold blk8 rowsA8
  rw [View.read_apply]
  show V c (Pipeline.arrRef spec8 0) _ = V c (Pipeline.arrRef spec8 0) _
  congr 1
  funext a
  apply Fin.ext
  match a with
  | ⟨0, _⟩ => show win8_0.index t 0 * 5000 + 1 * (y 0).val = 5000 * t.val + (y 0).val; rw [hi.1]; omega
  | ⟨1, _⟩ => show win8_0.index t 1 * 128 + 1 * (y 1).val = (y 1).val; rw [hi.2]; omega

theorem blk8_1_rows (c : Dev nD) (t : Fin cfg8.N) :
    (blk8 V c 1 t : Vec F S5000x128 .f32) = rowsA8 (sArr8 V c) ⟨t.val, point_lt8 t⟩ := by
  have hi : win8_1.index t 0 = t.val ∧ win8_1.index t 1 = 0 := by
    rcases fin_N8 t with rfl | rfl | rfl | rfl | rfl | rfl | rfl | rfl | rfl | rfl <;> decide
  funext y
  unfold blk8 rowsA8
  rw [View.read_apply]
  show V c (Pipeline.arrRef spec8 1) _ = V c (Pipeline.arrRef spec8 1) _
  congr 1
  funext a
  apply Fin.ext
  match a with
  | ⟨0, _⟩ => show win8_1.index t 0 * 5000 + 1 * (y 0).val = 5000 * t.val + (y 0).val; rw [hi.1]; omega
  | ⟨1, _⟩ => show win8_1.index t 1 * 128 + 1 * (y 1).val = (y 1).val; rw [hi.2]; omega

theorem blk8_2_rows (c : Dev nD) (t : Fin cfg8.N) :
    (blk8 V c 2 t : Vec F S5000x1 .f32) = rowsW8 (wArr8 V c) ⟨t.val, point_lt8 t⟩ := by
  have hi : win8_2.index t 0 = t.val ∧ win8_2.index t 1 = 0 := by
    rcases fin_N8 t with rfl | rfl | rfl | rfl | rfl | rfl | rfl | rfl | rfl | rfl <;> decide
  funext y
  unfold blk8 rowsW8
  rw [View.read_apply]
  show V c (Pipeline.arrRef spec8 2) _ = V c (Pipeline.arrRef spec8 2) _
  congr 1
  funext a
  apply Fin.ext
  match a with
  | ⟨0, _⟩ => show win8_2.index t 0 * 5000 + 1 * (y 0).val = 5000 * t.val + (y 0).val; rw [hi.1]; omega
  | ⟨1, _⟩ => show win8_2.index t 1 * 1 + 1 * (y 1).val = (y 1).val; rw [hi.2]; omega

/-! ## The running total is the chain -/

theorem acc8_eq_tot (c : Dev nD) : ∀ (n : ℕ) (hn : n < cfg8.N),
    acc8 V c n hn = tot8 (hArr8 V c) (sArr8 V c) (wArr8 V c) n (lt_of_lt_of_eq hn (show cfg8.N = 10 from N_8))
  | 0, hn => by
    refine (acc8_at_first V c ⟨0, hn⟩ rfl).trans ?_
    unfold acc8_first
    rw [first_stores8, blk8_0_rows, blk8_1_rows, blk8_2_rows]
    rfl
  | n + 1, hn => by
    by_cases h9 : n + 1 = 9
    · refine (acc8_at_last V c ⟨n + 1, hn⟩ h9).trans ?_
      unfold acc8_last
      rw [last_stores_acc8, blk8_0_rows, blk8_1_rows, blk8_2_rows]
      show k8_pay2 _ _ _ (acc8 V c n _) = _
      rw [acc8_eq_tot c n (Nat.lt_of_succ_lt hn)]
      rfl
    · refine (acc8_at_mid V c ⟨n + 1, hn⟩ (Nat.succ_ne_zero n) h9).trans ?_
      unfold acc8_mid
      rw [mid_stores8, blk8_0_rows, blk8_1_rows, blk8_2_rows]
      show k8_pay2 _ _ _ (acc8 V c n _) = _
      rw [acc8_eq_tot c n (Nat.lt_of_succ_lt hn)]
      rfl

/-- At the last tile the output block receives the accumulator's final value. -/
theorem out8_at_last (c : Dev nD) (t : Fin cfg8.N) (h9 : t.val = 9) : out8 V c t = acc8 V c t.val t.isLt := by
  unfold out8
  rw [dif_pos h9, acc8_at_last V c t h9]
  unfold out8_last acc8_last
  rw [last_stores_out8, last_stores_acc8]

/-! ## The write-back and the array after the run -/

/-- The one write-back, at the last tile, writes the result: the window's block there is the whole one-cell array. -/
theorem flushed8_3 (c : Dev nD) (t : Fin cfg8.N) (hf : (cfg8.win 3).flush t = true) :
    (dat8 V c).flushed 3 t = ((cfg8.win 3).blk t).view.read (Elt F) (G8_3 (hArr8 V c) (sArr8 V c) (wArr8 V c)) := by
  have hN : cfg8.N = 10 := N_8
  have h9 : t.val = 9 := by have := (flush8_3 t).mp hf; have := t.isLt; omega
  show (cfg8.win 3).cut (grid8.coords t) ((dat8 V c).after 3 t) = _
  rw [after8_3, out8_at_last V c t h9, acc8_eq_tot V c t.val t.isLt]
  obtain rfl : t = t8_9 := Fin.ext h9
  have hz' : (fun a => win8_3.index t8_9 a * (Pipeline.arrRef spec8 3).ty.shape.size a) = fun _ => 0 :=
    funext fun a => by fin_cases a <;> decide
  exact (Memref.read_access_unit_zero (Elt F) (Pipeline.arrRef spec8 3) hz' (fun a => by rw [congrFun hz' a]; simp)
    (G8_3 (hArr8 V c) (sArr8 V c) (wArr8 V c))).symm

/-- THE VALUE: after the run the result array holds `G8_3` of the three input arrays as the region found them. -/
theorem final8_3 (c : Dev nD) :
    (dat8 V c).arrAt 3 cfg8.N = G8_3 (hArr8 V c) (sArr8 V c) (wArr8 V c) :=
  (dat8 V c).arrAt_eq_of_cover 3 (G8_3 (hArr8 V c) (sArr8 V c) (wArr8 V c)) (flushed8_3 V c) fun i =>
    ⟨t8_9, (flush8_3 t8_9).mpr rfl, by
      -- the array has one cell, at coordinates (0, 0); the last point's block starts at (0, 0) and has extent (1, 1)
      show i ∈ ((View.whole (Pipeline.arrRef spec8 3)).slice (win8_3.rect t8_9)).set
      rw [View.set_slice_whole, Rect.mem_set_unit]
      intro a
      have hlt : (i a : Nat) < 1 := by fin_cases a <;> exact (i _).isLt
      have hoff : win8_3.index t8_9 a * win8_3.size a = 0 := by fin_cases a <;> decide
      have hext : win8_3.xsize (grid8.coords t8_9) a = 1 := by fin_cases a <;> decide
      show win8_3.index t8_9 a * win8_3.size a ≤ (i a : Nat)
        ∧ (i a : Nat) < win8_3.index t8_9 a * win8_3.size a + win8_3.xsize (grid8.coords t8_9) a
      rw [hoff, hext]; omega⟩

end Cert.Kernel.Hand

end
-- ==== Proof.KB.Reg8.lean ====
/-
  Region 8 (custom call 8): the body's runs per control case, the proof data with its invariant and body
  obligation, and the value of the result array — one import for the three modules.
-/
import proofs.«160050_j32744830665390_2_alg».proof.Proof.KB.Reg8.Frame
import proofs.«160050_j32744830665390_2_alg».proof.Proof.KB.Reg8.Value
-- ==== Proof.KB.Reg9.Runs.lean ====
/-
  Region 9 (custom call 9, the node-wise Dirichlet term of one hidden state): the kernel body run once per
  control case.

  The body has two conditionals on the grid coordinate. At the first row tile it clears the one-cell accumulator;
  at every tile it adds the tile's partial sum  Σ_r (w r · Σ_k h r k · h r k − 2 · Σ_k h r k · s r k)  to the
  accumulator; at the last row tile it copies the accumulator to the one-cell output block. With ten tiles the
  two conditions never hold together, so there are three cases: first tile, a middle tile, last tile.

  For each case the body is run symbolically on arbitrary whole memrefs and the list of stores each written
  buffer ends with is recorded (last store first); the lists are found by the run itself.
-/
import proofs.«160050_j32744830665390_2_alg».proof.Proof.KB.Iface

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, and where on the grid they hold -/

/-- "This is the first row tile": the printed comparison chain of the first conditional. -/
abbrev isFirst9 (i : grid9.Coords) : Prop :=
  (Scalar.cmpi .ne (Scalar.extui (Scalar.cmpi .eq (BitVec.ofNat 32 (i 0).val) 0#32)) 0#32) = 1#1

/-- "This is the last row tile": the printed condition of the second conditional. -/
abbrev isLast9 (i : grid9.Coords) : Prop := k9_cond2 i = 1#1

/-- The first condition holds at point 0 and nowhere else. -/
theorem isFirst9_iff : ∀ t : Fin cfg9.N, isFirst9 (grid9.coords t) ↔ t.val = 0 :=
  (by decide +kernel : ∀ t : Fin grid9.N, isFirst9 (grid9.coords t) ↔ t.val = 0)

/-- The second condition holds at point 9 and nowhere else. -/
theorem isLast9_iff : ∀ t : Fin cfg9.N, isLast9 (grid9.coords t) ↔ t.val = 9 :=
  (by decide +kernel : ∀ t : Fin grid9.N, isLast9 (grid9.coords t) ↔ t.val = 9)

/-- The three input windows are never idle. -/
theorem live9_0 : ∀ t : Fin cfg9.N, cfg9.idle 0 (grid9.coords t) = false := by decide +kernel
theorem live9_1 : ∀ t : Fin cfg9.N, cfg9.idle 1 (grid9.coords t) = false := by decide +kernel
theorem live9_2 : ∀ t : Fin cfg9.N, cfg9.idle 2 (grid9.coords t) = false := by decide +kernel
/-- The output window is idle, and not written back, at every point but the last; there it is live. -/
theorem idle9_3 : ∀ t : Fin cfg9.N, t.val ≠ 9 → cfg9.idle 3 (grid9.coords t) = true := by decide +kernel
theorem keep9_3 : ∀ t : Fin cfg9.N, t.val ≠ 9 → (cfg9.win 3).flush t = false := by decide +kernel
theorem live9_3 : ∀ t : Fin cfg9.N, t.val = 9 → cfg9.idle 3 (grid9.coords t) = false := by decide +kernel

/-! ## The memrefs the pipeline passes the body at a point -/

abbrev ms9_0 (t : Fin cfg9.N) : Memref sig .tc .vmem S5000x128 .f32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S5000x128 .f32 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S5000x1 .f32 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S1x1 .f32 := win9_3.stage (cfg9.slots t 3)
abbrev hs9_3 (t : Fin cfg9.N) : (ms9_3 t).IsWhole := hstage9_3 ((cfg9.slots t 3).cast nbuf9_3)
/-- The accumulator: a whole scoped buffer of the kernel's own. -/
abbrev acM9 : Memref sig .tc .vmem S1x1 .f32 := Memref.whole cc9_scratch0
/-- The views through which the accumulator's and the output block's contents are stated. -/
abbrev acV9 : View sig .tc .vmem S1x1 .f32 := acM9.view
abbrev outV9 : View sig .tc .vmem S1x1 .f32 := (Memref.whole cc9_stg3_0 : Memref sig .tc .vmem S1x1 .f32).view

/-! ## The three runs -/

set_option maxHeartbeats 1000000 in
/-- FIRST TILE. The accumulator may hold anything; the output block `xo` is not touched. The accumulator ends with
    the stores `LA`: the clearing store, then the store of  0 + (the tile's partial sum). -/
def run9_first (c : Dev nD) (i : grid9.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : isFirst9 i) (hlast : ¬isLast9 i)
    (h : Vec F S5000x128 .f32) (s : Vec F S5000x128 .f32) (w : Vec F S5000x1 .f32) :
    { LA : List (View.Piece (Elt F) S1x1 .f32) //
      ∀ (xo : Vec F S1x1 .f32) (E : Set ℕ) (K : PUnit → sProp 𝕄),
        iprop(owns (c : Thread nD τ) arg1 fullShare h ∗ owns (c : Thread nD τ) arg2 fullShare s ∗ owns (c : Thread nD τ) arg3 fullShare w
            ∗ owns (c : Thread nD τ) arg4 fullShare xo ∗ (∃ d, owns (c : Thread nD τ) arg5 fullShare d)
            ∗ (iprop(owns (c : Thread nD τ) arg1 fullShare h ∗ owns (c : Thread nD τ) arg2 fullShare s ∗ owns (c : Thread nD τ) arg3 fullShare w
                ∗ owns (c : Thread nD τ) arg4 fullShare xo
                ∗ (∃ f, arg5.view.loc (c : Thread nD τ) ↦[arg5.view.set]{fullShare} arg5.view.writes (Elt F) f LA)) -∗ K ⟨⟩))
          ⊢ wp frame (wpE (defs₀ (F := F)) Variants.none c none) E (cc9_node_reg_kernel i arg1 harg1 arg2 harg2 arg3 harg3 arg4 harg4 arg5 harg5) K } := by
  refine ⟨?_, fun xo E K => ?run⟩
  case run =>
    simp only [cc9_node_reg_kernel_eq_skeleton]; unfold cc9_node_reg_kernel_skel
    unfold owns
    iintro ⟨⟨%f1, %hf1, H1⟩, ⟨%f2, %hf2, H2⟩, ⟨%f3, %hf3, H3⟩, ⟨%f4, %hf4, H4⟩, ⟨%da, %fa, -, HA⟩, Hk⟩
    obtain rfl := harg1.eq_unread hf1; obtain rfl := harg2.eq_unread hf2
    obtain rfl := harg3.eq_unread hf3; obtain rfl := harg4.eq_unread hf4
    sl_exec (disch := first | exact hfirst | exact hlast)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact HA

set_option maxHeartbeats 1000000 in
/-- A MIDDLE TILE. The accumulator holds `a`, what the tile before left; the output block `xo` is not touched. The
    accumulator ends with the one store of  a + (the tile's partial sum). -/
def run9_mid (c : Dev nD) (i : grid9.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst9 i) (hlast : ¬isLast9 i)
    (h : Vec F S5000x128 .f32) (s : Vec F S5000x128 .f32) (w : Vec F S5000x1 .f32) (a : Vec F S1x1 .f32) :
    { LA : List (View.Piece (Elt F) S1x1 .f32) //
      ∀ (xo : Vec F S1x1 .f32) (E : Set ℕ) (K : PUnit → sProp 𝕄),
        iprop(owns (c : Thread nD τ) arg1 fullShare h ∗ owns (c : Thread nD τ) arg2 fullShare s ∗ owns (c : Thread nD τ) arg3 fullShare w
            ∗ owns (c : Thread nD τ) arg4 fullShare xo ∗ owns (c : Thread nD τ) arg5 fullShare a
            ∗ (iprop(owns (c : Thread nD τ) arg1 fullShare h ∗ owns (c : Thread nD τ) arg2 fullShare s ∗ owns (c : Thread nD τ) arg3 fullShare w
                ∗ owns (c : Thread nD τ) arg4 fullShare xo
                ∗ (∃ f, arg5.view.loc (c : Thread nD τ) ↦[arg5.view.set]{fullShare} arg5.view.writes (Elt F) f LA)) -∗ K ⟨⟩))
          ⊢ wp frame (wpE (defs₀ (F := F)) Variants.none c none) E (cc9_node_reg_kernel i arg1 harg1 arg2 harg2 arg3 harg3 arg4 harg4 arg5 harg5) K } := by
  refine ⟨?_, fun xo E K => ?run⟩
  case run =>
    simp only [cc9_node_reg_kernel_eq_skeleton]; unfold cc9_node_reg_kernel_skel
    unfold owns
    iintro ⟨⟨%f1, %hf1, H1⟩, ⟨%f2, %hf2, H2⟩, ⟨%f3, %hf3, H3⟩, ⟨%f4, %hf4, H4⟩, ⟨%fa, %hfa, HA⟩, Hk⟩
    obtain rfl := harg1.eq_unread hf1; obtain rfl := harg2.eq_unread hf2
    obtain rfl := harg3.eq_unread hf3; obtain rfl := harg4.eq_unread hf4
    obtain rfl := harg5.eq_unread hfa
    sl_exec (disch := first | exact hfirst | exact hlast)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact HA

set_option maxHeartbeats 1000000 in
/-- THE LAST TILE. The accumulator holds `a`; the output block may hold anything. The accumulator ends with the store
    `LA` of  a + (the tile's partial sum), the output block with the store `LO` of that same value read back. -/
def run9_last (c : Dev nD) (i : grid9.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst9 i) (hlast : isLast9 i)
    (h : Vec F S5000x128 .f32) (s : Vec F S5000x128 .f32) (w : Vec F S5000x1 .f32) (a : Vec F S1x1 .f32) :
    Σ' (LO : List (View.Piece (Elt F) S1x1 .f32)), { LA : List (View.Piece (Elt F) S1x1 .f32) //
      ∀ (E : Set ℕ) (K : PUnit → sProp 𝕄),
        iprop(owns (c : Thread nD τ) arg1 fullShare h ∗ owns (c : Thread nD τ) arg2 fullShare s ∗ owns (c : Thread nD τ) arg3 fullShare w
            ∗ (∃ d, owns (c : Thread nD τ) arg4 fullShare d) ∗ owns (c : Thread nD τ) arg5 fullShare a
            ∗ (iprop(owns (c : Thread nD τ) arg1 fullShare h ∗ owns (c : Thread nD τ) arg2 fullShare s ∗ owns (c : Thread nD τ) arg3 fullShare w
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LA)) -∗ K ⟨⟩))
          ⊢ wp frame (wpE (defs₀ (F := F)) Variants.none c none) E (cc9_node_reg_kernel i arg1 harg1 arg2 harg2 arg3 harg3 arg4 harg4 arg5 harg5) K } := by
  refine ⟨?_, ?_, fun E K => ?run⟩
  case run =>
    simp only [cc9_node_reg_kernel_eq_skeleton]; unfold cc9_node_reg_kernel_skel
    unfold owns
    iintro ⟨⟨%f1, %hf1, H1⟩, ⟨%f2, %hf2, H2⟩, ⟨%f3, %hf3, H3⟩, ⟨%d4, %f4, -, H4⟩, ⟨%fa, %hfa, HA⟩, Hk⟩
    obtain rfl := harg1.eq_unread hf1; obtain rfl := harg2.eq_unread hf2
    obtain rfl := harg3.eq_unread hf3; obtain rfl := harg5.eq_unread hfa
    sl_exec (disch := first | exact hfirst | exact hlast)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    iexists _; iexact HA

end Cert.Kernel.Hand

end
-- ==== Proof.KB.Reg9.Frame.lean ====
/-
  Region 9: what the accumulator and the output block hold after each row tile, the region's proof data at the
  entry contents `V`, its invariant, and the body obligation.

  The accumulator after tile 0 is what the first-tile run leaves; after tile n + 1 it is what the middle-tile run
  (the last-tile run at n + 1 = 9) leaves when started from the accumulator after tile n. The invariant before
  tile 0 is the class's: every scoped buffer that is no staging buffer at some contents, and the generator register.
  Before tile n + 1 it holds the accumulator at exactly the contents named above, the other scoped buffers at some
  contents, and the generator register. The output block is live only at the last tile, where it receives the
  accumulator's final value; everywhere else its staging buffer is handed back as found.
-/
import proofs.«160050_j32744830665390_2_alg».proof.Proof.KB.Reg9.Runs

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## The input blocks -/

/-- Window `w`'s block at point `t`, read off its array as the region finds it. -/
def blk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-! ## What each case leaves, read back through one fixed view -/

/-- The accumulator after the first tile. -/
def acc9_first (c : Dev nD) (t : Fin cfg9.N) (h0 : t.val = 0)
    (h : Vec F S5000x128 .f32) (s : Vec F S5000x128 .f32) (w : Vec F S5000x1 .f32) : Vec F S1x1 .f32 :=
  acV9.read (Elt F) (acV9.writes (Elt F) acV9.junk
    (run9_first c (grid9.coords t) (ms9_0 t) (hs9_0 t) (ms9_1 t) (hs9_1 t) (ms9_2 t) (hs9_2 t) (ms9_3 t) (hs9_3 t) acM9 (Memref.isWhole_whole _)
      ((isFirst9_iff t).mpr h0) (fun hl => by have := (isLast9_iff t).mp hl; omega) h s w).1)

/-- The accumulator after a middle tile that found it at `a`. -/
def acc9_mid (c : Dev nD) (t : Fin cfg9.N) (h0 : t.val ≠ 0) (h9 : t.val ≠ 9)
    (h : Vec F S5000x128 .f32) (s : Vec F S5000x128 .f32) (w : Vec F S5000x1 .f32) (a : Vec F S1x1 .f32) : Vec F S1x1 .f32 :=
  acV9.read (Elt F) (acV9.writes (Elt F) acV9.junk
    (run9_mid c (grid9.coords t) (ms9_0 t) (hs9_0 t) (ms9_1 t) (hs9_1 t) (ms9_2 t) (hs9_2 t) (ms9_3 t) (hs9_3 t) acM9 (Memref.isWhole_whole _)
      (fun hf => h0 ((isFirst9_iff t).mp hf)) (fun hl => h9 ((isLast9_iff t).mp hl)) h s w a).1)

/-- The accumulator after the last tile, which found it at `a`. -/
def acc9_last (c : Dev nD) (t : Fin cfg9.N) (h9 : t.val = 9)
    (h : Vec F S5000x128 .f32) (s : Vec F S5000x128 .f32) (w : Vec F S5000x1 .f32) (a : Vec F S1x1 .f32) : Vec F S1x1 .f32 :=
  acV9.read (Elt F) (acV9.writes (Elt F) acV9.junk
    (run9_last c (grid9.coords t) (ms9_0 t) (hs9_0 t) (ms9_1 t) (hs9_1 t) (ms9_2 t) (hs9_2 t) (ms9_3 t) (hs9_3 t) acM9 (Memref.isWhole_whole _)
      (fun hf => by have := (isFirst9_iff t).mp hf; omega) ((isLast9_iff t).mpr h9) h s w a).2.1)

/-- The output block after the last tile. -/
def out9_last (c : Dev nD) (t : Fin cfg9.N) (h9 : t.val = 9)
    (h : Vec F S5000x128 .f32) (s : Vec F S5000x128 .f32) (w : Vec F S5000x1 .f32) (a : Vec F S1x1 .f32) : Vec F S1x1 .f32 :=
  outV9.read (Elt F) (outV9.writes (Elt F) outV9.junk
    (run9_last c (grid9.coords t) (ms9_0 t) (hs9_0 t) (ms9_1 t) (hs9_1 t) (ms9_2 t) (hs9_2 t) (ms9_3 t) (hs9_3 t) acM9 (Memref.isWhole_whole _)
      (fun hf => by have := (isFirst9_iff t).mp hf; omega) ((isLast9_iff t).mpr h9) h s w a).1)

/-- Each list of stores covers its one-cell buffer. -/
theorem cover9_first (c : Dev nD) (i : grid9.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : isFirst9 i) (hlast : ¬isLast9 i)
    (h : Vec F S5000x128 .f32) (s : Vec F S5000x128 .f32) (w : Vec F S5000x1 .f32) (y : S1x1.Idx) :
    ∃ pc ∈ (run9_first c i arg1 harg1 arg2 harg2 arg3 harg3 arg4 harg4 arg5 harg5 hfirst hlast h s w).1, y ∈ pc.1.set :=
  View.cover_of_tiledL _ S1x1.size (by sl_kernel_rfl) y

theorem cover9_mid (c : Dev nD) (i : grid9.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst9 i) (hlast : ¬isLast9 i)
    (h : Vec F S5000x128 .f32) (s : Vec F S5000x128 .f32) (w : Vec F S5000x1 .f32) (a : Vec F S1x1 .f32) (y : S1x1.Idx) :
    ∃ pc ∈ (run9_mid c i arg1 harg1 arg2 harg2 arg3 harg3 arg4 harg4 arg5 harg5 hfirst hlast h s w a).1, y ∈ pc.1.set :=
  View.cover_of_tiledL _ S1x1.size (by sl_kernel_rfl) y

theorem cover9_last_acc (c : Dev nD) (i : grid9.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst9 i) (hlast : isLast9 i)
    (h : Vec F S5000x128 .f32) (s : Vec F S5000x128 .f32) (w : Vec F S5000x1 .f32) (a : Vec F S1x1 .f32) (y : S1x1.Idx) :
    ∃ pc ∈ (run9_last c i arg1 harg1 arg2 harg2 arg3 harg3 arg4 harg4 arg5 harg5 hfirst hlast h s w a).2.1, y ∈ pc.1.set :=
  View.cover_of_tiledL _ S1x1.size (by sl_kernel_rfl) y

theorem cover9_last_out (c : Dev nD) (i : grid9.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst9 i) (hlast : isLast9 i)
    (h : Vec F S5000x128 .f32) (s : Vec F S5000x128 .f32) (w : Vec F S5000x1 .f32) (a : Vec F S1x1 .f32) (y : S1x1.Idx) :
    ∃ pc ∈ (run9_last c i arg1 harg1 arg2 harg2 arg3 harg3 arg4 harg4 arg5 harg5 hfirst hlast h s w a).1, y ∈ pc.1.set :=
  View.cover_of_tiledL _ S1x1.size (by sl_kernel_rfl) y

/-! ## The accumulator and the output block, tile by tile -/

/-- THE RUNNING TOTAL: what the accumulator holds after the body at position `n`. -/
def acc9 (c : Dev nD) : (n : ℕ) → n < cfg9.N → Vec F S1x1 .f32
  | 0, hn => acc9_first c ⟨0, hn⟩ rfl (blk9 V c 0 ⟨0, hn⟩) (blk9 V c 1 ⟨0, hn⟩) (blk9 V c 2 ⟨0, hn⟩)
  | n + 1, hn =>
    if h9 : n + 1 = 9 then
      acc9_last c ⟨n + 1, hn⟩ h9 (blk9 V c 0 ⟨n + 1, hn⟩) (blk9 V c 1 ⟨n + 1, hn⟩) (blk9 V c 2 ⟨n + 1, hn⟩) (acc9 c n (Nat.lt_of_succ_lt hn))
    else
      acc9_mid c ⟨n + 1, hn⟩ (Nat.succ_ne_zero n) h9 (blk9 V c 0 ⟨n + 1, hn⟩) (blk9 V c 1 ⟨n + 1, hn⟩) (blk9 V c 2 ⟨n + 1, hn⟩) (acc9 c n (Nat.lt_of_succ_lt hn))

/-- The accumulator just before point `t`, for `t` not the first: what the point before left. -/
abbrev accBefore9 (c : Dev nD) (t : Fin cfg9.N) : Vec F S1x1 .f32 :=
  acc9 V c (t.val - 1) (Nat.lt_of_le_of_lt (Nat.sub_le _ _) t.isLt)

theorem acc9_at_first (c : Dev nD) (t : Fin cfg9.N) (h0 : t.val = 0) :
    acc9 V c t.val t.isLt = acc9_first c t h0 (blk9 V c 0 t) (blk9 V c 1 t) (blk9 V c 2 t) := by
  obtain ⟨n, hn⟩ := t
  cases n with
  | zero => rfl
  | succ n => exact absurd h0 (Nat.succ_ne_zero n)

theorem acc9_at_mid (c : Dev nD) (t : Fin cfg9.N) (h0 : t.val ≠ 0) (h9 : t.val ≠ 9) :
    acc9 V c t.val t.isLt = acc9_mid c t h0 h9 (blk9 V c 0 t) (blk9 V c 1 t) (blk9 V c 2 t) (accBefore9 V c t) := by
  obtain ⟨n, hn⟩ := t
  cases n with
  | zero => exact absurd rfl h0
  | succ n => exact (dif_neg h9).trans rfl

theorem acc9_at_last (c : Dev nD) (t : Fin cfg9.N) (h9 : t.val = 9) :
    acc9 V c t.val t.isLt = acc9_last c t h9 (blk9 V c 0 t) (blk9 V c 1 t) (blk9 V c 2 t) (accBefore9 V c t) := by
  obtain ⟨n, hn⟩ := t
  cases n with
  | zero => exact absurd h9 (show ¬ (0 : ℕ) = 9 by decide)
  | succ n => exact (dif_pos h9).trans rfl

/-- What the output window's staging buffer holds after the body at point `t`: at the last point the accumulator's
    final value as the last-tile run stores it; the value at the other points is consulted nowhere (the window is
    idle there and not written back). -/
def out9 (c : Dev nD) (t : Fin cfg9.N) : Vec F S1x1 .f32 :=
  if h9 : t.val = 9 then out9_last c t h9 (blk9 V c 0 t) (blk9 V c 1 t) (blk9 V c 2 t) (accBefore9 V c t)
  else acc9 V c t.val t.isLt

/-! ## The invariant -/

/-- Before position `n`: at the first point the class's invariant; afterwards the accumulator at the running total,
    the other scoped buffers at some contents, the generator register at some state. -/
def Phi9 (c : Dev nD) : (n : ℕ) → n ≤ cfg9.N → sProp 𝕄
  | 0, _ => Pipeline.ΦA (U := UR sig nD τ) (Val := Elt F) spec9 c
  | n + 1, hn => iprop(iprop(owns (c : Thread nD τ) acM9 fullShare (acc9 V c n hn)
      ∗ Pipeline.scopedRestBut (Ix := Unit) (Name := ℕ) (U := UR sig nD τ) (Lvl := ℕ) (Val := Elt F) spec9 c [cc9_scratch0]) ∗ (∃ r, prngReg c r))

theorem Phi9_zero (c : Dev nD) (n : ℕ) (hn : n ≤ cfg9.N) (hz : n = 0) :
    Phi9 V c n hn = Pipeline.ΦA (U := UR sig nD τ) (Val := Elt F) spec9 c := by
  subst hz; rfl

theorem Phi9_succ (c : Dev nD) (n : ℕ) (hn : n < cfg9.N) :
    Phi9 V c (n + 1) hn = iprop(iprop(owns (c : Thread nD τ) acM9 fullShare (acc9 V c n hn)
      ∗ Pipeline.scopedRestBut (Ix := Unit) (Name := ℕ) (U := UR sig nD τ) (Lvl := ℕ) (Val := Elt F) spec9 c [cc9_scratch0]) ∗ (∃ r, prngReg c r)) := rfl

theorem Phi9_pos (c : Dev nD) (n : ℕ) (hn : n ≤ cfg9.N) (hz : n ≠ 0) :
    Phi9 V c n hn = iprop(iprop(owns (c : Thread nD τ) acM9 fullShare (acc9 V c (n - 1) (by omega))
      ∗ Pipeline.scopedRestBut (Ix := Unit) (Name := ℕ) (U := UR sig nD τ) (Lvl := ℕ) (Val := Elt F) spec9 c [cc9_scratch0]) ∗ (∃ r, prngReg c r)) := by
  cases n with
  | zero => exact absurd rfl hz
  | succ n => rfl

/-- The class's invariant with the accumulator singled out of the scoped rest. -/
theorem PhiA9_open (c : Dev nD) :
    (Pipeline.ΦA (U := UR sig nD τ) (Val := Elt F) spec9 c : sProp 𝕄)
      = iprop(iprop((∃ d, owns (c : Thread nD τ) acM9 fullShare d)
          ∗ Pipeline.scopedRestBut (Ix := Unit) (Name := ℕ) (U := UR sig nD τ) (Lvl := ℕ) (Val := Elt F) spec9 c [cc9_scratch0]) ∗ (∃ r, prngReg c r)) := by
  unfold Pipeline.ΦA; rw [scopedRest9_split]; simp only [acM9, owns_whole]; try rfl

/-! ## The proof data -/

/-- Region 9's proof data on core `c`: the arrays as the region finds them; after the body each input's buffer still
    at its block, the output's at `out9`; the invariant `Phi9`; full shares; nothing owed. -/
def dat9 (c : Dev nD) : Dat τ (Elt F) Unit ℕ (UR sig nD τ) ℕ cfg9 c where
  A w := V c (Pipeline.arrRef spec9 w)
  after w t := match w with
    | ⟨0, _⟩ => blk9 V c 0 t
    | ⟨1, _⟩ => blk9 V c 1 t
    | ⟨2, _⟩ => blk9 V c 2 t
    | ⟨3, _⟩ => out9 V c t
  Φ t := Phi9 V c t.val (Nat.le_of_lt_succ t.isLt)
  q _ := fullShare
  owed _ := 0

theorem A_eq9 (c : Dev nD) (w : Fin cfg9.W) : (dat9 V c).A w = V c (Pipeline.arrRef spec9 w) := by
  dsimp only [dat9]

theorem q_eq9 (c : Dev nD) (w : Fin cfg9.W) : (dat9 V c).q w = fullShare := by
  dsimp only [dat9]

theorem owed_eq9 (c : Dev nD) (t : Fin (cfg9.N + 1)) : (dat9 V c).owed t = 0 := by
  dsimp only [dat9]

theorem Phi9_castSucc (c : Dev nD) (t : Fin cfg9.N) :
    (dat9 V c).Φ t.castSucc = Phi9 V c t.val (Nat.le_of_lt t.isLt) := by
  dsimp only [dat9]; simp only [Fin.coe_castSucc]

theorem after9_0 (c : Dev nD) (t : Fin cfg9.N) : (dat9 V c).after 0 t = blk9 V c 0 t := by dsimp only [dat9]
theorem after9_1 (c : Dev nD) (t : Fin cfg9.N) : (dat9 V c).after 1 t = blk9 V c 1 t := by dsimp only [dat9]
theorem after9_2 (c : Dev nD) (t : Fin cfg9.N) : (dat9 V c).after 2 t = blk9 V c 2 t := by dsimp only [dat9]
theorem after9_3 (c : Dev nD) (t : Fin cfg9.N) : (dat9 V c).after 3 t = out9 V c t := by dsimp only [dat9]

/-- Every input window is fetched at every point, so its current buffer holds the array's block there. -/
theorem before9_0 (c : Dev nD) (t : Fin cfg9.N) (d) : (dat9 V c).before 0 t d = blk9 V c 0 t :=
  ((dat9 V c).before_fetched 0 t (fetch9_0 t) d).trans (by unfold Dat.fetched Dat.blockOf blk9; rw [A_eq9]; try rfl)
theorem before9_1 (c : Dev nD) (t : Fin cfg9.N) (d) : (dat9 V c).before 1 t d = blk9 V c 1 t :=
  ((dat9 V c).before_fetched 1 t (fetch9_1 t) d).trans (by unfold Dat.fetched Dat.blockOf blk9; rw [A_eq9]; try rfl)
theorem before9_2 (c : Dev nD) (t : Fin cfg9.N) (d) : (dat9 V c).before 2 t d = blk9 V c 2 t :=
  ((dat9 V c).before_fetched 2 t (fetch9_2 t) d).trans (by unfold Dat.fetched Dat.blockOf blk9; rw [A_eq9]; try rfl)

/-! ## The body obligation -/

/-- What the body is called with at point `t`, -/
def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d))
    ∗ (∃ d, owns (c : Thread nD τ) (ms9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t)

theorem leaves9_0 (c : Dev nD) (t : Fin cfg9.N) :
    (dat9 V c).leavesExact 0 t = owns (c : Thread nD τ) (ms9_0 t) fullShare (blk9 V c 0 t) := by
  unfold Dat.leavesExact; rw [live9_0 t, after9_0]
theorem leaves9_1 (c : Dev nD) (t : Fin cfg9.N) :
    (dat9 V c).leavesExact 1 t = owns (c : Thread nD τ) (ms9_1 t) fullShare (blk9 V c 1 t) := by
  unfold Dat.leavesExact; rw [live9_1 t, after9_1]
theorem leaves9_2 (c : Dev nD) (t : Fin cfg9.N) :
    (dat9 V c).leavesExact 2 t = owns (c : Thread nD τ) (ms9_2 t) fullShare (blk9 V c 2 t) := by
  unfold Dat.leavesExact; rw [live9_2 t, after9_2]
theorem leaves9_3_idle (c : Dev nD) (t : Fin cfg9.N) (h9 : t.val ≠ 9) :
    (dat9 V c).leavesExact 3 t = iprop(∃ d, owns (c : Thread nD τ) (ms9_3 t) fullShare ((dat9 V c).before 3 t d)) :=
  Dat.leavesExact_idle (dat9 V c) 3 t (idle9_3 t h9) (keep9_3 t h9)
theorem leaves9_3_live (c : Dev nD) (t : Fin cfg9.N) (h9 : t.val = 9) :
    (dat9 V c).leavesExact 3 t = owns (c : Thread nD τ) (ms9_3 t) fullShare (out9 V c t) := by
  unfold Dat.leavesExact; rw [live9_3 t h9, after9_3]

set_option maxHeartbeats 4800000 in
/-- The body at any point. The inputs' buffers hold their blocks; the point's position decides the case; the invariant
    hands the run the accumulator (at anything before the first tile, at the running total afterwards) and takes it
    back at the new running total, the run's stores covering the one cell; the rest of the invariant and what the
    core owes pass through untouched. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).owesAt () t.succ = (dat9 V c).owesAt () t.castSucc from rfl]
  rw [show (dat9 V c).Φ t.succ = Phi9 V c (t.val + 1) t.isLt from rfl, Phi9_succ]
  rw [leaves9_0, leaves9_1, leaves9_2, Phi9_castSucc]
  have hN : t.val < 10 := lt_of_lt_of_eq t.isLt (show cfg9.N = 10 from N_9)
  by_cases h0 : t.val = 0
  · -- the first tile
    have h9 : t.val ≠ 9 := by omega
    rw [leaves9_3_idle V c t h9, acc9_at_first V c t h0, Phi9_zero V c _ _ h0, PhiA9_open]
    unfold acc9_first
    iintro ⟨⟨⟨HA, HR⟩, Hg⟩, Ho, ⟨%d0, H0⟩, ⟨%d1, H1⟩, ⟨%d2, H2⟩, ⟨%d3, H3⟩⟩
    iapply ((run9_first c (grid9.coords t) _ _ _ _ _ _ _ _ _ _ ((isFirst9_iff t).mpr h0)
      (fun hl => by have := (isLast9_iff t).mp hl; omega) (blk9 V c 0 t) (blk9 V c 1 t) (blk9 V c 2 t)).2 _ Set.univ _)
    isplitl [H0]; · iexact H0
    isplitl [H1]; · iexact H1
    isplitl [H2]; · iexact H2
    isplitl [H3]; · iexact H3
    isplitl [HA]; · iexact HA
    iintro ⟨H0, H1, H2, H3, ⟨%ea, HA⟩⟩
    isplitl [HA HR Hg]
    · isplitr [Hg]
      · isplitl [HA]
        · unfold owns; iexists _; isplitr
          swap; · iexact HA
          ipureintro; exact View.read_writes_of_cover _ _ _ _ _ (cover9_first c _ _ _ _ _ _ _ _ _ _ _ _ _ _ _ _)
        iexact HR
      iexact Hg
    isplitl [Ho]; · iexact Ho
    isplitl [H0]; · iexact H0
    isplitl [H1]; · iexact H1
    isplitl [H2]; · iexact H2
    iexists _; iexact H3
  · by_cases h9 : t.val = 9
    · -- the last tile
      rw [leaves9_3_live V c t h9, acc9_at_last V c t h9, Phi9_pos V c _ _ h0]
      unfold out9; rw [dif_pos h9]
      unfold acc9_last out9_last
      iintro ⟨⟨⟨HA, HR⟩, Hg⟩, Ho, ⟨%d0, H0⟩, ⟨%d1, H1⟩, ⟨%d2, H2⟩, ⟨%d3, H3⟩⟩
      iapply ((run9_last c (grid9.coords t) _ _ _ _ _ _ _ _ _ _ (fun hf => by have := (isFirst9_iff t).mp hf; omega)
        ((isLast9_iff t).mpr h9) (blk9 V c 0 t) (blk9 V c 1 t) (blk9 V c 2 t) (accBefore9 V c t)).2.2 Set.univ _)
      isplitl [H0]; · iexact H0
      isplitl [H1]; · iexact H1
      isplitl [H2]; · iexact H2
      isplitl [H3]; · iexists _; iexact H3
      isplitl [HA]; · iexact HA
      iintro ⟨H0, H1, H2, ⟨%eo, H3⟩, ⟨%ea, HA⟩⟩
      isplitl [HA HR Hg]
      · isplitr [Hg]
        · isplitl [HA]
          · unfold owns; iexists _; isplitr
            swap; · iexact HA
            ipureintro; exact View.read_writes_of_cover _ _ _ _ _ (cover9_last_acc c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover9_last_out c _ _ _ _ _ _ _ _ _ _ _ _ _ _ _ _ _)
    · -- a middle tile
      rw [leaves9_3_idle V c t h9, acc9_at_mid V c t h0 h9, Phi9_pos V c _ _ h0]
      unfold acc9_mid
      iintro ⟨⟨⟨HA, HR⟩, Hg⟩, Ho, ⟨%d0, H0⟩, ⟨%d1, H1⟩, ⟨%d2, H2⟩, ⟨%d3, H3⟩⟩
      iapply ((run9_mid c (grid9.coords t) _ _ _ _ _ _ _ _ _ _ (fun hf => h0 ((isFirst9_iff t).mp hf))
        (fun hl => h9 ((isLast9_iff t).mp hl)) (blk9 V c 0 t) (blk9 V c 1 t) (blk9 V c 2 t) (accBefore9 V c t)).2 _ Set.univ _)
      isplitl [H0]; · iexact H0
      isplitl [H1]; · iexact H1
      isplitl [H2]; · iexact H2
      isplitl [H3]; · iexact H3
      isplitl [HA]; · iexact HA
      iintro ⟨H0, H1, H2, H3, ⟨%ea, HA⟩⟩
      isplitl [HA HR Hg]
      · isplitr [Hg]
        · isplitl [HA]
          · unfold owns; iexists _; isplitr
            swap; · iexact HA
            ipureintro; exact View.read_writes_of_cover _ _ _ _ _ (cover9_mid c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation9 (c : Dev nD) : BodyObligation (dat9 (F := F) V c) (defs₀ (F := F)) Variants.none () Set.univ := fun t => by
  rw [bigSep_W9, bigSep_W9]
  exact sound_body9 V c t

/-! ## The invariant's two ends -/

/-- The class's invariant is the invariant before the first point. -/
theorem Phi_in9 (c : Dev nD) : (Pipeline.ΦA (U := UR sig nD τ) (Val := Elt F) spec9 c : sProp 𝕄) ⊢ (dat9 V c).Φ 0 := by
  rw [show (dat9 V c).Φ 0 = Phi9 V c 0 (Nat.zero_le _) from rfl, Phi9_zero V c 0 _ rfl]
  try exact Entails.refl _

/-- After the last point the invariant gives the class's back: the accumulator's contents are forgotten. -/
theorem Phi_out9 (c : Dev nD) : (dat9 V c).Φ (Fin.last cfg9.N) ⊢ (Pipeline.ΦA (U := UR sig nD τ) (Val := Elt F) spec9 c : sProp 𝕄) := by
  have hne : (Fin.last cfg9.N).val ≠ 0 := by rw [Fin.val_last]; have : cfg9.N = 10 := N_9; omega
  rw [show (dat9 V c).Φ (Fin.last cfg9.N) = Phi9 V c (Fin.last cfg9.N).val (Nat.le_of_lt_succ (Fin.last cfg9.N).isLt) from rfl,
    Phi9_pos V c _ _ hne, PhiA9_open]
  iintro ⟨⟨HA, HR⟩, Hg⟩
  isplitr [Hg]
  · isplitl [HA]
    · iexists _; iexact HA
    iexact HR
  iexact Hg

end Cert.Kernel.Hand

end
-- ==== Proof.KB.Reg9.Value.lean ====
/-
  Region 9: the value. After the run the one-cell result array holds the running total after the tenth row tile:
  starting from the cleared accumulator, tile after tile in grid order, the accumulator plus the tile's partial sum
    Σ_r (w r · Σ_k h r k · h r k − 2 · Σ_k h r k · s r k),   r over the tile's 5000 rows, k over the 128 features,
  each tile being rows 5000·n … 5000·n + 4999 of the three input arrays.

  First each case's list of stores is read back as the update applied to the tile's blocks and the accumulator found;
  then the running total is the ordered chain over the tiles (induction on the tile); then each block is the array's
  rows; then the single write-back, at the last tile, covers the one-cell array.
-/
import proofs.«160050_j32744830665390_2_alg».proof.Proof.KB.Reg9.Frame
import Idealize.ShloMosaic.Lib.Pipeline.Value
import Idealize.ShloMosaic.Lib.ValueIdx

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

open Idealize.ShloMosaic.ValueIdx (ix2)

theorem hz9 : (![0, 0] : Fin 2 → Nat) = fun _ => 0 := funext fun a => by fin_cases a <;> rfl

/-! ## What each case's stores leave -/

/-- First tile: the accumulator is cleared, then the tile's partial sum is added to the cleared value. -/
theorem first_stores9 (c : Dev nD) (i : grid9.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : isFirst9 i) (hlast : ¬isLast9 i)
    (h : Vec F S5000x128 .f32) (s : Vec F S5000x128 .f32) (w : Vec F S5000x1 .f32) :
    acV9.read (Elt F) (acV9.writes (Elt F) acV9.junk
      (run9_first c i arg1 harg1 arg2 harg2 arg3 harg3 arg4 harg4 arg5 harg5 hfirst hlast h s w).1) = k9_pay2 h s w (k9_pay1 (F := F)) := by
  rw [View.read_writes_eq_canon _ _ _ (cover9_first c i arg1 harg1 arg2 harg2 arg3 harg3 arg4 harg4 arg5 harg5 hfirst hlast h s w)]
  unfold run9_first
  dsimp only
  try sl_unfold_words
  rw [View.canon_cons_unit_zero (S := S1x1) hz9]
  simp only [View.readAt_eq_ld, harg1.read_unread, harg2.read_unread, harg3.read_unread, View.ld_unit_zero (S := S5000x128) hz9,
    View.ld_unit_zero (S := S5000x1) hz9, View.readCov_unit_zero (S := S1x1) _ hz9]

/-- A middle tile: the tile's partial sum is added to what the accumulator held. -/
theorem mid_stores9 (c : Dev nD) (i : grid9.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst9 i) (hlast : ¬isLast9 i)
    (h : Vec F S5000x128 .f32) (s : Vec F S5000x128 .f32) (w : Vec F S5000x1 .f32) (a : Vec F S1x1 .f32) :
    acV9.read (Elt F) (acV9.writes (Elt F) acV9.junk
      (run9_mid c i arg1 harg1 arg2 harg2 arg3 harg3 arg4 harg4 arg5 harg5 hfirst hlast h s w a).1) = k9_pay2 h s w a := by
  rw [View.read_writes_eq_canon _ _ _ (cover9_mid c i arg1 harg1 arg2 harg2 arg3 harg3 arg4 harg4 arg5 harg5 hfirst hlast h s w a)]
  unfold run9_mid
  dsimp only
  try sl_unfold_words
  rw [View.canon_unit_zero (S := S1x1) hz9]
  simp only [View.readAt_eq_ld, harg1.read_unread, harg2.read_unread, harg3.read_unread, harg5.read_unread, View.ld_unit_zero (S := S5000x128) hz9,
    View.ld_unit_zero (S := S5000x1) hz9, View.ld_unit_zero (S := S1x1) hz9]

/-- The last tile leaves the same update in the accumulator, -/
theorem last_stores_acc9 (c : Dev nD) (i : grid9.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst9 i) (hlast : isLast9 i)
    (h : Vec F S5000x128 .f32) (s : Vec F S5000x128 .f32) (w : Vec F S5000x1 .f32) (a : Vec F S1x1 .f32) :
    acV9.read (Elt F) (acV9.writes (Elt F) acV9.junk
      (run9_last c i arg1 harg1 arg2 harg2 arg3 harg3 arg4 harg4 arg5 harg5 hfirst hlast h s w a).2.1) = k9_pay2 h s w a := by
  rw [View.read_writes_eq_canon _ _ _ (cover9_last_acc c i arg1 harg1 arg2 harg2 arg3 harg3 arg4 harg4 arg5 harg5 hfirst hlast h s w a)]
  unfold run9_last
  dsimp only
  try sl_unfold_words
  rw [View.canon_unit_zero (S := S1x1) hz9]
  simp only [View.readAt_eq_ld, harg1.read_unread, harg2.read_unread, harg3.read_unread, harg5.read_unread, View.ld_unit_zero (S := S5000x128) hz9,
    View.ld_unit_zero (S := S5000x1) hz9, View.ld_unit_zero (S := S1x1) hz9]

/-- and copies that value, read back from the accumulator, to the output block. -/
theorem last_stores_out9 (c : Dev nD) (i : grid9.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst9 i) (hlast : isLast9 i)
    (h : Vec F S5000x128 .f32) (s : Vec F S5000x128 .f32) (w : Vec F S5000x1 .f32) (a : Vec F S1x1 .f32) :
    outV9.read (Elt F) (outV9.writes (Elt F) outV9.junk
      (run9_last c i arg1 harg1 arg2 harg2 arg3 harg3 arg4 harg4 arg5 harg5 hfirst hlast h s w a).1) = k9_pay2 h s w a := by
  rw [View.read_writes_eq_canon _ _ _ (cover9_last_out c i arg1 harg1 arg2 harg2 arg3 harg3 arg4 harg4 arg5 harg5 hfirst hlast h s w a)]
  unfold run9_last
  dsimp only
  try sl_unfold_words
  rw [View.canon_unit_zero (S := S1x1) hz9]
  simp only [View.readAt_eq_ld, harg1.read_unread, harg2.read_unread, harg3.read_unread, harg5.read_unread, View.ld_unit_zero (S := S5000x128) hz9,
    View.ld_unit_zero (S := S5000x1) hz9, View.ld_unit_zero (S := S1x1) hz9, View.readCov_unit_zero (S := S1x1) _ hz9]

/-! ## The arrays' row tiles and the ordered chain over them -/

/-- Row tile `n` of a table with 50000 rows of 128 entries: rows 5000·n … 5000·n + 4999. -/
def rowsA9 (X : Vec F S50000x128 .f32) (n : Fin 10) : Vec F S5000x128 .f32 := fun y =>
  X (ix2 ⟨5000 * n.val + (y 0).val, by have h1 : (y 0).val < 5000 := (y 0).isLt; have h2 := n.isLt; omega⟩ ⟨(y 1).val, (y 1).isLt⟩)

/-- Row tile `n` of a column of 50000 entries. -/
def rowsW9 (X : Vec F S50000x1 .f32) (n : Fin 10) : Vec F S5000x1 .f32 := fun y =>
  X (ix2 ⟨5000 * n.val + (y 0).val, by have h1 : (y 0).val < 5000 := (y 0).isLt; have h2 := n.isLt; omega⟩ ⟨(y 1).val, (y 1).isLt⟩)

/-- The running total after row tile `n`, as a function of the three whole arrays: the cleared accumulator updated
    by tile 0, then by tile 1, …, then by tile `n`. -/
def tot9 (H S : Vec F S50000x128 .f32) (W : Vec F S50000x1 .f32) : (n : ℕ) → n < 10 → Vec F S1x1 .f32
  | 0, hn => k9_pay2 (rowsA9 H ⟨0, hn⟩) (rowsA9 S ⟨0, hn⟩) (rowsW9 W ⟨0, hn⟩) (k9_pay1 (F := F))
  | n + 1, hn => k9_pay2 (rowsA9 H ⟨n + 1, hn⟩) (rowsA9 S ⟨n + 1, hn⟩) (rowsW9 W ⟨n + 1, hn⟩) (tot9 H S W n (Nat.lt_of_succ_lt hn))

/-- THE RESULT as one function of the region's three input arrays: the running total after the tenth tile. -/
def G9_3 (H S : Vec F S50000x128 .f32) (W : Vec F S50000x1 .f32) : Vec F S1x1 .f32 := tot9 H S W 9 (by decide)

/-- The three input arrays as the region finds them. -/
abbrev hArr9 (c : Dev nD) : Vec F S50000x128 .f32 := V c (Pipeline.arrRef spec9 0)
abbrev sArr9 (c : Dev nD) : Vec F S50000x128 .f32 := V c (Pipeline.arrRef spec9 1)
abbrev wArr9 (c : Dev nD) : Vec F S50000x1 .f32 := V c (Pipeline.arrRef spec9 2)

/-! ## Each input block is its array's row tile -/

theorem point_lt9 (t : Fin cfg9.N) : t.val < 10 := lt_of_lt_of_eq t.isLt (show cfg9.N = 10 from N_9)

theorem blk9_0_rows (c : Dev nD) (t : Fin cfg9.N) :
    (blk9 V c 0 t : Vec F S5000x128 .f32) = rowsA9 (hArr9 V c) ⟨t.val, point_lt9 t⟩ := by
  have hi : win9_0.index t 0 = t.val ∧ win9_0.index t 1 = 0 := by
    rcases fin_N9 t with rfl | rfl | rfl | rfl | rfl | rfl | rfl | rfl | rfl | rfl <;> decide
  funext y
  unfold blk9 rowsA9
  rw [View.read_apply]
  show V c (Pipeline.arrRef spec9 0) _ = V c (Pipeline.arrRef spec9 0) _
  congr 1
  funext a
  apply Fin.ext
  match a with
  | ⟨0, _⟩ => show win9_0.index t 0 * 5000 + 1 * (y 0).val = 5000 * t.val + (y 0).val; rw [hi.1]; omega
  | ⟨1, _⟩ => show win9_0.index t 1 * 128 + 1 * (y 1).val = (y 1).val; rw [hi.2]; omega

theorem blk9_1_rows (c : Dev nD) (t : Fin cfg9.N) :
    (blk9 V c 1 t : Vec F S5000x128 .f32) = rowsA9 (sArr9 V c) ⟨t.val, point_lt9 t⟩ := by
  have hi : win9_1.index t 0 = t.val ∧ win9_1.index t 1 = 0 := by
    rcases fin_N9 t with rfl | rfl | rfl | rfl | rfl | rfl | rfl | rfl | rfl | rfl <;> decide
  funext y
  unfold blk9 rowsA9
  rw [View.read_apply]
  show V c (Pipeline.arrRef spec9 1) _ = V c (Pipeline.arrRef spec9 1) _
  congr 1
  funext a
  apply Fin.ext
  match a with
  | ⟨0, _⟩ => show win9_1.index t 0 * 5000 + 1 * (y 0).val = 5000 * t.val + (y 0).val; rw [hi.1]; omega
  | ⟨1, _⟩ => show win9_1.index t 1 * 128 + 1 * (y 1).val = (y 1).val; rw [hi.2]; omega

theorem blk9_2_rows (c : Dev nD) (t : Fin cfg9.N) :
    (blk9 V c 2 t : Vec F S5000x1 .f32) = rowsW9 (wArr9 V c) ⟨t.val, point_lt9 t⟩ := by
  have hi : win9_2.index t 0 = t.val ∧ win9_2.index t 1 = 0 := by
    rcases fin_N9 t with rfl | rfl | rfl | rfl | rfl | rfl | rfl | rfl | rfl | rfl <;> decide
  funext y
  unfold blk9 rowsW9
  rw [View.read_apply]
  show V c (Pipeline.arrRef spec9 2) _ = V c (Pipeline.arrRef spec9 2) _
  congr 1
  funext a
  apply Fin.ext
  match a with
  | ⟨0, _⟩ => show win9_2.index t 0 * 5000 + 1 * (y 0).val = 5000 * t.val + (y 0).val; rw [hi.1]; omega
  | ⟨1, _⟩ => show win9_2.index t 1 * 1 + 1 * (y 1).val = (y 1).val; rw [hi.2]; omega

/-! ## The running total is the chain -/

theorem acc9_eq_tot (c : Dev nD) : ∀ (n : ℕ) (hn : n < cfg9.N),
    acc9 V c n hn = tot9 (hArr9 V c) (sArr9 V c) (wArr9 V c) n (lt_of_lt_of_eq hn (show cfg9.N = 10 from N_9))
  | 0, hn => by
    refine (acc9_at_first V c ⟨0, hn⟩ rfl).trans ?_
    unfold acc9_first
    rw [first_stores9, blk9_0_rows, blk9_1_rows, blk9_2_rows]
    rfl
  | n + 1, hn => by
    by_cases h9 : n + 1 = 9
    · refine (acc9_at_last V c ⟨n + 1, hn⟩ h9).trans ?_
      unfold acc9_last
      rw [last_stores_acc9, blk9_0_rows, blk9_1_rows, blk9_2_rows]
      show k9_pay2 _ _ _ (acc9 V c n _) = _
      rw [acc9_eq_tot c n (Nat.lt_of_succ_lt hn)]
      rfl
    · refine (acc9_at_mid V c ⟨n + 1, hn⟩ (Nat.succ_ne_zero n) h9).trans ?_
      unfold acc9_mid
      rw [mid_stores9, blk9_0_rows, blk9_1_rows, blk9_2_rows]
      show k9_pay2 _ _ _ (acc9 V c n _) = _
      rw [acc9_eq_tot c n (Nat.lt_of_succ_lt hn)]
      rfl

/-- At the last tile the output block receives the accumulator's final value. -/
theorem out9_at_last (c : Dev nD) (t : Fin cfg9.N) (h9 : t.val = 9) : out9 V c t = acc9 V c t.val t.isLt := by
  unfold out9
  rw [dif_pos h9, acc9_at_last V c t h9]
  unfold out9_last acc9_last
  rw [last_stores_out9, last_stores_acc9]

/-! ## The write-back and the array after the run -/

/-- The one write-back, at the last tile, writes the result: the window's block there is the whole one-cell array. -/
theorem flushed9_3 (c : Dev nD) (t : Fin cfg9.N) (hf : (cfg9.win 3).flush t = true) :
    (dat9 V c).flushed 3 t = ((cfg9.win 3).blk t).view.read (Elt F) (G9_3 (hArr9 V c) (sArr9 V c) (wArr9 V c)) := by
  have hN : cfg9.N = 10 := N_9
  have h9 : t.val = 9 := by have := (flush9_3 t).mp hf; have := t.isLt; omega
  show (cfg9.win 3).cut (grid9.coords t) ((dat9 V c).after 3 t) = _
  rw [after9_3, out9_at_last V c t h9, acc9_eq_tot V c t.val t.isLt]
  obtain rfl : t = t9_9 := Fin.ext h9
  have hz' : (fun a => win9_3.index t9_9 a * (Pipeline.arrRef spec9 3).ty.shape.size a) = fun _ => 0 :=
    funext fun a => by fin_cases a <;> decide
  exact (Memref.read_access_unit_zero (Elt F) (Pipeline.arrRef spec9 3) hz' (fun a => by rw [congrFun hz' a]; simp)
    (G9_3 (hArr9 V c) (sArr9 V c) (wArr9 V c))).symm

/-- THE VALUE: after the run the result array holds `G9_3` of the three input arrays as the region found them. -/
theorem final9_3 (c : Dev nD) :
    (dat9 V c).arrAt 3 cfg9.N = G9_3 (hArr9 V c) (sArr9 V c) (wArr9 V c) :=
  (dat9 V c).arrAt_eq_of_cover 3 (G9_3 (hArr9 V c) (sArr9 V c) (wArr9 V c)) (flushed9_3 V c) fun i =>
    ⟨t9_9, (flush9_3 t9_9).mpr rfl, by
      -- the array has one cell, at coordinates (0, 0); the last point's block starts at (0, 0) and has extent (1, 1)
      show i ∈ ((View.whole (Pipeline.arrRef spec9 3)).slice (win9_3.rect t9_9)).set
      rw [View.set_slice_whole, Rect.mem_set_unit]
      intro a
      have hlt : (i a : Nat) < 1 := by fin_cases a <;> exact (i _).isLt
      have hoff : win9_3.index t9_9 a * win9_3.size a = 0 := by fin_cases a <;> decide
      have hext : win9_3.xsize (grid9.coords t9_9) a = 1 := by fin_cases a <;> decide
      show win9_3.index t9_9 a * win9_3.size a ≤ (i a : Nat)
        ∧ (i a : Nat) < win9_3.index t9_9 a * win9_3.size a + win9_3.xsize (grid9.coords t9_9) a
      rw [hoff, hext]; omega⟩

end Cert.Kernel.Hand

end
-- ==== Proof.KB.Reg9.lean ====
/-
  Region 9 (custom call 9): the body's runs per control case, the proof data with its invariant and body
  obligation, and the value of the result array — one import for the three modules.
-/
import proofs.«160050_j32744830665390_2_alg».proof.Proof.KB.Reg9.Frame
import proofs.«160050_j32744830665390_2_alg».proof.Proof.KB.Reg9.Value
-- ==== Proof.KB.Reg10.Runs.lean ====
/-
  Region 10 (custom call 10, the node-wise Dirichlet term of one hidden state): the kernel body run once per
  control case.

  The body has two conditionals on the grid coordinate. At the first row tile it clears the one-cell accumulator;
  at every tile it adds the tile's partial sum  Σ_r (w r · Σ_k h r k · h r k − 2 · Σ_k h r k · s r k)  to the
  accumulator; at the last row tile it copies the accumulator to the one-cell output block. With ten tiles the
  two conditions never hold together, so there are three cases: first tile, a middle tile, last tile.

  For each case the body is run symbolically on arbitrary whole memrefs and the list of stores each written
  buffer ends with is recorded (last store first); the lists are found by the run itself.
-/
import proofs.«160050_j32744830665390_2_alg».proof.Proof.KB.Iface

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, and where on the grid they hold -/

/-- "This is the first row tile": the printed comparison chain of the first conditional. -/
abbrev isFirst10 (i : grid10.Coords) : Prop :=
  (Scalar.cmpi .ne (Scalar.extui (Scalar.cmpi .eq (BitVec.ofNat 32 (i 0).val) 0#32)) 0#32) = 1#1

/-- "This is the last row tile": the printed condition of the second conditional. -/
abbrev isLast10 (i : grid10.Coords) : Prop := k10_cond2 i = 1#1

/-- The first condition holds at point 0 and nowhere else. -/
theorem isFirst10_iff : ∀ t : Fin cfg10.N, isFirst10 (grid10.coords t) ↔ t.val = 0 :=
  (by decide +kernel : ∀ t : Fin grid10.N, isFirst10 (grid10.coords t) ↔ t.val = 0)

/-- The second condition holds at point 9 and nowhere else. -/
theorem isLast10_iff : ∀ t : Fin cfg10.N, isLast10 (grid10.coords t) ↔ t.val = 9 :=
  (by decide +kernel : ∀ t : Fin grid10.N, isLast10 (grid10.coords t) ↔ t.val = 9)

/-- The three input windows are never idle. -/
theorem live10_0 : ∀ t : Fin cfg10.N, cfg10.idle 0 (grid10.coords t) = false := by decide +kernel
theorem live10_1 : ∀ t : Fin cfg10.N, cfg10.idle 1 (grid10.coords t) = false := by decide +kernel
theorem live10_2 : ∀ t : Fin cfg10.N, cfg10.idle 2 (grid10.coords t) = false := by decide +kernel
/-- The output window is idle, and not written back, at every point but the last; there it is live. -/
theorem idle10_3 : ∀ t : Fin cfg10.N, t.val ≠ 9 → cfg10.idle 3 (grid10.coords t) = true := by decide +kernel
theorem keep10_3 : ∀ t : Fin cfg10.N, t.val ≠ 9 → (cfg10.win 3).flush t = false := by decide +kernel
theorem live10_3 : ∀ t : Fin cfg10.N, t.val = 9 → cfg10.idle 3 (grid10.coords t) = false := by decide +kernel

/-! ## The memrefs the pipeline passes the body at a point -/

abbrev ms10_0 (t : Fin cfg10.N) : Memref sig .tc .vmem S5000x128 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S5000x128 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S5000x1 .f32 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S1x1 .f32 := win10_3.stage (cfg10.slots t 3)
abbrev hs10_3 (t : Fin cfg10.N) : (ms10_3 t).IsWhole := hstage10_3 ((cfg10.slots t 3).cast nbuf10_3)
/-- The accumulator: a whole scoped buffer of the kernel's own. -/
abbrev acM10 : Memref sig .tc .vmem S1x1 .f32 := Memref.whole cc10_scratch0
/-- The views through which the accumulator's and the output block's contents are stated. -/
abbrev acV10 : View sig .tc .vmem S1x1 .f32 := acM10.view
abbrev outV10 : View sig .tc .vmem S1x1 .f32 := (Memref.whole cc10_stg3_0 : Memref sig .tc .vmem S1x1 .f32).view

/-! ## The three runs -/

set_option maxHeartbeats 1000000 in
/-- FIRST TILE. The accumulator may hold anything; the output block `xo` is not touched. The accumulator ends with
    the stores `LA`: the clearing store, then the store of  0 + (the tile's partial sum). -/
def run10_first (c : Dev nD) (i : grid10.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : isFirst10 i) (hlast : ¬isLast10 i)
    (h : Vec F S5000x128 .f32) (s : Vec F S5000x128 .f32) (w : Vec F S5000x1 .f32) :
    { LA : List (View.Piece (Elt F) S1x1 .f32) //
      ∀ (xo : Vec F S1x1 .f32) (E : Set ℕ) (K : PUnit → sProp 𝕄),
        iprop(owns (c : Thread nD τ) arg1 fullShare h ∗ owns (c : Thread nD τ) arg2 fullShare s ∗ owns (c : Thread nD τ) arg3 fullShare w
            ∗ owns (c : Thread nD τ) arg4 fullShare xo ∗ (∃ d, owns (c : Thread nD τ) arg5 fullShare d)
            ∗ (iprop(owns (c : Thread nD τ) arg1 fullShare h ∗ owns (c : Thread nD τ) arg2 fullShare s ∗ owns (c : Thread nD τ) arg3 fullShare w
                ∗ owns (c : Thread nD τ) arg4 fullShare xo
                ∗ (∃ f, arg5.view.loc (c : Thread nD τ) ↦[arg5.view.set]{fullShare} arg5.view.writes (Elt F) f LA)) -∗ K ⟨⟩))
          ⊢ wp frame (wpE (defs₀ (F := F)) Variants.none c none) E (cc10_node_reg_kernel i arg1 harg1 arg2 harg2 arg3 harg3 arg4 harg4 arg5 harg5) K } := by
  refine ⟨?_, fun xo E K => ?run⟩
  case run =>
    simp only [cc10_node_reg_kernel_eq_skeleton]; unfold cc10_node_reg_kernel_skel
    unfold owns
    iintro ⟨⟨%f1, %hf1, H1⟩, ⟨%f2, %hf2, H2⟩, ⟨%f3, %hf3, H3⟩, ⟨%f4, %hf4, H4⟩, ⟨%da, %fa, -, HA⟩, Hk⟩
    obtain rfl := harg1.eq_unread hf1; obtain rfl := harg2.eq_unread hf2
    obtain rfl := harg3.eq_unread hf3; obtain rfl := harg4.eq_unread hf4
    sl_exec (disch := first | exact hfirst | exact hlast)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact HA

set_option maxHeartbeats 1000000 in
/-- A MIDDLE TILE. The accumulator holds `a`, what the tile before left; the output block `xo` is not touched. The
    accumulator ends with the one store of  a + (the tile's partial sum). -/
def run10_mid (c : Dev nD) (i : grid10.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst10 i) (hlast : ¬isLast10 i)
    (h : Vec F S5000x128 .f32) (s : Vec F S5000x128 .f32) (w : Vec F S5000x1 .f32) (a : Vec F S1x1 .f32) :
    { LA : List (View.Piece (Elt F) S1x1 .f32) //
      ∀ (xo : Vec F S1x1 .f32) (E : Set ℕ) (K : PUnit → sProp 𝕄),
        iprop(owns (c : Thread nD τ) arg1 fullShare h ∗ owns (c : Thread nD τ) arg2 fullShare s ∗ owns (c : Thread nD τ) arg3 fullShare w
            ∗ owns (c : Thread nD τ) arg4 fullShare xo ∗ owns (c : Thread nD τ) arg5 fullShare a
            ∗ (iprop(owns (c : Thread nD τ) arg1 fullShare h ∗ owns (c : Thread nD τ) arg2 fullShare s ∗ owns (c : Thread nD τ) arg3 fullShare w
                ∗ owns (c : Thread nD τ) arg4 fullShare xo
                ∗ (∃ f, arg5.view.loc (c : Thread nD τ) ↦[arg5.view.set]{fullShare} arg5.view.writes (Elt F) f LA)) -∗ K ⟨⟩))
          ⊢ wp frame (wpE (defs₀ (F := F)) Variants.none c none) E (cc10_node_reg_kernel i arg1 harg1 arg2 harg2 arg3 harg3 arg4 harg4 arg5 harg5) K } := by
  refine ⟨?_, fun xo E K => ?run⟩
  case run =>
    simp only [cc10_node_reg_kernel_eq_skeleton]; unfold cc10_node_reg_kernel_skel
    unfold owns
    iintro ⟨⟨%f1, %hf1, H1⟩, ⟨%f2, %hf2, H2⟩, ⟨%f3, %hf3, H3⟩, ⟨%f4, %hf4, H4⟩, ⟨%fa, %hfa, HA⟩, Hk⟩
    obtain rfl := harg1.eq_unread hf1; obtain rfl := harg2.eq_unread hf2
    obtain rfl := harg3.eq_unread hf3; obtain rfl := harg4.eq_unread hf4
    obtain rfl := harg5.eq_unread hfa
    sl_exec (disch := first | exact hfirst | exact hlast)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact HA

set_option maxHeartbeats 1000000 in
/-- THE LAST TILE. The accumulator holds `a`; the output block may hold anything. The accumulator ends with the store
    `LA` of  a + (the tile's partial sum), the output block with the store `LO` of that same value read back. -/
def run10_last (c : Dev nD) (i : grid10.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst10 i) (hlast : isLast10 i)
    (h : Vec F S5000x128 .f32) (s : Vec F S5000x128 .f32) (w : Vec F S5000x1 .f32) (a : Vec F S1x1 .f32) :
    Σ' (LO : List (View.Piece (Elt F) S1x1 .f32)), { LA : List (View.Piece (Elt F) S1x1 .f32) //
      ∀ (E : Set ℕ) (K : PUnit → sProp 𝕄),
        iprop(owns (c : Thread nD τ) arg1 fullShare h ∗ owns (c : Thread nD τ) arg2 fullShare s ∗ owns (c : Thread nD τ) arg3 fullShare w
            ∗ (∃ d, owns (c : Thread nD τ) arg4 fullShare d) ∗ owns (c : Thread nD τ) arg5 fullShare a
            ∗ (iprop(owns (c : Thread nD τ) arg1 fullShare h ∗ owns (c : Thread nD τ) arg2 fullShare s ∗ owns (c : Thread nD τ) arg3 fullShare w
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LA)) -∗ K ⟨⟩))
          ⊢ wp frame (wpE (defs₀ (F := F)) Variants.none c none) E (cc10_node_reg_kernel i arg1 harg1 arg2 harg2 arg3 harg3 arg4 harg4 arg5 harg5) K } := by
  refine ⟨?_, ?_, fun E K => ?run⟩
  case run =>
    simp only [cc10_node_reg_kernel_eq_skeleton]; unfold cc10_node_reg_kernel_skel
    unfold owns
    iintro ⟨⟨%f1, %hf1, H1⟩, ⟨%f2, %hf2, H2⟩, ⟨%f3, %hf3, H3⟩, ⟨%d4, %f4, -, H4⟩, ⟨%fa, %hfa, HA⟩, Hk⟩
    obtain rfl := harg1.eq_unread hf1; obtain rfl := harg2.eq_unread hf2
    obtain rfl := harg3.eq_unread hf3; obtain rfl := harg5.eq_unread hfa
    sl_exec (disch := first | exact hfirst | exact hlast)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    iexists _; iexact HA

end Cert.Kernel.Hand

end
-- ==== Proof.KB.Reg10.Frame.lean ====
/-
  Region 10: what the accumulator and the output block hold after each row tile, the region's proof data at the
  entry contents `V`, its invariant, and the body obligation.

  The accumulator after tile 0 is what the first-tile run leaves; after tile n + 1 it is what the middle-tile run
  (the last-tile run at n + 1 = 9) leaves when started from the accumulator after tile n. The invariant before
  tile 0 is the class's: every scoped buffer that is no staging buffer at some contents, and the generator register.
  Before tile n + 1 it holds the accumulator at exactly the contents named above, the other scoped buffers at some
  contents, and the generator register. The output block is live only at the last tile, where it receives the
  accumulator's final value; everywhere else its staging buffer is handed back as found.
-/
import proofs.«160050_j32744830665390_2_alg».proof.Proof.KB.Reg10.Runs

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## The input blocks -/

/-- Window `w`'s block at point `t`, read off its array as the region finds it. -/
def blk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-! ## What each case leaves, read back through one fixed view -/

/-- The accumulator after the first tile. -/
def acc10_first (c : Dev nD) (t : Fin cfg10.N) (h0 : t.val = 0)
    (h : Vec F S5000x128 .f32) (s : Vec F S5000x128 .f32) (w : Vec F S5000x1 .f32) : Vec F S1x1 .f32 :=
  acV10.read (Elt F) (acV10.writes (Elt F) acV10.junk
    (run10_first c (grid10.coords t) (ms10_0 t) (hs10_0 t) (ms10_1 t) (hs10_1 t) (ms10_2 t) (hs10_2 t) (ms10_3 t) (hs10_3 t) acM10 (Memref.isWhole_whole _)
      ((isFirst10_iff t).mpr h0) (fun hl => by have := (isLast10_iff t).mp hl; omega) h s w).1)

/-- The accumulator after a middle tile that found it at `a`. -/
def acc10_mid (c : Dev nD) (t : Fin cfg10.N) (h0 : t.val ≠ 0) (h9 : t.val ≠ 9)
    (h : Vec F S5000x128 .f32) (s : Vec F S5000x128 .f32) (w : Vec F S5000x1 .f32) (a : Vec F S1x1 .f32) : Vec F S1x1 .f32 :=
  acV10.read (Elt F) (acV10.writes (Elt F) acV10.junk
    (run10_mid c (grid10.coords t) (ms10_0 t) (hs10_0 t) (ms10_1 t) (hs10_1 t) (ms10_2 t) (hs10_2 t) (ms10_3 t) (hs10_3 t) acM10 (Memref.isWhole_whole _)
      (fun hf => h0 ((isFirst10_iff t).mp hf)) (fun hl => h9 ((isLast10_iff t).mp hl)) h s w a).1)

/-- The accumulator after the last tile, which found it at `a`. -/
def acc10_last (c : Dev nD) (t : Fin cfg10.N) (h9 : t.val = 9)
    (h : Vec F S5000x128 .f32) (s : Vec F S5000x128 .f32) (w : Vec F S5000x1 .f32) (a : Vec F S1x1 .f32) : Vec F S1x1 .f32 :=
  acV10.read (Elt F) (acV10.writes (Elt F) acV10.junk
    (run10_last c (grid10.coords t) (ms10_0 t) (hs10_0 t) (ms10_1 t) (hs10_1 t) (ms10_2 t) (hs10_2 t) (ms10_3 t) (hs10_3 t) acM10 (Memref.isWhole_whole _)
      (fun hf => by have := (isFirst10_iff t).mp hf; omega) ((isLast10_iff t).mpr h9) h s w a).2.1)

/-- The output block after the last tile. -/
def out10_last (c : Dev nD) (t : Fin cfg10.N) (h9 : t.val = 9)
    (h : Vec F S5000x128 .f32) (s : Vec F S5000x128 .f32) (w : Vec F S5000x1 .f32) (a : Vec F S1x1 .f32) : Vec F S1x1 .f32 :=
  outV10.read (Elt F) (outV10.writes (Elt F) outV10.junk
    (run10_last c (grid10.coords t) (ms10_0 t) (hs10_0 t) (ms10_1 t) (hs10_1 t) (ms10_2 t) (hs10_2 t) (ms10_3 t) (hs10_3 t) acM10 (Memref.isWhole_whole _)
      (fun hf => by have := (isFirst10_iff t).mp hf; omega) ((isLast10_iff t).mpr h9) h s w a).1)

/-- Each list of stores covers its one-cell buffer. -/
theorem cover10_first (c : Dev nD) (i : grid10.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : isFirst10 i) (hlast : ¬isLast10 i)
    (h : Vec F S5000x128 .f32) (s : Vec F S5000x128 .f32) (w : Vec F S5000x1 .f32) (y : S1x1.Idx) :
    ∃ pc ∈ (run10_first c i arg1 harg1 arg2 harg2 arg3 harg3 arg4 harg4 arg5 harg5 hfirst hlast h s w).1, y ∈ pc.1.set :=
  View.cover_of_tiledL _ S1x1.size (by sl_kernel_rfl) y

theorem cover10_mid (c : Dev nD) (i : grid10.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst10 i) (hlast : ¬isLast10 i)
    (h : Vec F S5000x128 .f32) (s : Vec F S5000x128 .f32) (w : Vec F S5000x1 .f32) (a : Vec F S1x1 .f32) (y : S1x1.Idx) :
    ∃ pc ∈ (run10_mid c i arg1 harg1 arg2 harg2 arg3 harg3 arg4 harg4 arg5 harg5 hfirst hlast h s w a).1, y ∈ pc.1.set :=
  View.cover_of_tiledL _ S1x1.size (by sl_kernel_rfl) y

theorem cover10_last_acc (c : Dev nD) (i : grid10.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst10 i) (hlast : isLast10 i)
    (h : Vec F S5000x128 .f32) (s : Vec F S5000x128 .f32) (w : Vec F S5000x1 .f32) (a : Vec F S1x1 .f32) (y : S1x1.Idx) :
    ∃ pc ∈ (run10_last c i arg1 harg1 arg2 harg2 arg3 harg3 arg4 harg4 arg5 harg5 hfirst hlast h s w a).2.1, y ∈ pc.1.set :=
  View.cover_of_tiledL _ S1x1.size (by sl_kernel_rfl) y

theorem cover10_last_out (c : Dev nD) (i : grid10.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst10 i) (hlast : isLast10 i)
    (h : Vec F S5000x128 .f32) (s : Vec F S5000x128 .f32) (w : Vec F S5000x1 .f32) (a : Vec F S1x1 .f32) (y : S1x1.Idx) :
    ∃ pc ∈ (run10_last c i arg1 harg1 arg2 harg2 arg3 harg3 arg4 harg4 arg5 harg5 hfirst hlast h s w a).1, y ∈ pc.1.set :=
  View.cover_of_tiledL _ S1x1.size (by sl_kernel_rfl) y

/-! ## The accumulator and the output block, tile by tile -/

/-- THE RUNNING TOTAL: what the accumulator holds after the body at position `n`. -/
def acc10 (c : Dev nD) : (n : ℕ) → n < cfg10.N → Vec F S1x1 .f32
  | 0, hn => acc10_first c ⟨0, hn⟩ rfl (blk10 V c 0 ⟨0, hn⟩) (blk10 V c 1 ⟨0, hn⟩) (blk10 V c 2 ⟨0, hn⟩)
  | n + 1, hn =>
    if h9 : n + 1 = 9 then
      acc10_last c ⟨n + 1, hn⟩ h9 (blk10 V c 0 ⟨n + 1, hn⟩) (blk10 V c 1 ⟨n + 1, hn⟩) (blk10 V c 2 ⟨n + 1, hn⟩) (acc10 c n (Nat.lt_of_succ_lt hn))
    else
      acc10_mid c ⟨n + 1, hn⟩ (Nat.succ_ne_zero n) h9 (blk10 V c 0 ⟨n + 1, hn⟩) (blk10 V c 1 ⟨n + 1, hn⟩) (blk10 V c 2 ⟨n + 1, hn⟩) (acc10 c n (Nat.lt_of_succ_lt hn))

/-- The accumulator just before point `t`, for `t` not the first: what the point before left. -/
abbrev accBefore10 (c : Dev nD) (t : Fin cfg10.N) : Vec F S1x1 .f32 :=
  acc10 V c (t.val - 1) (Nat.lt_of_le_of_lt (Nat.sub_le _ _) t.isLt)

theorem acc10_at_first (c : Dev nD) (t : Fin cfg10.N) (h0 : t.val = 0) :
    acc10 V c t.val t.isLt = acc10_first c t h0 (blk10 V c 0 t) (blk10 V c 1 t) (blk10 V c 2 t) := by
  obtain ⟨n, hn⟩ := t
  cases n with
  | zero => rfl
  | succ n => exact absurd h0 (Nat.succ_ne_zero n)

theorem acc10_at_mid (c : Dev nD) (t : Fin cfg10.N) (h0 : t.val ≠ 0) (h9 : t.val ≠ 9) :
    acc10 V c t.val t.isLt = acc10_mid c t h0 h9 (blk10 V c 0 t) (blk10 V c 1 t) (blk10 V c 2 t) (accBefore10 V c t) := by
  obtain ⟨n, hn⟩ := t
  cases n with
  | zero => exact absurd rfl h0
  | succ n => exact (dif_neg h9).trans rfl

theorem acc10_at_last (c : Dev nD) (t : Fin cfg10.N) (h9 : t.val = 9) :
    acc10 V c t.val t.isLt = acc10_last c t h9 (blk10 V c 0 t) (blk10 V c 1 t) (blk10 V c 2 t) (accBefore10 V c t) := by
  obtain ⟨n, hn⟩ := t
  cases n with
  | zero => exact absurd h9 (show ¬ (0 : ℕ) = 9 by decide)
  | succ n => exact (dif_pos h9).trans rfl

/-- What the output window's staging buffer holds after the body at point `t`: at the last point the accumulator's
    final value as the last-tile run stores it; the value at the other points is consulted nowhere (the window is
    idle there and not written back). -/
def out10 (c : Dev nD) (t : Fin cfg10.N) : Vec F S1x1 .f32 :=
  if h9 : t.val = 9 then out10_last c t h9 (blk10 V c 0 t) (blk10 V c 1 t) (blk10 V c 2 t) (accBefore10 V c t)
  else acc10 V c t.val t.isLt

/-! ## The invariant -/

/-- Before position `n`: at the first point the class's invariant; afterwards the accumulator at the running total,
    the other scoped buffers at some contents, the generator register at some state. -/
def Phi10 (c : Dev nD) : (n : ℕ) → n ≤ cfg10.N → sProp 𝕄
  | 0, _ => Pipeline.ΦA (U := UR sig nD τ) (Val := Elt F) spec10 c
  | n + 1, hn => iprop(iprop(owns (c : Thread nD τ) acM10 fullShare (acc10 V c n hn)
      ∗ Pipeline.scopedRestBut (Ix := Unit) (Name := ℕ) (U := UR sig nD τ) (Lvl := ℕ) (Val := Elt F) spec10 c [cc10_scratch0]) ∗ (∃ r, prngReg c r))

theorem Phi10_zero (c : Dev nD) (n : ℕ) (hn : n ≤ cfg10.N) (hz : n = 0) :
    Phi10 V c n hn = Pipeline.ΦA (U := UR sig nD τ) (Val := Elt F) spec10 c := by
  subst hz; rfl

theorem Phi10_succ (c : Dev nD) (n : ℕ) (hn : n < cfg10.N) :
    Phi10 V c (n + 1) hn = iprop(iprop(owns (c : Thread nD τ) acM10 fullShare (acc10 V c n hn)
      ∗ Pipeline.scopedRestBut (Ix := Unit) (Name := ℕ) (U := UR sig nD τ) (Lvl := ℕ) (Val := Elt F) spec10 c [cc10_scratch0]) ∗ (∃ r, prngReg c r)) := rfl

theorem Phi10_pos (c : Dev nD) (n : ℕ) (hn : n ≤ cfg10.N) (hz : n ≠ 0) :
    Phi10 V c n hn = iprop(iprop(owns (c : Thread nD τ) acM10 fullShare (acc10 V c (n - 1) (by omega))
      ∗ Pipeline.scopedRestBut (Ix := Unit) (Name := ℕ) (U := UR sig nD τ) (Lvl := ℕ) (Val := Elt F) spec10 c [cc10_scratch0]) ∗ (∃ r, prngReg c r)) := by
  cases n with
  | zero => exact absurd rfl hz
  | succ n => rfl

/-- The class's invariant with the accumulator singled out of the scoped rest. -/
theorem PhiA10_open (c : Dev nD) :
    (Pipeline.ΦA (U := UR sig nD τ) (Val := Elt F) spec10 c : sProp 𝕄)
      = iprop(iprop((∃ d, owns (c : Thread nD τ) acM10 fullShare d)
          ∗ Pipeline.scopedRestBut (Ix := Unit) (Name := ℕ) (U := UR sig nD τ) (Lvl := ℕ) (Val := Elt F) spec10 c [cc10_scratch0]) ∗ (∃ r, prngReg c r)) := by
  unfold Pipeline.ΦA; rw [scopedRest10_split]; simp only [acM10, owns_whole]; try rfl

/-! ## The proof data -/

/-- Region 10's proof data on core `c`: the arrays as the region finds them; after the body each input's buffer still
    at its block, the output's at `out10`; the invariant `Phi10`; full shares; nothing owed. -/
def dat10 (c : Dev nD) : Dat τ (Elt F) Unit ℕ (UR sig nD τ) ℕ cfg10 c where
  A w := V c (Pipeline.arrRef spec10 w)
  after w t := match w with
    | ⟨0, _⟩ => blk10 V c 0 t
    | ⟨1, _⟩ => blk10 V c 1 t
    | ⟨2, _⟩ => blk10 V c 2 t
    | ⟨3, _⟩ => out10 V c t
  Φ t := Phi10 V c t.val (Nat.le_of_lt_succ t.isLt)
  q _ := fullShare
  owed _ := 0

theorem A_eq10 (c : Dev nD) (w : Fin cfg10.W) : (dat10 V c).A w = V c (Pipeline.arrRef spec10 w) := by
  dsimp only [dat10]

theorem q_eq10 (c : Dev nD) (w : Fin cfg10.W) : (dat10 V c).q w = fullShare := by
  dsimp only [dat10]

theorem owed_eq10 (c : Dev nD) (t : Fin (cfg10.N + 1)) : (dat10 V c).owed t = 0 := by
  dsimp only [dat10]

theorem Phi10_castSucc (c : Dev nD) (t : Fin cfg10.N) :
    (dat10 V c).Φ t.castSucc = Phi10 V c t.val (Nat.le_of_lt t.isLt) := by
  dsimp only [dat10]; simp only [Fin.coe_castSucc]

theorem after10_0 (c : Dev nD) (t : Fin cfg10.N) : (dat10 V c).after 0 t = blk10 V c 0 t := by dsimp only [dat10]
theorem after10_1 (c : Dev nD) (t : Fin cfg10.N) : (dat10 V c).after 1 t = blk10 V c 1 t := by dsimp only [dat10]
theorem after10_2 (c : Dev nD) (t : Fin cfg10.N) : (dat10 V c).after 2 t = blk10 V c 2 t := by dsimp only [dat10]
theorem after10_3 (c : Dev nD) (t : Fin cfg10.N) : (dat10 V c).after 3 t = out10 V c t := by dsimp only [dat10]

/-- Every input window is fetched at every point, so its current buffer holds the array's block there. -/
theorem before10_0 (c : Dev nD) (t : Fin cfg10.N) (d) : (dat10 V c).before 0 t d = blk10 V c 0 t :=
  ((dat10 V c).before_fetched 0 t (fetch10_0 t) d).trans (by unfold Dat.fetched Dat.blockOf blk10; rw [A_eq10]; try rfl)
theorem before10_1 (c : Dev nD) (t : Fin cfg10.N) (d) : (dat10 V c).before 1 t d = blk10 V c 1 t :=
  ((dat10 V c).before_fetched 1 t (fetch10_1 t) d).trans (by unfold Dat.fetched Dat.blockOf blk10; rw [A_eq10]; try rfl)
theorem before10_2 (c : Dev nD) (t : Fin cfg10.N) (d) : (dat10 V c).before 2 t d = blk10 V c 2 t :=
  ((dat10 V c).before_fetched 2 t (fetch10_2 t) d).trans (by unfold Dat.fetched Dat.blockOf blk10; rw [A_eq10]; try rfl)

/-! ## The body obligation -/

/-- What the body is called with at point `t`, -/
def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t)

theorem leaves10_0 (c : Dev nD) (t : Fin cfg10.N) :
    (dat10 V c).leavesExact 0 t = owns (c : Thread nD τ) (ms10_0 t) fullShare (blk10 V c 0 t) := by
  unfold Dat.leavesExact; rw [live10_0 t, after10_0]
theorem leaves10_1 (c : Dev nD) (t : Fin cfg10.N) :
    (dat10 V c).leavesExact 1 t = owns (c : Thread nD τ) (ms10_1 t) fullShare (blk10 V c 1 t) := by
  unfold Dat.leavesExact; rw [live10_1 t, after10_1]
theorem leaves10_2 (c : Dev nD) (t : Fin cfg10.N) :
    (dat10 V c).leavesExact 2 t = owns (c : Thread nD τ) (ms10_2 t) fullShare (blk10 V c 2 t) := by
  unfold Dat.leavesExact; rw [live10_2 t, after10_2]
theorem leaves10_3_idle (c : Dev nD) (t : Fin cfg10.N) (h9 : t.val ≠ 9) :
    (dat10 V c).leavesExact 3 t = iprop(∃ d, owns (c : Thread nD τ) (ms10_3 t) fullShare ((dat10 V c).before 3 t d)) :=
  Dat.leavesExact_idle (dat10 V c) 3 t (idle10_3 t h9) (keep10_3 t h9)
theorem leaves10_3_live (c : Dev nD) (t : Fin cfg10.N) (h9 : t.val = 9) :
    (dat10 V c).leavesExact 3 t = owns (c : Thread nD τ) (ms10_3 t) fullShare (out10 V c t) := by
  unfold Dat.leavesExact; rw [live10_3 t h9, after10_3]

set_option maxHeartbeats 4800000 in
/-- The body at any point. The inputs' buffers hold their blocks; the point's position decides the case; the invariant
    hands the run the accumulator (at anything before the first tile, at the running total afterwards) and takes it
    back at the new running total, the run's stores covering the one cell; the rest of the invariant and what the
    core owes pass through untouched. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).owesAt () t.succ = (dat10 V c).owesAt () t.castSucc from rfl]
  rw [show (dat10 V c).Φ t.succ = Phi10 V c (t.val + 1) t.isLt from rfl, Phi10_succ]
  rw [leaves10_0, leaves10_1, leaves10_2, Phi10_castSucc]
  have hN : t.val < 10 := lt_of_lt_of_eq t.isLt (show cfg10.N = 10 from N_10)
  by_cases h0 : t.val = 0
  · -- the first tile
    have h9 : t.val ≠ 9 := by omega
    rw [leaves10_3_idle V c t h9, acc10_at_first V c t h0, Phi10_zero V c _ _ h0, PhiA10_open]
    unfold acc10_first
    iintro ⟨⟨⟨HA, HR⟩, Hg⟩, Ho, ⟨%d0, H0⟩, ⟨%d1, H1⟩, ⟨%d2, H2⟩, ⟨%d3, H3⟩⟩
    iapply ((run10_first c (grid10.coords t) _ _ _ _ _ _ _ _ _ _ ((isFirst10_iff t).mpr h0)
      (fun hl => by have := (isLast10_iff t).mp hl; omega) (blk10 V c 0 t) (blk10 V c 1 t) (blk10 V c 2 t)).2 _ Set.univ _)
    isplitl [H0]; · iexact H0
    isplitl [H1]; · iexact H1
    isplitl [H2]; · iexact H2
    isplitl [H3]; · iexact H3
    isplitl [HA]; · iexact HA
    iintro ⟨H0, H1, H2, H3, ⟨%ea, HA⟩⟩
    isplitl [HA HR Hg]
    · isplitr [Hg]
      · isplitl [HA]
        · unfold owns; iexists _; isplitr
          swap; · iexact HA
          ipureintro; exact View.read_writes_of_cover _ _ _ _ _ (cover10_first c _ _ _ _ _ _ _ _ _ _ _ _ _ _ _ _)
        iexact HR
      iexact Hg
    isplitl [Ho]; · iexact Ho
    isplitl [H0]; · iexact H0
    isplitl [H1]; · iexact H1
    isplitl [H2]; · iexact H2
    iexists _; iexact H3
  · by_cases h9 : t.val = 9
    · -- the last tile
      rw [leaves10_3_live V c t h9, acc10_at_last V c t h9, Phi10_pos V c _ _ h0]
      unfold out10; rw [dif_pos h9]
      unfold acc10_last out10_last
      iintro ⟨⟨⟨HA, HR⟩, Hg⟩, Ho, ⟨%d0, H0⟩, ⟨%d1, H1⟩, ⟨%d2, H2⟩, ⟨%d3, H3⟩⟩
      iapply ((run10_last c (grid10.coords t) _ _ _ _ _ _ _ _ _ _ (fun hf => by have := (isFirst10_iff t).mp hf; omega)
        ((isLast10_iff t).mpr h9) (blk10 V c 0 t) (blk10 V c 1 t) (blk10 V c 2 t) (accBefore10 V c t)).2.2 Set.univ _)
      isplitl [H0]; · iexact H0
      isplitl [H1]; · iexact H1
      isplitl [H2]; · iexact H2
      isplitl [H3]; · iexists _; iexact H3
      isplitl [HA]; · iexact HA
      iintro ⟨H0, H1, H2, ⟨%eo, H3⟩, ⟨%ea, HA⟩⟩
      isplitl [HA HR Hg]
      · isplitr [Hg]
        · isplitl [HA]
          · unfold owns; iexists _; isplitr
            swap; · iexact HA
            ipureintro; exact View.read_writes_of_cover _ _ _ _ _ (cover10_last_acc c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover10_last_out c _ _ _ _ _ _ _ _ _ _ _ _ _ _ _ _ _)
    · -- a middle tile
      rw [leaves10_3_idle V c t h9, acc10_at_mid V c t h0 h9, Phi10_pos V c _ _ h0]
      unfold acc10_mid
      iintro ⟨⟨⟨HA, HR⟩, Hg⟩, Ho, ⟨%d0, H0⟩, ⟨%d1, H1⟩, ⟨%d2, H2⟩, ⟨%d3, H3⟩⟩
      iapply ((run10_mid c (grid10.coords t) _ _ _ _ _ _ _ _ _ _ (fun hf => h0 ((isFirst10_iff t).mp hf))
        (fun hl => h9 ((isLast10_iff t).mp hl)) (blk10 V c 0 t) (blk10 V c 1 t) (blk10 V c 2 t) (accBefore10 V c t)).2 _ Set.univ _)
      isplitl [H0]; · iexact H0
      isplitl [H1]; · iexact H1
      isplitl [H2]; · iexact H2
      isplitl [H3]; · iexact H3
      isplitl [HA]; · iexact HA
      iintro ⟨H0, H1, H2, H3, ⟨%ea, HA⟩⟩
      isplitl [HA HR Hg]
      · isplitr [Hg]
        · isplitl [HA]
          · unfold owns; iexists _; isplitr
            swap; · iexact HA
            ipureintro; exact View.read_writes_of_cover _ _ _ _ _ (cover10_mid c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation10 (c : Dev nD) : BodyObligation (dat10 (F := F) V c) (defs₀ (F := F)) Variants.none () Set.univ := fun t => by
  rw [bigSep_W10, bigSep_W10]
  exact sound_body10 V c t

/-! ## The invariant's two ends -/

/-- The class's invariant is the invariant before the first point. -/
theorem Phi_in10 (c : Dev nD) : (Pipeline.ΦA (U := UR sig nD τ) (Val := Elt F) spec10 c : sProp 𝕄) ⊢ (dat10 V c).Φ 0 := by
  rw [show (dat10 V c).Φ 0 = Phi10 V c 0 (Nat.zero_le _) from rfl, Phi10_zero V c 0 _ rfl]
  try exact Entails.refl _

/-- After the last point the invariant gives the class's back: the accumulator's contents are forgotten. -/
theorem Phi_out10 (c : Dev nD) : (dat10 V c).Φ (Fin.last cfg10.N) ⊢ (Pipeline.ΦA (U := UR sig nD τ) (Val := Elt F) spec10 c : sProp 𝕄) := by
  have hne : (Fin.last cfg10.N).val ≠ 0 := by rw [Fin.val_last]; have : cfg10.N = 10 := N_10; omega
  rw [show (dat10 V c).Φ (Fin.last cfg10.N) = Phi10 V c (Fin.last cfg10.N).val (Nat.le_of_lt_succ (Fin.last cfg10.N).isLt) from rfl,
    Phi10_pos V c _ _ hne, PhiA10_open]
  iintro ⟨⟨HA, HR⟩, Hg⟩
  isplitr [Hg]
  · isplitl [HA]
    · iexists _; iexact HA
    iexact HR
  iexact Hg

end Cert.Kernel.Hand

end
-- ==== Proof.KB.Reg10.Value.lean ====
/-
  Region 10: the value. After the run the one-cell result array holds the running total after the tenth row tile:
  starting from the cleared accumulator, tile after tile in grid order, the accumulator plus the tile's partial sum
    Σ_r (w r · Σ_k h r k · h r k − 2 · Σ_k h r k · s r k),   r over the tile's 5000 rows, k over the 128 features,
  each tile being rows 5000·n … 5000·n + 4999 of the three input arrays.

  First each case's list of stores is read back as the update applied to the tile's blocks and the accumulator found;
  then the running total is the ordered chain over the tiles (induction on the tile); then each block is the array's
  rows; then the single write-back, at the last tile, covers the one-cell array.
-/
import proofs.«160050_j32744830665390_2_alg».proof.Proof.KB.Reg10.Frame
import Idealize.ShloMosaic.Lib.Pipeline.Value
import Idealize.ShloMosaic.Lib.ValueIdx

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

open Idealize.ShloMosaic.ValueIdx (ix2)

theorem hz10 : (![0, 0] : Fin 2 → Nat) = fun _ => 0 := funext fun a => by fin_cases a <;> rfl

/-! ## What each case's stores leave -/

/-- First tile: the accumulator is cleared, then the tile's partial sum is added to the cleared value. -/
theorem first_stores10 (c : Dev nD) (i : grid10.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : isFirst10 i) (hlast : ¬isLast10 i)
    (h : Vec F S5000x128 .f32) (s : Vec F S5000x128 .f32) (w : Vec F S5000x1 .f32) :
    acV10.read (Elt F) (acV10.writes (Elt F) acV10.junk
      (run10_first c i arg1 harg1 arg2 harg2 arg3 harg3 arg4 harg4 arg5 harg5 hfirst hlast h s w).1) = k10_pay2 h s w (k10_pay1 (F := F)) := by
  rw [View.read_writes_eq_canon _ _ _ (cover10_first c i arg1 harg1 arg2 harg2 arg3 harg3 arg4 harg4 arg5 harg5 hfirst hlast h s w)]
  unfold run10_first
  dsimp only
  try sl_unfold_words
  rw [View.canon_cons_unit_zero (S := S1x1) hz10]
  simp only [View.readAt_eq_ld, harg1.read_unread, harg2.read_unread, harg3.read_unread, View.ld_unit_zero (S := S5000x128) hz10,
    View.ld_unit_zero (S := S5000x1) hz10, View.readCov_unit_zero (S := S1x1) _ hz10]

/-- A middle tile: the tile's partial sum is added to what the accumulator held. -/
theorem mid_stores10 (c : Dev nD) (i : grid10.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst10 i) (hlast : ¬isLast10 i)
    (h : Vec F S5000x128 .f32) (s : Vec F S5000x128 .f32) (w : Vec F S5000x1 .f32) (a : Vec F S1x1 .f32) :
    acV10.read (Elt F) (acV10.writes (Elt F) acV10.junk
      (run10_mid c i arg1 harg1 arg2 harg2 arg3 harg3 arg4 harg4 arg5 harg5 hfirst hlast h s w a).1) = k10_pay2 h s w a := by
  rw [View.read_writes_eq_canon _ _ _ (cover10_mid c i arg1 harg1 arg2 harg2 arg3 harg3 arg4 harg4 arg5 harg5 hfirst hlast h s w a)]
  unfold run10_mid
  dsimp only
  try sl_unfold_words
  rw [View.canon_unit_zero (S := S1x1) hz10]
  simp only [View.readAt_eq_ld, harg1.read_unread, harg2.read_unread, harg3.read_unread, harg5.read_unread, View.ld_unit_zero (S := S5000x128) hz10,
    View.ld_unit_zero (S := S5000x1) hz10, View.ld_unit_zero (S := S1x1) hz10]

/-- The last tile leaves the same update in the accumulator, -/
theorem last_stores_acc10 (c : Dev nD) (i : grid10.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst10 i) (hlast : isLast10 i)
    (h : Vec F S5000x128 .f32) (s : Vec F S5000x128 .f32) (w : Vec F S5000x1 .f32) (a : Vec F S1x1 .f32) :
    acV10.read (Elt F) (acV10.writes (Elt F) acV10.junk
      (run10_last c i arg1 harg1 arg2 harg2 arg3 harg3 arg4 harg4 arg5 harg5 hfirst hlast h s w a).2.1) = k10_pay2 h s w a := by
  rw [View.read_writes_eq_canon _ _ _ (cover10_last_acc c i arg1 harg1 arg2 harg2 arg3 harg3 arg4 harg4 arg5 harg5 hfirst hlast h s w a)]
  unfold run10_last
  dsimp only
  try sl_unfold_words
  rw [View.canon_unit_zero (S := S1x1) hz10]
  simp only [View.readAt_eq_ld, harg1.read_unread, harg2.read_unread, harg3.read_unread, harg5.read_unread, View.ld_unit_zero (S := S5000x128) hz10,
    View.ld_unit_zero (S := S5000x1) hz10, View.ld_unit_zero (S := S1x1) hz10]

/-- and copies that value, read back from the accumulator, to the output block. -/
theorem last_stores_out10 (c : Dev nD) (i : grid10.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst10 i) (hlast : isLast10 i)
    (h : Vec F S5000x128 .f32) (s : Vec F S5000x128 .f32) (w : Vec F S5000x1 .f32) (a : Vec F S1x1 .f32) :
    outV10.read (Elt F) (outV10.writes (Elt F) outV10.junk
      (run10_last c i arg1 harg1 arg2 harg2 arg3 harg3 arg4 harg4 arg5 harg5 hfirst hlast h s w a).1) = k10_pay2 h s w a := by
  rw [View.read_writes_eq_canon _ _ _ (cover10_last_out c i arg1 harg1 arg2 harg2 arg3 harg3 arg4 harg4 arg5 harg5 hfirst hlast h s w a)]
  unfold run10_last
  dsimp only
  try sl_unfold_words
  rw [View.canon_unit_zero (S := S1x1) hz10]
  simp only [View.readAt_eq_ld, harg1.read_unread, harg2.read_unread, harg3.read_unread, harg5.read_unread, View.ld_unit_zero (S := S5000x128) hz10,
    View.ld_unit_zero (S := S5000x1) hz10, View.ld_unit_zero (S := S1x1) hz10, View.readCov_unit_zero (S := S1x1) _ hz10]

/-! ## The arrays' row tiles and the ordered chain over them -/

/-- Row tile `n` of a table with 50000 rows of 128 entries: rows 5000·n … 5000·n + 4999. -/
def rowsA10 (X : Vec F S50000x128 .f32) (n : Fin 10) : Vec F S5000x128 .f32 := fun y =>
  X (ix2 ⟨5000 * n.val + (y 0).val, by have h1 : (y 0).val < 5000 := (y 0).isLt; have h2 := n.isLt; omega⟩ ⟨(y 1).val, (y 1).isLt⟩)

/-- Row tile `n` of a column of 50000 entries. -/
def rowsW10 (X : Vec F S50000x1 .f32) (n : Fin 10) : Vec F S5000x1 .f32 := fun y =>
  X (ix2 ⟨5000 * n.val + (y 0).val, by have h1 : (y 0).val < 5000 := (y 0).isLt; have h2 := n.isLt; omega⟩ ⟨(y 1).val, (y 1).isLt⟩)

/-- The running total after row tile `n`, as a function of the three whole arrays: the cleared accumulator updated
    by tile 0, then by tile 1, …, then by tile `n`. -/
def tot10 (H S : Vec F S50000x128 .f32) (W : Vec F S50000x1 .f32) : (n : ℕ) → n < 10 → Vec F S1x1 .f32
  | 0, hn => k10_pay2 (rowsA10 H ⟨0, hn⟩) (rowsA10 S ⟨0, hn⟩) (rowsW10 W ⟨0, hn⟩) (k10_pay1 (F := F))
  | n + 1, hn => k10_pay2 (rowsA10 H ⟨n + 1, hn⟩) (rowsA10 S ⟨n + 1, hn⟩) (rowsW10 W ⟨n + 1, hn⟩) (tot10 H S W n (Nat.lt_of_succ_lt hn))

/-- THE RESULT as one function of the region's three input arrays: the running total after the tenth tile. -/
def G10_3 (H S : Vec F S50000x128 .f32) (W : Vec F S50000x1 .f32) : Vec F S1x1 .f32 := tot10 H S W 9 (by decide)

/-- The three input arrays as the region finds them. -/
abbrev hArr10 (c : Dev nD) : Vec F S50000x128 .f32 := V c (Pipeline.arrRef spec10 0)
abbrev sArr10 (c : Dev nD) : Vec F S50000x128 .f32 := V c (Pipeline.arrRef spec10 1)
abbrev wArr10 (c : Dev nD) : Vec F S50000x1 .f32 := V c (Pipeline.arrRef spec10 2)

/-! ## Each input block is its array's row tile -/

theorem point_lt10 (t : Fin cfg10.N) : t.val < 10 := lt_of_lt_of_eq t.isLt (show cfg10.N = 10 from N_10)

theorem blk10_0_rows (c : Dev nD) (t : Fin cfg10.N) :
    (blk10 V c 0 t : Vec F S5000x128 .f32) = rowsA10 (hArr10 V c) ⟨t.val, point_lt10 t⟩ := by
  have hi : win10_0.index t 0 = t.val ∧ win10_0.index t 1 = 0 := by
    rcases fin_N10 t with rfl | rfl | rfl | rfl | rfl | rfl | rfl | rfl | rfl | rfl <;> decide
  funext y
  unfold blk10 rowsA10
  rw [View.read_apply]
  show V c (Pipeline.arrRef spec10 0) _ = V c (Pipeline.arrRef spec10 0) _
  congr 1
  funext a
  apply Fin.ext
  match a with
  | ⟨0, _⟩ => show win10_0.index t 0 * 5000 + 1 * (y 0).val = 5000 * t.val + (y 0).val; rw [hi.1]; omega
  | ⟨1, _⟩ => show win10_0.index t 1 * 128 + 1 * (y 1).val = (y 1).val; rw [hi.2]; omega

theorem blk10_1_rows (c : Dev nD) (t : Fin cfg10.N) :
    (blk10 V c 1 t : Vec F S5000x128 .f32) = rowsA10 (sArr10 V c) ⟨t.val, point_lt10 t⟩ := by
  have hi : win10_1.index t 0 = t.val ∧ win10_1.index t 1 = 0 := by
    rcases fin_N10 t with rfl | rfl | rfl | rfl | rfl | rfl | rfl | rfl | rfl | rfl <;> decide
  funext y
  unfold blk10 rowsA10
  rw [View.read_apply]
  show V c (Pipeline.arrRef spec10 1) _ = V c (Pipeline.arrRef spec10 1) _
  congr 1
  funext a
  apply Fin.ext
  match a with
  | ⟨0, _⟩ => show win10_1.index t 0 * 5000 + 1 * (y 0).val = 5000 * t.val + (y 0).val; rw [hi.1]; omega
  | ⟨1, _⟩ => show win10_1.index t 1 * 128 + 1 * (y 1).val = (y 1).val; rw [hi.2]; omega

theorem blk10_2_rows (c : Dev nD) (t : Fin cfg10.N) :
    (blk10 V c 2 t : Vec F S5000x1 .f32) = rowsW10 (wArr10 V c) ⟨t.val, point_lt10 t⟩ := by
  have hi : win10_2.index t 0 = t.val ∧ win10_2.index t 1 = 0 := by
    rcases fin_N10 t with rfl | rfl | rfl | rfl | rfl | rfl | rfl | rfl | rfl | rfl <;> decide
  funext y
  unfold blk10 rowsW10
  rw [View.read_apply]
  show V c (Pipeline.arrRef spec10 2) _ = V c (Pipeline.arrRef spec10 2) _
  congr 1
  funext a
  apply Fin.ext
  match a with
  | ⟨0, _⟩ => show win10_2.index t 0 * 5000 + 1 * (y 0).val = 5000 * t.val + (y 0).val; rw [hi.1]; omega
  | ⟨1, _⟩ => show win10_2.index t 1 * 1 + 1 * (y 1).val = (y 1).val; rw [hi.2]; omega

/-! ## The running total is the chain -/

theorem acc10_eq_tot (c : Dev nD) : ∀ (n : ℕ) (hn : n < cfg10.N),
    acc10 V c n hn = tot10 (hArr10 V c) (sArr10 V c) (wArr10 V c) n (lt_of_lt_of_eq hn (show cfg10.N = 10 from N_10))
  | 0, hn => by
    refine (acc10_at_first V c ⟨0, hn⟩ rfl).trans ?_
    unfold acc10_first
    rw [first_stores10, blk10_0_rows, blk10_1_rows, blk10_2_rows]
    rfl
  | n + 1, hn => by
    by_cases h9 : n + 1 = 9
    · refine (acc10_at_last V c ⟨n + 1, hn⟩ h9).trans ?_
      unfold acc10_last
      rw [last_stores_acc10, blk10_0_rows, blk10_1_rows, blk10_2_rows]
      show k10_pay2 _ _ _ (acc10 V c n _) = _
      rw [acc10_eq_tot c n (Nat.lt_of_succ_lt hn)]
      rfl
    · refine (acc10_at_mid V c ⟨n + 1, hn⟩ (Nat.succ_ne_zero n) h9).trans ?_
      unfold acc10_mid
      rw [mid_stores10, blk10_0_rows, blk10_1_rows, blk10_2_rows]
      show k10_pay2 _ _ _ (acc10 V c n _) = _
      rw [acc10_eq_tot c n (Nat.lt_of_succ_lt hn)]
      rfl

/-- At the last tile the output block receives the accumulator's final value. -/
theorem out10_at_last (c : Dev nD) (t : Fin cfg10.N) (h9 : t.val = 9) : out10 V c t = acc10 V c t.val t.isLt := by
  unfold out10
  rw [dif_pos h9, acc10_at_last V c t h9]
  unfold out10_last acc10_last
  rw [last_stores_out10, last_stores_acc10]

/-! ## The write-back and the array after the run -/

/-- The one write-back, at the last tile, writes the result: the window's block there is the whole one-cell array. -/
theorem flushed10_3 (c : Dev nD) (t : Fin cfg10.N) (hf : (cfg10.win 3).flush t = true) :
    (dat10 V c).flushed 3 t = ((cfg10.win 3).blk t).view.read (Elt F) (G10_3 (hArr10 V c) (sArr10 V c) (wArr10 V c)) := by
  have hN : cfg10.N = 10 := N_10
  have h9 : t.val = 9 := by have := (flush10_3 t).mp hf; have := t.isLt; omega
  show (cfg10.win 3).cut (grid10.coords t) ((dat10 V c).after 3 t) = _
  rw [after10_3, out10_at_last V c t h9, acc10_eq_tot V c t.val t.isLt]
  obtain rfl : t = t10_9 := Fin.ext h9
  have hz' : (fun a => win10_3.index t10_9 a * (Pipeline.arrRef spec10 3).ty.shape.size a) = fun _ => 0 :=
    funext fun a => by fin_cases a <;> decide
  exact (Memref.read_access_unit_zero (Elt F) (Pipeline.arrRef spec10 3) hz' (fun a => by rw [congrFun hz' a]; simp)
    (G10_3 (hArr10 V c) (sArr10 V c) (wArr10 V c))).symm

/-- THE VALUE: after the run the result array holds `G10_3` of the three input arrays as the region found them. -/
theorem final10_3 (c : Dev nD) :
    (dat10 V c).arrAt 3 cfg10.N = G10_3 (hArr10 V c) (sArr10 V c) (wArr10 V c) :=
  (dat10 V c).arrAt_eq_of_cover 3 (G10_3 (hArr10 V c) (sArr10 V c) (wArr10 V c)) (flushed10_3 V c) fun i =>
    ⟨t10_9, (flush10_3 t10_9).mpr rfl, by
      -- the array has one cell, at coordinates (0, 0); the last point's block starts at (0, 0) and has extent (1, 1)
      show i ∈ ((View.whole (Pipeline.arrRef spec10 3)).slice (win10_3.rect t10_9)).set
      rw [View.set_slice_whole, Rect.mem_set_unit]
      intro a
      have hlt : (i a : Nat) < 1 := by fin_cases a <;> exact (i _).isLt
      have hoff : win10_3.index t10_9 a * win10_3.size a = 0 := by fin_cases a <;> decide
      have hext : win10_3.xsize (grid10.coords t10_9) a = 1 := by fin_cases a <;> decide
      show win10_3.index t10_9 a * win10_3.size a ≤ (i a : Nat)
        ∧ (i a : Nat) < win10_3.index t10_9 a * win10_3.size a + win10_3.xsize (grid10.coords t10_9) a
      rw [hoff, hext]; omega⟩

end Cert.Kernel.Hand

end
-- ==== Proof.KB.Reg10.lean ====
/-
  Region 10 (custom call 10): the body's runs per control case, the proof data with its invariant and body
  obligation, and the value of the result array — one import for the three modules.
-/
import proofs.«160050_j32744830665390_2_alg».proof.Proof.KB.Reg10.Frame
import proofs.«160050_j32744830665390_2_alg».proof.Proof.KB.Reg10.Value
-- ==== Proof.KB.Reg11.lean ====
/-
  Region 11 of the kernel program: the MLP head. One grid point; five input windows, each its whole array
  (the pooled means g : 128×128, the first weight w₁ : 128×64, the first bias b₁ : 1×64, the second weight
  w₂ : 64×2, the second bias b₂ : 1×2) and one output window, the whole 128×2 result.

  The body loads the five inputs whole, forms  relu(g·w₁ + b₁)·w₂ + b₂  (both products with bf16 operands and an
  f32 accumulator started at zero) and stores it over the whole output buffer: what the output buffer holds after
  the body is that payload of the five blocks, and, the only point's write-back covering the array, that is also
  what the output array holds after the region — one function of the five input arrays as the region finds them.
-/
import proofs.«160050_j32744830665390_2_alg».proof.Proof.KB.Iface
import Idealize.ShloMosaic.Lib.Pipeline.Value

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : Entry F)
/-! ## The windows' blocks -/

/-- Window `w`'s block at the point, read off its array as the region finds it. -/
def iblk11 (c : Dev nD) (w : Fin cfg11.W) (t : Fin cfg11.N) :
    ((cfg11.win w).xblock (cfg11.grid.coords t)).Idx → Elt F (cfg11.win w).elt :=
  ((cfg11.win w).blk t).view.read (Elt F) (V c (Pipeline.arrRef spec11 w))

/-! ## The body's rectangles: every load and the one store take a whole buffer -/

abbrev rG11 : Rect S128x128 := Rect.unit (s := S128x128) ![0, 0] S128x128.size inb_S128x128_S128x128_0_0
abbrev rW1_11 : Rect S128x64 := Rect.unit (s := S128x64) ![0, 0] S128x64.size inb_S128x64_S128x64_0_0
abbrev rB1_11 : Rect S1x64 := Rect.unit (s := S1x64) ![0, 0] S1x64.size inb_S1x64_S1x64_0_0
abbrev rW2_11 : Rect S64x2 := Rect.unit (s := S64x2) ![0, 0] S64x2.size inb_S64x2_S64x2_0_0
abbrev rB2_11 : Rect S1x2 := Rect.unit (s := S1x2) ![0, 0] S1x2.size inb_S1x2_S1x2_0_0
abbrev rOut11 : Rect S128x2 := Rect.unit (s := S128x2) ![0, 0] S128x2.size inb_S128x2_S128x2_0_0

/-! ## What the body leaves in the output window's buffer -/

/-- The output buffer after the body, from the five input blocks: its one store, of the head's payload of the
    five loads, as a piece. -/
def out11_5 (g : Vec F S128x128 .f32) (w1 : Vec F S128x64 .f32) (b1 : Vec F S1x64 .f32) (w2 : Vec F S64x2 .f32)
    (b2 : Vec F S1x2 .f32) : Vec F S128x2 .f32 :=
  View.canon [⟨rOut11, k11_pay1 (View.ld g rG11) (View.ld w1 rW1_11) (View.ld b1 rB1_11) (View.ld w2 rW2_11) (View.ld b2 rB2_11)⟩]

/-- Both offsets of every rectangle of the body are zero. -/
theorem zeros11 : (![0, 0] : Fin 2 → Nat) = fun _ => 0 := funext fun a => by fin_cases a <;> rfl

/-- The store's rectangle is the whole 128×2 buffer, so it covers it. -/
theorem cover11_5 (p : Vec F S128x2 .f32) (y : S128x2.Idx) :
    ∃ pc ∈ ([⟨rOut11, p⟩] : List (View.Piece (Elt F) S128x2 .f32)), y ∈ pc.1.set :=
  ⟨⟨rOut11, p⟩, List.mem_singleton_self _, View.mem_set_unit_zero zeros11 inb_S128x2_S128x2_0_0 y⟩

/-! ## The body's triple -/

set_option maxHeartbeats 1000000 in
/-- The head's body on whole staging memrefs — the five inputs' at read contents `g`, `w1`, `b1`, `w2`, `b2`, the
    output's at anything — runs to the continuation holding the inputs' as they were and the output's at
    `out11_5` of them: the printed function is its skeleton of six loads and one store, which the executor runs;
    the load of the output buffer before the store reads whatever it held and its value is dropped. -/
theorem sound_kernel11 (c : Dev nD) (E : Set ℕ) (i : grid11.Coords)
    (arg1 : Memref sig .tc .vmem S128x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S64x2 .f32) (harg4 : arg4.IsWhole)
    (arg5 : Memref sig .tc .vmem S1x2 .f32) (harg5 : arg5.IsWhole) (arg6 : Memref sig .tc .vmem S128x2 .f32) (harg6 : arg6.IsWhole)
    (g : Vec F S128x128 .f32) (w1 : Vec F S128x64 .f32) (b1 : Vec F S1x64 .f32) (w2 : Vec F S64x2 .f32) (b2 : Vec F S1x2 .f32)
    (K : PUnit → sProp 𝕄) :
    iprop(owns (c : Thread nD τ) arg1 fullShare g ∗ owns (c : Thread nD τ) arg2 fullShare w1
        ∗ owns (c : Thread nD τ) arg3 fullShare b1 ∗ owns (c : Thread nD τ) arg4 fullShare w2
        ∗ owns (c : Thread nD τ) arg5 fullShare b2 ∗ (∃ d, owns (c : Thread nD τ) arg6 fullShare d)
        ∗ (iprop(owns (c : Thread nD τ) arg1 fullShare g ∗ owns (c : Thread nD τ) arg2 fullShare w1
            ∗ owns (c : Thread nD τ) arg3 fullShare b1 ∗ owns (c : Thread nD τ) arg4 fullShare w2
            ∗ owns (c : Thread nD τ) arg5 fullShare b2
            ∗ owns (c : Thread nD τ) arg6 fullShare (out11_5 g w1 b1 w2 b2)) -∗ K ⟨⟩))
      ⊢ wp frame (wpE (defs₀ (F := F)) Variants.none c none) E
          (cc11_mlp_head_kernel i arg1 harg1 arg2 harg2 arg3 harg3 arg4 harg4 arg5 harg5 arg6 harg6) K := by
  sl_unfold [cc11_mlp_head_kernel]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover11_5 _)

/-! ## The pipeline's proof data -/

/-- The proof data of pipeline 11 on core `c`: the six arrays as the region finds them; after the body at the
    point each input's buffer still at its block and the output's at `out11_5` of the five blocks; the invariant
    the scoped rest and the generator register, which the body neither reads nor writes; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11_5 (iblk11 V c 0 t) (iblk11 V c 1 t) (iblk11 V c 2 t) (iblk11 V c 3 t) (iblk11 V c 4 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) :
    (dat11 V c).after 5 t = out11_5 (iblk11 V c 0 t) (iblk11 V c 1 t) (iblk11 V c 2 t) (iblk11 V c 3 t) (iblk11 V c 4 t) := by
  dsimp only [dat11]

/-- Each input window is fetched at the point, so its staging buffer holds the fetched block: the whole array's
    block, the window being uncut. -/
theorem before11_0 (c : Dev nD) (t : Fin cfg11.N) (d) : (dat11 V c).before 0 t d = iblk11 V c 0 t :=
  ((dat11 V c).before_fetched 0 t (fetch11_0 t) d).trans (by unfold Dat.fetched Dat.blockOf iblk11; rw [A_eq11]; rfl)
theorem before11_1 (c : Dev nD) (t : Fin cfg11.N) (d) : (dat11 V c).before 1 t d = iblk11 V c 1 t :=
  ((dat11 V c).before_fetched 1 t (fetch11_1 t) d).trans (by unfold Dat.fetched Dat.blockOf iblk11; rw [A_eq11]; rfl)
theorem before11_2 (c : Dev nD) (t : Fin cfg11.N) (d) : (dat11 V c).before 2 t d = iblk11 V c 2 t :=
  ((dat11 V c).before_fetched 2 t (fetch11_2 t) d).trans (by unfold Dat.fetched Dat.blockOf iblk11; rw [A_eq11]; rfl)
theorem before11_3 (c : Dev nD) (t : Fin cfg11.N) (d) : (dat11 V c).before 3 t d = iblk11 V c 3 t :=
  ((dat11 V c).before_fetched 3 t (fetch11_3 t) d).trans (by unfold Dat.fetched Dat.blockOf iblk11; rw [A_eq11]; rfl)
theorem before11_4 (c : Dev nD) (t : Fin cfg11.N) (d) : (dat11 V c).before 4 t d = iblk11 V c 4 t :=
  ((dat11 V c).before_fetched 4 t (fetch11_4 t) d).trans (by unfold Dat.fetched Dat.blockOf iblk11; rw [A_eq11]; rfl)

/-! ## The body obligation -/

/-- What the body is called with at the point: the invariant, the core's debts, and the six current staging
    buffers at what they then hold, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

/-- and what it returns: the same, the buffers at what the body leaves. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

/-- The body at the point: the five inputs' buffers hold their blocks (`before11_W`), the output's anything, so the
    triple applies; the invariant and the debts pass through untouched. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel11 c Set.univ _ _ _ _ _ _ _ _ _ _ _ _ _ (iblk11 V c 0 t) (iblk11 V c 1 t) (iblk11 V c 2 t)
    (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation. -/
theorem body_obligation11 (c : Dev nD) :
    BodyObligation (dat11 (F := F) V c) (defs₀ (F := F)) Variants.none () Set.univ := fun t => by
  rw [bigSep_W11, bigSep_W11]
  exact sound_body11 V c t

/-- The data's shares and debts, projected. -/
theorem q_eq11 (c : Dev nD) (w : Fin cfg11.W) : (dat11 V c).q w = fullShare := by dsimp only [dat11]
theorem owed_eq11 (c : Dev nD) (t : Fin (cfg11.N + 1)) : (dat11 V c).owed t = 0 := by dsimp only [dat11]

/-- The invariant is the class's at every point: what the region hands the kernel is it, and it is what comes back. -/
theorem Phi_in11 (c : Dev nD) :
    (Pipeline.ΦA (U := UR sig nD τ) (Val := Elt F) spec11 c : sProp 𝕄) ⊢ (dat11 V c).Φ 0 := .rfl
theorem Phi_out11 (c : Dev nD) :
    (dat11 V c).Φ (Fin.last cfg11.N) ⊢ (Pipeline.ΦA (U := UR sig nD τ) (Val := Elt F) spec11 c : sProp 𝕄) := .rfl

/-! ## The output array after the region, as one function of the five input arrays

Every window of this region is its whole array, at block index zero on both axes: a block read through a window is
the array itself, the one write-back covers the output array, and what it writes is the head's payload of the five
arrays. -/

/-- The head  relu(g·w₁ + b₁)·w₂ + b₂  of whole arrays, index by index: the body's payload at the arrays. -/
def G11_5 (g : S128x128.Idx → Elt F .f32) (w1 : S128x64.Idx → Elt F .f32) (b1 : S1x64.Idx → Elt F .f32)
    (w2 : S64x2.Idx → Elt F .f32) (b2 : S1x2.Idx → Elt F .f32) : S128x2.Idx → Elt F .f32 :=
  fun i => k11_pay1 g w1 b1 w2 b2 i

/-- The block indices, decided over the one point: zero on both axes of every window. -/
theorem idx_zero11 : ∀ t : Fin cfg11.N,
    (win11_0.index t (0 : Fin 2) = 0 ∧ win11_0.index t (1 : Fin 2) = 0)
    ∧ (win11_1.index t (0 : Fin 2) = 0 ∧ win11_1.index t (1 : Fin 2) = 0)
    ∧ (win11_2.index t (0 : Fin 2) = 0 ∧ win11_2.index t (1 : Fin 2) = 0)
    ∧ (win11_3.index t (0 : Fin 2) = 0 ∧ win11_3.index t (1 : Fin 2) = 0)
    ∧ (win11_4.index t (0 : Fin 2) = 0 ∧ win11_4.index t (1 : Fin 2) = 0)
    ∧ (win11_5.index t (0 : Fin 2) = 0 ∧ win11_5.index t (1 : Fin 2) = 0) :=
  (by decide +kernel : ∀ t : Fin grid11.N, _)

/-- So each input window's block is its array. -/
theorem iblk11_0 (c : Dev nD) (t : Fin cfg11.N) : iblk11 V c 0 t = V c main_v267 := by
  obtain ⟨⟨e0, e1⟩, -⟩ := idx_zero11 t
  funext j
  have h : ((cfg11.win 0).blk t).view.emb j = j := by
    funext a; apply Fin.ext
    match a with
    | ⟨0, _⟩ => show win11_0.index t (0 : Fin 2) * 128 + 1 * (j 0).val = (j 0).val; omega
    | ⟨1, _⟩ => show win11_0.index t (1 : Fin 2) * 128 + 1 * (j 1).val = (j 1).val; omega
  exact congrArg (V c main_v267) h
theorem iblk11_1 (c : Dev nD) (t : Fin cfg11.N) : iblk11 V c 1 t = V c main_arg9 := by
  obtain ⟨-, ⟨e0, e1⟩, -⟩ := idx_zero11 t
  funext j
  have h : ((cfg11.win 1).blk t).view.emb j = j := by
    funext a; apply Fin.ext
    match a with
    | ⟨0, _⟩ => show win11_1.index t (0 : Fin 2) * 128 + 1 * (j 0).val = (j 0).val; omega
    | ⟨1, _⟩ => show win11_1.index t (1 : Fin 2) * 64 + 1 * (j 1).val = (j 1).val; omega
  exact congrArg (V c main_arg9) h
theorem iblk11_2 (c : Dev nD) (t : Fin cfg11.N) : iblk11 V c 2 t = V c main_v268 := by
  obtain ⟨-, -, ⟨e0, e1⟩, -⟩ := idx_zero11 t
  funext j
  have h : ((cfg11.win 2).blk t).view.emb j = j := by
    funext a; apply Fin.ext
    match a with
    | ⟨0, _⟩ => show win11_2.index t (0 : Fin 2) * 1 + 1 * (j 0).val = (j 0).val; omega
    | ⟨1, _⟩ => show win11_2.index t (1 : Fin 2) * 64 + 1 * (j 1).val = (j 1).val; omega
  exact congrArg (V c main_v268) h
theorem iblk11_3 (c : Dev nD) (t : Fin cfg11.N) : iblk11 V c 3 t = V c main_arg11 := by
  obtain ⟨-, -, -, ⟨e0, e1⟩, -⟩ := idx_zero11 t
  funext j
  have h : ((cfg11.win 3).blk t).view.emb j = j := by
    funext a; apply Fin.ext
    match a with
    | ⟨0, _⟩ => show win11_3.index t (0 : Fin 2) * 64 + 1 * (j 0).val = (j 0).val; omega
    | ⟨1, _⟩ => show win11_3.index t (1 : Fin 2) * 2 + 1 * (j 1).val = (j 1).val; omega
  exact congrArg (V c main_arg11) h
theorem iblk11_4 (c : Dev nD) (t : Fin cfg11.N) : iblk11 V c 4 t = V c main_v269 := by
  obtain ⟨-, -, -, -, ⟨e0, e1⟩, -⟩ := idx_zero11 t
  funext j
  have h : ((cfg11.win 4).blk t).view.emb j = j := by
    funext a; apply Fin.ext
    match a with
    | ⟨0, _⟩ => show win11_4.index t (0 : Fin 2) * 1 + 1 * (j 0).val = (j 0).val; omega
    | ⟨1, _⟩ => show win11_4.index t (1 : Fin 2) * 2 + 1 * (j 1).val = (j 1).val; omega
  exact congrArg (V c main_v269) h

/-- What the point writes back is the output window's block of `G11_5` of the five arrays. -/
theorem flushed11_5_eq (c : Dev nD) (t : Fin cfg11.N) :
    (dat11 V c).flushed 5 t = ((cfg11.win 5).blk t).view.read (Elt F)
      (G11_5 (V c main_v267) (V c main_arg9) (V c main_v268) (V c main_arg11) (V c main_v269)) := by
  show (cfg11.win 5).cut (grid11.coords t) ((dat11 V c).after 5 t) = _
  rw [after11_5]
  unfold out11_5
  rw [View.canon_unit_zero zeros11]
  simp only [View.ld_unit_zero (S := S128x128) zeros11, View.ld_unit_zero (S := S128x64) zeros11,
    View.ld_unit_zero (S := S1x64) zeros11, View.ld_unit_zero (S := S64x2) zeros11, View.ld_unit_zero (S := S1x2) zeros11]
  rw [iblk11_0, iblk11_1, iblk11_2, iblk11_3, iblk11_4]
  obtain ⟨-, -, -, -, -, e0, e1⟩ := idx_zero11 t
  funext j
  have h : (cfg11.win 5).xinj (grid11.coords t) j = ((cfg11.win 5).blk t).view.emb j := by
    funext a; apply Fin.ext
    match a with
    | ⟨0, _⟩ => show (j 0).val = win11_5.index t (0 : Fin 2) * 128 + 1 * (j 0).val; omega
    | ⟨1, _⟩ => show (j 1).val = win11_5.index t (1 : Fin 2) * 2 + 1 * (j 1).val; omega
  exact congrArg (k11_pay1 (V c main_v267) (V c main_arg9) (V c main_v268) (V c main_arg11) (V c main_v269)) h

/-- An index of the output array is in the point's block iff each coordinate is in the block's range. -/
theorem mem_blk11_5 (t : Fin cfg11.N) (i : S128x2.Idx) :
    i ∈ ((cfg11.win 5).blk t).view.set ↔ ∀ a : Fin 2, win11_5.index t a * S128x2.size a ≤ (i a).val
      ∧ (i a).val < win11_5.index t a * S128x2.size a + S128x2.size a := by
  show i ∈ ((View.whole main_v270).slice (win11_5.rect t)).set ↔ _
  rw [View.set_slice_whole, Rect.mem_set_unit]
  exact Iff.rfl

/-- The one point's block is the whole output array. -/
theorem cover11_5_arr (i : S128x2.Idx) :
    ∃ t : Fin cfg11.N, (cfg11.win 5).flush t = true ∧ i ∈ ((cfg11.win 5).blk t).view.set := by
  refine ⟨t11_0, flush11_5 t11_0, ?_⟩
  obtain ⟨-, -, -, -, -, e0, e1⟩ := idx_zero11 t11_0
  rw [mem_blk11_5]
  intro a
  match a with
  | ⟨0, _⟩ =>
    show win11_5.index t11_0 (0 : Fin 2) * 128 ≤ (i 0).val ∧ (i 0).val < win11_5.index t11_0 (0 : Fin 2) * 128 + 128
    have hi : (i 0).val < 128 := (i 0).isLt
    omega
  | ⟨1, _⟩ =>
    show win11_5.index t11_0 (1 : Fin 2) * 2 ≤ (i 1).val ∧ (i 1).val < win11_5.index t11_0 (1 : Fin 2) * 2 + 2
    have hi : (i 1).val < 2 := (i 1).isLt
    omega

/-- THE OUTPUT ARRAY after the region: `G11_5` of the five input arrays as the region finds them. -/
theorem final11_5 (c : Dev nD) :
    (dat11 V c).arrAt 5 cfg11.N = G11_5 (V c main_v267) (V c main_arg9) (V c main_v268) (V c main_arg11) (V c main_v269) :=
  (dat11 V c).arrAt_eq_of_cover 5 _ (fun t _ => flushed11_5_eq V c t) cover11_5_arr

end Cert.Kernel.Hand

end
-- ==== Proof.KB.Fold.lean ====
/-
  The contents of the TensorCore's unscoped buffers after each of the kernel program's twenty-six segments, as a
  fold from the launch memory: a host stretch applies its operations, a region overwrites its output arrays with
  what its pipeline's write-backs leave.
-/
import proofs.«160050_j32744830665390_2_alg».proof.Proof.KB.Iface
import proofs.«160050_j32744830665390_2_alg».proof.Proof.Gen.Kernel.Regions
import proofs.«160050_j32744830665390_2_alg».proof.Proof.KB.Reg0
import proofs.«160050_j32744830665390_2_alg».proof.Proof.KB.Reg1
import proofs.«160050_j32744830665390_2_alg».proof.Proof.KB.Reg2
import proofs.«160050_j32744830665390_2_alg».proof.Proof.KB.Reg3
import proofs.«160050_j32744830665390_2_alg».proof.Proof.KB.Reg4
import proofs.«160050_j32744830665390_2_alg».proof.Proof.KB.Reg5
import proofs.«160050_j32744830665390_2_alg».proof.Proof.KB.Reg6
import proofs.«160050_j32744830665390_2_alg».proof.Proof.KB.Reg7
import proofs.«160050_j32744830665390_2_alg».proof.Proof.KB.Reg8
import proofs.«160050_j32744830665390_2_alg».proof.Proof.KB.Reg9
import proofs.«160050_j32744830665390_2_alg».proof.Proof.KB.Reg10
import proofs.«160050_j32744830665390_2_alg».proof.Proof.KB.Reg11

-- memberships decided over the program's references recurse past the default depth
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! # The contents of the unscoped buffers between the segments

The program alternates stretches of host operations and regions, twenty-six segments in all. The generated module
of the run names the valuation after each segment (`Gen.V0` … `Gen.V26`) over an UNKNOWN family `outs`: what each
region leaves in its output arrays. Here the unknown is solved, segment by segment: a region's output array ends at
what its pipeline's write-backs fold to (`Dat.arrAt` at the last point) from the contents the region was entered
with, and those are the valuation before it. -/

/-- Two distinct TensorCore references are distinct device buffers. -/
theorem dne {r r' : Ref sig .tc} (h : r ≠ r') : (Proc.devRef .tc r : DevRef τ sig) ≠ Proc.devRef .tc r' :=
  StableHlo.devRef_ne_of_ne h

/-- A reference that is no array of a region's windows is none of the region's output arrays. -/
theorem not_mem_outs {gr W : ℕ} (spec : Fin W → Pipeline.WinSpec sig gr) {b : Ref sig .tc}
    (hb : b ∉ Finset.univ.image (Pipeline.arrRef spec)) (l : List (Ref sig .tc))
    (hl : ∀ r ∈ l, ∃ w, Pipeline.arrRef spec w = r) : b ∉ l :=
  fun h => let ⟨w, hw⟩ := hl b h; hb (Finset.mem_image.mpr ⟨w, Finset.mem_univ _, hw⟩)

/-! ## Region 0 (the embedding): entered after the first three host stretches, it writes `main_v39` -/

/-- Region 0's entry contents: the launch memory after the first three host stretches. -/
abbrev En0 : Entry F := fun c b => V3 m c b
/-- What region 0 leaves in `main_v39`. -/
def X0 (c : Dev nD) : Buf (Elt F) ((c : Thread nD τ).loc main_v39) := (dat0 (En0 m) c).arrAt 5 cfg0.N
def W4 (c : Dev nD) : Valuation τ sig (Elt F) := Function.update (V3 m c) main_v39 (X0 m c)
theorem W4_v39 (c : Dev nD) : W4 m c main_v39 = X0 m c := by unfold W4; exact Function.update_self ..
def W5 (c : Dev nD) : Valuation τ sig (Elt F) := StableHlo.after hostOps1 (W4 m c)

/-! ## Region 1 (first Chebyshev layer, affine part): it writes `main_v75_0`, `main_v75_1`, `main_v75_2` -/

abbrev En1 : Entry F := fun c b => W5 m c b
def X1_7 (c : Dev nD) : Buf (Elt F) ((c : Thread nD τ).loc main_v75_0) := (dat1 (En1 m) c).arrAt 7 cfg1.N
def X1_8 (c : Dev nD) : Buf (Elt F) ((c : Thread nD τ).loc main_v75_1) := (dat1 (En1 m) c).arrAt 8 cfg1.N
def X1_9 (c : Dev nD) : Buf (Elt F) ((c : Thread nD τ).loc main_v75_2) := (dat1 (En1 m) c).arrAt 9 cfg1.N
def W6 (c : Dev nD) : Valuation τ sig (Elt F) :=
  Function.update (Function.update (Function.update (W5 m c) main_v75_0 (X1_7 m c)) main_v75_1 (X1_8 m c)) main_v75_2 (X1_9 m c)
theorem W6_v75_0 (c : Dev nD) : W6 m c main_v75_0 = X1_7 m c := by
  unfold W6
  rw [Function.update_of_ne (dne (by decide : main_v75_0 ≠ main_v75_2)), Function.update_of_ne (dne (by decide : main_v75_0 ≠ main_v75_1)), Function.update_self]
theorem W6_v75_1 (c : Dev nD) : W6 m c main_v75_1 = X1_8 m c := by
  unfold W6
  rw [Function.update_of_ne (dne (by decide : main_v75_1 ≠ main_v75_2)), Function.update_self]
theorem W6_v75_2 (c : Dev nD) : W6 m c main_v75_2 = X1_9 m c := by unfold W6; exact Function.update_self ..
def W7 (c : Dev nD) : Valuation τ sig (Elt F) := StableHlo.after hostOps2 (W6 m c)

/-! ## Region 2 (first layer, normalisation and rectifier): it writes `main_v92` -/

abbrev En2 : Entry F := fun c b => W7 m c b
def X2 (c : Dev nD) : Buf (Elt F) ((c : Thread nD τ).loc main_v92) := (dat2 (En2 m) c).arrAt 5 cfg2.N
def W8 (c : Dev nD) : Valuation τ sig (Elt F) := Function.update (W7 m c) main_v92 (X2 m c)
theorem W8_v92 (c : Dev nD) : W8 m c main_v92 = X2 m c := by unfold W8; exact Function.update_self ..
def W9 (c : Dev nD) : Valuation τ sig (Elt F) := StableHlo.after hostOps3 (W8 m c)

/-! ## Region 3 (second layer, affine part): it writes `main_v128_0`, `main_v128_1`, `main_v128_2` -/

abbrev En3 : Entry F := fun c b => W9 m c b
def X3_7 (c : Dev nD) : Buf (Elt F) ((c : Thread nD τ).loc main_v128_0) := (dat3 (En3 m) c).arrAt 7 cfg3.N
def X3_8 (c : Dev nD) : Buf (Elt F) ((c : Thread nD τ).loc main_v128_1) := (dat3 (En3 m) c).arrAt 8 cfg3.N
def X3_9 (c : Dev nD) : Buf (Elt F) ((c : Thread nD τ).loc main_v128_2) := (dat3 (En3 m) c).arrAt 9 cfg3.N
def W10 (c : Dev nD) : Valuation τ sig (Elt F) :=
  Function.update (Function.update (Function.update (W9 m c) main_v128_0 (X3_7 m c)) main_v128_1 (X3_8 m c)) main_v128_2 (X3_9 m c)
theorem W10_v128_0 (c : Dev nD) : W10 m c main_v128_0 = X3_7 m c := by
  unfold W10
  rw [Function.update_of_ne (dne (by decide : main_v128_0 ≠ main_v128_2)), Function.update_of_ne (dne (by decide : main_v128_0 ≠ main_v128_1)), Function.update_self]
theorem W10_v128_1 (c : Dev nD) : W10 m c main_v128_1 = X3_8 m c := by
  unfold W10
  rw [Function.update_of_ne (dne (by decide : main_v128_1 ≠ main_v128_2)), Function.update_self]
theorem W10_v128_2 (c : Dev nD) : W10 m c main_v128_2 = X3_9 m c := by unfold W10; exact Function.update_self ..
def W11 (c : Dev nD) : Valuation τ sig (Elt F) := StableHlo.after hostOps4 (W10 m c)

/-! ## Region 4 (second layer, normalisation and rectifier): it writes `main_v145` -/

abbrev En4 : Entry F := fun c b => W11 m c b
def X4 (c : Dev nD) : Buf (Elt F) ((c : Thread nD τ).loc main_v145) := (dat4 (En4 m) c).arrAt 5 cfg4.N
def W12 (c : Dev nD) : Valuation τ sig (Elt F) := Function.update (W11 m c) main_v145 (X4 m c)
theorem W12_v145 (c : Dev nD) : W12 m c main_v145 = X4 m c := by unfold W12; exact Function.update_self ..
def W13 (c : Dev nD) : Valuation τ sig (Elt F) := StableHlo.after hostOps5 (W12 m c)

/-! ## Region 5 (third layer, affine part): it writes `main_v181_0`, `main_v181_1`, `main_v181_2` -/

abbrev En5 : Entry F := fun c b => W13 m c b
def X5_7 (c : Dev nD) : Buf (Elt F) ((c : Thread nD τ).loc main_v181_0) := (dat5 (En5 m) c).arrAt 7 cfg5.N
def X5_8 (c : Dev nD) : Buf (Elt F) ((c : Thread nD τ).loc main_v181_1) := (dat5 (En5 m) c).arrAt 8 cfg5.N
def X5_9 (c : Dev nD) : Buf (Elt F) ((c : Thread nD τ).loc main_v181_2) := (dat5 (En5 m) c).arrAt 9 cfg5.N
def W14 (c : Dev nD) : Valuation τ sig (Elt F) :=
  Function.update (Function.update (Function.update (W13 m c) main_v181_0 (X5_7 m c)) main_v181_1 (X5_8 m c)) main_v181_2 (X5_9 m c)
theorem W14_v181_0 (c : Dev nD) : W14 m c main_v181_0 = X5_7 m c := by
  unfold W14
  rw [Function.update_of_ne (dne (by decide : main_v181_0 ≠ main_v181_2)), Function.update_of_ne (dne (by decide : main_v181_0 ≠ main_v181_1)), Function.update_self]
theorem W14_v181_1 (c : Dev nD) : W14 m c main_v181_1 = X5_8 m c := by
  unfold W14
  rw [Function.update_of_ne (dne (by decide : main_v181_1 ≠ main_v181_2)), Function.update_self]
theorem W14_v181_2 (c : Dev nD) : W14 m c main_v181_2 = X5_9 m c := by unfold W14; exact Function.update_self ..
def W15 (c : Dev nD) : Valuation τ sig (Elt F) := StableHlo.after hostOps6 (W14 m c)

/-! ## Region 6 (third layer, normalisation and rectifier): it writes `main_v198` -/

abbrev En6 : Entry F := fun c b => W15 m c b
def X6 (c : Dev nD) : Buf (Elt F) ((c : Thread nD τ).loc main_v198) := (dat6 (En6 m) c).arrAt 5 cfg6.N
def W16 (c : Dev nD) : Valuation τ sig (Elt F) := Function.update (W15 m c) main_v198 (X6 m c)
theorem W16_v198 (c : Dev nD) : W16 m c main_v198 = X6 m c := by unfold W16; exact Function.update_self ..
def W17 (c : Dev nD) : Valuation τ sig (Elt F) := StableHlo.after hostOps7 (W16 m c)

/-! ## Regions 7 to 10 (the smoothness term of each of the four hidden states): each writes one scalar -/

abbrev En7 : Entry F := fun c b => W17 m c b
def X7 (c : Dev nD) : Buf (Elt F) ((c : Thread nD τ).loc main_v209) := (dat7 (En7 m) c).arrAt 3 cfg7.N
def W18 (c : Dev nD) : Valuation τ sig (Elt F) := Function.update (W17 m c) main_v209 (X7 m c)
theorem W18_v209 (c : Dev nD) : W18 m c main_v209 = X7 m c := by unfold W18; exact Function.update_self ..
def W19 (c : Dev nD) : Valuation τ sig (Elt F) := StableHlo.after hostOps8 (W18 m c)

abbrev En8 : Entry F := fun c b => W19 m c b
def X8 (c : Dev nD) : Buf (Elt F) ((c : Thread nD τ).loc main_v223) := (dat8 (En8 m) c).arrAt 3 cfg8.N
def W20 (c : Dev nD) : Valuation τ sig (Elt F) := Function.update (W19 m c) main_v223 (X8 m c)
theorem W20_v223 (c : Dev nD) : W20 m c main_v223 = X8 m c := by unfold W20; exact Function.update_self ..
def W21 (c : Dev nD) : Valuation τ sig (Elt F) := StableHlo.after hostOps9 (W20 m c)

abbrev En9 : Entry F := fun c b => W21 m c b
def X9 (c : Dev nD) : Buf (Elt F) ((c : Thread nD τ).loc main_v237) := (dat9 (En9 m) c).arrAt 3 cfg9.N
def W22 (c : Dev nD) : Valuation τ sig (Elt F) := Function.update (W21 m c) main_v237 (X9 m c)
theorem W22_v237 (c : Dev nD) : W22 m c main_v237 = X9 m c := by unfold W22; exact Function.update_self ..
def W23 (c : Dev nD) : Valuation τ sig (Elt F) := StableHlo.after hostOps10 (W22 m c)

abbrev En10 : Entry F := fun c b => W23 m c b
def X10 (c : Dev nD) : Buf (Elt F) ((c : Thread nD τ).loc main_v251) := (dat10 (En10 m) c).arrAt 3 cfg10.N
def W24 (c : Dev nD) : Valuation τ sig (Elt F) := Function.update (W23 m c) main_v251 (X10 m c)
theorem W24_v251 (c : Dev nD) : W24 m c main_v251 = X10 m c := by unfold W24; exact Function.update_self ..
def W25 (c : Dev nD) : Valuation τ sig (Elt F) := StableHlo.after hostOps11 (W24 m c)

/-! ## Region 11 (the head): it writes the logits `main_v270` -/

abbrev En11 : Entry F := fun c b => W25 m c b
def X11 (c : Dev nD) : Buf (Elt F) ((c : Thread nD τ).loc main_v270) := (dat11 (En11 m) c).arrAt 5 cfg11.N
def W26 (c : Dev nD) : Valuation τ sig (Elt F) := Function.update (W25 m c) main_v270 (X11 m c)
theorem W26_v270 (c : Dev nD) : W26 m c main_v270 = X11 m c := by unfold W26; exact Function.update_self ..

/-! ## The unknown solved

What each region leaves in a reference after item J-1 is the valuation after that item, read there. -/

/-- The contents the regions leave: the generated run's unknown, instantiated. -/
def outs : Outs (F := F) := fun J r c =>
  match J with
  | 4 => W4 m c r
  | 6 => W6 m c r
  | 8 => W8 m c r
  | 10 => W10 m c r
  | 12 => W12 m c r
  | 14 => W14 m c r
  | 16 => W16 m c r
  | 18 => W18 m c r
  | 20 => W20 m c r
  | 22 => W22 m c r
  | 24 => W24 m c r
  | 26 => W26 m c r
  | _ => V3 m c r

/-! With it, the generated valuations are the ones above: a region's updates write back what was read off them. -/

theorem V4_eq (c : Dev nD) : V4 m (outs m) c = W4 m c := by
  show Function.update (V3 m c) main_v39 (W4 m c main_v39) = W4 m c
  rw [W4_v39]; rfl
theorem V5_eq (c : Dev nD) : V5 m (outs m) c = W5 m c := by
  show StableHlo.after hostOps1 (V4 m (outs m) c) = W5 m c
  rw [V4_eq]; rfl
theorem V6_eq (c : Dev nD) : V6 m (outs m) c = W6 m c := by
  show Function.update (Function.update (Function.update (V5 m (outs m) c) main_v75_0 (W6 m c main_v75_0)) main_v75_1 (W6 m c main_v75_1)) main_v75_2 (W6 m c main_v75_2) = W6 m c
  rw [V5_eq, W6_v75_0, W6_v75_1, W6_v75_2]; rfl
theorem V7_eq (c : Dev nD) : V7 m (outs m) c = W7 m c := by
  show StableHlo.after hostOps2 (V6 m (outs m) c) = W7 m c
  rw [V6_eq]; rfl
theorem V8_eq (c : Dev nD) : V8 m (outs m) c = W8 m c := by
  show Function.update (V7 m (outs m) c) main_v92 (W8 m c main_v92) = W8 m c
  rw [V7_eq, W8_v92]; rfl
theorem V9_eq (c : Dev nD) : V9 m (outs m) c = W9 m c := by
  show StableHlo.after hostOps3 (V8 m (outs m) c) = W9 m c
  rw [V8_eq]; rfl
theorem V10_eq (c : Dev nD) : V10 m (outs m) c = W10 m c := by
  show Function.update (Function.update (Function.update (V9 m (outs m) c) main_v128_0 (W10 m c main_v128_0)) main_v128_1 (W10 m c main_v128_1)) main_v128_2 (W10 m c main_v128_2) = W10 m c
  rw [V9_eq, W10_v128_0, W10_v128_1, W10_v128_2]; rfl
theorem V11_eq (c : Dev nD) : V11 m (outs m) c = W11 m c := by
  show StableHlo.after hostOps4 (V10 m (outs m) c) = W11 m c
  rw [V10_eq]; rfl
theorem V12_eq (c : Dev nD) : V12 m (outs m) c = W12 m c := by
  show Function.update (V11 m (outs m) c) main_v145 (W12 m c main_v145) = W12 m c
  rw [V11_eq, W12_v145]; rfl
theorem V13_eq (c : Dev nD) : V13 m (outs m) c = W13 m c := by
  show StableHlo.after hostOps5 (V12 m (outs m) c) = W13 m c
  rw [V12_eq]; rfl
theorem V14_eq (c : Dev nD) : V14 m (outs m) c = W14 m c := by
  show Function.update (Function.update (Function.update (V13 m (outs m) c) main_v181_0 (W14 m c main_v181_0)) main_v181_1 (W14 m c main_v181_1)) main_v181_2 (W14 m c main_v181_2) = W14 m c
  rw [V13_eq, W14_v181_0, W14_v181_1, W14_v181_2]; rfl
theorem V15_eq (c : Dev nD) : V15 m (outs m) c = W15 m c := by
  show StableHlo.after hostOps6 (V14 m (outs m) c) = W15 m c
  rw [V14_eq]; rfl
theorem V16_eq (c : Dev nD) : V16 m (outs m) c = W16 m c := by
  show Function.update (V15 m (outs m) c) main_v198 (W16 m c main_v198) = W16 m c
  rw [V15_eq, W16_v198]; rfl
theorem V17_eq (c : Dev nD) : V17 m (outs m) c = W17 m c := by
  show StableHlo.after hostOps7 (V16 m (outs m) c) = W17 m c
  rw [V16_eq]; rfl
theorem V18_eq (c : Dev nD) : V18 m (outs m) c = W18 m c := by
  show Function.update (V17 m (outs m) c) main_v209 (W18 m c main_v209) = W18 m c
  rw [V17_eq, W18_v209]; rfl
theorem V19_eq (c : Dev nD) : V19 m (outs m) c = W19 m c := by
  show StableHlo.after hostOps8 (V18 m (outs m) c) = W19 m c
  rw [V18_eq]; rfl
theorem V20_eq (c : Dev nD) : V20 m (outs m) c = W20 m c := by
  show Function.update (V19 m (outs m) c) main_v223 (W20 m c main_v223) = W20 m c
  rw [V19_eq, W20_v223]; rfl
theorem V21_eq (c : Dev nD) : V21 m (outs m) c = W21 m c := by
  show StableHlo.after hostOps9 (V20 m (outs m) c) = W21 m c
  rw [V20_eq]; rfl
theorem V22_eq (c : Dev nD) : V22 m (outs m) c = W22 m c := by
  show Function.update (V21 m (outs m) c) main_v237 (W22 m c main_v237) = W22 m c
  rw [V21_eq, W22_v237]; rfl
theorem V23_eq (c : Dev nD) : V23 m (outs m) c = W23 m c := by
  show StableHlo.after hostOps10 (V22 m (outs m) c) = W23 m c
  rw [V22_eq]; rfl
theorem V24_eq (c : Dev nD) : V24 m (outs m) c = W24 m c := by
  show Function.update (V23 m (outs m) c) main_v251 (W24 m c main_v251) = W24 m c
  rw [V23_eq, W24_v251]; rfl
theorem V25_eq (c : Dev nD) : V25 m (outs m) c = W25 m c := by
  show StableHlo.after hostOps11 (V24 m (outs m) c) = W25 m c
  rw [V24_eq]; rfl
theorem V26_eq (c : Dev nD) : V26 m (outs m) c = W26 m c := by
  show Function.update (V25 m (outs m) c) main_v270 (W26 m c main_v270) = W26 m c
  rw [V25_eq, W26_v270]; rfl

/-! ## What each segment leaves unchanged, in the solved valuations

A host stretch changes only the references its operations write (`Gen.hostOpsJ_W`); a region only its output arrays. -/

theorem W4_of (c : Dev nD) (r : Ref sig .tc) (h : r ∉ ([main_v39] : List (Ref sig .tc))) : W4 m c r = V3 m c r := by
  rw [← V4_eq]; exact V4_of m (outs m) c r h
theorem W5_of (c : Dev nD) (r : Ref sig .tc) (h : r ∉ hostOps1_W) : W5 m c r = W4 m c r := by
  rw [← V5_eq, ← V4_eq]; exact V5_of m (outs m) c r h
theorem W6_of (c : Dev nD) (r : Ref sig .tc) (h : r ∉ ([main_v75_0, main_v75_1, main_v75_2] : List (Ref sig .tc))) : W6 m c r = W5 m c r := by
  rw [← V6_eq, ← V5_eq]; exact V6_of m (outs m) c r h
theorem W7_of (c : Dev nD) (r : Ref sig .tc) (h : r ∉ hostOps2_W) : W7 m c r = W6 m c r := by
  rw [← V7_eq, ← V6_eq]; exact V7_of m (outs m) c r h
theorem W8_of (c : Dev nD) (r : Ref sig .tc) (h : r ∉ ([main_v92] : List (Ref sig .tc))) : W8 m c r = W7 m c r := by
  rw [← V8_eq, ← V7_eq]; exact V8_of m (outs m) c r h
theorem W9_of (c : Dev nD) (r : Ref sig .tc) (h : r ∉ hostOps3_W) : W9 m c r = W8 m c r := by
  rw [← V9_eq, ← V8_eq]; exact V9_of m (outs m) c r h
theorem W10_of (c : Dev nD) (r : Ref sig .tc) (h : r ∉ ([main_v128_0, main_v128_1, main_v128_2] : List (Ref sig .tc))) : W10 m c r = W9 m c r := by
  rw [← V10_eq, ← V9_eq]; exact V10_of m (outs m) c r h
theorem W11_of (c : Dev nD) (r : Ref sig .tc) (h : r ∉ hostOps4_W) : W11 m c r = W10 m c r := by
  rw [← V11_eq, ← V10_eq]; exact V11_of m (outs m) c r h
theorem W12_of (c : Dev nD) (r : Ref sig .tc) (h : r ∉ ([main_v145] : List (Ref sig .tc))) : W12 m c r = W11 m c r := by
  rw [← V12_eq, ← V11_eq]; exact V12_of m (outs m) c r h
theorem W13_of (c : Dev nD) (r : Ref sig .tc) (h : r ∉ hostOps5_W) : W13 m c r = W12 m c r := by
  rw [← V13_eq, ← V12_eq]; exact V13_of m (outs m) c r h
theorem W14_of (c : Dev nD) (r : Ref sig .tc) (h : r ∉ ([main_v181_0, main_v181_1, main_v181_2] : List (Ref sig .tc))) : W14 m c r = W13 m c r := by
  rw [← V14_eq, ← V13_eq]; exact V14_of m (outs m) c r h
theorem W15_of (c : Dev nD) (r : Ref sig .tc) (h : r ∉ hostOps6_W) : W15 m c r = W14 m c r := by
  rw [← V15_eq, ← V14_eq]; exact V15_of m (outs m) c r h
theorem W16_of (c : Dev nD) (r : Ref sig .tc) (h : r ∉ ([main_v198] : List (Ref sig .tc))) : W16 m c r = W15 m c r := by
  rw [← V16_eq, ← V15_eq]; exact V16_of m (outs m) c r h
theorem W17_of (c : Dev nD) (r : Ref sig .tc) (h : r ∉ hostOps7_W) : W17 m c r = W16 m c r := by
  rw [← V17_eq, ← V16_eq]; exact V17_of m (outs m) c r h
theorem W18_of (c : Dev nD) (r : Ref sig .tc) (h : r ∉ ([main_v209] : List (Ref sig .tc))) : W18 m c r = W17 m c r := by
  rw [← V18_eq, ← V17_eq]; exact V18_of m (outs m) c r h
theorem W19_of (c : Dev nD) (r : Ref sig .tc) (h : r ∉ hostOps8_W) : W19 m c r = W18 m c r := by
  rw [← V19_eq, ← V18_eq]; exact V19_of m (outs m) c r h
theorem W20_of (c : Dev nD) (r : Ref sig .tc) (h : r ∉ ([main_v223] : List (Ref sig .tc))) : W20 m c r = W19 m c r := by
  rw [← V20_eq, ← V19_eq]; exact V20_of m (outs m) c r h
theorem W21_of (c : Dev nD) (r : Ref sig .tc) (h : r ∉ hostOps9_W) : W21 m c r = W20 m c r := by
  rw [← V21_eq, ← V20_eq]; exact V21_of m (outs m) c r h
theorem W22_of (c : Dev nD) (r : Ref sig .tc) (h : r ∉ ([main_v237] : List (Ref sig .tc))) : W22 m c r = W21 m c r := by
  rw [← V22_eq, ← V21_eq]; exact V22_of m (outs m) c r h
theorem W23_of (c : Dev nD) (r : Ref sig .tc) (h : r ∉ hostOps10_W) : W23 m c r = W22 m c r := by
  rw [← V23_eq, ← V22_eq]; exact V23_of m (outs m) c r h
theorem W24_of (c : Dev nD) (r : Ref sig .tc) (h : r ∉ ([main_v251] : List (Ref sig .tc))) : W24 m c r = W23 m c r := by
  rw [← V24_eq, ← V23_eq]; exact V24_of m (outs m) c r h
theorem W25_of (c : Dev nD) (r : Ref sig .tc) (h : r ∉ hostOps11_W) : W25 m c r = W24 m c r := by
  rw [← V25_eq, ← V24_eq]; exact V25_of m (outs m) c r h
theorem W26_of (c : Dev nD) (r : Ref sig .tc) (h : r ∉ ([main_v270] : List (Ref sig .tc))) : W26 m c r = W25 m c r := by
  rw [← V26_eq, ← V25_eq]; exact V26_of m (outs m) c r h

end Cert.Kernel.Hand

end
-- ==== Proof.KB.Segs.lean ====
/-
  The twelve regions of the kernel program as segments: the family of their proof data, what each leaves in its
  windows' arrays, and the segment records.
-/
import proofs.«160050_j32744830665390_2_alg».proof.Proof.KB.RegionOf
import proofs.«160050_j32744830665390_2_alg».proof.Proof.KB.Fold

-- memberships decided over the program's references recurse past the default depth
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! # The regions as segments of the run -/

/-- Every pipeline's proof data, each at its region's entry contents: a literal match on the pipeline index, so that
    the family at a numeral reduces to that region's proof data. -/
def pdats : (p : Fin 12) → (c : Dev nD) → Dat τ (Elt F) Unit ℕ (UR sig nD τ) ℕ (cfgs p) c
  | ⟨0, _⟩ => fun c => dat0 (En0 m) c
  | ⟨1, _⟩ => fun c => dat1 (En1 m) c
  | ⟨2, _⟩ => fun c => dat2 (En2 m) c
  | ⟨3, _⟩ => fun c => dat3 (En3 m) c
  | ⟨4, _⟩ => fun c => dat4 (En4 m) c
  | ⟨5, _⟩ => fun c => dat5 (En5 m) c
  | ⟨6, _⟩ => fun c => dat6 (En6 m) c
  | ⟨7, _⟩ => fun c => dat7 (En7 m) c
  | ⟨8, _⟩ => fun c => dat8 (En8 m) c
  | ⟨9, _⟩ => fun c => dat9 (En9 m) c
  | ⟨10, _⟩ => fun c => dat10 (En10 m) c
  | ⟨11, _⟩ => fun c => dat11 (En11 m) c

/-! ## What each region leaves in its windows' arrays

An input window's array is never written: at the last point it holds what the proof data read at entry, which is the
valuation before the region, and the region's update does not touch it. An output window's array holds the fold of
its write-backs, which is what the valuation after the region was defined to hold there. -/

/-- An input window of region 0: its array is as entered, before and after. -/
theorem in0 (c : Dev nD) (w : Fin cfg0.W) (hin : (cfg0.win w).isOut = false)
    (hne : Pipeline.arrRef spec0 w ∉ ([main_v39] : List (Ref sig .tc))) :
    (dat0 (En0 m) c).arrAt w cfg0.N = V4 m (outs m) c (Pipeline.arrRef spec0 w) :=
  ((dat0 (En0 m) c).arrAt_in w hin _).trans ((A_eq0 (En0 m) c w).trans (V4_of m (outs m) c _ hne).symm)
set_option maxHeartbeats 800000 in
theorem hF0 (c : Dev nD) : ∀ w : Fin 6, (dat0 (En0 m) c).arrAt w cfg0.N = V4 m (outs m) c (Pipeline.arrRef spec0 w)
  | 0 => in0 m c 0 rfl (by decide)
  | 1 => in0 m c 1 rfl (by decide)
  | 2 => in0 m c 2 rfl (by decide)
  | 3 => in0 m c 3 rfl (by decide)
  | 4 => in0 m c 4 rfl (by decide)
  | 5 => ((congrFun (V4_eq m c) _).trans (W4_v39 m c)).symm
  | ⟨_ + 6, h⟩ => absurd h (Nat.not_lt.2 (Nat.le_add_left _ _))

theorem in1 (c : Dev nD) (w : Fin cfg1.W) (hin : (cfg1.win w).isOut = false)
    (hne : Pipeline.arrRef spec1 w ∉ ([main_v75_0, main_v75_1, main_v75_2] : List (Ref sig .tc))) :
    (dat1 (En1 m) c).arrAt w cfg1.N = V6 m (outs m) c (Pipeline.arrRef spec1 w) :=
  ((dat1 (En1 m) c).arrAt_in w hin _).trans ((A_eq1 (En1 m) c w).trans
    ((V6_of m (outs m) c _ hne).trans (congrFun (V5_eq m c) _)).symm)
set_option maxHeartbeats 1600000 in
theorem hF1 (c : Dev nD) : ∀ w : Fin 10, (dat1 (En1 m) c).arrAt w cfg1.N = V6 m (outs m) c (Pipeline.arrRef spec1 w)
  | 0 => in1 m c 0 rfl (by decide)
  | 1 => in1 m c 1 rfl (by decide)
  | 2 => in1 m c 2 rfl (by decide)
  | 3 => in1 m c 3 rfl (by decide)
  | 4 => in1 m c 4 rfl (by decide)
  | 5 => in1 m c 5 rfl (by decide)
  | 6 => in1 m c 6 rfl (by decide)
  | 7 => ((congrFun (V6_eq m c) _).trans (W6_v75_0 m c)).symm
  | 8 => ((congrFun (V6_eq m c) _).trans (W6_v75_1 m c)).symm
  | 9 => ((congrFun (V6_eq m c) _).trans (W6_v75_2 m c)).symm
  | ⟨_ + 10, h⟩ => absurd h (Nat.not_lt.2 (Nat.le_add_left _ _))

theorem in2 (c : Dev nD) (w : Fin cfg2.W) (hin : (cfg2.win w).isOut = false)
    (hne : Pipeline.arrRef spec2 w ∉ ([main_v92] : List (Ref sig .tc))) :
    (dat2 (En2 m) c).arrAt w cfg2.N = V8 m (outs m) c (Pipeline.arrRef spec2 w) :=
  ((dat2 (En2 m) c).arrAt_in w hin _).trans ((A_eq2 (En2 m) c w).trans
    ((V8_of m (outs m) c _ hne).trans (congrFun (V7_eq m c) _)).symm)
set_option maxHeartbeats 800000 in
theorem hF2 (c : Dev nD) : ∀ w : Fin 6, (dat2 (En2 m) c).arrAt w cfg2.N = V8 m (outs m) c (Pipeline.arrRef spec2 w)
  | 0 => in2 m c 0 rfl (by decide)
  | 1 => in2 m c 1 rfl (by decide)
  | 2 => in2 m c 2 rfl (by decide)
  | 3 => in2 m c 3 rfl (by decide)
  | 4 => in2 m c 4 rfl (by decide)
  | 5 => ((congrFun (V8_eq m c) _).trans (W8_v92 m c)).symm
  | ⟨_ + 6, h⟩ => absurd h (Nat.not_lt.2 (Nat.le_add_left _ _))

theorem in3 (c : Dev nD) (w : Fin cfg3.W) (hin : (cfg3.win w).isOut = false)
    (hne : Pipeline.arrRef spec3 w ∉ ([main_v128_0, main_v128_1, main_v128_2] : List (Ref sig .tc))) :
    (dat3 (En3 m) c).arrAt w cfg3.N = V10 m (outs m) c (Pipeline.arrRef spec3 w) :=
  ((dat3 (En3 m) c).arrAt_in w hin _).trans ((A_eq3 (En3 m) c w).trans
    ((V10_of m (outs m) c _ hne).trans (congrFun (V9_eq m c) _)).symm)
set_option maxHeartbeats 1600000 in
theorem hF3 (c : Dev nD) : ∀ w : Fin 10, (dat3 (En3 m) c).arrAt w cfg3.N = V10 m (outs m) c (Pipeline.arrRef spec3 w)
  | 0 => in3 m c 0 rfl (by decide)
  | 1 => in3 m c 1 rfl (by decide)
  | 2 => in3 m c 2 rfl (by decide)
  | 3 => in3 m c 3 rfl (by decide)
  | 4 => in3 m c 4 rfl (by decide)
  | 5 => in3 m c 5 rfl (by decide)
  | 6 => in3 m c 6 rfl (by decide)
  | 7 => ((congrFun (V10_eq m c) _).trans (W10_v128_0 m c)).symm
  | 8 => ((congrFun (V10_eq m c) _).trans (W10_v128_1 m c)).symm
  | 9 => ((congrFun (V10_eq m c) _).trans (W10_v128_2 m c)).symm
  | ⟨_ + 10, h⟩ => absurd h (Nat.not_lt.2 (Nat.le_add_left _ _))

theorem in4 (c : Dev nD) (w : Fin cfg4.W) (hin : (cfg4.win w).isOut = false)
    (hne : Pipeline.arrRef spec4 w ∉ ([main_v145] : List (Ref sig .tc))) :
    (dat4 (En4 m) c).arrAt w cfg4.N = V12 m (outs m) c (Pipeline.arrRef spec4 w) :=
  ((dat4 (En4 m) c).arrAt_in w hin _).trans ((A_eq4 (En4 m) c w).trans
    ((V12_of m (outs m) c _ hne).trans (congrFun (V11_eq m c) _)).symm)
set_option maxHeartbeats 800000 in
theorem hF4 (c : Dev nD) : ∀ w : Fin 6, (dat4 (En4 m) c).arrAt w cfg4.N = V12 m (outs m) c (Pipeline.arrRef spec4 w)
  | 0 => in4 m c 0 rfl (by decide)
  | 1 => in4 m c 1 rfl (by decide)
  | 2 => in4 m c 2 rfl (by decide)
  | 3 => in4 m c 3 rfl (by decide)
  | 4 => in4 m c 4 rfl (by decide)
  | 5 => ((congrFun (V12_eq m c) _).trans (W12_v145 m c)).symm
  | ⟨_ + 6, h⟩ => absurd h (Nat.not_lt.2 (Nat.le_add_left _ _))

theorem in5 (c : Dev nD) (w : Fin cfg5.W) (hin : (cfg5.win w).isOut = false)
    (hne : Pipeline.arrRef spec5 w ∉ ([main_v181_0, main_v181_1, main_v181_2] : List (Ref sig .tc))) :
    (dat5 (En5 m) c).arrAt w cfg5.N = V14 m (outs m) c (Pipeline.arrRef spec5 w) :=
  ((dat5 (En5 m) c).arrAt_in w hin _).trans ((A_eq5 (En5 m) c w).trans
    ((V14_of m (outs m) c _ hne).trans (congrFun (V13_eq m c) _)).symm)
set_option maxHeartbeats 1600000 in
theorem hF5 (c : Dev nD) : ∀ w : Fin 10, (dat5 (En5 m) c).arrAt w cfg5.N = V14 m (outs m) c (Pipeline.arrRef spec5 w)
  | 0 => in5 m c 0 rfl (by decide)
  | 1 => in5 m c 1 rfl (by decide)
  | 2 => in5 m c 2 rfl (by decide)
  | 3 => in5 m c 3 rfl (by decide)
  | 4 => in5 m c 4 rfl (by decide)
  | 5 => in5 m c 5 rfl (by decide)
  | 6 => in5 m c 6 rfl (by decide)
  | 7 => ((congrFun (V14_eq m c) _).trans (W14_v181_0 m c)).symm
  | 8 => ((congrFun (V14_eq m c) _).trans (W14_v181_1 m c)).symm
  | 9 => ((congrFun (V14_eq m c) _).trans (W14_v181_2 m c)).symm
  | ⟨_ + 10, h⟩ => absurd h (Nat.not_lt.2 (Nat.le_add_left _ _))

theorem in6 (c : Dev nD) (w : Fin cfg6.W) (hin : (cfg6.win w).isOut = false)
    (hne : Pipeline.arrRef spec6 w ∉ ([main_v198] : List (Ref sig .tc))) :
    (dat6 (En6 m) c).arrAt w cfg6.N = V16 m (outs m) c (Pipeline.arrRef spec6 w) :=
  ((dat6 (En6 m) c).arrAt_in w hin _).trans ((A_eq6 (En6 m) c w).trans
    ((V16_of m (outs m) c _ hne).trans (congrFun (V15_eq m c) _)).symm)
set_option maxHeartbeats 800000 in
theorem hF6 (c : Dev nD) : ∀ w : Fin 6, (dat6 (En6 m) c).arrAt w cfg6.N = V16 m (outs m) c (Pipeline.arrRef spec6 w)
  | 0 => in6 m c 0 rfl (by decide)
  | 1 => in6 m c 1 rfl (by decide)
  | 2 => in6 m c 2 rfl (by decide)
  | 3 => in6 m c 3 rfl (by decide)
  | 4 => in6 m c 4 rfl (by decide)
  | 5 => ((congrFun (V16_eq m c) _).trans (W16_v198 m c)).symm
  | ⟨_ + 6, h⟩ => absurd h (Nat.not_lt.2 (Nat.le_add_left _ _))

theorem in7 (c : Dev nD) (w : Fin cfg7.W) (hin : (cfg7.win w).isOut = false)
    (hne : Pipeline.arrRef spec7 w ∉ ([main_v209] : List (Ref sig .tc))) :
    (dat7 (En7 m) c).arrAt w cfg7.N = V18 m (outs m) c (Pipeline.arrRef spec7 w) :=
  ((dat7 (En7 m) c).arrAt_in w hin _).trans ((A_eq7 (En7 m) c w).trans
    ((V18_of m (outs m) c _ hne).trans (congrFun (V17_eq m c) _)).symm)
set_option maxHeartbeats 800000 in
theorem hF7 (c : Dev nD) : ∀ w : Fin 4, (dat7 (En7 m) c).arrAt w cfg7.N = V18 m (outs m) c (Pipeline.arrRef spec7 w)
  | 0 => in7 m c 0 rfl (by decide)
  | 1 => in7 m c 1 rfl (by decide)
  | 2 => in7 m c 2 rfl (by decide)
  | 3 => ((congrFun (V18_eq m c) _).trans (W18_v209 m c)).symm
  | ⟨_ + 4, h⟩ => absurd h (Nat.not_lt.2 (Nat.le_add_left _ _))

theorem in8 (c : Dev nD) (w : Fin cfg8.W) (hin : (cfg8.win w).isOut = false)
    (hne : Pipeline.arrRef spec8 w ∉ ([main_v223] : List (Ref sig .tc))) :
    (dat8 (En8 m) c).arrAt w cfg8.N = V20 m (outs m) c (Pipeline.arrRef spec8 w) :=
  ((dat8 (En8 m) c).arrAt_in w hin _).trans ((A_eq8 (En8 m) c w).trans
    ((V20_of m (outs m) c _ hne).trans (congrFun (V19_eq m c) _)).symm)
set_option maxHeartbeats 800000 in
theorem hF8 (c : Dev nD) : ∀ w : Fin 4, (dat8 (En8 m) c).arrAt w cfg8.N = V20 m (outs m) c (Pipeline.arrRef spec8 w)
  | 0 => in8 m c 0 rfl (by decide)
  | 1 => in8 m c 1 rfl (by decide)
  | 2 => in8 m c 2 rfl (by decide)
  | 3 => ((congrFun (V20_eq m c) _).trans (W20_v223 m c)).symm
  | ⟨_ + 4, h⟩ => absurd h (Nat.not_lt.2 (Nat.le_add_left _ _))

theorem in9 (c : Dev nD) (w : Fin cfg9.W) (hin : (cfg9.win w).isOut = false)
    (hne : Pipeline.arrRef spec9 w ∉ ([main_v237] : List (Ref sig .tc))) :
    (dat9 (En9 m) c).arrAt w cfg9.N = V22 m (outs m) c (Pipeline.arrRef spec9 w) :=
  ((dat9 (En9 m) c).arrAt_in w hin _).trans ((A_eq9 (En9 m) c w).trans
    ((V22_of m (outs m) c _ hne).trans (congrFun (V21_eq m c) _)).symm)
set_option maxHeartbeats 800000 in
theorem hF9 (c : Dev nD) : ∀ w : Fin 4, (dat9 (En9 m) c).arrAt w cfg9.N = V22 m (outs m) c (Pipeline.arrRef spec9 w)
  | 0 => in9 m c 0 rfl (by decide)
  | 1 => in9 m c 1 rfl (by decide)
  | 2 => in9 m c 2 rfl (by decide)
  | 3 => ((congrFun (V22_eq m c) _).trans (W22_v237 m c)).symm
  | ⟨_ + 4, h⟩ => absurd h (Nat.not_lt.2 (Nat.le_add_left _ _))

theorem in10 (c : Dev nD) (w : Fin cfg10.W) (hin : (cfg10.win w).isOut = false)
    (hne : Pipeline.arrRef spec10 w ∉ ([main_v251] : List (Ref sig .tc))) :
    (dat10 (En10 m) c).arrAt w cfg10.N = V24 m (outs m) c (Pipeline.arrRef spec10 w) :=
  ((dat10 (En10 m) c).arrAt_in w hin _).trans ((A_eq10 (En10 m) c w).trans
    ((V24_of m (outs m) c _ hne).trans (congrFun (V23_eq m c) _)).symm)
set_option maxHeartbeats 800000 in
theorem hF10 (c : Dev nD) : ∀ w : Fin 4, (dat10 (En10 m) c).arrAt w cfg10.N = V24 m (outs m) c (Pipeline.arrRef spec10 w)
  | 0 => in10 m c 0 rfl (by decide)
  | 1 => in10 m c 1 rfl (by decide)
  | 2 => in10 m c 2 rfl (by decide)
  | 3 => ((congrFun (V24_eq m c) _).trans (W24_v251 m c)).symm
  | ⟨_ + 4, h⟩ => absurd h (Nat.not_lt.2 (Nat.le_add_left _ _))

theorem in11 (c : Dev nD) (w : Fin cfg11.W) (hin : (cfg11.win w).isOut = false)
    (hne : Pipeline.arrRef spec11 w ∉ ([main_v270] : List (Ref sig .tc))) :
    (dat11 (En11 m) c).arrAt w cfg11.N = V26 m (outs m) c (Pipeline.arrRef spec11 w) :=
  ((dat11 (En11 m) c).arrAt_in w hin _).trans ((A_eq11 (En11 m) c w).trans
    ((V26_of m (outs m) c _ hne).trans (congrFun (V25_eq m c) _)).symm)
set_option maxHeartbeats 800000 in
theorem hF11 (c : Dev nD) : ∀ w : Fin 6, (dat11 (En11 m) c).arrAt w cfg11.N = V26 m (outs m) c (Pipeline.arrRef spec11 w)
  | 0 => in11 m c 0 rfl (by decide)
  | 1 => in11 m c 1 rfl (by decide)
  | 2 => in11 m c 2 rfl (by decide)
  | 3 => in11 m c 3 rfl (by decide)
  | 4 => in11 m c 4 rfl (by decide)
  | 5 => ((congrFun (V26_eq m c) _).trans (W26_v270 m c)).symm
  | ⟨_ + 6, h⟩ => absurd h (Nat.not_lt.2 (Nat.le_add_left _ _))

/-! ## The twelve segments -/

def reg0 : RegionSeg (pcfgs (F := F)) adm (pdats m) () defs₀ noVariants noPairs noLevel 0 :=
  regionOf (pdats m) 0 launch0 (fun c => V3 m c) (fun c => V4 m (outs m) c)
    (fun c => body_obligation0 (En0 m) c) (fun c => q_eq0 (En0 m) c) (fun c => owed_eq0 (En0 m) c) (fun _ _ => rfl)
    (fun c w => A_eq0 (En0 m) c w)
    (fun c => Phi_in0 (En0 m) c) (fun c => Phi_out0 (En0 m) c) (hF0 m)
    (fun c b hb => V4_of m (outs m) c b (not_mem_outs spec0 hb _ (by decide)))
def reg1 : RegionSeg (pcfgs (F := F)) adm (pdats m) () defs₀ noVariants noPairs noLevel 1 :=
  regionOf (pdats m) 1 launch1 (fun c => V5 m (outs m) c) (fun c => V6 m (outs m) c)
    (fun c => body_obligation1 (En1 m) c) (fun c => q_eq1 (En1 m) c) (fun c => owed_eq1 (En1 m) c) (fun _ _ => rfl)
    (fun c w => (A_eq1 (En1 m) c w).trans (congrFun (V5_eq m c) _).symm)
    (fun c => Phi_in1 (En1 m) c) (fun c => Phi_out1 (En1 m) c) (hF1 m)
    (fun c b hb => V6_of m (outs m) c b (not_mem_outs spec1 hb _ (by decide)))
def reg2 : RegionSeg (pcfgs (F := F)) adm (pdats m) () defs₀ noVariants noPairs noLevel 2 :=
  regionOf (pdats m) 2 launch2 (fun c => V7 m (outs m) c) (fun c => V8 m (outs m) c)
    (fun c => body_obligation2 (En2 m) c) (fun c => q_eq2 (En2 m) c) (fun c => owed_eq2 (En2 m) c) (fun _ _ => rfl)
    (fun c w => (A_eq2 (En2 m) c w).trans (congrFun (V7_eq m c) _).symm)
    (fun c => Phi_in2 (En2 m) c) (fun c => Phi_out2 (En2 m) c) (hF2 m)
    (fun c b hb => V8_of m (outs m) c b (not_mem_outs spec2 hb _ (by decide)))
def reg3 : RegionSeg (pcfgs (F := F)) adm (pdats m) () defs₀ noVariants noPairs noLevel 3 :=
  regionOf (pdats m) 3 launch3 (fun c => V9 m (outs m) c) (fun c => V10 m (outs m) c)
    (fun c => body_obligation3 (En3 m) c) (fun c => q_eq3 (En3 m) c) (fun c => owed_eq3 (En3 m) c) (fun _ _ => rfl)
    (fun c w => (A_eq3 (En3 m) c w).trans (congrFun (V9_eq m c) _).symm)
    (fun c => Phi_in3 (En3 m) c) (fun c => Phi_out3 (En3 m) c) (hF3 m)
    (fun c b hb => V10_of m (outs m) c b (not_mem_outs spec3 hb _ (by decide)))
def reg4 : RegionSeg (pcfgs (F := F)) adm (pdats m) () defs₀ noVariants noPairs noLevel 4 :=
  regionOf (pdats m) 4 launch4 (fun c => V11 m (outs m) c) (fun c => V12 m (outs m) c)
    (fun c => body_obligation4 (En4 m) c) (fun c => q_eq4 (En4 m) c) (fun c => owed_eq4 (En4 m) c) (fun _ _ => rfl)
    (fun c w => (A_eq4 (En4 m) c w).trans (congrFun (V11_eq m c) _).symm)
    (fun c => Phi_in4 (En4 m) c) (fun c => Phi_out4 (En4 m) c) (hF4 m)
    (fun c b hb => V12_of m (outs m) c b (not_mem_outs spec4 hb _ (by decide)))
def reg5 : RegionSeg (pcfgs (F := F)) adm (pdats m) () defs₀ noVariants noPairs noLevel 5 :=
  regionOf (pdats m) 5 launch5 (fun c => V13 m (outs m) c) (fun c => V14 m (outs m) c)
    (fun c => body_obligation5 (En5 m) c) (fun c => q_eq5 (En5 m) c) (fun c => owed_eq5 (En5 m) c) (fun _ _ => rfl)
    (fun c w => (A_eq5 (En5 m) c w).trans (congrFun (V13_eq m c) _).symm)
    (fun c => Phi_in5 (En5 m) c) (fun c => Phi_out5 (En5 m) c) (hF5 m)
    (fun c b hb => V14_of m (outs m) c b (not_mem_outs spec5 hb _ (by decide)))
def reg6 : RegionSeg (pcfgs (F := F)) adm (pdats m) () defs₀ noVariants noPairs noLevel 6 :=
  regionOf (pdats m) 6 launch6 (fun c => V15 m (outs m) c) (fun c => V16 m (outs m) c)
    (fun c => body_obligation6 (En6 m) c) (fun c => q_eq6 (En6 m) c) (fun c => owed_eq6 (En6 m) c) (fun _ _ => rfl)
    (fun c w => (A_eq6 (En6 m) c w).trans (congrFun (V15_eq m c) _).symm)
    (fun c => Phi_in6 (En6 m) c) (fun c => Phi_out6 (En6 m) c) (hF6 m)
    (fun c b hb => V16_of m (outs m) c b (not_mem_outs spec6 hb _ (by decide)))
def reg7 : RegionSeg (pcfgs (F := F)) adm (pdats m) () defs₀ noVariants noPairs noLevel 7 :=
  regionOf (pdats m) 7 launch7 (fun c => V17 m (outs m) c) (fun c => V18 m (outs m) c)
    (fun c => body_obligation7 (En7 m) c) (fun c => q_eq7 (En7 m) c) (fun c => owed_eq7 (En7 m) c) (fun _ _ => rfl)
    (fun c w => (A_eq7 (En7 m) c w).trans (congrFun (V17_eq m c) _).symm)
    (fun c => Phi_in7 (En7 m) c) (fun c => Phi_out7 (En7 m) c) (hF7 m)
    (fun c b hb => V18_of m (outs m) c b (not_mem_outs spec7 hb _ (by decide)))
def reg8 : RegionSeg (pcfgs (F := F)) adm (pdats m) () defs₀ noVariants noPairs noLevel 8 :=
  regionOf (pdats m) 8 launch8 (fun c => V19 m (outs m) c) (fun c => V20 m (outs m) c)
    (fun c => body_obligation8 (En8 m) c) (fun c => q_eq8 (En8 m) c) (fun c => owed_eq8 (En8 m) c) (fun _ _ => rfl)
    (fun c w => (A_eq8 (En8 m) c w).trans (congrFun (V19_eq m c) _).symm)
    (fun c => Phi_in8 (En8 m) c) (fun c => Phi_out8 (En8 m) c) (hF8 m)
    (fun c b hb => V20_of m (outs m) c b (not_mem_outs spec8 hb _ (by decide)))
def reg9 : RegionSeg (pcfgs (F := F)) adm (pdats m) () defs₀ noVariants noPairs noLevel 9 :=
  regionOf (pdats m) 9 launch9 (fun c => V21 m (outs m) c) (fun c => V22 m (outs m) c)
    (fun c => body_obligation9 (En9 m) c) (fun c => q_eq9 (En9 m) c) (fun c => owed_eq9 (En9 m) c) (fun _ _ => rfl)
    (fun c w => (A_eq9 (En9 m) c w).trans (congrFun (V21_eq m c) _).symm)
    (fun c => Phi_in9 (En9 m) c) (fun c => Phi_out9 (En9 m) c) (hF9 m)
    (fun c b hb => V22_of m (outs m) c b (not_mem_outs spec9 hb _ (by decide)))
def reg10 : RegionSeg (pcfgs (F := F)) adm (pdats m) () defs₀ noVariants noPairs noLevel 10 :=
  regionOf (pdats m) 10 launch10 (fun c => V23 m (outs m) c) (fun c => V24 m (outs m) c)
    (fun c => body_obligation10 (En10 m) c) (fun c => q_eq10 (En10 m) c) (fun c => owed_eq10 (En10 m) c) (fun _ _ => rfl)
    (fun c w => (A_eq10 (En10 m) c w).trans (congrFun (V23_eq m c) _).symm)
    (fun c => Phi_in10 (En10 m) c) (fun c => Phi_out10 (En10 m) c) (hF10 m)
    (fun c b hb => V24_of m (outs m) c b (not_mem_outs spec10 hb _ (by decide)))
def reg11 : RegionSeg (pcfgs (F := F)) adm (pdats m) () defs₀ noVariants noPairs noLevel 11 :=
  regionOf (pdats m) 11 launch11 (fun c => V25 m (outs m) c) (fun c => V26 m (outs m) c)
    (fun c => body_obligation11 (En11 m) c) (fun c => q_eq11 (En11 m) c) (fun c => owed_eq11 (En11 m) c) (fun _ _ => rfl)
    (fun c w => (A_eq11 (En11 m) c w).trans (congrFun (V25_eq m c) _).symm)
    (fun c => Phi_in11 (En11 m) c) (fun c => Phi_out11 (En11 m) c) (hF11 m)
    (fun c b hb => V26_of m (outs m) c b (not_mem_outs spec11 hb _ (by decide)))

end Cert.Kernel.Hand

end
-- ==== Proof.KB.Main.lean ====
/-
  The run of the kernel program: it terminates from any launch memory, its two results are the last valuation read
  at their references, and its arguments end as launched.
-/
import proofs.«160050_j32744830665390_2_alg».proof.Proof.KB.Segs

-- memberships decided over the program's references recurse past the default depth
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! # The run

@main is the chain of its twenty-six segments. Launched from a memory `m` with every counter at zero, every core
starts holding its unscoped buffers at the launch contents beside its generator register, owing nothing; the
segments' thread states chain, each region entered from what the stretch before it left; at the end every core
holds every unscoped buffer at the last valuation, `W26`. Read against the final memory, that gives the two results
as terms of the launch memory, and every argument unchanged. -/

variable (ρ : Dev nD → PrngReg)

/-- The rest that rides through every segment, for the generated segment list. -/
abbrev rides : Fin 13 → Dev nD → sProp 𝕄 := fun _ c => Ride c

/-- @main's twenty-six segments on a core. -/
abbrev allSegs (c : Dev nD) : List (Seg (pcfgs (F := F)) adm (pdats m) () defs₀ noVariants noPairs noLevel) :=
  segs m (outs m) noVariants noPairs noLevel rides () (pdats m)
    (reg0 m) (reg1 m) (reg2 m) (reg3 m) (reg4 m) (reg5 m) (reg6 m) (reg7 m) (reg8 m) (reg9 m) (reg10 m) (reg11 m) c

/-- An unscoped TensorCore reference is among those the thread state holds. -/
theorem mem_uc (b : Ref sig .tc) (h : ¬ (Proc.devRef .tc b : DevRef τ sig).isScoped) :
    (Proc.devRef .tc b : DevRef τ sig) ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
/-- Every weakly fair execution of @main from `m` with zero counters terminates, nothing faulting, and in every final
    memory each unscoped buffer of each TensorCore holds the last valuation. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V26 m (outs m) c b) := by
  refine Pipeline.θ_run_regions_kit_dev (pcfgs (F := F)) adm (pdats m) () cellOf_inj emb₁ defs₀ noVariants noPairs noLevel m ρ main
    (allSegs m)
    (fun c Q => by
      rewrite [main_chain c, Seg.run_eq_chain,
        show (allSegs m c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()) ] from rfl]
      exact .rfl)
    (fun c => by simp only [allSegs, segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ Ride c))
    (Tₙ := fun c => iprop(StableHlo.held (c : Thread nD τ) (Pipeline.ucRefs τ sig) (V26 m (outs m) c) ∗ ∃ r, prngReg c r))
    (hch := fun c => ⟨.rfl, .rfl, .rfl, .rfl, .rfl, .rfl, .rfl, .rfl, .rfl, .rfl, .rfl, .rfl, .rfl, .rfl, .rfl, .rfl, .rfl, .rfl,
      .rfl, .rfl, .rfl, .rfl, .rfl, .rfl, .rfl, .rfl, ?_⟩)
    (hinit := ?_)
    (QY := fun c s => ∀ b ∈ Pipeline.ucRefs τ sig, s.mem ((c : Thread nD τ).1, b) = V26 m (outs m) c b)
    (hfin := fun c s' => ?_) (hQ := fun _ h => h)
  · -- the launch element is the pipeline library's own; no core needs a ghost resource besides
    iintro Hu
    imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- the last region's exit state, regrouped: the buffers and the register on one side, the debt (none) on the other
    show iprop(StableHlo.held (c : Thread nD τ) (Pipeline.ucRefs τ sig) (V26 m (outs m) c) ∗ Ride c) ⊢ _
    iintro ⟨Hheld, Hreg, Howes⟩
    isplitl [Hheld Hreg]
    · isplitl [Hheld]; · iexact Hheld
      iexact Hreg
    iexact Howes
  · -- the launch: each core's unscoped buffers are held at the launch contents; its register and its empty debt ride along
    refine Pipeline.initEach noPairs noLevel fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hheld, -, Howes, -, Hreg, -⟩, -⟩
    imodintro
    isplitl [Hheld]; · iexact Hheld
    isplitl [Hreg]; · iexists _; iexact Hreg
    iexists ∅; iexact Howes
  · -- the end: the held buffers, read against the final state
    iintro ⟨⟨Hheld, -⟩, HSI⟩
    unfold StableHlo.held
    imodintro
    iapply (pointsTo_read_all (Pipeline.ucRefs τ sig) (fun b => (((c : Thread nD τ)).1, b)) (V26 m (outs m) c) s')
    isplitl [Hheld]; · iexact Hheld
    iexact HSI

/-- THE RUN, with the results named: the logits are what region 11's write-backs leave in `main_v270`, the
    regulariser what the last host stretch leaves in `main_v255`, both read off `W26`; every argument is as launched. -/
theorem run_main : θ_run defs (onTc (τ := τ) (main (F := F))) ⟨m, fun _ => 0, ρ⟩ (fun r => ∀ c : Dev nD,
      r.2.mem ((c.tc : Thread nD τ).loc main_v270) = W26 m c main_v270
      ∧ r.2.mem ((c.tc : Thread nD τ).loc main_v255) = W26 m c main_v255
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => by
    have rd : ∀ (b : Ref sig .tc), ¬ (Proc.devRef .tc b : DevRef τ sig).isScoped →
        r.2.mem ((c.tc : Thread nD τ).loc b) = V26 m (outs m) c b := fun b hb => h c _ (mem_uc b hb)
    exact ⟨(rd main_v270 (by decide)).trans (congrFun (V26_eq m c) _),
      (rd main_v255 (by decide)).trans (congrFun (V26_eq m c) _),
      (rd main_arg0 (by decide)).trans (V26_main_arg0 m (outs m) c),
      (rd main_arg1 (by decide)).trans (V26_main_arg1 m (outs m) c),
      (rd main_arg2 (by decide)).trans (V26_main_arg2 m (outs m) c),
      (rd main_arg3 (by decide)).trans (V26_main_arg3 m (outs m) c),
      (rd main_arg4 (by decide)).trans (V26_main_arg4 m (outs m) c),
      (rd main_arg5 (by decide)).trans (V26_main_arg5 m (outs m) c),
      (rd main_arg6 (by decide)).trans (V26_main_arg6 m (outs m) c),
      (rd main_arg7 (by decide)).trans (V26_main_arg7 m (outs m) c),
      (rd main_arg8 (by decide)).trans (V26_main_arg8 m (outs m) c),
      (rd main_arg9 (by decide)).trans (V26_main_arg9 m (outs m) c),
      (rd main_arg10 (by decide)).trans (V26_main_arg10 m (outs m) c),
      (rd main_arg11 (by decide)).trans (V26_main_arg11 m (outs m) c),
      (rd main_arg12 (by decide)).trans (V26_main_arg12 m (outs m) c),
      (rd main_arg13 (by decide)).trans (V26_main_arg13 m (outs m) c),
      (rd main_arg14 (by decide)).trans (V26_main_arg14 m (outs m) c)⟩) (run_all m ρ)

/-- The frame: the program runs and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => (h c).2.2) (run_main m ρ)

end Cert.Kernel.Hand

end
-- ==== Proof.KI.Iface.lean ====
/-
  The shared header of the kernel program's hand-written run: what every region module and the run import, the
  type of a region's entry contents, and the one resource that passes through every region's invariant.
  The kernel program is twelve pipelined regions among thirteen stretches of host operations. Each region is
  described at a PARAMETER: the contents of the TensorCore's buffers when the region is entered. The run then folds
  these descriptions through the program, from the launch memory to the return.
-/
import proofs.«160050_j32744830665390_2_alg».proof.Proof.Gen.KernelIdeal.Launch
import proofs.«160050_j32744830665390_2_alg».proof.Proof.Gen.KernelIdeal.Skeleton
import proofs.«160050_j32744830665390_2_alg».proof.Proof.Gen.KernelIdeal.Points
import Idealize.ShloMosaic.Lib.Pipeline.FrameBody
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-- The contents of a TensorCore's buffers at the moment a region is entered, for every core: the parameter each
    region's proof data, invariant and body obligation are stated at. -/
abbrev Entry (F : FTy → Type) : Type :=
  (c : Dev nD) → (b : Ref sig .tc) → Buf (Elt F) ((c : Thread nD τ).loc b)

variable {F : FTy → Type} [FloatOps F]

local notation "𝕄" => MT nD τ sig Unit (Elt F) ℕ (UR sig nD τ) ℕ

/-- The core's generator register at some state: it enters every region's invariant at the first point and is
    given back at the last, whether the region draws from it or not. -/
abbrev Xr (c : Dev nD) : sProp 𝕄 := iprop(∃ r, prngReg c r)

end Cert.KernelIdeal.Hand

end
-- ==== Proof.KI.RegionOf.lean ====
/-
  A pipelined region of the kernel program as a segment of its run, stated once for a region index: the region
  splits its windows' arrays out of the core's unscoped buffers, runs its pipeline, and puts them back.
-/
import proofs.«160050_j32744830665390_2_alg».proof.Proof.KI.Iface
import proofs.«160050_j32744830665390_2_alg».proof.Proof.Gen.KernelIdeal.Regions

-- memberships decided over the program's references recurse past the default depth
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! # A pipelined region as a segment of the run

Every one of the twelve regions enters the run the same way. Between two segments a core holds every unscoped buffer
whole, at a named valuation, beside its generator register and the statement that it owes no other core anything. A
region splits its windows' arrays out of those buffers, runs its pipeline from the proof data's entry contents, and
puts the arrays back at what the write-backs leave; the generator register passes through the invariant; the
unscoped buffers that are no window's array bypass the region untouched. This is said once, for a region index `p`. -/

/-- No variant is measured: the program has no loop on the host. -/
abbrev noVariants : Variants := Variants.none
/-- No core owes another anything, so no pair is assigned a level. -/
abbrev noPairs : GSem nD τ sig → Finset Unit := fun _ => ∅
abbrev noLevel : GSem nD τ sig → Unit → ℕ := fun _ _ => 0

/-- What rides beside the unscoped buffers through every segment: the core's generator register at some state, and
    the core owing nothing. -/
abbrev Ride (c : Dev nD) : sProp 𝕄 :=
  iprop((∃ r, prngReg c r) ∗ ∃ W, owes (c : Thread nD τ) (0 : CellTallies nD τ sig Unit) W)

section RegionOf

variable (pdats : (p : Fin 12) → (c : Dev nD) → Dat τ (Elt F) Unit ℕ (UR sig nD τ) ℕ (cfgs p) c)

/-- A core that owes nothing meets the first tallies of proof data that owe nothing and bound no recorded pair. -/
theorem owes_enter (p : Fin 12) (c : Dev nD) (howed : ∀ t, (pdats p c).owed t = 0) (hrec : ∀ t, (pdats p c).recorded t = Set.univ) :
    (iprop(∃ W, owes (c : Thread nD τ) (0 : CellTallies nD τ sig Unit) W) : sProp 𝕄) ⊢ (pdats p c).owesAt () 0 := by
  unfold Pipeline.Dat.owesAt Pipeline.owesWithin
  rw [howed 0]
  iintro ⟨%W, Howes⟩
  iexists W
  isplitr
  · ipureintro
    intro x _
    exact Or.inl (by rw [hrec 0]; exact Set.mem_univ x)
  · iexact Howes

/-- At the last point such proof data still owe nothing. -/
theorem owes_leave (p : Fin 12) (c : Dev nD) (howed : ∀ t, (pdats p c).owed t = 0) :
    (pdats p c).owesAt () (Fin.last (cfgs p).N) ⊢ (iprop(∃ W, owes (c : Thread nD τ) (0 : CellTallies nD τ sig Unit) W) : sProp 𝕄) := by
  unfold Pipeline.Dat.owesAt Pipeline.owesWithin
  rw [howed (Fin.last (cfgs p).N)]
  iintro ⟨%W, -, Howes⟩
  iexists W
  iexact Howes

-- a library lemma stated over the pinned configuration unifies with the printed one only when unification may unfold
-- plain definitions in a metavariable's type
set_option backward.isDefEq.respectTransparency.types false in
/-- Region `p` as a segment, entered with the unscoped buffers at `Win` and left with them at `Wout`, given: the
    proof data read their arrays off `Win` (`hA`) at the full share (`hq`), owe nothing (`howed`) and bound no
    recorded pair (`hrec`); the body obligation; the invariant takes the scoped rest and the generator register in
    (`hΦi`) and gives them back (`hΦo`); `Wout` has each array at what the write-backs leave (`hF`) and agrees
    with `Win` off the arrays (`hrest`). -/
def regionOf (p : Fin 12) (hl : Pipeline.LaunchFacts (nD := nD) (τ := τ) cfgs p)
    (Win Wout : Dev nD → Valuation τ sig (Elt F))
    (hob : ∀ c, BodyObligation (pdats p c) (defs₀ (F := F)) Variants.none () Set.univ)
    (hq : ∀ c w, (pdats p c).q w = fullShare)
    (howed : ∀ c t, (pdats p c).owed t = 0)
    (hrec : ∀ c t, (pdats p c).recorded t = Set.univ)
    (hA : ∀ c w, (pdats p c).A w = Win c (Pipeline.arrRef (cfgs p).spec w))
    (hΦi : ∀ c, (Pipeline.ΦA (U := UR sig nD τ) (Val := Elt F) (cfgs p).spec c : sProp 𝕄) ⊢ (pdats p c).Φ 0)
    (hΦo : ∀ c, (pdats p c).Φ (Fin.last (cfgs p).N) ⊢ (Pipeline.ΦA (U := UR sig nD τ) (Val := Elt F) (cfgs p).spec c : sProp 𝕄))
    (hF : ∀ c w, (pdats p c).arrAt w (cfgs p).N = Wout c (Pipeline.arrRef (cfgs p).spec w))
    (hrest : ∀ c (b : Ref sig .tc), b ∉ Finset.univ.image (Pipeline.arrRef (cfgs p).spec) → Wout c b = Win c b) :
    RegionSeg (pcfgs (F := F)) adm pdats () defs₀ noVariants noPairs noLevel p where
  win := hl.win.to₀
  block_pos := hl.block_pos
  stage_whole := hl.stage_whole
  K := PEmpty
  osem k := k.elim
  ho := Pipeline.OwnSemFacts.none _
  hbody c := (hob c).loose
  hwaits := Pipeline.hwaits_of_owed_zero _ _ _ _ noPairs noLevel p howed
  pre c := iprop(StableHlo.held (c : Thread nD τ) (Pipeline.ucRefs τ sig) (Win c) ∗ Ride c)
  post c := iprop(StableHlo.held (c : Thread nD τ) (Pipeline.ucRefs τ sig) (Wout c) ∗ Ride c)
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    -- the unscoped buffers at `Win` are the windows' arrays at the entry contents and the rest
    have hsplit := Pipeline.arrays_of_unscopedBufs (p := p) (pcfgs (F := F)) adm pdats hl.win hl.arr_whole c
      ((pdats p c).share_full (hq c)) (fun b => Win c b) (hA c)
    rw [Pipeline.unscopedBufs_held] at hsplit
    iintro ⟨⟨Hheld, Hreg, Howes⟩, -, -⟩
    imodintro
    ihave Hsp := hsplit $$ Hheld
    icases Hsp with ⟨Harr, Hother⟩
    isplitl [Harr]; · iexact Harr
    -- the pipeline prefetches no table
    isplitr
    · unfold Pipeline.prefHeld
      rw [show (Finset.univ : Finset (Fin 0)) = ∅ from rfl, BI.bigSep_empty]
      iempintro
    isplitl [Howes]
    · iapply (owes_enter pdats p c (howed c) (hrec c)); iexact Howes
    isplitl [Hreg]; · iexact Hreg
    iexact Hother
  hin c := by
    refine BIBase.Entails.trans ?_ (hΦi c)
    unfold Pipeline.ΦA
    iintro ⟨Hreg, -, Hscoped⟩
    isplitl [Hscoped]; · iexact Hscoped
    iexact Hreg
  hout c := by
    rw [Pipeline.ownSems0_none]
    refine (hΦo c).trans ?_
    unfold Pipeline.ΦA
    iintro ⟨Hscoped, Hreg⟩
    isplitl [Hreg]; · iexact Hreg
    isplitr; · iempintro
    iexact Hscoped
  hexit c := by
    -- the arrays at what the write-backs leave and the untouched rest are the unscoped buffers at `Wout`
    have hjoin := Pipeline.unscopedBufs_of_arrays (p := p) (pcfgs (F := F)) adm (Ix := Unit) (Name := ℕ) (U := UR sig nD τ) (Lvl := ℕ)
      hl.win hl.arr_whole c pdats ((pdats p c).share_full (hq c))
      (fun b => Win c b) (fun b => Wout c b) ((pdats p c).arrAt · (cfgs p).N) (hF c) (hrest c)
    rw [Pipeline.unscopedBufs_held] at hjoin
    iintro ⟨Harr, Howes, Hreg, Hother⟩
    imodintro
    isplitl [Harr Hother]
    · iapply hjoin; isplitl [Harr]; · iexact Harr
      iexact Hother
    isplitl [Hreg]; · iexact Hreg
    iapply (owes_leave pdats p c (howed c)); iexact Howes

end RegionOf

end Cert.KernelIdeal.Hand

end
-- ==== Proof.KI.Reg0.lean ====
import proofs.«160050_j32744830665390_2_alg».proof.Proof.KI.Iface
import Idealize.ShloMosaic.Lib.Pipeline.Value
import Idealize.ShloMosaic.Lib.ValueIdx

/-! # The embedding stage (the first pallas_call): Linear, LayerNorm over the feature axis, ReLU

One grid point handles one tile of 5000 node rows.  It reads the tile of the node features, the whole
weight matrix and the three feature-wise rows (bias, LayerNorm scale, LayerNorm shift), and stores one
tile of 5000 embedded rows.  Nothing is carried from one tile to the next.

This module says, at the buffer contents V the stage is entered with:
* which block of each operand a grid point sees,
* what the point leaves in the output tile (one store over the whole tile, so the tile IS the stored value),
* that the printed body does exactly that (a separation-logic triple, run by the symbolic executor),
* the per-tile obligation the pipeline's launch rule asks of the body,
* and finally the whole output array after all ten tiles, entry by entry. -/

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 eq_ix2 idx2_lt0 idx2_lt1)

variable {F : FTy → Type} [FloatOps F]

local notation "𝕄" => MT nD τ sig Unit (Elt F) ℕ (UR sig nD τ) ℕ

section Embed

/- The contents of every buffer of the core when the stage is entered. -/
variable (V : Entry F)

/-! ## Blocks -/

/-- The block of operand w that grid point t works on, cut out of the operand as the stage finds it. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-! ## The one access shape of each operand: the whole tile, offset zero -/

/-- Both offsets of every access of the body are zero. -/
theorem zeroOffsets0 : (![0, 0] : Fin 2 → Nat) = fun _ => 0 := funext fun a => by fin_cases a <;> rfl

/-- The whole 5000×128 tile (node features in, embedded rows out). -/
abbrev tileRows0 : Rect S5000x128 := Rect.unit (s := S5000x128) ![0, 0] S5000x128.size inb_S5000x128_S5000x128_0_0
/-- The whole 128×128 weight matrix. -/
abbrev tileWeight0 : Rect S128x128 := Rect.unit (s := S128x128) ![0, 0] S128x128.size inb_S128x128_S128x128_0_0
/-- A whole 1×128 feature row (bias, scale, shift). -/
abbrev tileFeat0 : Rect S1x128 := Rect.unit (s := S1x128) ![0, 0] S1x128.size inb_S1x128_S1x128_0_0

/-! ## What a grid point leaves in the output tile -/

/-- The output tile after the body, from the five operand blocks: the body's single store, as the list of
    written pieces (here one piece, the whole tile) over the stored value k0_pay1 of the loaded blocks. -/
def out0_5 (x : Vec F S5000x128 .f32) (wt : Vec F S128x128 .f32) (bias scale shift : Vec F S1x128 .f32) :
    Vec F S5000x128 .f32 :=
  View.canon [⟨tileRows0, k0_pay1 (View.ld x tileRows0) (View.ld wt tileWeight0) (View.ld bias tileFeat0)
    (View.ld scale tileFeat0) (View.ld shift tileFeat0)⟩]

/-- Since the store fills the tile and every load reads a whole block, the tile is just the stored value
    of the blocks themselves. -/
theorem out0_5_eq (x : Vec F S5000x128 .f32) (wt : Vec F S128x128 .f32) (bias scale shift : Vec F S1x128 .f32) :
    out0_5 x wt bias scale shift = k0_pay1 x wt bias scale shift := by
  unfold out0_5
  rw [View.canon_unit_zero zeroOffsets0]
  simp only [View.ld_unit_zero (S := S5000x128) zeroOffsets0, View.ld_unit_zero (S := S128x128) zeroOffsets0,
    View.ld_unit_zero (S := S1x128) zeroOffsets0]

/-- The single store reaches every element of the tile. -/
theorem store_fills_tile0 (p : Vec F S5000x128 .f32) (y : S5000x128.Idx) :
    ∃ pc ∈ ([⟨tileRows0, p⟩] : List (View.Piece (Elt F) S5000x128 .f32)), y ∈ pc.1.set :=
  ⟨_, List.mem_singleton_self _, View.mem_set_unit_zero zeroOffsets0 inb_S5000x128_S5000x128_0_0 y⟩

/-! ## The body's triple -/

set_option maxHeartbeats 1000000 in
/-- The printed body at any grid coordinate, called on whole staging memrefs: given the five operand
    buffers at contents x, wt, bias, scale, shift and the output buffer at anything, it runs to its
    continuation with the operands untouched and the output buffer at out0_5 of them.  The printed function
    is its skeleton of loads and one store, which the symbolic executor runs. -/
theorem sound_kernel0 (c : Dev nD) (E : Set ℕ) (i : grid0.Coords)
    (arg1 : Memref sig .tc .vmem S5000x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x : Vec F S5000x128 .f32) (wt : Vec F S128x128 .f32) (bias scale shift : Vec F S1x128 .f32)
    (K : PUnit → sProp 𝕄) :
    iprop(owns (c : Thread nD τ) arg1 fullShare x ∗ owns (c : Thread nD τ) arg2 fullShare wt
        ∗ owns (c : Thread nD τ) arg3 fullShare bias ∗ owns (c : Thread nD τ) arg4 fullShare scale
        ∗ owns (c : Thread nD τ) arg5 fullShare shift ∗ (∃ d, owns (c : Thread nD τ) arg6 fullShare d)
        ∗ (iprop(owns (c : Thread nD τ) arg1 fullShare x ∗ owns (c : Thread nD τ) arg2 fullShare wt
            ∗ owns (c : Thread nD τ) arg3 fullShare bias ∗ owns (c : Thread nD τ) arg4 fullShare scale
            ∗ owns (c : Thread nD τ) arg5 fullShare shift
            ∗ owns (c : Thread nD τ) arg6 fullShare (out0_5 x wt bias scale shift)) -∗ K ⟨⟩))
      ⊢ wp frame (wpE (defs₀ (F := F)) Variants.none c none) E
          (cc0_embed_kernel i arg1 harg1 arg2 harg2 arg3 harg3 arg4 harg4 arg5 harg5 arg6 harg6) K := by
  simp only [cc0_embed_kernel_eq_skeleton]; unfold cc0_embed_kernel_skel
  unfold owns
  iintro ⟨⟨%fx, %hx, Hx⟩, ⟨%fw, %hw, Hw⟩, ⟨%fb, %hb, Hb⟩, ⟨%fg, %hg, Hg⟩, ⟨%fs, %hs, Hs⟩, ⟨%d, %fo, -, Ho⟩, Hk⟩
  subst hx hw hb hg hs
  sl_exec
  sl_step
  iapply Hk
  isplitl [Hx]
  · iexists fx; isplitr; · ipureintro; rfl
    iexact Hx
  isplitl [Hw]
  · iexists fw; isplitr; · ipureintro; rfl
    iexact Hw
  isplitl [Hb]
  · iexists fb; isplitr; · ipureintro; rfl
    iexact Hb
  isplitl [Hg]
  · iexists fg; isplitr; · ipureintro; rfl
    iexact Hg
  isplitl [Hs]
  · iexists fs; isplitr; · ipureintro; rfl
    iexact Hs
  iexists _; isplitr
  swap; · iexact Ho
  ipureintro
  exact View.read_writes_eq_canon _ _ _ (store_fills_tile0 _)

/-! ## The pipeline's proof data -/

/-- What the launch rule is told about this stage on core c: every operand array as the stage finds it;
    after the body at tile t, each operand's staging buffer still at its block and the output's at
    out0_5 of the five blocks; the invariant is the class's (everything the body neither reads nor writes);
    nothing is owed to other cores; every share is whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The arrays of the proof data are the entry contents. -/
theorem A_eq0 (c : Dev nD) (w : Fin cfg0.W) : (dat0 V c).A w = V c (Pipeline.arrRef spec0 w) := by
  dsimp only [dat0]

/-- What the body leaves, operand by operand. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

/-! ## What the body finds in each operand's staging buffer

The feature tile is fetched afresh at every tile.  The weight matrix and the three feature rows are fetched
at the first tile only; at a later tile their buffers hold what the previous body left, which is the block
again, and the block does not depend on the tile.  Either way the buffer holds the block of this tile. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-! ## The obligation of the body, at any tile -/

/-- What the pipeline hands the body at tile t: the invariant, what the core owes, and the six current
    staging buffers at what they then hold. -/
def tilePre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it takes back. -/
def tilePost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at tile t: the operand buffers hold their blocks, so the body's triple applies; the invariant
    and what the core owes are not touched. -/
theorem sound_tile0 (c : Dev nD) (t : Fin cfg0.N) :
    tilePre0 V c t ⊢ wp frame (wpE (defs₀ (F := F)) Variants.none c none) Set.univ (bodyAt0 t)
      (fun _ => tilePost0 V c t) := by
  unfold tilePre0 tilePost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Howe, ⟨%d0, Hx⟩, ⟨%d1, Hw⟩, ⟨%d2, Hb⟩, ⟨%d3, Hg⟩, ⟨%d4, Hs⟩, ⟨%d5, Ho⟩⟩
  iapply (sound_kernel0 c Set.univ (grid0.coords t) _ _ _ _ _ _ _ _ _ _ _ _
    (iblk0 V c 0 t) (iblk0 V c 1 t) (iblk0 V c 2 t) (iblk0 V c 3 t) (iblk0 V c 4 t) _)
  isplitl [Hx]; · iexact Hx
  isplitl [Hw]; · iexact Hw
  isplitl [Hb]; · iexact Hb
  isplitl [Hg]; · iexact Hg
  isplitl [Hs]; · iexact Hs
  isplitl [Ho]; · iexists _; iexact Ho
  iintro ⟨Hx, Hw, Hb, Hg, Hs, Ho⟩
  isplitl [HΦ]; · iexact HΦ
  isplitl [Howe]; · iexact Howe
  isplitl [Hx]; · iexact Hx
  isplitl [Hw]; · iexact Hw
  isplitl [Hb]; · iexact Hb
  isplitl [Hg]; · iexact Hg
  isplitl [Hs]; · iexact Hs
  iexact Ho

/-- The obligation the launch rule asks of the body, at every tile. -/
theorem body_obligation0 (c : Dev nD) :
    BodyObligation (dat0 (F := F) V c) (defs₀ (F := F)) Variants.none () Set.univ := fun t => by
  rw [bigSep_W0, bigSep_W0]
  exact sound_tile0 V c t

/-- Every share of the proof data is whole, -/
theorem q_eq0 (c : Dev nD) (w : Fin cfg0.W) : (dat0 V c).q w = fullShare := by dsimp only [dat0]

/-- and nothing is ever owed. -/
theorem owed_eq0 (c : Dev nD) (t : Fin (cfg0.N + 1)) : (dat0 V c).owed t = 0 := by dsimp only [dat0]

/-- The invariant is the class's at every tile: it is entered from it and gives it back. -/
theorem Phi_in0 (c : Dev nD) :
    (Pipeline.ΦA (U := UR sig nD τ) (Val := Elt F) spec0 c : sProp 𝕄) ⊢ (dat0 V c).Φ 0 := .rfl

theorem Phi_out0 (c : Dev nD) :
    (dat0 V c).Φ (Fin.last cfg0.N) ⊢ (Pipeline.ΦA (U := UR sig nD τ) (Val := Elt F) spec0 c : sProp 𝕄) := .rfl

/-! ## The whole embedded array after the ten tiles

Row r of the 50000 node rows lies in tile r / 5000, at row r mod 5000 of that tile; the columns are not tiled.
So entry (r, k) of the embedded array is entry (r mod 5000, k) of the value the body stores for tile r / 5000,
and that value is k0_pay1 of rows 5000·(r / 5000) … 5000·(r / 5000) + 4999 of the features and of the whole
weight matrix, bias, scale and shift. -/

/-- Rows 5000·q … 5000·q + 4999 of a 50000-row array, as one tile. -/
def rowTile0 (x : S50000x128.Idx → Elt F .f32) (q : Nat) (hq : q < 10) : Vec F S5000x128 .f32 :=
  fun j => x (ix2 (⟨q * 5000 + (j 0).val, by have := idx2_lt0 j; omega⟩ : Fin 50000) (⟨(j 1).val, idx2_lt1 j⟩ : Fin 128))

theorem rowTile0_congr (x : S50000x128.Idx → Elt F .f32) {q q' : Nat} (h : q = q') (hq : q < 10) (hq' : q' < 10) :
    rowTile0 x q hq = rowTile0 x q' hq' := by subst h; rfl

/-- The tile that holds an entry of the array, -/
def tileNo0 (i : S50000x128.Idx) : Nat := (i 0).val / 5000

theorem tileNo0_lt (i : S50000x128.Idx) : tileNo0 i < 10 := by
  unfold tileNo0; have := idx2_lt0 i; omega

/-- and where the entry sits inside that tile. -/
def posInTile0 (i : S50000x128.Idx) : S5000x128.Idx :=
  ix2 (⟨(i 0).val % 5000, Nat.mod_lt _ (by decide)⟩ : Fin 5000) (⟨(i 1).val, idx2_lt1 i⟩ : Fin 128)

/-- THE EMBEDDED ARRAY as one function of the five operand arrays, entry by entry. -/
def G0_5 (x : S50000x128.Idx → Elt F .f32) (wt : S128x128.Idx → Elt F .f32)
    (bias scale shift : S1x128.Idx → Elt F .f32) : S50000x128.Idx → Elt F .f32 :=
  fun i => k0_pay1 (rowTile0 x (tileNo0 i) (tileNo0_lt i)) wt bias scale shift (posInTile0 i)

/-- Entry (5000·q + r, k) of it is entry (r, k) of the stored value of tile q. -/
theorem G0_5_at (x : S50000x128.Idx → Elt F .f32) (wt : S128x128.Idx → Elt F .f32)
    (bias scale shift : S1x128.Idx → Elt F .f32) (q : Nat) (hq : q < 10) (j : S5000x128.Idx) (i : S50000x128.Idx)
    (hrow : (i 0).val = q * 5000 + (j 0).val) (hcol : (i 1).val = (j 1).val) :
    G0_5 x wt bias scale shift i = k0_pay1 (rowTile0 x q hq) wt bias scale shift j := by
  have hj0 : (j 0).val < 5000 := idx2_lt0 j
  have hq' : tileNo0 i = q := by unfold tileNo0; omega
  have hj : posInTile0 i = j := by
    funext a; apply Fin.ext
    match a with
    | ⟨0, _⟩ => show (i 0).val % 5000 = (j 0).val; omega
    | ⟨1, _⟩ => show (i 1).val = (j 1).val; exact hcol
  unfold G0_5
  rw [hj, rowTile0_congr x hq' (tileNo0_lt i) hq]

/-- Decided over the ten tiles: the feature tile and the output tile of grid point t are tile t of their
    arrays; the weight matrix and the three feature rows are always their one block. -/
theorem tile_indices0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The feature block of tile t is rows 5000·t … of the features. -/
theorem feat_block0 (c : Dev nD) (t : Fin cfg0.N) (ht : t.val < 10) :
    iblk0 V c 0 t = rowTile0 (V c main_arg0) t.val ht := by
  obtain ⟨e0, e1, -⟩ := tile_indices0 t
  funext y
  unfold rowTile0
  show V c main_arg0 (((cfg0.win 0).blk t).view.emb y) = V c main_arg0 _
  congr 1
  funext a; apply Fin.ext
  match a with
  | ⟨0, _⟩ => show win0_0.index t (0 : Fin 2) * 5000 + 1 * (y 0).val = t.val * 5000 + (y 0).val; omega
  | ⟨1, _⟩ => show win0_0.index t (1 : Fin 2) * 128 + 1 * (y 1).val = (y 1).val; omega

/-- The weight block is the whole weight matrix, at every tile. -/
theorem weight_block0 (c : Dev nD) (t : Fin cfg0.N) : iblk0 V c 1 t = V c main_arg1 := by
  obtain ⟨-, -, e0, e1, -⟩ := tile_indices0 t
  funext y
  show V c main_arg1 (((cfg0.win 1).blk t).view.emb y) = V c main_arg1 y
  congr 1
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The bias block is the whole bias row, -/
theorem bias_block0 (c : Dev nD) (t : Fin cfg0.N) : iblk0 V c 2 t = V c main_v36 := by
  obtain ⟨-, -, -, -, e0, e1, -⟩ := tile_indices0 t
  funext y
  show V c main_v36 (((cfg0.win 2).blk t).view.emb y) = V c main_v36 y
  congr 1
  funext a; apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- the scale block the whole scale row, -/
theorem scale_block0 (c : Dev nD) (t : Fin cfg0.N) : iblk0 V c 3 t = V c main_v37 := by
  obtain ⟨-, -, -, -, -, -, e0, e1, -⟩ := tile_indices0 t
  funext y
  show V c main_v37 (((cfg0.win 3).blk t).view.emb y) = V c main_v37 y
  congr 1
  funext a; apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- and the shift block the whole shift row. -/
theorem shift_block0 (c : Dev nD) (t : Fin cfg0.N) : iblk0 V c 4 t = V c main_v38 := by
  obtain ⟨-, -, -, -, -, -, -, -, e0, e1, -⟩ := tile_indices0 t
  funext y
  show V c main_v38 (((cfg0.win 4).blk t).view.emb y) = V c main_v38 y
  congr 1
  funext a; apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- WHAT TILE t WRITES BACK is block t of G0_5 of the operand arrays as the stage finds them. -/
theorem flushed0_5_eq (c : Dev nD) (t : Fin cfg0.N) :
    (dat0 V c).flushed 5 t = ((cfg0.win 5).blk t).view.read (Elt F)
      (G0_5 (V c main_arg0) (V c main_arg1) (V c main_v36) (V c main_v37) (V c main_v38)) := by
  have ht : t.val < 10 := lt_of_lt_of_eq t.isLt N_0
  obtain ⟨-, -, -, -, -, -, -, -, -, -, e0, e1⟩ := tile_indices0 t
  show (cfg0.win 5).cut (grid0.coords t) ((dat0 V c).after 5 t) = _
  rw [after0_5, out0_5_eq, feat_block0 V c t ht, weight_block0, bias_block0, scale_block0, shift_block0]
  funext j
  show k0_pay1 (rowTile0 (V c main_arg0) t.val ht) (V c main_arg1) (V c main_v36) (V c main_v37) (V c main_v38) j
    = G0_5 (V c main_arg0) (V c main_arg1) (V c main_v36) (V c main_v37) (V c main_v38)
        (((cfg0.win 5).blk t).view.emb j)
  refine (G0_5_at _ _ _ _ _ t.val ht j _ ?_ ?_).symm
  · show win0_5.index t (0 : Fin 2) * 5000 + 1 * (j 0).val = t.val * 5000 + (j 0).val; omega
  · show win0_5.index t (1 : Fin 2) * 128 + 1 * (j 1).val = (j 1).val; omega

/-- An entry of the array is in tile t's block iff each coordinate is in the block's range on its axis. -/
theorem mem_tile0_5 (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v39).slice (win0_5.rect t)).set ↔ _
  rw [View.set_slice_whole, Rect.mem_set_unit]
  exact Iff.rfl

/-- The ten tiles cover the array: entry (r, k) is in the block of tile r / 5000, and every tile is written back. -/
theorem tiles_cover0_5 (i : S50000x128.Idx) :
    ∃ t : Fin cfg0.N, (cfg0.win 5).flush t = true ∧ i ∈ ((cfg0.win 5).blk t).view.set := by
  have hi0 : (i 0).val < 50000 := idx2_lt0 i
  have hi1 : (i 1).val < 128 := idx2_lt1 i
  obtain ⟨t, ht⟩ : ∃ t : Fin cfg0.N, t.val = (i 0).val / 5000 :=
    ⟨⟨(i 0).val / 5000, by rw [show cfg0.N = 10 from N_0]; omega⟩, rfl⟩
  obtain ⟨-, -, -, -, -, -, -, -, -, -, e0, e1⟩ := tile_indices0 t
  refine ⟨t, flush0_5 t, ?_⟩
  rw [mem_tile0_5]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-- THE EMBEDDED ARRAY after the stage: G0_5 of the operand arrays as the stage finds them. -/
theorem final0_5 (c : Dev nD) :
    (dat0 V c).arrAt 5 cfg0.N
      = G0_5 (V c main_arg0) (V c main_arg1) (V c main_v36) (V c main_v37) (V c main_v38) :=
  (dat0 V c).arrAt_eq_of_cover 5 _ (fun t _ => flushed0_5_eq V c t) tiles_cover0_5

end Embed

end Cert.KernelIdeal.Hand

end
-- ==== Proof.KI.Reg1.Runs.lean ====
/- Region 1 (the Chebyshev affine layer with column statistics), what its three control cases share:
   the two branch conditions of the body as propositions over the grid coordinates, decided over the ten
   points in closed form; where the two small output windows are idle and where they are written back;
   the memrefs the body is called with at a point. -/
import proofs.«160050_j32744830665390_2_alg».proof.Proof.KI.Iface

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- "This is the first row tile": the accumulators are cleared under it. The scalar chain the body computes from
    the grid coordinate, compared with 1. -/
abbrev cond1_0 (i : grid1.Coords) : Prop :=
  (Scalar.cmpi .ne (Scalar.extui (Scalar.cmpi .eq (BitVec.ofNat 32 (i 0).val) 0#32)) 0#32) = 1#1

/-- "This is the last row tile": the accumulators are copied to the two small outputs under it. -/
abbrev cond1_1 (i : grid1.Coords) : Prop := k1_cond2 i = 1#1

/-- The first condition holds exactly at point 0 of the ten. -/
theorem hcond1_0 : ∀ t : Fin cfg1.N, cond1_0 (grid1.coords t) ↔ t.val % 10 = 0 :=
  (by decide +kernel : ∀ t : Fin grid1.N, cond1_0 (grid1.coords t) ↔ t.val % 10 = 0)

/-- The second holds exactly at point 9. -/
theorem hcond1_1 : ∀ t : Fin cfg1.N, cond1_1 (grid1.coords t) ↔ t.val % 10 = 9 :=
  (by decide +kernel : ∀ t : Fin grid1.N, cond1_1 (grid1.coords t) ↔ t.val % 10 = 9)

/-! ## Idle and live points of the windows -/

/-- The seven inputs and the row-tile output are live at every point. -/
theorem live1_0 : ∀ i : grid1.Coords, cfg1.idle 0 i = false := fun _ => rfl
theorem live1_1 : ∀ i : grid1.Coords, cfg1.idle 1 i = false := fun _ => rfl
theorem live1_2 : ∀ i : grid1.Coords, cfg1.idle 2 i = false := fun _ => rfl
theorem live1_3 : ∀ i : grid1.Coords, cfg1.idle 3 i = false := fun _ => rfl
theorem live1_4 : ∀ i : grid1.Coords, cfg1.idle 4 i = false := fun _ => rfl
theorem live1_5 : ∀ i : grid1.Coords, cfg1.idle 5 i = false := fun _ => rfl
theorem live1_6 : ∀ i : grid1.Coords, cfg1.idle 6 i = false := fun _ => rfl
theorem live1_7 : ∀ i : grid1.Coords, cfg1.idle 7 i = false := fun _ => rfl

/-- Away from the last point the two small outputs are idle and not written back; at the last point they are live. -/
theorem idle1_8 : ∀ t : Fin cfg1.N, ¬cond1_1 (grid1.coords t) → cfg1.idle 8 (grid1.coords t) = true := by decide +kernel
theorem idle1_9 : ∀ t : Fin cfg1.N, ¬cond1_1 (grid1.coords t) → cfg1.idle 9 (grid1.coords t) = true := by decide +kernel
theorem noFlush1_8 : ∀ t : Fin cfg1.N, ¬cond1_1 (grid1.coords t) → (cfg1.win 8).flush t = false := by decide +kernel
theorem noFlush1_9 : ∀ t : Fin cfg1.N, ¬cond1_1 (grid1.coords t) → (cfg1.win 9).flush t = false := by decide +kernel
theorem liveLast1_8 : ∀ t : Fin cfg1.N, cond1_1 (grid1.coords t) → cfg1.idle 8 (grid1.coords t) = false := by decide +kernel
theorem liveLast1_9 : ∀ t : Fin cfg1.N, cond1_1 (grid1.coords t) → cfg1.idle 9 (grid1.coords t) = false := by decide +kernel

/-! ## The memrefs of a point -/

/-- Window `w`'s current staging memref at point `t`, spelled as the body is called with it, and its wholeness. -/
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S5000x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S5000x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x128 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x128 .f32 := win1_9.stage (cfg1.slots t 9)
abbrev hs1_9 (t : Fin cfg1.N) : (ms1_9 t).IsWhole := hstage1_9 ((cfg1.slots t 9).cast nbuf1_9)

/-- The two accumulators: whole scoped buffers of the kernel's own, passed after the windows. -/
abbrev scM1_0 : Memref sig .tc .vmem S1x128 .f32 := Memref.whole cc1_scratch0
abbrev scM1_1 : Memref sig .tc .vmem S1x128 .f32 := Memref.whole cc1_scratch1

/-- Views through which the contents of the written buffers are stated (which staging buffer of a window is taken
    does not matter: the pieces cover it). -/
abbrev VO1_7 : View sig .tc .vmem S5000x128 .f32 := (Memref.whole cc1_stg7_0 : Memref sig .tc .vmem S5000x128 .f32).view
abbrev VO1_8 : View sig .tc .vmem S1x128 .f32 := (Memref.whole cc1_stg8_0 : Memref sig .tc .vmem S1x128 .f32).view
abbrev VO1_9 : View sig .tc .vmem S1x128 .f32 := (Memref.whole cc1_stg9_0 : Memref sig .tc .vmem S1x128 .f32).view
abbrev VS1_0 : View sig .tc .vmem S1x128 .f32 := scM1_0.view
abbrev VS1_1 : View sig .tc .vmem S1x128 .f32 := scM1_1.view

end Cert.KernelIdeal.Hand

end
-- ==== Proof.KI.Reg1.RunA.lean ====
/- Region 1, the body at the FIRST row tile (the clearing branch taken, the copying branch not): the two
   accumulators are set to zero and the tile's column sum and column sum of squares added to them; the tile
   of the affine result is stored; the two small outputs are not touched. -/
import proofs.«160050_j32744830665390_2_alg».proof.Proof.KI.Iface
import proofs.«160050_j32744830665390_2_alg».proof.Proof.KI.Reg1.Runs
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords)
  (arg1 : Memref sig .tc .vmem S5000x128 .f32) (harg1 : arg1.IsWhole)
  (arg2 : Memref sig .tc .vmem S5000x128 .f32) (harg2 : arg2.IsWhole)
  (arg3 : Memref sig .tc .vmem S5000x128 .f32) (harg3 : arg3.IsWhole)
  (arg4 : Memref sig .tc .vmem S128x128 .f32) (harg4 : arg4.IsWhole)
  (arg5 : Memref sig .tc .vmem S128x128 .f32) (harg5 : arg5.IsWhole)
  (arg6 : Memref sig .tc .vmem S128x128 .f32) (harg6 : arg6.IsWhole)
  (arg7 : Memref sig .tc .vmem S1x128 .f32) (harg7 : arg7.IsWhole)
  (arg8 : Memref sig .tc .vmem S5000x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x128 .f32) (harg11 : arg11.IsWhole)
  (arg12 : Memref sig .tc .vmem S1x128 .f32) (harg12 : arg12.IsWhole)

set_option maxHeartbeats 1000000 in
/-- The body's triple at a point where only the first condition holds. Given the seven input buffers at
    `x0 … x6`, the row-tile output and both accumulators at anything, and the two small outputs at `xi8`, `xi9`,
    it runs to the inputs and the small outputs as they were, the row-tile output with the stores `L7` applied
    and the accumulators with `LS0`, `LS1` applied. The three lists are not written down: they are whatever the
    symbolic run of the body leaves, fixed when each buffer is handed to the continuation. -/
def kernelRun1_A (hc0 : cond1_0 i) (hc1 : ¬cond1_1 i) (x0 x1 x2 : Vec F S5000x128 .f32) (x3 x4 x5 : Vec F S128x128 .f32) (x6 : Vec F S1x128 .f32) :
    Σ' (L7 : List (View.Piece (Elt F) S5000x128 .f32)), Σ' (LS0 : List (View.Piece (Elt F) S1x128 .f32)),
      { LS1 : List (View.Piece (Elt F) S1x128 .f32) //
      ∀ (xi8 xi9 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ (∃ d, owns (c : Thread nD τ) arg8 fullShare d)
            ∗ owns (c : Thread nD τ) arg9 fullShare xi8 ∗ owns (c : Thread nD τ) arg10 fullShare xi9
            ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
                ∗ (∃ f, arg8.view.loc (c : Thread nD τ) ↦[arg8.view.set]{fullShare} arg8.view.writes (Elt F) f L7)
                ∗ owns (c : Thread nD τ) arg9 fullShare xi8 ∗ owns (c : Thread nD τ) arg10 fullShare xi9
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)) -∗ K ⟨⟩))
          ⊢ wp frame (wpE (defs₀ (F := F)) Variants.none c none) E (cc1_cheb_affine_kernel i arg1 harg1 arg2 harg2 arg3 harg3 arg4 harg4 arg5 harg5 arg6 harg6 arg7 harg7 arg8 harg8 arg9 harg9 arg10 harg10 arg11 harg11 arg12 harg12) K } := by
  refine ⟨?_, ?_, ?_, fun xi8 xi9 E K => ?run⟩
  case run =>
    sl_unfold [cc1_cheb_affine_kernel]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
      ⟨%d7, %f7, -, H7⟩, ⟨%f8, %hf8, H8⟩, ⟨%f9, %hf9, H9⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg9.eq_unread hf8; obtain rfl := harg10.eq_unread hf9
    sl_exec (disch := first | exact hc0 | exact hc1)
    sl_step
    iapply Hk
    isplitl [H0]
    · iexists _; isplitr
      · ipureintro; exact harg1.read_unread _
      iexact H0
    isplitl [H1]
    · iexists _; isplitr
      · ipureintro; exact harg2.read_unread _
      iexact H1
    isplitl [H2]
    · iexists _; isplitr
      · ipureintro; exact harg3.read_unread _
      iexact H2
    isplitl [H3]
    · iexists _; isplitr
      · ipureintro; exact harg4.read_unread _
      iexact H3
    isplitl [H4]
    · iexists _; isplitr
      · ipureintro; exact harg5.read_unread _
      iexact H4
    isplitl [H5]
    · iexists _; isplitr
      · ipureintro; exact harg6.read_unread _
      iexact H5
    isplitl [H6]
    · iexists _; isplitr
      · ipureintro; exact harg7.read_unread _
      iexact H6
    isplitl [H7]
    · iexists _; iexact H7
    isplitl [H8]
    · iexists _; isplitr
      · ipureintro; exact harg9.read_unread _
      iexact H8
    isplitl [H9]
    · iexists _; isplitr
      · ipureintro; exact harg10.read_unread _
      iexact H9
    isplitl [HS0]
    · iexists _; iexact HS0
    iexists _; iexact HS1

end Cert.KernelIdeal.Hand

end
-- ==== Proof.KI.Reg1.RunB.lean ====
/- Region 1, the body at a MIDDLE row tile (neither branch taken): the tile's column sum and column sum of
   squares are added to what the accumulators held; the tile of the affine result is stored; the two small
   outputs are not touched. -/
import proofs.«160050_j32744830665390_2_alg».proof.Proof.KI.Iface
import proofs.«160050_j32744830665390_2_alg».proof.Proof.KI.Reg1.Runs
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords)
  (arg1 : Memref sig .tc .vmem S5000x128 .f32) (harg1 : arg1.IsWhole)
  (arg2 : Memref sig .tc .vmem S5000x128 .f32) (harg2 : arg2.IsWhole)
  (arg3 : Memref sig .tc .vmem S5000x128 .f32) (harg3 : arg3.IsWhole)
  (arg4 : Memref sig .tc .vmem S128x128 .f32) (harg4 : arg4.IsWhole)
  (arg5 : Memref sig .tc .vmem S128x128 .f32) (harg5 : arg5.IsWhole)
  (arg6 : Memref sig .tc .vmem S128x128 .f32) (harg6 : arg6.IsWhole)
  (arg7 : Memref sig .tc .vmem S1x128 .f32) (harg7 : arg7.IsWhole)
  (arg8 : Memref sig .tc .vmem S5000x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x128 .f32) (harg11 : arg11.IsWhole)
  (arg12 : Memref sig .tc .vmem S1x128 .f32) (harg12 : arg12.IsWhole)

set_option maxHeartbeats 1000000 in
/-- The body's triple at a point where neither condition holds. Given the seven input buffers at `x0 … x6`, the
    accumulators at `xs0`, `xs1` (what the point before left), the row-tile output at anything and the two small
    outputs at `xi8`, `xi9`, it runs to the inputs and the small outputs as they were, the row-tile output with the
    stores `L7` applied and the accumulators with `LS0`, `LS1` applied; the lists are what the symbolic run of the
    body leaves. -/
def kernelRun1_B (hc0 : ¬cond1_0 i) (hc1 : ¬cond1_1 i) (x0 x1 x2 : Vec F S5000x128 .f32) (x3 x4 x5 : Vec F S128x128 .f32) (x6 : Vec F S1x128 .f32)
    (xs0 xs1 : Vec F S1x128 .f32) :
    Σ' (L7 : List (View.Piece (Elt F) S5000x128 .f32)), Σ' (LS0 : List (View.Piece (Elt F) S1x128 .f32)),
      { LS1 : List (View.Piece (Elt F) S1x128 .f32) //
      ∀ (xi8 xi9 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ (∃ d, owns (c : Thread nD τ) arg8 fullShare d)
            ∗ owns (c : Thread nD τ) arg9 fullShare xi8 ∗ owns (c : Thread nD τ) arg10 fullShare xi9
            ∗ owns (c : Thread nD τ) arg11 fullShare xs0 ∗ owns (c : Thread nD τ) arg12 fullShare xs1
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
                ∗ (∃ f, arg8.view.loc (c : Thread nD τ) ↦[arg8.view.set]{fullShare} arg8.view.writes (Elt F) f L7)
                ∗ owns (c : Thread nD τ) arg9 fullShare xi8 ∗ owns (c : Thread nD τ) arg10 fullShare xi9
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)) -∗ K ⟨⟩))
          ⊢ wp frame (wpE (defs₀ (F := F)) Variants.none c none) E (cc1_cheb_affine_kernel i arg1 harg1 arg2 harg2 arg3 harg3 arg4 harg4 arg5 harg5 arg6 harg6 arg7 harg7 arg8 harg8 arg9 harg9 arg10 harg10 arg11 harg11 arg12 harg12) K } := by
  refine ⟨?_, ?_, ?_, fun xi8 xi9 E K => ?run⟩
  case run =>
    sl_unfold [cc1_cheb_affine_kernel]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
      ⟨%d7, %f7, -, H7⟩, ⟨%f8, %hf8, H8⟩, ⟨%f9, %hf9, H9⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg9.eq_unread hf8; obtain rfl := harg10.eq_unread hf9
    obtain rfl := harg11.eq_unread hfs0; obtain rfl := harg12.eq_unread hfs1
    sl_exec (disch := first | exact hc0 | exact hc1)
    sl_step
    iapply Hk
    isplitl [H0]
    · iexists _; isplitr
      · ipureintro; exact harg1.read_unread _
      iexact H0
    isplitl [H1]
    · iexists _; isplitr
      · ipureintro; exact harg2.read_unread _
      iexact H1
    isplitl [H2]
    · iexists _; isplitr
      · ipureintro; exact harg3.read_unread _
      iexact H2
    isplitl [H3]
    · iexists _; isplitr
      · ipureintro; exact harg4.read_unread _
      iexact H3
    isplitl [H4]
    · iexists _; isplitr
      · ipureintro; exact harg5.read_unread _
      iexact H4
    isplitl [H5]
    · iexists _; isplitr
      · ipureintro; exact harg6.read_unread _
      iexact H5
    isplitl [H6]
    · iexists _; isplitr
      · ipureintro; exact harg7.read_unread _
      iexact H6
    isplitl [H7]
    · iexists _; iexact H7
    isplitl [H8]
    · iexists _; isplitr
      · ipureintro; exact harg9.read_unread _
      iexact H8
    isplitl [H9]
    · iexists _; isplitr
      · ipureintro; exact harg10.read_unread _
      iexact H9
    isplitl [HS0]
    · iexists _; iexact HS0
    iexists _; iexact HS1

end Cert.KernelIdeal.Hand

end
-- ==== Proof.KI.Reg1.RunC.lean ====
/- Region 1, the body at the LAST row tile (the clearing branch not taken, the copying branch taken): the
   tile's column sum and column sum of squares are added to what the accumulators held, the tile of the
   affine result is stored, and the accumulators' final contents are copied into the two small outputs. -/
import proofs.«160050_j32744830665390_2_alg».proof.Proof.KI.Iface
import proofs.«160050_j32744830665390_2_alg».proof.Proof.KI.Reg1.Runs
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords)
  (arg1 : Memref sig .tc .vmem S5000x128 .f32) (harg1 : arg1.IsWhole)
  (arg2 : Memref sig .tc .vmem S5000x128 .f32) (harg2 : arg2.IsWhole)
  (arg3 : Memref sig .tc .vmem S5000x128 .f32) (harg3 : arg3.IsWhole)
  (arg4 : Memref sig .tc .vmem S128x128 .f32) (harg4 : arg4.IsWhole)
  (arg5 : Memref sig .tc .vmem S128x128 .f32) (harg5 : arg5.IsWhole)
  (arg6 : Memref sig .tc .vmem S128x128 .f32) (harg6 : arg6.IsWhole)
  (arg7 : Memref sig .tc .vmem S1x128 .f32) (harg7 : arg7.IsWhole)
  (arg8 : Memref sig .tc .vmem S5000x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x128 .f32) (harg11 : arg11.IsWhole)
  (arg12 : Memref sig .tc .vmem S1x128 .f32) (harg12 : arg12.IsWhole)

set_option maxHeartbeats 1000000 in
/-- The body's triple at a point where only the second condition holds. Given the seven input buffers at
    `x0 … x6`, the accumulators at `xs0`, `xs1` (what the point before left) and all three outputs at anything, it
    runs to the inputs as they were, the three outputs with the stores `L7`, `L8`, `L9` applied and the accumulators
    with `LS0`, `LS1` applied; the lists are what the symbolic run of the body leaves. -/
def kernelRun1_C (hc0 : ¬cond1_0 i) (hc1 : cond1_1 i) (x0 x1 x2 : Vec F S5000x128 .f32) (x3 x4 x5 : Vec F S128x128 .f32) (x6 : Vec F S1x128 .f32)
    (xs0 xs1 : Vec F S1x128 .f32) :
    Σ' (L7 : List (View.Piece (Elt F) S5000x128 .f32)), Σ' (L8 : List (View.Piece (Elt F) S1x128 .f32)),
      Σ' (L9 : List (View.Piece (Elt F) S1x128 .f32)), Σ' (LS0 : List (View.Piece (Elt F) S1x128 .f32)),
      { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ (∃ d, owns (c : Thread nD τ) arg8 fullShare d)
            ∗ (∃ d, owns (c : Thread nD τ) arg9 fullShare d) ∗ (∃ d, owns (c : Thread nD τ) arg10 fullShare d)
            ∗ owns (c : Thread nD τ) arg11 fullShare xs0 ∗ owns (c : Thread nD τ) arg12 fullShare xs1
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f L8)
                ∗ (∃ f, arg10.view.loc (c : Thread nD τ) ↦[arg10.view.set]{fullShare} arg10.view.writes (Elt F) f L9)
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)) -∗ K ⟨⟩))
          ⊢ wp frame (wpE (defs₀ (F := F)) Variants.none c none) E (cc1_cheb_affine_kernel i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    sl_unfold [cc1_cheb_affine_kernel]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
      ⟨%d7, %f7, -, H7⟩, ⟨%d8, %f8, -, H8⟩, ⟨%d9, %f9, -, H9⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6
    obtain rfl := harg11.eq_unread hfs0; obtain rfl := harg12.eq_unread hfs1
    sl_exec (disch := first | exact hc0 | exact hc1)
    sl_step
    iapply Hk
    isplitl [H0]
    · iexists _; isplitr
      · ipureintro; exact harg1.read_unread _
      iexact H0
    isplitl [H1]
    · iexists _; isplitr
      · ipureintro; exact harg2.read_unread _
      iexact H1
    isplitl [H2]
    · iexists _; isplitr
      · ipureintro; exact harg3.read_unread _
      iexact H2
    isplitl [H3]
    · iexists _; isplitr
      · ipureintro; exact harg4.read_unread _
      iexact H3
    isplitl [H4]
    · iexists _; isplitr
      · ipureintro; exact harg5.read_unread _
      iexact H4
    isplitl [H5]
    · iexists _; isplitr
      · ipureintro; exact harg6.read_unread _
      iexact H5
    isplitl [H6]
    · iexists _; isplitr
      · ipureintro; exact harg7.read_unread _
      iexact H6
    isplitl [H7]
    · iexists _; iexact H7
    isplitl [H8]
    · iexists _; iexact H8
    isplitl [H9]
    · iexists _; iexact H9
    isplitl [HS0]
    · iexists _; iexact HS0
    iexists _; iexact HS1

end Cert.KernelIdeal.Hand

end
-- ==== Proof.KI.Reg1.lean ====
/- Region 1 of the kernel program: one Chebyshev affine layer over ten row tiles of 5000 nodes, with the column sum and
   the column sum of squares of its result accumulated across the tiles in two small buffers and copied out at the
   last tile. This module: what each of the three control cases leaves in the buffers it stores into; what the outputs
   and the two accumulators hold after each tile, by recursion on the tile; the proof data of the pipelined region
   at a parameter `V` (the buffers' contents when the region is entered); the body obligation at every tile; and
   the two ends of the invariant. -/
import proofs.«160050_j32744830665390_2_alg».proof.Proof.KI.Iface
import proofs.«160050_j32744830665390_2_alg».proof.Proof.KI.Reg1.RunA
import proofs.«160050_j32744830665390_2_alg».proof.Proof.KI.Reg1.RunB
import proofs.«160050_j32744830665390_2_alg».proof.Proof.KI.Reg1.RunC
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

section Cases

variable (c : Dev nD) (i : grid1.Coords)
  (arg1 : Memref sig .tc .vmem S5000x128 .f32) (harg1 : arg1.IsWhole)
  (arg2 : Memref sig .tc .vmem S5000x128 .f32) (harg2 : arg2.IsWhole)
  (arg3 : Memref sig .tc .vmem S5000x128 .f32) (harg3 : arg3.IsWhole)
  (arg4 : Memref sig .tc .vmem S128x128 .f32) (harg4 : arg4.IsWhole)
  (arg5 : Memref sig .tc .vmem S128x128 .f32) (harg5 : arg5.IsWhole)
  (arg6 : Memref sig .tc .vmem S128x128 .f32) (harg6 : arg6.IsWhole)
  (arg7 : Memref sig .tc .vmem S1x128 .f32) (harg7 : arg7.IsWhole)
  (arg8 : Memref sig .tc .vmem S5000x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x128 .f32) (harg11 : arg11.IsWhole)
  (arg12 : Memref sig .tc .vmem S1x128 .f32) (harg12 : arg12.IsWhole)

/-! ### At the first row tile -/

/-- At the first row tile the stores into the row-tile output tile it: every index lies in some piece. -/
theorem cover1_A_7 (hc0 : cond1_0 i) (hc1 : ¬cond1_1 i) (x0 x1 x2 : Vec F S5000x128 .f32) (x3 x4 x5 : Vec F S128x128 .f32) (x6 : Vec F S1x128 .f32) (y : S5000x128.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).1 S5000x128.size (by sl_kernel_rfl) y

/-- What the row-tile output holds after the body at the first row tile: the pieces read back (over contents that do not show,
    the pieces covering the buffer). -/
def out1_A_7 (hc0 : cond1_0 i) (hc1 : ¬cond1_1 i) (x0 x1 x2 : Vec F S5000x128 .f32) (x3 x4 x5 : Vec F S128x128 .f32) (x6 : Vec F S1x128 .f32) : Vec F S5000x128 .f32 :=
  VO1_7.read (Elt F) (VO1_7.writes (Elt F) VO1_7.junk (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).1)

/-- At the first row tile the stores into the first accumulator tile it: every index lies in some piece. -/
theorem scover1_A_0 (hc0 : cond1_0 i) (hc1 : ¬cond1_1 i) (x0 x1 x2 : Vec F S5000x128 .f32) (x3 x4 x5 : Vec F S128x128 .f32) (x6 : Vec F S1x128 .f32) (y : S1x128.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.1 S1x128.size (by sl_kernel_rfl) y

/-- What the first accumulator holds after the body at the first row tile: the pieces read back (over contents that do not show,
    the pieces covering the buffer). -/
def sout1_A_0 (hc0 : cond1_0 i) (hc1 : ¬cond1_1 i) (x0 x1 x2 : Vec F S5000x128 .f32) (x3 x4 x5 : Vec F S128x128 .f32) (x6 : Vec F S1x128 .f32) : Vec F S1x128 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.1)

/-- At the first row tile the stores into the second accumulator tile it: every index lies in some piece. -/
theorem scover1_A_1 (hc0 : cond1_0 i) (hc1 : ¬cond1_1 i) (x0 x1 x2 : Vec F S5000x128 .f32) (x3 x4 x5 : Vec F S128x128 .f32) (x6 : Vec F S1x128 .f32) (y : S1x128.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.2.1 S1x128.size (by sl_kernel_rfl) y

/-- What the second accumulator holds after the body at the first row tile: the pieces read back (over contents that do not show,
    the pieces covering the buffer). -/
def sout1_A_1 (hc0 : cond1_0 i) (hc1 : ¬cond1_1 i) (x0 x1 x2 : Vec F S5000x128 .f32) (x3 x4 x5 : Vec F S128x128 .f32) (x6 : Vec F S1x128 .f32) : Vec F S1x128 .f32 :=
  VS1_1.read (Elt F) (VS1_1.writes (Elt F) VS1_1.junk (kernelRun1_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.2.1)

/-! ### At a middle row tile -/

/-- At a middle row tile the stores into the row-tile output tile it: every index lies in some piece. -/
theorem cover1_B_7 (hc0 : ¬cond1_0 i) (hc1 : ¬cond1_1 i) (x0 x1 x2 : Vec F S5000x128 .f32) (x3 x4 x5 : Vec F S128x128 .f32) (x6 : Vec F S1x128 .f32) (xs0 xs1 : Vec F S1x128 .f32) (y : S5000x128.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1 S5000x128.size (by sl_kernel_rfl) y

/-- What the row-tile output holds after the body at a middle row tile: the pieces read back (over contents that do not show,
    the pieces covering the buffer). -/
def out1_B_7 (hc0 : ¬cond1_0 i) (hc1 : ¬cond1_1 i) (x0 x1 x2 : Vec F S5000x128 .f32) (x3 x4 x5 : Vec F S128x128 .f32) (x6 : Vec F S1x128 .f32) (xs0 xs1 : Vec F S1x128 .f32) : Vec F S5000x128 .f32 :=
  VO1_7.read (Elt F) (VO1_7.writes (Elt F) VO1_7.junk (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1)

/-- At a middle row tile the stores into the first accumulator tile it: every index lies in some piece. -/
theorem scover1_B_0 (hc0 : ¬cond1_0 i) (hc1 : ¬cond1_1 i) (x0 x1 x2 : Vec F S5000x128 .f32) (x3 x4 x5 : Vec F S128x128 .f32) (x6 : Vec F S1x128 .f32) (xs0 xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1 S1x128.size (by sl_kernel_rfl) y

/-- What the first accumulator holds after the body at a middle row tile: the pieces read back (over contents that do not show,
    the pieces covering the buffer). -/
def sout1_B_0 (hc0 : ¬cond1_0 i) (hc1 : ¬cond1_1 i) (x0 x1 x2 : Vec F S5000x128 .f32) (x3 x4 x5 : Vec F S128x128 .f32) (x6 : Vec F S1x128 .f32) (xs0 xs1 : Vec F S1x128 .f32) : Vec F S1x128 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1)

/-- At a middle row tile the stores into the second accumulator tile it: every index lies in some piece. -/
theorem scover1_B_1 (hc0 : ¬cond1_0 i) (hc1 : ¬cond1_1 i) (x0 x1 x2 : Vec F S5000x128 .f32) (x3 x4 x5 : Vec F S128x128 .f32) (x6 : Vec F S1x128 .f32) (xs0 xs1 : Vec F S1x128 .f32) (y : S1x128.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1 S1x128.size (by sl_kernel_rfl) y

/-- What the second accumulator holds after the body at a middle row tile: the pieces read back (over contents that do not show,
    the pieces covering the buffer). -/
def sout1_B_1 (hc0 : ¬cond1_0 i) (hc1 : ¬cond1_1 i) (x0 x1 x2 : Vec F S5000x128 .f32) (x3 x4 x5 : Vec F S128x128 .f32) (x6 : Vec F S1x128 .f32) (xs0 xs1 : Vec F S1x128 .f32) : Vec F S1x128 .f32 :=
  VS1_1.read (Elt F) (VS1_1.writes (Elt F) VS1_1.junk (kernelRun1_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1)

/-! ### At the last row tile -/

/-- At the last row tile the stores into the row-tile output tile it: every index lies in some piece. -/
theorem cover1_C_7 (hc0 : ¬cond1_0 i) (hc1 : cond1_1 i) (x0 x1 x2 : Vec F S5000x128 .f32) (x3 x4 x5 : Vec F S128x128 .f32) (x6 : Vec F S1x128 .f32) (xs0 xs1 : Vec F S1x128 .f32) (y : S5000x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1 S5000x128.size (by sl_kernel_rfl) y

/-- What the row-tile output holds after the body at the last row tile: the pieces read back (over contents that do not show,
    the pieces covering the buffer). -/
def out1_C_7 (hc0 : ¬cond1_0 i) (hc1 : cond1_1 i) (x0 x1 x2 : Vec F S5000x128 .f32) (x3 x4 x5 : Vec F S128x128 .f32) (x6 : Vec F S1x128 .f32) (xs0 xs1 : Vec F S1x128 .f32) : Vec F S5000x128 .f32 :=
  VO1_7.read (Elt F) (VO1_7.writes (Elt F) VO1_7.junk (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1)

/-- At the last row tile the stores into the column-sum output tile it: every index lies in some piece. -/
theorem cover1_C_8 (hc0 : ¬cond1_0 i) (hc1 : cond1_1 i) (x0 x1 x2 : Vec F S5000x128 .f32) (x3 x4 x5 : Vec F S128x128 .f32) (x6 : Vec F S1x128 .f32) (xs0 xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1 S1x128.size (by sl_kernel_rfl) y

/-- What the column-sum output holds after the body at the last row tile: the pieces read back (over contents that do not show,
    the pieces covering the buffer). -/
def out1_C_8 (hc0 : ¬cond1_0 i) (hc1 : cond1_1 i) (x0 x1 x2 : Vec F S5000x128 .f32) (x3 x4 x5 : Vec F S128x128 .f32) (x6 : Vec F S1x128 .f32) (xs0 xs1 : Vec F S1x128 .f32) : Vec F S1x128 .f32 :=
  VO1_8.read (Elt F) (VO1_8.writes (Elt F) VO1_8.junk (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1)

/-- At the last row tile the stores into the sum-of-squares output tile it: every index lies in some piece. -/
theorem cover1_C_9 (hc0 : ¬cond1_0 i) (hc1 : cond1_1 i) (x0 x1 x2 : Vec F S5000x128 .f32) (x3 x4 x5 : Vec F S128x128 .f32) (x6 : Vec F S1x128 .f32) (xs0 xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1 S1x128.size (by sl_kernel_rfl) y

/-- What the sum-of-squares output holds after the body at the last row tile: the pieces read back (over contents that do not show,
    the pieces covering the buffer). -/
def out1_C_9 (hc0 : ¬cond1_0 i) (hc1 : cond1_1 i) (x0 x1 x2 : Vec F S5000x128 .f32) (x3 x4 x5 : Vec F S128x128 .f32) (x6 : Vec F S1x128 .f32) (xs0 xs1 : Vec F S1x128 .f32) : Vec F S1x128 .f32 :=
  VO1_9.read (Elt F) (VO1_9.writes (Elt F) VO1_9.junk (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1)

/-- At the last row tile the stores into the first accumulator tile it: every index lies in some piece. -/
theorem scover1_C_0 (hc0 : ¬cond1_0 i) (hc1 : cond1_1 i) (x0 x1 x2 : Vec F S5000x128 .f32) (x3 x4 x5 : Vec F S128x128 .f32) (x6 : Vec F S1x128 .f32) (xs0 xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1 S1x128.size (by sl_kernel_rfl) y

/-- What the first accumulator holds after the body at the last row tile: the pieces read back (over contents that do not show,
    the pieces covering the buffer). -/
def sout1_C_0 (hc0 : ¬cond1_0 i) (hc1 : cond1_1 i) (x0 x1 x2 : Vec F S5000x128 .f32) (x3 x4 x5 : Vec F S128x128 .f32) (x6 : Vec F S1x128 .f32) (xs0 xs1 : Vec F S1x128 .f32) : Vec F S1x128 .f32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1)

/-- At the last row tile the stores into the second accumulator tile it: every index lies in some piece. -/
theorem scover1_C_1 (hc0 : ¬cond1_0 i) (hc1 : cond1_1 i) (x0 x1 x2 : Vec F S5000x128 .f32) (x3 x4 x5 : Vec F S128x128 .f32) (x6 : Vec F S1x128 .f32) (xs0 xs1 : Vec F S1x128 .f32) (y : S1x128.Idx) :
    ∃ pc ∈ (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.2.1 S1x128.size (by sl_kernel_rfl) y

/-- What the second accumulator holds after the body at the last row tile: the pieces read back (over contents that do not show,
    the pieces covering the buffer). -/
def sout1_C_1 (hc0 : ¬cond1_0 i) (hc1 : cond1_1 i) (x0 x1 x2 : Vec F S5000x128 .f32) (x3 x4 x5 : Vec F S128x128 .f32) (x6 : Vec F S1x128 .f32) (xs0 xs1 : Vec F S1x128 .f32) : Vec F S1x128 .f32 :=
  VS1_1.read (Elt F) (VS1_1.writes (Elt F) VS1_1.junk (kernelRun1_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.2.1)

end Cases

/-! ## The tiles' input blocks -/

variable (V : Entry F)

/-- Window `w`'s block at tile `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## After each tile -/

/-- What is tracked after a tile: the row-tile output, the two small outputs, the two accumulators. -/
abbrev Outs1 (F : FTy → Type) : Type :=
  Vec F S5000x128 .f32 × Vec F S1x128 .f32 × Vec F S1x128 .f32 × Vec F S1x128 .f32 × Vec F S1x128 .f32

/-- The first tile. The small outputs are not stored into there (nor written back): their entries repeat the
    accumulators' and are never consulted. -/
def pt1_A (c : Dev nD) (t : Fin cfg1.N) (h0 : t.val % 10 = 0) (h1 : ¬t.val % 10 = 9) : Outs1 F :=
  (out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t),
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t),
   sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t),
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t),
   sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t))

/-- A middle tile, over what the tile before left in the accumulators. The small outputs' entries as at the first tile. -/
def pt1_B (c : Dev nD) (t : Fin cfg1.N) (h0 : ¬t.val % 10 = 0) (h1 : ¬t.val % 10 = 9) (xs0 xs1 : Vec F S1x128 .f32) : Outs1 F :=
  (out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) xs0 xs1,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) xs0 xs1,
   sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) xs0 xs1,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) xs0 xs1,
   sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) xs0 xs1)

/-- The last tile, over what the tile before left in the accumulators: here the small outputs are stored into. -/
def pt1_C (c : Dev nD) (t : Fin cfg1.N) (h0 : ¬t.val % 10 = 0) (h1 : t.val % 10 = 9) (xs0 xs1 : Vec F S1x128 .f32) : Outs1 F :=
  (out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) xs0 xs1,
   out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) xs0 xs1,
   out1_C_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) xs0 xs1,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) xs0 xs1,
   sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) xs0 xs1)

/-- A tile after the first is not the first among ten. -/
theorem succ_ne_first1 {n : ℕ} (hn : n + 1 < cfg1.N) : ¬(n + 1) % 10 = 0 := by
  have : n + 1 < 10 := lt_of_lt_of_eq hn (show cfg1.N = 10 from N_1)
  omega

/-- THE ACCUMULATION: what the outputs and the accumulators hold after tile `n`. The first tile clears and adds;
    every later tile adds onto what the tile before left; the last of them also copies out. -/
def outsAt1 (c : Dev nD) : (n : ℕ) → n < cfg1.N → Outs1 F
  | 0, hn => pt1_A V c ⟨0, hn⟩ (Nat.zero_mod _) (by show ¬(0 % 10 = 9); decide)
  | n + 1, hn =>
    if h1 : (n + 1) % 10 = 9 then
      pt1_C V c ⟨n + 1, hn⟩ (succ_ne_first1 hn) h1 (outsAt1 c n (Nat.lt_of_succ_lt hn)).2.2.2.1 (outsAt1 c n (Nat.lt_of_succ_lt hn)).2.2.2.2
    else
      pt1_B V c ⟨n + 1, hn⟩ (succ_ne_first1 hn) h1 (outsAt1 c n (Nat.lt_of_succ_lt hn)).2.2.2.1 (outsAt1 c n (Nat.lt_of_succ_lt hn)).2.2.2.2

/-- The recursion's own two equations at a tile after the first. -/
theorem outsAt1_succ_mid (c : Dev nD) (n : ℕ) (hn : n + 1 < cfg1.N) (h1 : ¬(n + 1) % 10 = 9) :
    outsAt1 V c (n + 1) hn
      = pt1_B V c ⟨n + 1, hn⟩ (succ_ne_first1 hn) h1 (outsAt1 V c n (Nat.lt_of_succ_lt hn)).2.2.2.1 (outsAt1 V c n (Nat.lt_of_succ_lt hn)).2.2.2.2 :=
  (dif_neg h1).trans rfl

theorem outsAt1_succ_last (c : Dev nD) (n : ℕ) (hn : n + 1 < cfg1.N) (h1 : (n + 1) % 10 = 9) :
    outsAt1 V c (n + 1) hn
      = pt1_C V c ⟨n + 1, hn⟩ (succ_ne_first1 hn) h1 (outsAt1 V c n (Nat.lt_of_succ_lt hn)).2.2.2.1 (outsAt1 V c n (Nat.lt_of_succ_lt hn)).2.2.2.2 :=
  (dif_pos h1).trans rfl

/-- The tile before `t` is a tile. -/
theorem pred_lt1 (t : Fin cfg1.N) : t.val - 1 < cfg1.N := Nat.lt_of_le_of_lt (Nat.sub_le _ _) t.isLt

theorem outsAt1_first (c : Dev nD) (t : Fin cfg1.N) (h0 : t.val % 10 = 0) (h1 : ¬t.val % 10 = 9) :
    outsAt1 V c t.val t.isLt = pt1_A V c t h0 h1 := by
  obtain ⟨n, hn⟩ := t
  cases n with
  | zero => exact rfl
  | succ n => exact absurd h0 (succ_ne_first1 hn)

theorem outsAt1_mid (c : Dev nD) (t : Fin cfg1.N) (h0 : ¬t.val % 10 = 0) (h1 : ¬t.val % 10 = 9) :
    outsAt1 V c t.val t.isLt
      = pt1_B V c t h0 h1 (outsAt1 V c (t.val - 1) (pred_lt1 t)).2.2.2.1 (outsAt1 V c (t.val - 1) (pred_lt1 t)).2.2.2.2 := by
  obtain ⟨n, hn⟩ := t
  cases n with
  | zero => exact absurd (Nat.zero_mod _) h0
  | succ n => exact (dif_neg h1).trans rfl

theorem outsAt1_last (c : Dev nD) (t : Fin cfg1.N) (h0 : ¬t.val % 10 = 0) (h1 : t.val % 10 = 9) :
    outsAt1 V c t.val t.isLt
      = pt1_C V c t h0 h1 (outsAt1 V c (t.val - 1) (pred_lt1 t)).2.2.2.1 (outsAt1 V c (t.val - 1) (pred_lt1 t)).2.2.2.2 := by
  obtain ⟨n, hn⟩ := t
  cases n with
  | zero => exact absurd (Nat.zero_mod _) h0
  | succ n => exact (dif_pos h1).trans rfl

/-! ## The invariant -/

/-- A buffer into which a covering list of pieces was written is owned at the pieces read back, whatever it held. -/
theorem owns_of_cover1 {S : Shape} (c : Dev nD) (a : Memref sig .tc .vmem S .f32) (v : View sig .tc .vmem S .f32)
    (L : List (View.Piece (Elt F) S .f32)) (hcov : ∀ y : S.Idx, ∃ pc ∈ L, y ∈ pc.1.set) :
    (iprop(∃ f, a.view.loc (c : Thread nD τ) ↦[a.view.set]{fullShare} a.view.writes (Elt F) f L) : sProp 𝕄)
      ⊢ owns (c : Thread nD τ) a fullShare (v.read (Elt F) (v.writes (Elt F) v.junk L)) := by
  iintro ⟨%f, H⟩
  unfold owns; iexists _; isplitr
  swap
  · iexact H
  ipureintro; exact View.read_writes_of_cover _ _ _ _ _ hcov

/-- The region invariant before tile `n`. Before the first tile it is what the launch hands over: every scoped
    buffer that is no staging buffer at some contents, and the generator register at some state. After tile `n`
    the two accumulators are held at that tile's sums, the other such buffers unopened, the register as before. -/
def Phi1 (c : Dev nD) : (n : ℕ) → n ≤ cfg1.N → sProp 𝕄
  | 0, _ => Pipeline.ΦA (U := UR sig nD τ) (Val := Elt F) spec1 c
  | n + 1, hn => iprop(iprop(owns (c : Thread nD τ) scM1_0 fullShare (outsAt1 V c n hn).2.2.2.1
        ∗ owns (c : Thread nD τ) scM1_1 fullShare (outsAt1 V c n hn).2.2.2.2
        ∗ Pipeline.scopedRestBut (Ix := Unit) (Name := ℕ) (U := UR sig nD τ) (Lvl := ℕ) (Val := Elt F) spec1 c [cc1_scratch0, cc1_scratch1])
      ∗ (∃ r, prngReg c r))

theorem Phi1_zero (c : Dev nD) (n : ℕ) (h : n ≤ cfg1.N) (hz : n = 0) :
    Phi1 V c n h = Pipeline.ΦA (U := UR sig nD τ) (Val := Elt F) spec1 c := by
  subst hz; rfl

theorem Phi1_succ (c : Dev nD) (n : ℕ) (hn : n < cfg1.N) :
    Phi1 V c (n + 1) hn = iprop(iprop(owns (c : Thread nD τ) scM1_0 fullShare (outsAt1 V c n hn).2.2.2.1
        ∗ owns (c : Thread nD τ) scM1_1 fullShare (outsAt1 V c n hn).2.2.2.2
        ∗ Pipeline.scopedRestBut (Ix := Unit) (Name := ℕ) (U := UR sig nD τ) (Lvl := ℕ) (Val := Elt F) spec1 c [cc1_scratch0, cc1_scratch1])
      ∗ (∃ r, prngReg c r)) := rfl

theorem Phi1_pos (c : Dev nD) (n : ℕ) (h : n ≤ cfg1.N) (hz : n ≠ 0) :
    Phi1 V c n h = iprop(iprop(owns (c : Thread nD τ) scM1_0 fullShare (outsAt1 V c (n - 1) (by omega)).2.2.2.1
        ∗ owns (c : Thread nD τ) scM1_1 fullShare (outsAt1 V c (n - 1) (by omega)).2.2.2.2
        ∗ Pipeline.scopedRestBut (Ix := Unit) (Name := ℕ) (U := UR sig nD τ) (Lvl := ℕ) (Val := Elt F) spec1 c [cc1_scratch0, cc1_scratch1])
      ∗ (∃ r, prngReg c r)) := by
  cases n with
  | zero => exact absurd rfl hz
  | succ n => rfl

/-- What the launch hands over, with the two accumulators taken out of the scoped rest as owned memrefs. -/
theorem PhiA1_eq (c : Dev nD) :
    (Pipeline.ΦA (U := UR sig nD τ) (Val := Elt F) spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1])
        ∗ (∃ r, prngReg c r)) := by
  unfold Pipeline.ΦA; rw [scopedRest1_split]; simp only [scM1_0, scM1_1, owns_whole]
  rfl

/-! ## The proof data -/

/-- The region's proof data on core `c`: the arrays as the region finds them; after the body at tile `t` each input's
    buffer at its block, the outputs' at the accumulation's entries; the invariant above; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
    | ⟨8, _⟩ => (outsAt1 V c t.val t.isLt).2.1
    | ⟨9, _⟩ => (outsAt1 V c t.val t.isLt).2.2.1
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem q_eq1 (c : Dev nD) (w : Fin cfg1.W) : (dat1 V c).q w = fullShare := by
  dsimp only [dat1]

theorem owed_eq1 (c : Dev nD) (t : Fin (cfg1.N + 1)) : (dat1 V c).owed t = 0 := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]
theorem after1_8 (c : Dev nD) (t : Fin cfg1.N) : (dat1 V c).after 8 t = (outsAt1 V c t.val t.isLt).2.1 := by dsimp only [dat1]
theorem after1_9 (c : Dev nD) (t : Fin cfg1.N) : (dat1 V c).after 9 t = (outsAt1 V c t.val t.isLt).2.2.1 := by dsimp only [dat1]

/-! ## What each window's buffer holds when the body runs, and what it is left at -/

theorem before1_0 (c : Dev nD) (t : Fin cfg1.N) (d) : (dat1 V c).before 0 t d = iblk1 V c 0 t :=
  ((dat1 V c).before_in_eq_fetched 0 rfl live1_0 (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl live1_1 (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl live1_2 (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl live1_3 (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl live1_4 (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl live1_5 (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl live1_6 (fun _ _ _ => rfl)
    (fun t => by rw [after1_6]; unfold Dat.blockOf iblk1; rw [A_eq1]; try rfl) t d).trans
    (by unfold Dat.fetched Dat.blockOf iblk1; rw [A_eq1]; try rfl)

theorem leaves1_0 (c : Dev nD) (t : Fin cfg1.N) :
    (dat1 V c).leavesExact 0 t = owns (c : Thread nD τ) (ms1_0 t) fullShare ((dat1 V c).after 0 t) := by
  unfold Dat.leavesExact; rw [live1_0]
theorem leaves1_1 (c : Dev nD) (t : Fin cfg1.N) :
    (dat1 V c).leavesExact 1 t = owns (c : Thread nD τ) (ms1_1 t) fullShare ((dat1 V c).after 1 t) := by
  unfold Dat.leavesExact; rw [live1_1]
theorem leaves1_2 (c : Dev nD) (t : Fin cfg1.N) :
    (dat1 V c).leavesExact 2 t = owns (c : Thread nD τ) (ms1_2 t) fullShare ((dat1 V c).after 2 t) := by
  unfold Dat.leavesExact; rw [live1_2]
theorem leaves1_3 (c : Dev nD) (t : Fin cfg1.N) :
    (dat1 V c).leavesExact 3 t = owns (c : Thread nD τ) (ms1_3 t) fullShare ((dat1 V c).after 3 t) := by
  unfold Dat.leavesExact; rw [live1_3]
theorem leaves1_4 (c : Dev nD) (t : Fin cfg1.N) :
    (dat1 V c).leavesExact 4 t = owns (c : Thread nD τ) (ms1_4 t) fullShare ((dat1 V c).after 4 t) := by
  unfold Dat.leavesExact; rw [live1_4]
theorem leaves1_5 (c : Dev nD) (t : Fin cfg1.N) :
    (dat1 V c).leavesExact 5 t = owns (c : Thread nD τ) (ms1_5 t) fullShare ((dat1 V c).after 5 t) := by
  unfold Dat.leavesExact; rw [live1_5]
theorem leaves1_6 (c : Dev nD) (t : Fin cfg1.N) :
    (dat1 V c).leavesExact 6 t = owns (c : Thread nD τ) (ms1_6 t) fullShare ((dat1 V c).after 6 t) := by
  unfold Dat.leavesExact; rw [live1_6]
theorem leaves1_7 (c : Dev nD) (t : Fin cfg1.N) :
    (dat1 V c).leavesExact 7 t = owns (c : Thread nD τ) (ms1_7 t) fullShare ((dat1 V c).after 7 t) := by
  unfold Dat.leavesExact; rw [live1_7]

/-! ## The body obligation -/

/-- What the body is called with at tile `t`: the invariant, what the core owes, the ten windows' current buffers. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t)

set_option maxHeartbeats 4800000 in
/-- The body at any tile. The seven inputs' buffers hold their blocks; the tile's number says which of the three cases
    it is, and that case's run applies. The invariant hands the body the accumulators at what the tile before left
    (at anything, at the first tile) and takes them back at this tile's sums; the small outputs are handed back
    untouched except at the last tile, where they receive the accumulators' final contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = Phi1 V c (t.val + 1) t.isLt from rfl, Phi1_succ]
  rw [leaves1_0, leaves1_1, leaves1_2, leaves1_3, leaves1_4, leaves1_5, leaves1_6, leaves1_7]
  rw [after1_0, after1_1, after1_2, after1_3, after1_4, after1_5, after1_6, after1_7]
  rw [Phi1_castSucc]
  have hN : t.val < 10 := lt_of_lt_of_eq t.isLt (show cfg1.N = 10 from N_1)
  by_cases h0 : t.val % 10 = 0
  · -- the first tile
    have h1 : ¬t.val % 10 = 9 := by omega
    have hz : t.val = 0 := by omega
    rw [Dat.leavesExact_idle (dat1 V c) 8 t (idle1_8 t (fun h => h1 ((hcond1_1 t).mp h))) (noFlush1_8 t (fun h => h1 ((hcond1_1 t).mp h)))]
    rw [Dat.leavesExact_idle (dat1 V c) 9 t (idle1_9 t (fun h => h1 ((hcond1_1 t).mp h))) (noFlush1_9 t (fun h => h1 ((hcond1_1 t).mp h)))]
    rw [outsAt1_first V c t h0 h1]
    unfold pt1_A; dsimp only
    unfold out1_A_7 sout1_A_0 sout1_A_1
    rw [Phi1_zero V c _ _ hz, PhiA1_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2.2
      ((dat1 V c).before 8 t d8) ((dat1 V c).before 9 t d9) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [HS0]; · iexact HS0
    isplitl [HS1]; · iexact HS1
    iintro ⟨H0, H1, H2, H3, H4, H5, H6, H7, H8, H9, HS0, HS1⟩
    isplitl [HS0 HS1 Hrest Hg]
    · isplitr [Hg]
      · isplitl [HS0]
        · iapply (owns_of_cover1 (F := F) c scM1_0 VS1_0 _ (scover1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t))); iexact HS0
        isplitl [HS1]
        · iapply (owns_of_cover1 (F := F) c scM1_1 VS1_1 _ (scover1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t))); iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iapply (owns_of_cover1 (F := F) c (ms1_7 t) VO1_7 _ (cover1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t))); iexact H7
    isplitl [H8]; · iexists _; iexact H8
    iexists _; iexact H9
  · by_cases h1 : t.val % 10 = 9
    · -- the last tile
      have hz : t.val ≠ 0 := by omega
      rw [show (dat1 V c).leavesExact 8 t = owns (c : Thread nD τ) (ms1_8 t) fullShare ((dat1 V c).after 8 t) from by
        unfold Dat.leavesExact; rw [liveLast1_8 t ((hcond1_1 t).mpr h1)], after1_8]
      rw [show (dat1 V c).leavesExact 9 t = owns (c : Thread nD τ) (ms1_9 t) fullShare ((dat1 V c).after 9 t) from by
        unfold Dat.leavesExact; rw [liveLast1_9 t ((hcond1_1 t).mpr h1)], after1_9]
      rw [outsAt1_last V c t h0 h1]
      unfold pt1_C; dsimp only
      unfold out1_C_7 out1_C_8 out1_C_9 sout1_C_0 sout1_C_1
      rw [Phi1_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (pred_lt1 t)).2.2.2.1 (outsAt1 V c (t.val - 1) (pred_lt1 t)).2.2.2.2).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 Hrest Hg]
      · isplitr [Hg]
        · isplitl [HS0]
          · iapply (owns_of_cover1 (F := F) c scM1_0 VS1_0 _ (scover1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (pred_lt1 t)).2.2.2.1 (outsAt1 V c (t.val - 1) (pred_lt1 t)).2.2.2.2)); iexact HS0
          isplitl [HS1]
          · iapply (owns_of_cover1 (F := F) c scM1_1 VS1_1 _ (scover1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (pred_lt1 t)).2.2.2.1 (outsAt1 V c (t.val - 1) (pred_lt1 t)).2.2.2.2)); iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · iapply (owns_of_cover1 (F := F) c (ms1_7 t) VO1_7 _ (cover1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (pred_lt1 t)).2.2.2.1 (outsAt1 V c (t.val - 1) (pred_lt1 t)).2.2.2.2)); iexact H7
      isplitl [H8]
      · iapply (owns_of_cover1 (F := F) c (ms1_8 t) VO1_8 _ (cover1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (pred_lt1 t)).2.2.2.1 (outsAt1 V c (t.val - 1) (pred_lt1 t)).2.2.2.2)); iexact H8
      iapply (owns_of_cover1 (F := F) c (ms1_9 t) VO1_9 _ (cover1_C_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (pred_lt1 t)).2.2.2.1 (outsAt1 V c (t.val - 1) (pred_lt1 t)).2.2.2.2)); iexact H9
    · -- a middle tile
      have hz : t.val ≠ 0 := by omega
      rw [Dat.leavesExact_idle (dat1 V c) 8 t (idle1_8 t (fun h => h1 ((hcond1_1 t).mp h))) (noFlush1_8 t (fun h => h1 ((hcond1_1 t).mp h)))]
      rw [Dat.leavesExact_idle (dat1 V c) 9 t (idle1_9 t (fun h => h1 ((hcond1_1 t).mp h))) (noFlush1_9 t (fun h => h1 ((hcond1_1 t).mp h)))]
      rw [outsAt1_mid V c t h0 h1]
      unfold pt1_B; dsimp only
      unfold out1_B_7 sout1_B_0 sout1_B_1
      rw [Phi1_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (pred_lt1 t)).2.2.2.1 (outsAt1 V c (t.val - 1) (pred_lt1 t)).2.2.2.2).2.2.2
        ((dat1 V c).before 8 t d8) ((dat1 V c).before 9 t d9) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexact HS0
      isplitl [HS1]; · iexact HS1
      iintro ⟨H0, H1, H2, H3, H4, H5, H6, H7, H8, H9, HS0, HS1⟩
      isplitl [HS0 HS1 Hrest Hg]
      · isplitr [Hg]
        · isplitl [HS0]
          · iapply (owns_of_cover1 (F := F) c scM1_0 VS1_0 _ (scover1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (pred_lt1 t)).2.2.2.1 (outsAt1 V c (t.val - 1) (pred_lt1 t)).2.2.2.2)); iexact HS0
          isplitl [HS1]
          · iapply (owns_of_cover1 (F := F) c scM1_1 VS1_1 _ (scover1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (pred_lt1 t)).2.2.2.1 (outsAt1 V c (t.val - 1) (pred_lt1 t)).2.2.2.2)); iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · iapply (owns_of_cover1 (F := F) c (ms1_7 t) VO1_7 _ (cover1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (pred_lt1 t)).2.2.2.1 (outsAt1 V c (t.val - 1) (pred_lt1 t)).2.2.2.2)); iexact H7
      isplitl [H8]; · iexists _; iexact H8
      iexists _; iexact H9

/-- The library's body obligation, at every tile. -/
theorem body_obligation1 (c : Dev nD) : BodyObligation (dat1 (F := F) V c) (defs₀ (F := F)) Variants.none () Set.univ := fun t => by
  rw [bigSep_W1, bigSep_W1]
  exact sound_body1 V c t

/-! ## The two ends of the invariant -/

/-- What the launch hands the region is the invariant before the first tile. -/
theorem Phi_in1 (c : Dev nD) : (Pipeline.ΦA (U := UR sig nD τ) (Val := Elt F) spec1 c : sProp 𝕄) ⊢ (dat1 V c).Φ 0 := by
  rw [show (dat1 V c).Φ 0 = Phi1 V c 0 (Nat.zero_le _) from rfl, Phi1_zero V c 0 _ rfl]

/-- After the last tile the invariant gives it back: the accumulators' named contents are forgotten. -/
theorem Phi_out1 (c : Dev nD) : (dat1 V c).Φ (Fin.last cfg1.N) ⊢ (Pipeline.ΦA (U := UR sig nD τ) (Val := Elt F) spec1 c : sProp 𝕄) := by
  have hne : (Fin.last cfg1.N).val ≠ 0 := by rw [Fin.val_last]; have : cfg1.N = 10 := N_1; omega
  rw [show (dat1 V c).Φ (Fin.last cfg1.N) = Phi1 V c (Fin.last cfg1.N).val (Nat.le_of_lt_succ (Fin.last cfg1.N).isLt) from rfl,
    Phi1_pos V c _ _ hne, PhiA1_eq]
  iintro ⟨⟨HS0, HS1, Hrest⟩, Hg⟩
  isplitl [HS0 HS1 Hrest]
  · isplitl [HS0 HS1]
    · isplitl [HS0]
      · iexists _; iexact HS0
      iexists _; iexact HS1
    iexact Hrest
  iexact Hg

end Cert.KernelIdeal.Hand

end
-- ==== Proof.KI.Reg2.lean ====
import proofs.«160050_j32744830665390_2_alg».proof.Proof.KI.Iface
import Idealize.ShloMosaic.Lib.ValueLayout

/-! # Region 2: normalise a row tile by the layer statistics, scale, shift, clamp at zero

The region walks the node axis in ten row tiles of 5000 rows. At each tile it is handed the tile of the
pre-normalisation activations and the four per-feature rows (mean, variance, scale, shift), and stores into the
output tile `max ((x - mean) * rsqrt (variance + ε) * scale + shift, 0)`, feature by feature. The four rows are
staged once, at the first tile, and found again unchanged at the later ones; the activations' tile is staged anew
at every tile; the output tile is written back at every tile.

First the frame half at a parameter `V` (the core's buffer contents when the region is entered): the blocks, what
the body leaves, the body's triple, the proof data and the body obligation. Then the value half: the output array
after the ten write-backs as one function of the five input arrays, row by row and feature by feature. -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : Entry F)

/-! ## The blocks the pipeline stages -/

/-- The block of window `w` at tile `t`: the window's rectangle at that tile, read off the window's array as the
    region finds it. For the activations and the output this is rows `5000 t … 5000 t + 4999`; for the four
    statistics rows it is the whole row at every tile. -/
def iblk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-! ## Each input window holds its block whenever the body is called

An input window of region 2 holds its block at every tile, staged at this tile or at an earlier one: a window not
staged anew has not moved (the statistics rows' block index is constant), so what an earlier tile left there, the
body having left it alone, is this tile's block. Stated for any proof data over `V`'s arrays whose body leaves the
window's block in place. -/

/-- The activations' tile, staged anew at every tile. -/
theorem held2_0_of {c : Dev nD} (dat : Dat τ (Elt F) Unit ℕ (UR sig nD τ) ℕ cfg2 c)
    (hA : dat.A 0 = V c (Pipeline.arrRef spec2 0)) (hafter : ∀ t, dat.after 0 t = iblk2 V c 0 t)
    (t : Fin cfg2.N) (d) : dat.before 0 t d = iblk2 V c 0 t := by
  refine (dat.before_in_eq_fetched 0 rfl (fun _ => rfl) (fun _ _ _ => rfl) (fun u => ?_) t d).trans ?_
  · rw [hafter]; unfold Dat.blockOf iblk2; rw [hA]; try rfl
  · unfold Dat.fetched Dat.blockOf iblk2; rw [hA]; try rfl

/-- The mean row, staged at the first tile only. -/
theorem held2_1_of {c : Dev nD} (dat : Dat τ (Elt F) Unit ℕ (UR sig nD τ) ℕ cfg2 c)
    (hA : dat.A 1 = V c (Pipeline.arrRef spec2 1)) (hafter : ∀ t, dat.after 1 t = iblk2 V c 1 t)
    (t : Fin cfg2.N) (d) : dat.before 1 t d = iblk2 V c 1 t := by
  refine (dat.before_in_eq_fetched 1 rfl (fun _ => rfl) (fun _ _ _ => rfl) (fun u => ?_) t d).trans ?_
  · rw [hafter]; unfold Dat.blockOf iblk2; rw [hA]; try rfl
  · unfold Dat.fetched Dat.blockOf iblk2; rw [hA]; try rfl

/-- The variance row, staged at the first tile only. -/
theorem held2_2_of {c : Dev nD} (dat : Dat τ (Elt F) Unit ℕ (UR sig nD τ) ℕ cfg2 c)
    (hA : dat.A 2 = V c (Pipeline.arrRef spec2 2)) (hafter : ∀ t, dat.after 2 t = iblk2 V c 2 t)
    (t : Fin cfg2.N) (d) : dat.before 2 t d = iblk2 V c 2 t := by
  refine (dat.before_in_eq_fetched 2 rfl (fun _ => rfl) (fun _ _ _ => rfl) (fun u => ?_) t d).trans ?_
  · rw [hafter]; unfold Dat.blockOf iblk2; rw [hA]; try rfl
  · unfold Dat.fetched Dat.blockOf iblk2; rw [hA]; try rfl

/-- The scale row, staged at the first tile only. -/
theorem held2_3_of {c : Dev nD} (dat : Dat τ (Elt F) Unit ℕ (UR sig nD τ) ℕ cfg2 c)
    (hA : dat.A 3 = V c (Pipeline.arrRef spec2 3)) (hafter : ∀ t, dat.after 3 t = iblk2 V c 3 t)
    (t : Fin cfg2.N) (d) : dat.before 3 t d = iblk2 V c 3 t := by
  refine (dat.before_in_eq_fetched 3 rfl (fun _ => rfl) (fun _ _ _ => rfl) (fun u => ?_) t d).trans ?_
  · rw [hafter]; unfold Dat.blockOf iblk2; rw [hA]; try rfl
  · unfold Dat.fetched Dat.blockOf iblk2; rw [hA]; try rfl

/-- The shift row, staged at the first tile only. -/
theorem held2_4_of {c : Dev nD} (dat : Dat τ (Elt F) Unit ℕ (UR sig nD τ) ℕ cfg2 c)
    (hA : dat.A 4 = V c (Pipeline.arrRef spec2 4)) (hafter : ∀ t, dat.after 4 t = iblk2 V c 4 t)
    (t : Fin cfg2.N) (d) : dat.before 4 t d = iblk2 V c 4 t := by
  refine (dat.before_in_eq_fetched 4 rfl (fun _ => rfl) (fun _ _ _ => rfl) (fun u => ?_) t d).trans ?_
  · rw [hafter]; unfold Dat.blockOf iblk2; rw [hA]; try rfl
  · unfold Dat.fetched Dat.blockOf iblk2; rw [hA]; try rfl

/-! ## The body's accesses and what it leaves in the output tile -/

/-- The whole 5000 × 128 tile: the one rectangle through which the body loads the activations and stores the
    result. -/
abbrev tile2 : Rect S5000x128 := Rect.unit (s := S5000x128) ![0, 0] S5000x128.size inb_S5000x128_S5000x128_0_0

/-- The whole 1 × 128 row: the rectangle through which the body loads each of the four statistics rows. -/
abbrev row2 : Rect S1x128 := Rect.unit (s := S1x128) ![0, 0] S1x128.size inb_S1x128_S1x128_0_0

/-- The output tile after the body, from the five input blocks: the body's single store, through the whole-tile
    rectangle, of the normalised, scaled, shifted and clamped activations (the skeleton's payload of the five
    loads). -/
def out2_5 (x : Vec F S5000x128 .f32) (mean var scale shift : Vec F S1x128 .f32) : Vec F S5000x128 .f32 :=
  View.canon [⟨tile2, k2_pay1 (View.ld x tile2) (View.ld mean row2) (View.ld var row2) (View.ld scale row2)
    (View.ld shift row2)⟩]

/-- That one store reaches every element of the tile. -/
theorem cover2_5 (p : Vec F S5000x128 .f32) (y : S5000x128.Idx) :
    ∃ pc ∈ ([⟨tile2, p⟩] : List (View.Piece (Elt F) S5000x128 .f32)), y ∈ pc.1.set :=
  View.cover_of_tiled [⟨tile2, p⟩] S5000x128.size (by rfl) y

/-! ## The body's triple -/

set_option maxHeartbeats 1000000 in
/-- The body on six whole staging memrefs — the five inputs at contents `x`, `mean`, `var`, `scale`, `shift`, the
    output at anything — runs to a state where the inputs are as they were and the output holds `out2_5` of them.
    (The body also loads the output tile before storing into it; the loaded value is not used.) -/
theorem sound_kernel2 (c : Dev nD) (E : Set ℕ) (i : grid2.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x : Vec F S5000x128 .f32) (mean var scale shift : Vec F S1x128 .f32) (K : PUnit → sProp 𝕄) :
    iprop(owns (c : Thread nD τ) arg1 fullShare x ∗ owns (c : Thread nD τ) arg2 fullShare mean
        ∗ owns (c : Thread nD τ) arg3 fullShare var ∗ owns (c : Thread nD τ) arg4 fullShare scale
        ∗ owns (c : Thread nD τ) arg5 fullShare shift ∗ (∃ d, owns (c : Thread nD τ) arg6 fullShare d)
        ∗ (iprop(owns (c : Thread nD τ) arg1 fullShare x ∗ owns (c : Thread nD τ) arg2 fullShare mean
            ∗ owns (c : Thread nD τ) arg3 fullShare var ∗ owns (c : Thread nD τ) arg4 fullShare scale
            ∗ owns (c : Thread nD τ) arg5 fullShare shift
            ∗ owns (c : Thread nD τ) arg6 fullShare (out2_5 x mean var scale shift)) -∗ K ⟨⟩))
      ⊢ wp frame (wpE (defs₀ (F := F)) Variants.none c none) E
          (cc2_bn_relu_kernel i arg1 harg1 arg2 harg2 arg3 harg3 arg4 harg4 arg5 harg5 arg6 harg6) K := by
  simp only [cc2_bn_relu_kernel_eq_skeleton]; unfold cc2_bn_relu_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_5 _)

/-! ## The proof data -/

/-- Region 2's proof data on core `c`: the six arrays as the region finds them; after the body at tile `t` each
    input's buffer still at its block and the output's at `out2_5` of the five input blocks; the invariant is the
    untouched rest of the core (scoped buffers, generator register); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- Its arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t
    = out2_5 (iblk2 V c 0 t) (iblk2 V c 1 t) (iblk2 V c 2 t) (iblk2 V c 3 t) (iblk2 V c 4 t) := by
  dsimp only [dat2]

/-- Each input's current buffer holds its block at every tile. -/
theorem before2_0 (c : Dev nD) (t : Fin cfg2.N) (d) : (dat2 V c).before 0 t d = iblk2 V c 0 t :=
  held2_0_of V (dat2 V c) (A_eq2 V c 0) (after2_0 V c) t d
theorem before2_1 (c : Dev nD) (t : Fin cfg2.N) (d) : (dat2 V c).before 1 t d = iblk2 V c 1 t :=
  held2_1_of V (dat2 V c) (A_eq2 V c 1) (after2_1 V c) t d
theorem before2_2 (c : Dev nD) (t : Fin cfg2.N) (d) : (dat2 V c).before 2 t d = iblk2 V c 2 t :=
  held2_2_of V (dat2 V c) (A_eq2 V c 2) (after2_2 V c) t d
theorem before2_3 (c : Dev nD) (t : Fin cfg2.N) (d) : (dat2 V c).before 3 t d = iblk2 V c 3 t :=
  held2_3_of V (dat2 V c) (A_eq2 V c 3) (after2_3 V c) t d
theorem before2_4 (c : Dev nD) (t : Fin cfg2.N) (d) : (dat2 V c).before 4 t d = iblk2 V c 4 t :=
  held2_4_of V (dat2 V c) (A_eq2 V c 4) (after2_4 V c) t d

/-- Full shares of every array. -/
theorem q_eq2 (c : Dev nD) (w : Fin cfg2.W) : (dat2 V c).q w = fullShare := by dsimp only [dat2]

/-- The core owes nothing at any tile. -/
theorem owed_eq2 (c : Dev nD) (t : Fin (cfg2.N + 1)) : (dat2 V c).owed t = 0 := by dsimp only [dat2]

/-- The invariant is the untouched rest of the core at every tile: what the region is entered with is the invariant
    before the first tile, -/
theorem Phi_in2 (c : Dev nD) :
    (Pipeline.ΦA (U := UR sig nD τ) (Val := Elt F) spec2 c : sProp 𝕄) ⊢ (dat2 V c).Φ 0 := .rfl

/-- and the invariant after the last tile is what the region gives back. -/
theorem Phi_out2 (c : Dev nD) :
    (dat2 V c).Φ (Fin.last cfg2.N) ⊢ (Pipeline.ΦA (U := UR sig nD τ) (Val := Elt F) spec2 c : sProp 𝕄) := .rfl

/-! ## The body obligation -/

/-- What the body is called with at tile `t`: the invariant, the core's dues, and the six current staging buffers,
    each at what the pipeline put or left there. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- What it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any tile: the five inputs hold their blocks, so the body's triple applies; the invariant and the
    dues pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t)
    (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for region 2, at every tile. -/
theorem body_obligation2 (c : Dev nD) :
    BodyObligation (dat2 (F := F) V c) (defs₀ (F := F)) Variants.none () Set.univ := fun t => by
  rw [bigSep_W2, bigSep_W2]
  exact sound_body2 V c t

/-! # The value half: the output array after the region -/

open Idealize.ShloMosaic.ValueIdx

/-! ## One activation through the layer -/

/-- One activation through the layer: centre by the mean, scale by the reciprocal square root of the variance
    plus ε (the f32 word `0x3727C5AC`, about 1e-5), multiply by the learnt scale, add the learnt shift, clamp
    below at zero. -/
def bnRelu246 (x mean var scale shift : Elt F .f32) : Elt F .f32 :=
  FloatOps.maximumf
    (FloatOps.addf
      (FloatOps.mulf
        (FloatOps.mulf (FloatOps.subf x mean)
          (FloatOps.rsqrt (FloatOps.addf var (Scalar.ofBits .f32 0x3727C5AC#32))))
        scale)
      shift)
    (Scalar.ofBits .f32 0x00000000#32)

/-- The entry of a 1 × 128 statistics row that belongs to the feature (column) of the array index `i`. -/
abbrev featOf246 (i : S50000x128.Idx) : S1x128.Idx := ix2 (0 : Fin 1) (⟨(i 1).val, idx2_lt1 i⟩ : Fin 128)

/-- All offsets of a whole-tile or whole-row rectangle are zero. -/
theorem zeroOff246 : (![0, 0] : Fin 2 → Nat) = fun _ => 0 := funext fun a => by fin_cases a <;> rfl

/-! ## The output array as one function of the input arrays -/

/-- What the output array holds after the region: every activation through `bnRelu246` with its own feature's
    mean, variance, scale and shift. -/
def G2_5 (a : S50000x128.Idx → Elt F .f32) (mean var scale shift : S1x128.Idx → Elt F .f32) :
    S50000x128.Idx → Elt F .f32 :=
  fun i => bnRelu246 (a i) (mean (featOf246 i)) (var (featOf246 i)) (scale (featOf246 i)) (shift (featOf246 i))

/-- The body's payload at row `p`, feature `q` of the tile: the layout casts are identities, each broadcast of a
    statistics row reads the row at `q`, and the arithmetic is pointwise. -/
theorem pay2_at (x : Vec F S5000x128 .f32) (mean var scale shift : Vec F S1x128 .f32) (p : Fin 5000) (q : Fin 128) :
    k2_pay1 x mean var scale shift (ix2 p q)
      = bnRelu246 (x (ix2 p q)) (mean (ix2 (0 : Fin 1) q)) (var (ix2 (0 : Fin 1) q)) (scale (ix2 (0 : Fin 1) q))
          (shift (ix2 (0 : Fin 1) q)) := by
  unfold k2_pay1 bnRelu246
  simp only [shapeCast_self]
  show FloatOps.maximumf
      (FloatOps.addf
        (FloatOps.mulf
          (FloatOps.mulf
            (FloatOps.subf (x (ix2 p q)) (broadcastTo S5000x128 mean broadcasts_S1x128_S5000x128 (ix2 p q)))
            (broadcastTo S5000x128 (rsqrt (addf var (broadcast S1x128 (Scalar.ofBits .f32 0x3727C5AC#32))))
              broadcasts_S1x128_S5000x128 (ix2 p q)))
          (broadcastTo S5000x128 scale broadcasts_S1x128_S5000x128 (ix2 p q)))
        (broadcastTo S5000x128 shift broadcasts_S1x128_S5000x128 (ix2 p q)))
      (Scalar.ofBits .f32 0x00000000#32) = _
  rw [broadcastTo_1b_ab_apply mean, broadcastTo_1b_ab_apply scale, broadcastTo_1b_ab_apply shift,
    broadcastTo_1b_ab_apply (rsqrt (addf var (broadcast S1x128 (Scalar.ofBits .f32 0x3727C5AC#32))))]
  rfl

/-- The printed index maps over the ten tiles: the activations' block moves with the output's along the rows, no
    block moves along the features, and the statistics rows' blocks never move. -/
theorem idx_facts2 : ∀ t : Fin cfg2.N,
    win2_0.index t (0 : Fin 2) = win2_5.index t (0 : Fin 2) ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Every row tile is some point's output block. -/
theorem idx_onto2 : ∀ r : Fin 10, ∃ t : Fin cfg2.N, win2_5.index t = ![r.val, 0] :=
  (by decide +kernel : ∀ r : Fin 10, ∃ t : Fin grid2.N, win2_5.index t = ![r.val, 0])

/-- WHAT TILE `t` WRITES BACK is block `t` of `G2_5` of the five input arrays as the region finds them. -/
theorem flushed2_5_eq (c : Dev nD) (t : Fin cfg2.N) :
    (dat2 V c).flushed 5 t = ((cfg2.win 5).blk t).view.read (Elt F)
      (G2_5 (V c main_v75_0) (V c main_v88) (V c main_v89) (V c main_v90) (V c main_v91)) := by
  show (cfg2.win 5).cut (grid2.coords t) ((dat2 V c).after 5 t) = _
  rw [after2_5]
  unfold out2_5
  rw [View.canon_unit_zero zeroOff246]
  simp only [View.ld_unit_zero (S := S5000x128) zeroOff246, View.ld_unit_zero (S := S1x128) zeroOff246]
  obtain ⟨e0, e1, e2, e3, m0, m1, v0, v1, s0, s1, b0, b1⟩ := idx_facts2 t
  funext j
  obtain ⟨p, q, rfl⟩ : ∃ (p : Fin 5000) (q : Fin 128), j = ix2 p q := ⟨j 0, j 1, eq_ix2 j⟩
  show k2_pay1 (iblk2 V c 0 t) (iblk2 V c 1 t) (iblk2 V c 2 t) (iblk2 V c 3 t) (iblk2 V c 4 t) (ix2 p q)
    = G2_5 (V c main_v75_0) (V c main_v88) (V c main_v89) (V c main_v90) (V c main_v91)
        (((cfg2.win 5).blk t).view.emb (ix2 p q))
  rw [pay2_at]
  unfold G2_5
  have hx : iblk2 V c 0 t (ix2 p q) = V c main_v75_0 (((cfg2.win 5).blk t).view.emb (ix2 p q)) := by
    show V c main_v75_0 (((cfg2.win 0).blk t).view.emb (ix2 p q)) = _
    refine congrArg (V c main_v75_0) (funext fun a => Fin.ext ?_)
    match a with
    | ⟨0, _⟩ =>
      show win2_0.index t (0 : Fin 2) * 5000 + 1 * p.val = win2_5.index t (0 : Fin 2) * 5000 + 1 * p.val
      omega
    | ⟨1, _⟩ =>
      show win2_0.index t (1 : Fin 2) * 128 + 1 * q.val = win2_5.index t (1 : Fin 2) * 128 + 1 * q.val
      omega
  have hmean : iblk2 V c 1 t (ix2 (0 : Fin 1) q)
      = V c main_v88 (featOf246 (((cfg2.win 5).blk t).view.emb (ix2 p q))) := by
    show V c main_v88 (((cfg2.win 1).blk t).view.emb (ix2 (0 : Fin 1) q)) = _
    refine congrArg (V c main_v88) (funext fun a => Fin.ext ?_)
    match a with
    | ⟨0, _⟩ => show win2_1.index t (0 : Fin 2) * 1 + 1 * 0 = 0; omega
    | ⟨1, _⟩ =>
      show win2_1.index t (1 : Fin 2) * 128 + 1 * q.val = win2_5.index t (1 : Fin 2) * 128 + 1 * q.val
      omega
  have hvar : iblk2 V c 2 t (ix2 (0 : Fin 1) q)
      = V c main_v89 (featOf246 (((cfg2.win 5).blk t).view.emb (ix2 p q))) := by
    show V c main_v89 (((cfg2.win 2).blk t).view.emb (ix2 (0 : Fin 1) q)) = _
    refine congrArg (V c main_v89) (funext fun a => Fin.ext ?_)
    match a with
    | ⟨0, _⟩ => show win2_2.index t (0 : Fin 2) * 1 + 1 * 0 = 0; omega
    | ⟨1, _⟩ =>
      show win2_2.index t (1 : Fin 2) * 128 + 1 * q.val = win2_5.index t (1 : Fin 2) * 128 + 1 * q.val
      omega
  have hscale : iblk2 V c 3 t (ix2 (0 : Fin 1) q)
      = V c main_v90 (featOf246 (((cfg2.win 5).blk t).view.emb (ix2 p q))) := by
    show V c main_v90 (((cfg2.win 3).blk t).view.emb (ix2 (0 : Fin 1) q)) = _
    refine congrArg (V c main_v90) (funext fun a => Fin.ext ?_)
    match a with
    | ⟨0, _⟩ => show win2_3.index t (0 : Fin 2) * 1 + 1 * 0 = 0; omega
    | ⟨1, _⟩ =>
      show win2_3.index t (1 : Fin 2) * 128 + 1 * q.val = win2_5.index t (1 : Fin 2) * 128 + 1 * q.val
      omega
  have hshift : iblk2 V c 4 t (ix2 (0 : Fin 1) q)
      = V c main_v91 (featOf246 (((cfg2.win 5).blk t).view.emb (ix2 p q))) := by
    show V c main_v91 (((cfg2.win 4).blk t).view.emb (ix2 (0 : Fin 1) q)) = _
    refine congrArg (V c main_v91) (funext fun a => Fin.ext ?_)
    match a with
    | ⟨0, _⟩ => show win2_4.index t (0 : Fin 2) * 1 + 1 * 0 = 0; omega
    | ⟨1, _⟩ =>
      show win2_4.index t (1 : Fin 2) * 128 + 1 * q.val = win2_5.index t (1 : Fin 2) * 128 + 1 * q.val
      omega
  rw [hx, hmean, hvar, hscale, hshift]

/-- An index of the output array lies in tile `t`'s block iff each coordinate lies in the block's range on its
    axis. -/
theorem mem_blk2_5 (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v92).slice (win2_5.rect t)).set ↔ _
  rw [View.set_slice_whole, Rect.mem_set_unit]
  exact Iff.rfl

/-- The ten row tiles cover the output array: row `r` lies in tile `r / 5000`, which is written back. -/
theorem covered2_5 (i : S50000x128.Idx) :
    ∃ t : Fin cfg2.N, (cfg2.win 5).flush t = true ∧ i ∈ ((cfg2.win 5).blk t).view.set := by
  have hi0 : (i 0).val < 50000 := idx2_lt0 i
  have hi1 : (i 1).val < 128 := idx2_lt1 i
  obtain ⟨t, ht⟩ := idx_onto2 ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk2_5]
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 128 ≤ (i 1).val ∧ (i 1).val < win2_5.index t (1 : Fin 2) * 128 + 128
    omega

/-- THE OUTPUT ARRAY after the region: `G2_5` of the five input arrays as the region finds them, everywhere. -/
theorem final2_5 (c : Dev nD) : (dat2 V c).arrAt 5 cfg2.N
    = G2_5 (V c main_v75_0) (V c main_v88) (V c main_v89) (V c main_v90) (V c main_v91) :=
  (dat2 V c).arrAt_eq_of_cover 5 _ (fun t _ => flushed2_5_eq V c t) covered2_5

end Region2

end Cert.KernelIdeal.Hand

end
-- ==== Proof.KI.Reg3.Runs.lean ====
/- Region 3 (the Chebyshev affine layer with column statistics), what its three control cases share:
   the two branch conditions of the body as propositions over the grid coordinates, decided over the ten
   points in closed form; where the two small output windows are idle and where they are written back;
   the memrefs the body is called with at a point. -/
import proofs.«160050_j32744830665390_2_alg».proof.Proof.KI.Iface

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- "This is the first row tile": the accumulators are cleared under it. The scalar chain the body computes from
    the grid coordinate, compared with 1. -/
abbrev cond3_0 (i : grid3.Coords) : Prop :=
  (Scalar.cmpi .ne (Scalar.extui (Scalar.cmpi .eq (BitVec.ofNat 32 (i 0).val) 0#32)) 0#32) = 1#1

/-- "This is the last row tile": the accumulators are copied to the two small outputs under it. -/
abbrev cond3_1 (i : grid3.Coords) : Prop := k3_cond2 i = 1#1

/-- The first condition holds exactly at point 0 of the ten. -/
theorem hcond3_0 : ∀ t : Fin cfg3.N, cond3_0 (grid3.coords t) ↔ t.val % 10 = 0 :=
  (by decide +kernel : ∀ t : Fin grid3.N, cond3_0 (grid3.coords t) ↔ t.val % 10 = 0)

/-- The second holds exactly at point 9. -/
theorem hcond3_1 : ∀ t : Fin cfg3.N, cond3_1 (grid3.coords t) ↔ t.val % 10 = 9 :=
  (by decide +kernel : ∀ t : Fin grid3.N, cond3_1 (grid3.coords t) ↔ t.val % 10 = 9)

/-! ## Idle and live points of the windows -/

/-- The seven inputs and the row-tile output are live at every point. -/
theorem live3_0 : ∀ i : grid3.Coords, cfg3.idle 0 i = false := fun _ => rfl
theorem live3_1 : ∀ i : grid3.Coords, cfg3.idle 1 i = false := fun _ => rfl
theorem live3_2 : ∀ i : grid3.Coords, cfg3.idle 2 i = false := fun _ => rfl
theorem live3_3 : ∀ i : grid3.Coords, cfg3.idle 3 i = false := fun _ => rfl
theorem live3_4 : ∀ i : grid3.Coords, cfg3.idle 4 i = false := fun _ => rfl
theorem live3_5 : ∀ i : grid3.Coords, cfg3.idle 5 i = false := fun _ => rfl
theorem live3_6 : ∀ i : grid3.Coords, cfg3.idle 6 i = false := fun _ => rfl
theorem live3_7 : ∀ i : grid3.Coords, cfg3.idle 7 i = false := fun _ => rfl

/-- Away from the last point the two small outputs are idle and not written back; at the last point they are live. -/
theorem idle3_8 : ∀ t : Fin cfg3.N, ¬cond3_1 (grid3.coords t) → cfg3.idle 8 (grid3.coords t) = true := by decide +kernel
theorem idle3_9 : ∀ t : Fin cfg3.N, ¬cond3_1 (grid3.coords t) → cfg3.idle 9 (grid3.coords t) = true := by decide +kernel
theorem noFlush3_8 : ∀ t : Fin cfg3.N, ¬cond3_1 (grid3.coords t) → (cfg3.win 8).flush t = false := by decide +kernel
theorem noFlush3_9 : ∀ t : Fin cfg3.N, ¬cond3_1 (grid3.coords t) → (cfg3.win 9).flush t = false := by decide +kernel
theorem liveLast3_8 : ∀ t : Fin cfg3.N, cond3_1 (grid3.coords t) → cfg3.idle 8 (grid3.coords t) = false := by decide +kernel
theorem liveLast3_9 : ∀ t : Fin cfg3.N, cond3_1 (grid3.coords t) → cfg3.idle 9 (grid3.coords t) = false := by decide +kernel

/-! ## The memrefs of a point -/

/-- Window `w`'s current staging memref at point `t`, spelled as the body is called with it, and its wholeness. -/
abbrev ms3_0 (t : Fin cfg3.N) : Memref sig .tc .vmem S5000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S5000x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S5000x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S128x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S128x128 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S128x128 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1x128 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S5000x128 .f32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S1x128 .f32 := win3_8.stage (cfg3.slots t 8)
abbrev hs3_8 (t : Fin cfg3.N) : (ms3_8 t).IsWhole := hstage3_8 ((cfg3.slots t 8).cast nbuf3_8)
abbrev ms3_9 (t : Fin cfg3.N) : Memref sig .tc .vmem S1x128 .f32 := win3_9.stage (cfg3.slots t 9)
abbrev hs3_9 (t : Fin cfg3.N) : (ms3_9 t).IsWhole := hstage3_9 ((cfg3.slots t 9).cast nbuf3_9)

/-- The two accumulators: whole scoped buffers of the kernel's own, passed after the windows. -/
abbrev scM3_0 : Memref sig .tc .vmem S1x128 .f32 := Memref.whole cc3_scratch0
abbrev scM3_1 : Memref sig .tc .vmem S1x128 .f32 := Memref.whole cc3_scratch1

/-- Views through which the contents of the written buffers are stated (which staging buffer of a window is taken
    does not matter: the pieces cover it). -/
abbrev VO3_7 : View sig .tc .vmem S5000x128 .f32 := (Memref.whole cc3_stg7_0 : Memref sig .tc .vmem S5000x128 .f32).view
abbrev VO3_8 : View sig .tc .vmem S1x128 .f32 := (Memref.whole cc3_stg8_0 : Memref sig .tc .vmem S1x128 .f32).view
abbrev VO3_9 : View sig .tc .vmem S1x128 .f32 := (Memref.whole cc3_stg9_0 : Memref sig .tc .vmem S1x128 .f32).view
abbrev VS3_0 : View sig .tc .vmem S1x128 .f32 := scM3_0.view
abbrev VS3_1 : View sig .tc .vmem S1x128 .f32 := scM3_1.view

end Cert.KernelIdeal.Hand

end
-- ==== Proof.KI.Reg3.RunA.lean ====
/- Region 3, the body at the FIRST row tile (the clearing branch taken, the copying branch not): the two
   accumulators are set to zero and the tile's column sum and column sum of squares added to them; the tile
   of the affine result is stored; the two small outputs are not touched. -/
import proofs.«160050_j32744830665390_2_alg».proof.Proof.KI.Iface
import proofs.«160050_j32744830665390_2_alg».proof.Proof.KI.Reg3.Runs
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid3.Coords)
  (arg1 : Memref sig .tc .vmem S5000x128 .f32) (harg1 : arg1.IsWhole)
  (arg2 : Memref sig .tc .vmem S5000x128 .f32) (harg2 : arg2.IsWhole)
  (arg3 : Memref sig .tc .vmem S5000x128 .f32) (harg3 : arg3.IsWhole)
  (arg4 : Memref sig .tc .vmem S128x128 .f32) (harg4 : arg4.IsWhole)
  (arg5 : Memref sig .tc .vmem S128x128 .f32) (harg5 : arg5.IsWhole)
  (arg6 : Memref sig .tc .vmem S128x128 .f32) (harg6 : arg6.IsWhole)
  (arg7 : Memref sig .tc .vmem S1x128 .f32) (harg7 : arg7.IsWhole)
  (arg8 : Memref sig .tc .vmem S5000x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x128 .f32) (harg11 : arg11.IsWhole)
  (arg12 : Memref sig .tc .vmem S1x128 .f32) (harg12 : arg12.IsWhole)

set_option maxHeartbeats 1000000 in
/-- The body's triple at a point where only the first condition holds. Given the seven input buffers at
    `x0 … x6`, the row-tile output and both accumulators at anything, and the two small outputs at `xi8`, `xi9`,
    it runs to the inputs and the small outputs as they were, the row-tile output with the stores `L7` applied
    and the accumulators with `LS0`, `LS1` applied. The three lists are not written down: they are whatever the
    symbolic run of the body leaves, fixed when each buffer is handed to the continuation. -/
def kernelRun3_A (hc0 : cond3_0 i) (hc1 : ¬cond3_1 i) (x0 x1 x2 : Vec F S5000x128 .f32) (x3 x4 x5 : Vec F S128x128 .f32) (x6 : Vec F S1x128 .f32) :
    Σ' (L7 : List (View.Piece (Elt F) S5000x128 .f32)), Σ' (LS0 : List (View.Piece (Elt F) S1x128 .f32)),
      { LS1 : List (View.Piece (Elt F) S1x128 .f32) //
      ∀ (xi8 xi9 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ (∃ d, owns (c : Thread nD τ) arg8 fullShare d)
            ∗ owns (c : Thread nD τ) arg9 fullShare xi8 ∗ owns (c : Thread nD τ) arg10 fullShare xi9
            ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
                ∗ (∃ f, arg8.view.loc (c : Thread nD τ) ↦[arg8.view.set]{fullShare} arg8.view.writes (Elt F) f L7)
                ∗ owns (c : Thread nD τ) arg9 fullShare xi8 ∗ owns (c : Thread nD τ) arg10 fullShare xi9
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)) -∗ K ⟨⟩))
          ⊢ wp frame (wpE (defs₀ (F := F)) Variants.none c none) E (cc3_cheb_affine_kernel i arg1 harg1 arg2 harg2 arg3 harg3 arg4 harg4 arg5 harg5 arg6 harg6 arg7 harg7 arg8 harg8 arg9 harg9 arg10 harg10 arg11 harg11 arg12 harg12) K } := by
  refine ⟨?_, ?_, ?_, fun xi8 xi9 E K => ?run⟩
  case run =>
    sl_unfold [cc3_cheb_affine_kernel]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
      ⟨%d7, %f7, -, H7⟩, ⟨%f8, %hf8, H8⟩, ⟨%f9, %hf9, H9⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg9.eq_unread hf8; obtain rfl := harg10.eq_unread hf9
    sl_exec (disch := first | exact hc0 | exact hc1)
    sl_step
    iapply Hk
    isplitl [H0]
    · iexists _; isplitr
      · ipureintro; exact harg1.read_unread _
      iexact H0
    isplitl [H1]
    · iexists _; isplitr
      · ipureintro; exact harg2.read_unread _
      iexact H1
    isplitl [H2]
    · iexists _; isplitr
      · ipureintro; exact harg3.read_unread _
      iexact H2
    isplitl [H3]
    · iexists _; isplitr
      · ipureintro; exact harg4.read_unread _
      iexact H3
    isplitl [H4]
    · iexists _; isplitr
      · ipureintro; exact harg5.read_unread _
      iexact H4
    isplitl [H5]
    · iexists _; isplitr
      · ipureintro; exact harg6.read_unread _
      iexact H5
    isplitl [H6]
    · iexists _; isplitr
      · ipureintro; exact harg7.read_unread _
      iexact H6
    isplitl [H7]
    · iexists _; iexact H7
    isplitl [H8]
    · iexists _; isplitr
      · ipureintro; exact harg9.read_unread _
      iexact H8
    isplitl [H9]
    · iexists _; isplitr
      · ipureintro; exact harg10.read_unread _
      iexact H9
    isplitl [HS0]
    · iexists _; iexact HS0
    iexists _; iexact HS1

end Cert.KernelIdeal.Hand

end
-- ==== Proof.KI.Reg3.RunB.lean ====
/- Region 3, the body at a MIDDLE row tile (neither branch taken): the tile's column sum and column sum of
   squares are added to what the accumulators held; the tile of the affine result is stored; the two small
   outputs are not touched. -/
import proofs.«160050_j32744830665390_2_alg».proof.Proof.KI.Iface
import proofs.«160050_j32744830665390_2_alg».proof.Proof.KI.Reg3.Runs
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid3.Coords)
  (arg1 : Memref sig .tc .vmem S5000x128 .f32) (harg1 : arg1.IsWhole)
  (arg2 : Memref sig .tc .vmem S5000x128 .f32) (harg2 : arg2.IsWhole)
  (arg3 : Memref sig .tc .vmem S5000x128 .f32) (harg3 : arg3.IsWhole)
  (arg4 : Memref sig .tc .vmem S128x128 .f32) (harg4 : arg4.IsWhole)
  (arg5 : Memref sig .tc .vmem S128x128 .f32) (harg5 : arg5.IsWhole)
  (arg6 : Memref sig .tc .vmem S128x128 .f32) (harg6 : arg6.IsWhole)
  (arg7 : Memref sig .tc .vmem S1x128 .f32) (harg7 : arg7.IsWhole)
  (arg8 : Memref sig .tc .vmem S5000x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x128 .f32) (harg11 : arg11.IsWhole)
  (arg12 : Memref sig .tc .vmem S1x128 .f32) (harg12 : arg12.IsWhole)

set_option maxHeartbeats 1000000 in
/-- The body's triple at a point where neither condition holds. Given the seven input buffers at `x0 … x6`, the
    accumulators at `xs0`, `xs1` (what the point before left), the row-tile output at anything and the two small
    outputs at `xi8`, `xi9`, it runs to the inputs and the small outputs as they were, the row-tile output with the
    stores `L7` applied and the accumulators with `LS0`, `LS1` applied; the lists are what the symbolic run of the
    body leaves. -/
def kernelRun3_B (hc0 : ¬cond3_0 i) (hc1 : ¬cond3_1 i) (x0 x1 x2 : Vec F S5000x128 .f32) (x3 x4 x5 : Vec F S128x128 .f32) (x6 : Vec F S1x128 .f32)
    (xs0 xs1 : Vec F S1x128 .f32) :
    Σ' (L7 : List (View.Piece (Elt F) S5000x128 .f32)), Σ' (LS0 : List (View.Piece (Elt F) S1x128 .f32)),
      { LS1 : List (View.Piece (Elt F) S1x128 .f32) //
      ∀ (xi8 xi9 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ (∃ d, owns (c : Thread nD τ) arg8 fullShare d)
            ∗ owns (c : Thread nD τ) arg9 fullShare xi8 ∗ owns (c : Thread nD τ) arg10 fullShare xi9
            ∗ owns (c : Thread nD τ) arg11 fullShare xs0 ∗ owns (c : Thread nD τ) arg12 fullShare xs1
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
                ∗ (∃ f, arg8.view.loc (c : Thread nD τ) ↦[arg8.view.set]{fullShare} arg8.view.writes (Elt F) f L7)
                ∗ owns (c : Thread nD τ) arg9 fullShare xi8 ∗ owns (c : Thread nD τ) arg10 fullShare xi9
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)) -∗ K ⟨⟩))
          ⊢ wp frame (wpE (defs₀ (F := F)) Variants.none c none) E (cc3_cheb_affine_kernel i arg1 harg1 arg2 harg2 arg3 harg3 arg4 harg4 arg5 harg5 arg6 harg6 arg7 harg7 arg8 harg8 arg9 harg9 arg10 harg10 arg11 harg11 arg12 harg12) K } := by
  refine ⟨?_, ?_, ?_, fun xi8 xi9 E K => ?run⟩
  case run =>
    sl_unfold [cc3_cheb_affine_kernel]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
      ⟨%d7, %f7, -, H7⟩, ⟨%f8, %hf8, H8⟩, ⟨%f9, %hf9, H9⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg9.eq_unread hf8; obtain rfl := harg10.eq_unread hf9
    obtain rfl := harg11.eq_unread hfs0; obtain rfl := harg12.eq_unread hfs1
    sl_exec (disch := first | exact hc0 | exact hc1)
    sl_step
    iapply Hk
    isplitl [H0]
    · iexists _; isplitr
      · ipureintro; exact harg1.read_unread _
      iexact H0
    isplitl [H1]
    · iexists _; isplitr
      · ipureintro; exact harg2.read_unread _
      iexact H1
    isplitl [H2]
    · iexists _; isplitr
      · ipureintro; exact harg3.read_unread _
      iexact H2
    isplitl [H3]
    · iexists _; isplitr
      · ipureintro; exact harg4.read_unread _
      iexact H3
    isplitl [H4]
    · iexists _; isplitr
      · ipureintro; exact harg5.read_unread _
      iexact H4
    isplitl [H5]
    · iexists _; isplitr
      · ipureintro; exact harg6.read_unread _
      iexact H5
    isplitl [H6]
    · iexists _; isplitr
      · ipureintro; exact harg7.read_unread _
      iexact H6
    isplitl [H7]
    · iexists _; iexact H7
    isplitl [H8]
    · iexists _; isplitr
      · ipureintro; exact harg9.read_unread _
      iexact H8
    isplitl [H9]
    · iexists _; isplitr
      · ipureintro; exact harg10.read_unread _
      iexact H9
    isplitl [HS0]
    · iexists _; iexact HS0
    iexists _; iexact HS1

end Cert.KernelIdeal.Hand

end
-- ==== Proof.KI.Reg3.RunC.lean ====
/- Region 3, the body at the LAST row tile (the clearing branch not taken, the copying branch taken): the
   tile's column sum and column sum of squares are added to what the accumulators held, the tile of the
   affine result is stored, and the accumulators' final contents are copied into the two small outputs. -/
import proofs.«160050_j32744830665390_2_alg».proof.Proof.KI.Iface
import proofs.«160050_j32744830665390_2_alg».proof.Proof.KI.Reg3.Runs
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid3.Coords)
  (arg1 : Memref sig .tc .vmem S5000x128 .f32) (harg1 : arg1.IsWhole)
  (arg2 : Memref sig .tc .vmem S5000x128 .f32) (harg2 : arg2.IsWhole)
  (arg3 : Memref sig .tc .vmem S5000x128 .f32) (harg3 : arg3.IsWhole)
  (arg4 : Memref sig .tc .vmem S128x128 .f32) (harg4 : arg4.IsWhole)
  (arg5 : Memref sig .tc .vmem S128x128 .f32) (harg5 : arg5.IsWhole)
  (arg6 : Memref sig .tc .vmem S128x128 .f32) (harg6 : arg6.IsWhole)
  (arg7 : Memref sig .tc .vmem S1x128 .f32) (harg7 : arg7.IsWhole)
  (arg8 : Memref sig .tc .vmem S5000x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x128 .f32) (harg11 : arg11.IsWhole)
  (arg12 : Memref sig .tc .vmem S1x128 .f32) (harg12 : arg12.IsWhole)

set_option maxHeartbeats 1000000 in
/-- The body's triple at a point where only the second condition holds. Given the seven input buffers at
    `x0 … x6`, the accumulators at `xs0`, `xs1` (what the point before left) and all three outputs at anything, it
    runs to the inputs as they were, the three outputs with the stores `L7`, `L8`, `L9` applied and the accumulators
    with `LS0`, `LS1` applied; the lists are what the symbolic run of the body leaves. -/
def kernelRun3_C (hc0 : ¬cond3_0 i) (hc1 : cond3_1 i) (x0 x1 x2 : Vec F S5000x128 .f32) (x3 x4 x5 : Vec F S128x128 .f32) (x6 : Vec F S1x128 .f32)
    (xs0 xs1 : Vec F S1x128 .f32) :
    Σ' (L7 : List (View.Piece (Elt F) S5000x128 .f32)), Σ' (L8 : List (View.Piece (Elt F) S1x128 .f32)),
      Σ' (L9 : List (View.Piece (Elt F) S1x128 .f32)), Σ' (LS0 : List (View.Piece (Elt F) S1x128 .f32)),
      { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ (∃ d, owns (c : Thread nD τ) arg8 fullShare d)
            ∗ (∃ d, owns (c : Thread nD τ) arg9 fullShare d) ∗ (∃ d, owns (c : Thread nD τ) arg10 fullShare d)
            ∗ owns (c : Thread nD τ) arg11 fullShare xs0 ∗ owns (c : Thread nD τ) arg12 fullShare xs1
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f L8)
                ∗ (∃ f, arg10.view.loc (c : Thread nD τ) ↦[arg10.view.set]{fullShare} arg10.view.writes (Elt F) f L9)
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)) -∗ K ⟨⟩))
          ⊢ wp frame (wpE (defs₀ (F := F)) Variants.none c none) E (cc3_cheb_affine_kernel i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    sl_unfold [cc3_cheb_affine_kernel]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
      ⟨%d7, %f7, -, H7⟩, ⟨%d8, %f8, -, H8⟩, ⟨%d9, %f9, -, H9⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6
    obtain rfl := harg11.eq_unread hfs0; obtain rfl := harg12.eq_unread hfs1
    sl_exec (disch := first | exact hc0 | exact hc1)
    sl_step
    iapply Hk
    isplitl [H0]
    · iexists _; isplitr
      · ipureintro; exact harg1.read_unread _
      iexact H0
    isplitl [H1]
    · iexists _; isplitr
      · ipureintro; exact harg2.read_unread _
      iexact H1
    isplitl [H2]
    · iexists _; isplitr
      · ipureintro; exact harg3.read_unread _
      iexact H2
    isplitl [H3]
    · iexists _; isplitr
      · ipureintro; exact harg4.read_unread _
      iexact H3
    isplitl [H4]
    · iexists _; isplitr
      · ipureintro; exact harg5.read_unread _
      iexact H4
    isplitl [H5]
    · iexists _; isplitr
      · ipureintro; exact harg6.read_unread _
      iexact H5
    isplitl [H6]
    · iexists _; isplitr
      · ipureintro; exact harg7.read_unread _
      iexact H6
    isplitl [H7]
    · iexists _; iexact H7
    isplitl [H8]
    · iexists _; iexact H8
    isplitl [H9]
    · iexists _; iexact H9
    isplitl [HS0]
    · iexists _; iexact HS0
    iexists _; iexact HS1

end Cert.KernelIdeal.Hand

end
-- ==== Proof.KI.Reg3.lean ====
/- Region 3 of the kernel program: one Chebyshev affine layer over ten row tiles of 5000 nodes, with the column sum and
   the column sum of squares of its result accumulated across the tiles in two small buffers and copied out at the
   last tile. This module: what each of the three control cases leaves in the buffers it stores into; what the outputs
   and the two accumulators hold after each tile, by recursion on the tile; the proof data of the pipelined region
   at a parameter `V` (the buffers' contents when the region is entered); the body obligation at every tile; and
   the two ends of the invariant. -/
import proofs.«160050_j32744830665390_2_alg».proof.Proof.KI.Iface
import proofs.«160050_j32744830665390_2_alg».proof.Proof.KI.Reg3.RunA
import proofs.«160050_j32744830665390_2_alg».proof.Proof.KI.Reg3.RunB
import proofs.«160050_j32744830665390_2_alg».proof.Proof.KI.Reg3.RunC
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

section Cases

variable (c : Dev nD) (i : grid3.Coords)
  (arg1 : Memref sig .tc .vmem S5000x128 .f32) (harg1 : arg1.IsWhole)
  (arg2 : Memref sig .tc .vmem S5000x128 .f32) (harg2 : arg2.IsWhole)
  (arg3 : Memref sig .tc .vmem S5000x128 .f32) (harg3 : arg3.IsWhole)
  (arg4 : Memref sig .tc .vmem S128x128 .f32) (harg4 : arg4.IsWhole)
  (arg5 : Memref sig .tc .vmem S128x128 .f32) (harg5 : arg5.IsWhole)
  (arg6 : Memref sig .tc .vmem S128x128 .f32) (harg6 : arg6.IsWhole)
  (arg7 : Memref sig .tc .vmem S1x128 .f32) (harg7 : arg7.IsWhole)
  (arg8 : Memref sig .tc .vmem S5000x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x128 .f32) (harg11 : arg11.IsWhole)
  (arg12 : Memref sig .tc .vmem S1x128 .f32) (harg12 : arg12.IsWhole)

/-! ### At the first row tile -/

/-- At the first row tile the stores into the row-tile output tile it: every index lies in some piece. -/
theorem cover3_A_7 (hc0 : cond3_0 i) (hc1 : ¬cond3_1 i) (x0 x1 x2 : Vec F S5000x128 .f32) (x3 x4 x5 : Vec F S128x128 .f32) (x6 : Vec F S1x128 .f32) (y : S5000x128.Idx) :
    ∃ pc ∈ (kernelRun3_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).1, y ∈ pc.1.set :=
  View.cover_of_tiledL (kernelRun3_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).1 S5000x128.size (by sl_kernel_rfl) y

/-- What the row-tile output holds after the body at the first row tile: the pieces read back (over contents that do not show,
    the pieces covering the buffer). -/
def out3_A_7 (hc0 : cond3_0 i) (hc1 : ¬cond3_1 i) (x0 x1 x2 : Vec F S5000x128 .f32) (x3 x4 x5 : Vec F S128x128 .f32) (x6 : Vec F S1x128 .f32) : Vec F S5000x128 .f32 :=
  VO3_7.read (Elt F) (VO3_7.writes (Elt F) VO3_7.junk (kernelRun3_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).1)

/-- At the first row tile the stores into the first accumulator tile it: every index lies in some piece. -/
theorem scover3_A_0 (hc0 : cond3_0 i) (hc1 : ¬cond3_1 i) (x0 x1 x2 : Vec F S5000x128 .f32) (x3 x4 x5 : Vec F S128x128 .f32) (x6 : Vec F S1x128 .f32) (y : S1x128.Idx) :
    ∃ pc ∈ (kernelRun3_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.1, y ∈ pc.1.set :=
  View.cover_of_tiledL (kernelRun3_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.1 S1x128.size (by sl_kernel_rfl) y

/-- What the first accumulator holds after the body at the first row tile: the pieces read back (over contents that do not show,
    the pieces covering the buffer). -/
def sout3_A_0 (hc0 : cond3_0 i) (hc1 : ¬cond3_1 i) (x0 x1 x2 : Vec F S5000x128 .f32) (x3 x4 x5 : Vec F S128x128 .f32) (x6 : Vec F S1x128 .f32) : Vec F S1x128 .f32 :=
  VS3_0.read (Elt F) (VS3_0.writes (Elt F) VS3_0.junk (kernelRun3_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.1)

/-- At the first row tile the stores into the second accumulator tile it: every index lies in some piece. -/
theorem scover3_A_1 (hc0 : cond3_0 i) (hc1 : ¬cond3_1 i) (x0 x1 x2 : Vec F S5000x128 .f32) (x3 x4 x5 : Vec F S128x128 .f32) (x6 : Vec F S1x128 .f32) (y : S1x128.Idx) :
    ∃ pc ∈ (kernelRun3_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.2.1, y ∈ pc.1.set :=
  View.cover_of_tiledL (kernelRun3_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.2.1 S1x128.size (by sl_kernel_rfl) y

/-- What the second accumulator holds after the body at the first row tile: the pieces read back (over contents that do not show,
    the pieces covering the buffer). -/
def sout3_A_1 (hc0 : cond3_0 i) (hc1 : ¬cond3_1 i) (x0 x1 x2 : Vec F S5000x128 .f32) (x3 x4 x5 : Vec F S128x128 .f32) (x6 : Vec F S1x128 .f32) : Vec F S1x128 .f32 :=
  VS3_1.read (Elt F) (VS3_1.writes (Elt F) VS3_1.junk (kernelRun3_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.2.1)

/-! ### At a middle row tile -/

/-- At a middle row tile the stores into the row-tile output tile it: every index lies in some piece. -/
theorem cover3_B_7 (hc0 : ¬cond3_0 i) (hc1 : ¬cond3_1 i) (x0 x1 x2 : Vec F S5000x128 .f32) (x3 x4 x5 : Vec F S128x128 .f32) (x6 : Vec F S1x128 .f32) (xs0 xs1 : Vec F S1x128 .f32) (y : S5000x128.Idx) :
    ∃ pc ∈ (kernelRun3_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1, y ∈ pc.1.set :=
  View.cover_of_tiledL (kernelRun3_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1 S5000x128.size (by sl_kernel_rfl) y

/-- What the row-tile output holds after the body at a middle row tile: the pieces read back (over contents that do not show,
    the pieces covering the buffer). -/
def out3_B_7 (hc0 : ¬cond3_0 i) (hc1 : ¬cond3_1 i) (x0 x1 x2 : Vec F S5000x128 .f32) (x3 x4 x5 : Vec F S128x128 .f32) (x6 : Vec F S1x128 .f32) (xs0 xs1 : Vec F S1x128 .f32) : Vec F S5000x128 .f32 :=
  VO3_7.read (Elt F) (VO3_7.writes (Elt F) VO3_7.junk (kernelRun3_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1)

/-- At a middle row tile the stores into the first accumulator tile it: every index lies in some piece. -/
theorem scover3_B_0 (hc0 : ¬cond3_0 i) (hc1 : ¬cond3_1 i) (x0 x1 x2 : Vec F S5000x128 .f32) (x3 x4 x5 : Vec F S128x128 .f32) (x6 : Vec F S1x128 .f32) (xs0 xs1 : Vec F S1x128 .f32) (y : S1x128.Idx) :
    ∃ pc ∈ (kernelRun3_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ pc.1.set :=
  View.cover_of_tiledL (kernelRun3_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1 S1x128.size (by sl_kernel_rfl) y

/-- What the first accumulator holds after the body at a middle row tile: the pieces read back (over contents that do not show,
    the pieces covering the buffer). -/
def sout3_B_0 (hc0 : ¬cond3_0 i) (hc1 : ¬cond3_1 i) (x0 x1 x2 : Vec F S5000x128 .f32) (x3 x4 x5 : Vec F S128x128 .f32) (x6 : Vec F S1x128 .f32) (xs0 xs1 : Vec F S1x128 .f32) : Vec F S1x128 .f32 :=
  VS3_0.read (Elt F) (VS3_0.writes (Elt F) VS3_0.junk (kernelRun3_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1)

/-- At a middle row tile the stores into the second accumulator tile it: every index lies in some piece. -/
theorem scover3_B_1 (hc0 : ¬cond3_0 i) (hc1 : ¬cond3_1 i) (x0 x1 x2 : Vec F S5000x128 .f32) (x3 x4 x5 : Vec F S128x128 .f32) (x6 : Vec F S1x128 .f32) (xs0 xs1 : Vec F S1x128 .f32) (y : S1x128.Idx) :
    ∃ pc ∈ (kernelRun3_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL (kernelRun3_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1 S1x128.size (by sl_kernel_rfl) y

/-- What the second accumulator holds after the body at a middle row tile: the pieces read back (over contents that do not show,
    the pieces covering the buffer). -/
def sout3_B_1 (hc0 : ¬cond3_0 i) (hc1 : ¬cond3_1 i) (x0 x1 x2 : Vec F S5000x128 .f32) (x3 x4 x5 : Vec F S128x128 .f32) (x6 : Vec F S1x128 .f32) (xs0 xs1 : Vec F S1x128 .f32) : Vec F S1x128 .f32 :=
  VS3_1.read (Elt F) (VS3_1.writes (Elt F) VS3_1.junk (kernelRun3_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1)

/-! ### At the last row tile -/

/-- At the last row tile the stores into the row-tile output tile it: every index lies in some piece. -/
theorem cover3_C_7 (hc0 : ¬cond3_0 i) (hc1 : cond3_1 i) (x0 x1 x2 : Vec F S5000x128 .f32) (x3 x4 x5 : Vec F S128x128 .f32) (x6 : Vec F S1x128 .f32) (xs0 xs1 : Vec F S1x128 .f32) (y : S5000x128.Idx) :
    ∃ pc ∈ (kernelRun3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1 S5000x128.size (by sl_kernel_rfl) y

/-- What the row-tile output holds after the body at the last row tile: the pieces read back (over contents that do not show,
    the pieces covering the buffer). -/
def out3_C_7 (hc0 : ¬cond3_0 i) (hc1 : cond3_1 i) (x0 x1 x2 : Vec F S5000x128 .f32) (x3 x4 x5 : Vec F S128x128 .f32) (x6 : Vec F S1x128 .f32) (xs0 xs1 : Vec F S1x128 .f32) : Vec F S5000x128 .f32 :=
  VO3_7.read (Elt F) (VO3_7.writes (Elt F) VO3_7.junk (kernelRun3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1)

/-- At the last row tile the stores into the column-sum output tile it: every index lies in some piece. -/
theorem cover3_C_8 (hc0 : ¬cond3_0 i) (hc1 : cond3_1 i) (x0 x1 x2 : Vec F S5000x128 .f32) (x3 x4 x5 : Vec F S128x128 .f32) (x6 : Vec F S1x128 .f32) (xs0 xs1 : Vec F S1x128 .f32) (y : S1x128.Idx) :
    ∃ pc ∈ (kernelRun3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1 S1x128.size (by sl_kernel_rfl) y

/-- What the column-sum output holds after the body at the last row tile: the pieces read back (over contents that do not show,
    the pieces covering the buffer). -/
def out3_C_8 (hc0 : ¬cond3_0 i) (hc1 : cond3_1 i) (x0 x1 x2 : Vec F S5000x128 .f32) (x3 x4 x5 : Vec F S128x128 .f32) (x6 : Vec F S1x128 .f32) (xs0 xs1 : Vec F S1x128 .f32) : Vec F S1x128 .f32 :=
  VO3_8.read (Elt F) (VO3_8.writes (Elt F) VO3_8.junk (kernelRun3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1)

/-- At the last row tile the stores into the sum-of-squares output tile it: every index lies in some piece. -/
theorem cover3_C_9 (hc0 : ¬cond3_0 i) (hc1 : cond3_1 i) (x0 x1 x2 : Vec F S5000x128 .f32) (x3 x4 x5 : Vec F S128x128 .f32) (x6 : Vec F S1x128 .f32) (xs0 xs1 : Vec F S1x128 .f32) (y : S1x128.Idx) :
    ∃ pc ∈ (kernelRun3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1 S1x128.size (by sl_kernel_rfl) y

/-- What the sum-of-squares output holds after the body at the last row tile: the pieces read back (over contents that do not show,
    the pieces covering the buffer). -/
def out3_C_9 (hc0 : ¬cond3_0 i) (hc1 : cond3_1 i) (x0 x1 x2 : Vec F S5000x128 .f32) (x3 x4 x5 : Vec F S128x128 .f32) (x6 : Vec F S1x128 .f32) (xs0 xs1 : Vec F S1x128 .f32) : Vec F S1x128 .f32 :=
  VO3_9.read (Elt F) (VO3_9.writes (Elt F) VO3_9.junk (kernelRun3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1)

/-- At the last row tile the stores into the first accumulator tile it: every index lies in some piece. -/
theorem scover3_C_0 (hc0 : ¬cond3_0 i) (hc1 : cond3_1 i) (x0 x1 x2 : Vec F S5000x128 .f32) (x3 x4 x5 : Vec F S128x128 .f32) (x6 : Vec F S1x128 .f32) (xs0 xs1 : Vec F S1x128 .f32) (y : S1x128.Idx) :
    ∃ pc ∈ (kernelRun3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1 S1x128.size (by sl_kernel_rfl) y

/-- What the first accumulator holds after the body at the last row tile: the pieces read back (over contents that do not show,
    the pieces covering the buffer). -/
def sout3_C_0 (hc0 : ¬cond3_0 i) (hc1 : cond3_1 i) (x0 x1 x2 : Vec F S5000x128 .f32) (x3 x4 x5 : Vec F S128x128 .f32) (x6 : Vec F S1x128 .f32) (xs0 xs1 : Vec F S1x128 .f32) : Vec F S1x128 .f32 :=
  VS3_0.read (Elt F) (VS3_0.writes (Elt F) VS3_0.junk (kernelRun3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1)

/-- At the last row tile the stores into the second accumulator tile it: every index lies in some piece. -/
theorem scover3_C_1 (hc0 : ¬cond3_0 i) (hc1 : cond3_1 i) (x0 x1 x2 : Vec F S5000x128 .f32) (x3 x4 x5 : Vec F S128x128 .f32) (x6 : Vec F S1x128 .f32) (xs0 xs1 : Vec F S1x128 .f32) (y : S1x128.Idx) :
    ∃ pc ∈ (kernelRun3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.2.1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.2.1 S1x128.size (by sl_kernel_rfl) y

/-- What the second accumulator holds after the body at the last row tile: the pieces read back (over contents that do not show,
    the pieces covering the buffer). -/
def sout3_C_1 (hc0 : ¬cond3_0 i) (hc1 : cond3_1 i) (x0 x1 x2 : Vec F S5000x128 .f32) (x3 x4 x5 : Vec F S128x128 .f32) (x6 : Vec F S1x128 .f32) (xs0 xs1 : Vec F S1x128 .f32) : Vec F S1x128 .f32 :=
  VS3_1.read (Elt F) (VS3_1.writes (Elt F) VS3_1.junk (kernelRun3_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.2.1)

end Cases

/-! ## The tiles' input blocks -/

variable (V : Entry F)

/-- Window `w`'s block at tile `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## After each tile -/

/-- What is tracked after a tile: the row-tile output, the two small outputs, the two accumulators. -/
abbrev Outs3 (F : FTy → Type) : Type :=
  Vec F S5000x128 .f32 × Vec F S1x128 .f32 × Vec F S1x128 .f32 × Vec F S1x128 .f32 × Vec F S1x128 .f32

/-- The first tile. The small outputs are not stored into there (nor written back): their entries repeat the
    accumulators' and are never consulted. -/
def pt3_A (c : Dev nD) (t : Fin cfg3.N) (h0 : t.val % 10 = 0) (h1 : ¬t.val % 10 = 9) : Outs3 F :=
  (out3_A_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t),
   sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t),
   sout3_A_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t),
   sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t),
   sout3_A_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t))

/-- A middle tile, over what the tile before left in the accumulators. The small outputs' entries as at the first tile. -/
def pt3_B (c : Dev nD) (t : Fin cfg3.N) (h0 : ¬t.val % 10 = 0) (h1 : ¬t.val % 10 = 9) (xs0 xs1 : Vec F S1x128 .f32) : Outs3 F :=
  (out3_B_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) xs0 xs1,
   sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) xs0 xs1,
   sout3_B_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) xs0 xs1,
   sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) xs0 xs1,
   sout3_B_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) xs0 xs1)

/-- The last tile, over what the tile before left in the accumulators: here the small outputs are stored into. -/
def pt3_C (c : Dev nD) (t : Fin cfg3.N) (h0 : ¬t.val % 10 = 0) (h1 : t.val % 10 = 9) (xs0 xs1 : Vec F S1x128 .f32) : Outs3 F :=
  (out3_C_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) xs0 xs1,
   out3_C_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) xs0 xs1,
   out3_C_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) xs0 xs1,
   sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) xs0 xs1,
   sout3_C_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) xs0 xs1)

/-- A tile after the first is not the first among ten. -/
theorem succ_ne_first3 {n : ℕ} (hn : n + 1 < cfg3.N) : ¬(n + 1) % 10 = 0 := by
  have : n + 1 < 10 := lt_of_lt_of_eq hn (show cfg3.N = 10 from N_3)
  omega

/-- THE ACCUMULATION: what the outputs and the accumulators hold after tile `n`. The first tile clears and adds;
    every later tile adds onto what the tile before left; the last of them also copies out. -/
def outsAt3 (c : Dev nD) : (n : ℕ) → n < cfg3.N → Outs3 F
  | 0, hn => pt3_A V c ⟨0, hn⟩ (Nat.zero_mod _) (by show ¬(0 % 10 = 9); decide)
  | n + 1, hn =>
    if h1 : (n + 1) % 10 = 9 then
      pt3_C V c ⟨n + 1, hn⟩ (succ_ne_first3 hn) h1 (outsAt3 c n (Nat.lt_of_succ_lt hn)).2.2.2.1 (outsAt3 c n (Nat.lt_of_succ_lt hn)).2.2.2.2
    else
      pt3_B V c ⟨n + 1, hn⟩ (succ_ne_first3 hn) h1 (outsAt3 c n (Nat.lt_of_succ_lt hn)).2.2.2.1 (outsAt3 c n (Nat.lt_of_succ_lt hn)).2.2.2.2

/-- The recursion's own two equations at a tile after the first. -/
theorem outsAt3_succ_mid (c : Dev nD) (n : ℕ) (hn : n + 1 < cfg3.N) (h1 : ¬(n + 1) % 10 = 9) :
    outsAt3 V c (n + 1) hn
      = pt3_B V c ⟨n + 1, hn⟩ (succ_ne_first3 hn) h1 (outsAt3 V c n (Nat.lt_of_succ_lt hn)).2.2.2.1 (outsAt3 V c n (Nat.lt_of_succ_lt hn)).2.2.2.2 :=
  (dif_neg h1).trans rfl

theorem outsAt3_succ_last (c : Dev nD) (n : ℕ) (hn : n + 1 < cfg3.N) (h1 : (n + 1) % 10 = 9) :
    outsAt3 V c (n + 1) hn
      = pt3_C V c ⟨n + 1, hn⟩ (succ_ne_first3 hn) h1 (outsAt3 V c n (Nat.lt_of_succ_lt hn)).2.2.2.1 (outsAt3 V c n (Nat.lt_of_succ_lt hn)).2.2.2.2 :=
  (dif_pos h1).trans rfl

/-- The tile before `t` is a tile. -/
theorem pred_lt3 (t : Fin cfg3.N) : t.val - 1 < cfg3.N := Nat.lt_of_le_of_lt (Nat.sub_le _ _) t.isLt

theorem outsAt3_first (c : Dev nD) (t : Fin cfg3.N) (h0 : t.val % 10 = 0) (h1 : ¬t.val % 10 = 9) :
    outsAt3 V c t.val t.isLt = pt3_A V c t h0 h1 := by
  obtain ⟨n, hn⟩ := t
  cases n with
  | zero => exact rfl
  | succ n => exact absurd h0 (succ_ne_first3 hn)

theorem outsAt3_mid (c : Dev nD) (t : Fin cfg3.N) (h0 : ¬t.val % 10 = 0) (h1 : ¬t.val % 10 = 9) :
    outsAt3 V c t.val t.isLt
      = pt3_B V c t h0 h1 (outsAt3 V c (t.val - 1) (pred_lt3 t)).2.2.2.1 (outsAt3 V c (t.val - 1) (pred_lt3 t)).2.2.2.2 := by
  obtain ⟨n, hn⟩ := t
  cases n with
  | zero => exact absurd (Nat.zero_mod _) h0
  | succ n => exact (dif_neg h1).trans rfl

theorem outsAt3_last (c : Dev nD) (t : Fin cfg3.N) (h0 : ¬t.val % 10 = 0) (h1 : t.val % 10 = 9) :
    outsAt3 V c t.val t.isLt
      = pt3_C V c t h0 h1 (outsAt3 V c (t.val - 1) (pred_lt3 t)).2.2.2.1 (outsAt3 V c (t.val - 1) (pred_lt3 t)).2.2.2.2 := by
  obtain ⟨n, hn⟩ := t
  cases n with
  | zero => exact absurd (Nat.zero_mod _) h0
  | succ n => exact (dif_pos h1).trans rfl

/-! ## The invariant -/

/-- A buffer into which a covering list of pieces was written is owned at the pieces read back, whatever it held. -/
theorem owns_of_cover3 {S : Shape} (c : Dev nD) (a : Memref sig .tc .vmem S .f32) (v : View sig .tc .vmem S .f32)
    (L : List (View.Piece (Elt F) S .f32)) (hcov : ∀ y : S.Idx, ∃ pc ∈ L, y ∈ pc.1.set) :
    (iprop(∃ f, a.view.loc (c : Thread nD τ) ↦[a.view.set]{fullShare} a.view.writes (Elt F) f L) : sProp 𝕄)
      ⊢ owns (c : Thread nD τ) a fullShare (v.read (Elt F) (v.writes (Elt F) v.junk L)) := by
  iintro ⟨%f, H⟩
  unfold owns; iexists _; isplitr
  swap
  · iexact H
  ipureintro; exact View.read_writes_of_cover _ _ _ _ _ hcov

/-- The region invariant before tile `n`. Before the first tile it is what the launch hands over: every scoped
    buffer that is no staging buffer at some contents, and the generator register at some state. After tile `n`
    the two accumulators are held at that tile's sums, the other such buffers unopened, the register as before. -/
def Phi3 (c : Dev nD) : (n : ℕ) → n ≤ cfg3.N → sProp 𝕄
  | 0, _ => Pipeline.ΦA (U := UR sig nD τ) (Val := Elt F) spec3 c
  | n + 1, hn => iprop(iprop(owns (c : Thread nD τ) scM3_0 fullShare (outsAt3 V c n hn).2.2.2.1
        ∗ owns (c : Thread nD τ) scM3_1 fullShare (outsAt3 V c n hn).2.2.2.2
        ∗ Pipeline.scopedRestBut (Ix := Unit) (Name := ℕ) (U := UR sig nD τ) (Lvl := ℕ) (Val := Elt F) spec3 c [cc3_scratch0, cc3_scratch1])
      ∗ (∃ r, prngReg c r))

theorem Phi3_zero (c : Dev nD) (n : ℕ) (h : n ≤ cfg3.N) (hz : n = 0) :
    Phi3 V c n h = Pipeline.ΦA (U := UR sig nD τ) (Val := Elt F) spec3 c := by
  subst hz; rfl

theorem Phi3_succ (c : Dev nD) (n : ℕ) (hn : n < cfg3.N) :
    Phi3 V c (n + 1) hn = iprop(iprop(owns (c : Thread nD τ) scM3_0 fullShare (outsAt3 V c n hn).2.2.2.1
        ∗ owns (c : Thread nD τ) scM3_1 fullShare (outsAt3 V c n hn).2.2.2.2
        ∗ Pipeline.scopedRestBut (Ix := Unit) (Name := ℕ) (U := UR sig nD τ) (Lvl := ℕ) (Val := Elt F) spec3 c [cc3_scratch0, cc3_scratch1])
      ∗ (∃ r, prngReg c r)) := rfl

theorem Phi3_pos (c : Dev nD) (n : ℕ) (h : n ≤ cfg3.N) (hz : n ≠ 0) :
    Phi3 V c n h = iprop(iprop(owns (c : Thread nD τ) scM3_0 fullShare (outsAt3 V c (n - 1) (by omega)).2.2.2.1
        ∗ owns (c : Thread nD τ) scM3_1 fullShare (outsAt3 V c (n - 1) (by omega)).2.2.2.2
        ∗ Pipeline.scopedRestBut (Ix := Unit) (Name := ℕ) (U := UR sig nD τ) (Lvl := ℕ) (Val := Elt F) spec3 c [cc3_scratch0, cc3_scratch1])
      ∗ (∃ r, prngReg c r)) := by
  cases n with
  | zero => exact absurd rfl hz
  | succ n => rfl

/-- What the launch hands over, with the two accumulators taken out of the scoped rest as owned memrefs. -/
theorem PhiA3_eq (c : Dev nD) :
    (Pipeline.ΦA (U := UR sig nD τ) (Val := Elt F) spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1])
        ∗ (∃ r, prngReg c r)) := by
  unfold Pipeline.ΦA; rw [scopedRest3_split]; simp only [scM3_0, scM3_1, owns_whole]
  rfl

/-! ## The proof data -/

/-- The region's proof data on core `c`: the arrays as the region finds them; after the body at tile `t` each input's
    buffer at its block, the outputs' at the accumulation's entries; the invariant above; full shares; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => (outsAt3 V c t.val t.isLt).1
    | ⟨8, _⟩ => (outsAt3 V c t.val t.isLt).2.1
    | ⟨9, _⟩ => (outsAt3 V c t.val t.isLt).2.2.1
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem q_eq3 (c : Dev nD) (w : Fin cfg3.W) : (dat3 V c).q w = fullShare := by
  dsimp only [dat3]

theorem owed_eq3 (c : Dev nD) (t : Fin (cfg3.N + 1)) : (dat3 V c).owed t = 0 := by
  dsimp only [dat3]

theorem Phi3_castSucc (c : Dev nD) (t : Fin cfg3.N) :
    (dat3 V c).Φ t.castSucc = Phi3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = (outsAt3 V c t.val t.isLt).1 := by dsimp only [dat3]
theorem after3_8 (c : Dev nD) (t : Fin cfg3.N) : (dat3 V c).after 8 t = (outsAt3 V c t.val t.isLt).2.1 := by dsimp only [dat3]
theorem after3_9 (c : Dev nD) (t : Fin cfg3.N) : (dat3 V c).after 9 t = (outsAt3 V c t.val t.isLt).2.2.1 := by dsimp only [dat3]

/-! ## What each window's buffer holds when the body runs, and what it is left at -/

theorem before3_0 (c : Dev nD) (t : Fin cfg3.N) (d) : (dat3 V c).before 0 t d = iblk3 V c 0 t :=
  ((dat3 V c).before_in_eq_fetched 0 rfl live3_0 (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl live3_1 (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl live3_2 (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl live3_3 (fun _ _ _ => rfl)
    (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl live3_4 (fun _ _ _ => rfl)
    (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl live3_5 (fun _ _ _ => rfl)
    (fun t => by rw [after3_5]; unfold Dat.blockOf iblk3; rw [A_eq3]; try rfl) t d).trans
    (by unfold Dat.fetched Dat.blockOf iblk3; rw [A_eq3]; try rfl)
theorem before3_6 (c : Dev nD) (t : Fin cfg3.N) (d) : (dat3 V c).before 6 t d = iblk3 V c 6 t :=
  ((dat3 V c).before_in_eq_fetched 6 rfl live3_6 (fun _ _ _ => rfl)
    (fun t => by rw [after3_6]; unfold Dat.blockOf iblk3; rw [A_eq3]; try rfl) t d).trans
    (by unfold Dat.fetched Dat.blockOf iblk3; rw [A_eq3]; try rfl)

theorem leaves3_0 (c : Dev nD) (t : Fin cfg3.N) :
    (dat3 V c).leavesExact 0 t = owns (c : Thread nD τ) (ms3_0 t) fullShare ((dat3 V c).after 0 t) := by
  unfold Dat.leavesExact; rw [live3_0]
theorem leaves3_1 (c : Dev nD) (t : Fin cfg3.N) :
    (dat3 V c).leavesExact 1 t = owns (c : Thread nD τ) (ms3_1 t) fullShare ((dat3 V c).after 1 t) := by
  unfold Dat.leavesExact; rw [live3_1]
theorem leaves3_2 (c : Dev nD) (t : Fin cfg3.N) :
    (dat3 V c).leavesExact 2 t = owns (c : Thread nD τ) (ms3_2 t) fullShare ((dat3 V c).after 2 t) := by
  unfold Dat.leavesExact; rw [live3_2]
theorem leaves3_3 (c : Dev nD) (t : Fin cfg3.N) :
    (dat3 V c).leavesExact 3 t = owns (c : Thread nD τ) (ms3_3 t) fullShare ((dat3 V c).after 3 t) := by
  unfold Dat.leavesExact; rw [live3_3]
theorem leaves3_4 (c : Dev nD) (t : Fin cfg3.N) :
    (dat3 V c).leavesExact 4 t = owns (c : Thread nD τ) (ms3_4 t) fullShare ((dat3 V c).after 4 t) := by
  unfold Dat.leavesExact; rw [live3_4]
theorem leaves3_5 (c : Dev nD) (t : Fin cfg3.N) :
    (dat3 V c).leavesExact 5 t = owns (c : Thread nD τ) (ms3_5 t) fullShare ((dat3 V c).after 5 t) := by
  unfold Dat.leavesExact; rw [live3_5]
theorem leaves3_6 (c : Dev nD) (t : Fin cfg3.N) :
    (dat3 V c).leavesExact 6 t = owns (c : Thread nD τ) (ms3_6 t) fullShare ((dat3 V c).after 6 t) := by
  unfold Dat.leavesExact; rw [live3_6]
theorem leaves3_7 (c : Dev nD) (t : Fin cfg3.N) :
    (dat3 V c).leavesExact 7 t = owns (c : Thread nD τ) (ms3_7 t) fullShare ((dat3 V c).after 7 t) := by
  unfold Dat.leavesExact; rw [live3_7]

/-! ## The body obligation -/

/-- What the body is called with at tile `t`: the invariant, what the core owes, the ten windows' current buffers. -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d))
    ∗ (∃ d, owns (c : Thread nD τ) (ms3_9 t) fullShare ((dat3 V c).before 9 t d)))

/-- What it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t
    ∗ (dat3 V c).leavesExact 8 t
    ∗ (dat3 V c).leavesExact 9 t)

set_option maxHeartbeats 4800000 in
/-- The body at any tile. The seven inputs' buffers hold their blocks; the tile's number says which of the three cases
    it is, and that case's run applies. The invariant hands the body the accumulators at what the tile before left
    (at anything, at the first tile) and takes them back at this tile's sums; the small outputs are handed back
    untouched except at the last tile, where they receive the accumulators' final contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).owesAt () t.succ = (dat3 V c).owesAt () t.castSucc from rfl]
  rw [show (dat3 V c).Φ t.succ = Phi3 V c (t.val + 1) t.isLt from rfl, Phi3_succ]
  rw [leaves3_0, leaves3_1, leaves3_2, leaves3_3, leaves3_4, leaves3_5, leaves3_6, leaves3_7]
  rw [after3_0, after3_1, after3_2, after3_3, after3_4, after3_5, after3_6, after3_7]
  rw [Phi3_castSucc]
  have hN : t.val < 10 := lt_of_lt_of_eq t.isLt (show cfg3.N = 10 from N_3)
  by_cases h0 : t.val % 10 = 0
  · -- the first tile
    have h1 : ¬t.val % 10 = 9 := by omega
    have hz : t.val = 0 := by omega
    rw [Dat.leavesExact_idle (dat3 V c) 8 t (idle3_8 t (fun h => h1 ((hcond3_1 t).mp h))) (noFlush3_8 t (fun h => h1 ((hcond3_1 t).mp h)))]
    rw [Dat.leavesExact_idle (dat3 V c) 9 t (idle3_9 t (fun h => h1 ((hcond3_1 t).mp h))) (noFlush3_9 t (fun h => h1 ((hcond3_1 t).mp h)))]
    rw [outsAt3_first V c t h0 h1]
    unfold pt3_A; dsimp only
    unfold out3_A_7 sout3_A_0 sout3_A_1
    rw [Phi3_zero V c _ _ hz, PhiA3_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t)).2.2.2
      ((dat3 V c).before 8 t d8) ((dat3 V c).before 9 t d9) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [HS0]; · iexact HS0
    isplitl [HS1]; · iexact HS1
    iintro ⟨H0, H1, H2, H3, H4, H5, H6, H7, H8, H9, HS0, HS1⟩
    isplitl [HS0 HS1 Hrest Hg]
    · isplitr [Hg]
      · isplitl [HS0]
        · iapply (owns_of_cover3 (F := F) c scM3_0 VS3_0 _ (scover3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t))); iexact HS0
        isplitl [HS1]
        · iapply (owns_of_cover3 (F := F) c scM3_1 VS3_1 _ (scover3_A_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t))); iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iapply (owns_of_cover3 (F := F) c (ms3_7 t) VO3_7 _ (cover3_A_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t))); iexact H7
    isplitl [H8]; · iexists _; iexact H8
    iexists _; iexact H9
  · by_cases h1 : t.val % 10 = 9
    · -- the last tile
      have hz : t.val ≠ 0 := by omega
      rw [show (dat3 V c).leavesExact 8 t = owns (c : Thread nD τ) (ms3_8 t) fullShare ((dat3 V c).after 8 t) from by
        unfold Dat.leavesExact; rw [liveLast3_8 t ((hcond3_1 t).mpr h1)], after3_8]
      rw [show (dat3 V c).leavesExact 9 t = owns (c : Thread nD τ) (ms3_9 t) fullShare ((dat3 V c).after 9 t) from by
        unfold Dat.leavesExact; rw [liveLast3_9 t ((hcond3_1 t).mpr h1)], after3_9]
      rw [outsAt3_last V c t h0 h1]
      unfold pt3_C; dsimp only
      unfold out3_C_7 out3_C_8 out3_C_9 sout3_C_0 sout3_C_1
      rw [Phi3_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun3_C c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (outsAt3 V c (t.val - 1) (pred_lt3 t)).2.2.2.1 (outsAt3 V c (t.val - 1) (pred_lt3 t)).2.2.2.2).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 Hrest Hg]
      · isplitr [Hg]
        · isplitl [HS0]
          · iapply (owns_of_cover3 (F := F) c scM3_0 VS3_0 _ (scover3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (outsAt3 V c (t.val - 1) (pred_lt3 t)).2.2.2.1 (outsAt3 V c (t.val - 1) (pred_lt3 t)).2.2.2.2)); iexact HS0
          isplitl [HS1]
          · iapply (owns_of_cover3 (F := F) c scM3_1 VS3_1 _ (scover3_C_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (outsAt3 V c (t.val - 1) (pred_lt3 t)).2.2.2.1 (outsAt3 V c (t.val - 1) (pred_lt3 t)).2.2.2.2)); iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · iapply (owns_of_cover3 (F := F) c (ms3_7 t) VO3_7 _ (cover3_C_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (outsAt3 V c (t.val - 1) (pred_lt3 t)).2.2.2.1 (outsAt3 V c (t.val - 1) (pred_lt3 t)).2.2.2.2)); iexact H7
      isplitl [H8]
      · iapply (owns_of_cover3 (F := F) c (ms3_8 t) VO3_8 _ (cover3_C_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (outsAt3 V c (t.val - 1) (pred_lt3 t)).2.2.2.1 (outsAt3 V c (t.val - 1) (pred_lt3 t)).2.2.2.2)); iexact H8
      iapply (owns_of_cover3 (F := F) c (ms3_9 t) VO3_9 _ (cover3_C_9 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (outsAt3 V c (t.val - 1) (pred_lt3 t)).2.2.2.1 (outsAt3 V c (t.val - 1) (pred_lt3 t)).2.2.2.2)); iexact H9
    · -- a middle tile
      have hz : t.val ≠ 0 := by omega
      rw [Dat.leavesExact_idle (dat3 V c) 8 t (idle3_8 t (fun h => h1 ((hcond3_1 t).mp h))) (noFlush3_8 t (fun h => h1 ((hcond3_1 t).mp h)))]
      rw [Dat.leavesExact_idle (dat3 V c) 9 t (idle3_9 t (fun h => h1 ((hcond3_1 t).mp h))) (noFlush3_9 t (fun h => h1 ((hcond3_1 t).mp h)))]
      rw [outsAt3_mid V c t h0 h1]
      unfold pt3_B; dsimp only
      unfold out3_B_7 sout3_B_0 sout3_B_1
      rw [Phi3_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun3_B c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (outsAt3 V c (t.val - 1) (pred_lt3 t)).2.2.2.1 (outsAt3 V c (t.val - 1) (pred_lt3 t)).2.2.2.2).2.2.2
        ((dat3 V c).before 8 t d8) ((dat3 V c).before 9 t d9) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexact HS0
      isplitl [HS1]; · iexact HS1
      iintro ⟨H0, H1, H2, H3, H4, H5, H6, H7, H8, H9, HS0, HS1⟩
      isplitl [HS0 HS1 Hrest Hg]
      · isplitr [Hg]
        · isplitl [HS0]
          · iapply (owns_of_cover3 (F := F) c scM3_0 VS3_0 _ (scover3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (outsAt3 V c (t.val - 1) (pred_lt3 t)).2.2.2.1 (outsAt3 V c (t.val - 1) (pred_lt3 t)).2.2.2.2)); iexact HS0
          isplitl [HS1]
          · iapply (owns_of_cover3 (F := F) c scM3_1 VS3_1 _ (scover3_B_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (outsAt3 V c (t.val - 1) (pred_lt3 t)).2.2.2.1 (outsAt3 V c (t.val - 1) (pred_lt3 t)).2.2.2.2)); iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · iapply (owns_of_cover3 (F := F) c (ms3_7 t) VO3_7 _ (cover3_B_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (outsAt3 V c (t.val - 1) (pred_lt3 t)).2.2.2.1 (outsAt3 V c (t.val - 1) (pred_lt3 t)).2.2.2.2)); iexact H7
      isplitl [H8]; · iexists _; iexact H8
      iexists _; iexact H9

/-- The library's body obligation, at every tile. -/
theorem body_obligation3 (c : Dev nD) : BodyObligation (dat3 (F := F) V c) (defs₀ (F := F)) Variants.none () Set.univ := fun t => by
  rw [bigSep_W3, bigSep_W3]
  exact sound_body3 V c t

/-! ## The two ends of the invariant -/

/-- What the launch hands the region is the invariant before the first tile. -/
theorem Phi_in3 (c : Dev nD) : (Pipeline.ΦA (U := UR sig nD τ) (Val := Elt F) spec3 c : sProp 𝕄) ⊢ (dat3 V c).Φ 0 := by
  rw [show (dat3 V c).Φ 0 = Phi3 V c 0 (Nat.zero_le _) from rfl, Phi3_zero V c 0 _ rfl]

/-- After the last tile the invariant gives it back: the accumulators' named contents are forgotten. -/
theorem Phi_out3 (c : Dev nD) : (dat3 V c).Φ (Fin.last cfg3.N) ⊢ (Pipeline.ΦA (U := UR sig nD τ) (Val := Elt F) spec3 c : sProp 𝕄) := by
  have hne : (Fin.last cfg3.N).val ≠ 0 := by rw [Fin.val_last]; have : cfg3.N = 10 := N_3; omega
  rw [show (dat3 V c).Φ (Fin.last cfg3.N) = Phi3 V c (Fin.last cfg3.N).val (Nat.le_of_lt_succ (Fin.last cfg3.N).isLt) from rfl,
    Phi3_pos V c _ _ hne, PhiA3_eq]
  iintro ⟨⟨HS0, HS1, Hrest⟩, Hg⟩
  isplitl [HS0 HS1 Hrest]
  · isplitl [HS0 HS1]
    · isplitl [HS0]
      · iexists _; iexact HS0
      iexists _; iexact HS1
    iexact Hrest
  iexact Hg

end Cert.KernelIdeal.Hand

end
-- ==== Proof.KI.Reg4.lean ====
import proofs.«160050_j32744830665390_2_alg».proof.Proof.KI.Iface
import proofs.«160050_j32744830665390_2_alg».proof.Proof.KI.Reg2
import Idealize.ShloMosaic.Lib.ValueLayout

/-! # Region 4: normalise a row tile by the layer statistics, scale, shift, clamp at zero

The region walks the node axis in ten row tiles of 5000 rows. At each tile it is handed the tile of the
pre-normalisation activations and the four per-feature rows (mean, variance, scale, shift), and stores into the
output tile `max ((x - mean) * rsqrt (variance + ε) * scale + shift, 0)`, feature by feature. The four rows are
staged once, at the first tile, and found again unchanged at the later ones; the activations' tile is staged anew
at every tile; the output tile is written back at every tile.

First the frame half at a parameter `V` (the core's buffer contents when the region is entered): the blocks, what
the body leaves, the body's triple, the proof data and the body obligation. Then the value half: the output array
after the ten write-backs as one function of the five input arrays, row by row and feature by feature. -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4

variable (V : Entry F)

/-! ## The blocks the pipeline stages -/

/-- The block of window `w` at tile `t`: the window's rectangle at that tile, read off the window's array as the
    region finds it. For the activations and the output this is rows `5000 t … 5000 t + 4999`; for the four
    statistics rows it is the whole row at every tile. -/
def iblk4 (c : Dev nD) (w : Fin cfg4.W) (t : Fin cfg4.N) :
    ((cfg4.win w).xblock (cfg4.grid.coords t)).Idx → Elt F (cfg4.win w).elt :=
  ((cfg4.win w).blk t).view.read (Elt F) (V c (Pipeline.arrRef spec4 w))

/-! ## Each input window holds its block whenever the body is called

An input window of region 4 holds its block at every tile, staged at this tile or at an earlier one: a window not
staged anew has not moved (the statistics rows' block index is constant), so what an earlier tile left there, the
body having left it alone, is this tile's block. Stated for any proof data over `V`'s arrays whose body leaves the
window's block in place. -/

/-- The activations' tile, staged anew at every tile. -/
theorem held4_0_of {c : Dev nD} (dat : Dat τ (Elt F) Unit ℕ (UR sig nD τ) ℕ cfg4 c)
    (hA : dat.A 0 = V c (Pipeline.arrRef spec4 0)) (hafter : ∀ t, dat.after 0 t = iblk4 V c 0 t)
    (t : Fin cfg4.N) (d) : dat.before 0 t d = iblk4 V c 0 t := by
  refine (dat.before_in_eq_fetched 0 rfl (fun _ => rfl) (fun _ _ _ => rfl) (fun u => ?_) t d).trans ?_
  · rw [hafter]; unfold Dat.blockOf iblk4; rw [hA]; try rfl
  · unfold Dat.fetched Dat.blockOf iblk4; rw [hA]; try rfl

/-- The mean row, staged at the first tile only. -/
theorem held4_1_of {c : Dev nD} (dat : Dat τ (Elt F) Unit ℕ (UR sig nD τ) ℕ cfg4 c)
    (hA : dat.A 1 = V c (Pipeline.arrRef spec4 1)) (hafter : ∀ t, dat.after 1 t = iblk4 V c 1 t)
    (t : Fin cfg4.N) (d) : dat.before 1 t d = iblk4 V c 1 t := by
  refine (dat.before_in_eq_fetched 1 rfl (fun _ => rfl) (fun _ _ _ => rfl) (fun u => ?_) t d).trans ?_
  · rw [hafter]; unfold Dat.blockOf iblk4; rw [hA]; try rfl
  · unfold Dat.fetched Dat.blockOf iblk4; rw [hA]; try rfl

/-- The variance row, staged at the first tile only. -/
theorem held4_2_of {c : Dev nD} (dat : Dat τ (Elt F) Unit ℕ (UR sig nD τ) ℕ cfg4 c)
    (hA : dat.A 2 = V c (Pipeline.arrRef spec4 2)) (hafter : ∀ t, dat.after 2 t = iblk4 V c 2 t)
    (t : Fin cfg4.N) (d) : dat.before 2 t d = iblk4 V c 2 t := by
  refine (dat.before_in_eq_fetched 2 rfl (fun _ => rfl) (fun _ _ _ => rfl) (fun u => ?_) t d).trans ?_
  · rw [hafter]; unfold Dat.blockOf iblk4; rw [hA]; try rfl
  · unfold Dat.fetched Dat.blockOf iblk4; rw [hA]; try rfl

/-- The scale row, staged at the first tile only. -/
theorem held4_3_of {c : Dev nD} (dat : Dat τ (Elt F) Unit ℕ (UR sig nD τ) ℕ cfg4 c)
    (hA : dat.A 3 = V c (Pipeline.arrRef spec4 3)) (hafter : ∀ t, dat.after 3 t = iblk4 V c 3 t)
    (t : Fin cfg4.N) (d) : dat.before 3 t d = iblk4 V c 3 t := by
  refine (dat.before_in_eq_fetched 3 rfl (fun _ => rfl) (fun _ _ _ => rfl) (fun u => ?_) t d).trans ?_
  · rw [hafter]; unfold Dat.blockOf iblk4; rw [hA]; try rfl
  · unfold Dat.fetched Dat.blockOf iblk4; rw [hA]; try rfl

/-- The shift row, staged at the first tile only. -/
theorem held4_4_of {c : Dev nD} (dat : Dat τ (Elt F) Unit ℕ (UR sig nD τ) ℕ cfg4 c)
    (hA : dat.A 4 = V c (Pipeline.arrRef spec4 4)) (hafter : ∀ t, dat.after 4 t = iblk4 V c 4 t)
    (t : Fin cfg4.N) (d) : dat.before 4 t d = iblk4 V c 4 t := by
  refine (dat.before_in_eq_fetched 4 rfl (fun _ => rfl) (fun _ _ _ => rfl) (fun u => ?_) t d).trans ?_
  · rw [hafter]; unfold Dat.blockOf iblk4; rw [hA]; try rfl
  · unfold Dat.fetched Dat.blockOf iblk4; rw [hA]; try rfl

/-! ## The body's accesses and what it leaves in the output tile -/

/-- The whole 5000 × 128 tile: the one rectangle through which the body loads the activations and stores the
    result. -/
abbrev tile4 : Rect S5000x128 := Rect.unit (s := S5000x128) ![0, 0] S5000x128.size inb_S5000x128_S5000x128_0_0

/-- The whole 1 × 128 row: the rectangle through which the body loads each of the four statistics rows. -/
abbrev row4 : Rect S1x128 := Rect.unit (s := S1x128) ![0, 0] S1x128.size inb_S1x128_S1x128_0_0

/-- The output tile after the body, from the five input blocks: the body's single store, through the whole-tile
    rectangle, of the normalised, scaled, shifted and clamped activations (the skeleton's payload of the five
    loads). -/
def out4_5 (x : Vec F S5000x128 .f32) (mean var scale shift : Vec F S1x128 .f32) : Vec F S5000x128 .f32 :=
  View.canon [⟨tile4, k4_pay1 (View.ld x tile4) (View.ld mean row4) (View.ld var row4) (View.ld scale row4)
    (View.ld shift row4)⟩]

/-- That one store reaches every element of the tile. -/
theorem cover4_5 (p : Vec F S5000x128 .f32) (y : S5000x128.Idx) :
    ∃ pc ∈ ([⟨tile4, p⟩] : List (View.Piece (Elt F) S5000x128 .f32)), y ∈ pc.1.set :=
  View.cover_of_tiled [⟨tile4, p⟩] S5000x128.size (by rfl) y

/-! ## The body's triple -/

set_option maxHeartbeats 1000000 in
/-- The body on six whole staging memrefs — the five inputs at contents `x`, `mean`, `var`, `scale`, `shift`, the
    output at anything — runs to a state where the inputs are as they were and the output holds `out4_5` of them.
    (The body also loads the output tile before storing into it; the loaded value is not used.) -/
theorem sound_kernel4 (c : Dev nD) (E : Set ℕ) (i : grid4.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x : Vec F S5000x128 .f32) (mean var scale shift : Vec F S1x128 .f32) (K : PUnit → sProp 𝕄) :
    iprop(owns (c : Thread nD τ) arg1 fullShare x ∗ owns (c : Thread nD τ) arg2 fullShare mean
        ∗ owns (c : Thread nD τ) arg3 fullShare var ∗ owns (c : Thread nD τ) arg4 fullShare scale
        ∗ owns (c : Thread nD τ) arg5 fullShare shift ∗ (∃ d, owns (c : Thread nD τ) arg6 fullShare d)
        ∗ (iprop(owns (c : Thread nD τ) arg1 fullShare x ∗ owns (c : Thread nD τ) arg2 fullShare mean
            ∗ owns (c : Thread nD τ) arg3 fullShare var ∗ owns (c : Thread nD τ) arg4 fullShare scale
            ∗ owns (c : Thread nD τ) arg5 fullShare shift
            ∗ owns (c : Thread nD τ) arg6 fullShare (out4_5 x mean var scale shift)) -∗ K ⟨⟩))
      ⊢ wp frame (wpE (defs₀ (F := F)) Variants.none c none) E
          (cc4_bn_relu_kernel i arg1 harg1 arg2 harg2 arg3 harg3 arg4 harg4 arg5 harg5 arg6 harg6) K := by
  simp only [cc4_bn_relu_kernel_eq_skeleton]; unfold cc4_bn_relu_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_5 _)

/-! ## The proof data -/

/-- Region 4's proof data on core `c`: the six arrays as the region finds them; after the body at tile `t` each
    input's buffer still at its block and the output's at `out4_5` of the five input blocks; the invariant is the
    untouched rest of the core (scoped buffers, generator register); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- Its arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t
    = out4_5 (iblk4 V c 0 t) (iblk4 V c 1 t) (iblk4 V c 2 t) (iblk4 V c 3 t) (iblk4 V c 4 t) := by
  dsimp only [dat4]

/-- Each input's current buffer holds its block at every tile. -/
theorem before4_0 (c : Dev nD) (t : Fin cfg4.N) (d) : (dat4 V c).before 0 t d = iblk4 V c 0 t :=
  held4_0_of V (dat4 V c) (A_eq4 V c 0) (after4_0 V c) t d
theorem before4_1 (c : Dev nD) (t : Fin cfg4.N) (d) : (dat4 V c).before 1 t d = iblk4 V c 1 t :=
  held4_1_of V (dat4 V c) (A_eq4 V c 1) (after4_1 V c) t d
theorem before4_2 (c : Dev nD) (t : Fin cfg4.N) (d) : (dat4 V c).before 2 t d = iblk4 V c 2 t :=
  held4_2_of V (dat4 V c) (A_eq4 V c 2) (after4_2 V c) t d
theorem before4_3 (c : Dev nD) (t : Fin cfg4.N) (d) : (dat4 V c).before 3 t d = iblk4 V c 3 t :=
  held4_3_of V (dat4 V c) (A_eq4 V c 3) (after4_3 V c) t d
theorem before4_4 (c : Dev nD) (t : Fin cfg4.N) (d) : (dat4 V c).before 4 t d = iblk4 V c 4 t :=
  held4_4_of V (dat4 V c) (A_eq4 V c 4) (after4_4 V c) t d

/-- Full shares of every array. -/
theorem q_eq4 (c : Dev nD) (w : Fin cfg4.W) : (dat4 V c).q w = fullShare := by dsimp only [dat4]

/-- The core owes nothing at any tile. -/
theorem owed_eq4 (c : Dev nD) (t : Fin (cfg4.N + 1)) : (dat4 V c).owed t = 0 := by dsimp only [dat4]

/-- The invariant is the untouched rest of the core at every tile: what the region is entered with is the invariant
    before the first tile, -/
theorem Phi_in4 (c : Dev nD) :
    (Pipeline.ΦA (U := UR sig nD τ) (Val := Elt F) spec4 c : sProp 𝕄) ⊢ (dat4 V c).Φ 0 := .rfl

/-- and the invariant after the last tile is what the region gives back. -/
theorem Phi_out4 (c : Dev nD) :
    (dat4 V c).Φ (Fin.last cfg4.N) ⊢ (Pipeline.ΦA (U := UR sig nD τ) (Val := Elt F) spec4 c : sProp 𝕄) := .rfl

/-! ## The body obligation -/

/-- What the body is called with at tile `t`: the invariant, the core's dues, and the six current staging buffers,
    each at what the pipeline put or left there. -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- What it hands back. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any tile: the five inputs hold their blocks, so the body's triple applies; the invariant and the
    dues pass through untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t)
    (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for region 4, at every tile. -/
theorem body_obligation4 (c : Dev nD) :
    BodyObligation (dat4 (F := F) V c) (defs₀ (F := F)) Variants.none () Set.univ := fun t => by
  rw [bigSep_W4, bigSep_W4]
  exact sound_body4 V c t

/-! # The value half: the output array after the region -/

open Idealize.ShloMosaic.ValueIdx

/-! ## The output array as one function of the input arrays -/

/-- What the output array holds after the region: every activation through `bnRelu246` with its own feature's
    mean, variance, scale and shift. -/
def G4_5 (a : S50000x128.Idx → Elt F .f32) (mean var scale shift : S1x128.Idx → Elt F .f32) :
    S50000x128.Idx → Elt F .f32 :=
  fun i => bnRelu246 (a i) (mean (featOf246 i)) (var (featOf246 i)) (scale (featOf246 i)) (shift (featOf246 i))

/-- The body's payload at row `p`, feature `q` of the tile: the layout casts are identities, each broadcast of a
    statistics row reads the row at `q`, and the arithmetic is pointwise. -/
theorem pay4_at (x : Vec F S5000x128 .f32) (mean var scale shift : Vec F S1x128 .f32) (p : Fin 5000) (q : Fin 128) :
    k4_pay1 x mean var scale shift (ix2 p q)
      = bnRelu246 (x (ix2 p q)) (mean (ix2 (0 : Fin 1) q)) (var (ix2 (0 : Fin 1) q)) (scale (ix2 (0 : Fin 1) q))
          (shift (ix2 (0 : Fin 1) q)) := by
  unfold k4_pay1 bnRelu246
  simp only [shapeCast_self]
  show FloatOps.maximumf
      (FloatOps.addf
        (FloatOps.mulf
          (FloatOps.mulf
            (FloatOps.subf (x (ix2 p q)) (broadcastTo S5000x128 mean broadcasts_S1x128_S5000x128 (ix2 p q)))
            (broadcastTo S5000x128 (rsqrt (addf var (broadcast S1x128 (Scalar.ofBits .f32 0x3727C5AC#32))))
              broadcasts_S1x128_S5000x128 (ix2 p q)))
          (broadcastTo S5000x128 scale broadcasts_S1x128_S5000x128 (ix2 p q)))
        (broadcastTo S5000x128 shift broadcasts_S1x128_S5000x128 (ix2 p q)))
      (Scalar.ofBits .f32 0x00000000#32) = _
  rw [broadcastTo_1b_ab_apply mean, broadcastTo_1b_ab_apply scale, broadcastTo_1b_ab_apply shift,
    broadcastTo_1b_ab_apply (rsqrt (addf var (broadcast S1x128 (Scalar.ofBits .f32 0x3727C5AC#32))))]
  rfl

/-- The printed index maps over the ten tiles: the activations' block moves with the output's along the rows, no
    block moves along the features, and the statistics rows' blocks never move. -/
theorem idx_facts4 : ∀ t : Fin cfg4.N,
    win4_0.index t (0 : Fin 2) = win4_5.index t (0 : Fin 2) ∧ win4_0.index t (1 : Fin 2) = 0
    ∧ win4_5.index t (0 : Fin 2) = t.val ∧ win4_5.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- Every row tile is some point's output block. -/
theorem idx_onto4 : ∀ r : Fin 10, ∃ t : Fin cfg4.N, win4_5.index t = ![r.val, 0] :=
  (by decide +kernel : ∀ r : Fin 10, ∃ t : Fin grid4.N, win4_5.index t = ![r.val, 0])

/-- WHAT TILE `t` WRITES BACK is block `t` of `G4_5` of the five input arrays as the region finds them. -/
theorem flushed4_5_eq (c : Dev nD) (t : Fin cfg4.N) :
    (dat4 V c).flushed 5 t = ((cfg4.win 5).blk t).view.read (Elt F)
      (G4_5 (V c main_v128_0) (V c main_v141) (V c main_v142) (V c main_v143) (V c main_v144)) := by
  show (cfg4.win 5).cut (grid4.coords t) ((dat4 V c).after 5 t) = _
  rw [after4_5]
  unfold out4_5
  rw [View.canon_unit_zero zeroOff246]
  simp only [View.ld_unit_zero (S := S5000x128) zeroOff246, View.ld_unit_zero (S := S1x128) zeroOff246]
  obtain ⟨e0, e1, e2, e3, m0, m1, v0, v1, s0, s1, b0, b1⟩ := idx_facts4 t
  funext j
  obtain ⟨p, q, rfl⟩ : ∃ (p : Fin 5000) (q : Fin 128), j = ix2 p q := ⟨j 0, j 1, eq_ix2 j⟩
  show k4_pay1 (iblk4 V c 0 t) (iblk4 V c 1 t) (iblk4 V c 2 t) (iblk4 V c 3 t) (iblk4 V c 4 t) (ix2 p q)
    = G4_5 (V c main_v128_0) (V c main_v141) (V c main_v142) (V c main_v143) (V c main_v144)
        (((cfg4.win 5).blk t).view.emb (ix2 p q))
  rw [pay4_at]
  unfold G4_5
  have hx : iblk4 V c 0 t (ix2 p q) = V c main_v128_0 (((cfg4.win 5).blk t).view.emb (ix2 p q)) := by
    show V c main_v128_0 (((cfg4.win 0).blk t).view.emb (ix2 p q)) = _
    refine congrArg (V c main_v128_0) (funext fun a => Fin.ext ?_)
    match a with
    | ⟨0, _⟩ =>
      show win4_0.index t (0 : Fin 2) * 5000 + 1 * p.val = win4_5.index t (0 : Fin 2) * 5000 + 1 * p.val
      omega
    | ⟨1, _⟩ =>
      show win4_0.index t (1 : Fin 2) * 128 + 1 * q.val = win4_5.index t (1 : Fin 2) * 128 + 1 * q.val
      omega
  have hmean : iblk4 V c 1 t (ix2 (0 : Fin 1) q)
      = V c main_v141 (featOf246 (((cfg4.win 5).blk t).view.emb (ix2 p q))) := by
    show V c main_v141 (((cfg4.win 1).blk t).view.emb (ix2 (0 : Fin 1) q)) = _
    refine congrArg (V c main_v141) (funext fun a => Fin.ext ?_)
    match a with
    | ⟨0, _⟩ => show win4_1.index t (0 : Fin 2) * 1 + 1 * 0 = 0; omega
    | ⟨1, _⟩ =>
      show win4_1.index t (1 : Fin 2) * 128 + 1 * q.val = win4_5.index t (1 : Fin 2) * 128 + 1 * q.val
      omega
  have hvar : iblk4 V c 2 t (ix2 (0 : Fin 1) q)
      = V c main_v142 (featOf246 (((cfg4.win 5).blk t).view.emb (ix2 p q))) := by
    show V c main_v142 (((cfg4.win 2).blk t).view.emb (ix2 (0 : Fin 1) q)) = _
    refine congrArg (V c main_v142) (funext fun a => Fin.ext ?_)
    match a with
    | ⟨0, _⟩ => show win4_2.index t (0 : Fin 2) * 1 + 1 * 0 = 0; omega
    | ⟨1, _⟩ =>
      show win4_2.index t (1 : Fin 2) * 128 + 1 * q.val = win4_5.index t (1 : Fin 2) * 128 + 1 * q.val
      omega
  have hscale : iblk4 V c 3 t (ix2 (0 : Fin 1) q)
      = V c main_v143 (featOf246 (((cfg4.win 5).blk t).view.emb (ix2 p q))) := by
    show V c main_v143 (((cfg4.win 3).blk t).view.emb (ix2 (0 : Fin 1) q)) = _
    refine congrArg (V c main_v143) (funext fun a => Fin.ext ?_)
    match a with
    | ⟨0, _⟩ => show win4_3.index t (0 : Fin 2) * 1 + 1 * 0 = 0; omega
    | ⟨1, _⟩ =>
      show win4_3.index t (1 : Fin 2) * 128 + 1 * q.val = win4_5.index t (1 : Fin 2) * 128 + 1 * q.val
      omega
  have hshift : iblk4 V c 4 t (ix2 (0 : Fin 1) q)
      = V c main_v144 (featOf246 (((cfg4.win 5).blk t).view.emb (ix2 p q))) := by
    show V c main_v144 (((cfg4.win 4).blk t).view.emb (ix2 (0 : Fin 1) q)) = _
    refine congrArg (V c main_v144) (funext fun a => Fin.ext ?_)
    match a with
    | ⟨0, _⟩ => show win4_4.index t (0 : Fin 2) * 1 + 1 * 0 = 0; omega
    | ⟨1, _⟩ =>
      show win4_4.index t (1 : Fin 2) * 128 + 1 * q.val = win4_5.index t (1 : Fin 2) * 128 + 1 * q.val
      omega
  rw [hx, hmean, hvar, hscale, hshift]

/-- An index of the output array lies in tile `t`'s block iff each coordinate lies in the block's range on its
    axis. -/
theorem mem_blk4_5 (t : Fin cfg4.N) (i : S50000x128.Idx) :
    i ∈ ((cfg4.win 5).blk t).view.set ↔ ∀ a : Fin 2, win4_5.index t a * S5000x128.size a ≤ (i a).val
      ∧ (i a).val < win4_5.index t a * S5000x128.size a + S5000x128.size a := by
  show i ∈ ((View.whole main_v145).slice (win4_5.rect t)).set ↔ _
  rw [View.set_slice_whole, Rect.mem_set_unit]
  exact Iff.rfl

/-- The ten row tiles cover the output array: row `r` lies in tile `r / 5000`, which is written back. -/
theorem covered4_5 (i : S50000x128.Idx) :
    ∃ t : Fin cfg4.N, (cfg4.win 5).flush t = true ∧ i ∈ ((cfg4.win 5).blk t).view.set := by
  have hi0 : (i 0).val < 50000 := idx2_lt0 i
  have hi1 : (i 1).val < 128 := idx2_lt1 i
  obtain ⟨t, ht⟩ := idx_onto4 ⟨(i 0).val / 5000, by omega⟩
  have q0 : win4_5.index t (0 : Fin 2) = (i 0).val / 5000 := congrFun ht 0
  have q1 : win4_5.index t (1 : Fin 2) = 0 := congrFun ht 1
  refine ⟨t, flush4_5 t, ?_⟩
  rw [mem_blk4_5]
  intro a
  match a with
  | ⟨0, _⟩ =>
    show win4_5.index t (0 : Fin 2) * 5000 ≤ (i 0).val ∧ (i 0).val < win4_5.index t (0 : Fin 2) * 5000 + 5000
    omega
  | ⟨1, _⟩ =>
    show win4_5.index t (1 : Fin 2) * 128 ≤ (i 1).val ∧ (i 1).val < win4_5.index t (1 : Fin 2) * 128 + 128
    omega

/-- THE OUTPUT ARRAY after the region: `G4_5` of the five input arrays as the region finds them, everywhere. -/
theorem final4_5 (c : Dev nD) : (dat4 V c).arrAt 5 cfg4.N
    = G4_5 (V c main_v128_0) (V c main_v141) (V c main_v142) (V c main_v143) (V c main_v144) :=
  (dat4 V c).arrAt_eq_of_cover 5 _ (fun t _ => flushed4_5_eq V c t) covered4_5

end Region4

end Cert.KernelIdeal.Hand

end
-- ==== Proof.KI.Reg5.Runs.lean ====
/- Region 5 (the Chebyshev affine layer with column statistics), what its three control cases share:
   the two branch conditions of the body as propositions over the grid coordinates, decided over the ten
   points in closed form; where the two small output windows are idle and where they are written back;
   the memrefs the body is called with at a point. -/
import proofs.«160050_j32744830665390_2_alg».proof.Proof.KI.Iface

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- "This is the first row tile": the accumulators are cleared under it. The scalar chain the body computes from
    the grid coordinate, compared with 1. -/
abbrev cond5_0 (i : grid5.Coords) : Prop :=
  (Scalar.cmpi .ne (Scalar.extui (Scalar.cmpi .eq (BitVec.ofNat 32 (i 0).val) 0#32)) 0#32) = 1#1

/-- "This is the last row tile": the accumulators are copied to the two small outputs under it. -/
abbrev cond5_1 (i : grid5.Coords) : Prop := k5_cond2 i = 1#1

/-- The first condition holds exactly at point 0 of the ten. -/
theorem hcond5_0 : ∀ t : Fin cfg5.N, cond5_0 (grid5.coords t) ↔ t.val % 10 = 0 :=
  (by decide +kernel : ∀ t : Fin grid5.N, cond5_0 (grid5.coords t) ↔ t.val % 10 = 0)

/-- The second holds exactly at point 9. -/
theorem hcond5_1 : ∀ t : Fin cfg5.N, cond5_1 (grid5.coords t) ↔ t.val % 10 = 9 :=
  (by decide +kernel : ∀ t : Fin grid5.N, cond5_1 (grid5.coords t) ↔ t.val % 10 = 9)

/-! ## Idle and live points of the windows -/

/-- The seven inputs and the row-tile output are live at every point. -/
theorem live5_0 : ∀ i : grid5.Coords, cfg5.idle 0 i = false := fun _ => rfl
theorem live5_1 : ∀ i : grid5.Coords, cfg5.idle 1 i = false := fun _ => rfl
theorem live5_2 : ∀ i : grid5.Coords, cfg5.idle 2 i = false := fun _ => rfl
theorem live5_3 : ∀ i : grid5.Coords, cfg5.idle 3 i = false := fun _ => rfl
theorem live5_4 : ∀ i : grid5.Coords, cfg5.idle 4 i = false := fun _ => rfl
theorem live5_5 : ∀ i : grid5.Coords, cfg5.idle 5 i = false := fun _ => rfl
theorem live5_6 : ∀ i : grid5.Coords, cfg5.idle 6 i = false := fun _ => rfl
theorem live5_7 : ∀ i : grid5.Coords, cfg5.idle 7 i = false := fun _ => rfl

/-- Away from the last point the two small outputs are idle and not written back; at the last point they are live. -/
theorem idle5_8 : ∀ t : Fin cfg5.N, ¬cond5_1 (grid5.coords t) → cfg5.idle 8 (grid5.coords t) = true := by decide +kernel
theorem idle5_9 : ∀ t : Fin cfg5.N, ¬cond5_1 (grid5.coords t) → cfg5.idle 9 (grid5.coords t) = true := by decide +kernel
theorem noFlush5_8 : ∀ t : Fin cfg5.N, ¬cond5_1 (grid5.coords t) → (cfg5.win 8).flush t = false := by decide +kernel
theorem noFlush5_9 : ∀ t : Fin cfg5.N, ¬cond5_1 (grid5.coords t) → (cfg5.win 9).flush t = false := by decide +kernel
theorem liveLast5_8 : ∀ t : Fin cfg5.N, cond5_1 (grid5.coords t) → cfg5.idle 8 (grid5.coords t) = false := by decide +kernel
theorem liveLast5_9 : ∀ t : Fin cfg5.N, cond5_1 (grid5.coords t) → cfg5.idle 9 (grid5.coords t) = false := by decide +kernel

/-! ## The memrefs of a point -/

/-- Window `w`'s current staging memref at point `t`, spelled as the body is called with it, and its wholeness. -/
abbrev ms5_0 (t : Fin cfg5.N) : Memref sig .tc .vmem S5000x128 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S5000x128 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S5000x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S128x128 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S128x128 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S128x128 .f32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S1x128 .f32 := win5_6.stage (cfg5.slots t 6)
abbrev hs5_6 (t : Fin cfg5.N) : (ms5_6 t).IsWhole := hstage5_6 ((cfg5.slots t 6).cast nbuf5_6)
abbrev ms5_7 (t : Fin cfg5.N) : Memref sig .tc .vmem S5000x128 .f32 := win5_7.stage (cfg5.slots t 7)
abbrev hs5_7 (t : Fin cfg5.N) : (ms5_7 t).IsWhole := hstage5_7 ((cfg5.slots t 7).cast nbuf5_7)
abbrev ms5_8 (t : Fin cfg5.N) : Memref sig .tc .vmem S1x128 .f32 := win5_8.stage (cfg5.slots t 8)
abbrev hs5_8 (t : Fin cfg5.N) : (ms5_8 t).IsWhole := hstage5_8 ((cfg5.slots t 8).cast nbuf5_8)
abbrev ms5_9 (t : Fin cfg5.N) : Memref sig .tc .vmem S1x128 .f32 := win5_9.stage (cfg5.slots t 9)
abbrev hs5_9 (t : Fin cfg5.N) : (ms5_9 t).IsWhole := hstage5_9 ((cfg5.slots t 9).cast nbuf5_9)

/-- The two accumulators: whole scoped buffers of the kernel's own, passed after the windows. -/
abbrev scM5_0 : Memref sig .tc .vmem S1x128 .f32 := Memref.whole cc5_scratch0
abbrev scM5_1 : Memref sig .tc .vmem S1x128 .f32 := Memref.whole cc5_scratch1

/-- Views through which the contents of the written buffers are stated (which staging buffer of a window is taken
    does not matter: the pieces cover it). -/
abbrev VO5_7 : View sig .tc .vmem S5000x128 .f32 := (Memref.whole cc5_stg7_0 : Memref sig .tc .vmem S5000x128 .f32).view
abbrev VO5_8 : View sig .tc .vmem S1x128 .f32 := (Memref.whole cc5_stg8_0 : Memref sig .tc .vmem S1x128 .f32).view
abbrev VO5_9 : View sig .tc .vmem S1x128 .f32 := (Memref.whole cc5_stg9_0 : Memref sig .tc .vmem S1x128 .f32).view
abbrev VS5_0 : View sig .tc .vmem S1x128 .f32 := scM5_0.view
abbrev VS5_1 : View sig .tc .vmem S1x128 .f32 := scM5_1.view

end Cert.KernelIdeal.Hand

end
-- ==== Proof.KI.Reg5.RunA.lean ====
/- Region 5, the body at the FIRST row tile (the clearing branch taken, the copying branch not): the two
   accumulators are set to zero and the tile's column sum and column sum of squares added to them; the tile
   of the affine result is stored; the two small outputs are not touched. -/
import proofs.«160050_j32744830665390_2_alg».proof.Proof.KI.Iface
import proofs.«160050_j32744830665390_2_alg».proof.Proof.KI.Reg5.Runs
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid5.Coords)
  (arg1 : Memref sig .tc .vmem S5000x128 .f32) (harg1 : arg1.IsWhole)
  (arg2 : Memref sig .tc .vmem S5000x128 .f32) (harg2 : arg2.IsWhole)
  (arg3 : Memref sig .tc .vmem S5000x128 .f32) (harg3 : arg3.IsWhole)
  (arg4 : Memref sig .tc .vmem S128x128 .f32) (harg4 : arg4.IsWhole)
  (arg5 : Memref sig .tc .vmem S128x128 .f32) (harg5 : arg5.IsWhole)
  (arg6 : Memref sig .tc .vmem S128x128 .f32) (harg6 : arg6.IsWhole)
  (arg7 : Memref sig .tc .vmem S1x128 .f32) (harg7 : arg7.IsWhole)
  (arg8 : Memref sig .tc .vmem S5000x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x128 .f32) (harg11 : arg11.IsWhole)
  (arg12 : Memref sig .tc .vmem S1x128 .f32) (harg12 : arg12.IsWhole)

set_option maxHeartbeats 1000000 in
/-- The body's triple at a point where only the first condition holds. Given the seven input buffers at
    `x0 … x6`, the row-tile output and both accumulators at anything, and the two small outputs at `xi8`, `xi9`,
    it runs to the inputs and the small outputs as they were, the row-tile output with the stores `L7` applied
    and the accumulators with `LS0`, `LS1` applied. The three lists are not written down: they are whatever the
    symbolic run of the body leaves, fixed when each buffer is handed to the continuation. -/
def kernelRun5_A (hc0 : cond5_0 i) (hc1 : ¬cond5_1 i) (x0 x1 x2 : Vec F S5000x128 .f32) (x3 x4 x5 : Vec F S128x128 .f32) (x6 : Vec F S1x128 .f32) :
    Σ' (L7 : List (View.Piece (Elt F) S5000x128 .f32)), Σ' (LS0 : List (View.Piece (Elt F) S1x128 .f32)),
      { LS1 : List (View.Piece (Elt F) S1x128 .f32) //
      ∀ (xi8 xi9 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ (∃ d, owns (c : Thread nD τ) arg8 fullShare d)
            ∗ owns (c : Thread nD τ) arg9 fullShare xi8 ∗ owns (c : Thread nD τ) arg10 fullShare xi9
            ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
                ∗ (∃ f, arg8.view.loc (c : Thread nD τ) ↦[arg8.view.set]{fullShare} arg8.view.writes (Elt F) f L7)
                ∗ owns (c : Thread nD τ) arg9 fullShare xi8 ∗ owns (c : Thread nD τ) arg10 fullShare xi9
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)) -∗ K ⟨⟩))
          ⊢ wp frame (wpE (defs₀ (F := F)) Variants.none c none) E (cc5_cheb_affine_kernel i arg1 harg1 arg2 harg2 arg3 harg3 arg4 harg4 arg5 harg5 arg6 harg6 arg7 harg7 arg8 harg8 arg9 harg9 arg10 harg10 arg11 harg11 arg12 harg12) K } := by
  refine ⟨?_, ?_, ?_, fun xi8 xi9 E K => ?run⟩
  case run =>
    sl_unfold [cc5_cheb_affine_kernel]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
      ⟨%d7, %f7, -, H7⟩, ⟨%f8, %hf8, H8⟩, ⟨%f9, %hf9, H9⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg9.eq_unread hf8; obtain rfl := harg10.eq_unread hf9
    sl_exec (disch := first | exact hc0 | exact hc1)
    sl_step
    iapply Hk
    isplitl [H0]
    · iexists _; isplitr
      · ipureintro; exact harg1.read_unread _
      iexact H0
    isplitl [H1]
    · iexists _; isplitr
      · ipureintro; exact harg2.read_unread _
      iexact H1
    isplitl [H2]
    · iexists _; isplitr
      · ipureintro; exact harg3.read_unread _
      iexact H2
    isplitl [H3]
    · iexists _; isplitr
      · ipureintro; exact harg4.read_unread _
      iexact H3
    isplitl [H4]
    · iexists _; isplitr
      · ipureintro; exact harg5.read_unread _
      iexact H4
    isplitl [H5]
    · iexists _; isplitr
      · ipureintro; exact harg6.read_unread _
      iexact H5
    isplitl [H6]
    · iexists _; isplitr
      · ipureintro; exact harg7.read_unread _
      iexact H6
    isplitl [H7]
    · iexists _; iexact H7
    isplitl [H8]
    · iexists _; isplitr
      · ipureintro; exact harg9.read_unread _
      iexact H8
    isplitl [H9]
    · iexists _; isplitr
      · ipureintro; exact harg10.read_unread _
      iexact H9
    isplitl [HS0]
    · iexists _; iexact HS0
    iexists _; iexact HS1

end Cert.KernelIdeal.Hand

end
-- ==== Proof.KI.Reg5.RunB.lean ====
/- Region 5, the body at a MIDDLE row tile (neither branch taken): the tile's column sum and column sum of
   squares are added to what the accumulators held; the tile of the affine result is stored; the two small
   outputs are not touched. -/
import proofs.«160050_j32744830665390_2_alg».proof.Proof.KI.Iface
import proofs.«160050_j32744830665390_2_alg».proof.Proof.KI.Reg5.Runs
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid5.Coords)
  (arg1 : Memref sig .tc .vmem S5000x128 .f32) (harg1 : arg1.IsWhole)
  (arg2 : Memref sig .tc .vmem S5000x128 .f32) (harg2 : arg2.IsWhole)
  (arg3 : Memref sig .tc .vmem S5000x128 .f32) (harg3 : arg3.IsWhole)
  (arg4 : Memref sig .tc .vmem S128x128 .f32) (harg4 : arg4.IsWhole)
  (arg5 : Memref sig .tc .vmem S128x128 .f32) (harg5 : arg5.IsWhole)
  (arg6 : Memref sig .tc .vmem S128x128 .f32) (harg6 : arg6.IsWhole)
  (arg7 : Memref sig .tc .vmem S1x128 .f32) (harg7 : arg7.IsWhole)
  (arg8 : Memref sig .tc .vmem S5000x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x128 .f32) (harg11 : arg11.IsWhole)
  (arg12 : Memref sig .tc .vmem S1x128 .f32) (harg12 : arg12.IsWhole)

set_option maxHeartbeats 1000000 in
/-- The body's triple at a point where neither condition holds. Given the seven input buffers at `x0 … x6`, the
    accumulators at `xs0`, `xs1` (what the point before left), the row-tile output at anything and the two small
    outputs at `xi8`, `xi9`, it runs to the inputs and the small outputs as they were, the row-tile output with the
    stores `L7` applied and the accumulators with `LS0`, `LS1` applied; the lists are what the symbolic run of the
    body leaves. -/
def kernelRun5_B (hc0 : ¬cond5_0 i) (hc1 : ¬cond5_1 i) (x0 x1 x2 : Vec F S5000x128 .f32) (x3 x4 x5 : Vec F S128x128 .f32) (x6 : Vec F S1x128 .f32)
    (xs0 xs1 : Vec F S1x128 .f32) :
    Σ' (L7 : List (View.Piece (Elt F) S5000x128 .f32)), Σ' (LS0 : List (View.Piece (Elt F) S1x128 .f32)),
      { LS1 : List (View.Piece (Elt F) S1x128 .f32) //
      ∀ (xi8 xi9 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ (∃ d, owns (c : Thread nD τ) arg8 fullShare d)
            ∗ owns (c : Thread nD τ) arg9 fullShare xi8 ∗ owns (c : Thread nD τ) arg10 fullShare xi9
            ∗ owns (c : Thread nD τ) arg11 fullShare xs0 ∗ owns (c : Thread nD τ) arg12 fullShare xs1
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
                ∗ (∃ f, arg8.view.loc (c : Thread nD τ) ↦[arg8.view.set]{fullShare} arg8.view.writes (Elt F) f L7)
                ∗ owns (c : Thread nD τ) arg9 fullShare xi8 ∗ owns (c : Thread nD τ) arg10 fullShare xi9
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)) -∗ K ⟨⟩))
          ⊢ wp frame (wpE (defs₀ (F := F)) Variants.none c none) E (cc5_cheb_affine_kernel i arg1 harg1 arg2 harg2 arg3 harg3 arg4 harg4 arg5 harg5 arg6 harg6 arg7 harg7 arg8 harg8 arg9 harg9 arg10 harg10 arg11 harg11 arg12 harg12) K } := by
  refine ⟨?_, ?_, ?_, fun xi8 xi9 E K => ?run⟩
  case run =>
    sl_unfold [cc5_cheb_affine_kernel]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
      ⟨%d7, %f7, -, H7⟩, ⟨%f8, %hf8, H8⟩, ⟨%f9, %hf9, H9⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6; obtain rfl := harg9.eq_unread hf8; obtain rfl := harg10.eq_unread hf9
    obtain rfl := harg11.eq_unread hfs0; obtain rfl := harg12.eq_unread hfs1
    sl_exec (disch := first | exact hc0 | exact hc1)
    sl_step
    iapply Hk
    isplitl [H0]
    · iexists _; isplitr
      · ipureintro; exact harg1.read_unread _
      iexact H0
    isplitl [H1]
    · iexists _; isplitr
      · ipureintro; exact harg2.read_unread _
      iexact H1
    isplitl [H2]
    · iexists _; isplitr
      · ipureintro; exact harg3.read_unread _
      iexact H2
    isplitl [H3]
    · iexists _; isplitr
      · ipureintro; exact harg4.read_unread _
      iexact H3
    isplitl [H4]
    · iexists _; isplitr
      · ipureintro; exact harg5.read_unread _
      iexact H4
    isplitl [H5]
    · iexists _; isplitr
      · ipureintro; exact harg6.read_unread _
      iexact H5
    isplitl [H6]
    · iexists _; isplitr
      · ipureintro; exact harg7.read_unread _
      iexact H6
    isplitl [H7]
    · iexists _; iexact H7
    isplitl [H8]
    · iexists _; isplitr
      · ipureintro; exact harg9.read_unread _
      iexact H8
    isplitl [H9]
    · iexists _; isplitr
      · ipureintro; exact harg10.read_unread _
      iexact H9
    isplitl [HS0]
    · iexists _; iexact HS0
    iexists _; iexact HS1

end Cert.KernelIdeal.Hand

end
-- ==== Proof.KI.Reg5.RunC.lean ====
/- Region 5, the body at the LAST row tile (the clearing branch not taken, the copying branch taken): the
   tile's column sum and column sum of squares are added to what the accumulators held, the tile of the
   affine result is stored, and the accumulators' final contents are copied into the two small outputs. -/
import proofs.«160050_j32744830665390_2_alg».proof.Proof.KI.Iface
import proofs.«160050_j32744830665390_2_alg».proof.Proof.KI.Reg5.Runs
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid5.Coords)
  (arg1 : Memref sig .tc .vmem S5000x128 .f32) (harg1 : arg1.IsWhole)
  (arg2 : Memref sig .tc .vmem S5000x128 .f32) (harg2 : arg2.IsWhole)
  (arg3 : Memref sig .tc .vmem S5000x128 .f32) (harg3 : arg3.IsWhole)
  (arg4 : Memref sig .tc .vmem S128x128 .f32) (harg4 : arg4.IsWhole)
  (arg5 : Memref sig .tc .vmem S128x128 .f32) (harg5 : arg5.IsWhole)
  (arg6 : Memref sig .tc .vmem S128x128 .f32) (harg6 : arg6.IsWhole)
  (arg7 : Memref sig .tc .vmem S1x128 .f32) (harg7 : arg7.IsWhole)
  (arg8 : Memref sig .tc .vmem S5000x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x128 .f32) (harg11 : arg11.IsWhole)
  (arg12 : Memref sig .tc .vmem S1x128 .f32) (harg12 : arg12.IsWhole)

set_option maxHeartbeats 1000000 in
/-- The body's triple at a point where only the second condition holds. Given the seven input buffers at
    `x0 … x6`, the accumulators at `xs0`, `xs1` (what the point before left) and all three outputs at anything, it
    runs to the inputs as they were, the three outputs with the stores `L7`, `L8`, `L9` applied and the accumulators
    with `LS0`, `LS1` applied; the lists are what the symbolic run of the body leaves. -/
def kernelRun5_C (hc0 : ¬cond5_0 i) (hc1 : cond5_1 i) (x0 x1 x2 : Vec F S5000x128 .f32) (x3 x4 x5 : Vec F S128x128 .f32) (x6 : Vec F S1x128 .f32)
    (xs0 xs1 : Vec F S1x128 .f32) :
    Σ' (L7 : List (View.Piece (Elt F) S5000x128 .f32)), Σ' (L8 : List (View.Piece (Elt F) S1x128 .f32)),
      Σ' (L9 : List (View.Piece (Elt F) S1x128 .f32)), Σ' (LS0 : List (View.Piece (Elt F) S1x128 .f32)),
      { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ (∃ d, owns (c : Thread nD τ) arg8 fullShare d)
            ∗ (∃ d, owns (c : Thread nD τ) arg9 fullShare d) ∗ (∃ d, owns (c : Thread nD τ) arg10 fullShare d)
            ∗ owns (c : Thread nD τ) arg11 fullShare xs0 ∗ owns (c : Thread nD τ) arg12 fullShare xs1
            ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f L8)
                ∗ (∃ f, arg10.view.loc (c : Thread nD τ) ↦[arg10.view.set]{fullShare} arg10.view.writes (Elt F) f L9)
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)) -∗ K ⟨⟩))
          ⊢ wp frame (wpE (defs₀ (F := F)) Variants.none c none) E (cc5_cheb_affine_kernel i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    sl_unfold [cc5_cheb_affine_kernel]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
      ⟨%d7, %f7, -, H7⟩, ⟨%d8, %f8, -, H8⟩, ⟨%d9, %f9, -, H9⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6
    obtain rfl := harg11.eq_unread hfs0; obtain rfl := harg12.eq_unread hfs1
    sl_exec (disch := first | exact hc0 | exact hc1)
    sl_step
    iapply Hk
    isplitl [H0]
    · iexists _; isplitr
      · ipureintro; exact harg1.read_unread _
      iexact H0
    isplitl [H1]
    · iexists _; isplitr
      · ipureintro; exact harg2.read_unread _
      iexact H1
    isplitl [H2]
    · iexists _; isplitr
      · ipureintro; exact harg3.read_unread _
      iexact H2
    isplitl [H3]
    · iexists _; isplitr
      · ipureintro; exact harg4.read_unread _
      iexact H3
    isplitl [H4]
    · iexists _; isplitr
      · ipureintro; exact harg5.read_unread _
      iexact H4
    isplitl [H5]
    · iexists _; isplitr
      · ipureintro; exact harg6.read_unread _
      iexact H5
    isplitl [H6]
    · iexists _; isplitr
      · ipureintro; exact harg7.read_unread _
      iexact H6
    isplitl [H7]
    · iexists _; iexact H7
    isplitl [H8]
    · iexists _; iexact H8
    isplitl [H9]
    · iexists _; iexact H9
    isplitl [HS0]
    · iexists _; iexact HS0
    iexists _; iexact HS1

end Cert.KernelIdeal.Hand

end
-- ==== Proof.KI.Reg5.lean ====
/- Region 5 of the kernel program: one Chebyshev affine layer over ten row tiles of 5000 nodes, with the column sum and
   the column sum of squares of its result accumulated across the tiles in two small buffers and copied out at the
   last tile. This module: what each of the three control cases leaves in the buffers it stores into; what the outputs
   and the two accumulators hold after each tile, by recursion on the tile; the proof data of the pipelined region
   at a parameter `V` (the buffers' contents when the region is entered); the body obligation at every tile; and
   the two ends of the invariant. -/
import proofs.«160050_j32744830665390_2_alg».proof.Proof.KI.Iface
import proofs.«160050_j32744830665390_2_alg».proof.Proof.KI.Reg5.RunA
import proofs.«160050_j32744830665390_2_alg».proof.Proof.KI.Reg5.RunB
import proofs.«160050_j32744830665390_2_alg».proof.Proof.KI.Reg5.RunC
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

section Cases

variable (c : Dev nD) (i : grid5.Coords)
  (arg1 : Memref sig .tc .vmem S5000x128 .f32) (harg1 : arg1.IsWhole)
  (arg2 : Memref sig .tc .vmem S5000x128 .f32) (harg2 : arg2.IsWhole)
  (arg3 : Memref sig .tc .vmem S5000x128 .f32) (harg3 : arg3.IsWhole)
  (arg4 : Memref sig .tc .vmem S128x128 .f32) (harg4 : arg4.IsWhole)
  (arg5 : Memref sig .tc .vmem S128x128 .f32) (harg5 : arg5.IsWhole)
  (arg6 : Memref sig .tc .vmem S128x128 .f32) (harg6 : arg6.IsWhole)
  (arg7 : Memref sig .tc .vmem S1x128 .f32) (harg7 : arg7.IsWhole)
  (arg8 : Memref sig .tc .vmem S5000x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x128 .f32) (harg11 : arg11.IsWhole)
  (arg12 : Memref sig .tc .vmem S1x128 .f32) (harg12 : arg12.IsWhole)

/-! ### At the first row tile -/

/-- At the first row tile the stores into the row-tile output tile it: every index lies in some piece. -/
theorem cover5_A_7 (hc0 : cond5_0 i) (hc1 : ¬cond5_1 i) (x0 x1 x2 : Vec F S5000x128 .f32) (x3 x4 x5 : Vec F S128x128 .f32) (x6 : Vec F S1x128 .f32) (y : S5000x128.Idx) :
    ∃ pc ∈ (kernelRun5_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).1, y ∈ pc.1.set :=
  View.cover_of_tiledL (kernelRun5_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).1 S5000x128.size (by sl_kernel_rfl) y

/-- What the row-tile output holds after the body at the first row tile: the pieces read back (over contents that do not show,
    the pieces covering the buffer). -/
def out5_A_7 (hc0 : cond5_0 i) (hc1 : ¬cond5_1 i) (x0 x1 x2 : Vec F S5000x128 .f32) (x3 x4 x5 : Vec F S128x128 .f32) (x6 : Vec F S1x128 .f32) : Vec F S5000x128 .f32 :=
  VO5_7.read (Elt F) (VO5_7.writes (Elt F) VO5_7.junk (kernelRun5_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).1)

/-- At the first row tile the stores into the first accumulator tile it: every index lies in some piece. -/
theorem scover5_A_0 (hc0 : cond5_0 i) (hc1 : ¬cond5_1 i) (x0 x1 x2 : Vec F S5000x128 .f32) (x3 x4 x5 : Vec F S128x128 .f32) (x6 : Vec F S1x128 .f32) (y : S1x128.Idx) :
    ∃ pc ∈ (kernelRun5_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.1, y ∈ pc.1.set :=
  View.cover_of_tiledL (kernelRun5_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.1 S1x128.size (by sl_kernel_rfl) y

/-- What the first accumulator holds after the body at the first row tile: the pieces read back (over contents that do not show,
    the pieces covering the buffer). -/
def sout5_A_0 (hc0 : cond5_0 i) (hc1 : ¬cond5_1 i) (x0 x1 x2 : Vec F S5000x128 .f32) (x3 x4 x5 : Vec F S128x128 .f32) (x6 : Vec F S1x128 .f32) : Vec F S1x128 .f32 :=
  VS5_0.read (Elt F) (VS5_0.writes (Elt F) VS5_0.junk (kernelRun5_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.1)

/-- At the first row tile the stores into the second accumulator tile it: every index lies in some piece. -/
theorem scover5_A_1 (hc0 : cond5_0 i) (hc1 : ¬cond5_1 i) (x0 x1 x2 : Vec F S5000x128 .f32) (x3 x4 x5 : Vec F S128x128 .f32) (x6 : Vec F S1x128 .f32) (y : S1x128.Idx) :
    ∃ pc ∈ (kernelRun5_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.2.1, y ∈ pc.1.set :=
  View.cover_of_tiledL (kernelRun5_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.2.1 S1x128.size (by sl_kernel_rfl) y

/-- What the second accumulator holds after the body at the first row tile: the pieces read back (over contents that do not show,
    the pieces covering the buffer). -/
def sout5_A_1 (hc0 : cond5_0 i) (hc1 : ¬cond5_1 i) (x0 x1 x2 : Vec F S5000x128 .f32) (x3 x4 x5 : Vec F S128x128 .f32) (x6 : Vec F S1x128 .f32) : Vec F S1x128 .f32 :=
  VS5_1.read (Elt F) (VS5_1.writes (Elt F) VS5_1.junk (kernelRun5_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6).2.2.1)

/-! ### At a middle row tile -/

/-- At a middle row tile the stores into the row-tile output tile it: every index lies in some piece. -/
theorem cover5_B_7 (hc0 : ¬cond5_0 i) (hc1 : ¬cond5_1 i) (x0 x1 x2 : Vec F S5000x128 .f32) (x3 x4 x5 : Vec F S128x128 .f32) (x6 : Vec F S1x128 .f32) (xs0 xs1 : Vec F S1x128 .f32) (y : S5000x128.Idx) :
    ∃ pc ∈ (kernelRun5_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1, y ∈ pc.1.set :=
  View.cover_of_tiledL (kernelRun5_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1 S5000x128.size (by sl_kernel_rfl) y

/-- What the row-tile output holds after the body at a middle row tile: the pieces read back (over contents that do not show,
    the pieces covering the buffer). -/
def out5_B_7 (hc0 : ¬cond5_0 i) (hc1 : ¬cond5_1 i) (x0 x1 x2 : Vec F S5000x128 .f32) (x3 x4 x5 : Vec F S128x128 .f32) (x6 : Vec F S1x128 .f32) (xs0 xs1 : Vec F S1x128 .f32) : Vec F S5000x128 .f32 :=
  VO5_7.read (Elt F) (VO5_7.writes (Elt F) VO5_7.junk (kernelRun5_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1)

/-- At a middle row tile the stores into the first accumulator tile it: every index lies in some piece. -/
theorem scover5_B_0 (hc0 : ¬cond5_0 i) (hc1 : ¬cond5_1 i) (x0 x1 x2 : Vec F S5000x128 .f32) (x3 x4 x5 : Vec F S128x128 .f32) (x6 : Vec F S1x128 .f32) (xs0 xs1 : Vec F S1x128 .f32) (y : S1x128.Idx) :
    ∃ pc ∈ (kernelRun5_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ pc.1.set :=
  View.cover_of_tiledL (kernelRun5_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1 S1x128.size (by sl_kernel_rfl) y

/-- What the first accumulator holds after the body at a middle row tile: the pieces read back (over contents that do not show,
    the pieces covering the buffer). -/
def sout5_B_0 (hc0 : ¬cond5_0 i) (hc1 : ¬cond5_1 i) (x0 x1 x2 : Vec F S5000x128 .f32) (x3 x4 x5 : Vec F S128x128 .f32) (x6 : Vec F S1x128 .f32) (xs0 xs1 : Vec F S1x128 .f32) : Vec F S1x128 .f32 :=
  VS5_0.read (Elt F) (VS5_0.writes (Elt F) VS5_0.junk (kernelRun5_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1)

/-- At a middle row tile the stores into the second accumulator tile it: every index lies in some piece. -/
theorem scover5_B_1 (hc0 : ¬cond5_0 i) (hc1 : ¬cond5_1 i) (x0 x1 x2 : Vec F S5000x128 .f32) (x3 x4 x5 : Vec F S128x128 .f32) (x6 : Vec F S1x128 .f32) (xs0 xs1 : Vec F S1x128 .f32) (y : S1x128.Idx) :
    ∃ pc ∈ (kernelRun5_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL (kernelRun5_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1 S1x128.size (by sl_kernel_rfl) y

/-- What the second accumulator holds after the body at a middle row tile: the pieces read back (over contents that do not show,
    the pieces covering the buffer). -/
def sout5_B_1 (hc0 : ¬cond5_0 i) (hc1 : ¬cond5_1 i) (x0 x1 x2 : Vec F S5000x128 .f32) (x3 x4 x5 : Vec F S128x128 .f32) (x6 : Vec F S1x128 .f32) (xs0 xs1 : Vec F S1x128 .f32) : Vec F S1x128 .f32 :=
  VS5_1.read (Elt F) (VS5_1.writes (Elt F) VS5_1.junk (kernelRun5_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1)

/-! ### At the last row tile -/

/-- At the last row tile the stores into the row-tile output tile it: every index lies in some piece. -/
theorem cover5_C_7 (hc0 : ¬cond5_0 i) (hc1 : cond5_1 i) (x0 x1 x2 : Vec F S5000x128 .f32) (x3 x4 x5 : Vec F S128x128 .f32) (x6 : Vec F S1x128 .f32) (xs0 xs1 : Vec F S1x128 .f32) (y : S5000x128.Idx) :
    ∃ pc ∈ (kernelRun5_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1, y ∈ pc.1.set :=
  View.cover_of_tiledL (kernelRun5_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1 S5000x128.size (by sl_kernel_rfl) y

/-- What the row-tile output holds after the body at the last row tile: the pieces read back (over contents that do not show,
    the pieces covering the buffer). -/
def out5_C_7 (hc0 : ¬cond5_0 i) (hc1 : cond5_1 i) (x0 x1 x2 : Vec F S5000x128 .f32) (x3 x4 x5 : Vec F S128x128 .f32) (x6 : Vec F S1x128 .f32) (xs0 xs1 : Vec F S1x128 .f32) : Vec F S5000x128 .f32 :=
  VO5_7.read (Elt F) (VO5_7.writes (Elt F) VO5_7.junk (kernelRun5_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1)

/-- At the last row tile the stores into the column-sum output tile it: every index lies in some piece. -/
theorem cover5_C_8 (hc0 : ¬cond5_0 i) (hc1 : cond5_1 i) (x0 x1 x2 : Vec F S5000x128 .f32) (x3 x4 x5 : Vec F S128x128 .f32) (x6 : Vec F S1x128 .f32) (xs0 xs1 : Vec F S1x128 .f32) (y : S1x128.Idx) :
    ∃ pc ∈ (kernelRun5_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ pc.1.set :=
  View.cover_of_tiledL (kernelRun5_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1 S1x128.size (by sl_kernel_rfl) y

/-- What the column-sum output holds after the body at the last row tile: the pieces read back (over contents that do not show,
    the pieces covering the buffer). -/
def out5_C_8 (hc0 : ¬cond5_0 i) (hc1 : cond5_1 i) (x0 x1 x2 : Vec F S5000x128 .f32) (x3 x4 x5 : Vec F S128x128 .f32) (x6 : Vec F S1x128 .f32) (xs0 xs1 : Vec F S1x128 .f32) : Vec F S1x128 .f32 :=
  VO5_8.read (Elt F) (VO5_8.writes (Elt F) VO5_8.junk (kernelRun5_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1)

/-- At the last row tile the stores into the sum-of-squares output tile it: every index lies in some piece. -/
theorem cover5_C_9 (hc0 : ¬cond5_0 i) (hc1 : cond5_1 i) (x0 x1 x2 : Vec F S5000x128 .f32) (x3 x4 x5 : Vec F S128x128 .f32) (x6 : Vec F S1x128 .f32) (xs0 xs1 : Vec F S1x128 .f32) (y : S1x128.Idx) :
    ∃ pc ∈ (kernelRun5_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL (kernelRun5_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1 S1x128.size (by sl_kernel_rfl) y

/-- What the sum-of-squares output holds after the body at the last row tile: the pieces read back (over contents that do not show,
    the pieces covering the buffer). -/
def out5_C_9 (hc0 : ¬cond5_0 i) (hc1 : cond5_1 i) (x0 x1 x2 : Vec F S5000x128 .f32) (x3 x4 x5 : Vec F S128x128 .f32) (x6 : Vec F S1x128 .f32) (xs0 xs1 : Vec F S1x128 .f32) : Vec F S1x128 .f32 :=
  VO5_9.read (Elt F) (VO5_9.writes (Elt F) VO5_9.junk (kernelRun5_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1)

/-- At the last row tile the stores into the first accumulator tile it: every index lies in some piece. -/
theorem scover5_C_0 (hc0 : ¬cond5_0 i) (hc1 : cond5_1 i) (x0 x1 x2 : Vec F S5000x128 .f32) (x3 x4 x5 : Vec F S128x128 .f32) (x6 : Vec F S1x128 .f32) (xs0 xs1 : Vec F S1x128 .f32) (y : S1x128.Idx) :
    ∃ pc ∈ (kernelRun5_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1, y ∈ pc.1.set :=
  View.cover_of_tiledL (kernelRun5_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1 S1x128.size (by sl_kernel_rfl) y

/-- What the first accumulator holds after the body at the last row tile: the pieces read back (over contents that do not show,
    the pieces covering the buffer). -/
def sout5_C_0 (hc0 : ¬cond5_0 i) (hc1 : cond5_1 i) (x0 x1 x2 : Vec F S5000x128 .f32) (x3 x4 x5 : Vec F S128x128 .f32) (x6 : Vec F S1x128 .f32) (xs0 xs1 : Vec F S1x128 .f32) : Vec F S1x128 .f32 :=
  VS5_0.read (Elt F) (VS5_0.writes (Elt F) VS5_0.junk (kernelRun5_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1)

/-- At the last row tile the stores into the second accumulator tile it: every index lies in some piece. -/
theorem scover5_C_1 (hc0 : ¬cond5_0 i) (hc1 : cond5_1 i) (x0 x1 x2 : Vec F S5000x128 .f32) (x3 x4 x5 : Vec F S128x128 .f32) (x6 : Vec F S1x128 .f32) (xs0 xs1 : Vec F S1x128 .f32) (y : S1x128.Idx) :
    ∃ pc ∈ (kernelRun5_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.2.1, y ∈ pc.1.set :=
  View.cover_of_tiledL (kernelRun5_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.2.1 S1x128.size (by sl_kernel_rfl) y

/-- What the second accumulator holds after the body at the last row tile: the pieces read back (over contents that do not show,
    the pieces covering the buffer). -/
def sout5_C_1 (hc0 : ¬cond5_0 i) (hc1 : cond5_1 i) (x0 x1 x2 : Vec F S5000x128 .f32) (x3 x4 x5 : Vec F S128x128 .f32) (x6 : Vec F S1x128 .f32) (xs0 xs1 : Vec F S1x128 .f32) : Vec F S1x128 .f32 :=
  VS5_1.read (Elt F) (VS5_1.writes (Elt F) VS5_1.junk (kernelRun5_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.2.1)

end Cases

/-! ## The tiles' input blocks -/

variable (V : Entry F)

/-- Window `w`'s block at tile `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## After each tile -/

/-- What is tracked after a tile: the row-tile output, the two small outputs, the two accumulators. -/
abbrev Outs5 (F : FTy → Type) : Type :=
  Vec F S5000x128 .f32 × Vec F S1x128 .f32 × Vec F S1x128 .f32 × Vec F S1x128 .f32 × Vec F S1x128 .f32

/-- The first tile. The small outputs are not stored into there (nor written back): their entries repeat the
    accumulators' and are never consulted. -/
def pt5_A (c : Dev nD) (t : Fin cfg5.N) (h0 : t.val % 10 = 0) (h1 : ¬t.val % 10 = 9) : Outs5 F :=
  (out5_A_7 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t),
   sout5_A_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t),
   sout5_A_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t),
   sout5_A_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t),
   sout5_A_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t))

/-- A middle tile, over what the tile before left in the accumulators. The small outputs' entries as at the first tile. -/
def pt5_B (c : Dev nD) (t : Fin cfg5.N) (h0 : ¬t.val % 10 = 0) (h1 : ¬t.val % 10 = 9) (xs0 xs1 : Vec F S1x128 .f32) : Outs5 F :=
  (out5_B_7 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) xs0 xs1,
   sout5_B_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) xs0 xs1,
   sout5_B_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) xs0 xs1,
   sout5_B_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) xs0 xs1,
   sout5_B_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) xs0 xs1)

/-- The last tile, over what the tile before left in the accumulators: here the small outputs are stored into. -/
def pt5_C (c : Dev nD) (t : Fin cfg5.N) (h0 : ¬t.val % 10 = 0) (h1 : t.val % 10 = 9) (xs0 xs1 : Vec F S1x128 .f32) : Outs5 F :=
  (out5_C_7 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) xs0 xs1,
   out5_C_8 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) xs0 xs1,
   out5_C_9 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) xs0 xs1,
   sout5_C_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) xs0 xs1,
   sout5_C_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) xs0 xs1)

/-- A tile after the first is not the first among ten. -/
theorem succ_ne_first5 {n : ℕ} (hn : n + 1 < cfg5.N) : ¬(n + 1) % 10 = 0 := by
  have : n + 1 < 10 := lt_of_lt_of_eq hn (show cfg5.N = 10 from N_5)
  omega

/-- THE ACCUMULATION: what the outputs and the accumulators hold after tile `n`. The first tile clears and adds;
    every later tile adds onto what the tile before left; the last of them also copies out. -/
def outsAt5 (c : Dev nD) : (n : ℕ) → n < cfg5.N → Outs5 F
  | 0, hn => pt5_A V c ⟨0, hn⟩ (Nat.zero_mod _) (by show ¬(0 % 10 = 9); decide)
  | n + 1, hn =>
    if h1 : (n + 1) % 10 = 9 then
      pt5_C V c ⟨n + 1, hn⟩ (succ_ne_first5 hn) h1 (outsAt5 c n (Nat.lt_of_succ_lt hn)).2.2.2.1 (outsAt5 c n (Nat.lt_of_succ_lt hn)).2.2.2.2
    else
      pt5_B V c ⟨n + 1, hn⟩ (succ_ne_first5 hn) h1 (outsAt5 c n (Nat.lt_of_succ_lt hn)).2.2.2.1 (outsAt5 c n (Nat.lt_of_succ_lt hn)).2.2.2.2

/-- The recursion's own two equations at a tile after the first. -/
theorem outsAt5_succ_mid (c : Dev nD) (n : ℕ) (hn : n + 1 < cfg5.N) (h1 : ¬(n + 1) % 10 = 9) :
    outsAt5 V c (n + 1) hn
      = pt5_B V c ⟨n + 1, hn⟩ (succ_ne_first5 hn) h1 (outsAt5 V c n (Nat.lt_of_succ_lt hn)).2.2.2.1 (outsAt5 V c n (Nat.lt_of_succ_lt hn)).2.2.2.2 :=
  (dif_neg h1).trans rfl

theorem outsAt5_succ_last (c : Dev nD) (n : ℕ) (hn : n + 1 < cfg5.N) (h1 : (n + 1) % 10 = 9) :
    outsAt5 V c (n + 1) hn
      = pt5_C V c ⟨n + 1, hn⟩ (succ_ne_first5 hn) h1 (outsAt5 V c n (Nat.lt_of_succ_lt hn)).2.2.2.1 (outsAt5 V c n (Nat.lt_of_succ_lt hn)).2.2.2.2 :=
  (dif_pos h1).trans rfl

/-- The tile before `t` is a tile. -/
theorem pred_lt5 (t : Fin cfg5.N) : t.val - 1 < cfg5.N := Nat.lt_of_le_of_lt (Nat.sub_le _ _) t.isLt

theorem outsAt5_first (c : Dev nD) (t : Fin cfg5.N) (h0 : t.val % 10 = 0) (h1 : ¬t.val % 10 = 9) :
    outsAt5 V c t.val t.isLt = pt5_A V c t h0 h1 := by
  obtain ⟨n, hn⟩ := t
  cases n with
  | zero => exact rfl
  | succ n => exact absurd h0 (succ_ne_first5 hn)

theorem outsAt5_mid (c : Dev nD) (t : Fin cfg5.N) (h0 : ¬t.val % 10 = 0) (h1 : ¬t.val % 10 = 9) :
    outsAt5 V c t.val t.isLt
      = pt5_B V c t h0 h1 (outsAt5 V c (t.val - 1) (pred_lt5 t)).2.2.2.1 (outsAt5 V c (t.val - 1) (pred_lt5 t)).2.2.2.2 := by
  obtain ⟨n, hn⟩ := t
  cases n with
  | zero => exact absurd (Nat.zero_mod _) h0
  | succ n => exact (dif_neg h1).trans rfl

theorem outsAt5_last (c : Dev nD) (t : Fin cfg5.N) (h0 : ¬t.val % 10 = 0) (h1 : t.val % 10 = 9) :
    outsAt5 V c t.val t.isLt
      = pt5_C V c t h0 h1 (outsAt5 V c (t.val - 1) (pred_lt5 t)).2.2.2.1 (outsAt5 V c (t.val - 1) (pred_lt5 t)).2.2.2.2 := by
  obtain ⟨n, hn⟩ := t
  cases n with
  | zero => exact absurd (Nat.zero_mod _) h0
  | succ n => exact (dif_pos h1).trans rfl

/-! ## The invariant -/

/-- A buffer into which a covering list of pieces was written is owned at the pieces read back, whatever it held. -/
theorem owns_of_cover5 {S : Shape} (c : Dev nD) (a : Memref sig .tc .vmem S .f32) (v : View sig .tc .vmem S .f32)
    (L : List (View.Piece (Elt F) S .f32)) (hcov : ∀ y : S.Idx, ∃ pc ∈ L, y ∈ pc.1.set) :
    (iprop(∃ f, a.view.loc (c : Thread nD τ) ↦[a.view.set]{fullShare} a.view.writes (Elt F) f L) : sProp 𝕄)
      ⊢ owns (c : Thread nD τ) a fullShare (v.read (Elt F) (v.writes (Elt F) v.junk L)) := by
  iintro ⟨%f, H⟩
  unfold owns; iexists _; isplitr
  swap
  · iexact H
  ipureintro; exact View.read_writes_of_cover _ _ _ _ _ hcov

/-- The region invariant before tile `n`. Before the first tile it is what the launch hands over: every scoped
    buffer that is no staging buffer at some contents, and the generator register at some state. After tile `n`
    the two accumulators are held at that tile's sums, the other such buffers unopened, the register as before. -/
def Phi5 (c : Dev nD) : (n : ℕ) → n ≤ cfg5.N → sProp 𝕄
  | 0, _ => Pipeline.ΦA (U := UR sig nD τ) (Val := Elt F) spec5 c
  | n + 1, hn => iprop(iprop(owns (c : Thread nD τ) scM5_0 fullShare (outsAt5 V c n hn).2.2.2.1
        ∗ owns (c : Thread nD τ) scM5_1 fullShare (outsAt5 V c n hn).2.2.2.2
        ∗ Pipeline.scopedRestBut (Ix := Unit) (Name := ℕ) (U := UR sig nD τ) (Lvl := ℕ) (Val := Elt F) spec5 c [cc5_scratch0, cc5_scratch1])
      ∗ (∃ r, prngReg c r))

theorem Phi5_zero (c : Dev nD) (n : ℕ) (h : n ≤ cfg5.N) (hz : n = 0) :
    Phi5 V c n h = Pipeline.ΦA (U := UR sig nD τ) (Val := Elt F) spec5 c := by
  subst hz; rfl

theorem Phi5_succ (c : Dev nD) (n : ℕ) (hn : n < cfg5.N) :
    Phi5 V c (n + 1) hn = iprop(iprop(owns (c : Thread nD τ) scM5_0 fullShare (outsAt5 V c n hn).2.2.2.1
        ∗ owns (c : Thread nD τ) scM5_1 fullShare (outsAt5 V c n hn).2.2.2.2
        ∗ Pipeline.scopedRestBut (Ix := Unit) (Name := ℕ) (U := UR sig nD τ) (Lvl := ℕ) (Val := Elt F) spec5 c [cc5_scratch0, cc5_scratch1])
      ∗ (∃ r, prngReg c r)) := rfl

theorem Phi5_pos (c : Dev nD) (n : ℕ) (h : n ≤ cfg5.N) (hz : n ≠ 0) :
    Phi5 V c n h = iprop(iprop(owns (c : Thread nD τ) scM5_0 fullShare (outsAt5 V c (n - 1) (by omega)).2.2.2.1
        ∗ owns (c : Thread nD τ) scM5_1 fullShare (outsAt5 V c (n - 1) (by omega)).2.2.2.2
        ∗ Pipeline.scopedRestBut (Ix := Unit) (Name := ℕ) (U := UR sig nD τ) (Lvl := ℕ) (Val := Elt F) spec5 c [cc5_scratch0, cc5_scratch1])
      ∗ (∃ r, prngReg c r)) := by
  cases n with
  | zero => exact absurd rfl hz
  | succ n => rfl

/-- What the launch hands over, with the two accumulators taken out of the scoped rest as owned memrefs. -/
theorem PhiA5_eq (c : Dev nD) :
    (Pipeline.ΦA (U := UR sig nD τ) (Val := Elt F) spec5 c : sProp 𝕄)
      = iprop(iprop(iprop((∃ d, owns (c : Thread nD τ) scM5_0 fullShare d) ∗ (∃ d, owns (c : Thread nD τ) scM5_1 fullShare d))
          ∗ Pipeline.scopedRestBut (Ix := Unit) (Name := ℕ) (U := UR sig nD τ) (Lvl := ℕ) (Val := Elt F) spec5 c [cc5_scratch0, cc5_scratch1])
        ∗ (∃ r, prngReg c r)) := by
  unfold Pipeline.ΦA; rw [scopedRest5_split]; simp only [scM5_0, scM5_1, owns_whole]
  rfl

/-! ## The proof data -/

/-- The region's proof data on core `c`: the arrays as the region finds them; after the body at tile `t` each input's
    buffer at its block, the outputs' at the accumulation's entries; the invariant above; full shares; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => (outsAt5 V c t.val t.isLt).1
    | ⟨8, _⟩ => (outsAt5 V c t.val t.isLt).2.1
    | ⟨9, _⟩ => (outsAt5 V c t.val t.isLt).2.2.1
  Φ t := Phi5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem q_eq5 (c : Dev nD) (w : Fin cfg5.W) : (dat5 V c).q w = fullShare := by
  dsimp only [dat5]

theorem owed_eq5 (c : Dev nD) (t : Fin (cfg5.N + 1)) : (dat5 V c).owed t = 0 := by
  dsimp only [dat5]

theorem Phi5_castSucc (c : Dev nD) (t : Fin cfg5.N) :
    (dat5 V c).Φ t.castSucc = Phi5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = (outsAt5 V c t.val t.isLt).1 := by dsimp only [dat5]
theorem after5_8 (c : Dev nD) (t : Fin cfg5.N) : (dat5 V c).after 8 t = (outsAt5 V c t.val t.isLt).2.1 := by dsimp only [dat5]
theorem after5_9 (c : Dev nD) (t : Fin cfg5.N) : (dat5 V c).after 9 t = (outsAt5 V c t.val t.isLt).2.2.1 := by dsimp only [dat5]

/-! ## What each window's buffer holds when the body runs, and what it is left at -/

theorem before5_0 (c : Dev nD) (t : Fin cfg5.N) (d) : (dat5 V c).before 0 t d = iblk5 V c 0 t :=
  ((dat5 V c).before_in_eq_fetched 0 rfl live5_0 (fun _ _ _ => rfl)
    (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl live5_1 (fun _ _ _ => rfl)
    (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl live5_2 (fun _ _ _ => rfl)
    (fun t => by rw [after5_2]; unfold Dat.blockOf iblk5; rw [A_eq5]; try rfl) t d).trans
    (by unfold Dat.fetched Dat.blockOf iblk5; rw [A_eq5]; try rfl)
theorem before5_3 (c : Dev nD) (t : Fin cfg5.N) (d) : (dat5 V c).before 3 t d = iblk5 V c 3 t :=
  ((dat5 V c).before_in_eq_fetched 3 rfl live5_3 (fun _ _ _ => rfl)
    (fun t => by rw [after5_3]; unfold Dat.blockOf iblk5; rw [A_eq5]; try rfl) t d).trans
    (by unfold Dat.fetched Dat.blockOf iblk5; rw [A_eq5]; try rfl)
theorem before5_4 (c : Dev nD) (t : Fin cfg5.N) (d) : (dat5 V c).before 4 t d = iblk5 V c 4 t :=
  ((dat5 V c).before_in_eq_fetched 4 rfl live5_4 (fun _ _ _ => rfl)
    (fun t => by rw [after5_4]; unfold Dat.blockOf iblk5; rw [A_eq5]; try rfl) t d).trans
    (by unfold Dat.fetched Dat.blockOf iblk5; rw [A_eq5]; try rfl)
theorem before5_5 (c : Dev nD) (t : Fin cfg5.N) (d) : (dat5 V c).before 5 t d = iblk5 V c 5 t :=
  ((dat5 V c).before_in_eq_fetched 5 rfl live5_5 (fun _ _ _ => rfl)
    (fun t => by rw [after5_5]; unfold Dat.blockOf iblk5; rw [A_eq5]; try rfl) t d).trans
    (by unfold Dat.fetched Dat.blockOf iblk5; rw [A_eq5]; try rfl)
theorem before5_6 (c : Dev nD) (t : Fin cfg5.N) (d) : (dat5 V c).before 6 t d = iblk5 V c 6 t :=
  ((dat5 V c).before_in_eq_fetched 6 rfl live5_6 (fun _ _ _ => rfl)
    (fun t => by rw [after5_6]; unfold Dat.blockOf iblk5; rw [A_eq5]; try rfl) t d).trans
    (by unfold Dat.fetched Dat.blockOf iblk5; rw [A_eq5]; try rfl)

theorem leaves5_0 (c : Dev nD) (t : Fin cfg5.N) :
    (dat5 V c).leavesExact 0 t = owns (c : Thread nD τ) (ms5_0 t) fullShare ((dat5 V c).after 0 t) := by
  unfold Dat.leavesExact; rw [live5_0]
theorem leaves5_1 (c : Dev nD) (t : Fin cfg5.N) :
    (dat5 V c).leavesExact 1 t = owns (c : Thread nD τ) (ms5_1 t) fullShare ((dat5 V c).after 1 t) := by
  unfold Dat.leavesExact; rw [live5_1]
theorem leaves5_2 (c : Dev nD) (t : Fin cfg5.N) :
    (dat5 V c).leavesExact 2 t = owns (c : Thread nD τ) (ms5_2 t) fullShare ((dat5 V c).after 2 t) := by
  unfold Dat.leavesExact; rw [live5_2]
theorem leaves5_3 (c : Dev nD) (t : Fin cfg5.N) :
    (dat5 V c).leavesExact 3 t = owns (c : Thread nD τ) (ms5_3 t) fullShare ((dat5 V c).after 3 t) := by
  unfold Dat.leavesExact; rw [live5_3]
theorem leaves5_4 (c : Dev nD) (t : Fin cfg5.N) :
    (dat5 V c).leavesExact 4 t = owns (c : Thread nD τ) (ms5_4 t) fullShare ((dat5 V c).after 4 t) := by
  unfold Dat.leavesExact; rw [live5_4]
theorem leaves5_5 (c : Dev nD) (t : Fin cfg5.N) :
    (dat5 V c).leavesExact 5 t = owns (c : Thread nD τ) (ms5_5 t) fullShare ((dat5 V c).after 5 t) := by
  unfold Dat.leavesExact; rw [live5_5]
theorem leaves5_6 (c : Dev nD) (t : Fin cfg5.N) :
    (dat5 V c).leavesExact 6 t = owns (c : Thread nD τ) (ms5_6 t) fullShare ((dat5 V c).after 6 t) := by
  unfold Dat.leavesExact; rw [live5_6]
theorem leaves5_7 (c : Dev nD) (t : Fin cfg5.N) :
    (dat5 V c).leavesExact 7 t = owns (c : Thread nD τ) (ms5_7 t) fullShare ((dat5 V c).after 7 t) := by
  unfold Dat.leavesExact; rw [live5_7]

/-! ## The body obligation -/

/-- What the body is called with at tile `t`: the invariant, what the core owes, the ten windows' current buffers. -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d))
    ∗ (∃ d, owns (c : Thread nD τ) (ms5_6 t) fullShare ((dat5 V c).before 6 t d))
    ∗ (∃ d, owns (c : Thread nD τ) (ms5_7 t) fullShare ((dat5 V c).before 7 t d))
    ∗ (∃ d, owns (c : Thread nD τ) (ms5_8 t) fullShare ((dat5 V c).before 8 t d))
    ∗ (∃ d, owns (c : Thread nD τ) (ms5_9 t) fullShare ((dat5 V c).before 9 t d)))

/-- What it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t
    ∗ (dat5 V c).leavesExact 6 t
    ∗ (dat5 V c).leavesExact 7 t
    ∗ (dat5 V c).leavesExact 8 t
    ∗ (dat5 V c).leavesExact 9 t)

set_option maxHeartbeats 4800000 in
/-- The body at any tile. The seven inputs' buffers hold their blocks; the tile's number says which of the three cases
    it is, and that case's run applies. The invariant hands the body the accumulators at what the tile before left
    (at anything, at the first tile) and takes them back at this tile's sums; the small outputs are handed back
    untouched except at the last tile, where they receive the accumulators' final contents. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6]
  rw [show (dat5 V c).owesAt () t.succ = (dat5 V c).owesAt () t.castSucc from rfl]
  rw [show (dat5 V c).Φ t.succ = Phi5 V c (t.val + 1) t.isLt from rfl, Phi5_succ]
  rw [leaves5_0, leaves5_1, leaves5_2, leaves5_3, leaves5_4, leaves5_5, leaves5_6, leaves5_7]
  rw [after5_0, after5_1, after5_2, after5_3, after5_4, after5_5, after5_6, after5_7]
  rw [Phi5_castSucc]
  have hN : t.val < 10 := lt_of_lt_of_eq t.isLt (show cfg5.N = 10 from N_5)
  by_cases h0 : t.val % 10 = 0
  · -- the first tile
    have h1 : ¬t.val % 10 = 9 := by omega
    have hz : t.val = 0 := by omega
    rw [Dat.leavesExact_idle (dat5 V c) 8 t (idle5_8 t (fun h => h1 ((hcond5_1 t).mp h))) (noFlush5_8 t (fun h => h1 ((hcond5_1 t).mp h)))]
    rw [Dat.leavesExact_idle (dat5 V c) 9 t (idle5_9 t (fun h => h1 ((hcond5_1 t).mp h))) (noFlush5_9 t (fun h => h1 ((hcond5_1 t).mp h)))]
    rw [outsAt5_first V c t h0 h1]
    unfold pt5_A; dsimp only
    unfold out5_A_7 sout5_A_0 sout5_A_1
    rw [Phi5_zero V c _ _ hz, PhiA5_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun5_A c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t)).2.2.2
      ((dat5 V c).before 8 t d8) ((dat5 V c).before 9 t d9) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [HS0]; · iexact HS0
    isplitl [HS1]; · iexact HS1
    iintro ⟨H0, H1, H2, H3, H4, H5, H6, H7, H8, H9, HS0, HS1⟩
    isplitl [HS0 HS1 Hrest Hg]
    · isplitr [Hg]
      · isplitl [HS0]
        · iapply (owns_of_cover5 (F := F) c scM5_0 VS5_0 _ (scover5_A_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t))); iexact HS0
        isplitl [HS1]
        · iapply (owns_of_cover5 (F := F) c scM5_1 VS5_1 _ (scover5_A_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t))); iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iapply (owns_of_cover5 (F := F) c (ms5_7 t) VO5_7 _ (cover5_A_7 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t))); iexact H7
    isplitl [H8]; · iexists _; iexact H8
    iexists _; iexact H9
  · by_cases h1 : t.val % 10 = 9
    · -- the last tile
      have hz : t.val ≠ 0 := by omega
      rw [show (dat5 V c).leavesExact 8 t = owns (c : Thread nD τ) (ms5_8 t) fullShare ((dat5 V c).after 8 t) from by
        unfold Dat.leavesExact; rw [liveLast5_8 t ((hcond5_1 t).mpr h1)], after5_8]
      rw [show (dat5 V c).leavesExact 9 t = owns (c : Thread nD τ) (ms5_9 t) fullShare ((dat5 V c).after 9 t) from by
        unfold Dat.leavesExact; rw [liveLast5_9 t ((hcond5_1 t).mpr h1)], after5_9]
      rw [outsAt5_last V c t h0 h1]
      unfold pt5_C; dsimp only
      unfold out5_C_7 out5_C_8 out5_C_9 sout5_C_0 sout5_C_1
      rw [Phi5_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun5_C c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (outsAt5 V c (t.val - 1) (pred_lt5 t)).2.2.2.1 (outsAt5 V c (t.val - 1) (pred_lt5 t)).2.2.2.2).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 Hrest Hg]
      · isplitr [Hg]
        · isplitl [HS0]
          · iapply (owns_of_cover5 (F := F) c scM5_0 VS5_0 _ (scover5_C_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (outsAt5 V c (t.val - 1) (pred_lt5 t)).2.2.2.1 (outsAt5 V c (t.val - 1) (pred_lt5 t)).2.2.2.2)); iexact HS0
          isplitl [HS1]
          · iapply (owns_of_cover5 (F := F) c scM5_1 VS5_1 _ (scover5_C_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (outsAt5 V c (t.val - 1) (pred_lt5 t)).2.2.2.1 (outsAt5 V c (t.val - 1) (pred_lt5 t)).2.2.2.2)); iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · iapply (owns_of_cover5 (F := F) c (ms5_7 t) VO5_7 _ (cover5_C_7 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (outsAt5 V c (t.val - 1) (pred_lt5 t)).2.2.2.1 (outsAt5 V c (t.val - 1) (pred_lt5 t)).2.2.2.2)); iexact H7
      isplitl [H8]
      · iapply (owns_of_cover5 (F := F) c (ms5_8 t) VO5_8 _ (cover5_C_8 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (outsAt5 V c (t.val - 1) (pred_lt5 t)).2.2.2.1 (outsAt5 V c (t.val - 1) (pred_lt5 t)).2.2.2.2)); iexact H8
      iapply (owns_of_cover5 (F := F) c (ms5_9 t) VO5_9 _ (cover5_C_9 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) (outsAt5 V c (t.val - 1) (pred_lt5 t)).2.2.2.1 (outsAt5 V c (t.val - 1) (pred_lt5 t)).2.2.2.2)); iexact H9
    · -- a middle tile
      have hz : t.val ≠ 0 := by omega
      rw [Dat.leavesExact_idle (dat5 V c) 8 t (idle5_8 t (fun h => h1 ((hcond5_1 t).mp h))) (noFlush5_8 t (fun h => h1 ((hcond5_1 t).mp h)))]
      rw [Dat.leavesExact_idle (dat5 V c) 9 t (idle5_9 t (fun h => h1 ((hcond5_1 t).mp h))) (noFlush5_9 t (fun h => h1 ((hcond5_1 t).mp h)))]
      rw [outsAt5_mid V c t h0 h1]
      unfold pt5_B; dsimp only
      unfold out5_B_7 sout5_B_0 sout5_B_1
      rw [Phi5_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun5_B c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) (outsAt5 V c (t.val - 1) (pred_lt5 t)).2.2.2.1 (outsAt5 V c (t.val - 1) (pred_lt5 t)).2.2.2.2).2.2.2
        ((dat5 V c).before 8 t d8) ((dat5 V c).before 9 t d9) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexact HS0
      isplitl [HS1]; · iexact HS1
      iintro ⟨H0, H1, H2, H3, H4, H5, H6, H7, H8, H9, HS0, HS1⟩
      isplitl [HS0 HS1 Hrest Hg]
      · isplitr [Hg]
        · isplitl [HS0]
          · iapply (owns_of_cover5 (F := F) c scM5_0 VS5_0 _ (scover5_B_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) (outsAt5 V c (t.val - 1) (pred_lt5 t)).2.2.2.1 (outsAt5 V c (t.val - 1) (pred_lt5 t)).2.2.2.2)); iexact HS0
          isplitl [HS1]
          · iapply (owns_of_cover5 (F := F) c scM5_1 VS5_1 _ (scover5_B_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) (outsAt5 V c (t.val - 1) (pred_lt5 t)).2.2.2.1 (outsAt5 V c (t.val - 1) (pred_lt5 t)).2.2.2.2)); iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · iapply (owns_of_cover5 (F := F) c (ms5_7 t) VO5_7 _ (cover5_B_7 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) (outsAt5 V c (t.val - 1) (pred_lt5 t)).2.2.2.1 (outsAt5 V c (t.val - 1) (pred_lt5 t)).2.2.2.2)); iexact H7
      isplitl [H8]; · iexists _; iexact H8
      iexists _; iexact H9

/-- The library's body obligation, at every tile. -/
theorem body_obligation5 (c : Dev nD) : BodyObligation (dat5 (F := F) V c) (defs₀ (F := F)) Variants.none () Set.univ := fun t => by
  rw [bigSep_W5, bigSep_W5]
  exact sound_body5 V c t

/-! ## The two ends of the invariant -/

/-- What the launch hands the region is the invariant before the first tile. -/
theorem Phi_in5 (c : Dev nD) : (Pipeline.ΦA (U := UR sig nD τ) (Val := Elt F) spec5 c : sProp 𝕄) ⊢ (dat5 V c).Φ 0 := by
  rw [show (dat5 V c).Φ 0 = Phi5 V c 0 (Nat.zero_le _) from rfl, Phi5_zero V c 0 _ rfl]

/-- After the last tile the invariant gives it back: the accumulators' named contents are forgotten. -/
theorem Phi_out5 (c : Dev nD) : (dat5 V c).Φ (Fin.last cfg5.N) ⊢ (Pipeline.ΦA (U := UR sig nD τ) (Val := Elt F) spec5 c : sProp 𝕄) := by
  have hne : (Fin.last cfg5.N).val ≠ 0 := by rw [Fin.val_last]; have : cfg5.N = 10 := N_5; omega
  rw [show (dat5 V c).Φ (Fin.last cfg5.N) = Phi5 V c (Fin.last cfg5.N).val (Nat.le_of_lt_succ (Fin.last cfg5.N).isLt) from rfl,
    Phi5_pos V c _ _ hne, PhiA5_eq]
  iintro ⟨⟨HS0, HS1, Hrest⟩, Hg⟩
  isplitl [HS0 HS1 Hrest]
  · isplitl [HS0 HS1]
    · isplitl [HS0]
      · iexists _; iexact HS0
      iexists _; iexact HS1
    iexact Hrest
  iexact Hg

end Cert.KernelIdeal.Hand

end
-- ==== Proof.KI.Reg6.lean ====
import proofs.«160050_j32744830665390_2_alg».proof.Proof.KI.Iface
import proofs.«160050_j32744830665390_2_alg».proof.Proof.KI.Reg2
import Idealize.ShloMosaic.Lib.ValueLayout

/-! # Region 6: normalise a row tile by the layer statistics, scale, shift, clamp at zero

The region walks the node axis in ten row tiles of 5000 rows. At each tile it is handed the tile of the
pre-normalisation activations and the four per-feature rows (mean, variance, scale, shift), and stores into the
output tile `max ((x - mean) * rsqrt (variance + ε) * scale + shift, 0)`, feature by feature. The four rows are
staged once, at the first tile, and found again unchanged at the later ones; the activations' tile is staged anew
at every tile; the output tile is written back at every tile.

First the frame half at a parameter `V` (the core's buffer contents when the region is entered): the blocks, what
the body leaves, the body's triple, the proof data and the body obligation. Then the value half: the output array
after the ten write-backs as one function of the five input arrays, row by row and feature by feature. -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6

variable (V : Entry F)

/-! ## The blocks the pipeline stages -/

/-- The block of window `w` at tile `t`: the window's rectangle at that tile, read off the window's array as the
    region finds it. For the activations and the output this is rows `5000 t … 5000 t + 4999`; for the four
    statistics rows it is the whole row at every tile. -/
def iblk6 (c : Dev nD) (w : Fin cfg6.W) (t : Fin cfg6.N) :
    ((cfg6.win w).xblock (cfg6.grid.coords t)).Idx → Elt F (cfg6.win w).elt :=
  ((cfg6.win w).blk t).view.read (Elt F) (V c (Pipeline.arrRef spec6 w))

/-! ## Each input window holds its block whenever the body is called

An input window of region 6 holds its block at every tile, staged at this tile or at an earlier one: a window not
staged anew has not moved (the statistics rows' block index is constant), so what an earlier tile left there, the
body having left it alone, is this tile's block. Stated for any proof data over `V`'s arrays whose body leaves the
window's block in place. -/

/-- The activations' tile, staged anew at every tile. -/
theorem held6_0_of {c : Dev nD} (dat : Dat τ (Elt F) Unit ℕ (UR sig nD τ) ℕ cfg6 c)
    (hA : dat.A 0 = V c (Pipeline.arrRef spec6 0)) (hafter : ∀ t, dat.after 0 t = iblk6 V c 0 t)
    (t : Fin cfg6.N) (d) : dat.before 0 t d = iblk6 V c 0 t := by
  refine (dat.before_in_eq_fetched 0 rfl (fun _ => rfl) (fun _ _ _ => rfl) (fun u => ?_) t d).trans ?_
  · rw [hafter]; unfold Dat.blockOf iblk6; rw [hA]; try rfl
  · unfold Dat.fetched Dat.blockOf iblk6; rw [hA]; try rfl

/-- The mean row, staged at the first tile only. -/
theorem held6_1_of {c : Dev nD} (dat : Dat τ (Elt F) Unit ℕ (UR sig nD τ) ℕ cfg6 c)
    (hA : dat.A 1 = V c (Pipeline.arrRef spec6 1)) (hafter : ∀ t, dat.after 1 t = iblk6 V c 1 t)
    (t : Fin cfg6.N) (d) : dat.before 1 t d = iblk6 V c 1 t := by
  refine (dat.before_in_eq_fetched 1 rfl (fun _ => rfl) (fun _ _ _ => rfl) (fun u => ?_) t d).trans ?_
  · rw [hafter]; unfold Dat.blockOf iblk6; rw [hA]; try rfl
  · unfold Dat.fetched Dat.blockOf iblk6; rw [hA]; try rfl

/-- The variance row, staged at the first tile only. -/
theorem held6_2_of {c : Dev nD} (dat : Dat τ (Elt F) Unit ℕ (UR sig nD τ) ℕ cfg6 c)
    (hA : dat.A 2 = V c (Pipeline.arrRef spec6 2)) (hafter : ∀ t, dat.after 2 t = iblk6 V c 2 t)
    (t : Fin cfg6.N) (d) : dat.before 2 t d = iblk6 V c 2 t := by
  refine (dat.before_in_eq_fetched 2 rfl (fun _ => rfl) (fun _ _ _ => rfl) (fun u => ?_) t d).trans ?_
  · rw [hafter]; unfold Dat.blockOf iblk6; rw [hA]; try rfl
  · unfold Dat.fetched Dat.blockOf iblk6; rw [hA]; try rfl

/-- The scale row, staged at the first tile only. -/
theorem held6_3_of {c : Dev nD} (dat : Dat τ (Elt F) Unit ℕ (UR sig nD τ) ℕ cfg6 c)
    (hA : dat.A 3 = V c (Pipeline.arrRef spec6 3)) (hafter : ∀ t, dat.after 3 t = iblk6 V c 3 t)
    (t : Fin cfg6.N) (d) : dat.before 3 t d = iblk6 V c 3 t := by
  refine (dat.before_in_eq_fetched 3 rfl (fun _ => rfl) (fun _ _ _ => rfl) (fun u => ?_) t d).trans ?_
  · rw [hafter]; unfold Dat.blockOf iblk6; rw [hA]; try rfl
  · unfold Dat.fetched Dat.blockOf iblk6; rw [hA]; try rfl

/-- The shift row, staged at the first tile only. -/
theorem held6_4_of {c : Dev nD} (dat : Dat τ (Elt F) Unit ℕ (UR sig nD τ) ℕ cfg6 c)
    (hA : dat.A 4 = V c (Pipeline.arrRef spec6 4)) (hafter : ∀ t, dat.after 4 t = iblk6 V c 4 t)
    (t : Fin cfg6.N) (d) : dat.before 4 t d = iblk6 V c 4 t := by
  refine (dat.before_in_eq_fetched 4 rfl (fun _ => rfl) (fun _ _ _ => rfl) (fun u => ?_) t d).trans ?_
  · rw [hafter]; unfold Dat.blockOf iblk6; rw [hA]; try rfl
  · unfold Dat.fetched Dat.blockOf iblk6; rw [hA]; try rfl

/-! ## The body's accesses and what it leaves in the output tile -/

/-- The whole 5000 × 128 tile: the one rectangle through which the body loads the activations and stores the
    result. -/
abbrev tile6 : Rect S5000x128 := Rect.unit (s := S5000x128) ![0, 0] S5000x128.size inb_S5000x128_S5000x128_0_0

/-- The whole 1 × 128 row: the rectangle through which the body loads each of the four statistics rows. -/
abbrev row6 : Rect S1x128 := Rect.unit (s := S1x128) ![0, 0] S1x128.size inb_S1x128_S1x128_0_0

/-- The output tile after the body, from the five input blocks: the body's single store, through the whole-tile
    rectangle, of the normalised, scaled, shifted and clamped activations (the skeleton's payload of the five
    loads). -/
def out6_5 (x : Vec F S5000x128 .f32) (mean var scale shift : Vec F S1x128 .f32) : Vec F S5000x128 .f32 :=
  View.canon [⟨tile6, k6_pay1 (View.ld x tile6) (View.ld mean row6) (View.ld var row6) (View.ld scale row6)
    (View.ld shift row6)⟩]

/-- That one store reaches every element of the tile. -/
theorem cover6_5 (p : Vec F S5000x128 .f32) (y : S5000x128.Idx) :
    ∃ pc ∈ ([⟨tile6, p⟩] : List (View.Piece (Elt F) S5000x128 .f32)), y ∈ pc.1.set :=
  View.cover_of_tiled [⟨tile6, p⟩] S5000x128.size (by rfl) y

/-! ## The body's triple -/

set_option maxHeartbeats 1000000 in
/-- The body on six whole staging memrefs — the five inputs at contents `x`, `mean`, `var`, `scale`, `shift`, the
    output at anything — runs to a state where the inputs are as they were and the output holds `out6_5` of them.
    (The body also loads the output tile before storing into it; the loaded value is not used.) -/
theorem sound_kernel6 (c : Dev nD) (E : Set ℕ) (i : grid6.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x : Vec F S5000x128 .f32) (mean var scale shift : Vec F S1x128 .f32) (K : PUnit → sProp 𝕄) :
    iprop(owns (c : Thread nD τ) arg1 fullShare x ∗ owns (c : Thread nD τ) arg2 fullShare mean
        ∗ owns (c : Thread nD τ) arg3 fullShare var ∗ owns (c : Thread nD τ) arg4 fullShare scale
        ∗ owns (c : Thread nD τ) arg5 fullShare shift ∗ (∃ d, owns (c : Thread nD τ) arg6 fullShare d)
        ∗ (iprop(owns (c : Thread nD τ) arg1 fullShare x ∗ owns (c : Thread nD τ) arg2 fullShare mean
            ∗ owns (c : Thread nD τ) arg3 fullShare var ∗ owns (c : Thread nD τ) arg4 fullShare scale
            ∗ owns (c : Thread nD τ) arg5 fullShare shift
            ∗ owns (c : Thread nD τ) arg6 fullShare (out6_5 x mean var scale shift)) -∗ K ⟨⟩))
      ⊢ wp frame (wpE (defs₀ (F := F)) Variants.none c none) E
          (cc6_bn_relu_kernel i arg1 harg1 arg2 harg2 arg3 harg3 arg4 harg4 arg5 harg5 arg6 harg6) K := by
  simp only [cc6_bn_relu_kernel_eq_skeleton]; unfold cc6_bn_relu_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6_5 _)

/-! ## The proof data -/

/-- Region 6's proof data on core `c`: the six arrays as the region finds them; after the body at tile `t` each
    input's buffer still at its block and the output's at `out6_5` of the five input blocks; the invariant is the
    untouched rest of the core (scoped buffers, generator register); nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- Its arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t
    = out6_5 (iblk6 V c 0 t) (iblk6 V c 1 t) (iblk6 V c 2 t) (iblk6 V c 3 t) (iblk6 V c 4 t) := by
  dsimp only [dat6]

/-- Each input's current buffer holds its block at every tile. -/
theorem before6_0 (c : Dev nD) (t : Fin cfg6.N) (d) : (dat6 V c).before 0 t d = iblk6 V c 0 t :=
  held6_0_of V (dat6 V c) (A_eq6 V c 0) (after6_0 V c) t d
theorem before6_1 (c : Dev nD) (t : Fin cfg6.N) (d) : (dat6 V c).before 1 t d = iblk6 V c 1 t :=
  held6_1_of V (dat6 V c) (A_eq6 V c 1) (after6_1 V c) t d
theorem before6_2 (c : Dev nD) (t : Fin cfg6.N) (d) : (dat6 V c).before 2 t d = iblk6 V c 2 t :=
  held6_2_of V (dat6 V c) (A_eq6 V c 2) (after6_2 V c) t d
theorem before6_3 (c : Dev nD) (t : Fin cfg6.N) (d) : (dat6 V c).before 3 t d = iblk6 V c 3 t :=
  held6_3_of V (dat6 V c) (A_eq6 V c 3) (after6_3 V c) t d
theorem before6_4 (c : Dev nD) (t : Fin cfg6.N) (d) : (dat6 V c).before 4 t d = iblk6 V c 4 t :=
  held6_4_of V (dat6 V c) (A_eq6 V c 4) (after6_4 V c) t d

/-- Full shares of every array. -/
theorem q_eq6 (c : Dev nD) (w : Fin cfg6.W) : (dat6 V c).q w = fullShare := by dsimp only [dat6]

/-- The core owes nothing at any tile. -/
theorem owed_eq6 (c : Dev nD) (t : Fin (cfg6.N + 1)) : (dat6 V c).owed t = 0 := by dsimp only [dat6]

/-- The invariant is the untouched rest of the core at every tile: what the region is entered with is the invariant
    before the first tile, -/
theorem Phi_in6 (c : Dev nD) :
    (Pipeline.ΦA (U := UR sig nD τ) (Val := Elt F) spec6 c : sProp 𝕄) ⊢ (dat6 V c).Φ 0 := .rfl

/-- and the invariant after the last tile is what the region gives back. -/
theorem Phi_out6 (c : Dev nD) :
    (dat6 V c).Φ (Fin.last cfg6.N) ⊢ (Pipeline.ΦA (U := UR sig nD τ) (Val := Elt F) spec6 c : sProp 𝕄) := .rfl

/-! ## The body obligation -/

/-- What the body is called with at tile `t`: the invariant, the core's dues, and the six current staging buffers,
    each at what the pipeline put or left there. -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- What it hands back. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any tile: the five inputs hold their blocks, so the body's triple applies; the invariant and the
    dues pass through untouched. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t)
    (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for region 6, at every tile. -/
theorem body_obligation6 (c : Dev nD) :
    BodyObligation (dat6 (F := F) V c) (defs₀ (F := F)) Variants.none () Set.univ := fun t => by
  rw [bigSep_W6, bigSep_W6]
  exact sound_body6 V c t

/-! # The value half: the output array after the region -/

open Idealize.ShloMosaic.ValueIdx

/-! ## The output array as one function of the input arrays -/

/-- What the output array holds after the region: every activation through `bnRelu246` with its own feature's
    mean, variance, scale and shift. -/
def G6_5 (a : S50000x128.Idx → Elt F .f32) (mean var scale shift : S1x128.Idx → Elt F .f32) :
    S50000x128.Idx → Elt F .f32 :=
  fun i => bnRelu246 (a i) (mean (featOf246 i)) (var (featOf246 i)) (scale (featOf246 i)) (shift (featOf246 i))

/-- The body's payload at row `p`, feature `q` of the tile: the layout casts are identities, each broadcast of a
    statistics row reads the row at `q`, and the arithmetic is pointwise. -/
theorem pay6_at (x : Vec F S5000x128 .f32) (mean var scale shift : Vec F S1x128 .f32) (p : Fin 5000) (q : Fin 128) :
    k6_pay1 x mean var scale shift (ix2 p q)
      = bnRelu246 (x (ix2 p q)) (mean (ix2 (0 : Fin 1) q)) (var (ix2 (0 : Fin 1) q)) (scale (ix2 (0 : Fin 1) q))
          (shift (ix2 (0 : Fin 1) q)) := by
  unfold k6_pay1 bnRelu246
  simp only [shapeCast_self]
  show FloatOps.maximumf
      (FloatOps.addf
        (FloatOps.mulf
          (FloatOps.mulf
            (FloatOps.subf (x (ix2 p q)) (broadcastTo S5000x128 mean broadcasts_S1x128_S5000x128 (ix2 p q)))
            (broadcastTo S5000x128 (rsqrt (addf var (broadcast S1x128 (Scalar.ofBits .f32 0x3727C5AC#32))))
              broadcasts_S1x128_S5000x128 (ix2 p q)))
          (broadcastTo S5000x128 scale broadcasts_S1x128_S5000x128 (ix2 p q)))
        (broadcastTo S5000x128 shift broadcasts_S1x128_S5000x128 (ix2 p q)))
      (Scalar.ofBits .f32 0x00000000#32) = _
  rw [broadcastTo_1b_ab_apply mean, broadcastTo_1b_ab_apply scale, broadcastTo_1b_ab_apply shift,
    broadcastTo_1b_ab_apply (rsqrt (addf var (broadcast S1x128 (Scalar.ofBits .f32 0x3727C5AC#32))))]
  rfl

/-- The printed index maps over the ten tiles: the activations' block moves with the output's along the rows, no
    block moves along the features, and the statistics rows' blocks never move. -/
theorem idx_facts6 : ∀ t : Fin cfg6.N,
    win6_0.index t (0 : Fin 2) = win6_5.index t (0 : Fin 2) ∧ win6_0.index t (1 : Fin 2) = 0
    ∧ win6_5.index t (0 : Fin 2) = t.val ∧ win6_5.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0 :=
  (by decide +kernel : ∀ t : Fin grid6.N, _)

/-- Every row tile is some point's output block. -/
theorem idx_onto6 : ∀ r : Fin 10, ∃ t : Fin cfg6.N, win6_5.index t = ![r.val, 0] :=
  (by decide +kernel : ∀ r : Fin 10, ∃ t : Fin grid6.N, win6_5.index t = ![r.val, 0])

/-- WHAT TILE `t` WRITES BACK is block `t` of `G6_5` of the five input arrays as the region finds them. -/
theorem flushed6_5_eq (c : Dev nD) (t : Fin cfg6.N) :
    (dat6 V c).flushed 5 t = ((cfg6.win 5).blk t).view.read (Elt F)
      (G6_5 (V c main_v181_0) (V c main_v194) (V c main_v195) (V c main_v196) (V c main_v197)) := by
  show (cfg6.win 5).cut (grid6.coords t) ((dat6 V c).after 5 t) = _
  rw [after6_5]
  unfold out6_5
  rw [View.canon_unit_zero zeroOff246]
  simp only [View.ld_unit_zero (S := S5000x128) zeroOff246, View.ld_unit_zero (S := S1x128) zeroOff246]
  obtain ⟨e0, e1, e2, e3, m0, m1, v0, v1, s0, s1, b0, b1⟩ := idx_facts6 t
  funext j
  obtain ⟨p, q, rfl⟩ : ∃ (p : Fin 5000) (q : Fin 128), j = ix2 p q := ⟨j 0, j 1, eq_ix2 j⟩
  show k6_pay1 (iblk6 V c 0 t) (iblk6 V c 1 t) (iblk6 V c 2 t) (iblk6 V c 3 t) (iblk6 V c 4 t) (ix2 p q)
    = G6_5 (V c main_v181_0) (V c main_v194) (V c main_v195) (V c main_v196) (V c main_v197)
        (((cfg6.win 5).blk t).view.emb (ix2 p q))
  rw [pay6_at]
  unfold G6_5
  have hx : iblk6 V c 0 t (ix2 p q) = V c main_v181_0 (((cfg6.win 5).blk t).view.emb (ix2 p q)) := by
    show V c main_v181_0 (((cfg6.win 0).blk t).view.emb (ix2 p q)) = _
    refine congrArg (V c main_v181_0) (funext fun a => Fin.ext ?_)
    match a with
    | ⟨0, _⟩ =>
      show win6_0.index t (0 : Fin 2) * 5000 + 1 * p.val = win6_5.index t (0 : Fin 2) * 5000 + 1 * p.val
      omega
    | ⟨1, _⟩ =>
      show win6_0.index t (1 : Fin 2) * 128 + 1 * q.val = win6_5.index t (1 : Fin 2) * 128 + 1 * q.val
      omega
  have hmean : iblk6 V c 1 t (ix2 (0 : Fin 1) q)
      = V c main_v194 (featOf246 (((cfg6.win 5).blk t).view.emb (ix2 p q))) := by
    show V c main_v194 (((cfg6.win 1).blk t).view.emb (ix2 (0 : Fin 1) q)) = _
    refine congrArg (V c main_v194) (funext fun a => Fin.ext ?_)
    match a with
    | ⟨0, _⟩ => show win6_1.index t (0 : Fin 2) * 1 + 1 * 0 = 0; omega
    | ⟨1, _⟩ =>
      show win6_1.index t (1 : Fin 2) * 128 + 1 * q.val = win6_5.index t (1 : Fin 2) * 128 + 1 * q.val
      omega
  have hvar : iblk6 V c 2 t (ix2 (0 : Fin 1) q)
      = V c main_v195 (featOf246 (((cfg6.win 5).blk t).view.emb (ix2 p q))) := by
    show V c main_v195 (((cfg6.win 2).blk t).view.emb (ix2 (0 : Fin 1) q)) = _
    refine congrArg (V c main_v195) (funext fun a => Fin.ext ?_)
    match a with
    | ⟨0, _⟩ => show win6_2.index t (0 : Fin 2) * 1 + 1 * 0 = 0; omega
    | ⟨1, _⟩ =>
      show win6_2.index t (1 : Fin 2) * 128 + 1 * q.val = win6_5.index t (1 : Fin 2) * 128 + 1 * q.val
      omega
  have hscale : iblk6 V c 3 t (ix2 (0 : Fin 1) q)
      = V c main_v196 (featOf246 (((cfg6.win 5).blk t).view.emb (ix2 p q))) := by
    show V c main_v196 (((cfg6.win 3).blk t).view.emb (ix2 (0 : Fin 1) q)) = _
    refine congrArg (V c main_v196) (funext fun a => Fin.ext ?_)
    match a with
    | ⟨0, _⟩ => show win6_3.index t (0 : Fin 2) * 1 + 1 * 0 = 0; omega
    | ⟨1, _⟩ =>
      show win6_3.index t (1 : Fin 2) * 128 + 1 * q.val = win6_5.index t (1 : Fin 2) * 128 + 1 * q.val
      omega
  have hshift : iblk6 V c 4 t (ix2 (0 : Fin 1) q)
      = V c main_v197 (featOf246 (((cfg6.win 5).blk t).view.emb (ix2 p q))) := by
    show V c main_v197 (((cfg6.win 4).blk t).view.emb (ix2 (0 : Fin 1) q)) = _
    refine congrArg (V c main_v197) (funext fun a => Fin.ext ?_)
    match a with
    | ⟨0, _⟩ => show win6_4.index t (0 : Fin 2) * 1 + 1 * 0 = 0; omega
    | ⟨1, _⟩ =>
      show win6_4.index t (1 : Fin 2) * 128 + 1 * q.val = win6_5.index t (1 : Fin 2) * 128 + 1 * q.val
      omega
  rw [hx, hmean, hvar, hscale, hshift]

/-- An index of the output array lies in tile `t`'s block iff each coordinate lies in the block's range on its
    axis. -/
theorem mem_blk6_5 (t : Fin cfg6.N) (i : S50000x128.Idx) :
    i ∈ ((cfg6.win 5).blk t).view.set ↔ ∀ a : Fin 2, win6_5.index t a * S5000x128.size a ≤ (i a).val
      ∧ (i a).val < win6_5.index t a * S5000x128.size a + S5000x128.size a := by
  show i ∈ ((View.whole main_v198).slice (win6_5.rect t)).set ↔ _
  rw [View.set_slice_whole, Rect.mem_set_unit]
  exact Iff.rfl

/-- The ten row tiles cover the output array: row `r` lies in tile `r / 5000`, which is written back. -/
theorem covered6_5 (i : S50000x128.Idx) :
    ∃ t : Fin cfg6.N, (cfg6.win 5).flush t = true ∧ i ∈ ((cfg6.win 5).blk t).view.set := by
  have hi0 : (i 0).val < 50000 := idx2_lt0 i
  have hi1 : (i 1).val < 128 := idx2_lt1 i
  obtain ⟨t, ht⟩ := idx_onto6 ⟨(i 0).val / 5000, by omega⟩
  have q0 : win6_5.index t (0 : Fin 2) = (i 0).val / 5000 := congrFun ht 0
  have q1 : win6_5.index t (1 : Fin 2) = 0 := congrFun ht 1
  refine ⟨t, flush6_5 t, ?_⟩
  rw [mem_blk6_5]
  intro a
  match a with
  | ⟨0, _⟩ =>
    show win6_5.index t (0 : Fin 2) * 5000 ≤ (i 0).val ∧ (i 0).val < win6_5.index t (0 : Fin 2) * 5000 + 5000
    omega
  | ⟨1, _⟩ =>
    show win6_5.index t (1 : Fin 2) * 128 ≤ (i 1).val ∧ (i 1).val < win6_5.index t (1 : Fin 2) * 128 + 128
    omega

/-- THE OUTPUT ARRAY after the region: `G6_5` of the five input arrays as the region finds them, everywhere. -/
theorem final6_5 (c : Dev nD) : (dat6 V c).arrAt 5 cfg6.N
    = G6_5 (V c main_v181_0) (V c main_v194) (V c main_v195) (V c main_v196) (V c main_v197) :=
  (dat6 V c).arrAt_eq_of_cover 5 _ (fun t _ => flushed6_5_eq V c t) covered6_5

end Region6

end Cert.KernelIdeal.Hand

end
-- ==== Proof.KI.Reg7.Runs.lean ====
/-
  Region 7 (custom call 7, the node-wise Dirichlet term of one hidden state): the kernel body run once per
  control case.

  The body has two conditionals on the grid coordinate. At the first row tile it clears the one-cell accumulator;
  at every tile it adds the tile's partial sum  Σ_r (w r · Σ_k h r k · h r k − 2 · Σ_k h r k · s r k)  to the
  accumulator; at the last row tile it copies the accumulator to the one-cell output block. With ten tiles the
  two conditions never hold together, so there are three cases: first tile, a middle tile, last tile.

  For each case the body is run symbolically on arbitrary whole memrefs and the list of stores each written
  buffer ends with is recorded (last store first); the lists are found by the run itself.
-/
import proofs.«160050_j32744830665390_2_alg».proof.Proof.KI.Iface

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, and where on the grid they hold -/

/-- "This is the first row tile": the printed comparison chain of the first conditional. -/
abbrev isFirst7 (i : grid7.Coords) : Prop :=
  (Scalar.cmpi .ne (Scalar.extui (Scalar.cmpi .eq (BitVec.ofNat 32 (i 0).val) 0#32)) 0#32) = 1#1

/-- "This is the last row tile": the printed condition of the second conditional. -/
abbrev isLast7 (i : grid7.Coords) : Prop := k7_cond2 i = 1#1

/-- The first condition holds at point 0 and nowhere else. -/
theorem isFirst7_iff : ∀ t : Fin cfg7.N, isFirst7 (grid7.coords t) ↔ t.val = 0 :=
  (by decide +kernel : ∀ t : Fin grid7.N, isFirst7 (grid7.coords t) ↔ t.val = 0)

/-- The second condition holds at point 9 and nowhere else. -/
theorem isLast7_iff : ∀ t : Fin cfg7.N, isLast7 (grid7.coords t) ↔ t.val = 9 :=
  (by decide +kernel : ∀ t : Fin grid7.N, isLast7 (grid7.coords t) ↔ t.val = 9)

/-- The three input windows are never idle. -/
theorem live7_0 : ∀ t : Fin cfg7.N, cfg7.idle 0 (grid7.coords t) = false := by decide +kernel
theorem live7_1 : ∀ t : Fin cfg7.N, cfg7.idle 1 (grid7.coords t) = false := by decide +kernel
theorem live7_2 : ∀ t : Fin cfg7.N, cfg7.idle 2 (grid7.coords t) = false := by decide +kernel
/-- The output window is idle, and not written back, at every point but the last; there it is live. -/
theorem idle7_3 : ∀ t : Fin cfg7.N, t.val ≠ 9 → cfg7.idle 3 (grid7.coords t) = true := by decide +kernel
theorem keep7_3 : ∀ t : Fin cfg7.N, t.val ≠ 9 → (cfg7.win 3).flush t = false := by decide +kernel
theorem live7_3 : ∀ t : Fin cfg7.N, t.val = 9 → cfg7.idle 3 (grid7.coords t) = false := by decide +kernel

/-! ## The memrefs the pipeline passes the body at a point -/

abbrev ms7_0 (t : Fin cfg7.N) : Memref sig .tc .vmem S5000x128 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S5000x128 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S5000x1 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1x1 .f32 := win7_3.stage (cfg7.slots t 3)
abbrev hs7_3 (t : Fin cfg7.N) : (ms7_3 t).IsWhole := hstage7_3 ((cfg7.slots t 3).cast nbuf7_3)
/-- The accumulator: a whole scoped buffer of the kernel's own. -/
abbrev acM7 : Memref sig .tc .vmem S1x1 .f32 := Memref.whole cc7_scratch0
/-- The views through which the accumulator's and the output block's contents are stated. -/
abbrev acV7 : View sig .tc .vmem S1x1 .f32 := acM7.view
abbrev outV7 : View sig .tc .vmem S1x1 .f32 := (Memref.whole cc7_stg3_0 : Memref sig .tc .vmem S1x1 .f32).view

/-! ## The three runs -/

set_option maxHeartbeats 1000000 in
/-- FIRST TILE. The accumulator may hold anything; the output block `xo` is not touched. The accumulator ends with
    the stores `LA`: the clearing store, then the store of  0 + (the tile's partial sum). -/
def run7_first (c : Dev nD) (i : grid7.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : isFirst7 i) (hlast : ¬isLast7 i)
    (h : Vec F S5000x128 .f32) (s : Vec F S5000x128 .f32) (w : Vec F S5000x1 .f32) :
    { LA : List (View.Piece (Elt F) S1x1 .f32) //
      ∀ (xo : Vec F S1x1 .f32) (E : Set ℕ) (K : PUnit → sProp 𝕄),
        iprop(owns (c : Thread nD τ) arg1 fullShare h ∗ owns (c : Thread nD τ) arg2 fullShare s ∗ owns (c : Thread nD τ) arg3 fullShare w
            ∗ owns (c : Thread nD τ) arg4 fullShare xo ∗ (∃ d, owns (c : Thread nD τ) arg5 fullShare d)
            ∗ (iprop(owns (c : Thread nD τ) arg1 fullShare h ∗ owns (c : Thread nD τ) arg2 fullShare s ∗ owns (c : Thread nD τ) arg3 fullShare w
                ∗ owns (c : Thread nD τ) arg4 fullShare xo
                ∗ (∃ f, arg5.view.loc (c : Thread nD τ) ↦[arg5.view.set]{fullShare} arg5.view.writes (Elt F) f LA)) -∗ K ⟨⟩))
          ⊢ wp frame (wpE (defs₀ (F := F)) Variants.none c none) E (cc7_node_reg_kernel i arg1 harg1 arg2 harg2 arg3 harg3 arg4 harg4 arg5 harg5) K } := by
  refine ⟨?_, fun xo E K => ?run⟩
  case run =>
    simp only [cc7_node_reg_kernel_eq_skeleton]; unfold cc7_node_reg_kernel_skel
    unfold owns
    iintro ⟨⟨%f1, %hf1, H1⟩, ⟨%f2, %hf2, H2⟩, ⟨%f3, %hf3, H3⟩, ⟨%f4, %hf4, H4⟩, ⟨%da, %fa, -, HA⟩, Hk⟩
    obtain rfl := harg1.eq_unread hf1; obtain rfl := harg2.eq_unread hf2
    obtain rfl := harg3.eq_unread hf3; obtain rfl := harg4.eq_unread hf4
    sl_exec (disch := first | exact hfirst | exact hlast)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact HA

set_option maxHeartbeats 1000000 in
/-- A MIDDLE TILE. The accumulator holds `a`, what the tile before left; the output block `xo` is not touched. The
    accumulator ends with the one store of  a + (the tile's partial sum). -/
def run7_mid (c : Dev nD) (i : grid7.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst7 i) (hlast : ¬isLast7 i)
    (h : Vec F S5000x128 .f32) (s : Vec F S5000x128 .f32) (w : Vec F S5000x1 .f32) (a : Vec F S1x1 .f32) :
    { LA : List (View.Piece (Elt F) S1x1 .f32) //
      ∀ (xo : Vec F S1x1 .f32) (E : Set ℕ) (K : PUnit → sProp 𝕄),
        iprop(owns (c : Thread nD τ) arg1 fullShare h ∗ owns (c : Thread nD τ) arg2 fullShare s ∗ owns (c : Thread nD τ) arg3 fullShare w
            ∗ owns (c : Thread nD τ) arg4 fullShare xo ∗ owns (c : Thread nD τ) arg5 fullShare a
            ∗ (iprop(owns (c : Thread nD τ) arg1 fullShare h ∗ owns (c : Thread nD τ) arg2 fullShare s ∗ owns (c : Thread nD τ) arg3 fullShare w
                ∗ owns (c : Thread nD τ) arg4 fullShare xo
                ∗ (∃ f, arg5.view.loc (c : Thread nD τ) ↦[arg5.view.set]{fullShare} arg5.view.writes (Elt F) f LA)) -∗ K ⟨⟩))
          ⊢ wp frame (wpE (defs₀ (F := F)) Variants.none c none) E (cc7_node_reg_kernel i arg1 harg1 arg2 harg2 arg3 harg3 arg4 harg4 arg5 harg5) K } := by
  refine ⟨?_, fun xo E K => ?run⟩
  case run =>
    simp only [cc7_node_reg_kernel_eq_skeleton]; unfold cc7_node_reg_kernel_skel
    unfold owns
    iintro ⟨⟨%f1, %hf1, H1⟩, ⟨%f2, %hf2, H2⟩, ⟨%f3, %hf3, H3⟩, ⟨%f4, %hf4, H4⟩, ⟨%fa, %hfa, HA⟩, Hk⟩
    obtain rfl := harg1.eq_unread hf1; obtain rfl := harg2.eq_unread hf2
    obtain rfl := harg3.eq_unread hf3; obtain rfl := harg4.eq_unread hf4
    obtain rfl := harg5.eq_unread hfa
    sl_exec (disch := first | exact hfirst | exact hlast)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact HA

set_option maxHeartbeats 1000000 in
/-- THE LAST TILE. The accumulator holds `a`; the output block may hold anything. The accumulator ends with the store
    `LA` of  a + (the tile's partial sum), the output block with the store `LO` of that same value read back. -/
def run7_last (c : Dev nD) (i : grid7.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst7 i) (hlast : isLast7 i)
    (h : Vec F S5000x128 .f32) (s : Vec F S5000x128 .f32) (w : Vec F S5000x1 .f32) (a : Vec F S1x1 .f32) :
    Σ' (LO : List (View.Piece (Elt F) S1x1 .f32)), { LA : List (View.Piece (Elt F) S1x1 .f32) //
      ∀ (E : Set ℕ) (K : PUnit → sProp 𝕄),
        iprop(owns (c : Thread nD τ) arg1 fullShare h ∗ owns (c : Thread nD τ) arg2 fullShare s ∗ owns (c : Thread nD τ) arg3 fullShare w
            ∗ (∃ d, owns (c : Thread nD τ) arg4 fullShare d) ∗ owns (c : Thread nD τ) arg5 fullShare a
            ∗ (iprop(owns (c : Thread nD τ) arg1 fullShare h ∗ owns (c : Thread nD τ) arg2 fullShare s ∗ owns (c : Thread nD τ) arg3 fullShare w
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LA)) -∗ K ⟨⟩))
          ⊢ wp frame (wpE (defs₀ (F := F)) Variants.none c none) E (cc7_node_reg_kernel i arg1 harg1 arg2 harg2 arg3 harg3 arg4 harg4 arg5 harg5) K } := by
  refine ⟨?_, ?_, fun E K => ?run⟩
  case run =>
    simp only [cc7_node_reg_kernel_eq_skeleton]; unfold cc7_node_reg_kernel_skel
    unfold owns
    iintro ⟨⟨%f1, %hf1, H1⟩, ⟨%f2, %hf2, H2⟩, ⟨%f3, %hf3, H3⟩, ⟨%d4, %f4, -, H4⟩, ⟨%fa, %hfa, HA⟩, Hk⟩
    obtain rfl := harg1.eq_unread hf1; obtain rfl := harg2.eq_unread hf2
    obtain rfl := harg3.eq_unread hf3; obtain rfl := harg5.eq_unread hfa
    sl_exec (disch := first | exact hfirst | exact hlast)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    iexists _; iexact HA

end Cert.KernelIdeal.Hand

end
-- ==== Proof.KI.Reg7.Frame.lean ====
/-
  Region 7: what the accumulator and the output block hold after each row tile, the region's proof data at the
  entry contents `V`, its invariant, and the body obligation.

  The accumulator after tile 0 is what the first-tile run leaves; after tile n + 1 it is what the middle-tile run
  (the last-tile run at n + 1 = 9) leaves when started from the accumulator after tile n. The invariant before
  tile 0 is the class's: every scoped buffer that is no staging buffer at some contents, and the generator register.
  Before tile n + 1 it holds the accumulator at exactly the contents named above, the other scoped buffers at some
  contents, and the generator register. The output block is live only at the last tile, where it receives the
  accumulator's final value; everywhere else its staging buffer is handed back as found.
-/
import proofs.«160050_j32744830665390_2_alg».proof.Proof.KI.Reg7.Runs

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## The input blocks -/

/-- Window `w`'s block at point `t`, read off its array as the region finds it. -/
def blk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## What each case leaves, read back through one fixed view -/

/-- The accumulator after the first tile. -/
def acc7_first (c : Dev nD) (t : Fin cfg7.N) (h0 : t.val = 0)
    (h : Vec F S5000x128 .f32) (s : Vec F S5000x128 .f32) (w : Vec F S5000x1 .f32) : Vec F S1x1 .f32 :=
  acV7.read (Elt F) (acV7.writes (Elt F) acV7.junk
    (run7_first c (grid7.coords t) (ms7_0 t) (hs7_0 t) (ms7_1 t) (hs7_1 t) (ms7_2 t) (hs7_2 t) (ms7_3 t) (hs7_3 t) acM7 (Memref.isWhole_whole _)
      ((isFirst7_iff t).mpr h0) (fun hl => by have := (isLast7_iff t).mp hl; omega) h s w).1)

/-- The accumulator after a middle tile that found it at `a`. -/
def acc7_mid (c : Dev nD) (t : Fin cfg7.N) (h0 : t.val ≠ 0) (h9 : t.val ≠ 9)
    (h : Vec F S5000x128 .f32) (s : Vec F S5000x128 .f32) (w : Vec F S5000x1 .f32) (a : Vec F S1x1 .f32) : Vec F S1x1 .f32 :=
  acV7.read (Elt F) (acV7.writes (Elt F) acV7.junk
    (run7_mid c (grid7.coords t) (ms7_0 t) (hs7_0 t) (ms7_1 t) (hs7_1 t) (ms7_2 t) (hs7_2 t) (ms7_3 t) (hs7_3 t) acM7 (Memref.isWhole_whole _)
      (fun hf => h0 ((isFirst7_iff t).mp hf)) (fun hl => h9 ((isLast7_iff t).mp hl)) h s w a).1)

/-- The accumulator after the last tile, which found it at `a`. -/
def acc7_last (c : Dev nD) (t : Fin cfg7.N) (h9 : t.val = 9)
    (h : Vec F S5000x128 .f32) (s : Vec F S5000x128 .f32) (w : Vec F S5000x1 .f32) (a : Vec F S1x1 .f32) : Vec F S1x1 .f32 :=
  acV7.read (Elt F) (acV7.writes (Elt F) acV7.junk
    (run7_last c (grid7.coords t) (ms7_0 t) (hs7_0 t) (ms7_1 t) (hs7_1 t) (ms7_2 t) (hs7_2 t) (ms7_3 t) (hs7_3 t) acM7 (Memref.isWhole_whole _)
      (fun hf => by have := (isFirst7_iff t).mp hf; omega) ((isLast7_iff t).mpr h9) h s w a).2.1)

/-- The output block after the last tile. -/
def out7_last (c : Dev nD) (t : Fin cfg7.N) (h9 : t.val = 9)
    (h : Vec F S5000x128 .f32) (s : Vec F S5000x128 .f32) (w : Vec F S5000x1 .f32) (a : Vec F S1x1 .f32) : Vec F S1x1 .f32 :=
  outV7.read (Elt F) (outV7.writes (Elt F) outV7.junk
    (run7_last c (grid7.coords t) (ms7_0 t) (hs7_0 t) (ms7_1 t) (hs7_1 t) (ms7_2 t) (hs7_2 t) (ms7_3 t) (hs7_3 t) acM7 (Memref.isWhole_whole _)
      (fun hf => by have := (isFirst7_iff t).mp hf; omega) ((isLast7_iff t).mpr h9) h s w a).1)

/-- Each list of stores covers its one-cell buffer. -/
theorem cover7_first (c : Dev nD) (i : grid7.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : isFirst7 i) (hlast : ¬isLast7 i)
    (h : Vec F S5000x128 .f32) (s : Vec F S5000x128 .f32) (w : Vec F S5000x1 .f32) (y : S1x1.Idx) :
    ∃ pc ∈ (run7_first c i arg1 harg1 arg2 harg2 arg3 harg3 arg4 harg4 arg5 harg5 hfirst hlast h s w).1, y ∈ pc.1.set :=
  View.cover_of_tiledL _ S1x1.size (by sl_kernel_rfl) y

theorem cover7_mid (c : Dev nD) (i : grid7.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst7 i) (hlast : ¬isLast7 i)
    (h : Vec F S5000x128 .f32) (s : Vec F S5000x128 .f32) (w : Vec F S5000x1 .f32) (a : Vec F S1x1 .f32) (y : S1x1.Idx) :
    ∃ pc ∈ (run7_mid c i arg1 harg1 arg2 harg2 arg3 harg3 arg4 harg4 arg5 harg5 hfirst hlast h s w a).1, y ∈ pc.1.set :=
  View.cover_of_tiledL _ S1x1.size (by sl_kernel_rfl) y

theorem cover7_last_acc (c : Dev nD) (i : grid7.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst7 i) (hlast : isLast7 i)
    (h : Vec F S5000x128 .f32) (s : Vec F S5000x128 .f32) (w : Vec F S5000x1 .f32) (a : Vec F S1x1 .f32) (y : S1x1.Idx) :
    ∃ pc ∈ (run7_last c i arg1 harg1 arg2 harg2 arg3 harg3 arg4 harg4 arg5 harg5 hfirst hlast h s w a).2.1, y ∈ pc.1.set :=
  View.cover_of_tiledL _ S1x1.size (by sl_kernel_rfl) y

theorem cover7_last_out (c : Dev nD) (i : grid7.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst7 i) (hlast : isLast7 i)
    (h : Vec F S5000x128 .f32) (s : Vec F S5000x128 .f32) (w : Vec F S5000x1 .f32) (a : Vec F S1x1 .f32) (y : S1x1.Idx) :
    ∃ pc ∈ (run7_last c i arg1 harg1 arg2 harg2 arg3 harg3 arg4 harg4 arg5 harg5 hfirst hlast h s w a).1, y ∈ pc.1.set :=
  View.cover_of_tiledL _ S1x1.size (by sl_kernel_rfl) y

/-! ## The accumulator and the output block, tile by tile -/

/-- THE RUNNING TOTAL: what the accumulator holds after the body at position `n`. -/
def acc7 (c : Dev nD) : (n : ℕ) → n < cfg7.N → Vec F S1x1 .f32
  | 0, hn => acc7_first c ⟨0, hn⟩ rfl (blk7 V c 0 ⟨0, hn⟩) (blk7 V c 1 ⟨0, hn⟩) (blk7 V c 2 ⟨0, hn⟩)
  | n + 1, hn =>
    if h9 : n + 1 = 9 then
      acc7_last c ⟨n + 1, hn⟩ h9 (blk7 V c 0 ⟨n + 1, hn⟩) (blk7 V c 1 ⟨n + 1, hn⟩) (blk7 V c 2 ⟨n + 1, hn⟩) (acc7 c n (Nat.lt_of_succ_lt hn))
    else
      acc7_mid c ⟨n + 1, hn⟩ (Nat.succ_ne_zero n) h9 (blk7 V c 0 ⟨n + 1, hn⟩) (blk7 V c 1 ⟨n + 1, hn⟩) (blk7 V c 2 ⟨n + 1, hn⟩) (acc7 c n (Nat.lt_of_succ_lt hn))

/-- The accumulator just before point `t`, for `t` not the first: what the point before left. -/
abbrev accBefore7 (c : Dev nD) (t : Fin cfg7.N) : Vec F S1x1 .f32 :=
  acc7 V c (t.val - 1) (Nat.lt_of_le_of_lt (Nat.sub_le _ _) t.isLt)

theorem acc7_at_first (c : Dev nD) (t : Fin cfg7.N) (h0 : t.val = 0) :
    acc7 V c t.val t.isLt = acc7_first c t h0 (blk7 V c 0 t) (blk7 V c 1 t) (blk7 V c 2 t) := by
  obtain ⟨n, hn⟩ := t
  cases n with
  | zero => rfl
  | succ n => exact absurd h0 (Nat.succ_ne_zero n)

theorem acc7_at_mid (c : Dev nD) (t : Fin cfg7.N) (h0 : t.val ≠ 0) (h9 : t.val ≠ 9) :
    acc7 V c t.val t.isLt = acc7_mid c t h0 h9 (blk7 V c 0 t) (blk7 V c 1 t) (blk7 V c 2 t) (accBefore7 V c t) := by
  obtain ⟨n, hn⟩ := t
  cases n with
  | zero => exact absurd rfl h0
  | succ n => exact (dif_neg h9).trans rfl

theorem acc7_at_last (c : Dev nD) (t : Fin cfg7.N) (h9 : t.val = 9) :
    acc7 V c t.val t.isLt = acc7_last c t h9 (blk7 V c 0 t) (blk7 V c 1 t) (blk7 V c 2 t) (accBefore7 V c t) := by
  obtain ⟨n, hn⟩ := t
  cases n with
  | zero => exact absurd h9 (show ¬ (0 : ℕ) = 9 by decide)
  | succ n => exact (dif_pos h9).trans rfl

/-- What the output window's staging buffer holds after the body at point `t`: at the last point the accumulator's
    final value as the last-tile run stores it; the value at the other points is consulted nowhere (the window is
    idle there and not written back). -/
def out7 (c : Dev nD) (t : Fin cfg7.N) : Vec F S1x1 .f32 :=
  if h9 : t.val = 9 then out7_last c t h9 (blk7 V c 0 t) (blk7 V c 1 t) (blk7 V c 2 t) (accBefore7 V c t)
  else acc7 V c t.val t.isLt

/-! ## The invariant -/

/-- Before position `n`: at the first point the class's invariant; afterwards the accumulator at the running total,
    the other scoped buffers at some contents, the generator register at some state. -/
def Phi7 (c : Dev nD) : (n : ℕ) → n ≤ cfg7.N → sProp 𝕄
  | 0, _ => Pipeline.ΦA (U := UR sig nD τ) (Val := Elt F) spec7 c
  | n + 1, hn => iprop(iprop(owns (c : Thread nD τ) acM7 fullShare (acc7 V c n hn)
      ∗ Pipeline.scopedRestBut (Ix := Unit) (Name := ℕ) (U := UR sig nD τ) (Lvl := ℕ) (Val := Elt F) spec7 c [cc7_scratch0]) ∗ (∃ r, prngReg c r))

theorem Phi7_zero (c : Dev nD) (n : ℕ) (hn : n ≤ cfg7.N) (hz : n = 0) :
    Phi7 V c n hn = Pipeline.ΦA (U := UR sig nD τ) (Val := Elt F) spec7 c := by
  subst hz; rfl

theorem Phi7_succ (c : Dev nD) (n : ℕ) (hn : n < cfg7.N) :
    Phi7 V c (n + 1) hn = iprop(iprop(owns (c : Thread nD τ) acM7 fullShare (acc7 V c n hn)
      ∗ Pipeline.scopedRestBut (Ix := Unit) (Name := ℕ) (U := UR sig nD τ) (Lvl := ℕ) (Val := Elt F) spec7 c [cc7_scratch0]) ∗ (∃ r, prngReg c r)) := rfl

theorem Phi7_pos (c : Dev nD) (n : ℕ) (hn : n ≤ cfg7.N) (hz : n ≠ 0) :
    Phi7 V c n hn = iprop(iprop(owns (c : Thread nD τ) acM7 fullShare (acc7 V c (n - 1) (by omega))
      ∗ Pipeline.scopedRestBut (Ix := Unit) (Name := ℕ) (U := UR sig nD τ) (Lvl := ℕ) (Val := Elt F) spec7 c [cc7_scratch0]) ∗ (∃ r, prngReg c r)) := by
  cases n with
  | zero => exact absurd rfl hz
  | succ n => rfl

/-- The class's invariant with the accumulator singled out of the scoped rest. -/
theorem PhiA7_open (c : Dev nD) :
    (Pipeline.ΦA (U := UR sig nD τ) (Val := Elt F) spec7 c : sProp 𝕄)
      = iprop(iprop((∃ d, owns (c : Thread nD τ) acM7 fullShare d)
          ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [acM7, owns_whole]; try rfl

/-! ## The proof data -/

/-- Region 7's proof data on core `c`: the arrays as the region finds them; after the body each input's buffer still
    at its block, the output's at `out7`; the invariant `Phi7`; full shares; nothing owed. -/
def dat7 (c : Dev nD) : Dat τ (Elt F) Unit ℕ (UR sig nD τ) ℕ cfg7 c where
  A w := V c (Pipeline.arrRef spec7 w)
  after w t := match w with
    | ⟨0, _⟩ => blk7 V c 0 t
    | ⟨1, _⟩ => blk7 V c 1 t
    | ⟨2, _⟩ => blk7 V c 2 t
    | ⟨3, _⟩ => out7 V c t
  Φ t := Phi7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem q_eq7 (c : Dev nD) (w : Fin cfg7.W) : (dat7 V c).q w = fullShare := by
  dsimp only [dat7]

theorem owed_eq7 (c : Dev nD) (t : Fin (cfg7.N + 1)) : (dat7 V c).owed t = 0 := by
  dsimp only [dat7]

theorem Phi7_castSucc (c : Dev nD) (t : Fin cfg7.N) :
    (dat7 V c).Φ t.castSucc = Phi7 V c t.val (Nat.le_of_lt t.isLt) := by
  dsimp only [dat7]; simp only [Fin.coe_castSucc]

theorem after7_0 (c : Dev nD) (t : Fin cfg7.N) : (dat7 V c).after 0 t = blk7 V c 0 t := by dsimp only [dat7]
theorem after7_1 (c : Dev nD) (t : Fin cfg7.N) : (dat7 V c).after 1 t = blk7 V c 1 t := by dsimp only [dat7]
theorem after7_2 (c : Dev nD) (t : Fin cfg7.N) : (dat7 V c).after 2 t = blk7 V c 2 t := by dsimp only [dat7]
theorem after7_3 (c : Dev nD) (t : Fin cfg7.N) : (dat7 V c).after 3 t = out7 V c t := by dsimp only [dat7]

/-- Every input window is fetched at every point, so its current buffer holds the array's block there. -/
theorem before7_0 (c : Dev nD) (t : Fin cfg7.N) (d) : (dat7 V c).before 0 t d = blk7 V c 0 t :=
  ((dat7 V c).before_fetched 0 t (fetch7_0 t) d).trans (by unfold Dat.fetched Dat.blockOf blk7; rw [A_eq7]; try rfl)
theorem before7_1 (c : Dev nD) (t : Fin cfg7.N) (d) : (dat7 V c).before 1 t d = blk7 V c 1 t :=
  ((dat7 V c).before_fetched 1 t (fetch7_1 t) d).trans (by unfold Dat.fetched Dat.blockOf blk7; rw [A_eq7]; try rfl)
theorem before7_2 (c : Dev nD) (t : Fin cfg7.N) (d) : (dat7 V c).before 2 t d = blk7 V c 2 t :=
  ((dat7 V c).before_fetched 2 t (fetch7_2 t) d).trans (by unfold Dat.fetched Dat.blockOf blk7; rw [A_eq7]; try rfl)

/-! ## The body obligation -/

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

theorem leaves7_0 (c : Dev nD) (t : Fin cfg7.N) :
    (dat7 V c).leavesExact 0 t = owns (c : Thread nD τ) (ms7_0 t) fullShare (blk7 V c 0 t) := by
  unfold Dat.leavesExact; rw [live7_0 t, after7_0]
theorem leaves7_1 (c : Dev nD) (t : Fin cfg7.N) :
    (dat7 V c).leavesExact 1 t = owns (c : Thread nD τ) (ms7_1 t) fullShare (blk7 V c 1 t) := by
  unfold Dat.leavesExact; rw [live7_1 t, after7_1]
theorem leaves7_2 (c : Dev nD) (t : Fin cfg7.N) :
    (dat7 V c).leavesExact 2 t = owns (c : Thread nD τ) (ms7_2 t) fullShare (blk7 V c 2 t) := by
  unfold Dat.leavesExact; rw [live7_2 t, after7_2]
theorem leaves7_3_idle (c : Dev nD) (t : Fin cfg7.N) (h9 : t.val ≠ 9) :
    (dat7 V c).leavesExact 3 t = iprop(∃ d, owns (c : Thread nD τ) (ms7_3 t) fullShare ((dat7 V c).before 3 t d)) :=
  Dat.leavesExact_idle (dat7 V c) 3 t (idle7_3 t h9) (keep7_3 t h9)
theorem leaves7_3_live (c : Dev nD) (t : Fin cfg7.N) (h9 : t.val = 9) :
    (dat7 V c).leavesExact 3 t = owns (c : Thread nD τ) (ms7_3 t) fullShare (out7 V c t) := by
  unfold Dat.leavesExact; rw [live7_3 t h9, after7_3]

set_option maxHeartbeats 4800000 in
/-- The body at any point. The inputs' buffers hold their blocks; the point's position decides the case; the invariant
    hands the run the accumulator (at anything before the first tile, at the running total afterwards) and takes it
    back at the new running total, the run's stores covering the one cell; the rest of the invariant and what the
    core owes pass through untouched. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).owesAt () t.succ = (dat7 V c).owesAt () t.castSucc from rfl]
  rw [show (dat7 V c).Φ t.succ = Phi7 V c (t.val + 1) t.isLt from rfl, Phi7_succ]
  rw [leaves7_0, leaves7_1, leaves7_2, Phi7_castSucc]
  have hN : t.val < 10 := lt_of_lt_of_eq t.isLt (show cfg7.N = 10 from N_7)
  by_cases h0 : t.val = 0
  · -- the first tile
    have h9 : t.val ≠ 9 := by omega
    rw [leaves7_3_idle V c t h9, acc7_at_first V c t h0, Phi7_zero V c _ _ h0, PhiA7_open]
    unfold acc7_first
    iintro ⟨⟨⟨HA, HR⟩, Hg⟩, Ho, ⟨%d0, H0⟩, ⟨%d1, H1⟩, ⟨%d2, H2⟩, ⟨%d3, H3⟩⟩
    iapply ((run7_first c (grid7.coords t) _ _ _ _ _ _ _ _ _ _ ((isFirst7_iff t).mpr h0)
      (fun hl => by have := (isLast7_iff t).mp hl; omega) (blk7 V c 0 t) (blk7 V c 1 t) (blk7 V c 2 t)).2 _ Set.univ _)
    isplitl [H0]; · iexact H0
    isplitl [H1]; · iexact H1
    isplitl [H2]; · iexact H2
    isplitl [H3]; · iexact H3
    isplitl [HA]; · iexact HA
    iintro ⟨H0, H1, H2, H3, ⟨%ea, HA⟩⟩
    isplitl [HA HR Hg]
    · isplitr [Hg]
      · isplitl [HA]
        · unfold owns; iexists _; isplitr
          swap; · iexact HA
          ipureintro; exact View.read_writes_of_cover _ _ _ _ _ (cover7_first c _ _ _ _ _ _ _ _ _ _ _ _ _ _ _ _)
        iexact HR
      iexact Hg
    isplitl [Ho]; · iexact Ho
    isplitl [H0]; · iexact H0
    isplitl [H1]; · iexact H1
    isplitl [H2]; · iexact H2
    iexists _; iexact H3
  · by_cases h9 : t.val = 9
    · -- the last tile
      rw [leaves7_3_live V c t h9, acc7_at_last V c t h9, Phi7_pos V c _ _ h0]
      unfold out7; rw [dif_pos h9]
      unfold acc7_last out7_last
      iintro ⟨⟨⟨HA, HR⟩, Hg⟩, Ho, ⟨%d0, H0⟩, ⟨%d1, H1⟩, ⟨%d2, H2⟩, ⟨%d3, H3⟩⟩
      iapply ((run7_last c (grid7.coords t) _ _ _ _ _ _ _ _ _ _ (fun hf => by have := (isFirst7_iff t).mp hf; omega)
        ((isLast7_iff t).mpr h9) (blk7 V c 0 t) (blk7 V c 1 t) (blk7 V c 2 t) (accBefore7 V c t)).2.2 Set.univ _)
      isplitl [H0]; · iexact H0
      isplitl [H1]; · iexact H1
      isplitl [H2]; · iexact H2
      isplitl [H3]; · iexists _; iexact H3
      isplitl [HA]; · iexact HA
      iintro ⟨H0, H1, H2, ⟨%eo, H3⟩, ⟨%ea, HA⟩⟩
      isplitl [HA HR Hg]
      · isplitr [Hg]
        · isplitl [HA]
          · unfold owns; iexists _; isplitr
            swap; · iexact HA
            ipureintro; exact View.read_writes_of_cover _ _ _ _ _ (cover7_last_acc c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover7_last_out c _ _ _ _ _ _ _ _ _ _ _ _ _ _ _ _ _)
    · -- a middle tile
      rw [leaves7_3_idle V c t h9, acc7_at_mid V c t h0 h9, Phi7_pos V c _ _ h0]
      unfold acc7_mid
      iintro ⟨⟨⟨HA, HR⟩, Hg⟩, Ho, ⟨%d0, H0⟩, ⟨%d1, H1⟩, ⟨%d2, H2⟩, ⟨%d3, H3⟩⟩
      iapply ((run7_mid c (grid7.coords t) _ _ _ _ _ _ _ _ _ _ (fun hf => h0 ((isFirst7_iff t).mp hf))
        (fun hl => h9 ((isLast7_iff t).mp hl)) (blk7 V c 0 t) (blk7 V c 1 t) (blk7 V c 2 t) (accBefore7 V c t)).2 _ Set.univ _)
      isplitl [H0]; · iexact H0
      isplitl [H1]; · iexact H1
      isplitl [H2]; · iexact H2
      isplitl [H3]; · iexact H3
      isplitl [HA]; · iexact HA
      iintro ⟨H0, H1, H2, H3, ⟨%ea, HA⟩⟩
      isplitl [HA HR Hg]
      · isplitr [Hg]
        · isplitl [HA]
          · unfold owns; iexists _; isplitr
            swap; · iexact HA
            ipureintro; exact View.read_writes_of_cover _ _ _ _ _ (cover7_mid c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## The invariant's two ends -/

/-- The class's invariant is the invariant before the first point. -/
theorem Phi_in7 (c : Dev nD) : (Pipeline.ΦA (U := UR sig nD τ) (Val := Elt F) spec7 c : sProp 𝕄) ⊢ (dat7 V c).Φ 0 := by
  rw [show (dat7 V c).Φ 0 = Phi7 V c 0 (Nat.zero_le _) from rfl, Phi7_zero V c 0 _ rfl]
  try exact Entails.refl _

/-- After the last point the invariant gives the class's back: the accumulator's contents are forgotten. -/
theorem Phi_out7 (c : Dev nD) : (dat7 V c).Φ (Fin.last cfg7.N) ⊢ (Pipeline.ΦA (U := UR sig nD τ) (Val := Elt F) spec7 c : sProp 𝕄) := by
  have hne : (Fin.last cfg7.N).val ≠ 0 := by rw [Fin.val_last]; have : cfg7.N = 10 := N_7; omega
  rw [show (dat7 V c).Φ (Fin.last cfg7.N) = Phi7 V c (Fin.last cfg7.N).val (Nat.le_of_lt_succ (Fin.last cfg7.N).isLt) from rfl,
    Phi7_pos V c _ _ hne, PhiA7_open]
  iintro ⟨⟨HA, HR⟩, Hg⟩
  isplitr [Hg]
  · isplitl [HA]
    · iexists _; iexact HA
    iexact HR
  iexact Hg

end Cert.KernelIdeal.Hand

end
-- ==== Proof.KI.Reg7.Value.lean ====
/-
  Region 7: the value. After the run the one-cell result array holds the running total after the tenth row tile:
  starting from the cleared accumulator, tile after tile in grid order, the accumulator plus the tile's partial sum
    Σ_r (w r · Σ_k h r k · h r k − 2 · Σ_k h r k · s r k),   r over the tile's 5000 rows, k over the 128 features,
  each tile being rows 5000·n … 5000·n + 4999 of the three input arrays.

  First each case's list of stores is read back as the update applied to the tile's blocks and the accumulator found;
  then the running total is the ordered chain over the tiles (induction on the tile); then each block is the array's
  rows; then the single write-back, at the last tile, covers the one-cell array.
-/
import proofs.«160050_j32744830665390_2_alg».proof.Proof.KI.Reg7.Frame
import Idealize.ShloMosaic.Lib.Pipeline.Value
import Idealize.ShloMosaic.Lib.ValueIdx

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

open Idealize.ShloMosaic.ValueIdx (ix2)

theorem hz7 : (![0, 0] : Fin 2 → Nat) = fun _ => 0 := funext fun a => by fin_cases a <;> rfl

/-! ## What each case's stores leave -/

/-- First tile: the accumulator is cleared, then the tile's partial sum is added to the cleared value. -/
theorem first_stores7 (c : Dev nD) (i : grid7.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : isFirst7 i) (hlast : ¬isLast7 i)
    (h : Vec F S5000x128 .f32) (s : Vec F S5000x128 .f32) (w : Vec F S5000x1 .f32) :
    acV7.read (Elt F) (acV7.writes (Elt F) acV7.junk
      (run7_first c i arg1 harg1 arg2 harg2 arg3 harg3 arg4 harg4 arg5 harg5 hfirst hlast h s w).1) = k7_pay2 h s w (k7_pay1 (F := F)) := by
  rw [View.read_writes_eq_canon _ _ _ (cover7_first c i arg1 harg1 arg2 harg2 arg3 harg3 arg4 harg4 arg5 harg5 hfirst hlast h s w)]
  unfold run7_first
  dsimp only
  try sl_unfold_words
  rw [View.canon_cons_unit_zero (S := S1x1) hz7]
  simp only [View.readAt_eq_ld, harg1.read_unread, harg2.read_unread, harg3.read_unread, View.ld_unit_zero (S := S5000x128) hz7,
    View.ld_unit_zero (S := S5000x1) hz7, View.readCov_unit_zero (S := S1x1) _ hz7]

/-- A middle tile: the tile's partial sum is added to what the accumulator held. -/
theorem mid_stores7 (c : Dev nD) (i : grid7.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst7 i) (hlast : ¬isLast7 i)
    (h : Vec F S5000x128 .f32) (s : Vec F S5000x128 .f32) (w : Vec F S5000x1 .f32) (a : Vec F S1x1 .f32) :
    acV7.read (Elt F) (acV7.writes (Elt F) acV7.junk
      (run7_mid c i arg1 harg1 arg2 harg2 arg3 harg3 arg4 harg4 arg5 harg5 hfirst hlast h s w a).1) = k7_pay2 h s w a := by
  rw [View.read_writes_eq_canon _ _ _ (cover7_mid c i arg1 harg1 arg2 harg2 arg3 harg3 arg4 harg4 arg5 harg5 hfirst hlast h s w a)]
  unfold run7_mid
  dsimp only
  try sl_unfold_words
  rw [View.canon_unit_zero (S := S1x1) hz7]
  simp only [View.readAt_eq_ld, harg1.read_unread, harg2.read_unread, harg3.read_unread, harg5.read_unread, View.ld_unit_zero (S := S5000x128) hz7,
    View.ld_unit_zero (S := S5000x1) hz7, View.ld_unit_zero (S := S1x1) hz7]

/-- The last tile leaves the same update in the accumulator, -/
theorem last_stores_acc7 (c : Dev nD) (i : grid7.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst7 i) (hlast : isLast7 i)
    (h : Vec F S5000x128 .f32) (s : Vec F S5000x128 .f32) (w : Vec F S5000x1 .f32) (a : Vec F S1x1 .f32) :
    acV7.read (Elt F) (acV7.writes (Elt F) acV7.junk
      (run7_last c i arg1 harg1 arg2 harg2 arg3 harg3 arg4 harg4 arg5 harg5 hfirst hlast h s w a).2.1) = k7_pay2 h s w a := by
  rw [View.read_writes_eq_canon _ _ _ (cover7_last_acc c i arg1 harg1 arg2 harg2 arg3 harg3 arg4 harg4 arg5 harg5 hfirst hlast h s w a)]
  unfold run7_last
  dsimp only
  try sl_unfold_words
  rw [View.canon_unit_zero (S := S1x1) hz7]
  simp only [View.readAt_eq_ld, harg1.read_unread, harg2.read_unread, harg3.read_unread, harg5.read_unread, View.ld_unit_zero (S := S5000x128) hz7,
    View.ld_unit_zero (S := S5000x1) hz7, View.ld_unit_zero (S := S1x1) hz7]

/-- and copies that value, read back from the accumulator, to the output block. -/
theorem last_stores_out7 (c : Dev nD) (i : grid7.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst7 i) (hlast : isLast7 i)
    (h : Vec F S5000x128 .f32) (s : Vec F S5000x128 .f32) (w : Vec F S5000x1 .f32) (a : Vec F S1x1 .f32) :
    outV7.read (Elt F) (outV7.writes (Elt F) outV7.junk
      (run7_last c i arg1 harg1 arg2 harg2 arg3 harg3 arg4 harg4 arg5 harg5 hfirst hlast h s w a).1) = k7_pay2 h s w a := by
  rw [View.read_writes_eq_canon _ _ _ (cover7_last_out c i arg1 harg1 arg2 harg2 arg3 harg3 arg4 harg4 arg5 harg5 hfirst hlast h s w a)]
  unfold run7_last
  dsimp only
  try sl_unfold_words
  rw [View.canon_unit_zero (S := S1x1) hz7]
  simp only [View.readAt_eq_ld, harg1.read_unread, harg2.read_unread, harg3.read_unread, harg5.read_unread, View.ld_unit_zero (S := S5000x128) hz7,
    View.ld_unit_zero (S := S5000x1) hz7, View.ld_unit_zero (S := S1x1) hz7, View.readCov_unit_zero (S := S1x1) _ hz7]

/-! ## The arrays' row tiles and the ordered chain over them -/

/-- Row tile `n` of a table with 50000 rows of 128 entries: rows 5000·n … 5000·n + 4999. -/
def rowsA7 (X : Vec F S50000x128 .f32) (n : Fin 10) : Vec F S5000x128 .f32 := fun y =>
  X (ix2 ⟨5000 * n.val + (y 0).val, by have h1 : (y 0).val < 5000 := (y 0).isLt; have h2 := n.isLt; omega⟩ ⟨(y 1).val, (y 1).isLt⟩)

/-- Row tile `n` of a column of 50000 entries. -/
def rowsW7 (X : Vec F S50000x1 .f32) (n : Fin 10) : Vec F S5000x1 .f32 := fun y =>
  X (ix2 ⟨5000 * n.val + (y 0).val, by have h1 : (y 0).val < 5000 := (y 0).isLt; have h2 := n.isLt; omega⟩ ⟨(y 1).val, (y 1).isLt⟩)

/-- The running total after row tile `n`, as a function of the three whole arrays: the cleared accumulator updated
    by tile 0, then by tile 1, …, then by tile `n`. -/
def tot7 (H S : Vec F S50000x128 .f32) (W : Vec F S50000x1 .f32) : (n : ℕ) → n < 10 → Vec F S1x1 .f32
  | 0, hn => k7_pay2 (rowsA7 H ⟨0, hn⟩) (rowsA7 S ⟨0, hn⟩) (rowsW7 W ⟨0, hn⟩) (k7_pay1 (F := F))
  | n + 1, hn => k7_pay2 (rowsA7 H ⟨n + 1, hn⟩) (rowsA7 S ⟨n + 1, hn⟩) (rowsW7 W ⟨n + 1, hn⟩) (tot7 H S W n (Nat.lt_of_succ_lt hn))

/-- THE RESULT as one function of the region's three input arrays: the running total after the tenth tile. -/
def G7_3 (H S : Vec F S50000x128 .f32) (W : Vec F S50000x1 .f32) : Vec F S1x1 .f32 := tot7 H S W 9 (by decide)

/-- The three input arrays as the region finds them. -/
abbrev hArr7 (c : Dev nD) : Vec F S50000x128 .f32 := V c (Pipeline.arrRef spec7 0)
abbrev sArr7 (c : Dev nD) : Vec F S50000x128 .f32 := V c (Pipeline.arrRef spec7 1)
abbrev wArr7 (c : Dev nD) : Vec F S50000x1 .f32 := V c (Pipeline.arrRef spec7 2)

/-! ## Each input block is its array's row tile -/

theorem point_lt7 (t : Fin cfg7.N) : t.val < 10 := lt_of_lt_of_eq t.isLt (show cfg7.N = 10 from N_7)

theorem blk7_0_rows (c : Dev nD) (t : Fin cfg7.N) :
    (blk7 V c 0 t : Vec F S5000x128 .f32) = rowsA7 (hArr7 V c) ⟨t.val, point_lt7 t⟩ := by
  have hi : win7_0.index t 0 = t.val ∧ win7_0.index t 1 = 0 := by
    rcases fin_N7 t with rfl | rfl | rfl | rfl | rfl | rfl | rfl | rfl | rfl | rfl <;> decide
  funext y
  unfold blk7 rowsA7
  rw [View.read_apply]
  show V c (Pipeline.arrRef spec7 0) _ = V c (Pipeline.arrRef spec7 0) _
  congr 1
  funext a
  apply Fin.ext
  match a with
  | ⟨0, _⟩ => show win7_0.index t 0 * 5000 + 1 * (y 0).val = 5000 * t.val + (y 0).val; rw [hi.1]; omega
  | ⟨1, _⟩ => show win7_0.index t 1 * 128 + 1 * (y 1).val = (y 1).val; rw [hi.2]; omega

theorem blk7_1_rows (c : Dev nD) (t : Fin cfg7.N) :
    (blk7 V c 1 t : Vec F S5000x128 .f32) = rowsA7 (sArr7 V c) ⟨t.val, point_lt7 t⟩ := by
  have hi : win7_1.index t 0 = t.val ∧ win7_1.index t 1 = 0 := by
    rcases fin_N7 t with rfl | rfl | rfl | rfl | rfl | rfl | rfl | rfl | rfl | rfl <;> decide
  funext y
  unfold blk7 rowsA7
  rw [View.read_apply]
  show V c (Pipeline.arrRef spec7 1) _ = V c (Pipeline.arrRef spec7 1) _
  congr 1
  funext a
  apply Fin.ext
  match a with
  | ⟨0, _⟩ => show win7_1.index t 0 * 5000 + 1 * (y 0).val = 5000 * t.val + (y 0).val; rw [hi.1]; omega
  | ⟨1, _⟩ => show win7_1.index t 1 * 128 + 1 * (y 1).val = (y 1).val; rw [hi.2]; omega

theorem blk7_2_rows (c : Dev nD) (t : Fin cfg7.N) :
    (blk7 V c 2 t : Vec F S5000x1 .f32) = rowsW7 (wArr7 V c) ⟨t.val, point_lt7 t⟩ := by
  have hi : win7_2.index t 0 = t.val ∧ win7_2.index t 1 = 0 := by
    rcases fin_N7 t with rfl | rfl | rfl | rfl | rfl | rfl | rfl | rfl | rfl | rfl <;> decide
  funext y
  unfold blk7 rowsW7
  rw [View.read_apply]
  show V c (Pipeline.arrRef spec7 2) _ = V c (Pipeline.arrRef spec7 2) _
  congr 1
  funext a
  apply Fin.ext
  match a with
  | ⟨0, _⟩ => show win7_2.index t 0 * 5000 + 1 * (y 0).val = 5000 * t.val + (y 0).val; rw [hi.1]; omega
  | ⟨1, _⟩ => show win7_2.index t 1 * 1 + 1 * (y 1).val = (y 1).val; rw [hi.2]; omega

/-! ## The running total is the chain -/

theorem acc7_eq_tot (c : Dev nD) : ∀ (n : ℕ) (hn : n < cfg7.N),
    acc7 V c n hn = tot7 (hArr7 V c) (sArr7 V c) (wArr7 V c) n (lt_of_lt_of_eq hn (show cfg7.N = 10 from N_7))
  | 0, hn => by
    refine (acc7_at_first V c ⟨0, hn⟩ rfl).trans ?_
    unfold acc7_first
    rw [first_stores7, blk7_0_rows, blk7_1_rows, blk7_2_rows]
    rfl
  | n + 1, hn => by
    by_cases h9 : n + 1 = 9
    · refine (acc7_at_last V c ⟨n + 1, hn⟩ h9).trans ?_
      unfold acc7_last
      rw [last_stores_acc7, blk7_0_rows, blk7_1_rows, blk7_2_rows]
      show k7_pay2 _ _ _ (acc7 V c n _) = _
      rw [acc7_eq_tot c n (Nat.lt_of_succ_lt hn)]
      rfl
    · refine (acc7_at_mid V c ⟨n + 1, hn⟩ (Nat.succ_ne_zero n) h9).trans ?_
      unfold acc7_mid
      rw [mid_stores7, blk7_0_rows, blk7_1_rows, blk7_2_rows]
      show k7_pay2 _ _ _ (acc7 V c n _) = _
      rw [acc7_eq_tot c n (Nat.lt_of_succ_lt hn)]
      rfl

/-- At the last tile the output block receives the accumulator's final value. -/
theorem out7_at_last (c : Dev nD) (t : Fin cfg7.N) (h9 : t.val = 9) : out7 V c t = acc7 V c t.val t.isLt := by
  unfold out7
  rw [dif_pos h9, acc7_at_last V c t h9]
  unfold out7_last acc7_last
  rw [last_stores_out7, last_stores_acc7]

/-! ## The write-back and the array after the run -/

/-- The one write-back, at the last tile, writes the result: the window's block there is the whole one-cell array. -/
theorem flushed7_3 (c : Dev nD) (t : Fin cfg7.N) (hf : (cfg7.win 3).flush t = true) :
    (dat7 V c).flushed 3 t = ((cfg7.win 3).blk t).view.read (Elt F) (G7_3 (hArr7 V c) (sArr7 V c) (wArr7 V c)) := by
  have hN : cfg7.N = 10 := N_7
  have h9 : t.val = 9 := by have := (flush7_3 t).mp hf; have := t.isLt; omega
  show (cfg7.win 3).cut (grid7.coords t) ((dat7 V c).after 3 t) = _
  rw [after7_3, out7_at_last V c t h9, acc7_eq_tot V c t.val t.isLt]
  obtain rfl : t = t7_9 := Fin.ext h9
  have hz' : (fun a => win7_3.index t7_9 a * (Pipeline.arrRef spec7 3).ty.shape.size a) = fun _ => 0 :=
    funext fun a => by fin_cases a <;> decide
  exact (Memref.read_access_unit_zero (Elt F) (Pipeline.arrRef spec7 3) hz' (fun a => by rw [congrFun hz' a]; simp)
    (G7_3 (hArr7 V c) (sArr7 V c) (wArr7 V c))).symm

/-- THE VALUE: after the run the result array holds `G7_3` of the three input arrays as the region found them. -/
theorem final7_3 (c : Dev nD) :
    (dat7 V c).arrAt 3 cfg7.N = G7_3 (hArr7 V c) (sArr7 V c) (wArr7 V c) :=
  (dat7 V c).arrAt_eq_of_cover 3 (G7_3 (hArr7 V c) (sArr7 V c) (wArr7 V c)) (flushed7_3 V c) fun i =>
    ⟨t7_9, (flush7_3 t7_9).mpr rfl, by
      -- the array has one cell, at coordinates (0, 0); the last point's block starts at (0, 0) and has extent (1, 1)
      show i ∈ ((View.whole (Pipeline.arrRef spec7 3)).slice (win7_3.rect t7_9)).set
      rw [View.set_slice_whole, Rect.mem_set_unit]
      intro a
      have hlt : (i a : Nat) < 1 := by fin_cases a <;> exact (i _).isLt
      have hoff : win7_3.index t7_9 a * win7_3.size a = 0 := by fin_cases a <;> decide
      have hext : win7_3.xsize (grid7.coords t7_9) a = 1 := by fin_cases a <;> decide
      show win7_3.index t7_9 a * win7_3.size a ≤ (i a : Nat)
        ∧ (i a : Nat) < win7_3.index t7_9 a * win7_3.size a + win7_3.xsize (grid7.coords t7_9) a
      rw [hoff, hext]; omega⟩

end Cert.KernelIdeal.Hand

end
-- ==== Proof.KI.Reg7.lean ====
/-
  Region 7 (custom call 7): the body's runs per control case, the proof data with its invariant and body
  obligation, and the value of the result array — one import for the three modules.
-/
import proofs.«160050_j32744830665390_2_alg».proof.Proof.KI.Reg7.Frame
import proofs.«160050_j32744830665390_2_alg».proof.Proof.KI.Reg7.Value
-- ==== Proof.KI.Reg8.Runs.lean ====
/-
  Region 8 (custom call 8, the node-wise Dirichlet term of one hidden state): the kernel body run once per
  control case.

  The body has two conditionals on the grid coordinate. At the first row tile it clears the one-cell accumulator;
  at every tile it adds the tile's partial sum  Σ_r (w r · Σ_k h r k · h r k − 2 · Σ_k h r k · s r k)  to the
  accumulator; at the last row tile it copies the accumulator to the one-cell output block. With ten tiles the
  two conditions never hold together, so there are three cases: first tile, a middle tile, last tile.

  For each case the body is run symbolically on arbitrary whole memrefs and the list of stores each written
  buffer ends with is recorded (last store first); the lists are found by the run itself.
-/
import proofs.«160050_j32744830665390_2_alg».proof.Proof.KI.Iface

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, and where on the grid they hold -/

/-- "This is the first row tile": the printed comparison chain of the first conditional. -/
abbrev isFirst8 (i : grid8.Coords) : Prop :=
  (Scalar.cmpi .ne (Scalar.extui (Scalar.cmpi .eq (BitVec.ofNat 32 (i 0).val) 0#32)) 0#32) = 1#1

/-- "This is the last row tile": the printed condition of the second conditional. -/
abbrev isLast8 (i : grid8.Coords) : Prop := k8_cond2 i = 1#1

/-- The first condition holds at point 0 and nowhere else. -/
theorem isFirst8_iff : ∀ t : Fin cfg8.N, isFirst8 (grid8.coords t) ↔ t.val = 0 :=
  (by decide +kernel : ∀ t : Fin grid8.N, isFirst8 (grid8.coords t) ↔ t.val = 0)

/-- The second condition holds at point 9 and nowhere else. -/
theorem isLast8_iff : ∀ t : Fin cfg8.N, isLast8 (grid8.coords t) ↔ t.val = 9 :=
  (by decide +kernel : ∀ t : Fin grid8.N, isLast8 (grid8.coords t) ↔ t.val = 9)

/-- The three input windows are never idle. -/
theorem live8_0 : ∀ t : Fin cfg8.N, cfg8.idle 0 (grid8.coords t) = false := by decide +kernel
theorem live8_1 : ∀ t : Fin cfg8.N, cfg8.idle 1 (grid8.coords t) = false := by decide +kernel
theorem live8_2 : ∀ t : Fin cfg8.N, cfg8.idle 2 (grid8.coords t) = false := by decide +kernel
/-- The output window is idle, and not written back, at every point but the last; there it is live. -/
theorem idle8_3 : ∀ t : Fin cfg8.N, t.val ≠ 9 → cfg8.idle 3 (grid8.coords t) = true := by decide +kernel
theorem keep8_3 : ∀ t : Fin cfg8.N, t.val ≠ 9 → (cfg8.win 3).flush t = false := by decide +kernel
theorem live8_3 : ∀ t : Fin cfg8.N, t.val = 9 → cfg8.idle 3 (grid8.coords t) = false := by decide +kernel

/-! ## The memrefs the pipeline passes the body at a point -/

abbrev ms8_0 (t : Fin cfg8.N) : Memref sig .tc .vmem S5000x128 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S5000x128 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S5000x1 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S1x1 .f32 := win8_3.stage (cfg8.slots t 3)
abbrev hs8_3 (t : Fin cfg8.N) : (ms8_3 t).IsWhole := hstage8_3 ((cfg8.slots t 3).cast nbuf8_3)
/-- The accumulator: a whole scoped buffer of the kernel's own. -/
abbrev acM8 : Memref sig .tc .vmem S1x1 .f32 := Memref.whole cc8_scratch0
/-- The views through which the accumulator's and the output block's contents are stated. -/
abbrev acV8 : View sig .tc .vmem S1x1 .f32 := acM8.view
abbrev outV8 : View sig .tc .vmem S1x1 .f32 := (Memref.whole cc8_stg3_0 : Memref sig .tc .vmem S1x1 .f32).view

/-! ## The three runs -/

set_option maxHeartbeats 1000000 in
/-- FIRST TILE. The accumulator may hold anything; the output block `xo` is not touched. The accumulator ends with
    the stores `LA`: the clearing store, then the store of  0 + (the tile's partial sum). -/
def run8_first (c : Dev nD) (i : grid8.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : isFirst8 i) (hlast : ¬isLast8 i)
    (h : Vec F S5000x128 .f32) (s : Vec F S5000x128 .f32) (w : Vec F S5000x1 .f32) :
    { LA : List (View.Piece (Elt F) S1x1 .f32) //
      ∀ (xo : Vec F S1x1 .f32) (E : Set ℕ) (K : PUnit → sProp 𝕄),
        iprop(owns (c : Thread nD τ) arg1 fullShare h ∗ owns (c : Thread nD τ) arg2 fullShare s ∗ owns (c : Thread nD τ) arg3 fullShare w
            ∗ owns (c : Thread nD τ) arg4 fullShare xo ∗ (∃ d, owns (c : Thread nD τ) arg5 fullShare d)
            ∗ (iprop(owns (c : Thread nD τ) arg1 fullShare h ∗ owns (c : Thread nD τ) arg2 fullShare s ∗ owns (c : Thread nD τ) arg3 fullShare w
                ∗ owns (c : Thread nD τ) arg4 fullShare xo
                ∗ (∃ f, arg5.view.loc (c : Thread nD τ) ↦[arg5.view.set]{fullShare} arg5.view.writes (Elt F) f LA)) -∗ K ⟨⟩))
          ⊢ wp frame (wpE (defs₀ (F := F)) Variants.none c none) E (cc8_node_reg_kernel i arg1 harg1 arg2 harg2 arg3 harg3 arg4 harg4 arg5 harg5) K } := by
  refine ⟨?_, fun xo E K => ?run⟩
  case run =>
    simp only [cc8_node_reg_kernel_eq_skeleton]; unfold cc8_node_reg_kernel_skel
    unfold owns
    iintro ⟨⟨%f1, %hf1, H1⟩, ⟨%f2, %hf2, H2⟩, ⟨%f3, %hf3, H3⟩, ⟨%f4, %hf4, H4⟩, ⟨%da, %fa, -, HA⟩, Hk⟩
    obtain rfl := harg1.eq_unread hf1; obtain rfl := harg2.eq_unread hf2
    obtain rfl := harg3.eq_unread hf3; obtain rfl := harg4.eq_unread hf4
    sl_exec (disch := first | exact hfirst | exact hlast)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact HA

set_option maxHeartbeats 1000000 in
/-- A MIDDLE TILE. The accumulator holds `a`, what the tile before left; the output block `xo` is not touched. The
    accumulator ends with the one store of  a + (the tile's partial sum). -/
def run8_mid (c : Dev nD) (i : grid8.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst8 i) (hlast : ¬isLast8 i)
    (h : Vec F S5000x128 .f32) (s : Vec F S5000x128 .f32) (w : Vec F S5000x1 .f32) (a : Vec F S1x1 .f32) :
    { LA : List (View.Piece (Elt F) S1x1 .f32) //
      ∀ (xo : Vec F S1x1 .f32) (E : Set ℕ) (K : PUnit → sProp 𝕄),
        iprop(owns (c : Thread nD τ) arg1 fullShare h ∗ owns (c : Thread nD τ) arg2 fullShare s ∗ owns (c : Thread nD τ) arg3 fullShare w
            ∗ owns (c : Thread nD τ) arg4 fullShare xo ∗ owns (c : Thread nD τ) arg5 fullShare a
            ∗ (iprop(owns (c : Thread nD τ) arg1 fullShare h ∗ owns (c : Thread nD τ) arg2 fullShare s ∗ owns (c : Thread nD τ) arg3 fullShare w
                ∗ owns (c : Thread nD τ) arg4 fullShare xo
                ∗ (∃ f, arg5.view.loc (c : Thread nD τ) ↦[arg5.view.set]{fullShare} arg5.view.writes (Elt F) f LA)) -∗ K ⟨⟩))
          ⊢ wp frame (wpE (defs₀ (F := F)) Variants.none c none) E (cc8_node_reg_kernel i arg1 harg1 arg2 harg2 arg3 harg3 arg4 harg4 arg5 harg5) K } := by
  refine ⟨?_, fun xo E K => ?run⟩
  case run =>
    simp only [cc8_node_reg_kernel_eq_skeleton]; unfold cc8_node_reg_kernel_skel
    unfold owns
    iintro ⟨⟨%f1, %hf1, H1⟩, ⟨%f2, %hf2, H2⟩, ⟨%f3, %hf3, H3⟩, ⟨%f4, %hf4, H4⟩, ⟨%fa, %hfa, HA⟩, Hk⟩
    obtain rfl := harg1.eq_unread hf1; obtain rfl := harg2.eq_unread hf2
    obtain rfl := harg3.eq_unread hf3; obtain rfl := harg4.eq_unread hf4
    obtain rfl := harg5.eq_unread hfa
    sl_exec (disch := first | exact hfirst | exact hlast)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact HA

set_option maxHeartbeats 1000000 in
/-- THE LAST TILE. The accumulator holds `a`; the output block may hold anything. The accumulator ends with the store
    `LA` of  a + (the tile's partial sum), the output block with the store `LO` of that same value read back. -/
def run8_last (c : Dev nD) (i : grid8.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst8 i) (hlast : isLast8 i)
    (h : Vec F S5000x128 .f32) (s : Vec F S5000x128 .f32) (w : Vec F S5000x1 .f32) (a : Vec F S1x1 .f32) :
    Σ' (LO : List (View.Piece (Elt F) S1x1 .f32)), { LA : List (View.Piece (Elt F) S1x1 .f32) //
      ∀ (E : Set ℕ) (K : PUnit → sProp 𝕄),
        iprop(owns (c : Thread nD τ) arg1 fullShare h ∗ owns (c : Thread nD τ) arg2 fullShare s ∗ owns (c : Thread nD τ) arg3 fullShare w
            ∗ (∃ d, owns (c : Thread nD τ) arg4 fullShare d) ∗ owns (c : Thread nD τ) arg5 fullShare a
            ∗ (iprop(owns (c : Thread nD τ) arg1 fullShare h ∗ owns (c : Thread nD τ) arg2 fullShare s ∗ owns (c : Thread nD τ) arg3 fullShare w
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LA)) -∗ K ⟨⟩))
          ⊢ wp frame (wpE (defs₀ (F := F)) Variants.none c none) E (cc8_node_reg_kernel i arg1 harg1 arg2 harg2 arg3 harg3 arg4 harg4 arg5 harg5) K } := by
  refine ⟨?_, ?_, fun E K => ?run⟩
  case run =>
    simp only [cc8_node_reg_kernel_eq_skeleton]; unfold cc8_node_reg_kernel_skel
    unfold owns
    iintro ⟨⟨%f1, %hf1, H1⟩, ⟨%f2, %hf2, H2⟩, ⟨%f3, %hf3, H3⟩, ⟨%d4, %f4, -, H4⟩, ⟨%fa, %hfa, HA⟩, Hk⟩
    obtain rfl := harg1.eq_unread hf1; obtain rfl := harg2.eq_unread hf2
    obtain rfl := harg3.eq_unread hf3; obtain rfl := harg5.eq_unread hfa
    sl_exec (disch := first | exact hfirst | exact hlast)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    iexists _; iexact HA

end Cert.KernelIdeal.Hand

end
-- ==== Proof.KI.Reg8.Frame.lean ====
/-
  Region 8: what the accumulator and the output block hold after each row tile, the region's proof data at the
  entry contents `V`, its invariant, and the body obligation.

  The accumulator after tile 0 is what the first-tile run leaves; after tile n + 1 it is what the middle-tile run
  (the last-tile run at n + 1 = 9) leaves when started from the accumulator after tile n. The invariant before
  tile 0 is the class's: every scoped buffer that is no staging buffer at some contents, and the generator register.
  Before tile n + 1 it holds the accumulator at exactly the contents named above, the other scoped buffers at some
  contents, and the generator register. The output block is live only at the last tile, where it receives the
  accumulator's final value; everywhere else its staging buffer is handed back as found.
-/
import proofs.«160050_j32744830665390_2_alg».proof.Proof.KI.Reg8.Runs

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## The input blocks -/

/-- Window `w`'s block at point `t`, read off its array as the region finds it. -/
def blk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## What each case leaves, read back through one fixed view -/

/-- The accumulator after the first tile. -/
def acc8_first (c : Dev nD) (t : Fin cfg8.N) (h0 : t.val = 0)
    (h : Vec F S5000x128 .f32) (s : Vec F S5000x128 .f32) (w : Vec F S5000x1 .f32) : Vec F S1x1 .f32 :=
  acV8.read (Elt F) (acV8.writes (Elt F) acV8.junk
    (run8_first c (grid8.coords t) (ms8_0 t) (hs8_0 t) (ms8_1 t) (hs8_1 t) (ms8_2 t) (hs8_2 t) (ms8_3 t) (hs8_3 t) acM8 (Memref.isWhole_whole _)
      ((isFirst8_iff t).mpr h0) (fun hl => by have := (isLast8_iff t).mp hl; omega) h s w).1)

/-- The accumulator after a middle tile that found it at `a`. -/
def acc8_mid (c : Dev nD) (t : Fin cfg8.N) (h0 : t.val ≠ 0) (h9 : t.val ≠ 9)
    (h : Vec F S5000x128 .f32) (s : Vec F S5000x128 .f32) (w : Vec F S5000x1 .f32) (a : Vec F S1x1 .f32) : Vec F S1x1 .f32 :=
  acV8.read (Elt F) (acV8.writes (Elt F) acV8.junk
    (run8_mid c (grid8.coords t) (ms8_0 t) (hs8_0 t) (ms8_1 t) (hs8_1 t) (ms8_2 t) (hs8_2 t) (ms8_3 t) (hs8_3 t) acM8 (Memref.isWhole_whole _)
      (fun hf => h0 ((isFirst8_iff t).mp hf)) (fun hl => h9 ((isLast8_iff t).mp hl)) h s w a).1)

/-- The accumulator after the last tile, which found it at `a`. -/
def acc8_last (c : Dev nD) (t : Fin cfg8.N) (h9 : t.val = 9)
    (h : Vec F S5000x128 .f32) (s : Vec F S5000x128 .f32) (w : Vec F S5000x1 .f32) (a : Vec F S1x1 .f32) : Vec F S1x1 .f32 :=
  acV8.read (Elt F) (acV8.writes (Elt F) acV8.junk
    (run8_last c (grid8.coords t) (ms8_0 t) (hs8_0 t) (ms8_1 t) (hs8_1 t) (ms8_2 t) (hs8_2 t) (ms8_3 t) (hs8_3 t) acM8 (Memref.isWhole_whole _)
      (fun hf => by have := (isFirst8_iff t).mp hf; omega) ((isLast8_iff t).mpr h9) h s w a).2.1)

/-- The output block after the last tile. -/
def out8_last (c : Dev nD) (t : Fin cfg8.N) (h9 : t.val = 9)
    (h : Vec F S5000x128 .f32) (s : Vec F S5000x128 .f32) (w : Vec F S5000x1 .f32) (a : Vec F S1x1 .f32) : Vec F S1x1 .f32 :=
  outV8.read (Elt F) (outV8.writes (Elt F) outV8.junk
    (run8_last c (grid8.coords t) (ms8_0 t) (hs8_0 t) (ms8_1 t) (hs8_1 t) (ms8_2 t) (hs8_2 t) (ms8_3 t) (hs8_3 t) acM8 (Memref.isWhole_whole _)
      (fun hf => by have := (isFirst8_iff t).mp hf; omega) ((isLast8_iff t).mpr h9) h s w a).1)

/-- Each list of stores covers its one-cell buffer. -/
theorem cover8_first (c : Dev nD) (i : grid8.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : isFirst8 i) (hlast : ¬isLast8 i)
    (h : Vec F S5000x128 .f32) (s : Vec F S5000x128 .f32) (w : Vec F S5000x1 .f32) (y : S1x1.Idx) :
    ∃ pc ∈ (run8_first c i arg1 harg1 arg2 harg2 arg3 harg3 arg4 harg4 arg5 harg5 hfirst hlast h s w).1, y ∈ pc.1.set :=
  View.cover_of_tiledL _ S1x1.size (by sl_kernel_rfl) y

theorem cover8_mid (c : Dev nD) (i : grid8.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst8 i) (hlast : ¬isLast8 i)
    (h : Vec F S5000x128 .f32) (s : Vec F S5000x128 .f32) (w : Vec F S5000x1 .f32) (a : Vec F S1x1 .f32) (y : S1x1.Idx) :
    ∃ pc ∈ (run8_mid c i arg1 harg1 arg2 harg2 arg3 harg3 arg4 harg4 arg5 harg5 hfirst hlast h s w a).1, y ∈ pc.1.set :=
  View.cover_of_tiledL _ S1x1.size (by sl_kernel_rfl) y

theorem cover8_last_acc (c : Dev nD) (i : grid8.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst8 i) (hlast : isLast8 i)
    (h : Vec F S5000x128 .f32) (s : Vec F S5000x128 .f32) (w : Vec F S5000x1 .f32) (a : Vec F S1x1 .f32) (y : S1x1.Idx) :
    ∃ pc ∈ (run8_last c i arg1 harg1 arg2 harg2 arg3 harg3 arg4 harg4 arg5 harg5 hfirst hlast h s w a).2.1, y ∈ pc.1.set :=
  View.cover_of_tiledL _ S1x1.size (by sl_kernel_rfl) y

theorem cover8_last_out (c : Dev nD) (i : grid8.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst8 i) (hlast : isLast8 i)
    (h : Vec F S5000x128 .f32) (s : Vec F S5000x128 .f32) (w : Vec F S5000x1 .f32) (a : Vec F S1x1 .f32) (y : S1x1.Idx) :
    ∃ pc ∈ (run8_last c i arg1 harg1 arg2 harg2 arg3 harg3 arg4 harg4 arg5 harg5 hfirst hlast h s w a).1, y ∈ pc.1.set :=
  View.cover_of_tiledL _ S1x1.size (by sl_kernel_rfl) y

/-! ## The accumulator and the output block, tile by tile -/

/-- THE RUNNING TOTAL: what the accumulator holds after the body at position `n`. -/
def acc8 (c : Dev nD) : (n : ℕ) → n < cfg8.N → Vec F S1x1 .f32
  | 0, hn => acc8_first c ⟨0, hn⟩ rfl (blk8 V c 0 ⟨0, hn⟩) (blk8 V c 1 ⟨0, hn⟩) (blk8 V c 2 ⟨0, hn⟩)
  | n + 1, hn =>
    if h9 : n + 1 = 9 then
      acc8_last c ⟨n + 1, hn⟩ h9 (blk8 V c 0 ⟨n + 1, hn⟩) (blk8 V c 1 ⟨n + 1, hn⟩) (blk8 V c 2 ⟨n + 1, hn⟩) (acc8 c n (Nat.lt_of_succ_lt hn))
    else
      acc8_mid c ⟨n + 1, hn⟩ (Nat.succ_ne_zero n) h9 (blk8 V c 0 ⟨n + 1, hn⟩) (blk8 V c 1 ⟨n + 1, hn⟩) (blk8 V c 2 ⟨n + 1, hn⟩) (acc8 c n (Nat.lt_of_succ_lt hn))

/-- The accumulator just before point `t`, for `t` not the first: what the point before left. -/
abbrev accBefore8 (c : Dev nD) (t : Fin cfg8.N) : Vec F S1x1 .f32 :=
  acc8 V c (t.val - 1) (Nat.lt_of_le_of_lt (Nat.sub_le _ _) t.isLt)

theorem acc8_at_first (c : Dev nD) (t : Fin cfg8.N) (h0 : t.val = 0) :
    acc8 V c t.val t.isLt = acc8_first c t h0 (blk8 V c 0 t) (blk8 V c 1 t) (blk8 V c 2 t) := by
  obtain ⟨n, hn⟩ := t
  cases n with
  | zero => rfl
  | succ n => exact absurd h0 (Nat.succ_ne_zero n)

theorem acc8_at_mid (c : Dev nD) (t : Fin cfg8.N) (h0 : t.val ≠ 0) (h9 : t.val ≠ 9) :
    acc8 V c t.val t.isLt = acc8_mid c t h0 h9 (blk8 V c 0 t) (blk8 V c 1 t) (blk8 V c 2 t) (accBefore8 V c t) := by
  obtain ⟨n, hn⟩ := t
  cases n with
  | zero => exact absurd rfl h0
  | succ n => exact (dif_neg h9).trans rfl

theorem acc8_at_last (c : Dev nD) (t : Fin cfg8.N) (h9 : t.val = 9) :
    acc8 V c t.val t.isLt = acc8_last c t h9 (blk8 V c 0 t) (blk8 V c 1 t) (blk8 V c 2 t) (accBefore8 V c t) := by
  obtain ⟨n, hn⟩ := t
  cases n with
  | zero => exact absurd h9 (show ¬ (0 : ℕ) = 9 by decide)
  | succ n => exact (dif_pos h9).trans rfl

/-- What the output window's staging buffer holds after the body at point `t`: at the last point the accumulator's
    final value as the last-tile run stores it; the value at the other points is consulted nowhere (the window is
    idle there and not written back). -/
def out8 (c : Dev nD) (t : Fin cfg8.N) : Vec F S1x1 .f32 :=
  if h9 : t.val = 9 then out8_last c t h9 (blk8 V c 0 t) (blk8 V c 1 t) (blk8 V c 2 t) (accBefore8 V c t)
  else acc8 V c t.val t.isLt

/-! ## The invariant -/

/-- Before position `n`: at the first point the class's invariant; afterwards the accumulator at the running total,
    the other scoped buffers at some contents, the generator register at some state. -/
def Phi8 (c : Dev nD) : (n : ℕ) → n ≤ cfg8.N → sProp 𝕄
  | 0, _ => Pipeline.ΦA (U := UR sig nD τ) (Val := Elt F) spec8 c
  | n + 1, hn => iprop(iprop(owns (c : Thread nD τ) acM8 fullShare (acc8 V c n hn)
      ∗ Pipeline.scopedRestBut (Ix := Unit) (Name := ℕ) (U := UR sig nD τ) (Lvl := ℕ) (Val := Elt F) spec8 c [cc8_scratch0]) ∗ (∃ r, prngReg c r))

theorem Phi8_zero (c : Dev nD) (n : ℕ) (hn : n ≤ cfg8.N) (hz : n = 0) :
    Phi8 V c n hn = Pipeline.ΦA (U := UR sig nD τ) (Val := Elt F) spec8 c := by
  subst hz; rfl

theorem Phi8_succ (c : Dev nD) (n : ℕ) (hn : n < cfg8.N) :
    Phi8 V c (n + 1) hn = iprop(iprop(owns (c : Thread nD τ) acM8 fullShare (acc8 V c n hn)
      ∗ Pipeline.scopedRestBut (Ix := Unit) (Name := ℕ) (U := UR sig nD τ) (Lvl := ℕ) (Val := Elt F) spec8 c [cc8_scratch0]) ∗ (∃ r, prngReg c r)) := rfl

theorem Phi8_pos (c : Dev nD) (n : ℕ) (hn : n ≤ cfg8.N) (hz : n ≠ 0) :
    Phi8 V c n hn = iprop(iprop(owns (c : Thread nD τ) acM8 fullShare (acc8 V c (n - 1) (by omega))
      ∗ Pipeline.scopedRestBut (Ix := Unit) (Name := ℕ) (U := UR sig nD τ) (Lvl := ℕ) (Val := Elt F) spec8 c [cc8_scratch0]) ∗ (∃ r, prngReg c r)) := by
  cases n with
  | zero => exact absurd rfl hz
  | succ n => rfl

/-- The class's invariant with the accumulator singled out of the scoped rest. -/
theorem PhiA8_open (c : Dev nD) :
    (Pipeline.ΦA (U := UR sig nD τ) (Val := Elt F) spec8 c : sProp 𝕄)
      = iprop(iprop((∃ d, owns (c : Thread nD τ) acM8 fullShare d)
          ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [acM8, owns_whole]; try rfl

/-! ## The proof data -/

/-- Region 8's proof data on core `c`: the arrays as the region finds them; after the body each input's buffer still
    at its block, the output's at `out8`; the invariant `Phi8`; full shares; nothing owed. -/
def dat8 (c : Dev nD) : Dat τ (Elt F) Unit ℕ (UR sig nD τ) ℕ cfg8 c where
  A w := V c (Pipeline.arrRef spec8 w)
  after w t := match w with
    | ⟨0, _⟩ => blk8 V c 0 t
    | ⟨1, _⟩ => blk8 V c 1 t
    | ⟨2, _⟩ => blk8 V c 2 t
    | ⟨3, _⟩ => out8 V c t
  Φ t := Phi8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem q_eq8 (c : Dev nD) (w : Fin cfg8.W) : (dat8 V c).q w = fullShare := by
  dsimp only [dat8]

theorem owed_eq8 (c : Dev nD) (t : Fin (cfg8.N + 1)) : (dat8 V c).owed t = 0 := by
  dsimp only [dat8]

theorem Phi8_castSucc (c : Dev nD) (t : Fin cfg8.N) :
    (dat8 V c).Φ t.castSucc = Phi8 V c t.val (Nat.le_of_lt t.isLt) := by
  dsimp only [dat8]; simp only [Fin.coe_castSucc]

theorem after8_0 (c : Dev nD) (t : Fin cfg8.N) : (dat8 V c).after 0 t = blk8 V c 0 t := by dsimp only [dat8]
theorem after8_1 (c : Dev nD) (t : Fin cfg8.N) : (dat8 V c).after 1 t = blk8 V c 1 t := by dsimp only [dat8]
theorem after8_2 (c : Dev nD) (t : Fin cfg8.N) : (dat8 V c).after 2 t = blk8 V c 2 t := by dsimp only [dat8]
theorem after8_3 (c : Dev nD) (t : Fin cfg8.N) : (dat8 V c).after 3 t = out8 V c t := by dsimp only [dat8]

/-- Every input window is fetched at every point, so its current buffer holds the array's block there. -/
theorem before8_0 (c : Dev nD) (t : Fin cfg8.N) (d) : (dat8 V c).before 0 t d = blk8 V c 0 t :=
  ((dat8 V c).before_fetched 0 t (fetch8_0 t) d).trans (by unfold Dat.fetched Dat.blockOf blk8; rw [A_eq8]; try rfl)
theorem before8_1 (c : Dev nD) (t : Fin cfg8.N) (d) : (dat8 V c).before 1 t d = blk8 V c 1 t :=
  ((dat8 V c).before_fetched 1 t (fetch8_1 t) d).trans (by unfold Dat.fetched Dat.blockOf blk8; rw [A_eq8]; try rfl)
theorem before8_2 (c : Dev nD) (t : Fin cfg8.N) (d) : (dat8 V c).before 2 t d = blk8 V c 2 t :=
  ((dat8 V c).before_fetched 2 t (fetch8_2 t) d).trans (by unfold Dat.fetched Dat.blockOf blk8; rw [A_eq8]; try rfl)

/-! ## The body obligation -/

/-- What the body is called with at point `t`, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t)

theorem leaves8_0 (c : Dev nD) (t : Fin cfg8.N) :
    (dat8 V c).leavesExact 0 t = owns (c : Thread nD τ) (ms8_0 t) fullShare (blk8 V c 0 t) := by
  unfold Dat.leavesExact; rw [live8_0 t, after8_0]
theorem leaves8_1 (c : Dev nD) (t : Fin cfg8.N) :
    (dat8 V c).leavesExact 1 t = owns (c : Thread nD τ) (ms8_1 t) fullShare (blk8 V c 1 t) := by
  unfold Dat.leavesExact; rw [live8_1 t, after8_1]
theorem leaves8_2 (c : Dev nD) (t : Fin cfg8.N) :
    (dat8 V c).leavesExact 2 t = owns (c : Thread nD τ) (ms8_2 t) fullShare (blk8 V c 2 t) := by
  unfold Dat.leavesExact; rw [live8_2 t, after8_2]
theorem leaves8_3_idle (c : Dev nD) (t : Fin cfg8.N) (h9 : t.val ≠ 9) :
    (dat8 V c).leavesExact 3 t = iprop(∃ d, owns (c : Thread nD τ) (ms8_3 t) fullShare ((dat8 V c).before 3 t d)) :=
  Dat.leavesExact_idle (dat8 V c) 3 t (idle8_3 t h9) (keep8_3 t h9)
theorem leaves8_3_live (c : Dev nD) (t : Fin cfg8.N) (h9 : t.val = 9) :
    (dat8 V c).leavesExact 3 t = owns (c : Thread nD τ) (ms8_3 t) fullShare (out8 V c t) := by
  unfold Dat.leavesExact; rw [live8_3 t h9, after8_3]

set_option maxHeartbeats 4800000 in
/-- The body at any point. The inputs' buffers hold their blocks; the point's position decides the case; the invariant
    hands the run the accumulator (at anything before the first tile, at the running total afterwards) and takes it
    back at the new running total, the run's stores covering the one cell; the rest of the invariant and what the
    core owes pass through untouched. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).owesAt () t.succ = (dat8 V c).owesAt () t.castSucc from rfl]
  rw [show (dat8 V c).Φ t.succ = Phi8 V c (t.val + 1) t.isLt from rfl, Phi8_succ]
  rw [leaves8_0, leaves8_1, leaves8_2, Phi8_castSucc]
  have hN : t.val < 10 := lt_of_lt_of_eq t.isLt (show cfg8.N = 10 from N_8)
  by_cases h0 : t.val = 0
  · -- the first tile
    have h9 : t.val ≠ 9 := by omega
    rw [leaves8_3_idle V c t h9, acc8_at_first V c t h0, Phi8_zero V c _ _ h0, PhiA8_open]
    unfold acc8_first
    iintro ⟨⟨⟨HA, HR⟩, Hg⟩, Ho, ⟨%d0, H0⟩, ⟨%d1, H1⟩, ⟨%d2, H2⟩, ⟨%d3, H3⟩⟩
    iapply ((run8_first c (grid8.coords t) _ _ _ _ _ _ _ _ _ _ ((isFirst8_iff t).mpr h0)
      (fun hl => by have := (isLast8_iff t).mp hl; omega) (blk8 V c 0 t) (blk8 V c 1 t) (blk8 V c 2 t)).2 _ Set.univ _)
    isplitl [H0]; · iexact H0
    isplitl [H1]; · iexact H1
    isplitl [H2]; · iexact H2
    isplitl [H3]; · iexact H3
    isplitl [HA]; · iexact HA
    iintro ⟨H0, H1, H2, H3, ⟨%ea, HA⟩⟩
    isplitl [HA HR Hg]
    · isplitr [Hg]
      · isplitl [HA]
        · unfold owns; iexists _; isplitr
          swap; · iexact HA
          ipureintro; exact View.read_writes_of_cover _ _ _ _ _ (cover8_first c _ _ _ _ _ _ _ _ _ _ _ _ _ _ _ _)
        iexact HR
      iexact Hg
    isplitl [Ho]; · iexact Ho
    isplitl [H0]; · iexact H0
    isplitl [H1]; · iexact H1
    isplitl [H2]; · iexact H2
    iexists _; iexact H3
  · by_cases h9 : t.val = 9
    · -- the last tile
      rw [leaves8_3_live V c t h9, acc8_at_last V c t h9, Phi8_pos V c _ _ h0]
      unfold out8; rw [dif_pos h9]
      unfold acc8_last out8_last
      iintro ⟨⟨⟨HA, HR⟩, Hg⟩, Ho, ⟨%d0, H0⟩, ⟨%d1, H1⟩, ⟨%d2, H2⟩, ⟨%d3, H3⟩⟩
      iapply ((run8_last c (grid8.coords t) _ _ _ _ _ _ _ _ _ _ (fun hf => by have := (isFirst8_iff t).mp hf; omega)
        ((isLast8_iff t).mpr h9) (blk8 V c 0 t) (blk8 V c 1 t) (blk8 V c 2 t) (accBefore8 V c t)).2.2 Set.univ _)
      isplitl [H0]; · iexact H0
      isplitl [H1]; · iexact H1
      isplitl [H2]; · iexact H2
      isplitl [H3]; · iexists _; iexact H3
      isplitl [HA]; · iexact HA
      iintro ⟨H0, H1, H2, ⟨%eo, H3⟩, ⟨%ea, HA⟩⟩
      isplitl [HA HR Hg]
      · isplitr [Hg]
        · isplitl [HA]
          · unfold owns; iexists _; isplitr
            swap; · iexact HA
            ipureintro; exact View.read_writes_of_cover _ _ _ _ _ (cover8_last_acc c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover8_last_out c _ _ _ _ _ _ _ _ _ _ _ _ _ _ _ _ _)
    · -- a middle tile
      rw [leaves8_3_idle V c t h9, acc8_at_mid V c t h0 h9, Phi8_pos V c _ _ h0]
      unfold acc8_mid
      iintro ⟨⟨⟨HA, HR⟩, Hg⟩, Ho, ⟨%d0, H0⟩, ⟨%d1, H1⟩, ⟨%d2, H2⟩, ⟨%d3, H3⟩⟩
      iapply ((run8_mid c (grid8.coords t) _ _ _ _ _ _ _ _ _ _ (fun hf => h0 ((isFirst8_iff t).mp hf))
        (fun hl => h9 ((isLast8_iff t).mp hl)) (blk8 V c 0 t) (blk8 V c 1 t) (blk8 V c 2 t) (accBefore8 V c t)).2 _ Set.univ _)
      isplitl [H0]; · iexact H0
      isplitl [H1]; · iexact H1
      isplitl [H2]; · iexact H2
      isplitl [H3]; · iexact H3
      isplitl [HA]; · iexact HA
      iintro ⟨H0, H1, H2, H3, ⟨%ea, HA⟩⟩
      isplitl [HA HR Hg]
      · isplitr [Hg]
        · isplitl [HA]
          · unfold owns; iexists _; isplitr
            swap; · iexact HA
            ipureintro; exact View.read_writes_of_cover _ _ _ _ _ (cover8_mid c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation8 (c : Dev nD) : BodyObligation (dat8 (F := F) V c) (defs₀ (F := F)) Variants.none () Set.univ := fun t => by
  rw [bigSep_W8, bigSep_W8]
  exact sound_body8 V c t

/-! ## The invariant's two ends -/

/-- The class's invariant is the invariant before the first point. -/
theorem Phi_in8 (c : Dev nD) : (Pipeline.ΦA (U := UR sig nD τ) (Val := Elt F) spec8 c : sProp 𝕄) ⊢ (dat8 V c).Φ 0 := by
  rw [show (dat8 V c).Φ 0 = Phi8 V c 0 (Nat.zero_le _) from rfl, Phi8_zero V c 0 _ rfl]
  try exact Entails.refl _

/-- After the last point the invariant gives the class's back: the accumulator's contents are forgotten. -/
theorem Phi_out8 (c : Dev nD) : (dat8 V c).Φ (Fin.last cfg8.N) ⊢ (Pipeline.ΦA (U := UR sig nD τ) (Val := Elt F) spec8 c : sProp 𝕄) := by
  have hne : (Fin.last cfg8.N).val ≠ 0 := by rw [Fin.val_last]; have : cfg8.N = 10 := N_8; omega
  rw [show (dat8 V c).Φ (Fin.last cfg8.N) = Phi8 V c (Fin.last cfg8.N).val (Nat.le_of_lt_succ (Fin.last cfg8.N).isLt) from rfl,
    Phi8_pos V c _ _ hne, PhiA8_open]
  iintro ⟨⟨HA, HR⟩, Hg⟩
  isplitr [Hg]
  · isplitl [HA]
    · iexists _; iexact HA
    iexact HR
  iexact Hg

end Cert.KernelIdeal.Hand

end
-- ==== Proof.KI.Reg8.Value.lean ====
/-
  Region 8: the value. After the run the one-cell result array holds the running total after the tenth row tile:
  starting from the cleared accumulator, tile after tile in grid order, the accumulator plus the tile's partial sum
    Σ_r (w r · Σ_k h r k · h r k − 2 · Σ_k h r k · s r k),   r over the tile's 5000 rows, k over the 128 features,
  each tile being rows 5000·n … 5000·n + 4999 of the three input arrays.

  First each case's list of stores is read back as the update applied to the tile's blocks and the accumulator found;
  then the running total is the ordered chain over the tiles (induction on the tile); then each block is the array's
  rows; then the single write-back, at the last tile, covers the one-cell array.
-/
import proofs.«160050_j32744830665390_2_alg».proof.Proof.KI.Reg8.Frame
import Idealize.ShloMosaic.Lib.Pipeline.Value
import Idealize.ShloMosaic.Lib.ValueIdx

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

open Idealize.ShloMosaic.ValueIdx (ix2)

theorem hz8 : (![0, 0] : Fin 2 → Nat) = fun _ => 0 := funext fun a => by fin_cases a <;> rfl

/-! ## What each case's stores leave -/

/-- First tile: the accumulator is cleared, then the tile's partial sum is added to the cleared value. -/
theorem first_stores8 (c : Dev nD) (i : grid8.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : isFirst8 i) (hlast : ¬isLast8 i)
    (h : Vec F S5000x128 .f32) (s : Vec F S5000x128 .f32) (w : Vec F S5000x1 .f32) :
    acV8.read (Elt F) (acV8.writes (Elt F) acV8.junk
      (run8_first c i arg1 harg1 arg2 harg2 arg3 harg3 arg4 harg4 arg5 harg5 hfirst hlast h s w).1) = k8_pay2 h s w (k8_pay1 (F := F)) := by
  rw [View.read_writes_eq_canon _ _ _ (cover8_first c i arg1 harg1 arg2 harg2 arg3 harg3 arg4 harg4 arg5 harg5 hfirst hlast h s w)]
  unfold run8_first
  dsimp only
  try sl_unfold_words
  rw [View.canon_cons_unit_zero (S := S1x1) hz8]
  simp only [View.readAt_eq_ld, harg1.read_unread, harg2.read_unread, harg3.read_unread, View.ld_unit_zero (S := S5000x128) hz8,
    View.ld_unit_zero (S := S5000x1) hz8, View.readCov_unit_zero (S := S1x1) _ hz8]

/-- A middle tile: the tile's partial sum is added to what the accumulator held. -/
theorem mid_stores8 (c : Dev nD) (i : grid8.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst8 i) (hlast : ¬isLast8 i)
    (h : Vec F S5000x128 .f32) (s : Vec F S5000x128 .f32) (w : Vec F S5000x1 .f32) (a : Vec F S1x1 .f32) :
    acV8.read (Elt F) (acV8.writes (Elt F) acV8.junk
      (run8_mid c i arg1 harg1 arg2 harg2 arg3 harg3 arg4 harg4 arg5 harg5 hfirst hlast h s w a).1) = k8_pay2 h s w a := by
  rw [View.read_writes_eq_canon _ _ _ (cover8_mid c i arg1 harg1 arg2 harg2 arg3 harg3 arg4 harg4 arg5 harg5 hfirst hlast h s w a)]
  unfold run8_mid
  dsimp only
  try sl_unfold_words
  rw [View.canon_unit_zero (S := S1x1) hz8]
  simp only [View.readAt_eq_ld, harg1.read_unread, harg2.read_unread, harg3.read_unread, harg5.read_unread, View.ld_unit_zero (S := S5000x128) hz8,
    View.ld_unit_zero (S := S5000x1) hz8, View.ld_unit_zero (S := S1x1) hz8]

/-- The last tile leaves the same update in the accumulator, -/
theorem last_stores_acc8 (c : Dev nD) (i : grid8.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst8 i) (hlast : isLast8 i)
    (h : Vec F S5000x128 .f32) (s : Vec F S5000x128 .f32) (w : Vec F S5000x1 .f32) (a : Vec F S1x1 .f32) :
    acV8.read (Elt F) (acV8.writes (Elt F) acV8.junk
      (run8_last c i arg1 harg1 arg2 harg2 arg3 harg3 arg4 harg4 arg5 harg5 hfirst hlast h s w a).2.1) = k8_pay2 h s w a := by
  rw [View.read_writes_eq_canon _ _ _ (cover8_last_acc c i arg1 harg1 arg2 harg2 arg3 harg3 arg4 harg4 arg5 harg5 hfirst hlast h s w a)]
  unfold run8_last
  dsimp only
  try sl_unfold_words
  rw [View.canon_unit_zero (S := S1x1) hz8]
  simp only [View.readAt_eq_ld, harg1.read_unread, harg2.read_unread, harg3.read_unread, harg5.read_unread, View.ld_unit_zero (S := S5000x128) hz8,
    View.ld_unit_zero (S := S5000x1) hz8, View.ld_unit_zero (S := S1x1) hz8]

/-- and copies that value, read back from the accumulator, to the output block. -/
theorem last_stores_out8 (c : Dev nD) (i : grid8.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst8 i) (hlast : isLast8 i)
    (h : Vec F S5000x128 .f32) (s : Vec F S5000x128 .f32) (w : Vec F S5000x1 .f32) (a : Vec F S1x1 .f32) :
    outV8.read (Elt F) (outV8.writes (Elt F) outV8.junk
      (run8_last c i arg1 harg1 arg2 harg2 arg3 harg3 arg4 harg4 arg5 harg5 hfirst hlast h s w a).1) = k8_pay2 h s w a := by
  rw [View.read_writes_eq_canon _ _ _ (cover8_last_out c i arg1 harg1 arg2 harg2 arg3 harg3 arg4 harg4 arg5 harg5 hfirst hlast h s w a)]
  unfold run8_last
  dsimp only
  try sl_unfold_words
  rw [View.canon_unit_zero (S := S1x1) hz8]
  simp only [View.readAt_eq_ld, harg1.read_unread, harg2.read_unread, harg3.read_unread, harg5.read_unread, View.ld_unit_zero (S := S5000x128) hz8,
    View.ld_unit_zero (S := S5000x1) hz8, View.ld_unit_zero (S := S1x1) hz8, View.readCov_unit_zero (S := S1x1) _ hz8]

/-! ## The arrays' row tiles and the ordered chain over them -/

/-- Row tile `n` of a table with 50000 rows of 128 entries: rows 5000·n … 5000·n + 4999. -/
def rowsA8 (X : Vec F S50000x128 .f32) (n : Fin 10) : Vec F S5000x128 .f32 := fun y =>
  X (ix2 ⟨5000 * n.val + (y 0).val, by have h1 : (y 0).val < 5000 := (y 0).isLt; have h2 := n.isLt; omega⟩ ⟨(y 1).val, (y 1).isLt⟩)

/-- Row tile `n` of a column of 50000 entries. -/
def rowsW8 (X : Vec F S50000x1 .f32) (n : Fin 10) : Vec F S5000x1 .f32 := fun y =>
  X (ix2 ⟨5000 * n.val + (y 0).val, by have h1 : (y 0).val < 5000 := (y 0).isLt; have h2 := n.isLt; omega⟩ ⟨(y 1).val, (y 1).isLt⟩)

/-- The running total after row tile `n`, as a function of the three whole arrays: the cleared accumulator updated
    by tile 0, then by tile 1, …, then by tile `n`. -/
def tot8 (H S : Vec F S50000x128 .f32) (W : Vec F S50000x1 .f32) : (n : ℕ) → n < 10 → Vec F S1x1 .f32
  | 0, hn => k8_pay2 (rowsA8 H ⟨0, hn⟩) (rowsA8 S ⟨0, hn⟩) (rowsW8 W ⟨0, hn⟩) (k8_pay1 (F := F))
  | n + 1, hn => k8_pay2 (rowsA8 H ⟨n + 1, hn⟩) (rowsA8 S ⟨n + 1, hn⟩) (rowsW8 W ⟨n + 1, hn⟩) (tot8 H S W n (Nat.lt_of_succ_lt hn))

/-- THE RESULT as one function of the region's three input arrays: the running total after the tenth tile. -/
def G8_3 (H S : Vec F S50000x128 .f32) (W : Vec F S50000x1 .f32) : Vec F S1x1 .f32 := tot8 H S W 9 (by decide)

/-- The three input arrays as the region finds them. -/
abbrev hArr8 (c : Dev nD) : Vec F S50000x128 .f32 := V c (Pipeline.arrRef spec8 0)
abbrev sArr8 (c : Dev nD) : Vec F S50000x128 .f32 := V c (Pipeline.arrRef spec8 1)
abbrev wArr8 (c : Dev nD) : Vec F S50000x1 .f32 := V c (Pipeline.arrRef spec8 2)

/-! ## Each input block is its array's row tile -/

theorem point_lt8 (t : Fin cfg8.N) : t.val < 10 := lt_of_lt_of_eq t.isLt (show cfg8.N = 10 from N_8)

theorem blk8_0_rows (c : Dev nD) (t : Fin cfg8.N) :
    (blk8 V c 0 t : Vec F S5000x128 .f32) = rowsA8 (hArr8 V c) ⟨t.val, point_lt8 t⟩ := by
  have hi : win8_0.index t 0 = t.val ∧ win8_0.index t 1 = 0 := by
    rcases fin_N8 t with rfl | rfl | rfl | rfl | rfl | rfl | rfl | rfl | rfl | rfl <;> decide
  funext y
  unfold blk8 rowsA8
  rw [View.read_apply]
  show V c (Pipeline.arrRef spec8 0) _ = V c (Pipeline.arrRef spec8 0) _
  congr 1
  funext a
  apply Fin.ext
  match a with
  | ⟨0, _⟩ => show win8_0.index t 0 * 5000 + 1 * (y 0).val = 5000 * t.val + (y 0).val; rw [hi.1]; omega
  | ⟨1, _⟩ => show win8_0.index t 1 * 128 + 1 * (y 1).val = (y 1).val; rw [hi.2]; omega

theorem blk8_1_rows (c : Dev nD) (t : Fin cfg8.N) :
    (blk8 V c 1 t : Vec F S5000x128 .f32) = rowsA8 (sArr8 V c) ⟨t.val, point_lt8 t⟩ := by
  have hi : win8_1.index t 0 = t.val ∧ win8_1.index t 1 = 0 := by
    rcases fin_N8 t with rfl | rfl | rfl | rfl | rfl | rfl | rfl | rfl | rfl | rfl <;> decide
  funext y
  unfold blk8 rowsA8
  rw [View.read_apply]
  show V c (Pipeline.arrRef spec8 1) _ = V c (Pipeline.arrRef spec8 1) _
  congr 1
  funext a
  apply Fin.ext
  match a with
  | ⟨0, _⟩ => show win8_1.index t 0 * 5000 + 1 * (y 0).val = 5000 * t.val + (y 0).val; rw [hi.1]; omega
  | ⟨1, _⟩ => show win8_1.index t 1 * 128 + 1 * (y 1).val = (y 1).val; rw [hi.2]; omega

theorem blk8_2_rows (c : Dev nD) (t : Fin cfg8.N) :
    (blk8 V c 2 t : Vec F S5000x1 .f32) = rowsW8 (wArr8 V c) ⟨t.val, point_lt8 t⟩ := by
  have hi : win8_2.index t 0 = t.val ∧ win8_2.index t 1 = 0 := by
    rcases fin_N8 t with rfl | rfl | rfl | rfl | rfl | rfl | rfl | rfl | rfl | rfl <;> decide
  funext y
  unfold blk8 rowsW8
  rw [View.read_apply]
  show V c (Pipeline.arrRef spec8 2) _ = V c (Pipeline.arrRef spec8 2) _
  congr 1
  funext a
  apply Fin.ext
  match a with
  | ⟨0, _⟩ => show win8_2.index t 0 * 5000 + 1 * (y 0).val = 5000 * t.val + (y 0).val; rw [hi.1]; omega
  | ⟨1, _⟩ => show win8_2.index t 1 * 1 + 1 * (y 1).val = (y 1).val; rw [hi.2]; omega

/-! ## The running total is the chain -/

theorem acc8_eq_tot (c : Dev nD) : ∀ (n : ℕ) (hn : n < cfg8.N),
    acc8 V c n hn = tot8 (hArr8 V c) (sArr8 V c) (wArr8 V c) n (lt_of_lt_of_eq hn (show cfg8.N = 10 from N_8))
  | 0, hn => by
    refine (acc8_at_first V c ⟨0, hn⟩ rfl).trans ?_
    unfold acc8_first
    rw [first_stores8, blk8_0_rows, blk8_1_rows, blk8_2_rows]
    rfl
  | n + 1, hn => by
    by_cases h9 : n + 1 = 9
    · refine (acc8_at_last V c ⟨n + 1, hn⟩ h9).trans ?_
      unfold acc8_last
      rw [last_stores_acc8, blk8_0_rows, blk8_1_rows, blk8_2_rows]
      show k8_pay2 _ _ _ (acc8 V c n _) = _
      rw [acc8_eq_tot c n (Nat.lt_of_succ_lt hn)]
      rfl
    · refine (acc8_at_mid V c ⟨n + 1, hn⟩ (Nat.succ_ne_zero n) h9).trans ?_
      unfold acc8_mid
      rw [mid_stores8, blk8_0_rows, blk8_1_rows, blk8_2_rows]
      show k8_pay2 _ _ _ (acc8 V c n _) = _
      rw [acc8_eq_tot c n (Nat.lt_of_succ_lt hn)]
      rfl

/-- At the last tile the output block receives the accumulator's final value. -/
theorem out8_at_last (c : Dev nD) (t : Fin cfg8.N) (h9 : t.val = 9) : out8 V c t = acc8 V c t.val t.isLt := by
  unfold out8
  rw [dif_pos h9, acc8_at_last V c t h9]
  unfold out8_last acc8_last
  rw [last_stores_out8, last_stores_acc8]

/-! ## The write-back and the array after the run -/

/-- The one write-back, at the last tile, writes the result: the window's block there is the whole one-cell array. -/
theorem flushed8_3 (c : Dev nD) (t : Fin cfg8.N) (hf : (cfg8.win 3).flush t = true) :
    (dat8 V c).flushed 3 t = ((cfg8.win 3).blk t).view.read (Elt F) (G8_3 (hArr8 V c) (sArr8 V c) (wArr8 V c)) := by
  have hN : cfg8.N = 10 := N_8
  have h9 : t.val = 9 := by have := (flush8_3 t).mp hf; have := t.isLt; omega
  show (cfg8.win 3).cut (grid8.coords t) ((dat8 V c).after 3 t) = _
  rw [after8_3, out8_at_last V c t h9, acc8_eq_tot V c t.val t.isLt]
  obtain rfl : t = t8_9 := Fin.ext h9
  have hz' : (fun a => win8_3.index t8_9 a * (Pipeline.arrRef spec8 3).ty.shape.size a) = fun _ => 0 :=
    funext fun a => by fin_cases a <;> decide
  exact (Memref.read_access_unit_zero (Elt F) (Pipeline.arrRef spec8 3) hz' (fun a => by rw [congrFun hz' a]; simp)
    (G8_3 (hArr8 V c) (sArr8 V c) (wArr8 V c))).symm

/-- THE VALUE: after the run the result array holds `G8_3` of the three input arrays as the region found them. -/
theorem final8_3 (c : Dev nD) :
    (dat8 V c).arrAt 3 cfg8.N = G8_3 (hArr8 V c) (sArr8 V c) (wArr8 V c) :=
  (dat8 V c).arrAt_eq_of_cover 3 (G8_3 (hArr8 V c) (sArr8 V c) (wArr8 V c)) (flushed8_3 V c) fun i =>
    ⟨t8_9, (flush8_3 t8_9).mpr rfl, by
      -- the array has one cell, at coordinates (0, 0); the last point's block starts at (0, 0) and has extent (1, 1)
      show i ∈ ((View.whole (Pipeline.arrRef spec8 3)).slice (win8_3.rect t8_9)).set
      rw [View.set_slice_whole, Rect.mem_set_unit]
      intro a
      have hlt : (i a : Nat) < 1 := by fin_cases a <;> exact (i _).isLt
      have hoff : win8_3.index t8_9 a * win8_3.size a = 0 := by fin_cases a <;> decide
      have hext : win8_3.xsize (grid8.coords t8_9) a = 1 := by fin_cases a <;> decide
      show win8_3.index t8_9 a * win8_3.size a ≤ (i a : Nat)
        ∧ (i a : Nat) < win8_3.index t8_9 a * win8_3.size a + win8_3.xsize (grid8.coords t8_9) a
      rw [hoff, hext]; omega⟩

end Cert.KernelIdeal.Hand

end
-- ==== Proof.KI.Reg8.lean ====
/-
  Region 8 (custom call 8): the body's runs per control case, the proof data with its invariant and body
  obligation, and the value of the result array — one import for the three modules.
-/
import proofs.«160050_j32744830665390_2_alg».proof.Proof.KI.Reg8.Frame
import proofs.«160050_j32744830665390_2_alg».proof.Proof.KI.Reg8.Value
-- ==== Proof.KI.Reg9.Runs.lean ====
/-
  Region 9 (custom call 9, the node-wise Dirichlet term of one hidden state): the kernel body run once per
  control case.

  The body has two conditionals on the grid coordinate. At the first row tile it clears the one-cell accumulator;
  at every tile it adds the tile's partial sum  Σ_r (w r · Σ_k h r k · h r k − 2 · Σ_k h r k · s r k)  to the
  accumulator; at the last row tile it copies the accumulator to the one-cell output block. With ten tiles the
  two conditions never hold together, so there are three cases: first tile, a middle tile, last tile.

  For each case the body is run symbolically on arbitrary whole memrefs and the list of stores each written
  buffer ends with is recorded (last store first); the lists are found by the run itself.
-/
import proofs.«160050_j32744830665390_2_alg».proof.Proof.KI.Iface

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, and where on the grid they hold -/

/-- "This is the first row tile": the printed comparison chain of the first conditional. -/
abbrev isFirst9 (i : grid9.Coords) : Prop :=
  (Scalar.cmpi .ne (Scalar.extui (Scalar.cmpi .eq (BitVec.ofNat 32 (i 0).val) 0#32)) 0#32) = 1#1

/-- "This is the last row tile": the printed condition of the second conditional. -/
abbrev isLast9 (i : grid9.Coords) : Prop := k9_cond2 i = 1#1

/-- The first condition holds at point 0 and nowhere else. -/
theorem isFirst9_iff : ∀ t : Fin cfg9.N, isFirst9 (grid9.coords t) ↔ t.val = 0 :=
  (by decide +kernel : ∀ t : Fin grid9.N, isFirst9 (grid9.coords t) ↔ t.val = 0)

/-- The second condition holds at point 9 and nowhere else. -/
theorem isLast9_iff : ∀ t : Fin cfg9.N, isLast9 (grid9.coords t) ↔ t.val = 9 :=
  (by decide +kernel : ∀ t : Fin grid9.N, isLast9 (grid9.coords t) ↔ t.val = 9)

/-- The three input windows are never idle. -/
theorem live9_0 : ∀ t : Fin cfg9.N, cfg9.idle 0 (grid9.coords t) = false := by decide +kernel
theorem live9_1 : ∀ t : Fin cfg9.N, cfg9.idle 1 (grid9.coords t) = false := by decide +kernel
theorem live9_2 : ∀ t : Fin cfg9.N, cfg9.idle 2 (grid9.coords t) = false := by decide +kernel
/-- The output window is idle, and not written back, at every point but the last; there it is live. -/
theorem idle9_3 : ∀ t : Fin cfg9.N, t.val ≠ 9 → cfg9.idle 3 (grid9.coords t) = true := by decide +kernel
theorem keep9_3 : ∀ t : Fin cfg9.N, t.val ≠ 9 → (cfg9.win 3).flush t = false := by decide +kernel
theorem live9_3 : ∀ t : Fin cfg9.N, t.val = 9 → cfg9.idle 3 (grid9.coords t) = false := by decide +kernel

/-! ## The memrefs the pipeline passes the body at a point -/

abbrev ms9_0 (t : Fin cfg9.N) : Memref sig .tc .vmem S5000x128 .f32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S5000x128 .f32 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S5000x1 .f32 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S1x1 .f32 := win9_3.stage (cfg9.slots t 3)
abbrev hs9_3 (t : Fin cfg9.N) : (ms9_3 t).IsWhole := hstage9_3 ((cfg9.slots t 3).cast nbuf9_3)
/-- The accumulator: a whole scoped buffer of the kernel's own. -/
abbrev acM9 : Memref sig .tc .vmem S1x1 .f32 := Memref.whole cc9_scratch0
/-- The views through which the accumulator's and the output block's contents are stated. -/
abbrev acV9 : View sig .tc .vmem S1x1 .f32 := acM9.view
abbrev outV9 : View sig .tc .vmem S1x1 .f32 := (Memref.whole cc9_stg3_0 : Memref sig .tc .vmem S1x1 .f32).view

/-! ## The three runs -/

set_option maxHeartbeats 1000000 in
/-- FIRST TILE. The accumulator may hold anything; the output block `xo` is not touched. The accumulator ends with
    the stores `LA`: the clearing store, then the store of  0 + (the tile's partial sum). -/
def run9_first (c : Dev nD) (i : grid9.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : isFirst9 i) (hlast : ¬isLast9 i)
    (h : Vec F S5000x128 .f32) (s : Vec F S5000x128 .f32) (w : Vec F S5000x1 .f32) :
    { LA : List (View.Piece (Elt F) S1x1 .f32) //
      ∀ (xo : Vec F S1x1 .f32) (E : Set ℕ) (K : PUnit → sProp 𝕄),
        iprop(owns (c : Thread nD τ) arg1 fullShare h ∗ owns (c : Thread nD τ) arg2 fullShare s ∗ owns (c : Thread nD τ) arg3 fullShare w
            ∗ owns (c : Thread nD τ) arg4 fullShare xo ∗ (∃ d, owns (c : Thread nD τ) arg5 fullShare d)
            ∗ (iprop(owns (c : Thread nD τ) arg1 fullShare h ∗ owns (c : Thread nD τ) arg2 fullShare s ∗ owns (c : Thread nD τ) arg3 fullShare w
                ∗ owns (c : Thread nD τ) arg4 fullShare xo
                ∗ (∃ f, arg5.view.loc (c : Thread nD τ) ↦[arg5.view.set]{fullShare} arg5.view.writes (Elt F) f LA)) -∗ K ⟨⟩))
          ⊢ wp frame (wpE (defs₀ (F := F)) Variants.none c none) E (cc9_node_reg_kernel i arg1 harg1 arg2 harg2 arg3 harg3 arg4 harg4 arg5 harg5) K } := by
  refine ⟨?_, fun xo E K => ?run⟩
  case run =>
    simp only [cc9_node_reg_kernel_eq_skeleton]; unfold cc9_node_reg_kernel_skel
    unfold owns
    iintro ⟨⟨%f1, %hf1, H1⟩, ⟨%f2, %hf2, H2⟩, ⟨%f3, %hf3, H3⟩, ⟨%f4, %hf4, H4⟩, ⟨%da, %fa, -, HA⟩, Hk⟩
    obtain rfl := harg1.eq_unread hf1; obtain rfl := harg2.eq_unread hf2
    obtain rfl := harg3.eq_unread hf3; obtain rfl := harg4.eq_unread hf4
    sl_exec (disch := first | exact hfirst | exact hlast)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact HA

set_option maxHeartbeats 1000000 in
/-- A MIDDLE TILE. The accumulator holds `a`, what the tile before left; the output block `xo` is not touched. The
    accumulator ends with the one store of  a + (the tile's partial sum). -/
def run9_mid (c : Dev nD) (i : grid9.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst9 i) (hlast : ¬isLast9 i)
    (h : Vec F S5000x128 .f32) (s : Vec F S5000x128 .f32) (w : Vec F S5000x1 .f32) (a : Vec F S1x1 .f32) :
    { LA : List (View.Piece (Elt F) S1x1 .f32) //
      ∀ (xo : Vec F S1x1 .f32) (E : Set ℕ) (K : PUnit → sProp 𝕄),
        iprop(owns (c : Thread nD τ) arg1 fullShare h ∗ owns (c : Thread nD τ) arg2 fullShare s ∗ owns (c : Thread nD τ) arg3 fullShare w
            ∗ owns (c : Thread nD τ) arg4 fullShare xo ∗ owns (c : Thread nD τ) arg5 fullShare a
            ∗ (iprop(owns (c : Thread nD τ) arg1 fullShare h ∗ owns (c : Thread nD τ) arg2 fullShare s ∗ owns (c : Thread nD τ) arg3 fullShare w
                ∗ owns (c : Thread nD τ) arg4 fullShare xo
                ∗ (∃ f, arg5.view.loc (c : Thread nD τ) ↦[arg5.view.set]{fullShare} arg5.view.writes (Elt F) f LA)) -∗ K ⟨⟩))
          ⊢ wp frame (wpE (defs₀ (F := F)) Variants.none c none) E (cc9_node_reg_kernel i arg1 harg1 arg2 harg2 arg3 harg3 arg4 harg4 arg5 harg5) K } := by
  refine ⟨?_, fun xo E K => ?run⟩
  case run =>
    simp only [cc9_node_reg_kernel_eq_skeleton]; unfold cc9_node_reg_kernel_skel
    unfold owns
    iintro ⟨⟨%f1, %hf1, H1⟩, ⟨%f2, %hf2, H2⟩, ⟨%f3, %hf3, H3⟩, ⟨%f4, %hf4, H4⟩, ⟨%fa, %hfa, HA⟩, Hk⟩
    obtain rfl := harg1.eq_unread hf1; obtain rfl := harg2.eq_unread hf2
    obtain rfl := harg3.eq_unread hf3; obtain rfl := harg4.eq_unread hf4
    obtain rfl := harg5.eq_unread hfa
    sl_exec (disch := first | exact hfirst | exact hlast)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact HA

set_option maxHeartbeats 1000000 in
/-- THE LAST TILE. The accumulator holds `a`; the output block may hold anything. The accumulator ends with the store
    `LA` of  a + (the tile's partial sum), the output block with the store `LO` of that same value read back. -/
def run9_last (c : Dev nD) (i : grid9.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst9 i) (hlast : isLast9 i)
    (h : Vec F S5000x128 .f32) (s : Vec F S5000x128 .f32) (w : Vec F S5000x1 .f32) (a : Vec F S1x1 .f32) :
    Σ' (LO : List (View.Piece (Elt F) S1x1 .f32)), { LA : List (View.Piece (Elt F) S1x1 .f32) //
      ∀ (E : Set ℕ) (K : PUnit → sProp 𝕄),
        iprop(owns (c : Thread nD τ) arg1 fullShare h ∗ owns (c : Thread nD τ) arg2 fullShare s ∗ owns (c : Thread nD τ) arg3 fullShare w
            ∗ (∃ d, owns (c : Thread nD τ) arg4 fullShare d) ∗ owns (c : Thread nD τ) arg5 fullShare a
            ∗ (iprop(owns (c : Thread nD τ) arg1 fullShare h ∗ owns (c : Thread nD τ) arg2 fullShare s ∗ owns (c : Thread nD τ) arg3 fullShare w
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LA)) -∗ K ⟨⟩))
          ⊢ wp frame (wpE (defs₀ (F := F)) Variants.none c none) E (cc9_node_reg_kernel i arg1 harg1 arg2 harg2 arg3 harg3 arg4 harg4 arg5 harg5) K } := by
  refine ⟨?_, ?_, fun E K => ?run⟩
  case run =>
    simp only [cc9_node_reg_kernel_eq_skeleton]; unfold cc9_node_reg_kernel_skel
    unfold owns
    iintro ⟨⟨%f1, %hf1, H1⟩, ⟨%f2, %hf2, H2⟩, ⟨%f3, %hf3, H3⟩, ⟨%d4, %f4, -, H4⟩, ⟨%fa, %hfa, HA⟩, Hk⟩
    obtain rfl := harg1.eq_unread hf1; obtain rfl := harg2.eq_unread hf2
    obtain rfl := harg3.eq_unread hf3; obtain rfl := harg5.eq_unread hfa
    sl_exec (disch := first | exact hfirst | exact hlast)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    iexists _; iexact HA

end Cert.KernelIdeal.Hand

end
-- ==== Proof.KI.Reg9.Frame.lean ====
/-
  Region 9: what the accumulator and the output block hold after each row tile, the region's proof data at the
  entry contents `V`, its invariant, and the body obligation.

  The accumulator after tile 0 is what the first-tile run leaves; after tile n + 1 it is what the middle-tile run
  (the last-tile run at n + 1 = 9) leaves when started from the accumulator after tile n. The invariant before
  tile 0 is the class's: every scoped buffer that is no staging buffer at some contents, and the generator register.
  Before tile n + 1 it holds the accumulator at exactly the contents named above, the other scoped buffers at some
  contents, and the generator register. The output block is live only at the last tile, where it receives the
  accumulator's final value; everywhere else its staging buffer is handed back as found.
-/
import proofs.«160050_j32744830665390_2_alg».proof.Proof.KI.Reg9.Runs

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## The input blocks -/

/-- Window `w`'s block at point `t`, read off its array as the region finds it. -/
def blk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-! ## What each case leaves, read back through one fixed view -/

/-- The accumulator after the first tile. -/
def acc9_first (c : Dev nD) (t : Fin cfg9.N) (h0 : t.val = 0)
    (h : Vec F S5000x128 .f32) (s : Vec F S5000x128 .f32) (w : Vec F S5000x1 .f32) : Vec F S1x1 .f32 :=
  acV9.read (Elt F) (acV9.writes (Elt F) acV9.junk
    (run9_first c (grid9.coords t) (ms9_0 t) (hs9_0 t) (ms9_1 t) (hs9_1 t) (ms9_2 t) (hs9_2 t) (ms9_3 t) (hs9_3 t) acM9 (Memref.isWhole_whole _)
      ((isFirst9_iff t).mpr h0) (fun hl => by have := (isLast9_iff t).mp hl; omega) h s w).1)

/-- The accumulator after a middle tile that found it at `a`. -/
def acc9_mid (c : Dev nD) (t : Fin cfg9.N) (h0 : t.val ≠ 0) (h9 : t.val ≠ 9)
    (h : Vec F S5000x128 .f32) (s : Vec F S5000x128 .f32) (w : Vec F S5000x1 .f32) (a : Vec F S1x1 .f32) : Vec F S1x1 .f32 :=
  acV9.read (Elt F) (acV9.writes (Elt F) acV9.junk
    (run9_mid c (grid9.coords t) (ms9_0 t) (hs9_0 t) (ms9_1 t) (hs9_1 t) (ms9_2 t) (hs9_2 t) (ms9_3 t) (hs9_3 t) acM9 (Memref.isWhole_whole _)
      (fun hf => h0 ((isFirst9_iff t).mp hf)) (fun hl => h9 ((isLast9_iff t).mp hl)) h s w a).1)

/-- The accumulator after the last tile, which found it at `a`. -/
def acc9_last (c : Dev nD) (t : Fin cfg9.N) (h9 : t.val = 9)
    (h : Vec F S5000x128 .f32) (s : Vec F S5000x128 .f32) (w : Vec F S5000x1 .f32) (a : Vec F S1x1 .f32) : Vec F S1x1 .f32 :=
  acV9.read (Elt F) (acV9.writes (Elt F) acV9.junk
    (run9_last c (grid9.coords t) (ms9_0 t) (hs9_0 t) (ms9_1 t) (hs9_1 t) (ms9_2 t) (hs9_2 t) (ms9_3 t) (hs9_3 t) acM9 (Memref.isWhole_whole _)
      (fun hf => by have := (isFirst9_iff t).mp hf; omega) ((isLast9_iff t).mpr h9) h s w a).2.1)

/-- The output block after the last tile. -/
def out9_last (c : Dev nD) (t : Fin cfg9.N) (h9 : t.val = 9)
    (h : Vec F S5000x128 .f32) (s : Vec F S5000x128 .f32) (w : Vec F S5000x1 .f32) (a : Vec F S1x1 .f32) : Vec F S1x1 .f32 :=
  outV9.read (Elt F) (outV9.writes (Elt F) outV9.junk
    (run9_last c (grid9.coords t) (ms9_0 t) (hs9_0 t) (ms9_1 t) (hs9_1 t) (ms9_2 t) (hs9_2 t) (ms9_3 t) (hs9_3 t) acM9 (Memref.isWhole_whole _)
      (fun hf => by have := (isFirst9_iff t).mp hf; omega) ((isLast9_iff t).mpr h9) h s w a).1)

/-- Each list of stores covers its one-cell buffer. -/
theorem cover9_first (c : Dev nD) (i : grid9.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : isFirst9 i) (hlast : ¬isLast9 i)
    (h : Vec F S5000x128 .f32) (s : Vec F S5000x128 .f32) (w : Vec F S5000x1 .f32) (y : S1x1.Idx) :
    ∃ pc ∈ (run9_first c i arg1 harg1 arg2 harg2 arg3 harg3 arg4 harg4 arg5 harg5 hfirst hlast h s w).1, y ∈ pc.1.set :=
  View.cover_of_tiledL _ S1x1.size (by sl_kernel_rfl) y

theorem cover9_mid (c : Dev nD) (i : grid9.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst9 i) (hlast : ¬isLast9 i)
    (h : Vec F S5000x128 .f32) (s : Vec F S5000x128 .f32) (w : Vec F S5000x1 .f32) (a : Vec F S1x1 .f32) (y : S1x1.Idx) :
    ∃ pc ∈ (run9_mid c i arg1 harg1 arg2 harg2 arg3 harg3 arg4 harg4 arg5 harg5 hfirst hlast h s w a).1, y ∈ pc.1.set :=
  View.cover_of_tiledL _ S1x1.size (by sl_kernel_rfl) y

theorem cover9_last_acc (c : Dev nD) (i : grid9.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst9 i) (hlast : isLast9 i)
    (h : Vec F S5000x128 .f32) (s : Vec F S5000x128 .f32) (w : Vec F S5000x1 .f32) (a : Vec F S1x1 .f32) (y : S1x1.Idx) :
    ∃ pc ∈ (run9_last c i arg1 harg1 arg2 harg2 arg3 harg3 arg4 harg4 arg5 harg5 hfirst hlast h s w a).2.1, y ∈ pc.1.set :=
  View.cover_of_tiledL _ S1x1.size (by sl_kernel_rfl) y

theorem cover9_last_out (c : Dev nD) (i : grid9.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst9 i) (hlast : isLast9 i)
    (h : Vec F S5000x128 .f32) (s : Vec F S5000x128 .f32) (w : Vec F S5000x1 .f32) (a : Vec F S1x1 .f32) (y : S1x1.Idx) :
    ∃ pc ∈ (run9_last c i arg1 harg1 arg2 harg2 arg3 harg3 arg4 harg4 arg5 harg5 hfirst hlast h s w a).1, y ∈ pc.1.set :=
  View.cover_of_tiledL _ S1x1.size (by sl_kernel_rfl) y

/-! ## The accumulator and the output block, tile by tile -/

/-- THE RUNNING TOTAL: what the accumulator holds after the body at position `n`. -/
def acc9 (c : Dev nD) : (n : ℕ) → n < cfg9.N → Vec F S1x1 .f32
  | 0, hn => acc9_first c ⟨0, hn⟩ rfl (blk9 V c 0 ⟨0, hn⟩) (blk9 V c 1 ⟨0, hn⟩) (blk9 V c 2 ⟨0, hn⟩)
  | n + 1, hn =>
    if h9 : n + 1 = 9 then
      acc9_last c ⟨n + 1, hn⟩ h9 (blk9 V c 0 ⟨n + 1, hn⟩) (blk9 V c 1 ⟨n + 1, hn⟩) (blk9 V c 2 ⟨n + 1, hn⟩) (acc9 c n (Nat.lt_of_succ_lt hn))
    else
      acc9_mid c ⟨n + 1, hn⟩ (Nat.succ_ne_zero n) h9 (blk9 V c 0 ⟨n + 1, hn⟩) (blk9 V c 1 ⟨n + 1, hn⟩) (blk9 V c 2 ⟨n + 1, hn⟩) (acc9 c n (Nat.lt_of_succ_lt hn))

/-- The accumulator just before point `t`, for `t` not the first: what the point before left. -/
abbrev accBefore9 (c : Dev nD) (t : Fin cfg9.N) : Vec F S1x1 .f32 :=
  acc9 V c (t.val - 1) (Nat.lt_of_le_of_lt (Nat.sub_le _ _) t.isLt)

theorem acc9_at_first (c : Dev nD) (t : Fin cfg9.N) (h0 : t.val = 0) :
    acc9 V c t.val t.isLt = acc9_first c t h0 (blk9 V c 0 t) (blk9 V c 1 t) (blk9 V c 2 t) := by
  obtain ⟨n, hn⟩ := t
  cases n with
  | zero => rfl
  | succ n => exact absurd h0 (Nat.succ_ne_zero n)

theorem acc9_at_mid (c : Dev nD) (t : Fin cfg9.N) (h0 : t.val ≠ 0) (h9 : t.val ≠ 9) :
    acc9 V c t.val t.isLt = acc9_mid c t h0 h9 (blk9 V c 0 t) (blk9 V c 1 t) (blk9 V c 2 t) (accBefore9 V c t) := by
  obtain ⟨n, hn⟩ := t
  cases n with
  | zero => exact absurd rfl h0
  | succ n => exact (dif_neg h9).trans rfl

theorem acc9_at_last (c : Dev nD) (t : Fin cfg9.N) (h9 : t.val = 9) :
    acc9 V c t.val t.isLt = acc9_last c t h9 (blk9 V c 0 t) (blk9 V c 1 t) (blk9 V c 2 t) (accBefore9 V c t) := by
  obtain ⟨n, hn⟩ := t
  cases n with
  | zero => exact absurd h9 (show ¬ (0 : ℕ) = 9 by decide)
  | succ n => exact (dif_pos h9).trans rfl

/-- What the output window's staging buffer holds after the body at point `t`: at the last point the accumulator's
    final value as the last-tile run stores it; the value at the other points is consulted nowhere (the window is
    idle there and not written back). -/
def out9 (c : Dev nD) (t : Fin cfg9.N) : Vec F S1x1 .f32 :=
  if h9 : t.val = 9 then out9_last c t h9 (blk9 V c 0 t) (blk9 V c 1 t) (blk9 V c 2 t) (accBefore9 V c t)
  else acc9 V c t.val t.isLt

/-! ## The invariant -/

/-- Before position `n`: at the first point the class's invariant; afterwards the accumulator at the running total,
    the other scoped buffers at some contents, the generator register at some state. -/
def Phi9 (c : Dev nD) : (n : ℕ) → n ≤ cfg9.N → sProp 𝕄
  | 0, _ => Pipeline.ΦA (U := UR sig nD τ) (Val := Elt F) spec9 c
  | n + 1, hn => iprop(iprop(owns (c : Thread nD τ) acM9 fullShare (acc9 V c n hn)
      ∗ Pipeline.scopedRestBut (Ix := Unit) (Name := ℕ) (U := UR sig nD τ) (Lvl := ℕ) (Val := Elt F) spec9 c [cc9_scratch0]) ∗ (∃ r, prngReg c r))

theorem Phi9_zero (c : Dev nD) (n : ℕ) (hn : n ≤ cfg9.N) (hz : n = 0) :
    Phi9 V c n hn = Pipeline.ΦA (U := UR sig nD τ) (Val := Elt F) spec9 c := by
  subst hz; rfl

theorem Phi9_succ (c : Dev nD) (n : ℕ) (hn : n < cfg9.N) :
    Phi9 V c (n + 1) hn = iprop(iprop(owns (c : Thread nD τ) acM9 fullShare (acc9 V c n hn)
      ∗ Pipeline.scopedRestBut (Ix := Unit) (Name := ℕ) (U := UR sig nD τ) (Lvl := ℕ) (Val := Elt F) spec9 c [cc9_scratch0]) ∗ (∃ r, prngReg c r)) := rfl

theorem Phi9_pos (c : Dev nD) (n : ℕ) (hn : n ≤ cfg9.N) (hz : n ≠ 0) :
    Phi9 V c n hn = iprop(iprop(owns (c : Thread nD τ) acM9 fullShare (acc9 V c (n - 1) (by omega))
      ∗ Pipeline.scopedRestBut (Ix := Unit) (Name := ℕ) (U := UR sig nD τ) (Lvl := ℕ) (Val := Elt F) spec9 c [cc9_scratch0]) ∗ (∃ r, prngReg c r)) := by
  cases n with
  | zero => exact absurd rfl hz
  | succ n => rfl

/-- The class's invariant with the accumulator singled out of the scoped rest. -/
theorem PhiA9_open (c : Dev nD) :
    (Pipeline.ΦA (U := UR sig nD τ) (Val := Elt F) spec9 c : sProp 𝕄)
      = iprop(iprop((∃ d, owns (c : Thread nD τ) acM9 fullShare d)
          ∗ Pipeline.scopedRestBut (Ix := Unit) (Name := ℕ) (U := UR sig nD τ) (Lvl := ℕ) (Val := Elt F) spec9 c [cc9_scratch0]) ∗ (∃ r, prngReg c r)) := by
  unfold Pipeline.ΦA; rw [scopedRest9_split]; simp only [acM9, owns_whole]; try rfl

/-! ## The proof data -/

/-- Region 9's proof data on core `c`: the arrays as the region finds them; after the body each input's buffer still
    at its block, the output's at `out9`; the invariant `Phi9`; full shares; nothing owed. -/
def dat9 (c : Dev nD) : Dat τ (Elt F) Unit ℕ (UR sig nD τ) ℕ cfg9 c where
  A w := V c (Pipeline.arrRef spec9 w)
  after w t := match w with
    | ⟨0, _⟩ => blk9 V c 0 t
    | ⟨1, _⟩ => blk9 V c 1 t
    | ⟨2, _⟩ => blk9 V c 2 t
    | ⟨3, _⟩ => out9 V c t
  Φ t := Phi9 V c t.val (Nat.le_of_lt_succ t.isLt)
  q _ := fullShare
  owed _ := 0

theorem A_eq9 (c : Dev nD) (w : Fin cfg9.W) : (dat9 V c).A w = V c (Pipeline.arrRef spec9 w) := by
  dsimp only [dat9]

theorem q_eq9 (c : Dev nD) (w : Fin cfg9.W) : (dat9 V c).q w = fullShare := by
  dsimp only [dat9]

theorem owed_eq9 (c : Dev nD) (t : Fin (cfg9.N + 1)) : (dat9 V c).owed t = 0 := by
  dsimp only [dat9]

theorem Phi9_castSucc (c : Dev nD) (t : Fin cfg9.N) :
    (dat9 V c).Φ t.castSucc = Phi9 V c t.val (Nat.le_of_lt t.isLt) := by
  dsimp only [dat9]; simp only [Fin.coe_castSucc]

theorem after9_0 (c : Dev nD) (t : Fin cfg9.N) : (dat9 V c).after 0 t = blk9 V c 0 t := by dsimp only [dat9]
theorem after9_1 (c : Dev nD) (t : Fin cfg9.N) : (dat9 V c).after 1 t = blk9 V c 1 t := by dsimp only [dat9]
theorem after9_2 (c : Dev nD) (t : Fin cfg9.N) : (dat9 V c).after 2 t = blk9 V c 2 t := by dsimp only [dat9]
theorem after9_3 (c : Dev nD) (t : Fin cfg9.N) : (dat9 V c).after 3 t = out9 V c t := by dsimp only [dat9]

/-- Every input window is fetched at every point, so its current buffer holds the array's block there. -/
theorem before9_0 (c : Dev nD) (t : Fin cfg9.N) (d) : (dat9 V c).before 0 t d = blk9 V c 0 t :=
  ((dat9 V c).before_fetched 0 t (fetch9_0 t) d).trans (by unfold Dat.fetched Dat.blockOf blk9; rw [A_eq9]; try rfl)
theorem before9_1 (c : Dev nD) (t : Fin cfg9.N) (d) : (dat9 V c).before 1 t d = blk9 V c 1 t :=
  ((dat9 V c).before_fetched 1 t (fetch9_1 t) d).trans (by unfold Dat.fetched Dat.blockOf blk9; rw [A_eq9]; try rfl)
theorem before9_2 (c : Dev nD) (t : Fin cfg9.N) (d) : (dat9 V c).before 2 t d = blk9 V c 2 t :=
  ((dat9 V c).before_fetched 2 t (fetch9_2 t) d).trans (by unfold Dat.fetched Dat.blockOf blk9; rw [A_eq9]; try rfl)

/-! ## The body obligation -/

/-- What the body is called with at point `t`, -/
def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d))
    ∗ (∃ d, owns (c : Thread nD τ) (ms9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t)

theorem leaves9_0 (c : Dev nD) (t : Fin cfg9.N) :
    (dat9 V c).leavesExact 0 t = owns (c : Thread nD τ) (ms9_0 t) fullShare (blk9 V c 0 t) := by
  unfold Dat.leavesExact; rw [live9_0 t, after9_0]
theorem leaves9_1 (c : Dev nD) (t : Fin cfg9.N) :
    (dat9 V c).leavesExact 1 t = owns (c : Thread nD τ) (ms9_1 t) fullShare (blk9 V c 1 t) := by
  unfold Dat.leavesExact; rw [live9_1 t, after9_1]
theorem leaves9_2 (c : Dev nD) (t : Fin cfg9.N) :
    (dat9 V c).leavesExact 2 t = owns (c : Thread nD τ) (ms9_2 t) fullShare (blk9 V c 2 t) := by
  unfold Dat.leavesExact; rw [live9_2 t, after9_2]
theorem leaves9_3_idle (c : Dev nD) (t : Fin cfg9.N) (h9 : t.val ≠ 9) :
    (dat9 V c).leavesExact 3 t = iprop(∃ d, owns (c : Thread nD τ) (ms9_3 t) fullShare ((dat9 V c).before 3 t d)) :=
  Dat.leavesExact_idle (dat9 V c) 3 t (idle9_3 t h9) (keep9_3 t h9)
theorem leaves9_3_live (c : Dev nD) (t : Fin cfg9.N) (h9 : t.val = 9) :
    (dat9 V c).leavesExact 3 t = owns (c : Thread nD τ) (ms9_3 t) fullShare (out9 V c t) := by
  unfold Dat.leavesExact; rw [live9_3 t h9, after9_3]

set_option maxHeartbeats 4800000 in
/-- The body at any point. The inputs' buffers hold their blocks; the point's position decides the case; the invariant
    hands the run the accumulator (at anything before the first tile, at the running total afterwards) and takes it
    back at the new running total, the run's stores covering the one cell; the rest of the invariant and what the
    core owes pass through untouched. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).owesAt () t.succ = (dat9 V c).owesAt () t.castSucc from rfl]
  rw [show (dat9 V c).Φ t.succ = Phi9 V c (t.val + 1) t.isLt from rfl, Phi9_succ]
  rw [leaves9_0, leaves9_1, leaves9_2, Phi9_castSucc]
  have hN : t.val < 10 := lt_of_lt_of_eq t.isLt (show cfg9.N = 10 from N_9)
  by_cases h0 : t.val = 0
  · -- the first tile
    have h9 : t.val ≠ 9 := by omega
    rw [leaves9_3_idle V c t h9, acc9_at_first V c t h0, Phi9_zero V c _ _ h0, PhiA9_open]
    unfold acc9_first
    iintro ⟨⟨⟨HA, HR⟩, Hg⟩, Ho, ⟨%d0, H0⟩, ⟨%d1, H1⟩, ⟨%d2, H2⟩, ⟨%d3, H3⟩⟩
    iapply ((run9_first c (grid9.coords t) _ _ _ _ _ _ _ _ _ _ ((isFirst9_iff t).mpr h0)
      (fun hl => by have := (isLast9_iff t).mp hl; omega) (blk9 V c 0 t) (blk9 V c 1 t) (blk9 V c 2 t)).2 _ Set.univ _)
    isplitl [H0]; · iexact H0
    isplitl [H1]; · iexact H1
    isplitl [H2]; · iexact H2
    isplitl [H3]; · iexact H3
    isplitl [HA]; · iexact HA
    iintro ⟨H0, H1, H2, H3, ⟨%ea, HA⟩⟩
    isplitl [HA HR Hg]
    · isplitr [Hg]
      · isplitl [HA]
        · unfold owns; iexists _; isplitr
          swap; · iexact HA
          ipureintro; exact View.read_writes_of_cover _ _ _ _ _ (cover9_first c _ _ _ _ _ _ _ _ _ _ _ _ _ _ _ _)
        iexact HR
      iexact Hg
    isplitl [Ho]; · iexact Ho
    isplitl [H0]; · iexact H0
    isplitl [H1]; · iexact H1
    isplitl [H2]; · iexact H2
    iexists _; iexact H3
  · by_cases h9 : t.val = 9
    · -- the last tile
      rw [leaves9_3_live V c t h9, acc9_at_last V c t h9, Phi9_pos V c _ _ h0]
      unfold out9; rw [dif_pos h9]
      unfold acc9_last out9_last
      iintro ⟨⟨⟨HA, HR⟩, Hg⟩, Ho, ⟨%d0, H0⟩, ⟨%d1, H1⟩, ⟨%d2, H2⟩, ⟨%d3, H3⟩⟩
      iapply ((run9_last c (grid9.coords t) _ _ _ _ _ _ _ _ _ _ (fun hf => by have := (isFirst9_iff t).mp hf; omega)
        ((isLast9_iff t).mpr h9) (blk9 V c 0 t) (blk9 V c 1 t) (blk9 V c 2 t) (accBefore9 V c t)).2.2 Set.univ _)
      isplitl [H0]; · iexact H0
      isplitl [H1]; · iexact H1
      isplitl [H2]; · iexact H2
      isplitl [H3]; · iexists _; iexact H3
      isplitl [HA]; · iexact HA
      iintro ⟨H0, H1, H2, ⟨%eo, H3⟩, ⟨%ea, HA⟩⟩
      isplitl [HA HR Hg]
      · isplitr [Hg]
        · isplitl [HA]
          · unfold owns; iexists _; isplitr
            swap; · iexact HA
            ipureintro; exact View.read_writes_of_cover _ _ _ _ _ (cover9_last_acc c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover9_last_out c _ _ _ _ _ _ _ _ _ _ _ _ _ _ _ _ _)
    · -- a middle tile
      rw [leaves9_3_idle V c t h9, acc9_at_mid V c t h0 h9, Phi9_pos V c _ _ h0]
      unfold acc9_mid
      iintro ⟨⟨⟨HA, HR⟩, Hg⟩, Ho, ⟨%d0, H0⟩, ⟨%d1, H1⟩, ⟨%d2, H2⟩, ⟨%d3, H3⟩⟩
      iapply ((run9_mid c (grid9.coords t) _ _ _ _ _ _ _ _ _ _ (fun hf => h0 ((isFirst9_iff t).mp hf))
        (fun hl => h9 ((isLast9_iff t).mp hl)) (blk9 V c 0 t) (blk9 V c 1 t) (blk9 V c 2 t) (accBefore9 V c t)).2 _ Set.univ _)
      isplitl [H0]; · iexact H0
      isplitl [H1]; · iexact H1
      isplitl [H2]; · iexact H2
      isplitl [H3]; · iexact H3
      isplitl [HA]; · iexact HA
      iintro ⟨H0, H1, H2, H3, ⟨%ea, HA⟩⟩
      isplitl [HA HR Hg]
      · isplitr [Hg]
        · isplitl [HA]
          · unfold owns; iexists _; isplitr
            swap; · iexact HA
            ipureintro; exact View.read_writes_of_cover _ _ _ _ _ (cover9_mid c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation9 (c : Dev nD) : BodyObligation (dat9 (F := F) V c) (defs₀ (F := F)) Variants.none () Set.univ := fun t => by
  rw [bigSep_W9, bigSep_W9]
  exact sound_body9 V c t

/-! ## The invariant's two ends -/

/-- The class's invariant is the invariant before the first point. -/
theorem Phi_in9 (c : Dev nD) : (Pipeline.ΦA (U := UR sig nD τ) (Val := Elt F) spec9 c : sProp 𝕄) ⊢ (dat9 V c).Φ 0 := by
  rw [show (dat9 V c).Φ 0 = Phi9 V c 0 (Nat.zero_le _) from rfl, Phi9_zero V c 0 _ rfl]
  try exact Entails.refl _

/-- After the last point the invariant gives the class's back: the accumulator's contents are forgotten. -/
theorem Phi_out9 (c : Dev nD) : (dat9 V c).Φ (Fin.last cfg9.N) ⊢ (Pipeline.ΦA (U := UR sig nD τ) (Val := Elt F) spec9 c : sProp 𝕄) := by
  have hne : (Fin.last cfg9.N).val ≠ 0 := by rw [Fin.val_last]; have : cfg9.N = 10 := N_9; omega
  rw [show (dat9 V c).Φ (Fin.last cfg9.N) = Phi9 V c (Fin.last cfg9.N).val (Nat.le_of_lt_succ (Fin.last cfg9.N).isLt) from rfl,
    Phi9_pos V c _ _ hne, PhiA9_open]
  iintro ⟨⟨HA, HR⟩, Hg⟩
  isplitr [Hg]
  · isplitl [HA]
    · iexists _; iexact HA
    iexact HR
  iexact Hg

end Cert.KernelIdeal.Hand

end
-- ==== Proof.KI.Reg9.Value.lean ====
/-
  Region 9: the value. After the run the one-cell result array holds the running total after the tenth row tile:
  starting from the cleared accumulator, tile after tile in grid order, the accumulator plus the tile's partial sum
    Σ_r (w r · Σ_k h r k · h r k − 2 · Σ_k h r k · s r k),   r over the tile's 5000 rows, k over the 128 features,
  each tile being rows 5000·n … 5000·n + 4999 of the three input arrays.

  First each case's list of stores is read back as the update applied to the tile's blocks and the accumulator found;
  then the running total is the ordered chain over the tiles (induction on the tile); then each block is the array's
  rows; then the single write-back, at the last tile, covers the one-cell array.
-/
import proofs.«160050_j32744830665390_2_alg».proof.Proof.KI.Reg9.Frame
import Idealize.ShloMosaic.Lib.Pipeline.Value
import Idealize.ShloMosaic.Lib.ValueIdx

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

open Idealize.ShloMosaic.ValueIdx (ix2)

theorem hz9 : (![0, 0] : Fin 2 → Nat) = fun _ => 0 := funext fun a => by fin_cases a <;> rfl

/-! ## What each case's stores leave -/

/-- First tile: the accumulator is cleared, then the tile's partial sum is added to the cleared value. -/
theorem first_stores9 (c : Dev nD) (i : grid9.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : isFirst9 i) (hlast : ¬isLast9 i)
    (h : Vec F S5000x128 .f32) (s : Vec F S5000x128 .f32) (w : Vec F S5000x1 .f32) :
    acV9.read (Elt F) (acV9.writes (Elt F) acV9.junk
      (run9_first c i arg1 harg1 arg2 harg2 arg3 harg3 arg4 harg4 arg5 harg5 hfirst hlast h s w).1) = k9_pay2 h s w (k9_pay1 (F := F)) := by
  rw [View.read_writes_eq_canon _ _ _ (cover9_first c i arg1 harg1 arg2 harg2 arg3 harg3 arg4 harg4 arg5 harg5 hfirst hlast h s w)]
  unfold run9_first
  dsimp only
  try sl_unfold_words
  rw [View.canon_cons_unit_zero (S := S1x1) hz9]
  simp only [View.readAt_eq_ld, harg1.read_unread, harg2.read_unread, harg3.read_unread, View.ld_unit_zero (S := S5000x128) hz9,
    View.ld_unit_zero (S := S5000x1) hz9, View.readCov_unit_zero (S := S1x1) _ hz9]

/-- A middle tile: the tile's partial sum is added to what the accumulator held. -/
theorem mid_stores9 (c : Dev nD) (i : grid9.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst9 i) (hlast : ¬isLast9 i)
    (h : Vec F S5000x128 .f32) (s : Vec F S5000x128 .f32) (w : Vec F S5000x1 .f32) (a : Vec F S1x1 .f32) :
    acV9.read (Elt F) (acV9.writes (Elt F) acV9.junk
      (run9_mid c i arg1 harg1 arg2 harg2 arg3 harg3 arg4 harg4 arg5 harg5 hfirst hlast h s w a).1) = k9_pay2 h s w a := by
  rw [View.read_writes_eq_canon _ _ _ (cover9_mid c i arg1 harg1 arg2 harg2 arg3 harg3 arg4 harg4 arg5 harg5 hfirst hlast h s w a)]
  unfold run9_mid
  dsimp only
  try sl_unfold_words
  rw [View.canon_unit_zero (S := S1x1) hz9]
  simp only [View.readAt_eq_ld, harg1.read_unread, harg2.read_unread, harg3.read_unread, harg5.read_unread, View.ld_unit_zero (S := S5000x128) hz9,
    View.ld_unit_zero (S := S5000x1) hz9, View.ld_unit_zero (S := S1x1) hz9]

/-- The last tile leaves the same update in the accumulator, -/
theorem last_stores_acc9 (c : Dev nD) (i : grid9.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst9 i) (hlast : isLast9 i)
    (h : Vec F S5000x128 .f32) (s : Vec F S5000x128 .f32) (w : Vec F S5000x1 .f32) (a : Vec F S1x1 .f32) :
    acV9.read (Elt F) (acV9.writes (Elt F) acV9.junk
      (run9_last c i arg1 harg1 arg2 harg2 arg3 harg3 arg4 harg4 arg5 harg5 hfirst hlast h s w a).2.1) = k9_pay2 h s w a := by
  rw [View.read_writes_eq_canon _ _ _ (cover9_last_acc c i arg1 harg1 arg2 harg2 arg3 harg3 arg4 harg4 arg5 harg5 hfirst hlast h s w a)]
  unfold run9_last
  dsimp only
  try sl_unfold_words
  rw [View.canon_unit_zero (S := S1x1) hz9]
  simp only [View.readAt_eq_ld, harg1.read_unread, harg2.read_unread, harg3.read_unread, harg5.read_unread, View.ld_unit_zero (S := S5000x128) hz9,
    View.ld_unit_zero (S := S5000x1) hz9, View.ld_unit_zero (S := S1x1) hz9]

/-- and copies that value, read back from the accumulator, to the output block. -/
theorem last_stores_out9 (c : Dev nD) (i : grid9.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst9 i) (hlast : isLast9 i)
    (h : Vec F S5000x128 .f32) (s : Vec F S5000x128 .f32) (w : Vec F S5000x1 .f32) (a : Vec F S1x1 .f32) :
    outV9.read (Elt F) (outV9.writes (Elt F) outV9.junk
      (run9_last c i arg1 harg1 arg2 harg2 arg3 harg3 arg4 harg4 arg5 harg5 hfirst hlast h s w a).1) = k9_pay2 h s w a := by
  rw [View.read_writes_eq_canon _ _ _ (cover9_last_out c i arg1 harg1 arg2 harg2 arg3 harg3 arg4 harg4 arg5 harg5 hfirst hlast h s w a)]
  unfold run9_last
  dsimp only
  try sl_unfold_words
  rw [View.canon_unit_zero (S := S1x1) hz9]
  simp only [View.readAt_eq_ld, harg1.read_unread, harg2.read_unread, harg3.read_unread, harg5.read_unread, View.ld_unit_zero (S := S5000x128) hz9,
    View.ld_unit_zero (S := S5000x1) hz9, View.ld_unit_zero (S := S1x1) hz9, View.readCov_unit_zero (S := S1x1) _ hz9]

/-! ## The arrays' row tiles and the ordered chain over them -/

/-- Row tile `n` of a table with 50000 rows of 128 entries: rows 5000·n … 5000·n + 4999. -/
def rowsA9 (X : Vec F S50000x128 .f32) (n : Fin 10) : Vec F S5000x128 .f32 := fun y =>
  X (ix2 ⟨5000 * n.val + (y 0).val, by have h1 : (y 0).val < 5000 := (y 0).isLt; have h2 := n.isLt; omega⟩ ⟨(y 1).val, (y 1).isLt⟩)

/-- Row tile `n` of a column of 50000 entries. -/
def rowsW9 (X : Vec F S50000x1 .f32) (n : Fin 10) : Vec F S5000x1 .f32 := fun y =>
  X (ix2 ⟨5000 * n.val + (y 0).val, by have h1 : (y 0).val < 5000 := (y 0).isLt; have h2 := n.isLt; omega⟩ ⟨(y 1).val, (y 1).isLt⟩)

/-- The running total after row tile `n`, as a function of the three whole arrays: the cleared accumulator updated
    by tile 0, then by tile 1, …, then by tile `n`. -/
def tot9 (H S : Vec F S50000x128 .f32) (W : Vec F S50000x1 .f32) : (n : ℕ) → n < 10 → Vec F S1x1 .f32
  | 0, hn => k9_pay2 (rowsA9 H ⟨0, hn⟩) (rowsA9 S ⟨0, hn⟩) (rowsW9 W ⟨0, hn⟩) (k9_pay1 (F := F))
  | n + 1, hn => k9_pay2 (rowsA9 H ⟨n + 1, hn⟩) (rowsA9 S ⟨n + 1, hn⟩) (rowsW9 W ⟨n + 1, hn⟩) (tot9 H S W n (Nat.lt_of_succ_lt hn))

/-- THE RESULT as one function of the region's three input arrays: the running total after the tenth tile. -/
def G9_3 (H S : Vec F S50000x128 .f32) (W : Vec F S50000x1 .f32) : Vec F S1x1 .f32 := tot9 H S W 9 (by decide)

/-- The three input arrays as the region finds them. -/
abbrev hArr9 (c : Dev nD) : Vec F S50000x128 .f32 := V c (Pipeline.arrRef spec9 0)
abbrev sArr9 (c : Dev nD) : Vec F S50000x128 .f32 := V c (Pipeline.arrRef spec9 1)
abbrev wArr9 (c : Dev nD) : Vec F S50000x1 .f32 := V c (Pipeline.arrRef spec9 2)

/-! ## Each input block is its array's row tile -/

theorem point_lt9 (t : Fin cfg9.N) : t.val < 10 := lt_of_lt_of_eq t.isLt (show cfg9.N = 10 from N_9)

theorem blk9_0_rows (c : Dev nD) (t : Fin cfg9.N) :
    (blk9 V c 0 t : Vec F S5000x128 .f32) = rowsA9 (hArr9 V c) ⟨t.val, point_lt9 t⟩ := by
  have hi : win9_0.index t 0 = t.val ∧ win9_0.index t 1 = 0 := by
    rcases fin_N9 t with rfl | rfl | rfl | rfl | rfl | rfl | rfl | rfl | rfl | rfl <;> decide
  funext y
  unfold blk9 rowsA9
  rw [View.read_apply]
  show V c (Pipeline.arrRef spec9 0) _ = V c (Pipeline.arrRef spec9 0) _
  congr 1
  funext a
  apply Fin.ext
  match a with
  | ⟨0, _⟩ => show win9_0.index t 0 * 5000 + 1 * (y 0).val = 5000 * t.val + (y 0).val; rw [hi.1]; omega
  | ⟨1, _⟩ => show win9_0.index t 1 * 128 + 1 * (y 1).val = (y 1).val; rw [hi.2]; omega

theorem blk9_1_rows (c : Dev nD) (t : Fin cfg9.N) :
    (blk9 V c 1 t : Vec F S5000x128 .f32) = rowsA9 (sArr9 V c) ⟨t.val, point_lt9 t⟩ := by
  have hi : win9_1.index t 0 = t.val ∧ win9_1.index t 1 = 0 := by
    rcases fin_N9 t with rfl | rfl | rfl | rfl | rfl | rfl | rfl | rfl | rfl | rfl <;> decide
  funext y
  unfold blk9 rowsA9
  rw [View.read_apply]
  show V c (Pipeline.arrRef spec9 1) _ = V c (Pipeline.arrRef spec9 1) _
  congr 1
  funext a
  apply Fin.ext
  match a with
  | ⟨0, _⟩ => show win9_1.index t 0 * 5000 + 1 * (y 0).val = 5000 * t.val + (y 0).val; rw [hi.1]; omega
  | ⟨1, _⟩ => show win9_1.index t 1 * 128 + 1 * (y 1).val = (y 1).val; rw [hi.2]; omega

theorem blk9_2_rows (c : Dev nD) (t : Fin cfg9.N) :
    (blk9 V c 2 t : Vec F S5000x1 .f32) = rowsW9 (wArr9 V c) ⟨t.val, point_lt9 t⟩ := by
  have hi : win9_2.index t 0 = t.val ∧ win9_2.index t 1 = 0 := by
    rcases fin_N9 t with rfl | rfl | rfl | rfl | rfl | rfl | rfl | rfl | rfl | rfl <;> decide
  funext y
  unfold blk9 rowsW9
  rw [View.read_apply]
  show V c (Pipeline.arrRef spec9 2) _ = V c (Pipeline.arrRef spec9 2) _
  congr 1
  funext a
  apply Fin.ext
  match a with
  | ⟨0, _⟩ => show win9_2.index t 0 * 5000 + 1 * (y 0).val = 5000 * t.val + (y 0).val; rw [hi.1]; omega
  | ⟨1, _⟩ => show win9_2.index t 1 * 1 + 1 * (y 1).val = (y 1).val; rw [hi.2]; omega

/-! ## The running total is the chain -/

theorem acc9_eq_tot (c : Dev nD) : ∀ (n : ℕ) (hn : n < cfg9.N),
    acc9 V c n hn = tot9 (hArr9 V c) (sArr9 V c) (wArr9 V c) n (lt_of_lt_of_eq hn (show cfg9.N = 10 from N_9))
  | 0, hn => by
    refine (acc9_at_first V c ⟨0, hn⟩ rfl).trans ?_
    unfold acc9_first
    rw [first_stores9, blk9_0_rows, blk9_1_rows, blk9_2_rows]
    rfl
  | n + 1, hn => by
    by_cases h9 : n + 1 = 9
    · refine (acc9_at_last V c ⟨n + 1, hn⟩ h9).trans ?_
      unfold acc9_last
      rw [last_stores_acc9, blk9_0_rows, blk9_1_rows, blk9_2_rows]
      show k9_pay2 _ _ _ (acc9 V c n _) = _
      rw [acc9_eq_tot c n (Nat.lt_of_succ_lt hn)]
      rfl
    · refine (acc9_at_mid V c ⟨n + 1, hn⟩ (Nat.succ_ne_zero n) h9).trans ?_
      unfold acc9_mid
      rw [mid_stores9, blk9_0_rows, blk9_1_rows, blk9_2_rows]
      show k9_pay2 _ _ _ (acc9 V c n _) = _
      rw [acc9_eq_tot c n (Nat.lt_of_succ_lt hn)]
      rfl

/-- At the last tile the output block receives the accumulator's final value. -/
theorem out9_at_last (c : Dev nD) (t : Fin cfg9.N) (h9 : t.val = 9) : out9 V c t = acc9 V c t.val t.isLt := by
  unfold out9
  rw [dif_pos h9, acc9_at_last V c t h9]
  unfold out9_last acc9_last
  rw [last_stores_out9, last_stores_acc9]

/-! ## The write-back and the array after the run -/

/-- The one write-back, at the last tile, writes the result: the window's block there is the whole one-cell array. -/
theorem flushed9_3 (c : Dev nD) (t : Fin cfg9.N) (hf : (cfg9.win 3).flush t = true) :
    (dat9 V c).flushed 3 t = ((cfg9.win 3).blk t).view.read (Elt F) (G9_3 (hArr9 V c) (sArr9 V c) (wArr9 V c)) := by
  have hN : cfg9.N = 10 := N_9
  have h9 : t.val = 9 := by have := (flush9_3 t).mp hf; have := t.isLt; omega
  show (cfg9.win 3).cut (grid9.coords t) ((dat9 V c).after 3 t) = _
  rw [after9_3, out9_at_last V c t h9, acc9_eq_tot V c t.val t.isLt]
  obtain rfl : t = t9_9 := Fin.ext h9
  have hz' : (fun a => win9_3.index t9_9 a * (Pipeline.arrRef spec9 3).ty.shape.size a) = fun _ => 0 :=
    funext fun a => by fin_cases a <;> decide
  exact (Memref.read_access_unit_zero (Elt F) (Pipeline.arrRef spec9 3) hz' (fun a => by rw [congrFun hz' a]; simp)
    (G9_3 (hArr9 V c) (sArr9 V c) (wArr9 V c))).symm

/-- THE VALUE: after the run the result array holds `G9_3` of the three input arrays as the region found them. -/
theorem final9_3 (c : Dev nD) :
    (dat9 V c).arrAt 3 cfg9.N = G9_3 (hArr9 V c) (sArr9 V c) (wArr9 V c) :=
  (dat9 V c).arrAt_eq_of_cover 3 (G9_3 (hArr9 V c) (sArr9 V c) (wArr9 V c)) (flushed9_3 V c) fun i =>
    ⟨t9_9, (flush9_3 t9_9).mpr rfl, by
      -- the array has one cell, at coordinates (0, 0); the last point's block starts at (0, 0) and has extent (1, 1)
      show i ∈ ((View.whole (Pipeline.arrRef spec9 3)).slice (win9_3.rect t9_9)).set
      rw [View.set_slice_whole, Rect.mem_set_unit]
      intro a
      have hlt : (i a : Nat) < 1 := by fin_cases a <;> exact (i _).isLt
      have hoff : win9_3.index t9_9 a * win9_3.size a = 0 := by fin_cases a <;> decide
      have hext : win9_3.xsize (grid9.coords t9_9) a = 1 := by fin_cases a <;> decide
      show win9_3.index t9_9 a * win9_3.size a ≤ (i a : Nat)
        ∧ (i a : Nat) < win9_3.index t9_9 a * win9_3.size a + win9_3.xsize (grid9.coords t9_9) a
      rw [hoff, hext]; omega⟩

end Cert.KernelIdeal.Hand

end
-- ==== Proof.KI.Reg9.lean ====
/-
  Region 9 (custom call 9): the body's runs per control case, the proof data with its invariant and body
  obligation, and the value of the result array — one import for the three modules.
-/
import proofs.«160050_j32744830665390_2_alg».proof.Proof.KI.Reg9.Frame
import proofs.«160050_j32744830665390_2_alg».proof.Proof.KI.Reg9.Value
-- ==== Proof.KI.Reg10.Runs.lean ====
/-
  Region 10 (custom call 10, the node-wise Dirichlet term of one hidden state): the kernel body run once per
  control case.

  The body has two conditionals on the grid coordinate. At the first row tile it clears the one-cell accumulator;
  at every tile it adds the tile's partial sum  Σ_r (w r · Σ_k h r k · h r k − 2 · Σ_k h r k · s r k)  to the
  accumulator; at the last row tile it copies the accumulator to the one-cell output block. With ten tiles the
  two conditions never hold together, so there are three cases: first tile, a middle tile, last tile.

  For each case the body is run symbolically on arbitrary whole memrefs and the list of stores each written
  buffer ends with is recorded (last store first); the lists are found by the run itself.
-/
import proofs.«160050_j32744830665390_2_alg».proof.Proof.KI.Iface

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, and where on the grid they hold -/

/-- "This is the first row tile": the printed comparison chain of the first conditional. -/
abbrev isFirst10 (i : grid10.Coords) : Prop :=
  (Scalar.cmpi .ne (Scalar.extui (Scalar.cmpi .eq (BitVec.ofNat 32 (i 0).val) 0#32)) 0#32) = 1#1

/-- "This is the last row tile": the printed condition of the second conditional. -/
abbrev isLast10 (i : grid10.Coords) : Prop := k10_cond2 i = 1#1

/-- The first condition holds at point 0 and nowhere else. -/
theorem isFirst10_iff : ∀ t : Fin cfg10.N, isFirst10 (grid10.coords t) ↔ t.val = 0 :=
  (by decide +kernel : ∀ t : Fin grid10.N, isFirst10 (grid10.coords t) ↔ t.val = 0)

/-- The second condition holds at point 9 and nowhere else. -/
theorem isLast10_iff : ∀ t : Fin cfg10.N, isLast10 (grid10.coords t) ↔ t.val = 9 :=
  (by decide +kernel : ∀ t : Fin grid10.N, isLast10 (grid10.coords t) ↔ t.val = 9)

/-- The three input windows are never idle. -/
theorem live10_0 : ∀ t : Fin cfg10.N, cfg10.idle 0 (grid10.coords t) = false := by decide +kernel
theorem live10_1 : ∀ t : Fin cfg10.N, cfg10.idle 1 (grid10.coords t) = false := by decide +kernel
theorem live10_2 : ∀ t : Fin cfg10.N, cfg10.idle 2 (grid10.coords t) = false := by decide +kernel
/-- The output window is idle, and not written back, at every point but the last; there it is live. -/
theorem idle10_3 : ∀ t : Fin cfg10.N, t.val ≠ 9 → cfg10.idle 3 (grid10.coords t) = true := by decide +kernel
theorem keep10_3 : ∀ t : Fin cfg10.N, t.val ≠ 9 → (cfg10.win 3).flush t = false := by decide +kernel
theorem live10_3 : ∀ t : Fin cfg10.N, t.val = 9 → cfg10.idle 3 (grid10.coords t) = false := by decide +kernel

/-! ## The memrefs the pipeline passes the body at a point -/

abbrev ms10_0 (t : Fin cfg10.N) : Memref sig .tc .vmem S5000x128 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S5000x128 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S5000x1 .f32 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S1x1 .f32 := win10_3.stage (cfg10.slots t 3)
abbrev hs10_3 (t : Fin cfg10.N) : (ms10_3 t).IsWhole := hstage10_3 ((cfg10.slots t 3).cast nbuf10_3)
/-- The accumulator: a whole scoped buffer of the kernel's own. -/
abbrev acM10 : Memref sig .tc .vmem S1x1 .f32 := Memref.whole cc10_scratch0
/-- The views through which the accumulator's and the output block's contents are stated. -/
abbrev acV10 : View sig .tc .vmem S1x1 .f32 := acM10.view
abbrev outV10 : View sig .tc .vmem S1x1 .f32 := (Memref.whole cc10_stg3_0 : Memref sig .tc .vmem S1x1 .f32).view

/-! ## The three runs -/

set_option maxHeartbeats 1000000 in
/-- FIRST TILE. The accumulator may hold anything; the output block `xo` is not touched. The accumulator ends with
    the stores `LA`: the clearing store, then the store of  0 + (the tile's partial sum). -/
def run10_first (c : Dev nD) (i : grid10.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : isFirst10 i) (hlast : ¬isLast10 i)
    (h : Vec F S5000x128 .f32) (s : Vec F S5000x128 .f32) (w : Vec F S5000x1 .f32) :
    { LA : List (View.Piece (Elt F) S1x1 .f32) //
      ∀ (xo : Vec F S1x1 .f32) (E : Set ℕ) (K : PUnit → sProp 𝕄),
        iprop(owns (c : Thread nD τ) arg1 fullShare h ∗ owns (c : Thread nD τ) arg2 fullShare s ∗ owns (c : Thread nD τ) arg3 fullShare w
            ∗ owns (c : Thread nD τ) arg4 fullShare xo ∗ (∃ d, owns (c : Thread nD τ) arg5 fullShare d)
            ∗ (iprop(owns (c : Thread nD τ) arg1 fullShare h ∗ owns (c : Thread nD τ) arg2 fullShare s ∗ owns (c : Thread nD τ) arg3 fullShare w
                ∗ owns (c : Thread nD τ) arg4 fullShare xo
                ∗ (∃ f, arg5.view.loc (c : Thread nD τ) ↦[arg5.view.set]{fullShare} arg5.view.writes (Elt F) f LA)) -∗ K ⟨⟩))
          ⊢ wp frame (wpE (defs₀ (F := F)) Variants.none c none) E (cc10_node_reg_kernel i arg1 harg1 arg2 harg2 arg3 harg3 arg4 harg4 arg5 harg5) K } := by
  refine ⟨?_, fun xo E K => ?run⟩
  case run =>
    simp only [cc10_node_reg_kernel_eq_skeleton]; unfold cc10_node_reg_kernel_skel
    unfold owns
    iintro ⟨⟨%f1, %hf1, H1⟩, ⟨%f2, %hf2, H2⟩, ⟨%f3, %hf3, H3⟩, ⟨%f4, %hf4, H4⟩, ⟨%da, %fa, -, HA⟩, Hk⟩
    obtain rfl := harg1.eq_unread hf1; obtain rfl := harg2.eq_unread hf2
    obtain rfl := harg3.eq_unread hf3; obtain rfl := harg4.eq_unread hf4
    sl_exec (disch := first | exact hfirst | exact hlast)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact HA

set_option maxHeartbeats 1000000 in
/-- A MIDDLE TILE. The accumulator holds `a`, what the tile before left; the output block `xo` is not touched. The
    accumulator ends with the one store of  a + (the tile's partial sum). -/
def run10_mid (c : Dev nD) (i : grid10.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst10 i) (hlast : ¬isLast10 i)
    (h : Vec F S5000x128 .f32) (s : Vec F S5000x128 .f32) (w : Vec F S5000x1 .f32) (a : Vec F S1x1 .f32) :
    { LA : List (View.Piece (Elt F) S1x1 .f32) //
      ∀ (xo : Vec F S1x1 .f32) (E : Set ℕ) (K : PUnit → sProp 𝕄),
        iprop(owns (c : Thread nD τ) arg1 fullShare h ∗ owns (c : Thread nD τ) arg2 fullShare s ∗ owns (c : Thread nD τ) arg3 fullShare w
            ∗ owns (c : Thread nD τ) arg4 fullShare xo ∗ owns (c : Thread nD τ) arg5 fullShare a
            ∗ (iprop(owns (c : Thread nD τ) arg1 fullShare h ∗ owns (c : Thread nD τ) arg2 fullShare s ∗ owns (c : Thread nD τ) arg3 fullShare w
                ∗ owns (c : Thread nD τ) arg4 fullShare xo
                ∗ (∃ f, arg5.view.loc (c : Thread nD τ) ↦[arg5.view.set]{fullShare} arg5.view.writes (Elt F) f LA)) -∗ K ⟨⟩))
          ⊢ wp frame (wpE (defs₀ (F := F)) Variants.none c none) E (cc10_node_reg_kernel i arg1 harg1 arg2 harg2 arg3 harg3 arg4 harg4 arg5 harg5) K } := by
  refine ⟨?_, fun xo E K => ?run⟩
  case run =>
    simp only [cc10_node_reg_kernel_eq_skeleton]; unfold cc10_node_reg_kernel_skel
    unfold owns
    iintro ⟨⟨%f1, %hf1, H1⟩, ⟨%f2, %hf2, H2⟩, ⟨%f3, %hf3, H3⟩, ⟨%f4, %hf4, H4⟩, ⟨%fa, %hfa, HA⟩, Hk⟩
    obtain rfl := harg1.eq_unread hf1; obtain rfl := harg2.eq_unread hf2
    obtain rfl := harg3.eq_unread hf3; obtain rfl := harg4.eq_unread hf4
    obtain rfl := harg5.eq_unread hfa
    sl_exec (disch := first | exact hfirst | exact hlast)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact HA

set_option maxHeartbeats 1000000 in
/-- THE LAST TILE. The accumulator holds `a`; the output block may hold anything. The accumulator ends with the store
    `LA` of  a + (the tile's partial sum), the output block with the store `LO` of that same value read back. -/
def run10_last (c : Dev nD) (i : grid10.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst10 i) (hlast : isLast10 i)
    (h : Vec F S5000x128 .f32) (s : Vec F S5000x128 .f32) (w : Vec F S5000x1 .f32) (a : Vec F S1x1 .f32) :
    Σ' (LO : List (View.Piece (Elt F) S1x1 .f32)), { LA : List (View.Piece (Elt F) S1x1 .f32) //
      ∀ (E : Set ℕ) (K : PUnit → sProp 𝕄),
        iprop(owns (c : Thread nD τ) arg1 fullShare h ∗ owns (c : Thread nD τ) arg2 fullShare s ∗ owns (c : Thread nD τ) arg3 fullShare w
            ∗ (∃ d, owns (c : Thread nD τ) arg4 fullShare d) ∗ owns (c : Thread nD τ) arg5 fullShare a
            ∗ (iprop(owns (c : Thread nD τ) arg1 fullShare h ∗ owns (c : Thread nD τ) arg2 fullShare s ∗ owns (c : Thread nD τ) arg3 fullShare w
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LA)) -∗ K ⟨⟩))
          ⊢ wp frame (wpE (defs₀ (F := F)) Variants.none c none) E (cc10_node_reg_kernel i arg1 harg1 arg2 harg2 arg3 harg3 arg4 harg4 arg5 harg5) K } := by
  refine ⟨?_, ?_, fun E K => ?run⟩
  case run =>
    simp only [cc10_node_reg_kernel_eq_skeleton]; unfold cc10_node_reg_kernel_skel
    unfold owns
    iintro ⟨⟨%f1, %hf1, H1⟩, ⟨%f2, %hf2, H2⟩, ⟨%f3, %hf3, H3⟩, ⟨%d4, %f4, -, H4⟩, ⟨%fa, %hfa, HA⟩, Hk⟩
    obtain rfl := harg1.eq_unread hf1; obtain rfl := harg2.eq_unread hf2
    obtain rfl := harg3.eq_unread hf3; obtain rfl := harg5.eq_unread hfa
    sl_exec (disch := first | exact hfirst | exact hlast)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    iexists _; iexact HA

end Cert.KernelIdeal.Hand

end
-- ==== Proof.KI.Reg10.Frame.lean ====
/-
  Region 10: what the accumulator and the output block hold after each row tile, the region's proof data at the
  entry contents `V`, its invariant, and the body obligation.

  The accumulator after tile 0 is what the first-tile run leaves; after tile n + 1 it is what the middle-tile run
  (the last-tile run at n + 1 = 9) leaves when started from the accumulator after tile n. The invariant before
  tile 0 is the class's: every scoped buffer that is no staging buffer at some contents, and the generator register.
  Before tile n + 1 it holds the accumulator at exactly the contents named above, the other scoped buffers at some
  contents, and the generator register. The output block is live only at the last tile, where it receives the
  accumulator's final value; everywhere else its staging buffer is handed back as found.
-/
import proofs.«160050_j32744830665390_2_alg».proof.Proof.KI.Reg10.Runs

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## The input blocks -/

/-- Window `w`'s block at point `t`, read off its array as the region finds it. -/
def blk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-! ## What each case leaves, read back through one fixed view -/

/-- The accumulator after the first tile. -/
def acc10_first (c : Dev nD) (t : Fin cfg10.N) (h0 : t.val = 0)
    (h : Vec F S5000x128 .f32) (s : Vec F S5000x128 .f32) (w : Vec F S5000x1 .f32) : Vec F S1x1 .f32 :=
  acV10.read (Elt F) (acV10.writes (Elt F) acV10.junk
    (run10_first c (grid10.coords t) (ms10_0 t) (hs10_0 t) (ms10_1 t) (hs10_1 t) (ms10_2 t) (hs10_2 t) (ms10_3 t) (hs10_3 t) acM10 (Memref.isWhole_whole _)
      ((isFirst10_iff t).mpr h0) (fun hl => by have := (isLast10_iff t).mp hl; omega) h s w).1)

/-- The accumulator after a middle tile that found it at `a`. -/
def acc10_mid (c : Dev nD) (t : Fin cfg10.N) (h0 : t.val ≠ 0) (h9 : t.val ≠ 9)
    (h : Vec F S5000x128 .f32) (s : Vec F S5000x128 .f32) (w : Vec F S5000x1 .f32) (a : Vec F S1x1 .f32) : Vec F S1x1 .f32 :=
  acV10.read (Elt F) (acV10.writes (Elt F) acV10.junk
    (run10_mid c (grid10.coords t) (ms10_0 t) (hs10_0 t) (ms10_1 t) (hs10_1 t) (ms10_2 t) (hs10_2 t) (ms10_3 t) (hs10_3 t) acM10 (Memref.isWhole_whole _)
      (fun hf => h0 ((isFirst10_iff t).mp hf)) (fun hl => h9 ((isLast10_iff t).mp hl)) h s w a).1)

/-- The accumulator after the last tile, which found it at `a`. -/
def acc10_last (c : Dev nD) (t : Fin cfg10.N) (h9 : t.val = 9)
    (h : Vec F S5000x128 .f32) (s : Vec F S5000x128 .f32) (w : Vec F S5000x1 .f32) (a : Vec F S1x1 .f32) : Vec F S1x1 .f32 :=
  acV10.read (Elt F) (acV10.writes (Elt F) acV10.junk
    (run10_last c (grid10.coords t) (ms10_0 t) (hs10_0 t) (ms10_1 t) (hs10_1 t) (ms10_2 t) (hs10_2 t) (ms10_3 t) (hs10_3 t) acM10 (Memref.isWhole_whole _)
      (fun hf => by have := (isFirst10_iff t).mp hf; omega) ((isLast10_iff t).mpr h9) h s w a).2.1)

/-- The output block after the last tile. -/
def out10_last (c : Dev nD) (t : Fin cfg10.N) (h9 : t.val = 9)
    (h : Vec F S5000x128 .f32) (s : Vec F S5000x128 .f32) (w : Vec F S5000x1 .f32) (a : Vec F S1x1 .f32) : Vec F S1x1 .f32 :=
  outV10.read (Elt F) (outV10.writes (Elt F) outV10.junk
    (run10_last c (grid10.coords t) (ms10_0 t) (hs10_0 t) (ms10_1 t) (hs10_1 t) (ms10_2 t) (hs10_2 t) (ms10_3 t) (hs10_3 t) acM10 (Memref.isWhole_whole _)
      (fun hf => by have := (isFirst10_iff t).mp hf; omega) ((isLast10_iff t).mpr h9) h s w a).1)

/-- Each list of stores covers its one-cell buffer. -/
theorem cover10_first (c : Dev nD) (i : grid10.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : isFirst10 i) (hlast : ¬isLast10 i)
    (h : Vec F S5000x128 .f32) (s : Vec F S5000x128 .f32) (w : Vec F S5000x1 .f32) (y : S1x1.Idx) :
    ∃ pc ∈ (run10_first c i arg1 harg1 arg2 harg2 arg3 harg3 arg4 harg4 arg5 harg5 hfirst hlast h s w).1, y ∈ pc.1.set :=
  View.cover_of_tiledL _ S1x1.size (by sl_kernel_rfl) y

theorem cover10_mid (c : Dev nD) (i : grid10.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst10 i) (hlast : ¬isLast10 i)
    (h : Vec F S5000x128 .f32) (s : Vec F S5000x128 .f32) (w : Vec F S5000x1 .f32) (a : Vec F S1x1 .f32) (y : S1x1.Idx) :
    ∃ pc ∈ (run10_mid c i arg1 harg1 arg2 harg2 arg3 harg3 arg4 harg4 arg5 harg5 hfirst hlast h s w a).1, y ∈ pc.1.set :=
  View.cover_of_tiledL _ S1x1.size (by sl_kernel_rfl) y

theorem cover10_last_acc (c : Dev nD) (i : grid10.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst10 i) (hlast : isLast10 i)
    (h : Vec F S5000x128 .f32) (s : Vec F S5000x128 .f32) (w : Vec F S5000x1 .f32) (a : Vec F S1x1 .f32) (y : S1x1.Idx) :
    ∃ pc ∈ (run10_last c i arg1 harg1 arg2 harg2 arg3 harg3 arg4 harg4 arg5 harg5 hfirst hlast h s w a).2.1, y ∈ pc.1.set :=
  View.cover_of_tiledL _ S1x1.size (by sl_kernel_rfl) y

theorem cover10_last_out (c : Dev nD) (i : grid10.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst10 i) (hlast : isLast10 i)
    (h : Vec F S5000x128 .f32) (s : Vec F S5000x128 .f32) (w : Vec F S5000x1 .f32) (a : Vec F S1x1 .f32) (y : S1x1.Idx) :
    ∃ pc ∈ (run10_last c i arg1 harg1 arg2 harg2 arg3 harg3 arg4 harg4 arg5 harg5 hfirst hlast h s w a).1, y ∈ pc.1.set :=
  View.cover_of_tiledL _ S1x1.size (by sl_kernel_rfl) y

/-! ## The accumulator and the output block, tile by tile -/

/-- THE RUNNING TOTAL: what the accumulator holds after the body at position `n`. -/
def acc10 (c : Dev nD) : (n : ℕ) → n < cfg10.N → Vec F S1x1 .f32
  | 0, hn => acc10_first c ⟨0, hn⟩ rfl (blk10 V c 0 ⟨0, hn⟩) (blk10 V c 1 ⟨0, hn⟩) (blk10 V c 2 ⟨0, hn⟩)
  | n + 1, hn =>
    if h9 : n + 1 = 9 then
      acc10_last c ⟨n + 1, hn⟩ h9 (blk10 V c 0 ⟨n + 1, hn⟩) (blk10 V c 1 ⟨n + 1, hn⟩) (blk10 V c 2 ⟨n + 1, hn⟩) (acc10 c n (Nat.lt_of_succ_lt hn))
    else
      acc10_mid c ⟨n + 1, hn⟩ (Nat.succ_ne_zero n) h9 (blk10 V c 0 ⟨n + 1, hn⟩) (blk10 V c 1 ⟨n + 1, hn⟩) (blk10 V c 2 ⟨n + 1, hn⟩) (acc10 c n (Nat.lt_of_succ_lt hn))

/-- The accumulator just before point `t`, for `t` not the first: what the point before left. -/
abbrev accBefore10 (c : Dev nD) (t : Fin cfg10.N) : Vec F S1x1 .f32 :=
  acc10 V c (t.val - 1) (Nat.lt_of_le_of_lt (Nat.sub_le _ _) t.isLt)

theorem acc10_at_first (c : Dev nD) (t : Fin cfg10.N) (h0 : t.val = 0) :
    acc10 V c t.val t.isLt = acc10_first c t h0 (blk10 V c 0 t) (blk10 V c 1 t) (blk10 V c 2 t) := by
  obtain ⟨n, hn⟩ := t
  cases n with
  | zero => rfl
  | succ n => exact absurd h0 (Nat.succ_ne_zero n)

theorem acc10_at_mid (c : Dev nD) (t : Fin cfg10.N) (h0 : t.val ≠ 0) (h9 : t.val ≠ 9) :
    acc10 V c t.val t.isLt = acc10_mid c t h0 h9 (blk10 V c 0 t) (blk10 V c 1 t) (blk10 V c 2 t) (accBefore10 V c t) := by
  obtain ⟨n, hn⟩ := t
  cases n with
  | zero => exact absurd rfl h0
  | succ n => exact (dif_neg h9).trans rfl

theorem acc10_at_last (c : Dev nD) (t : Fin cfg10.N) (h9 : t.val = 9) :
    acc10 V c t.val t.isLt = acc10_last c t h9 (blk10 V c 0 t) (blk10 V c 1 t) (blk10 V c 2 t) (accBefore10 V c t) := by
  obtain ⟨n, hn⟩ := t
  cases n with
  | zero => exact absurd h9 (show ¬ (0 : ℕ) = 9 by decide)
  | succ n => exact (dif_pos h9).trans rfl

/-- What the output window's staging buffer holds after the body at point `t`: at the last point the accumulator's
    final value as the last-tile run stores it; the value at the other points is consulted nowhere (the window is
    idle there and not written back). -/
def out10 (c : Dev nD) (t : Fin cfg10.N) : Vec F S1x1 .f32 :=
  if h9 : t.val = 9 then out10_last c t h9 (blk10 V c 0 t) (blk10 V c 1 t) (blk10 V c 2 t) (accBefore10 V c t)
  else acc10 V c t.val t.isLt

/-! ## The invariant -/

/-- Before position `n`: at the first point the class's invariant; afterwards the accumulator at the running total,
    the other scoped buffers at some contents, the generator register at some state. -/
def Phi10 (c : Dev nD) : (n : ℕ) → n ≤ cfg10.N → sProp 𝕄
  | 0, _ => Pipeline.ΦA (U := UR sig nD τ) (Val := Elt F) spec10 c
  | n + 1, hn => iprop(iprop(owns (c : Thread nD τ) acM10 fullShare (acc10 V c n hn)
      ∗ Pipeline.scopedRestBut (Ix := Unit) (Name := ℕ) (U := UR sig nD τ) (Lvl := ℕ) (Val := Elt F) spec10 c [cc10_scratch0]) ∗ (∃ r, prngReg c r))

theorem Phi10_zero (c : Dev nD) (n : ℕ) (hn : n ≤ cfg10.N) (hz : n = 0) :
    Phi10 V c n hn = Pipeline.ΦA (U := UR sig nD τ) (Val := Elt F) spec10 c := by
  subst hz; rfl

theorem Phi10_succ (c : Dev nD) (n : ℕ) (hn : n < cfg10.N) :
    Phi10 V c (n + 1) hn = iprop(iprop(owns (c : Thread nD τ) acM10 fullShare (acc10 V c n hn)
      ∗ Pipeline.scopedRestBut (Ix := Unit) (Name := ℕ) (U := UR sig nD τ) (Lvl := ℕ) (Val := Elt F) spec10 c [cc10_scratch0]) ∗ (∃ r, prngReg c r)) := rfl

theorem Phi10_pos (c : Dev nD) (n : ℕ) (hn : n ≤ cfg10.N) (hz : n ≠ 0) :
    Phi10 V c n hn = iprop(iprop(owns (c : Thread nD τ) acM10 fullShare (acc10 V c (n - 1) (by omega))
      ∗ Pipeline.scopedRestBut (Ix := Unit) (Name := ℕ) (U := UR sig nD τ) (Lvl := ℕ) (Val := Elt F) spec10 c [cc10_scratch0]) ∗ (∃ r, prngReg c r)) := by
  cases n with
  | zero => exact absurd rfl hz
  | succ n => rfl

/-- The class's invariant with the accumulator singled out of the scoped rest. -/
theorem PhiA10_open (c : Dev nD) :
    (Pipeline.ΦA (U := UR sig nD τ) (Val := Elt F) spec10 c : sProp 𝕄)
      = iprop(iprop((∃ d, owns (c : Thread nD τ) acM10 fullShare d)
          ∗ Pipeline.scopedRestBut (Ix := Unit) (Name := ℕ) (U := UR sig nD τ) (Lvl := ℕ) (Val := Elt F) spec10 c [cc10_scratch0]) ∗ (∃ r, prngReg c r)) := by
  unfold Pipeline.ΦA; rw [scopedRest10_split]; simp only [acM10, owns_whole]; try rfl

/-! ## The proof data -/

/-- Region 10's proof data on core `c`: the arrays as the region finds them; after the body each input's buffer still
    at its block, the output's at `out10`; the invariant `Phi10`; full shares; nothing owed. -/
def dat10 (c : Dev nD) : Dat τ (Elt F) Unit ℕ (UR sig nD τ) ℕ cfg10 c where
  A w := V c (Pipeline.arrRef spec10 w)
  after w t := match w with
    | ⟨0, _⟩ => blk10 V c 0 t
    | ⟨1, _⟩ => blk10 V c 1 t
    | ⟨2, _⟩ => blk10 V c 2 t
    | ⟨3, _⟩ => out10 V c t
  Φ t := Phi10 V c t.val (Nat.le_of_lt_succ t.isLt)
  q _ := fullShare
  owed _ := 0

theorem A_eq10 (c : Dev nD) (w : Fin cfg10.W) : (dat10 V c).A w = V c (Pipeline.arrRef spec10 w) := by
  dsimp only [dat10]

theorem q_eq10 (c : Dev nD) (w : Fin cfg10.W) : (dat10 V c).q w = fullShare := by
  dsimp only [dat10]

theorem owed_eq10 (c : Dev nD) (t : Fin (cfg10.N + 1)) : (dat10 V c).owed t = 0 := by
  dsimp only [dat10]

theorem Phi10_castSucc (c : Dev nD) (t : Fin cfg10.N) :
    (dat10 V c).Φ t.castSucc = Phi10 V c t.val (Nat.le_of_lt t.isLt) := by
  dsimp only [dat10]; simp only [Fin.coe_castSucc]

theorem after10_0 (c : Dev nD) (t : Fin cfg10.N) : (dat10 V c).after 0 t = blk10 V c 0 t := by dsimp only [dat10]
theorem after10_1 (c : Dev nD) (t : Fin cfg10.N) : (dat10 V c).after 1 t = blk10 V c 1 t := by dsimp only [dat10]
theorem after10_2 (c : Dev nD) (t : Fin cfg10.N) : (dat10 V c).after 2 t = blk10 V c 2 t := by dsimp only [dat10]
theorem after10_3 (c : Dev nD) (t : Fin cfg10.N) : (dat10 V c).after 3 t = out10 V c t := by dsimp only [dat10]

/-- Every input window is fetched at every point, so its current buffer holds the array's block there. -/
theorem before10_0 (c : Dev nD) (t : Fin cfg10.N) (d) : (dat10 V c).before 0 t d = blk10 V c 0 t :=
  ((dat10 V c).before_fetched 0 t (fetch10_0 t) d).trans (by unfold Dat.fetched Dat.blockOf blk10; rw [A_eq10]; try rfl)
theorem before10_1 (c : Dev nD) (t : Fin cfg10.N) (d) : (dat10 V c).before 1 t d = blk10 V c 1 t :=
  ((dat10 V c).before_fetched 1 t (fetch10_1 t) d).trans (by unfold Dat.fetched Dat.blockOf blk10; rw [A_eq10]; try rfl)
theorem before10_2 (c : Dev nD) (t : Fin cfg10.N) (d) : (dat10 V c).before 2 t d = blk10 V c 2 t :=
  ((dat10 V c).before_fetched 2 t (fetch10_2 t) d).trans (by unfold Dat.fetched Dat.blockOf blk10; rw [A_eq10]; try rfl)

/-! ## The body obligation -/

/-- What the body is called with at point `t`, -/
def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t)

theorem leaves10_0 (c : Dev nD) (t : Fin cfg10.N) :
    (dat10 V c).leavesExact 0 t = owns (c : Thread nD τ) (ms10_0 t) fullShare (blk10 V c 0 t) := by
  unfold Dat.leavesExact; rw [live10_0 t, after10_0]
theorem leaves10_1 (c : Dev nD) (t : Fin cfg10.N) :
    (dat10 V c).leavesExact 1 t = owns (c : Thread nD τ) (ms10_1 t) fullShare (blk10 V c 1 t) := by
  unfold Dat.leavesExact; rw [live10_1 t, after10_1]
theorem leaves10_2 (c : Dev nD) (t : Fin cfg10.N) :
    (dat10 V c).leavesExact 2 t = owns (c : Thread nD τ) (ms10_2 t) fullShare (blk10 V c 2 t) := by
  unfold Dat.leavesExact; rw [live10_2 t, after10_2]
theorem leaves10_3_idle (c : Dev nD) (t : Fin cfg10.N) (h9 : t.val ≠ 9) :
    (dat10 V c).leavesExact 3 t = iprop(∃ d, owns (c : Thread nD τ) (ms10_3 t) fullShare ((dat10 V c).before 3 t d)) :=
  Dat.leavesExact_idle (dat10 V c) 3 t (idle10_3 t h9) (keep10_3 t h9)
theorem leaves10_3_live (c : Dev nD) (t : Fin cfg10.N) (h9 : t.val = 9) :
    (dat10 V c).leavesExact 3 t = owns (c : Thread nD τ) (ms10_3 t) fullShare (out10 V c t) := by
  unfold Dat.leavesExact; rw [live10_3 t h9, after10_3]

set_option maxHeartbeats 4800000 in
/-- The body at any point. The inputs' buffers hold their blocks; the point's position decides the case; the invariant
    hands the run the accumulator (at anything before the first tile, at the running total afterwards) and takes it
    back at the new running total, the run's stores covering the one cell; the rest of the invariant and what the
    core owes pass through untouched. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).owesAt () t.succ = (dat10 V c).owesAt () t.castSucc from rfl]
  rw [show (dat10 V c).Φ t.succ = Phi10 V c (t.val + 1) t.isLt from rfl, Phi10_succ]
  rw [leaves10_0, leaves10_1, leaves10_2, Phi10_castSucc]
  have hN : t.val < 10 := lt_of_lt_of_eq t.isLt (show cfg10.N = 10 from N_10)
  by_cases h0 : t.val = 0
  · -- the first tile
    have h9 : t.val ≠ 9 := by omega
    rw [leaves10_3_idle V c t h9, acc10_at_first V c t h0, Phi10_zero V c _ _ h0, PhiA10_open]
    unfold acc10_first
    iintro ⟨⟨⟨HA, HR⟩, Hg⟩, Ho, ⟨%d0, H0⟩, ⟨%d1, H1⟩, ⟨%d2, H2⟩, ⟨%d3, H3⟩⟩
    iapply ((run10_first c (grid10.coords t) _ _ _ _ _ _ _ _ _ _ ((isFirst10_iff t).mpr h0)
      (fun hl => by have := (isLast10_iff t).mp hl; omega) (blk10 V c 0 t) (blk10 V c 1 t) (blk10 V c 2 t)).2 _ Set.univ _)
    isplitl [H0]; · iexact H0
    isplitl [H1]; · iexact H1
    isplitl [H2]; · iexact H2
    isplitl [H3]; · iexact H3
    isplitl [HA]; · iexact HA
    iintro ⟨H0, H1, H2, H3, ⟨%ea, HA⟩⟩
    isplitl [HA HR Hg]
    · isplitr [Hg]
      · isplitl [HA]
        · unfold owns; iexists _; isplitr
          swap; · iexact HA
          ipureintro; exact View.read_writes_of_cover _ _ _ _ _ (cover10_first c _ _ _ _ _ _ _ _ _ _ _ _ _ _ _ _)
        iexact HR
      iexact Hg
    isplitl [Ho]; · iexact Ho
    isplitl [H0]; · iexact H0
    isplitl [H1]; · iexact H1
    isplitl [H2]; · iexact H2
    iexists _; iexact H3
  · by_cases h9 : t.val = 9
    · -- the last tile
      rw [leaves10_3_live V c t h9, acc10_at_last V c t h9, Phi10_pos V c _ _ h0]
      unfold out10; rw [dif_pos h9]
      unfold acc10_last out10_last
      iintro ⟨⟨⟨HA, HR⟩, Hg⟩, Ho, ⟨%d0, H0⟩, ⟨%d1, H1⟩, ⟨%d2, H2⟩, ⟨%d3, H3⟩⟩
      iapply ((run10_last c (grid10.coords t) _ _ _ _ _ _ _ _ _ _ (fun hf => by have := (isFirst10_iff t).mp hf; omega)
        ((isLast10_iff t).mpr h9) (blk10 V c 0 t) (blk10 V c 1 t) (blk10 V c 2 t) (accBefore10 V c t)).2.2 Set.univ _)
      isplitl [H0]; · iexact H0
      isplitl [H1]; · iexact H1
      isplitl [H2]; · iexact H2
      isplitl [H3]; · iexists _; iexact H3
      isplitl [HA]; · iexact HA
      iintro ⟨H0, H1, H2, ⟨%eo, H3⟩, ⟨%ea, HA⟩⟩
      isplitl [HA HR Hg]
      · isplitr [Hg]
        · isplitl [HA]
          · unfold owns; iexists _; isplitr
            swap; · iexact HA
            ipureintro; exact View.read_writes_of_cover _ _ _ _ _ (cover10_last_acc c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover10_last_out c _ _ _ _ _ _ _ _ _ _ _ _ _ _ _ _ _)
    · -- a middle tile
      rw [leaves10_3_idle V c t h9, acc10_at_mid V c t h0 h9, Phi10_pos V c _ _ h0]
      unfold acc10_mid
      iintro ⟨⟨⟨HA, HR⟩, Hg⟩, Ho, ⟨%d0, H0⟩, ⟨%d1, H1⟩, ⟨%d2, H2⟩, ⟨%d3, H3⟩⟩
      iapply ((run10_mid c (grid10.coords t) _ _ _ _ _ _ _ _ _ _ (fun hf => h0 ((isFirst10_iff t).mp hf))
        (fun hl => h9 ((isLast10_iff t).mp hl)) (blk10 V c 0 t) (blk10 V c 1 t) (blk10 V c 2 t) (accBefore10 V c t)).2 _ Set.univ _)
      isplitl [H0]; · iexact H0
      isplitl [H1]; · iexact H1
      isplitl [H2]; · iexact H2
      isplitl [H3]; · iexact H3
      isplitl [HA]; · iexact HA
      iintro ⟨H0, H1, H2, H3, ⟨%ea, HA⟩⟩
      isplitl [HA HR Hg]
      · isplitr [Hg]
        · isplitl [HA]
          · unfold owns; iexists _; isplitr
            swap; · iexact HA
            ipureintro; exact View.read_writes_of_cover _ _ _ _ _ (cover10_mid c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation10 (c : Dev nD) : BodyObligation (dat10 (F := F) V c) (defs₀ (F := F)) Variants.none () Set.univ := fun t => by
  rw [bigSep_W10, bigSep_W10]
  exact sound_body10 V c t

/-! ## The invariant's two ends -/

/-- The class's invariant is the invariant before the first point. -/
theorem Phi_in10 (c : Dev nD) : (Pipeline.ΦA (U := UR sig nD τ) (Val := Elt F) spec10 c : sProp 𝕄) ⊢ (dat10 V c).Φ 0 := by
  rw [show (dat10 V c).Φ 0 = Phi10 V c 0 (Nat.zero_le _) from rfl, Phi10_zero V c 0 _ rfl]
  try exact Entails.refl _

/-- After the last point the invariant gives the class's back: the accumulator's contents are forgotten. -/
theorem Phi_out10 (c : Dev nD) : (dat10 V c).Φ (Fin.last cfg10.N) ⊢ (Pipeline.ΦA (U := UR sig nD τ) (Val := Elt F) spec10 c : sProp 𝕄) := by
  have hne : (Fin.last cfg10.N).val ≠ 0 := by rw [Fin.val_last]; have : cfg10.N = 10 := N_10; omega
  rw [show (dat10 V c).Φ (Fin.last cfg10.N) = Phi10 V c (Fin.last cfg10.N).val (Nat.le_of_lt_succ (Fin.last cfg10.N).isLt) from rfl,
    Phi10_pos V c _ _ hne, PhiA10_open]
  iintro ⟨⟨HA, HR⟩, Hg⟩
  isplitr [Hg]
  · isplitl [HA]
    · iexists _; iexact HA
    iexact HR
  iexact Hg

end Cert.KernelIdeal.Hand

end
-- ==== Proof.KI.Reg10.Value.lean ====
/-
  Region 10: the value. After the run the one-cell result array holds the running total after the tenth row tile:
  starting from the cleared accumulator, tile after tile in grid order, the accumulator plus the tile's partial sum
    Σ_r (w r · Σ_k h r k · h r k − 2 · Σ_k h r k · s r k),   r over the tile's 5000 rows, k over the 128 features,
  each tile being rows 5000·n … 5000·n + 4999 of the three input arrays.

  First each case's list of stores is read back as the update applied to the tile's blocks and the accumulator found;
  then the running total is the ordered chain over the tiles (induction on the tile); then each block is the array's
  rows; then the single write-back, at the last tile, covers the one-cell array.
-/
import proofs.«160050_j32744830665390_2_alg».proof.Proof.KI.Reg10.Frame
import Idealize.ShloMosaic.Lib.Pipeline.Value
import Idealize.ShloMosaic.Lib.ValueIdx

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

open Idealize.ShloMosaic.ValueIdx (ix2)

theorem hz10 : (![0, 0] : Fin 2 → Nat) = fun _ => 0 := funext fun a => by fin_cases a <;> rfl

/-! ## What each case's stores leave -/

/-- First tile: the accumulator is cleared, then the tile's partial sum is added to the cleared value. -/
theorem first_stores10 (c : Dev nD) (i : grid10.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : isFirst10 i) (hlast : ¬isLast10 i)
    (h : Vec F S5000x128 .f32) (s : Vec F S5000x128 .f32) (w : Vec F S5000x1 .f32) :
    acV10.read (Elt F) (acV10.writes (Elt F) acV10.junk
      (run10_first c i arg1 harg1 arg2 harg2 arg3 harg3 arg4 harg4 arg5 harg5 hfirst hlast h s w).1) = k10_pay2 h s w (k10_pay1 (F := F)) := by
  rw [View.read_writes_eq_canon _ _ _ (cover10_first c i arg1 harg1 arg2 harg2 arg3 harg3 arg4 harg4 arg5 harg5 hfirst hlast h s w)]
  unfold run10_first
  dsimp only
  try sl_unfold_words
  rw [View.canon_cons_unit_zero (S := S1x1) hz10]
  simp only [View.readAt_eq_ld, harg1.read_unread, harg2.read_unread, harg3.read_unread, View.ld_unit_zero (S := S5000x128) hz10,
    View.ld_unit_zero (S := S5000x1) hz10, View.readCov_unit_zero (S := S1x1) _ hz10]

/-- A middle tile: the tile's partial sum is added to what the accumulator held. -/
theorem mid_stores10 (c : Dev nD) (i : grid10.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst10 i) (hlast : ¬isLast10 i)
    (h : Vec F S5000x128 .f32) (s : Vec F S5000x128 .f32) (w : Vec F S5000x1 .f32) (a : Vec F S1x1 .f32) :
    acV10.read (Elt F) (acV10.writes (Elt F) acV10.junk
      (run10_mid c i arg1 harg1 arg2 harg2 arg3 harg3 arg4 harg4 arg5 harg5 hfirst hlast h s w a).1) = k10_pay2 h s w a := by
  rw [View.read_writes_eq_canon _ _ _ (cover10_mid c i arg1 harg1 arg2 harg2 arg3 harg3 arg4 harg4 arg5 harg5 hfirst hlast h s w a)]
  unfold run10_mid
  dsimp only
  try sl_unfold_words
  rw [View.canon_unit_zero (S := S1x1) hz10]
  simp only [View.readAt_eq_ld, harg1.read_unread, harg2.read_unread, harg3.read_unread, harg5.read_unread, View.ld_unit_zero (S := S5000x128) hz10,
    View.ld_unit_zero (S := S5000x1) hz10, View.ld_unit_zero (S := S1x1) hz10]

/-- The last tile leaves the same update in the accumulator, -/
theorem last_stores_acc10 (c : Dev nD) (i : grid10.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst10 i) (hlast : isLast10 i)
    (h : Vec F S5000x128 .f32) (s : Vec F S5000x128 .f32) (w : Vec F S5000x1 .f32) (a : Vec F S1x1 .f32) :
    acV10.read (Elt F) (acV10.writes (Elt F) acV10.junk
      (run10_last c i arg1 harg1 arg2 harg2 arg3 harg3 arg4 harg4 arg5 harg5 hfirst hlast h s w a).2.1) = k10_pay2 h s w a := by
  rw [View.read_writes_eq_canon _ _ _ (cover10_last_acc c i arg1 harg1 arg2 harg2 arg3 harg3 arg4 harg4 arg5 harg5 hfirst hlast h s w a)]
  unfold run10_last
  dsimp only
  try sl_unfold_words
  rw [View.canon_unit_zero (S := S1x1) hz10]
  simp only [View.readAt_eq_ld, harg1.read_unread, harg2.read_unread, harg3.read_unread, harg5.read_unread, View.ld_unit_zero (S := S5000x128) hz10,
    View.ld_unit_zero (S := S5000x1) hz10, View.ld_unit_zero (S := S1x1) hz10]

/-- and copies that value, read back from the accumulator, to the output block. -/
theorem last_stores_out10 (c : Dev nD) (i : grid10.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S1x1 .f32) (harg4 : arg4.IsWhole)
    (arg5 : Memref sig .tc .vmem S1x1 .f32) (harg5 : arg5.IsWhole) (hfirst : ¬isFirst10 i) (hlast : isLast10 i)
    (h : Vec F S5000x128 .f32) (s : Vec F S5000x128 .f32) (w : Vec F S5000x1 .f32) (a : Vec F S1x1 .f32) :
    outV10.read (Elt F) (outV10.writes (Elt F) outV10.junk
      (run10_last c i arg1 harg1 arg2 harg2 arg3 harg3 arg4 harg4 arg5 harg5 hfirst hlast h s w a).1) = k10_pay2 h s w a := by
  rw [View.read_writes_eq_canon _ _ _ (cover10_last_out c i arg1 harg1 arg2 harg2 arg3 harg3 arg4 harg4 arg5 harg5 hfirst hlast h s w a)]
  unfold run10_last
  dsimp only
  try sl_unfold_words
  rw [View.canon_unit_zero (S := S1x1) hz10]
  simp only [View.readAt_eq_ld, harg1.read_unread, harg2.read_unread, harg3.read_unread, harg5.read_unread, View.ld_unit_zero (S := S5000x128) hz10,
    View.ld_unit_zero (S := S5000x1) hz10, View.ld_unit_zero (S := S1x1) hz10, View.readCov_unit_zero (S := S1x1) _ hz10]

/-! ## The arrays' row tiles and the ordered chain over them -/

/-- Row tile `n` of a table with 50000 rows of 128 entries: rows 5000·n … 5000·n + 4999. -/
def rowsA10 (X : Vec F S50000x128 .f32) (n : Fin 10) : Vec F S5000x128 .f32 := fun y =>
  X (ix2 ⟨5000 * n.val + (y 0).val, by have h1 : (y 0).val < 5000 := (y 0).isLt; have h2 := n.isLt; omega⟩ ⟨(y 1).val, (y 1).isLt⟩)

/-- Row tile `n` of a column of 50000 entries. -/
def rowsW10 (X : Vec F S50000x1 .f32) (n : Fin 10) : Vec F S5000x1 .f32 := fun y =>
  X (ix2 ⟨5000 * n.val + (y 0).val, by have h1 : (y 0).val < 5000 := (y 0).isLt; have h2 := n.isLt; omega⟩ ⟨(y 1).val, (y 1).isLt⟩)

/-- The running total after row tile `n`, as a function of the three whole arrays: the cleared accumulator updated
    by tile 0, then by tile 1, …, then by tile `n`. -/
def tot10 (H S : Vec F S50000x128 .f32) (W : Vec F S50000x1 .f32) : (n : ℕ) → n < 10 → Vec F S1x1 .f32
  | 0, hn => k10_pay2 (rowsA10 H ⟨0, hn⟩) (rowsA10 S ⟨0, hn⟩) (rowsW10 W ⟨0, hn⟩) (k10_pay1 (F := F))
  | n + 1, hn => k10_pay2 (rowsA10 H ⟨n + 1, hn⟩) (rowsA10 S ⟨n + 1, hn⟩) (rowsW10 W ⟨n + 1, hn⟩) (tot10 H S W n (Nat.lt_of_succ_lt hn))

/-- THE RESULT as one function of the region's three input arrays: the running total after the tenth tile. -/
def G10_3 (H S : Vec F S50000x128 .f32) (W : Vec F S50000x1 .f32) : Vec F S1x1 .f32 := tot10 H S W 9 (by decide)

/-- The three input arrays as the region finds them. -/
abbrev hArr10 (c : Dev nD) : Vec F S50000x128 .f32 := V c (Pipeline.arrRef spec10 0)
abbrev sArr10 (c : Dev nD) : Vec F S50000x128 .f32 := V c (Pipeline.arrRef spec10 1)
abbrev wArr10 (c : Dev nD) : Vec F S50000x1 .f32 := V c (Pipeline.arrRef spec10 2)

/-! ## Each input block is its array's row tile -/

theorem point_lt10 (t : Fin cfg10.N) : t.val < 10 := lt_of_lt_of_eq t.isLt (show cfg10.N = 10 from N_10)

theorem blk10_0_rows (c : Dev nD) (t : Fin cfg10.N) :
    (blk10 V c 0 t : Vec F S5000x128 .f32) = rowsA10 (hArr10 V c) ⟨t.val, point_lt10 t⟩ := by
  have hi : win10_0.index t 0 = t.val ∧ win10_0.index t 1 = 0 := by
    rcases fin_N10 t with rfl | rfl | rfl | rfl | rfl | rfl | rfl | rfl | rfl | rfl <;> decide
  funext y
  unfold blk10 rowsA10
  rw [View.read_apply]
  show V c (Pipeline.arrRef spec10 0) _ = V c (Pipeline.arrRef spec10 0) _
  congr 1
  funext a
  apply Fin.ext
  match a with
  | ⟨0, _⟩ => show win10_0.index t 0 * 5000 + 1 * (y 0).val = 5000 * t.val + (y 0).val; rw [hi.1]; omega
  | ⟨1, _⟩ => show win10_0.index t 1 * 128 + 1 * (y 1).val = (y 1).val; rw [hi.2]; omega

theorem blk10_1_rows (c : Dev nD) (t : Fin cfg10.N) :
    (blk10 V c 1 t : Vec F S5000x128 .f32) = rowsA10 (sArr10 V c) ⟨t.val, point_lt10 t⟩ := by
  have hi : win10_1.index t 0 = t.val ∧ win10_1.index t 1 = 0 := by
    rcases fin_N10 t with rfl | rfl | rfl | rfl | rfl | rfl | rfl | rfl | rfl | rfl <;> decide
  funext y
  unfold blk10 rowsA10
  rw [View.read_apply]
  show V c (Pipeline.arrRef spec10 1) _ = V c (Pipeline.arrRef spec10 1) _
  congr 1
  funext a
  apply Fin.ext
  match a with
  | ⟨0, _⟩ => show win10_1.index t 0 * 5000 + 1 * (y 0).val = 5000 * t.val + (y 0).val; rw [hi.1]; omega
  | ⟨1, _⟩ => show win10_1.index t 1 * 128 + 1 * (y 1).val = (y 1).val; rw [hi.2]; omega

theorem blk10_2_rows (c : Dev nD) (t : Fin cfg10.N) :
    (blk10 V c 2 t : Vec F S5000x1 .f32) = rowsW10 (wArr10 V c) ⟨t.val, point_lt10 t⟩ := by
  have hi : win10_2.index t 0 = t.val ∧ win10_2.index t 1 = 0 := by
    rcases fin_N10 t with rfl | rfl | rfl | rfl | rfl | rfl | rfl | rfl | rfl | rfl <;> decide
  funext y
  unfold blk10 rowsW10
  rw [View.read_apply]
  show V c (Pipeline.arrRef spec10 2) _ = V c (Pipeline.arrRef spec10 2) _
  congr 1
  funext a
  apply Fin.ext
  match a with
  | ⟨0, _⟩ => show win10_2.index t 0 * 5000 + 1 * (y 0).val = 5000 * t.val + (y 0).val; rw [hi.1]; omega
  | ⟨1, _⟩ => show win10_2.index t 1 * 1 + 1 * (y 1).val = (y 1).val; rw [hi.2]; omega

/-! ## The running total is the chain -/

theorem acc10_eq_tot (c : Dev nD) : ∀ (n : ℕ) (hn : n < cfg10.N),
    acc10 V c n hn = tot10 (hArr10 V c) (sArr10 V c) (wArr10 V c) n (lt_of_lt_of_eq hn (show cfg10.N = 10 from N_10))
  | 0, hn => by
    refine (acc10_at_first V c ⟨0, hn⟩ rfl).trans ?_
    unfold acc10_first
    rw [first_stores10, blk10_0_rows, blk10_1_rows, blk10_2_rows]
    rfl
  | n + 1, hn => by
    by_cases h9 : n + 1 = 9
    · refine (acc10_at_last V c ⟨n + 1, hn⟩ h9).trans ?_
      unfold acc10_last
      rw [last_stores_acc10, blk10_0_rows, blk10_1_rows, blk10_2_rows]
      show k10_pay2 _ _ _ (acc10 V c n _) = _
      rw [acc10_eq_tot c n (Nat.lt_of_succ_lt hn)]
      rfl
    · refine (acc10_at_mid V c ⟨n + 1, hn⟩ (Nat.succ_ne_zero n) h9).trans ?_
      unfold acc10_mid
      rw [mid_stores10, blk10_0_rows, blk10_1_rows, blk10_2_rows]
      show k10_pay2 _ _ _ (acc10 V c n _) = _
      rw [acc10_eq_tot c n (Nat.lt_of_succ_lt hn)]
      rfl

/-- At the last tile the output block receives the accumulator's final value. -/
theorem out10_at_last (c : Dev nD) (t : Fin cfg10.N) (h9 : t.val = 9) : out10 V c t = acc10 V c t.val t.isLt := by
  unfold out10
  rw [dif_pos h9, acc10_at_last V c t h9]
  unfold out10_last acc10_last
  rw [last_stores_out10, last_stores_acc10]

/-! ## The write-back and the array after the run -/

/-- The one write-back, at the last tile, writes the result: the window's block there is the whole one-cell array. -/
theorem flushed10_3 (c : Dev nD) (t : Fin cfg10.N) (hf : (cfg10.win 3).flush t = true) :
    (dat10 V c).flushed 3 t = ((cfg10.win 3).blk t).view.read (Elt F) (G10_3 (hArr10 V c) (sArr10 V c) (wArr10 V c)) := by
  have hN : cfg10.N = 10 := N_10
  have h9 : t.val = 9 := by have := (flush10_3 t).mp hf; have := t.isLt; omega
  show (cfg10.win 3).cut (grid10.coords t) ((dat10 V c).after 3 t) = _
  rw [after10_3, out10_at_last V c t h9, acc10_eq_tot V c t.val t.isLt]
  obtain rfl : t = t10_9 := Fin.ext h9
  have hz' : (fun a => win10_3.index t10_9 a * (Pipeline.arrRef spec10 3).ty.shape.size a) = fun _ => 0 :=
    funext fun a => by fin_cases a <;> decide
  exact (Memref.read_access_unit_zero (Elt F) (Pipeline.arrRef spec10 3) hz' (fun a => by rw [congrFun hz' a]; simp)
    (G10_3 (hArr10 V c) (sArr10 V c) (wArr10 V c))).symm

/-- THE VALUE: after the run the result array holds `G10_3` of the three input arrays as the region found them. -/
theorem final10_3 (c : Dev nD) :
    (dat10 V c).arrAt 3 cfg10.N = G10_3 (hArr10 V c) (sArr10 V c) (wArr10 V c) :=
  (dat10 V c).arrAt_eq_of_cover 3 (G10_3 (hArr10 V c) (sArr10 V c) (wArr10 V c)) (flushed10_3 V c) fun i =>
    ⟨t10_9, (flush10_3 t10_9).mpr rfl, by
      -- the array has one cell, at coordinates (0, 0); the last point's block starts at (0, 0) and has extent (1, 1)
      show i ∈ ((View.whole (Pipeline.arrRef spec10 3)).slice (win10_3.rect t10_9)).set
      rw [View.set_slice_whole, Rect.mem_set_unit]
      intro a
      have hlt : (i a : Nat) < 1 := by fin_cases a <;> exact (i _).isLt
      have hoff : win10_3.index t10_9 a * win10_3.size a = 0 := by fin_cases a <;> decide
      have hext : win10_3.xsize (grid10.coords t10_9) a = 1 := by fin_cases a <;> decide
      show win10_3.index t10_9 a * win10_3.size a ≤ (i a : Nat)
        ∧ (i a : Nat) < win10_3.index t10_9 a * win10_3.size a + win10_3.xsize (grid10.coords t10_9) a
      rw [hoff, hext]; omega⟩

end Cert.KernelIdeal.Hand

end
-- ==== Proof.KI.Reg10.lean ====
/-
  Region 10 (custom call 10): the body's runs per control case, the proof data with its invariant and body
  obligation, and the value of the result array — one import for the three modules.
-/
import proofs.«160050_j32744830665390_2_alg».proof.Proof.KI.Reg10.Frame
import proofs.«160050_j32744830665390_2_alg».proof.Proof.KI.Reg10.Value
-- ==== Proof.KI.Reg11.lean ====
/-
  Region 11 of the kernel program: the MLP head. One grid point; five input windows, each its whole array
  (the pooled means g : 128×128, the first weight w₁ : 128×64, the first bias b₁ : 1×64, the second weight
  w₂ : 64×2, the second bias b₂ : 1×2) and one output window, the whole 128×2 result.

  The body loads the five inputs whole, forms  relu(g·w₁ + b₁)·w₂ + b₂  (both products with bf16 operands and an
  f32 accumulator started at zero) and stores it over the whole output buffer: what the output buffer holds after
  the body is that payload of the five blocks, and, the only point's write-back covering the array, that is also
  what the output array holds after the region — one function of the five input arrays as the region finds them.
-/
import proofs.«160050_j32744830665390_2_alg».proof.Proof.KI.Iface
import Idealize.ShloMosaic.Lib.Pipeline.Value

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : Entry F)
/-! ## The windows' blocks -/

/-- Window `w`'s block at the point, read off its array as the region finds it. -/
def iblk11 (c : Dev nD) (w : Fin cfg11.W) (t : Fin cfg11.N) :
    ((cfg11.win w).xblock (cfg11.grid.coords t)).Idx → Elt F (cfg11.win w).elt :=
  ((cfg11.win w).blk t).view.read (Elt F) (V c (Pipeline.arrRef spec11 w))

/-! ## The body's rectangles: every load and the one store take a whole buffer -/

abbrev rG11 : Rect S128x128 := Rect.unit (s := S128x128) ![0, 0] S128x128.size inb_S128x128_S128x128_0_0
abbrev rW1_11 : Rect S128x64 := Rect.unit (s := S128x64) ![0, 0] S128x64.size inb_S128x64_S128x64_0_0
abbrev rB1_11 : Rect S1x64 := Rect.unit (s := S1x64) ![0, 0] S1x64.size inb_S1x64_S1x64_0_0
abbrev rW2_11 : Rect S64x2 := Rect.unit (s := S64x2) ![0, 0] S64x2.size inb_S64x2_S64x2_0_0
abbrev rB2_11 : Rect S1x2 := Rect.unit (s := S1x2) ![0, 0] S1x2.size inb_S1x2_S1x2_0_0
abbrev rOut11 : Rect S128x2 := Rect.unit (s := S128x2) ![0, 0] S128x2.size inb_S128x2_S128x2_0_0

/-! ## What the body leaves in the output window's buffer -/

/-- The output buffer after the body, from the five input blocks: its one store, of the head's payload of the
    five loads, as a piece. -/
def out11_5 (g : Vec F S128x128 .f32) (w1 : Vec F S128x64 .f32) (b1 : Vec F S1x64 .f32) (w2 : Vec F S64x2 .f32)
    (b2 : Vec F S1x2 .f32) : Vec F S128x2 .f32 :=
  View.canon [⟨rOut11, k11_pay1 (View.ld g rG11) (View.ld w1 rW1_11) (View.ld b1 rB1_11) (View.ld w2 rW2_11) (View.ld b2 rB2_11)⟩]

/-- Both offsets of every rectangle of the body are zero. -/
theorem zeros11 : (![0, 0] : Fin 2 → Nat) = fun _ => 0 := funext fun a => by fin_cases a <;> rfl

/-- The store's rectangle is the whole 128×2 buffer, so it covers it. -/
theorem cover11_5 (p : Vec F S128x2 .f32) (y : S128x2.Idx) :
    ∃ pc ∈ ([⟨rOut11, p⟩] : List (View.Piece (Elt F) S128x2 .f32)), y ∈ pc.1.set :=
  ⟨⟨rOut11, p⟩, List.mem_singleton_self _, View.mem_set_unit_zero zeros11 inb_S128x2_S128x2_0_0 y⟩

/-! ## The body's triple -/

set_option maxHeartbeats 1000000 in
/-- The head's body on whole staging memrefs — the five inputs' at read contents `g`, `w1`, `b1`, `w2`, `b2`, the
    output's at anything — runs to the continuation holding the inputs' as they were and the output's at
    `out11_5` of them: the printed function is its skeleton of six loads and one store, which the executor runs;
    the load of the output buffer before the store reads whatever it held and its value is dropped. -/
theorem sound_kernel11 (c : Dev nD) (E : Set ℕ) (i : grid11.Coords)
    (arg1 : Memref sig .tc .vmem S128x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S64x2 .f32) (harg4 : arg4.IsWhole)
    (arg5 : Memref sig .tc .vmem S1x2 .f32) (harg5 : arg5.IsWhole) (arg6 : Memref sig .tc .vmem S128x2 .f32) (harg6 : arg6.IsWhole)
    (g : Vec F S128x128 .f32) (w1 : Vec F S128x64 .f32) (b1 : Vec F S1x64 .f32) (w2 : Vec F S64x2 .f32) (b2 : Vec F S1x2 .f32)
    (K : PUnit → sProp 𝕄) :
    iprop(owns (c : Thread nD τ) arg1 fullShare g ∗ owns (c : Thread nD τ) arg2 fullShare w1
        ∗ owns (c : Thread nD τ) arg3 fullShare b1 ∗ owns (c : Thread nD τ) arg4 fullShare w2
        ∗ owns (c : Thread nD τ) arg5 fullShare b2 ∗ (∃ d, owns (c : Thread nD τ) arg6 fullShare d)
        ∗ (iprop(owns (c : Thread nD τ) arg1 fullShare g ∗ owns (c : Thread nD τ) arg2 fullShare w1
            ∗ owns (c : Thread nD τ) arg3 fullShare b1 ∗ owns (c : Thread nD τ) arg4 fullShare w2
            ∗ owns (c : Thread nD τ) arg5 fullShare b2
            ∗ owns (c : Thread nD τ) arg6 fullShare (out11_5 g w1 b1 w2 b2)) -∗ K ⟨⟩))
      ⊢ wp frame (wpE (defs₀ (F := F)) Variants.none c none) E
          (cc11_mlp_head_kernel i arg1 harg1 arg2 harg2 arg3 harg3 arg4 harg4 arg5 harg5 arg6 harg6) K := by
  sl_unfold [cc11_mlp_head_kernel]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover11_5 _)

/-! ## The pipeline's proof data -/

/-- The proof data of pipeline 11 on core `c`: the six arrays as the region finds them; after the body at the
    point each input's buffer still at its block and the output's at `out11_5` of the five blocks; the invariant
    the scoped rest and the generator register, which the body neither reads nor writes; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11_5 (iblk11 V c 0 t) (iblk11 V c 1 t) (iblk11 V c 2 t) (iblk11 V c 3 t) (iblk11 V c 4 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) :
    (dat11 V c).after 5 t = out11_5 (iblk11 V c 0 t) (iblk11 V c 1 t) (iblk11 V c 2 t) (iblk11 V c 3 t) (iblk11 V c 4 t) := by
  dsimp only [dat11]

/-- Each input window is fetched at the point, so its staging buffer holds the fetched block: the whole array's
    block, the window being uncut. -/
theorem before11_0 (c : Dev nD) (t : Fin cfg11.N) (d) : (dat11 V c).before 0 t d = iblk11 V c 0 t :=
  ((dat11 V c).before_fetched 0 t (fetch11_0 t) d).trans (by unfold Dat.fetched Dat.blockOf iblk11; rw [A_eq11]; rfl)
theorem before11_1 (c : Dev nD) (t : Fin cfg11.N) (d) : (dat11 V c).before 1 t d = iblk11 V c 1 t :=
  ((dat11 V c).before_fetched 1 t (fetch11_1 t) d).trans (by unfold Dat.fetched Dat.blockOf iblk11; rw [A_eq11]; rfl)
theorem before11_2 (c : Dev nD) (t : Fin cfg11.N) (d) : (dat11 V c).before 2 t d = iblk11 V c 2 t :=
  ((dat11 V c).before_fetched 2 t (fetch11_2 t) d).trans (by unfold Dat.fetched Dat.blockOf iblk11; rw [A_eq11]; rfl)
theorem before11_3 (c : Dev nD) (t : Fin cfg11.N) (d) : (dat11 V c).before 3 t d = iblk11 V c 3 t :=
  ((dat11 V c).before_fetched 3 t (fetch11_3 t) d).trans (by unfold Dat.fetched Dat.blockOf iblk11; rw [A_eq11]; rfl)
theorem before11_4 (c : Dev nD) (t : Fin cfg11.N) (d) : (dat11 V c).before 4 t d = iblk11 V c 4 t :=
  ((dat11 V c).before_fetched 4 t (fetch11_4 t) d).trans (by unfold Dat.fetched Dat.blockOf iblk11; rw [A_eq11]; rfl)

/-! ## The body obligation -/

/-- What the body is called with at the point: the invariant, the core's debts, and the six current staging
    buffers at what they then hold, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

/-- and what it returns: the same, the buffers at what the body leaves. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

/-- The body at the point: the five inputs' buffers hold their blocks (`before11_W`), the output's anything, so the
    triple applies; the invariant and the debts pass through untouched. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel11 c Set.univ _ _ _ _ _ _ _ _ _ _ _ _ _ (iblk11 V c 0 t) (iblk11 V c 1 t) (iblk11 V c 2 t)
    (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation. -/
theorem body_obligation11 (c : Dev nD) :
    BodyObligation (dat11 (F := F) V c) (defs₀ (F := F)) Variants.none () Set.univ := fun t => by
  rw [bigSep_W11, bigSep_W11]
  exact sound_body11 V c t

/-- The data's shares and debts, projected. -/
theorem q_eq11 (c : Dev nD) (w : Fin cfg11.W) : (dat11 V c).q w = fullShare := by dsimp only [dat11]
theorem owed_eq11 (c : Dev nD) (t : Fin (cfg11.N + 1)) : (dat11 V c).owed t = 0 := by dsimp only [dat11]

/-- The invariant is the class's at every point: what the region hands the kernel is it, and it is what comes back. -/
theorem Phi_in11 (c : Dev nD) :
    (Pipeline.ΦA (U := UR sig nD τ) (Val := Elt F) spec11 c : sProp 𝕄) ⊢ (dat11 V c).Φ 0 := .rfl
theorem Phi_out11 (c : Dev nD) :
    (dat11 V c).Φ (Fin.last cfg11.N) ⊢ (Pipeline.ΦA (U := UR sig nD τ) (Val := Elt F) spec11 c : sProp 𝕄) := .rfl

/-! ## The output array after the region, as one function of the five input arrays

Every window of this region is its whole array, at block index zero on both axes: a block read through a window is
the array itself, the one write-back covers the output array, and what it writes is the head's payload of the five
arrays. -/

/-- The head  relu(g·w₁ + b₁)·w₂ + b₂  of whole arrays, index by index: the body's payload at the arrays. -/
def G11_5 (g : S128x128.Idx → Elt F .f32) (w1 : S128x64.Idx → Elt F .f32) (b1 : S1x64.Idx → Elt F .f32)
    (w2 : S64x2.Idx → Elt F .f32) (b2 : S1x2.Idx → Elt F .f32) : S128x2.Idx → Elt F .f32 :=
  fun i => k11_pay1 g w1 b1 w2 b2 i

/-- The block indices, decided over the one point: zero on both axes of every window. -/
theorem idx_zero11 : ∀ t : Fin cfg11.N,
    (win11_0.index t (0 : Fin 2) = 0 ∧ win11_0.index t (1 : Fin 2) = 0)
    ∧ (win11_1.index t (0 : Fin 2) = 0 ∧ win11_1.index t (1 : Fin 2) = 0)
    ∧ (win11_2.index t (0 : Fin 2) = 0 ∧ win11_2.index t (1 : Fin 2) = 0)
    ∧ (win11_3.index t (0 : Fin 2) = 0 ∧ win11_3.index t (1 : Fin 2) = 0)
    ∧ (win11_4.index t (0 : Fin 2) = 0 ∧ win11_4.index t (1 : Fin 2) = 0)
    ∧ (win11_5.index t (0 : Fin 2) = 0 ∧ win11_5.index t (1 : Fin 2) = 0) :=
  (by decide +kernel : ∀ t : Fin grid11.N, _)

/-- So each input window's block is its array. -/
theorem iblk11_0 (c : Dev nD) (t : Fin cfg11.N) : iblk11 V c 0 t = V c main_v267 := by
  obtain ⟨⟨e0, e1⟩, -⟩ := idx_zero11 t
  funext j
  have h : ((cfg11.win 0).blk t).view.emb j = j := by
    funext a; apply Fin.ext
    match a with
    | ⟨0, _⟩ => show win11_0.index t (0 : Fin 2) * 128 + 1 * (j 0).val = (j 0).val; omega
    | ⟨1, _⟩ => show win11_0.index t (1 : Fin 2) * 128 + 1 * (j 1).val = (j 1).val; omega
  exact congrArg (V c main_v267) h
theorem iblk11_1 (c : Dev nD) (t : Fin cfg11.N) : iblk11 V c 1 t = V c main_arg9 := by
  obtain ⟨-, ⟨e0, e1⟩, -⟩ := idx_zero11 t
  funext j
  have h : ((cfg11.win 1).blk t).view.emb j = j := by
    funext a; apply Fin.ext
    match a with
    | ⟨0, _⟩ => show win11_1.index t (0 : Fin 2) * 128 + 1 * (j 0).val = (j 0).val; omega
    | ⟨1, _⟩ => show win11_1.index t (1 : Fin 2) * 64 + 1 * (j 1).val = (j 1).val; omega
  exact congrArg (V c main_arg9) h
theorem iblk11_2 (c : Dev nD) (t : Fin cfg11.N) : iblk11 V c 2 t = V c main_v268 := by
  obtain ⟨-, -, ⟨e0, e1⟩, -⟩ := idx_zero11 t
  funext j
  have h : ((cfg11.win 2).blk t).view.emb j = j := by
    funext a; apply Fin.ext
    match a with
    | ⟨0, _⟩ => show win11_2.index t (0 : Fin 2) * 1 + 1 * (j 0).val = (j 0).val; omega
    | ⟨1, _⟩ => show win11_2.index t (1 : Fin 2) * 64 + 1 * (j 1).val = (j 1).val; omega
  exact congrArg (V c main_v268) h
theorem iblk11_3 (c : Dev nD) (t : Fin cfg11.N) : iblk11 V c 3 t = V c main_arg11 := by
  obtain ⟨-, -, -, ⟨e0, e1⟩, -⟩ := idx_zero11 t
  funext j
  have h : ((cfg11.win 3).blk t).view.emb j = j := by
    funext a; apply Fin.ext
    match a with
    | ⟨0, _⟩ => show win11_3.index t (0 : Fin 2) * 64 + 1 * (j 0).val = (j 0).val; omega
    | ⟨1, _⟩ => show win11_3.index t (1 : Fin 2) * 2 + 1 * (j 1).val = (j 1).val; omega
  exact congrArg (V c main_arg11) h
theorem iblk11_4 (c : Dev nD) (t : Fin cfg11.N) : iblk11 V c 4 t = V c main_v269 := by
  obtain ⟨-, -, -, -, ⟨e0, e1⟩, -⟩ := idx_zero11 t
  funext j
  have h : ((cfg11.win 4).blk t).view.emb j = j := by
    funext a; apply Fin.ext
    match a with
    | ⟨0, _⟩ => show win11_4.index t (0 : Fin 2) * 1 + 1 * (j 0).val = (j 0).val; omega
    | ⟨1, _⟩ => show win11_4.index t (1 : Fin 2) * 2 + 1 * (j 1).val = (j 1).val; omega
  exact congrArg (V c main_v269) h

/-- What the point writes back is the output window's block of `G11_5` of the five arrays. -/
theorem flushed11_5_eq (c : Dev nD) (t : Fin cfg11.N) :
    (dat11 V c).flushed 5 t = ((cfg11.win 5).blk t).view.read (Elt F)
      (G11_5 (V c main_v267) (V c main_arg9) (V c main_v268) (V c main_arg11) (V c main_v269)) := by
  show (cfg11.win 5).cut (grid11.coords t) ((dat11 V c).after 5 t) = _
  rw [after11_5]
  unfold out11_5
  rw [View.canon_unit_zero zeros11]
  simp only [View.ld_unit_zero (S := S128x128) zeros11, View.ld_unit_zero (S := S128x64) zeros11,
    View.ld_unit_zero (S := S1x64) zeros11, View.ld_unit_zero (S := S64x2) zeros11, View.ld_unit_zero (S := S1x2) zeros11]
  rw [iblk11_0, iblk11_1, iblk11_2, iblk11_3, iblk11_4]
  obtain ⟨-, -, -, -, -, e0, e1⟩ := idx_zero11 t
  funext j
  have h : (cfg11.win 5).xinj (grid11.coords t) j = ((cfg11.win 5).blk t).view.emb j := by
    funext a; apply Fin.ext
    match a with
    | ⟨0, _⟩ => show (j 0).val = win11_5.index t (0 : Fin 2) * 128 + 1 * (j 0).val; omega
    | ⟨1, _⟩ => show (j 1).val = win11_5.index t (1 : Fin 2) * 2 + 1 * (j 1).val; omega
  exact congrArg (k11_pay1 (V c main_v267) (V c main_arg9) (V c main_v268) (V c main_arg11) (V c main_v269)) h

/-- An index of the output array is in the point's block iff each coordinate is in the block's range. -/
theorem mem_blk11_5 (t : Fin cfg11.N) (i : S128x2.Idx) :
    i ∈ ((cfg11.win 5).blk t).view.set ↔ ∀ a : Fin 2, win11_5.index t a * S128x2.size a ≤ (i a).val
      ∧ (i a).val < win11_5.index t a * S128x2.size a + S128x2.size a := by
  show i ∈ ((View.whole main_v270).slice (win11_5.rect t)).set ↔ _
  rw [View.set_slice_whole, Rect.mem_set_unit]
  exact Iff.rfl

/-- The one point's block is the whole output array. -/
theorem cover11_5_arr (i : S128x2.Idx) :
    ∃ t : Fin cfg11.N, (cfg11.win 5).flush t = true ∧ i ∈ ((cfg11.win 5).blk t).view.set := by
  refine ⟨t11_0, flush11_5 t11_0, ?_⟩
  obtain ⟨-, -, -, -, -, e0, e1⟩ := idx_zero11 t11_0
  rw [mem_blk11_5]
  intro a
  match a with
  | ⟨0, _⟩ =>
    show win11_5.index t11_0 (0 : Fin 2) * 128 ≤ (i 0).val ∧ (i 0).val < win11_5.index t11_0 (0 : Fin 2) * 128 + 128
    have hi : (i 0).val < 128 := (i 0).isLt
    omega
  | ⟨1, _⟩ =>
    show win11_5.index t11_0 (1 : Fin 2) * 2 ≤ (i 1).val ∧ (i 1).val < win11_5.index t11_0 (1 : Fin 2) * 2 + 2
    have hi : (i 1).val < 2 := (i 1).isLt
    omega

/-- THE OUTPUT ARRAY after the region: `G11_5` of the five input arrays as the region finds them. -/
theorem final11_5 (c : Dev nD) :
    (dat11 V c).arrAt 5 cfg11.N = G11_5 (V c main_v267) (V c main_arg9) (V c main_v268) (V c main_arg11) (V c main_v269) :=
  (dat11 V c).arrAt_eq_of_cover 5 _ (fun t _ => flushed11_5_eq V c t) cover11_5_arr

end Cert.KernelIdeal.Hand

end
-- ==== Proof.KI.Fold.lean ====
/-
  The contents of the TensorCore's unscoped buffers after each of the kernel program's twenty-six segments, as a
  fold from the launch memory: a host stretch applies its operations, a region overwrites its output arrays with
  what its pipeline's write-backs leave.
-/
import proofs.«160050_j32744830665390_2_alg».proof.Proof.KI.Iface
import proofs.«160050_j32744830665390_2_alg».proof.Proof.Gen.KernelIdeal.Regions
import proofs.«160050_j32744830665390_2_alg».proof.Proof.KI.Reg0
import proofs.«160050_j32744830665390_2_alg».proof.Proof.KI.Reg1
import proofs.«160050_j32744830665390_2_alg».proof.Proof.KI.Reg2
import proofs.«160050_j32744830665390_2_alg».proof.Proof.KI.Reg3
import proofs.«160050_j32744830665390_2_alg».proof.Proof.KI.Reg4
import proofs.«160050_j32744830665390_2_alg».proof.Proof.KI.Reg5
import proofs.«160050_j32744830665390_2_alg».proof.Proof.KI.Reg6
import proofs.«160050_j32744830665390_2_alg».proof.Proof.KI.Reg7
import proofs.«160050_j32744830665390_2_alg».proof.Proof.KI.Reg8
import proofs.«160050_j32744830665390_2_alg».proof.Proof.KI.Reg9
import proofs.«160050_j32744830665390_2_alg».proof.Proof.KI.Reg10
import proofs.«160050_j32744830665390_2_alg».proof.Proof.KI.Reg11

-- memberships decided over the program's references recurse past the default depth
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! # The contents of the unscoped buffers between the segments

The program alternates stretches of host operations and regions, twenty-six segments in all. The generated module
of the run names the valuation after each segment (`Gen.V0` … `Gen.V26`) over an UNKNOWN family `outs`: what each
region leaves in its output arrays. Here the unknown is solved, segment by segment: a region's output array ends at
what its pipeline's write-backs fold to (`Dat.arrAt` at the last point) from the contents the region was entered
with, and those are the valuation before it. -/

/-- Two distinct TensorCore references are distinct device buffers. -/
theorem dne {r r' : Ref sig .tc} (h : r ≠ r') : (Proc.devRef .tc r : DevRef τ sig) ≠ Proc.devRef .tc r' :=
  StableHlo.devRef_ne_of_ne h

/-- A reference that is no array of a region's windows is none of the region's output arrays. -/
theorem not_mem_outs {gr W : ℕ} (spec : Fin W → Pipeline.WinSpec sig gr) {b : Ref sig .tc}
    (hb : b ∉ Finset.univ.image (Pipeline.arrRef spec)) (l : List (Ref sig .tc))
    (hl : ∀ r ∈ l, ∃ w, Pipeline.arrRef spec w = r) : b ∉ l :=
  fun h => let ⟨w, hw⟩ := hl b h; hb (Finset.mem_image.mpr ⟨w, Finset.mem_univ _, hw⟩)

/-! ## Region 0 (the embedding): entered after the first three host stretches, it writes `main_v39` -/

/-- Region 0's entry contents: the launch memory after the first three host stretches. -/
abbrev En0 : Entry F := fun c b => V3 m c b
/-- What region 0 leaves in `main_v39`. -/
def X0 (c : Dev nD) : Buf (Elt F) ((c : Thread nD τ).loc main_v39) := (dat0 (En0 m) c).arrAt 5 cfg0.N
def W4 (c : Dev nD) : Valuation τ sig (Elt F) := Function.update (V3 m c) main_v39 (X0 m c)
theorem W4_v39 (c : Dev nD) : W4 m c main_v39 = X0 m c := by unfold W4; exact Function.update_self ..
def W5 (c : Dev nD) : Valuation τ sig (Elt F) := StableHlo.after hostOps1 (W4 m c)

/-! ## Region 1 (first Chebyshev layer, affine part): it writes `main_v75_0`, `main_v75_1`, `main_v75_2` -/

abbrev En1 : Entry F := fun c b => W5 m c b
def X1_7 (c : Dev nD) : Buf (Elt F) ((c : Thread nD τ).loc main_v75_0) := (dat1 (En1 m) c).arrAt 7 cfg1.N
def X1_8 (c : Dev nD) : Buf (Elt F) ((c : Thread nD τ).loc main_v75_1) := (dat1 (En1 m) c).arrAt 8 cfg1.N
def X1_9 (c : Dev nD) : Buf (Elt F) ((c : Thread nD τ).loc main_v75_2) := (dat1 (En1 m) c).arrAt 9 cfg1.N
def W6 (c : Dev nD) : Valuation τ sig (Elt F) :=
  Function.update (Function.update (Function.update (W5 m c) main_v75_0 (X1_7 m c)) main_v75_1 (X1_8 m c)) main_v75_2 (X1_9 m c)
theorem W6_v75_0 (c : Dev nD) : W6 m c main_v75_0 = X1_7 m c := by
  unfold W6
  rw [Function.update_of_ne (dne (by decide : main_v75_0 ≠ main_v75_2)), Function.update_of_ne (dne (by decide : main_v75_0 ≠ main_v75_1)), Function.update_self]
theorem W6_v75_1 (c : Dev nD) : W6 m c main_v75_1 = X1_8 m c := by
  unfold W6
  rw [Function.update_of_ne (dne (by decide : main_v75_1 ≠ main_v75_2)), Function.update_self]
theorem W6_v75_2 (c : Dev nD) : W6 m c main_v75_2 = X1_9 m c := by unfold W6; exact Function.update_self ..
def W7 (c : Dev nD) : Valuation τ sig (Elt F) := StableHlo.after hostOps2 (W6 m c)

/-! ## Region 2 (first layer, normalisation and rectifier): it writes `main_v92` -/

abbrev En2 : Entry F := fun c b => W7 m c b
def X2 (c : Dev nD) : Buf (Elt F) ((c : Thread nD τ).loc main_v92) := (dat2 (En2 m) c).arrAt 5 cfg2.N
def W8 (c : Dev nD) : Valuation τ sig (Elt F) := Function.update (W7 m c) main_v92 (X2 m c)
theorem W8_v92 (c : Dev nD) : W8 m c main_v92 = X2 m c := by unfold W8; exact Function.update_self ..
def W9 (c : Dev nD) : Valuation τ sig (Elt F) := StableHlo.after hostOps3 (W8 m c)

/-! ## Region 3 (second layer, affine part): it writes `main_v128_0`, `main_v128_1`, `main_v128_2` -/

abbrev En3 : Entry F := fun c b => W9 m c b
def X3_7 (c : Dev nD) : Buf (Elt F) ((c : Thread nD τ).loc main_v128_0) := (dat3 (En3 m) c).arrAt 7 cfg3.N
def X3_8 (c : Dev nD) : Buf (Elt F) ((c : Thread nD τ).loc main_v128_1) := (dat3 (En3 m) c).arrAt 8 cfg3.N
def X3_9 (c : Dev nD) : Buf (Elt F) ((c : Thread nD τ).loc main_v128_2) := (dat3 (En3 m) c).arrAt 9 cfg3.N
def W10 (c : Dev nD) : Valuation τ sig (Elt F) :=
  Function.update (Function.update (Function.update (W9 m c) main_v128_0 (X3_7 m c)) main_v128_1 (X3_8 m c)) main_v128_2 (X3_9 m c)
theorem W10_v128_0 (c : Dev nD) : W10 m c main_v128_0 = X3_7 m c := by
  unfold W10
  rw [Function.update_of_ne (dne (by decide : main_v128_0 ≠ main_v128_2)), Function.update_of_ne (dne (by decide : main_v128_0 ≠ main_v128_1)), Function.update_self]
theorem W10_v128_1 (c : Dev nD) : W10 m c main_v128_1 = X3_8 m c := by
  unfold W10
  rw [Function.update_of_ne (dne (by decide : main_v128_1 ≠ main_v128_2)), Function.update_self]
theorem W10_v128_2 (c : Dev nD) : W10 m c main_v128_2 = X3_9 m c := by unfold W10; exact Function.update_self ..
def W11 (c : Dev nD) : Valuation τ sig (Elt F) := StableHlo.after hostOps4 (W10 m c)

/-! ## Region 4 (second layer, normalisation and rectifier): it writes `main_v145` -/

abbrev En4 : Entry F := fun c b => W11 m c b
def X4 (c : Dev nD) : Buf (Elt F) ((c : Thread nD τ).loc main_v145) := (dat4 (En4 m) c).arrAt 5 cfg4.N
def W12 (c : Dev nD) : Valuation τ sig (Elt F) := Function.update (W11 m c) main_v145 (X4 m c)
theorem W12_v145 (c : Dev nD) : W12 m c main_v145 = X4 m c := by unfold W12; exact Function.update_self ..
def W13 (c : Dev nD) : Valuation τ sig (Elt F) := StableHlo.after hostOps5 (W12 m c)

/-! ## Region 5 (third layer, affine part): it writes `main_v181_0`, `main_v181_1`, `main_v181_2` -/

abbrev En5 : Entry F := fun c b => W13 m c b
def X5_7 (c : Dev nD) : Buf (Elt F) ((c : Thread nD τ).loc main_v181_0) := (dat5 (En5 m) c).arrAt 7 cfg5.N
def X5_8 (c : Dev nD) : Buf (Elt F) ((c : Thread nD τ).loc main_v181_1) := (dat5 (En5 m) c).arrAt 8 cfg5.N
def X5_9 (c : Dev nD) : Buf (Elt F) ((c : Thread nD τ).loc main_v181_2) := (dat5 (En5 m) c).arrAt 9 cfg5.N
def W14 (c : Dev nD) : Valuation τ sig (Elt F) :=
  Function.update (Function.update (Function.update (W13 m c) main_v181_0 (X5_7 m c)) main_v181_1 (X5_8 m c)) main_v181_2 (X5_9 m c)
theorem W14_v181_0 (c : Dev nD) : W14 m c main_v181_0 = X5_7 m c := by
  unfold W14
  rw [Function.update_of_ne (dne (by decide : main_v181_0 ≠ main_v181_2)), Function.update_of_ne (dne (by decide : main_v181_0 ≠ main_v181_1)), Function.update_self]
theorem W14_v181_1 (c : Dev nD) : W14 m c main_v181_1 = X5_8 m c := by
  unfold W14
  rw [Function.update_of_ne (dne (by decide : main_v181_1 ≠ main_v181_2)), Function.update_self]
theorem W14_v181_2 (c : Dev nD) : W14 m c main_v181_2 = X5_9 m c := by unfold W14; exact Function.update_self ..
def W15 (c : Dev nD) : Valuation τ sig (Elt F) := StableHlo.after hostOps6 (W14 m c)

/-! ## Region 6 (third layer, normalisation and rectifier): it writes `main_v198` -/

abbrev En6 : Entry F := fun c b => W15 m c b
def X6 (c : Dev nD) : Buf (Elt F) ((c : Thread nD τ).loc main_v198) := (dat6 (En6 m) c).arrAt 5 cfg6.N
def W16 (c : Dev nD) : Valuation τ sig (Elt F) := Function.update (W15 m c) main_v198 (X6 m c)
theorem W16_v198 (c : Dev nD) : W16 m c main_v198 = X6 m c := by unfold W16; exact Function.update_self ..
def W17 (c : Dev nD) : Valuation τ sig (Elt F) := StableHlo.after hostOps7 (W16 m c)

/-! ## Regions 7 to 10 (the smoothness term of each of the four hidden states): each writes one scalar -/

abbrev En7 : Entry F := fun c b => W17 m c b
def X7 (c : Dev nD) : Buf (Elt F) ((c : Thread nD τ).loc main_v209) := (dat7 (En7 m) c).arrAt 3 cfg7.N
def W18 (c : Dev nD) : Valuation τ sig (Elt F) := Function.update (W17 m c) main_v209 (X7 m c)
theorem W18_v209 (c : Dev nD) : W18 m c main_v209 = X7 m c := by unfold W18; exact Function.update_self ..
def W19 (c : Dev nD) : Valuation τ sig (Elt F) := StableHlo.after hostOps8 (W18 m c)

abbrev En8 : Entry F := fun c b => W19 m c b
def X8 (c : Dev nD) : Buf (Elt F) ((c : Thread nD τ).loc main_v223) := (dat8 (En8 m) c).arrAt 3 cfg8.N
def W20 (c : Dev nD) : Valuation τ sig (Elt F) := Function.update (W19 m c) main_v223 (X8 m c)
theorem W20_v223 (c : Dev nD) : W20 m c main_v223 = X8 m c := by unfold W20; exact Function.update_self ..
def W21 (c : Dev nD) : Valuation τ sig (Elt F) := StableHlo.after hostOps9 (W20 m c)

abbrev En9 : Entry F := fun c b => W21 m c b
def X9 (c : Dev nD) : Buf (Elt F) ((c : Thread nD τ).loc main_v237) := (dat9 (En9 m) c).arrAt 3 cfg9.N
def W22 (c : Dev nD) : Valuation τ sig (Elt F) := Function.update (W21 m c) main_v237 (X9 m c)
theorem W22_v237 (c : Dev nD) : W22 m c main_v237 = X9 m c := by unfold W22; exact Function.update_self ..
def W23 (c : Dev nD) : Valuation τ sig (Elt F) := StableHlo.after hostOps10 (W22 m c)

abbrev En10 : Entry F := fun c b => W23 m c b
def X10 (c : Dev nD) : Buf (Elt F) ((c : Thread nD τ).loc main_v251) := (dat10 (En10 m) c).arrAt 3 cfg10.N
def W24 (c : Dev nD) : Valuation τ sig (Elt F) := Function.update (W23 m c) main_v251 (X10 m c)
theorem W24_v251 (c : Dev nD) : W24 m c main_v251 = X10 m c := by unfold W24; exact Function.update_self ..
def W25 (c : Dev nD) : Valuation τ sig (Elt F) := StableHlo.after hostOps11 (W24 m c)

/-! ## Region 11 (the head): it writes the logits `main_v270` -/

abbrev En11 : Entry F := fun c b => W25 m c b
def X11 (c : Dev nD) : Buf (Elt F) ((c : Thread nD τ).loc main_v270) := (dat11 (En11 m) c).arrAt 5 cfg11.N
def W26 (c : Dev nD) : Valuation τ sig (Elt F) := Function.update (W25 m c) main_v270 (X11 m c)
theorem W26_v270 (c : Dev nD) : W26 m c main_v270 = X11 m c := by unfold W26; exact Function.update_self ..

/-! ## The unknown solved

What each region leaves in a reference after item J-1 is the valuation after that item, read there. -/

/-- The contents the regions leave: the generated run's unknown, instantiated. -/
def outs : Outs (F := F) := fun J r c =>
  match J with
  | 4 => W4 m c r
  | 6 => W6 m c r
  | 8 => W8 m c r
  | 10 => W10 m c r
  | 12 => W12 m c r
  | 14 => W14 m c r
  | 16 => W16 m c r
  | 18 => W18 m c r
  | 20 => W20 m c r
  | 22 => W22 m c r
  | 24 => W24 m c r
  | 26 => W26 m c r
  | _ => V3 m c r

/-! With it, the generated valuations are the ones above: a region's updates write back what was read off them. -/

theorem V4_eq (c : Dev nD) : V4 m (outs m) c = W4 m c := by
  show Function.update (V3 m c) main_v39 (W4 m c main_v39) = W4 m c
  rw [W4_v39]; rfl
theorem V5_eq (c : Dev nD) : V5 m (outs m) c = W5 m c := by
  show StableHlo.after hostOps1 (V4 m (outs m) c) = W5 m c
  rw [V4_eq]; rfl
theorem V6_eq (c : Dev nD) : V6 m (outs m) c = W6 m c := by
  show Function.update (Function.update (Function.update (V5 m (outs m) c) main_v75_0 (W6 m c main_v75_0)) main_v75_1 (W6 m c main_v75_1)) main_v75_2 (W6 m c main_v75_2) = W6 m c
  rw [V5_eq, W6_v75_0, W6_v75_1, W6_v75_2]; rfl
theorem V7_eq (c : Dev nD) : V7 m (outs m) c = W7 m c := by
  show StableHlo.after hostOps2 (V6 m (outs m) c) = W7 m c
  rw [V6_eq]; rfl
theorem V8_eq (c : Dev nD) : V8 m (outs m) c = W8 m c := by
  show Function.update (V7 m (outs m) c) main_v92 (W8 m c main_v92) = W8 m c
  rw [V7_eq, W8_v92]; rfl
theorem V9_eq (c : Dev nD) : V9 m (outs m) c = W9 m c := by
  show StableHlo.after hostOps3 (V8 m (outs m) c) = W9 m c
  rw [V8_eq]; rfl
theorem V10_eq (c : Dev nD) : V10 m (outs m) c = W10 m c := by
  show Function.update (Function.update (Function.update (V9 m (outs m) c) main_v128_0 (W10 m c main_v128_0)) main_v128_1 (W10 m c main_v128_1)) main_v128_2 (W10 m c main_v128_2) = W10 m c
  rw [V9_eq, W10_v128_0, W10_v128_1, W10_v128_2]; rfl
theorem V11_eq (c : Dev nD) : V11 m (outs m) c = W11 m c := by
  show StableHlo.after hostOps4 (V10 m (outs m) c) = W11 m c
  rw [V10_eq]; rfl
theorem V12_eq (c : Dev nD) : V12 m (outs m) c = W12 m c := by
  show Function.update (V11 m (outs m) c) main_v145 (W12 m c main_v145) = W12 m c
  rw [V11_eq, W12_v145]; rfl
theorem V13_eq (c : Dev nD) : V13 m (outs m) c = W13 m c := by
  show StableHlo.after hostOps5 (V12 m (outs m) c) = W13 m c
  rw [V12_eq]; rfl
theorem V14_eq (c : Dev nD) : V14 m (outs m) c = W14 m c := by
  show Function.update (Function.update (Function.update (V13 m (outs m) c) main_v181_0 (W14 m c main_v181_0)) main_v181_1 (W14 m c main_v181_1)) main_v181_2 (W14 m c main_v181_2) = W14 m c
  rw [V13_eq, W14_v181_0, W14_v181_1, W14_v181_2]; rfl
theorem V15_eq (c : Dev nD) : V15 m (outs m) c = W15 m c := by
  show StableHlo.after hostOps6 (V14 m (outs m) c) = W15 m c
  rw [V14_eq]; rfl
theorem V16_eq (c : Dev nD) : V16 m (outs m) c = W16 m c := by
  show Function.update (V15 m (outs m) c) main_v198 (W16 m c main_v198) = W16 m c
  rw [V15_eq, W16_v198]; rfl
theorem V17_eq (c : Dev nD) : V17 m (outs m) c = W17 m c := by
  show StableHlo.after hostOps7 (V16 m (outs m) c) = W17 m c
  rw [V16_eq]; rfl
theorem V18_eq (c : Dev nD) : V18 m (outs m) c = W18 m c := by
  show Function.update (V17 m (outs m) c) main_v209 (W18 m c main_v209) = W18 m c
  rw [V17_eq, W18_v209]; rfl
theorem V19_eq (c : Dev nD) : V19 m (outs m) c = W19 m c := by
  show StableHlo.after hostOps8 (V18 m (outs m) c) = W19 m c
  rw [V18_eq]; rfl
theorem V20_eq (c : Dev nD) : V20 m (outs m) c = W20 m c := by
  show Function.update (V19 m (outs m) c) main_v223 (W20 m c main_v223) = W20 m c
  rw [V19_eq, W20_v223]; rfl
theorem V21_eq (c : Dev nD) : V21 m (outs m) c = W21 m c := by
  show StableHlo.after hostOps9 (V20 m (outs m) c) = W21 m c
  rw [V20_eq]; rfl
theorem V22_eq (c : Dev nD) : V22 m (outs m) c = W22 m c := by
  show Function.update (V21 m (outs m) c) main_v237 (W22 m c main_v237) = W22 m c
  rw [V21_eq, W22_v237]; rfl
theorem V23_eq (c : Dev nD) : V23 m (outs m) c = W23 m c := by
  show StableHlo.after hostOps10 (V22 m (outs m) c) = W23 m c
  rw [V22_eq]; rfl
theorem V24_eq (c : Dev nD) : V24 m (outs m) c = W24 m c := by
  show Function.update (V23 m (outs m) c) main_v251 (W24 m c main_v251) = W24 m c
  rw [V23_eq, W24_v251]; rfl
theorem V25_eq (c : Dev nD) : V25 m (outs m) c = W25 m c := by
  show StableHlo.after hostOps11 (V24 m (outs m) c) = W25 m c
  rw [V24_eq]; rfl
theorem V26_eq (c : Dev nD) : V26 m (outs m) c = W26 m c := by
  show Function.update (V25 m (outs m) c) main_v270 (W26 m c main_v270) = W26 m c
  rw [V25_eq, W26_v270]; rfl

/-! ## What each segment leaves unchanged, in the solved valuations

A host stretch changes only the references its operations write (`Gen.hostOpsJ_W`); a region only its output arrays. -/

theorem W4_of (c : Dev nD) (r : Ref sig .tc) (h : r ∉ ([main_v39] : List (Ref sig .tc))) : W4 m c r = V3 m c r := by
  rw [← V4_eq]; exact V4_of m (outs m) c r h
theorem W5_of (c : Dev nD) (r : Ref sig .tc) (h : r ∉ hostOps1_W) : W5 m c r = W4 m c r := by
  rw [← V5_eq, ← V4_eq]; exact V5_of m (outs m) c r h
theorem W6_of (c : Dev nD) (r : Ref sig .tc) (h : r ∉ ([main_v75_0, main_v75_1, main_v75_2] : List (Ref sig .tc))) : W6 m c r = W5 m c r := by
  rw [← V6_eq, ← V5_eq]; exact V6_of m (outs m) c r h
theorem W7_of (c : Dev nD) (r : Ref sig .tc) (h : r ∉ hostOps2_W) : W7 m c r = W6 m c r := by
  rw [← V7_eq, ← V6_eq]; exact V7_of m (outs m) c r h
theorem W8_of (c : Dev nD) (r : Ref sig .tc) (h : r ∉ ([main_v92] : List (Ref sig .tc))) : W8 m c r = W7 m c r := by
  rw [← V8_eq, ← V7_eq]; exact V8_of m (outs m) c r h
theorem W9_of (c : Dev nD) (r : Ref sig .tc) (h : r ∉ hostOps3_W) : W9 m c r = W8 m c r := by
  rw [← V9_eq, ← V8_eq]; exact V9_of m (outs m) c r h
theorem W10_of (c : Dev nD) (r : Ref sig .tc) (h : r ∉ ([main_v128_0, main_v128_1, main_v128_2] : List (Ref sig .tc))) : W10 m c r = W9 m c r := by
  rw [← V10_eq, ← V9_eq]; exact V10_of m (outs m) c r h
theorem W11_of (c : Dev nD) (r : Ref sig .tc) (h : r ∉ hostOps4_W) : W11 m c r = W10 m c r := by
  rw [← V11_eq, ← V10_eq]; exact V11_of m (outs m) c r h
theorem W12_of (c : Dev nD) (r : Ref sig .tc) (h : r ∉ ([main_v145] : List (Ref sig .tc))) : W12 m c r = W11 m c r := by
  rw [← V12_eq, ← V11_eq]; exact V12_of m (outs m) c r h
theorem W13_of (c : Dev nD) (r : Ref sig .tc) (h : r ∉ hostOps5_W) : W13 m c r = W12 m c r := by
  rw [← V13_eq, ← V12_eq]; exact V13_of m (outs m) c r h
theorem W14_of (c : Dev nD) (r : Ref sig .tc) (h : r ∉ ([main_v181_0, main_v181_1, main_v181_2] : List (Ref sig .tc))) : W14 m c r = W13 m c r := by
  rw [← V14_eq, ← V13_eq]; exact V14_of m (outs m) c r h
theorem W15_of (c : Dev nD) (r : Ref sig .tc) (h : r ∉ hostOps6_W) : W15 m c r = W14 m c r := by
  rw [← V15_eq, ← V14_eq]; exact V15_of m (outs m) c r h
theorem W16_of (c : Dev nD) (r : Ref sig .tc) (h : r ∉ ([main_v198] : List (Ref sig .tc))) : W16 m c r = W15 m c r := by
  rw [← V16_eq, ← V15_eq]; exact V16_of m (outs m) c r h
theorem W17_of (c : Dev nD) (r : Ref sig .tc) (h : r ∉ hostOps7_W) : W17 m c r = W16 m c r := by
  rw [← V17_eq, ← V16_eq]; exact V17_of m (outs m) c r h
theorem W18_of (c : Dev nD) (r : Ref sig .tc) (h : r ∉ ([main_v209] : List (Ref sig .tc))) : W18 m c r = W17 m c r := by
  rw [← V18_eq, ← V17_eq]; exact V18_of m (outs m) c r h
theorem W19_of (c : Dev nD) (r : Ref sig .tc) (h : r ∉ hostOps8_W) : W19 m c r = W18 m c r := by
  rw [← V19_eq, ← V18_eq]; exact V19_of m (outs m) c r h
theorem W20_of (c : Dev nD) (r : Ref sig .tc) (h : r ∉ ([main_v223] : List (Ref sig .tc))) : W20 m c r = W19 m c r := by
  rw [← V20_eq, ← V19_eq]; exact V20_of m (outs m) c r h
theorem W21_of (c : Dev nD) (r : Ref sig .tc) (h : r ∉ hostOps9_W) : W21 m c r = W20 m c r := by
  rw [← V21_eq, ← V20_eq]; exact V21_of m (outs m) c r h
theorem W22_of (c : Dev nD) (r : Ref sig .tc) (h : r ∉ ([main_v237] : List (Ref sig .tc))) : W22 m c r = W21 m c r := by
  rw [← V22_eq, ← V21_eq]; exact V22_of m (outs m) c r h
theorem W23_of (c : Dev nD) (r : Ref sig .tc) (h : r ∉ hostOps10_W) : W23 m c r = W22 m c r := by
  rw [← V23_eq, ← V22_eq]; exact V23_of m (outs m) c r h
theorem W24_of (c : Dev nD) (r : Ref sig .tc) (h : r ∉ ([main_v251] : List (Ref sig .tc))) : W24 m c r = W23 m c r := by
  rw [← V24_eq, ← V23_eq]; exact V24_of m (outs m) c r h
theorem W25_of (c : Dev nD) (r : Ref sig .tc) (h : r ∉ hostOps11_W) : W25 m c r = W24 m c r := by
  rw [← V25_eq, ← V24_eq]; exact V25_of m (outs m) c r h
theorem W26_of (c : Dev nD) (r : Ref sig .tc) (h : r ∉ ([main_v270] : List (Ref sig .tc))) : W26 m c r = W25 m c r := by
  rw [← V26_eq, ← V25_eq]; exact V26_of m (outs m) c r h

end Cert.KernelIdeal.Hand

end
-- ==== Proof.KI.Segs.lean ====
/-
  The twelve regions of the kernel program as segments: the family of their proof data, what each leaves in its
  windows' arrays, and the segment records.
-/
import proofs.«160050_j32744830665390_2_alg».proof.Proof.KI.RegionOf
import proofs.«160050_j32744830665390_2_alg».proof.Proof.KI.Fold

-- memberships decided over the program's references recurse past the default depth
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! # The regions as segments of the run -/

/-- Every pipeline's proof data, each at its region's entry contents: a literal match on the pipeline index, so that
    the family at a numeral reduces to that region's proof data. -/
def pdats : (p : Fin 12) → (c : Dev nD) → Dat τ (Elt F) Unit ℕ (UR sig nD τ) ℕ (cfgs p) c
  | ⟨0, _⟩ => fun c => dat0 (En0 m) c
  | ⟨1, _⟩ => fun c => dat1 (En1 m) c
  | ⟨2, _⟩ => fun c => dat2 (En2 m) c
  | ⟨3, _⟩ => fun c => dat3 (En3 m) c
  | ⟨4, _⟩ => fun c => dat4 (En4 m) c
  | ⟨5, _⟩ => fun c => dat5 (En5 m) c
  | ⟨6, _⟩ => fun c => dat6 (En6 m) c
  | ⟨7, _⟩ => fun c => dat7 (En7 m) c
  | ⟨8, _⟩ => fun c => dat8 (En8 m) c
  | ⟨9, _⟩ => fun c => dat9 (En9 m) c
  | ⟨10, _⟩ => fun c => dat10 (En10 m) c
  | ⟨11, _⟩ => fun c => dat11 (En11 m) c

/-! ## What each region leaves in its windows' arrays

An input window's array is never written: at the last point it holds what the proof data read at entry, which is the
valuation before the region, and the region's update does not touch it. An output window's array holds the fold of
its write-backs, which is what the valuation after the region was defined to hold there. -/

/-- An input window of region 0: its array is as entered, before and after. -/
theorem in0 (c : Dev nD) (w : Fin cfg0.W) (hin : (cfg0.win w).isOut = false)
    (hne : Pipeline.arrRef spec0 w ∉ ([main_v39] : List (Ref sig .tc))) :
    (dat0 (En0 m) c).arrAt w cfg0.N = V4 m (outs m) c (Pipeline.arrRef spec0 w) :=
  ((dat0 (En0 m) c).arrAt_in w hin _).trans ((A_eq0 (En0 m) c w).trans (V4_of m (outs m) c _ hne).symm)
set_option maxHeartbeats 800000 in
theorem hF0 (c : Dev nD) : ∀ w : Fin 6, (dat0 (En0 m) c).arrAt w cfg0.N = V4 m (outs m) c (Pipeline.arrRef spec0 w)
  | 0 => in0 m c 0 rfl (by decide)
  | 1 => in0 m c 1 rfl (by decide)
  | 2 => in0 m c 2 rfl (by decide)
  | 3 => in0 m c 3 rfl (by decide)
  | 4 => in0 m c 4 rfl (by decide)
  | 5 => ((congrFun (V4_eq m c) _).trans (W4_v39 m c)).symm
  | ⟨_ + 6, h⟩ => absurd h (Nat.not_lt.2 (Nat.le_add_left _ _))

theorem in1 (c : Dev nD) (w : Fin cfg1.W) (hin : (cfg1.win w).isOut = false)
    (hne : Pipeline.arrRef spec1 w ∉ ([main_v75_0, main_v75_1, main_v75_2] : List (Ref sig .tc))) :
    (dat1 (En1 m) c).arrAt w cfg1.N = V6 m (outs m) c (Pipeline.arrRef spec1 w) :=
  ((dat1 (En1 m) c).arrAt_in w hin _).trans ((A_eq1 (En1 m) c w).trans
    ((V6_of m (outs m) c _ hne).trans (congrFun (V5_eq m c) _)).symm)
set_option maxHeartbeats 1600000 in
theorem hF1 (c : Dev nD) : ∀ w : Fin 10, (dat1 (En1 m) c).arrAt w cfg1.N = V6 m (outs m) c (Pipeline.arrRef spec1 w)
  | 0 => in1 m c 0 rfl (by decide)
  | 1 => in1 m c 1 rfl (by decide)
  | 2 => in1 m c 2 rfl (by decide)
  | 3 => in1 m c 3 rfl (by decide)
  | 4 => in1 m c 4 rfl (by decide)
  | 5 => in1 m c 5 rfl (by decide)
  | 6 => in1 m c 6 rfl (by decide)
  | 7 => ((congrFun (V6_eq m c) _).trans (W6_v75_0 m c)).symm
  | 8 => ((congrFun (V6_eq m c) _).trans (W6_v75_1 m c)).symm
  | 9 => ((congrFun (V6_eq m c) _).trans (W6_v75_2 m c)).symm
  | ⟨_ + 10, h⟩ => absurd h (Nat.not_lt.2 (Nat.le_add_left _ _))

theorem in2 (c : Dev nD) (w : Fin cfg2.W) (hin : (cfg2.win w).isOut = false)
    (hne : Pipeline.arrRef spec2 w ∉ ([main_v92] : List (Ref sig .tc))) :
    (dat2 (En2 m) c).arrAt w cfg2.N = V8 m (outs m) c (Pipeline.arrRef spec2 w) :=
  ((dat2 (En2 m) c).arrAt_in w hin _).trans ((A_eq2 (En2 m) c w).trans
    ((V8_of m (outs m) c _ hne).trans (congrFun (V7_eq m c) _)).symm)
set_option maxHeartbeats 800000 in
theorem hF2 (c : Dev nD) : ∀ w : Fin 6, (dat2 (En2 m) c).arrAt w cfg2.N = V8 m (outs m) c (Pipeline.arrRef spec2 w)
  | 0 => in2 m c 0 rfl (by decide)
  | 1 => in2 m c 1 rfl (by decide)
  | 2 => in2 m c 2 rfl (by decide)
  | 3 => in2 m c 3 rfl (by decide)
  | 4 => in2 m c 4 rfl (by decide)
  | 5 => ((congrFun (V8_eq m c) _).trans (W8_v92 m c)).symm
  | ⟨_ + 6, h⟩ => absurd h (Nat.not_lt.2 (Nat.le_add_left _ _))

theorem in3 (c : Dev nD) (w : Fin cfg3.W) (hin : (cfg3.win w).isOut = false)
    (hne : Pipeline.arrRef spec3 w ∉ ([main_v128_0, main_v128_1, main_v128_2] : List (Ref sig .tc))) :
    (dat3 (En3 m) c).arrAt w cfg3.N = V10 m (outs m) c (Pipeline.arrRef spec3 w) :=
  ((dat3 (En3 m) c).arrAt_in w hin _).trans ((A_eq3 (En3 m) c w).trans
    ((V10_of m (outs m) c _ hne).trans (congrFun (V9_eq m c) _)).symm)
set_option maxHeartbeats 1600000 in
theorem hF3 (c : Dev nD) : ∀ w : Fin 10, (dat3 (En3 m) c).arrAt w cfg3.N = V10 m (outs m) c (Pipeline.arrRef spec3 w)
  | 0 => in3 m c 0 rfl (by decide)
  | 1 => in3 m c 1 rfl (by decide)
  | 2 => in3 m c 2 rfl (by decide)
  | 3 => in3 m c 3 rfl (by decide)
  | 4 => in3 m c 4 rfl (by decide)
  | 5 => in3 m c 5 rfl (by decide)
  | 6 => in3 m c 6 rfl (by decide)
  | 7 => ((congrFun (V10_eq m c) _).trans (W10_v128_0 m c)).symm
  | 8 => ((congrFun (V10_eq m c) _).trans (W10_v128_1 m c)).symm
  | 9 => ((congrFun (V10_eq m c) _).trans (W10_v128_2 m c)).symm
  | ⟨_ + 10, h⟩ => absurd h (Nat.not_lt.2 (Nat.le_add_left _ _))

theorem in4 (c : Dev nD) (w : Fin cfg4.W) (hin : (cfg4.win w).isOut = false)
    (hne : Pipeline.arrRef spec4 w ∉ ([main_v145] : List (Ref sig .tc))) :
    (dat4 (En4 m) c).arrAt w cfg4.N = V12 m (outs m) c (Pipeline.arrRef spec4 w) :=
  ((dat4 (En4 m) c).arrAt_in w hin _).trans ((A_eq4 (En4 m) c w).trans
    ((V12_of m (outs m) c _ hne).trans (congrFun (V11_eq m c) _)).symm)
set_option maxHeartbeats 800000 in
theorem hF4 (c : Dev nD) : ∀ w : Fin 6, (dat4 (En4 m) c).arrAt w cfg4.N = V12 m (outs m) c (Pipeline.arrRef spec4 w)
  | 0 => in4 m c 0 rfl (by decide)
  | 1 => in4 m c 1 rfl (by decide)
  | 2 => in4 m c 2 rfl (by decide)
  | 3 => in4 m c 3 rfl (by decide)
  | 4 => in4 m c 4 rfl (by decide)
  | 5 => ((congrFun (V12_eq m c) _).trans (W12_v145 m c)).symm
  | ⟨_ + 6, h⟩ => absurd h (Nat.not_lt.2 (Nat.le_add_left _ _))

theorem in5 (c : Dev nD) (w : Fin cfg5.W) (hin : (cfg5.win w).isOut = false)
    (hne : Pipeline.arrRef spec5 w ∉ ([main_v181_0, main_v181_1, main_v181_2] : List (Ref sig .tc))) :
    (dat5 (En5 m) c).arrAt w cfg5.N = V14 m (outs m) c (Pipeline.arrRef spec5 w) :=
  ((dat5 (En5 m) c).arrAt_in w hin _).trans ((A_eq5 (En5 m) c w).trans
    ((V14_of m (outs m) c _ hne).trans (congrFun (V13_eq m c) _)).symm)
set_option maxHeartbeats 1600000 in
theorem hF5 (c : Dev nD) : ∀ w : Fin 10, (dat5 (En5 m) c).arrAt w cfg5.N = V14 m (outs m) c (Pipeline.arrRef spec5 w)
  | 0 => in5 m c 0 rfl (by decide)
  | 1 => in5 m c 1 rfl (by decide)
  | 2 => in5 m c 2 rfl (by decide)
  | 3 => in5 m c 3 rfl (by decide)
  | 4 => in5 m c 4 rfl (by decide)
  | 5 => in5 m c 5 rfl (by decide)
  | 6 => in5 m c 6 rfl (by decide)
  | 7 => ((congrFun (V14_eq m c) _).trans (W14_v181_0 m c)).symm
  | 8 => ((congrFun (V14_eq m c) _).trans (W14_v181_1 m c)).symm
  | 9 => ((congrFun (V14_eq m c) _).trans (W14_v181_2 m c)).symm
  | ⟨_ + 10, h⟩ => absurd h (Nat.not_lt.2 (Nat.le_add_left _ _))

theorem in6 (c : Dev nD) (w : Fin cfg6.W) (hin : (cfg6.win w).isOut = false)
    (hne : Pipeline.arrRef spec6 w ∉ ([main_v198] : List (Ref sig .tc))) :
    (dat6 (En6 m) c).arrAt w cfg6.N = V16 m (outs m) c (Pipeline.arrRef spec6 w) :=
  ((dat6 (En6 m) c).arrAt_in w hin _).trans ((A_eq6 (En6 m) c w).trans
    ((V16_of m (outs m) c _ hne).trans (congrFun (V15_eq m c) _)).symm)
set_option maxHeartbeats 800000 in
theorem hF6 (c : Dev nD) : ∀ w : Fin 6, (dat6 (En6 m) c).arrAt w cfg6.N = V16 m (outs m) c (Pipeline.arrRef spec6 w)
  | 0 => in6 m c 0 rfl (by decide)
  | 1 => in6 m c 1 rfl (by decide)
  | 2 => in6 m c 2 rfl (by decide)
  | 3 => in6 m c 3 rfl (by decide)
  | 4 => in6 m c 4 rfl (by decide)
  | 5 => ((congrFun (V16_eq m c) _).trans (W16_v198 m c)).symm
  | ⟨_ + 6, h⟩ => absurd h (Nat.not_lt.2 (Nat.le_add_left _ _))

theorem in7 (c : Dev nD) (w : Fin cfg7.W) (hin : (cfg7.win w).isOut = false)
    (hne : Pipeline.arrRef spec7 w ∉ ([main_v209] : List (Ref sig .tc))) :
    (dat7 (En7 m) c).arrAt w cfg7.N = V18 m (outs m) c (Pipeline.arrRef spec7 w) :=
  ((dat7 (En7 m) c).arrAt_in w hin _).trans ((A_eq7 (En7 m) c w).trans
    ((V18_of m (outs m) c _ hne).trans (congrFun (V17_eq m c) _)).symm)
set_option maxHeartbeats 800000 in
theorem hF7 (c : Dev nD) : ∀ w : Fin 4, (dat7 (En7 m) c).arrAt w cfg7.N = V18 m (outs m) c (Pipeline.arrRef spec7 w)
  | 0 => in7 m c 0 rfl (by decide)
  | 1 => in7 m c 1 rfl (by decide)
  | 2 => in7 m c 2 rfl (by decide)
  | 3 => ((congrFun (V18_eq m c) _).trans (W18_v209 m c)).symm
  | ⟨_ + 4, h⟩ => absurd h (Nat.not_lt.2 (Nat.le_add_left _ _))

theorem in8 (c : Dev nD) (w : Fin cfg8.W) (hin : (cfg8.win w).isOut = false)
    (hne : Pipeline.arrRef spec8 w ∉ ([main_v223] : List (Ref sig .tc))) :
    (dat8 (En8 m) c).arrAt w cfg8.N = V20 m (outs m) c (Pipeline.arrRef spec8 w) :=
  ((dat8 (En8 m) c).arrAt_in w hin _).trans ((A_eq8 (En8 m) c w).trans
    ((V20_of m (outs m) c _ hne).trans (congrFun (V19_eq m c) _)).symm)
set_option maxHeartbeats 800000 in
theorem hF8 (c : Dev nD) : ∀ w : Fin 4, (dat8 (En8 m) c).arrAt w cfg8.N = V20 m (outs m) c (Pipeline.arrRef spec8 w)
  | 0 => in8 m c 0 rfl (by decide)
  | 1 => in8 m c 1 rfl (by decide)
  | 2 => in8 m c 2 rfl (by decide)
  | 3 => ((congrFun (V20_eq m c) _).trans (W20_v223 m c)).symm
  | ⟨_ + 4, h⟩ => absurd h (Nat.not_lt.2 (Nat.le_add_left _ _))

theorem in9 (c : Dev nD) (w : Fin cfg9.W) (hin : (cfg9.win w).isOut = false)
    (hne : Pipeline.arrRef spec9 w ∉ ([main_v237] : List (Ref sig .tc))) :
    (dat9 (En9 m) c).arrAt w cfg9.N = V22 m (outs m) c (Pipeline.arrRef spec9 w) :=
  ((dat9 (En9 m) c).arrAt_in w hin _).trans ((A_eq9 (En9 m) c w).trans
    ((V22_of m (outs m) c _ hne).trans (congrFun (V21_eq m c) _)).symm)
set_option maxHeartbeats 800000 in
theorem hF9 (c : Dev nD) : ∀ w : Fin 4, (dat9 (En9 m) c).arrAt w cfg9.N = V22 m (outs m) c (Pipeline.arrRef spec9 w)
  | 0 => in9 m c 0 rfl (by decide)
  | 1 => in9 m c 1 rfl (by decide)
  | 2 => in9 m c 2 rfl (by decide)
  | 3 => ((congrFun (V22_eq m c) _).trans (W22_v237 m c)).symm
  | ⟨_ + 4, h⟩ => absurd h (Nat.not_lt.2 (Nat.le_add_left _ _))

theorem in10 (c : Dev nD) (w : Fin cfg10.W) (hin : (cfg10.win w).isOut = false)
    (hne : Pipeline.arrRef spec10 w ∉ ([main_v251] : List (Ref sig .tc))) :
    (dat10 (En10 m) c).arrAt w cfg10.N = V24 m (outs m) c (Pipeline.arrRef spec10 w) :=
  ((dat10 (En10 m) c).arrAt_in w hin _).trans ((A_eq10 (En10 m) c w).trans
    ((V24_of m (outs m) c _ hne).trans (congrFun (V23_eq m c) _)).symm)
set_option maxHeartbeats 800000 in
theorem hF10 (c : Dev nD) : ∀ w : Fin 4, (dat10 (En10 m) c).arrAt w cfg10.N = V24 m (outs m) c (Pipeline.arrRef spec10 w)
  | 0 => in10 m c 0 rfl (by decide)
  | 1 => in10 m c 1 rfl (by decide)
  | 2 => in10 m c 2 rfl (by decide)
  | 3 => ((congrFun (V24_eq m c) _).trans (W24_v251 m c)).symm
  | ⟨_ + 4, h⟩ => absurd h (Nat.not_lt.2 (Nat.le_add_left _ _))

theorem in11 (c : Dev nD) (w : Fin cfg11.W) (hin : (cfg11.win w).isOut = false)
    (hne : Pipeline.arrRef spec11 w ∉ ([main_v270] : List (Ref sig .tc))) :
    (dat11 (En11 m) c).arrAt w cfg11.N = V26 m (outs m) c (Pipeline.arrRef spec11 w) :=
  ((dat11 (En11 m) c).arrAt_in w hin _).trans ((A_eq11 (En11 m) c w).trans
    ((V26_of m (outs m) c _ hne).trans (congrFun (V25_eq m c) _)).symm)
set_option maxHeartbeats 800000 in
theorem hF11 (c : Dev nD) : ∀ w : Fin 6, (dat11 (En11 m) c).arrAt w cfg11.N = V26 m (outs m) c (Pipeline.arrRef spec11 w)
  | 0 => in11 m c 0 rfl (by decide)
  | 1 => in11 m c 1 rfl (by decide)
  | 2 => in11 m c 2 rfl (by decide)
  | 3 => in11 m c 3 rfl (by decide)
  | 4 => in11 m c 4 rfl (by decide)
  | 5 => ((congrFun (V26_eq m c) _).trans (W26_v270 m c)).symm
  | ⟨_ + 6, h⟩ => absurd h (Nat.not_lt.2 (Nat.le_add_left _ _))

/-! ## The twelve segments -/

def reg0 : RegionSeg (pcfgs (F := F)) adm (pdats m) () defs₀ noVariants noPairs noLevel 0 :=
  regionOf (pdats m) 0 launch0 (fun c => V3 m c) (fun c => V4 m (outs m) c)
    (fun c => body_obligation0 (En0 m) c) (fun c => q_eq0 (En0 m) c) (fun c => owed_eq0 (En0 m) c) (fun _ _ => rfl)
    (fun c w => A_eq0 (En0 m) c w)
    (fun c => Phi_in0 (En0 m) c) (fun c => Phi_out0 (En0 m) c) (hF0 m)
    (fun c b hb => V4_of m (outs m) c b (not_mem_outs spec0 hb _ (by decide)))
def reg1 : RegionSeg (pcfgs (F := F)) adm (pdats m) () defs₀ noVariants noPairs noLevel 1 :=
  regionOf (pdats m) 1 launch1 (fun c => V5 m (outs m) c) (fun c => V6 m (outs m) c)
    (fun c => body_obligation1 (En1 m) c) (fun c => q_eq1 (En1 m) c) (fun c => owed_eq1 (En1 m) c) (fun _ _ => rfl)
    (fun c w => (A_eq1 (En1 m) c w).trans (congrFun (V5_eq m c) _).symm)
    (fun c => Phi_in1 (En1 m) c) (fun c => Phi_out1 (En1 m) c) (hF1 m)
    (fun c b hb => V6_of m (outs m) c b (not_mem_outs spec1 hb _ (by decide)))
def reg2 : RegionSeg (pcfgs (F := F)) adm (pdats m) () defs₀ noVariants noPairs noLevel 2 :=
  regionOf (pdats m) 2 launch2 (fun c => V7 m (outs m) c) (fun c => V8 m (outs m) c)
    (fun c => body_obligation2 (En2 m) c) (fun c => q_eq2 (En2 m) c) (fun c => owed_eq2 (En2 m) c) (fun _ _ => rfl)
    (fun c w => (A_eq2 (En2 m) c w).trans (congrFun (V7_eq m c) _).symm)
    (fun c => Phi_in2 (En2 m) c) (fun c => Phi_out2 (En2 m) c) (hF2 m)
    (fun c b hb => V8_of m (outs m) c b (not_mem_outs spec2 hb _ (by decide)))
def reg3 : RegionSeg (pcfgs (F := F)) adm (pdats m) () defs₀ noVariants noPairs noLevel 3 :=
  regionOf (pdats m) 3 launch3 (fun c => V9 m (outs m) c) (fun c => V10 m (outs m) c)
    (fun c => body_obligation3 (En3 m) c) (fun c => q_eq3 (En3 m) c) (fun c => owed_eq3 (En3 m) c) (fun _ _ => rfl)
    (fun c w => (A_eq3 (En3 m) c w).trans (congrFun (V9_eq m c) _).symm)
    (fun c => Phi_in3 (En3 m) c) (fun c => Phi_out3 (En3 m) c) (hF3 m)
    (fun c b hb => V10_of m (outs m) c b (not_mem_outs spec3 hb _ (by decide)))
def reg4 : RegionSeg (pcfgs (F := F)) adm (pdats m) () defs₀ noVariants noPairs noLevel 4 :=
  regionOf (pdats m) 4 launch4 (fun c => V11 m (outs m) c) (fun c => V12 m (outs m) c)
    (fun c => body_obligation4 (En4 m) c) (fun c => q_eq4 (En4 m) c) (fun c => owed_eq4 (En4 m) c) (fun _ _ => rfl)
    (fun c w => (A_eq4 (En4 m) c w).trans (congrFun (V11_eq m c) _).symm)
    (fun c => Phi_in4 (En4 m) c) (fun c => Phi_out4 (En4 m) c) (hF4 m)
    (fun c b hb => V12_of m (outs m) c b (not_mem_outs spec4 hb _ (by decide)))
def reg5 : RegionSeg (pcfgs (F := F)) adm (pdats m) () defs₀ noVariants noPairs noLevel 5 :=
  regionOf (pdats m) 5 launch5 (fun c => V13 m (outs m) c) (fun c => V14 m (outs m) c)
    (fun c => body_obligation5 (En5 m) c) (fun c => q_eq5 (En5 m) c) (fun c => owed_eq5 (En5 m) c) (fun _ _ => rfl)
    (fun c w => (A_eq5 (En5 m) c w).trans (congrFun (V13_eq m c) _).symm)
    (fun c => Phi_in5 (En5 m) c) (fun c => Phi_out5 (En5 m) c) (hF5 m)
    (fun c b hb => V14_of m (outs m) c b (not_mem_outs spec5 hb _ (by decide)))
def reg6 : RegionSeg (pcfgs (F := F)) adm (pdats m) () defs₀ noVariants noPairs noLevel 6 :=
  regionOf (pdats m) 6 launch6 (fun c => V15 m (outs m) c) (fun c => V16 m (outs m) c)
    (fun c => body_obligation6 (En6 m) c) (fun c => q_eq6 (En6 m) c) (fun c => owed_eq6 (En6 m) c) (fun _ _ => rfl)
    (fun c w => (A_eq6 (En6 m) c w).trans (congrFun (V15_eq m c) _).symm)
    (fun c => Phi_in6 (En6 m) c) (fun c => Phi_out6 (En6 m) c) (hF6 m)
    (fun c b hb => V16_of m (outs m) c b (not_mem_outs spec6 hb _ (by decide)))
def reg7 : RegionSeg (pcfgs (F := F)) adm (pdats m) () defs₀ noVariants noPairs noLevel 7 :=
  regionOf (pdats m) 7 launch7 (fun c => V17 m (outs m) c) (fun c => V18 m (outs m) c)
    (fun c => body_obligation7 (En7 m) c) (fun c => q_eq7 (En7 m) c) (fun c => owed_eq7 (En7 m) c) (fun _ _ => rfl)
    (fun c w => (A_eq7 (En7 m) c w).trans (congrFun (V17_eq m c) _).symm)
    (fun c => Phi_in7 (En7 m) c) (fun c => Phi_out7 (En7 m) c) (hF7 m)
    (fun c b hb => V18_of m (outs m) c b (not_mem_outs spec7 hb _ (by decide)))
def reg8 : RegionSeg (pcfgs (F := F)) adm (pdats m) () defs₀ noVariants noPairs noLevel 8 :=
  regionOf (pdats m) 8 launch8 (fun c => V19 m (outs m) c) (fun c => V20 m (outs m) c)
    (fun c => body_obligation8 (En8 m) c) (fun c => q_eq8 (En8 m) c) (fun c => owed_eq8 (En8 m) c) (fun _ _ => rfl)
    (fun c w => (A_eq8 (En8 m) c w).trans (congrFun (V19_eq m c) _).symm)
    (fun c => Phi_in8 (En8 m) c) (fun c => Phi_out8 (En8 m) c) (hF8 m)
    (fun c b hb => V20_of m (outs m) c b (not_mem_outs spec8 hb _ (by decide)))
def reg9 : RegionSeg (pcfgs (F := F)) adm (pdats m) () defs₀ noVariants noPairs noLevel 9 :=
  regionOf (pdats m) 9 launch9 (fun c => V21 m (outs m) c) (fun c => V22 m (outs m) c)
    (fun c => body_obligation9 (En9 m) c) (fun c => q_eq9 (En9 m) c) (fun c => owed_eq9 (En9 m) c) (fun _ _ => rfl)
    (fun c w => (A_eq9 (En9 m) c w).trans (congrFun (V21_eq m c) _).symm)
    (fun c => Phi_in9 (En9 m) c) (fun c => Phi_out9 (En9 m) c) (hF9 m)
    (fun c b hb => V22_of m (outs m) c b (not_mem_outs spec9 hb _ (by decide)))
def reg10 : RegionSeg (pcfgs (F := F)) adm (pdats m) () defs₀ noVariants noPairs noLevel 10 :=
  regionOf (pdats m) 10 launch10 (fun c => V23 m (outs m) c) (fun c => V24 m (outs m) c)
    (fun c => body_obligation10 (En10 m) c) (fun c => q_eq10 (En10 m) c) (fun c => owed_eq10 (En10 m) c) (fun _ _ => rfl)
    (fun c w => (A_eq10 (En10 m) c w).trans (congrFun (V23_eq m c) _).symm)
    (fun c => Phi_in10 (En10 m) c) (fun c => Phi_out10 (En10 m) c) (hF10 m)
    (fun c b hb => V24_of m (outs m) c b (not_mem_outs spec10 hb _ (by decide)))
def reg11 : RegionSeg (pcfgs (F := F)) adm (pdats m) () defs₀ noVariants noPairs noLevel 11 :=
  regionOf (pdats m) 11 launch11 (fun c => V25 m (outs m) c) (fun c => V26 m (outs m) c)
    (fun c => body_obligation11 (En11 m) c) (fun c => q_eq11 (En11 m) c) (fun c => owed_eq11 (En11 m) c) (fun _ _ => rfl)
    (fun c w => (A_eq11 (En11 m) c w).trans (congrFun (V25_eq m c) _).symm)
    (fun c => Phi_in11 (En11 m) c) (fun c => Phi_out11 (En11 m) c) (hF11 m)
    (fun c b hb => V26_of m (outs m) c b (not_mem_outs spec11 hb _ (by decide)))

end Cert.KernelIdeal.Hand

end
-- ==== Proof.KI.Main.lean ====
/-
  The run of the kernel program: it terminates from any launch memory, its two results are the last valuation read
  at their references, and its arguments end as launched.
-/
import proofs.«160050_j32744830665390_2_alg».proof.Proof.KI.Segs

-- memberships decided over the program's references recurse past the default depth
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! # The run

@main is the chain of its twenty-six segments. Launched from a memory `m` with every counter at zero, every core
starts holding its unscoped buffers at the launch contents beside its generator register, owing nothing; the
segments' thread states chain, each region entered from what the stretch before it left; at the end every core
holds every unscoped buffer at the last valuation, `W26`. Read against the final memory, that gives the two results
as terms of the launch memory, and every argument unchanged. -/

variable (ρ : Dev nD → PrngReg)

/-- The rest that rides through every segment, for the generated segment list. -/
abbrev rides : Fin 13 → Dev nD → sProp 𝕄 := fun _ c => Ride c

/-- @main's twenty-six segments on a core. -/
abbrev allSegs (c : Dev nD) : List (Seg (pcfgs (F := F)) adm (pdats m) () defs₀ noVariants noPairs noLevel) :=
  segs m (outs m) noVariants noPairs noLevel rides () (pdats m)
    (reg0 m) (reg1 m) (reg2 m) (reg3 m) (reg4 m) (reg5 m) (reg6 m) (reg7 m) (reg8 m) (reg9 m) (reg10 m) (reg11 m) c

/-- An unscoped TensorCore reference is among those the thread state holds. -/
theorem mem_uc (b : Ref sig .tc) (h : ¬ (Proc.devRef .tc b : DevRef τ sig).isScoped) :
    (Proc.devRef .tc b : DevRef τ sig) ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
/-- Every weakly fair execution of @main from `m` with zero counters terminates, nothing faulting, and in every final
    memory each unscoped buffer of each TensorCore holds the last valuation. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V26 m (outs m) c b) := by
  refine Pipeline.θ_run_regions_kit_dev (pcfgs (F := F)) adm (pdats m) () cellOf_inj emb₁ defs₀ noVariants noPairs noLevel m ρ main
    (allSegs m)
    (fun c Q => by
      rewrite [main_chain c, Seg.run_eq_chain,
        show (allSegs m c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()) ] from rfl]
      exact .rfl)
    (fun c => by simp only [allSegs, segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ Ride c))
    (Tₙ := fun c => iprop(StableHlo.held (c : Thread nD τ) (Pipeline.ucRefs τ sig) (V26 m (outs m) c) ∗ ∃ r, prngReg c r))
    (hch := fun c => ⟨.rfl, .rfl, .rfl, .rfl, .rfl, .rfl, .rfl, .rfl, .rfl, .rfl, .rfl, .rfl, .rfl, .rfl, .rfl, .rfl, .rfl, .rfl,
      .rfl, .rfl, .rfl, .rfl, .rfl, .rfl, .rfl, .rfl, ?_⟩)
    (hinit := ?_)
    (QY := fun c s => ∀ b ∈ Pipeline.ucRefs τ sig, s.mem ((c : Thread nD τ).1, b) = V26 m (outs m) c b)
    (hfin := fun c s' => ?_) (hQ := fun _ h => h)
  · -- the launch element is the pipeline library's own; no core needs a ghost resource besides
    iintro Hu
    imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- the last region's exit state, regrouped: the buffers and the register on one side, the debt (none) on the other
    show iprop(StableHlo.held (c : Thread nD τ) (Pipeline.ucRefs τ sig) (V26 m (outs m) c) ∗ Ride c) ⊢ _
    iintro ⟨Hheld, Hreg, Howes⟩
    isplitl [Hheld Hreg]
    · isplitl [Hheld]; · iexact Hheld
      iexact Hreg
    iexact Howes
  · -- the launch: each core's unscoped buffers are held at the launch contents; its register and its empty debt ride along
    refine Pipeline.initEach noPairs noLevel fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hheld, -, Howes, -, Hreg, -⟩, -⟩
    imodintro
    isplitl [Hheld]; · iexact Hheld
    isplitl [Hreg]; · iexists _; iexact Hreg
    iexists ∅; iexact Howes
  · -- the end: the held buffers, read against the final state
    iintro ⟨⟨Hheld, -⟩, HSI⟩
    unfold StableHlo.held
    imodintro
    iapply (pointsTo_read_all (Pipeline.ucRefs τ sig) (fun b => (((c : Thread nD τ)).1, b)) (V26 m (outs m) c) s')
    isplitl [Hheld]; · iexact Hheld
    iexact HSI

/-- THE RUN, with the results named: the logits are what region 11's write-backs leave in `main_v270`, the
    regulariser what the last host stretch leaves in `main_v255`, both read off `W26`; every argument is as launched. -/
theorem run_main : θ_run defs (onTc (τ := τ) (main (F := F))) ⟨m, fun _ => 0, ρ⟩ (fun r => ∀ c : Dev nD,
      r.2.mem ((c.tc : Thread nD τ).loc main_v270) = W26 m c main_v270
      ∧ r.2.mem ((c.tc : Thread nD τ).loc main_v255) = W26 m c main_v255
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => by
    have rd : ∀ (b : Ref sig .tc), ¬ (Proc.devRef .tc b : DevRef τ sig).isScoped →
        r.2.mem ((c.tc : Thread nD τ).loc b) = V26 m (outs m) c b := fun b hb => h c _ (mem_uc b hb)
    exact ⟨(rd main_v270 (by decide)).trans (congrFun (V26_eq m c) _),
      (rd main_v255 (by decide)).trans (congrFun (V26_eq m c) _),
      (rd main_arg0 (by decide)).trans (V26_main_arg0 m (outs m) c),
      (rd main_arg1 (by decide)).trans (V26_main_arg1 m (outs m) c),
      (rd main_arg2 (by decide)).trans (V26_main_arg2 m (outs m) c),
      (rd main_arg3 (by decide)).trans (V26_main_arg3 m (outs m) c),
      (rd main_arg4 (by decide)).trans (V26_main_arg4 m (outs m) c),
      (rd main_arg5 (by decide)).trans (V26_main_arg5 m (outs m) c),
      (rd main_arg6 (by decide)).trans (V26_main_arg6 m (outs m) c),
      (rd main_arg7 (by decide)).trans (V26_main_arg7 m (outs m) c),
      (rd main_arg8 (by decide)).trans (V26_main_arg8 m (outs m) c),
      (rd main_arg9 (by decide)).trans (V26_main_arg9 m (outs m) c),
      (rd main_arg10 (by decide)).trans (V26_main_arg10 m (outs m) c),
      (rd main_arg11 (by decide)).trans (V26_main_arg11 m (outs m) c),
      (rd main_arg12 (by decide)).trans (V26_main_arg12 m (outs m) c),
      (rd main_arg13 (by decide)).trans (V26_main_arg13 m (outs m) c),
      (rd main_arg14 (by decide)).trans (V26_main_arg14 m (outs m) c)⟩) (run_all m ρ)

/-- The frame: the program runs and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => (h c).2.2) (run_main m ρ)

end Cert.KernelIdeal.Hand

end
-- ==== Proof.Ref.Good.lean ====
/- What the reference program's run asks of each host operation of @main, stated once: that it touches TensorCore
   references only, that it determines what it writes, and that the one buffer it writes is the HBM buffer of a
   number in a given range [lo, hi). The tensor values of @main are numbered in program order after the fifteen
   arguments (numbers 0 … 14), one buffer per value and one value per operation, so a stretch of the line writes a
   stretch of numbers; a line whose operations all write inside [lo, hi) leaves every buffer numbered outside it —
   the arguments when 15 ≤ lo, and every value of another stretch — at what it held. -/
import proofs.«160050_j32744830665390_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- One operation is fit for the run, writing inside [lo, hi): its buffers are TensorCore references, it allocates
    nothing (its results are determined by its operands), and it writes exactly one buffer, whose number lies in
    the range. -/
structure Good (lo hi : Nat) (op : HloOp τ sig (Elt F)) : Prop where
  sub : op.bufs ⊆ tcRefs τ sig
  fresh : op.fresh = ∅
  off : ∃ y : Ref sig .tc, op.writes = {Proc.devRef .tc y} ∧ lo ≤ y.idx.val ∧ y.idx.val < hi

/-- A wider range admits the same operation. -/
theorem Good.mono {lo hi lo' hi' : Nat} {op : HloOp τ sig (Elt F)} (h : Good lo hi op) (hlo : lo' ≤ lo) (hhi : hi ≤ hi') :
    Good lo' hi' op :=
  ⟨h.sub, h.fresh, h.off.imp fun _ hy => ⟨hy.1, le_trans hlo hy.2.1, lt_of_lt_of_le hy.2.2 hhi⟩⟩

section Builders

variable {lo hi : Nat} {x a b c y : Ref sig .tc}

/-- Each builder's operation is fit as soon as its result reference's number is in the range: what it touches and
    what it writes are literal sets of the references it is built from. -/
theorem good_nullary (h : lo ≤ y.idx.val ∧ y.idx.val < hi) (v : y.ty.Contents (Elt F)) (hy) :
    Good lo hi (nullary (τ := τ) y v hy) :=
  ⟨nullary_bufs_sub .., rfl, y, rfl, h⟩

theorem good_unary (h : lo ≤ y.idx.val ∧ y.idx.val < hi) (f : x.ty.Contents (Elt F) → y.ty.Contents (Elt F)) (hx hy) :
    Good lo hi (unary (τ := τ) x y f hx hy) :=
  ⟨unary_bufs_sub .., rfl, y, rfl, h⟩

theorem good_binary (h : lo ≤ y.idx.val ∧ y.idx.val < hi)
    (f : a.ty.Contents (Elt F) → b.ty.Contents (Elt F) → y.ty.Contents (Elt F)) (ha hb hy) :
    Good lo hi (binary (τ := τ) a b y f ha hb hy) :=
  ⟨binary_bufs_sub .., rfl, y, rfl, h⟩

theorem good_ternary (h : lo ≤ y.idx.val ∧ y.idx.val < hi)
    (f : c.ty.Contents (Elt F) → a.ty.Contents (Elt F) → b.ty.Contents (Elt F) → y.ty.Contents (Elt F)) (hc ha hb hy) :
    Good lo hi (ternary (τ := τ) c a b y f hc ha hb hy) :=
  ⟨ternary_bufs_sub .., rfl, y, rfl, h⟩

theorem good_reshape (h : lo ≤ y.idx.val ∧ y.idx.val < hi) (he hn hx hy) :
    Good lo hi (reshape (τ := τ) (Val := Elt F) x y he hn hx hy) :=
  ⟨reshape_bufs_sub .., rfl, y, rfl, h⟩

end Builders

/-- A property of every element of two lists holds of every element of their concatenation. -/
theorem forall_cat {α : Type _} {p : α → Prop} {l₁ l₂ : List α} (h₁ : l₁.Forall p) (h₂ : l₂.Forall p) :
    (l₁ ++ l₂).Forall p :=
  List.forall_iff_forall_mem.mpr
    (List.forall_mem_append.mpr ⟨List.forall_iff_forall_mem.mp h₁, List.forall_iff_forall_mem.mp h₂⟩)

/-- A property of every element of a list, weakened element by element. -/
theorem forall_weaken {α : Type _} {p q : α → Prop} {l : List α} (h : l.Forall p) (hpq : ∀ x, p x → q x) : l.Forall q :=
  List.forall_iff_forall_mem.mpr fun x hx => hpq x (List.forall_iff_forall_mem.mp h x hx)

/-- A line of operations fit inside [lo, hi) writes no buffer numbered outside the range: after it, such a buffer
    holds what it held before. For, an operation that wrote it would write a reference equal to it (references are
    told apart as device buffers), whose number is in the range. -/
theorem after_keep {lo hi : Nat} (ops : List (HloOp τ sig (Elt F))) (h : ops.Forall (Good lo hi)) (V : Valuation τ sig (Elt F))
    {r : Ref sig .tc} (hr : r.idx.val < lo ∨ hi ≤ r.idx.val) :
    after ops V (Proc.devRef .tc r) = V (Proc.devRef .tc r) :=
  after_of_forall_not_mem ops V fun op hop hb => by
    obtain ⟨y, hw, hy⟩ := (List.forall_iff_forall_mem.mp h op hop).off
    rw [hw, Finset.mem_singleton] at hb
    have e : r = y := Proc.devRef_injective _ hb
    rw [e] at hr
    omega

end Cert.ReferenceIdeal.HandRun

end
-- ==== Proof.Ref.Ops.lean ====
/- @main of the reference program as the straight line of host operations it is: one list per window of the
   printed text, a called function's operations standing at the call over the buffers of that call's record,
   the call's operands as typed references at the callee's parameter types; and, window by window, that each
   operation is fit for the run (Good.lean) and writes a buffer numbered inside the window's stretch: the builder's
   lemma at its result reference, the number's bounds by evaluation. -/
import proofs.«160050_j32744830665390_2_alg».proof.Proof.Ref.Good

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 1000000 in
/-- The operations of window 0 of @main (84 of them, operations 1 … 84). -/
abbrev ops0 : List (HloOp τ sig (Elt F)) :=
  [ unary main_arg13 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg13 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v1 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x00000000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    unary main_cst_2 main_v10 (broadcastInDim S50000 ![] bcast_S_S50000 : (⟨S_, .f32⟩ : BufTy).Contents (Elt F) → (⟨S50000, .f32⟩ : BufTy).Contents (Elt F)),
    binary main_v7 main_v10 main_v11 (maximumf : (⟨S50000, .f32⟩ : BufTy).Contents (Elt F) → (⟨S50000, .f32⟩ : BufTy).Contents (Elt F) → (⟨S50000, .f32⟩ : BufTy).Contents (Elt F)),
    unary main_v11 main_v12 (Host.rsqrt : (⟨S50000, .f32⟩ : BufTy).Contents (Elt F) → (⟨S50000, .f32⟩ : BufTy).Contents (Elt F)),
    nullary main_cst_3 (constant S_ .f32 0x00000000#32),
    TRef.unary (TRef.of main_cst_3 : TRef sig ⟨S_, .f32⟩) main_call0.v0 id,
    TRef.unary main_call0.v0 main_call0.v1 (broadcastInDim S50000 ![] bcast_S_S50000),
    TRef.ternary (TRef.of main_v9 : TRef sig ⟨S50000, .i1⟩) (TRef.of main_v12 : TRef sig ⟨S50000, .f32⟩) main_call0.v1 main_call0.v2 select,
    nullary main_c (constantI S_ 32 0#32),
    unary main_c main_v14 (broadcastInDim S800000 ![] bcast_S_S800000 : (⟨S_, .i32⟩ : BufTy).Contents (Elt F) → (⟨S800000, .i32⟩ : BufTy).Contents (Elt F)),
    binary main_v1 main_v14 main_v15 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v16 (broadcastInDim S800000 ![] bcast_S_S800000 : (⟨S_, .i32⟩ : BufTy).Contents (Elt F) → (⟨S800000, .i32⟩ : BufTy).Contents (Elt F)),
    binary main_v1 main_v16 main_v17 (addi : (⟨S800000, .i32⟩ : BufTy).Contents (Elt F) → (⟨S800000, .i32⟩ : BufTy).Contents (Elt F) → (⟨S800000, .i32⟩ : BufTy).Contents (Elt F)),
    ternary main_v15 main_v17 main_v1 main_v18 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v18 main_v19 (broadcastInDim S800000x1 ![0] bcast_S800000_S800000x1_0 : (⟨S800000, .i32⟩ : BufTy).Contents (Elt F) → (⟨S800000x1, .i32⟩ : BufTy).Contents (Elt F)),
    binary main_v13 main_v19 main_v20 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    unary main_v20 main_v21 (Host.negf : (⟨S800000, .f32⟩ : BufTy).Contents (Elt F) → (⟨S800000, .f32⟩ : BufTy).Contents (Elt F)),
    nullary main_c_5 (constantI S_ 32 0#32),
    unary main_c_5 main_v22 (broadcastInDim S800000 ![] bcast_S_S800000 : (⟨S_, .i32⟩ : BufTy).Contents (Elt F) → (⟨S800000, .i32⟩ : BufTy).Contents (Elt F)),
    binary main_v3 main_v22 main_v23 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v24 (broadcastInDim S800000 ![] bcast_S_S800000 : (⟨S_, .i32⟩ : BufTy).Contents (Elt F) → (⟨S800000, .i32⟩ : BufTy).Contents (Elt F)),
    binary main_v3 main_v24 main_v25 (addi : (⟨S800000, .i32⟩ : BufTy).Contents (Elt F) → (⟨S800000, .i32⟩ : BufTy).Contents (Elt F) → (⟨S800000, .i32⟩ : BufTy).Contents (Elt F)),
    ternary main_v23 main_v25 main_v3 main_v26 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v26 main_v27 (broadcastInDim S800000x1 ![0] bcast_S800000_S800000x1_0 : (⟨S800000, .i32⟩ : BufTy).Contents (Elt F) → (⟨S800000x1, .i32⟩ : BufTy).Contents (Elt F)),
    binary main_v13 main_v27 main_v28 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v21 main_v28 main_v29 (mulf : (⟨S800000, .f32⟩ : BufTy).Contents (Elt F) → (⟨S800000, .f32⟩ : BufTy).Contents (Elt F) → (⟨S800000, .f32⟩ : BufTy).Contents (Elt F)),
    binary main_arg0 main_arg1 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg2 main_v31 (broadcastInDim S1x128 ![1] bcast_S128_S1x128_1 : (⟨S128, .f32⟩ : BufTy).Contents (Elt F) → (⟨S1x128, .f32⟩ : BufTy).Contents (Elt F)),
    unary main_v31 main_v32 (broadcastInDim S50000x128 ![0, 1] bcast_S1x128_S50000x128_0_1 : (⟨S1x128, .f32⟩ : BufTy).Contents (Elt F) → (⟨S50000x128, .f32⟩ : BufTy).Contents (Elt F)),
    binary main_v30 main_v32 main_v33 (addf : (⟨S50000x128, .f32⟩ : BufTy).Contents (Elt F) → (⟨S50000x128, .f32⟩ : BufTy).Contents (Elt F) → (⟨S50000x128, .f32⟩ : BufTy).Contents (Elt F)),
    nullary main_cst_7 (constant S_ .f32 0x00000000#32),
    binary main_v33 main_cst_7 main_v34 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v34 main_v35 (broadcastInDim S50000x1 ![0] bcast_S50000_S50000x1_0 : (⟨S50000, .f32⟩ : BufTy).Contents (Elt F) → (⟨S50000x1, .f32⟩ : BufTy).Contents (Elt F)),
    nullary main_cst_8 (constant S_ .f32 0x43000000#32),
    unary main_cst_8 main_v36 (broadcastInDim S50000x1 ![] bcast_S_S50000x1 : (⟨S_, .f32⟩ : BufTy).Contents (Elt F) → (⟨S50000x1, .f32⟩ : BufTy).Contents (Elt F)),
    binary main_v35 main_v36 main_v37 (Host.divf : (⟨S50000x1, .f32⟩ : BufTy).Contents (Elt F) → (⟨S50000x1, .f32⟩ : BufTy).Contents (Elt F) → (⟨S50000x1, .f32⟩ : BufTy).Contents (Elt F)),
    nullary main_c_9 (constantI S_ 32 0#32),
    TRef.nullary main_call1.cst (constant S_ .f32 0x00000000#32),
    TRef.binary (TRef.of main_v33 : TRef sig ⟨S50000x128, .f32⟩) main_call1.cst main_call1.v0 (fun x v => Host.reduceAdd x v reducesTo_S50000x128_S50000_d1 h_S_),
    TRef.unary main_call1.v0 main_call1.v1 (broadcastInDim S50000x1 ![0] bcast_S50000_S50000x1_0),
    TRef.nullary main_call1.cst_0 (constant S_ .f32 0x43000000#32),
    TRef.unary main_call1.cst_0 main_call1.v2 (broadcastInDim S50000x1 ![] bcast_S_S50000x1),
    TRef.binary main_call1.v1 main_call1.v2 main_call1.v3 Host.divf,
    TRef.unary main_call1.v3 main_call1.v4 (broadcastInDim S50000x128 ![0, 1] bcast_S50000x1_S50000x128_0_1),
    TRef.binary (TRef.of main_v33 : TRef sig ⟨S50000x128, .f32⟩) main_call1.v4 main_call1.v5 subf,
    TRef.binary main_call1.v5 main_call1.v5 main_call1.v6 mulf,
    TRef.unary (TRef.of main_c_9 : TRef sig ⟨S_, .i32⟩) main_call1.v7 (sitofp .f32),
    TRef.nullary main_call1.cst_1 (constant S_ .f32 0x43000000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S50000x128_S50000_d1 h_S_),
    TRef.unary main_call1.v9 main_call1.v10 (broadcastInDim S50000x1 ![0] bcast_S50000_S50000x1_0),
    TRef.unary main_call1.v8 main_call1.v11 (broadcastInDim S50000x1 ![] bcast_S_S50000x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S50000x1 ![] bcast_S_S50000x1),
    TRef.ternary main_call1.v13 main_call1.v12 main_call1.call0.v1 main_call1.call0.v2 (fun p a b => select (broadcastInDim S50000x1 ![] bcast_S_S50000x1 p) a b),
    unary main_v37 main_v39 (broadcastInDim S50000x128 ![0, 1] bcast_S50000x1_S50000x128_0_1 : (⟨S50000x1, .f32⟩ : BufTy).Contents (Elt F) → (⟨S50000x128, .f32⟩ : BufTy).Contents (Elt F)),
    binary main_v33 main_v39 main_v40 (subf : (⟨S50000x128, .f32⟩ : BufTy).Contents (Elt F) → (⟨S50000x128, .f32⟩ : BufTy).Contents (Elt F) → (⟨S50000x128, .f32⟩ : BufTy).Contents (Elt F)),
    nullary main_cst_10 (constant S_ .f32 0x3727C5AC#32),
    unary main_cst_10 main_v41 (broadcastInDim S50000x1 ![] bcast_S_S50000x1 : (⟨S_, .f32⟩ : BufTy).Contents (Elt F) → (⟨S50000x1, .f32⟩ : BufTy).Contents (Elt F)),
    binary main_v38 main_v41 main_v42 (addf : (⟨S50000x1, .f32⟩ : BufTy).Contents (Elt F) → (⟨S50000x1, .f32⟩ : BufTy).Contents (Elt F) → (⟨S50000x1, .f32⟩ : BufTy).Contents (Elt F)),
    unary main_v42 main_v43 (Host.rsqrt : (⟨S50000x1, .f32⟩ : BufTy).Contents (Elt F) → (⟨S50000x1, .f32⟩ : BufTy).Contents (Elt F)),
    unary main_v43 main_v44 (broadcastInDim S50000x128 ![0, 1] bcast_S50000x1_S50000x128_0_1 : (⟨S50000x1, .f32⟩ : BufTy).Contents (Elt F) → (⟨S50000x128, .f32⟩ : BufTy).Contents (Elt F)),
    binary main_v40 main_v44 main_v45 (mulf : (⟨S50000x128, .f32⟩ : BufTy).Contents (Elt F) → (⟨S50000x128, .f32⟩ : BufTy).Contents (Elt F) → (⟨S50000x128, .f32⟩ : BufTy).Contents (Elt F)),
    unary main_arg3 main_v46 (broadcastInDim S1x128 ![1] bcast_S128_S1x128_1 : (⟨S128, .f32⟩ : BufTy).Contents (Elt F) → (⟨S1x128, .f32⟩ : BufTy).Contents (Elt F)) ]

set_option maxHeartbeats 1000000 in
set_option maxRecDepth 8192 in
/-- Window 0 writes the buffers numbered 15 … 98. -/
theorem ops0_good : (ops0 : List (HloOp τ sig (Elt F))).Forall (Good 15 99) :=
  ⟨good_unary (h := by decide) ..,
   good_reshape (h := by decide) ..,
   good_unary (h := by decide) ..,
   good_reshape (h := by decide) ..,
   good_nullary (h := by decide) ..,
   good_unary (h := by decide) ..,
   good_nullary (h := by decide) ..,
   good_unary (h := by decide) ..,
   good_unary (h := by decide) ..,
   good_ternary (h := by decide) ..,
   good_nullary (h := by decide) ..,
   good_unary (h := by decide) ..,
   good_binary (h := by decide) ..,
   good_nullary (h := by decide) ..,
   good_unary (h := by decide) ..,
   good_binary (h := by decide) ..,
   good_unary (h := by decide) ..,
   good_nullary (h := by decide) ..,
   good_unary (h := by decide) ..,
   good_unary (h := by decide) ..,
   good_ternary (h := by decide) ..,
   good_nullary (h := by decide) ..,
   good_unary (h := by decide) ..,
   good_binary (h := by decide) ..,
   good_nullary (h := by decide) ..,
   good_unary (h := by decide) ..,
   good_binary (h := by decide) ..,
   good_ternary (h := by decide) ..,
   good_unary (h := by decide) ..,
   good_binary (h := by decide) ..,
   good_unary (h := by decide) ..,
   good_nullary (h := by decide) ..,
   good_unary (h := by decide) ..,
   good_binary (h := by decide) ..,
   good_nullary (h := by decide) ..,
   good_unary (h := by decide) ..,
   good_binary (h := by decide) ..,
   good_ternary (h := by decide) ..,
   good_unary (h := by decide) ..,
   good_binary (h := by decide) ..,
   good_binary (h := by decide) ..,
   good_binary (h := by decide) ..,
   good_unary (h := by decide) ..,
   good_unary (h := by decide) ..,
   good_binary (h := by decide) ..,
   good_nullary (h := by decide) ..,
   good_binary (h := by decide) ..,
   good_unary (h := by decide) ..,
   good_nullary (h := by decide) ..,
   good_unary (h := by decide) ..,
   good_binary (h := by decide) ..,
   good_nullary (h := by decide) ..,
   good_nullary (h := by decide) ..,
   good_binary (h := by decide) ..,
   good_unary (h := by decide) ..,
   good_nullary (h := by decide) ..,
   good_unary (h := by decide) ..,
   good_binary (h := by decide) ..,
   good_unary (h := by decide) ..,
   good_binary (h := by decide) ..,
   good_binary (h := by decide) ..,
   good_unary (h := by decide) ..,
   good_nullary (h := by decide) ..,
   good_binary (h := by decide) ..,
   good_nullary (h := by decide) ..,
   good_binary (h := by decide) ..,
   good_unary (h := by decide) ..,
   good_unary (h := by decide) ..,
   good_binary (h := by decide) ..,
   good_nullary (h := by decide) ..,
   good_binary (h := by decide) ..,
   good_nullary (h := by decide) ..,
   good_unary (h := by decide) ..,
   good_unary (h := by decide) ..,
   good_ternary (h := by decide) ..,
   good_unary (h := by decide) ..,
   good_binary (h := by decide) ..,
   good_nullary (h := by decide) ..,
   good_unary (h := by decide) ..,
   good_binary (h := by decide) ..,
   good_unary (h := by decide) ..,
   good_unary (h := by decide) ..,
   good_binary (h := by decide) ..,
   good_unary (h := by decide) ..⟩

set_option maxHeartbeats 1000000 in
/-- The operations of window 1 of @main (62 of them, operations 85 … 146). -/
abbrev ops1 : List (HloOp τ sig (Elt F)) :=
  [ unary main_v46 main_v47 (broadcastInDim S50000x128 ![0, 1] bcast_S1x128_S50000x128_0_1 : (⟨S1x128, .f32⟩ : BufTy).Contents (Elt F) → (⟨S50000x128, .f32⟩ : BufTy).Contents (Elt F)),
    binary main_v45 main_v47 main_v48 (mulf : (⟨S50000x128, .f32⟩ : BufTy).Contents (Elt F) → (⟨S50000x128, .f32⟩ : BufTy).Contents (Elt F) → (⟨S50000x128, .f32⟩ : BufTy).Contents (Elt F)),
    unary main_arg4 main_v49 (broadcastInDim S1x128 ![1] bcast_S128_S1x128_1 : (⟨S128, .f32⟩ : BufTy).Contents (Elt F) → (⟨S1x128, .f32⟩ : BufTy).Contents (Elt F)),
    unary main_v49 main_v50 (broadcastInDim S50000x128 ![0, 1] bcast_S1x128_S50000x128_0_1 : (⟨S1x128, .f32⟩ : BufTy).Contents (Elt F) → (⟨S50000x128, .f32⟩ : BufTy).Contents (Elt F)),
    binary main_v48 main_v50 main_v51 (addf : (⟨S50000x128, .f32⟩ : BufTy).Contents (Elt F) → (⟨S50000x128, .f32⟩ : BufTy).Contents (Elt F) → (⟨S50000x128, .f32⟩ : BufTy).Contents (Elt F)),
    TRef.nullary main_call2.cst (constant S_ .f32 0x00000000#32),
    TRef.unary main_call2.cst main_call2.v0 (broadcastInDim S50000x128 ![] bcast_S_S50000x128),
    TRef.binary (TRef.of main_v51 : TRef sig ⟨S50000x128, .f32⟩) main_call2.v0 main_call2.v1 maximumf,
    unary main_arg5 main_v53 ((extractStridedSlice S1x1x128x128 ![0, 0, 0, 0] · slices_S3x3x128x128_S1x1x128x128_0_0_0_0) : (⟨S3x3x128x128, .f32⟩ : BufTy).Contents (Elt F) → (⟨S1x1x128x128, .f32⟩ : BufTy).Contents (Elt F)),
    reshape main_v53 main_v54 rfl shapeCasts_S1x1x128x128_S128x128,
    binary main_v52 main_v54 main_v55 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v29 main_v56 (broadcastInDim S800000x1 ![0] bcast_S800000_S800000x1_0 : (⟨S800000, .f32⟩ : BufTy).Contents (Elt F) → (⟨S800000x1, .f32⟩ : BufTy).Contents (Elt F)),
    nullary main_c_11 (constantI S_ 32 0#32),
    unary main_c_11 main_v57 (broadcastInDim S800000 ![] bcast_S_S800000 : (⟨S_, .i32⟩ : BufTy).Contents (Elt F) → (⟨S800000, .i32⟩ : BufTy).Contents (Elt F)),
    binary main_v1 main_v57 main_v58 (cmpi .slt : (⟨S800000, .i32⟩ : BufTy).Contents (Elt F) → (⟨S800000, .i32⟩ : BufTy).Contents (Elt F) → (⟨S800000, .i1⟩ : BufTy).Contents (Elt F)),
    nullary main_c_12 (constantI S_ 32 50000#32),
    unary main_c_12 main_v59 (broadcastInDim S800000 ![] bcast_S_S800000 : (⟨S_, .i32⟩ : BufTy).Contents (Elt F) → (⟨S800000, .i32⟩ : BufTy).Contents (Elt F)),
    binary main_v1 main_v59 main_v60 (addi : (⟨S800000, .i32⟩ : BufTy).Contents (Elt F) → (⟨S800000, .i32⟩ : BufTy).Contents (Elt F) → (⟨S800000, .i32⟩ : BufTy).Contents (Elt F)),
    ternary main_v58 main_v60 main_v1 main_v61 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v61 main_v62 (broadcastInDim S800000x1 ![0] bcast_S800000_S800000x1_0 : (⟨S800000, .i32⟩ : BufTy).Contents (Elt F) → (⟨S800000x1, .i32⟩ : BufTy).Contents (Elt F)),
    binary main_v52 main_v62 main_v63 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v56 main_v64 (broadcastInDim S800000x128 ![0, 1] bcast_S800000x1_S800000x128_0_1 : (⟨S800000x1, .f32⟩ : BufTy).Contents (Elt F) → (⟨S800000x128, .f32⟩ : BufTy).Contents (Elt F)),
    binary main_v64 main_v63 main_v65 (mulf : (⟨S800000x128, .f32⟩ : BufTy).Contents (Elt F) → (⟨S800000x128, .f32⟩ : BufTy).Contents (Elt F) → (⟨S800000x128, .f32⟩ : BufTy).Contents (Elt F)),
    nullary main_cst_13 (constant S_ .f32 0x00000000#32),
    unary main_cst_13 main_v66 (broadcastInDim S50000x128 ![] bcast_S_S50000x128 : (⟨S_, .f32⟩ : BufTy).Contents (Elt F) → (⟨S50000x128, .f32⟩ : BufTy).Contents (Elt F)),
    unary main_v3 main_v67 (broadcastInDim S800000x1 ![0] bcast_S800000_S800000x1_0 : (⟨S800000, .i32⟩ : BufTy).Contents (Elt F) → (⟨S800000x1, .i32⟩ : BufTy).Contents (Elt F)),
    ternary main_v66 main_v67 main_v65 main_v68 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_arg5 main_v69 ((extractStridedSlice S1x1x128x128 ![0, 1, 0, 0] · slices_S3x3x128x128_S1x1x128x128_0_1_0_0) : (⟨S3x3x128x128, .f32⟩ : BufTy).Contents (Elt F) → (⟨S1x1x128x128, .f32⟩ : BufTy).Contents (Elt F)),
    reshape main_v69 main_v70 rfl shapeCasts_S1x1x128x128_S128x128,
    binary main_v68 main_v70 main_v71 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v55 main_v71 main_v72 (addf : (⟨S50000x128, .f32⟩ : BufTy).Contents (Elt F) → (⟨S50000x128, .f32⟩ : BufTy).Contents (Elt F) → (⟨S50000x128, .f32⟩ : BufTy).Contents (Elt F)),
    unary main_v29 main_v73 (broadcastInDim S800000x1 ![0] bcast_S800000_S800000x1_0 : (⟨S800000, .f32⟩ : BufTy).Contents (Elt F) → (⟨S800000x1, .f32⟩ : BufTy).Contents (Elt F)),
    nullary main_c_14 (constantI S_ 32 0#32),
    unary main_c_14 main_v74 (broadcastInDim S800000 ![] bcast_S_S800000 : (⟨S_, .i32⟩ : BufTy).Contents (Elt F) → (⟨S800000, .i32⟩ : BufTy).Contents (Elt F)),
    binary main_v1 main_v74 main_v75 (cmpi .slt : (⟨S800000, .i32⟩ : BufTy).Contents (Elt F) → (⟨S800000, .i32⟩ : BufTy).Contents (Elt F) → (⟨S800000, .i1⟩ : BufTy).Contents (Elt F)),
    nullary main_c_15 (constantI S_ 32 50000#32),
    unary main_c_15 main_v76 (broadcastInDim S800000 ![] bcast_S_S800000 : (⟨S_, .i32⟩ : BufTy).Contents (Elt F) → (⟨S800000, .i32⟩ : BufTy).Contents (Elt F)),
    binary main_v1 main_v76 main_v77 (addi : (⟨S800000, .i32⟩ : BufTy).Contents (Elt F) → (⟨S800000, .i32⟩ : BufTy).Contents (Elt F) → (⟨S800000, .i32⟩ : BufTy).Contents (Elt F)),
    ternary main_v75 main_v77 main_v1 main_v78 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v78 main_v79 (broadcastInDim S800000x1 ![0] bcast_S800000_S800000x1_0 : (⟨S800000, .i32⟩ : BufTy).Contents (Elt F) → (⟨S800000x1, .i32⟩ : BufTy).Contents (Elt F)),
    binary main_v68 main_v79 main_v80 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v73 main_v81 (broadcastInDim S800000x128 ![0, 1] bcast_S800000x1_S800000x128_0_1 : (⟨S800000x1, .f32⟩ : BufTy).Contents (Elt F) → (⟨S800000x128, .f32⟩ : BufTy).Contents (Elt F)),
    binary main_v81 main_v80 main_v82 (mulf : (⟨S800000x128, .f32⟩ : BufTy).Contents (Elt F) → (⟨S800000x128, .f32⟩ : BufTy).Contents (Elt F) → (⟨S800000x128, .f32⟩ : BufTy).Contents (Elt F)),
    nullary main_cst_16 (constant S_ .f32 0x00000000#32),
    unary main_cst_16 main_v83 (broadcastInDim S50000x128 ![] bcast_S_S50000x128 : (⟨S_, .f32⟩ : BufTy).Contents (Elt F) → (⟨S50000x128, .f32⟩ : BufTy).Contents (Elt F)),
    unary main_v3 main_v84 (broadcastInDim S800000x1 ![0] bcast_S800000_S800000x1_0 : (⟨S800000, .i32⟩ : BufTy).Contents (Elt F) → (⟨S800000x1, .i32⟩ : BufTy).Contents (Elt F)),
    ternary main_v83 main_v84 main_v82 main_v85 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_17 (constant S_ .f32 0x40000000#32),
    unary main_cst_17 main_v86 (broadcastInDim S50000x128 ![] bcast_S_S50000x128 : (⟨S_, .f32⟩ : BufTy).Contents (Elt F) → (⟨S50000x128, .f32⟩ : BufTy).Contents (Elt F)),
    binary main_v86 main_v85 main_v87 (mulf : (⟨S50000x128, .f32⟩ : BufTy).Contents (Elt F) → (⟨S50000x128, .f32⟩ : BufTy).Contents (Elt F) → (⟨S50000x128, .f32⟩ : BufTy).Contents (Elt F)),
    binary main_v87 main_v52 main_v88 (subf : (⟨S50000x128, .f32⟩ : BufTy).Contents (Elt F) → (⟨S50000x128, .f32⟩ : BufTy).Contents (Elt F) → (⟨S50000x128, .f32⟩ : BufTy).Contents (Elt F)),
    unary main_arg5 main_v89 ((extractStridedSlice S1x1x128x128 ![0, 2, 0, 0] · slices_S3x3x128x128_S1x1x128x128_0_2_0_0) : (⟨S3x3x128x128, .f32⟩ : BufTy).Contents (Elt F) → (⟨S1x1x128x128, .f32⟩ : BufTy).Contents (Elt F)),
    reshape main_v89 main_v90 rfl shapeCasts_S1x1x128x128_S128x128,
    binary main_v88 main_v90 main_v91 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v72 main_v91 main_v92 (addf : (⟨S50000x128, .f32⟩ : BufTy).Contents (Elt F) → (⟨S50000x128, .f32⟩ : BufTy).Contents (Elt F) → (⟨S50000x128, .f32⟩ : BufTy).Contents (Elt F)),
    unary main_arg6 main_v93 ((extractStridedSlice S1x128 ![0, 0] · slices_S3x128_S1x128_0_0) : (⟨S3x128, .f32⟩ : BufTy).Contents (Elt F) → (⟨S1x128, .f32⟩ : BufTy).Contents (Elt F)),
    reshape main_v93 main_v94 rfl shapeCasts_S1x128_S128,
    unary main_v94 main_v95 (broadcastInDim S1x128 ![1] bcast_S128_S1x128_1 : (⟨S128, .f32⟩ : BufTy).Contents (Elt F) → (⟨S1x128, .f32⟩ : BufTy).Contents (Elt F)),
    unary main_v95 main_v96 (broadcastInDim S50000x128 ![0, 1] bcast_S1x128_S50000x128_0_1 : (⟨S1x128, .f32⟩ : BufTy).Contents (Elt F) → (⟨S50000x128, .f32⟩ : BufTy).Contents (Elt F)),
    binary main_v92 main_v96 main_v97 (addf : (⟨S50000x128, .f32⟩ : BufTy).Contents (Elt F) → (⟨S50000x128, .f32⟩ : BufTy).Contents (Elt F) → (⟨S50000x128, .f32⟩ : BufTy).Contents (Elt F)),
    nullary main_cst_18 (constant S_ .f32 0x00000000#32),
    binary main_v97 main_cst_18 main_v98 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) ]

set_option maxHeartbeats 1000000 in
set_option maxRecDepth 8192 in
/-- Window 1 writes the buffers numbered 99 … 160. -/
theorem ops1_good : (ops1 : List (HloOp τ sig (Elt F))).Forall (Good 99 161) :=
  ⟨good_unary (h := by decide) ..,
   good_binary (h := by decide) ..,
   good_unary (h := by decide) ..,
   good_unary (h := by decide) ..,
   good_binary (h := by decide) ..,
   good_nullary (h := by decide) ..,
   good_unary (h := by decide) ..,
   good_binary (h := by decide) ..,
   good_unary (h := by decide) ..,
   good_reshape (h := by decide) ..,
   good_binary (h := by decide) ..,
   good_unary (h := by decide) ..,
   good_nullary (h := by decide) ..,
   good_unary (h := by decide) ..,
   good_binary (h := by decide) ..,
   good_nullary (h := by decide) ..,
   good_unary (h := by decide) ..,
   good_binary (h := by decide) ..,
   good_ternary (h := by decide) ..,
   good_unary (h := by decide) ..,
   good_binary (h := by decide) ..,
   good_unary (h := by decide) ..,
   good_binary (h := by decide) ..,
   good_nullary (h := by decide) ..,
   good_unary (h := by decide) ..,
   good_unary (h := by decide) ..,
   good_ternary (h := by decide) ..,
   good_unary (h := by decide) ..,
   good_reshape (h := by decide) ..,
   good_binary (h := by decide) ..,
   good_binary (h := by decide) ..,
   good_unary (h := by decide) ..,
   good_nullary (h := by decide) ..,
   good_unary (h := by decide) ..,
   good_binary (h := by decide) ..,
   good_nullary (h := by decide) ..,
   good_unary (h := by decide) ..,
   good_binary (h := by decide) ..,
   good_ternary (h := by decide) ..,
   good_unary (h := by decide) ..,
   good_binary (h := by decide) ..,
   good_unary (h := by decide) ..,
   good_binary (h := by decide) ..,
   good_nullary (h := by decide) ..,
   good_unary (h := by decide) ..,
   good_unary (h := by decide) ..,
   good_ternary (h := by decide) ..,
   good_nullary (h := by decide) ..,
   good_unary (h := by decide) ..,
   good_binary (h := by decide) ..,
   good_binary (h := by decide) ..,
   good_unary (h := by decide) ..,
   good_reshape (h := by decide) ..,
   good_binary (h := by decide) ..,
   good_binary (h := by decide) ..,
   good_unary (h := by decide) ..,
   good_reshape (h := by decide) ..,
   good_unary (h := by decide) ..,
   good_unary (h := by decide) ..,
   good_binary (h := by decide) ..,
   good_nullary (h := by decide) ..,
   good_binary (h := by decide) ..⟩

set_option maxHeartbeats 1000000 in
/-- The operations of window 2 of @main (83 of them, operations 147 … 229). -/
abbrev ops2 : List (HloOp τ sig (Elt F)) :=
  [ nullary main_cst_19 (constant S_ .f32 0x47435000#32),
    unary main_cst_19 main_v99 (broadcastInDim S128 ![] bcast_S_S128 : (⟨S_, .f32⟩ : BufTy).Contents (Elt F) → (⟨S128, .f32⟩ : BufTy).Contents (Elt F)),
    binary main_v98 main_v99 main_v100 (Host.divf : (⟨S128, .f32⟩ : BufTy).Contents (Elt F) → (⟨S128, .f32⟩ : BufTy).Contents (Elt F) → (⟨S128, .f32⟩ : BufTy).Contents (Elt F)),
    nullary main_c_20 (constantI S_ 32 0#32),
    TRef.nullary main_call3.cst (constant S_ .f32 0x00000000#32),
    TRef.binary (TRef.of main_v97 : TRef sig ⟨S50000x128, .f32⟩) main_call3.cst main_call3.v0 (fun x v => Host.reduceAdd x v reducesTo_S50000x128_S128_d0 h_S_),
    TRef.unary main_call3.v0 main_call3.v1 (broadcastInDim S1x128 ![1] bcast_S128_S1x128_1),
    TRef.nullary main_call3.cst_0 (constant S_ .f32 0x47435000#32),
    TRef.unary main_call3.cst_0 main_call3.v2 (broadcastInDim S1x128 ![] bcast_S_S1x128),
    TRef.binary main_call3.v1 main_call3.v2 main_call3.v3 Host.divf,
    TRef.unary main_call3.v3 main_call3.v4 (broadcastInDim S50000x128 ![0, 1] bcast_S1x128_S50000x128_0_1),
    TRef.binary (TRef.of main_v97 : TRef sig ⟨S50000x128, .f32⟩) main_call3.v4 main_call3.v5 subf,
    TRef.binary main_call3.v5 main_call3.v5 main_call3.v6 mulf,
    TRef.unary (TRef.of main_c_20 : TRef sig ⟨S_, .i32⟩) main_call3.v7 (sitofp .f32),
    TRef.nullary main_call3.cst_1 (constant S_ .f32 0x47435000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S50000x128_S128_d0 h_S_),
    TRef.unary main_call3.v8 main_call3.v10 (broadcastInDim S128 ![] bcast_S_S128),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S128 ![] bcast_S_S128),
    TRef.ternary main_call3.v12 main_call3.v11 main_call3.call0.v1 main_call3.call0.v2 (fun p a b => select (broadcastInDim S128 ![] bcast_S_S128 p) a b),
    unary main_v100 main_v102 (broadcastInDim S1x128 ![1] bcast_S128_S1x128_1 : (⟨S128, .f32⟩ : BufTy).Contents (Elt F) → (⟨S1x128, .f32⟩ : BufTy).Contents (Elt F)),
    unary main_v102 main_v103 (broadcastInDim S50000x128 ![0, 1] bcast_S1x128_S50000x128_0_1 : (⟨S1x128, .f32⟩ : BufTy).Contents (Elt F) → (⟨S50000x128, .f32⟩ : BufTy).Contents (Elt F)),
    binary main_v97 main_v103 main_v104 (subf : (⟨S50000x128, .f32⟩ : BufTy).Contents (Elt F) → (⟨S50000x128, .f32⟩ : BufTy).Contents (Elt F) → (⟨S50000x128, .f32⟩ : BufTy).Contents (Elt F)),
    nullary main_cst_21 (constant S_ .f32 0x3727C5AC#32),
    unary main_cst_21 main_v105 (broadcastInDim S128 ![] bcast_S_S128 : (⟨S_, .f32⟩ : BufTy).Contents (Elt F) → (⟨S128, .f32⟩ : BufTy).Contents (Elt F)),
    binary main_v101 main_v105 main_v106 (addf : (⟨S128, .f32⟩ : BufTy).Contents (Elt F) → (⟨S128, .f32⟩ : BufTy).Contents (Elt F) → (⟨S128, .f32⟩ : BufTy).Contents (Elt F)),
    unary main_v106 main_v107 (Host.rsqrt : (⟨S128, .f32⟩ : BufTy).Contents (Elt F) → (⟨S128, .f32⟩ : BufTy).Contents (Elt F)),
    unary main_v107 main_v108 (broadcastInDim S1x128 ![1] bcast_S128_S1x128_1 : (⟨S128, .f32⟩ : BufTy).Contents (Elt F) → (⟨S1x128, .f32⟩ : BufTy).Contents (Elt F)),
    unary main_v108 main_v109 (broadcastInDim S50000x128 ![0, 1] bcast_S1x128_S50000x128_0_1 : (⟨S1x128, .f32⟩ : BufTy).Contents (Elt F) → (⟨S50000x128, .f32⟩ : BufTy).Contents (Elt F)),
    binary main_v104 main_v109 main_v110 (mulf : (⟨S50000x128, .f32⟩ : BufTy).Contents (Elt F) → (⟨S50000x128, .f32⟩ : BufTy).Contents (Elt F) → (⟨S50000x128, .f32⟩ : BufTy).Contents (Elt F)),
    unary main_arg7 main_v111 ((extractStridedSlice S1x128 ![0, 0] · slices_S3x128_S1x128_0_0) : (⟨S3x128, .f32⟩ : BufTy).Contents (Elt F) → (⟨S1x128, .f32⟩ : BufTy).Contents (Elt F)),
    reshape main_v111 main_v112 rfl shapeCasts_S1x128_S128,
    unary main_v112 main_v113 (broadcastInDim S1x128 ![1] bcast_S128_S1x128_1 : (⟨S128, .f32⟩ : BufTy).Contents (Elt F) → (⟨S1x128, .f32⟩ : BufTy).Contents (Elt F)),
    unary main_v113 main_v114 (broadcastInDim S50000x128 ![0, 1] bcast_S1x128_S50000x128_0_1 : (⟨S1x128, .f32⟩ : BufTy).Contents (Elt F) → (⟨S50000x128, .f32⟩ : BufTy).Contents (Elt F)),
    binary main_v110 main_v114 main_v115 (mulf : (⟨S50000x128, .f32⟩ : BufTy).Contents (Elt F) → (⟨S50000x128, .f32⟩ : BufTy).Contents (Elt F) → (⟨S50000x128, .f32⟩ : BufTy).Contents (Elt F)),
    unary main_arg8 main_v116 ((extractStridedSlice S1x128 ![0, 0] · slices_S3x128_S1x128_0_0) : (⟨S3x128, .f32⟩ : BufTy).Contents (Elt F) → (⟨S1x128, .f32⟩ : BufTy).Contents (Elt F)),
    reshape main_v116 main_v117 rfl shapeCasts_S1x128_S128,
    unary main_v117 main_v118 (broadcastInDim S1x128 ![1] bcast_S128_S1x128_1 : (⟨S128, .f32⟩ : BufTy).Contents (Elt F) → (⟨S1x128, .f32⟩ : BufTy).Contents (Elt F)),
    unary main_v118 main_v119 (broadcastInDim S50000x128 ![0, 1] bcast_S1x128_S50000x128_0_1 : (⟨S1x128, .f32⟩ : BufTy).Contents (Elt F) → (⟨S50000x128, .f32⟩ : BufTy).Contents (Elt F)),
    binary main_v115 main_v119 main_v120 (addf : (⟨S50000x128, .f32⟩ : BufTy).Contents (Elt F) → (⟨S50000x128, .f32⟩ : BufTy).Contents (Elt F) → (⟨S50000x128, .f32⟩ : BufTy).Contents (Elt F)),
    TRef.nullary main_call4.cst (constant S_ .f32 0x00000000#32),
    TRef.unary main_call4.cst main_call4.v0 (broadcastInDim S50000x128 ![] bcast_S_S50000x128),
    TRef.binary (TRef.of main_v120 : TRef sig ⟨S50000x128, .f32⟩) main_call4.v0 main_call4.v1 maximumf,
    unary main_arg5 main_v122 ((extractStridedSlice S1x1x128x128 ![1, 0, 0, 0] · slices_S3x3x128x128_S1x1x128x128_1_0_0_0) : (⟨S3x3x128x128, .f32⟩ : BufTy).Contents (Elt F) → (⟨S1x1x128x128, .f32⟩ : BufTy).Contents (Elt F)),
    reshape main_v122 main_v123 rfl shapeCasts_S1x1x128x128_S128x128,
    binary main_v121 main_v123 main_v124 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v29 main_v125 (broadcastInDim S800000x1 ![0] bcast_S800000_S800000x1_0 : (⟨S800000, .f32⟩ : BufTy).Contents (Elt F) → (⟨S800000x1, .f32⟩ : BufTy).Contents (Elt F)),
    nullary main_c_22 (constantI S_ 32 0#32),
    unary main_c_22 main_v126 (broadcastInDim S800000 ![] bcast_S_S800000 : (⟨S_, .i32⟩ : BufTy).Contents (Elt F) → (⟨S800000, .i32⟩ : BufTy).Contents (Elt F)),
    binary main_v1 main_v126 main_v127 (cmpi .slt : (⟨S800000, .i32⟩ : BufTy).Contents (Elt F) → (⟨S800000, .i32⟩ : BufTy).Contents (Elt F) → (⟨S800000, .i1⟩ : BufTy).Contents (Elt F)),
    nullary main_c_23 (constantI S_ 32 50000#32),
    unary main_c_23 main_v128 (broadcastInDim S800000 ![] bcast_S_S800000 : (⟨S_, .i32⟩ : BufTy).Contents (Elt F) → (⟨S800000, .i32⟩ : BufTy).Contents (Elt F)),
    binary main_v1 main_v128 main_v129 (addi : (⟨S800000, .i32⟩ : BufTy).Contents (Elt F) → (⟨S800000, .i32⟩ : BufTy).Contents (Elt F) → (⟨S800000, .i32⟩ : BufTy).Contents (Elt F)),
    ternary main_v127 main_v129 main_v1 main_v130 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v130 main_v131 (broadcastInDim S800000x1 ![0] bcast_S800000_S800000x1_0 : (⟨S800000, .i32⟩ : BufTy).Contents (Elt F) → (⟨S800000x1, .i32⟩ : BufTy).Contents (Elt F)),
    binary main_v121 main_v131 main_v132 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v125 main_v133 (broadcastInDim S800000x128 ![0, 1] bcast_S800000x1_S800000x128_0_1 : (⟨S800000x1, .f32⟩ : BufTy).Contents (Elt F) → (⟨S800000x128, .f32⟩ : BufTy).Contents (Elt F)),
    binary main_v133 main_v132 main_v134 (mulf : (⟨S800000x128, .f32⟩ : BufTy).Contents (Elt F) → (⟨S800000x128, .f32⟩ : BufTy).Contents (Elt F) → (⟨S800000x128, .f32⟩ : BufTy).Contents (Elt F)),
    nullary main_cst_24 (constant S_ .f32 0x00000000#32),
    unary main_cst_24 main_v135 (broadcastInDim S50000x128 ![] bcast_S_S50000x128 : (⟨S_, .f32⟩ : BufTy).Contents (Elt F) → (⟨S50000x128, .f32⟩ : BufTy).Contents (Elt F)),
    unary main_v3 main_v136 (broadcastInDim S800000x1 ![0] bcast_S800000_S800000x1_0 : (⟨S800000, .i32⟩ : BufTy).Contents (Elt F) → (⟨S800000x1, .i32⟩ : BufTy).Contents (Elt F)),
    ternary main_v135 main_v136 main_v134 main_v137 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_arg5 main_v138 ((extractStridedSlice S1x1x128x128 ![1, 1, 0, 0] · slices_S3x3x128x128_S1x1x128x128_1_1_0_0) : (⟨S3x3x128x128, .f32⟩ : BufTy).Contents (Elt F) → (⟨S1x1x128x128, .f32⟩ : BufTy).Contents (Elt F)),
    reshape main_v138 main_v139 rfl shapeCasts_S1x1x128x128_S128x128,
    binary main_v137 main_v139 main_v140 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v124 main_v140 main_v141 (addf : (⟨S50000x128, .f32⟩ : BufTy).Contents (Elt F) → (⟨S50000x128, .f32⟩ : BufTy).Contents (Elt F) → (⟨S50000x128, .f32⟩ : BufTy).Contents (Elt F)),
    unary main_v29 main_v142 (broadcastInDim S800000x1 ![0] bcast_S800000_S800000x1_0 : (⟨S800000, .f32⟩ : BufTy).Contents (Elt F) → (⟨S800000x1, .f32⟩ : BufTy).Contents (Elt F)),
    nullary main_c_25 (constantI S_ 32 0#32),
    unary main_c_25 main_v143 (broadcastInDim S800000 ![] bcast_S_S800000 : (⟨S_, .i32⟩ : BufTy).Contents (Elt F) → (⟨S800000, .i32⟩ : BufTy).Contents (Elt F)),
    binary main_v1 main_v143 main_v144 (cmpi .slt : (⟨S800000, .i32⟩ : BufTy).Contents (Elt F) → (⟨S800000, .i32⟩ : BufTy).Contents (Elt F) → (⟨S800000, .i1⟩ : BufTy).Contents (Elt F)),
    nullary main_c_26 (constantI S_ 32 50000#32),
    unary main_c_26 main_v145 (broadcastInDim S800000 ![] bcast_S_S800000 : (⟨S_, .i32⟩ : BufTy).Contents (Elt F) → (⟨S800000, .i32⟩ : BufTy).Contents (Elt F)),
    binary main_v1 main_v145 main_v146 (addi : (⟨S800000, .i32⟩ : BufTy).Contents (Elt F) → (⟨S800000, .i32⟩ : BufTy).Contents (Elt F) → (⟨S800000, .i32⟩ : BufTy).Contents (Elt F)),
    ternary main_v144 main_v146 main_v1 main_v147 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v147 main_v148 (broadcastInDim S800000x1 ![0] bcast_S800000_S800000x1_0 : (⟨S800000, .i32⟩ : BufTy).Contents (Elt F) → (⟨S800000x1, .i32⟩ : BufTy).Contents (Elt F)),
    binary main_v137 main_v148 main_v149 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v142 main_v150 (broadcastInDim S800000x128 ![0, 1] bcast_S800000x1_S800000x128_0_1 : (⟨S800000x1, .f32⟩ : BufTy).Contents (Elt F) → (⟨S800000x128, .f32⟩ : BufTy).Contents (Elt F)) ]

set_option maxHeartbeats 1000000 in
set_option maxRecDepth 8192 in
/-- Window 2 writes the buffers numbered 161 … 243. -/
theorem ops2_good : (ops2 : List (HloOp τ sig (Elt F))).Forall (Good 161 244) :=
  ⟨good_nullary (h := by decide) ..,
   good_unary (h := by decide) ..,
   good_binary (h := by decide) ..,
   good_nullary (h := by decide) ..,
   good_nullary (h := by decide) ..,
   good_binary (h := by decide) ..,
   good_unary (h := by decide) ..,
   good_nullary (h := by decide) ..,
   good_unary (h := by decide) ..,
   good_binary (h := by decide) ..,
   good_unary (h := by decide) ..,
   good_binary (h := by decide) ..,
   good_binary (h := by decide) ..,
   good_unary (h := by decide) ..,
   good_nullary (h := by decide) ..,
   good_binary (h := by decide) ..,
   good_nullary (h := by decide) ..,
   good_binary (h := by decide) ..,
   good_unary (h := by decide) ..,
   good_binary (h := by decide) ..,
   good_nullary (h := by decide) ..,
   good_binary (h := by decide) ..,
   good_nullary (h := by decide) ..,
   good_unary (h := by decide) ..,
   good_unary (h := by decide) ..,
   good_ternary (h := by decide) ..,
   good_unary (h := by decide) ..,
   good_unary (h := by decide) ..,
   good_binary (h := by decide) ..,
   good_nullary (h := by decide) ..,
   good_unary (h := by decide) ..,
   good_binary (h := by decide) ..,
   good_unary (h := by decide) ..,
   good_unary (h := by decide) ..,
   good_unary (h := by decide) ..,
   good_binary (h := by decide) ..,
   good_unary (h := by decide) ..,
   good_reshape (h := by decide) ..,
   good_unary (h := by decide) ..,
   good_unary (h := by decide) ..,
   good_binary (h := by decide) ..,
   good_unary (h := by decide) ..,
   good_reshape (h := by decide) ..,
   good_unary (h := by decide) ..,
   good_unary (h := by decide) ..,
   good_binary (h := by decide) ..,
   good_nullary (h := by decide) ..,
   good_unary (h := by decide) ..,
   good_binary (h := by decide) ..,
   good_unary (h := by decide) ..,
   good_reshape (h := by decide) ..,
   good_binary (h := by decide) ..,
   good_unary (h := by decide) ..,
   good_nullary (h := by decide) ..,
   good_unary (h := by decide) ..,
   good_binary (h := by decide) ..,
   good_nullary (h := by decide) ..,
   good_unary (h := by decide) ..,
   good_binary (h := by decide) ..,
   good_ternary (h := by decide) ..,
   good_unary (h := by decide) ..,
   good_binary (h := by decide) ..,
   good_unary (h := by decide) ..,
   good_binary (h := by decide) ..,
   good_nullary (h := by decide) ..,
   good_unary (h := by decide) ..,
   good_unary (h := by decide) ..,
   good_ternary (h := by decide) ..,
   good_unary (h := by decide) ..,
   good_reshape (h := by decide) ..,
   good_binary (h := by decide) ..,
   good_binary (h := by decide) ..,
   good_unary (h := by decide) ..,
   good_nullary (h := by decide) ..,
   good_unary (h := by decide) ..,
   good_binary (h := by decide) ..,
   good_nullary (h := by decide) ..,
   good_unary (h := by decide) ..,
   good_binary (h := by decide) ..,
   good_ternary (h := by decide) ..,
   good_unary (h := by decide) ..,
   good_binary (h := by decide) ..,
   good_unary (h := by decide) ..⟩

set_option maxHeartbeats 1000000 in
/-- The operations of window 3 of @main (83 of them, operations 230 … 312). -/
abbrev ops3 : List (HloOp τ sig (Elt F)) :=
  [ binary main_v150 main_v149 main_v151 (mulf : (⟨S800000x128, .f32⟩ : BufTy).Contents (Elt F) → (⟨S800000x128, .f32⟩ : BufTy).Contents (Elt F) → (⟨S800000x128, .f32⟩ : BufTy).Contents (Elt F)),
    nullary main_cst_27 (constant S_ .f32 0x00000000#32),
    unary main_cst_27 main_v152 (broadcastInDim S50000x128 ![] bcast_S_S50000x128 : (⟨S_, .f32⟩ : BufTy).Contents (Elt F) → (⟨S50000x128, .f32⟩ : BufTy).Contents (Elt F)),
    unary main_v3 main_v153 (broadcastInDim S800000x1 ![0] bcast_S800000_S800000x1_0 : (⟨S800000, .i32⟩ : BufTy).Contents (Elt F) → (⟨S800000x1, .i32⟩ : BufTy).Contents (Elt F)),
    ternary main_v152 main_v153 main_v151 main_v154 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_28 (constant S_ .f32 0x40000000#32),
    unary main_cst_28 main_v155 (broadcastInDim S50000x128 ![] bcast_S_S50000x128 : (⟨S_, .f32⟩ : BufTy).Contents (Elt F) → (⟨S50000x128, .f32⟩ : BufTy).Contents (Elt F)),
    binary main_v155 main_v154 main_v156 (mulf : (⟨S50000x128, .f32⟩ : BufTy).Contents (Elt F) → (⟨S50000x128, .f32⟩ : BufTy).Contents (Elt F) → (⟨S50000x128, .f32⟩ : BufTy).Contents (Elt F)),
    binary main_v156 main_v121 main_v157 (subf : (⟨S50000x128, .f32⟩ : BufTy).Contents (Elt F) → (⟨S50000x128, .f32⟩ : BufTy).Contents (Elt F) → (⟨S50000x128, .f32⟩ : BufTy).Contents (Elt F)),
    unary main_arg5 main_v158 ((extractStridedSlice S1x1x128x128 ![1, 2, 0, 0] · slices_S3x3x128x128_S1x1x128x128_1_2_0_0) : (⟨S3x3x128x128, .f32⟩ : BufTy).Contents (Elt F) → (⟨S1x1x128x128, .f32⟩ : BufTy).Contents (Elt F)),
    reshape main_v158 main_v159 rfl shapeCasts_S1x1x128x128_S128x128,
    binary main_v157 main_v159 main_v160 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v141 main_v160 main_v161 (addf : (⟨S50000x128, .f32⟩ : BufTy).Contents (Elt F) → (⟨S50000x128, .f32⟩ : BufTy).Contents (Elt F) → (⟨S50000x128, .f32⟩ : BufTy).Contents (Elt F)),
    unary main_arg6 main_v162 ((extractStridedSlice S1x128 ![1, 0] · slices_S3x128_S1x128_1_0) : (⟨S3x128, .f32⟩ : BufTy).Contents (Elt F) → (⟨S1x128, .f32⟩ : BufTy).Contents (Elt F)),
    reshape main_v162 main_v163 rfl shapeCasts_S1x128_S128,
    unary main_v163 main_v164 (broadcastInDim S1x128 ![1] bcast_S128_S1x128_1 : (⟨S128, .f32⟩ : BufTy).Contents (Elt F) → (⟨S1x128, .f32⟩ : BufTy).Contents (Elt F)),
    unary main_v164 main_v165 (broadcastInDim S50000x128 ![0, 1] bcast_S1x128_S50000x128_0_1 : (⟨S1x128, .f32⟩ : BufTy).Contents (Elt F) → (⟨S50000x128, .f32⟩ : BufTy).Contents (Elt F)),
    binary main_v161 main_v165 main_v166 (addf : (⟨S50000x128, .f32⟩ : BufTy).Contents (Elt F) → (⟨S50000x128, .f32⟩ : BufTy).Contents (Elt F) → (⟨S50000x128, .f32⟩ : BufTy).Contents (Elt F)),
    nullary main_cst_29 (constant S_ .f32 0x00000000#32),
    binary main_v166 main_cst_29 main_v167 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_30 (constant S_ .f32 0x47435000#32),
    unary main_cst_30 main_v168 (broadcastInDim S128 ![] bcast_S_S128 : (⟨S_, .f32⟩ : BufTy).Contents (Elt F) → (⟨S128, .f32⟩ : BufTy).Contents (Elt F)),
    binary main_v167 main_v168 main_v169 (Host.divf : (⟨S128, .f32⟩ : BufTy).Contents (Elt F) → (⟨S128, .f32⟩ : BufTy).Contents (Elt F) → (⟨S128, .f32⟩ : BufTy).Contents (Elt F)),
    nullary main_c_31 (constantI S_ 32 0#32),
    TRef.nullary main_call5.cst (constant S_ .f32 0x00000000#32),
    TRef.binary (TRef.of main_v166 : TRef sig ⟨S50000x128, .f32⟩) main_call5.cst main_call5.v0 (fun x v => Host.reduceAdd x v reducesTo_S50000x128_S128_d0 h_S_),
    TRef.unary main_call5.v0 main_call5.v1 (broadcastInDim S1x128 ![1] bcast_S128_S1x128_1),
    TRef.nullary main_call5.cst_0 (constant S_ .f32 0x47435000#32),
    TRef.unary main_call5.cst_0 main_call5.v2 (broadcastInDim S1x128 ![] bcast_S_S1x128),
    TRef.binary main_call5.v1 main_call5.v2 main_call5.v3 Host.divf,
    TRef.unary main_call5.v3 main_call5.v4 (broadcastInDim S50000x128 ![0, 1] bcast_S1x128_S50000x128_0_1),
    TRef.binary (TRef.of main_v166 : TRef sig ⟨S50000x128, .f32⟩) main_call5.v4 main_call5.v5 subf,
    TRef.binary main_call5.v5 main_call5.v5 main_call5.v6 mulf,
    TRef.unary (TRef.of main_c_31 : TRef sig ⟨S_, .i32⟩) main_call5.v7 (sitofp .f32),
    TRef.nullary main_call5.cst_1 (constant S_ .f32 0x47435000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S50000x128_S128_d0 h_S_),
    TRef.unary main_call5.v8 main_call5.v10 (broadcastInDim S128 ![] bcast_S_S128),
    TRef.binary main_call5.v9 main_call5.v10 main_call5.v11 Host.divf,
    TRef.nullary main_call5.cst_3 (constant S_ .f32 0x00000000#32),
    TRef.binary main_call5.v8 main_call5.cst_3 main_call5.v12 (cmpf .ogt),
    TRef.nullary main_call5.cst_4 (constant S_ .f32 0x7FC00000#32),
    TRef.unary main_call5.cst_4 main_call5.call0.v0 id,
    TRef.unary main_call5.call0.v0 main_call5.call0.v1 (broadcastInDim S128 ![] bcast_S_S128),
    TRef.ternary main_call5.v12 main_call5.v11 main_call5.call0.v1 main_call5.call0.v2 (fun p a b => select (broadcastInDim S128 ![] bcast_S_S128 p) a b),
    unary main_v169 main_v171 (broadcastInDim S1x128 ![1] bcast_S128_S1x128_1 : (⟨S128, .f32⟩ : BufTy).Contents (Elt F) → (⟨S1x128, .f32⟩ : BufTy).Contents (Elt F)),
    unary main_v171 main_v172 (broadcastInDim S50000x128 ![0, 1] bcast_S1x128_S50000x128_0_1 : (⟨S1x128, .f32⟩ : BufTy).Contents (Elt F) → (⟨S50000x128, .f32⟩ : BufTy).Contents (Elt F)),
    binary main_v166 main_v172 main_v173 (subf : (⟨S50000x128, .f32⟩ : BufTy).Contents (Elt F) → (⟨S50000x128, .f32⟩ : BufTy).Contents (Elt F) → (⟨S50000x128, .f32⟩ : BufTy).Contents (Elt F)),
    nullary main_cst_32 (constant S_ .f32 0x3727C5AC#32),
    unary main_cst_32 main_v174 (broadcastInDim S128 ![] bcast_S_S128 : (⟨S_, .f32⟩ : BufTy).Contents (Elt F) → (⟨S128, .f32⟩ : BufTy).Contents (Elt F)),
    binary main_v170 main_v174 main_v175 (addf : (⟨S128, .f32⟩ : BufTy).Contents (Elt F) → (⟨S128, .f32⟩ : BufTy).Contents (Elt F) → (⟨S128, .f32⟩ : BufTy).Contents (Elt F)),
    unary main_v175 main_v176 (Host.rsqrt : (⟨S128, .f32⟩ : BufTy).Contents (Elt F) → (⟨S128, .f32⟩ : BufTy).Contents (Elt F)),
    unary main_v176 main_v177 (broadcastInDim S1x128 ![1] bcast_S128_S1x128_1 : (⟨S128, .f32⟩ : BufTy).Contents (Elt F) → (⟨S1x128, .f32⟩ : BufTy).Contents (Elt F)),
    unary main_v177 main_v178 (broadcastInDim S50000x128 ![0, 1] bcast_S1x128_S50000x128_0_1 : (⟨S1x128, .f32⟩ : BufTy).Contents (Elt F) → (⟨S50000x128, .f32⟩ : BufTy).Contents (Elt F)),
    binary main_v173 main_v178 main_v179 (mulf : (⟨S50000x128, .f32⟩ : BufTy).Contents (Elt F) → (⟨S50000x128, .f32⟩ : BufTy).Contents (Elt F) → (⟨S50000x128, .f32⟩ : BufTy).Contents (Elt F)),
    unary main_arg7 main_v180 ((extractStridedSlice S1x128 ![1, 0] · slices_S3x128_S1x128_1_0) : (⟨S3x128, .f32⟩ : BufTy).Contents (Elt F) → (⟨S1x128, .f32⟩ : BufTy).Contents (Elt F)),
    reshape main_v180 main_v181 rfl shapeCasts_S1x128_S128,
    unary main_v181 main_v182 (broadcastInDim S1x128 ![1] bcast_S128_S1x128_1 : (⟨S128, .f32⟩ : BufTy).Contents (Elt F) → (⟨S1x128, .f32⟩ : BufTy).Contents (Elt F)),
    unary main_v182 main_v183 (broadcastInDim S50000x128 ![0, 1] bcast_S1x128_S50000x128_0_1 : (⟨S1x128, .f32⟩ : BufTy).Contents (Elt F) → (⟨S50000x128, .f32⟩ : BufTy).Contents (Elt F)),
    binary main_v179 main_v183 main_v184 (mulf : (⟨S50000x128, .f32⟩ : BufTy).Contents (Elt F) → (⟨S50000x128, .f32⟩ : BufTy).Contents (Elt F) → (⟨S50000x128, .f32⟩ : BufTy).Contents (Elt F)),
    unary main_arg8 main_v185 ((extractStridedSlice S1x128 ![1, 0] · slices_S3x128_S1x128_1_0) : (⟨S3x128, .f32⟩ : BufTy).Contents (Elt F) → (⟨S1x128, .f32⟩ : BufTy).Contents (Elt F)),
    reshape main_v185 main_v186 rfl shapeCasts_S1x128_S128,
    unary main_v186 main_v187 (broadcastInDim S1x128 ![1] bcast_S128_S1x128_1 : (⟨S128, .f32⟩ : BufTy).Contents (Elt F) → (⟨S1x128, .f32⟩ : BufTy).Contents (Elt F)),
    unary main_v187 main_v188 (broadcastInDim S50000x128 ![0, 1] bcast_S1x128_S50000x128_0_1 : (⟨S1x128, .f32⟩ : BufTy).Contents (Elt F) → (⟨S50000x128, .f32⟩ : BufTy).Contents (Elt F)),
    binary main_v184 main_v188 main_v189 (addf : (⟨S50000x128, .f32⟩ : BufTy).Contents (Elt F) → (⟨S50000x128, .f32⟩ : BufTy).Contents (Elt F) → (⟨S50000x128, .f32⟩ : BufTy).Contents (Elt F)),
    TRef.nullary main_call6.cst (constant S_ .f32 0x00000000#32),
    TRef.unary main_call6.cst main_call6.v0 (broadcastInDim S50000x128 ![] bcast_S_S50000x128),
    TRef.binary (TRef.of main_v189 : TRef sig ⟨S50000x128, .f32⟩) main_call6.v0 main_call6.v1 maximumf,
    unary main_arg5 main_v191 ((extractStridedSlice S1x1x128x128 ![2, 0, 0, 0] · slices_S3x3x128x128_S1x1x128x128_2_0_0_0) : (⟨S3x3x128x128, .f32⟩ : BufTy).Contents (Elt F) → (⟨S1x1x128x128, .f32⟩ : BufTy).Contents (Elt F)),
    reshape main_v191 main_v192 rfl shapeCasts_S1x1x128x128_S128x128,
    binary main_v190 main_v192 main_v193 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v29 main_v194 (broadcastInDim S800000x1 ![0] bcast_S800000_S800000x1_0 : (⟨S800000, .f32⟩ : BufTy).Contents (Elt F) → (⟨S800000x1, .f32⟩ : BufTy).Contents (Elt F)),
    nullary main_c_33 (constantI S_ 32 0#32),
    unary main_c_33 main_v195 (broadcastInDim S800000 ![] bcast_S_S800000 : (⟨S_, .i32⟩ : BufTy).Contents (Elt F) → (⟨S800000, .i32⟩ : BufTy).Contents (Elt F)),
    binary main_v1 main_v195 main_v196 (cmpi .slt : (⟨S800000, .i32⟩ : BufTy).Contents (Elt F) → (⟨S800000, .i32⟩ : BufTy).Contents (Elt F) → (⟨S800000, .i1⟩ : BufTy).Contents (Elt F)),
    nullary main_c_34 (constantI S_ 32 50000#32),
    unary main_c_34 main_v197 (broadcastInDim S800000 ![] bcast_S_S800000 : (⟨S_, .i32⟩ : BufTy).Contents (Elt F) → (⟨S800000, .i32⟩ : BufTy).Contents (Elt F)),
    binary main_v1 main_v197 main_v198 (addi : (⟨S800000, .i32⟩ : BufTy).Contents (Elt F) → (⟨S800000, .i32⟩ : BufTy).Contents (Elt F) → (⟨S800000, .i32⟩ : BufTy).Contents (Elt F)),
    ternary main_v196 main_v198 main_v1 main_v199 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v199 main_v200 (broadcastInDim S800000x1 ![0] bcast_S800000_S800000x1_0 : (⟨S800000, .i32⟩ : BufTy).Contents (Elt F) → (⟨S800000x1, .i32⟩ : BufTy).Contents (Elt F)),
    binary main_v190 main_v200 main_v201 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v194 main_v202 (broadcastInDim S800000x128 ![0, 1] bcast_S800000x1_S800000x128_0_1 : (⟨S800000x1, .f32⟩ : BufTy).Contents (Elt F) → (⟨S800000x128, .f32⟩ : BufTy).Contents (Elt F)) ]

set_option maxHeartbeats 1000000 in
set_option maxRecDepth 8192 in
/-- Window 3 writes the buffers numbered 244 … 326. -/
theorem ops3_good : (ops3 : List (HloOp τ sig (Elt F))).Forall (Good 244 327) :=
  ⟨good_binary (h := by decide) ..,
   good_nullary (h := by decide) ..,
   good_unary (h := by decide) ..,
   good_unary (h := by decide) ..,
   good_ternary (h := by decide) ..,
   good_nullary (h := by decide) ..,
   good_unary (h := by decide) ..,
   good_binary (h := by decide) ..,
   good_binary (h := by decide) ..,
   good_unary (h := by decide) ..,
   good_reshape (h := by decide) ..,
   good_binary (h := by decide) ..,
   good_binary (h := by decide) ..,
   good_unary (h := by decide) ..,
   good_reshape (h := by decide) ..,
   good_unary (h := by decide) ..,
   good_unary (h := by decide) ..,
   good_binary (h := by decide) ..,
   good_nullary (h := by decide) ..,
   good_binary (h := by decide) ..,
   good_nullary (h := by decide) ..,
   good_unary (h := by decide) ..,
   good_binary (h := by decide) ..,
   good_nullary (h := by decide) ..,
   good_nullary (h := by decide) ..,
   good_binary (h := by decide) ..,
   good_unary (h := by decide) ..,
   good_nullary (h := by decide) ..,
   good_unary (h := by decide) ..,
   good_binary (h := by decide) ..,
   good_unary (h := by decide) ..,
   good_binary (h := by decide) ..,
   good_binary (h := by decide) ..,
   good_unary (h := by decide) ..,
   good_nullary (h := by decide) ..,
   good_binary (h := by decide) ..,
   good_nullary (h := by decide) ..,
   good_binary (h := by decide) ..,
   good_unary (h := by decide) ..,
   good_binary (h := by decide) ..,
   good_nullary (h := by decide) ..,
   good_binary (h := by decide) ..,
   good_nullary (h := by decide) ..,
   good_unary (h := by decide) ..,
   good_unary (h := by decide) ..,
   good_ternary (h := by decide) ..,
   good_unary (h := by decide) ..,
   good_unary (h := by decide) ..,
   good_binary (h := by decide) ..,
   good_nullary (h := by decide) ..,
   good_unary (h := by decide) ..,
   good_binary (h := by decide) ..,
   good_unary (h := by decide) ..,
   good_unary (h := by decide) ..,
   good_unary (h := by decide) ..,
   good_binary (h := by decide) ..,
   good_unary (h := by decide) ..,
   good_reshape (h := by decide) ..,
   good_unary (h := by decide) ..,
   good_unary (h := by decide) ..,
   good_binary (h := by decide) ..,
   good_unary (h := by decide) ..,
   good_reshape (h := by decide) ..,
   good_unary (h := by decide) ..,
   good_unary (h := by decide) ..,
   good_binary (h := by decide) ..,
   good_nullary (h := by decide) ..,
   good_unary (h := by decide) ..,
   good_binary (h := by decide) ..,
   good_unary (h := by decide) ..,
   good_reshape (h := by decide) ..,
   good_binary (h := by decide) ..,
   good_unary (h := by decide) ..,
   good_nullary (h := by decide) ..,
   good_unary (h := by decide) ..,
   good_binary (h := by decide) ..,
   good_nullary (h := by decide) ..,
   good_unary (h := by decide) ..,
   good_binary (h := by decide) ..,
   good_ternary (h := by decide) ..,
   good_unary (h := by decide) ..,
   good_binary (h := by decide) ..,
   good_unary (h := by decide) ..⟩

set_option maxHeartbeats 1000000 in
/-- The operations of window 4 of @main (81 of them, operations 313 … 393). -/
abbrev ops4 : List (HloOp τ sig (Elt F)) :=
  [ binary main_v202 main_v201 main_v203 (mulf : (⟨S800000x128, .f32⟩ : BufTy).Contents (Elt F) → (⟨S800000x128, .f32⟩ : BufTy).Contents (Elt F) → (⟨S800000x128, .f32⟩ : BufTy).Contents (Elt F)),
    nullary main_cst_35 (constant S_ .f32 0x00000000#32),
    unary main_cst_35 main_v204 (broadcastInDim S50000x128 ![] bcast_S_S50000x128 : (⟨S_, .f32⟩ : BufTy).Contents (Elt F) → (⟨S50000x128, .f32⟩ : BufTy).Contents (Elt F)),
    unary main_v3 main_v205 (broadcastInDim S800000x1 ![0] bcast_S800000_S800000x1_0 : (⟨S800000, .i32⟩ : BufTy).Contents (Elt F) → (⟨S800000x1, .i32⟩ : BufTy).Contents (Elt F)),
    ternary main_v204 main_v205 main_v203 main_v206 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_arg5 main_v207 ((extractStridedSlice S1x1x128x128 ![2, 1, 0, 0] · slices_S3x3x128x128_S1x1x128x128_2_1_0_0) : (⟨S3x3x128x128, .f32⟩ : BufTy).Contents (Elt F) → (⟨S1x1x128x128, .f32⟩ : BufTy).Contents (Elt F)),
    reshape main_v207 main_v208 rfl shapeCasts_S1x1x128x128_S128x128,
    binary main_v206 main_v208 main_v209 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v193 main_v209 main_v210 (addf : (⟨S50000x128, .f32⟩ : BufTy).Contents (Elt F) → (⟨S50000x128, .f32⟩ : BufTy).Contents (Elt F) → (⟨S50000x128, .f32⟩ : BufTy).Contents (Elt F)),
    unary main_v29 main_v211 (broadcastInDim S800000x1 ![0] bcast_S800000_S800000x1_0 : (⟨S800000, .f32⟩ : BufTy).Contents (Elt F) → (⟨S800000x1, .f32⟩ : BufTy).Contents (Elt F)),
    nullary main_c_36 (constantI S_ 32 0#32),
    unary main_c_36 main_v212 (broadcastInDim S800000 ![] bcast_S_S800000 : (⟨S_, .i32⟩ : BufTy).Contents (Elt F) → (⟨S800000, .i32⟩ : BufTy).Contents (Elt F)),
    binary main_v1 main_v212 main_v213 (cmpi .slt : (⟨S800000, .i32⟩ : BufTy).Contents (Elt F) → (⟨S800000, .i32⟩ : BufTy).Contents (Elt F) → (⟨S800000, .i1⟩ : BufTy).Contents (Elt F)),
    nullary main_c_37 (constantI S_ 32 50000#32),
    unary main_c_37 main_v214 (broadcastInDim S800000 ![] bcast_S_S800000 : (⟨S_, .i32⟩ : BufTy).Contents (Elt F) → (⟨S800000, .i32⟩ : BufTy).Contents (Elt F)),
    binary main_v1 main_v214 main_v215 (addi : (⟨S800000, .i32⟩ : BufTy).Contents (Elt F) → (⟨S800000, .i32⟩ : BufTy).Contents (Elt F) → (⟨S800000, .i32⟩ : BufTy).Contents (Elt F)),
    ternary main_v213 main_v215 main_v1 main_v216 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v216 main_v217 (broadcastInDim S800000x1 ![0] bcast_S800000_S800000x1_0 : (⟨S800000, .i32⟩ : BufTy).Contents (Elt F) → (⟨S800000x1, .i32⟩ : BufTy).Contents (Elt F)),
    binary main_v206 main_v217 main_v218 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v211 main_v219 (broadcastInDim S800000x128 ![0, 1] bcast_S800000x1_S800000x128_0_1 : (⟨S800000x1, .f32⟩ : BufTy).Contents (Elt F) → (⟨S800000x128, .f32⟩ : BufTy).Contents (Elt F)),
    binary main_v219 main_v218 main_v220 (mulf : (⟨S800000x128, .f32⟩ : BufTy).Contents (Elt F) → (⟨S800000x128, .f32⟩ : BufTy).Contents (Elt F) → (⟨S800000x128, .f32⟩ : BufTy).Contents (Elt F)),
    nullary main_cst_38 (constant S_ .f32 0x00000000#32),
    unary main_cst_38 main_v221 (broadcastInDim S50000x128 ![] bcast_S_S50000x128 : (⟨S_, .f32⟩ : BufTy).Contents (Elt F) → (⟨S50000x128, .f32⟩ : BufTy).Contents (Elt F)),
    unary main_v3 main_v222 (broadcastInDim S800000x1 ![0] bcast_S800000_S800000x1_0 : (⟨S800000, .i32⟩ : BufTy).Contents (Elt F) → (⟨S800000x1, .i32⟩ : BufTy).Contents (Elt F)),
    ternary main_v221 main_v222 main_v220 main_v223 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_39 (constant S_ .f32 0x40000000#32),
    unary main_cst_39 main_v224 (broadcastInDim S50000x128 ![] bcast_S_S50000x128 : (⟨S_, .f32⟩ : BufTy).Contents (Elt F) → (⟨S50000x128, .f32⟩ : BufTy).Contents (Elt F)),
    binary main_v224 main_v223 main_v225 (mulf : (⟨S50000x128, .f32⟩ : BufTy).Contents (Elt F) → (⟨S50000x128, .f32⟩ : BufTy).Contents (Elt F) → (⟨S50000x128, .f32⟩ : BufTy).Contents (Elt F)),
    binary main_v225 main_v190 main_v226 (subf : (⟨S50000x128, .f32⟩ : BufTy).Contents (Elt F) → (⟨S50000x128, .f32⟩ : BufTy).Contents (Elt F) → (⟨S50000x128, .f32⟩ : BufTy).Contents (Elt F)),
    unary main_arg5 main_v227 ((extractStridedSlice S1x1x128x128 ![2, 2, 0, 0] · slices_S3x3x128x128_S1x1x128x128_2_2_0_0) : (⟨S3x3x128x128, .f32⟩ : BufTy).Contents (Elt F) → (⟨S1x1x128x128, .f32⟩ : BufTy).Contents (Elt F)),
    reshape main_v227 main_v228 rfl shapeCasts_S1x1x128x128_S128x128,
    binary main_v226 main_v228 main_v229 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v210 main_v229 main_v230 (addf : (⟨S50000x128, .f32⟩ : BufTy).Contents (Elt F) → (⟨S50000x128, .f32⟩ : BufTy).Contents (Elt F) → (⟨S50000x128, .f32⟩ : BufTy).Contents (Elt F)),
    unary main_arg6 main_v231 ((extractStridedSlice S1x128 ![2, 0] · slices_S3x128_S1x128_2_0) : (⟨S3x128, .f32⟩ : BufTy).Contents (Elt F) → (⟨S1x128, .f32⟩ : BufTy).Contents (Elt F)),
    reshape main_v231 main_v232 rfl shapeCasts_S1x128_S128,
    unary main_v232 main_v233 (broadcastInDim S1x128 ![1] bcast_S128_S1x128_1 : (⟨S128, .f32⟩ : BufTy).Contents (Elt F) → (⟨S1x128, .f32⟩ : BufTy).Contents (Elt F)),
    unary main_v233 main_v234 (broadcastInDim S50000x128 ![0, 1] bcast_S1x128_S50000x128_0_1 : (⟨S1x128, .f32⟩ : BufTy).Contents (Elt F) → (⟨S50000x128, .f32⟩ : BufTy).Contents (Elt F)),
    binary main_v230 main_v234 main_v235 (addf : (⟨S50000x128, .f32⟩ : BufTy).Contents (Elt F) → (⟨S50000x128, .f32⟩ : BufTy).Contents (Elt F) → (⟨S50000x128, .f32⟩ : BufTy).Contents (Elt F)),
    nullary main_cst_40 (constant S_ .f32 0x00000000#32),
    binary main_v235 main_cst_40 main_v236 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_41 (constant S_ .f32 0x47435000#32),
    unary main_cst_41 main_v237 (broadcastInDim S128 ![] bcast_S_S128 : (⟨S_, .f32⟩ : BufTy).Contents (Elt F) → (⟨S128, .f32⟩ : BufTy).Contents (Elt F)),
    binary main_v236 main_v237 main_v238 (Host.divf : (⟨S128, .f32⟩ : BufTy).Contents (Elt F) → (⟨S128, .f32⟩ : BufTy).Contents (Elt F) → (⟨S128, .f32⟩ : BufTy).Contents (Elt F)),
    nullary main_c_42 (constantI S_ 32 0#32),
    TRef.nullary main_call7.cst (constant S_ .f32 0x00000000#32),
    TRef.binary (TRef.of main_v235 : TRef sig ⟨S50000x128, .f32⟩) main_call7.cst main_call7.v0 (fun x v => Host.reduceAdd x v reducesTo_S50000x128_S128_d0 h_S_),
    TRef.unary main_call7.v0 main_call7.v1 (broadcastInDim S1x128 ![1] bcast_S128_S1x128_1),
    TRef.nullary main_call7.cst_0 (constant S_ .f32 0x47435000#32),
    TRef.unary main_call7.cst_0 main_call7.v2 (broadcastInDim S1x128 ![] bcast_S_S1x128),
    TRef.binary main_call7.v1 main_call7.v2 main_call7.v3 Host.divf,
    TRef.unary main_call7.v3 main_call7.v4 (broadcastInDim S50000x128 ![0, 1] bcast_S1x128_S50000x128_0_1),
    TRef.binary (TRef.of main_v235 : TRef sig ⟨S50000x128, .f32⟩) main_call7.v4 main_call7.v5 subf,
    TRef.binary main_call7.v5 main_call7.v5 main_call7.v6 mulf,
    TRef.unary (TRef.of main_c_42 : TRef sig ⟨S_, .i32⟩) main_call7.v7 (sitofp .f32),
    TRef.nullary main_call7.cst_1 (constant S_ .f32 0x47435000#32),
    TRef.binary main_call7.cst_1 main_call7.v7 main_call7.v8 subf,
    TRef.nullary main_call7.cst_2 (constant S_ .f32 0x00000000#32),
    TRef.binary main_call7.v6 main_call7.cst_2 main_call7.v9 (fun x v => Host.reduceAdd x v reducesTo_S50000x128_S128_d0 h_S_),
    TRef.unary main_call7.v8 main_call7.v10 (broadcastInDim S128 ![] bcast_S_S128),
    TRef.binary main_call7.v9 main_call7.v10 main_call7.v11 Host.divf,
    TRef.nullary main_call7.cst_3 (constant S_ .f32 0x00000000#32),
    TRef.binary main_call7.v8 main_call7.cst_3 main_call7.v12 (cmpf .ogt),
    TRef.nullary main_call7.cst_4 (constant S_ .f32 0x7FC00000#32),
    TRef.unary main_call7.cst_4 main_call7.call0.v0 id,
    TRef.unary main_call7.call0.v0 main_call7.call0.v1 (broadcastInDim S128 ![] bcast_S_S128),
    TRef.ternary main_call7.v12 main_call7.v11 main_call7.call0.v1 main_call7.call0.v2 (fun p a b => select (broadcastInDim S128 ![] bcast_S_S128 p) a b),
    unary main_v238 main_v240 (broadcastInDim S1x128 ![1] bcast_S128_S1x128_1 : (⟨S128, .f32⟩ : BufTy).Contents (Elt F) → (⟨S1x128, .f32⟩ : BufTy).Contents (Elt F)),
    unary main_v240 main_v241 (broadcastInDim S50000x128 ![0, 1] bcast_S1x128_S50000x128_0_1 : (⟨S1x128, .f32⟩ : BufTy).Contents (Elt F) → (⟨S50000x128, .f32⟩ : BufTy).Contents (Elt F)),
    binary main_v235 main_v241 main_v242 (subf : (⟨S50000x128, .f32⟩ : BufTy).Contents (Elt F) → (⟨S50000x128, .f32⟩ : BufTy).Contents (Elt F) → (⟨S50000x128, .f32⟩ : BufTy).Contents (Elt F)),
    nullary main_cst_43 (constant S_ .f32 0x3727C5AC#32),
    unary main_cst_43 main_v243 (broadcastInDim S128 ![] bcast_S_S128 : (⟨S_, .f32⟩ : BufTy).Contents (Elt F) → (⟨S128, .f32⟩ : BufTy).Contents (Elt F)),
    binary main_v239 main_v243 main_v244 (addf : (⟨S128, .f32⟩ : BufTy).Contents (Elt F) → (⟨S128, .f32⟩ : BufTy).Contents (Elt F) → (⟨S128, .f32⟩ : BufTy).Contents (Elt F)),
    unary main_v244 main_v245 (Host.rsqrt : (⟨S128, .f32⟩ : BufTy).Contents (Elt F) → (⟨S128, .f32⟩ : BufTy).Contents (Elt F)),
    unary main_v245 main_v246 (broadcastInDim S1x128 ![1] bcast_S128_S1x128_1 : (⟨S128, .f32⟩ : BufTy).Contents (Elt F) → (⟨S1x128, .f32⟩ : BufTy).Contents (Elt F)),
    unary main_v246 main_v247 (broadcastInDim S50000x128 ![0, 1] bcast_S1x128_S50000x128_0_1 : (⟨S1x128, .f32⟩ : BufTy).Contents (Elt F) → (⟨S50000x128, .f32⟩ : BufTy).Contents (Elt F)),
    binary main_v242 main_v247 main_v248 (mulf : (⟨S50000x128, .f32⟩ : BufTy).Contents (Elt F) → (⟨S50000x128, .f32⟩ : BufTy).Contents (Elt F) → (⟨S50000x128, .f32⟩ : BufTy).Contents (Elt F)),
    unary main_arg7 main_v249 ((extractStridedSlice S1x128 ![2, 0] · slices_S3x128_S1x128_2_0) : (⟨S3x128, .f32⟩ : BufTy).Contents (Elt F) → (⟨S1x128, .f32⟩ : BufTy).Contents (Elt F)),
    reshape main_v249 main_v250 rfl shapeCasts_S1x128_S128,
    unary main_v250 main_v251 (broadcastInDim S1x128 ![1] bcast_S128_S1x128_1 : (⟨S128, .f32⟩ : BufTy).Contents (Elt F) → (⟨S1x128, .f32⟩ : BufTy).Contents (Elt F)),
    unary main_v251 main_v252 (broadcastInDim S50000x128 ![0, 1] bcast_S1x128_S50000x128_0_1 : (⟨S1x128, .f32⟩ : BufTy).Contents (Elt F) → (⟨S50000x128, .f32⟩ : BufTy).Contents (Elt F)),
    binary main_v248 main_v252 main_v253 (mulf : (⟨S50000x128, .f32⟩ : BufTy).Contents (Elt F) → (⟨S50000x128, .f32⟩ : BufTy).Contents (Elt F) → (⟨S50000x128, .f32⟩ : BufTy).Contents (Elt F)) ]

set_option maxHeartbeats 1000000 in
set_option maxRecDepth 8192 in
/-- Window 4 writes the buffers numbered 327 … 407. -/
theorem ops4_good : (ops4 : List (HloOp τ sig (Elt F))).Forall (Good 327 408) :=
  ⟨good_binary (h := by decide) ..,
   good_nullary (h := by decide) ..,
   good_unary (h := by decide) ..,
   good_unary (h := by decide) ..,
   good_ternary (h := by decide) ..,
   good_unary (h := by decide) ..,
   good_reshape (h := by decide) ..,
   good_binary (h := by decide) ..,
   good_binary (h := by decide) ..,
   good_unary (h := by decide) ..,
   good_nullary (h := by decide) ..,
   good_unary (h := by decide) ..,
   good_binary (h := by decide) ..,
   good_nullary (h := by decide) ..,
   good_unary (h := by decide) ..,
   good_binary (h := by decide) ..,
   good_ternary (h := by decide) ..,
   good_unary (h := by decide) ..,
   good_binary (h := by decide) ..,
   good_unary (h := by decide) ..,
   good_binary (h := by decide) ..,
   good_nullary (h := by decide) ..,
   good_unary (h := by decide) ..,
   good_unary (h := by decide) ..,
   good_ternary (h := by decide) ..,
   good_nullary (h := by decide) ..,
   good_unary (h := by decide) ..,
   good_binary (h := by decide) ..,
   good_binary (h := by decide) ..,
   good_unary (h := by decide) ..,
   good_reshape (h := by decide) ..,
   good_binary (h := by decide) ..,
   good_binary (h := by decide) ..,
   good_unary (h := by decide) ..,
   good_reshape (h := by decide) ..,
   good_unary (h := by decide) ..,
   good_unary (h := by decide) ..,
   good_binary (h := by decide) ..,
   good_nullary (h := by decide) ..,
   good_binary (h := by decide) ..,
   good_nullary (h := by decide) ..,
   good_unary (h := by decide) ..,
   good_binary (h := by decide) ..,
   good_nullary (h := by decide) ..,
   good_nullary (h := by decide) ..,
   good_binary (h := by decide) ..,
   good_unary (h := by decide) ..,
   good_nullary (h := by decide) ..,
   good_unary (h := by decide) ..,
   good_binary (h := by decide) ..,
   good_unary (h := by decide) ..,
   good_binary (h := by decide) ..,
   good_binary (h := by decide) ..,
   good_unary (h := by decide) ..,
   good_nullary (h := by decide) ..,
   good_binary (h := by decide) ..,
   good_nullary (h := by decide) ..,
   good_binary (h := by decide) ..,
   good_unary (h := by decide) ..,
   good_binary (h := by decide) ..,
   good_nullary (h := by decide) ..,
   good_binary (h := by decide) ..,
   good_nullary (h := by decide) ..,
   good_unary (h := by decide) ..,
   good_unary (h := by decide) ..,
   good_ternary (h := by decide) ..,
   good_unary (h := by decide) ..,
   good_unary (h := by decide) ..,
   good_binary (h := by decide) ..,
   good_nullary (h := by decide) ..,
   good_unary (h := by decide) ..,
   good_binary (h := by decide) ..,
   good_unary (h := by decide) ..,
   good_unary (h := by decide) ..,
   good_unary (h := by decide) ..,
   good_binary (h := by decide) ..,
   good_unary (h := by decide) ..,
   good_reshape (h := by decide) ..,
   good_unary (h := by decide) ..,
   good_unary (h := by decide) ..,
   good_binary (h := by decide) ..⟩

set_option maxHeartbeats 1000000 in
/-- The operations of window 5 of @main (62 of them, operations 394 … 455). -/
abbrev ops5 : List (HloOp τ sig (Elt F)) :=
  [ unary main_arg8 main_v254 ((extractStridedSlice S1x128 ![2, 0] · slices_S3x128_S1x128_2_0) : (⟨S3x128, .f32⟩ : BufTy).Contents (Elt F) → (⟨S1x128, .f32⟩ : BufTy).Contents (Elt F)),
    reshape main_v254 main_v255 rfl shapeCasts_S1x128_S128,
    unary main_v255 main_v256 (broadcastInDim S1x128 ![1] bcast_S128_S1x128_1 : (⟨S128, .f32⟩ : BufTy).Contents (Elt F) → (⟨S1x128, .f32⟩ : BufTy).Contents (Elt F)),
    unary main_v256 main_v257 (broadcastInDim S50000x128 ![0, 1] bcast_S1x128_S50000x128_0_1 : (⟨S1x128, .f32⟩ : BufTy).Contents (Elt F) → (⟨S50000x128, .f32⟩ : BufTy).Contents (Elt F)),
    binary main_v253 main_v257 main_v258 (addf : (⟨S50000x128, .f32⟩ : BufTy).Contents (Elt F) → (⟨S50000x128, .f32⟩ : BufTy).Contents (Elt F) → (⟨S50000x128, .f32⟩ : BufTy).Contents (Elt F)),
    TRef.nullary main_call8.cst (constant S_ .f32 0x00000000#32),
    TRef.unary main_call8.cst main_call8.v0 (broadcastInDim S50000x128 ![] bcast_S_S50000x128),
    TRef.binary (TRef.of main_v258 : TRef sig ⟨S50000x128, .f32⟩) main_call8.v0 main_call8.v1 maximumf,
    nullary main_c_44 (constantI S_ 32 0#32),
    unary main_c_44 main_v260 (broadcastInDim S800000 ![] bcast_S_S800000 : (⟨S_, .i32⟩ : BufTy).Contents (Elt F) → (⟨S800000, .i32⟩ : BufTy).Contents (Elt F)),
    binary main_v1 main_v260 main_v261 (cmpi .slt : (⟨S800000, .i32⟩ : BufTy).Contents (Elt F) → (⟨S800000, .i32⟩ : BufTy).Contents (Elt F) → (⟨S800000, .i1⟩ : BufTy).Contents (Elt F)),
    nullary main_c_45 (constantI S_ 32 50000#32),
    unary main_c_45 main_v262 (broadcastInDim S800000 ![] bcast_S_S800000 : (⟨S_, .i32⟩ : BufTy).Contents (Elt F) → (⟨S800000, .i32⟩ : BufTy).Contents (Elt F)),
    binary main_v1 main_v262 main_v263 (addi : (⟨S800000, .i32⟩ : BufTy).Contents (Elt F) → (⟨S800000, .i32⟩ : BufTy).Contents (Elt F) → (⟨S800000, .i32⟩ : BufTy).Contents (Elt F)),
    ternary main_v261 main_v263 main_v1 main_v264 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v264 main_v265 (broadcastInDim S800000x1 ![0] bcast_S800000_S800000x1_0 : (⟨S800000, .i32⟩ : BufTy).Contents (Elt F) → (⟨S800000x1, .i32⟩ : BufTy).Contents (Elt F)),
    binary main_v52 main_v265 main_v266 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_46 (constantI S_ 32 0#32),
    unary main_c_46 main_v267 (broadcastInDim S800000 ![] bcast_S_S800000 : (⟨S_, .i32⟩ : BufTy).Contents (Elt F) → (⟨S800000, .i32⟩ : BufTy).Contents (Elt F)),
    binary main_v3 main_v267 main_v268 (cmpi .slt : (⟨S800000, .i32⟩ : BufTy).Contents (Elt F) → (⟨S800000, .i32⟩ : BufTy).Contents (Elt F) → (⟨S800000, .i1⟩ : BufTy).Contents (Elt F)),
    nullary main_c_47 (constantI S_ 32 50000#32),
    unary main_c_47 main_v269 (broadcastInDim S800000 ![] bcast_S_S800000 : (⟨S_, .i32⟩ : BufTy).Contents (Elt F) → (⟨S800000, .i32⟩ : BufTy).Contents (Elt F)),
    binary main_v3 main_v269 main_v270 (addi : (⟨S800000, .i32⟩ : BufTy).Contents (Elt F) → (⟨S800000, .i32⟩ : BufTy).Contents (Elt F) → (⟨S800000, .i32⟩ : BufTy).Contents (Elt F)),
    ternary main_v268 main_v270 main_v3 main_v271 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v271 main_v272 (broadcastInDim S800000x1 ![0] bcast_S800000_S800000x1_0 : (⟨S800000, .i32⟩ : BufTy).Contents (Elt F) → (⟨S800000x1, .i32⟩ : BufTy).Contents (Elt F)),
    binary main_v52 main_v272 main_v273 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    binary main_v266 main_v273 main_v274 (subf : (⟨S800000x128, .f32⟩ : BufTy).Contents (Elt F) → (⟨S800000x128, .f32⟩ : BufTy).Contents (Elt F) → (⟨S800000x128, .f32⟩ : BufTy).Contents (Elt F)),
    binary main_v274 main_v274 main_v275 (mulf : (⟨S800000x128, .f32⟩ : BufTy).Contents (Elt F) → (⟨S800000x128, .f32⟩ : BufTy).Contents (Elt F) → (⟨S800000x128, .f32⟩ : BufTy).Contents (Elt F)),
    nullary main_cst_48 (constant S_ .f32 0x00000000#32),
    binary main_v275 main_cst_48 main_v276 ((fun x v => Host.reduceAdd x v reducesTo_S800000x128_S800000_d1 h_S_) : (⟨S800000x128, .f32⟩ : BufTy).Contents (Elt F) → (⟨S_, .f32⟩ : BufTy).Contents (Elt F) → (⟨S800000, .f32⟩ : BufTy).Contents (Elt F)),
    nullary main_cst_49 (constant S_ .f32 0x00000000#32),
    binary main_v276 main_cst_49 main_v277 ((fun x v => Host.reduceAdd x v reducesTo_S800000_S_d0 h_S_) : (⟨S800000, .f32⟩ : BufTy).Contents (Elt F) → (⟨S_, .f32⟩ : BufTy).Contents (Elt F) → (⟨S_, .f32⟩ : BufTy).Contents (Elt F)),
    nullary main_cst_50 (constant S_ .f32 0x49435000#32),
    binary main_v277 main_cst_50 main_v278 (Host.divf : (⟨S_, .f32⟩ : BufTy).Contents (Elt F) → (⟨S_, .f32⟩ : BufTy).Contents (Elt F) → (⟨S_, .f32⟩ : BufTy).Contents (Elt F)),
    nullary main_cst_51 (constant S_ .f32 0x00000000#32),
    binary main_cst_51 main_v278 main_v279 (addf : (⟨S_, .f32⟩ : BufTy).Contents (Elt F) → (⟨S_, .f32⟩ : BufTy).Contents (Elt F) → (⟨S_, .f32⟩ : BufTy).Contents (Elt F)),
    nullary main_c_52 (constantI S_ 32 0#32),
    unary main_c_52 main_v280 (broadcastInDim S800000 ![] bcast_S_S800000 : (⟨S_, .i32⟩ : BufTy).Contents (Elt F) → (⟨S800000, .i32⟩ : BufTy).Contents (Elt F)),
    binary main_v1 main_v280 main_v281 (cmpi .slt : (⟨S800000, .i32⟩ : BufTy).Contents (Elt F) → (⟨S800000, .i32⟩ : BufTy).Contents (Elt F) → (⟨S800000, .i1⟩ : BufTy).Contents (Elt F)),
    nullary main_c_53 (constantI S_ 32 50000#32),
    unary main_c_53 main_v282 (broadcastInDim S800000 ![] bcast_S_S800000 : (⟨S_, .i32⟩ : BufTy).Contents (Elt F) → (⟨S800000, .i32⟩ : BufTy).Contents (Elt F)),
    binary main_v1 main_v282 main_v283 (addi : (⟨S800000, .i32⟩ : BufTy).Contents (Elt F) → (⟨S800000, .i32⟩ : BufTy).Contents (Elt F) → (⟨S800000, .i32⟩ : BufTy).Contents (Elt F)),
    ternary main_v281 main_v283 main_v1 main_v284 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v284 main_v285 (broadcastInDim S800000x1 ![0] bcast_S800000_S800000x1_0 : (⟨S800000, .i32⟩ : BufTy).Contents (Elt F) → (⟨S800000x1, .i32⟩ : BufTy).Contents (Elt F)),
    binary main_v121 main_v285 main_v286 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_54 (constantI S_ 32 0#32),
    unary main_c_54 main_v287 (broadcastInDim S800000 ![] bcast_S_S800000 : (⟨S_, .i32⟩ : BufTy).Contents (Elt F) → (⟨S800000, .i32⟩ : BufTy).Contents (Elt F)),
    binary main_v3 main_v287 main_v288 (cmpi .slt : (⟨S800000, .i32⟩ : BufTy).Contents (Elt F) → (⟨S800000, .i32⟩ : BufTy).Contents (Elt F) → (⟨S800000, .i1⟩ : BufTy).Contents (Elt F)),
    nullary main_c_55 (constantI S_ 32 50000#32),
    unary main_c_55 main_v289 (broadcastInDim S800000 ![] bcast_S_S800000 : (⟨S_, .i32⟩ : BufTy).Contents (Elt F) → (⟨S800000, .i32⟩ : BufTy).Contents (Elt F)),
    binary main_v3 main_v289 main_v290 (addi : (⟨S800000, .i32⟩ : BufTy).Contents (Elt F) → (⟨S800000, .i32⟩ : BufTy).Contents (Elt F) → (⟨S800000, .i32⟩ : BufTy).Contents (Elt F)),
    ternary main_v288 main_v290 main_v3 main_v291 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v291 main_v292 (broadcastInDim S800000x1 ![0] bcast_S800000_S800000x1_0 : (⟨S800000, .i32⟩ : BufTy).Contents (Elt F) → (⟨S800000x1, .i32⟩ : BufTy).Contents (Elt F)),
    binary main_v121 main_v292 main_v293 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    binary main_v286 main_v293 main_v294 (subf : (⟨S800000x128, .f32⟩ : BufTy).Contents (Elt F) → (⟨S800000x128, .f32⟩ : BufTy).Contents (Elt F) → (⟨S800000x128, .f32⟩ : BufTy).Contents (Elt F)),
    binary main_v294 main_v294 main_v295 (mulf : (⟨S800000x128, .f32⟩ : BufTy).Contents (Elt F) → (⟨S800000x128, .f32⟩ : BufTy).Contents (Elt F) → (⟨S800000x128, .f32⟩ : BufTy).Contents (Elt F)),
    nullary main_cst_56 (constant S_ .f32 0x00000000#32),
    binary main_v295 main_cst_56 main_v296 ((fun x v => Host.reduceAdd x v reducesTo_S800000x128_S800000_d1 h_S_) : (⟨S800000x128, .f32⟩ : BufTy).Contents (Elt F) → (⟨S_, .f32⟩ : BufTy).Contents (Elt F) → (⟨S800000, .f32⟩ : BufTy).Contents (Elt F)),
    nullary main_cst_57 (constant S_ .f32 0x00000000#32),
    binary main_v296 main_cst_57 main_v297 ((fun x v => Host.reduceAdd x v reducesTo_S800000_S_d0 h_S_) : (⟨S800000, .f32⟩ : BufTy).Contents (Elt F) → (⟨S_, .f32⟩ : BufTy).Contents (Elt F) → (⟨S_, .f32⟩ : BufTy).Contents (Elt F)),
    nullary main_cst_58 (constant S_ .f32 0x49435000#32),
    binary main_v297 main_cst_58 main_v298 (Host.divf : (⟨S_, .f32⟩ : BufTy).Contents (Elt F) → (⟨S_, .f32⟩ : BufTy).Contents (Elt F) → (⟨S_, .f32⟩ : BufTy).Contents (Elt F)) ]

set_option maxHeartbeats 1000000 in
set_option maxRecDepth 8192 in
/-- Window 5 writes the buffers numbered 408 … 469. -/
theorem ops5_good : (ops5 : List (HloOp τ sig (Elt F))).Forall (Good 408 470) :=
  ⟨good_unary (h := by decide) ..,
   good_reshape (h := by decide) ..,
   good_unary (h := by decide) ..,
   good_unary (h := by decide) ..,
   good_binary (h := by decide) ..,
   good_nullary (h := by decide) ..,
   good_unary (h := by decide) ..,
   good_binary (h := by decide) ..,
   good_nullary (h := by decide) ..,
   good_unary (h := by decide) ..,
   good_binary (h := by decide) ..,
   good_nullary (h := by decide) ..,
   good_unary (h := by decide) ..,
   good_binary (h := by decide) ..,
   good_ternary (h := by decide) ..,
   good_unary (h := by decide) ..,
   good_binary (h := by decide) ..,
   good_nullary (h := by decide) ..,
   good_unary (h := by decide) ..,
   good_binary (h := by decide) ..,
   good_nullary (h := by decide) ..,
   good_unary (h := by decide) ..,
   good_binary (h := by decide) ..,
   good_ternary (h := by decide) ..,
   good_unary (h := by decide) ..,
   good_binary (h := by decide) ..,
   good_binary (h := by decide) ..,
   good_binary (h := by decide) ..,
   good_nullary (h := by decide) ..,
   good_binary (h := by decide) ..,
   good_nullary (h := by decide) ..,
   good_binary (h := by decide) ..,
   good_nullary (h := by decide) ..,
   good_binary (h := by decide) ..,
   good_nullary (h := by decide) ..,
   good_binary (h := by decide) ..,
   good_nullary (h := by decide) ..,
   good_unary (h := by decide) ..,
   good_binary (h := by decide) ..,
   good_nullary (h := by decide) ..,
   good_unary (h := by decide) ..,
   good_binary (h := by decide) ..,
   good_ternary (h := by decide) ..,
   good_unary (h := by decide) ..,
   good_binary (h := by decide) ..,
   good_nullary (h := by decide) ..,
   good_unary (h := by decide) ..,
   good_binary (h := by decide) ..,
   good_nullary (h := by decide) ..,
   good_unary (h := by decide) ..,
   good_binary (h := by decide) ..,
   good_ternary (h := by decide) ..,
   good_unary (h := by decide) ..,
   good_binary (h := by decide) ..,
   good_binary (h := by decide) ..,
   good_binary (h := by decide) ..,
   good_nullary (h := by decide) ..,
   good_binary (h := by decide) ..,
   good_nullary (h := by decide) ..,
   good_binary (h := by decide) ..,
   good_nullary (h := by decide) ..,
   good_binary (h := by decide) ..⟩

set_option maxHeartbeats 1000000 in
/-- The operations of window 6 of @main (60 of them, operations 456 … 515). -/
abbrev ops6 : List (HloOp τ sig (Elt F)) :=
  [ binary main_v279 main_v298 main_v299 (addf : (⟨S_, .f32⟩ : BufTy).Contents (Elt F) → (⟨S_, .f32⟩ : BufTy).Contents (Elt F) → (⟨S_, .f32⟩ : BufTy).Contents (Elt F)),
    nullary main_c_59 (constantI S_ 32 0#32),
    unary main_c_59 main_v300 (broadcastInDim S800000 ![] bcast_S_S800000 : (⟨S_, .i32⟩ : BufTy).Contents (Elt F) → (⟨S800000, .i32⟩ : BufTy).Contents (Elt F)),
    binary main_v1 main_v300 main_v301 (cmpi .slt : (⟨S800000, .i32⟩ : BufTy).Contents (Elt F) → (⟨S800000, .i32⟩ : BufTy).Contents (Elt F) → (⟨S800000, .i1⟩ : BufTy).Contents (Elt F)),
    nullary main_c_60 (constantI S_ 32 50000#32),
    unary main_c_60 main_v302 (broadcastInDim S800000 ![] bcast_S_S800000 : (⟨S_, .i32⟩ : BufTy).Contents (Elt F) → (⟨S800000, .i32⟩ : BufTy).Contents (Elt F)),
    binary main_v1 main_v302 main_v303 (addi : (⟨S800000, .i32⟩ : BufTy).Contents (Elt F) → (⟨S800000, .i32⟩ : BufTy).Contents (Elt F) → (⟨S800000, .i32⟩ : BufTy).Contents (Elt F)),
    ternary main_v301 main_v303 main_v1 main_v304 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v304 main_v305 (broadcastInDim S800000x1 ![0] bcast_S800000_S800000x1_0 : (⟨S800000, .i32⟩ : BufTy).Contents (Elt F) → (⟨S800000x1, .i32⟩ : BufTy).Contents (Elt F)),
    binary main_v190 main_v305 main_v306 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_61 (constantI S_ 32 0#32),
    unary main_c_61 main_v307 (broadcastInDim S800000 ![] bcast_S_S800000 : (⟨S_, .i32⟩ : BufTy).Contents (Elt F) → (⟨S800000, .i32⟩ : BufTy).Contents (Elt F)),
    binary main_v3 main_v307 main_v308 (cmpi .slt : (⟨S800000, .i32⟩ : BufTy).Contents (Elt F) → (⟨S800000, .i32⟩ : BufTy).Contents (Elt F) → (⟨S800000, .i1⟩ : BufTy).Contents (Elt F)),
    nullary main_c_62 (constantI S_ 32 50000#32),
    unary main_c_62 main_v309 (broadcastInDim S800000 ![] bcast_S_S800000 : (⟨S_, .i32⟩ : BufTy).Contents (Elt F) → (⟨S800000, .i32⟩ : BufTy).Contents (Elt F)),
    binary main_v3 main_v309 main_v310 (addi : (⟨S800000, .i32⟩ : BufTy).Contents (Elt F) → (⟨S800000, .i32⟩ : BufTy).Contents (Elt F) → (⟨S800000, .i32⟩ : BufTy).Contents (Elt F)),
    ternary main_v308 main_v310 main_v3 main_v311 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v311 main_v312 (broadcastInDim S800000x1 ![0] bcast_S800000_S800000x1_0 : (⟨S800000, .i32⟩ : BufTy).Contents (Elt F) → (⟨S800000x1, .i32⟩ : BufTy).Contents (Elt F)),
    binary main_v190 main_v312 main_v313 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    binary main_v306 main_v313 main_v314 (subf : (⟨S800000x128, .f32⟩ : BufTy).Contents (Elt F) → (⟨S800000x128, .f32⟩ : BufTy).Contents (Elt F) → (⟨S800000x128, .f32⟩ : BufTy).Contents (Elt F)),
    binary main_v314 main_v314 main_v315 (mulf : (⟨S800000x128, .f32⟩ : BufTy).Contents (Elt F) → (⟨S800000x128, .f32⟩ : BufTy).Contents (Elt F) → (⟨S800000x128, .f32⟩ : BufTy).Contents (Elt F)),
    nullary main_cst_63 (constant S_ .f32 0x00000000#32),
    binary main_v315 main_cst_63 main_v316 ((fun x v => Host.reduceAdd x v reducesTo_S800000x128_S800000_d1 h_S_) : (⟨S800000x128, .f32⟩ : BufTy).Contents (Elt F) → (⟨S_, .f32⟩ : BufTy).Contents (Elt F) → (⟨S800000, .f32⟩ : BufTy).Contents (Elt F)),
    nullary main_cst_64 (constant S_ .f32 0x00000000#32),
    binary main_v316 main_cst_64 main_v317 ((fun x v => Host.reduceAdd x v reducesTo_S800000_S_d0 h_S_) : (⟨S800000, .f32⟩ : BufTy).Contents (Elt F) → (⟨S_, .f32⟩ : BufTy).Contents (Elt F) → (⟨S_, .f32⟩ : BufTy).Contents (Elt F)),
    nullary main_cst_65 (constant S_ .f32 0x49435000#32),
    binary main_v317 main_cst_65 main_v318 (Host.divf : (⟨S_, .f32⟩ : BufTy).Contents (Elt F) → (⟨S_, .f32⟩ : BufTy).Contents (Elt F) → (⟨S_, .f32⟩ : BufTy).Contents (Elt F)),
    binary main_v299 main_v318 main_v319 (addf : (⟨S_, .f32⟩ : BufTy).Contents (Elt F) → (⟨S_, .f32⟩ : BufTy).Contents (Elt F) → (⟨S_, .f32⟩ : BufTy).Contents (Elt F)),
    nullary main_c_66 (constantI S_ 32 0#32),
    unary main_c_66 main_v320 (broadcastInDim S800000 ![] bcast_S_S800000 : (⟨S_, .i32⟩ : BufTy).Contents (Elt F) → (⟨S800000, .i32⟩ : BufTy).Contents (Elt F)),
    binary main_v1 main_v320 main_v321 (cmpi .slt : (⟨S800000, .i32⟩ : BufTy).Contents (Elt F) → (⟨S800000, .i32⟩ : BufTy).Contents (Elt F) → (⟨S800000, .i1⟩ : BufTy).Contents (Elt F)),
    nullary main_c_67 (constantI S_ 32 50000#32),
    unary main_c_67 main_v322 (broadcastInDim S800000 ![] bcast_S_S800000 : (⟨S_, .i32⟩ : BufTy).Contents (Elt F) → (⟨S800000, .i32⟩ : BufTy).Contents (Elt F)),
    binary main_v1 main_v322 main_v323 (addi : (⟨S800000, .i32⟩ : BufTy).Contents (Elt F) → (⟨S800000, .i32⟩ : BufTy).Contents (Elt F) → (⟨S800000, .i32⟩ : BufTy).Contents (Elt F)),
    ternary main_v321 main_v323 main_v1 main_v324 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v324 main_v325 (broadcastInDim S800000x1 ![0] bcast_S800000_S800000x1_0 : (⟨S800000, .i32⟩ : BufTy).Contents (Elt F) → (⟨S800000x1, .i32⟩ : BufTy).Contents (Elt F)),
    binary main_v259 main_v325 main_v326 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_68 (constantI S_ 32 0#32),
    unary main_c_68 main_v327 (broadcastInDim S800000 ![] bcast_S_S800000 : (⟨S_, .i32⟩ : BufTy).Contents (Elt F) → (⟨S800000, .i32⟩ : BufTy).Contents (Elt F)),
    binary main_v3 main_v327 main_v328 (cmpi .slt : (⟨S800000, .i32⟩ : BufTy).Contents (Elt F) → (⟨S800000, .i32⟩ : BufTy).Contents (Elt F) → (⟨S800000, .i1⟩ : BufTy).Contents (Elt F)),
    nullary main_c_69 (constantI S_ 32 50000#32),
    unary main_c_69 main_v329 (broadcastInDim S800000 ![] bcast_S_S800000 : (⟨S_, .i32⟩ : BufTy).Contents (Elt F) → (⟨S800000, .i32⟩ : BufTy).Contents (Elt F)),
    binary main_v3 main_v329 main_v330 (addi : (⟨S800000, .i32⟩ : BufTy).Contents (Elt F) → (⟨S800000, .i32⟩ : BufTy).Contents (Elt F) → (⟨S800000, .i32⟩ : BufTy).Contents (Elt F)),
    ternary main_v328 main_v330 main_v3 main_v331 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v331 main_v332 (broadcastInDim S800000x1 ![0] bcast_S800000_S800000x1_0 : (⟨S800000, .i32⟩ : BufTy).Contents (Elt F) → (⟨S800000x1, .i32⟩ : BufTy).Contents (Elt F)),
    binary main_v259 main_v332 main_v333 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    binary main_v326 main_v333 main_v334 (subf : (⟨S800000x128, .f32⟩ : BufTy).Contents (Elt F) → (⟨S800000x128, .f32⟩ : BufTy).Contents (Elt F) → (⟨S800000x128, .f32⟩ : BufTy).Contents (Elt F)),
    binary main_v334 main_v334 main_v335 (mulf : (⟨S800000x128, .f32⟩ : BufTy).Contents (Elt F) → (⟨S800000x128, .f32⟩ : BufTy).Contents (Elt F) → (⟨S800000x128, .f32⟩ : BufTy).Contents (Elt F)),
    nullary main_cst_70 (constant S_ .f32 0x00000000#32),
    binary main_v335 main_cst_70 main_v336 ((fun x v => Host.reduceAdd x v reducesTo_S800000x128_S800000_d1 h_S_) : (⟨S800000x128, .f32⟩ : BufTy).Contents (Elt F) → (⟨S_, .f32⟩ : BufTy).Contents (Elt F) → (⟨S800000, .f32⟩ : BufTy).Contents (Elt F)),
    nullary main_cst_71 (constant S_ .f32 0x00000000#32),
    binary main_v336 main_cst_71 main_v337 ((fun x v => Host.reduceAdd x v reducesTo_S800000_S_d0 h_S_) : (⟨S800000, .f32⟩ : BufTy).Contents (Elt F) → (⟨S_, .f32⟩ : BufTy).Contents (Elt F) → (⟨S_, .f32⟩ : BufTy).Contents (Elt F)),
    nullary main_cst_72 (constant S_ .f32 0x49435000#32),
    binary main_v337 main_cst_72 main_v338 (Host.divf : (⟨S_, .f32⟩ : BufTy).Contents (Elt F) → (⟨S_, .f32⟩ : BufTy).Contents (Elt F) → (⟨S_, .f32⟩ : BufTy).Contents (Elt F)),
    binary main_v319 main_v338 main_v339 (addf : (⟨S_, .f32⟩ : BufTy).Contents (Elt F) → (⟨S_, .f32⟩ : BufTy).Contents (Elt F) → (⟨S_, .f32⟩ : BufTy).Contents (Elt F)),
    nullary main_cst_73 (constant S_ .f32 0x40800000#32),
    binary main_v339 main_cst_73 main_v340 (Host.divf : (⟨S_, .f32⟩ : BufTy).Contents (Elt F) → (⟨S_, .f32⟩ : BufTy).Contents (Elt F) → (⟨S_, .f32⟩ : BufTy).Contents (Elt F)),
    nullary main_cst_74 (constant S_ .f32 0x3F800000#32),
    unary main_cst_74 main_v341 (broadcastInDim S50000 ![] bcast_S_S50000 : (⟨S_, .f32⟩ : BufTy).Contents (Elt F) → (⟨S50000, .f32⟩ : BufTy).Contents (Elt F)),
    nullary main_cst_75 (constant S_ .f32 0x00000000#32) ]

set_option maxHeartbeats 1000000 in
set_option maxRecDepth 8192 in
/-- Window 6 writes the buffers numbered 470 … 529. -/
theorem ops6_good : (ops6 : List (HloOp τ sig (Elt F))).Forall (Good 470 530) :=
  ⟨good_binary (h := by decide) ..,
   good_nullary (h := by decide) ..,
   good_unary (h := by decide) ..,
   good_binary (h := by decide) ..,
   good_nullary (h := by decide) ..,
   good_unary (h := by decide) ..,
   good_binary (h := by decide) ..,
   good_ternary (h := by decide) ..,
   good_unary (h := by decide) ..,
   good_binary (h := by decide) ..,
   good_nullary (h := by decide) ..,
   good_unary (h := by decide) ..,
   good_binary (h := by decide) ..,
   good_nullary (h := by decide) ..,
   good_unary (h := by decide) ..,
   good_binary (h := by decide) ..,
   good_ternary (h := by decide) ..,
   good_unary (h := by decide) ..,
   good_binary (h := by decide) ..,
   good_binary (h := by decide) ..,
   good_binary (h := by decide) ..,
   good_nullary (h := by decide) ..,
   good_binary (h := by decide) ..,
   good_nullary (h := by decide) ..,
   good_binary (h := by decide) ..,
   good_nullary (h := by decide) ..,
   good_binary (h := by decide) ..,
   good_binary (h := by decide) ..,
   good_nullary (h := by decide) ..,
   good_unary (h := by decide) ..,
   good_binary (h := by decide) ..,
   good_nullary (h := by decide) ..,
   good_unary (h := by decide) ..,
   good_binary (h := by decide) ..,
   good_ternary (h := by decide) ..,
   good_unary (h := by decide) ..,
   good_binary (h := by decide) ..,
   good_nullary (h := by decide) ..,
   good_unary (h := by decide) ..,
   good_binary (h := by decide) ..,
   good_nullary (h := by decide) ..,
   good_unary (h := by decide) ..,
   good_binary (h := by decide) ..,
   good_ternary (h := by decide) ..,
   good_unary (h := by decide) ..,
   good_binary (h := by decide) ..,
   good_binary (h := by decide) ..,
   good_binary (h := by decide) ..,
   good_nullary (h := by decide) ..,
   good_binary (h := by decide) ..,
   good_nullary (h := by decide) ..,
   good_binary (h := by decide) ..,
   good_nullary (h := by decide) ..,
   good_binary (h := by decide) ..,
   good_binary (h := by decide) ..,
   good_nullary (h := by decide) ..,
   good_binary (h := by decide) ..,
   good_nullary (h := by decide) ..,
   good_unary (h := by decide) ..,
   good_nullary (h := by decide) ..⟩

set_option maxHeartbeats 1000000 in
/-- The operations of window 7 of @main (24 of them, operations 516 … 539). -/
abbrev ops7 : List (HloOp τ sig (Elt F)) :=
  [ unary main_cst_75 main_v342 (broadcastInDim S128 ![] bcast_S_S128 : (⟨S_, .f32⟩ : BufTy).Contents (Elt F) → (⟨S128, .f32⟩ : BufTy).Contents (Elt F)),
    unary main_arg14 main_v343 (broadcastInDim S50000x1 ![0] bcast_S50000_S50000x1_0 : (⟨S50000, .i32⟩ : BufTy).Contents (Elt F) → (⟨S50000x1, .i32⟩ : BufTy).Contents (Elt F)),
    ternary main_v342 main_v343 main_v341 main_v344 ((fun x i u => Host.scatterAdd scatter_S128_S50000x1_S50000_n_0_0_1 x i u) : (⟨S128, .f32⟩ : BufTy).Contents (Elt F) → (⟨S50000x1, .i32⟩ : BufTy).Contents (Elt F) → (⟨S50000, .f32⟩ : BufTy).Contents (Elt F) → (⟨S128, .f32⟩ : BufTy).Contents (Elt F)),
    nullary main_cst_76 (constant S_ .f32 0x00000000#32),
    unary main_cst_76 main_v345 (broadcastInDim S128x128 ![] bcast_S_S128x128 : (⟨S_, .f32⟩ : BufTy).Contents (Elt F) → (⟨S128x128, .f32⟩ : BufTy).Contents (Elt F)),
    unary main_arg14 main_v346 (broadcastInDim S50000x1 ![0] bcast_S50000_S50000x1_0 : (⟨S50000, .i32⟩ : BufTy).Contents (Elt F) → (⟨S50000x1, .i32⟩ : BufTy).Contents (Elt F)),
    ternary main_v345 main_v346 main_v259 main_v347 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    nullary main_cst_77 (constant S_ .f32 0x3F800000#32),
    unary main_cst_77 main_v348 (broadcastInDim S128 ![] bcast_S_S128 : (⟨S_, .f32⟩ : BufTy).Contents (Elt F) → (⟨S128, .f32⟩ : BufTy).Contents (Elt F)),
    binary main_v344 main_v348 main_v349 (maximumf : (⟨S128, .f32⟩ : BufTy).Contents (Elt F) → (⟨S128, .f32⟩ : BufTy).Contents (Elt F) → (⟨S128, .f32⟩ : BufTy).Contents (Elt F)),
    unary main_v349 main_v350 (broadcastInDim S128x1 ![0] bcast_S128_S128x1_0 : (⟨S128, .f32⟩ : BufTy).Contents (Elt F) → (⟨S128x1, .f32⟩ : BufTy).Contents (Elt F)),
    unary main_v350 main_v351 (broadcastInDim S128x128 ![0, 1] bcast_S128x1_S128x128_0_1 : (⟨S128x1, .f32⟩ : BufTy).Contents (Elt F) → (⟨S128x128, .f32⟩ : BufTy).Contents (Elt F)),
    binary main_v347 main_v351 main_v352 (Host.divf : (⟨S128x128, .f32⟩ : BufTy).Contents (Elt F) → (⟨S128x128, .f32⟩ : BufTy).Contents (Elt F) → (⟨S128x128, .f32⟩ : BufTy).Contents (Elt F)),
    binary main_v352 main_arg9 main_v353 ((fun l r => Host.dotGeneral dot_S128x128_S128x64_S128x64_1_0_0_1_n_n none l r) : (⟨S128x128, .f32⟩ : BufTy).Contents (Elt F) → (⟨S128x64, .f32⟩ : BufTy).Contents (Elt F) → (⟨S128x64, .f32⟩ : BufTy).Contents (Elt F)),
    unary main_arg10 main_v354 (broadcastInDim S1x64 ![1] bcast_S64_S1x64_1 : (⟨S64, .f32⟩ : BufTy).Contents (Elt F) → (⟨S1x64, .f32⟩ : BufTy).Contents (Elt F)),
    unary main_v354 main_v355 (broadcastInDim S128x64 ![0, 1] bcast_S1x64_S128x64_0_1 : (⟨S1x64, .f32⟩ : BufTy).Contents (Elt F) → (⟨S128x64, .f32⟩ : BufTy).Contents (Elt F)),
    binary main_v353 main_v355 main_v356 (addf : (⟨S128x64, .f32⟩ : BufTy).Contents (Elt F) → (⟨S128x64, .f32⟩ : BufTy).Contents (Elt F) → (⟨S128x64, .f32⟩ : BufTy).Contents (Elt F)),
    TRef.nullary main_call9.cst (constant S_ .f32 0x00000000#32),
    TRef.unary main_call9.cst main_call9.v0 (broadcastInDim S128x64 ![] bcast_S_S128x64),
    TRef.binary (TRef.of main_v356 : TRef sig ⟨S128x64, .f32⟩) main_call9.v0 main_call9.v1 maximumf,
    binary main_v357 main_arg11 main_v358 ((fun l r => Host.dotGeneral dot_S128x64_S64x2_S128x2_1_0_0_1_n_n none l r) : (⟨S128x64, .f32⟩ : BufTy).Contents (Elt F) → (⟨S64x2, .f32⟩ : BufTy).Contents (Elt F) → (⟨S128x2, .f32⟩ : BufTy).Contents (Elt F)),
    unary main_arg12 main_v359 (broadcastInDim S1x2 ![1] bcast_S2_S1x2_1 : (⟨S2, .f32⟩ : BufTy).Contents (Elt F) → (⟨S1x2, .f32⟩ : BufTy).Contents (Elt F)),
    unary main_v359 main_v360 (broadcastInDim S128x2 ![0, 1] bcast_S1x2_S128x2_0_1 : (⟨S1x2, .f32⟩ : BufTy).Contents (Elt F) → (⟨S128x2, .f32⟩ : BufTy).Contents (Elt F)),
    binary main_v358 main_v360 main_v361 (addf : (⟨S128x2, .f32⟩ : BufTy).Contents (Elt F) → (⟨S128x2, .f32⟩ : BufTy).Contents (Elt F) → (⟨S128x2, .f32⟩ : BufTy).Contents (Elt F)) ]

set_option maxHeartbeats 1000000 in
set_option maxRecDepth 8192 in
/-- Window 7 writes the buffers numbered 530 … 553. -/
theorem ops7_good : (ops7 : List (HloOp τ sig (Elt F))).Forall (Good 530 554) :=
  ⟨good_unary (h := by decide) ..,
   good_unary (h := by decide) ..,
   good_ternary (h := by decide) ..,
   good_nullary (h := by decide) ..,
   good_unary (h := by decide) ..,
   good_unary (h := by decide) ..,
   good_ternary (h := by decide) ..,
   good_nullary (h := by decide) ..,
   good_unary (h := by decide) ..,
   good_binary (h := by decide) ..,
   good_unary (h := by decide) ..,
   good_unary (h := by decide) ..,
   good_binary (h := by decide) ..,
   good_binary (h := by decide) ..,
   good_unary (h := by decide) ..,
   good_unary (h := by decide) ..,
   good_binary (h := by decide) ..,
   good_nullary (h := by decide) ..,
   good_unary (h := by decide) ..,
   good_binary (h := by decide) ..,
   good_binary (h := by decide) ..,
   good_unary (h := by decide) ..,
   good_unary (h := by decide) ..,
   good_binary (h := by decide) ..⟩

/-- @main's 539 operations, in order. -/
abbrev ops : List (HloOp τ sig (Elt F)) :=
  ops0 ++ (ops1 ++ (ops2 ++ (ops3 ++ (ops4 ++ (ops5 ++ (ops6 ++ (ops7)))))))

end Cert.ReferenceIdeal.HandRun

end
-- ==== Proof.Ref.Run.lean ====
/- The run of the reference program: @main is the straight line Ops.lean lists, so every weakly fair execution
   ends with each TensorCore buffer at the fold of the line's operations over the launch contents; the two results
   are read there as that fold (kept folded), and every argument, which no operation writes, at what it held. -/
import proofs.«160050_j32744830665390_2_alg».proof.Proof.Ref.Ops
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## Each window is its list

A window's text is a chain of operation steps; where it calls a function, the call unfolds to the callee's chain
(the callee's own call, to that one's), followed by the rest of the window. Sequencing a chain in front of a
continuation grafts the continuation at the chain's end (bind_assoc, pure_bind), so with the definitions unfolded
and sequencing reassociated both sides are the same chain of steps. -/

set_option maxHeartbeats 2000000 in
set_option maxRecDepth 16384 in
theorem main_part0_eq (c : Dev nD) : main_part0 (F := F) c = seq ops0 := by
  first
    | (simp only [main_part0, fn_where.body, fn_var.body, fn_where_0.body, seq, bind_assoc, pure_bind]; first | done | rfl)
    | rfl

set_option maxHeartbeats 2000000 in
set_option maxRecDepth 16384 in
theorem main_part1_eq (c : Dev nD) : main_part1 (F := F) c = seq ops1 := by
  first
    | (simp only [main_part1, fn_relu.body, seq, bind_assoc, pure_bind]; first | done | rfl)
    | rfl

set_option maxHeartbeats 2000000 in
set_option maxRecDepth 16384 in
theorem main_part2_eq (c : Dev nD) : main_part2 (F := F) c = seq ops2 := by
  first
    | (simp only [main_part2, fn_var_1.body, fn_where_2.body, fn_relu.body, seq, bind_assoc, pure_bind]; first | done | rfl)
    | rfl

set_option maxHeartbeats 2000000 in
set_option maxRecDepth 16384 in
theorem main_part3_eq (c : Dev nD) : main_part3 (F := F) c = seq ops3 := by
  first
    | (simp only [main_part3, fn_var_1.body, fn_where_2.body, fn_relu.body, seq, bind_assoc, pure_bind]; first | done | rfl)
    | rfl

set_option maxHeartbeats 2000000 in
set_option maxRecDepth 16384 in
theorem main_part4_eq (c : Dev nD) : main_part4 (F := F) c = seq ops4 := by
  first
    | (simp only [main_part4, fn_var_1.body, fn_where_2.body, seq, bind_assoc, pure_bind]; first | done | rfl)
    | rfl

set_option maxHeartbeats 2000000 in
set_option maxRecDepth 16384 in
theorem main_part5_eq (c : Dev nD) : main_part5 (F := F) c = seq ops5 := by
  first
    | (simp only [main_part5, fn_relu.body, seq, bind_assoc, pure_bind]; first | done | rfl)
    | rfl

set_option maxHeartbeats 2000000 in
set_option maxRecDepth 16384 in
theorem main_part6_eq (c : Dev nD) : main_part6 (F := F) c = seq ops6 := rfl

set_option maxHeartbeats 2000000 in
set_option maxRecDepth 16384 in
theorem main_part7_eq (c : Dev nD) : main_part7 (F := F) c = seq ops7 := by
  first
    | (simp only [main_part7, fn_relu_3.body, seq, bind_assoc, pure_bind]; first | done | rfl)
    | rfl

/-- @main runs its windows in order, and a concatenation of lines runs them in order (seq_append): with each
    window rewritten to its list the two sides are the same sequence. -/
theorem main_eq (c : Dev nD) : main (F := F) c = seq ops := by
  rw [show (ops : List (HloOp τ sig (Elt F))) = ops0 ++ (ops1 ++ (ops2 ++ (ops3 ++ (ops4 ++ (ops5 ++ (ops6 ++ ops7)))))) from rfl,
    seq_append, seq_append, seq_append, seq_append, seq_append, seq_append, seq_append,
    ← main_part0_eq c, ← main_part1_eq c, ← main_part2_eq c, ← main_part3_eq c, ← main_part4_eq c, ← main_part5_eq c,
    ← main_part6_eq c, ← main_part7_eq c]
  rfl

set_option maxRecDepth 8192 in
theorem scopedRefs_eq : (Finset.univ.filter fun b : Ref sig .tc => b.isScoped) = ∅ := by decide
set_option maxRecDepth 8192 in
theorem scopedSems_eq : (Finset.univ.filter fun sm : SemLoc sig => sm.isScoped .tc) = ∅ := by decide

/-- Every operation of the whole line is fit and writes a buffer numbered 15 … 553: each window's do, inside the
    window's own stretch of that range. -/
theorem ops_good : (ops : List (HloOp τ sig (Elt F))).Forall (Good 15 554) :=
  forall_cat (forall_weaken ops0_good fun _ h => h.mono (by decide) (by decide))
  (forall_cat (forall_weaken ops1_good fun _ h => h.mono (by decide) (by decide))
  (forall_cat (forall_weaken ops2_good fun _ h => h.mono (by decide) (by decide))
  (forall_cat (forall_weaken ops3_good fun _ h => h.mono (by decide) (by decide))
  (forall_cat (forall_weaken ops4_good fun _ h => h.mono (by decide) (by decide))
  (forall_cat (forall_weaken ops5_good fun _ h => h.mono (by decide) (by decide))
  (forall_cat (forall_weaken ops6_good fun _ h => h.mono (by decide) (by decide))
    (forall_weaken ops7_good fun _ h => h.mono (by decide) (by decide))))))))

theorem ops_sub : (ops : List (HloOp τ sig (Elt F))).Forall fun op => op.bufs ⊆ tcRefs τ sig :=
  List.forall_iff_forall_mem.mpr fun op h => (List.forall_iff_forall_mem.mp ops_good op h).sub

theorem ops_fresh : ∀ op ∈ (ops : List (HloOp τ sig (Elt F))), op.fresh = ∅ :=
  fun op h => (List.forall_iff_forall_mem.mp ops_good op h).fresh

/-- The line run as its eight windows in turn. -/
theorem after_ops (V : Valuation τ sig (Elt F)) :
    StableHlo.after ops V
      = StableHlo.after ops7 (StableHlo.after ops6 (StableHlo.after ops5 (StableHlo.after ops4 (StableHlo.after ops3
          (StableHlo.after ops2 (StableHlo.after ops1 (StableHlo.after ops0 V))))))) := by
  simp only [ops, StableHlo.after_append]

/-- An argument's buffer (numbered below 15) after the line, from the launch contents of device c, is what the
    launch gave it. -/
theorem arg_kept (m : (ℓ : Loc nD τ sig) → Buf (Elt F) ℓ) (c : Dev nD) {r : Ref sig .tc} (hr : r.idx.val < 15) :
    StableHlo.after (ops (F := F)) (fun b => m (c, b)) (Proc.devRef .tc r) = m ((c.tc : Thread nD τ).loc r) :=
  after_keep ops ops_good (fun b => m (c, b)) (Or.inl hr)

/-- On every device, for any float values, from any memory with zero counters: every weakly fair execution of
    @main terminates; the logits and the regulariser end at the line's fold over the launch contents, read at
    their buffers, and the fifteen arguments end unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
        r.2.mem ((c.tc : Thread nD τ).loc main_v361) = StableHlo.after (ops (F := F)) (fun b => m (c, b)) (Proc.devRef .tc main_v361)
      ∧ r.2.mem ((c.tc : Thread nD τ).loc main_v340) = StableHlo.after (ops (F := F)) (fun b => m (c, b)) (Proc.devRef .tc main_v340)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono
    (fun _ h c => ⟨h c main_v361, h c main_v340,
      (h c main_arg0).trans (arg_kept m c (r := main_arg0) (by decide)),
      (h c main_arg1).trans (arg_kept m c (r := main_arg1) (by decide)),
      (h c main_arg2).trans (arg_kept m c (r := main_arg2) (by decide)),
      (h c main_arg3).trans (arg_kept m c (r := main_arg3) (by decide)),
      (h c main_arg4).trans (arg_kept m c (r := main_arg4) (by decide)),
      (h c main_arg5).trans (arg_kept m c (r := main_arg5) (by decide)),
      (h c main_arg6).trans (arg_kept m c (r := main_arg6) (by decide)),
      (h c main_arg7).trans (arg_kept m c (r := main_arg7) (by decide)),
      (h c main_arg8).trans (arg_kept m c (r := main_arg8) (by decide)),
      (h c main_arg9).trans (arg_kept m c (r := main_arg9) (by decide)),
      (h c main_arg10).trans (arg_kept m c (r := main_arg10) (by decide)),
      (h c main_arg11).trans (arg_kept m c (r := main_arg11) (by decide)),
      (h c main_arg12).trans (arg_kept m c (r := main_arg12) (by decide)),
      (h c main_arg13).trans (arg_kept m c (r := main_arg13) (by decide)),
      (h c main_arg14).trans (arg_kept m c (r := main_arg14) (by decide))⟩)
    (run_seq scopedRefs_eq scopedSems_eq defs main (fun _ => ops) main_eq (fun _ => ops_sub) m ρ (fun _ => ops_fresh))

/-- The reference program runs and leaves its arguments unchanged: the run, its two results forgotten. -/
theorem frame (m : (ℓ : Loc nD τ sig) → Buf (Elt F) ℓ) (g : Dev nD → PrngReg) :
    θ_run (defs (F := F)) (onTc (τ := τ) (main (F := F))) ⟨m, fun _ => 0, g⟩ (fun r => ∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => (h c).2.2) (run m g)

end Cert.ReferenceIdeal.HandRun

end
-- ==== Proof.Pre.Decode.lean ====
/-
  The printed precondition read back. `finite_inputs` is the conjunction of fourteen `jnp.all`s: for each of the thirteen
  float arrays, |v| < +∞ at every entry; for the edge table, 0 ≤ e and e < 50000 at every entry (the fifteenth array, the
  graph assignment, is not constrained). A `jnp.all` is a reduction by `and` from 1 into a scalar: it is 1 exactly when
  every entry of its operand is 1. At the ideal values a float is an extended real, the pattern 0x7F800000 is +∞ and
  |v| = max v (−v); so |v| < +∞ says that v is neither infinity: v is a real number. The word comparisons are the signed
  ones, so an edge entry read as a signed integer lies in [0, 50000).
-/
import proofs.«160050_j32744830665390_2_alg».proof.Pre_finite_inputs
import Idealize.ShloMosaic.PureOps.Ideal
import Idealize.ShloMosaic.Lib.ReduceAll
import Idealize.ShloMosaic.Lib.ValueIdx

noncomputable section

namespace Cert.Hand.Pre

open Idealize.ShloMosaic Cert.Pre_finite_inputs

/-- The scalar shape has exactly one index. -/
instance scalarIdx_subsingleton : Subsingleton S_.Idx := ⟨fun a b => funext fun d => d.elim0⟩

/-! ## One entry -/

/-- The f32 pattern 0x7F800000 denotes +∞. -/
theorem inf_pattern : Ideal.ofBits .f32 0x7F800000#32 = (⊤ : EReal) := by
  simp [Ideal.ofBits, Ideal.ieee]

/-- An extended real whose absolute value max v (−v) compares below +∞ is a real number: both infinities have
    absolute value +∞. -/
theorem real_of_abs_lt_inf (v : EReal)
    (h : Ideal.cmp .olt (max v (-v)) (Ideal.ofBits .f32 0x7F800000#32) = 1#1) : ∃ r : ℝ, v = (r : EReal) := by
  rw [inf_pattern] at h
  induction v using EReal.rec with
  | bot => exact absurd h (by simp [Ideal.cmp])
  | coe r => exact ⟨r, rfl⟩
  | top => exact absurd h (by simp [Ideal.cmp])

/-- A 32-bit word that reads signed into [0, 50000) has its top bit clear: it reads the same unsigned. -/
theorem toNat_of_signed_range (w : BitVec 32) (h0 : 0 ≤ w.toInt) (h1 : w.toInt < 50000) :
    w.toInt = (w.toNat : Int) ∧ w.toNat < 50000 := by
  have e : w.toInt = (w.toNat : Int) := BitVec.toInt_eq_toNat_of_lt (BitVec.toInt_pos_iff.1 h0)
  exact ⟨e, by omega⟩

/-! ## One array -/

/-- `jnp.all(|v| < +∞)` equal to 1 makes every entry of the float array `v` a real number, whatever the shape. -/
theorem all_real {s : Shape} {axes : List (Fin s.rank)}
    (hb : S_.BroadcastsInDim s (![] : Fin 0 → Fin s.rank)) (hr : s.ReducesTo axes S_) (h0 : 0 < S_.numel)
    (v : FVec Ideal s .f32) (j : S_.Idx)
    (e : Host.reduce IntOp.andi
        (cmpf .olt (Host.absf v) (broadcastInDim s ![] hb (constant (F := Ideal) S_ .f32 0x7F800000#32)))
        (constantI S_ 1 1#1) hr h0 j = 1#1) :
    ∀ i, ∃ r : ℝ, v i = (r : EReal) := fun i =>
  real_of_abs_lt_inf (v i) (Host.reduce_andi_all _ _ hr h0 j e i)

/-- `jnp.all((v ≥ 0) & (v < 50000))` equal to 1 puts every entry of the word array `v`, read signed, in [0, 50000). -/
theorem all_in_range {s : Shape} {axes : List (Fin s.rank)}
    (hb : S_.BroadcastsInDim s (![] : Fin 0 → Fin s.rank)) (hr : s.ReducesTo axes S_) (h0 : 0 < S_.numel)
    (v : IVec s 32) (j : S_.Idx)
    (e : Host.reduce IntOp.andi
        (andi (cmpi .sge v (broadcastInDim s ![] hb (constantI S_ 32 0#32)))
              (cmpi .slt v (broadcastInDim s ![] hb (constantI S_ 32 50000#32))))
        (constantI S_ 1 1#1) hr h0 j = 1#1) :
    ∀ i, 0 ≤ (v i).toInt ∧ (v i).toInt < 50000 := fun i => by
  have hi := Host.reduce_andi_all _ _ hr h0 j e i
  obtain ⟨hge, hlt⟩ := IntOp.andi_eq_one.1 hi
  -- the two comparison words read back: the constants 0 and 50000 compare as the integers they spell
  have hge' := IntOp.cmpi_sge.1 hge
  have hlt' := IntOp.cmpi_slt.1 hlt
  exact ⟨hge', hlt'⟩

/-! ## The fifteen arrays -/

section Arrays

variable [Facts]
  {x : FVec Ideal S50000x128 .f32} {w_in : FVec Ideal S128x128 .f32}
  {b_in ln_g ln_b : FVec Ideal S128 .f32} {cheb_w : FVec Ideal S3x3x128x128 .f32}
  {cheb_b bn_g bn_b : FVec Ideal S3x128 .f32} {w1 : FVec Ideal S128x64 .f32} {b1 : FVec Ideal S64 .f32}
  {w2 : FVec Ideal S64x2 .f32} {b2 : FVec Ideal S2 .f32}
  {edge_index : IVec S2x800000 32} {batch : IVec S50000 32}

/-- Every entry of every float array is a real number. -/
structure FiniteInputs (x : FVec Ideal S50000x128 .f32) (w_in : FVec Ideal S128x128 .f32)
    (b_in ln_g ln_b : FVec Ideal S128 .f32) (cheb_w : FVec Ideal S3x3x128x128 .f32)
    (cheb_b bn_g bn_b : FVec Ideal S3x128 .f32) (w1 : FVec Ideal S128x64 .f32) (b1 : FVec Ideal S64 .f32)
    (w2 : FVec Ideal S64x2 .f32) (b2 : FVec Ideal S2 .f32) : Prop where
  x_real : ∀ i, ∃ r : ℝ, x i = (r : EReal)
  w_in_real : ∀ i, ∃ r : ℝ, w_in i = (r : EReal)
  b_in_real : ∀ i, ∃ r : ℝ, b_in i = (r : EReal)
  ln_g_real : ∀ i, ∃ r : ℝ, ln_g i = (r : EReal)
  ln_b_real : ∀ i, ∃ r : ℝ, ln_b i = (r : EReal)
  cheb_w_real : ∀ i, ∃ r : ℝ, cheb_w i = (r : EReal)
  cheb_b_real : ∀ i, ∃ r : ℝ, cheb_b i = (r : EReal)
  bn_g_real : ∀ i, ∃ r : ℝ, bn_g i = (r : EReal)
  bn_b_real : ∀ i, ∃ r : ℝ, bn_b i = (r : EReal)
  w1_real : ∀ i, ∃ r : ℝ, w1 i = (r : EReal)
  b1_real : ∀ i, ∃ r : ℝ, b1 i = (r : EReal)
  w2_real : ∀ i, ∃ r : ℝ, w2 i = (r : EReal)
  b2_real : ∀ i, ∃ r : ℝ, b2 i = (r : EReal)

variable (h : fn (F := Ideal) x w_in b_in ln_g ln_b cheb_w cheb_b bn_g bn_b w1 b1 w2 b2 edge_index batch = (fun _ => 1#1))
include h

/-- The precondition decoded: the conjunction is 1 at the scalar's one index, so each of its fourteen conjuncts is; the
    thirteen float ones give real entries, the last the edge range. -/
theorem finite_and_range :
    FiniteInputs x w_in b_in ln_g ln_b cheb_w cheb_b bn_g bn_b w1 b1 w2 b2
      ∧ ∀ i, 0 ≤ (edge_index i).toInt ∧ (edge_index i).toInt < 50000 := by
  have e := congrFun h ValueIdx.ix0
  dsimp only [fn, fn_part1, fn_part2, fn_part3, fn_part4] at e
  obtain ⟨e, e13⟩ := IntOp.andi_eq_one.1 e
  obtain ⟨e, e12⟩ := IntOp.andi_eq_one.1 e
  obtain ⟨e, e11⟩ := IntOp.andi_eq_one.1 e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨⟨all_real _ _ _ x _ e0, all_real _ _ _ w_in _ e1, all_real _ _ _ b_in _ e2, all_real _ _ _ ln_g _ e3,
      all_real _ _ _ ln_b _ e4, all_real _ _ _ cheb_w _ e5, all_real _ _ _ cheb_b _ e6, all_real _ _ _ bn_g _ e7,
      all_real _ _ _ bn_b _ e8, all_real _ _ _ w1 _ e9, all_real _ _ _ b1 _ e10, all_real _ _ _ w2 _ e11,
      all_real _ _ _ b2 _ e12⟩,
    all_in_range _ _ _ edge_index _ e13⟩

theorem finite_of_pre : FiniteInputs x w_in b_in ln_g ln_b cheb_w cheb_b bn_g bn_b w1 b1 w2 b2 := (finite_and_range h).1

theorem x_real : ∀ i, ∃ r : ℝ, x i = (r : EReal) := (finite_of_pre h).x_real
theorem w_in_real : ∀ i, ∃ r : ℝ, w_in i = (r : EReal) := (finite_of_pre h).w_in_real
theorem b_in_real : ∀ i, ∃ r : ℝ, b_in i = (r : EReal) := (finite_of_pre h).b_in_real
theorem ln_g_real : ∀ i, ∃ r : ℝ, ln_g i = (r : EReal) := (finite_of_pre h).ln_g_real
theorem ln_b_real : ∀ i, ∃ r : ℝ, ln_b i = (r : EReal) := (finite_of_pre h).ln_b_real
theorem cheb_w_real : ∀ i, ∃ r : ℝ, cheb_w i = (r : EReal) := (finite_of_pre h).cheb_w_real
theorem cheb_b_real : ∀ i, ∃ r : ℝ, cheb_b i = (r : EReal) := (finite_of_pre h).cheb_b_real
theorem bn_g_real : ∀ i, ∃ r : ℝ, bn_g i = (r : EReal) := (finite_of_pre h).bn_g_real
theorem bn_b_real : ∀ i, ∃ r : ℝ, bn_b i = (r : EReal) := (finite_of_pre h).bn_b_real
theorem w1_real : ∀ i, ∃ r : ℝ, w1 i = (r : EReal) := (finite_of_pre h).w1_real
theorem b1_real : ∀ i, ∃ r : ℝ, b1 i = (r : EReal) := (finite_of_pre h).b1_real
theorem w2_real : ∀ i, ∃ r : ℝ, w2 i = (r : EReal) := (finite_of_pre h).w2_real
theorem b2_real : ∀ i, ∃ r : ℝ, b2 i = (r : EReal) := (finite_of_pre h).b2_real

/-- Every entry of the edge table, read signed, names a node: it lies in [0, 50000). -/
theorem edge_in_range : ∀ i, 0 ≤ (edge_index i).toInt ∧ (edge_index i).toInt < 50000 := (finite_and_range h).2

/-- The edge entries read unsigned: the same number as read signed, below 50000. -/
theorem edge_toInt_eq_toNat : ∀ i, (edge_index i).toInt = ((edge_index i).toNat : Int) := fun i =>
  (toNat_of_signed_range _ (edge_in_range h i).1 (edge_in_range h i).2).1

theorem edge_toNat_lt : ∀ i, (edge_index i).toNat < 50000 := fun i =>
  (toNat_of_signed_range _ (edge_in_range h i).1 (edge_in_range h i).2).2

/-- Clamping an edge entry into the node table's index range [0, 49999] changes nothing. -/
theorem edge_clamp_id : ∀ i, min (edge_index i).toInt.toNat (50000 - 1) = (edge_index i).toNat := fun i => by
  have e := edge_toInt_eq_toNat h i
  have l := edge_toNat_lt h i
  omega

end Arrays

end Cert.Hand.Pre

end
-- ==== Proof.Spec.lean ====
/-
  The network both programs compute, over the real numbers, stage by stage.

  Inputs: node features `x`, the embedding's affine map and layer-norm parameters, three Chebyshev layers' weights,
  biases and batch-norm parameters, the head's two affine maps, the graph's edges `(src e, dst e)` and each node's
  graph number `batch i`.  With `d i` the out-degree of node `i`, the scaled Laplacian's action is
  `(L h) i = Σ_{e : dst e = i} −d(src e)^{-1/2} · d(dst e)^{-1/2} · h (src e)` (isolated nodes weigh 0); a layer maps
  `h` to `relu (BN (h·W₀ + (L h)·W₁ + (2·L(L h) − h)·W₂ + b))` with batch statistics over the nodes.

  Two spellings of two quantities are kept apart, because the two programs spell them differently:
  * the batch variance of a column, as the mean of squared deviations (`varDev`) and as the mean of squares less the
    squared mean (`varMom`);
  * the Dirichlet energy of a hidden state, edge by edge (`energyEdge`: Σ_e ‖h(src e) − h(dst e)‖²) and node by node
    (`energyNode`: Σ_i ((d_out i + d_in i)·‖h i‖² − 2·⟨h i, Σ_{e : dst e = i} h (src e)⟩)).
  Over the reals the spellings agree; that is proved where these definitions are used.
-/
import Mathlib.Analysis.SpecialFunctions.Sqrt
import Mathlib.Algebra.BigOperators.Fin
import Mathlib.Algebra.Order.BigOperators.Ring.Finset

noncomputable section

namespace Cert.Hand.Spec

open BigOperators

/-- The argument arrays as real tables. `src`, `dst` are node numbers (the precondition puts every edge end in range);
    `batch` is kept as the integer it is: a node whose number is no graph's contributes to no pool. -/
structure Inputs where
  x : Fin 50000 → Fin 128 → ℝ
  wIn : Fin 128 → Fin 128 → ℝ
  bIn : Fin 128 → ℝ
  lnG : Fin 128 → ℝ
  lnB : Fin 128 → ℝ
  chebW : Fin 3 → Fin 3 → Fin 128 → Fin 128 → ℝ
  chebB : Fin 3 → Fin 128 → ℝ
  bnG : Fin 3 → Fin 128 → ℝ
  bnB : Fin 3 → Fin 128 → ℝ
  w1 : Fin 128 → Fin 64 → ℝ
  b1 : Fin 64 → ℝ
  w2 : Fin 64 → Fin 2 → ℝ
  b2 : Fin 2 → ℝ
  src : Fin 800000 → Fin 50000
  dst : Fin 800000 → Fin 50000
  batch : Fin 50000 → ℤ

/-- A table of one real per node and feature. -/
abbrev Hidden := Fin 50000 → Fin 128 → ℝ

/-- The reciprocal square root, as both programs' `rsqrt` reads on a positive real. -/
def rsq (a : ℝ) : ℝ := (Real.sqrt a)⁻¹

variable (I : Inputs) (ε : ℝ)

/-! ## The graph -/

/-- Out-degree: the number of edges leaving node `i`. -/
def degOut (i : Fin 50000) : ℝ := ∑ e : Fin 800000, if I.src e = i then (1 : ℝ) else 0
/-- In-degree: the number of edges entering node `i`. -/
def degIn (i : Fin 50000) : ℝ := ∑ e : Fin 800000, if I.dst e = i then (1 : ℝ) else 0
/-- `d_out^{-1/2}`, and `0` at a node no edge leaves. -/
def dinv (i : Fin 50000) : ℝ := if 0 < degOut I i then rsq (max (degOut I i) 1) else 0
/-- The scaled Laplacian's weight of edge `e`. -/
def wEdge (e : Fin 800000) : ℝ := -(dinv I (I.src e)) * dinv I (I.dst e)
/-- `L h`: each node's weighted sum over its entering edges of the source's row. -/
def lap (h : Hidden) : Hidden := fun i k => ∑ e : Fin 800000, if I.dst e = i then wEdge I e * h (I.src e) k else 0
/-- The unweighted neighbour sum: each node's sum over its entering edges of the source's row. -/
def nbr (h : Hidden) : Hidden := fun i k => ∑ e : Fin 800000, if I.dst e = i then h (I.src e) k else 0

/-! ## Dense pieces -/

/-- `h · W`. -/
def lin (h : Hidden) (W : Fin 128 → Fin 128 → ℝ) : Hidden := fun i k => ∑ j : Fin 128, h i j * W j k

/-- The embedding before normalisation: `x · W_in + b_in`. -/
def embPre : Hidden := fun i k => lin I.x I.wIn i k + I.bIn k
/-- A row's mean over the 128 features. -/
def rowMean (h : Hidden) (i : Fin 50000) : ℝ := (∑ k : Fin 128, h i k) / 128
/-- A row's variance over the 128 features (mean of squared deviations). -/
def rowVar (h : Hidden) (i : Fin 50000) : ℝ :=
  (∑ k : Fin 128, (h i k - rowMean h i) * (h i k - rowMean h i)) / 128
/-- The embedding: layer norm of `embPre` over the features, then relu. -/
def embed : Hidden := fun i k =>
  max ((embPre I i k - rowMean (embPre I) i) * rsq (rowVar (embPre I) i + ε) * I.lnG k + I.lnB k) 0

/-- Layer `l` before batch norm: `h·W₀ + (L h)·W₁ + (2·L(L h) − h)·W₂ + b`. -/
def chebPre (l : Fin 3) (h : Hidden) : Hidden := fun i k =>
  lin h (I.chebW l 0) i k + lin (lap I h) (I.chebW l 1) i k
    + lin (fun i' k' => 2 * lap I (lap I h) i' k' - h i' k') (I.chebW l 2) i k + I.chebB l k

/-- A column's mean over the nodes. -/
def colMean (o : Hidden) (k : Fin 128) : ℝ := (∑ i : Fin 50000, o i k) / 50000
/-- A column's variance as the mean of squared deviations. -/
def varDev (o : Hidden) (k : Fin 128) : ℝ :=
  (∑ i : Fin 50000, (o i k - colMean o k) * (o i k - colMean o k)) / 50000
/-- A column's variance as the mean of squares less the squared mean. -/
def varMom (o : Hidden) (k : Fin 128) : ℝ :=
  (∑ i : Fin 50000, o i k * o i k) / 50000 - colMean o k * colMean o k
/-- Batch norm with the variance `v`, then relu. -/
def bnRelu (l : Fin 3) (v : Fin 128 → ℝ) (o : Hidden) : Hidden := fun i k =>
  max ((o i k - colMean o k) * rsq (v k + ε) * I.bnG l k + I.bnB l k) 0

/-- One layer, the variance spelt by `var`. -/
def layer (var : Hidden → Fin 128 → ℝ) (l : Fin 3) (h : Hidden) : Hidden :=
  bnRelu I ε l (var (chebPre I l h)) (chebPre I l h)

/-- The four hidden states (the embedding, then after each layer), the variance spelt by `var`. -/
def hidden (var : Hidden → Fin 128 → ℝ) : Fin 4 → Hidden
  | 0 => embed I ε
  | 1 => layer I ε var 0 (embed I ε)
  | 2 => layer I ε var 1 (layer I ε var 0 (embed I ε))
  | 3 => layer I ε var 2 (layer I ε var 1 (layer I ε var 0 (embed I ε)))

/-! ## The Dirichlet energy -/

/-- Edge by edge: `Σ_e ‖h (src e) − h (dst e)‖²`. -/
def energyEdge (h : Hidden) : ℝ :=
  ∑ e : Fin 800000, ∑ k : Fin 128, (h (I.src e) k - h (I.dst e) k) * (h (I.src e) k - h (I.dst e) k)
/-- Node by node: `Σ_i ((d_out i + d_in i)·‖h i‖² − 2·⟨h i, (nbr h) i⟩)`. -/
def energyNode (h : Hidden) : ℝ :=
  ∑ i : Fin 50000, ((degOut I i + degIn I i) * (∑ k : Fin 128, h i k * h i k)
    - 2 * ∑ k : Fin 128, h i k * nbr I h i k)
/-- The regulariser: the mean over the four hidden states of the per-edge mean energy. -/
def reg (energy : Hidden → ℝ) (var : Hidden → Fin 128 → ℝ) : ℝ :=
  ((((0 + energy (hidden I ε var 0) / 800000) + energy (hidden I ε var 1) / 800000)
    + energy (hidden I ε var 2) / 800000) + energy (hidden I ε var 3) / 800000) / 4

/-! ## Pooling and the head -/

/-- The number of nodes of graph `g`. -/
def count (g : Fin 128) : ℝ := ∑ i : Fin 50000, if I.batch i = (g.val : ℤ) then (1 : ℝ) else 0
/-- The mean over graph `g`'s nodes of the last hidden state (the sum itself for an empty graph). -/
def pool (var : Hidden → Fin 128 → ℝ) (g : Fin 128) (k : Fin 128) : ℝ :=
  (∑ i : Fin 50000, if I.batch i = (g.val : ℤ) then hidden I ε var 3 i k else 0) / max (count I g) 1
/-- The head's hidden layer. -/
def headZ (var : Hidden → Fin 128 → ℝ) (g : Fin 128) (j : Fin 64) : ℝ :=
  max ((∑ k : Fin 128, pool I ε var g k * I.w1 k j) + I.b1 j) 0
/-- The logits. -/
def logits (var : Hidden → Fin 128 → ℝ) (g : Fin 128) (o : Fin 2) : ℝ :=
  (∑ j : Fin 64, headZ I ε var g j * I.w2 j o) + I.b2 o

end Cert.Hand.Spec

end
-- ==== Proof.Math.Variance.lean ====
/-
  The two spellings of a population variance agree.

  For a finite family x of n reals (n > 0), with mean m = (∑ x) / n,

      (∑ x²) / n − m²  =  (∑ (x − m)²) / n .

  Expanding the square on the right gives ∑ x² − 2 m ∑ x + n m², and ∑ x = n m turns this into
  ∑ x² − n m².  Squares are spelled as products throughout.  The common value is a mean of
  squares, hence nonnegative.

  The second half restates both sides over the extended reals, every datum being the coercion of a
  real: each side, computed with the extended reals' sum, product and difference and the ideal
  quotient by the real n ≠ 0, is the coercion of the corresponding real expression; so the two
  sides agree there too, and their common value is nonnegative.
-/
import Mathlib.Data.EReal.Inv
import Mathlib.Algebra.BigOperators.Group.Finset.Basic
import Mathlib.Algebra.BigOperators.Ring.Finset
import Mathlib.Algebra.Order.BigOperators.Group.Finset
import Mathlib.Data.Fintype.BigOperators
import Mathlib.Tactic.Ring
import Mathlib.Tactic.FieldSimp
import Idealize.ShloMosaic.PureOps.Ideal

open scoped BigOperators
open Idealize.ShloMosaic

namespace Cert.Hand.Math

/-! ### Over the reals -/

/-- The scalar identity behind the variance formula, the two sums kept as letters:
    Q/n − (S/n)² = (Q − 2 (S/n) S + n (S/n)²) / n. -/
theorem meanSq_sub_sqMean_scalar (Q S n : ℝ) (hn : n ≠ 0) :
    Q / n - S / n * (S / n) = (Q - 2 * (S / n) * S + n * (S / n * (S / n))) / n := by
  have hS : n * (S / n) = S := mul_div_cancel₀ S hn
  have h2 : 2 * (S / n) * S = 2 * (n * (S / n * (S / n))) :=
    calc 2 * (S / n) * S = 2 * (S / n) * (n * (S / n)) := by rw [hS]
      _ = 2 * (n * (S / n * (S / n))) := by ring
  have key : Q - 2 * (S / n) * S + n * (S / n * (S / n)) = Q - n * (S / n * (S / n)) := by
    rw [h2]; ring
  rw [key, sub_div, mul_div_cancel_left₀ _ hn]

/-- The sum of the squared deviations from any centre m, expanded:
    ∑ (x − m)² = ∑ x² − 2 m ∑ x + n m², where n is the number of terms. -/
theorem sum_sq_dev_expand {ι : Type*} [Fintype ι] (x : ι → ℝ) (m : ℝ) {n : ℝ}
    (hcard : (Fintype.card ι : ℝ) = n) :
    ∑ i, (x i - m) * (x i - m) = (∑ i, x i * x i) - 2 * m * (∑ i, x i) + n * (m * m) := by
  have h1 : ∀ i, (x i - m) * (x i - m) = x i * x i - 2 * m * x i + m * m := fun i => by ring
  rw [Finset.sum_congr rfl (fun i _ => h1 i), Finset.sum_add_distrib, Finset.sum_sub_distrib,
    Finset.sum_const, ← Finset.mul_sum, Finset.card_univ, nsmul_eq_mul, hcard]

/-- Mean of squares minus square of the mean equals the mean squared deviation from the mean
    (any finite index type with n elements, n ≠ 0). -/
theorem meanSq_sub_sqMean_eq_meanSqDev {ι : Type*} [Fintype ι] (x : ι → ℝ) {n : ℝ}
    (hcard : (Fintype.card ι : ℝ) = n) (hn : n ≠ 0) :
    (∑ i, x i * x i) / n - (∑ i, x i) / n * ((∑ i, x i) / n)
      = (∑ i, (x i - (∑ j, x j) / n) * (x i - (∑ j, x j) / n)) / n := by
  rw [sum_sq_dev_expand x ((∑ j, x j) / n) hcard]
  exact meanSq_sub_sqMean_scalar _ _ n hn

/-- The same for a family indexed by Fin n, n > 0. -/
theorem meanSq_sub_sqMean_eq_meanSqDev_fin {n : ℕ} (hn : 0 < n) (x : Fin n → ℝ) :
    (∑ i, x i * x i) / (n : ℝ) - (∑ i, x i) / (n : ℝ) * ((∑ i, x i) / (n : ℝ))
      = (∑ i, (x i - (∑ j, x j) / (n : ℝ)) * (x i - (∑ j, x j) / (n : ℝ))) / (n : ℝ) :=
  meanSq_sub_sqMean_eq_meanSqDev x (by rw [Fintype.card_fin]) (Nat.cast_ne_zero.2 hn.ne')

/-- A mean of squared deviations (from any centre) is nonnegative. -/
theorem meanSqDev_nonneg {ι : Type*} [Fintype ι] (x : ι → ℝ) (m : ℝ) {n : ℝ} (hn : 0 ≤ n) :
    0 ≤ (∑ i, (x i - m) * (x i - m)) / n :=
  div_nonneg (Finset.sum_nonneg fun i _ => mul_self_nonneg _) hn

/-- Mean of squares minus square of the mean is nonnegative. -/
theorem meanSq_sub_sqMean_nonneg {ι : Type*} [Fintype ι] (x : ι → ℝ) {n : ℝ}
    (hcard : (Fintype.card ι : ℝ) = n) (hn : 0 < n) :
    0 ≤ (∑ i, x i * x i) / n - (∑ i, x i) / n * ((∑ i, x i) / n) := by
  rw [meanSq_sub_sqMean_eq_meanSqDev x hcard hn.ne']
  exact meanSqDev_nonneg x _ hn.le

/-! ### Over the extended reals, every datum the coercion of a real -/

section EReal

variable {ι : Type*} [Fintype ι]

/-- The coercion of a finite real sum is the extended-real sum of the coercions. -/
private theorem coe_sum (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The ideal quotient of a coerced real by a nonzero coerced real is the coerced quotient. -/
private theorem div_cc (a : ℝ) {b : ℝ} (hb : b ≠ 0) :
    Ideal.div (a : EReal) (b : EReal) = ((a / b : ℝ) : EReal) := by
  rw [Ideal.div_coe hb, ← EReal.coe_mul, mul_one_div]

/-- The extended-real sum of coerced reals. -/
theorem ereal_sum_coe (r : ι → ℝ) : ∑ i, (r i : EReal) = ((∑ i, r i : ℝ) : EReal) :=
  (coe_sum _ r).symm

/-- The extended-real sum of the squares (as products) of coerced reals. -/
theorem ereal_sum_mul_self_coe (r : ι → ℝ) :
    ∑ i, (r i : EReal) * (r i : EReal) = ((∑ i, r i * r i : ℝ) : EReal) := by
  rw [coe_sum]
  exact Finset.sum_congr rfl fun i _ => (EReal.coe_mul (r i) (r i)).symm

/-- The extended-real mean of coerced reals is the coercion of the real mean. -/
theorem ereal_mean_coe (r : ι → ℝ) {n : ℝ} (hn : n ≠ 0) :
    Ideal.div (∑ i, (r i : EReal)) (n : EReal) = (((∑ i, r i) / n : ℝ) : EReal) := by
  rw [ereal_sum_coe, div_cc _ hn]

/-- Mean of squares minus square of the mean, computed in the extended reals on coerced reals, is
    the coercion of the real value. -/
theorem ereal_meanSq_sub_sqMean_coe (r : ι → ℝ) {n : ℝ} (hn : n ≠ 0) :
    Ideal.div (∑ i, (r i : EReal) * (r i : EReal)) (n : EReal)
        - Ideal.div (∑ i, (r i : EReal)) (n : EReal) * Ideal.div (∑ i, (r i : EReal)) (n : EReal)
      = (((∑ i, r i * r i) / n - (∑ i, r i) / n * ((∑ i, r i) / n) : ℝ) : EReal) := by
  rw [ereal_mean_coe r hn, ereal_sum_mul_self_coe, div_cc _ hn, ← EReal.coe_mul, ← EReal.coe_sub]

/-- The mean squared deviation from the mean, computed in the extended reals on coerced reals, is
    the coercion of the real value. -/
theorem ereal_meanSqDev_coe (r : ι → ℝ) {n : ℝ} (hn : n ≠ 0) :
    Ideal.div (∑ i, ((r i : EReal) - Ideal.div (∑ j, (r j : EReal)) (n : EReal))
                  * ((r i : EReal) - Ideal.div (∑ j, (r j : EReal)) (n : EReal))) (n : EReal)
      = (((∑ i, (r i - (∑ j, r j) / n) * (r i - (∑ j, r j) / n)) / n : ℝ) : EReal) := by
  rw [ereal_mean_coe r hn]
  have h : ∀ i ∈ (Finset.univ : Finset ι),
      ((r i : EReal) - (((∑ j, r j) / n : ℝ) : EReal)) * ((r i : EReal) - (((∑ j, r j) / n : ℝ) : EReal))
        = (((r i - (∑ j, r j) / n) * (r i - (∑ j, r j) / n) : ℝ) : EReal) := fun i _ => by
    rw [← EReal.coe_sub, ← EReal.coe_mul]
  rw [Finset.sum_congr rfl h, ← coe_sum, div_cc _ hn]

/-- Over the extended reals, on coerced reals, the two spellings of the variance agree. -/
theorem ereal_meanSq_sub_sqMean_eq_meanSqDev (r : ι → ℝ) {n : ℝ}
    (hcard : (Fintype.card ι : ℝ) = n) (hn : n ≠ 0) :
    Ideal.div (∑ i, (r i : EReal) * (r i : EReal)) (n : EReal)
        - Ideal.div (∑ i, (r i : EReal)) (n : EReal) * Ideal.div (∑ i, (r i : EReal)) (n : EReal)
      = Ideal.div (∑ i, ((r i : EReal) - Ideal.div (∑ j, (r j : EReal)) (n : EReal))
                  * ((r i : EReal) - Ideal.div (∑ j, (r j : EReal)) (n : EReal))) (n : EReal) := by
  rw [ereal_meanSq_sub_sqMean_coe r hn, ereal_meanSqDev_coe r hn,
    meanSq_sub_sqMean_eq_meanSqDev r hcard hn]

/-- The extended-real variance of coerced reals (mean of squares minus square of mean) is
    nonnegative. -/
theorem ereal_meanSq_sub_sqMean_nonneg (r : ι → ℝ) {n : ℝ}
    (hcard : (Fintype.card ι : ℝ) = n) (hn : 0 < n) :
    (0 : EReal) ≤ Ideal.div (∑ i, (r i : EReal) * (r i : EReal)) (n : EReal)
        - Ideal.div (∑ i, (r i : EReal)) (n : EReal) * Ideal.div (∑ i, (r i : EReal)) (n : EReal) := by
  rw [ereal_meanSq_sub_sqMean_coe r hn.ne']
  exact EReal.coe_nonneg.2 (meanSq_sub_sqMean_nonneg r hcard hn)

/-- The extended-real mean squared deviation of coerced reals is nonnegative. -/
theorem ereal_meanSqDev_nonneg (r : ι → ℝ) {n : ℝ} (hn : 0 < n) :
    (0 : EReal) ≤ Ideal.div (∑ i, ((r i : EReal) - Ideal.div (∑ j, (r j : EReal)) (n : EReal))
                  * ((r i : EReal) - Ideal.div (∑ j, (r j : EReal)) (n : EReal))) (n : EReal) := by
  rw [ereal_meanSqDev_coe r hn.ne']
  exact EReal.coe_nonneg.2 (meanSqDev_nonneg r _ hn.le)

end EReal

end Cert.Hand.Math
-- ==== Proof.Math.Dirichlet.lean ====
/-
  The Dirichlet energy of a node signal, summed over edges, as a sum over nodes; and the regrouping
  of a sum over a·b rows into a tiles of b rows.

  For a directed multigraph with edges e : E from src e to dst e and a signal h : V → K → ℝ,

      ∑_e ‖h(src e) − h(dst e)‖²
        = ∑_e ‖h(src e)‖² + ∑_e ‖h(dst e)‖² − 2 ∑_e ⟨h(src e), h(dst e)⟩ .

  Grouping the edges by their source turns the first sum into ∑_i degout(i) ‖h i‖², grouping by
  their target turns the second into ∑_i degin(i) ‖h i‖² and the third into ∑_i ⟨h i, S i⟩ with
  S i = ∑_{e : dst e = i} h(src e).  Degrees are written as real sums of ones over the edges of a
  fibre, and squared norms and inner products as sums of products over the feature index.
-/
import Mathlib.Data.Real.Basic
import Mathlib.Data.EReal.Basic
import Mathlib.Algebra.BigOperators.Group.Finset.Basic
import Mathlib.Algebra.BigOperators.Group.Finset.Sigma
import Mathlib.Algebra.BigOperators.Ring.Finset
import Mathlib.Algebra.BigOperators.Fin
import Mathlib.Data.Fintype.BigOperators
import Mathlib.Logic.Equiv.Fin.Basic
import Mathlib.Tactic.Ring

open scoped BigOperators

namespace Cert.Hand.Math

/-! ### Edge sums regrouped by an endpoint -/

section Dirichlet

variable {E V K : Type*} [Fintype E] [Fintype V] [Fintype K] [DecidableEq V]

/-- A sum over edges of a quantity of one endpoint is the sum over nodes of that quantity weighted
    by the number of edges having the node as that endpoint (the number a real sum of ones). -/
theorem sum_comp_eq_sum_fiber_ones_mul (f : E → V) (q : V → ℝ) :
    ∑ e, q (f e) = ∑ i, (∑ _e ∈ Finset.univ.filter (fun e => f e = i), (1 : ℝ)) * q i := by
  rw [← Finset.sum_fiberwise' Finset.univ f q]
  refine Finset.sum_congr rfl fun i _ => ?_
  rw [Finset.sum_mul]
  exact Finset.sum_congr rfl fun e _ => (one_mul (q i)).symm

/-- The squared norms of one endpoint's signal, summed over edges. -/
theorem sum_edge_normSq (f : E → V) (h : V → K → ℝ) :
    ∑ e, ∑ k, h (f e) k * h (f e) k
      = ∑ i, (∑ _e ∈ Finset.univ.filter (fun e => f e = i), (1 : ℝ)) * ∑ k, h i k * h i k :=
  sum_comp_eq_sum_fiber_ones_mul f fun i => ∑ k, h i k * h i k

/-- The inner products of the two endpoints' signals, summed over edges, grouped by target: the
    inner product of each node's signal with the sum of the signals arriving at it. -/
theorem sum_edge_inner (src dst : E → V) (h : V → K → ℝ) :
    ∑ e, ∑ k, h (src e) k * h (dst e) k
      = ∑ i, ∑ k, h i k * ∑ e ∈ Finset.univ.filter (fun e => dst e = i), h (src e) k := by
  rw [← Finset.sum_fiberwise Finset.univ dst (fun e => ∑ k, h (src e) k * h (dst e) k)]
  refine Finset.sum_congr rfl fun i _ => ?_
  rw [Finset.sum_comm]
  refine Finset.sum_congr rfl fun k _ => ?_
  rw [Finset.mul_sum]
  refine Finset.sum_congr rfl fun e he => ?_
  rw [(Finset.mem_filter.1 he).2]
  exact mul_comm _ _

/-- The squared distance of two feature vectors, expanded. -/
theorem sum_sub_mul_self_expand (a b : K → ℝ) :
    ∑ k, (a k - b k) * (a k - b k)
      = (∑ k, a k * a k) + (∑ k, b k * b k) - 2 * ∑ k, a k * b k := by
  have h1 : ∀ k, (a k - b k) * (a k - b k) = a k * a k + b k * b k - 2 * (a k * b k) :=
    fun k => by ring
  rw [Finset.sum_congr rfl (fun k _ => h1 k), Finset.sum_sub_distrib, Finset.sum_add_distrib,
    ← Finset.mul_sum]

/-- The Dirichlet energy over the edges equals the node sum of
    (degout + degin) · ‖h i‖² − 2 ⟨h i, S i⟩, S i the sum of the signals arriving at i. -/
theorem dirichlet_edge_sum_eq_node_sum (src dst : E → V) (h : V → K → ℝ) :
    ∑ e, ∑ k, (h (src e) k - h (dst e) k) * (h (src e) k - h (dst e) k)
      = ∑ i, (((∑ _e ∈ Finset.univ.filter (fun e => src e = i), (1 : ℝ))
                + (∑ _e ∈ Finset.univ.filter (fun e => dst e = i), (1 : ℝ)))
                * (∑ k, h i k * h i k)
              - 2 * ∑ k, h i k * ∑ e ∈ Finset.univ.filter (fun e => dst e = i), h (src e) k) := by
  have hL : ∀ e, ∑ k, (h (src e) k - h (dst e) k) * (h (src e) k - h (dst e) k)
      = (∑ k, h (src e) k * h (src e) k) + (∑ k, h (dst e) k * h (dst e) k)
          - 2 * ∑ k, h (src e) k * h (dst e) k :=
    fun e => sum_sub_mul_self_expand (h (src e)) (h (dst e))
  rw [Finset.sum_congr rfl (fun e _ => hL e), Finset.sum_sub_distrib, Finset.sum_add_distrib,
    ← Finset.mul_sum, sum_edge_normSq src h, sum_edge_normSq dst h, sum_edge_inner src dst h,
    Finset.mul_sum, ← Finset.sum_add_distrib, ← Finset.sum_sub_distrib]
  refine Finset.sum_congr rfl fun i _ => ?_
  ring

/-- The same with the node weight w and the arriving sum S given as functions known to be the
    degree sum and the fibre sum. -/
theorem dirichlet_edge_sum_eq_node_sum_of (src dst : E → V) (h : V → K → ℝ) (w : V → ℝ)
    (S : V → K → ℝ)
    (hw : ∀ i, w i = (∑ _e ∈ Finset.univ.filter (fun e => src e = i), (1 : ℝ))
                      + (∑ _e ∈ Finset.univ.filter (fun e => dst e = i), (1 : ℝ)))
    (hS : ∀ i k, S i k = ∑ e ∈ Finset.univ.filter (fun e => dst e = i), h (src e) k) :
    ∑ e, ∑ k, (h (src e) k - h (dst e) k) * (h (src e) k - h (dst e) k)
      = ∑ i, (w i * (∑ k, h i k * h i k) - 2 * ∑ k, h i k * S i k) := by
  rw [dirichlet_edge_sum_eq_node_sum src dst h]
  refine Finset.sum_congr rfl fun i _ => ?_
  have hk : ∑ k, h i k * S i k
      = ∑ k, h i k * ∑ e ∈ Finset.univ.filter (fun e => dst e = i), h (src e) k :=
    Finset.sum_congr rfl fun k _ => by rw [hS i k]
  rw [hw i, hk]

end Dirichlet

/-! ### A sum over a·b rows as a sum over a tiles of b rows -/

section Tiles

/-- Row r of tile t lies among the a·b rows. -/
theorem tile_row_lt {a b : ℕ} (t : Fin a) (r : Fin b) : t.val * b + r.val < a * b :=
  calc t.val * b + r.val < t.val * b + b := Nat.add_lt_add_left r.isLt _
    _ = (t.val + 1) * b := (Nat.succ_mul _ _).symm
    _ ≤ a * b := Nat.mul_le_mul_right _ t.isLt

/-- A sum over Fin (a·b), in any commutative additive monoid, is the sum over the a tiles of the
    sums over the b rows of each tile, row r of tile t being the index t·b + r. -/
theorem sum_fin_mul_eq_sum_tiles {M : Type*} [AddCommMonoid M] {a b : ℕ} (f : Fin (a * b) → M) :
    ∑ i, f i = ∑ t : Fin a, ∑ r : Fin b, f ⟨t.val * b + r.val, tile_row_lt t r⟩ :=
  calc ∑ i, f i = ∑ p : Fin a × Fin b, f (finProdFinEquiv p) :=
        (Equiv.sum_comp finProdFinEquiv f).symm
    _ = ∑ t : Fin a, ∑ r : Fin b, f (finProdFinEquiv (t, r)) :=
        Fintype.sum_prod_type fun p => f (finProdFinEquiv p)
    _ = ∑ t : Fin a, ∑ r : Fin b, f ⟨t.val * b + r.val, tile_row_lt t r⟩ :=
        Finset.sum_congr rfl fun t _ => Finset.sum_congr rfl fun r _ =>
          congrArg f (Fin.ext (by
            show r.val + b * t.val = t.val * b + r.val
            ring))

/-- The same for Fin n with n = a·b given as a hypothesis. -/
theorem sum_fin_eq_sum_tiles {M : Type*} [AddCommMonoid M] {n a b : ℕ} (hn : n = a * b)
    (f : Fin n → M) :
    ∑ i, f i
      = ∑ t : Fin a, ∑ r : Fin b, f ⟨t.val * b + r.val, by rw [hn]; exact tile_row_lt t r⟩ := by
  subst hn
  exact sum_fin_mul_eq_sum_tiles f

/-- The same for a summand given as a function of the row number. -/
theorem sum_fin_val_eq_sum_tiles {M : Type*} [AddCommMonoid M] {n a b : ℕ} (hn : n = a * b)
    (g : ℕ → M) :
    ∑ i : Fin n, g i.val = ∑ t : Fin a, ∑ r : Fin b, g (t.val * b + r.val) :=
  sum_fin_eq_sum_tiles hn fun i => g i.val

/-- The regrouping over the extended reals: it needs no finiteness, addition there being
    commutative and associative. -/
theorem ereal_sum_fin_eq_sum_tiles {n a b : ℕ} (hn : n = a * b) (f : Fin n → EReal) :
    ∑ i, f i
      = ∑ t : Fin a, ∑ r : Fin b, f ⟨t.val * b + r.val, by rw [hn]; exact tile_row_lt t r⟩ :=
  sum_fin_eq_sum_tiles hn f

/-- The regrouping over the reals. -/
theorem real_sum_fin_eq_sum_tiles {n a b : ℕ} (hn : n = a * b) (f : Fin n → ℝ) :
    ∑ i, f i
      = ∑ t : Fin a, ∑ r : Fin b, f ⟨t.val * b + r.val, by rw [hn]; exact tile_row_lt t r⟩ :=
  sum_fin_eq_sum_tiles hn f

/-- Row r of tile t, the tile size written first. -/
theorem tile_row_lt' {a b : ℕ} (t : Fin a) (r : Fin b) : b * t.val + r.val < a * b := by
  rw [Nat.mul_comm b t.val]
  exact tile_row_lt t r

/-- The regrouping with the row index spelled b·t + r. -/
theorem sum_fin_eq_sum_tiles' {M : Type*} [AddCommMonoid M] {n a b : ℕ} (hn : n = a * b)
    (f : Fin n → M) :
    ∑ i, f i
      = ∑ t : Fin a, ∑ r : Fin b, f ⟨b * t.val + r.val, by rw [hn]; exact tile_row_lt' t r⟩ := by
  rw [sum_fin_eq_sum_tiles hn f]
  refine Finset.sum_congr rfl fun t _ => Finset.sum_congr rfl fun r _ => congrArg f (Fin.ext ?_)
  show t.val * b + r.val = b * t.val + r.val
  rw [Nat.mul_comm]

/-- The regrouping for a summand given as a function of the row number, the tiles counted by a
    range of naturals. -/
theorem sum_fin_val_eq_sum_range_tiles {M : Type*} [AddCommMonoid M] {n a b : ℕ} (hn : n = a * b)
    (g : ℕ → M) :
    ∑ i : Fin n, g i.val = ∑ t ∈ Finset.range a, ∑ r : Fin b, g (b * t + r.val) := by
  rw [Finset.sum_range (fun t => ∑ r : Fin b, g (b * t + r.val))]
  exact sum_fin_eq_sum_tiles' hn fun i => g i.val

end Tiles

end Cert.Hand.Math
-- ==== Proof.Math.Lift.lean ====
/-
  Extended-real operations applied to coerced reals are coerced real operations.

  A float of the ideal instance is an extended real; once every operand of an expression is known
  to be the coercion of a real, the whole expression is the coercion of the same expression over
  the reals.  Each lemma below is one step of that lifting, oriented from the extended-real
  operation to the coercion of the real one, so that 'simp only' with these names pulls the
  coercion outward to the root of a term.  (Mathlib's own 'EReal.coe_add', 'EReal.coe_mul', ...
  are oriented the other way; do not mix the two directions in one simp set.)
-/
import Mathlib.Data.EReal.Inv
import Mathlib.Algebra.BigOperators.Group.Finset.Basic
import Mathlib.Analysis.SpecialFunctions.Pow.Real
import Idealize.ShloMosaic.PureOps.Ideal

open scoped BigOperators
open Idealize.ShloMosaic

namespace Cert.Hand.Math

/-! ### The ring operations, negation and the order -/

/-- The sum of two coerced reals is the coercion of their sum. -/
theorem coe_add_coe (a b : ℝ) : (a : EReal) + (b : EReal) = ((a + b : ℝ) : EReal) :=
  (EReal.coe_add a b).symm

/-- The product of two coerced reals is the coercion of their product. -/
theorem coe_mul_coe (a b : ℝ) : (a : EReal) * (b : EReal) = ((a * b : ℝ) : EReal) :=
  (EReal.coe_mul a b).symm

/-- The difference of two coerced reals is the coercion of their difference. -/
theorem coe_sub_coe (a b : ℝ) : (a : EReal) - (b : EReal) = ((a - b : ℝ) : EReal) :=
  (EReal.coe_sub a b).symm

/-- The negation of a coerced real is the coercion of its negation. -/
theorem neg_coe (a : ℝ) : -(a : EReal) = ((-a : ℝ) : EReal) :=
  (EReal.coe_neg a).symm

/-- The extended-real zero is the coercion of the real zero. -/
theorem zero_eq_coe : (0 : EReal) = ((0 : ℝ) : EReal) := rfl

/-- The extended-real one is the coercion of the real one. -/
theorem one_eq_coe : (1 : EReal) = ((1 : ℝ) : EReal) := rfl

/-- A natural number in the extended reals is the coercion of the same number in the reals. -/
theorem natCast_eq_coe (n : ℕ) : (n : EReal) = ((n : ℝ) : EReal) := rfl

/-- The maximum of two coerced reals is the coercion of their maximum. -/
theorem max_coe_coe (a b : ℝ) : max (a : EReal) (b : EReal) = ((max a b : ℝ) : EReal) :=
  (EReal.coe_strictMono.monotone.map_max).symm

/-- The minimum of two coerced reals is the coercion of their minimum. -/
theorem min_coe_coe (a b : ℝ) : min (a : EReal) (b : EReal) = ((min a b : ℝ) : EReal) :=
  (EReal.coe_strictMono.monotone.map_min).symm

/-- The positive part of a coerced real (a rectifier: the maximum with zero). -/
theorem max_coe_zero (a : ℝ) : max (a : EReal) 0 = ((max a 0 : ℝ) : EReal) :=
  max_coe_coe a 0

/-- The positive part, zero written first. -/
theorem max_zero_coe (a : ℝ) : max 0 (a : EReal) = ((max 0 a : ℝ) : EReal) :=
  max_coe_coe 0 a

/-- The absolute value of a coerced real, spelled as the maximum with the negation. -/
theorem max_coe_neg_coe (a : ℝ) : max (a : EReal) (-(a : EReal)) = ((|a| : ℝ) : EReal) := by
  rw [neg_coe, max_coe_coe]; rfl

/-! ### Finite sums -/

/-- The coercion of a finite real sum is the extended-real sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite extended-real sum of coerced reals is the coercion of the real sum. -/
theorem sum_coe {ι : Type*} (s : Finset ι) (f : ι → ℝ) :
    ∑ i ∈ s, (f i : EReal) = ((∑ i ∈ s, f i : ℝ) : EReal) :=
  (coe_finset_sum s f).symm

/-- A finite extended-real sum whose terms are all coercions of reals is the coercion of the real
    sum: the form to use when the summand is only known to equal a coercion. -/
theorem sum_eq_coe_of_forall {ι : Type*} (s : Finset ι) (x : ι → EReal) (f : ι → ℝ)
    (h : ∀ i ∈ s, x i = (f i : EReal)) : ∑ i ∈ s, x i = ((∑ i ∈ s, f i : ℝ) : EReal) := by
  rw [Finset.sum_congr rfl h, sum_coe]

/-! ### Finiteness -/

/-- An extended real that is neither infinity is the coercion of a real. -/
theorem exists_coe_of_ne {x : EReal} (ht : x ≠ ⊤) (hb : x ≠ ⊥) : ∃ r : ℝ, x = (r : EReal) :=
  ⟨x.toReal, (EReal.coe_toReal ht hb).symm⟩

/-- An extended real whose absolute value (the maximum with its negation) lies below the top is
    the coercion of a real. -/
theorem exists_coe_of_abs_lt_top {x : EReal} (h : max x (-x) < ⊤) : ∃ r : ℝ, x = (r : EReal) := by
  induction x with
  | bot => simp at h
  | top => simp at h
  | coe r => exact ⟨r, rfl⟩

/-- The absolute value of a coerced real lies below the top. -/
theorem abs_coe_lt_top (a : ℝ) : max (a : EReal) (-(a : EReal)) < ⊤ := by
  rw [max_coe_neg_coe]; exact EReal.coe_lt_top _

/-! ### The ideal instance's division, reciprocal square root and square root -/

/-- The ideal quotient of a coerced real by a nonzero coerced real is the coercion of the real
    quotient. -/
theorem div_coe_coe (a : ℝ) {b : ℝ} (hb : b ≠ 0) :
    Ideal.div (a : EReal) (b : EReal) = ((a / b : ℝ) : EReal) := by
  rw [Ideal.div_coe hb, coe_mul_coe, mul_one_div]

/-- The ideal reciprocal square root of a coerced positive real is the coercion of the inverse of
    its real square root. -/
theorem rsqrt_coe_of_pos {a : ℝ} (ha : 0 < a) :
    Ideal.rsqrt (a : EReal) = (((Real.sqrt a)⁻¹ : ℝ) : EReal) := by
  rw [Ideal.rsqrt_coe, if_neg (not_lt.2 ha.le), if_neg ha.ne']

/-- The ideal square root of a coerced nonnegative real is the coercion of its real square root. -/
theorem sqrt_coe_of_nonneg {a : ℝ} (ha : 0 ≤ a) :
    Ideal.sqrt (a : EReal) = ((Real.sqrt a : ℝ) : EReal) := by
  rw [Ideal.sqrt_coe, if_neg (not_lt.2 ha)]

/-! ### Comparison and selection -/

/-- The ordered 'greater than' comparison of two coerced reals is the bit of the real comparison. -/
theorem cmp_ogt_coe_coe (a b : ℝ) :
    Ideal.cmp .ogt (a : EReal) (b : EReal) = BitVec.ofBool (decide (b < a)) := by
  show BitVec.ofBool (decide ((b : EReal) < (a : EReal))) = _
  congr 1
  exact decide_eq_decide.2 EReal.coe_lt_coe_iff

/-- The ordered 'less than' comparison of two coerced reals is the bit of the real comparison. -/
theorem cmp_olt_coe_coe (a b : ℝ) :
    Ideal.cmp .olt (a : EReal) (b : EReal) = BitVec.ofBool (decide (a < b)) := by
  show BitVec.ofBool (decide ((a : EReal) < (b : EReal))) = _
  congr 1
  exact decide_eq_decide.2 EReal.coe_lt_coe_iff

/-- A selection on the bit of a decided proposition is the conditional on that proposition. -/
theorem select_ofBool_decide {α : Type} (p : Prop) [Decidable p] (x y : α) :
    Scalar.select (BitVec.ofBool (decide p)) x y = if p then x else y := by
  by_cases h : p
  · rw [decide_eq_true h, if_pos h]
    exact if_pos rfl
  · rw [decide_eq_false h, if_neg h]
    exact if_neg (by decide)

/-- Selecting on 'a greater than b' between coerced reals is the conditional on the real order. -/
theorem select_cmp_ogt_coe_coe {α : Type} (a b : ℝ) (x y : α) :
    Scalar.select (Ideal.cmp .ogt (a : EReal) (b : EReal)) x y = if b < a then x else y := by
  rw [cmp_ogt_coe_coe, select_ofBool_decide]

/-- A selection between two coerced reals is the coercion of the selection between the reals. -/
theorem select_coe_coe (c : BitVec 1) (a b : ℝ) :
    Scalar.select c (a : EReal) (b : EReal) = ((Scalar.select c a b : ℝ) : EReal) := by
  unfold Scalar.select
  by_cases h : c = 1
  · rw [if_pos h, if_pos h]
  · rw [if_neg h, if_neg h]

/-- A conditional between two coerced reals is the coercion of the conditional between the reals. -/
theorem ite_coe_coe (p : Prop) [Decidable p] (a b : ℝ) :
    (if p then (a : EReal) else (b : EReal)) = ((if p then a else b : ℝ) : EReal) := by
  by_cases h : p
  · rw [if_pos h, if_pos h]
  · rw [if_neg h, if_neg h]

end Cert.Hand.Math
-- ==== Proof.Math.SpecEq.lean ====
/-
  The two spellings of the batch variance and of the Dirichlet energy agree on the network's
  stages, and the variances are nonnegative.

  A column's variance over the 50000 nodes, as the mean of squares less the squared mean and as the
  mean of squared deviations, is one number: the variance identity at n = 50000.  A hidden state's
  Dirichlet energy, node by node and edge by edge, is one number: the energy identity for the
  graph's 800000 edges, degrees and neighbour sums written as sums over all edges of a conditional
  term.  Hence every stage downstream (hidden states, regulariser, logits) does not depend on the
  spelling.  A variance is a mean of squares, so adding a positive constant gives a positive number,
  where the reciprocal square root is the real one.
-/
import proofs.«160050_j32744830665390_2_alg».proof.Proof.Spec
import proofs.«160050_j32744830665390_2_alg».proof.Proof.Math.Variance
import proofs.«160050_j32744830665390_2_alg».proof.Proof.Math.Dirichlet
import proofs.«160050_j32744830665390_2_alg».proof.Proof.Math.Lift

open scoped BigOperators
open Idealize.ShloMosaic

namespace Cert.Hand.Math

open Cert.Hand

/-! ### The batch variance -/

/-- Mean of squares less squared mean equals mean of squared deviations, for a column over the
    50000 nodes. -/
theorem varMom_eq_varDev (o : Spec.Hidden) (k : Fin 128) : Spec.varMom o k = Spec.varDev o k := by
  unfold Spec.varMom Spec.varDev Spec.colMean
  exact meanSq_sub_sqMean_eq_meanSqDev (fun i : Fin 50000 => o i k)
    (by norm_num [Fintype.card_fin]) (by norm_num)

/-- The two spellings of the variance are one function. -/
theorem varMom_eq_varDev_fun : Spec.varMom = Spec.varDev :=
  funext fun o => funext fun k => varMom_eq_varDev o k

/-- A column's variance (mean of squared deviations) is nonnegative. -/
theorem varDev_nonneg (o : Spec.Hidden) (k : Fin 128) : 0 ≤ Spec.varDev o k := by
  unfold Spec.varDev
  exact meanSqDev_nonneg (fun i : Fin 50000 => o i k) (Spec.colMean o k) (by norm_num)

/-- A column's variance (mean of squares less squared mean) is nonnegative. -/
theorem varMom_nonneg (o : Spec.Hidden) (k : Fin 128) : 0 ≤ Spec.varMom o k := by
  rw [varMom_eq_varDev]
  exact varDev_nonneg o k

/-- A row's variance over the 128 features is nonnegative. -/
theorem rowVar_nonneg (h : Spec.Hidden) (i : Fin 50000) : 0 ≤ Spec.rowVar h i := by
  unfold Spec.rowVar
  exact meanSqDev_nonneg (fun k : Fin 128 => h i k) (Spec.rowMean h i) (by norm_num)

/-- A column's variance plus a positive constant is positive. -/
theorem varDev_add_pos (o : Spec.Hidden) (k : Fin 128) {ε : ℝ} (hε : 0 < ε) :
    0 < Spec.varDev o k + ε :=
  add_pos_of_nonneg_of_pos (varDev_nonneg o k) hε

/-- The same for the other spelling. -/
theorem varMom_add_pos (o : Spec.Hidden) (k : Fin 128) {ε : ℝ} (hε : 0 < ε) :
    0 < Spec.varMom o k + ε :=
  add_pos_of_nonneg_of_pos (varMom_nonneg o k) hε

/-- A row's variance plus a positive constant is positive. -/
theorem rowVar_add_pos (h : Spec.Hidden) (i : Fin 50000) {ε : ℝ} (hε : 0 < ε) :
    0 < Spec.rowVar h i + ε :=
  add_pos_of_nonneg_of_pos (rowVar_nonneg h i) hε

/-- On a positive real the ideal reciprocal square root is the network's. -/
theorem rsqrt_coe_eq_rsq {a : ℝ} (ha : 0 < a) :
    Ideal.rsqrt (a : EReal) = ((Spec.rsq a : ℝ) : EReal) :=
  rsqrt_coe_of_pos ha

/-! ### The Dirichlet energy -/

/-- Node by node and edge by edge, a hidden state's Dirichlet energy is one number. -/
theorem energyNode_eq_energyEdge (I : Spec.Inputs) (h : Spec.Hidden) :
    Spec.energyNode I h = Spec.energyEdge I h :=
  (dirichlet_edge_sum_eq_node_sum_of I.src I.dst h
    (fun i => Spec.degOut I i + Spec.degIn I i) (Spec.nbr I h)
    (fun i => by simp only [Spec.degOut, Spec.degIn, Finset.sum_filter])
    (fun i k => by simp only [Spec.nbr, Finset.sum_filter])).symm

/-- The two spellings of the energy are one function. -/
theorem energyNode_eq_energyEdge_fun (I : Spec.Inputs) : Spec.energyNode I = Spec.energyEdge I :=
  funext (energyNode_eq_energyEdge I)

/-! ### Downstream stages do not depend on the spelling -/

/-- The hidden states. -/
theorem hidden_varMom_eq_varDev (I : Spec.Inputs) (ε : ℝ) :
    Spec.hidden I ε Spec.varMom = Spec.hidden I ε Spec.varDev := by
  rw [varMom_eq_varDev_fun]

/-- The regulariser. -/
theorem reg_node_varMom_eq_edge_varDev (I : Spec.Inputs) (ε : ℝ) :
    Spec.reg I ε (Spec.energyNode I) Spec.varMom = Spec.reg I ε (Spec.energyEdge I) Spec.varDev := by
  rw [varMom_eq_varDev_fun, energyNode_eq_energyEdge_fun]

/-- The logits. -/
theorem logits_varMom_eq_varDev (I : Spec.Inputs) (ε : ℝ) :
    Spec.logits I ε Spec.varMom = Spec.logits I ε Spec.varDev := by
  rw [varMom_eq_varDev_fun]

end Cert.Hand.Math
-- ==== Proof.Math.Consts.lean ====
/-
  The single-precision words that occur as constants, read as extended reals.

  A normal pattern with sign bit 0, biased exponent e and fraction f denotes the real
  (2²³ + f) · 2^(e − 127 − 23).  Each lemma evaluates that expression for one word:
    0x3F800000 (e = 127, f = 0) is 1;  0x40000000 (e = 128, f = 0) is 2;  0x40800000 is 4;
    0x43000000 (e = 134, f = 0) is 128;  0x47435000 (e = 142, f = 4411392) is 12800000 / 2⁸ = 50000;
    0x49435000 (e = 146, same fraction) is 12800000 / 2⁴ = 800000;
    0x3727C5AC (e = 110, f = 2606508) is 10995116 / 2⁴⁰, a positive real close to 10⁻⁵.
  The all-zero word denotes 0; a word with exponent field all ones and a nonzero fraction denotes
  the bottom element.
-/
import Idealize.ShloMosaic.PureOps.Ideal

open Idealize.ShloMosaic

namespace Cert.Hand.Math

/-- The all-zero word is the real zero. -/
theorem ofBits_f32_zero : Ideal.ofBits .f32 0x00000000#32 = ((0 : ℝ) : EReal) := by
  simp [Ideal.ofBits, Ideal.ieee]

/-- The all-zero word is the extended-real zero. -/
theorem ofBits_f32_zero' : Ideal.ofBits .f32 0x00000000#32 = (0 : EReal) := by
  simp [Ideal.ofBits, Ideal.ieee]

/-- The word 0x3F800000 is the real one. -/
theorem ofBits_f32_one : Ideal.ofBits .f32 0x3F800000#32 = ((1 : ℝ) : EReal) := by
  first
    | (simp [Ideal.ofBits, Ideal.ieee, -EReal.coe_mul]; norm_num)
    | (simp [Ideal.ofBits, Ideal.ieee, -EReal.coe_mul]; done)
    | (simp [Ideal.ofBits, Ideal.ieee]; norm_num)
    | (simp [Ideal.ofBits, Ideal.ieee]; done)
    | (norm_num [Ideal.ofBits, Ideal.ieee])

/-- The word 0x40000000 is the real two. -/
theorem ofBits_f32_two : Ideal.ofBits .f32 0x40000000#32 = ((2 : ℝ) : EReal) := by
  first
    | (simp [Ideal.ofBits, Ideal.ieee, -EReal.coe_mul]; norm_num)
    | (simp [Ideal.ofBits, Ideal.ieee, -EReal.coe_mul]; done)
    | (simp [Ideal.ofBits, Ideal.ieee]; norm_num)
    | (simp [Ideal.ofBits, Ideal.ieee]; done)
    | (norm_num [Ideal.ofBits, Ideal.ieee])

/-- The word 0x40800000 is the real four. -/
theorem ofBits_f32_four : Ideal.ofBits .f32 0x40800000#32 = ((4 : ℝ) : EReal) := by
  first
    | (simp [Ideal.ofBits, Ideal.ieee, -EReal.coe_mul]; norm_num)
    | (simp [Ideal.ofBits, Ideal.ieee, -EReal.coe_mul]; done)
    | (simp [Ideal.ofBits, Ideal.ieee]; norm_num)
    | (simp [Ideal.ofBits, Ideal.ieee]; done)
    | (norm_num [Ideal.ofBits, Ideal.ieee])

/-- The word 0x43000000 is the real 128. -/
theorem ofBits_f32_128 : Ideal.ofBits .f32 0x43000000#32 = ((128 : ℝ) : EReal) := by
  first
    | (simp [Ideal.ofBits, Ideal.ieee, -EReal.coe_mul]; norm_num)
    | (simp [Ideal.ofBits, Ideal.ieee, -EReal.coe_mul]; done)
    | (simp [Ideal.ofBits, Ideal.ieee]; norm_num)
    | (simp [Ideal.ofBits, Ideal.ieee]; done)
    | (norm_num [Ideal.ofBits, Ideal.ieee])

/-- The word 0x47435000 is the real 50000. -/
theorem ofBits_f32_50000 : Ideal.ofBits .f32 0x47435000#32 = ((50000 : ℝ) : EReal) := by
  first
    | (simp [Ideal.ofBits, Ideal.ieee, -EReal.coe_mul]; norm_num)
    | (simp [Ideal.ofBits, Ideal.ieee, -EReal.coe_mul]; done)
    | (simp [Ideal.ofBits, Ideal.ieee]; norm_num)
    | (simp [Ideal.ofBits, Ideal.ieee]; done)
    | (norm_num [Ideal.ofBits, Ideal.ieee])

/-- The word 0x49435000 is the real 800000. -/
theorem ofBits_f32_800000 : Ideal.ofBits .f32 0x49435000#32 = ((800000 : ℝ) : EReal) := by
  first
    | (simp [Ideal.ofBits, Ideal.ieee, -EReal.coe_mul]; norm_num)
    | (simp [Ideal.ofBits, Ideal.ieee, -EReal.coe_mul]; done)
    | (simp [Ideal.ofBits, Ideal.ieee]; norm_num)
    | (simp [Ideal.ofBits, Ideal.ieee]; done)
    | (norm_num [Ideal.ofBits, Ideal.ieee])

/-- The word 0x3727C5AC is the real 10995116 / 2⁴⁰. -/
theorem ofBits_f32_eps :
    Ideal.ofBits .f32 0x3727C5AC#32 = (((10995116 : ℝ) / 2 ^ 40 : ℝ) : EReal) := by
  first
    | (simp [Ideal.ofBits, Ideal.ieee, -EReal.coe_mul]; norm_num)
    | (simp [Ideal.ofBits, Ideal.ieee, -EReal.coe_mul]; done)
    | (simp [Ideal.ofBits, Ideal.ieee]; norm_num)
    | (simp [Ideal.ofBits, Ideal.ieee]; done)
    | (norm_num [Ideal.ofBits, Ideal.ieee])

/-- The word 0x3727C5AC is the coercion of a positive real. -/
theorem ofBits_eps_pos :
    ∃ r : ℝ, 0 < r ∧ Ideal.ofBits .f32 0x3727C5AC#32 = (r : EReal) :=
  ⟨(10995116 : ℝ) / 2 ^ 40, by positivity, ofBits_f32_eps⟩

/-- The word 0x7FC00000 (exponent field all ones, nonzero fraction) is the bottom element. -/
theorem ofBits_f32_nan : Ideal.ofBits .f32 0x7FC00000#32 = (⊥ : EReal) := by
  simp [Ideal.ofBits, Ideal.ieee]

/-- The word 0x7F800000 (exponent field all ones, zero fraction, sign 0) is the top element. -/
theorem ofBits_f32_inf : Ideal.ofBits .f32 0x7F800000#32 = (⊤ : EReal) := by
  simp [Ideal.ofBits, Ideal.ieee]

end Cert.Hand.Math
-- ==== Proof.Bridge.Inputs.lean ====
/-
  The argument arrays at the ideal instance — extended-real tables and index words — read as the real tables
  `Cert.Hand.Spec.Inputs` of the specification: a float entry by its real part (it IS that real when the entry is
  finite, which the precondition says of every float input), an edge end by its node number (the word itself when it
  lies in `[0, 50000)`, which the precondition says of every edge end), a batch number as the integer it is.
-/
import proofs.«160050_j32744830665390_2_alg».proof.Proof.Spec
import proofs.«160050_j32744830665390_2_alg».proof.Proof.Math.Consts
import Idealize.ShloMosaic.PureOps.Ideal
import Idealize.ShloMosaic.Lib.ValueIdx

noncomputable section

namespace Cert.Hand.Bridge

open Idealize.ShloMosaic Idealize.ShloMosaic.ValueIdx

/-- The node an index word names: the word read signed, clamped into `[0, 50000)`. -/
def node (w : BitVec 32) : Fin 50000 := ⟨min w.toInt.toNat 49999, by omega⟩

/-- An index word in range names the node of its own value. -/
theorem node_val {w : BitVec 32} (h0 : 0 ≤ w.toInt) (h1 : w.toInt < 50000) : ((node w).val : ℤ) = w.toInt := by
  unfold node
  simp only
  omega

/-- Two words in range name the same node only if they are the same number. -/
theorem node_eq_iff {w : BitVec 32} (h0 : 0 ≤ w.toInt) (h1 : w.toInt < 50000) (i : Fin 50000) :
    node w = i ↔ w.toInt = (i.val : ℤ) := by
  constructor
  · intro h; rw [← node_val h0 h1, h]
  · intro h; apply Fin.ext; have := node_val h0 h1; omega

/-- An extended-real table `a` over a rank-2 shape holds the real table `A`. -/
def Holds2 {n0 n1 : Nat} (a : (⟨2, ![n0, n1]⟩ : Shape).Idx → EReal) (A : Fin n0 → Fin n1 → ℝ) : Prop :=
  ∀ i, a i = ((A (i 0) (i 1) : ℝ) : EReal)
/-- An extended-real table `a` over a rank-1 shape holds the real table `A`. -/
def Holds1 {n0 : Nat} (a : (⟨1, ![n0]⟩ : Shape).Idx → EReal) (A : Fin n0 → ℝ) : Prop :=
  ∀ i, a i = ((A (i 0) : ℝ) : EReal)

/-- A finite table holds the table of its real parts. -/
theorem holds2_toReal {n0 n1 : Nat} (a : (⟨2, ![n0, n1]⟩ : Shape).Idx → EReal) (h : ∀ i, ∃ r : ℝ, a i = (r : EReal)) :
    Holds2 a (fun p q => (a (ix2 p q)).toReal) := by
  intro i
  obtain ⟨r, hr⟩ := h i
  have e : a (ix2 (i 0) (i 1)) = (r : EReal) := (congrArg a (eq_ix2 i).symm).trans hr
  have e' : (((a (ix2 (i 0) (i 1))).toReal : ℝ) : EReal) = (r : EReal) := by rw [e, EReal.toReal_coe]
  exact hr.trans e'.symm
/-- A finite table holds the table of its real parts. -/
theorem holds1_toReal {n0 : Nat} (a : (⟨1, ![n0]⟩ : Shape).Idx → EReal) (h : ∀ i, ∃ r : ℝ, a i = (r : EReal)) :
    Holds1 a (fun p => (a (ix1 p)).toReal) := by
  intro i
  obtain ⟨r, hr⟩ := h i
  have e : a (ix1 (i 0)) = (r : EReal) := (congrArg a (eq_ix1 i).symm).trans hr
  have e' : (((a (ix1 (i 0))).toReal : ℝ) : EReal) = (r : EReal) := by rw [e, EReal.toReal_coe]
  exact hr.trans e'.symm

/-- An extended-real scalar (rank-0 table) `a` holds the real `A`. -/
def Holds0 (a : (⟨0, ![]⟩ : Shape).Idx → EReal) (A : ℝ) : Prop := ∀ i, a i = ((A : ℝ) : EReal)
/-- An extended-real table `a` over a rank-4 shape holds the real table `A`. -/
def Holds4 {n0 n1 n2 n3 : Nat} (a : (⟨4, ![n0, n1, n2, n3]⟩ : Shape).Idx → EReal) (A : Fin n0 → Fin n1 → Fin n2 → Fin n3 → ℝ) : Prop :=
  ∀ i, a i = ((A (i 0) (i 1) (i 2) (i 3) : ℝ) : EReal)

/-- A vector of 800000 index words names the edge ends `f`: every word lies in `[0, 50000)` and is `f`'s node. -/
def Ends (a : IVec (⟨1, ![800000]⟩ : Shape) 32) (f : Fin 800000 → Fin 50000) : Prop :=
  ∀ i, 0 ≤ (a i).toInt ∧ (a i).toInt < 50000 ∧ node (a i) = f (i 0)
/-- The same for the column form `[800000, 1]` the gathers and scatters take. -/
def EndsCol (a : IVec (⟨2, ![800000, 1]⟩ : Shape) 32) (f : Fin 800000 → Fin 50000) : Prop :=
  ∀ i, 0 ≤ (a i).toInt ∧ (a i).toInt < 50000 ∧ node (a i) = f (i 0)
/-- A vector of 50000 index words holds the batch numbers `g`. -/
def Batch (a : IVec (⟨1, ![50000]⟩ : Shape) 32) (g : Fin 50000 → ℤ) : Prop := ∀ i, (a i).toInt = g (i 0)

/-- The specification's inputs read off the fifteen argument arrays. -/
def toInputs
    (x : (⟨2, ![50000, 128]⟩ : Shape).Idx → EReal) (wIn : (⟨2, ![128, 128]⟩ : Shape).Idx → EReal)
    (bIn lnG lnB : (⟨1, ![128]⟩ : Shape).Idx → EReal)
    (chebW : (⟨4, ![3, 3, 128, 128]⟩ : Shape).Idx → EReal)
    (chebB bnG bnB : (⟨2, ![3, 128]⟩ : Shape).Idx → EReal)
    (w1 : (⟨2, ![128, 64]⟩ : Shape).Idx → EReal) (b1 : (⟨1, ![64]⟩ : Shape).Idx → EReal)
    (w2 : (⟨2, ![64, 2]⟩ : Shape).Idx → EReal) (b2 : (⟨1, ![2]⟩ : Shape).Idx → EReal)
    (edge : IVec (⟨2, ![2, 800000]⟩ : Shape) 32) (batch : IVec (⟨1, ![50000]⟩ : Shape) 32) : Spec.Inputs where
  x := fun i k => (x (ix2 i k)).toReal
  wIn := fun j k => (wIn (ix2 j k)).toReal
  bIn := fun k => (bIn (ix1 k)).toReal
  lnG := fun k => (lnG (ix1 k)).toReal
  lnB := fun k => (lnB (ix1 k)).toReal
  chebW := fun l p j k => (chebW (ix4 l p j k)).toReal
  chebB := fun l k => (chebB (ix2 l k)).toReal
  bnG := fun l k => (bnG (ix2 l k)).toReal
  bnB := fun l k => (bnB (ix2 l k)).toReal
  w1 := fun k j => (w1 (ix2 k j)).toReal
  b1 := fun j => (b1 (ix1 j)).toReal
  w2 := fun j o => (w2 (ix2 j o)).toReal
  b2 := fun o => (b2 (ix1 o)).toReal
  src := fun e => node (edge (ix2 (0 : Fin 2) e))
  dst := fun e => node (edge (ix2 (1 : Fin 2) e))
  batch := fun i => (batch (ix1 i)).toInt

/-- The fifteen argument arrays hold the specification's inputs `I`: every float table entry by entry, every edge
    end a node number in range and the one `I` names, every batch word the integer `I` records. -/
structure ArgsHold
    (x : (⟨2, ![50000, 128]⟩ : Shape).Idx → EReal) (wIn : (⟨2, ![128, 128]⟩ : Shape).Idx → EReal)
    (bIn lnG lnB : (⟨1, ![128]⟩ : Shape).Idx → EReal)
    (chebW : (⟨4, ![3, 3, 128, 128]⟩ : Shape).Idx → EReal)
    (chebB bnG bnB : (⟨2, ![3, 128]⟩ : Shape).Idx → EReal)
    (w1 : (⟨2, ![128, 64]⟩ : Shape).Idx → EReal) (b1 : (⟨1, ![64]⟩ : Shape).Idx → EReal)
    (w2 : (⟨2, ![64, 2]⟩ : Shape).Idx → EReal) (b2 : (⟨1, ![2]⟩ : Shape).Idx → EReal)
    (edge : IVec (⟨2, ![2, 800000]⟩ : Shape) 32) (batch : IVec (⟨1, ![50000]⟩ : Shape) 32)
    (I : Spec.Inputs) : Prop where
  x : Holds2 x I.x
  wIn : Holds2 wIn I.wIn
  bIn : Holds1 bIn I.bIn
  lnG : Holds1 lnG I.lnG
  lnB : Holds1 lnB I.lnB
  chebW : Holds4 chebW I.chebW
  chebB : Holds2 chebB I.chebB
  bnG : Holds2 bnG I.bnG
  bnB : Holds2 bnB I.bnB
  w1 : Holds2 w1 I.w1
  b1 : Holds1 b1 I.b1
  w2 : Holds2 w2 I.w2
  b2 : Holds1 b2 I.b2
  range : ∀ i, 0 ≤ (edge i).toInt ∧ (edge i).toInt < 50000
  src : ∀ e : Fin 800000, I.src e = node (edge (ix2 (0 : Fin 2) e))
  dst : ∀ e : Fin 800000, I.dst e = node (edge (ix2 (1 : Fin 2) e))
  batch : Batch batch I.batch

/-- A finite table holds the table of its real parts (rank 4). -/
theorem holds4_toReal {n0 n1 n2 n3 : Nat} (a : (⟨4, ![n0, n1, n2, n3]⟩ : Shape).Idx → EReal)
    (h : ∀ i, ∃ r : ℝ, a i = (r : EReal)) : Holds4 a (fun p q s t => (a (ix4 p q s t)).toReal) := by
  intro i
  obtain ⟨r, hr⟩ := h i
  have e : a (ix4 (i 0) (i 1) (i 2) (i 3)) = (r : EReal) := (congrArg a (eq_ix4 i).symm).trans hr
  have e' : (((a (ix4 (i 0) (i 1) (i 2) (i 3))).toReal : ℝ) : EReal) = (r : EReal) := by
    rw [e, EReal.toReal_coe]
  exact hr.trans e'.symm

/-- Finite float arguments and edge ends in range hold the inputs read off them. -/
theorem argsHold_toInputs
    {x : (⟨2, ![50000, 128]⟩ : Shape).Idx → EReal} {wIn : (⟨2, ![128, 128]⟩ : Shape).Idx → EReal}
    {bIn lnG lnB : (⟨1, ![128]⟩ : Shape).Idx → EReal}
    {chebW : (⟨4, ![3, 3, 128, 128]⟩ : Shape).Idx → EReal}
    {chebB bnG bnB : (⟨2, ![3, 128]⟩ : Shape).Idx → EReal}
    {w1 : (⟨2, ![128, 64]⟩ : Shape).Idx → EReal} {b1 : (⟨1, ![64]⟩ : Shape).Idx → EReal}
    {w2 : (⟨2, ![64, 2]⟩ : Shape).Idx → EReal} {b2 : (⟨1, ![2]⟩ : Shape).Idx → EReal}
    {edge : IVec (⟨2, ![2, 800000]⟩ : Shape) 32} {batch : IVec (⟨1, ![50000]⟩ : Shape) 32}
    (hx : ∀ i, ∃ r : ℝ, x i = (r : EReal)) (hwIn : ∀ i, ∃ r : ℝ, wIn i = (r : EReal))
    (hbIn : ∀ i, ∃ r : ℝ, bIn i = (r : EReal)) (hlnG : ∀ i, ∃ r : ℝ, lnG i = (r : EReal))
    (hlnB : ∀ i, ∃ r : ℝ, lnB i = (r : EReal)) (hchebW : ∀ i, ∃ r : ℝ, chebW i = (r : EReal))
    (hchebB : ∀ i, ∃ r : ℝ, chebB i = (r : EReal)) (hbnG : ∀ i, ∃ r : ℝ, bnG i = (r : EReal))
    (hbnB : ∀ i, ∃ r : ℝ, bnB i = (r : EReal)) (hw1 : ∀ i, ∃ r : ℝ, w1 i = (r : EReal))
    (hb1 : ∀ i, ∃ r : ℝ, b1 i = (r : EReal)) (hw2 : ∀ i, ∃ r : ℝ, w2 i = (r : EReal))
    (hb2 : ∀ i, ∃ r : ℝ, b2 i = (r : EReal))
    (hrange : ∀ i, 0 ≤ (edge i).toInt ∧ (edge i).toInt < 50000) :
    ArgsHold x wIn bIn lnG lnB chebW chebB bnG bnB w1 b1 w2 b2 edge batch
      (toInputs x wIn bIn lnG lnB chebW chebB bnG bnB w1 b1 w2 b2 edge batch) where
  x := holds2_toReal x hx
  wIn := holds2_toReal wIn hwIn
  bIn := holds1_toReal bIn hbIn
  lnG := holds1_toReal lnG hlnG
  lnB := holds1_toReal lnB hlnB
  chebW := holds4_toReal chebW hchebW
  chebB := holds2_toReal chebB hchebB
  bnG := holds2_toReal bnG hbnG
  bnB := holds2_toReal bnB hbnB
  w1 := holds2_toReal w1 hw1
  b1 := holds1_toReal b1 hb1
  w2 := holds2_toReal w2 hw2
  b2 := holds1_toReal b2 hb2
  range := hrange
  src := fun _ => rfl
  dst := fun _ => rfl
  batch := fun i => congrArg (fun j => (batch j).toInt) (eq_ix1 i)

/-- The real number the programs' shared literal `0x3727C5AC` (the f32 nearest `1e-5`) denotes. -/
def eps : ℝ := (Ideal.ofBits .f32 0x3727C5AC#32 : EReal).toReal

/-- That literal is a finite positive number. -/
theorem eps_spec : (Ideal.ofBits .f32 0x3727C5AC#32 : EReal) = ((eps : ℝ) : EReal) ∧ 0 < eps := by
  obtain ⟨r, hr, h⟩ := Cert.Hand.Math.ofBits_eps_pos
  have he : eps = r := by unfold eps; rw [h, EReal.toReal_coe]
  exact ⟨by rw [he]; exact h, by rw [he]; exact hr⟩

end Cert.Hand.Bridge

end
-- ==== Proof.KI.Val0Pay.lean ====
import proofs.«160050_j32744830665390_2_alg».proof.Proof.Gen.KernelIdeal.Skeleton
import proofs.«160050_j32744830665390_2_alg».proof.Proof.Spec
import proofs.«160050_j32744830665390_2_alg».proof.Proof.Math.Lift
import proofs.«160050_j32744830665390_2_alg».proof.Proof.Math.Consts
import Idealize.ShloMosaic.PureOps.Ideal.Laws
import Idealize.ShloMosaic.Lib.ValueIdx
import Idealize.ShloMosaic.Lib.ValueLayout
import Idealize.ShloMosaic.Lib.Pipeline.Value

/-! # The embedding's stored value, read at one entry, over the reals

The body of the embedding stage stores, for a tile of 5000 node rows, the value k0_pay1 of the tile of
features x, the weight matrix, and the bias, scale and shift rows.  Read at the extended reals, entry
(r, k) of that value is

  max ((h r k − μ r) · rsqrt (σ² r + ε) · scale k + shift k) 0,

with h r k = Σ_j x r j · w j k + bias k, μ r the mean of row r of h over the 128 features and σ² r the mean of
the squared deviations of that row.  When every operand entry is (the coercion of) a real, so is this, and the
real is the specification's embedding of the row. -/

noncomputable section

namespace Cert.KernelIdeal.Hand.Val

open Cert.KernelIdeal.Gen
open Idealize.ShloMosaic Idealize.ShloMosaic.ValueIdx
open Cert.Hand
open scoped BigOperators

/-! ## Two layout readings for a reduction that keeps its axis -/

section Layout
variable {α : Type}

/-- A vector of a entries cast to a column [a, 1] reads, at (i, u), the entry i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along the second axis to [a, b] reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A sum over the feature axis, and the matrix product, read at an entry -/

/-- A sum over the second axis of an [a, b] table, read at row r: the sum of the row's b entries. -/
theorem rowSum_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  refine Finset.sum_congr rfl fun k _ => congrArg v ?_
  funext ax
  apply Fin.ext
  match ax with
  | ⟨0, _⟩ => rfl
  | ⟨1, _⟩ => rfl

/-- The product's index maps, coordinate by coordinate: the left operand is read at (row of the output,
    contraction position), the right operand at (contraction position, column of the output). -/
theorem lhs_dot0_0 (j : S5000x128.Idx) (k : dot_S5000x128_S128x128_S5000x128_1_0_0_1_n_n.contr.Idx) :
    (dot_S5000x128_S128x128_S5000x128_1_0_0_1_n_n.lhsIdx j k 0 : ℕ) = j 0 := by
  first
    | (simp [DotDims.lhsIdx, dot_S5000x128_S128x128_S5000x128_1_0_0_1_n_n] <;> rfl)
    | (unfold DotDims.lhsIdx; rw [dif_neg (by decide), dif_pos (by decide)]; rfl)

theorem lhs_dot0_1 (j : S5000x128.Idx) (k : dot_S5000x128_S128x128_S5000x128_1_0_0_1_n_n.contr.Idx) :
    (dot_S5000x128_S128x128_S5000x128_1_0_0_1_n_n.lhsIdx j k 1 : ℕ) = k ⟨0, by decide⟩ :=
  dot_S5000x128_S128x128_S5000x128_1_0_0_1_n_n.lhsIdx_val_of_single (cl := 1) rfl j k

theorem rhs_dot0_0 (j : S5000x128.Idx) (k : dot_S5000x128_S128x128_S5000x128_1_0_0_1_n_n.contr.Idx) :
    (dot_S5000x128_S128x128_S5000x128_1_0_0_1_n_n.rhsIdx j k 0 : ℕ) = k ⟨0, by decide⟩ :=
  dot_S5000x128_S128x128_S5000x128_1_0_0_1_n_n.rhsIdx_val_of_single (cr := 0) rfl j k

theorem rhs_dot0_1 (j : S5000x128.Idx) (k : dot_S5000x128_S128x128_S5000x128_1_0_0_1_n_n.contr.Idx) :
    (dot_S5000x128_S128x128_S5000x128_1_0_0_1_n_n.rhsIdx j k 1 : ℕ) = j 1 := by
  first
    | (simp [DotDims.rhsIdx, dot_S5000x128_S128x128_S5000x128_1_0_0_1_n_n] <;> rfl)
    | (unfold DotDims.rhsIdx; rw [dif_neg (by decide), dif_pos (by decide)]; rfl)

/-- The product into a zero accumulator, read at (r, k): the sum over the 128 contraction positions of
    left (r, j) times right (j, k). -/
theorem matmul_at0 (a : FVec Ideal S5000x128 .bf16) (b : FVec Ideal S128x128 .bf16) (r : Fin 5000) (k : Fin 128) :
    matmul dot_S5000x128_S128x128_S5000x128_1_0_0_1_n_n none a b (constant (F := Ideal) S5000x128 .f32 0x00000000#32) (ix2 r k)
      = ∑ j : Fin 128, a (ix2 r j) * b (ix2 j k) := by
  refine (Ideal.matmul_constant_zero_apply dot_S5000x128_S128x128_S5000x128_1_0_0_1_n_n none a b (ix2 r k)).trans ?_
  refine ((Equiv.sum_comp (contrEquiv1 dot_S5000x128_S128x128_S5000x128_1_0_0_1_n_n 128 rfl rfl).symm _).symm).trans ?_
  refine Finset.sum_congr rfl fun j _ => ?_
  have hL : dot_S5000x128_S128x128_S5000x128_1_0_0_1_n_n.lhsIdx (ix2 r k)
      ((contrEquiv1 dot_S5000x128_S128x128_S5000x128_1_0_0_1_n_n 128 rfl rfl).symm j) = ix2 r j := by
    funext ax
    apply Fin.ext
    match ax with
    | ⟨0, _⟩ => exact lhs_dot0_0 _ _
    | ⟨1, _⟩ => exact (lhs_dot0_1 _ _).trans (contrEquiv1_symm_val _ 128 rfl rfl j)
  have hR : dot_S5000x128_S128x128_S5000x128_1_0_0_1_n_n.rhsIdx (ix2 r k)
      ((contrEquiv1 dot_S5000x128_S128x128_S5000x128_1_0_0_1_n_n 128 rfl rfl).symm j) = ix2 j k := by
    funext ax
    apply Fin.ext
    match ax with
    | ⟨0, _⟩ => exact (rhs_dot0_0 _ _).trans (contrEquiv1_symm_val _ 128 rfl rfl j)
    | ⟨1, _⟩ => exact rhs_dot0_1 _ _
  rw [hL, hR]

/-! ## The stored value, piece by piece -/

/-- A feature row spread over the 5000 rows of a tile. -/
def rowSpread0 (b : FVec Ideal S1x128 .f32) : FVec Ideal S5000x128 .f32 :=
  broadcastTo S5000x128 (shapeCast S1x128 b shapeCasts_S1x128_S1x128) broadcasts_S1x128_S5000x128

/-- One number per row spread over the row's 128 features. -/
def colSpread0 (m : FVec Ideal S5000x1 .f32) : FVec Ideal S5000x128 .f32 :=
  broadcastTo S5000x128 m broadcasts_S5000x1_S5000x128

/-- The mean of each row over its 128 features, kept as a column. -/
def featMean0 (h : FVec Ideal S5000x128 .f32) : FVec Ideal S5000x1 .f32 :=
  divf (shapeCast S5000x1 (multiReduction .add [1] S5000 h 0x00000000#32 reduces_S5000x128_S5000 (.inl rfl) rfl)
      shapeCasts_S5000_S5000x1)
    (broadcast S5000x1 (Scalar.ofBits .f32 0x43000000#32))

/-- Features times weights, plus the bias row. -/
def affine0 (x : FVec Ideal S5000x128 .f32) (wt : FVec Ideal S128x128 .f32) (bias : FVec Ideal S1x128 .f32) :
    FVec Ideal S5000x128 .f32 :=
  addf (matmul dot_S5000x128_S128x128_S5000x128_1_0_0_1_n_n none (truncf .bf16 x bitsLt_bf16_f32)
      (truncf .bf16 wt bitsLt_bf16_f32) (constant S5000x128 .f32 0x00000000#32)) (rowSpread0 bias)

/-- A table less its row means. -/
def centred0 (h : FVec Ideal S5000x128 .f32) : FVec Ideal S5000x128 .f32 := subf h (colSpread0 (featMean0 h))

/-- One over the square root of (the row variance plus ε), as a column. -/
def invStd0 (h : FVec Ideal S5000x128 .f32) : FVec Ideal S5000x1 .f32 :=
  rsqrt (addf (featMean0 (mulf (centred0 h) (centred0 h))) (broadcast S5000x1 (Scalar.ofBits .f32 0x3727C5AC#32)))

/-- The stored value is: normalise the affine map's rows, scale, shift, clamp at zero. -/
theorem pay0_eq (x : FVec Ideal S5000x128 .f32) (wt : FVec Ideal S128x128 .f32) (bias scale shift : FVec Ideal S1x128 .f32) :
    k0_pay1 (F := Ideal) x wt bias scale shift
      = maximumf (addf (mulf (mulf (centred0 (affine0 x wt bias)) (colSpread0 (invStd0 (affine0 x wt bias))))
            (rowSpread0 scale)) (rowSpread0 shift))
          (broadcast S5000x128 (Scalar.ofBits .f32 0x00000000#32)) := rfl

theorem rowSpread0_apply (b : FVec Ideal S1x128 .f32) (r : Fin 5000) (k : Fin 128) :
    rowSpread0 b (ix2 r k) = b (ix2 (0 : Fin 1) k) := by
  unfold rowSpread0
  rw [shapeCast_self]
  exact broadcastTo_1b_ab_apply b broadcasts_S1x128_S5000x128 r k

theorem colSpread0_apply (m : FVec Ideal S5000x1 .f32) (r : Fin 5000) (k : Fin 128) :
    colSpread0 m (ix2 r k) = m (ix2 r (0 : Fin 1)) :=
  broadcastTo_a1_ab_apply m broadcasts_S5000x1_S5000x128 r k

theorem featMean0_apply (h : FVec Ideal S5000x128 .f32) (r : Fin 5000) (u : Fin 1) :
    featMean0 h (ix2 r u) = Ideal.div (∑ k : Fin 128, h (ix2 r k)) (Ideal.ofBits .f32 0x43000000#32) := by
  show Ideal.div (shapeCast S5000x1 (multiReduction .add [1] S5000 h 0x00000000#32 reduces_S5000x128_S5000 (.inl rfl) rfl)
      shapeCasts_S5000_S5000x1 (ix2 r u)) (Ideal.ofBits .f32 0x43000000#32) = _
  exact congrArg (fun s => Ideal.div s (Ideal.ofBits .f32 0x43000000#32))
    ((shapeCast_a_a1_apply _ shapeCasts_S5000_S5000x1 r u).trans
      (rowSum_apply h reduces_S5000x128_S5000 (.inl rfl) rfl r))

/-- Row r of the affine map, at the extended reals. -/
def rowPre0 (x : FVec Ideal S5000x128 .f32) (wt : FVec Ideal S128x128 .f32) (bias : FVec Ideal S1x128 .f32)
    (r : Fin 5000) (k : Fin 128) : EReal :=
  (∑ j : Fin 128, x (ix2 r j) * wt (ix2 j k)) + bias (ix2 (0 : Fin 1) k)

/-- The mean of 128 extended reals, with the divisor as the program spells it. -/
def mean128 (p : Fin 128 → EReal) : EReal := Ideal.div (∑ k : Fin 128, p k) (Ideal.ofBits .f32 0x43000000#32)

/-- Row r's deviations from its mean, and the mean of their squares. -/
def rowDev0 (x : FVec Ideal S5000x128 .f32) (wt : FVec Ideal S128x128 .f32) (bias : FVec Ideal S1x128 .f32)
    (r : Fin 5000) (k : Fin 128) : EReal := rowPre0 x wt bias r k - mean128 (rowPre0 x wt bias r)
def rowVar0 (x : FVec Ideal S5000x128 .f32) (wt : FVec Ideal S128x128 .f32) (bias : FVec Ideal S1x128 .f32)
    (r : Fin 5000) : EReal := mean128 fun k => rowDev0 x wt bias r k * rowDev0 x wt bias r k

theorem affine0_apply (x : FVec Ideal S5000x128 .f32) (wt : FVec Ideal S128x128 .f32) (bias : FVec Ideal S1x128 .f32)
    (r : Fin 5000) (k : Fin 128) : affine0 x wt bias (ix2 r k) = rowPre0 x wt bias r k := by
  show matmul dot_S5000x128_S128x128_S5000x128_1_0_0_1_n_n none (truncf .bf16 x bitsLt_bf16_f32)
      (truncf .bf16 wt bitsLt_bf16_f32) (constant (F := Ideal) S5000x128 .f32 0x00000000#32) (ix2 r k)
    + rowSpread0 bias (ix2 r k) = _
  rw [rowSpread0_apply, matmul_at0]
  rfl

theorem centred0_affine0_apply (x : FVec Ideal S5000x128 .f32) (wt : FVec Ideal S128x128 .f32)
    (bias : FVec Ideal S1x128 .f32) (r : Fin 5000) (k : Fin 128) :
    centred0 (affine0 x wt bias) (ix2 r k) = rowDev0 x wt bias r k := by
  have hsum : ∑ k' : Fin 128, affine0 x wt bias (ix2 r k') = ∑ k' : Fin 128, rowPre0 x wt bias r k' :=
    Finset.sum_congr rfl fun k' _ => affine0_apply x wt bias r k'
  show affine0 x wt bias (ix2 r k) - colSpread0 (featMean0 (affine0 x wt bias)) (ix2 r k) = _
  rw [colSpread0_apply, featMean0_apply, affine0_apply, hsum]
  rfl

/-- THE STORED VALUE AT ENTRY (r, k), over the extended reals. -/
theorem pay0_at (x : FVec Ideal S5000x128 .f32) (wt : FVec Ideal S128x128 .f32) (bias scale shift : FVec Ideal S1x128 .f32)
    (r : Fin 5000) (k : Fin 128) :
    k0_pay1 (F := Ideal) x wt bias scale shift (ix2 r k)
      = max (rowDev0 x wt bias r k * Ideal.rsqrt (rowVar0 x wt bias r + Ideal.ofBits .f32 0x3727C5AC#32)
            * scale (ix2 (0 : Fin 1) k) + shift (ix2 (0 : Fin 1) k)) (Ideal.ofBits .f32 0x00000000#32) := by
  have hsq : ∑ k' : Fin 128, mulf (centred0 (affine0 x wt bias)) (centred0 (affine0 x wt bias)) (ix2 r k')
      = ∑ k' : Fin 128, rowDev0 x wt bias r k' * rowDev0 x wt bias r k' :=
    Finset.sum_congr rfl fun k' _ => by
      show centred0 (affine0 x wt bias) (ix2 r k') * centred0 (affine0 x wt bias) (ix2 r k') = _
      rw [centred0_affine0_apply]
  have hv : featMean0 (mulf (centred0 (affine0 x wt bias)) (centred0 (affine0 x wt bias))) (ix2 r (0 : Fin 1))
      = rowVar0 x wt bias r := by
    rw [featMean0_apply, hsq]
    rfl
  rw [pay0_eq]
  show max (centred0 (affine0 x wt bias) (ix2 r k) * colSpread0 (invStd0 (affine0 x wt bias)) (ix2 r k)
      * rowSpread0 scale (ix2 r k) + rowSpread0 shift (ix2 r k)) (Ideal.ofBits .f32 0x00000000#32) = _
  rw [centred0_affine0_apply, colSpread0_apply, rowSpread0_apply, rowSpread0_apply]
  show max (rowDev0 x wt bias r k
      * Ideal.rsqrt (featMean0 (mulf (centred0 (affine0 x wt bias)) (centred0 (affine0 x wt bias))) (ix2 r (0 : Fin 1))
          + Ideal.ofBits .f32 0x3727C5AC#32)
      * scale (ix2 (0 : Fin 1) k) + shift (ix2 (0 : Fin 1) k)) (Ideal.ofBits .f32 0x00000000#32) = _
  rw [hv]

/-! ## One row of the embedding over the reals -/

section Real

variable (W : Fin 128 → Fin 128 → ℝ) (B G S : Fin 128 → ℝ) (ε : ℝ)

/-- The affine map of one feature row, -/
def preRow (xr : Fin 128 → ℝ) (k : Fin 128) : ℝ := (∑ j : Fin 128, xr j * W j k) + B k
/-- its mean over the 128 features, -/
def meanRow (xr : Fin 128 → ℝ) : ℝ := (∑ k : Fin 128, preRow W B xr k) / 128
/-- the mean of its squared deviations, -/
def varRow (xr : Fin 128 → ℝ) : ℝ :=
  (∑ k : Fin 128, (preRow W B xr k - meanRow W B xr) * (preRow W B xr k - meanRow W B xr)) / 128
/-- and the embedded row: normalised, scaled, shifted, clamped at zero. -/
def embRow (xr : Fin 128 → ℝ) (k : Fin 128) : ℝ :=
  max ((preRow W B xr k - meanRow W B xr) * Spec.rsq (varRow W B xr + ε) * G k + S k) 0

theorem varRow_nonneg (xr : Fin 128 → ℝ) : 0 ≤ varRow W B xr :=
  div_nonneg (Finset.sum_nonneg fun k _ => mul_self_nonneg _) (by norm_num)

end Real

/-- The specification's embedding of node i is the embedded row of the node's features. -/
theorem embed_eq_embRow (I : Spec.Inputs) (ε : ℝ) (i : Fin 50000) (k : Fin 128) :
    Spec.embed I ε i k = embRow I.wIn I.bIn I.lnG I.lnB ε (I.x i) k := rfl

/-- The mean of 128 coerced reals is the coercion of their mean. -/
theorem mean128_coe (p : Fin 128 → EReal) (P : Fin 128 → ℝ) (h : ∀ k, p k = ((P k : ℝ) : EReal)) :
    mean128 p = (((∑ k : Fin 128, P k) / 128 : ℝ) : EReal) := by
  unfold mean128
  rw [Math.sum_eq_coe_of_forall Finset.univ p P (fun k _ => h k), Math.ofBits_f32_128]
  exact Math.div_coe_coe _ (by norm_num)

/-- THE STORED VALUE AT ENTRY (r, k) when every operand entry is a real: the embedded row r at feature k. -/
theorem pay0_row (W : Fin 128 → Fin 128 → ℝ) (B G S : Fin 128 → ℝ) (ε : ℝ)
    (x : FVec Ideal S5000x128 .f32) (wt : FVec Ideal S128x128 .f32) (bias scale shift : FVec Ideal S1x128 .f32)
    (X : Fin 5000 → Fin 128 → ℝ)
    (hx : ∀ r j, x (ix2 r j) = ((X r j : ℝ) : EReal))
    (hw : ∀ j k, wt (ix2 j k) = ((W j k : ℝ) : EReal))
    (hb : ∀ k, bias (ix2 (0 : Fin 1) k) = ((B k : ℝ) : EReal))
    (hg : ∀ k, scale (ix2 (0 : Fin 1) k) = ((G k : ℝ) : EReal))
    (hs : ∀ k, shift (ix2 (0 : Fin 1) k) = ((S k : ℝ) : EReal))
    (hε : Ideal.ofBits .f32 0x3727C5AC#32 = ((ε : ℝ) : EReal)) (hεpos : 0 < ε)
    (r : Fin 5000) (k : Fin 128) :
    k0_pay1 (F := Ideal) x wt bias scale shift (ix2 r k) = ((embRow W B G S ε (X r) k : ℝ) : EReal) := by
  have hp : ∀ k', rowPre0 x wt bias r k' = ((preRow W B (X r) k' : ℝ) : EReal) := by
    intro k'
    unfold rowPre0 preRow
    rw [Math.sum_eq_coe_of_forall Finset.univ (fun j => x (ix2 r j) * wt (ix2 j k')) (fun j => X r j * W j k')
      (fun j _ => by rw [hx, hw, Math.coe_mul_coe]), hb, Math.coe_add_coe]
  have hm : mean128 (rowPre0 x wt bias r) = ((meanRow W B (X r) : ℝ) : EReal) := mean128_coe _ _ hp
  have hd : ∀ k', rowDev0 x wt bias r k' = ((preRow W B (X r) k' - meanRow W B (X r) : ℝ) : EReal) := by
    intro k'
    unfold rowDev0
    rw [hp, hm, Math.coe_sub_coe]
  have hvar : rowVar0 x wt bias r = ((varRow W B (X r) : ℝ) : EReal) :=
    mean128_coe _ (fun k' => (preRow W B (X r) k' - meanRow W B (X r)) * (preRow W B (X r) k' - meanRow W B (X r)))
      (fun k' => by
        show rowDev0 x wt bias r k' * rowDev0 x wt bias r k' = _
        rw [hd, Math.coe_mul_coe])
  have hpos : 0 < varRow W B (X r) + ε := add_pos_of_nonneg_of_pos (varRow_nonneg W B (X r)) hεpos
  rw [pay0_at, hd, hvar, hε, Math.coe_add_coe, Math.rsqrt_coe_of_pos hpos, Math.coe_mul_coe, hg, Math.coe_mul_coe, hs,
    Math.coe_add_coe, Ideal.ofBits_zero_f32, Math.max_coe_zero]
  rfl

end Cert.KernelIdeal.Hand.Val

end
-- ==== Proof.KI.Val0.lean ====
import proofs.«160050_j32744830665390_2_alg».proof.Proof.KI.Reg0
import proofs.«160050_j32744830665390_2_alg».proof.Proof.KI.Val0Pay
import proofs.«160050_j32744830665390_2_alg».proof.Proof.Bridge.Inputs

/-! # After the embedding stage the output array holds the specification's embedding

If, when the stage is entered, the feature array holds the real table I.x, the weight array I.wIn and the three
(1, 128) rows I.bIn, I.lnG, I.lnB, then after its ten tiles the output array holds Spec.embed I eps:
entry (i, k) of the array is in tile i / 5000 at row i mod 5000, the tile's stored value at that entry is the
embedded row of the features of node 5000·(i / 5000) + i mod 5000 = i. -/

noncomputable section

namespace Cert.KernelIdeal.Hand.Val

open Cert.KernelIdeal.Gen Cert.KernelIdeal.Hand
open Idealize.ShloMosaic Idealize.ShloMosaic.TcCoe Idealize.ShloMosaic.ValueIdx
open Idealize.SL.Sem
open Cert.Hand

variable (V : Entry Ideal)

/-- THE EMBEDDING STAGE'S VALUE. -/
theorem embed_holds0 (c : Dev nD) (I : Spec.Inputs)
    (hx : Bridge.Holds2 (n0 := 50000) (n1 := 128) (V c main_arg0) I.x)
    (hw : Bridge.Holds2 (n0 := 128) (n1 := 128) (V c main_arg1) I.wIn)
    (hb : Bridge.Holds2 (n0 := 1) (n1 := 128) (V c main_v36) (fun _ k => I.bIn k))
    (hg : Bridge.Holds2 (n0 := 1) (n1 := 128) (V c main_v37) (fun _ k => I.lnG k))
    (hs : Bridge.Holds2 (n0 := 1) (n1 := 128) (V c main_v38) (fun _ k => I.lnB k)) :
    Bridge.Holds2 (n0 := 50000) (n1 := 128) ((dat0 V c).arrAt 5 cfg0.N) (Spec.embed I Bridge.eps) := by
  intro i
  have hi0 : (i 0).val < 50000 := idx2_lt0 i
  have hq : tileNo0 i < 10 := tileNo0_lt i
  -- node 5000·q + r of the graph, for the row r of tile q = i / 5000
  have hnode : ∀ r : Fin 5000, tileNo0 i * 5000 + r.val < 50000 := fun r => by have := r.isLt; omega
  have hback : (⟨tileNo0 i * 5000 + (i 0).val % 5000, hnode ⟨(i 0).val % 5000, Nat.mod_lt _ (by decide)⟩⟩ : Fin 50000) = i 0 :=
    Fin.ext (by show tileNo0 i * 5000 + (i 0).val % 5000 = (i 0).val; unfold tileNo0; omega)
  rw [final0_5]
  show k0_pay1 (F := Ideal) (rowTile0 (V c main_arg0) (tileNo0 i) hq) (V c main_arg1) (V c main_v36) (V c main_v37) (V c main_v38)
      (ix2 (⟨(i 0).val % 5000, Nat.mod_lt _ (by decide)⟩ : Fin 5000) (⟨(i 1).val, idx2_lt1 i⟩ : Fin 128)) = _
  refine (pay0_row I.wIn I.bIn I.lnG I.lnB Bridge.eps
      (rowTile0 (V c main_arg0) (tileNo0 i) hq) (V c main_arg1) (V c main_v36) (V c main_v37) (V c main_v38)
      (fun r => I.x ⟨tileNo0 i * 5000 + r.val, hnode r⟩)
      (fun r j => hx _) (fun j k => hw _) (fun k => hb _) (fun k => hg _) (fun k => hs _)
      Bridge.eps_spec.1 Bridge.eps_spec.2
      ⟨(i 0).val % 5000, Nat.mod_lt _ (by decide)⟩ ⟨(i 1).val, idx2_lt1 i⟩).trans ?_
  show ((embRow I.wIn I.bIn I.lnG I.lnB Bridge.eps
      (I.x ⟨tileNo0 i * 5000 + (i 0).val % 5000, hnode ⟨(i 0).val % 5000, Nat.mod_lt _ (by decide)⟩⟩) ⟨(i 1).val, idx2_lt1 i⟩ : ℝ) : EReal) = _
  rw [hback]
  rfl

end Cert.KernelIdeal.Hand.Val

end
-- ==== Proof.Val.GatherScatter.lean ====
/-
  `stablehlo.gather` and the accumulating `stablehlo.scatter` READ AT AN INDEX, for the index patterns of a graph
  network: a node vector `[N]` or a node table `[N, H]` read along a list of `E` positions (an edge's end node), and
  a vector `[E]` or table `[E, H]` of updates summed into the `N` positions its index list names (an edge's message
  into its end node, a node's row into its graph).

  The dimension numbers are the ones `x[idx]` and `x.at[idx].add(v)` lower to over an index array `[E, 1]`
  (`index_vector_dim = 1`, the operand's axis 0 collapsed resp. inserted, the start index mapped to axis 0, and for a
  table the feature axis 1 an offset resp. window axis of full width). Each record is stated with an ARBITRARY proof of
  its well-formedness, so a program's own record with the same lists is this one by `rfl`.

  A gather clamps its start index into the operand; a scatter drops an update whose index is outside the operand. So
  the gather is read in two forms (clamped, and at the named position when every index is in range), the scatter-add
  first as the sum over ALL updates of the ones whose index word equals the position (no hypothesis), then, when every
  index is in range, with the named position in the test.
-/
import Idealize.ShloMosaic.PureOps.ShapeOps
import Idealize.ShloMosaic.PureOps.Dims
import Idealize.ShloMosaic.PureOps.Contract
import Idealize.ShloMosaic.PureOps.Ideal
import Idealize.ShloMosaic.PureOps.Ideal.Laws
import Idealize.ShloMosaic.Lib.ValueIdx

noncomputable section

open scoped BigOperators

namespace Cert.Hand.Val

open Idealize.ShloMosaic Idealize.ShloMosaic.ValueIdx

/-! ## Index words that name a position -/

/-- An index word, read signed, names a position below `n`. -/
abbrev InRange (n : Nat) {w : Nat} (v : BitVec w) : Prop := 0 ≤ v.toInt ∧ v.toInt < (n : ℤ)

/-- The position an in-range index word names. -/
def node (n : Nat) {w : Nat} (v : BitVec w) (h : InRange n v) : Fin n := ⟨v.toInt.toNat, by have := h.1; have := h.2; omega⟩

/-- Its value is the word read signed. -/
theorem node_val (n : Nat) {w : Nat} (v : BitVec w) (h : InRange n v) : ((node n v h).val : ℤ) = v.toInt := by
  have := h.1
  show ((v.toInt.toNat : ℕ) : ℤ) = v.toInt
  omega

/-- The named position is `k` exactly when the word, read signed, is `k`. -/
theorem node_eq_iff (n : Nat) {w : Nat} (v : BitVec w) (h : InRange n v) (k : Fin n) : node n v h = k ↔ v.toInt = (k.val : ℤ) := by
  rw [← node_val n v h]
  constructor
  · intro e; rw [e]
  · intro e; exact Fin.ext (by exact_mod_cast e)

/-! ## A sum over a rank-1 index set -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The dimension numbers -/

/-- `x[idx]` of a vector: operand `[N]`, start indices `[E, 1]`, result `[E]`. -/
abbrev gatherVecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- `x[idx]` of a table's rows: operand `[N, H]`, start indices `[E, 1]`, result `[E, H]`, whole rows sliced. -/
abbrev gatherRowDims (N E H : Nat)
    (wf : GatherDims.WF ⟨2, ![N, H]⟩ ⟨2, ![E, 1]⟩ ⟨2, ![E, H]⟩ [1] [0] [] [0] [] 1 ![1, H]) :
    GatherDims ⟨2, ![N, H]⟩ ⟨2, ![E, 1]⟩ ⟨2, ![E, H]⟩ where
  offsetDims := [1]
  collapsedSliceDims := [0]
  operandBatchingDims := []
  startIndicesBatchingDims := []
  startIndexMap := [0]
  indexVectorDim := 1
  sliceSizes := ![1, H]
  wf := wf

/-- `x.at[idx].add(v)` of a vector: operand `[N]`, scatter indices `[E, 1]`, updates `[E]`. -/
abbrev scatterVecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- `x.at[idx].add(v)` of a table's rows: operand `[N, H]`, scatter indices `[E, 1]`, updates `[E, H]`. -/
abbrev scatterRowDims (N E H : Nat) (wf : ScatterDims.WF ⟨2, ![N, H]⟩ ⟨2, ![E, 1]⟩ ⟨2, ![E, H]⟩ [1] [0] [0] 1) :
    ScatterDims ⟨2, ![N, H]⟩ ⟨2, ![E, 1]⟩ ⟨2, ![E, H]⟩ where
  updateWindowDims := [1]
  insertedWindowDims := [0]
  scatterDimsToOperandDims := [0]
  indexVectorDim := 1
  wf := wf

/-! ## Where an update lands, for any dimension numbers -/

/-- An update lands at operand index `i` exactly when, on every operand axis, its start (read signed) plus its window
    coordinate is `i`'s coordinate: it is inside the operand then, and it lands nowhere when it falls outside. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · next hin =>
    constructor
    · intro e a
      obtain rfl := Option.some.inj e
      exact (Int.toNat_of_nonneg (hin a).1).symm
    · intro e
      refine congrArg some (funext fun a => Fin.ext ?_)
      show (d.start j idx a + (d.window j a : ℤ)).toNat = (i a).val
      rw [e a]; exact Int.toNat_natCast _
  · next hout =>
    constructor
    · intro e; cases e
    · intro e
      exact absurd (fun a => ⟨by rw [e a]; exact Int.natCast_nonneg _, by rw [e a]; exact_mod_cast (i a).isLt⟩) hout

/-- The operand's axes that keep a window coordinate are the ones not inserted. -/
theorem mem_sKept {s si u : Shape} (d : ScatterDims s si u) (a : Fin s.rank) :
    a ∈ d.sKept ↔ a ∉ d.insertedWindowDims := by
  simp [ScatterDims.sKept, Shape.kept, List.mem_filter, List.mem_finRange]

/-! ## The vector scatter's start and window -/

section ScatterVec
variable {N E w : Nat} (wf : ScatterDims.WF ⟨1, ![N]⟩ ⟨2, ![E, 1]⟩ ⟨1, ![E]⟩ [] [0] [0] 1)

/-- Update `j` starts at the index word `idx[j, 0]`, read signed. -/
theorem scatterVec_start (j : (⟨1, ![E]⟩ : Shape).Idx) (idx : IVec ⟨2, ![E, 1]⟩ w) :
    (scatterVecDims N E wf).start j idx 0 = (idx (ix2 (j 0) (0 : Fin 1))).toInt := by
  unfold ScatterDims.start
  rw [dif_pos (show (0 : Fin 1) ∈ (scatterVecDims N E wf).scatterDimsToOperandDims from List.mem_singleton.mpr rfl)]
  refine congrArg (fun k => (idx k).toInt) (funext fun b => Fin.ext ?_)
  match b with
  | ⟨0, _⟩ => rfl
  | ⟨1, _⟩ => rfl

/-- The operand's one axis is inserted: no window coordinate. -/
theorem scatterVec_window (j : (⟨1, ![E]⟩ : Shape).Idx) : (scatterVecDims N E wf).window j 0 = 0 := by
  unfold ScatterDims.window
  exact dif_neg fun h => (mem_sKept (scatterVecDims N E wf) 0).mp h (List.mem_singleton.mpr rfl)

/-- So update `j` lands at `i` exactly when its index word, read signed, is `i`'s coordinate. -/
theorem scatterVec_resultIdx?_iff (j : (⟨1, ![E]⟩ : Shape).Idx) (idx : IVec ⟨2, ![E, 1]⟩ w)
    (i : (⟨1, ![N]⟩ : Shape).Idx) :
    (scatterVecDims N E wf).resultIdx? j idx = some i ↔ (idx (ix2 (j 0) (0 : Fin 1))).toInt = ((i 0).val : ℤ) := by
  rw [resultIdx?_eq_some_iff]
  constructor
  · intro h
    have h0 := h 0
    rw [scatterVec_start, scatterVec_window] at h0
    exact (Int.add_zero _).symm.trans h0
  · intro h a
    obtain rfl : a = 0 := Subsingleton.elim _ _
    rw [scatterVec_start, scatterVec_window]
    exact (Int.add_zero _).trans h

end ScatterVec

/-! ## The row scatter's start and window -/

section ScatterRow
variable {N E H w : Nat} (wf : ScatterDims.WF ⟨2, ![N, H]⟩ ⟨2, ![E, 1]⟩ ⟨2, ![E, H]⟩ [1] [0] [0] 1)

/-- On the row axis update `(e, c)` starts at the index word `idx[e, 0]`, read signed … -/
theorem scatterRow_start0 (j : (⟨2, ![E, H]⟩ : Shape).Idx) (idx : IVec ⟨2, ![E, 1]⟩ w) :
    (scatterRowDims N E H wf).start j idx 0 = (idx (ix2 (j 0) (0 : Fin 1))).toInt := by
  unfold ScatterDims.start
  rw [dif_pos (show (0 : Fin 2) ∈ (scatterRowDims N E H wf).scatterDimsToOperandDims from List.mem_singleton.mpr rfl)]
  refine congrArg (fun k => (idx k).toInt) (funext fun b => Fin.ext ?_)
  match b with
  | ⟨0, _⟩ => rfl
  | ⟨1, _⟩ => rfl

/-- … and on the column axis, which the index does not address, at `0`. -/
theorem scatterRow_start1 (j : (⟨2, ![E, H]⟩ : Shape).Idx) (idx : IVec ⟨2, ![E, 1]⟩ w) :
    (scatterRowDims N E H wf).start j idx 1 = 0 := by
  unfold ScatterDims.start
  exact dif_neg fun h => Nat.one_ne_zero (congrArg Fin.val (List.mem_singleton.mp h))

/-- The row axis is inserted: no window coordinate there … -/
theorem scatterRow_window0 (j : (⟨2, ![E, H]⟩ : Shape).Idx) : (scatterRowDims N E H wf).window j 0 = 0 := by
  unfold ScatterDims.window
  exact dif_neg fun h => (mem_sKept (scatterRowDims N E H wf) 0).mp h (List.mem_singleton.mpr rfl)

/-- … and on the column axis the window coordinate is the update's column. -/
theorem scatterRow_window1 (j : (⟨2, ![E, H]⟩ : Shape).Idx) : (scatterRowDims N E H wf).window j 1 = (j 1).val := by
  have h1 : (1 : Fin 2) ∈ (scatterRowDims N E H wf).sKept :=
    (mem_sKept (scatterRowDims N E H wf) 1).mpr fun h => Nat.one_ne_zero (congrArg Fin.val (List.mem_singleton.mp h))
  unfold ScatterDims.window
  rw [dif_pos h1]
  rfl

/-- So update `(e, c)` lands at `(n, c')` exactly when its index word, read signed, is `n` and `c = c'`. -/
theorem scatterRow_resultIdx?_iff (j : (⟨2, ![E, H]⟩ : Shape).Idx) (idx : IVec ⟨2, ![E, 1]⟩ w)
    (i : (⟨2, ![N, H]⟩ : Shape).Idx) :
    (scatterRowDims N E H wf).resultIdx? j idx = some i
      ↔ (idx (ix2 (j 0) (0 : Fin 1))).toInt = ((i 0).val : ℤ) ∧ (j 1).val = (i 1).val := by
  rw [resultIdx?_eq_some_iff]
  constructor
  · intro h
    have h0 := h 0
    have h1 := h 1
    rw [scatterRow_start0, scatterRow_window0] at h0
    rw [scatterRow_start1, scatterRow_window1] at h1
    exact ⟨(Int.add_zero _).symm.trans h0, by exact_mod_cast (Int.zero_add _).symm.trans h1⟩
  · intro h a
    match a with
    | ⟨0, _⟩ =>
      show (scatterRowDims N E H wf).start j idx 0 + ((scatterRowDims N E H wf).window j 0 : ℤ) = ((i 0).val : ℤ)
      rw [scatterRow_start0, scatterRow_window0]
      exact (Int.add_zero _).trans h.1
    | ⟨1, _⟩ =>
      show (scatterRowDims N E H wf).start j idx 1 + ((scatterRowDims N E H wf).window j 1 : ℤ) = ((i 1).val : ℤ)
      rw [scatterRow_start1, scatterRow_window1, Int.zero_add]
      exact_mod_cast h.2

end ScatterRow

/-! ## The scatter-adds at an index, exact sums -/

/-- The index column `idx : [E, 1]` NAMES the positions `f`: word `e`, read signed, is the number `f e` (so it is in
    range). -/
abbrev Names {N E w : Nat} (idx : IVec ⟨2, ![E, 1]⟩ w) (f : Fin E → Fin N) : Prop :=
  ∀ e : Fin E, (idx (ix2 e (0 : Fin 1))).toInt = ((f e).val : ℤ)

/-- A column of in-range words names their positions. -/
theorem names_node {N E w : Nat} (idx : IVec ⟨2, ![E, 1]⟩ w) (h : ∀ e : Fin E, InRange N (idx (ix2 e (0 : Fin 1)))) :
    Names idx fun e => node N (idx (ix2 e (0 : Fin 1))) (h e) :=
  fun e => (node_val N _ (h e)).symm

section Scatter
variable {φ : FTy}

/-- THE VECTOR SCATTER-ADD AT `i`, no hypothesis on the indices: the operand's element plus every update whose index
    word, read signed, is `i` (an update whose index is outside `[0, N)` meets no `i`: it is dropped). -/
theorem scatterVec_apply {N E w : Nat} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ)
    (i : (⟨1, ![N]⟩ : Shape).Idx) :
    Host.scatterAdd (F := Ideal) (scatterVecDims N E wf) x idx upd i
      = x i + ∑ e : Fin E, if (idx (ix2 e (0 : Fin 1))).toInt = ((i 0).val : ℤ) then upd (ix1 e) else 0 := by
  show Ideal.hostScatterAdd (scatterVecDims N E wf) x idx upd i = _
  unfold Ideal.hostScatterAdd
  rw [Finset.sum_filter, sum_idx1]
  refine congrArg (x i + ·) (Finset.sum_congr rfl fun e _ => ?_)
  exact if_congr (scatterVec_resultIdx?_iff wf (ix1 e) idx i) rfl rfl

/-- THE ROW SCATTER-ADD AT `(n, c)`, no hypothesis on the indices: the operand's element plus column `c` of every
    update row whose index word, read signed, is `n`. Of the updates `(e, c')` only the ones in column `c` can land
    in column `c`, so the sum over the update table collapses to the sum over its rows. -/
theorem scatterRow_apply {N E H w : Nat} (wf : ScatterDims.WF ⟨2, ![N, H]⟩ ⟨2, ![E, 1]⟩ ⟨2, ![E, H]⟩ [1] [0] [0] 1)
    (x : FVec Ideal ⟨2, ![N, H]⟩ φ) (idx : IVec ⟨2, ![E, 1]⟩ w) (upd : FVec Ideal ⟨2, ![E, H]⟩ φ)
    (i : (⟨2, ![N, H]⟩ : Shape).Idx) :
    Host.scatterAdd (F := Ideal) (scatterRowDims N E H wf) x idx upd i
      = x i + ∑ e : Fin E, if (idx (ix2 e (0 : Fin 1))).toInt = ((i 0).val : ℤ) then upd (ix2 e (i 1)) else 0 := by
  show Ideal.hostScatterAdd (scatterRowDims N E H wf) x idx upd i = _
  unfold Ideal.hostScatterAdd
  rw [Finset.sum_filter, sum_idx2]
  refine congrArg (x i + ·) (Finset.sum_congr rfl fun e _ => ?_)
  rw [Finset.sum_eq_single (⟨(i 1).val, idx2_lt1 i⟩ : Fin H)]
  · exact if_congr ((scatterRow_resultIdx?_iff wf _ idx i).trans ⟨fun h => h.1, fun h => ⟨h, rfl⟩⟩) rfl rfl
  · intro b _ hb
    exact if_neg fun h => hb (Fin.ext ((scatterRow_resultIdx?_iff wf _ idx i).mp h).2)
  · intro h
    exact absurd (Finset.mem_univ _) h

/-- The vector scatter-add at position `n` when the index column names the positions `f`: the operand's element plus
    the updates `e` with `f e = n`. -/
theorem scatterVec_of_names {N E w : Nat} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ)
    (f : Fin E → Fin N) (h : Names idx f) (n : Fin N) :
    Host.scatterAdd (F := Ideal) (scatterVecDims N E wf) x idx upd (ix1 n)
      = x (ix1 n) + ∑ e : Fin E, if f e = n then upd (ix1 e) else 0 := by
  rw [scatterVec_apply]
  refine congrArg (x (ix1 n) + ·) (Finset.sum_congr rfl fun e _ => ?_)
  refine if_congr ?_ rfl rfl
  show (idx (ix2 e (0 : Fin 1))).toInt = (n.val : ℤ) ↔ f e = n
  rw [h e]
  exact ⟨fun q => Fin.ext (by exact_mod_cast q), fun q => by rw [q]⟩

/-- The row scatter-add at `(n, c)` when the index column names the rows `f`: the operand's element plus column `c` of
    the update rows `e` with `f e = n`. -/
theorem scatterRow_of_names {N E H w : Nat}
    (wf : ScatterDims.WF ⟨2, ![N, H]⟩ ⟨2, ![E, 1]⟩ ⟨2, ![E, H]⟩ [1] [0] [0] 1)
    (x : FVec Ideal ⟨2, ![N, H]⟩ φ) (idx : IVec ⟨2, ![E, 1]⟩ w) (upd : FVec Ideal ⟨2, ![E, H]⟩ φ)
    (f : Fin E → Fin N) (h : Names idx f) (n : Fin N) (c : Fin H) :
    Host.scatterAdd (F := Ideal) (scatterRowDims N E H wf) x idx upd (ix2 n c)
      = x (ix2 n c) + ∑ e : Fin E, if f e = n then upd (ix2 e c) else 0 := by
  rw [scatterRow_apply]
  refine congrArg (x (ix2 n c) + ·) (Finset.sum_congr rfl fun e _ => ?_)
  refine if_congr ?_ rfl rfl
  show (idx (ix2 e (0 : Fin 1))).toInt = (n.val : ℤ) ↔ f e = n
  rw [h e]
  exact ⟨fun q => Fin.ext (by exact_mod_cast q), fun q => by rw [q]⟩

end Scatter

/-! ## The gathers at an index -/

section Gather
variable {α : Type}

/-- THE VECTOR GATHER AT `j`: the operand at the start index `idx[j, 0]`, read signed and clamped into `[0, N − 1]`.
    The operand's one axis is collapsed and is no batching axis, so the operand index is the clamped start alone. -/
theorem gatherVec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (j : (⟨1, ![E]⟩ : Shape).Idx) :
    Host.gather (gatherVecDims N E wf) x idx j
      = x (ix1 ⟨min (idx (ix2 (j 0) (0 : Fin 1))).toInt.toNat (N - 1), by omega⟩) := by
  unfold Host.gather
  refine congrArg x (funext fun a => Fin.ext ?_)
  obtain rfl : a = 0 := Subsingleton.elim _ _
  show (gatherVecDims N E wf).start j idx 0 + (gatherVecDims N E wf).batchCoord j 0
      + (gatherVecDims N E wf).offCoord j 0 = min (idx (ix2 (j 0) (0 : Fin 1))).toInt.toNat (N - 1)
  rw [GatherDims.batchCoord_eq_zero (gatherVecDims N E wf) j 0 List.not_mem_nil,
    GatherDims.offCoord_eq_zero (gatherVecDims N E wf) j 0 (fun h => ((GatherDims.mem_sKept (gatherVecDims N E wf) 0).mp h).1 (List.mem_singleton.mpr rfl))]
  show (gatherVecDims N E wf).start j idx 0 = min (idx (ix2 (j 0) (0 : Fin 1))).toInt.toNat (N - 1)
  unfold GatherDims.start
  rw [dif_pos (show (0 : Fin 1) ∈ (gatherVecDims N E wf).startIndexMap from List.mem_singleton.mpr rfl)]
  refine congrArg (fun k => min (idx k).toInt.toNat (N - 1)) (funext fun b => Fin.ext ?_)
  match b with
  | ⟨0, _⟩ => rfl
  | ⟨1, _⟩ => rfl

/-- THE ROW GATHER AT `(e, c)`: the table at row `idx[e, 0]`, read signed and clamped into `[0, N − 1]`, column `c`.
    On the row axis (collapsed) the operand index is the clamped start; on the column axis (an offset axis sliced at
    full width, so its start is `0`) it is the result's column. -/
theorem gatherRow_apply {N E H w : Nat} (hN : 0 < N)
    (wf : GatherDims.WF ⟨2, ![N, H]⟩ ⟨2, ![E, 1]⟩ ⟨2, ![E, H]⟩ [1] [0] [] [0] [] 1 ![1, H])
    (x : (⟨2, ![N, H]⟩ : Shape).Idx → α) (idx : IVec ⟨2, ![E, 1]⟩ w) (j : (⟨2, ![E, H]⟩ : Shape).Idx) :
    Host.gather (gatherRowDims N E H wf) x idx j
      = x (ix2 (⟨min (idx (ix2 (j 0) (0 : Fin 1))).toInt.toNat (N - 1), by omega⟩ : Fin N) (j 1)) := by
  unfold Host.gather
  refine congrArg x (funext fun a => Fin.ext ?_)
  match a with
  | ⟨0, _⟩ =>
    show (gatherRowDims N E H wf).start j idx 0 + (gatherRowDims N E H wf).batchCoord j 0
        + (gatherRowDims N E H wf).offCoord j 0 = min (idx (ix2 (j 0) (0 : Fin 1))).toInt.toNat (N - 1)
    rw [GatherDims.batchCoord_eq_zero (gatherRowDims N E H wf) j 0 List.not_mem_nil,
      GatherDims.offCoord_eq_zero (gatherRowDims N E H wf) j 0 (fun h => ((GatherDims.mem_sKept (gatherRowDims N E H wf) 0).mp h).1 (List.mem_singleton.mpr rfl))]
    show (gatherRowDims N E H wf).start j idx 0 = min (idx (ix2 (j 0) (0 : Fin 1))).toInt.toNat (N - 1)
    unfold GatherDims.start
    rw [dif_pos (show (0 : Fin 2) ∈ (gatherRowDims N E H wf).startIndexMap from List.mem_singleton.mpr rfl)]
    refine congrArg (fun k => min (idx k).toInt.toNat (N - 1)) (funext fun b => Fin.ext ?_)
    match b with
    | ⟨0, _⟩ => rfl
    | ⟨1, _⟩ => rfl
  | ⟨1, _⟩ =>
    show (gatherRowDims N E H wf).start j idx 1 + (gatherRowDims N E H wf).batchCoord j 1
        + (gatherRowDims N E H wf).offCoord j 1 = (j 1).val
    have hk : (1 : Fin 2) ∈ (gatherRowDims N E H wf).sKept :=
      (GatherDims.mem_sKept (gatherRowDims N E H wf) 1).mpr
        ⟨fun h => Nat.one_ne_zero (congrArg Fin.val (List.mem_singleton.mp h)), List.not_mem_nil⟩
    have hs : (gatherRowDims N E H wf).start j idx 1 = 0 := by
      unfold GatherDims.start
      exact dif_neg fun h => Nat.one_ne_zero (congrArg Fin.val (List.mem_singleton.mp h))
    have ho : (gatherRowDims N E H wf).offCoord j 1 = (j 1).val := by
      unfold GatherDims.offCoord
      rw [dif_pos hk]
      rfl
    rw [hs, GatherDims.batchCoord_eq_zero (gatherRowDims N E H wf) j 1 List.not_mem_nil, ho, Nat.add_zero, Nat.zero_add]

/-- The vector gather at `e` when the index column names the positions `f`: the operand at `f e`. -/
theorem gatherVec_of_names {N E w : Nat}
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (f : Fin E → Fin N) (h : Names idx f) (e : Fin E) :
    Host.gather (gatherVecDims N E wf) x idx (ix1 e) = x (ix1 (f e)) := by
  rw [gatherVec_apply (Nat.lt_of_le_of_lt (Nat.zero_le _) (f e).isLt)]
  refine congrArg x (congrArg ix1 (Fin.ext ?_))
  show min (idx (ix2 e (0 : Fin 1))).toInt.toNat (N - 1) = (f e).val
  have := h e
  have := (f e).isLt
  omega

/-- The row gather at `(e, c)` when the index column names the rows `f`: the table at `(f e, c)`. -/
theorem gatherRow_of_names {N E H w : Nat}
    (wf : GatherDims.WF ⟨2, ![N, H]⟩ ⟨2, ![E, 1]⟩ ⟨2, ![E, H]⟩ [1] [0] [] [0] [] 1 ![1, H])
    (x : (⟨2, ![N, H]⟩ : Shape).Idx → α) (idx : IVec ⟨2, ![E, 1]⟩ w) (f : Fin E → Fin N) (h : Names idx f)
    (e : Fin E) (c : Fin H) :
    Host.gather (gatherRowDims N E H wf) x idx (ix2 e c) = x (ix2 (f e) c) := by
  rw [gatherRow_apply (Nat.lt_of_le_of_lt (Nat.zero_le _) (f e).isLt)]
  refine congrArg x (congrArg (fun r : Fin N => (ix2 r c : (⟨2, ![N, H]⟩ : Shape).Idx)) (Fin.ext ?_))
  show min (idx (ix2 e (0 : Fin 1))).toInt.toNat (N - 1) = (f e).val
  have := h e
  have := (f e).isLt
  omega

end Gather

end Cert.Hand.Val

end
-- ==== Proof.KI.ValH0.lean ====
import proofs.«160050_j32744830665390_2_alg».proof.Proof.Spec
import proofs.«160050_j32744830665390_2_alg».proof.Proof.Bridge.Inputs
import proofs.«160050_j32744830665390_2_alg».proof.Proof.Math.Lift
import proofs.«160050_j32744830665390_2_alg».proof.Proof.Math.Consts
import proofs.«160050_j32744830665390_2_alg».proof.Proof.Val.GatherScatter
import proofs.«160050_j32744830665390_2_alg».proof.Proof.Gen.KernelIdeal.Launch
import Idealize.ShloMosaic.Lib.StableHlo.Run
import Idealize.ShloMosaic.Lib.ValueLayout
import Idealize.ShloMosaic.Lib.Pipeline.Value

/-! # The host stretches before the embedding stage, read over the reals

Before the first pallas_call the host prepares the graph's quantities, in three stretches.
The first cuts the two rows of the edge list apart (sources, destinations) and counts, by a scatter-add of ones,
how many edges leave each node and how many enter it; it also prepares the test "some edge leaves the node" and the
reciprocal square root of the out-degree clamped below at one.  The second (a small called function) selects between
that reciprocal square root and zero: the normalising factor d^(-1/2), zero at a node no edge leaves.  The third
wraps negative indices (the identity on the node numbers the precondition admits), gathers the factor at each
edge's two ends and multiplies: the scaled Laplacian's weight of the edge; it adds the two degree vectors, and
reshapes the bias and the two layer-norm rows to 1 × 128.

Read at the extended reals: if the edge list's words are node numbers and the three rows hold real rows, then after
the stretches those buffers hold the specification's degOut, degIn, dinv, wEdge and the rows themselves. -/

noncomputable section

namespace Cert.KernelIdeal.Hand.Val

open Cert.KernelIdeal Cert.KernelIdeal.Gen
open Idealize.ShloMosaic Idealize.ShloMosaic.TcCoe Idealize.ShloMosaic.ValueIdx Idealize.ShloMosaic.StableHlo
open Cert.Hand Cert.Hand.Bridge
open scoped BigOperators

/-! ## Pieces shared by the stretches -/

/-- A vector of n entries cast to a column [n, 1] reads, at (i, u), entry i. -/
theorem col_cast_apply {α : Type} {n : ℕ} (x : (⟨1, ![n]⟩ : Shape).Idx → α)
    (h : (⟨1, ![n]⟩ : Shape).ShapeCasts ⟨2, ![n, 1]⟩) (i : Fin n) (u : Fin 1) :
    shapeCast ⟨2, ![n, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A scalar spread over a vector reads the scalar everywhere. -/
theorem splat1_apply {α : Type} {n : ℕ} (x : S_.Idx → α) (h : S_.BroadcastsInDim (⟨1, ![n]⟩ : Shape) ![]) (j : (⟨1, ![n]⟩ : Shape).Idx) :
    broadcastInDim (⟨1, ![n]⟩ : Shape) ![] h x j = x ix0 :=
  broadcastInDim_apply (s := S_) (t := (⟨1, ![n]⟩ : Shape)) ![] h x j ix0 (fun a => a.elim0)

/-- A vector of 800000 words as a column [800000, 1] reads, at (e, u), word e. -/
theorem colOf0_apply {α : Type} (w : S800000.Idx → α) (e : Fin 800000) (u : Fin 1) :
    broadcastInDim S800000x1 ![0] bcast_S800000_S800000x1_0 w (ix2 e u) = w (ix1 e) :=
  broadcastInDim_apply (s := S800000) (t := S800000x1) ![0] bcast_S800000_S800000x1_0 w (ix2 e u) (ix1 e) (fun a => by
    match a with
    | ⟨0, _⟩ =>
      show e.val = if (800000 : ℕ) = 1 then 0 else e.val
      rw [if_neg (by decide)])

/-- Pointwise readings, stated over arbitrary vectors. -/
theorem cmp_ogt_at0 {s : Shape} (a b : FVec Ideal s .f32) (j : s.Idx) :
    cmpf .ogt a b j = Ideal.cmp .ogt (a j) (b j) := rfl
theorem hostRsqrt_max_at0 {s : Shape} (a b : FVec Ideal s .f32) (j : s.Idx) :
    Host.rsqrt (maximumf a b) j = Ideal.rsqrt (max (a j) (b j)) := rfl

/-- The program's scatter-add and gather records are the vector forms. -/
theorem scatter0_eq : scatter_S50000_S800000x1_S800000_n_0_0_1
    = Val.scatterVecDims 50000 800000 scatter_S50000_S800000x1_S800000_n_0_0_1.wf := rfl
theorem gather0_eq : gather_S50000_S800000x1_S800000_n_0_n_n_0_1_1
    = Val.gatherVecDims 50000 800000 gather_S50000_S800000x1_S800000_n_0_n_n_0_1_1.wf := rfl

/-- A column of words that name edge ends names them as positions. -/
theorem names_of_endsCol (a : IVec S800000x1 32) (f : Fin 800000 → Fin 50000) (h : EndsCol a f) : Val.Names a f := fun e => by
  obtain ⟨h0, h1, hn⟩ := h (ix2 e (0 : Fin 1))
  exact (Bridge.node_val h0 h1).symm.trans (congrArg (fun x : Fin 50000 => (x.val : ℤ)) hn)

/-- A vector of edge ends, as a column, still names them. -/
theorem endsCol_of_ends (w : IVec S800000 32) (f : Fin 800000 → Fin 50000) (h : Ends w f) :
    EndsCol (broadcastInDim S800000x1 ![0] bcast_S800000_S800000x1_0 w) f := by
  intro i
  obtain ⟨e, u, rfl⟩ : ∃ (e : Fin 800000) (u : Fin 1), i = ix2 e u := ⟨i 0, i 1, eq_ix2 i⟩
  rw [colOf0_apply]
  exact h (ix1 e)

/-- Counting by a scatter-add of ones: from a zero vector, adding a one at the end of every edge leaves, at node
    n, the number of edges whose end is n. -/
theorem count0_holds (a : IVec S800000x1 32) (f : Fin 800000 → Fin 50000) (h : EndsCol a f)
    (z : FVec Ideal S50000 .f32) (o : FVec Ideal S800000 .f32)
    (hz : ∀ j, z j = ((0 : ℝ) : EReal)) (ho : ∀ j, o j = ((1 : ℝ) : EReal)) :
    Holds1 (n0 := 50000) (Host.scatterAdd (F := Ideal) scatter_S50000_S800000x1_S800000_n_0_0_1 z a o)
      (fun n => ∑ e : Fin 800000, if f e = n then (1 : ℝ) else 0) := by
  intro i
  obtain ⟨n, rfl⟩ : ∃ n : Fin 50000, i = ix1 n := ⟨i 0, eq_ix1 i⟩
  rw [scatter0_eq]
  refine (Val.scatterVec_of_names _ z a o f (names_of_endsCol a f h) n).trans ?_
  rw [hz, Math.sum_eq_coe_of_forall Finset.univ (fun e : Fin 800000 => if f e = n then o (ix1 e) else 0)
    (fun e => if f e = n then (1 : ℝ) else 0) (fun e _ => by
      show (if f e = n then o (ix1 e) else 0) = _
      rw [ho, Math.zero_eq_coe, Math.ite_coe_coe]), Math.coe_add_coe, zero_add]
  all_goals rfl

/-! ## The first stretch: the edge ends, the degrees, and the pieces of the normalising factor -/

section StretchA

variable (V : Valuation τ sig (Elt Ideal))

/-- Row p of the edge list as a vector of 800000 words (p = 0: sources). -/
def srcW0 : IVec S800000 32 :=
  shapeCast S800000 (extractStridedSlice S1x800000 ![0, 0] (V (Proc.devRef .tc main_arg13)) slices_S2x800000_S1x800000_0_0)
    shapeCasts_S1x800000_S800000
/-- (p = 1: destinations). -/
def dstW0 : IVec S800000 32 :=
  shapeCast S800000 (extractStridedSlice S1x800000 ![1, 0] (V (Proc.devRef .tc main_arg13)) slices_S2x800000_S1x800000_1_0)
    shapeCasts_S1x800000_S800000

/-- The constant vectors the stretch builds. -/
def zerosN0 : FVec Ideal S50000 .f32 := broadcastInDim S50000 ![] bcast_S_S50000 (constant (F := Ideal) S_ .f32 0x00000000#32)
def onesN0 : FVec Ideal S50000 .f32 := broadcastInDim S50000 ![] bcast_S_S50000 (constant (F := Ideal) S_ .f32 0x3F800000#32)
def onesE0 : FVec Ideal S800000 .f32 := broadcastInDim S800000 ![] bcast_S_S800000 (constant (F := Ideal) S_ .f32 0x3F800000#32)

/-- The count of edges by one of their ends. -/
def degE0 (w : IVec S800000 32) : FVec Ideal S50000 .f32 :=
  Host.scatterAdd scatter_S50000_S800000x1_S800000_n_0_0_1 zerosN0
    (broadcastInDim S800000x1 ![0] bcast_S800000_S800000x1_0 w) onesE0

theorem zerosN0_apply (j : S50000.Idx) : zerosN0 j = ((0 : ℝ) : EReal) :=
  (splat1_apply _ bcast_S_S50000 j).trans Math.ofBits_f32_zero
theorem onesN0_apply (j : S50000.Idx) : onesN0 j = ((1 : ℝ) : EReal) :=
  (splat1_apply _ bcast_S_S50000 j).trans Math.ofBits_f32_one
theorem onesE0_apply (j : S800000.Idx) : onesE0 j = ((1 : ℝ) : EReal) :=
  (splat1_apply _ bcast_S_S800000 j).trans Math.ofBits_f32_one

/-! ### What the stretch leaves, as terms over what it finds -/

theorem src0_term : StableHlo.after hostOps0 V (Proc.devRef .tc main_v1) = srcW0 V := by
  after_results <;> rfl
theorem dst0_term : StableHlo.after hostOps0 V (Proc.devRef .tc main_v3) = dstW0 V := by
  after_results <;> rfl
theorem degOut0_term : StableHlo.after hostOps0 V (Proc.devRef .tc main_v7) = degE0 (srcW0 V) := by
  after_results <;> rfl
theorem degIn0_term : StableHlo.after hostOps0 V (Proc.devRef .tc main_v11) = degE0 (dstW0 V) := by
  after_results <;> rfl
theorem pos0_term : StableHlo.after hostOps0 V (Proc.devRef .tc main_v13)
    = cmpf .ogt (degE0 (srcW0 V)) zerosN0 := by
  after_results <;> rfl
theorem rs0_term : StableHlo.after hostOps0 V (Proc.devRef .tc main_v16)
    = Host.rsqrt (maximumf (degE0 (srcW0 V)) onesN0) := by
  after_results <;> rfl
theorem zero0_term : StableHlo.after hostOps0 V (Proc.devRef .tc main_cst_5)
    = constant (F := Ideal) S_ .f32 0x00000000#32 := by
  after_results <;> rfl

/-! ### Over the reals -/

theorem srcW0_apply (e : Fin 800000) : srcW0 V (ix1 e) = V (Proc.devRef .tc main_arg13) (ix2 (0 : Fin 2) e) :=
  (shapeCast_1a_a_apply _ shapeCasts_S1x800000_S800000 e).trans
    (slice2_axis0_apply 0 _ slices_S2x800000_S1x800000_0_0 (0 : Fin 1) e (0 : Fin 2) rfl)
theorem dstW0_apply (e : Fin 800000) : dstW0 V (ix1 e) = V (Proc.devRef .tc main_arg13) (ix2 (1 : Fin 2) e) :=
  (shapeCast_1a_a_apply _ shapeCasts_S1x800000_S800000 e).trans
    (slice2_axis0_apply 1 _ slices_S2x800000_S1x800000_1_0 (0 : Fin 1) e (1 : Fin 2) rfl)

variable (I : Spec.Inputs)

/-- A row of the edge list names its edge ends when its words are node numbers. -/
theorem ends0_of_row (w : IVec S800000 32) (f : Fin 800000 → Fin 50000) (p : Fin 2)
    (hw : ∀ e, w (ix1 e) = V (Proc.devRef .tc main_arg13) (ix2 p e))
    (hE : ∀ i, 0 ≤ (V (Proc.devRef .tc main_arg13) i).toInt ∧ (V (Proc.devRef .tc main_arg13) i).toInt < 50000)
    (hf : ∀ e, f e = node (V (Proc.devRef .tc main_arg13) (ix2 p e))) : Ends w f := by
  intro i
  obtain ⟨e, rfl⟩ : ∃ e : Fin 800000, i = ix1 e := ⟨i 0, eq_ix1 i⟩
  rw [hw e]
  exact ⟨(hE _).1, (hE _).2, (hf e).symm⟩

/-- The degree vector counted by the ends f. -/
theorem degE0_holds (w : IVec S800000 32) (f : Fin 800000 → Fin 50000) (h : Ends w f) :
    Holds1 (n0 := 50000) (degE0 w) (fun n => ∑ e : Fin 800000, if f e = n then (1 : ℝ) else 0) :=
  count0_holds _ f (endsCol_of_ends w f h) zerosN0 onesE0 zerosN0_apply onesE0_apply

set_option maxHeartbeats 2000000 in
/-- THE FIRST STRETCH. -/
theorem valH0a
    (hE : ∀ i, 0 ≤ (V (Proc.devRef .tc main_arg13) i).toInt ∧ (V (Proc.devRef .tc main_arg13) i).toInt < 50000)
    (hsrc : ∀ e : Fin 800000, I.src e = node (V (Proc.devRef .tc main_arg13) (ix2 (0 : Fin 2) e)))
    (hdst : ∀ e : Fin 800000, I.dst e = node (V (Proc.devRef .tc main_arg13) (ix2 (1 : Fin 2) e))) :
    Ends (StableHlo.after hostOps0 V (Proc.devRef .tc main_v1)) I.src
    ∧ Ends (StableHlo.after hostOps0 V (Proc.devRef .tc main_v3)) I.dst
    ∧ Holds1 (n0 := 50000) (StableHlo.after hostOps0 V (Proc.devRef .tc main_v7)) (Spec.degOut I)
    ∧ Holds1 (n0 := 50000) (StableHlo.after hostOps0 V (Proc.devRef .tc main_v11)) (Spec.degIn I)
    ∧ (∀ n : Fin 50000, StableHlo.after hostOps0 V (Proc.devRef .tc main_v13) (ix1 n)
        = BitVec.ofBool (decide (0 < Spec.degOut I n)))
    ∧ Holds1 (n0 := 50000) (StableHlo.after hostOps0 V (Proc.devRef .tc main_v16))
        (fun i => Spec.rsq (max (Spec.degOut I i) 1))
    ∧ Holds0 (StableHlo.after hostOps0 V (Proc.devRef .tc main_cst_5)) 0 := by
  have hS : Ends (srcW0 V) I.src := ends0_of_row V (srcW0 V) I.src 0 (srcW0_apply V) hE hsrc
  have hD : Ends (dstW0 V) I.dst := ends0_of_row V (dstW0 V) I.dst 1 (dstW0_apply V) hE hdst
  have hO : Holds1 (n0 := 50000) (degE0 (srcW0 V)) (Spec.degOut I) := degE0_holds (srcW0 V) I.src hS
  have hI : Holds1 (n0 := 50000) (degE0 (dstW0 V)) (Spec.degIn I) := degE0_holds (dstW0 V) I.dst hD
  rw [src0_term, dst0_term, degOut0_term, degIn0_term, pos0_term, rs0_term, zero0_term]
  refine ⟨hS, hD, hO, hI, ?_, ?_, ?_⟩
  · intro n
    rw [cmp_ogt_at0, hO (ix1 n), zerosN0_apply, Math.cmp_ogt_coe_coe]
    all_goals rfl
  · intro i
    obtain ⟨n, rfl⟩ : ∃ n : Fin 50000, i = ix1 n := ⟨i 0, eq_ix1 i⟩
    have hpos : (0 : ℝ) < max (Spec.degOut I n) 1 := lt_of_lt_of_le one_pos (le_max_right _ _)
    rw [hostRsqrt_max_at0, hO (ix1 n), onesN0_apply, Math.max_coe_coe]
    exact Math.rsqrt_coe_of_pos hpos
  · intro i
    exact Math.ofBits_f32_zero

end StretchA

/-! ## The second stretch: the normalising factor -/

section StretchB

variable (V : Valuation τ sig (Elt Ideal)) (I : Spec.Inputs)

theorem dinv0_term : StableHlo.after hostOps0_1 V (Proc.devRef .tc main_v17)
    = select (V (Proc.devRef .tc main_v13)) (V (Proc.devRef .tc main_v16))
        (broadcastInDim S50000 ![] bcast_S_S50000 (V (Proc.devRef .tc main_cst_5))) := by
  after_results <;> rfl

/-- THE SECOND STRETCH: where an edge leaves the node, one over the square root of the out-degree; elsewhere zero. -/
theorem valH0b
    (hpos : ∀ n : Fin 50000, V (Proc.devRef .tc main_v13) (ix1 n) = BitVec.ofBool (decide (0 < Spec.degOut I n)))
    (hrs : Holds1 (n0 := 50000) (V (Proc.devRef .tc main_v16)) (fun i => Spec.rsq (max (Spec.degOut I i) 1)))
    (hz : Holds0 (V (Proc.devRef .tc main_cst_5)) 0) :
    Holds1 (n0 := 50000) (StableHlo.after hostOps0_1 V (Proc.devRef .tc main_v17)) (Spec.dinv I) := by
  rw [dinv0_term]
  intro i
  obtain ⟨n, rfl⟩ : ∃ n : Fin 50000, i = ix1 n := ⟨i 0, eq_ix1 i⟩
  show Scalar.select (V (Proc.devRef .tc main_v13) (ix1 n)) (V (Proc.devRef .tc main_v16) (ix1 n))
      (broadcastInDim S50000 ![] bcast_S_S50000 (V (Proc.devRef .tc main_cst_5)) (ix1 n)) = _
  rw [hpos n, hrs (ix1 n), splat1_apply, hz ix0, Math.select_ofBool_decide, Math.ite_coe_coe]
  all_goals rfl

end StretchB

/-! ## The third stretch: the edge weights, the summed degrees, the three rows -/

/-- A word that is a node number is not negative, so the wrap of negative indices leaves it alone. -/
theorem wrap0_word (x : BitVec 32) (h : 0 ≤ x.toInt) :
    Scalar.select (IntOp.cmpi .slt x 0#32) (IntOp.addi x 50000#32) x = x := by
  show (if IntOp.cmpi .slt x 0#32 = 1 then IntOp.addi x 50000#32 else x) = x
  exact if_neg fun h1 => by
    have h2 : x.toInt < (0#32 : BitVec 32).toInt := IntOp.cmpi_slt.mp h1
    have h3 : (0#32 : BitVec 32).toInt = 0 := by decide
    omega

/-- The wrap of negative indices, on a vector of 800000 words. -/
def wrapW0 (w : IVec S800000 32) : IVec S800000 32 :=
  select (cmpi .slt w (broadcastInDim S800000 ![] bcast_S_S800000 (constantI S_ 32 0#32)))
    (addi w (broadcastInDim S800000 ![] bcast_S_S800000 (constantI S_ 32 50000#32))) w

theorem wrapW0_apply (w : IVec S800000 32) (e : Fin 800000) (h : 0 ≤ (w (ix1 e)).toInt) :
    wrapW0 w (ix1 e) = w (ix1 e) := by
  show Scalar.select (IntOp.cmpi .slt (w (ix1 e)) (broadcastInDim S800000 ![] bcast_S_S800000 (constantI S_ 32 0#32) (ix1 e)))
      (IntOp.addi (w (ix1 e)) (broadcastInDim S800000 ![] bcast_S_S800000 (constantI S_ 32 50000#32) (ix1 e)))
      (w (ix1 e)) = _
  rw [splat1_apply, splat1_apply]
  exact wrap0_word _ h

theorem wrapW0_ends (w : IVec S800000 32) (f : Fin 800000 → Fin 50000) (h : Ends w f) : Ends (wrapW0 w) f := by
  intro i
  obtain ⟨e, rfl⟩ : ∃ e : Fin 800000, i = ix1 e := ⟨i 0, eq_ix1 i⟩
  rw [wrapW0_apply w e (h (ix1 e)).1]
  exact h (ix1 e)

/-- The edge weight from the factor vector d and the two vectors of edge ends: minus d at the source times d at the
    destination. -/
def wEdgeV0 (d : FVec Ideal S50000 .f32) (s t : IVec S800000 32) : FVec Ideal S800000 .f32 :=
  mulf
    (Host.negf (Host.gather gather_S50000_S800000x1_S800000_n_0_n_n_0_1_1 d
      (broadcastInDim S800000x1 ![0] bcast_S800000_S800000x1_0 (wrapW0 s))))
    (Host.gather gather_S50000_S800000x1_S800000_n_0_n_n_0_1_1 d
      (broadcastInDim S800000x1 ![0] bcast_S800000_S800000x1_0 (wrapW0 t)))

theorem wEdgeV0_apply (d : FVec Ideal S50000 .f32) (s t : IVec S800000 32) (j : S800000.Idx) :
    wEdgeV0 d s t j
      = -(Host.gather gather_S50000_S800000x1_S800000_n_0_n_n_0_1_1 d
            (broadcastInDim S800000x1 ![0] bcast_S800000_S800000x1_0 (wrapW0 s)) j)
          * Host.gather gather_S50000_S800000x1_S800000_n_0_n_n_0_1_1 d
            (broadcastInDim S800000x1 ![0] bcast_S800000_S800000x1_0 (wrapW0 t)) j := rfl

/-- The two degree vectors added, as a column. -/
def degSumV0 (a b : FVec Ideal S50000 .f32) : FVec Ideal S50000x1 .f32 :=
  shapeCast S50000x1 (addf a b) shapeCasts_S50000_S50000x1

section StretchC

variable (V : Valuation τ sig (Elt Ideal)) (I : Spec.Inputs)

set_option maxHeartbeats 4000000

theorem srcCol0_term : StableHlo.after hostOps0_2 V (Proc.devRef .tc main_v23)
    = broadcastInDim S800000x1 ![0] bcast_S800000_S800000x1_0 (wrapW0 (V (Proc.devRef .tc main_v1))) := by
  after_results <;> rfl
theorem dstCol0_term : StableHlo.after hostOps0_2 V (Proc.devRef .tc main_v31)
    = broadcastInDim S800000x1 ![0] bcast_S800000_S800000x1_0 (wrapW0 (V (Proc.devRef .tc main_v3))) := by
  after_results <;> rfl
theorem wEdge0_term : StableHlo.after hostOps0_2 V (Proc.devRef .tc main_v33)
    = wEdgeV0 (V (Proc.devRef .tc main_v17)) (V (Proc.devRef .tc main_v1)) (V (Proc.devRef .tc main_v3)) := by
  after_results <;> rfl
theorem degSum0_term : StableHlo.after hostOps0_2 V (Proc.devRef .tc main_v35)
    = degSumV0 (V (Proc.devRef .tc main_v7)) (V (Proc.devRef .tc main_v11)) := by
  after_results <;> rfl
theorem bias0_term : StableHlo.after hostOps0_2 V (Proc.devRef .tc main_v36)
    = shapeCast S1x128 (V (Proc.devRef .tc main_arg2)) shapeCasts_S128_S1x128 := by
  after_results <;> rfl
theorem lnG0_term : StableHlo.after hostOps0_2 V (Proc.devRef .tc main_v37)
    = shapeCast S1x128 (V (Proc.devRef .tc main_arg3)) shapeCasts_S128_S1x128 := by
  after_results <;> rfl
theorem lnB0_term : StableHlo.after hostOps0_2 V (Proc.devRef .tc main_v38)
    = shapeCast S1x128 (V (Proc.devRef .tc main_arg4)) shapeCasts_S128_S1x128 := by
  after_results <;> rfl

/-- A vector of 128 reals reshaped to 1 × 128 holds the same row. -/
theorem row0_holds (a : FVec Ideal S128 .f32) (A : Fin 128 → ℝ) (h : Holds1 (n0 := 128) a A) :
    Holds2 (n0 := 1) (n1 := 128) (shapeCast S1x128 a shapeCasts_S128_S1x128) (fun _ k => A k) := by
  intro i
  obtain ⟨u, k, rfl⟩ : ∃ (u : Fin 1) (k : Fin 128), i = ix2 u k := ⟨i 0, i 1, eq_ix2 i⟩
  exact (shapeCast_a_1a_apply _ shapeCasts_S128_S1x128 u k).trans (h (ix1 k))

/-- THE THIRD STRETCH. -/
theorem valH0c
    (hs : Ends (V (Proc.devRef .tc main_v1)) I.src) (hd : Ends (V (Proc.devRef .tc main_v3)) I.dst)
    (ho : Holds1 (n0 := 50000) (V (Proc.devRef .tc main_v7)) (Spec.degOut I))
    (hi : Holds1 (n0 := 50000) (V (Proc.devRef .tc main_v11)) (Spec.degIn I))
    (hdinv : Holds1 (n0 := 50000) (V (Proc.devRef .tc main_v17)) (Spec.dinv I))
    (hb : Holds1 (n0 := 128) (V (Proc.devRef .tc main_arg2)) I.bIn)
    (hg : Holds1 (n0 := 128) (V (Proc.devRef .tc main_arg3)) I.lnG)
    (hbeta : Holds1 (n0 := 128) (V (Proc.devRef .tc main_arg4)) I.lnB) :
    EndsCol (StableHlo.after hostOps0_2 V (Proc.devRef .tc main_v23)) I.src
    ∧ EndsCol (StableHlo.after hostOps0_2 V (Proc.devRef .tc main_v31)) I.dst
    ∧ Holds1 (n0 := 800000) (StableHlo.after hostOps0_2 V (Proc.devRef .tc main_v33)) (Spec.wEdge I)
    ∧ Holds2 (n0 := 50000) (n1 := 1) (StableHlo.after hostOps0_2 V (Proc.devRef .tc main_v35))
        (fun i _ => Spec.degOut I i + Spec.degIn I i)
    ∧ Holds2 (n0 := 1) (n1 := 128) (StableHlo.after hostOps0_2 V (Proc.devRef .tc main_v36)) (fun _ k => I.bIn k)
    ∧ Holds2 (n0 := 1) (n1 := 128) (StableHlo.after hostOps0_2 V (Proc.devRef .tc main_v37)) (fun _ k => I.lnG k)
    ∧ Holds2 (n0 := 1) (n1 := 128) (StableHlo.after hostOps0_2 V (Proc.devRef .tc main_v38)) (fun _ k => I.lnB k) := by
  have hcs : EndsCol (broadcastInDim S800000x1 ![0] bcast_S800000_S800000x1_0 (wrapW0 (V (Proc.devRef .tc main_v1)))) I.src :=
    endsCol_of_ends _ _ (wrapW0_ends _ _ hs)
  have hcd : EndsCol (broadcastInDim S800000x1 ![0] bcast_S800000_S800000x1_0 (wrapW0 (V (Proc.devRef .tc main_v3)))) I.dst :=
    endsCol_of_ends _ _ (wrapW0_ends _ _ hd)
  rw [srcCol0_term, dstCol0_term, wEdge0_term, degSum0_term, bias0_term, lnG0_term, lnB0_term]
  refine ⟨hcs, hcd, ?_, ?_, row0_holds _ _ hb, row0_holds _ _ hg, row0_holds _ _ hbeta⟩
  · intro i
    obtain ⟨e, rfl⟩ : ∃ e : Fin 800000, i = ix1 e := ⟨i 0, eq_ix1 i⟩
    have g1 : Host.gather gather_S50000_S800000x1_S800000_n_0_n_n_0_1_1 (V (Proc.devRef .tc main_v17))
        (broadcastInDim S800000x1 ![0] bcast_S800000_S800000x1_0 (wrapW0 (V (Proc.devRef .tc main_v1)))) (ix1 e)
        = ((Spec.dinv I (I.src e) : ℝ) : EReal) := by
      rw [gather0_eq]
      exact (Val.gatherVec_of_names _ _ _ I.src (names_of_endsCol _ _ hcs) e).trans (hdinv (ix1 (I.src e)))
    have g2 : Host.gather gather_S50000_S800000x1_S800000_n_0_n_n_0_1_1 (V (Proc.devRef .tc main_v17))
        (broadcastInDim S800000x1 ![0] bcast_S800000_S800000x1_0 (wrapW0 (V (Proc.devRef .tc main_v3)))) (ix1 e)
        = ((Spec.dinv I (I.dst e) : ℝ) : EReal) := by
      rw [gather0_eq]
      exact (Val.gatherVec_of_names _ _ _ I.dst (names_of_endsCol _ _ hcd) e).trans (hdinv (ix1 (I.dst e)))
    rw [wEdgeV0_apply, g1, g2, Math.neg_coe, Math.coe_mul_coe]
    all_goals rfl
  · intro i
    obtain ⟨n, u, rfl⟩ : ∃ (n : Fin 50000) (u : Fin 1), i = ix2 n u := ⟨i 0, i 1, eq_ix2 i⟩
    refine (col_cast_apply _ shapeCasts_S50000_S50000x1 n u).trans ?_
    rw [addf_apply, ho (ix1 n), hi (ix1 n), Math.coe_add_coe]
    all_goals rfl

end StretchC

/-! ## What the stretches leave alone -/

section Kept

variable (V : Valuation τ sig (Elt Ideal))

theorem keptH0a_main_arg0 : StableHlo.after hostOps0 V (Proc.devRef .tc main_arg0) = V (Proc.devRef .tc main_arg0) := by
  after_results <;> rfl
theorem keptH0a_main_arg1 : StableHlo.after hostOps0 V (Proc.devRef .tc main_arg1) = V (Proc.devRef .tc main_arg1) := by
  after_results <;> rfl
theorem keptH0a_main_arg2 : StableHlo.after hostOps0 V (Proc.devRef .tc main_arg2) = V (Proc.devRef .tc main_arg2) := by
  after_results <;> rfl
theorem keptH0a_main_arg3 : StableHlo.after hostOps0 V (Proc.devRef .tc main_arg3) = V (Proc.devRef .tc main_arg3) := by
  after_results <;> rfl
theorem keptH0a_main_arg4 : StableHlo.after hostOps0 V (Proc.devRef .tc main_arg4) = V (Proc.devRef .tc main_arg4) := by
  after_results <;> rfl

theorem keptH0b_main_v1 : StableHlo.after hostOps0_1 V (Proc.devRef .tc main_v1) = V (Proc.devRef .tc main_v1) := by
  after_results <;> rfl
theorem keptH0b_main_v3 : StableHlo.after hostOps0_1 V (Proc.devRef .tc main_v3) = V (Proc.devRef .tc main_v3) := by
  after_results <;> rfl
theorem keptH0b_main_v7 : StableHlo.after hostOps0_1 V (Proc.devRef .tc main_v7) = V (Proc.devRef .tc main_v7) := by
  after_results <;> rfl
theorem keptH0b_main_v11 : StableHlo.after hostOps0_1 V (Proc.devRef .tc main_v11) = V (Proc.devRef .tc main_v11) := by
  after_results <;> rfl
theorem keptH0b_main_arg0 : StableHlo.after hostOps0_1 V (Proc.devRef .tc main_arg0) = V (Proc.devRef .tc main_arg0) := by
  after_results <;> rfl
theorem keptH0b_main_arg1 : StableHlo.after hostOps0_1 V (Proc.devRef .tc main_arg1) = V (Proc.devRef .tc main_arg1) := by
  after_results <;> rfl
theorem keptH0b_main_arg2 : StableHlo.after hostOps0_1 V (Proc.devRef .tc main_arg2) = V (Proc.devRef .tc main_arg2) := by
  after_results <;> rfl
theorem keptH0b_main_arg3 : StableHlo.after hostOps0_1 V (Proc.devRef .tc main_arg3) = V (Proc.devRef .tc main_arg3) := by
  after_results <;> rfl
theorem keptH0b_main_arg4 : StableHlo.after hostOps0_1 V (Proc.devRef .tc main_arg4) = V (Proc.devRef .tc main_arg4) := by
  after_results <;> rfl

theorem keptH0c_main_v1 : StableHlo.after hostOps0_2 V (Proc.devRef .tc main_v1) = V (Proc.devRef .tc main_v1) := by
  after_results <;> rfl
theorem keptH0c_main_v3 : StableHlo.after hostOps0_2 V (Proc.devRef .tc main_v3) = V (Proc.devRef .tc main_v3) := by
  after_results <;> rfl
theorem keptH0c_main_v7 : StableHlo.after hostOps0_2 V (Proc.devRef .tc main_v7) = V (Proc.devRef .tc main_v7) := by
  after_results <;> rfl
theorem keptH0c_main_v11 : StableHlo.after hostOps0_2 V (Proc.devRef .tc main_v11) = V (Proc.devRef .tc main_v11) := by
  after_results <;> rfl
theorem keptH0c_main_v17 : StableHlo.after hostOps0_2 V (Proc.devRef .tc main_v17) = V (Proc.devRef .tc main_v17) := by
  after_results <;> rfl
theorem keptH0c_main_arg0 : StableHlo.after hostOps0_2 V (Proc.devRef .tc main_arg0) = V (Proc.devRef .tc main_arg0) := by
  after_results <;> rfl
theorem keptH0c_main_arg1 : StableHlo.after hostOps0_2 V (Proc.devRef .tc main_arg1) = V (Proc.devRef .tc main_arg1) := by
  after_results <;> rfl

end Kept

end Cert.KernelIdeal.Hand.Val

end
-- ==== Proof.KI.Reg1.Value.lean ====
/- Region 1, the values. What each control case's stores read back as, over the body's named arithmetic: the
   affine result of the tile for the row-tile output; for an accumulator, the tile's column sum (or column sum of
   squares) added onto what it held, which at the first tile is zero; for a small output, the accumulator's final
   contents. Then, by induction on the tile, what the accumulators hold after each tile. -/
import proofs.«160050_j32744830665390_2_alg».proof.Proof.KI.Iface
import proofs.«160050_j32744830665390_2_alg».proof.Proof.KI.Reg1
import Idealize.ShloMosaic.Lib.Pipeline.Value
import Idealize.ShloMosaic.Lib.ValueIdx
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two zero offsets of a rank-2 rectangle, as the constant-zero function. -/
theorem offs00_1 : (![0, 0] : Fin 2 → Nat) = fun _ => 0 := funext fun a => by fin_cases a <;> rfl

/-! ## The pieces, case by case -/

section Cases

variable (c : Dev nD) (i : grid1.Coords)
  (arg1 : Memref sig .tc .vmem S5000x128 .f32) (harg1 : arg1.IsWhole)
  (arg2 : Memref sig .tc .vmem S5000x128 .f32) (harg2 : arg2.IsWhole)
  (arg3 : Memref sig .tc .vmem S5000x128 .f32) (harg3 : arg3.IsWhole)
  (arg4 : Memref sig .tc .vmem S128x128 .f32) (harg4 : arg4.IsWhole)
  (arg5 : Memref sig .tc .vmem S128x128 .f32) (harg5 : arg5.IsWhole)
  (arg6 : Memref sig .tc .vmem S128x128 .f32) (harg6 : arg6.IsWhole)
  (arg7 : Memref sig .tc .vmem S1x128 .f32) (harg7 : arg7.IsWhole)
  (arg8 : Memref sig .tc .vmem S5000x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x128 .f32) (harg11 : arg11.IsWhole)
  (arg12 : Memref sig .tc .vmem S1x128 .f32) (harg12 : arg12.IsWhole)

/-- The first tile stores the affine result of its blocks into the row-tile output. -/
theorem out1_A_7_eq (hc0 : cond1_0 i) (hc1 : ¬cond1_1 i) (x0 x1 x2 : Vec F S5000x128 .f32) (x3 x4 x5 : Vec F S128x128 .f32) (x6 : Vec F S1x128 .f32) :
    out1_A_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 = k1_pay5 x0 x1 x2 x3 x4 x5 x6 := by
  unfold out1_A_7
  rw [View.read_writes_eq_canon _ _ _ (cover1_A_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun1_A
  dsimp only
  try sl_unfold_words
  rw [View.canon_unit_zero offs00_1]
  simp only [View.readAt_eq_ld, harg1.read_unread, harg2.read_unread, harg3.read_unread, harg4.read_unread, harg5.read_unread, harg6.read_unread, harg7.read_unread, View.ld_unit_zero (S := S5000x128) offs00_1, View.ld_unit_zero (S := S128x128) offs00_1, View.ld_unit_zero (S := S1x128) offs00_1]

/-- The first tile leaves in the first accumulator the column sum of its affine result added onto the zero it was cleared to. -/
theorem sout1_A_0_eq (hc0 : cond1_0 i) (hc1 : ¬cond1_1 i) (x0 x1 x2 : Vec F S5000x128 .f32) (x3 x4 x5 : Vec F S128x128 .f32) (x6 : Vec F S1x128 .f32) :
    sout1_A_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 = k1_pay1 (k1_pay5 x0 x1 x2 x3 x4 x5 x6) (k1_pay3 (F := F)) := by
  unfold sout1_A_0
  rw [View.read_writes_eq_canon _ _ _ (scover1_A_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun1_A
  dsimp only
  try sl_unfold_words
  rw [View.canon_cons_unit_zero (S := S1x128) offs00_1]
  simp only [View.readAt_eq_ld, harg1.read_unread, harg2.read_unread, harg3.read_unread, harg4.read_unread, harg5.read_unread, harg6.read_unread, harg7.read_unread, View.ld_unit_zero (S := S5000x128) offs00_1, View.ld_unit_zero (S := S128x128) offs00_1, View.ld_unit_zero (S := S1x128) offs00_1, View.readCov_unit_zero (S := S1x128) _ offs00_1]

/-- And in the second the column sum of squares added onto zero. -/
theorem sout1_A_1_eq (hc0 : cond1_0 i) (hc1 : ¬cond1_1 i) (x0 x1 x2 : Vec F S5000x128 .f32) (x3 x4 x5 : Vec F S128x128 .f32) (x6 : Vec F S1x128 .f32) :
    sout1_A_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 = k1_pay2 (k1_pay5 x0 x1 x2 x3 x4 x5 x6) (k1_pay4 (F := F)) := by
  unfold sout1_A_1
  rw [View.read_writes_eq_canon _ _ _ (scover1_A_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun1_A
  dsimp only
  try sl_unfold_words
  rw [View.canon_cons_unit_zero (S := S1x128) offs00_1]
  simp only [View.readAt_eq_ld, harg1.read_unread, harg2.read_unread, harg3.read_unread, harg4.read_unread, harg5.read_unread, harg6.read_unread, harg7.read_unread, View.ld_unit_zero (S := S5000x128) offs00_1, View.ld_unit_zero (S := S128x128) offs00_1, View.ld_unit_zero (S := S1x128) offs00_1, View.readCov_unit_zero (S := S1x128) _ offs00_1]

/-- A middle tile stores the affine result of its blocks into the row-tile output. -/
theorem out1_B_7_eq (hc0 : ¬cond1_0 i) (hc1 : ¬cond1_1 i) (x0 x1 x2 : Vec F S5000x128 .f32) (x3 x4 x5 : Vec F S128x128 .f32) (x6 : Vec F S1x128 .f32) (xs0 xs1 : Vec F S1x128 .f32) :
    out1_B_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k1_pay5 x0 x1 x2 x3 x4 x5 x6 := by
  unfold out1_B_7
  rw [View.read_writes_eq_canon _ _ _ (cover1_B_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun1_B
  dsimp only
  try sl_unfold_words
  rw [View.canon_unit_zero offs00_1]
  simp only [View.readAt_eq_ld, harg1.read_unread, harg2.read_unread, harg3.read_unread, harg4.read_unread, harg5.read_unread, harg6.read_unread, harg7.read_unread, harg11.read_unread, harg12.read_unread, View.ld_unit_zero (S := S5000x128) offs00_1, View.ld_unit_zero (S := S128x128) offs00_1, View.ld_unit_zero (S := S1x128) offs00_1]

/-- A middle tile adds the column sum of its affine result onto what the first accumulator held. -/
theorem sout1_B_0_eq (hc0 : ¬cond1_0 i) (hc1 : ¬cond1_1 i) (x0 x1 x2 : Vec F S5000x128 .f32) (x3 x4 x5 : Vec F S128x128 .f32) (x6 : Vec F S1x128 .f32) (xs0 xs1 : Vec F S1x128 .f32) :
    sout1_B_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k1_pay1 (k1_pay5 x0 x1 x2 x3 x4 x5 x6) xs0 := by
  unfold sout1_B_0
  rw [View.read_writes_eq_canon _ _ _ (scover1_B_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun1_B
  dsimp only
  try sl_unfold_words
  rw [View.canon_unit_zero offs00_1]
  simp only [View.readAt_eq_ld, harg1.read_unread, harg2.read_unread, harg3.read_unread, harg4.read_unread, harg5.read_unread, harg6.read_unread, harg7.read_unread, harg11.read_unread, harg12.read_unread, View.ld_unit_zero (S := S5000x128) offs00_1, View.ld_unit_zero (S := S128x128) offs00_1, View.ld_unit_zero (S := S1x128) offs00_1]

/-- And the column sum of squares onto what the second held. -/
theorem sout1_B_1_eq (hc0 : ¬cond1_0 i) (hc1 : ¬cond1_1 i) (x0 x1 x2 : Vec F S5000x128 .f32) (x3 x4 x5 : Vec F S128x128 .f32) (x6 : Vec F S1x128 .f32) (xs0 xs1 : Vec F S1x128 .f32) :
    sout1_B_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k1_pay2 (k1_pay5 x0 x1 x2 x3 x4 x5 x6) xs1 := by
  unfold sout1_B_1
  rw [View.read_writes_eq_canon _ _ _ (scover1_B_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun1_B
  dsimp only
  try sl_unfold_words
  rw [View.canon_unit_zero offs00_1]
  simp only [View.readAt_eq_ld, harg1.read_unread, harg2.read_unread, harg3.read_unread, harg4.read_unread, harg5.read_unread, harg6.read_unread, harg7.read_unread, harg11.read_unread, harg12.read_unread, View.ld_unit_zero (S := S5000x128) offs00_1, View.ld_unit_zero (S := S128x128) offs00_1, View.ld_unit_zero (S := S1x128) offs00_1]

/-- The last tile stores the affine result of its blocks into the row-tile output. -/
theorem out1_C_7_eq (hc0 : ¬cond1_0 i) (hc1 : cond1_1 i) (x0 x1 x2 : Vec F S5000x128 .f32) (x3 x4 x5 : Vec F S128x128 .f32) (x6 : Vec F S1x128 .f32) (xs0 xs1 : Vec F S1x128 .f32) :
    out1_C_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k1_pay5 x0 x1 x2 x3 x4 x5 x6 := by
  unfold out1_C_7
  rw [View.read_writes_eq_canon _ _ _ (cover1_C_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun1_C
  dsimp only
  try sl_unfold_words
  rw [View.canon_unit_zero offs00_1]
  simp only [View.readAt_eq_ld, harg1.read_unread, harg2.read_unread, harg3.read_unread, harg4.read_unread, harg5.read_unread, harg6.read_unread, harg7.read_unread, harg11.read_unread, harg12.read_unread, View.ld_unit_zero (S := S5000x128) offs00_1, View.ld_unit_zero (S := S128x128) offs00_1, View.ld_unit_zero (S := S1x128) offs00_1]

/-- The last tile adds the column sum of its affine result onto what the first accumulator held. -/
theorem sout1_C_0_eq (hc0 : ¬cond1_0 i) (hc1 : cond1_1 i) (x0 x1 x2 : Vec F S5000x128 .f32) (x3 x4 x5 : Vec F S128x128 .f32) (x6 : Vec F S1x128 .f32) (xs0 xs1 : Vec F S1x128 .f32) :
    sout1_C_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k1_pay1 (k1_pay5 x0 x1 x2 x3 x4 x5 x6) xs0 := by
  unfold sout1_C_0
  rw [View.read_writes_eq_canon _ _ _ (scover1_C_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun1_C
  dsimp only
  try sl_unfold_words
  rw [View.canon_unit_zero offs00_1]
  simp only [View.readAt_eq_ld, harg1.read_unread, harg2.read_unread, harg3.read_unread, harg4.read_unread, harg5.read_unread, harg6.read_unread, harg7.read_unread, harg11.read_unread, harg12.read_unread, View.ld_unit_zero (S := S5000x128) offs00_1, View.ld_unit_zero (S := S128x128) offs00_1, View.ld_unit_zero (S := S1x128) offs00_1]

/-- And the column sum of squares onto what the second held. -/
theorem sout1_C_1_eq (hc0 : ¬cond1_0 i) (hc1 : cond1_1 i) (x0 x1 x2 : Vec F S5000x128 .f32) (x3 x4 x5 : Vec F S128x128 .f32) (x6 : Vec F S1x128 .f32) (xs0 xs1 : Vec F S1x128 .f32) :
    sout1_C_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k1_pay2 (k1_pay5 x0 x1 x2 x3 x4 x5 x6) xs1 := by
  unfold sout1_C_1
  rw [View.read_writes_eq_canon _ _ _ (scover1_C_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun1_C
  dsimp only
  try sl_unfold_words
  rw [View.canon_unit_zero offs00_1]
  simp only [View.readAt_eq_ld, harg1.read_unread, harg2.read_unread, harg3.read_unread, harg4.read_unread, harg5.read_unread, harg6.read_unread, harg7.read_unread, harg11.read_unread, harg12.read_unread, View.ld_unit_zero (S := S5000x128) offs00_1, View.ld_unit_zero (S := S128x128) offs00_1, View.ld_unit_zero (S := S1x128) offs00_1]

/-- The last tile copies the first accumulator, as just updated, into the column-sum output. -/
theorem out1_C_8_eq (hc0 : ¬cond1_0 i) (hc1 : cond1_1 i) (x0 x1 x2 : Vec F S5000x128 .f32) (x3 x4 x5 : Vec F S128x128 .f32) (x6 : Vec F S1x128 .f32) (xs0 xs1 : Vec F S1x128 .f32) :
    out1_C_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k1_pay1 (k1_pay5 x0 x1 x2 x3 x4 x5 x6) xs0 := by
  unfold out1_C_8
  rw [View.read_writes_eq_canon _ _ _ (cover1_C_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun1_C
  dsimp only
  try sl_unfold_words
  rw [View.canon_unit_zero offs00_1]
  simp only [View.readAt_eq_ld, harg1.read_unread, harg2.read_unread, harg3.read_unread, harg4.read_unread, harg5.read_unread, harg6.read_unread, harg7.read_unread, harg11.read_unread, harg12.read_unread, View.ld_unit_zero (S := S5000x128) offs00_1, View.ld_unit_zero (S := S128x128) offs00_1, View.ld_unit_zero (S := S1x128) offs00_1, View.readCov_unit_zero (S := S1x128) _ offs00_1]

/-- And the second into the sum-of-squares output. -/
theorem out1_C_9_eq (hc0 : ¬cond1_0 i) (hc1 : cond1_1 i) (x0 x1 x2 : Vec F S5000x128 .f32) (x3 x4 x5 : Vec F S128x128 .f32) (x6 : Vec F S1x128 .f32) (xs0 xs1 : Vec F S1x128 .f32) :
    out1_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k1_pay2 (k1_pay5 x0 x1 x2 x3 x4 x5 x6) xs1 := by
  unfold out1_C_9
  rw [View.read_writes_eq_canon _ _ _ (cover1_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun1_C
  dsimp only
  try sl_unfold_words
  rw [View.canon_unit_zero offs00_1]
  simp only [View.readAt_eq_ld, harg1.read_unread, harg2.read_unread, harg3.read_unread, harg4.read_unread, harg5.read_unread, harg6.read_unread, harg7.read_unread, harg11.read_unread, harg12.read_unread, View.ld_unit_zero (S := S5000x128) offs00_1, View.ld_unit_zero (S := S128x128) offs00_1, View.ld_unit_zero (S := S1x128) offs00_1, View.readCov_unit_zero (S := S1x128) _ offs00_1]

end Cases

/-! ## The tiles' blocks at their literal types, and the accumulation in closed form -/

variable (V : Entry F)

/-- The seven input blocks of tile `t`: three row tiles of the node features, the three weights, the bias. -/
abbrev blk1_0 (c : Dev nD) (t : Fin cfg1.N) : Vec F S5000x128 .f32 := iblk1 V c 0 t
abbrev blk1_1 (c : Dev nD) (t : Fin cfg1.N) : Vec F S5000x128 .f32 := iblk1 V c 1 t
abbrev blk1_2 (c : Dev nD) (t : Fin cfg1.N) : Vec F S5000x128 .f32 := iblk1 V c 2 t
abbrev blk1_3 (c : Dev nD) (t : Fin cfg1.N) : Vec F S128x128 .f32 := iblk1 V c 3 t
abbrev blk1_4 (c : Dev nD) (t : Fin cfg1.N) : Vec F S128x128 .f32 := iblk1 V c 4 t
abbrev blk1_5 (c : Dev nD) (t : Fin cfg1.N) : Vec F S128x128 .f32 := iblk1 V c 5 t
abbrev blk1_6 (c : Dev nD) (t : Fin cfg1.N) : Vec F S1x128 .f32 := iblk1 V c 6 t

/-- The affine result of tile `t`. -/
def tileOut1 (c : Dev nD) (t : Fin cfg1.N) : Vec F S5000x128 .f32 :=
  k1_pay5 (blk1_0 V c t) (blk1_1 V c t) (blk1_2 V c t) (blk1_3 V c t) (blk1_4 V c t) (blk1_5 V c t) (blk1_6 V c t)

/-- The column sums of the affine result over tiles `0 … n`, added in the tiles' order starting from zero. -/
def acc1_0 (c : Dev nD) : (n : ℕ) → n < cfg1.N → Vec F S1x128 .f32
  | 0, hn => k1_pay1 (tileOut1 V c ⟨0, hn⟩) (k1_pay3 (F := F))
  | n + 1, hn => k1_pay1 (tileOut1 V c ⟨n + 1, hn⟩) (acc1_0 c n (Nat.lt_of_succ_lt hn))

/-- The column sums of its squares over tiles `0 … n`, likewise. -/
def acc1_1 (c : Dev nD) : (n : ℕ) → n < cfg1.N → Vec F S1x128 .f32
  | 0, hn => k1_pay2 (tileOut1 V c ⟨0, hn⟩) (k1_pay4 (F := F))
  | n + 1, hn => k1_pay2 (tileOut1 V c ⟨n + 1, hn⟩) (acc1_1 c n (Nat.lt_of_succ_lt hn))

/-- The first tile's entries over the named arithmetic (each piece lemma applied at the tile's memrefs and blocks,
    every argument written out). -/
theorem pt1_A_eq (c : Dev nD) (t : Fin cfg1.N) (h0 : t.val % 10 = 0) (h1 : ¬t.val % 10 = 9) :
    pt1_A V c t h0 h1
      = (tileOut1 V c t, k1_pay1 (tileOut1 V c t) (k1_pay3 (F := F)), k1_pay2 (tileOut1 V c t) (k1_pay4 (F := F)),
          k1_pay1 (tileOut1 V c t) (k1_pay3 (F := F)), k1_pay2 (tileOut1 V c t) (k1_pay4 (F := F))) := by
  unfold pt1_A
  rw [out1_A_7_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t),
    sout1_A_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t),
    sout1_A_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)]
  rfl

/-- A middle tile's entries, over what the accumulators held. -/
theorem pt1_B_eq (c : Dev nD) (t : Fin cfg1.N) (h0 : ¬t.val % 10 = 0) (h1 : ¬t.val % 10 = 9) (xs0 xs1 : Vec F S1x128 .f32) :
    pt1_B V c t h0 h1 xs0 xs1
      = (tileOut1 V c t, k1_pay1 (tileOut1 V c t) xs0, k1_pay2 (tileOut1 V c t) xs1,
          k1_pay1 (tileOut1 V c t) xs0, k1_pay2 (tileOut1 V c t) xs1) := by
  unfold pt1_B
  rw [out1_B_7_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) xs0 xs1,
    sout1_B_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) xs0 xs1,
    sout1_B_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) xs0 xs1]
  rfl

/-- The last tile's entries: the small outputs receive what the accumulators were just updated to. -/
theorem pt1_C_eq (c : Dev nD) (t : Fin cfg1.N) (h0 : ¬t.val % 10 = 0) (h1 : t.val % 10 = 9) (xs0 xs1 : Vec F S1x128 .f32) :
    pt1_C V c t h0 h1 xs0 xs1
      = (tileOut1 V c t, k1_pay1 (tileOut1 V c t) xs0, k1_pay2 (tileOut1 V c t) xs1,
          k1_pay1 (tileOut1 V c t) xs0, k1_pay2 (tileOut1 V c t) xs1) := by
  unfold pt1_C
  rw [out1_C_7_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) xs0 xs1,
    out1_C_8_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) xs0 xs1,
    out1_C_9_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) xs0 xs1,
    sout1_C_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) xs0 xs1,
    sout1_C_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) xs0 xs1]
  rfl

/-- After tile `n`: the row-tile output holds the tile's affine result and the accumulators the sums over the tiles
    so far; after the last tile the two small outputs hold the accumulators' contents. By induction on the tile,
    each step one case of the accumulation read through that case's pieces. -/
theorem outsAt1_eq (c : Dev nD) : ∀ (n : ℕ) (hn : n < cfg1.N),
    (outsAt1 V c n hn).1 = tileOut1 V c ⟨n, hn⟩
      ∧ (outsAt1 V c n hn).2.2.2.1 = acc1_0 V c n hn ∧ (outsAt1 V c n hn).2.2.2.2 = acc1_1 V c n hn
      ∧ (n % 10 = 9 → (outsAt1 V c n hn).2.1 = acc1_0 V c n hn ∧ (outsAt1 V c n hn).2.2.1 = acc1_1 V c n hn)
  | 0, hn => by
    rw [show outsAt1 V c 0 hn = pt1_A V c ⟨0, hn⟩ (Nat.zero_mod _) (by show ¬(0 % 10 = 9); decide) from rfl, pt1_A_eq]
    exact ⟨rfl, rfl, rfl, fun h => absurd h (by decide)⟩
  | n + 1, hn => by
    obtain ⟨-, ih0, ih1, -⟩ := outsAt1_eq c n (Nat.lt_of_succ_lt hn)
    by_cases h1 : (n + 1) % 10 = 9
    · rw [outsAt1_succ_last V c n hn h1, pt1_C_eq, ih0, ih1]
      exact ⟨rfl, rfl, rfl, fun _ => ⟨rfl, rfl⟩⟩
    · rw [outsAt1_succ_mid V c n hn h1, pt1_B_eq, ih0, ih1]
      exact ⟨rfl, rfl, rfl, fun h => absurd h h1⟩

end Cert.KernelIdeal.Hand

end
-- ==== Proof.KI.Reg1.Final.lean ====
/- Region 1, the arrays it leaves. The two small outputs are written back once, after the last tile, with the
   accumulators' final contents: the column sums of the affine result and of its squares over all ten row tiles, added
   in the tiles' order. The row-tile output is written back after every tile with that tile's affine result, so its
   entry (r, j) is entry (r mod 5000, j) of the affine result of tile r div 5000. -/
import proofs.«160050_j32744830665390_2_alg».proof.Proof.KI.Iface
import proofs.«160050_j32744830665390_2_alg».proof.Proof.KI.Reg1.Value
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : Entry F)

/-! ## The closed forms -/

/-- Ten tiles: the last is tile 9. -/
theorem nine_lt1 : 9 < cfg1.N := by rw [show cfg1.N = 10 from N_1]; decide

/-- The column-sum output after the region: the column sums over all ten tiles. -/
def G1_8 (c : Dev nD) : Buf (Elt F) ((cfg1.win 8).arr.view.loc (c.tc : Thread nD τ)) := acc1_0 V c 9 nine_lt1

/-- The sum-of-squares output after the region. -/
def G1_9 (c : Dev nD) : Buf (Elt F) ((cfg1.win 9).arr.view.loc (c.tc : Thread nD τ)) := acc1_1 V c 9 nine_lt1

/-- Entry (r, j) of the row-tile output after the region: tile r div 5000 of the affine result at (r mod 5000, j). -/
def tileEntry1 (c : Dev nD) (r j : ℕ) (hr : r < 50000) (hj : j < 128) : Elt F .f32 :=
  tileOut1 V c ⟨r / 5000, by rw [show cfg1.N = 10 from N_1]; omega⟩ (ix2 ⟨r % 5000, Nat.mod_lt _ (by decide)⟩ ⟨j, hj⟩)

/-- The row-tile output after the region. -/
def G1_7 (c : Dev nD) : Buf (Elt F) ((cfg1.win 7).arr.view.loc (c.tc : Thread nD τ)) :=
  fun i => tileEntry1 V c (i 0).val (i 1).val (idx2_lt0 i) (idx2_lt1 i)

/-- At row 5000 t + y₀ and column y₁ that entry is entry (y₀, y₁) of tile t's affine result. -/
theorem tileEntry1_eq (c : Dev nD) (t : Fin cfg1.N) (y : S5000x128.Idx) (r j : ℕ) (hr : r < 50000) (hj : j < 128)
    (h0 : r = 5000 * t.val + (y 0).val) (h1 : j = (y 1).val) : tileEntry1 V c r j hr hj = tileOut1 V c t y := by
  subst h0 h1
  have hy : (y 0).val < 5000 := idx2_lt0 y
  have hN : cfg1.N = 10 := N_1
  have htl : t.val < cfg1.N := t.isLt
  have ht : (⟨(5000 * t.val + (y 0).val) / 5000, by omega⟩ : Fin cfg1.N) = t :=
    Fin.ext (by show (5000 * t.val + (y 0).val) / 5000 = t.val; omega)
  have hx : (ix2 (⟨(5000 * t.val + (y 0).val) % 5000, Nat.mod_lt _ (by decide)⟩ : Fin 5000) (⟨(y 1).val, hj⟩ : Fin 128) : S5000x128.Idx) = y := by
    funext a
    match a with
    | ⟨0, _⟩ => exact Fin.ext (by show (5000 * t.val + (y 0).val) % 5000 = (y 0).val; omega)
    | ⟨1, _⟩ => rfl
  unfold tileEntry1
  rw [ht, hx]

/-! ## The write-backs -/

/-- Where the three outputs' blocks sit: the row-tile output's block at tile `t` starts at row 5000 t; the small
    outputs' one block is the whole array. -/
theorem index1_7 (t : Fin cfg1.N) : win1_7.index t 0 = t.val ∧ win1_7.index t 1 = 0 := by
  rcases fin_N1 t with rfl | rfl | rfl | rfl | rfl | rfl | rfl | rfl | rfl | rfl <;> decide

/-- The one write-back of the column-sum output, after the last tile, writes the column sums over all tiles. -/
theorem flushed1_8 (c : Dev nD) (t : Fin cfg1.N) (hf : (cfg1.win 8).flush t = true) :
    (dat1 V c).flushed 8 t = ((cfg1.win 8).blk t).view.read (Elt F) (G1_8 V c) := by
  have hN : cfg1.N = 10 := N_1
  have h9 : t.val = 9 := by have := (flush1_8 t).mp hf; have := t.isLt; omega
  obtain rfl : t = t1_9 := Fin.ext h9
  show (cfg1.win 8).cut (grid1.coords t1_9) ((dat1 V c).after 8 t1_9) = _
  rw [after1_8, ((outsAt1_eq V c t1_9.val t1_9.isLt).2.2.2 (by decide)).1]
  have hz' : (fun a => win1_8.index t1_9 a * (Pipeline.arrRef spec1 8).ty.shape.size a) = fun _ => 0 :=
    funext fun a => by fin_cases a <;> decide
  exact (Memref.read_access_unit_zero (Elt F) (Pipeline.arrRef spec1 8) hz' (fun a => by rw [congrFun hz' a]; simp) (G1_8 V c)).symm

/-- And of the sum-of-squares output. -/
theorem flushed1_9 (c : Dev nD) (t : Fin cfg1.N) (hf : (cfg1.win 9).flush t = true) :
    (dat1 V c).flushed 9 t = ((cfg1.win 9).blk t).view.read (Elt F) (G1_9 V c) := by
  have hN : cfg1.N = 10 := N_1
  have h9 : t.val = 9 := by have := (flush1_9 t).mp hf; have := t.isLt; omega
  obtain rfl : t = t1_9 := Fin.ext h9
  show (cfg1.win 9).cut (grid1.coords t1_9) ((dat1 V c).after 9 t1_9) = _
  rw [after1_9, ((outsAt1_eq V c t1_9.val t1_9.isLt).2.2.2 (by decide)).2]
  have hz' : (fun a => win1_9.index t1_9 a * (Pipeline.arrRef spec1 9).ty.shape.size a) = fun _ => 0 :=
    funext fun a => by fin_cases a <;> decide
  exact (Memref.read_access_unit_zero (Elt F) (Pipeline.arrRef spec1 9) hz' (fun a => by rw [congrFun hz' a]; simp) (G1_9 V c)).symm

/-- Every tile's write-back of the row-tile output writes that tile's block of the closed form. -/
theorem flushed1_7 (c : Dev nD) (t : Fin cfg1.N) (hf : (cfg1.win 7).flush t = true) :
    (dat1 V c).flushed 7 t = ((cfg1.win 7).blk t).view.read (Elt F) (G1_7 V c) := by
  show (cfg1.win 7).cut (grid1.coords t) ((dat1 V c).after 7 t) = _
  rw [after1_7, (outsAt1_eq V c t.val t.isLt).1]
  funext y
  rw [View.read_apply]
  obtain ⟨hi0, hi1⟩ := index1_7 t
  -- where the block's entry `y` sits in the array: row 5000 t + y₀, column y₁
  have he0 : ((((cfg1.win 7).blk t).view.emb y) 0).val = 5000 * t.val + (y 0).val := by
    show win1_7.index t 0 * 5000 + 1 * (y 0).val = _
    rw [hi0]; omega
  have he1 : ((((cfg1.win 7).blk t).view.emb y) 1).val = (y 1).val := by
    show win1_7.index t 1 * 128 + 1 * (y 1).val = _
    rw [hi1]; omega
  show tileOut1 V c t y = G1_7 V c (((cfg1.win 7).blk t).view.emb y)
  exact (tileEntry1_eq V c t y _ _ (idx2_lt0 _) (idx2_lt1 _) he0 he1).symm

/-! ## The arrays after the region -/

/-- The column-sum output ends holding the column sums over all ten tiles: its one block, written back after the
    last tile, covers it. -/
theorem final1_8 (c : Dev nD) : (dat1 V c).arrAt 8 cfg1.N = G1_8 V c :=
  (dat1 V c).arrAt_eq_of_cover 8 (G1_8 V c) (flushed1_8 V c) fun i =>
    ⟨t1_9, (flush1_8 t1_9).mpr (by decide), by
      show i ∈ ((View.whole (Pipeline.arrRef spec1 8)).slice (win1_8.rect t1_9)).set
      rw [View.set_slice_whole, Rect.mem_set_unit]
      intro a
      have h0 : (i 0 : ℕ) < 1 := (i 0).isLt
      have h1 : (i 1 : ℕ) < 128 := (i 1).isLt
      match a with
      | ⟨0, _⟩ =>
        show win1_8.index t1_9 0 * win1_8.size 0 ≤ (i 0 : ℕ) ∧ (i 0 : ℕ) < win1_8.index t1_9 0 * win1_8.size 0 + win1_8.xsize (grid1.coords t1_9) 0
        rw [show win1_8.index t1_9 0 * win1_8.size 0 = 0 from by decide +kernel, show win1_8.xsize (grid1.coords t1_9) 0 = 1 from by decide +kernel]; omega
      | ⟨1, _⟩ =>
        show win1_8.index t1_9 1 * win1_8.size 1 ≤ (i 1 : ℕ) ∧ (i 1 : ℕ) < win1_8.index t1_9 1 * win1_8.size 1 + win1_8.xsize (grid1.coords t1_9) 1
        rw [show win1_8.index t1_9 1 * win1_8.size 1 = 0 from by decide +kernel, show win1_8.xsize (grid1.coords t1_9) 1 = 128 from by decide +kernel]; omega⟩

/-- And the sum-of-squares output the column sums of squares. -/
theorem final1_9 (c : Dev nD) : (dat1 V c).arrAt 9 cfg1.N = G1_9 V c :=
  (dat1 V c).arrAt_eq_of_cover 9 (G1_9 V c) (flushed1_9 V c) fun i =>
    ⟨t1_9, (flush1_9 t1_9).mpr (by decide), by
      show i ∈ ((View.whole (Pipeline.arrRef spec1 9)).slice (win1_9.rect t1_9)).set
      rw [View.set_slice_whole, Rect.mem_set_unit]
      intro a
      have h0 : (i 0 : ℕ) < 1 := (i 0).isLt
      have h1 : (i 1 : ℕ) < 128 := (i 1).isLt
      match a with
      | ⟨0, _⟩ =>
        show win1_9.index t1_9 0 * win1_9.size 0 ≤ (i 0 : ℕ) ∧ (i 0 : ℕ) < win1_9.index t1_9 0 * win1_9.size 0 + win1_9.xsize (grid1.coords t1_9) 0
        rw [show win1_9.index t1_9 0 * win1_9.size 0 = 0 from by decide +kernel, show win1_9.xsize (grid1.coords t1_9) 0 = 1 from by decide +kernel]; omega
      | ⟨1, _⟩ =>
        show win1_9.index t1_9 1 * win1_9.size 1 ≤ (i 1 : ℕ) ∧ (i 1 : ℕ) < win1_9.index t1_9 1 * win1_9.size 1 + win1_9.xsize (grid1.coords t1_9) 1
        rw [show win1_9.index t1_9 1 * win1_9.size 1 = 0 from by decide +kernel, show win1_9.xsize (grid1.coords t1_9) 1 = 128 from by decide +kernel]; omega⟩

/-- The row-tile output ends holding, tile by tile, the affine result: row r lies in the block written back after
    tile r div 5000. -/
theorem final1_7 (c : Dev nD) : (dat1 V c).arrAt 7 cfg1.N = G1_7 V c :=
  (dat1 V c).arrAt_eq_of_cover 7 (G1_7 V c) (flushed1_7 V c) fun i => by
    have h0 : (i 0 : ℕ) < 50000 := (i 0).isLt
    have h1 : (i 1 : ℕ) < 128 := (i 1).isLt
    let t : Fin cfg1.N := ⟨(i 0 : ℕ) / 5000, by rw [show cfg1.N = 10 from N_1]; omega⟩
    obtain ⟨hi0, hi1⟩ := index1_7 t
    refine ⟨t, flush1_7 t, ?_⟩
    show i ∈ ((View.whole (Pipeline.arrRef spec1 7)).slice (win1_7.rect t)).set
    rw [View.set_slice_whole, Rect.mem_set_unit]
    intro a
    match a with
    | ⟨0, _⟩ =>
      show win1_7.index t 0 * win1_7.size 0 ≤ (i 0 : ℕ) ∧ (i 0 : ℕ) < win1_7.index t 0 * win1_7.size 0 + win1_7.xsize (grid1.coords t) 0
      rw [hi0, show win1_7.size 0 = 5000 from rfl, show win1_7.xsize (grid1.coords t) 0 = 5000 from rfl]
      show (i 0 : ℕ) / 5000 * 5000 ≤ (i 0 : ℕ) ∧ (i 0 : ℕ) < (i 0 : ℕ) / 5000 * 5000 + 5000
      omega
    | ⟨1, _⟩ =>
      show win1_7.index t 1 * win1_7.size 1 ≤ (i 1 : ℕ) ∧ (i 1 : ℕ) < win1_7.index t 1 * win1_7.size 1 + win1_7.xsize (grid1.coords t) 1
      rw [hi1, show win1_7.size 1 = 128 from rfl, show win1_7.xsize (grid1.coords t) 1 = 128 from rfl]
      omega

end Cert.KernelIdeal.Hand

end
-- ==== Proof.KI.Val1.lean ====
/- Region 1's three output arrays over the reals. If the seven arrays the region reads hold real tables — the node
   features `h`, `t1`, `t2`, three weight matrices and a bias row — then after the region the row-tile output holds
   `h·W₀ + t1·W₁ + (2·t2 − h)·W₂ + b`, and the two small outputs hold that table's column sums and the column sums of
   its squares over all 50000 rows: the ten tiles' sums, added in the tiles' order, regrouped. -/
import proofs.«160050_j32744830665390_2_alg».proof.Proof.Spec
import proofs.«160050_j32744830665390_2_alg».proof.Proof.Bridge.Inputs
import proofs.«160050_j32744830665390_2_alg».proof.Proof.Math.Lift
import proofs.«160050_j32744830665390_2_alg».proof.Proof.Math.Dirichlet
import proofs.«160050_j32744830665390_2_alg».proof.Proof.Math.Consts
import proofs.«160050_j32744830665390_2_alg».proof.Proof.KI.Reg1.Final
import Idealize.ShloMosaic.Lib.ValueLayout
import Idealize.ShloMosaic.PureOps.Ideal.Laws

set_option maxRecDepth 16384

noncomputable section

namespace Cert.KernelIdeal.Hand.Val

open Cert.KernelIdeal.Gen Cert.KernelIdeal.Hand
open Cert.Hand Cert.Hand.Bridge Cert.Hand.Math
open Idealize.ShloMosaic Idealize.ShloMosaic.TcCoe Idealize.ShloMosaic.ValueIdx
open Idealize.ShloMosaic.Pipeline (Dat)
open scoped BigOperators

/-! ## The body's arithmetic at an index -/

/-- A [5000,128] by [128,128] product accumulated into zero, at `(p, q)`: the sum over the 128 inner coordinates. -/
theorem dot1_at (lhs : FVec Ideal S5000x128 .bf16) (rhs : FVec Ideal S128x128 .bf16) (p : Fin 5000) (q : Fin 128) :
    matmul dot_S5000x128_S128x128_S5000x128_1_0_0_1_n_n none lhs rhs (constant S5000x128 .f32 0x00000000#32) (ix2 p q)
      = ∑ j : Fin 128, lhs (ix2 p j) * rhs (ix2 j q) := by
  simp only [matmul]
  refine (Ideal.matmul_constant_zero_apply _ none lhs rhs (ix2 p q)).trans ?_
  refine (Equiv.sum_comp (contrEquiv1 dot_S5000x128_S128x128_S5000x128_1_0_0_1_n_n 128 rfl rfl).symm _).symm.trans ?_
  refine Finset.sum_congr rfl fun j _ => ?_
  have hl : dot_S5000x128_S128x128_S5000x128_1_0_0_1_n_n.lhsIdx (ix2 p q)
      ((contrEquiv1 dot_S5000x128_S128x128_S5000x128_1_0_0_1_n_n 128 rfl rfl).symm j) = ix2 p j := by
    funext a
    match a with
    | ⟨0, _⟩ => rfl
    | ⟨1, _⟩ => exact Fin.ext (contrEquiv1_symm_val dot_S5000x128_S128x128_S5000x128_1_0_0_1_n_n 128 rfl rfl j)
  have hr : dot_S5000x128_S128x128_S5000x128_1_0_0_1_n_n.rhsIdx (ix2 p q)
      ((contrEquiv1 dot_S5000x128_S128x128_S5000x128_1_0_0_1_n_n 128 rfl rfl).symm j) = ix2 j q := by
    funext a
    match a with
    | ⟨0, _⟩ => exact Fin.ext (contrEquiv1_symm_val dot_S5000x128_S128x128_S5000x128_1_0_0_1_n_n 128 rfl rfl j)
    | ⟨1, _⟩ => rfl
  show lhs _ * rhs _ = _
  rw [hl, hr]

/-- The column reduction of a [5000,128] tile at column `q`: the sum over its 5000 rows. -/
theorem colsum1_at (v : FVec Ideal S5000x128 .f32) (q : Fin 128) :
    multiReduction .add [0] S128 v 0x00000000#32 reduces_S5000x128_S128 (.inl rfl) rfl (ix1 q)
      = ∑ r : Fin 5000, v (ix2 r q) :=
  (Ideal.multiReduction_add_single v 0x00000000#32 reduces_S5000x128_S128 (.inl rfl) rfl (ix1 q)).trans
    (Finset.sum_congr rfl fun r _ => congrArg v (funext fun a => match a with | ⟨0, _⟩ => rfl | ⟨1, _⟩ => rfl))

/-- The affine result at `(p, q)` when its operands hold real tables: the three products' sums and the bias. -/
def rowPre1 (X0 X1 X2 : Fin 5000 → Fin 128 → ℝ) (W0 W1 W2 : Fin 128 → Fin 128 → ℝ) (b : Fin 128 → ℝ) (p : Fin 5000) (q : Fin 128) : ℝ :=
  (∑ j : Fin 128, X0 p j * W0 j q) + (∑ j : Fin 128, X1 p j * W1 j q) + (∑ j : Fin 128, (2 * X2 p j - X0 p j) * W2 j q) + b q

theorem pay5_at1 (x0 x1 x2 : Vec Ideal S5000x128 .f32) (w0 w1 w2 : Vec Ideal S128x128 .f32) (bb : Vec Ideal S1x128 .f32)
    (X0 X1 X2 : Fin 5000 → Fin 128 → ℝ) (W0 W1 W2 : Fin 128 → Fin 128 → ℝ) (b : Fin 128 → ℝ)
    (hx0 : Holds2 (n0 := 5000) (n1 := 128) x0 X0) (hx1 : Holds2 (n0 := 5000) (n1 := 128) x1 X1) (hx2 : Holds2 (n0 := 5000) (n1 := 128) x2 X2)
    (hw0 : Holds2 (n0 := 128) (n1 := 128) w0 W0) (hw1 : Holds2 (n0 := 128) (n1 := 128) w1 W1) (hw2 : Holds2 (n0 := 128) (n1 := 128) w2 W2)
    (hb : Holds2 (n0 := 1) (n1 := 128) bb (fun _ k => b k)) (p : Fin 5000) (q : Fin 128) :
    k1_pay5 (F := Ideal) x0 x1 x2 w0 w1 w2 bb (ix2 p q) = ((rowPre1 X0 X1 X2 W0 W1 W2 b p q : ℝ) : EReal) := by
  unfold k1_pay5
  -- the three products, each into zero, added left to right, then the bias row broadcast over the tile
  simp only [shapeCast_self, addf_apply]
  rw [dot1_at, dot1_at, dot1_at, broadcastTo_1b_ab_apply bb broadcasts_S1x128_S5000x128 p q]
  have e0 : ∀ j : Fin 128, x0 (ix2 p j) = ((X0 p j : ℝ) : EReal) := fun j => hx0 (ix2 p j)
  have e1 : ∀ j : Fin 128, x1 (ix2 p j) = ((X1 p j : ℝ) : EReal) := fun j => hx1 (ix2 p j)
  have e2 : ∀ j : Fin 128, x2 (ix2 p j) = ((X2 p j : ℝ) : EReal) := fun j => hx2 (ix2 p j)
  have f0 : ∀ j : Fin 128, w0 (ix2 j q) = ((W0 j q : ℝ) : EReal) := fun j => hw0 (ix2 j q)
  have f1 : ∀ j : Fin 128, w1 (ix2 j q) = ((W1 j q : ℝ) : EReal) := fun j => hw1 (ix2 j q)
  have f2 : ∀ j : Fin 128, w2 (ix2 j q) = ((W2 j q : ℝ) : EReal) := fun j => hw2 (ix2 j q)
  -- each product's sum over coerced reals is the coerced real sum; the bias entry is a coerced real
  have sA : (∑ j : Fin 128, ((x0 (ix2 p j) : EReal) * (w0 (ix2 j q) : EReal))) = ((∑ j : Fin 128, X0 p j * W0 j q : ℝ) : EReal) :=
    sum_eq_coe_of_forall _ _ _ fun j _ => by rw [e0, f0, coe_mul_coe]
  have sB : (∑ j : Fin 128, ((x1 (ix2 p j) : EReal) * (w1 (ix2 j q) : EReal))) = ((∑ j : Fin 128, X1 p j * W1 j q : ℝ) : EReal) :=
    sum_eq_coe_of_forall _ _ _ fun j _ => by rw [e1, f1, coe_mul_coe]
  have sC : (∑ j : Fin 128, ((Ideal.ofBits .f32 0x40000000#32 * (x2 (ix2 p j) : EReal) - (x0 (ix2 p j) : EReal)) * (w2 (ix2 j q) : EReal)))
      = ((∑ j : Fin 128, (2 * X2 p j - X0 p j) * W2 j q : ℝ) : EReal) :=
    sum_eq_coe_of_forall _ _ _ fun j _ => by rw [ofBits_f32_two, e2, e0, f2, coe_mul_coe, coe_sub_coe, coe_mul_coe]
  refine (congrArg₂ (· + ·) (congrArg₂ (· + ·) (congrArg₂ (· + ·) sA sB) sC) (hb (ix2 (0 : Fin 1) q))).trans ?_
  rw [coe_add_coe, coe_add_coe, coe_add_coe]
  rfl

/-- The first accumulator's update at column `q`: what it held, plus the tile's column sum. -/
theorem pay1_at1 (v : FVec Ideal S5000x128 .f32) (s : Vec Ideal S1x128 .f32) (q : Fin 128) :
    k1_pay1 (F := Ideal) v s (ix2 (0 : Fin 1) q) = s (ix2 (0 : Fin 1) q) + ∑ r : Fin 5000, v (ix2 r q) := by
  unfold k1_pay1
  simp only [shapeCast_self]
  show s (ix2 (0 : Fin 1) q) + shapeCast S1x128 _ shapeCasts_S128_S1x128 (ix2 (0 : Fin 1) q) = _
  refine congrArg (s (ix2 (0 : Fin 1) q) + ·) ?_
  exact (shapeCast_a_1a_apply _ shapeCasts_S128_S1x128 (0 : Fin 1) q).trans (colsum1_at v q)

/-- The second accumulator's update at column `q`: what it held, plus the tile's column sum of squares. -/
theorem pay2_at1 (v : FVec Ideal S5000x128 .f32) (s : Vec Ideal S1x128 .f32) (q : Fin 128) :
    k1_pay2 (F := Ideal) v s (ix2 (0 : Fin 1) q) = s (ix2 (0 : Fin 1) q) + ∑ r : Fin 5000, v (ix2 r q) * v (ix2 r q) := by
  unfold k1_pay2
  simp only [shapeCast_self]
  show s (ix2 (0 : Fin 1) q) + shapeCast S1x128 _ shapeCasts_S128_S1x128 (ix2 (0 : Fin 1) q) = _
  refine congrArg (s (ix2 (0 : Fin 1) q) + ·) ?_
  exact (shapeCast_a_1a_apply _ shapeCasts_S128_S1x128 (0 : Fin 1) q).trans (colsum1_at (mulf v v) q)

/-- Both accumulators are cleared to zero. -/
theorem pay3_at1 (q : Fin 128) : k1_pay3 (F := Ideal) (ix2 (0 : Fin 1) q) = 0 := by
  unfold k1_pay3
  simp only [shapeCast_self]
  exact Ideal.ofBits_zero_f32
theorem pay4_at1 (q : Fin 128) : k1_pay4 (F := Ideal) (ix2 (0 : Fin 1) q) = 0 := by
  unfold k1_pay4
  simp only [shapeCast_self]
  exact Ideal.ofBits_zero_f32

/-! ## The arrays and the blocks at literal shapes -/

variable (V : Entry Ideal)

/-- The seven arrays region 1 reads, as the region finds them, and the three it leaves. -/
abbrev ar1_0 (c : Dev nD) : (⟨2, ![50000, 128]⟩ : Shape).Idx → EReal := V c (Pipeline.arrRef spec1 0)
abbrev ar1_1 (c : Dev nD) : (⟨2, ![50000, 128]⟩ : Shape).Idx → EReal := V c (Pipeline.arrRef spec1 1)
abbrev ar1_2 (c : Dev nD) : (⟨2, ![50000, 128]⟩ : Shape).Idx → EReal := V c (Pipeline.arrRef spec1 2)
abbrev ar1_3 (c : Dev nD) : (⟨2, ![128, 128]⟩ : Shape).Idx → EReal := V c (Pipeline.arrRef spec1 3)
abbrev ar1_4 (c : Dev nD) : (⟨2, ![128, 128]⟩ : Shape).Idx → EReal := V c (Pipeline.arrRef spec1 4)
abbrev ar1_5 (c : Dev nD) : (⟨2, ![128, 128]⟩ : Shape).Idx → EReal := V c (Pipeline.arrRef spec1 5)
abbrev ar1_6 (c : Dev nD) : (⟨2, ![1, 128]⟩ : Shape).Idx → EReal := V c (Pipeline.arrRef spec1 6)
abbrev res1_7 (c : Dev nD) : (⟨2, ![50000, 128]⟩ : Shape).Idx → EReal := (dat1 V c).arrAt 7 cfg1.N
abbrev res1_8 (c : Dev nD) : (⟨2, ![1, 128]⟩ : Shape).Idx → EReal := (dat1 V c).arrAt 8 cfg1.N
abbrev res1_9 (c : Dev nD) : (⟨2, ![1, 128]⟩ : Shape).Idx → EReal := (dat1 V c).arrAt 9 cfg1.N

/-- Row `p` of tile `t` is a row of the 50000. -/
theorem row_lt1 (t : Fin cfg1.N) (p : Fin 5000) : 5000 * t.val + p.val < 50000 := by
  have : t.val < 10 := lt_of_lt_of_eq t.isLt (show cfg1.N = 10 from N_1)
  have := p.isLt
  omega

theorem blk1_0_at (c : Dev nD) (t : Fin cfg1.N) (p : Fin 5000) (q : Fin 128) :
    blk1_0 V c t (ix2 p q) = ar1_0 V c (ix2 ⟨5000 * t.val + p.val, row_lt1 t p⟩ q) := by
  have hi : win1_0.index t 0 = t.val ∧ win1_0.index t 1 = 0 := by
    rcases fin_N1 t with rfl | rfl | rfl | rfl | rfl | rfl | rfl | rfl | rfl | rfl <;> decide
  show iblk1 V c 0 t (ix2 p q) = _
  unfold iblk1
  rw [View.read_apply]
  show V c (Pipeline.arrRef spec1 0) _ = V c (Pipeline.arrRef spec1 0) _
  congr 1
  funext a
  apply Fin.ext
  match a with
  | ⟨0, _⟩ => show win1_0.index t 0 * 5000 + 1 * p.val = 5000 * t.val + p.val; rw [hi.1]; omega
  | ⟨1, _⟩ => show win1_0.index t 1 * 128 + 1 * q.val = q.val; rw [hi.2]; omega

theorem blk1_1_at (c : Dev nD) (t : Fin cfg1.N) (p : Fin 5000) (q : Fin 128) :
    blk1_1 V c t (ix2 p q) = ar1_1 V c (ix2 ⟨5000 * t.val + p.val, row_lt1 t p⟩ q) := by
  have hi : win1_1.index t 0 = t.val ∧ win1_1.index t 1 = 0 := by
    rcases fin_N1 t with rfl | rfl | rfl | rfl | rfl | rfl | rfl | rfl | rfl | rfl <;> decide
  show iblk1 V c 1 t (ix2 p q) = _
  unfold iblk1
  rw [View.read_apply]
  show V c (Pipeline.arrRef spec1 1) _ = V c (Pipeline.arrRef spec1 1) _
  congr 1
  funext a
  apply Fin.ext
  match a with
  | ⟨0, _⟩ => show win1_1.index t 0 * 5000 + 1 * p.val = 5000 * t.val + p.val; rw [hi.1]; omega
  | ⟨1, _⟩ => show win1_1.index t 1 * 128 + 1 * q.val = q.val; rw [hi.2]; omega

theorem blk1_2_at (c : Dev nD) (t : Fin cfg1.N) (p : Fin 5000) (q : Fin 128) :
    blk1_2 V c t (ix2 p q) = ar1_2 V c (ix2 ⟨5000 * t.val + p.val, row_lt1 t p⟩ q) := by
  have hi : win1_2.index t 0 = t.val ∧ win1_2.index t 1 = 0 := by
    rcases fin_N1 t with rfl | rfl | rfl | rfl | rfl | rfl | rfl | rfl | rfl | rfl <;> decide
  show iblk1 V c 2 t (ix2 p q) = _
  unfold iblk1
  rw [View.read_apply]
  show V c (Pipeline.arrRef spec1 2) _ = V c (Pipeline.arrRef spec1 2) _
  congr 1
  funext a
  apply Fin.ext
  match a with
  | ⟨0, _⟩ => show win1_2.index t 0 * 5000 + 1 * p.val = 5000 * t.val + p.val; rw [hi.1]; omega
  | ⟨1, _⟩ => show win1_2.index t 1 * 128 + 1 * q.val = q.val; rw [hi.2]; omega

theorem blk1_3_at (c : Dev nD) (t : Fin cfg1.N) (p : Fin 128) (q : Fin 128) :
    blk1_3 V c t (ix2 p q) = ar1_3 V c (ix2 p q) := by
  have hi : win1_3.index t 0 = 0 ∧ win1_3.index t 1 = 0 := by
    rcases fin_N1 t with rfl | rfl | rfl | rfl | rfl | rfl | rfl | rfl | rfl | rfl <;> decide
  show iblk1 V c 3 t (ix2 p q) = _
  unfold iblk1
  rw [View.read_apply]
  show V c (Pipeline.arrRef spec1 3) _ = V c (Pipeline.arrRef spec1 3) _
  congr 1
  funext a
  apply Fin.ext
  match a with
  | ⟨0, _⟩ => show win1_3.index t 0 * 128 + 1 * p.val = p.val; rw [hi.1]; omega
  | ⟨1, _⟩ => show win1_3.index t 1 * 128 + 1 * q.val = q.val; rw [hi.2]; omega

theorem blk1_4_at (c : Dev nD) (t : Fin cfg1.N) (p : Fin 128) (q : Fin 128) :
    blk1_4 V c t (ix2 p q) = ar1_4 V c (ix2 p q) := by
  have hi : win1_4.index t 0 = 0 ∧ win1_4.index t 1 = 0 := by
    rcases fin_N1 t with rfl | rfl | rfl | rfl | rfl | rfl | rfl | rfl | rfl | rfl <;> decide
  show iblk1 V c 4 t (ix2 p q) = _
  unfold iblk1
  rw [View.read_apply]
  show V c (Pipeline.arrRef spec1 4) _ = V c (Pipeline.arrRef spec1 4) _
  congr 1
  funext a
  apply Fin.ext
  match a with
  | ⟨0, _⟩ => show win1_4.index t 0 * 128 + 1 * p.val = p.val; rw [hi.1]; omega
  | ⟨1, _⟩ => show win1_4.index t 1 * 128 + 1 * q.val = q.val; rw [hi.2]; omega

theorem blk1_5_at (c : Dev nD) (t : Fin cfg1.N) (p : Fin 128) (q : Fin 128) :
    blk1_5 V c t (ix2 p q) = ar1_5 V c (ix2 p q) := by
  have hi : win1_5.index t 0 = 0 ∧ win1_5.index t 1 = 0 := by
    rcases fin_N1 t with rfl | rfl | rfl | rfl | rfl | rfl | rfl | rfl | rfl | rfl <;> decide
  show iblk1 V c 5 t (ix2 p q) = _
  unfold iblk1
  rw [View.read_apply]
  show V c (Pipeline.arrRef spec1 5) _ = V c (Pipeline.arrRef spec1 5) _
  congr 1
  funext a
  apply Fin.ext
  match a with
  | ⟨0, _⟩ => show win1_5.index t 0 * 128 + 1 * p.val = p.val; rw [hi.1]; omega
  | ⟨1, _⟩ => show win1_5.index t 1 * 128 + 1 * q.val = q.val; rw [hi.2]; omega

theorem blk1_6_at (c : Dev nD) (t : Fin cfg1.N) (p : Fin 1) (q : Fin 128) :
    blk1_6 V c t (ix2 p q) = ar1_6 V c (ix2 p q) := by
  have hi : win1_6.index t 0 = 0 ∧ win1_6.index t 1 = 0 := by
    rcases fin_N1 t with rfl | rfl | rfl | rfl | rfl | rfl | rfl | rfl | rfl | rfl <;> decide
  show iblk1 V c 6 t (ix2 p q) = _
  unfold iblk1
  rw [View.read_apply]
  show V c (Pipeline.arrRef spec1 6) _ = V c (Pipeline.arrRef spec1 6) _
  congr 1
  funext a
  apply Fin.ext
  match a with
  | ⟨0, _⟩ => show win1_6.index t 0 * 1 + 1 * p.val = p.val; rw [hi.1]; omega
  | ⟨1, _⟩ => show win1_6.index t 1 * 128 + 1 * q.val = q.val; rw [hi.2]; omega

/-! ## A tile's affine result over the reals -/

/-- The layer before batch norm, over given tables. -/
def pre1 (h t1 t2 : Spec.Hidden) (W0 W1 W2 : Fin 128 → Fin 128 → ℝ) (b : Fin 128 → ℝ) : Spec.Hidden := fun i k =>
  Spec.lin h W0 i k + Spec.lin t1 W1 i k + Spec.lin (fun i' k' => 2 * t2 i' k' - h i' k') W2 i k + b k

/-- With a layer's own tables it is the specification's layer before batch norm. -/
theorem pre1_chebPre (I : Spec.Inputs) (l : Fin 3) (h : Spec.Hidden) :
    pre1 h (Spec.lap I h) (Spec.lap I (Spec.lap I h)) (I.chebW l 0) (I.chebW l 1) (I.chebW l 2) (I.chebB l) = Spec.chebPre I l h := rfl

theorem tileOut1_at (c : Dev nD) (h t1 t2 : Spec.Hidden) (W0 W1 W2 : Fin 128 → Fin 128 → ℝ) (b : Fin 128 → ℝ)
    (H0 : Holds2 (ar1_0 V c) h) (H1 : Holds2 (ar1_1 V c) t1) (H2 : Holds2 (ar1_2 V c) t2)
    (H3 : Holds2 (ar1_3 V c) W0) (H4 : Holds2 (ar1_4 V c) W1) (H5 : Holds2 (ar1_5 V c) W2) (H6 : Holds2 (ar1_6 V c) (fun _ k => b k))
    (t : Fin cfg1.N) (p : Fin 5000) (q : Fin 128) :
    tileOut1 V c t (ix2 p q) = ((pre1 h t1 t2 W0 W1 W2 b ⟨5000 * t.val + p.val, row_lt1 t p⟩ q : ℝ) : EReal) := by
  unfold tileOut1
  refine (pay5_at1 (blk1_0 V c t) (blk1_1 V c t) (blk1_2 V c t) (blk1_3 V c t) (blk1_4 V c t) (blk1_5 V c t) (blk1_6 V c t)
    (fun p' q' => h ⟨5000 * t.val + p'.val, row_lt1 t p'⟩ q') (fun p' q' => t1 ⟨5000 * t.val + p'.val, row_lt1 t p'⟩ q')
    (fun p' q' => t2 ⟨5000 * t.val + p'.val, row_lt1 t p'⟩ q') W0 W1 W2 b ?_ ?_ ?_ ?_ ?_ ?_ ?_ p q).trans ?_
  · intro i
    obtain ⟨p', q', rfl⟩ : ∃ (p' : Fin 5000) (q' : Fin 128), i = ix2 p' q' := ⟨i 0, i 1, eq_ix2 i⟩
    rw [blk1_0_at V c t p' q']; exact H0 _
  · intro i
    obtain ⟨p', q', rfl⟩ : ∃ (p' : Fin 5000) (q' : Fin 128), i = ix2 p' q' := ⟨i 0, i 1, eq_ix2 i⟩
    rw [blk1_1_at V c t p' q']; exact H1 _
  · intro i
    obtain ⟨p', q', rfl⟩ : ∃ (p' : Fin 5000) (q' : Fin 128), i = ix2 p' q' := ⟨i 0, i 1, eq_ix2 i⟩
    rw [blk1_2_at V c t p' q']; exact H2 _
  · intro i
    obtain ⟨p', q', rfl⟩ : ∃ (p' : Fin 128) (q' : Fin 128), i = ix2 p' q' := ⟨i 0, i 1, eq_ix2 i⟩
    rw [blk1_3_at V c t p' q']; exact H3 _
  · intro i
    obtain ⟨p', q', rfl⟩ : ∃ (p' : Fin 128) (q' : Fin 128), i = ix2 p' q' := ⟨i 0, i 1, eq_ix2 i⟩
    rw [blk1_4_at V c t p' q']; exact H4 _
  · intro i
    obtain ⟨p', q', rfl⟩ : ∃ (p' : Fin 128) (q' : Fin 128), i = ix2 p' q' := ⟨i 0, i 1, eq_ix2 i⟩
    rw [blk1_5_at V c t p' q']; exact H5 _
  · intro i
    obtain ⟨p', q', rfl⟩ : ∃ (p' : Fin 1) (q' : Fin 128), i = ix2 p' q' := ⟨i 0, i 1, eq_ix2 i⟩
    rw [blk1_6_at V c t p' q']; exact H6 _
  · rfl

/-! ## The accumulators over the reals -/

/-- The layer's entry at row NUMBER `m` (zero past the last row: never summed). -/
def preN1 (h t1 t2 : Spec.Hidden) (W0 W1 W2 : Fin 128 → Fin 128 → ℝ) (b : Fin 128 → ℝ) (m : ℕ) (q : Fin 128) : ℝ :=
  if hm : m < 50000 then pre1 h t1 t2 W0 W1 W2 b ⟨m, hm⟩ q else 0

theorem preN1_row (h t1 t2 : Spec.Hidden) (W0 W1 W2 : Fin 128 → Fin 128 → ℝ) (b : Fin 128 → ℝ) (t : Fin cfg1.N) (p : Fin 5000) (q : Fin 128) :
    preN1 h t1 t2 W0 W1 W2 b (5000 * t.val + p.val) q = pre1 h t1 t2 W0 W1 W2 b ⟨5000 * t.val + p.val, row_lt1 t p⟩ q :=
  dif_pos (row_lt1 t p)

/-- After tile `n` the first accumulator holds, at column `q`, the layer's column sum over the rows of tiles `0 … n`. -/
theorem acc1_0_at (c : Dev nD) (h t1 t2 : Spec.Hidden) (W0 W1 W2 : Fin 128 → Fin 128 → ℝ) (b : Fin 128 → ℝ)
    (H0 : Holds2 (ar1_0 V c) h) (H1 : Holds2 (ar1_1 V c) t1) (H2 : Holds2 (ar1_2 V c) t2)
    (H3 : Holds2 (ar1_3 V c) W0) (H4 : Holds2 (ar1_4 V c) W1) (H5 : Holds2 (ar1_5 V c) W2) (H6 : Holds2 (ar1_6 V c) (fun _ k => b k)) (q : Fin 128) :
    ∀ (n : ℕ) (hn : n < cfg1.N), acc1_0 V c n hn (ix2 (0 : Fin 1) q)
      = ((∑ t ∈ Finset.range (n + 1), ∑ r : Fin 5000, preN1 h t1 t2 W0 W1 W2 b (5000 * t + r.val) q : ℝ) : EReal)
  | 0, hn => by
    show k1_pay1 (F := Ideal) (tileOut1 V c ⟨0, hn⟩) (k1_pay3 (F := Ideal)) (ix2 (0 : Fin 1) q) = _
    rw [pay1_at1, pay3_at1, zero_add, Finset.sum_range_succ, Finset.sum_range_zero, zero_add]
    exact sum_eq_coe_of_forall _ _ _ fun r _ => by
      rw [tileOut1_at V c h t1 t2 W0 W1 W2 b H0 H1 H2 H3 H4 H5 H6 ⟨0, hn⟩ r q, ← preN1_row h t1 t2 W0 W1 W2 b ⟨0, hn⟩ r q]
  | n + 1, hn => by
    show k1_pay1 (F := Ideal) (tileOut1 V c ⟨n + 1, hn⟩) (acc1_0 V c n (Nat.lt_of_succ_lt hn)) (ix2 (0 : Fin 1) q) = _
    rw [pay1_at1, acc1_0_at c h t1 t2 W0 W1 W2 b H0 H1 H2 H3 H4 H5 H6 q n (Nat.lt_of_succ_lt hn), Finset.sum_range_succ _ (n + 1), ← coe_add_coe]
    refine congrArg (_ + ·) ?_
    exact sum_eq_coe_of_forall _ _ _ fun r _ => by
      rw [tileOut1_at V c h t1 t2 W0 W1 W2 b H0 H1 H2 H3 H4 H5 H6 ⟨n + 1, hn⟩ r q, ← preN1_row h t1 t2 W0 W1 W2 b ⟨n + 1, hn⟩ r q]

/-- And the second the column sum of its squares. -/
theorem acc1_1_at (c : Dev nD) (h t1 t2 : Spec.Hidden) (W0 W1 W2 : Fin 128 → Fin 128 → ℝ) (b : Fin 128 → ℝ)
    (H0 : Holds2 (ar1_0 V c) h) (H1 : Holds2 (ar1_1 V c) t1) (H2 : Holds2 (ar1_2 V c) t2)
    (H3 : Holds2 (ar1_3 V c) W0) (H4 : Holds2 (ar1_4 V c) W1) (H5 : Holds2 (ar1_5 V c) W2) (H6 : Holds2 (ar1_6 V c) (fun _ k => b k)) (q : Fin 128) :
    ∀ (n : ℕ) (hn : n < cfg1.N), acc1_1 V c n hn (ix2 (0 : Fin 1) q)
      = ((∑ t ∈ Finset.range (n + 1), ∑ r : Fin 5000,
          preN1 h t1 t2 W0 W1 W2 b (5000 * t + r.val) q * preN1 h t1 t2 W0 W1 W2 b (5000 * t + r.val) q : ℝ) : EReal)
  | 0, hn => by
    show k1_pay2 (F := Ideal) (tileOut1 V c ⟨0, hn⟩) (k1_pay4 (F := Ideal)) (ix2 (0 : Fin 1) q) = _
    rw [pay2_at1, pay4_at1, zero_add, Finset.sum_range_succ, Finset.sum_range_zero, zero_add]
    exact sum_eq_coe_of_forall _ _ _ fun r _ => by
      rw [tileOut1_at V c h t1 t2 W0 W1 W2 b H0 H1 H2 H3 H4 H5 H6 ⟨0, hn⟩ r q, ← preN1_row h t1 t2 W0 W1 W2 b ⟨0, hn⟩ r q, coe_mul_coe]
  | n + 1, hn => by
    show k1_pay2 (F := Ideal) (tileOut1 V c ⟨n + 1, hn⟩) (acc1_1 V c n (Nat.lt_of_succ_lt hn)) (ix2 (0 : Fin 1) q) = _
    rw [pay2_at1, acc1_1_at c h t1 t2 W0 W1 W2 b H0 H1 H2 H3 H4 H5 H6 q n (Nat.lt_of_succ_lt hn), Finset.sum_range_succ _ (n + 1), ← coe_add_coe]
    refine congrArg (_ + ·) ?_
    exact sum_eq_coe_of_forall _ _ _ fun r _ => by
      rw [tileOut1_at V c h t1 t2 W0 W1 W2 b H0 H1 H2 H3 H4 H5 H6 ⟨n + 1, hn⟩ r q, ← preN1_row h t1 t2 W0 W1 W2 b ⟨n + 1, hn⟩ r q, coe_mul_coe]

/-- The ten tiles' sums regrouped: a sum over all 50000 rows. -/
theorem tiles_sum1 (g : ℕ → ℝ) : ∑ t ∈ Finset.range 10, ∑ r : Fin 5000, g (5000 * t + r.val) = ∑ i : Fin 50000, g i.val :=
  (sum_fin_val_eq_sum_range_tiles (n := 50000) (a := 10) (b := 5000) (by norm_num) g).symm

theorem preN1_val (h t1 t2 : Spec.Hidden) (W0 W1 W2 : Fin 128 → Fin 128 → ℝ) (b : Fin 128 → ℝ) (i : Fin 50000) (q : Fin 128) : preN1 h t1 t2 W0 W1 W2 b i.val q = pre1 h t1 t2 W0 W1 W2 b i q :=
  dif_pos i.isLt

/-! ## The three outputs -/

/-- The row-tile output holds the layer before batch norm. -/
theorem val1_7 (c : Dev nD) (h t1 t2 : Spec.Hidden) (W0 W1 W2 : Fin 128 → Fin 128 → ℝ) (b : Fin 128 → ℝ)
    (H0 : Holds2 (ar1_0 V c) h) (H1 : Holds2 (ar1_1 V c) t1) (H2 : Holds2 (ar1_2 V c) t2)
    (H3 : Holds2 (ar1_3 V c) W0) (H4 : Holds2 (ar1_4 V c) W1) (H5 : Holds2 (ar1_5 V c) W2) (H6 : Holds2 (ar1_6 V c) (fun _ k => b k)) :
    Holds2 (res1_7 V c) (pre1 h t1 t2 W0 W1 W2 b) := by
  intro i
  obtain ⟨r, q, rfl⟩ : ∃ (r : Fin 50000) (q : Fin 128), i = ix2 r q := ⟨i 0, i 1, eq_ix2 i⟩
  show (dat1 V c).arrAt 7 cfg1.N (ix2 r q) = ((pre1 h t1 t2 W0 W1 W2 b r q : ℝ) : EReal)
  rw [final1_7]
  show tileEntry1 V c r.val q.val _ _ = _
  unfold tileEntry1
  refine (tileOut1_at V c h t1 t2 W0 W1 W2 b H0 H1 H2 H3 H4 H5 H6
    ⟨r.val / 5000, by rw [show cfg1.N = 10 from N_1]; have := r.isLt; omega⟩ ⟨r.val % 5000, Nat.mod_lt _ (by decide)⟩ ⟨q.val, q.isLt⟩).trans ?_
  have e : (⟨5000 * (r.val / 5000) + r.val % 5000,
      row_lt1 ⟨r.val / 5000, by rw [show cfg1.N = 10 from N_1]; have := r.isLt; omega⟩ ⟨r.val % 5000, Nat.mod_lt _ (by decide)⟩⟩ : Fin 50000) = r :=
    Fin.ext (Nat.div_add_mod _ _)
  show ((pre1 h t1 t2 W0 W1 W2 b ⟨5000 * (r.val / 5000) + r.val % 5000, _⟩ ⟨q.val, q.isLt⟩ : ℝ) : EReal) = ((pre1 h t1 t2 W0 W1 W2 b r q : ℝ) : EReal)
  rw [e]

/-- The column-sum output holds the layer's column sums over all rows. -/
theorem val1_8 (c : Dev nD) (h t1 t2 : Spec.Hidden) (W0 W1 W2 : Fin 128 → Fin 128 → ℝ) (b : Fin 128 → ℝ)
    (H0 : Holds2 (ar1_0 V c) h) (H1 : Holds2 (ar1_1 V c) t1) (H2 : Holds2 (ar1_2 V c) t2)
    (H3 : Holds2 (ar1_3 V c) W0) (H4 : Holds2 (ar1_4 V c) W1) (H5 : Holds2 (ar1_5 V c) W2) (H6 : Holds2 (ar1_6 V c) (fun _ k => b k)) :
    Holds2 (res1_8 V c) (fun _ k => ∑ i : Fin 50000, pre1 h t1 t2 W0 W1 W2 b i k) := by
  intro i
  obtain ⟨u, q, rfl⟩ : ∃ (u : Fin 1) (q : Fin 128), i = ix2 u q := ⟨i 0, i 1, eq_ix2 i⟩
  obtain rfl : u = 0 := Subsingleton.elim u 0
  show (dat1 V c).arrAt 8 cfg1.N (ix2 (0 : Fin 1) q) = ((∑ i' : Fin 50000, pre1 h t1 t2 W0 W1 W2 b i' q : ℝ) : EReal)
  rw [final1_8]
  show acc1_0 V c 9 nine_lt1 (ix2 (0 : Fin 1) q) = _
  rw [acc1_0_at V c h t1 t2 W0 W1 W2 b H0 H1 H2 H3 H4 H5 H6 q 9 nine_lt1, show (9 + 1 : ℕ) = 10 from rfl,
    tiles_sum1 (fun m => preN1 h t1 t2 W0 W1 W2 b m q)]
  simp only [preN1_val]

/-- The sum-of-squares output holds the column sums of its squares. -/
theorem val1_9 (c : Dev nD) (h t1 t2 : Spec.Hidden) (W0 W1 W2 : Fin 128 → Fin 128 → ℝ) (b : Fin 128 → ℝ)
    (H0 : Holds2 (ar1_0 V c) h) (H1 : Holds2 (ar1_1 V c) t1) (H2 : Holds2 (ar1_2 V c) t2)
    (H3 : Holds2 (ar1_3 V c) W0) (H4 : Holds2 (ar1_4 V c) W1) (H5 : Holds2 (ar1_5 V c) W2) (H6 : Holds2 (ar1_6 V c) (fun _ k => b k)) :
    Holds2 (res1_9 V c) (fun _ k => ∑ i : Fin 50000, pre1 h t1 t2 W0 W1 W2 b i k * pre1 h t1 t2 W0 W1 W2 b i k) := by
  intro i
  obtain ⟨u, q, rfl⟩ : ∃ (u : Fin 1) (q : Fin 128), i = ix2 u q := ⟨i 0, i 1, eq_ix2 i⟩
  obtain rfl : u = 0 := Subsingleton.elim u 0
  show (dat1 V c).arrAt 9 cfg1.N (ix2 (0 : Fin 1) q) = ((∑ i' : Fin 50000, pre1 h t1 t2 W0 W1 W2 b i' q * pre1 h t1 t2 W0 W1 W2 b i' q : ℝ) : EReal)
  rw [final1_9]
  show acc1_1 V c 9 nine_lt1 (ix2 (0 : Fin 1) q) = _
  rw [acc1_1_at V c h t1 t2 W0 W1 W2 b H0 H1 H2 H3 H4 H5 H6 q 9 nine_lt1, show (9 + 1 : ℕ) = 10 from rfl,
    tiles_sum1 (fun m => preN1 h t1 t2 W0 W1 W2 b m q * preN1 h t1 t2 W0 W1 W2 b m q)]
  simp only [preN1_val]

end Cert.KernelIdeal.Hand.Val

end
-- ==== Proof.Val.Ends.lean ====
/-
  The index arrays of the graph read as the edge ends and batch numbers they hold, through the integer operations
  the programs apply to them before a gather or a scatter:

  * a row of the `[2, E]` edge array, sliced out and flattened, holds that row's end nodes;
  * the wrap-around of a negative index (`v < 0 ? v + N : v`) leaves a word in `[0, N)` as it is, since its signed
    comparison with `0` is false;
  * the broadcast of an index vector `[E]` to the column `[E, 1]` holds the same words, so it NAMES the same
    positions (`Names`, the hypothesis of the gathers and scatter-adds read at an index);
  * the batch vector's column holds the same batch numbers, and the pooling scatter-adds sum, at graph `g`, the rows
    whose batch number is `g` (a number outside `[0, G)` meets no graph).
-/
import proofs.«160050_j32744830665390_2_alg».proof.Proof.Bridge.Inputs
import proofs.«160050_j32744830665390_2_alg».proof.Proof.Val.GatherScatter
import Idealize.ShloMosaic.PureOps.ShapeOps
import Idealize.ShloMosaic.PureOps.Vector
import Idealize.ShloMosaic.Lib.ValueLayout

noncomputable section

open scoped BigOperators

namespace Cert.Hand.Val

open Idealize.ShloMosaic Idealize.ShloMosaic.ValueIdx

/-! ## The two readings of an index word agree in range -/

/-- In range, the clamped node of a word is the position the word names. -/
theorem bridge_node_eq {v : BitVec 32} (h : InRange 50000 v) : Bridge.node v = node 50000 v h := by
  have := h.1
  have := h.2
  refine Fin.ext ?_
  show min v.toInt.toNat 49999 = v.toInt.toNat
  omega

/-- An index vector that holds the edge ends `f` has every word in range. -/
theorem ends_inRange {v : IVec ⟨1, ![800000]⟩ 32} {f : Fin 800000 → Fin 50000} (h : Bridge.Ends v f) (e : Fin 800000) :
    0 ≤ (v (ix1 e)).toInt ∧ (v (ix1 e)).toInt < 50000 :=
  ⟨(h (ix1 e)).1, (h (ix1 e)).2.1⟩

/-- An index vector that holds the edge ends `f` holds, at `e`, the number `f e`. -/
theorem ends_toInt {v : IVec ⟨1, ![800000]⟩ 32} {f : Fin 800000 → Fin 50000} (h : Bridge.Ends v f) (e : Fin 800000) :
    (v (ix1 e)).toInt = ((f e).val : ℤ) := by
  obtain ⟨h0, h1, hn⟩ := h (ix1 e)
  have hv := Bridge.node_val h0 h1
  rw [hn] at hv
  exact hv.symm

/-- An index column that holds the edge ends `f` names them. -/
theorem names_of_endsCol {a : IVec ⟨2, ![800000, 1]⟩ 32} {f : Fin 800000 → Fin 50000} (h : Bridge.EndsCol a f) :
    Names a f := by
  intro e
  obtain ⟨h0, h1, hn⟩ := h (ix2 e (0 : Fin 1))
  have hv := Bridge.node_val h0 h1
  rw [hn] at hv
  exact hv.symm

/-! ## A vector broadcast to a column -/

section Column
variable {α : Type}

/-- A vector `[n]` (`n ≠ 1`: the axis is not stretched) broadcast to the column `[n, 1]` reads, at `(e, 0)`, the vector
    at `e`. -/
theorem bcastCol_apply {n : Nat} (hn : n ≠ 1) (hb : (⟨1, ![n]⟩ : Shape).BroadcastsInDim ⟨2, ![n, 1]⟩ ![0])
    (v : (⟨1, ![n]⟩ : Shape).Idx → α) (e : Fin n) (u : Fin 1) :
    broadcastInDim ⟨2, ![n, 1]⟩ ![0] hb v (ix2 e u) = v (ix1 e) := by
  unfold broadcastInDim
  refine congrArg v (funext fun a => Fin.ext ?_)
  obtain rfl : a = 0 := Subsingleton.elim _ _
  exact congrArg Fin.val (dif_neg hn)

end Column

/-- The column of an index vector that holds the edge ends `f` holds them too. -/
theorem endsCol_bcast {v : IVec ⟨1, ![800000]⟩ 32} {f : Fin 800000 → Fin 50000}
    (hb : (⟨1, ![800000]⟩ : Shape).BroadcastsInDim ⟨2, ![800000, 1]⟩ ![0]) (h : Bridge.Ends v f) :
    Bridge.EndsCol (broadcastInDim ⟨2, ![800000, 1]⟩ ![0] hb v) f := by
  intro i
  obtain ⟨e, u, rfl⟩ : ∃ (e : Fin 800000) (u : Fin 1), i = ix2 e u := ⟨i 0, i 1, eq_ix2 i⟩
  rw [bcastCol_apply (by decide) hb v e u]
  exact h (ix1 e)

/-- … so it names them. -/
theorem names_bcast {v : IVec ⟨1, ![800000]⟩ 32} {f : Fin 800000 → Fin 50000}
    (hb : (⟨1, ![800000]⟩ : Shape).BroadcastsInDim ⟨2, ![800000, 1]⟩ ![0]) (h : Bridge.Ends v f) :
    Names (broadcastInDim ⟨2, ![800000, 1]⟩ ![0] hb v) f :=
  names_of_endsCol (endsCol_bcast hb h)

/-! ## The wrap-around of a negative index -/

/-- A word in `[0, N)` is not negative, so `v < 0 ? v + N : v` is `v`: the wrapped vector IS the vector. -/
theorem wrap_eq {v : IVec ⟨1, ![800000]⟩ 32}
    (hb0 hb1 : (⟨0, ![]⟩ : Shape).BroadcastsInDim ⟨1, ![800000]⟩ ![])
    (h : ∀ i, 0 ≤ (v i).toInt) :
    select (cmpi .slt v (broadcastInDim ⟨1, ![800000]⟩ ![] hb0 (constantI ⟨0, ![]⟩ 32 0#32)))
        (addi v (broadcastInDim ⟨1, ![800000]⟩ ![] hb1 (constantI ⟨0, ![]⟩ 32 50000#32))) v = v := by
  funext i
  show Scalar.select (IntOp.cmpi .slt (v i) 0#32) (IntOp.addi (v i) 50000#32) (v i) = v i
  have hz : (0#32 : BitVec 32).toInt = 0 := by decide
  have hlt : (v i).slt 0#32 = false := by
    show decide ((v i).toInt < (0#32 : BitVec 32).toInt) = false
    rw [hz]
    exact decide_eq_false (by have := h i; omega)
  have hc : IntOp.cmpi .slt (v i) 0#32 = 0#1 := by
    show BitVec.ofBool ((v i).slt 0#32) = 0#1
    rw [hlt]
    rfl
  rw [hc]
  exact select_zero _ _

/-- The wrapped index vector holds the edge ends the vector holds. -/
theorem ends_wrap {v : IVec ⟨1, ![800000]⟩ 32} {f : Fin 800000 → Fin 50000}
    (hb0 hb1 : (⟨0, ![]⟩ : Shape).BroadcastsInDim ⟨1, ![800000]⟩ ![]) (h : Bridge.Ends v f) :
    Bridge.Ends (select (cmpi .slt v (broadcastInDim ⟨1, ![800000]⟩ ![] hb0 (constantI ⟨0, ![]⟩ 32 0#32)))
        (addi v (broadcastInDim ⟨1, ![800000]⟩ ![] hb1 (constantI ⟨0, ![]⟩ 32 50000#32))) v) f := by
  rw [wrap_eq hb0 hb1 fun i => (h i).1]
  exact h

/-- The column of the wrapped index vector names the edge ends: the hypothesis of a gather. -/
theorem names_wrap_bcast {v : IVec ⟨1, ![800000]⟩ 32} {f : Fin 800000 → Fin 50000}
    (hb0 hb1 : (⟨0, ![]⟩ : Shape).BroadcastsInDim ⟨1, ![800000]⟩ ![])
    (hb : (⟨1, ![800000]⟩ : Shape).BroadcastsInDim ⟨2, ![800000, 1]⟩ ![0]) (h : Bridge.Ends v f) :
    Names (broadcastInDim ⟨2, ![800000, 1]⟩ ![0] hb
      (select (cmpi .slt v (broadcastInDim ⟨1, ![800000]⟩ ![] hb0 (constantI ⟨0, ![]⟩ 32 0#32)))
        (addi v (broadcastInDim ⟨1, ![800000]⟩ ![] hb1 (constantI ⟨0, ![]⟩ 32 50000#32))) v)) f :=
  names_bcast hb (ends_wrap hb0 hb1 h)

/-! ## The two rows of the edge array -/

/-- Row `r` of an in-range `[2, E]` edge array, sliced out as `[1, E]` and flattened to `[E]`, holds the end nodes of
    that row. -/
theorem ends_row (r : Fin 2) (edge : IVec ⟨2, ![2, 800000]⟩ 32)
    (hs : (⟨2, ![2, 800000]⟩ : Shape).Slices ![r.val, 0] ⟨2, ![1, 800000]⟩)
    (hr : (⟨2, ![1, 800000]⟩ : Shape).ShapeCasts ⟨1, ![800000]⟩)
    (h : ∀ i, 0 ≤ (edge i).toInt ∧ (edge i).toInt < 50000) :
    Bridge.Ends (shapeCast ⟨1, ![800000]⟩ (extractStridedSlice ⟨2, ![1, 800000]⟩ ![r.val, 0] edge hs) hr)
      (fun e => Bridge.node (edge (ix2 r e))) := by
  intro i
  obtain ⟨e, rfl⟩ : ∃ e : Fin 800000, i = ix1 e := ⟨i 0, eq_ix1 i⟩
  rw [shapeCast_1a_a_apply _ hr e,
    slice2_axis0_apply r.val edge hs (0 : Fin 1) e r (Nat.add_zero _).symm]
  exact ⟨(h _).1, (h _).2, rfl⟩

/-- Row 0 (the sources), with the literal offsets a program prints. -/
theorem ends_row0 (edge : IVec ⟨2, ![2, 800000]⟩ 32)
    (hs : (⟨2, ![2, 800000]⟩ : Shape).Slices ![0, 0] ⟨2, ![1, 800000]⟩)
    (hr : (⟨2, ![1, 800000]⟩ : Shape).ShapeCasts ⟨1, ![800000]⟩)
    (h : ∀ i, 0 ≤ (edge i).toInt ∧ (edge i).toInt < 50000) :
    Bridge.Ends (shapeCast ⟨1, ![800000]⟩ (extractStridedSlice ⟨2, ![1, 800000]⟩ ![0, 0] edge hs) hr)
      (fun e => Bridge.node (edge (ix2 (0 : Fin 2) e))) :=
  ends_row 0 edge hs hr h

/-- Row 1 (the destinations), with the literal offsets a program prints. -/
theorem ends_row1 (edge : IVec ⟨2, ![2, 800000]⟩ 32)
    (hs : (⟨2, ![2, 800000]⟩ : Shape).Slices ![1, 0] ⟨2, ![1, 800000]⟩)
    (hr : (⟨2, ![1, 800000]⟩ : Shape).ShapeCasts ⟨1, ![800000]⟩)
    (h : ∀ i, 0 ≤ (edge i).toInt ∧ (edge i).toInt < 50000) :
    Bridge.Ends (shapeCast ⟨1, ![800000]⟩ (extractStridedSlice ⟨2, ![1, 800000]⟩ ![1, 0] edge hs) hr)
      (fun e => Bridge.node (edge (ix2 (1 : Fin 2) e))) :=
  ends_row 1 edge hs hr h

/-! ## The batch column and the pooling scatter-adds -/

/-- The column of the batch vector holds, at `(i, 0)`, node `i`'s batch number. -/
theorem batch_bcast {a : IVec ⟨1, ![50000]⟩ 32} {g : Fin 50000 → ℤ}
    (hb : (⟨1, ![50000]⟩ : Shape).BroadcastsInDim ⟨2, ![50000, 1]⟩ ![0]) (h : Bridge.Batch a g) (i : Fin 50000) :
    ((broadcastInDim ⟨2, ![50000, 1]⟩ ![0] hb a) (ix2 i (0 : Fin 1))).toInt = g i := by
  rw [bcastCol_apply (by decide) hb a i 0]
  exact h (ix1 i)

section Pool
variable {φ : FTy}

/-- The vector pooling scatter-add at graph `k`: the operand's element plus the updates of the nodes whose batch number
    is `k`. -/
theorem poolVec_of_batch {a : IVec ⟨1, ![50000]⟩ 32} {g : Fin 50000 → ℤ}
    (wf : ScatterDims.WF ⟨1, ![128]⟩ ⟨2, ![50000, 1]⟩ ⟨1, ![50000]⟩ [] [0] [0] 1)
    (hb : (⟨1, ![50000]⟩ : Shape).BroadcastsInDim ⟨2, ![50000, 1]⟩ ![0]) (h : Bridge.Batch a g)
    (x : FVec Ideal ⟨1, ![128]⟩ φ) (upd : FVec Ideal ⟨1, ![50000]⟩ φ) (k : Fin 128) :
    Host.scatterAdd (F := Ideal) (scatterVecDims 128 50000 wf) x (broadcastInDim ⟨2, ![50000, 1]⟩ ![0] hb a) upd (ix1 k)
      = x (ix1 k) + ∑ i : Fin 50000, if g i = (k.val : ℤ) then upd (ix1 i) else 0 := by
  rw [scatterVec_apply]
  refine congrArg (x (ix1 k) + ·) (Finset.sum_congr rfl fun i _ => ?_)
  refine if_congr ?_ rfl rfl
  show ((broadcastInDim ⟨2, ![50000, 1]⟩ ![0] hb a) (ix2 i (0 : Fin 1))).toInt = (k.val : ℤ) ↔ g i = (k.val : ℤ)
  rw [batch_bcast hb h i]

/-- The row pooling scatter-add at `(k, c)`: the operand's element plus column `c` of the rows of the nodes whose batch
    number is `k`. -/
theorem poolRow_of_batch {a : IVec ⟨1, ![50000]⟩ 32} {g : Fin 50000 → ℤ}
    (wf : ScatterDims.WF ⟨2, ![128, 128]⟩ ⟨2, ![50000, 1]⟩ ⟨2, ![50000, 128]⟩ [1] [0] [0] 1)
    (hb : (⟨1, ![50000]⟩ : Shape).BroadcastsInDim ⟨2, ![50000, 1]⟩ ![0]) (h : Bridge.Batch a g)
    (x : FVec Ideal ⟨2, ![128, 128]⟩ φ) (upd : FVec Ideal ⟨2, ![50000, 128]⟩ φ) (k : Fin 128) (c : Fin 128) :
    Host.scatterAdd (F := Ideal) (scatterRowDims 128 50000 128 wf) x (broadcastInDim ⟨2, ![50000, 1]⟩ ![0] hb a) upd
        (ix2 k c)
      = x (ix2 k c) + ∑ i : Fin 50000, if g i = (k.val : ℤ) then upd (ix2 i c) else 0 := by
  rw [scatterRow_apply]
  refine congrArg (x (ix2 k c) + ·) (Finset.sum_congr rfl fun i _ => ?_)
  refine if_congr ?_ rfl rfl
  show ((broadcastInDim ⟨2, ![50000, 1]⟩ ![0] hb a) (ix2 i (0 : Fin 1))).toInt = (k.val : ℤ) ↔ g i = (k.val : ℤ)
  rw [batch_bcast hb h i]

end Pool

end Cert.Hand.Val

end
-- ==== Proof.KI.ValH1.lean ====
/- The host operations between regions 0 and 1. From the first hidden state `h` they prepare what region 1 reads:
   `L h` and `L (L h)` — each one gather of the edges' source rows, scaled by the edges' weights, scatter-added at the
   edges' targets into zeros — and the first layer's three weight matrices and bias row, cut out of the stacked
   parameters. For an arbitrary valuation of the buffers the stretch reads. -/
import proofs.«160050_j32744830665390_2_alg».proof.Proof.Spec
import proofs.«160050_j32744830665390_2_alg».proof.Proof.Bridge.Inputs
import proofs.«160050_j32744830665390_2_alg».proof.Proof.Math.Lift
import proofs.«160050_j32744830665390_2_alg».proof.Proof.Val.GatherScatter
import proofs.«160050_j32744830665390_2_alg».proof.Proof.Val.Ends
import proofs.«160050_j32744830665390_2_alg».proof.Proof.Gen.KernelIdeal.Launch
import Idealize.ShloMosaic.Lib.StableHlo.Run
import Idealize.ShloMosaic.Lib.ValueLayout
import Idealize.ShloMosaic.Lib.IdealHost
import Idealize.ShloMosaic.PureOps.Ideal.Laws

set_option maxRecDepth 16384

noncomputable section

namespace Cert.KernelIdeal.Hand.Val

open Cert.KernelIdeal Cert.KernelIdeal.Gen
open Idealize.ShloMosaic Idealize.ShloMosaic.TcCoe Idealize.ShloMosaic.ValueIdx Idealize.ShloMosaic.StableHlo
open Cert.Hand Cert.Hand.Bridge Cert.Hand.Math Cert.Hand.Val
open scoped BigOperators

/-! ## One application of the scaled Laplacian, as the host computes it -/

/-- Gather the sources' rows of `x` (a negative source word first moved up by the node count), scale each by its edge's
    weight, and scatter-add at the targets into zeros. -/
def lapHost1 (src dst : IVec S800000 32) (w : Vec Ideal S800000 .f32) (x : Vec Ideal S50000x128 .f32) : Vec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (mulf (broadcastInDim S800000x128 ![0, 1] bcast_S800000x1_S800000x128_0_1 (broadcastInDim S800000x1 ![0] bcast_S800000_S800000x1_0 w))
      (Host.gather gather_S50000x128_S800000x1_S800000x128_1_0_n_n_0_1_1128 x
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))

/-- A column broadcast along 128 features reads, at `(e, k)`, the column's entry `e`. -/
theorem colrow1_apply {α : Type} (hb : (⟨2, ![800000, 1]⟩ : Shape).BroadcastsInDim ⟨2, ![800000, 128]⟩ ![0, 1])
    (x : (⟨2, ![800000, 1]⟩ : Shape).Idx → α) (e : Fin 800000) (k : Fin 128) :
    broadcastInDim ⟨2, ![800000, 128]⟩ ![0, 1] hb x (ix2 e k) = x (ix2 e (0 : Fin 1)) :=
  broadcastInDim_apply ![0, 1] hb x (ix2 e k) (ix2 e (0 : Fin 1)) fun a => by
    match a with
    | ⟨0, _⟩ => show e.val = if (800000 : ℕ) = 1 then 0 else e.val; rw [if_neg (by decide)]
    | ⟨1, _⟩ => show (0 : ℕ) = if (1 : ℕ) = 1 then 0 else k.val; rw [if_pos rfl]

/-- If the index vectors name the edges' ends, the weights are the Laplacian's and `x` holds `h`, the host's step holds `L h`. -/
theorem lapHost1_holds (I : Spec.Inputs) (h : Spec.Hidden) {src dst : IVec S800000 32} {w : Vec Ideal S800000 .f32} {x : Vec Ideal S50000x128 .f32}
    (hsrc : Ends src I.src) (hdst : Ends dst I.dst) (hw : Holds1 (n0 := 800000) w (Spec.wEdge I)) (hx : Holds2 (n0 := 50000) (n1 := 128) x h) :
    Holds2 (n0 := 50000) (n1 := 128) (lapHost1 src dst w x) (Spec.lap I h) := by
  intro i
  obtain ⟨n, k, rfl⟩ : ∃ (n : Fin 50000) (k : Fin 128), i = ix2 n k := ⟨i 0, i 1, eq_ix2 i⟩
  unfold lapHost1
  refine (scatterRow_of_names (N := 50000) (E := 800000) (H := 128) _ _ _ _ I.dst (names_bcast bcast_S800000_S800000x1_0 hdst) n k).trans ?_
  -- the base is the zero splat
  have hz : broadcastInDim S50000x128 ![] bcast_S_S50000x128 (constant (F := Ideal) S_ .f32 0x00000000#32) (ix2 n k) = 0 := by
    rw [broadcastInDim_scalar_apply bcast_S_S50000x128 _ (ix2 n k)]
    exact Ideal.ofBits_zero_f32
  rw [hz, zero_add]
  refine (sum_eq_coe_of_forall _ _ (fun e => if I.dst e = n then Spec.wEdge I e * h (I.src e) k else 0) fun e _ => ?_).trans rfl
  by_cases hd : I.dst e = n
  · -- an edge into `n`: its weight times its source's row
    simp only [if_pos hd]
    rw [mulf_apply, colrow1_apply bcast_S800000x1_S800000x128_0_1 _ e k,
      bcastCol_apply (by decide) bcast_S800000_S800000x1_0 w e (0 : Fin 1), hw (ix1 e)]
    refine (congrArg (((Spec.wEdge I e : ℝ) : EReal) * ·)
      ((gatherRow_of_names (N := 50000) (E := 800000) (H := 128) _ x _ I.src
        (names_wrap_bcast bcast_S_S800000 bcast_S_S800000 bcast_S800000_S800000x1_0 hsrc) e k).trans (hx (ix2 (I.src e) k)))).trans ?_
    exact coe_mul_coe _ _
  · simp only [if_neg hd]; rfl

/-! ## A weight matrix cut out of the stacked weights -/

/-- Block `(l, m)` of a [3,3,128,128] array, its two unit axes dropped, read at `(j, k)`. -/
theorem wslice1_at {α : Type} (x : (⟨4, ![3, 3, 128, 128]⟩ : Shape).Idx → α) (off : Fin 4 → ℕ)
    (hs : (⟨4, ![3, 3, 128, 128]⟩ : Shape).Slices off ⟨4, ![1, 1, 128, 128]⟩)
    (hc : (⟨4, ![1, 1, 128, 128]⟩ : Shape).ShapeCasts ⟨2, ![128, 128]⟩) (l m : Fin 3)
    (h0 : off 0 = l.val) (h1 : off 1 = m.val ∧ off 2 = 0 ∧ off 3 = 0) (j k : Fin 128) :
    shapeCast ⟨2, ![128, 128]⟩ (extractStridedSlice ⟨4, ![1, 1, 128, 128]⟩ off x hs) hc (ix2 j k) = x (ix4 l m j k) := by
  refine (shapeCast_apply _ hc (ix2 j k) (ix4 (0 : Fin 1) (0 : Fin 1) j k) ?_).trans ?_
  · rw [Shape.rowMajor_val_four, Shape.rowMajor_val_two]
    show ((0 * 1 + 0) * 128 + j.val) * 128 + k.val = j.val * 128 + k.val
    omega
  · refine extractStridedSlice_apply off x hs _ (ix4 l m j k) fun a => ?_
    match a with
    | ⟨0, _⟩ => show l.val = off 0 + 0; omega
    | ⟨1, _⟩ => show m.val = off 1 + 0; omega
    | ⟨2, _⟩ => show j.val = off 2 + j.val; omega
    | ⟨3, _⟩ => show k.val = off 3 + k.val; omega

/-- Row `l` of a [3,128] array, as a [1,128] row (through the flat [128] form and back), read at `(u, k)`. -/
theorem bslice1_at {α : Type} (x : (⟨2, ![3, 128]⟩ : Shape).Idx → α) (off : Fin 2 → ℕ)
    (hs : (⟨2, ![3, 128]⟩ : Shape).Slices off ⟨2, ![1, 128]⟩)
    (hc1 : (⟨2, ![1, 128]⟩ : Shape).ShapeCasts ⟨1, ![128]⟩) (hc2 : (⟨1, ![128]⟩ : Shape).ShapeCasts ⟨2, ![1, 128]⟩) (l : Fin 3)
    (h0 : off 0 = l.val) (h1 : off 1 = 0) (u : Fin 1) (k : Fin 128) :
    shapeCast ⟨2, ![1, 128]⟩ (shapeCast ⟨1, ![128]⟩ (extractStridedSlice ⟨2, ![1, 128]⟩ off x hs) hc1) hc2 (ix2 u k) = x (ix2 l k) := by
  refine (shapeCast_a_1a_apply _ hc2 u k).trans ((shapeCast_1a_a_apply _ hc1 k).trans ?_)
  refine extractStridedSlice_apply off x hs _ (ix2 l k) fun a => ?_
  match a with
  | ⟨0, _⟩ => show l.val = off 0 + 0; omega
  | ⟨1, _⟩ => show k.val = off 1 + k.val; omega

/-! ## The stretch -/

variable (V : Valuation τ sig (Elt Ideal))

/-- The stretch does not write the hidden state it reads. -/
theorem acts1_kept : StableHlo.after hostOps1 V (Proc.devRef .tc main_v39) = V (Proc.devRef .tc main_v39) := by
  after_results

set_option maxHeartbeats 4000000 in
/-- After the stretch `main_v52` is one Laplacian step on the hidden state, -/
theorem lapA_term1 : StableHlo.after hostOps1 V (Proc.devRef .tc main_v52)
    = lapHost1 (V (Proc.devRef .tc main_v1)) (V (Proc.devRef .tc main_v3)) (V (Proc.devRef .tc main_v33)) (V (Proc.devRef .tc main_v39)) := by
  after_results_simp
  try rfl

set_option maxHeartbeats 8000000 in
/-- and `main_v65` a second step on that. -/
theorem lapB_term1 : StableHlo.after hostOps1 V (Proc.devRef .tc main_v65)
    = lapHost1 (V (Proc.devRef .tc main_v1)) (V (Proc.devRef .tc main_v3)) (V (Proc.devRef .tc main_v33))
        (lapHost1 (V (Proc.devRef .tc main_v1)) (V (Proc.devRef .tc main_v3)) (V (Proc.devRef .tc main_v33)) (V (Proc.devRef .tc main_v39))) := by
  after_results_simp
  try rfl

variable (I : Spec.Inputs) (h : Spec.Hidden)

theorem valH1_lap1 (hsrc : Ends (V (Proc.devRef .tc main_v1)) I.src) (hdst : Ends (V (Proc.devRef .tc main_v3)) I.dst)
    (hw : Holds1 (n0 := 800000) (V (Proc.devRef .tc main_v33)) (Spec.wEdge I))
    (hh : Holds2 (n0 := 50000) (n1 := 128) (V (Proc.devRef .tc main_v39)) h) :
    Holds2 (n0 := 50000) (n1 := 128) (StableHlo.after hostOps1 V (Proc.devRef .tc main_v52)) (Spec.lap I h) := by
  rw [lapA_term1]
  exact lapHost1_holds I h hsrc hdst hw hh

theorem valH1_lap2 (hsrc : Ends (V (Proc.devRef .tc main_v1)) I.src) (hdst : Ends (V (Proc.devRef .tc main_v3)) I.dst)
    (hw : Holds1 (n0 := 800000) (V (Proc.devRef .tc main_v33)) (Spec.wEdge I))
    (hh : Holds2 (n0 := 50000) (n1 := 128) (V (Proc.devRef .tc main_v39)) h) :
    Holds2 (n0 := 50000) (n1 := 128) (StableHlo.after hostOps1 V (Proc.devRef .tc main_v65)) (Spec.lap I (Spec.lap I h)) := by
  rw [lapB_term1]
  exact lapHost1_holds I (Spec.lap I h) hsrc hdst hw (lapHost1_holds I h hsrc hdst hw hh)

/-- After the stretch `main_v67` holds the layer's weight matrix 0: block (0, 0) of the stacked weights, its two unit axes dropped. -/
theorem valH1_w0_term : StableHlo.after hostOps1 V (Proc.devRef .tc main_v67)
    = shapeCast S128x128 (extractStridedSlice S1x1x128x128 ![0, 0, 0, 0] (V (Proc.devRef .tc main_arg5)) slices_S3x3x128x128_S1x1x128x128_0_0_0_0) shapeCasts_S1x1x128x128_S128x128 := by
  after_results
  try rfl

theorem valH1_w0 (hW : Holds4 (n0 := 3) (n1 := 3) (n2 := 128) (n3 := 128) (V (Proc.devRef .tc main_arg5)) I.chebW) :
    Holds2 (n0 := 128) (n1 := 128) (StableHlo.after hostOps1 V (Proc.devRef .tc main_v67)) (I.chebW 0 0) := by
  intro i
  obtain ⟨j, k, rfl⟩ : ∃ (j k : Fin 128), i = ix2 j k := ⟨i 0, i 1, eq_ix2 i⟩
  rw [valH1_w0_term]
  refine (wslice1_at (V (Proc.devRef .tc main_arg5)) ![0, 0, 0, 0] slices_S3x3x128x128_S1x1x128x128_0_0_0_0 shapeCasts_S1x1x128x128_S128x128 (0 : Fin 3) (0 : Fin 3) rfl ⟨rfl, rfl, rfl⟩ j k).trans ?_
  exact hW (ix4 (0 : Fin 3) (0 : Fin 3) j k)

/-- After the stretch `main_v69` holds the layer's weight matrix 1: block (0, 1) of the stacked weights, its two unit axes dropped. -/
theorem valH1_w1_term : StableHlo.after hostOps1 V (Proc.devRef .tc main_v69)
    = shapeCast S128x128 (extractStridedSlice S1x1x128x128 ![0, 1, 0, 0] (V (Proc.devRef .tc main_arg5)) slices_S3x3x128x128_S1x1x128x128_0_1_0_0) shapeCasts_S1x1x128x128_S128x128 := by
  after_results
  try rfl

theorem valH1_w1 (hW : Holds4 (n0 := 3) (n1 := 3) (n2 := 128) (n3 := 128) (V (Proc.devRef .tc main_arg5)) I.chebW) :
    Holds2 (n0 := 128) (n1 := 128) (StableHlo.after hostOps1 V (Proc.devRef .tc main_v69)) (I.chebW 0 1) := by
  intro i
  obtain ⟨j, k, rfl⟩ : ∃ (j k : Fin 128), i = ix2 j k := ⟨i 0, i 1, eq_ix2 i⟩
  rw [valH1_w1_term]
  refine (wslice1_at (V (Proc.devRef .tc main_arg5)) ![0, 1, 0, 0] slices_S3x3x128x128_S1x1x128x128_0_1_0_0 shapeCasts_S1x1x128x128_S128x128 (0 : Fin 3) (1 : Fin 3) rfl ⟨rfl, rfl, rfl⟩ j k).trans ?_
  exact hW (ix4 (0 : Fin 3) (1 : Fin 3) j k)

/-- After the stretch `main_v71` holds the layer's weight matrix 2: block (0, 2) of the stacked weights, its two unit axes dropped. -/
theorem valH1_w2_term : StableHlo.after hostOps1 V (Proc.devRef .tc main_v71)
    = shapeCast S128x128 (extractStridedSlice S1x1x128x128 ![0, 2, 0, 0] (V (Proc.devRef .tc main_arg5)) slices_S3x3x128x128_S1x1x128x128_0_2_0_0) shapeCasts_S1x1x128x128_S128x128 := by
  after_results
  try rfl

theorem valH1_w2 (hW : Holds4 (n0 := 3) (n1 := 3) (n2 := 128) (n3 := 128) (V (Proc.devRef .tc main_arg5)) I.chebW) :
    Holds2 (n0 := 128) (n1 := 128) (StableHlo.after hostOps1 V (Proc.devRef .tc main_v71)) (I.chebW 0 2) := by
  intro i
  obtain ⟨j, k, rfl⟩ : ∃ (j k : Fin 128), i = ix2 j k := ⟨i 0, i 1, eq_ix2 i⟩
  rw [valH1_w2_term]
  refine (wslice1_at (V (Proc.devRef .tc main_arg5)) ![0, 2, 0, 0] slices_S3x3x128x128_S1x1x128x128_0_2_0_0 shapeCasts_S1x1x128x128_S128x128 (0 : Fin 3) (2 : Fin 3) rfl ⟨rfl, rfl, rfl⟩ j k).trans ?_
  exact hW (ix4 (0 : Fin 3) (2 : Fin 3) j k)

/-- After the stretch `main_v74` holds the layer's bias as a row. -/
theorem valH1_bias_term : StableHlo.after hostOps1 V (Proc.devRef .tc main_v74)
    = shapeCast S1x128 (shapeCast S128 (extractStridedSlice S1x128 ![0, 0] (V (Proc.devRef .tc main_arg6)) slices_S3x128_S1x128_0_0) shapeCasts_S1x128_S128) shapeCasts_S128_S1x128 := by
  after_results
  try rfl

theorem valH1_bias (hB : Holds2 (n0 := 3) (n1 := 128) (V (Proc.devRef .tc main_arg6)) I.chebB) :
    Holds2 (n0 := 1) (n1 := 128) (StableHlo.after hostOps1 V (Proc.devRef .tc main_v74)) (fun _ k => I.chebB 0 k) := by
  intro i
  obtain ⟨u, k, rfl⟩ : ∃ (u : Fin 1) (k : Fin 128), i = ix2 u k := ⟨i 0, i 1, eq_ix2 i⟩
  rw [valH1_bias_term]
  refine (bslice1_at (V (Proc.devRef .tc main_arg6)) ![0, 0] slices_S3x128_S1x128_0_0 shapeCasts_S1x128_S128 shapeCasts_S128_S1x128 (0 : Fin 3) rfl rfl u k).trans ?_
  exact hB (ix2 (0 : Fin 3) k)

end Cert.KernelIdeal.Hand.Val

end
-- ==== Proof.KI.Val2.lean ====
import proofs.«160050_j32744830665390_2_alg».proof.Proof.Spec
import proofs.«160050_j32744830665390_2_alg».proof.Proof.Bridge.Inputs
import proofs.«160050_j32744830665390_2_alg».proof.Proof.Math.Lift
import proofs.«160050_j32744830665390_2_alg».proof.Proof.KI.Reg2
import Idealize.ShloMosaic.PureOps.Ideal.Laws

/-! # Region 2's output array, read over the reals

Region 2 leaves in its output array every pre-normalisation activation centred by its feature's mean, scaled by the
reciprocal square root of its feature's variance plus ε, multiplied by the feature's scale, shifted by the feature's
shift and clamped below at zero. Here that is read at the ideal instance, where a float is an extended real: if the
five input arrays hold real tables — the activations `o`, and rows `μ`, `v`, `g`, `b` — and every `v k + ε` is
positive, the output array holds the real table `max ((o i k − μ k) · (v k + ε)^(−1/2) · g k + b k) 0`. With `μ` the
column means of `o` and `g`, `b` layer 0's batch-norm parameters this is the specification's
`bnRelu` of that layer. -/

noncomputable section

namespace Cert.KernelIdeal.Hand.Val

open Cert.KernelIdeal Cert.KernelIdeal.Gen Cert.KernelIdeal.Hand
open Idealize.ShloMosaic Idealize.ShloMosaic.TcCoe Idealize.ShloMosaic.ValueIdx
open Cert.Hand Cert.Hand.Bridge

/-- Region 2's output array after its ten write-backs holds batch norm then relu of the activations it was given,
    for any real rows the four statistics arrays hold, the variance row plus ε being positive. -/
theorem val2 (V : Entry Ideal) (c : Dev nD) (o : Spec.Hidden) (μ v g b : Fin 128 → ℝ)
    (ho : Holds2 (n0 := 50000) (n1 := 128) (V c main_v75_0) o)
    (hμ : Holds2 (n0 := 1) (n1 := 128) (V c main_v88) (fun _ k => μ k))
    (hv : Holds2 (n0 := 1) (n1 := 128) (V c main_v89) (fun _ k => v k))
    (hg : Holds2 (n0 := 1) (n1 := 128) (V c main_v90) (fun _ k => g k))
    (hb : Holds2 (n0 := 1) (n1 := 128) (V c main_v91) (fun _ k => b k))
    (hpos : ∀ k, 0 < v k + Bridge.eps) :
    Holds2 (n0 := 50000) (n1 := 128) ((dat2 V c).arrAt 5 cfg2.N)
      (fun i k => max ((o i k - μ k) * Spec.rsq (v k + Bridge.eps) * g k + b k) 0) := by
  unfold Holds2
  intro i
  obtain ⟨p, q, rfl⟩ : ∃ (p : Fin 50000) (q : Fin 128), i = ix2 p q := ⟨i 0, i 1, eq_ix2 i⟩
  rw [final2_5 V c]
  have e0 : V c main_v75_0 (ix2 p q) = ((o p q : ℝ) : EReal) := ho (ix2 p q)
  have e1 : V c main_v88 (ix2 (0 : Fin 1) q) = ((μ q : ℝ) : EReal) := hμ (ix2 (0 : Fin 1) q)
  have e2 : V c main_v89 (ix2 (0 : Fin 1) q) = ((v q : ℝ) : EReal) := hv (ix2 (0 : Fin 1) q)
  have e3 : V c main_v90 (ix2 (0 : Fin 1) q) = ((g q : ℝ) : EReal) := hg (ix2 (0 : Fin 1) q)
  have e4 : V c main_v91 (ix2 (0 : Fin 1) q) = ((b q : ℝ) : EReal) := hb (ix2 (0 : Fin 1) q)
  show bnRelu246 (V c main_v75_0 (ix2 p q)) (V c main_v88 (ix2 (0 : Fin 1) q)) (V c main_v89 (ix2 (0 : Fin 1) q))
      (V c main_v90 (ix2 (0 : Fin 1) q)) (V c main_v91 (ix2 (0 : Fin 1) q))
    = ((max ((o p q - μ q) * Spec.rsq (v q + Bridge.eps) * g q + b q) 0 : ℝ) : EReal)
  rw [e0, e1, e2, e3, e4]
  unfold bnRelu246
  simp only [Ideal.subf_def, Ideal.addf_def, Ideal.mulf_def, Ideal.maximumf_def, Ideal.rsqrt_def, Ideal.ofBits_def]
  rw [Bridge.eps_spec.1, Ideal.ofBits_zero_f32]
  simp only [Math.coe_sub_coe, Math.coe_add_coe, Math.coe_mul_coe, Math.rsqrt_coe_of_pos (hpos q),
    Math.max_coe_zero]
  rfl

/-- With the mean row at the column means of `o` and the scale and shift rows at layer 0's batch-norm parameters,
    that table is the specification's `bnRelu` of layer 0 over `o`, the variance row being whatever `v` it is. -/
theorem val2_spec (V : Entry Ideal) (c : Dev nD) (I : Spec.Inputs) (o : Spec.Hidden) (v : Fin 128 → ℝ)
    (ho : Holds2 (n0 := 50000) (n1 := 128) (V c main_v75_0) o)
    (hμ : Holds2 (n0 := 1) (n1 := 128) (V c main_v88) (fun _ k => Spec.colMean o k))
    (hv : Holds2 (n0 := 1) (n1 := 128) (V c main_v89) (fun _ k => v k))
    (hg : Holds2 (n0 := 1) (n1 := 128) (V c main_v90) (fun _ k => I.bnG (0 : Fin 3) k))
    (hb : Holds2 (n0 := 1) (n1 := 128) (V c main_v91) (fun _ k => I.bnB (0 : Fin 3) k))
    (hpos : ∀ k, 0 < v k + Bridge.eps) :
    Holds2 (n0 := 50000) (n1 := 128) ((dat2 V c).arrAt 5 cfg2.N) (Spec.bnRelu I Bridge.eps (0 : Fin 3) v o) :=
  val2 V c o (Spec.colMean o) v (I.bnG (0 : Fin 3)) (I.bnB (0 : Fin 3)) ho hμ hv hg hb hpos

end Cert.KernelIdeal.Hand.Val

end
-- ==== Proof.KI.ValH2.lean ====
import proofs.«160050_j32744830665390_2_alg».proof.Proof.Spec
import proofs.«160050_j32744830665390_2_alg».proof.Proof.Bridge.Inputs
import proofs.«160050_j32744830665390_2_alg».proof.Proof.Math.Lift
import proofs.«160050_j32744830665390_2_alg».proof.Proof.Gen.KernelIdeal.Launch
import Idealize.ShloMosaic.Lib.StableHlo.Run
import Idealize.ShloMosaic.Lib.ValueLayout

/-! # The host stretch before region 2, read over the reals

Between Chebyshev region 1 and normalisation region 2 the host turns the column sums and the column sums of
squares the Chebyshev region left into the batch statistics: the mean row is the sums divided by the number
of nodes (the f32 word `0x47435000`, 50000), the variance row is the sums of squares divided by 50000 less the
squared mean, and the scale and shift rows are row 0 of the batch-norm parameter tables; each row passes through a
flatten and an unflatten, which change nothing. Read at the ideal instance, where a float is an extended real: if
the two sums' arrays hold the real column sums of a table `o` and the parameter tables hold the specification's
parameters, then after the stretch the four rows region 2 reads hold the column means of `o`, its variance as
mean of squares less squared mean, and layer 0's scale and shift. -/

noncomputable section

namespace Cert.KernelIdeal.Hand.Val

open Cert.KernelIdeal Cert.KernelIdeal.Gen
open Idealize.ShloMosaic Idealize.ShloMosaic.TcCoe Idealize.ShloMosaic.ValueIdx Idealize.ShloMosaic.StableHlo
open Cert.Hand Cert.Hand.Bridge
open scoped BigOperators

/-! ## The pieces -/

/-- The f32 word `0x47435000` is 50000, the number of nodes: sign 0, exponent 142, fraction `0x435000`, that is
    `(2^23 + 4411392) · 2^(142 − 127 − 23) = 12800000 / 256`. -/
theorem nodes2_word : Ideal.ofBits .f32 0x47435000#32 = ((50000 : ℝ) : EReal) := by
  have hex : ((0x47435000#32 : BitVec 32).extractLsb' 23 8).toNat = 142 := by decide
  have hfr : ((0x47435000#32 : BitVec 32).extractLsb' 0 23).toNat = 4411392 := by decide
  have hneg : ((0x47435000#32 : BitVec 32).extractLsb' (8 + 23) 1 == 1#1) = false := by decide
  unfold Ideal.ofBits Ideal.ieee
  simp only [hex, hfr, hneg]
  norm_num

/-- The row of 128 copies of that constant reads 50000 everywhere. -/
theorem nodes2_row (j : S1x128.Idx) :
    broadcastInDim S1x128 ![] bcast_S_S1x128 (constant (F := Ideal) S_ .f32 0x47435000#32) j
      = ((50000 : ℝ) : EReal) :=
  (broadcastInDim_apply (s := S_) (t := S1x128) ![] bcast_S_S1x128 (constant (F := Ideal) S_ .f32 0x47435000#32) j ix0
    (fun a => a.elim0)).trans nodes2_word

/-- A 1 × 128 row flattened to 128 entries and unflattened again reads, at feature `q`, what it read before. -/
theorem row2_roundtrip {α : Type} (x : S1x128.Idx → α) (u : Fin 1) (q : Fin 128) :
    shapeCast S1x128 (shapeCast S128 x shapeCasts_S1x128_S128) shapeCasts_S128_S1x128 (ix2 u q)
      = x (ix2 (0 : Fin 1) q) :=
  (shapeCast_a_1a_apply _ _ u q).trans (shapeCast_1a_a_apply _ _ q)

section Stretch

variable (V : Valuation τ sig (Elt Ideal))

/-! ## What the stretch leaves in the four rows, as terms over what it finds -/

/-- The mean row: the column sums divided by the row of 50000s, flattened and unflattened. -/
theorem mean2_term : StableHlo.after hostOps2 V (Proc.devRef .tc main_v88)
    = shapeCast S1x128 (shapeCast S128
        (Host.divf (V (Proc.devRef .tc main_v75_1))
          (broadcastInDim S1x128 ![] bcast_S_S1x128 (constant (F := Ideal) S_ .f32 0x47435000#32)))
        shapeCasts_S1x128_S128) shapeCasts_S128_S1x128 := by
  after_results <;> rfl

/-- The variance row: the column sums of squares divided by 50000, less the squared mean row, flattened and
    unflattened. -/
theorem var2_term : StableHlo.after hostOps2 V (Proc.devRef .tc main_v89)
    = shapeCast S1x128 (shapeCast S128
        (subf
          (Host.divf (V (Proc.devRef .tc main_v75_2))
            (broadcastInDim S1x128 ![] bcast_S_S1x128 (constant (F := Ideal) S_ .f32 0x47435000#32)))
          (mulf
            (Host.divf (V (Proc.devRef .tc main_v75_1))
              (broadcastInDim S1x128 ![] bcast_S_S1x128 (constant (F := Ideal) S_ .f32 0x47435000#32)))
            (Host.divf (V (Proc.devRef .tc main_v75_1))
              (broadcastInDim S1x128 ![] bcast_S_S1x128 (constant (F := Ideal) S_ .f32 0x47435000#32)))))
        shapeCasts_S1x128_S128) shapeCasts_S128_S1x128 := by
  after_results <;> rfl

/-- The scale row: row 0 of the scale table, flattened and unflattened. -/
theorem scale2_term : StableHlo.after hostOps2 V (Proc.devRef .tc main_v90)
    = shapeCast S1x128 (shapeCast S128
        (extractStridedSlice S1x128 ![0, 0] (V (Proc.devRef .tc main_arg7)) slices_S3x128_S1x128_0_0)
        shapeCasts_S1x128_S128) shapeCasts_S128_S1x128 := by
  after_results <;> rfl

/-- The shift row: row 0 of the shift table, flattened and unflattened. -/
theorem shift2_term : StableHlo.after hostOps2 V (Proc.devRef .tc main_v91)
    = shapeCast S1x128 (shapeCast S128
        (extractStridedSlice S1x128 ![0, 0] (V (Proc.devRef .tc main_arg8)) slices_S3x128_S1x128_0_0)
        shapeCasts_S1x128_S128) shapeCasts_S128_S1x128 := by
  after_results <;> rfl

/-- The stretch writes none of the activations region 2 reads. -/
theorem acts2_kept : StableHlo.after hostOps2 V (Proc.devRef .tc main_v75_0) = V (Proc.devRef .tc main_v75_0) := by
  after_results <;> rfl

/-! ## The four rows over the reals -/

variable (I : Spec.Inputs) (o : Spec.Hidden)

/-- The mean row holds the column means. -/
theorem valH2_mean
    (hs : Holds2 (n0 := 1) (n1 := 128) (V (Proc.devRef .tc main_v75_1)) (fun _ k => ∑ i : Fin 50000, o i k)) :
    Holds2 (n0 := 1) (n1 := 128) (StableHlo.after hostOps2 V (Proc.devRef .tc main_v88))
      (fun _ k => Spec.colMean o k) := by
  rw [mean2_term]
  unfold Holds2
  intro i
  obtain ⟨u, q, rfl⟩ : ∃ (u : Fin 1) (q : Fin 128), i = ix2 u q := ⟨i 0, i 1, eq_ix2 i⟩
  refine (row2_roundtrip _ u q).trans ?_
  have es : V (Proc.devRef .tc main_v75_1) (ix2 (0 : Fin 1) q) = ((∑ i : Fin 50000, o i q : ℝ) : EReal) :=
    hs (ix2 (0 : Fin 1) q)
  show FloatOps.hostDivf (V (Proc.devRef .tc main_v75_1) (ix2 (0 : Fin 1) q))
      (broadcastInDim S1x128 ![] bcast_S_S1x128 (constant (F := Ideal) S_ .f32 0x47435000#32) (ix2 (0 : Fin 1) q))
    = ((Spec.colMean o q : ℝ) : EReal)
  rw [nodes2_row, es, Ideal.hostDivf_def, Math.div_coe_coe _ (by norm_num : (50000 : ℝ) ≠ 0)]
  rfl

/-- The variance row holds the mean of squares less the squared mean. -/
theorem valH2_var
    (hs : Holds2 (n0 := 1) (n1 := 128) (V (Proc.devRef .tc main_v75_1)) (fun _ k => ∑ i : Fin 50000, o i k))
    (hq : Holds2 (n0 := 1) (n1 := 128) (V (Proc.devRef .tc main_v75_2))
      (fun _ k => ∑ i : Fin 50000, o i k * o i k)) :
    Holds2 (n0 := 1) (n1 := 128) (StableHlo.after hostOps2 V (Proc.devRef .tc main_v89))
      (fun _ k => Spec.varMom o k) := by
  rw [var2_term]
  unfold Holds2
  intro i
  obtain ⟨u, q, rfl⟩ : ∃ (u : Fin 1) (q : Fin 128), i = ix2 u q := ⟨i 0, i 1, eq_ix2 i⟩
  refine (row2_roundtrip _ u q).trans ?_
  have es : V (Proc.devRef .tc main_v75_1) (ix2 (0 : Fin 1) q) = ((∑ i : Fin 50000, o i q : ℝ) : EReal) :=
    hs (ix2 (0 : Fin 1) q)
  have eq : V (Proc.devRef .tc main_v75_2) (ix2 (0 : Fin 1) q)
      = ((∑ i : Fin 50000, o i q * o i q : ℝ) : EReal) := hq (ix2 (0 : Fin 1) q)
  show FloatOps.subf
      (FloatOps.hostDivf (V (Proc.devRef .tc main_v75_2) (ix2 (0 : Fin 1) q))
        (broadcastInDim S1x128 ![] bcast_S_S1x128 (constant (F := Ideal) S_ .f32 0x47435000#32) (ix2 (0 : Fin 1) q)))
      (FloatOps.mulf
        (FloatOps.hostDivf (V (Proc.devRef .tc main_v75_1) (ix2 (0 : Fin 1) q))
          (broadcastInDim S1x128 ![] bcast_S_S1x128 (constant (F := Ideal) S_ .f32 0x47435000#32) (ix2 (0 : Fin 1) q)))
        (FloatOps.hostDivf (V (Proc.devRef .tc main_v75_1) (ix2 (0 : Fin 1) q))
          (broadcastInDim S1x128 ![] bcast_S_S1x128 (constant (F := Ideal) S_ .f32 0x47435000#32) (ix2 (0 : Fin 1) q))))
    = ((Spec.varMom o q : ℝ) : EReal)
  rw [nodes2_row, es, eq]
  simp only [Ideal.hostDivf_def, Ideal.subf_def, Ideal.mulf_def,
    Math.div_coe_coe _ (by norm_num : (50000 : ℝ) ≠ 0), Math.coe_mul_coe, Math.coe_sub_coe]
  rfl

/-- The scale row holds layer 0's scale. -/
theorem valH2_scale (hg : Holds2 (n0 := 3) (n1 := 128) (V (Proc.devRef .tc main_arg7)) I.bnG) :
    Holds2 (n0 := 1) (n1 := 128) (StableHlo.after hostOps2 V (Proc.devRef .tc main_v90))
      (fun _ k => I.bnG (0 : Fin 3) k) := by
  rw [scale2_term]
  unfold Holds2
  intro i
  obtain ⟨u, q, rfl⟩ : ∃ (u : Fin 1) (q : Fin 128), i = ix2 u q := ⟨i 0, i 1, eq_ix2 i⟩
  refine (row2_roundtrip _ u q).trans ?_
  refine (slice2_axis0_apply 0 (V (Proc.devRef .tc main_arg7)) slices_S3x128_S1x128_0_0 (0 : Fin 1) q
    (0 : Fin 3) rfl).trans ?_
  exact hg (ix2 (0 : Fin 3) q)

/-- The shift row holds layer 0's shift. -/
theorem valH2_shift (hb : Holds2 (n0 := 3) (n1 := 128) (V (Proc.devRef .tc main_arg8)) I.bnB) :
    Holds2 (n0 := 1) (n1 := 128) (StableHlo.after hostOps2 V (Proc.devRef .tc main_v91))
      (fun _ k => I.bnB (0 : Fin 3) k) := by
  rw [shift2_term]
  unfold Holds2
  intro i
  obtain ⟨u, q, rfl⟩ : ∃ (u : Fin 1) (q : Fin 128), i = ix2 u q := ⟨i 0, i 1, eq_ix2 i⟩
  refine (row2_roundtrip _ u q).trans ?_
  refine (slice2_axis0_apply 0 (V (Proc.devRef .tc main_arg8)) slices_S3x128_S1x128_0_0 (0 : Fin 1) q
    (0 : Fin 3) rfl).trans ?_
  exact hb (ix2 (0 : Fin 3) q)

/-- THE STAGE: after the stretch the four rows region 2 reads hold the column means of `o`, its variance as mean of
    squares less squared mean, and layer 0's scale and shift; the activations are as they were. -/
theorem valH2
    (hs : Holds2 (n0 := 1) (n1 := 128) (V (Proc.devRef .tc main_v75_1)) (fun _ k => ∑ i : Fin 50000, o i k))
    (hq : Holds2 (n0 := 1) (n1 := 128) (V (Proc.devRef .tc main_v75_2))
      (fun _ k => ∑ i : Fin 50000, o i k * o i k))
    (hg : Holds2 (n0 := 3) (n1 := 128) (V (Proc.devRef .tc main_arg7)) I.bnG)
    (hb : Holds2 (n0 := 3) (n1 := 128) (V (Proc.devRef .tc main_arg8)) I.bnB) :
    Holds2 (n0 := 1) (n1 := 128) (StableHlo.after hostOps2 V (Proc.devRef .tc main_v88)) (fun _ k => Spec.colMean o k)
    ∧ Holds2 (n0 := 1) (n1 := 128) (StableHlo.after hostOps2 V (Proc.devRef .tc main_v89)) (fun _ k => Spec.varMom o k)
    ∧ Holds2 (n0 := 1) (n1 := 128) (StableHlo.after hostOps2 V (Proc.devRef .tc main_v90))
        (fun _ k => I.bnG (0 : Fin 3) k)
    ∧ Holds2 (n0 := 1) (n1 := 128) (StableHlo.after hostOps2 V (Proc.devRef .tc main_v91))
        (fun _ k => I.bnB (0 : Fin 3) k)
    ∧ StableHlo.after hostOps2 V (Proc.devRef .tc main_v75_0) = V (Proc.devRef .tc main_v75_0) :=
  ⟨valH2_mean V o hs, valH2_var V o hs hq, valH2_scale V I hg, valH2_shift V I hb, acts2_kept V⟩

end Stretch

end Cert.KernelIdeal.Hand.Val

end
-- ==== Proof.KI.Reg3.Value.lean ====
/- Region 3, the values. What each control case's stores read back as, over the body's named arithmetic: the
   affine result of the tile for the row-tile output; for an accumulator, the tile's column sum (or column sum of
   squares) added onto what it held, which at the first tile is zero; for a small output, the accumulator's final
   contents. Then, by induction on the tile, what the accumulators hold after each tile. -/
import proofs.«160050_j32744830665390_2_alg».proof.Proof.KI.Iface
import proofs.«160050_j32744830665390_2_alg».proof.Proof.KI.Reg3
import Idealize.ShloMosaic.Lib.Pipeline.Value
import Idealize.ShloMosaic.Lib.ValueIdx
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two zero offsets of a rank-2 rectangle, as the constant-zero function. -/
theorem offs00_3 : (![0, 0] : Fin 2 → Nat) = fun _ => 0 := funext fun a => by fin_cases a <;> rfl

/-! ## The pieces, case by case -/

section Cases

variable (c : Dev nD) (i : grid3.Coords)
  (arg1 : Memref sig .tc .vmem S5000x128 .f32) (harg1 : arg1.IsWhole)
  (arg2 : Memref sig .tc .vmem S5000x128 .f32) (harg2 : arg2.IsWhole)
  (arg3 : Memref sig .tc .vmem S5000x128 .f32) (harg3 : arg3.IsWhole)
  (arg4 : Memref sig .tc .vmem S128x128 .f32) (harg4 : arg4.IsWhole)
  (arg5 : Memref sig .tc .vmem S128x128 .f32) (harg5 : arg5.IsWhole)
  (arg6 : Memref sig .tc .vmem S128x128 .f32) (harg6 : arg6.IsWhole)
  (arg7 : Memref sig .tc .vmem S1x128 .f32) (harg7 : arg7.IsWhole)
  (arg8 : Memref sig .tc .vmem S5000x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x128 .f32) (harg11 : arg11.IsWhole)
  (arg12 : Memref sig .tc .vmem S1x128 .f32) (harg12 : arg12.IsWhole)

/-- The first tile stores the affine result of its blocks into the row-tile output. -/
theorem out3_A_7_eq (hc0 : cond3_0 i) (hc1 : ¬cond3_1 i) (x0 x1 x2 : Vec F S5000x128 .f32) (x3 x4 x5 : Vec F S128x128 .f32) (x6 : Vec F S1x128 .f32) :
    out3_A_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 = k3_pay5 x0 x1 x2 x3 x4 x5 x6 := by
  unfold out3_A_7
  rw [View.read_writes_eq_canon _ _ _ (cover3_A_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun3_A
  dsimp only
  try sl_unfold_words
  rw [View.canon_unit_zero offs00_3]
  simp only [View.readAt_eq_ld, harg1.read_unread, harg2.read_unread, harg3.read_unread, harg4.read_unread, harg5.read_unread, harg6.read_unread, harg7.read_unread, View.ld_unit_zero (S := S5000x128) offs00_3, View.ld_unit_zero (S := S128x128) offs00_3, View.ld_unit_zero (S := S1x128) offs00_3]

/-- The first tile leaves in the first accumulator the column sum of its affine result added onto the zero it was cleared to. -/
theorem sout3_A_0_eq (hc0 : cond3_0 i) (hc1 : ¬cond3_1 i) (x0 x1 x2 : Vec F S5000x128 .f32) (x3 x4 x5 : Vec F S128x128 .f32) (x6 : Vec F S1x128 .f32) :
    sout3_A_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 = k3_pay1 (k3_pay5 x0 x1 x2 x3 x4 x5 x6) (k3_pay3 (F := F)) := by
  unfold sout3_A_0
  rw [View.read_writes_eq_canon _ _ _ (scover3_A_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun3_A
  dsimp only
  try sl_unfold_words
  rw [View.canon_cons_unit_zero (S := S1x128) offs00_3]
  simp only [View.readAt_eq_ld, harg1.read_unread, harg2.read_unread, harg3.read_unread, harg4.read_unread, harg5.read_unread, harg6.read_unread, harg7.read_unread, View.ld_unit_zero (S := S5000x128) offs00_3, View.ld_unit_zero (S := S128x128) offs00_3, View.ld_unit_zero (S := S1x128) offs00_3, View.readCov_unit_zero (S := S1x128) _ offs00_3]

/-- And in the second the column sum of squares added onto zero. -/
theorem sout3_A_1_eq (hc0 : cond3_0 i) (hc1 : ¬cond3_1 i) (x0 x1 x2 : Vec F S5000x128 .f32) (x3 x4 x5 : Vec F S128x128 .f32) (x6 : Vec F S1x128 .f32) :
    sout3_A_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 = k3_pay2 (k3_pay5 x0 x1 x2 x3 x4 x5 x6) (k3_pay4 (F := F)) := by
  unfold sout3_A_1
  rw [View.read_writes_eq_canon _ _ _ (scover3_A_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun3_A
  dsimp only
  try sl_unfold_words
  rw [View.canon_cons_unit_zero (S := S1x128) offs00_3]
  simp only [View.readAt_eq_ld, harg1.read_unread, harg2.read_unread, harg3.read_unread, harg4.read_unread, harg5.read_unread, harg6.read_unread, harg7.read_unread, View.ld_unit_zero (S := S5000x128) offs00_3, View.ld_unit_zero (S := S128x128) offs00_3, View.ld_unit_zero (S := S1x128) offs00_3, View.readCov_unit_zero (S := S1x128) _ offs00_3]

/-- A middle tile stores the affine result of its blocks into the row-tile output. -/
theorem out3_B_7_eq (hc0 : ¬cond3_0 i) (hc1 : ¬cond3_1 i) (x0 x1 x2 : Vec F S5000x128 .f32) (x3 x4 x5 : Vec F S128x128 .f32) (x6 : Vec F S1x128 .f32) (xs0 xs1 : Vec F S1x128 .f32) :
    out3_B_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k3_pay5 x0 x1 x2 x3 x4 x5 x6 := by
  unfold out3_B_7
  rw [View.read_writes_eq_canon _ _ _ (cover3_B_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun3_B
  dsimp only
  try sl_unfold_words
  rw [View.canon_unit_zero offs00_3]
  simp only [View.readAt_eq_ld, harg1.read_unread, harg2.read_unread, harg3.read_unread, harg4.read_unread, harg5.read_unread, harg6.read_unread, harg7.read_unread, harg11.read_unread, harg12.read_unread, View.ld_unit_zero (S := S5000x128) offs00_3, View.ld_unit_zero (S := S128x128) offs00_3, View.ld_unit_zero (S := S1x128) offs00_3]

/-- A middle tile adds the column sum of its affine result onto what the first accumulator held. -/
theorem sout3_B_0_eq (hc0 : ¬cond3_0 i) (hc1 : ¬cond3_1 i) (x0 x1 x2 : Vec F S5000x128 .f32) (x3 x4 x5 : Vec F S128x128 .f32) (x6 : Vec F S1x128 .f32) (xs0 xs1 : Vec F S1x128 .f32) :
    sout3_B_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k3_pay1 (k3_pay5 x0 x1 x2 x3 x4 x5 x6) xs0 := by
  unfold sout3_B_0
  rw [View.read_writes_eq_canon _ _ _ (scover3_B_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun3_B
  dsimp only
  try sl_unfold_words
  rw [View.canon_unit_zero offs00_3]
  simp only [View.readAt_eq_ld, harg1.read_unread, harg2.read_unread, harg3.read_unread, harg4.read_unread, harg5.read_unread, harg6.read_unread, harg7.read_unread, harg11.read_unread, harg12.read_unread, View.ld_unit_zero (S := S5000x128) offs00_3, View.ld_unit_zero (S := S128x128) offs00_3, View.ld_unit_zero (S := S1x128) offs00_3]

/-- And the column sum of squares onto what the second held. -/
theorem sout3_B_1_eq (hc0 : ¬cond3_0 i) (hc1 : ¬cond3_1 i) (x0 x1 x2 : Vec F S5000x128 .f32) (x3 x4 x5 : Vec F S128x128 .f32) (x6 : Vec F S1x128 .f32) (xs0 xs1 : Vec F S1x128 .f32) :
    sout3_B_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k3_pay2 (k3_pay5 x0 x1 x2 x3 x4 x5 x6) xs1 := by
  unfold sout3_B_1
  rw [View.read_writes_eq_canon _ _ _ (scover3_B_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun3_B
  dsimp only
  try sl_unfold_words
  rw [View.canon_unit_zero offs00_3]
  simp only [View.readAt_eq_ld, harg1.read_unread, harg2.read_unread, harg3.read_unread, harg4.read_unread, harg5.read_unread, harg6.read_unread, harg7.read_unread, harg11.read_unread, harg12.read_unread, View.ld_unit_zero (S := S5000x128) offs00_3, View.ld_unit_zero (S := S128x128) offs00_3, View.ld_unit_zero (S := S1x128) offs00_3]

/-- The last tile stores the affine result of its blocks into the row-tile output. -/
theorem out3_C_7_eq (hc0 : ¬cond3_0 i) (hc1 : cond3_1 i) (x0 x1 x2 : Vec F S5000x128 .f32) (x3 x4 x5 : Vec F S128x128 .f32) (x6 : Vec F S1x128 .f32) (xs0 xs1 : Vec F S1x128 .f32) :
    out3_C_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k3_pay5 x0 x1 x2 x3 x4 x5 x6 := by
  unfold out3_C_7
  rw [View.read_writes_eq_canon _ _ _ (cover3_C_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun3_C
  dsimp only
  try sl_unfold_words
  rw [View.canon_unit_zero offs00_3]
  simp only [View.readAt_eq_ld, harg1.read_unread, harg2.read_unread, harg3.read_unread, harg4.read_unread, harg5.read_unread, harg6.read_unread, harg7.read_unread, harg11.read_unread, harg12.read_unread, View.ld_unit_zero (S := S5000x128) offs00_3, View.ld_unit_zero (S := S128x128) offs00_3, View.ld_unit_zero (S := S1x128) offs00_3]

/-- The last tile adds the column sum of its affine result onto what the first accumulator held. -/
theorem sout3_C_0_eq (hc0 : ¬cond3_0 i) (hc1 : cond3_1 i) (x0 x1 x2 : Vec F S5000x128 .f32) (x3 x4 x5 : Vec F S128x128 .f32) (x6 : Vec F S1x128 .f32) (xs0 xs1 : Vec F S1x128 .f32) :
    sout3_C_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k3_pay1 (k3_pay5 x0 x1 x2 x3 x4 x5 x6) xs0 := by
  unfold sout3_C_0
  rw [View.read_writes_eq_canon _ _ _ (scover3_C_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun3_C
  dsimp only
  try sl_unfold_words
  rw [View.canon_unit_zero offs00_3]
  simp only [View.readAt_eq_ld, harg1.read_unread, harg2.read_unread, harg3.read_unread, harg4.read_unread, harg5.read_unread, harg6.read_unread, harg7.read_unread, harg11.read_unread, harg12.read_unread, View.ld_unit_zero (S := S5000x128) offs00_3, View.ld_unit_zero (S := S128x128) offs00_3, View.ld_unit_zero (S := S1x128) offs00_3]

/-- And the column sum of squares onto what the second held. -/
theorem sout3_C_1_eq (hc0 : ¬cond3_0 i) (hc1 : cond3_1 i) (x0 x1 x2 : Vec F S5000x128 .f32) (x3 x4 x5 : Vec F S128x128 .f32) (x6 : Vec F S1x128 .f32) (xs0 xs1 : Vec F S1x128 .f32) :
    sout3_C_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k3_pay2 (k3_pay5 x0 x1 x2 x3 x4 x5 x6) xs1 := by
  unfold sout3_C_1
  rw [View.read_writes_eq_canon _ _ _ (scover3_C_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun3_C
  dsimp only
  try sl_unfold_words
  rw [View.canon_unit_zero offs00_3]
  simp only [View.readAt_eq_ld, harg1.read_unread, harg2.read_unread, harg3.read_unread, harg4.read_unread, harg5.read_unread, harg6.read_unread, harg7.read_unread, harg11.read_unread, harg12.read_unread, View.ld_unit_zero (S := S5000x128) offs00_3, View.ld_unit_zero (S := S128x128) offs00_3, View.ld_unit_zero (S := S1x128) offs00_3]

/-- The last tile copies the first accumulator, as just updated, into the column-sum output. -/
theorem out3_C_8_eq (hc0 : ¬cond3_0 i) (hc1 : cond3_1 i) (x0 x1 x2 : Vec F S5000x128 .f32) (x3 x4 x5 : Vec F S128x128 .f32) (x6 : Vec F S1x128 .f32) (xs0 xs1 : Vec F S1x128 .f32) :
    out3_C_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k3_pay1 (k3_pay5 x0 x1 x2 x3 x4 x5 x6) xs0 := by
  unfold out3_C_8
  rw [View.read_writes_eq_canon _ _ _ (cover3_C_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun3_C
  dsimp only
  try sl_unfold_words
  rw [View.canon_unit_zero offs00_3]
  simp only [View.readAt_eq_ld, harg1.read_unread, harg2.read_unread, harg3.read_unread, harg4.read_unread, harg5.read_unread, harg6.read_unread, harg7.read_unread, harg11.read_unread, harg12.read_unread, View.ld_unit_zero (S := S5000x128) offs00_3, View.ld_unit_zero (S := S128x128) offs00_3, View.ld_unit_zero (S := S1x128) offs00_3, View.readCov_unit_zero (S := S1x128) _ offs00_3]

/-- And the second into the sum-of-squares output. -/
theorem out3_C_9_eq (hc0 : ¬cond3_0 i) (hc1 : cond3_1 i) (x0 x1 x2 : Vec F S5000x128 .f32) (x3 x4 x5 : Vec F S128x128 .f32) (x6 : Vec F S1x128 .f32) (xs0 xs1 : Vec F S1x128 .f32) :
    out3_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k3_pay2 (k3_pay5 x0 x1 x2 x3 x4 x5 x6) xs1 := by
  unfold out3_C_9
  rw [View.read_writes_eq_canon _ _ _ (cover3_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun3_C
  dsimp only
  try sl_unfold_words
  rw [View.canon_unit_zero offs00_3]
  simp only [View.readAt_eq_ld, harg1.read_unread, harg2.read_unread, harg3.read_unread, harg4.read_unread, harg5.read_unread, harg6.read_unread, harg7.read_unread, harg11.read_unread, harg12.read_unread, View.ld_unit_zero (S := S5000x128) offs00_3, View.ld_unit_zero (S := S128x128) offs00_3, View.ld_unit_zero (S := S1x128) offs00_3, View.readCov_unit_zero (S := S1x128) _ offs00_3]

end Cases

/-! ## The tiles' blocks at their literal types, and the accumulation in closed form -/

variable (V : Entry F)

/-- The seven input blocks of tile `t`: three row tiles of the node features, the three weights, the bias. -/
abbrev blk3_0 (c : Dev nD) (t : Fin cfg3.N) : Vec F S5000x128 .f32 := iblk3 V c 0 t
abbrev blk3_1 (c : Dev nD) (t : Fin cfg3.N) : Vec F S5000x128 .f32 := iblk3 V c 1 t
abbrev blk3_2 (c : Dev nD) (t : Fin cfg3.N) : Vec F S5000x128 .f32 := iblk3 V c 2 t
abbrev blk3_3 (c : Dev nD) (t : Fin cfg3.N) : Vec F S128x128 .f32 := iblk3 V c 3 t
abbrev blk3_4 (c : Dev nD) (t : Fin cfg3.N) : Vec F S128x128 .f32 := iblk3 V c 4 t
abbrev blk3_5 (c : Dev nD) (t : Fin cfg3.N) : Vec F S128x128 .f32 := iblk3 V c 5 t
abbrev blk3_6 (c : Dev nD) (t : Fin cfg3.N) : Vec F S1x128 .f32 := iblk3 V c 6 t

/-- The affine result of tile `t`. -/
def tileOut3 (c : Dev nD) (t : Fin cfg3.N) : Vec F S5000x128 .f32 :=
  k3_pay5 (blk3_0 V c t) (blk3_1 V c t) (blk3_2 V c t) (blk3_3 V c t) (blk3_4 V c t) (blk3_5 V c t) (blk3_6 V c t)

/-- The column sums of the affine result over tiles `0 … n`, added in the tiles' order starting from zero. -/
def acc3_0 (c : Dev nD) : (n : ℕ) → n < cfg3.N → Vec F S1x128 .f32
  | 0, hn => k3_pay1 (tileOut3 V c ⟨0, hn⟩) (k3_pay3 (F := F))
  | n + 1, hn => k3_pay1 (tileOut3 V c ⟨n + 1, hn⟩) (acc3_0 c n (Nat.lt_of_succ_lt hn))

/-- The column sums of its squares over tiles `0 … n`, likewise. -/
def acc3_1 (c : Dev nD) : (n : ℕ) → n < cfg3.N → Vec F S1x128 .f32
  | 0, hn => k3_pay2 (tileOut3 V c ⟨0, hn⟩) (k3_pay4 (F := F))
  | n + 1, hn => k3_pay2 (tileOut3 V c ⟨n + 1, hn⟩) (acc3_1 c n (Nat.lt_of_succ_lt hn))

/-- The first tile's entries over the named arithmetic (each piece lemma applied at the tile's memrefs and blocks,
    every argument written out). -/
theorem pt3_A_eq (c : Dev nD) (t : Fin cfg3.N) (h0 : t.val % 10 = 0) (h1 : ¬t.val % 10 = 9) :
    pt3_A V c t h0 h1
      = (tileOut3 V c t, k3_pay1 (tileOut3 V c t) (k3_pay3 (F := F)), k3_pay2 (tileOut3 V c t) (k3_pay4 (F := F)),
          k3_pay1 (tileOut3 V c t) (k3_pay3 (F := F)), k3_pay2 (tileOut3 V c t) (k3_pay4 (F := F))) := by
  unfold pt3_A
  rw [out3_A_7_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t),
    sout3_A_0_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t),
    sout3_A_1_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t)]
  rfl

/-- A middle tile's entries, over what the accumulators held. -/
theorem pt3_B_eq (c : Dev nD) (t : Fin cfg3.N) (h0 : ¬t.val % 10 = 0) (h1 : ¬t.val % 10 = 9) (xs0 xs1 : Vec F S1x128 .f32) :
    pt3_B V c t h0 h1 xs0 xs1
      = (tileOut3 V c t, k3_pay1 (tileOut3 V c t) xs0, k3_pay2 (tileOut3 V c t) xs1,
          k3_pay1 (tileOut3 V c t) xs0, k3_pay2 (tileOut3 V c t) xs1) := by
  unfold pt3_B
  rw [out3_B_7_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) xs0 xs1,
    sout3_B_0_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) xs0 xs1,
    sout3_B_1_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) xs0 xs1]
  rfl

/-- The last tile's entries: the small outputs receive what the accumulators were just updated to. -/
theorem pt3_C_eq (c : Dev nD) (t : Fin cfg3.N) (h0 : ¬t.val % 10 = 0) (h1 : t.val % 10 = 9) (xs0 xs1 : Vec F S1x128 .f32) :
    pt3_C V c t h0 h1 xs0 xs1
      = (tileOut3 V c t, k3_pay1 (tileOut3 V c t) xs0, k3_pay2 (tileOut3 V c t) xs1,
          k3_pay1 (tileOut3 V c t) xs0, k3_pay2 (tileOut3 V c t) xs1) := by
  unfold pt3_C
  rw [out3_C_7_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) xs0 xs1,
    out3_C_8_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) xs0 xs1,
    out3_C_9_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) xs0 xs1,
    sout3_C_0_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) xs0 xs1,
    sout3_C_1_eq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) xs0 xs1]
  rfl

/-- After tile `n`: the row-tile output holds the tile's affine result and the accumulators the sums over the tiles
    so far; after the last tile the two small outputs hold the accumulators' contents. By induction on the tile,
    each step one case of the accumulation read through that case's pieces. -/
theorem outsAt3_eq (c : Dev nD) : ∀ (n : ℕ) (hn : n < cfg3.N),
    (outsAt3 V c n hn).1 = tileOut3 V c ⟨n, hn⟩
      ∧ (outsAt3 V c n hn).2.2.2.1 = acc3_0 V c n hn ∧ (outsAt3 V c n hn).2.2.2.2 = acc3_1 V c n hn
      ∧ (n % 10 = 9 → (outsAt3 V c n hn).2.1 = acc3_0 V c n hn ∧ (outsAt3 V c n hn).2.2.1 = acc3_1 V c n hn)
  | 0, hn => by
    rw [show outsAt3 V c 0 hn = pt3_A V c ⟨0, hn⟩ (Nat.zero_mod _) (by show ¬(0 % 10 = 9); decide) from rfl, pt3_A_eq]
    exact ⟨rfl, rfl, rfl, fun h => absurd h (by decide)⟩
  | n + 1, hn => by
    obtain ⟨-, ih0, ih1, -⟩ := outsAt3_eq c n (Nat.lt_of_succ_lt hn)
    by_cases h1 : (n + 1) % 10 = 9
    · rw [outsAt3_succ_last V c n hn h1, pt3_C_eq, ih0, ih1]
      exact ⟨rfl, rfl, rfl, fun _ => ⟨rfl, rfl⟩⟩
    · rw [outsAt3_succ_mid V c n hn h1, pt3_B_eq, ih0, ih1]
      exact ⟨rfl, rfl, rfl, fun h => absurd h h1⟩

end Cert.KernelIdeal.Hand

end
-- ==== Proof.KI.Reg3.Final.lean ====
/- Region 3, the arrays it leaves. The two small outputs are written back once, after the last tile, with the
   accumulators' final contents: the column sums of the affine result and of its squares over all ten row tiles, added
   in the tiles' order. The row-tile output is written back after every tile with that tile's affine result, so its
   entry (r, j) is entry (r mod 5000, j) of the affine result of tile r div 5000. -/
import proofs.«160050_j32744830665390_2_alg».proof.Proof.KI.Iface
import proofs.«160050_j32744830665390_2_alg».proof.Proof.KI.Reg3.Value
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : Entry F)

/-! ## The closed forms -/

/-- Ten tiles: the last is tile 9. -/
theorem nine_lt3 : 9 < cfg3.N := by rw [show cfg3.N = 10 from N_3]; decide

/-- The column-sum output after the region: the column sums over all ten tiles. -/
def G3_8 (c : Dev nD) : Buf (Elt F) ((cfg3.win 8).arr.view.loc (c.tc : Thread nD τ)) := acc3_0 V c 9 nine_lt3

/-- The sum-of-squares output after the region. -/
def G3_9 (c : Dev nD) : Buf (Elt F) ((cfg3.win 9).arr.view.loc (c.tc : Thread nD τ)) := acc3_1 V c 9 nine_lt3

/-- Entry (r, j) of the row-tile output after the region: tile r div 5000 of the affine result at (r mod 5000, j). -/
def tileEntry3 (c : Dev nD) (r j : ℕ) (hr : r < 50000) (hj : j < 128) : Elt F .f32 :=
  tileOut3 V c ⟨r / 5000, by rw [show cfg3.N = 10 from N_3]; omega⟩ (ix2 ⟨r % 5000, Nat.mod_lt _ (by decide)⟩ ⟨j, hj⟩)

/-- The row-tile output after the region. -/
def G3_7 (c : Dev nD) : Buf (Elt F) ((cfg3.win 7).arr.view.loc (c.tc : Thread nD τ)) :=
  fun i => tileEntry3 V c (i 0).val (i 1).val (idx2_lt0 i) (idx2_lt1 i)

/-- At row 5000 t + y₀ and column y₁ that entry is entry (y₀, y₁) of tile t's affine result. -/
theorem tileEntry3_eq (c : Dev nD) (t : Fin cfg3.N) (y : S5000x128.Idx) (r j : ℕ) (hr : r < 50000) (hj : j < 128)
    (h0 : r = 5000 * t.val + (y 0).val) (h1 : j = (y 1).val) : tileEntry3 V c r j hr hj = tileOut3 V c t y := by
  subst h0 h1
  have hy : (y 0).val < 5000 := idx2_lt0 y
  have hN : cfg3.N = 10 := N_3
  have htl : t.val < cfg3.N := t.isLt
  have ht : (⟨(5000 * t.val + (y 0).val) / 5000, by omega⟩ : Fin cfg3.N) = t :=
    Fin.ext (by show (5000 * t.val + (y 0).val) / 5000 = t.val; omega)
  have hx : (ix2 (⟨(5000 * t.val + (y 0).val) % 5000, Nat.mod_lt _ (by decide)⟩ : Fin 5000) (⟨(y 1).val, hj⟩ : Fin 128) : S5000x128.Idx) = y := by
    funext a
    match a with
    | ⟨0, _⟩ => exact Fin.ext (by show (5000 * t.val + (y 0).val) % 5000 = (y 0).val; omega)
    | ⟨1, _⟩ => rfl
  unfold tileEntry3
  rw [ht, hx]

/-! ## The write-backs -/

/-- Where the three outputs' blocks sit: the row-tile output's block at tile `t` starts at row 5000 t; the small
    outputs' one block is the whole array. -/
theorem index3_7 (t : Fin cfg3.N) : win3_7.index t 0 = t.val ∧ win3_7.index t 1 = 0 := by
  rcases fin_N3 t with rfl | rfl | rfl | rfl | rfl | rfl | rfl | rfl | rfl | rfl <;> decide

/-- The one write-back of the column-sum output, after the last tile, writes the column sums over all tiles. -/
theorem flushed3_8 (c : Dev nD) (t : Fin cfg3.N) (hf : (cfg3.win 8).flush t = true) :
    (dat3 V c).flushed 8 t = ((cfg3.win 8).blk t).view.read (Elt F) (G3_8 V c) := by
  have hN : cfg3.N = 10 := N_3
  have h9 : t.val = 9 := by have := (flush3_8 t).mp hf; have := t.isLt; omega
  obtain rfl : t = t3_9 := Fin.ext h9
  show (cfg3.win 8).cut (grid3.coords t3_9) ((dat3 V c).after 8 t3_9) = _
  rw [after3_8, ((outsAt3_eq V c t3_9.val t3_9.isLt).2.2.2 (by decide)).1]
  have hz' : (fun a => win3_8.index t3_9 a * (Pipeline.arrRef spec3 8).ty.shape.size a) = fun _ => 0 :=
    funext fun a => by fin_cases a <;> decide
  exact (Memref.read_access_unit_zero (Elt F) (Pipeline.arrRef spec3 8) hz' (fun a => by rw [congrFun hz' a]; simp) (G3_8 V c)).symm

/-- And of the sum-of-squares output. -/
theorem flushed3_9 (c : Dev nD) (t : Fin cfg3.N) (hf : (cfg3.win 9).flush t = true) :
    (dat3 V c).flushed 9 t = ((cfg3.win 9).blk t).view.read (Elt F) (G3_9 V c) := by
  have hN : cfg3.N = 10 := N_3
  have h9 : t.val = 9 := by have := (flush3_9 t).mp hf; have := t.isLt; omega
  obtain rfl : t = t3_9 := Fin.ext h9
  show (cfg3.win 9).cut (grid3.coords t3_9) ((dat3 V c).after 9 t3_9) = _
  rw [after3_9, ((outsAt3_eq V c t3_9.val t3_9.isLt).2.2.2 (by decide)).2]
  have hz' : (fun a => win3_9.index t3_9 a * (Pipeline.arrRef spec3 9).ty.shape.size a) = fun _ => 0 :=
    funext fun a => by fin_cases a <;> decide
  exact (Memref.read_access_unit_zero (Elt F) (Pipeline.arrRef spec3 9) hz' (fun a => by rw [congrFun hz' a]; simp) (G3_9 V c)).symm

/-- Every tile's write-back of the row-tile output writes that tile's block of the closed form. -/
theorem flushed3_7 (c : Dev nD) (t : Fin cfg3.N) (hf : (cfg3.win 7).flush t = true) :
    (dat3 V c).flushed 7 t = ((cfg3.win 7).blk t).view.read (Elt F) (G3_7 V c) := by
  show (cfg3.win 7).cut (grid3.coords t) ((dat3 V c).after 7 t) = _
  rw [after3_7, (outsAt3_eq V c t.val t.isLt).1]
  funext y
  rw [View.read_apply]
  obtain ⟨hi0, hi1⟩ := index3_7 t
  -- where the block's entry `y` sits in the array: row 5000 t + y₀, column y₁
  have he0 : ((((cfg3.win 7).blk t).view.emb y) 0).val = 5000 * t.val + (y 0).val := by
    show win3_7.index t 0 * 5000 + 1 * (y 0).val = _
    rw [hi0]; omega
  have he1 : ((((cfg3.win 7).blk t).view.emb y) 1).val = (y 1).val := by
    show win3_7.index t 1 * 128 + 1 * (y 1).val = _
    rw [hi1]; omega
  show tileOut3 V c t y = G3_7 V c (((cfg3.win 7).blk t).view.emb y)
  exact (tileEntry3_eq V c t y _ _ (idx2_lt0 _) (idx2_lt1 _) he0 he1).symm

/-! ## The arrays after the region -/

/-- The column-sum output ends holding the column sums over all ten tiles: its one block, written back after the
    last tile, covers it. -/
theorem final3_8 (c : Dev nD) : (dat3 V c).arrAt 8 cfg3.N = G3_8 V c :=
  (dat3 V c).arrAt_eq_of_cover 8 (G3_8 V c) (flushed3_8 V c) fun i =>
    ⟨t3_9, (flush3_8 t3_9).mpr (by decide), by
      show i ∈ ((View.whole (Pipeline.arrRef spec3 8)).slice (win3_8.rect t3_9)).set
      rw [View.set_slice_whole, Rect.mem_set_unit]
      intro a
      have h0 : (i 0 : ℕ) < 1 := (i 0).isLt
      have h1 : (i 1 : ℕ) < 128 := (i 1).isLt
      match a with
      | ⟨0, _⟩ =>
        show win3_8.index t3_9 0 * win3_8.size 0 ≤ (i 0 : ℕ) ∧ (i 0 : ℕ) < win3_8.index t3_9 0 * win3_8.size 0 + win3_8.xsize (grid3.coords t3_9) 0
        rw [show win3_8.index t3_9 0 * win3_8.size 0 = 0 from by decide +kernel, show win3_8.xsize (grid3.coords t3_9) 0 = 1 from by decide +kernel]; omega
      | ⟨1, _⟩ =>
        show win3_8.index t3_9 1 * win3_8.size 1 ≤ (i 1 : ℕ) ∧ (i 1 : ℕ) < win3_8.index t3_9 1 * win3_8.size 1 + win3_8.xsize (grid3.coords t3_9) 1
        rw [show win3_8.index t3_9 1 * win3_8.size 1 = 0 from by decide +kernel, show win3_8.xsize (grid3.coords t3_9) 1 = 128 from by decide +kernel]; omega⟩

/-- And the sum-of-squares output the column sums of squares. -/
theorem final3_9 (c : Dev nD) : (dat3 V c).arrAt 9 cfg3.N = G3_9 V c :=
  (dat3 V c).arrAt_eq_of_cover 9 (G3_9 V c) (flushed3_9 V c) fun i =>
    ⟨t3_9, (flush3_9 t3_9).mpr (by decide), by
      show i ∈ ((View.whole (Pipeline.arrRef spec3 9)).slice (win3_9.rect t3_9)).set
      rw [View.set_slice_whole, Rect.mem_set_unit]
      intro a
      have h0 : (i 0 : ℕ) < 1 := (i 0).isLt
      have h1 : (i 1 : ℕ) < 128 := (i 1).isLt
      match a with
      | ⟨0, _⟩ =>
        show win3_9.index t3_9 0 * win3_9.size 0 ≤ (i 0 : ℕ) ∧ (i 0 : ℕ) < win3_9.index t3_9 0 * win3_9.size 0 + win3_9.xsize (grid3.coords t3_9) 0
        rw [show win3_9.index t3_9 0 * win3_9.size 0 = 0 from by decide +kernel, show win3_9.xsize (grid3.coords t3_9) 0 = 1 from by decide +kernel]; omega
      | ⟨1, _⟩ =>
        show win3_9.index t3_9 1 * win3_9.size 1 ≤ (i 1 : ℕ) ∧ (i 1 : ℕ) < win3_9.index t3_9 1 * win3_9.size 1 + win3_9.xsize (grid3.coords t3_9) 1
        rw [show win3_9.index t3_9 1 * win3_9.size 1 = 0 from by decide +kernel, show win3_9.xsize (grid3.coords t3_9) 1 = 128 from by decide +kernel]; omega⟩

/-- The row-tile output ends holding, tile by tile, the affine result: row r lies in the block written back after
    tile r div 5000. -/
theorem final3_7 (c : Dev nD) : (dat3 V c).arrAt 7 cfg3.N = G3_7 V c :=
  (dat3 V c).arrAt_eq_of_cover 7 (G3_7 V c) (flushed3_7 V c) fun i => by
    have h0 : (i 0 : ℕ) < 50000 := (i 0).isLt
    have h1 : (i 1 : ℕ) < 128 := (i 1).isLt
    let t : Fin cfg3.N := ⟨(i 0 : ℕ) / 5000, by rw [show cfg3.N = 10 from N_3]; omega⟩
    obtain ⟨hi0, hi1⟩ := index3_7 t
    refine ⟨t, flush3_7 t, ?_⟩
    show i ∈ ((View.whole (Pipeline.arrRef spec3 7)).slice (win3_7.rect t)).set
    rw [View.set_slice_whole, Rect.mem_set_unit]
    intro a
    match a with
    | ⟨0, _⟩ =>
      show win3_7.index t 0 * win3_7.size 0 ≤ (i 0 : ℕ) ∧ (i 0 : ℕ) < win3_7.index t 0 * win3_7.size 0 + win3_7.xsize (grid3.coords t) 0
      rw [hi0, show win3_7.size 0 = 5000 from rfl, show win3_7.xsize (grid3.coords t) 0 = 5000 from rfl]
      show (i 0 : ℕ) / 5000 * 5000 ≤ (i 0 : ℕ) ∧ (i 0 : ℕ) < (i 0 : ℕ) / 5000 * 5000 + 5000
      omega
    | ⟨1, _⟩ =>
      show win3_7.index t 1 * win3_7.size 1 ≤ (i 1 : ℕ) ∧ (i 1 : ℕ) < win3_7.index t 1 * win3_7.size 1 + win3_7.xsize (grid3.coords t) 1
      rw [hi1, show win3_7.size 1 = 128 from rfl, show win3_7.xsize (grid3.coords t) 1 = 128 from rfl]
      omega

end Cert.KernelIdeal.Hand

end
-- ==== Proof.KI.Val3.lean ====
/- Region 3's three output arrays over the reals. If the seven arrays the region reads hold real tables — the node
   features `h`, `t1`, `t2`, three weight matrices and a bias row — then after the region the row-tile output holds
   `h·W₀ + t1·W₁ + (2·t2 − h)·W₂ + b`, and the two small outputs hold that table's column sums and the column sums of
   its squares over all 50000 rows: the ten tiles' sums, added in the tiles' order, regrouped. -/
import proofs.«160050_j32744830665390_2_alg».proof.Proof.Spec
import proofs.«160050_j32744830665390_2_alg».proof.Proof.Bridge.Inputs
import proofs.«160050_j32744830665390_2_alg».proof.Proof.Math.Lift
import proofs.«160050_j32744830665390_2_alg».proof.Proof.Math.Dirichlet
import proofs.«160050_j32744830665390_2_alg».proof.Proof.Math.Consts
import proofs.«160050_j32744830665390_2_alg».proof.Proof.KI.Reg3.Final
import Idealize.ShloMosaic.Lib.ValueLayout
import Idealize.ShloMosaic.PureOps.Ideal.Laws

set_option maxRecDepth 16384

noncomputable section

namespace Cert.KernelIdeal.Hand.Val

open Cert.KernelIdeal.Gen Cert.KernelIdeal.Hand
open Cert.Hand Cert.Hand.Bridge Cert.Hand.Math
open Idealize.ShloMosaic Idealize.ShloMosaic.TcCoe Idealize.ShloMosaic.ValueIdx
open Idealize.ShloMosaic.Pipeline (Dat)
open scoped BigOperators

/-! ## The body's arithmetic at an index -/

/-- A [5000,128] by [128,128] product accumulated into zero, at `(p, q)`: the sum over the 128 inner coordinates. -/
theorem dot3_at (lhs : FVec Ideal S5000x128 .bf16) (rhs : FVec Ideal S128x128 .bf16) (p : Fin 5000) (q : Fin 128) :
    matmul dot_S5000x128_S128x128_S5000x128_1_0_0_1_n_n none lhs rhs (constant S5000x128 .f32 0x00000000#32) (ix2 p q)
      = ∑ j : Fin 128, lhs (ix2 p j) * rhs (ix2 j q) := by
  simp only [matmul]
  refine (Ideal.matmul_constant_zero_apply _ none lhs rhs (ix2 p q)).trans ?_
  refine (Equiv.sum_comp (contrEquiv1 dot_S5000x128_S128x128_S5000x128_1_0_0_1_n_n 128 rfl rfl).symm _).symm.trans ?_
  refine Finset.sum_congr rfl fun j _ => ?_
  have hl : dot_S5000x128_S128x128_S5000x128_1_0_0_1_n_n.lhsIdx (ix2 p q)
      ((contrEquiv1 dot_S5000x128_S128x128_S5000x128_1_0_0_1_n_n 128 rfl rfl).symm j) = ix2 p j := by
    funext a
    match a with
    | ⟨0, _⟩ => rfl
    | ⟨1, _⟩ => exact Fin.ext (contrEquiv1_symm_val dot_S5000x128_S128x128_S5000x128_1_0_0_1_n_n 128 rfl rfl j)
  have hr : dot_S5000x128_S128x128_S5000x128_1_0_0_1_n_n.rhsIdx (ix2 p q)
      ((contrEquiv1 dot_S5000x128_S128x128_S5000x128_1_0_0_1_n_n 128 rfl rfl).symm j) = ix2 j q := by
    funext a
    match a with
    | ⟨0, _⟩ => exact Fin.ext (contrEquiv1_symm_val dot_S5000x128_S128x128_S5000x128_1_0_0_1_n_n 128 rfl rfl j)
    | ⟨1, _⟩ => rfl
  show lhs _ * rhs _ = _
  rw [hl, hr]

/-- The column reduction of a [5000,128] tile at column `q`: the sum over its 5000 rows. -/
theorem colsum3_at (v : FVec Ideal S5000x128 .f32) (q : Fin 128) :
    multiReduction .add [0] S128 v 0x00000000#32 reduces_S5000x128_S128 (.inl rfl) rfl (ix1 q)
      = ∑ r : Fin 5000, v (ix2 r q) :=
  (Ideal.multiReduction_add_single v 0x00000000#32 reduces_S5000x128_S128 (.inl rfl) rfl (ix1 q)).trans
    (Finset.sum_congr rfl fun r _ => congrArg v (funext fun a => match a with | ⟨0, _⟩ => rfl | ⟨1, _⟩ => rfl))

/-- The affine result at `(p, q)` when its operands hold real tables: the three products' sums and the bias. -/
def rowPre3 (X0 X1 X2 : Fin 5000 → Fin 128 → ℝ) (W0 W1 W2 : Fin 128 → Fin 128 → ℝ) (b : Fin 128 → ℝ) (p : Fin 5000) (q : Fin 128) : ℝ :=
  (∑ j : Fin 128, X0 p j * W0 j q) + (∑ j : Fin 128, X1 p j * W1 j q) + (∑ j : Fin 128, (2 * X2 p j - X0 p j) * W2 j q) + b q

theorem pay5_at3 (x0 x1 x2 : Vec Ideal S5000x128 .f32) (w0 w1 w2 : Vec Ideal S128x128 .f32) (bb : Vec Ideal S1x128 .f32)
    (X0 X1 X2 : Fin 5000 → Fin 128 → ℝ) (W0 W1 W2 : Fin 128 → Fin 128 → ℝ) (b : Fin 128 → ℝ)
    (hx0 : Holds2 (n0 := 5000) (n1 := 128) x0 X0) (hx1 : Holds2 (n0 := 5000) (n1 := 128) x1 X1) (hx2 : Holds2 (n0 := 5000) (n1 := 128) x2 X2)
    (hw0 : Holds2 (n0 := 128) (n1 := 128) w0 W0) (hw1 : Holds2 (n0 := 128) (n1 := 128) w1 W1) (hw2 : Holds2 (n0 := 128) (n1 := 128) w2 W2)
    (hb : Holds2 (n0 := 1) (n1 := 128) bb (fun _ k => b k)) (p : Fin 5000) (q : Fin 128) :
    k3_pay5 (F := Ideal) x0 x1 x2 w0 w1 w2 bb (ix2 p q) = ((rowPre3 X0 X1 X2 W0 W1 W2 b p q : ℝ) : EReal) := by
  unfold k3_pay5
  -- the three products, each into zero, added left to right, then the bias row broadcast over the tile
  simp only [shapeCast_self, addf_apply]
  rw [dot3_at, dot3_at, dot3_at, broadcastTo_1b_ab_apply bb broadcasts_S1x128_S5000x128 p q]
  have e0 : ∀ j : Fin 128, x0 (ix2 p j) = ((X0 p j : ℝ) : EReal) := fun j => hx0 (ix2 p j)
  have e1 : ∀ j : Fin 128, x1 (ix2 p j) = ((X1 p j : ℝ) : EReal) := fun j => hx1 (ix2 p j)
  have e2 : ∀ j : Fin 128, x2 (ix2 p j) = ((X2 p j : ℝ) : EReal) := fun j => hx2 (ix2 p j)
  have f0 : ∀ j : Fin 128, w0 (ix2 j q) = ((W0 j q : ℝ) : EReal) := fun j => hw0 (ix2 j q)
  have f1 : ∀ j : Fin 128, w1 (ix2 j q) = ((W1 j q : ℝ) : EReal) := fun j => hw1 (ix2 j q)
  have f2 : ∀ j : Fin 128, w2 (ix2 j q) = ((W2 j q : ℝ) : EReal) := fun j => hw2 (ix2 j q)
  -- each product's sum over coerced reals is the coerced real sum; the bias entry is a coerced real
  have sA : (∑ j : Fin 128, ((x0 (ix2 p j) : EReal) * (w0 (ix2 j q) : EReal))) = ((∑ j : Fin 128, X0 p j * W0 j q : ℝ) : EReal) :=
    sum_eq_coe_of_forall _ _ _ fun j _ => by rw [e0, f0, coe_mul_coe]
  have sB : (∑ j : Fin 128, ((x1 (ix2 p j) : EReal) * (w1 (ix2 j q) : EReal))) = ((∑ j : Fin 128, X1 p j * W1 j q : ℝ) : EReal) :=
    sum_eq_coe_of_forall _ _ _ fun j _ => by rw [e1, f1, coe_mul_coe]
  have sC : (∑ j : Fin 128, ((Ideal.ofBits .f32 0x40000000#32 * (x2 (ix2 p j) : EReal) - (x0 (ix2 p j) : EReal)) * (w2 (ix2 j q) : EReal)))
      = ((∑ j : Fin 128, (2 * X2 p j - X0 p j) * W2 j q : ℝ) : EReal) :=
    sum_eq_coe_of_forall _ _ _ fun j _ => by rw [ofBits_f32_two, e2, e0, f2, coe_mul_coe, coe_sub_coe, coe_mul_coe]
  refine (congrArg₂ (· + ·) (congrArg₂ (· + ·) (congrArg₂ (· + ·) sA sB) sC) (hb (ix2 (0 : Fin 1) q))).trans ?_
  rw [coe_add_coe, coe_add_coe, coe_add_coe]
  rfl

/-- The first accumulator's update at column `q`: what it held, plus the tile's column sum. -/
theorem pay1_at3 (v : FVec Ideal S5000x128 .f32) (s : Vec Ideal S1x128 .f32) (q : Fin 128) :
    k3_pay1 (F := Ideal) v s (ix2 (0 : Fin 1) q) = s (ix2 (0 : Fin 1) q) + ∑ r : Fin 5000, v (ix2 r q) := by
  unfold k3_pay1
  simp only [shapeCast_self]
  show s (ix2 (0 : Fin 1) q) + shapeCast S1x128 _ shapeCasts_S128_S1x128 (ix2 (0 : Fin 1) q) = _
  refine congrArg (s (ix2 (0 : Fin 1) q) + ·) ?_
  exact (shapeCast_a_1a_apply _ shapeCasts_S128_S1x128 (0 : Fin 1) q).trans (colsum3_at v q)

/-- The second accumulator's update at column `q`: what it held, plus the tile's column sum of squares. -/
theorem pay2_at3 (v : FVec Ideal S5000x128 .f32) (s : Vec Ideal S1x128 .f32) (q : Fin 128) :
    k3_pay2 (F := Ideal) v s (ix2 (0 : Fin 1) q) = s (ix2 (0 : Fin 1) q) + ∑ r : Fin 5000, v (ix2 r q) * v (ix2 r q) := by
  unfold k3_pay2
  simp only [shapeCast_self]
  show s (ix2 (0 : Fin 1) q) + shapeCast S1x128 _ shapeCasts_S128_S1x128 (ix2 (0 : Fin 1) q) = _
  refine congrArg (s (ix2 (0 : Fin 1) q) + ·) ?_
  exact (shapeCast_a_1a_apply _ shapeCasts_S128_S1x128 (0 : Fin 1) q).trans (colsum3_at (mulf v v) q)

/-- Both accumulators are cleared to zero. -/
theorem pay3_at3 (q : Fin 128) : k3_pay3 (F := Ideal) (ix2 (0 : Fin 1) q) = 0 := by
  unfold k3_pay3
  simp only [shapeCast_self]
  exact Ideal.ofBits_zero_f32
theorem pay4_at3 (q : Fin 128) : k3_pay4 (F := Ideal) (ix2 (0 : Fin 1) q) = 0 := by
  unfold k3_pay4
  simp only [shapeCast_self]
  exact Ideal.ofBits_zero_f32

/-! ## The arrays and the blocks at literal shapes -/

variable (V : Entry Ideal)

/-- The seven arrays region 3 reads, as the region finds them, and the three it leaves. -/
abbrev ar3_0 (c : Dev nD) : (⟨2, ![50000, 128]⟩ : Shape).Idx → EReal := V c (Pipeline.arrRef spec3 0)
abbrev ar3_1 (c : Dev nD) : (⟨2, ![50000, 128]⟩ : Shape).Idx → EReal := V c (Pipeline.arrRef spec3 1)
abbrev ar3_2 (c : Dev nD) : (⟨2, ![50000, 128]⟩ : Shape).Idx → EReal := V c (Pipeline.arrRef spec3 2)
abbrev ar3_3 (c : Dev nD) : (⟨2, ![128, 128]⟩ : Shape).Idx → EReal := V c (Pipeline.arrRef spec3 3)
abbrev ar3_4 (c : Dev nD) : (⟨2, ![128, 128]⟩ : Shape).Idx → EReal := V c (Pipeline.arrRef spec3 4)
abbrev ar3_5 (c : Dev nD) : (⟨2, ![128, 128]⟩ : Shape).Idx → EReal := V c (Pipeline.arrRef spec3 5)
abbrev ar3_6 (c : Dev nD) : (⟨2, ![1, 128]⟩ : Shape).Idx → EReal := V c (Pipeline.arrRef spec3 6)
abbrev res3_7 (c : Dev nD) : (⟨2, ![50000, 128]⟩ : Shape).Idx → EReal := (dat3 V c).arrAt 7 cfg3.N
abbrev res3_8 (c : Dev nD) : (⟨2, ![1, 128]⟩ : Shape).Idx → EReal := (dat3 V c).arrAt 8 cfg3.N
abbrev res3_9 (c : Dev nD) : (⟨2, ![1, 128]⟩ : Shape).Idx → EReal := (dat3 V c).arrAt 9 cfg3.N

/-- Row `p` of tile `t` is a row of the 50000. -/
theorem row_lt3 (t : Fin cfg3.N) (p : Fin 5000) : 5000 * t.val + p.val < 50000 := by
  have : t.val < 10 := lt_of_lt_of_eq t.isLt (show cfg3.N = 10 from N_3)
  have := p.isLt
  omega

theorem blk3_0_at (c : Dev nD) (t : Fin cfg3.N) (p : Fin 5000) (q : Fin 128) :
    blk3_0 V c t (ix2 p q) = ar3_0 V c (ix2 ⟨5000 * t.val + p.val, row_lt3 t p⟩ q) := by
  have hi : win3_0.index t 0 = t.val ∧ win3_0.index t 1 = 0 := by
    rcases fin_N3 t with rfl | rfl | rfl | rfl | rfl | rfl | rfl | rfl | rfl | rfl <;> decide
  show iblk3 V c 0 t (ix2 p q) = _
  unfold iblk3
  rw [View.read_apply]
  show V c (Pipeline.arrRef spec3 0) _ = V c (Pipeline.arrRef spec3 0) _
  congr 1
  funext a
  apply Fin.ext
  match a with
  | ⟨0, _⟩ => show win3_0.index t 0 * 5000 + 1 * p.val = 5000 * t.val + p.val; rw [hi.1]; omega
  | ⟨1, _⟩ => show win3_0.index t 1 * 128 + 1 * q.val = q.val; rw [hi.2]; omega

theorem blk3_1_at (c : Dev nD) (t : Fin cfg3.N) (p : Fin 5000) (q : Fin 128) :
    blk3_1 V c t (ix2 p q) = ar3_1 V c (ix2 ⟨5000 * t.val + p.val, row_lt3 t p⟩ q) := by
  have hi : win3_1.index t 0 = t.val ∧ win3_1.index t 1 = 0 := by
    rcases fin_N3 t with rfl | rfl | rfl | rfl | rfl | rfl | rfl | rfl | rfl | rfl <;> decide
  show iblk3 V c 1 t (ix2 p q) = _
  unfold iblk3
  rw [View.read_apply]
  show V c (Pipeline.arrRef spec3 1) _ = V c (Pipeline.arrRef spec3 1) _
  congr 1
  funext a
  apply Fin.ext
  match a with
  | ⟨0, _⟩ => show win3_1.index t 0 * 5000 + 1 * p.val = 5000 * t.val + p.val; rw [hi.1]; omega
  | ⟨1, _⟩ => show win3_1.index t 1 * 128 + 1 * q.val = q.val; rw [hi.2]; omega

theorem blk3_2_at (c : Dev nD) (t : Fin cfg3.N) (p : Fin 5000) (q : Fin 128) :
    blk3_2 V c t (ix2 p q) = ar3_2 V c (ix2 ⟨5000 * t.val + p.val, row_lt3 t p⟩ q) := by
  have hi : win3_2.index t 0 = t.val ∧ win3_2.index t 1 = 0 := by
    rcases fin_N3 t with rfl | rfl | rfl | rfl | rfl | rfl | rfl | rfl | rfl | rfl <;> decide
  show iblk3 V c 2 t (ix2 p q) = _
  unfold iblk3
  rw [View.read_apply]
  show V c (Pipeline.arrRef spec3 2) _ = V c (Pipeline.arrRef spec3 2) _
  congr 1
  funext a
  apply Fin.ext
  match a with
  | ⟨0, _⟩ => show win3_2.index t 0 * 5000 + 1 * p.val = 5000 * t.val + p.val; rw [hi.1]; omega
  | ⟨1, _⟩ => show win3_2.index t 1 * 128 + 1 * q.val = q.val; rw [hi.2]; omega

theorem blk3_3_at (c : Dev nD) (t : Fin cfg3.N) (p : Fin 128) (q : Fin 128) :
    blk3_3 V c t (ix2 p q) = ar3_3 V c (ix2 p q) := by
  have hi : win3_3.index t 0 = 0 ∧ win3_3.index t 1 = 0 := by
    rcases fin_N3 t with rfl | rfl | rfl | rfl | rfl | rfl | rfl | rfl | rfl | rfl <;> decide
  show iblk3 V c 3 t (ix2 p q) = _
  unfold iblk3
  rw [View.read_apply]
  show V c (Pipeline.arrRef spec3 3) _ = V c (Pipeline.arrRef spec3 3) _
  congr 1
  funext a
  apply Fin.ext
  match a with
  | ⟨0, _⟩ => show win3_3.index t 0 * 128 + 1 * p.val = p.val; rw [hi.1]; omega
  | ⟨1, _⟩ => show win3_3.index t 1 * 128 + 1 * q.val = q.val; rw [hi.2]; omega

theorem blk3_4_at (c : Dev nD) (t : Fin cfg3.N) (p : Fin 128) (q : Fin 128) :
    blk3_4 V c t (ix2 p q) = ar3_4 V c (ix2 p q) := by
  have hi : win3_4.index t 0 = 0 ∧ win3_4.index t 1 = 0 := by
    rcases fin_N3 t with rfl | rfl | rfl | rfl | rfl | rfl | rfl | rfl | rfl | rfl <;> decide
  show iblk3 V c 4 t (ix2 p q) = _
  unfold iblk3
  rw [View.read_apply]
  show V c (Pipeline.arrRef spec3 4) _ = V c (Pipeline.arrRef spec3 4) _
  congr 1
  funext a
  apply Fin.ext
  match a with
  | ⟨0, _⟩ => show win3_4.index t 0 * 128 + 1 * p.val = p.val; rw [hi.1]; omega
  | ⟨1, _⟩ => show win3_4.index t 1 * 128 + 1 * q.val = q.val; rw [hi.2]; omega

theorem blk3_5_at (c : Dev nD) (t : Fin cfg3.N) (p : Fin 128) (q : Fin 128) :
    blk3_5 V c t (ix2 p q) = ar3_5 V c (ix2 p q) := by
  have hi : win3_5.index t 0 = 0 ∧ win3_5.index t 1 = 0 := by
    rcases fin_N3 t with rfl | rfl | rfl | rfl | rfl | rfl | rfl | rfl | rfl | rfl <;> decide
  show iblk3 V c 5 t (ix2 p q) = _
  unfold iblk3
  rw [View.read_apply]
  show V c (Pipeline.arrRef spec3 5) _ = V c (Pipeline.arrRef spec3 5) _
  congr 1
  funext a
  apply Fin.ext
  match a with
  | ⟨0, _⟩ => show win3_5.index t 0 * 128 + 1 * p.val = p.val; rw [hi.1]; omega
  | ⟨1, _⟩ => show win3_5.index t 1 * 128 + 1 * q.val = q.val; rw [hi.2]; omega

theorem blk3_6_at (c : Dev nD) (t : Fin cfg3.N) (p : Fin 1) (q : Fin 128) :
    blk3_6 V c t (ix2 p q) = ar3_6 V c (ix2 p q) := by
  have hi : win3_6.index t 0 = 0 ∧ win3_6.index t 1 = 0 := by
    rcases fin_N3 t with rfl | rfl | rfl | rfl | rfl | rfl | rfl | rfl | rfl | rfl <;> decide
  show iblk3 V c 6 t (ix2 p q) = _
  unfold iblk3
  rw [View.read_apply]
  show V c (Pipeline.arrRef spec3 6) _ = V c (Pipeline.arrRef spec3 6) _
  congr 1
  funext a
  apply Fin.ext
  match a with
  | ⟨0, _⟩ => show win3_6.index t 0 * 1 + 1 * p.val = p.val; rw [hi.1]; omega
  | ⟨1, _⟩ => show win3_6.index t 1 * 128 + 1 * q.val = q.val; rw [hi.2]; omega

/-! ## A tile's affine result over the reals -/

/-- The layer before batch norm, over given tables. -/
def pre3 (h t1 t2 : Spec.Hidden) (W0 W1 W2 : Fin 128 → Fin 128 → ℝ) (b : Fin 128 → ℝ) : Spec.Hidden := fun i k =>
  Spec.lin h W0 i k + Spec.lin t1 W1 i k + Spec.lin (fun i' k' => 2 * t2 i' k' - h i' k') W2 i k + b k

/-- With a layer's own tables it is the specification's layer before batch norm. -/
theorem pre3_chebPre (I : Spec.Inputs) (l : Fin 3) (h : Spec.Hidden) :
    pre3 h (Spec.lap I h) (Spec.lap I (Spec.lap I h)) (I.chebW l 0) (I.chebW l 1) (I.chebW l 2) (I.chebB l) = Spec.chebPre I l h := rfl

theorem tileOut3_at (c : Dev nD) (h t1 t2 : Spec.Hidden) (W0 W1 W2 : Fin 128 → Fin 128 → ℝ) (b : Fin 128 → ℝ)
    (H0 : Holds2 (ar3_0 V c) h) (H1 : Holds2 (ar3_1 V c) t1) (H2 : Holds2 (ar3_2 V c) t2)
    (H3 : Holds2 (ar3_3 V c) W0) (H4 : Holds2 (ar3_4 V c) W1) (H5 : Holds2 (ar3_5 V c) W2) (H6 : Holds2 (ar3_6 V c) (fun _ k => b k))
    (t : Fin cfg3.N) (p : Fin 5000) (q : Fin 128) :
    tileOut3 V c t (ix2 p q) = ((pre3 h t1 t2 W0 W1 W2 b ⟨5000 * t.val + p.val, row_lt3 t p⟩ q : ℝ) : EReal) := by
  unfold tileOut3
  refine (pay5_at3 (blk3_0 V c t) (blk3_1 V c t) (blk3_2 V c t) (blk3_3 V c t) (blk3_4 V c t) (blk3_5 V c t) (blk3_6 V c t)
    (fun p' q' => h ⟨5000 * t.val + p'.val, row_lt3 t p'⟩ q') (fun p' q' => t1 ⟨5000 * t.val + p'.val, row_lt3 t p'⟩ q')
    (fun p' q' => t2 ⟨5000 * t.val + p'.val, row_lt3 t p'⟩ q') W0 W1 W2 b ?_ ?_ ?_ ?_ ?_ ?_ ?_ p q).trans ?_
  · intro i
    obtain ⟨p', q', rfl⟩ : ∃ (p' : Fin 5000) (q' : Fin 128), i = ix2 p' q' := ⟨i 0, i 1, eq_ix2 i⟩
    rw [blk3_0_at V c t p' q']; exact H0 _
  · intro i
    obtain ⟨p', q', rfl⟩ : ∃ (p' : Fin 5000) (q' : Fin 128), i = ix2 p' q' := ⟨i 0, i 1, eq_ix2 i⟩
    rw [blk3_1_at V c t p' q']; exact H1 _
  · intro i
    obtain ⟨p', q', rfl⟩ : ∃ (p' : Fin 5000) (q' : Fin 128), i = ix2 p' q' := ⟨i 0, i 1, eq_ix2 i⟩
    rw [blk3_2_at V c t p' q']; exact H2 _
  · intro i
    obtain ⟨p', q', rfl⟩ : ∃ (p' : Fin 128) (q' : Fin 128), i = ix2 p' q' := ⟨i 0, i 1, eq_ix2 i⟩
    rw [blk3_3_at V c t p' q']; exact H3 _
  · intro i
    obtain ⟨p', q', rfl⟩ : ∃ (p' : Fin 128) (q' : Fin 128), i = ix2 p' q' := ⟨i 0, i 1, eq_ix2 i⟩
    rw [blk3_4_at V c t p' q']; exact H4 _
  · intro i
    obtain ⟨p', q', rfl⟩ : ∃ (p' : Fin 128) (q' : Fin 128), i = ix2 p' q' := ⟨i 0, i 1, eq_ix2 i⟩
    rw [blk3_5_at V c t p' q']; exact H5 _
  · intro i
    obtain ⟨p', q', rfl⟩ : ∃ (p' : Fin 1) (q' : Fin 128), i = ix2 p' q' := ⟨i 0, i 1, eq_ix2 i⟩
    rw [blk3_6_at V c t p' q']; exact H6 _
  · rfl

/-! ## The accumulators over the reals -/

/-- The layer's entry at row NUMBER `m` (zero past the last row: never summed). -/
def preN3 (h t1 t2 : Spec.Hidden) (W0 W1 W2 : Fin 128 → Fin 128 → ℝ) (b : Fin 128 → ℝ) (m : ℕ) (q : Fin 128) : ℝ :=
  if hm : m < 50000 then pre3 h t1 t2 W0 W1 W2 b ⟨m, hm⟩ q else 0

theorem preN3_row (h t1 t2 : Spec.Hidden) (W0 W1 W2 : Fin 128 → Fin 128 → ℝ) (b : Fin 128 → ℝ) (t : Fin cfg3.N) (p : Fin 5000) (q : Fin 128) :
    preN3 h t1 t2 W0 W1 W2 b (5000 * t.val + p.val) q = pre3 h t1 t2 W0 W1 W2 b ⟨5000 * t.val + p.val, row_lt3 t p⟩ q :=
  dif_pos (row_lt3 t p)

/-- After tile `n` the first accumulator holds, at column `q`, the layer's column sum over the rows of tiles `0 … n`. -/
theorem acc3_0_at (c : Dev nD) (h t1 t2 : Spec.Hidden) (W0 W1 W2 : Fin 128 → Fin 128 → ℝ) (b : Fin 128 → ℝ)
    (H0 : Holds2 (ar3_0 V c) h) (H1 : Holds2 (ar3_1 V c) t1) (H2 : Holds2 (ar3_2 V c) t2)
    (H3 : Holds2 (ar3_3 V c) W0) (H4 : Holds2 (ar3_4 V c) W1) (H5 : Holds2 (ar3_5 V c) W2) (H6 : Holds2 (ar3_6 V c) (fun _ k => b k)) (q : Fin 128) :
    ∀ (n : ℕ) (hn : n < cfg3.N), acc3_0 V c n hn (ix2 (0 : Fin 1) q)
      = ((∑ t ∈ Finset.range (n + 1), ∑ r : Fin 5000, preN3 h t1 t2 W0 W1 W2 b (5000 * t + r.val) q : ℝ) : EReal)
  | 0, hn => by
    show k3_pay1 (F := Ideal) (tileOut3 V c ⟨0, hn⟩) (k3_pay3 (F := Ideal)) (ix2 (0 : Fin 1) q) = _
    rw [pay1_at3, pay3_at3, zero_add, Finset.sum_range_succ, Finset.sum_range_zero, zero_add]
    exact sum_eq_coe_of_forall _ _ _ fun r _ => by
      rw [tileOut3_at V c h t1 t2 W0 W1 W2 b H0 H1 H2 H3 H4 H5 H6 ⟨0, hn⟩ r q, ← preN3_row h t1 t2 W0 W1 W2 b ⟨0, hn⟩ r q]
  | n + 1, hn => by
    show k3_pay1 (F := Ideal) (tileOut3 V c ⟨n + 1, hn⟩) (acc3_0 V c n (Nat.lt_of_succ_lt hn)) (ix2 (0 : Fin 1) q) = _
    rw [pay1_at3, acc3_0_at c h t1 t2 W0 W1 W2 b H0 H1 H2 H3 H4 H5 H6 q n (Nat.lt_of_succ_lt hn), Finset.sum_range_succ _ (n + 1), ← coe_add_coe]
    refine congrArg (_ + ·) ?_
    exact sum_eq_coe_of_forall _ _ _ fun r _ => by
      rw [tileOut3_at V c h t1 t2 W0 W1 W2 b H0 H1 H2 H3 H4 H5 H6 ⟨n + 1, hn⟩ r q, ← preN3_row h t1 t2 W0 W1 W2 b ⟨n + 1, hn⟩ r q]

/-- And the second the column sum of its squares. -/
theorem acc3_1_at (c : Dev nD) (h t1 t2 : Spec.Hidden) (W0 W1 W2 : Fin 128 → Fin 128 → ℝ) (b : Fin 128 → ℝ)
    (H0 : Holds2 (ar3_0 V c) h) (H1 : Holds2 (ar3_1 V c) t1) (H2 : Holds2 (ar3_2 V c) t2)
    (H3 : Holds2 (ar3_3 V c) W0) (H4 : Holds2 (ar3_4 V c) W1) (H5 : Holds2 (ar3_5 V c) W2) (H6 : Holds2 (ar3_6 V c) (fun _ k => b k)) (q : Fin 128) :
    ∀ (n : ℕ) (hn : n < cfg3.N), acc3_1 V c n hn (ix2 (0 : Fin 1) q)
      = ((∑ t ∈ Finset.range (n + 1), ∑ r : Fin 5000,
          preN3 h t1 t2 W0 W1 W2 b (5000 * t + r.val) q * preN3 h t1 t2 W0 W1 W2 b (5000 * t + r.val) q : ℝ) : EReal)
  | 0, hn => by
    show k3_pay2 (F := Ideal) (tileOut3 V c ⟨0, hn⟩) (k3_pay4 (F := Ideal)) (ix2 (0 : Fin 1) q) = _
    rw [pay2_at3, pay4_at3, zero_add, Finset.sum_range_succ, Finset.sum_range_zero, zero_add]
    exact sum_eq_coe_of_forall _ _ _ fun r _ => by
      rw [tileOut3_at V c h t1 t2 W0 W1 W2 b H0 H1 H2 H3 H4 H5 H6 ⟨0, hn⟩ r q, ← preN3_row h t1 t2 W0 W1 W2 b ⟨0, hn⟩ r q, coe_mul_coe]
  | n + 1, hn => by
    show k3_pay2 (F := Ideal) (tileOut3 V c ⟨n + 1, hn⟩) (acc3_1 V c n (Nat.lt_of_succ_lt hn)) (ix2 (0 : Fin 1) q) = _
    rw [pay2_at3, acc3_1_at c h t1 t2 W0 W1 W2 b H0 H1 H2 H3 H4 H5 H6 q n (Nat.lt_of_succ_lt hn), Finset.sum_range_succ _ (n + 1), ← coe_add_coe]
    refine congrArg (_ + ·) ?_
    exact sum_eq_coe_of_forall _ _ _ fun r _ => by
      rw [tileOut3_at V c h t1 t2 W0 W1 W2 b H0 H1 H2 H3 H4 H5 H6 ⟨n + 1, hn⟩ r q, ← preN3_row h t1 t2 W0 W1 W2 b ⟨n + 1, hn⟩ r q, coe_mul_coe]

/-- The ten tiles' sums regrouped: a sum over all 50000 rows. -/
theorem tiles_sum3 (g : ℕ → ℝ) : ∑ t ∈ Finset.range 10, ∑ r : Fin 5000, g (5000 * t + r.val) = ∑ i : Fin 50000, g i.val :=
  (sum_fin_val_eq_sum_range_tiles (n := 50000) (a := 10) (b := 5000) (by norm_num) g).symm

theorem preN3_val (h t1 t2 : Spec.Hidden) (W0 W1 W2 : Fin 128 → Fin 128 → ℝ) (b : Fin 128 → ℝ) (i : Fin 50000) (q : Fin 128) : preN3 h t1 t2 W0 W1 W2 b i.val q = pre3 h t1 t2 W0 W1 W2 b i q :=
  dif_pos i.isLt

/-! ## The three outputs -/

/-- The row-tile output holds the layer before batch norm. -/
theorem val3_7 (c : Dev nD) (h t1 t2 : Spec.Hidden) (W0 W1 W2 : Fin 128 → Fin 128 → ℝ) (b : Fin 128 → ℝ)
    (H0 : Holds2 (ar3_0 V c) h) (H1 : Holds2 (ar3_1 V c) t1) (H2 : Holds2 (ar3_2 V c) t2)
    (H3 : Holds2 (ar3_3 V c) W0) (H4 : Holds2 (ar3_4 V c) W1) (H5 : Holds2 (ar3_5 V c) W2) (H6 : Holds2 (ar3_6 V c) (fun _ k => b k)) :
    Holds2 (res3_7 V c) (pre3 h t1 t2 W0 W1 W2 b) := by
  intro i
  obtain ⟨r, q, rfl⟩ : ∃ (r : Fin 50000) (q : Fin 128), i = ix2 r q := ⟨i 0, i 1, eq_ix2 i⟩
  show (dat3 V c).arrAt 7 cfg3.N (ix2 r q) = ((pre3 h t1 t2 W0 W1 W2 b r q : ℝ) : EReal)
  rw [final3_7]
  show tileEntry3 V c r.val q.val _ _ = _
  unfold tileEntry3
  refine (tileOut3_at V c h t1 t2 W0 W1 W2 b H0 H1 H2 H3 H4 H5 H6
    ⟨r.val / 5000, by rw [show cfg3.N = 10 from N_3]; have := r.isLt; omega⟩ ⟨r.val % 5000, Nat.mod_lt _ (by decide)⟩ ⟨q.val, q.isLt⟩).trans ?_
  have e : (⟨5000 * (r.val / 5000) + r.val % 5000,
      row_lt3 ⟨r.val / 5000, by rw [show cfg3.N = 10 from N_3]; have := r.isLt; omega⟩ ⟨r.val % 5000, Nat.mod_lt _ (by decide)⟩⟩ : Fin 50000) = r :=
    Fin.ext (Nat.div_add_mod _ _)
  show ((pre3 h t1 t2 W0 W1 W2 b ⟨5000 * (r.val / 5000) + r.val % 5000, _⟩ ⟨q.val, q.isLt⟩ : ℝ) : EReal) = ((pre3 h t1 t2 W0 W1 W2 b r q : ℝ) : EReal)
  rw [e]

/-- The column-sum output holds the layer's column sums over all rows. -/
theorem val3_8 (c : Dev nD) (h t1 t2 : Spec.Hidden) (W0 W1 W2 : Fin 128 → Fin 128 → ℝ) (b : Fin 128 → ℝ)
    (H0 : Holds2 (ar3_0 V c) h) (H1 : Holds2 (ar3_1 V c) t1) (H2 : Holds2 (ar3_2 V c) t2)
    (H3 : Holds2 (ar3_3 V c) W0) (H4 : Holds2 (ar3_4 V c) W1) (H5 : Holds2 (ar3_5 V c) W2) (H6 : Holds2 (ar3_6 V c) (fun _ k => b k)) :
    Holds2 (res3_8 V c) (fun _ k => ∑ i : Fin 50000, pre3 h t1 t2 W0 W1 W2 b i k) := by
  intro i
  obtain ⟨u, q, rfl⟩ : ∃ (u : Fin 1) (q : Fin 128), i = ix2 u q := ⟨i 0, i 1, eq_ix2 i⟩
  obtain rfl : u = 0 := Subsingleton.elim u 0
  show (dat3 V c).arrAt 8 cfg3.N (ix2 (0 : Fin 1) q) = ((∑ i' : Fin 50000, pre3 h t1 t2 W0 W1 W2 b i' q : ℝ) : EReal)
  rw [final3_8]
  show acc3_0 V c 9 nine_lt3 (ix2 (0 : Fin 1) q) = _
  rw [acc3_0_at V c h t1 t2 W0 W1 W2 b H0 H1 H2 H3 H4 H5 H6 q 9 nine_lt3, show (9 + 1 : ℕ) = 10 from rfl,
    tiles_sum3 (fun m => preN3 h t1 t2 W0 W1 W2 b m q)]
  simp only [preN3_val]

/-- The sum-of-squares output holds the column sums of its squares. -/
theorem val3_9 (c : Dev nD) (h t1 t2 : Spec.Hidden) (W0 W1 W2 : Fin 128 → Fin 128 → ℝ) (b : Fin 128 → ℝ)
    (H0 : Holds2 (ar3_0 V c) h) (H1 : Holds2 (ar3_1 V c) t1) (H2 : Holds2 (ar3_2 V c) t2)
    (H3 : Holds2 (ar3_3 V c) W0) (H4 : Holds2 (ar3_4 V c) W1) (H5 : Holds2 (ar3_5 V c) W2) (H6 : Holds2 (ar3_6 V c) (fun _ k => b k)) :
    Holds2 (res3_9 V c) (fun _ k => ∑ i : Fin 50000, pre3 h t1 t2 W0 W1 W2 b i k * pre3 h t1 t2 W0 W1 W2 b i k) := by
  intro i
  obtain ⟨u, q, rfl⟩ : ∃ (u : Fin 1) (q : Fin 128), i = ix2 u q := ⟨i 0, i 1, eq_ix2 i⟩
  obtain rfl : u = 0 := Subsingleton.elim u 0
  show (dat3 V c).arrAt 9 cfg3.N (ix2 (0 : Fin 1) q) = ((∑ i' : Fin 50000, pre3 h t1 t2 W0 W1 W2 b i' q * pre3 h t1 t2 W0 W1 W2 b i' q : ℝ) : EReal)
  rw [final3_9]
  show acc3_1 V c 9 nine_lt3 (ix2 (0 : Fin 1) q) = _
  rw [acc3_1_at V c h t1 t2 W0 W1 W2 b H0 H1 H2 H3 H4 H5 H6 q 9 nine_lt3, show (9 + 1 : ℕ) = 10 from rfl,
    tiles_sum3 (fun m => preN3 h t1 t2 W0 W1 W2 b m q * preN3 h t1 t2 W0 W1 W2 b m q)]
  simp only [preN3_val]

end Cert.KernelIdeal.Hand.Val

end
-- ==== Proof.KI.ValH3.lean ====
/- The host operations between regions 2 and 3. From the hidden state after layer 1 `h` they prepare what region 3 reads:
   `L h` and `L (L h)` — each one gather of the edges' source rows, scaled by the edges' weights, scatter-added at the
   edges' targets into zeros — and layer 1's three weight matrices and bias row, cut out of the stacked
   parameters. For an arbitrary valuation of the buffers the stretch reads. -/
import proofs.«160050_j32744830665390_2_alg».proof.Proof.Spec
import proofs.«160050_j32744830665390_2_alg».proof.Proof.Bridge.Inputs
import proofs.«160050_j32744830665390_2_alg».proof.Proof.Math.Lift
import proofs.«160050_j32744830665390_2_alg».proof.Proof.Val.GatherScatter
import proofs.«160050_j32744830665390_2_alg».proof.Proof.Val.Ends
import proofs.«160050_j32744830665390_2_alg».proof.Proof.Gen.KernelIdeal.Launch
import Idealize.ShloMosaic.Lib.StableHlo.Run
import Idealize.ShloMosaic.Lib.ValueLayout
import Idealize.ShloMosaic.Lib.IdealHost
import Idealize.ShloMosaic.PureOps.Ideal.Laws

set_option maxRecDepth 16384

noncomputable section

namespace Cert.KernelIdeal.Hand.Val

open Cert.KernelIdeal Cert.KernelIdeal.Gen
open Idealize.ShloMosaic Idealize.ShloMosaic.TcCoe Idealize.ShloMosaic.ValueIdx Idealize.ShloMosaic.StableHlo
open Cert.Hand Cert.Hand.Bridge Cert.Hand.Math Cert.Hand.Val
open scoped BigOperators

/-! ## One application of the scaled Laplacian, as the host computes it -/

/-- Gather the sources' rows of `x` (a negative source word first moved up by the node count), scale each by its edge's
    weight, and scatter-add at the targets into zeros. -/
def lapHost3 (src dst : IVec S800000 32) (w : Vec Ideal S800000 .f32) (x : Vec Ideal S50000x128 .f32) : Vec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (mulf (broadcastInDim S800000x128 ![0, 1] bcast_S800000x1_S800000x128_0_1 (broadcastInDim S800000x1 ![0] bcast_S800000_S800000x1_0 w))
      (Host.gather gather_S50000x128_S800000x1_S800000x128_1_0_n_n_0_1_1128 x
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))

/-- A column broadcast along 128 features reads, at `(e, k)`, the column's entry `e`. -/
theorem colrow3_apply {α : Type} (hb : (⟨2, ![800000, 1]⟩ : Shape).BroadcastsInDim ⟨2, ![800000, 128]⟩ ![0, 1])
    (x : (⟨2, ![800000, 1]⟩ : Shape).Idx → α) (e : Fin 800000) (k : Fin 128) :
    broadcastInDim ⟨2, ![800000, 128]⟩ ![0, 1] hb x (ix2 e k) = x (ix2 e (0 : Fin 1)) :=
  broadcastInDim_apply ![0, 1] hb x (ix2 e k) (ix2 e (0 : Fin 1)) fun a => by
    match a with
    | ⟨0, _⟩ => show e.val = if (800000 : ℕ) = 1 then 0 else e.val; rw [if_neg (by decide)]
    | ⟨1, _⟩ => show (0 : ℕ) = if (1 : ℕ) = 1 then 0 else k.val; rw [if_pos rfl]

/-- If the index vectors name the edges' ends, the weights are the Laplacian's and `x` holds `h`, the host's step holds `L h`. -/
theorem lapHost3_holds (I : Spec.Inputs) (h : Spec.Hidden) {src dst : IVec S800000 32} {w : Vec Ideal S800000 .f32} {x : Vec Ideal S50000x128 .f32}
    (hsrc : Ends src I.src) (hdst : Ends dst I.dst) (hw : Holds1 (n0 := 800000) w (Spec.wEdge I)) (hx : Holds2 (n0 := 50000) (n1 := 128) x h) :
    Holds2 (n0 := 50000) (n1 := 128) (lapHost3 src dst w x) (Spec.lap I h) := by
  intro i
  obtain ⟨n, k, rfl⟩ : ∃ (n : Fin 50000) (k : Fin 128), i = ix2 n k := ⟨i 0, i 1, eq_ix2 i⟩
  unfold lapHost3
  refine (scatterRow_of_names (N := 50000) (E := 800000) (H := 128) _ _ _ _ I.dst (names_bcast bcast_S800000_S800000x1_0 hdst) n k).trans ?_
  -- the base is the zero splat
  have hz : broadcastInDim S50000x128 ![] bcast_S_S50000x128 (constant (F := Ideal) S_ .f32 0x00000000#32) (ix2 n k) = 0 := by
    rw [broadcastInDim_scalar_apply bcast_S_S50000x128 _ (ix2 n k)]
    exact Ideal.ofBits_zero_f32
  rw [hz, zero_add]
  refine (sum_eq_coe_of_forall _ _ (fun e => if I.dst e = n then Spec.wEdge I e * h (I.src e) k else 0) fun e _ => ?_).trans rfl
  by_cases hd : I.dst e = n
  · -- an edge into `n`: its weight times its source's row
    simp only [if_pos hd]
    rw [mulf_apply, colrow3_apply bcast_S800000x1_S800000x128_0_1 _ e k,
      bcastCol_apply (by decide) bcast_S800000_S800000x1_0 w e (0 : Fin 1), hw (ix1 e)]
    refine (congrArg (((Spec.wEdge I e : ℝ) : EReal) * ·)
      ((gatherRow_of_names (N := 50000) (E := 800000) (H := 128) _ x _ I.src
        (names_wrap_bcast bcast_S_S800000 bcast_S_S800000 bcast_S800000_S800000x1_0 hsrc) e k).trans (hx (ix2 (I.src e) k)))).trans ?_
    exact coe_mul_coe _ _
  · simp only [if_neg hd]; rfl

/-! ## A weight matrix cut out of the stacked weights -/

/-- Block `(l, m)` of a [3,3,128,128] array, its two unit axes dropped, read at `(j, k)`. -/
theorem wslice3_at {α : Type} (x : (⟨4, ![3, 3, 128, 128]⟩ : Shape).Idx → α) (off : Fin 4 → ℕ)
    (hs : (⟨4, ![3, 3, 128, 128]⟩ : Shape).Slices off ⟨4, ![1, 1, 128, 128]⟩)
    (hc : (⟨4, ![1, 1, 128, 128]⟩ : Shape).ShapeCasts ⟨2, ![128, 128]⟩) (l m : Fin 3)
    (h0 : off 0 = l.val) (h1 : off 1 = m.val ∧ off 2 = 0 ∧ off 3 = 0) (j k : Fin 128) :
    shapeCast ⟨2, ![128, 128]⟩ (extractStridedSlice ⟨4, ![1, 1, 128, 128]⟩ off x hs) hc (ix2 j k) = x (ix4 l m j k) := by
  refine (shapeCast_apply _ hc (ix2 j k) (ix4 (0 : Fin 1) (0 : Fin 1) j k) ?_).trans ?_
  · rw [Shape.rowMajor_val_four, Shape.rowMajor_val_two]
    show ((0 * 1 + 0) * 128 + j.val) * 128 + k.val = j.val * 128 + k.val
    omega
  · refine extractStridedSlice_apply off x hs _ (ix4 l m j k) fun a => ?_
    match a with
    | ⟨0, _⟩ => show l.val = off 0 + 0; omega
    | ⟨1, _⟩ => show m.val = off 1 + 0; omega
    | ⟨2, _⟩ => show j.val = off 2 + j.val; omega
    | ⟨3, _⟩ => show k.val = off 3 + k.val; omega

/-- Row `l` of a [3,128] array, as a [1,128] row (through the flat [128] form and back), read at `(u, k)`. -/
theorem bslice3_at {α : Type} (x : (⟨2, ![3, 128]⟩ : Shape).Idx → α) (off : Fin 2 → ℕ)
    (hs : (⟨2, ![3, 128]⟩ : Shape).Slices off ⟨2, ![1, 128]⟩)
    (hc1 : (⟨2, ![1, 128]⟩ : Shape).ShapeCasts ⟨1, ![128]⟩) (hc2 : (⟨1, ![128]⟩ : Shape).ShapeCasts ⟨2, ![1, 128]⟩) (l : Fin 3)
    (h0 : off 0 = l.val) (h1 : off 1 = 0) (u : Fin 1) (k : Fin 128) :
    shapeCast ⟨2, ![1, 128]⟩ (shapeCast ⟨1, ![128]⟩ (extractStridedSlice ⟨2, ![1, 128]⟩ off x hs) hc1) hc2 (ix2 u k) = x (ix2 l k) := by
  refine (shapeCast_a_1a_apply _ hc2 u k).trans ((shapeCast_1a_a_apply _ hc1 k).trans ?_)
  refine extractStridedSlice_apply off x hs _ (ix2 l k) fun a => ?_
  match a with
  | ⟨0, _⟩ => show l.val = off 0 + 0; omega
  | ⟨1, _⟩ => show k.val = off 1 + k.val; omega

/-! ## The stretch -/

variable (V : Valuation τ sig (Elt Ideal))

/-- The stretch does not write the hidden state it reads. -/
theorem acts3_kept : StableHlo.after hostOps3 V (Proc.devRef .tc main_v92) = V (Proc.devRef .tc main_v92) := by
  after_results

set_option maxHeartbeats 4000000 in
/-- After the stretch `main_v105` is one Laplacian step on the hidden state, -/
theorem lapA_term3 : StableHlo.after hostOps3 V (Proc.devRef .tc main_v105)
    = lapHost3 (V (Proc.devRef .tc main_v1)) (V (Proc.devRef .tc main_v3)) (V (Proc.devRef .tc main_v33)) (V (Proc.devRef .tc main_v92)) := by
  after_results_simp
  try rfl

set_option maxHeartbeats 8000000 in
/-- and `main_v118` a second step on that. -/
theorem lapB_term3 : StableHlo.after hostOps3 V (Proc.devRef .tc main_v118)
    = lapHost3 (V (Proc.devRef .tc main_v1)) (V (Proc.devRef .tc main_v3)) (V (Proc.devRef .tc main_v33))
        (lapHost3 (V (Proc.devRef .tc main_v1)) (V (Proc.devRef .tc main_v3)) (V (Proc.devRef .tc main_v33)) (V (Proc.devRef .tc main_v92))) := by
  after_results_simp
  try rfl

variable (I : Spec.Inputs) (h : Spec.Hidden)

theorem valH3_lap1 (hsrc : Ends (V (Proc.devRef .tc main_v1)) I.src) (hdst : Ends (V (Proc.devRef .tc main_v3)) I.dst)
    (hw : Holds1 (n0 := 800000) (V (Proc.devRef .tc main_v33)) (Spec.wEdge I))
    (hh : Holds2 (n0 := 50000) (n1 := 128) (V (Proc.devRef .tc main_v92)) h) :
    Holds2 (n0 := 50000) (n1 := 128) (StableHlo.after hostOps3 V (Proc.devRef .tc main_v105)) (Spec.lap I h) := by
  rw [lapA_term3]
  exact lapHost3_holds I h hsrc hdst hw hh

theorem valH3_lap2 (hsrc : Ends (V (Proc.devRef .tc main_v1)) I.src) (hdst : Ends (V (Proc.devRef .tc main_v3)) I.dst)
    (hw : Holds1 (n0 := 800000) (V (Proc.devRef .tc main_v33)) (Spec.wEdge I))
    (hh : Holds2 (n0 := 50000) (n1 := 128) (V (Proc.devRef .tc main_v92)) h) :
    Holds2 (n0 := 50000) (n1 := 128) (StableHlo.after hostOps3 V (Proc.devRef .tc main_v118)) (Spec.lap I (Spec.lap I h)) := by
  rw [lapB_term3]
  exact lapHost3_holds I (Spec.lap I h) hsrc hdst hw (lapHost3_holds I h hsrc hdst hw hh)

/-- After the stretch `main_v120` holds the layer's weight matrix 0: block (1, 0) of the stacked weights, its two unit axes dropped. -/
theorem valH3_w0_term : StableHlo.after hostOps3 V (Proc.devRef .tc main_v120)
    = shapeCast S128x128 (extractStridedSlice S1x1x128x128 ![1, 0, 0, 0] (V (Proc.devRef .tc main_arg5)) slices_S3x3x128x128_S1x1x128x128_1_0_0_0) shapeCasts_S1x1x128x128_S128x128 := by
  after_results
  try rfl

theorem valH3_w0 (hW : Holds4 (n0 := 3) (n1 := 3) (n2 := 128) (n3 := 128) (V (Proc.devRef .tc main_arg5)) I.chebW) :
    Holds2 (n0 := 128) (n1 := 128) (StableHlo.after hostOps3 V (Proc.devRef .tc main_v120)) (I.chebW 1 0) := by
  intro i
  obtain ⟨j, k, rfl⟩ : ∃ (j k : Fin 128), i = ix2 j k := ⟨i 0, i 1, eq_ix2 i⟩
  rw [valH3_w0_term]
  refine (wslice3_at (V (Proc.devRef .tc main_arg5)) ![1, 0, 0, 0] slices_S3x3x128x128_S1x1x128x128_1_0_0_0 shapeCasts_S1x1x128x128_S128x128 (1 : Fin 3) (0 : Fin 3) rfl ⟨rfl, rfl, rfl⟩ j k).trans ?_
  exact hW (ix4 (1 : Fin 3) (0 : Fin 3) j k)

/-- After the stretch `main_v122` holds the layer's weight matrix 1: block (1, 1) of the stacked weights, its two unit axes dropped. -/
theorem valH3_w1_term : StableHlo.after hostOps3 V (Proc.devRef .tc main_v122)
    = shapeCast S128x128 (extractStridedSlice S1x1x128x128 ![1, 1, 0, 0] (V (Proc.devRef .tc main_arg5)) slices_S3x3x128x128_S1x1x128x128_1_1_0_0) shapeCasts_S1x1x128x128_S128x128 := by
  after_results
  try rfl

theorem valH3_w1 (hW : Holds4 (n0 := 3) (n1 := 3) (n2 := 128) (n3 := 128) (V (Proc.devRef .tc main_arg5)) I.chebW) :
    Holds2 (n0 := 128) (n1 := 128) (StableHlo.after hostOps3 V (Proc.devRef .tc main_v122)) (I.chebW 1 1) := by
  intro i
  obtain ⟨j, k, rfl⟩ : ∃ (j k : Fin 128), i = ix2 j k := ⟨i 0, i 1, eq_ix2 i⟩
  rw [valH3_w1_term]
  refine (wslice3_at (V (Proc.devRef .tc main_arg5)) ![1, 1, 0, 0] slices_S3x3x128x128_S1x1x128x128_1_1_0_0 shapeCasts_S1x1x128x128_S128x128 (1 : Fin 3) (1 : Fin 3) rfl ⟨rfl, rfl, rfl⟩ j k).trans ?_
  exact hW (ix4 (1 : Fin 3) (1 : Fin 3) j k)

/-- After the stretch `main_v124` holds the layer's weight matrix 2: block (1, 2) of the stacked weights, its two unit axes dropped. -/
theorem valH3_w2_term : StableHlo.after hostOps3 V (Proc.devRef .tc main_v124)
    = shapeCast S128x128 (extractStridedSlice S1x1x128x128 ![1, 2, 0, 0] (V (Proc.devRef .tc main_arg5)) slices_S3x3x128x128_S1x1x128x128_1_2_0_0) shapeCasts_S1x1x128x128_S128x128 := by
  after_results
  try rfl

theorem valH3_w2 (hW : Holds4 (n0 := 3) (n1 := 3) (n2 := 128) (n3 := 128) (V (Proc.devRef .tc main_arg5)) I.chebW) :
    Holds2 (n0 := 128) (n1 := 128) (StableHlo.after hostOps3 V (Proc.devRef .tc main_v124)) (I.chebW 1 2) := by
  intro i
  obtain ⟨j, k, rfl⟩ : ∃ (j k : Fin 128), i = ix2 j k := ⟨i 0, i 1, eq_ix2 i⟩
  rw [valH3_w2_term]
  refine (wslice3_at (V (Proc.devRef .tc main_arg5)) ![1, 2, 0, 0] slices_S3x3x128x128_S1x1x128x128_1_2_0_0 shapeCasts_S1x1x128x128_S128x128 (1 : Fin 3) (2 : Fin 3) rfl ⟨rfl, rfl, rfl⟩ j k).trans ?_
  exact hW (ix4 (1 : Fin 3) (2 : Fin 3) j k)

/-- After the stretch `main_v127` holds the layer's bias as a row. -/
theorem valH3_bias_term : StableHlo.after hostOps3 V (Proc.devRef .tc main_v127)
    = shapeCast S1x128 (shapeCast S128 (extractStridedSlice S1x128 ![1, 0] (V (Proc.devRef .tc main_arg6)) slices_S3x128_S1x128_1_0) shapeCasts_S1x128_S128) shapeCasts_S128_S1x128 := by
  after_results
  try rfl

theorem valH3_bias (hB : Holds2 (n0 := 3) (n1 := 128) (V (Proc.devRef .tc main_arg6)) I.chebB) :
    Holds2 (n0 := 1) (n1 := 128) (StableHlo.after hostOps3 V (Proc.devRef .tc main_v127)) (fun _ k => I.chebB 1 k) := by
  intro i
  obtain ⟨u, k, rfl⟩ : ∃ (u : Fin 1) (k : Fin 128), i = ix2 u k := ⟨i 0, i 1, eq_ix2 i⟩
  rw [valH3_bias_term]
  refine (bslice3_at (V (Proc.devRef .tc main_arg6)) ![1, 0] slices_S3x128_S1x128_1_0 shapeCasts_S1x128_S128 shapeCasts_S128_S1x128 (1 : Fin 3) rfl rfl u k).trans ?_
  exact hB (ix2 (1 : Fin 3) k)

end Cert.KernelIdeal.Hand.Val

end
-- ==== Proof.KI.Val4.lean ====
import proofs.«160050_j32744830665390_2_alg».proof.Proof.Spec
import proofs.«160050_j32744830665390_2_alg».proof.Proof.Bridge.Inputs
import proofs.«160050_j32744830665390_2_alg».proof.Proof.Math.Lift
import proofs.«160050_j32744830665390_2_alg».proof.Proof.KI.Reg4
import Idealize.ShloMosaic.PureOps.Ideal.Laws

/-! # Region 4's output array, read over the reals

Region 4 leaves in its output array every pre-normalisation activation centred by its feature's mean, scaled by the
reciprocal square root of its feature's variance plus ε, multiplied by the feature's scale, shifted by the feature's
shift and clamped below at zero. Here that is read at the ideal instance, where a float is an extended real: if the
five input arrays hold real tables — the activations `o`, and rows `μ`, `v`, `g`, `b` — and every `v k + ε` is
positive, the output array holds the real table `max ((o i k − μ k) · (v k + ε)^(−1/2) · g k + b k) 0`. With `μ` the
column means of `o` and `g`, `b` layer 1's batch-norm parameters this is the specification's
`bnRelu` of that layer. -/

noncomputable section

namespace Cert.KernelIdeal.Hand.Val

open Cert.KernelIdeal Cert.KernelIdeal.Gen Cert.KernelIdeal.Hand
open Idealize.ShloMosaic Idealize.ShloMosaic.TcCoe Idealize.ShloMosaic.ValueIdx
open Cert.Hand Cert.Hand.Bridge

/-- Region 4's output array after its ten write-backs holds batch norm then relu of the activations it was given,
    for any real rows the four statistics arrays hold, the variance row plus ε being positive. -/
theorem val4 (V : Entry Ideal) (c : Dev nD) (o : Spec.Hidden) (μ v g b : Fin 128 → ℝ)
    (ho : Holds2 (n0 := 50000) (n1 := 128) (V c main_v128_0) o)
    (hμ : Holds2 (n0 := 1) (n1 := 128) (V c main_v141) (fun _ k => μ k))
    (hv : Holds2 (n0 := 1) (n1 := 128) (V c main_v142) (fun _ k => v k))
    (hg : Holds2 (n0 := 1) (n1 := 128) (V c main_v143) (fun _ k => g k))
    (hb : Holds2 (n0 := 1) (n1 := 128) (V c main_v144) (fun _ k => b k))
    (hpos : ∀ k, 0 < v k + Bridge.eps) :
    Holds2 (n0 := 50000) (n1 := 128) ((dat4 V c).arrAt 5 cfg4.N)
      (fun i k => max ((o i k - μ k) * Spec.rsq (v k + Bridge.eps) * g k + b k) 0) := by
  unfold Holds2
  intro i
  obtain ⟨p, q, rfl⟩ : ∃ (p : Fin 50000) (q : Fin 128), i = ix2 p q := ⟨i 0, i 1, eq_ix2 i⟩
  rw [final4_5 V c]
  have e0 : V c main_v128_0 (ix2 p q) = ((o p q : ℝ) : EReal) := ho (ix2 p q)
  have e1 : V c main_v141 (ix2 (0 : Fin 1) q) = ((μ q : ℝ) : EReal) := hμ (ix2 (0 : Fin 1) q)
  have e2 : V c main_v142 (ix2 (0 : Fin 1) q) = ((v q : ℝ) : EReal) := hv (ix2 (0 : Fin 1) q)
  have e3 : V c main_v143 (ix2 (0 : Fin 1) q) = ((g q : ℝ) : EReal) := hg (ix2 (0 : Fin 1) q)
  have e4 : V c main_v144 (ix2 (0 : Fin 1) q) = ((b q : ℝ) : EReal) := hb (ix2 (0 : Fin 1) q)
  show bnRelu246 (V c main_v128_0 (ix2 p q)) (V c main_v141 (ix2 (0 : Fin 1) q)) (V c main_v142 (ix2 (0 : Fin 1) q))
      (V c main_v143 (ix2 (0 : Fin 1) q)) (V c main_v144 (ix2 (0 : Fin 1) q))
    = ((max ((o p q - μ q) * Spec.rsq (v q + Bridge.eps) * g q + b q) 0 : ℝ) : EReal)
  rw [e0, e1, e2, e3, e4]
  unfold bnRelu246
  simp only [Ideal.subf_def, Ideal.addf_def, Ideal.mulf_def, Ideal.maximumf_def, Ideal.rsqrt_def, Ideal.ofBits_def]
  rw [Bridge.eps_spec.1, Ideal.ofBits_zero_f32]
  simp only [Math.coe_sub_coe, Math.coe_add_coe, Math.coe_mul_coe, Math.rsqrt_coe_of_pos (hpos q),
    Math.max_coe_zero]
  rfl

/-- With the mean row at the column means of `o` and the scale and shift rows at layer 1's batch-norm parameters,
    that table is the specification's `bnRelu` of layer 1 over `o`, the variance row being whatever `v` it is. -/
theorem val4_spec (V : Entry Ideal) (c : Dev nD) (I : Spec.Inputs) (o : Spec.Hidden) (v : Fin 128 → ℝ)
    (ho : Holds2 (n0 := 50000) (n1 := 128) (V c main_v128_0) o)
    (hμ : Holds2 (n0 := 1) (n1 := 128) (V c main_v141) (fun _ k => Spec.colMean o k))
    (hv : Holds2 (n0 := 1) (n1 := 128) (V c main_v142) (fun _ k => v k))
    (hg : Holds2 (n0 := 1) (n1 := 128) (V c main_v143) (fun _ k => I.bnG (1 : Fin 3) k))
    (hb : Holds2 (n0 := 1) (n1 := 128) (V c main_v144) (fun _ k => I.bnB (1 : Fin 3) k))
    (hpos : ∀ k, 0 < v k + Bridge.eps) :
    Holds2 (n0 := 50000) (n1 := 128) ((dat4 V c).arrAt 5 cfg4.N) (Spec.bnRelu I Bridge.eps (1 : Fin 3) v o) :=
  val4 V c o (Spec.colMean o) v (I.bnG (1 : Fin 3)) (I.bnB (1 : Fin 3)) ho hμ hv hg hb hpos

end Cert.KernelIdeal.Hand.Val

end
-- ==== Proof.KI.ValH4.lean ====
import proofs.«160050_j32744830665390_2_alg».proof.Proof.Spec
import proofs.«160050_j32744830665390_2_alg».proof.Proof.Bridge.Inputs
import proofs.«160050_j32744830665390_2_alg».proof.Proof.Math.Lift
import proofs.«160050_j32744830665390_2_alg».proof.Proof.Gen.KernelIdeal.Launch
import Idealize.ShloMosaic.Lib.StableHlo.Run
import Idealize.ShloMosaic.Lib.ValueLayout

/-! # The host stretch before region 4, read over the reals

Between Chebyshev region 3 and normalisation region 4 the host turns the column sums and the column sums of
squares the Chebyshev region left into the batch statistics: the mean row is the sums divided by the number
of nodes (the f32 word `0x47435000`, 50000), the variance row is the sums of squares divided by 50000 less the
squared mean, and the scale and shift rows are row 1 of the batch-norm parameter tables; each row passes through a
flatten and an unflatten, which change nothing. Read at the ideal instance, where a float is an extended real: if
the two sums' arrays hold the real column sums of a table `o` and the parameter tables hold the specification's
parameters, then after the stretch the four rows region 4 reads hold the column means of `o`, its variance as
mean of squares less squared mean, and layer 1's scale and shift. -/

noncomputable section

namespace Cert.KernelIdeal.Hand.Val

open Cert.KernelIdeal Cert.KernelIdeal.Gen
open Idealize.ShloMosaic Idealize.ShloMosaic.TcCoe Idealize.ShloMosaic.ValueIdx Idealize.ShloMosaic.StableHlo
open Cert.Hand Cert.Hand.Bridge
open scoped BigOperators

/-! ## The pieces -/

/-- The f32 word `0x47435000` is 50000, the number of nodes: sign 0, exponent 142, fraction `0x435000`, that is
    `(2^23 + 4411392) · 2^(142 − 127 − 23) = 12800000 / 256`. -/
theorem nodes4_word : Ideal.ofBits .f32 0x47435000#32 = ((50000 : ℝ) : EReal) := by
  have hex : ((0x47435000#32 : BitVec 32).extractLsb' 23 8).toNat = 142 := by decide
  have hfr : ((0x47435000#32 : BitVec 32).extractLsb' 0 23).toNat = 4411392 := by decide
  have hneg : ((0x47435000#32 : BitVec 32).extractLsb' (8 + 23) 1 == 1#1) = false := by decide
  unfold Ideal.ofBits Ideal.ieee
  simp only [hex, hfr, hneg]
  norm_num

/-- The row of 128 copies of that constant reads 50000 everywhere. -/
theorem nodes4_row (j : S1x128.Idx) :
    broadcastInDim S1x128 ![] bcast_S_S1x128 (constant (F := Ideal) S_ .f32 0x47435000#32) j
      = ((50000 : ℝ) : EReal) :=
  (broadcastInDim_apply (s := S_) (t := S1x128) ![] bcast_S_S1x128 (constant (F := Ideal) S_ .f32 0x47435000#32) j ix0
    (fun a => a.elim0)).trans nodes4_word

/-- A 1 × 128 row flattened to 128 entries and unflattened again reads, at feature `q`, what it read before. -/
theorem row4_roundtrip {α : Type} (x : S1x128.Idx → α) (u : Fin 1) (q : Fin 128) :
    shapeCast S1x128 (shapeCast S128 x shapeCasts_S1x128_S128) shapeCasts_S128_S1x128 (ix2 u q)
      = x (ix2 (0 : Fin 1) q) :=
  (shapeCast_a_1a_apply _ _ u q).trans (shapeCast_1a_a_apply _ _ q)

section Stretch

variable (V : Valuation τ sig (Elt Ideal))

/-! ## What the stretch leaves in the four rows, as terms over what it finds -/

/-- The mean row: the column sums divided by the row of 50000s, flattened and unflattened. -/
theorem mean4_term : StableHlo.after hostOps4 V (Proc.devRef .tc main_v141)
    = shapeCast S1x128 (shapeCast S128
        (Host.divf (V (Proc.devRef .tc main_v128_1))
          (broadcastInDim S1x128 ![] bcast_S_S1x128 (constant (F := Ideal) S_ .f32 0x47435000#32)))
        shapeCasts_S1x128_S128) shapeCasts_S128_S1x128 := by
  after_results <;> rfl

/-- The variance row: the column sums of squares divided by 50000, less the squared mean row, flattened and
    unflattened. -/
theorem var4_term : StableHlo.after hostOps4 V (Proc.devRef .tc main_v142)
    = shapeCast S1x128 (shapeCast S128
        (subf
          (Host.divf (V (Proc.devRef .tc main_v128_2))
            (broadcastInDim S1x128 ![] bcast_S_S1x128 (constant (F := Ideal) S_ .f32 0x47435000#32)))
          (mulf
            (Host.divf (V (Proc.devRef .tc main_v128_1))
              (broadcastInDim S1x128 ![] bcast_S_S1x128 (constant (F := Ideal) S_ .f32 0x47435000#32)))
            (Host.divf (V (Proc.devRef .tc main_v128_1))
              (broadcastInDim S1x128 ![] bcast_S_S1x128 (constant (F := Ideal) S_ .f32 0x47435000#32)))))
        shapeCasts_S1x128_S128) shapeCasts_S128_S1x128 := by
  after_results <;> rfl

/-- The scale row: row 1 of the scale table, flattened and unflattened. -/
theorem scale4_term : StableHlo.after hostOps4 V (Proc.devRef .tc main_v143)
    = shapeCast S1x128 (shapeCast S128
        (extractStridedSlice S1x128 ![1, 0] (V (Proc.devRef .tc main_arg7)) slices_S3x128_S1x128_1_0)
        shapeCasts_S1x128_S128) shapeCasts_S128_S1x128 := by
  after_results <;> rfl

/-- The shift row: row 1 of the shift table, flattened and unflattened. -/
theorem shift4_term : StableHlo.after hostOps4 V (Proc.devRef .tc main_v144)
    = shapeCast S1x128 (shapeCast S128
        (extractStridedSlice S1x128 ![1, 0] (V (Proc.devRef .tc main_arg8)) slices_S3x128_S1x128_1_0)
        shapeCasts_S1x128_S128) shapeCasts_S128_S1x128 := by
  after_results <;> rfl

/-- The stretch writes none of the activations region 4 reads. -/
theorem acts4_kept : StableHlo.after hostOps4 V (Proc.devRef .tc main_v128_0) = V (Proc.devRef .tc main_v128_0) := by
  after_results <;> rfl

/-! ## The four rows over the reals -/

variable (I : Spec.Inputs) (o : Spec.Hidden)

/-- The mean row holds the column means. -/
theorem valH4_mean
    (hs : Holds2 (n0 := 1) (n1 := 128) (V (Proc.devRef .tc main_v128_1)) (fun _ k => ∑ i : Fin 50000, o i k)) :
    Holds2 (n0 := 1) (n1 := 128) (StableHlo.after hostOps4 V (Proc.devRef .tc main_v141))
      (fun _ k => Spec.colMean o k) := by
  rw [mean4_term]
  unfold Holds2
  intro i
  obtain ⟨u, q, rfl⟩ : ∃ (u : Fin 1) (q : Fin 128), i = ix2 u q := ⟨i 0, i 1, eq_ix2 i⟩
  refine (row4_roundtrip _ u q).trans ?_
  have es : V (Proc.devRef .tc main_v128_1) (ix2 (0 : Fin 1) q) = ((∑ i : Fin 50000, o i q : ℝ) : EReal) :=
    hs (ix2 (0 : Fin 1) q)
  show FloatOps.hostDivf (V (Proc.devRef .tc main_v128_1) (ix2 (0 : Fin 1) q))
      (broadcastInDim S1x128 ![] bcast_S_S1x128 (constant (F := Ideal) S_ .f32 0x47435000#32) (ix2 (0 : Fin 1) q))
    = ((Spec.colMean o q : ℝ) : EReal)
  rw [nodes4_row, es, Ideal.hostDivf_def, Math.div_coe_coe _ (by norm_num : (50000 : ℝ) ≠ 0)]
  rfl

/-- The variance row holds the mean of squares less the squared mean. -/
theorem valH4_var
    (hs : Holds2 (n0 := 1) (n1 := 128) (V (Proc.devRef .tc main_v128_1)) (fun _ k => ∑ i : Fin 50000, o i k))
    (hq : Holds2 (n0 := 1) (n1 := 128) (V (Proc.devRef .tc main_v128_2))
      (fun _ k => ∑ i : Fin 50000, o i k * o i k)) :
    Holds2 (n0 := 1) (n1 := 128) (StableHlo.after hostOps4 V (Proc.devRef .tc main_v142))
      (fun _ k => Spec.varMom o k) := by
  rw [var4_term]
  unfold Holds2
  intro i
  obtain ⟨u, q, rfl⟩ : ∃ (u : Fin 1) (q : Fin 128), i = ix2 u q := ⟨i 0, i 1, eq_ix2 i⟩
  refine (row4_roundtrip _ u q).trans ?_
  have es : V (Proc.devRef .tc main_v128_1) (ix2 (0 : Fin 1) q) = ((∑ i : Fin 50000, o i q : ℝ) : EReal) :=
    hs (ix2 (0 : Fin 1) q)
  have eq : V (Proc.devRef .tc main_v128_2) (ix2 (0 : Fin 1) q)
      = ((∑ i : Fin 50000, o i q * o i q : ℝ) : EReal) := hq (ix2 (0 : Fin 1) q)
  show FloatOps.subf
      (FloatOps.hostDivf (V (Proc.devRef .tc main_v128_2) (ix2 (0 : Fin 1) q))
        (broadcastInDim S1x128 ![] bcast_S_S1x128 (constant (F := Ideal) S_ .f32 0x47435000#32) (ix2 (0 : Fin 1) q)))
      (FloatOps.mulf
        (FloatOps.hostDivf (V (Proc.devRef .tc main_v128_1) (ix2 (0 : Fin 1) q))
          (broadcastInDim S1x128 ![] bcast_S_S1x128 (constant (F := Ideal) S_ .f32 0x47435000#32) (ix2 (0 : Fin 1) q)))
        (FloatOps.hostDivf (V (Proc.devRef .tc main_v128_1) (ix2 (0 : Fin 1) q))
          (broadcastInDim S1x128 ![] bcast_S_S1x128 (constant (F := Ideal) S_ .f32 0x47435000#32) (ix2 (0 : Fin 1) q))))
    = ((Spec.varMom o q : ℝ) : EReal)
  rw [nodes4_row, es, eq]
  simp only [Ideal.hostDivf_def, Ideal.subf_def, Ideal.mulf_def,
    Math.div_coe_coe _ (by norm_num : (50000 : ℝ) ≠ 0), Math.coe_mul_coe, Math.coe_sub_coe]
  rfl

/-- The scale row holds layer 1's scale. -/
theorem valH4_scale (hg : Holds2 (n0 := 3) (n1 := 128) (V (Proc.devRef .tc main_arg7)) I.bnG) :
    Holds2 (n0 := 1) (n1 := 128) (StableHlo.after hostOps4 V (Proc.devRef .tc main_v143))
      (fun _ k => I.bnG (1 : Fin 3) k) := by
  rw [scale4_term]
  unfold Holds2
  intro i
  obtain ⟨u, q, rfl⟩ : ∃ (u : Fin 1) (q : Fin 128), i = ix2 u q := ⟨i 0, i 1, eq_ix2 i⟩
  refine (row4_roundtrip _ u q).trans ?_
  refine (slice2_axis0_apply 1 (V (Proc.devRef .tc main_arg7)) slices_S3x128_S1x128_1_0 (0 : Fin 1) q
    (1 : Fin 3) rfl).trans ?_
  exact hg (ix2 (1 : Fin 3) q)

/-- The shift row holds layer 1's shift. -/
theorem valH4_shift (hb : Holds2 (n0 := 3) (n1 := 128) (V (Proc.devRef .tc main_arg8)) I.bnB) :
    Holds2 (n0 := 1) (n1 := 128) (StableHlo.after hostOps4 V (Proc.devRef .tc main_v144))
      (fun _ k => I.bnB (1 : Fin 3) k) := by
  rw [shift4_term]
  unfold Holds2
  intro i
  obtain ⟨u, q, rfl⟩ : ∃ (u : Fin 1) (q : Fin 128), i = ix2 u q := ⟨i 0, i 1, eq_ix2 i⟩
  refine (row4_roundtrip _ u q).trans ?_
  refine (slice2_axis0_apply 1 (V (Proc.devRef .tc main_arg8)) slices_S3x128_S1x128_1_0 (0 : Fin 1) q
    (1 : Fin 3) rfl).trans ?_
  exact hb (ix2 (1 : Fin 3) q)

/-- THE STAGE: after the stretch the four rows region 4 reads hold the column means of `o`, its variance as mean of
    squares less squared mean, and layer 1's scale and shift; the activations are as they were. -/
theorem valH4
    (hs : Holds2 (n0 := 1) (n1 := 128) (V (Proc.devRef .tc main_v128_1)) (fun _ k => ∑ i : Fin 50000, o i k))
    (hq : Holds2 (n0 := 1) (n1 := 128) (V (Proc.devRef .tc main_v128_2))
      (fun _ k => ∑ i : Fin 50000, o i k * o i k))
    (hg : Holds2 (n0 := 3) (n1 := 128) (V (Proc.devRef .tc main_arg7)) I.bnG)
    (hb : Holds2 (n0 := 3) (n1 := 128) (V (Proc.devRef .tc main_arg8)) I.bnB) :
    Holds2 (n0 := 1) (n1 := 128) (StableHlo.after hostOps4 V (Proc.devRef .tc main_v141)) (fun _ k => Spec.colMean o k)
    ∧ Holds2 (n0 := 1) (n1 := 128) (StableHlo.after hostOps4 V (Proc.devRef .tc main_v142)) (fun _ k => Spec.varMom o k)
    ∧ Holds2 (n0 := 1) (n1 := 128) (StableHlo.after hostOps4 V (Proc.devRef .tc main_v143))
        (fun _ k => I.bnG (1 : Fin 3) k)
    ∧ Holds2 (n0 := 1) (n1 := 128) (StableHlo.after hostOps4 V (Proc.devRef .tc main_v144))
        (fun _ k => I.bnB (1 : Fin 3) k)
    ∧ StableHlo.after hostOps4 V (Proc.devRef .tc main_v128_0) = V (Proc.devRef .tc main_v128_0) :=
  ⟨valH4_mean V o hs, valH4_var V o hs hq, valH4_scale V I hg, valH4_shift V I hb, acts4_kept V⟩

end Stretch

end Cert.KernelIdeal.Hand.Val

end
-- ==== Proof.KI.Reg5.Value.lean ====
/- Region 5, the values. What each control case's stores read back as, over the body's named arithmetic: the
   affine result of the tile for the row-tile output; for an accumulator, the tile's column sum (or column sum of
   squares) added onto what it held, which at the first tile is zero; for a small output, the accumulator's final
   contents. Then, by induction on the tile, what the accumulators hold after each tile. -/
import proofs.«160050_j32744830665390_2_alg».proof.Proof.KI.Iface
import proofs.«160050_j32744830665390_2_alg».proof.Proof.KI.Reg5
import Idealize.ShloMosaic.Lib.Pipeline.Value
import Idealize.ShloMosaic.Lib.ValueIdx
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two zero offsets of a rank-2 rectangle, as the constant-zero function. -/
theorem offs00_5 : (![0, 0] : Fin 2 → Nat) = fun _ => 0 := funext fun a => by fin_cases a <;> rfl

/-! ## The pieces, case by case -/

section Cases

variable (c : Dev nD) (i : grid5.Coords)
  (arg1 : Memref sig .tc .vmem S5000x128 .f32) (harg1 : arg1.IsWhole)
  (arg2 : Memref sig .tc .vmem S5000x128 .f32) (harg2 : arg2.IsWhole)
  (arg3 : Memref sig .tc .vmem S5000x128 .f32) (harg3 : arg3.IsWhole)
  (arg4 : Memref sig .tc .vmem S128x128 .f32) (harg4 : arg4.IsWhole)
  (arg5 : Memref sig .tc .vmem S128x128 .f32) (harg5 : arg5.IsWhole)
  (arg6 : Memref sig .tc .vmem S128x128 .f32) (harg6 : arg6.IsWhole)
  (arg7 : Memref sig .tc .vmem S1x128 .f32) (harg7 : arg7.IsWhole)
  (arg8 : Memref sig .tc .vmem S5000x128 .f32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S1x128 .f32) (harg11 : arg11.IsWhole)
  (arg12 : Memref sig .tc .vmem S1x128 .f32) (harg12 : arg12.IsWhole)

/-- The first tile stores the affine result of its blocks into the row-tile output. -/
theorem out5_A_7_eq (hc0 : cond5_0 i) (hc1 : ¬cond5_1 i) (x0 x1 x2 : Vec F S5000x128 .f32) (x3 x4 x5 : Vec F S128x128 .f32) (x6 : Vec F S1x128 .f32) :
    out5_A_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 = k5_pay5 x0 x1 x2 x3 x4 x5 x6 := by
  unfold out5_A_7
  rw [View.read_writes_eq_canon _ _ _ (cover5_A_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun5_A
  dsimp only
  try sl_unfold_words
  rw [View.canon_unit_zero offs00_5]
  simp only [View.readAt_eq_ld, harg1.read_unread, harg2.read_unread, harg3.read_unread, harg4.read_unread, harg5.read_unread, harg6.read_unread, harg7.read_unread, View.ld_unit_zero (S := S5000x128) offs00_5, View.ld_unit_zero (S := S128x128) offs00_5, View.ld_unit_zero (S := S1x128) offs00_5]

/-- The first tile leaves in the first accumulator the column sum of its affine result added onto the zero it was cleared to. -/
theorem sout5_A_0_eq (hc0 : cond5_0 i) (hc1 : ¬cond5_1 i) (x0 x1 x2 : Vec F S5000x128 .f32) (x3 x4 x5 : Vec F S128x128 .f32) (x6 : Vec F S1x128 .f32) :
    sout5_A_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 = k5_pay1 (k5_pay5 x0 x1 x2 x3 x4 x5 x6) (k5_pay3 (F := F)) := by
  unfold sout5_A_0
  rw [View.read_writes_eq_canon _ _ _ (scover5_A_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun5_A
  dsimp only
  try sl_unfold_words
  rw [View.canon_cons_unit_zero (S := S1x128) offs00_5]
  simp only [View.readAt_eq_ld, harg1.read_unread, harg2.read_unread, harg3.read_unread, harg4.read_unread, harg5.read_unread, harg6.read_unread, harg7.read_unread, View.ld_unit_zero (S := S5000x128) offs00_5, View.ld_unit_zero (S := S128x128) offs00_5, View.ld_unit_zero (S := S1x128) offs00_5, View.readCov_unit_zero (S := S1x128) _ offs00_5]

/-- And in the second the column sum of squares added onto zero. -/
theorem sout5_A_1_eq (hc0 : cond5_0 i) (hc1 : ¬cond5_1 i) (x0 x1 x2 : Vec F S5000x128 .f32) (x3 x4 x5 : Vec F S128x128 .f32) (x6 : Vec F S1x128 .f32) :
    sout5_A_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 = k5_pay2 (k5_pay5 x0 x1 x2 x3 x4 x5 x6) (k5_pay4 (F := F)) := by
  unfold sout5_A_1
  rw [View.read_writes_eq_canon _ _ _ (scover5_A_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun5_A
  dsimp only
  try sl_unfold_words
  rw [View.canon_cons_unit_zero (S := S1x128) offs00_5]
  simp only [View.readAt_eq_ld, harg1.read_unread, harg2.read_unread, harg3.read_unread, harg4.read_unread, harg5.read_unread, harg6.read_unread, harg7.read_unread, View.ld_unit_zero (S := S5000x128) offs00_5, View.ld_unit_zero (S := S128x128) offs00_5, View.ld_unit_zero (S := S1x128) offs00_5, View.readCov_unit_zero (S := S1x128) _ offs00_5]

/-- A middle tile stores the affine result of its blocks into the row-tile output. -/
theorem out5_B_7_eq (hc0 : ¬cond5_0 i) (hc1 : ¬cond5_1 i) (x0 x1 x2 : Vec F S5000x128 .f32) (x3 x4 x5 : Vec F S128x128 .f32) (x6 : Vec F S1x128 .f32) (xs0 xs1 : Vec F S1x128 .f32) :
    out5_B_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k5_pay5 x0 x1 x2 x3 x4 x5 x6 := by
  unfold out5_B_7
  rw [View.read_writes_eq_canon _ _ _ (cover5_B_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun5_B
  dsimp only
  try sl_unfold_words
  rw [View.canon_unit_zero offs00_5]
  simp only [View.readAt_eq_ld, harg1.read_unread, harg2.read_unread, harg3.read_unread, harg4.read_unread, harg5.read_unread, harg6.read_unread, harg7.read_unread, harg11.read_unread, harg12.read_unread, View.ld_unit_zero (S := S5000x128) offs00_5, View.ld_unit_zero (S := S128x128) offs00_5, View.ld_unit_zero (S := S1x128) offs00_5]

/-- A middle tile adds the column sum of its affine result onto what the first accumulator held. -/
theorem sout5_B_0_eq (hc0 : ¬cond5_0 i) (hc1 : ¬cond5_1 i) (x0 x1 x2 : Vec F S5000x128 .f32) (x3 x4 x5 : Vec F S128x128 .f32) (x6 : Vec F S1x128 .f32) (xs0 xs1 : Vec F S1x128 .f32) :
    sout5_B_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k5_pay1 (k5_pay5 x0 x1 x2 x3 x4 x5 x6) xs0 := by
  unfold sout5_B_0
  rw [View.read_writes_eq_canon _ _ _ (scover5_B_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun5_B
  dsimp only
  try sl_unfold_words
  rw [View.canon_unit_zero offs00_5]
  simp only [View.readAt_eq_ld, harg1.read_unread, harg2.read_unread, harg3.read_unread, harg4.read_unread, harg5.read_unread, harg6.read_unread, harg7.read_unread, harg11.read_unread, harg12.read_unread, View.ld_unit_zero (S := S5000x128) offs00_5, View.ld_unit_zero (S := S128x128) offs00_5, View.ld_unit_zero (S := S1x128) offs00_5]

/-- And the column sum of squares onto what the second held. -/
theorem sout5_B_1_eq (hc0 : ¬cond5_0 i) (hc1 : ¬cond5_1 i) (x0 x1 x2 : Vec F S5000x128 .f32) (x3 x4 x5 : Vec F S128x128 .f32) (x6 : Vec F S1x128 .f32) (xs0 xs1 : Vec F S1x128 .f32) :
    sout5_B_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k5_pay2 (k5_pay5 x0 x1 x2 x3 x4 x5 x6) xs1 := by
  unfold sout5_B_1
  rw [View.read_writes_eq_canon _ _ _ (scover5_B_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun5_B
  dsimp only
  try sl_unfold_words
  rw [View.canon_unit_zero offs00_5]
  simp only [View.readAt_eq_ld, harg1.read_unread, harg2.read_unread, harg3.read_unread, harg4.read_unread, harg5.read_unread, harg6.read_unread, harg7.read_unread, harg11.read_unread, harg12.read_unread, View.ld_unit_zero (S := S5000x128) offs00_5, View.ld_unit_zero (S := S128x128) offs00_5, View.ld_unit_zero (S := S1x128) offs00_5]

/-- The last tile stores the affine result of its blocks into the row-tile output. -/
theorem out5_C_7_eq (hc0 : ¬cond5_0 i) (hc1 : cond5_1 i) (x0 x1 x2 : Vec F S5000x128 .f32) (x3 x4 x5 : Vec F S128x128 .f32) (x6 : Vec F S1x128 .f32) (xs0 xs1 : Vec F S1x128 .f32) :
    out5_C_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k5_pay5 x0 x1 x2 x3 x4 x5 x6 := by
  unfold out5_C_7
  rw [View.read_writes_eq_canon _ _ _ (cover5_C_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun5_C
  dsimp only
  try sl_unfold_words
  rw [View.canon_unit_zero offs00_5]
  simp only [View.readAt_eq_ld, harg1.read_unread, harg2.read_unread, harg3.read_unread, harg4.read_unread, harg5.read_unread, harg6.read_unread, harg7.read_unread, harg11.read_unread, harg12.read_unread, View.ld_unit_zero (S := S5000x128) offs00_5, View.ld_unit_zero (S := S128x128) offs00_5, View.ld_unit_zero (S := S1x128) offs00_5]

/-- The last tile adds the column sum of its affine result onto what the first accumulator held. -/
theorem sout5_C_0_eq (hc0 : ¬cond5_0 i) (hc1 : cond5_1 i) (x0 x1 x2 : Vec F S5000x128 .f32) (x3 x4 x5 : Vec F S128x128 .f32) (x6 : Vec F S1x128 .f32) (xs0 xs1 : Vec F S1x128 .f32) :
    sout5_C_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k5_pay1 (k5_pay5 x0 x1 x2 x3 x4 x5 x6) xs0 := by
  unfold sout5_C_0
  rw [View.read_writes_eq_canon _ _ _ (scover5_C_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun5_C
  dsimp only
  try sl_unfold_words
  rw [View.canon_unit_zero offs00_5]
  simp only [View.readAt_eq_ld, harg1.read_unread, harg2.read_unread, harg3.read_unread, harg4.read_unread, harg5.read_unread, harg6.read_unread, harg7.read_unread, harg11.read_unread, harg12.read_unread, View.ld_unit_zero (S := S5000x128) offs00_5, View.ld_unit_zero (S := S128x128) offs00_5, View.ld_unit_zero (S := S1x128) offs00_5]

/-- And the column sum of squares onto what the second held. -/
theorem sout5_C_1_eq (hc0 : ¬cond5_0 i) (hc1 : cond5_1 i) (x0 x1 x2 : Vec F S5000x128 .f32) (x3 x4 x5 : Vec F S128x128 .f32) (x6 : Vec F S1x128 .f32) (xs0 xs1 : Vec F S1x128 .f32) :
    sout5_C_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k5_pay2 (k5_pay5 x0 x1 x2 x3 x4 x5 x6) xs1 := by
  unfold sout5_C_1
  rw [View.read_writes_eq_canon _ _ _ (scover5_C_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun5_C
  dsimp only
  try sl_unfold_words
  rw [View.canon_unit_zero offs00_5]
  simp only [View.readAt_eq_ld, harg1.read_unread, harg2.read_unread, harg3.read_unread, harg4.read_unread, harg5.read_unread, harg6.read_unread, harg7.read_unread, harg11.read_unread, harg12.read_unread, View.ld_unit_zero (S := S5000x128) offs00_5, View.ld_unit_zero (S := S128x128) offs00_5, View.ld_unit_zero (S := S1x128) offs00_5]

/-- The last tile copies the first accumulator, as just updated, into the column-sum output. -/
theorem out5_C_8_eq (hc0 : ¬cond5_0 i) (hc1 : cond5_1 i) (x0 x1 x2 : Vec F S5000x128 .f32) (x3 x4 x5 : Vec F S128x128 .f32) (x6 : Vec F S1x128 .f32) (xs0 xs1 : Vec F S1x128 .f32) :
    out5_C_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k5_pay1 (k5_pay5 x0 x1 x2 x3 x4 x5 x6) xs0 := by
  unfold out5_C_8
  rw [View.read_writes_eq_canon _ _ _ (cover5_C_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun5_C
  dsimp only
  try sl_unfold_words
  rw [View.canon_unit_zero offs00_5]
  simp only [View.readAt_eq_ld, harg1.read_unread, harg2.read_unread, harg3.read_unread, harg4.read_unread, harg5.read_unread, harg6.read_unread, harg7.read_unread, harg11.read_unread, harg12.read_unread, View.ld_unit_zero (S := S5000x128) offs00_5, View.ld_unit_zero (S := S128x128) offs00_5, View.ld_unit_zero (S := S1x128) offs00_5, View.readCov_unit_zero (S := S1x128) _ offs00_5]

/-- And the second into the sum-of-squares output. -/
theorem out5_C_9_eq (hc0 : ¬cond5_0 i) (hc1 : cond5_1 i) (x0 x1 x2 : Vec F S5000x128 .f32) (x3 x4 x5 : Vec F S128x128 .f32) (x6 : Vec F S1x128 .f32) (xs0 xs1 : Vec F S1x128 .f32) :
    out5_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k5_pay2 (k5_pay5 x0 x1 x2 x3 x4 x5 x6) xs1 := by
  unfold out5_C_9
  rw [View.read_writes_eq_canon _ _ _ (cover5_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun5_C
  dsimp only
  try sl_unfold_words
  rw [View.canon_unit_zero offs00_5]
  simp only [View.readAt_eq_ld, harg1.read_unread, harg2.read_unread, harg3.read_unread, harg4.read_unread, harg5.read_unread, harg6.read_unread, harg7.read_unread, harg11.read_unread, harg12.read_unread, View.ld_unit_zero (S := S5000x128) offs00_5, View.ld_unit_zero (S := S128x128) offs00_5, View.ld_unit_zero (S := S1x128) offs00_5, View.readCov_unit_zero (S := S1x128) _ offs00_5]

end Cases

/-! ## The tiles' blocks at their literal types, and the accumulation in closed form -/

variable (V : Entry F)

/-- The seven input blocks of tile `t`: three row tiles of the node features, the three weights, the bias. -/
abbrev blk5_0 (c : Dev nD) (t : Fin cfg5.N) : Vec F S5000x128 .f32 := iblk5 V c 0 t
abbrev blk5_1 (c : Dev nD) (t : Fin cfg5.N) : Vec F S5000x128 .f32 := iblk5 V c 1 t
abbrev blk5_2 (c : Dev nD) (t : Fin cfg5.N) : Vec F S5000x128 .f32 := iblk5 V c 2 t
abbrev blk5_3 (c : Dev nD) (t : Fin cfg5.N) : Vec F S128x128 .f32 := iblk5 V c 3 t
abbrev blk5_4 (c : Dev nD) (t : Fin cfg5.N) : Vec F S128x128 .f32 := iblk5 V c 4 t
abbrev blk5_5 (c : Dev nD) (t : Fin cfg5.N) : Vec F S128x128 .f32 := iblk5 V c 5 t
abbrev blk5_6 (c : Dev nD) (t : Fin cfg5.N) : Vec F S1x128 .f32 := iblk5 V c 6 t

/-- The affine result of tile `t`. -/
def tileOut5 (c : Dev nD) (t : Fin cfg5.N) : Vec F S5000x128 .f32 :=
  k5_pay5 (blk5_0 V c t) (blk5_1 V c t) (blk5_2 V c t) (blk5_3 V c t) (blk5_4 V c t) (blk5_5 V c t) (blk5_6 V c t)

/-- The column sums of the affine result over tiles `0 … n`, added in the tiles' order starting from zero. -/
def acc5_0 (c : Dev nD) : (n : ℕ) → n < cfg5.N → Vec F S1x128 .f32
  | 0, hn => k5_pay1 (tileOut5 V c ⟨0, hn⟩) (k5_pay3 (F := F))
  | n + 1, hn => k5_pay1 (tileOut5 V c ⟨n + 1, hn⟩) (acc5_0 c n (Nat.lt_of_succ_lt hn))

/-- The column sums of its squares over tiles `0 … n`, likewise. -/
def acc5_1 (c : Dev nD) : (n : ℕ) → n < cfg5.N → Vec F S1x128 .f32
  | 0, hn => k5_pay2 (tileOut5 V c ⟨0, hn⟩) (k5_pay4 (F := F))
  | n + 1, hn => k5_pay2 (tileOut5 V c ⟨n + 1, hn⟩) (acc5_1 c n (Nat.lt_of_succ_lt hn))

/-- The first tile's entries over the named arithmetic (each piece lemma applied at the tile's memrefs and blocks,
    every argument written out). -/
theorem pt5_A_eq (c : Dev nD) (t : Fin cfg5.N) (h0 : t.val % 10 = 0) (h1 : ¬t.val % 10 = 9) :
    pt5_A V c t h0 h1
      = (tileOut5 V c t, k5_pay1 (tileOut5 V c t) (k5_pay3 (F := F)), k5_pay2 (tileOut5 V c t) (k5_pay4 (F := F)),
          k5_pay1 (tileOut5 V c t) (k5_pay3 (F := F)), k5_pay2 (tileOut5 V c t) (k5_pay4 (F := F))) := by
  unfold pt5_A
  rw [out5_A_7_eq c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t),
    sout5_A_0_eq c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t),
    sout5_A_1_eq c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t) (iblk5 V c 4 t) (iblk5 V c 5 t) (iblk5 V c 6 t)]
  rfl

/-- A middle tile's entries, over what the accumulators held. -/
theorem pt5_B_eq (c : Dev nD) (t : Fin cfg5.N) (h0 : ¬t.val % 10 = 0) (h1 : ¬t.val % 10 = 9) (xs0 xs1 : Vec F S1x128 .f32) :
    pt5_B V c t h0 h1 xs0 xs1
      = (tileOut5 V c t, k5_pay1 (tileOut5 V c t) xs0, k5_pay2 (tileOut5 V c t) xs1,
          k5_pay1 (tileOut5 V c t) xs0, k5_pay2 (tileOut5 V c t) xs1) := by
  unfold pt5_B
  rw [out5_B_7_eq c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) xs0 xs1,
    sout5_B_0_eq c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) xs0 xs1,
    sout5_B_1_eq c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (iblk5 V c 5 t) (iblk5 V c 6 t) xs0 xs1]
  rfl

/-- The last tile's entries: the small outputs receive what the accumulators were just updated to. -/
theorem pt5_C_eq (c : Dev nD) (t : Fin cfg5.N) (h0 : ¬t.val % 10 = 0) (h1 : t.val % 10 = 9) (xs0 xs1 : Vec F S1x128 .f32) :
    pt5_C V c t h0 h1 xs0 xs1
      = (tileOut5 V c t, k5_pay1 (tileOut5 V c t) xs0, k5_pay2 (tileOut5 V c t) xs1,
          k5_pay1 (tileOut5 V c t) xs0, k5_pay2 (tileOut5 V c t) xs1) := by
  unfold pt5_C
  rw [out5_C_7_eq c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) xs0 xs1,
    out5_C_8_eq c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) xs0 xs1,
    out5_C_9_eq c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) xs0 xs1,
    sout5_C_0_eq c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) xs0 xs1,
    sout5_C_1_eq c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (iblk5 V c 5 t) (iblk5 V c 6 t) xs0 xs1]
  rfl

/-- After tile `n`: the row-tile output holds the tile's affine result and the accumulators the sums over the tiles
    so far; after the last tile the two small outputs hold the accumulators' contents. By induction on the tile,
    each step one case of the accumulation read through that case's pieces. -/
theorem outsAt5_eq (c : Dev nD) : ∀ (n : ℕ) (hn : n < cfg5.N),
    (outsAt5 V c n hn).1 = tileOut5 V c ⟨n, hn⟩
      ∧ (outsAt5 V c n hn).2.2.2.1 = acc5_0 V c n hn ∧ (outsAt5 V c n hn).2.2.2.2 = acc5_1 V c n hn
      ∧ (n % 10 = 9 → (outsAt5 V c n hn).2.1 = acc5_0 V c n hn ∧ (outsAt5 V c n hn).2.2.1 = acc5_1 V c n hn)
  | 0, hn => by
    rw [show outsAt5 V c 0 hn = pt5_A V c ⟨0, hn⟩ (Nat.zero_mod _) (by show ¬(0 % 10 = 9); decide) from rfl, pt5_A_eq]
    exact ⟨rfl, rfl, rfl, fun h => absurd h (by decide)⟩
  | n + 1, hn => by
    obtain ⟨-, ih0, ih1, -⟩ := outsAt5_eq c n (Nat.lt_of_succ_lt hn)
    by_cases h1 : (n + 1) % 10 = 9
    · rw [outsAt5_succ_last V c n hn h1, pt5_C_eq, ih0, ih1]
      exact ⟨rfl, rfl, rfl, fun _ => ⟨rfl, rfl⟩⟩
    · rw [outsAt5_succ_mid V c n hn h1, pt5_B_eq, ih0, ih1]
      exact ⟨rfl, rfl, rfl, fun h => absurd h h1⟩

end Cert.KernelIdeal.Hand

end
-- ==== Proof.KI.Reg5.Final.lean ====
/- Region 5, the arrays it leaves. The two small outputs are written back once, after the last tile, with the
   accumulators' final contents: the column sums of the affine result and of its squares over all ten row tiles, added
   in the tiles' order. The row-tile output is written back after every tile with that tile's affine result, so its
   entry (r, j) is entry (r mod 5000, j) of the affine result of tile r div 5000. -/
import proofs.«160050_j32744830665390_2_alg».proof.Proof.KI.Iface
import proofs.«160050_j32744830665390_2_alg».proof.Proof.KI.Reg5.Value
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : Entry F)

/-! ## The closed forms -/

/-- Ten tiles: the last is tile 9. -/
theorem nine_lt5 : 9 < cfg5.N := by rw [show cfg5.N = 10 from N_5]; decide

/-- The column-sum output after the region: the column sums over all ten tiles. -/
def G5_8 (c : Dev nD) : Buf (Elt F) ((cfg5.win 8).arr.view.loc (c.tc : Thread nD τ)) := acc5_0 V c 9 nine_lt5

/-- The sum-of-squares output after the region. -/
def G5_9 (c : Dev nD) : Buf (Elt F) ((cfg5.win 9).arr.view.loc (c.tc : Thread nD τ)) := acc5_1 V c 9 nine_lt5

/-- Entry (r, j) of the row-tile output after the region: tile r div 5000 of the affine result at (r mod 5000, j). -/
def tileEntry5 (c : Dev nD) (r j : ℕ) (hr : r < 50000) (hj : j < 128) : Elt F .f32 :=
  tileOut5 V c ⟨r / 5000, by rw [show cfg5.N = 10 from N_5]; omega⟩ (ix2 ⟨r % 5000, Nat.mod_lt _ (by decide)⟩ ⟨j, hj⟩)

/-- The row-tile output after the region. -/
def G5_7 (c : Dev nD) : Buf (Elt F) ((cfg5.win 7).arr.view.loc (c.tc : Thread nD τ)) :=
  fun i => tileEntry5 V c (i 0).val (i 1).val (idx2_lt0 i) (idx2_lt1 i)

/-- At row 5000 t + y₀ and column y₁ that entry is entry (y₀, y₁) of tile t's affine result. -/
theorem tileEntry5_eq (c : Dev nD) (t : Fin cfg5.N) (y : S5000x128.Idx) (r j : ℕ) (hr : r < 50000) (hj : j < 128)
    (h0 : r = 5000 * t.val + (y 0).val) (h1 : j = (y 1).val) : tileEntry5 V c r j hr hj = tileOut5 V c t y := by
  subst h0 h1
  have hy : (y 0).val < 5000 := idx2_lt0 y
  have hN : cfg5.N = 10 := N_5
  have htl : t.val < cfg5.N := t.isLt
  have ht : (⟨(5000 * t.val + (y 0).val) / 5000, by omega⟩ : Fin cfg5.N) = t :=
    Fin.ext (by show (5000 * t.val + (y 0).val) / 5000 = t.val; omega)
  have hx : (ix2 (⟨(5000 * t.val + (y 0).val) % 5000, Nat.mod_lt _ (by decide)⟩ : Fin 5000) (⟨(y 1).val, hj⟩ : Fin 128) : S5000x128.Idx) = y := by
    funext a
    match a with
    | ⟨0, _⟩ => exact Fin.ext (by show (5000 * t.val + (y 0).val) % 5000 = (y 0).val; omega)
    | ⟨1, _⟩ => rfl
  unfold tileEntry5
  rw [ht, hx]

/-! ## The write-backs -/

/-- Where the three outputs' blocks sit: the row-tile output's block at tile `t` starts at row 5000 t; the small
    outputs' one block is the whole array. -/
theorem index5_7 (t : Fin cfg5.N) : win5_7.index t 0 = t.val ∧ win5_7.index t 1 = 0 := by
  rcases fin_N5 t with rfl | rfl | rfl | rfl | rfl | rfl | rfl | rfl | rfl | rfl <;> decide

/-- The one write-back of the column-sum output, after the last tile, writes the column sums over all tiles. -/
theorem flushed5_8 (c : Dev nD) (t : Fin cfg5.N) (hf : (cfg5.win 8).flush t = true) :
    (dat5 V c).flushed 8 t = ((cfg5.win 8).blk t).view.read (Elt F) (G5_8 V c) := by
  have hN : cfg5.N = 10 := N_5
  have h9 : t.val = 9 := by have := (flush5_8 t).mp hf; have := t.isLt; omega
  obtain rfl : t = t5_9 := Fin.ext h9
  show (cfg5.win 8).cut (grid5.coords t5_9) ((dat5 V c).after 8 t5_9) = _
  rw [after5_8, ((outsAt5_eq V c t5_9.val t5_9.isLt).2.2.2 (by decide)).1]
  have hz' : (fun a => win5_8.index t5_9 a * (Pipeline.arrRef spec5 8).ty.shape.size a) = fun _ => 0 :=
    funext fun a => by fin_cases a <;> decide
  exact (Memref.read_access_unit_zero (Elt F) (Pipeline.arrRef spec5 8) hz' (fun a => by rw [congrFun hz' a]; simp) (G5_8 V c)).symm

/-- And of the sum-of-squares output. -/
theorem flushed5_9 (c : Dev nD) (t : Fin cfg5.N) (hf : (cfg5.win 9).flush t = true) :
    (dat5 V c).flushed 9 t = ((cfg5.win 9).blk t).view.read (Elt F) (G5_9 V c) := by
  have hN : cfg5.N = 10 := N_5
  have h9 : t.val = 9 := by have := (flush5_9 t).mp hf; have := t.isLt; omega
  obtain rfl : t = t5_9 := Fin.ext h9
  show (cfg5.win 9).cut (grid5.coords t5_9) ((dat5 V c).after 9 t5_9) = _
  rw [after5_9, ((outsAt5_eq V c t5_9.val t5_9.isLt).2.2.2 (by decide)).2]
  have hz' : (fun a => win5_9.index t5_9 a * (Pipeline.arrRef spec5 9).ty.shape.size a) = fun _ => 0 :=
    funext fun a => by fin_cases a <;> decide
  exact (Memref.read_access_unit_zero (Elt F) (Pipeline.arrRef spec5 9) hz' (fun a => by rw [congrFun hz' a]; simp) (G5_9 V c)).symm

/-- Every tile's write-back of the row-tile output writes that tile's block of the closed form. -/
theorem flushed5_7 (c : Dev nD) (t : Fin cfg5.N) (hf : (cfg5.win 7).flush t = true) :
    (dat5 V c).flushed 7 t = ((cfg5.win 7).blk t).view.read (Elt F) (G5_7 V c) := by
  show (cfg5.win 7).cut (grid5.coords t) ((dat5 V c).after 7 t) = _
  rw [after5_7, (outsAt5_eq V c t.val t.isLt).1]
  funext y
  rw [View.read_apply]
  obtain ⟨hi0, hi1⟩ := index5_7 t
  -- where the block's entry `y` sits in the array: row 5000 t + y₀, column y₁
  have he0 : ((((cfg5.win 7).blk t).view.emb y) 0).val = 5000 * t.val + (y 0).val := by
    show win5_7.index t 0 * 5000 + 1 * (y 0).val = _
    rw [hi0]; omega
  have he1 : ((((cfg5.win 7).blk t).view.emb y) 1).val = (y 1).val := by
    show win5_7.index t 1 * 128 + 1 * (y 1).val = _
    rw [hi1]; omega
  show tileOut5 V c t y = G5_7 V c (((cfg5.win 7).blk t).view.emb y)
  exact (tileEntry5_eq V c t y _ _ (idx2_lt0 _) (idx2_lt1 _) he0 he1).symm

/-! ## The arrays after the region -/

/-- The column-sum output ends holding the column sums over all ten tiles: its one block, written back after the
    last tile, covers it. -/
theorem final5_8 (c : Dev nD) : (dat5 V c).arrAt 8 cfg5.N = G5_8 V c :=
  (dat5 V c).arrAt_eq_of_cover 8 (G5_8 V c) (flushed5_8 V c) fun i =>
    ⟨t5_9, (flush5_8 t5_9).mpr (by decide), by
      show i ∈ ((View.whole (Pipeline.arrRef spec5 8)).slice (win5_8.rect t5_9)).set
      rw [View.set_slice_whole, Rect.mem_set_unit]
      intro a
      have h0 : (i 0 : ℕ) < 1 := (i 0).isLt
      have h1 : (i 1 : ℕ) < 128 := (i 1).isLt
      match a with
      | ⟨0, _⟩ =>
        show win5_8.index t5_9 0 * win5_8.size 0 ≤ (i 0 : ℕ) ∧ (i 0 : ℕ) < win5_8.index t5_9 0 * win5_8.size 0 + win5_8.xsize (grid5.coords t5_9) 0
        rw [show win5_8.index t5_9 0 * win5_8.size 0 = 0 from by decide +kernel, show win5_8.xsize (grid5.coords t5_9) 0 = 1 from by decide +kernel]; omega
      | ⟨1, _⟩ =>
        show win5_8.index t5_9 1 * win5_8.size 1 ≤ (i 1 : ℕ) ∧ (i 1 : ℕ) < win5_8.index t5_9 1 * win5_8.size 1 + win5_8.xsize (grid5.coords t5_9) 1
        rw [show win5_8.index t5_9 1 * win5_8.size 1 = 0 from by decide +kernel, show win5_8.xsize (grid5.coords t5_9) 1 = 128 from by decide +kernel]; omega⟩

/-- And the sum-of-squares output the column sums of squares. -/
theorem final5_9 (c : Dev nD) : (dat5 V c).arrAt 9 cfg5.N = G5_9 V c :=
  (dat5 V c).arrAt_eq_of_cover 9 (G5_9 V c) (flushed5_9 V c) fun i =>
    ⟨t5_9, (flush5_9 t5_9).mpr (by decide), by
      show i ∈ ((View.whole (Pipeline.arrRef spec5 9)).slice (win5_9.rect t5_9)).set
      rw [View.set_slice_whole, Rect.mem_set_unit]
      intro a
      have h0 : (i 0 : ℕ) < 1 := (i 0).isLt
      have h1 : (i 1 : ℕ) < 128 := (i 1).isLt
      match a with
      | ⟨0, _⟩ =>
        show win5_9.index t5_9 0 * win5_9.size 0 ≤ (i 0 : ℕ) ∧ (i 0 : ℕ) < win5_9.index t5_9 0 * win5_9.size 0 + win5_9.xsize (grid5.coords t5_9) 0
        rw [show win5_9.index t5_9 0 * win5_9.size 0 = 0 from by decide +kernel, show win5_9.xsize (grid5.coords t5_9) 0 = 1 from by decide +kernel]; omega
      | ⟨1, _⟩ =>
        show win5_9.index t5_9 1 * win5_9.size 1 ≤ (i 1 : ℕ) ∧ (i 1 : ℕ) < win5_9.index t5_9 1 * win5_9.size 1 + win5_9.xsize (grid5.coords t5_9) 1
        rw [show win5_9.index t5_9 1 * win5_9.size 1 = 0 from by decide +kernel, show win5_9.xsize (grid5.coords t5_9) 1 = 128 from by decide +kernel]; omega⟩

/-- The row-tile output ends holding, tile by tile, the affine result: row r lies in the block written back after
    tile r div 5000. -/
theorem final5_7 (c : Dev nD) : (dat5 V c).arrAt 7 cfg5.N = G5_7 V c :=
  (dat5 V c).arrAt_eq_of_cover 7 (G5_7 V c) (flushed5_7 V c) fun i => by
    have h0 : (i 0 : ℕ) < 50000 := (i 0).isLt
    have h1 : (i 1 : ℕ) < 128 := (i 1).isLt
    let t : Fin cfg5.N := ⟨(i 0 : ℕ) / 5000, by rw [show cfg5.N = 10 from N_5]; omega⟩
    obtain ⟨hi0, hi1⟩ := index5_7 t
    refine ⟨t, flush5_7 t, ?_⟩
    show i ∈ ((View.whole (Pipeline.arrRef spec5 7)).slice (win5_7.rect t)).set
    rw [View.set_slice_whole, Rect.mem_set_unit]
    intro a
    match a with
    | ⟨0, _⟩ =>
      show win5_7.index t 0 * win5_7.size 0 ≤ (i 0 : ℕ) ∧ (i 0 : ℕ) < win5_7.index t 0 * win5_7.size 0 + win5_7.xsize (grid5.coords t) 0
      rw [hi0, show win5_7.size 0 = 5000 from rfl, show win5_7.xsize (grid5.coords t) 0 = 5000 from rfl]
      show (i 0 : ℕ) / 5000 * 5000 ≤ (i 0 : ℕ) ∧ (i 0 : ℕ) < (i 0 : ℕ) / 5000 * 5000 + 5000
      omega
    | ⟨1, _⟩ =>
      show win5_7.index t 1 * win5_7.size 1 ≤ (i 1 : ℕ) ∧ (i 1 : ℕ) < win5_7.index t 1 * win5_7.size 1 + win5_7.xsize (grid5.coords t) 1
      rw [hi1, show win5_7.size 1 = 128 from rfl, show win5_7.xsize (grid5.coords t) 1 = 128 from rfl]
      omega

end Cert.KernelIdeal.Hand

end
-- ==== Proof.KI.Val5.lean ====
/- Region 5's three output arrays over the reals. If the seven arrays the region reads hold real tables — the node
   features `h`, `t1`, `t2`, three weight matrices and a bias row — then after the region the row-tile output holds
   `h·W₀ + t1·W₁ + (2·t2 − h)·W₂ + b`, and the two small outputs hold that table's column sums and the column sums of
   its squares over all 50000 rows: the ten tiles' sums, added in the tiles' order, regrouped. -/
import proofs.«160050_j32744830665390_2_alg».proof.Proof.Spec
import proofs.«160050_j32744830665390_2_alg».proof.Proof.Bridge.Inputs
import proofs.«160050_j32744830665390_2_alg».proof.Proof.Math.Lift
import proofs.«160050_j32744830665390_2_alg».proof.Proof.Math.Dirichlet
import proofs.«160050_j32744830665390_2_alg».proof.Proof.Math.Consts
import proofs.«160050_j32744830665390_2_alg».proof.Proof.KI.Reg5.Final
import Idealize.ShloMosaic.Lib.ValueLayout
import Idealize.ShloMosaic.PureOps.Ideal.Laws

set_option maxRecDepth 16384

noncomputable section

namespace Cert.KernelIdeal.Hand.Val

open Cert.KernelIdeal.Gen Cert.KernelIdeal.Hand
open Cert.Hand Cert.Hand.Bridge Cert.Hand.Math
open Idealize.ShloMosaic Idealize.ShloMosaic.TcCoe Idealize.ShloMosaic.ValueIdx
open Idealize.ShloMosaic.Pipeline (Dat)
open scoped BigOperators

/-! ## The body's arithmetic at an index -/

/-- A [5000,128] by [128,128] product accumulated into zero, at `(p, q)`: the sum over the 128 inner coordinates. -/
theorem dot5_at (lhs : FVec Ideal S5000x128 .bf16) (rhs : FVec Ideal S128x128 .bf16) (p : Fin 5000) (q : Fin 128) :
    matmul dot_S5000x128_S128x128_S5000x128_1_0_0_1_n_n none lhs rhs (constant S5000x128 .f32 0x00000000#32) (ix2 p q)
      = ∑ j : Fin 128, lhs (ix2 p j) * rhs (ix2 j q) := by
  simp only [matmul]
  refine (Ideal.matmul_constant_zero_apply _ none lhs rhs (ix2 p q)).trans ?_
  refine (Equiv.sum_comp (contrEquiv1 dot_S5000x128_S128x128_S5000x128_1_0_0_1_n_n 128 rfl rfl).symm _).symm.trans ?_
  refine Finset.sum_congr rfl fun j _ => ?_
  have hl : dot_S5000x128_S128x128_S5000x128_1_0_0_1_n_n.lhsIdx (ix2 p q)
      ((contrEquiv1 dot_S5000x128_S128x128_S5000x128_1_0_0_1_n_n 128 rfl rfl).symm j) = ix2 p j := by
    funext a
    match a with
    | ⟨0, _⟩ => rfl
    | ⟨1, _⟩ => exact Fin.ext (contrEquiv1_symm_val dot_S5000x128_S128x128_S5000x128_1_0_0_1_n_n 128 rfl rfl j)
  have hr : dot_S5000x128_S128x128_S5000x128_1_0_0_1_n_n.rhsIdx (ix2 p q)
      ((contrEquiv1 dot_S5000x128_S128x128_S5000x128_1_0_0_1_n_n 128 rfl rfl).symm j) = ix2 j q := by
    funext a
    match a with
    | ⟨0, _⟩ => exact Fin.ext (contrEquiv1_symm_val dot_S5000x128_S128x128_S5000x128_1_0_0_1_n_n 128 rfl rfl j)
    | ⟨1, _⟩ => rfl
  show lhs _ * rhs _ = _
  rw [hl, hr]

/-- The column reduction of a [5000,128] tile at column `q`: the sum over its 5000 rows. -/
theorem colsum5_at (v : FVec Ideal S5000x128 .f32) (q : Fin 128) :
    multiReduction .add [0] S128 v 0x00000000#32 reduces_S5000x128_S128 (.inl rfl) rfl (ix1 q)
      = ∑ r : Fin 5000, v (ix2 r q) :=
  (Ideal.multiReduction_add_single v 0x00000000#32 reduces_S5000x128_S128 (.inl rfl) rfl (ix1 q)).trans
    (Finset.sum_congr rfl fun r _ => congrArg v (funext fun a => match a with | ⟨0, _⟩ => rfl | ⟨1, _⟩ => rfl))

/-- The affine result at `(p, q)` when its operands hold real tables: the three products' sums and the bias. -/
def rowPre5 (X0 X1 X2 : Fin 5000 → Fin 128 → ℝ) (W0 W1 W2 : Fin 128 → Fin 128 → ℝ) (b : Fin 128 → ℝ) (p : Fin 5000) (q : Fin 128) : ℝ :=
  (∑ j : Fin 128, X0 p j * W0 j q) + (∑ j : Fin 128, X1 p j * W1 j q) + (∑ j : Fin 128, (2 * X2 p j - X0 p j) * W2 j q) + b q

theorem pay5_at5 (x0 x1 x2 : Vec Ideal S5000x128 .f32) (w0 w1 w2 : Vec Ideal S128x128 .f32) (bb : Vec Ideal S1x128 .f32)
    (X0 X1 X2 : Fin 5000 → Fin 128 → ℝ) (W0 W1 W2 : Fin 128 → Fin 128 → ℝ) (b : Fin 128 → ℝ)
    (hx0 : Holds2 (n0 := 5000) (n1 := 128) x0 X0) (hx1 : Holds2 (n0 := 5000) (n1 := 128) x1 X1) (hx2 : Holds2 (n0 := 5000) (n1 := 128) x2 X2)
    (hw0 : Holds2 (n0 := 128) (n1 := 128) w0 W0) (hw1 : Holds2 (n0 := 128) (n1 := 128) w1 W1) (hw2 : Holds2 (n0 := 128) (n1 := 128) w2 W2)
    (hb : Holds2 (n0 := 1) (n1 := 128) bb (fun _ k => b k)) (p : Fin 5000) (q : Fin 128) :
    k5_pay5 (F := Ideal) x0 x1 x2 w0 w1 w2 bb (ix2 p q) = ((rowPre5 X0 X1 X2 W0 W1 W2 b p q : ℝ) : EReal) := by
  unfold k5_pay5
  -- the three products, each into zero, added left to right, then the bias row broadcast over the tile
  simp only [shapeCast_self, addf_apply]
  rw [dot5_at, dot5_at, dot5_at, broadcastTo_1b_ab_apply bb broadcasts_S1x128_S5000x128 p q]
  have e0 : ∀ j : Fin 128, x0 (ix2 p j) = ((X0 p j : ℝ) : EReal) := fun j => hx0 (ix2 p j)
  have e1 : ∀ j : Fin 128, x1 (ix2 p j) = ((X1 p j : ℝ) : EReal) := fun j => hx1 (ix2 p j)
  have e2 : ∀ j : Fin 128, x2 (ix2 p j) = ((X2 p j : ℝ) : EReal) := fun j => hx2 (ix2 p j)
  have f0 : ∀ j : Fin 128, w0 (ix2 j q) = ((W0 j q : ℝ) : EReal) := fun j => hw0 (ix2 j q)
  have f1 : ∀ j : Fin 128, w1 (ix2 j q) = ((W1 j q : ℝ) : EReal) := fun j => hw1 (ix2 j q)
  have f2 : ∀ j : Fin 128, w2 (ix2 j q) = ((W2 j q : ℝ) : EReal) := fun j => hw2 (ix2 j q)
  -- each product's sum over coerced reals is the coerced real sum; the bias entry is a coerced real
  have sA : (∑ j : Fin 128, ((x0 (ix2 p j) : EReal) * (w0 (ix2 j q) : EReal))) = ((∑ j : Fin 128, X0 p j * W0 j q : ℝ) : EReal) :=
    sum_eq_coe_of_forall _ _ _ fun j _ => by rw [e0, f0, coe_mul_coe]
  have sB : (∑ j : Fin 128, ((x1 (ix2 p j) : EReal) * (w1 (ix2 j q) : EReal))) = ((∑ j : Fin 128, X1 p j * W1 j q : ℝ) : EReal) :=
    sum_eq_coe_of_forall _ _ _ fun j _ => by rw [e1, f1, coe_mul_coe]
  have sC : (∑ j : Fin 128, ((Ideal.ofBits .f32 0x40000000#32 * (x2 (ix2 p j) : EReal) - (x0 (ix2 p j) : EReal)) * (w2 (ix2 j q) : EReal)))
      = ((∑ j : Fin 128, (2 * X2 p j - X0 p j) * W2 j q : ℝ) : EReal) :=
    sum_eq_coe_of_forall _ _ _ fun j _ => by rw [ofBits_f32_two, e2, e0, f2, coe_mul_coe, coe_sub_coe, coe_mul_coe]
  refine (congrArg₂ (· + ·) (congrArg₂ (· + ·) (congrArg₂ (· + ·) sA sB) sC) (hb (ix2 (0 : Fin 1) q))).trans ?_
  rw [coe_add_coe, coe_add_coe, coe_add_coe]
  rfl

/-- The first accumulator's update at column `q`: what it held, plus the tile's column sum. -/
theorem pay1_at5 (v : FVec Ideal S5000x128 .f32) (s : Vec Ideal S1x128 .f32) (q : Fin 128) :
    k5_pay1 (F := Ideal) v s (ix2 (0 : Fin 1) q) = s (ix2 (0 : Fin 1) q) + ∑ r : Fin 5000, v (ix2 r q) := by
  unfold k5_pay1
  simp only [shapeCast_self]
  show s (ix2 (0 : Fin 1) q) + shapeCast S1x128 _ shapeCasts_S128_S1x128 (ix2 (0 : Fin 1) q) = _
  refine congrArg (s (ix2 (0 : Fin 1) q) + ·) ?_
  exact (shapeCast_a_1a_apply _ shapeCasts_S128_S1x128 (0 : Fin 1) q).trans (colsum5_at v q)

/-- The second accumulator's update at column `q`: what it held, plus the tile's column sum of squares. -/
theorem pay2_at5 (v : FVec Ideal S5000x128 .f32) (s : Vec Ideal S1x128 .f32) (q : Fin 128) :
    k5_pay2 (F := Ideal) v s (ix2 (0 : Fin 1) q) = s (ix2 (0 : Fin 1) q) + ∑ r : Fin 5000, v (ix2 r q) * v (ix2 r q) := by
  unfold k5_pay2
  simp only [shapeCast_self]
  show s (ix2 (0 : Fin 1) q) + shapeCast S1x128 _ shapeCasts_S128_S1x128 (ix2 (0 : Fin 1) q) = _
  refine congrArg (s (ix2 (0 : Fin 1) q) + ·) ?_
  exact (shapeCast_a_1a_apply _ shapeCasts_S128_S1x128 (0 : Fin 1) q).trans (colsum5_at (mulf v v) q)

/-- Both accumulators are cleared to zero. -/
theorem pay3_at5 (q : Fin 128) : k5_pay3 (F := Ideal) (ix2 (0 : Fin 1) q) = 0 := by
  unfold k5_pay3
  simp only [shapeCast_self]
  exact Ideal.ofBits_zero_f32
theorem pay4_at5 (q : Fin 128) : k5_pay4 (F := Ideal) (ix2 (0 : Fin 1) q) = 0 := by
  unfold k5_pay4
  simp only [shapeCast_self]
  exact Ideal.ofBits_zero_f32

/-! ## The arrays and the blocks at literal shapes -/

variable (V : Entry Ideal)

/-- The seven arrays region 5 reads, as the region finds them, and the three it leaves. -/
abbrev ar5_0 (c : Dev nD) : (⟨2, ![50000, 128]⟩ : Shape).Idx → EReal := V c (Pipeline.arrRef spec5 0)
abbrev ar5_1 (c : Dev nD) : (⟨2, ![50000, 128]⟩ : Shape).Idx → EReal := V c (Pipeline.arrRef spec5 1)
abbrev ar5_2 (c : Dev nD) : (⟨2, ![50000, 128]⟩ : Shape).Idx → EReal := V c (Pipeline.arrRef spec5 2)
abbrev ar5_3 (c : Dev nD) : (⟨2, ![128, 128]⟩ : Shape).Idx → EReal := V c (Pipeline.arrRef spec5 3)
abbrev ar5_4 (c : Dev nD) : (⟨2, ![128, 128]⟩ : Shape).Idx → EReal := V c (Pipeline.arrRef spec5 4)
abbrev ar5_5 (c : Dev nD) : (⟨2, ![128, 128]⟩ : Shape).Idx → EReal := V c (Pipeline.arrRef spec5 5)
abbrev ar5_6 (c : Dev nD) : (⟨2, ![1, 128]⟩ : Shape).Idx → EReal := V c (Pipeline.arrRef spec5 6)
abbrev res5_7 (c : Dev nD) : (⟨2, ![50000, 128]⟩ : Shape).Idx → EReal := (dat5 V c).arrAt 7 cfg5.N
abbrev res5_8 (c : Dev nD) : (⟨2, ![1, 128]⟩ : Shape).Idx → EReal := (dat5 V c).arrAt 8 cfg5.N
abbrev res5_9 (c : Dev nD) : (⟨2, ![1, 128]⟩ : Shape).Idx → EReal := (dat5 V c).arrAt 9 cfg5.N

/-- Row `p` of tile `t` is a row of the 50000. -/
theorem row_lt5 (t : Fin cfg5.N) (p : Fin 5000) : 5000 * t.val + p.val < 50000 := by
  have : t.val < 10 := lt_of_lt_of_eq t.isLt (show cfg5.N = 10 from N_5)
  have := p.isLt
  omega

theorem blk5_0_at (c : Dev nD) (t : Fin cfg5.N) (p : Fin 5000) (q : Fin 128) :
    blk5_0 V c t (ix2 p q) = ar5_0 V c (ix2 ⟨5000 * t.val + p.val, row_lt5 t p⟩ q) := by
  have hi : win5_0.index t 0 = t.val ∧ win5_0.index t 1 = 0 := by
    rcases fin_N5 t with rfl | rfl | rfl | rfl | rfl | rfl | rfl | rfl | rfl | rfl <;> decide
  show iblk5 V c 0 t (ix2 p q) = _
  unfold iblk5
  rw [View.read_apply]
  show V c (Pipeline.arrRef spec5 0) _ = V c (Pipeline.arrRef spec5 0) _
  congr 1
  funext a
  apply Fin.ext
  match a with
  | ⟨0, _⟩ => show win5_0.index t 0 * 5000 + 1 * p.val = 5000 * t.val + p.val; rw [hi.1]; omega
  | ⟨1, _⟩ => show win5_0.index t 1 * 128 + 1 * q.val = q.val; rw [hi.2]; omega

theorem blk5_1_at (c : Dev nD) (t : Fin cfg5.N) (p : Fin 5000) (q : Fin 128) :
    blk5_1 V c t (ix2 p q) = ar5_1 V c (ix2 ⟨5000 * t.val + p.val, row_lt5 t p⟩ q) := by
  have hi : win5_1.index t 0 = t.val ∧ win5_1.index t 1 = 0 := by
    rcases fin_N5 t with rfl | rfl | rfl | rfl | rfl | rfl | rfl | rfl | rfl | rfl <;> decide
  show iblk5 V c 1 t (ix2 p q) = _
  unfold iblk5
  rw [View.read_apply]
  show V c (Pipeline.arrRef spec5 1) _ = V c (Pipeline.arrRef spec5 1) _
  congr 1
  funext a
  apply Fin.ext
  match a with
  | ⟨0, _⟩ => show win5_1.index t 0 * 5000 + 1 * p.val = 5000 * t.val + p.val; rw [hi.1]; omega
  | ⟨1, _⟩ => show win5_1.index t 1 * 128 + 1 * q.val = q.val; rw [hi.2]; omega

theorem blk5_2_at (c : Dev nD) (t : Fin cfg5.N) (p : Fin 5000) (q : Fin 128) :
    blk5_2 V c t (ix2 p q) = ar5_2 V c (ix2 ⟨5000 * t.val + p.val, row_lt5 t p⟩ q) := by
  have hi : win5_2.index t 0 = t.val ∧ win5_2.index t 1 = 0 := by
    rcases fin_N5 t with rfl | rfl | rfl | rfl | rfl | rfl | rfl | rfl | rfl | rfl <;> decide
  show iblk5 V c 2 t (ix2 p q) = _
  unfold iblk5
  rw [View.read_apply]
  show V c (Pipeline.arrRef spec5 2) _ = V c (Pipeline.arrRef spec5 2) _
  congr 1
  funext a
  apply Fin.ext
  match a with
  | ⟨0, _⟩ => show win5_2.index t 0 * 5000 + 1 * p.val = 5000 * t.val + p.val; rw [hi.1]; omega
  | ⟨1, _⟩ => show win5_2.index t 1 * 128 + 1 * q.val = q.val; rw [hi.2]; omega

theorem blk5_3_at (c : Dev nD) (t : Fin cfg5.N) (p : Fin 128) (q : Fin 128) :
    blk5_3 V c t (ix2 p q) = ar5_3 V c (ix2 p q) := by
  have hi : win5_3.index t 0 = 0 ∧ win5_3.index t 1 = 0 := by
    rcases fin_N5 t with rfl | rfl | rfl | rfl | rfl | rfl | rfl | rfl | rfl | rfl <;> decide
  show iblk5 V c 3 t (ix2 p q) = _
  unfold iblk5
  rw [View.read_apply]
  show V c (Pipeline.arrRef spec5 3) _ = V c (Pipeline.arrRef spec5 3) _
  congr 1
  funext a
  apply Fin.ext
  match a with
  | ⟨0, _⟩ => show win5_3.index t 0 * 128 + 1 * p.val = p.val; rw [hi.1]; omega
  | ⟨1, _⟩ => show win5_3.index t 1 * 128 + 1 * q.val = q.val; rw [hi.2]; omega

theorem blk5_4_at (c : Dev nD) (t : Fin cfg5.N) (p : Fin 128) (q : Fin 128) :
    blk5_4 V c t (ix2 p q) = ar5_4 V c (ix2 p q) := by
  have hi : win5_4.index t 0 = 0 ∧ win5_4.index t 1 = 0 := by
    rcases fin_N5 t with rfl | rfl | rfl | rfl | rfl | rfl | rfl | rfl | rfl | rfl <;> decide
  show iblk5 V c 4 t (ix2 p q) = _
  unfold iblk5
  rw [View.read_apply]
  show V c (Pipeline.arrRef spec5 4) _ = V c (Pipeline.arrRef spec5 4) _
  congr 1
  funext a
  apply Fin.ext
  match a with
  | ⟨0, _⟩ => show win5_4.index t 0 * 128 + 1 * p.val = p.val; rw [hi.1]; omega
  | ⟨1, _⟩ => show win5_4.index t 1 * 128 + 1 * q.val = q.val; rw [hi.2]; omega

theorem blk5_5_at (c : Dev nD) (t : Fin cfg5.N) (p : Fin 128) (q : Fin 128) :
    blk5_5 V c t (ix2 p q) = ar5_5 V c (ix2 p q) := by
  have hi : win5_5.index t 0 = 0 ∧ win5_5.index t 1 = 0 := by
    rcases fin_N5 t with rfl | rfl | rfl | rfl | rfl | rfl | rfl | rfl | rfl | rfl <;> decide
  show iblk5 V c 5 t (ix2 p q) = _
  unfold iblk5
  rw [View.read_apply]
  show V c (Pipeline.arrRef spec5 5) _ = V c (Pipeline.arrRef spec5 5) _
  congr 1
  funext a
  apply Fin.ext
  match a with
  | ⟨0, _⟩ => show win5_5.index t 0 * 128 + 1 * p.val = p.val; rw [hi.1]; omega
  | ⟨1, _⟩ => show win5_5.index t 1 * 128 + 1 * q.val = q.val; rw [hi.2]; omega

theorem blk5_6_at (c : Dev nD) (t : Fin cfg5.N) (p : Fin 1) (q : Fin 128) :
    blk5_6 V c t (ix2 p q) = ar5_6 V c (ix2 p q) := by
  have hi : win5_6.index t 0 = 0 ∧ win5_6.index t 1 = 0 := by
    rcases fin_N5 t with rfl | rfl | rfl | rfl | rfl | rfl | rfl | rfl | rfl | rfl <;> decide
  show iblk5 V c 6 t (ix2 p q) = _
  unfold iblk5
  rw [View.read_apply]
  show V c (Pipeline.arrRef spec5 6) _ = V c (Pipeline.arrRef spec5 6) _
  congr 1
  funext a
  apply Fin.ext
  match a with
  | ⟨0, _⟩ => show win5_6.index t 0 * 1 + 1 * p.val = p.val; rw [hi.1]; omega
  | ⟨1, _⟩ => show win5_6.index t 1 * 128 + 1 * q.val = q.val; rw [hi.2]; omega

/-! ## A tile's affine result over the reals -/

/-- The layer before batch norm, over given tables. -/
def pre5 (h t1 t2 : Spec.Hidden) (W0 W1 W2 : Fin 128 → Fin 128 → ℝ) (b : Fin 128 → ℝ) : Spec.Hidden := fun i k =>
  Spec.lin h W0 i k + Spec.lin t1 W1 i k + Spec.lin (fun i' k' => 2 * t2 i' k' - h i' k') W2 i k + b k

/-- With a layer's own tables it is the specification's layer before batch norm. -/
theorem pre5_chebPre (I : Spec.Inputs) (l : Fin 3) (h : Spec.Hidden) :
    pre5 h (Spec.lap I h) (Spec.lap I (Spec.lap I h)) (I.chebW l 0) (I.chebW l 1) (I.chebW l 2) (I.chebB l) = Spec.chebPre I l h := rfl

theorem tileOut5_at (c : Dev nD) (h t1 t2 : Spec.Hidden) (W0 W1 W2 : Fin 128 → Fin 128 → ℝ) (b : Fin 128 → ℝ)
    (H0 : Holds2 (ar5_0 V c) h) (H1 : Holds2 (ar5_1 V c) t1) (H2 : Holds2 (ar5_2 V c) t2)
    (H3 : Holds2 (ar5_3 V c) W0) (H4 : Holds2 (ar5_4 V c) W1) (H5 : Holds2 (ar5_5 V c) W2) (H6 : Holds2 (ar5_6 V c) (fun _ k => b k))
    (t : Fin cfg5.N) (p : Fin 5000) (q : Fin 128) :
    tileOut5 V c t (ix2 p q) = ((pre5 h t1 t2 W0 W1 W2 b ⟨5000 * t.val + p.val, row_lt5 t p⟩ q : ℝ) : EReal) := by
  unfold tileOut5
  refine (pay5_at5 (blk5_0 V c t) (blk5_1 V c t) (blk5_2 V c t) (blk5_3 V c t) (blk5_4 V c t) (blk5_5 V c t) (blk5_6 V c t)
    (fun p' q' => h ⟨5000 * t.val + p'.val, row_lt5 t p'⟩ q') (fun p' q' => t1 ⟨5000 * t.val + p'.val, row_lt5 t p'⟩ q')
    (fun p' q' => t2 ⟨5000 * t.val + p'.val, row_lt5 t p'⟩ q') W0 W1 W2 b ?_ ?_ ?_ ?_ ?_ ?_ ?_ p q).trans ?_
  · intro i
    obtain ⟨p', q', rfl⟩ : ∃ (p' : Fin 5000) (q' : Fin 128), i = ix2 p' q' := ⟨i 0, i 1, eq_ix2 i⟩
    rw [blk5_0_at V c t p' q']; exact H0 _
  · intro i
    obtain ⟨p', q', rfl⟩ : ∃ (p' : Fin 5000) (q' : Fin 128), i = ix2 p' q' := ⟨i 0, i 1, eq_ix2 i⟩
    rw [blk5_1_at V c t p' q']; exact H1 _
  · intro i
    obtain ⟨p', q', rfl⟩ : ∃ (p' : Fin 5000) (q' : Fin 128), i = ix2 p' q' := ⟨i 0, i 1, eq_ix2 i⟩
    rw [blk5_2_at V c t p' q']; exact H2 _
  · intro i
    obtain ⟨p', q', rfl⟩ : ∃ (p' : Fin 128) (q' : Fin 128), i = ix2 p' q' := ⟨i 0, i 1, eq_ix2 i⟩
    rw [blk5_3_at V c t p' q']; exact H3 _
  · intro i
    obtain ⟨p', q', rfl⟩ : ∃ (p' : Fin 128) (q' : Fin 128), i = ix2 p' q' := ⟨i 0, i 1, eq_ix2 i⟩
    rw [blk5_4_at V c t p' q']; exact H4 _
  · intro i
    obtain ⟨p', q', rfl⟩ : ∃ (p' : Fin 128) (q' : Fin 128), i = ix2 p' q' := ⟨i 0, i 1, eq_ix2 i⟩
    rw [blk5_5_at V c t p' q']; exact H5 _
  · intro i
    obtain ⟨p', q', rfl⟩ : ∃ (p' : Fin 1) (q' : Fin 128), i = ix2 p' q' := ⟨i 0, i 1, eq_ix2 i⟩
    rw [blk5_6_at V c t p' q']; exact H6 _
  · rfl

/-! ## The accumulators over the reals -/

/-- The layer's entry at row NUMBER `m` (zero past the last row: never summed). -/
def preN5 (h t1 t2 : Spec.Hidden) (W0 W1 W2 : Fin 128 → Fin 128 → ℝ) (b : Fin 128 → ℝ) (m : ℕ) (q : Fin 128) : ℝ :=
  if hm : m < 50000 then pre5 h t1 t2 W0 W1 W2 b ⟨m, hm⟩ q else 0

theorem preN5_row (h t1 t2 : Spec.Hidden) (W0 W1 W2 : Fin 128 → Fin 128 → ℝ) (b : Fin 128 → ℝ) (t : Fin cfg5.N) (p : Fin 5000) (q : Fin 128) :
    preN5 h t1 t2 W0 W1 W2 b (5000 * t.val + p.val) q = pre5 h t1 t2 W0 W1 W2 b ⟨5000 * t.val + p.val, row_lt5 t p⟩ q :=
  dif_pos (row_lt5 t p)

/-- After tile `n` the first accumulator holds, at column `q`, the layer's column sum over the rows of tiles `0 … n`. -/
theorem acc5_0_at (c : Dev nD) (h t1 t2 : Spec.Hidden) (W0 W1 W2 : Fin 128 → Fin 128 → ℝ) (b : Fin 128 → ℝ)
    (H0 : Holds2 (ar5_0 V c) h) (H1 : Holds2 (ar5_1 V c) t1) (H2 : Holds2 (ar5_2 V c) t2)
    (H3 : Holds2 (ar5_3 V c) W0) (H4 : Holds2 (ar5_4 V c) W1) (H5 : Holds2 (ar5_5 V c) W2) (H6 : Holds2 (ar5_6 V c) (fun _ k => b k)) (q : Fin 128) :
    ∀ (n : ℕ) (hn : n < cfg5.N), acc5_0 V c n hn (ix2 (0 : Fin 1) q)
      = ((∑ t ∈ Finset.range (n + 1), ∑ r : Fin 5000, preN5 h t1 t2 W0 W1 W2 b (5000 * t + r.val) q : ℝ) : EReal)
  | 0, hn => by
    show k5_pay1 (F := Ideal) (tileOut5 V c ⟨0, hn⟩) (k5_pay3 (F := Ideal)) (ix2 (0 : Fin 1) q) = _
    rw [pay1_at5, pay3_at5, zero_add, Finset.sum_range_succ, Finset.sum_range_zero, zero_add]
    exact sum_eq_coe_of_forall _ _ _ fun r _ => by
      rw [tileOut5_at V c h t1 t2 W0 W1 W2 b H0 H1 H2 H3 H4 H5 H6 ⟨0, hn⟩ r q, ← preN5_row h t1 t2 W0 W1 W2 b ⟨0, hn⟩ r q]
  | n + 1, hn => by
    show k5_pay1 (F := Ideal) (tileOut5 V c ⟨n + 1, hn⟩) (acc5_0 V c n (Nat.lt_of_succ_lt hn)) (ix2 (0 : Fin 1) q) = _
    rw [pay1_at5, acc5_0_at c h t1 t2 W0 W1 W2 b H0 H1 H2 H3 H4 H5 H6 q n (Nat.lt_of_succ_lt hn), Finset.sum_range_succ _ (n + 1), ← coe_add_coe]
    refine congrArg (_ + ·) ?_
    exact sum_eq_coe_of_forall _ _ _ fun r _ => by
      rw [tileOut5_at V c h t1 t2 W0 W1 W2 b H0 H1 H2 H3 H4 H5 H6 ⟨n + 1, hn⟩ r q, ← preN5_row h t1 t2 W0 W1 W2 b ⟨n + 1, hn⟩ r q]

/-- And the second the column sum of its squares. -/
theorem acc5_1_at (c : Dev nD) (h t1 t2 : Spec.Hidden) (W0 W1 W2 : Fin 128 → Fin 128 → ℝ) (b : Fin 128 → ℝ)
    (H0 : Holds2 (ar5_0 V c) h) (H1 : Holds2 (ar5_1 V c) t1) (H2 : Holds2 (ar5_2 V c) t2)
    (H3 : Holds2 (ar5_3 V c) W0) (H4 : Holds2 (ar5_4 V c) W1) (H5 : Holds2 (ar5_5 V c) W2) (H6 : Holds2 (ar5_6 V c) (fun _ k => b k)) (q : Fin 128) :
    ∀ (n : ℕ) (hn : n < cfg5.N), acc5_1 V c n hn (ix2 (0 : Fin 1) q)
      = ((∑ t ∈ Finset.range (n + 1), ∑ r : Fin 5000,
          preN5 h t1 t2 W0 W1 W2 b (5000 * t + r.val) q * preN5 h t1 t2 W0 W1 W2 b (5000 * t + r.val) q : ℝ) : EReal)
  | 0, hn => by
    show k5_pay2 (F := Ideal) (tileOut5 V c ⟨0, hn⟩) (k5_pay4 (F := Ideal)) (ix2 (0 : Fin 1) q) = _
    rw [pay2_at5, pay4_at5, zero_add, Finset.sum_range_succ, Finset.sum_range_zero, zero_add]
    exact sum_eq_coe_of_forall _ _ _ fun r _ => by
      rw [tileOut5_at V c h t1 t2 W0 W1 W2 b H0 H1 H2 H3 H4 H5 H6 ⟨0, hn⟩ r q, ← preN5_row h t1 t2 W0 W1 W2 b ⟨0, hn⟩ r q, coe_mul_coe]
  | n + 1, hn => by
    show k5_pay2 (F := Ideal) (tileOut5 V c ⟨n + 1, hn⟩) (acc5_1 V c n (Nat.lt_of_succ_lt hn)) (ix2 (0 : Fin 1) q) = _
    rw [pay2_at5, acc5_1_at c h t1 t2 W0 W1 W2 b H0 H1 H2 H3 H4 H5 H6 q n (Nat.lt_of_succ_lt hn), Finset.sum_range_succ _ (n + 1), ← coe_add_coe]
    refine congrArg (_ + ·) ?_
    exact sum_eq_coe_of_forall _ _ _ fun r _ => by
      rw [tileOut5_at V c h t1 t2 W0 W1 W2 b H0 H1 H2 H3 H4 H5 H6 ⟨n + 1, hn⟩ r q, ← preN5_row h t1 t2 W0 W1 W2 b ⟨n + 1, hn⟩ r q, coe_mul_coe]

/-- The ten tiles' sums regrouped: a sum over all 50000 rows. -/
theorem tiles_sum5 (g : ℕ → ℝ) : ∑ t ∈ Finset.range 10, ∑ r : Fin 5000, g (5000 * t + r.val) = ∑ i : Fin 50000, g i.val :=
  (sum_fin_val_eq_sum_range_tiles (n := 50000) (a := 10) (b := 5000) (by norm_num) g).symm

theorem preN5_val (h t1 t2 : Spec.Hidden) (W0 W1 W2 : Fin 128 → Fin 128 → ℝ) (b : Fin 128 → ℝ) (i : Fin 50000) (q : Fin 128) : preN5 h t1 t2 W0 W1 W2 b i.val q = pre5 h t1 t2 W0 W1 W2 b i q :=
  dif_pos i.isLt

/-! ## The three outputs -/

/-- The row-tile output holds the layer before batch norm. -/
theorem val5_7 (c : Dev nD) (h t1 t2 : Spec.Hidden) (W0 W1 W2 : Fin 128 → Fin 128 → ℝ) (b : Fin 128 → ℝ)
    (H0 : Holds2 (ar5_0 V c) h) (H1 : Holds2 (ar5_1 V c) t1) (H2 : Holds2 (ar5_2 V c) t2)
    (H3 : Holds2 (ar5_3 V c) W0) (H4 : Holds2 (ar5_4 V c) W1) (H5 : Holds2 (ar5_5 V c) W2) (H6 : Holds2 (ar5_6 V c) (fun _ k => b k)) :
    Holds2 (res5_7 V c) (pre5 h t1 t2 W0 W1 W2 b) := by
  intro i
  obtain ⟨r, q, rfl⟩ : ∃ (r : Fin 50000) (q : Fin 128), i = ix2 r q := ⟨i 0, i 1, eq_ix2 i⟩
  show (dat5 V c).arrAt 7 cfg5.N (ix2 r q) = ((pre5 h t1 t2 W0 W1 W2 b r q : ℝ) : EReal)
  rw [final5_7]
  show tileEntry5 V c r.val q.val _ _ = _
  unfold tileEntry5
  refine (tileOut5_at V c h t1 t2 W0 W1 W2 b H0 H1 H2 H3 H4 H5 H6
    ⟨r.val / 5000, by rw [show cfg5.N = 10 from N_5]; have := r.isLt; omega⟩ ⟨r.val % 5000, Nat.mod_lt _ (by decide)⟩ ⟨q.val, q.isLt⟩).trans ?_
  have e : (⟨5000 * (r.val / 5000) + r.val % 5000,
      row_lt5 ⟨r.val / 5000, by rw [show cfg5.N = 10 from N_5]; have := r.isLt; omega⟩ ⟨r.val % 5000, Nat.mod_lt _ (by decide)⟩⟩ : Fin 50000) = r :=
    Fin.ext (Nat.div_add_mod _ _)
  show ((pre5 h t1 t2 W0 W1 W2 b ⟨5000 * (r.val / 5000) + r.val % 5000, _⟩ ⟨q.val, q.isLt⟩ : ℝ) : EReal) = ((pre5 h t1 t2 W0 W1 W2 b r q : ℝ) : EReal)
  rw [e]

/-- The column-sum output holds the layer's column sums over all rows. -/
theorem val5_8 (c : Dev nD) (h t1 t2 : Spec.Hidden) (W0 W1 W2 : Fin 128 → Fin 128 → ℝ) (b : Fin 128 → ℝ)
    (H0 : Holds2 (ar5_0 V c) h) (H1 : Holds2 (ar5_1 V c) t1) (H2 : Holds2 (ar5_2 V c) t2)
    (H3 : Holds2 (ar5_3 V c) W0) (H4 : Holds2 (ar5_4 V c) W1) (H5 : Holds2 (ar5_5 V c) W2) (H6 : Holds2 (ar5_6 V c) (fun _ k => b k)) :
    Holds2 (res5_8 V c) (fun _ k => ∑ i : Fin 50000, pre5 h t1 t2 W0 W1 W2 b i k) := by
  intro i
  obtain ⟨u, q, rfl⟩ : ∃ (u : Fin 1) (q : Fin 128), i = ix2 u q := ⟨i 0, i 1, eq_ix2 i⟩
  obtain rfl : u = 0 := Subsingleton.elim u 0
  show (dat5 V c).arrAt 8 cfg5.N (ix2 (0 : Fin 1) q) = ((∑ i' : Fin 50000, pre5 h t1 t2 W0 W1 W2 b i' q : ℝ) : EReal)
  rw [final5_8]
  show acc5_0 V c 9 nine_lt5 (ix2 (0 : Fin 1) q) = _
  rw [acc5_0_at V c h t1 t2 W0 W1 W2 b H0 H1 H2 H3 H4 H5 H6 q 9 nine_lt5, show (9 + 1 : ℕ) = 10 from rfl,
    tiles_sum5 (fun m => preN5 h t1 t2 W0 W1 W2 b m q)]
  simp only [preN5_val]

/-- The sum-of-squares output holds the column sums of its squares. -/
theorem val5_9 (c : Dev nD) (h t1 t2 : Spec.Hidden) (W0 W1 W2 : Fin 128 → Fin 128 → ℝ) (b : Fin 128 → ℝ)
    (H0 : Holds2 (ar5_0 V c) h) (H1 : Holds2 (ar5_1 V c) t1) (H2 : Holds2 (ar5_2 V c) t2)
    (H3 : Holds2 (ar5_3 V c) W0) (H4 : Holds2 (ar5_4 V c) W1) (H5 : Holds2 (ar5_5 V c) W2) (H6 : Holds2 (ar5_6 V c) (fun _ k => b k)) :
    Holds2 (res5_9 V c) (fun _ k => ∑ i : Fin 50000, pre5 h t1 t2 W0 W1 W2 b i k * pre5 h t1 t2 W0 W1 W2 b i k) := by
  intro i
  obtain ⟨u, q, rfl⟩ : ∃ (u : Fin 1) (q : Fin 128), i = ix2 u q := ⟨i 0, i 1, eq_ix2 i⟩
  obtain rfl : u = 0 := Subsingleton.elim u 0
  show (dat5 V c).arrAt 9 cfg5.N (ix2 (0 : Fin 1) q) = ((∑ i' : Fin 50000, pre5 h t1 t2 W0 W1 W2 b i' q * pre5 h t1 t2 W0 W1 W2 b i' q : ℝ) : EReal)
  rw [final5_9]
  show acc5_1 V c 9 nine_lt5 (ix2 (0 : Fin 1) q) = _
  rw [acc5_1_at V c h t1 t2 W0 W1 W2 b H0 H1 H2 H3 H4 H5 H6 q 9 nine_lt5, show (9 + 1 : ℕ) = 10 from rfl,
    tiles_sum5 (fun m => preN5 h t1 t2 W0 W1 W2 b m q * preN5 h t1 t2 W0 W1 W2 b m q)]
  simp only [preN5_val]

end Cert.KernelIdeal.Hand.Val

end
-- ==== Proof.KI.ValH5.lean ====
/- The host operations between regions 4 and 5. From the hidden state after layer 2 `h` they prepare what region 5 reads:
   `L h` and `L (L h)` — each one gather of the edges' source rows, scaled by the edges' weights, scatter-added at the
   edges' targets into zeros — and layer 2's three weight matrices and bias row, cut out of the stacked
   parameters. For an arbitrary valuation of the buffers the stretch reads. -/
import proofs.«160050_j32744830665390_2_alg».proof.Proof.Spec
import proofs.«160050_j32744830665390_2_alg».proof.Proof.Bridge.Inputs
import proofs.«160050_j32744830665390_2_alg».proof.Proof.Math.Lift
import proofs.«160050_j32744830665390_2_alg».proof.Proof.Val.GatherScatter
import proofs.«160050_j32744830665390_2_alg».proof.Proof.Val.Ends
import proofs.«160050_j32744830665390_2_alg».proof.Proof.Gen.KernelIdeal.Launch
import Idealize.ShloMosaic.Lib.StableHlo.Run
import Idealize.ShloMosaic.Lib.ValueLayout
import Idealize.ShloMosaic.Lib.IdealHost
import Idealize.ShloMosaic.PureOps.Ideal.Laws

set_option maxRecDepth 16384

noncomputable section

namespace Cert.KernelIdeal.Hand.Val

open Cert.KernelIdeal Cert.KernelIdeal.Gen
open Idealize.ShloMosaic Idealize.ShloMosaic.TcCoe Idealize.ShloMosaic.ValueIdx Idealize.ShloMosaic.StableHlo
open Cert.Hand Cert.Hand.Bridge Cert.Hand.Math Cert.Hand.Val
open scoped BigOperators

/-! ## One application of the scaled Laplacian, as the host computes it -/

/-- Gather the sources' rows of `x` (a negative source word first moved up by the node count), scale each by its edge's
    weight, and scatter-add at the targets into zeros. -/
def lapHost5 (src dst : IVec S800000 32) (w : Vec Ideal S800000 .f32) (x : Vec Ideal S50000x128 .f32) : Vec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (mulf (broadcastInDim S800000x128 ![0, 1] bcast_S800000x1_S800000x128_0_1 (broadcastInDim S800000x1 ![0] bcast_S800000_S800000x1_0 w))
      (Host.gather gather_S50000x128_S800000x1_S800000x128_1_0_n_n_0_1_1128 x
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))

/-- A column broadcast along 128 features reads, at `(e, k)`, the column's entry `e`. -/
theorem colrow5_apply {α : Type} (hb : (⟨2, ![800000, 1]⟩ : Shape).BroadcastsInDim ⟨2, ![800000, 128]⟩ ![0, 1])
    (x : (⟨2, ![800000, 1]⟩ : Shape).Idx → α) (e : Fin 800000) (k : Fin 128) :
    broadcastInDim ⟨2, ![800000, 128]⟩ ![0, 1] hb x (ix2 e k) = x (ix2 e (0 : Fin 1)) :=
  broadcastInDim_apply ![0, 1] hb x (ix2 e k) (ix2 e (0 : Fin 1)) fun a => by
    match a with
    | ⟨0, _⟩ => show e.val = if (800000 : ℕ) = 1 then 0 else e.val; rw [if_neg (by decide)]
    | ⟨1, _⟩ => show (0 : ℕ) = if (1 : ℕ) = 1 then 0 else k.val; rw [if_pos rfl]

/-- If the index vectors name the edges' ends, the weights are the Laplacian's and `x` holds `h`, the host's step holds `L h`. -/
theorem lapHost5_holds (I : Spec.Inputs) (h : Spec.Hidden) {src dst : IVec S800000 32} {w : Vec Ideal S800000 .f32} {x : Vec Ideal S50000x128 .f32}
    (hsrc : Ends src I.src) (hdst : Ends dst I.dst) (hw : Holds1 (n0 := 800000) w (Spec.wEdge I)) (hx : Holds2 (n0 := 50000) (n1 := 128) x h) :
    Holds2 (n0 := 50000) (n1 := 128) (lapHost5 src dst w x) (Spec.lap I h) := by
  intro i
  obtain ⟨n, k, rfl⟩ : ∃ (n : Fin 50000) (k : Fin 128), i = ix2 n k := ⟨i 0, i 1, eq_ix2 i⟩
  unfold lapHost5
  refine (scatterRow_of_names (N := 50000) (E := 800000) (H := 128) _ _ _ _ I.dst (names_bcast bcast_S800000_S800000x1_0 hdst) n k).trans ?_
  -- the base is the zero splat
  have hz : broadcastInDim S50000x128 ![] bcast_S_S50000x128 (constant (F := Ideal) S_ .f32 0x00000000#32) (ix2 n k) = 0 := by
    rw [broadcastInDim_scalar_apply bcast_S_S50000x128 _ (ix2 n k)]
    exact Ideal.ofBits_zero_f32
  rw [hz, zero_add]
  refine (sum_eq_coe_of_forall _ _ (fun e => if I.dst e = n then Spec.wEdge I e * h (I.src e) k else 0) fun e _ => ?_).trans rfl
  by_cases hd : I.dst e = n
  · -- an edge into `n`: its weight times its source's row
    simp only [if_pos hd]
    rw [mulf_apply, colrow5_apply bcast_S800000x1_S800000x128_0_1 _ e k,
      bcastCol_apply (by decide) bcast_S800000_S800000x1_0 w e (0 : Fin 1), hw (ix1 e)]
    refine (congrArg (((Spec.wEdge I e : ℝ) : EReal) * ·)
      ((gatherRow_of_names (N := 50000) (E := 800000) (H := 128) _ x _ I.src
        (names_wrap_bcast bcast_S_S800000 bcast_S_S800000 bcast_S800000_S800000x1_0 hsrc) e k).trans (hx (ix2 (I.src e) k)))).trans ?_
    exact coe_mul_coe _ _
  · simp only [if_neg hd]; rfl

/-! ## A weight matrix cut out of the stacked weights -/

/-- Block `(l, m)` of a [3,3,128,128] array, its two unit axes dropped, read at `(j, k)`. -/
theorem wslice5_at {α : Type} (x : (⟨4, ![3, 3, 128, 128]⟩ : Shape).Idx → α) (off : Fin 4 → ℕ)
    (hs : (⟨4, ![3, 3, 128, 128]⟩ : Shape).Slices off ⟨4, ![1, 1, 128, 128]⟩)
    (hc : (⟨4, ![1, 1, 128, 128]⟩ : Shape).ShapeCasts ⟨2, ![128, 128]⟩) (l m : Fin 3)
    (h0 : off 0 = l.val) (h1 : off 1 = m.val ∧ off 2 = 0 ∧ off 3 = 0) (j k : Fin 128) :
    shapeCast ⟨2, ![128, 128]⟩ (extractStridedSlice ⟨4, ![1, 1, 128, 128]⟩ off x hs) hc (ix2 j k) = x (ix4 l m j k) := by
  refine (shapeCast_apply _ hc (ix2 j k) (ix4 (0 : Fin 1) (0 : Fin 1) j k) ?_).trans ?_
  · rw [Shape.rowMajor_val_four, Shape.rowMajor_val_two]
    show ((0 * 1 + 0) * 128 + j.val) * 128 + k.val = j.val * 128 + k.val
    omega
  · refine extractStridedSlice_apply off x hs _ (ix4 l m j k) fun a => ?_
    match a with
    | ⟨0, _⟩ => show l.val = off 0 + 0; omega
    | ⟨1, _⟩ => show m.val = off 1 + 0; omega
    | ⟨2, _⟩ => show j.val = off 2 + j.val; omega
    | ⟨3, _⟩ => show k.val = off 3 + k.val; omega

/-- Row `l` of a [3,128] array, as a [1,128] row (through the flat [128] form and back), read at `(u, k)`. -/
theorem bslice5_at {α : Type} (x : (⟨2, ![3, 128]⟩ : Shape).Idx → α) (off : Fin 2 → ℕ)
    (hs : (⟨2, ![3, 128]⟩ : Shape).Slices off ⟨2, ![1, 128]⟩)
    (hc1 : (⟨2, ![1, 128]⟩ : Shape).ShapeCasts ⟨1, ![128]⟩) (hc2 : (⟨1, ![128]⟩ : Shape).ShapeCasts ⟨2, ![1, 128]⟩) (l : Fin 3)
    (h0 : off 0 = l.val) (h1 : off 1 = 0) (u : Fin 1) (k : Fin 128) :
    shapeCast ⟨2, ![1, 128]⟩ (shapeCast ⟨1, ![128]⟩ (extractStridedSlice ⟨2, ![1, 128]⟩ off x hs) hc1) hc2 (ix2 u k) = x (ix2 l k) := by
  refine (shapeCast_a_1a_apply _ hc2 u k).trans ((shapeCast_1a_a_apply _ hc1 k).trans ?_)
  refine extractStridedSlice_apply off x hs _ (ix2 l k) fun a => ?_
  match a with
  | ⟨0, _⟩ => show l.val = off 0 + 0; omega
  | ⟨1, _⟩ => show k.val = off 1 + k.val; omega

/-! ## The stretch -/

variable (V : Valuation τ sig (Elt Ideal))

/-- The stretch does not write the hidden state it reads. -/
theorem acts5_kept : StableHlo.after hostOps5 V (Proc.devRef .tc main_v145) = V (Proc.devRef .tc main_v145) := by
  after_results

set_option maxHeartbeats 4000000 in
/-- After the stretch `main_v158` is one Laplacian step on the hidden state, -/
theorem lapA_term5 : StableHlo.after hostOps5 V (Proc.devRef .tc main_v158)
    = lapHost5 (V (Proc.devRef .tc main_v1)) (V (Proc.devRef .tc main_v3)) (V (Proc.devRef .tc main_v33)) (V (Proc.devRef .tc main_v145)) := by
  after_results_simp
  try rfl

set_option maxHeartbeats 8000000 in
/-- and `main_v171` a second step on that. -/
theorem lapB_term5 : StableHlo.after hostOps5 V (Proc.devRef .tc main_v171)
    = lapHost5 (V (Proc.devRef .tc main_v1)) (V (Proc.devRef .tc main_v3)) (V (Proc.devRef .tc main_v33))
        (lapHost5 (V (Proc.devRef .tc main_v1)) (V (Proc.devRef .tc main_v3)) (V (Proc.devRef .tc main_v33)) (V (Proc.devRef .tc main_v145))) := by
  after_results_simp
  try rfl

variable (I : Spec.Inputs) (h : Spec.Hidden)

theorem valH5_lap1 (hsrc : Ends (V (Proc.devRef .tc main_v1)) I.src) (hdst : Ends (V (Proc.devRef .tc main_v3)) I.dst)
    (hw : Holds1 (n0 := 800000) (V (Proc.devRef .tc main_v33)) (Spec.wEdge I))
    (hh : Holds2 (n0 := 50000) (n1 := 128) (V (Proc.devRef .tc main_v145)) h) :
    Holds2 (n0 := 50000) (n1 := 128) (StableHlo.after hostOps5 V (Proc.devRef .tc main_v158)) (Spec.lap I h) := by
  rw [lapA_term5]
  exact lapHost5_holds I h hsrc hdst hw hh

theorem valH5_lap2 (hsrc : Ends (V (Proc.devRef .tc main_v1)) I.src) (hdst : Ends (V (Proc.devRef .tc main_v3)) I.dst)
    (hw : Holds1 (n0 := 800000) (V (Proc.devRef .tc main_v33)) (Spec.wEdge I))
    (hh : Holds2 (n0 := 50000) (n1 := 128) (V (Proc.devRef .tc main_v145)) h) :
    Holds2 (n0 := 50000) (n1 := 128) (StableHlo.after hostOps5 V (Proc.devRef .tc main_v171)) (Spec.lap I (Spec.lap I h)) := by
  rw [lapB_term5]
  exact lapHost5_holds I (Spec.lap I h) hsrc hdst hw (lapHost5_holds I h hsrc hdst hw hh)

/-- After the stretch `main_v173` holds the layer's weight matrix 0: block (2, 0) of the stacked weights, its two unit axes dropped. -/
theorem valH5_w0_term : StableHlo.after hostOps5 V (Proc.devRef .tc main_v173)
    = shapeCast S128x128 (extractStridedSlice S1x1x128x128 ![2, 0, 0, 0] (V (Proc.devRef .tc main_arg5)) slices_S3x3x128x128_S1x1x128x128_2_0_0_0) shapeCasts_S1x1x128x128_S128x128 := by
  after_results
  try rfl

theorem valH5_w0 (hW : Holds4 (n0 := 3) (n1 := 3) (n2 := 128) (n3 := 128) (V (Proc.devRef .tc main_arg5)) I.chebW) :
    Holds2 (n0 := 128) (n1 := 128) (StableHlo.after hostOps5 V (Proc.devRef .tc main_v173)) (I.chebW 2 0) := by
  intro i
  obtain ⟨j, k, rfl⟩ : ∃ (j k : Fin 128), i = ix2 j k := ⟨i 0, i 1, eq_ix2 i⟩
  rw [valH5_w0_term]
  refine (wslice5_at (V (Proc.devRef .tc main_arg5)) ![2, 0, 0, 0] slices_S3x3x128x128_S1x1x128x128_2_0_0_0 shapeCasts_S1x1x128x128_S128x128 (2 : Fin 3) (0 : Fin 3) rfl ⟨rfl, rfl, rfl⟩ j k).trans ?_
  exact hW (ix4 (2 : Fin 3) (0 : Fin 3) j k)

/-- After the stretch `main_v175` holds the layer's weight matrix 1: block (2, 1) of the stacked weights, its two unit axes dropped. -/
theorem valH5_w1_term : StableHlo.after hostOps5 V (Proc.devRef .tc main_v175)
    = shapeCast S128x128 (extractStridedSlice S1x1x128x128 ![2, 1, 0, 0] (V (Proc.devRef .tc main_arg5)) slices_S3x3x128x128_S1x1x128x128_2_1_0_0) shapeCasts_S1x1x128x128_S128x128 := by
  after_results
  try rfl

theorem valH5_w1 (hW : Holds4 (n0 := 3) (n1 := 3) (n2 := 128) (n3 := 128) (V (Proc.devRef .tc main_arg5)) I.chebW) :
    Holds2 (n0 := 128) (n1 := 128) (StableHlo.after hostOps5 V (Proc.devRef .tc main_v175)) (I.chebW 2 1) := by
  intro i
  obtain ⟨j, k, rfl⟩ : ∃ (j k : Fin 128), i = ix2 j k := ⟨i 0, i 1, eq_ix2 i⟩
  rw [valH5_w1_term]
  refine (wslice5_at (V (Proc.devRef .tc main_arg5)) ![2, 1, 0, 0] slices_S3x3x128x128_S1x1x128x128_2_1_0_0 shapeCasts_S1x1x128x128_S128x128 (2 : Fin 3) (1 : Fin 3) rfl ⟨rfl, rfl, rfl⟩ j k).trans ?_
  exact hW (ix4 (2 : Fin 3) (1 : Fin 3) j k)

/-- After the stretch `main_v177` holds the layer's weight matrix 2: block (2, 2) of the stacked weights, its two unit axes dropped. -/
theorem valH5_w2_term : StableHlo.after hostOps5 V (Proc.devRef .tc main_v177)
    = shapeCast S128x128 (extractStridedSlice S1x1x128x128 ![2, 2, 0, 0] (V (Proc.devRef .tc main_arg5)) slices_S3x3x128x128_S1x1x128x128_2_2_0_0) shapeCasts_S1x1x128x128_S128x128 := by
  after_results
  try rfl

theorem valH5_w2 (hW : Holds4 (n0 := 3) (n1 := 3) (n2 := 128) (n3 := 128) (V (Proc.devRef .tc main_arg5)) I.chebW) :
    Holds2 (n0 := 128) (n1 := 128) (StableHlo.after hostOps5 V (Proc.devRef .tc main_v177)) (I.chebW 2 2) := by
  intro i
  obtain ⟨j, k, rfl⟩ : ∃ (j k : Fin 128), i = ix2 j k := ⟨i 0, i 1, eq_ix2 i⟩
  rw [valH5_w2_term]
  refine (wslice5_at (V (Proc.devRef .tc main_arg5)) ![2, 2, 0, 0] slices_S3x3x128x128_S1x1x128x128_2_2_0_0 shapeCasts_S1x1x128x128_S128x128 (2 : Fin 3) (2 : Fin 3) rfl ⟨rfl, rfl, rfl⟩ j k).trans ?_
  exact hW (ix4 (2 : Fin 3) (2 : Fin 3) j k)

/-- After the stretch `main_v180` holds the layer's bias as a row. -/
theorem valH5_bias_term : StableHlo.after hostOps5 V (Proc.devRef .tc main_v180)
    = shapeCast S1x128 (shapeCast S128 (extractStridedSlice S1x128 ![2, 0] (V (Proc.devRef .tc main_arg6)) slices_S3x128_S1x128_2_0) shapeCasts_S1x128_S128) shapeCasts_S128_S1x128 := by
  after_results
  try rfl

theorem valH5_bias (hB : Holds2 (n0 := 3) (n1 := 128) (V (Proc.devRef .tc main_arg6)) I.chebB) :
    Holds2 (n0 := 1) (n1 := 128) (StableHlo.after hostOps5 V (Proc.devRef .tc main_v180)) (fun _ k => I.chebB 2 k) := by
  intro i
  obtain ⟨u, k, rfl⟩ : ∃ (u : Fin 1) (k : Fin 128), i = ix2 u k := ⟨i 0, i 1, eq_ix2 i⟩
  rw [valH5_bias_term]
  refine (bslice5_at (V (Proc.devRef .tc main_arg6)) ![2, 0] slices_S3x128_S1x128_2_0 shapeCasts_S1x128_S128 shapeCasts_S128_S1x128 (2 : Fin 3) rfl rfl u k).trans ?_
  exact hB (ix2 (2 : Fin 3) k)

end Cert.KernelIdeal.Hand.Val

end
-- ==== Proof.KI.Val6.lean ====
import proofs.«160050_j32744830665390_2_alg».proof.Proof.Spec
import proofs.«160050_j32744830665390_2_alg».proof.Proof.Bridge.Inputs
import proofs.«160050_j32744830665390_2_alg».proof.Proof.Math.Lift
import proofs.«160050_j32744830665390_2_alg».proof.Proof.KI.Reg6
import Idealize.ShloMosaic.PureOps.Ideal.Laws

/-! # Region 6's output array, read over the reals

Region 6 leaves in its output array every pre-normalisation activation centred by its feature's mean, scaled by the
reciprocal square root of its feature's variance plus ε, multiplied by the feature's scale, shifted by the feature's
shift and clamped below at zero. Here that is read at the ideal instance, where a float is an extended real: if the
five input arrays hold real tables — the activations `o`, and rows `μ`, `v`, `g`, `b` — and every `v k + ε` is
positive, the output array holds the real table `max ((o i k − μ k) · (v k + ε)^(−1/2) · g k + b k) 0`. With `μ` the
column means of `o` and `g`, `b` layer 2's batch-norm parameters this is the specification's
`bnRelu` of that layer. -/

noncomputable section

namespace Cert.KernelIdeal.Hand.Val

open Cert.KernelIdeal Cert.KernelIdeal.Gen Cert.KernelIdeal.Hand
open Idealize.ShloMosaic Idealize.ShloMosaic.TcCoe Idealize.ShloMosaic.ValueIdx
open Cert.Hand Cert.Hand.Bridge

/-- Region 6's output array after its ten write-backs holds batch norm then relu of the activations it was given,
    for any real rows the four statistics arrays hold, the variance row plus ε being positive. -/
theorem val6 (V : Entry Ideal) (c : Dev nD) (o : Spec.Hidden) (μ v g b : Fin 128 → ℝ)
    (ho : Holds2 (n0 := 50000) (n1 := 128) (V c main_v181_0) o)
    (hμ : Holds2 (n0 := 1) (n1 := 128) (V c main_v194) (fun _ k => μ k))
    (hv : Holds2 (n0 := 1) (n1 := 128) (V c main_v195) (fun _ k => v k))
    (hg : Holds2 (n0 := 1) (n1 := 128) (V c main_v196) (fun _ k => g k))
    (hb : Holds2 (n0 := 1) (n1 := 128) (V c main_v197) (fun _ k => b k))
    (hpos : ∀ k, 0 < v k + Bridge.eps) :
    Holds2 (n0 := 50000) (n1 := 128) ((dat6 V c).arrAt 5 cfg6.N)
      (fun i k => max ((o i k - μ k) * Spec.rsq (v k + Bridge.eps) * g k + b k) 0) := by
  unfold Holds2
  intro i
  obtain ⟨p, q, rfl⟩ : ∃ (p : Fin 50000) (q : Fin 128), i = ix2 p q := ⟨i 0, i 1, eq_ix2 i⟩
  rw [final6_5 V c]
  have e0 : V c main_v181_0 (ix2 p q) = ((o p q : ℝ) : EReal) := ho (ix2 p q)
  have e1 : V c main_v194 (ix2 (0 : Fin 1) q) = ((μ q : ℝ) : EReal) := hμ (ix2 (0 : Fin 1) q)
  have e2 : V c main_v195 (ix2 (0 : Fin 1) q) = ((v q : ℝ) : EReal) := hv (ix2 (0 : Fin 1) q)
  have e3 : V c main_v196 (ix2 (0 : Fin 1) q) = ((g q : ℝ) : EReal) := hg (ix2 (0 : Fin 1) q)
  have e4 : V c main_v197 (ix2 (0 : Fin 1) q) = ((b q : ℝ) : EReal) := hb (ix2 (0 : Fin 1) q)
  show bnRelu246 (V c main_v181_0 (ix2 p q)) (V c main_v194 (ix2 (0 : Fin 1) q)) (V c main_v195 (ix2 (0 : Fin 1) q))
      (V c main_v196 (ix2 (0 : Fin 1) q)) (V c main_v197 (ix2 (0 : Fin 1) q))
    = ((max ((o p q - μ q) * Spec.rsq (v q + Bridge.eps) * g q + b q) 0 : ℝ) : EReal)
  rw [e0, e1, e2, e3, e4]
  unfold bnRelu246
  simp only [Ideal.subf_def, Ideal.addf_def, Ideal.mulf_def, Ideal.maximumf_def, Ideal.rsqrt_def, Ideal.ofBits_def]
  rw [Bridge.eps_spec.1, Ideal.ofBits_zero_f32]
  simp only [Math.coe_sub_coe, Math.coe_add_coe, Math.coe_mul_coe, Math.rsqrt_coe_of_pos (hpos q),
    Math.max_coe_zero]
  rfl

/-- With the mean row at the column means of `o` and the scale and shift rows at layer 2's batch-norm parameters,
    that table is the specification's `bnRelu` of layer 2 over `o`, the variance row being whatever `v` it is. -/
theorem val6_spec (V : Entry Ideal) (c : Dev nD) (I : Spec.Inputs) (o : Spec.Hidden) (v : Fin 128 → ℝ)
    (ho : Holds2 (n0 := 50000) (n1 := 128) (V c main_v181_0) o)
    (hμ : Holds2 (n0 := 1) (n1 := 128) (V c main_v194) (fun _ k => Spec.colMean o k))
    (hv : Holds2 (n0 := 1) (n1 := 128) (V c main_v195) (fun _ k => v k))
    (hg : Holds2 (n0 := 1) (n1 := 128) (V c main_v196) (fun _ k => I.bnG (2 : Fin 3) k))
    (hb : Holds2 (n0 := 1) (n1 := 128) (V c main_v197) (fun _ k => I.bnB (2 : Fin 3) k))
    (hpos : ∀ k, 0 < v k + Bridge.eps) :
    Holds2 (n0 := 50000) (n1 := 128) ((dat6 V c).arrAt 5 cfg6.N) (Spec.bnRelu I Bridge.eps (2 : Fin 3) v o) :=
  val6 V c o (Spec.colMean o) v (I.bnG (2 : Fin 3)) (I.bnB (2 : Fin 3)) ho hμ hv hg hb hpos

end Cert.KernelIdeal.Hand.Val

end
-- ==== Proof.KI.ValH6.lean ====
import proofs.«160050_j32744830665390_2_alg».proof.Proof.Spec
import proofs.«160050_j32744830665390_2_alg».proof.Proof.Bridge.Inputs
import proofs.«160050_j32744830665390_2_alg».proof.Proof.Math.Lift
import proofs.«160050_j32744830665390_2_alg».proof.Proof.Gen.KernelIdeal.Launch
import Idealize.ShloMosaic.Lib.StableHlo.Run
import Idealize.ShloMosaic.Lib.ValueLayout

/-! # The host stretch before region 6, read over the reals

Between Chebyshev region 5 and normalisation region 6 the host turns the column sums and the column sums of
squares the Chebyshev region left into the batch statistics: the mean row is the sums divided by the number
of nodes (the f32 word `0x47435000`, 50000), the variance row is the sums of squares divided by 50000 less the
squared mean, and the scale and shift rows are row 2 of the batch-norm parameter tables; each row passes through a
flatten and an unflatten, which change nothing. Read at the ideal instance, where a float is an extended real: if
the two sums' arrays hold the real column sums of a table `o` and the parameter tables hold the specification's
parameters, then after the stretch the four rows region 6 reads hold the column means of `o`, its variance as
mean of squares less squared mean, and layer 2's scale and shift. -/

noncomputable section

namespace Cert.KernelIdeal.Hand.Val

open Cert.KernelIdeal Cert.KernelIdeal.Gen
open Idealize.ShloMosaic Idealize.ShloMosaic.TcCoe Idealize.ShloMosaic.ValueIdx Idealize.ShloMosaic.StableHlo
open Cert.Hand Cert.Hand.Bridge
open scoped BigOperators

/-! ## The pieces -/

/-- The f32 word `0x47435000` is 50000, the number of nodes: sign 0, exponent 142, fraction `0x435000`, that is
    `(2^23 + 4411392) · 2^(142 − 127 − 23) = 12800000 / 256`. -/
theorem nodes6_word : Ideal.ofBits .f32 0x47435000#32 = ((50000 : ℝ) : EReal) := by
  have hex : ((0x47435000#32 : BitVec 32).extractLsb' 23 8).toNat = 142 := by decide
  have hfr : ((0x47435000#32 : BitVec 32).extractLsb' 0 23).toNat = 4411392 := by decide
  have hneg : ((0x47435000#32 : BitVec 32).extractLsb' (8 + 23) 1 == 1#1) = false := by decide
  unfold Ideal.ofBits Ideal.ieee
  simp only [hex, hfr, hneg]
  norm_num

/-- The row of 128 copies of that constant reads 50000 everywhere. -/
theorem nodes6_row (j : S1x128.Idx) :
    broadcastInDim S1x128 ![] bcast_S_S1x128 (constant (F := Ideal) S_ .f32 0x47435000#32) j
      = ((50000 : ℝ) : EReal) :=
  (broadcastInDim_apply (s := S_) (t := S1x128) ![] bcast_S_S1x128 (constant (F := Ideal) S_ .f32 0x47435000#32) j ix0
    (fun a => a.elim0)).trans nodes6_word

/-- A 1 × 128 row flattened to 128 entries and unflattened again reads, at feature `q`, what it read before. -/
theorem row6_roundtrip {α : Type} (x : S1x128.Idx → α) (u : Fin 1) (q : Fin 128) :
    shapeCast S1x128 (shapeCast S128 x shapeCasts_S1x128_S128) shapeCasts_S128_S1x128 (ix2 u q)
      = x (ix2 (0 : Fin 1) q) :=
  (shapeCast_a_1a_apply _ _ u q).trans (shapeCast_1a_a_apply _ _ q)

section Stretch

variable (V : Valuation τ sig (Elt Ideal))

/-! ## What the stretch leaves in the four rows, as terms over what it finds -/

/-- The mean row: the column sums divided by the row of 50000s, flattened and unflattened. -/
theorem mean6_term : StableHlo.after hostOps6 V (Proc.devRef .tc main_v194)
    = shapeCast S1x128 (shapeCast S128
        (Host.divf (V (Proc.devRef .tc main_v181_1))
          (broadcastInDim S1x128 ![] bcast_S_S1x128 (constant (F := Ideal) S_ .f32 0x47435000#32)))
        shapeCasts_S1x128_S128) shapeCasts_S128_S1x128 := by
  after_results <;> rfl

/-- The variance row: the column sums of squares divided by 50000, less the squared mean row, flattened and
    unflattened. -/
theorem var6_term : StableHlo.after hostOps6 V (Proc.devRef .tc main_v195)
    = shapeCast S1x128 (shapeCast S128
        (subf
          (Host.divf (V (Proc.devRef .tc main_v181_2))
            (broadcastInDim S1x128 ![] bcast_S_S1x128 (constant (F := Ideal) S_ .f32 0x47435000#32)))
          (mulf
            (Host.divf (V (Proc.devRef .tc main_v181_1))
              (broadcastInDim S1x128 ![] bcast_S_S1x128 (constant (F := Ideal) S_ .f32 0x47435000#32)))
            (Host.divf (V (Proc.devRef .tc main_v181_1))
              (broadcastInDim S1x128 ![] bcast_S_S1x128 (constant (F := Ideal) S_ .f32 0x47435000#32)))))
        shapeCasts_S1x128_S128) shapeCasts_S128_S1x128 := by
  after_results <;> rfl

/-- The scale row: row 2 of the scale table, flattened and unflattened. -/
theorem scale6_term : StableHlo.after hostOps6 V (Proc.devRef .tc main_v196)
    = shapeCast S1x128 (shapeCast S128
        (extractStridedSlice S1x128 ![2, 0] (V (Proc.devRef .tc main_arg7)) slices_S3x128_S1x128_2_0)
        shapeCasts_S1x128_S128) shapeCasts_S128_S1x128 := by
  after_results <;> rfl

/-- The shift row: row 2 of the shift table, flattened and unflattened. -/
theorem shift6_term : StableHlo.after hostOps6 V (Proc.devRef .tc main_v197)
    = shapeCast S1x128 (shapeCast S128
        (extractStridedSlice S1x128 ![2, 0] (V (Proc.devRef .tc main_arg8)) slices_S3x128_S1x128_2_0)
        shapeCasts_S1x128_S128) shapeCasts_S128_S1x128 := by
  after_results <;> rfl

/-- The stretch writes none of the activations region 6 reads. -/
theorem acts6_kept : StableHlo.after hostOps6 V (Proc.devRef .tc main_v181_0) = V (Proc.devRef .tc main_v181_0) := by
  after_results <;> rfl

/-! ## The four rows over the reals -/

variable (I : Spec.Inputs) (o : Spec.Hidden)

/-- The mean row holds the column means. -/
theorem valH6_mean
    (hs : Holds2 (n0 := 1) (n1 := 128) (V (Proc.devRef .tc main_v181_1)) (fun _ k => ∑ i : Fin 50000, o i k)) :
    Holds2 (n0 := 1) (n1 := 128) (StableHlo.after hostOps6 V (Proc.devRef .tc main_v194))
      (fun _ k => Spec.colMean o k) := by
  rw [mean6_term]
  unfold Holds2
  intro i
  obtain ⟨u, q, rfl⟩ : ∃ (u : Fin 1) (q : Fin 128), i = ix2 u q := ⟨i 0, i 1, eq_ix2 i⟩
  refine (row6_roundtrip _ u q).trans ?_
  have es : V (Proc.devRef .tc main_v181_1) (ix2 (0 : Fin 1) q) = ((∑ i : Fin 50000, o i q : ℝ) : EReal) :=
    hs (ix2 (0 : Fin 1) q)
  show FloatOps.hostDivf (V (Proc.devRef .tc main_v181_1) (ix2 (0 : Fin 1) q))
      (broadcastInDim S1x128 ![] bcast_S_S1x128 (constant (F := Ideal) S_ .f32 0x47435000#32) (ix2 (0 : Fin 1) q))
    = ((Spec.colMean o q : ℝ) : EReal)
  rw [nodes6_row, es, Ideal.hostDivf_def, Math.div_coe_coe _ (by norm_num : (50000 : ℝ) ≠ 0)]
  rfl

/-- The variance row holds the mean of squares less the squared mean. -/
theorem valH6_var
    (hs : Holds2 (n0 := 1) (n1 := 128) (V (Proc.devRef .tc main_v181_1)) (fun _ k => ∑ i : Fin 50000, o i k))
    (hq : Holds2 (n0 := 1) (n1 := 128) (V (Proc.devRef .tc main_v181_2))
      (fun _ k => ∑ i : Fin 50000, o i k * o i k)) :
    Holds2 (n0 := 1) (n1 := 128) (StableHlo.after hostOps6 V (Proc.devRef .tc main_v195))
      (fun _ k => Spec.varMom o k) := by
  rw [var6_term]
  unfold Holds2
  intro i
  obtain ⟨u, q, rfl⟩ : ∃ (u : Fin 1) (q : Fin 128), i = ix2 u q := ⟨i 0, i 1, eq_ix2 i⟩
  refine (row6_roundtrip _ u q).trans ?_
  have es : V (Proc.devRef .tc main_v181_1) (ix2 (0 : Fin 1) q) = ((∑ i : Fin 50000, o i q : ℝ) : EReal) :=
    hs (ix2 (0 : Fin 1) q)
  have eq : V (Proc.devRef .tc main_v181_2) (ix2 (0 : Fin 1) q)
      = ((∑ i : Fin 50000, o i q * o i q : ℝ) : EReal) := hq (ix2 (0 : Fin 1) q)
  show FloatOps.subf
      (FloatOps.hostDivf (V (Proc.devRef .tc main_v181_2) (ix2 (0 : Fin 1) q))
        (broadcastInDim S1x128 ![] bcast_S_S1x128 (constant (F := Ideal) S_ .f32 0x47435000#32) (ix2 (0 : Fin 1) q)))
      (FloatOps.mulf
        (FloatOps.hostDivf (V (Proc.devRef .tc main_v181_1) (ix2 (0 : Fin 1) q))
          (broadcastInDim S1x128 ![] bcast_S_S1x128 (constant (F := Ideal) S_ .f32 0x47435000#32) (ix2 (0 : Fin 1) q)))
        (FloatOps.hostDivf (V (Proc.devRef .tc main_v181_1) (ix2 (0 : Fin 1) q))
          (broadcastInDim S1x128 ![] bcast_S_S1x128 (constant (F := Ideal) S_ .f32 0x47435000#32) (ix2 (0 : Fin 1) q))))
    = ((Spec.varMom o q : ℝ) : EReal)
  rw [nodes6_row, es, eq]
  simp only [Ideal.hostDivf_def, Ideal.subf_def, Ideal.mulf_def,
    Math.div_coe_coe _ (by norm_num : (50000 : ℝ) ≠ 0), Math.coe_mul_coe, Math.coe_sub_coe]
  rfl

/-- The scale row holds layer 2's scale. -/
theorem valH6_scale (hg : Holds2 (n0 := 3) (n1 := 128) (V (Proc.devRef .tc main_arg7)) I.bnG) :
    Holds2 (n0 := 1) (n1 := 128) (StableHlo.after hostOps6 V (Proc.devRef .tc main_v196))
      (fun _ k => I.bnG (2 : Fin 3) k) := by
  rw [scale6_term]
  unfold Holds2
  intro i
  obtain ⟨u, q, rfl⟩ : ∃ (u : Fin 1) (q : Fin 128), i = ix2 u q := ⟨i 0, i 1, eq_ix2 i⟩
  refine (row6_roundtrip _ u q).trans ?_
  refine (slice2_axis0_apply 2 (V (Proc.devRef .tc main_arg7)) slices_S3x128_S1x128_2_0 (0 : Fin 1) q
    (2 : Fin 3) rfl).trans ?_
  exact hg (ix2 (2 : Fin 3) q)

/-- The shift row holds layer 2's shift. -/
theorem valH6_shift (hb : Holds2 (n0 := 3) (n1 := 128) (V (Proc.devRef .tc main_arg8)) I.bnB) :
    Holds2 (n0 := 1) (n1 := 128) (StableHlo.after hostOps6 V (Proc.devRef .tc main_v197))
      (fun _ k => I.bnB (2 : Fin 3) k) := by
  rw [shift6_term]
  unfold Holds2
  intro i
  obtain ⟨u, q, rfl⟩ : ∃ (u : Fin 1) (q : Fin 128), i = ix2 u q := ⟨i 0, i 1, eq_ix2 i⟩
  refine (row6_roundtrip _ u q).trans ?_
  refine (slice2_axis0_apply 2 (V (Proc.devRef .tc main_arg8)) slices_S3x128_S1x128_2_0 (0 : Fin 1) q
    (2 : Fin 3) rfl).trans ?_
  exact hb (ix2 (2 : Fin 3) q)

/-- THE STAGE: after the stretch the four rows region 6 reads hold the column means of `o`, its variance as mean of
    squares less squared mean, and layer 2's scale and shift; the activations are as they were. -/
theorem valH6
    (hs : Holds2 (n0 := 1) (n1 := 128) (V (Proc.devRef .tc main_v181_1)) (fun _ k => ∑ i : Fin 50000, o i k))
    (hq : Holds2 (n0 := 1) (n1 := 128) (V (Proc.devRef .tc main_v181_2))
      (fun _ k => ∑ i : Fin 50000, o i k * o i k))
    (hg : Holds2 (n0 := 3) (n1 := 128) (V (Proc.devRef .tc main_arg7)) I.bnG)
    (hb : Holds2 (n0 := 3) (n1 := 128) (V (Proc.devRef .tc main_arg8)) I.bnB) :
    Holds2 (n0 := 1) (n1 := 128) (StableHlo.after hostOps6 V (Proc.devRef .tc main_v194)) (fun _ k => Spec.colMean o k)
    ∧ Holds2 (n0 := 1) (n1 := 128) (StableHlo.after hostOps6 V (Proc.devRef .tc main_v195)) (fun _ k => Spec.varMom o k)
    ∧ Holds2 (n0 := 1) (n1 := 128) (StableHlo.after hostOps6 V (Proc.devRef .tc main_v196))
        (fun _ k => I.bnG (2 : Fin 3) k)
    ∧ Holds2 (n0 := 1) (n1 := 128) (StableHlo.after hostOps6 V (Proc.devRef .tc main_v197))
        (fun _ k => I.bnB (2 : Fin 3) k)
    ∧ StableHlo.after hostOps6 V (Proc.devRef .tc main_v181_0) = V (Proc.devRef .tc main_v181_0) :=
  ⟨valH6_mean V o hs, valH6_var V o hs hq, valH6_scale V I hg, valH6_shift V I hb, acts6_kept V⟩

end Stretch

end Cert.KernelIdeal.Hand.Val

end
-- ==== Proof.Bridge.KernelLayers.lean ====
/-
  The kernel program's hidden states, read over the reals: threaded through the fold of the unscoped buffers'
  contents, the first three stretches of host operations read the graph, region 0 embeds, and each Chebyshev layer
  — a stretch applying the Laplacian, the affine region, a stretch taking the batch statistics, the normalising
  region — turns one hidden state into the next. What the later stretches still read is carried along.
-/
import proofs.«160050_j32744830665390_2_alg».proof.Proof.KI.Fold
import proofs.«160050_j32744830665390_2_alg».proof.Proof.Spec
import proofs.«160050_j32744830665390_2_alg».proof.Proof.Bridge.Inputs
import proofs.«160050_j32744830665390_2_alg».proof.Proof.Math.SpecEq
import proofs.«160050_j32744830665390_2_alg».proof.Proof.KI.Val0
import proofs.«160050_j32744830665390_2_alg».proof.Proof.KI.ValH0
import proofs.«160050_j32744830665390_2_alg».proof.Proof.KI.Val1
import proofs.«160050_j32744830665390_2_alg».proof.Proof.KI.ValH1
import proofs.«160050_j32744830665390_2_alg».proof.Proof.KI.Val2
import proofs.«160050_j32744830665390_2_alg».proof.Proof.KI.ValH2
import proofs.«160050_j32744830665390_2_alg».proof.Proof.KI.Val3
import proofs.«160050_j32744830665390_2_alg».proof.Proof.KI.ValH3
import proofs.«160050_j32744830665390_2_alg».proof.Proof.KI.Val4
import proofs.«160050_j32744830665390_2_alg».proof.Proof.KI.ValH4
import proofs.«160050_j32744830665390_2_alg».proof.Proof.KI.Val5
import proofs.«160050_j32744830665390_2_alg».proof.Proof.KI.ValH5
import proofs.«160050_j32744830665390_2_alg».proof.Proof.KI.Val6
import proofs.«160050_j32744830665390_2_alg».proof.Proof.KI.ValH6

-- memberships decided over the program's references recurse past the default depth
set_option maxRecDepth 16384

noncomputable section

namespace Cert.Hand.Bridge

open Cert.KernelIdeal Cert.KernelIdeal.Gen Cert.KernelIdeal.Hand Cert.KernelIdeal.Hand.Val
open Idealize.ShloMosaic Idealize.ShloMosaic.TcCoe Idealize.ShloMosaic.ValueIdx Idealize.ShloMosaic.StableHlo
open Idealize.SL.Sem

variable (m : (ℓ : Loc nD τ sig) → Buf (Elt Ideal) ℓ) (c : Dev nD) (I : Spec.Inputs)

/-- The launch memory's fifteen argument arrays hold the specification's inputs `I`. -/
abbrev Args : Prop :=
  ArgsHold (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg11)) (m ((c.tc : Thread nD τ).loc main_arg12)) (m ((c.tc : Thread nD τ).loc main_arg13))
    (m ((c.tc : Thread nD τ).loc main_arg14)) I

/-- What is known, over the reals, once the third layer is done (after region 6, at the valuation `W16`): the four
    hidden states in their buffers, and what the later stretches still read of the graph and of the arguments. -/
structure AfterLayers (m : (ℓ : Loc nD τ sig) → Buf (Elt Ideal) ℓ) (c : Dev nD) (I : Spec.Inputs) : Prop where
  h0 : Holds2 (n0 := 50000) (n1 := 128) (W16 m c (Proc.devRef .tc main_v39)) (Spec.hidden I eps Spec.varMom 0)
  h1 : Holds2 (n0 := 50000) (n1 := 128) (W16 m c (Proc.devRef .tc main_v92)) (Spec.hidden I eps Spec.varMom 1)
  h2 : Holds2 (n0 := 50000) (n1 := 128) (W16 m c (Proc.devRef .tc main_v145)) (Spec.hidden I eps Spec.varMom 2)
  h3 : Holds2 (n0 := 50000) (n1 := 128) (W16 m c (Proc.devRef .tc main_v198)) (Spec.hidden I eps Spec.varMom 3)
  src : Ends (W16 m c (Proc.devRef .tc main_v1)) I.src
  dst : Ends (W16 m c (Proc.devRef .tc main_v3)) I.dst
  srcCol : EndsCol (W16 m c (Proc.devRef .tc main_v23)) I.src
  dstCol : EndsCol (W16 m c (Proc.devRef .tc main_v31)) I.dst
  deg : Holds2 (n0 := 50000) (n1 := 1) (W16 m c (Proc.devRef .tc main_v35)) (fun i _ => Spec.degOut I i + Spec.degIn I i)
  batch : Batch (W16 m c (Proc.devRef .tc main_arg14)) I.batch
  w1 : Holds2 (n0 := 128) (n1 := 64) (W16 m c (Proc.devRef .tc main_arg9)) I.w1
  b1 : Holds1 (n0 := 64) (W16 m c (Proc.devRef .tc main_arg10)) I.b1
  w2 : Holds2 (n0 := 64) (n1 := 2) (W16 m c (Proc.devRef .tc main_arg11)) I.w2
  b2 : Holds1 (n0 := 2) (W16 m c (Proc.devRef .tc main_arg12)) I.b2

/-! ## Facts move along equal tables -/

theorem holds2_of_eq {n0 n1 : Nat} {a b : (⟨2, ![n0, n1]⟩ : Shape).Idx → EReal} {A : Fin n0 → Fin n1 → ℝ}
    (e : a = b) (h : Holds2 b A) : Holds2 a A := e ▸ h
theorem holds1_of_eq {n0 : Nat} {a b : (⟨1, ![n0]⟩ : Shape).Idx → EReal} {A : Fin n0 → ℝ}
    (e : a = b) (h : Holds1 b A) : Holds1 a A := e ▸ h
theorem holds4_of_eq {n0 n1 n2 n3 : Nat} {a b : (⟨4, ![n0, n1, n2, n3]⟩ : Shape).Idx → EReal}
    {A : Fin n0 → Fin n1 → Fin n2 → Fin n3 → ℝ} (e : a = b) (h : Holds4 b A) : Holds4 a A := e ▸ h
theorem endsCol_of_eq {a b : IVec (⟨2, ![800000, 1]⟩ : Shape) 32} {f : Fin 800000 → Fin 50000}
    (e : a = b) (h : EndsCol b f) : EndsCol a f := e ▸ h
theorem ends_of_eq {a b : IVec (⟨1, ![800000]⟩ : Shape) 32} {f : Fin 800000 → Fin 50000}
    (e : a = b) (h : Ends b f) : Ends a f := e ▸ h
theorem batch_of_eq {a b : IVec (⟨1, ![50000]⟩ : Shape) 32} {g : Fin 50000 → ℤ}
    (e : a = b) (h : Batch b g) : Batch a g := e ▸ h

/-! ## A buffer no segment has written since holds what it held

Each lemma walks a reference back through the segments, given that none of them writes it. -/

/-- Back to the launch memory from region 0's entry. -/
theorem at3 (r : Ref sig .tc) (h0 : r ∉ hostOps0_W) (h1 : r ∉ hostOps0_1_W) (h2 : r ∉ hostOps0_2_W) :
    V3 m c r = m ((c.tc : Thread nD τ).loc r) :=
  (V3_of m c r h2).trans ((V2_of m c r h1).trans (V1_of m c r h0))
/-- Back to region 0's entry from before the first layer's statistics stretch. -/
theorem back6 (r : Ref sig .tc) (h4 : r ∉ ([main_v39] : List (Ref sig .tc))) (h5 : r ∉ hostOps1_W)
    (h6 : r ∉ ([main_v75_0, main_v75_1, main_v75_2] : List (Ref sig .tc))) : W6 m c r = V3 m c r :=
  (W6_of m c r h6).trans ((W5_of m c r h5).trans (W4_of m c r h4))
/-- … from after the first layer. -/
theorem back8 (r : Ref sig .tc) (h4 : r ∉ ([main_v39] : List (Ref sig .tc))) (h5 : r ∉ hostOps1_W)
    (h6 : r ∉ ([main_v75_0, main_v75_1, main_v75_2] : List (Ref sig .tc))) (h7 : r ∉ hostOps2_W)
    (h8 : r ∉ ([main_v92] : List (Ref sig .tc))) : W8 m c r = V3 m c r :=
  (W8_of m c r h8).trans ((W7_of m c r h7).trans (back6 m c r h4 h5 h6))
/-- … from before the second layer's statistics stretch. -/
theorem back10 (r : Ref sig .tc) (h4 : r ∉ ([main_v39] : List (Ref sig .tc))) (h5 : r ∉ hostOps1_W)
    (h6 : r ∉ ([main_v75_0, main_v75_1, main_v75_2] : List (Ref sig .tc))) (h7 : r ∉ hostOps2_W)
    (h8 : r ∉ ([main_v92] : List (Ref sig .tc))) (h9 : r ∉ hostOps3_W)
    (h10 : r ∉ ([main_v128_0, main_v128_1, main_v128_2] : List (Ref sig .tc))) : W10 m c r = V3 m c r :=
  (W10_of m c r h10).trans ((W9_of m c r h9).trans (back8 m c r h4 h5 h6 h7 h8))
/-- … from after the second layer. -/
theorem back12 (r : Ref sig .tc) (h4 : r ∉ ([main_v39] : List (Ref sig .tc))) (h5 : r ∉ hostOps1_W)
    (h6 : r ∉ ([main_v75_0, main_v75_1, main_v75_2] : List (Ref sig .tc))) (h7 : r ∉ hostOps2_W)
    (h8 : r ∉ ([main_v92] : List (Ref sig .tc))) (h9 : r ∉ hostOps3_W)
    (h10 : r ∉ ([main_v128_0, main_v128_1, main_v128_2] : List (Ref sig .tc))) (h11 : r ∉ hostOps4_W)
    (h12 : r ∉ ([main_v145] : List (Ref sig .tc))) : W12 m c r = V3 m c r :=
  (W12_of m c r h12).trans ((W11_of m c r h11).trans (back10 m c r h4 h5 h6 h7 h8 h9 h10))
/-- … from before the third layer's statistics stretch. -/
theorem back14 (r : Ref sig .tc) (h4 : r ∉ ([main_v39] : List (Ref sig .tc))) (h5 : r ∉ hostOps1_W)
    (h6 : r ∉ ([main_v75_0, main_v75_1, main_v75_2] : List (Ref sig .tc))) (h7 : r ∉ hostOps2_W)
    (h8 : r ∉ ([main_v92] : List (Ref sig .tc))) (h9 : r ∉ hostOps3_W)
    (h10 : r ∉ ([main_v128_0, main_v128_1, main_v128_2] : List (Ref sig .tc))) (h11 : r ∉ hostOps4_W)
    (h12 : r ∉ ([main_v145] : List (Ref sig .tc))) (h13 : r ∉ hostOps5_W)
    (h14 : r ∉ ([main_v181_0, main_v181_1, main_v181_2] : List (Ref sig .tc))) : W14 m c r = V3 m c r :=
  (W14_of m c r h14).trans ((W13_of m c r h13).trans (back12 m c r h4 h5 h6 h7 h8 h9 h10 h11 h12))
/-- … from after the third layer. -/
theorem back16 (r : Ref sig .tc) (h4 : r ∉ ([main_v39] : List (Ref sig .tc))) (h5 : r ∉ hostOps1_W)
    (h6 : r ∉ ([main_v75_0, main_v75_1, main_v75_2] : List (Ref sig .tc))) (h7 : r ∉ hostOps2_W)
    (h8 : r ∉ ([main_v92] : List (Ref sig .tc))) (h9 : r ∉ hostOps3_W)
    (h10 : r ∉ ([main_v128_0, main_v128_1, main_v128_2] : List (Ref sig .tc))) (h11 : r ∉ hostOps4_W)
    (h12 : r ∉ ([main_v145] : List (Ref sig .tc))) (h13 : r ∉ hostOps5_W)
    (h14 : r ∉ ([main_v181_0, main_v181_1, main_v181_2] : List (Ref sig .tc))) (h15 : r ∉ hostOps6_W)
    (h16 : r ∉ ([main_v198] : List (Ref sig .tc))) : W16 m c r = V3 m c r :=
  (W16_of m c r h16).trans ((W15_of m c r h15).trans (back14 m c r h4 h5 h6 h7 h8 h9 h10 h11 h12 h13 h14))

/-! ## The first three stretches and the embedding

The first stretch reads the edge list: the two rows of ends, the degrees, whether a node has an out-edge, the
reciprocal square root of the clamped out-degree. The second selects `d^{-1/2}` (zero at an isolated node). The third
gathers it at the edges' ends into the Laplacian's edge weights, lays the ends out as columns, adds the degrees and
reshapes the embedding's three rows. Then region 0 embeds. -/

/-- What the program knows of the graph once the three stretches are done, at a valuation `W`: the edges' ends as
    rows and as columns, the Laplacian's edge weights, each node's total degree. -/
structure Graph (W : Valuation τ sig (Elt Ideal)) : Prop where
  src : Ends (W (Proc.devRef .tc main_v1)) I.src
  dst : Ends (W (Proc.devRef .tc main_v3)) I.dst
  srcCol : EndsCol (W (Proc.devRef .tc main_v23)) I.src
  dstCol : EndsCol (W (Proc.devRef .tc main_v31)) I.dst
  wEdge : Holds1 (n0 := 800000) (W (Proc.devRef .tc main_v33)) (Spec.wEdge I)
  deg : Holds2 (n0 := 50000) (n1 := 1) (W (Proc.devRef .tc main_v35)) (fun i _ => Spec.degOut I i + Spec.degIn I i)

variable {m c I}

/-- After the three stretches: the graph's buffers, and the embedding's three rows. -/
theorem stage3 (hA : Args m c I) :
    Graph I (V3 m c)
    ∧ Holds2 (n0 := 1) (n1 := 128) (V3 m c (Proc.devRef .tc main_v36)) (fun _ k => I.bIn k)
    ∧ Holds2 (n0 := 1) (n1 := 128) (V3 m c (Proc.devRef .tc main_v37)) (fun _ k => I.lnG k)
    ∧ Holds2 (n0 := 1) (n1 := 128) (V3 m c (Proc.devRef .tc main_v38)) (fun _ k => I.lnB k) := by
  obtain ⟨hs, hd, ho, hi, hp, hr, hz⟩ := valH0a (V := V0 m c) (I := I) hA.range hA.src hA.dst
  have hdinv := valH0b (V := V1 m c) (I := I) hp hr hz
  have hs2 : Ends (V2 m c (Proc.devRef .tc main_v1)) I.src := ends_of_eq (V2_of m c main_v1 (by decide)) hs
  have hd2 : Ends (V2 m c (Proc.devRef .tc main_v3)) I.dst := ends_of_eq (V2_of m c main_v3 (by decide)) hd
  obtain ⟨k1, k2, k3, k4, k5, k6, k7⟩ := valH0c (V := V2 m c) (I := I) hs2 hd2
    (holds1_of_eq (V2_of m c main_v7 (by decide)) ho) (holds1_of_eq (V2_of m c main_v11 (by decide)) hi) hdinv
    (holds1_of_eq ((V2_of m c main_arg2 (by decide)).trans (V1_of m c main_arg2 (by decide))) hA.bIn)
    (holds1_of_eq ((V2_of m c main_arg3 (by decide)).trans (V1_of m c main_arg3 (by decide))) hA.lnG)
    (holds1_of_eq ((V2_of m c main_arg4 (by decide)).trans (V1_of m c main_arg4 (by decide))) hA.lnB)
  exact ⟨⟨ends_of_eq (V3_of m c main_v1 (by decide)) hs2, ends_of_eq (V3_of m c main_v3 (by decide)) hd2, k1, k2, k3, k4⟩,
    k5, k6, k7⟩

/-- Region 0 leaves the embedding in `main_v39`. -/
theorem hidden0 (hA : Args m c I) :
    Holds2 (n0 := 50000) (n1 := 128) (W4 m c (Proc.devRef .tc main_v39)) (Spec.embed I eps) := by
  obtain ⟨-, hb, hg, hs⟩ := stage3 hA
  rw [W4_v39]
  exact embed_holds0 (En0 m) c I
    (holds2_of_eq (at3 m c main_arg0 (by decide) (by decide) (by decide)) hA.x)
    (holds2_of_eq (at3 m c main_arg1 (by decide) (by decide) (by decide)) hA.wIn) hb hg hs

/-! ## The three layers

One layer, four segments. A stretch applies the Laplacian to the hidden state, once and twice, and slices the
layer's weights; the affine region leaves the pre-normalisation activations with their column sums and column sums
of squares; a stretch turns the sums into the column means and variances and slices the normalisation's parameters;
the normalising region leaves the next hidden state. -/

/-- The first layer: from the hidden state in `main_v39` to the next in `main_v92`. -/
theorem layer0 (hA : Args m c I) (h : Spec.Hidden)
    (hh : Holds2 (n0 := 50000) (n1 := 128) (W4 m c (Proc.devRef .tc main_v39)) h) :
    Holds2 (n0 := 50000) (n1 := 128) (W8 m c (Proc.devRef .tc main_v92)) (Spec.layer I eps Spec.varMom 0 h) := by
  obtain ⟨g, -, -, -⟩ := stage3 hA
  have hsrc : Ends (W4 m c (Proc.devRef .tc main_v1)) I.src := ends_of_eq (W4_of m c main_v1 (by decide)) g.src
  have hdst : Ends (W4 m c (Proc.devRef .tc main_v3)) I.dst := ends_of_eq (W4_of m c main_v3 (by decide)) g.dst
  have hw : Holds1 (n0 := 800000) (W4 m c (Proc.devRef .tc main_v33)) (Spec.wEdge I) :=
    holds1_of_eq (W4_of m c main_v33 (by decide)) g.wEdge
  have hW : Holds4 (n0 := 3) (n1 := 3) (n2 := 128) (n3 := 128) (W4 m c (Proc.devRef .tc main_arg5)) I.chebW :=
    holds4_of_eq ((W4_of m c main_arg5 (by decide)).trans (at3 m c main_arg5 (by decide) (by decide) (by decide))) hA.chebW
  have hB : Holds2 (n0 := 3) (n1 := 128) (W4 m c (Proc.devRef .tc main_arg6)) I.chebB :=
    holds2_of_eq ((W4_of m c main_arg6 (by decide)).trans (at3 m c main_arg6 (by decide) (by decide) (by decide))) hA.chebB
  -- the stretch before the affine region, from `W4` to `W5`
  have l1 : Holds2 (n0 := 50000) (n1 := 128) (W5 m c (Proc.devRef .tc main_v52)) (Spec.lap I h) :=
    valH1_lap1 (V := W4 m c) (I := I) (h := h) hsrc hdst hw hh
  have l2 : Holds2 (n0 := 50000) (n1 := 128) (W5 m c (Proc.devRef .tc main_v65)) (Spec.lap I (Spec.lap I h)) :=
    valH1_lap2 (V := W4 m c) (I := I) (h := h) hsrc hdst hw hh
  have w0 : Holds2 (n0 := 128) (n1 := 128) (W5 m c (Proc.devRef .tc main_v67)) (I.chebW 0 0) := valH1_w0 (V := W4 m c) (I := I) hW
  have w1 : Holds2 (n0 := 128) (n1 := 128) (W5 m c (Proc.devRef .tc main_v69)) (I.chebW 0 1) := valH1_w1 (V := W4 m c) (I := I) hW
  have w2 : Holds2 (n0 := 128) (n1 := 128) (W5 m c (Proc.devRef .tc main_v71)) (I.chebW 0 2) := valH1_w2 (V := W4 m c) (I := I) hW
  have bb : Holds2 (n0 := 1) (n1 := 128) (W5 m c (Proc.devRef .tc main_v74)) (fun _ k => I.chebB 0 k) :=
    valH1_bias (V := W4 m c) (I := I) hB
  have hk : W5 m c (Proc.devRef .tc main_v39) = W4 m c (Proc.devRef .tc main_v39) := acts1_kept (V := W4 m c)
  -- the affine region, entered at `W5`
  have o7 := val1_7 (En1 m) c h (Spec.lap I h) (Spec.lap I (Spec.lap I h)) (I.chebW 0 0) (I.chebW 0 1) (I.chebW 0 2) (I.chebB 0)
    (holds2_of_eq hk hh) l1 l2 w0 w1 w2 bb
  have o8 := val1_8 (En1 m) c h (Spec.lap I h) (Spec.lap I (Spec.lap I h)) (I.chebW 0 0) (I.chebW 0 1) (I.chebW 0 2) (I.chebB 0)
    (holds2_of_eq hk hh) l1 l2 w0 w1 w2 bb
  have o9 := val1_9 (En1 m) c h (Spec.lap I h) (Spec.lap I (Spec.lap I h)) (I.chebW 0 0) (I.chebW 0 1) (I.chebW 0 2) (I.chebB 0)
    (holds2_of_eq hk hh) l1 l2 w0 w1 w2 bb
  rw [pre1_chebPre] at o7 o8 o9
  -- the statistics stretch, from `W6` to `W7`
  obtain ⟨hμ, hv, hg, hb, hk2⟩ := valH2 (V := W6 m c) (I := I) (o := Spec.chebPre I 0 h)
    (holds2_of_eq (W6_v75_1 m c) o8) (holds2_of_eq (W6_v75_2 m c) o9)
    (holds2_of_eq ((back6 m c main_arg7 (by decide) (by decide) (by decide)).trans (at3 m c main_arg7 (by decide) (by decide) (by decide))) hA.bnG)
    (holds2_of_eq ((back6 m c main_arg8 (by decide) (by decide) (by decide)).trans (at3 m c main_arg8 (by decide) (by decide) (by decide))) hA.bnB)
  -- the normalising region, entered at `W7`
  rw [W8_v92]
  exact val2_spec (En2 m) c I (Spec.chebPre I 0 h) (Spec.varMom (Spec.chebPre I 0 h))
    (holds2_of_eq (hk2.trans (W6_v75_0 m c)) o7) hμ hv hg hb (fun k => Math.varMom_add_pos _ k eps_spec.2)

/-- The second layer: from `main_v92` to `main_v145`. -/
theorem layer1 (hA : Args m c I) (h : Spec.Hidden)
    (hh : Holds2 (n0 := 50000) (n1 := 128) (W8 m c (Proc.devRef .tc main_v92)) h) :
    Holds2 (n0 := 50000) (n1 := 128) (W12 m c (Proc.devRef .tc main_v145)) (Spec.layer I eps Spec.varMom 1 h) := by
  obtain ⟨g, -, -, -⟩ := stage3 hA
  have hsrc : Ends (W8 m c (Proc.devRef .tc main_v1)) I.src :=
    ends_of_eq (back8 m c main_v1 (by decide) (by decide) (by decide) (by decide) (by decide)) g.src
  have hdst : Ends (W8 m c (Proc.devRef .tc main_v3)) I.dst :=
    ends_of_eq (back8 m c main_v3 (by decide) (by decide) (by decide) (by decide) (by decide)) g.dst
  have hw : Holds1 (n0 := 800000) (W8 m c (Proc.devRef .tc main_v33)) (Spec.wEdge I) :=
    holds1_of_eq (back8 m c main_v33 (by decide) (by decide) (by decide) (by decide) (by decide)) g.wEdge
  have hW : Holds4 (n0 := 3) (n1 := 3) (n2 := 128) (n3 := 128) (W8 m c (Proc.devRef .tc main_arg5)) I.chebW :=
    holds4_of_eq ((back8 m c main_arg5 (by decide) (by decide) (by decide) (by decide) (by decide)).trans
      (at3 m c main_arg5 (by decide) (by decide) (by decide))) hA.chebW
  have hB : Holds2 (n0 := 3) (n1 := 128) (W8 m c (Proc.devRef .tc main_arg6)) I.chebB :=
    holds2_of_eq ((back8 m c main_arg6 (by decide) (by decide) (by decide) (by decide) (by decide)).trans
      (at3 m c main_arg6 (by decide) (by decide) (by decide))) hA.chebB
  have l1 : Holds2 (n0 := 50000) (n1 := 128) (W9 m c (Proc.devRef .tc main_v105)) (Spec.lap I h) :=
    valH3_lap1 (V := W8 m c) (I := I) (h := h) hsrc hdst hw hh
  have l2 : Holds2 (n0 := 50000) (n1 := 128) (W9 m c (Proc.devRef .tc main_v118)) (Spec.lap I (Spec.lap I h)) :=
    valH3_lap2 (V := W8 m c) (I := I) (h := h) hsrc hdst hw hh
  have w0 : Holds2 (n0 := 128) (n1 := 128) (W9 m c (Proc.devRef .tc main_v120)) (I.chebW 1 0) := valH3_w0 (V := W8 m c) (I := I) hW
  have w1 : Holds2 (n0 := 128) (n1 := 128) (W9 m c (Proc.devRef .tc main_v122)) (I.chebW 1 1) := valH3_w1 (V := W8 m c) (I := I) hW
  have w2 : Holds2 (n0 := 128) (n1 := 128) (W9 m c (Proc.devRef .tc main_v124)) (I.chebW 1 2) := valH3_w2 (V := W8 m c) (I := I) hW
  have bb : Holds2 (n0 := 1) (n1 := 128) (W9 m c (Proc.devRef .tc main_v127)) (fun _ k => I.chebB 1 k) :=
    valH3_bias (V := W8 m c) (I := I) hB
  have hk : W9 m c (Proc.devRef .tc main_v92) = W8 m c (Proc.devRef .tc main_v92) := acts3_kept (V := W8 m c)
  have o7 := val3_7 (En3 m) c h (Spec.lap I h) (Spec.lap I (Spec.lap I h)) (I.chebW 1 0) (I.chebW 1 1) (I.chebW 1 2) (I.chebB 1)
    (holds2_of_eq hk hh) l1 l2 w0 w1 w2 bb
  have o8 := val3_8 (En3 m) c h (Spec.lap I h) (Spec.lap I (Spec.lap I h)) (I.chebW 1 0) (I.chebW 1 1) (I.chebW 1 2) (I.chebB 1)
    (holds2_of_eq hk hh) l1 l2 w0 w1 w2 bb
  have o9 := val3_9 (En3 m) c h (Spec.lap I h) (Spec.lap I (Spec.lap I h)) (I.chebW 1 0) (I.chebW 1 1) (I.chebW 1 2) (I.chebB 1)
    (holds2_of_eq hk hh) l1 l2 w0 w1 w2 bb
  rw [pre3_chebPre] at o7 o8 o9
  obtain ⟨hμ, hv, hg, hb, hk2⟩ := valH4 (V := W10 m c) (I := I) (o := Spec.chebPre I 1 h)
    (holds2_of_eq (W10_v128_1 m c) o8) (holds2_of_eq (W10_v128_2 m c) o9)
    (holds2_of_eq ((back10 m c main_arg7 (by decide) (by decide) (by decide) (by decide) (by decide) (by decide) (by decide)).trans
      (at3 m c main_arg7 (by decide) (by decide) (by decide))) hA.bnG)
    (holds2_of_eq ((back10 m c main_arg8 (by decide) (by decide) (by decide) (by decide) (by decide) (by decide) (by decide)).trans
      (at3 m c main_arg8 (by decide) (by decide) (by decide))) hA.bnB)
  rw [W12_v145]
  exact val4_spec (En4 m) c I (Spec.chebPre I 1 h) (Spec.varMom (Spec.chebPre I 1 h))
    (holds2_of_eq (hk2.trans (W10_v128_0 m c)) o7) hμ hv hg hb (fun k => Math.varMom_add_pos _ k eps_spec.2)

/-- The third layer: from `main_v145` to `main_v198`. -/
theorem layer2 (hA : Args m c I) (h : Spec.Hidden)
    (hh : Holds2 (n0 := 50000) (n1 := 128) (W12 m c (Proc.devRef .tc main_v145)) h) :
    Holds2 (n0 := 50000) (n1 := 128) (W16 m c (Proc.devRef .tc main_v198)) (Spec.layer I eps Spec.varMom 2 h) := by
  obtain ⟨g, -, -, -⟩ := stage3 hA
  have hsrc : Ends (W12 m c (Proc.devRef .tc main_v1)) I.src :=
    ends_of_eq (back12 m c main_v1 (by decide) (by decide) (by decide) (by decide) (by decide) (by decide) (by decide) (by decide) (by decide)) g.src
  have hdst : Ends (W12 m c (Proc.devRef .tc main_v3)) I.dst :=
    ends_of_eq (back12 m c main_v3 (by decide) (by decide) (by decide) (by decide) (by decide) (by decide) (by decide) (by decide) (by decide)) g.dst
  have hw : Holds1 (n0 := 800000) (W12 m c (Proc.devRef .tc main_v33)) (Spec.wEdge I) :=
    holds1_of_eq (back12 m c main_v33 (by decide) (by decide) (by decide) (by decide) (by decide) (by decide) (by decide) (by decide) (by decide)) g.wEdge
  have hW : Holds4 (n0 := 3) (n1 := 3) (n2 := 128) (n3 := 128) (W12 m c (Proc.devRef .tc main_arg5)) I.chebW :=
    holds4_of_eq ((back12 m c main_arg5 (by decide) (by decide) (by decide) (by decide) (by decide) (by decide) (by decide) (by decide) (by decide)).trans
      (at3 m c main_arg5 (by decide) (by decide) (by decide))) hA.chebW
  have hB : Holds2 (n0 := 3) (n1 := 128) (W12 m c (Proc.devRef .tc main_arg6)) I.chebB :=
    holds2_of_eq ((back12 m c main_arg6 (by decide) (by decide) (by decide) (by decide) (by decide) (by decide) (by decide) (by decide) (by decide)).trans
      (at3 m c main_arg6 (by decide) (by decide) (by decide))) hA.chebB
  have l1 : Holds2 (n0 := 50000) (n1 := 128) (W13 m c (Proc.devRef .tc main_v158)) (Spec.lap I h) :=
    valH5_lap1 (V := W12 m c) (I := I) (h := h) hsrc hdst hw hh
  have l2 : Holds2 (n0 := 50000) (n1 := 128) (W13 m c (Proc.devRef .tc main_v171)) (Spec.lap I (Spec.lap I h)) :=
    valH5_lap2 (V := W12 m c) (I := I) (h := h) hsrc hdst hw hh
  have w0 : Holds2 (n0 := 128) (n1 := 128) (W13 m c (Proc.devRef .tc main_v173)) (I.chebW 2 0) := valH5_w0 (V := W12 m c) (I := I) hW
  have w1 : Holds2 (n0 := 128) (n1 := 128) (W13 m c (Proc.devRef .tc main_v175)) (I.chebW 2 1) := valH5_w1 (V := W12 m c) (I := I) hW
  have w2 : Holds2 (n0 := 128) (n1 := 128) (W13 m c (Proc.devRef .tc main_v177)) (I.chebW 2 2) := valH5_w2 (V := W12 m c) (I := I) hW
  have bb : Holds2 (n0 := 1) (n1 := 128) (W13 m c (Proc.devRef .tc main_v180)) (fun _ k => I.chebB 2 k) :=
    valH5_bias (V := W12 m c) (I := I) hB
  have hk : W13 m c (Proc.devRef .tc main_v145) = W12 m c (Proc.devRef .tc main_v145) := acts5_kept (V := W12 m c)
  have o7 := val5_7 (En5 m) c h (Spec.lap I h) (Spec.lap I (Spec.lap I h)) (I.chebW 2 0) (I.chebW 2 1) (I.chebW 2 2) (I.chebB 2)
    (holds2_of_eq hk hh) l1 l2 w0 w1 w2 bb
  have o8 := val5_8 (En5 m) c h (Spec.lap I h) (Spec.lap I (Spec.lap I h)) (I.chebW 2 0) (I.chebW 2 1) (I.chebW 2 2) (I.chebB 2)
    (holds2_of_eq hk hh) l1 l2 w0 w1 w2 bb
  have o9 := val5_9 (En5 m) c h (Spec.lap I h) (Spec.lap I (Spec.lap I h)) (I.chebW 2 0) (I.chebW 2 1) (I.chebW 2 2) (I.chebB 2)
    (holds2_of_eq hk hh) l1 l2 w0 w1 w2 bb
  rw [pre5_chebPre] at o7 o8 o9
  obtain ⟨hμ, hv, hg, hb, hk2⟩ := valH6 (V := W14 m c) (I := I) (o := Spec.chebPre I 2 h)
    (holds2_of_eq (W14_v181_1 m c) o8) (holds2_of_eq (W14_v181_2 m c) o9)
    (holds2_of_eq ((back14 m c main_arg7 (by decide) (by decide) (by decide) (by decide) (by decide) (by decide) (by decide) (by decide) (by decide) (by decide) (by decide)).trans
      (at3 m c main_arg7 (by decide) (by decide) (by decide))) hA.bnG)
    (holds2_of_eq ((back14 m c main_arg8 (by decide) (by decide) (by decide) (by decide) (by decide) (by decide) (by decide) (by decide) (by decide) (by decide) (by decide)).trans
      (at3 m c main_arg8 (by decide) (by decide) (by decide))) hA.bnB)
  rw [W16_v198]
  exact val6_spec (En6 m) c I (Spec.chebPre I 2 h) (Spec.varMom (Spec.chebPre I 2 h))
    (holds2_of_eq (hk2.trans (W14_v181_0 m c)) o7) hμ hv hg hb (fun k => Math.varMom_add_pos _ k eps_spec.2)

/-! ## After the third layer -/

/-- A reference no segment writes, from the launch to the end of the third layer. -/
theorem at16 (r : Ref sig .tc) (h0 : r ∉ hostOps0_W) (h1 : r ∉ hostOps0_1_W) (h2 : r ∉ hostOps0_2_W)
    (h4 : r ∉ ([main_v39] : List (Ref sig .tc))) (h5 : r ∉ hostOps1_W)
    (h6 : r ∉ ([main_v75_0, main_v75_1, main_v75_2] : List (Ref sig .tc))) (h7 : r ∉ hostOps2_W)
    (h8 : r ∉ ([main_v92] : List (Ref sig .tc))) (h9 : r ∉ hostOps3_W)
    (h10 : r ∉ ([main_v128_0, main_v128_1, main_v128_2] : List (Ref sig .tc))) (h11 : r ∉ hostOps4_W)
    (h12 : r ∉ ([main_v145] : List (Ref sig .tc))) (h13 : r ∉ hostOps5_W)
    (h14 : r ∉ ([main_v181_0, main_v181_1, main_v181_2] : List (Ref sig .tc))) (h15 : r ∉ hostOps6_W)
    (h16 : r ∉ ([main_v198] : List (Ref sig .tc))) : W16 m c r = m ((c.tc : Thread nD τ).loc r) :=
  (back16 m c r h4 h5 h6 h7 h8 h9 h10 h11 h12 h13 h14 h15 h16).trans (at3 m c r h0 h1 h2)

/-- THE LAYERS' THREAD: the four hidden states in their buffers after region 6, with what the regulariser's and the
    head's segments still read. -/
theorem afterLayers (hA : Args m c I) : AfterLayers m c I := by
  obtain ⟨g, -, -, -⟩ := stage3 hA
  have e0 := hidden0 hA
  have e1 := layer0 hA _ e0
  have e2 := layer1 hA _ e1
  have e3 := layer2 hA _ e2
  exact {
    h0 := holds2_of_eq ((W16_of m c main_v39 (by decide)).trans <| (W15_of m c main_v39 (by decide)).trans <|
        (W14_of m c main_v39 (by decide)).trans <| (W13_of m c main_v39 (by decide)).trans <|
        (W12_of m c main_v39 (by decide)).trans <| (W11_of m c main_v39 (by decide)).trans <|
        (W10_of m c main_v39 (by decide)).trans <| (W9_of m c main_v39 (by decide)).trans <|
        (W8_of m c main_v39 (by decide)).trans <| (W7_of m c main_v39 (by decide)).trans <|
        (W6_of m c main_v39 (by decide)).trans <| W5_of m c main_v39 (by decide)) e0
    h1 := holds2_of_eq ((W16_of m c main_v92 (by decide)).trans <| (W15_of m c main_v92 (by decide)).trans <|
        (W14_of m c main_v92 (by decide)).trans <| (W13_of m c main_v92 (by decide)).trans <|
        (W12_of m c main_v92 (by decide)).trans <| (W11_of m c main_v92 (by decide)).trans <|
        (W10_of m c main_v92 (by decide)).trans <| W9_of m c main_v92 (by decide)) e1
    h2 := holds2_of_eq ((W16_of m c main_v145 (by decide)).trans <| (W15_of m c main_v145 (by decide)).trans <|
        (W14_of m c main_v145 (by decide)).trans <| W13_of m c main_v145 (by decide)) e2
    h3 := e3
    src := ends_of_eq (back16 m c main_v1 (by decide) (by decide) (by decide) (by decide) (by decide) (by decide) (by decide) (by decide) (by decide) (by decide) (by decide) (by decide) (by decide)) g.src
    dst := ends_of_eq (back16 m c main_v3 (by decide) (by decide) (by decide) (by decide) (by decide) (by decide) (by decide) (by decide) (by decide) (by decide) (by decide) (by decide) (by decide)) g.dst
    srcCol := endsCol_of_eq (back16 m c main_v23 (by decide) (by decide) (by decide) (by decide) (by decide) (by decide) (by decide) (by decide) (by decide) (by decide) (by decide) (by decide) (by decide)) g.srcCol
    dstCol := endsCol_of_eq (back16 m c main_v31 (by decide) (by decide) (by decide) (by decide) (by decide) (by decide) (by decide) (by decide) (by decide) (by decide) (by decide) (by decide) (by decide)) g.dstCol
    deg := holds2_of_eq (back16 m c main_v35 (by decide) (by decide) (by decide) (by decide) (by decide) (by decide) (by decide) (by decide) (by decide) (by decide) (by decide) (by decide) (by decide)) g.deg
    batch := batch_of_eq (at16 (m := m) (c := c) main_arg14 (by decide) (by decide) (by decide) (by decide) (by decide) (by decide) (by decide) (by decide) (by decide) (by decide) (by decide) (by decide) (by decide) (by decide) (by decide) (by decide)) hA.batch
    w1 := holds2_of_eq (at16 (m := m) (c := c) main_arg9 (by decide) (by decide) (by decide) (by decide) (by decide) (by decide) (by decide) (by decide) (by decide) (by decide) (by decide) (by decide) (by decide) (by decide) (by decide) (by decide)) hA.w1
    b1 := holds1_of_eq (at16 (m := m) (c := c) main_arg10 (by decide) (by decide) (by decide) (by decide) (by decide) (by decide) (by decide) (by decide) (by decide) (by decide) (by decide) (by decide) (by decide) (by decide) (by decide) (by decide)) hA.b1
    w2 := holds2_of_eq (at16 (m := m) (c := c) main_arg11 (by decide) (by decide) (by decide) (by decide) (by decide) (by decide) (by decide) (by decide) (by decide) (by decide) (by decide) (by decide) (by decide) (by decide) (by decide) (by decide)) hA.w2
    b2 := holds1_of_eq (at16 (m := m) (c := c) main_arg12 (by decide) (by decide) (by decide) (by decide) (by decide) (by decide) (by decide) (by decide) (by decide) (by decide) (by decide) (by decide) (by decide) (by decide) (by decide) (by decide)) hA.b2 }

end Cert.Hand.Bridge

end
-- ==== Proof.KI.Val7.lean ====
/-
  Region 7 over the reals. When the three input arrays of the region hold real tables — the hidden state `h`, a
  second table `s` of the same shape, one weight `w i` per node — the region's one-cell result holds
      Σ_i ( w i · Σ_k h i k · h i k  −  2 · Σ_k h i k · s i k ),        i over the 50000 nodes, k over the 128 features.

  The kernel adds the ten row tiles' partial sums in grid order onto a cleared accumulator. One tile's update is read
  operation by operation at an index (row sums of squares and of products, the weighted difference per row, the sum
  over the tile's rows); since every operand is the coercion of a real, each extended-real operation is the coercion
  of the real one. The ten partial sums are then regrouped into the one sum over all rows.
-/
import proofs.«160050_j32744830665390_2_alg».proof.Proof.Spec
import proofs.«160050_j32744830665390_2_alg».proof.Proof.Bridge.Inputs
import proofs.«160050_j32744830665390_2_alg».proof.Proof.Math.Lift
import proofs.«160050_j32744830665390_2_alg».proof.Proof.Math.Dirichlet
import proofs.«160050_j32744830665390_2_alg».proof.Proof.KI.Reg7
import Idealize.ShloMosaic.PureOps.Ideal.Laws
import Idealize.ShloMosaic.Lib.Pipeline.Value
import Idealize.ShloMosaic.Lib.ValueIdx

set_option maxRecDepth 16384

noncomputable section

namespace Cert.KernelIdeal.Hand.Val

open Cert.KernelIdeal Cert.KernelIdeal.Gen Cert.KernelIdeal.Hand
open Cert.Hand Cert.Hand.Bridge
open Idealize.ShloMosaic Idealize.ShloMosaic.TcCoe Idealize.ShloMosaic.ValueIdx
open Idealize.SL.Sem
open Idealize.ShloMosaic.Pipeline (Dat)
open scoped BigOperators

/-! ## Two layout steps and a constant -/

/-- A vector cast to a column reads, at `(i, 0)`, the vector at `i`. -/
theorem castCol7 {α : Type} {a : ℕ} (x : (⟨1, ![a]⟩ : Shape).Idx → α) (hc : (⟨1, ![a]⟩ : Shape).ShapeCasts ⟨2, ![a, 1]⟩)
    (y : (⟨2, ![a, 1]⟩ : Shape).Idx) : shapeCast ⟨2, ![a, 1]⟩ x hc y = x (ix1 (y 0)) :=
  shapeCast_apply x hc _ _ (by
    have hu : (y 1).val = 0 := by have h1 : (y 1).val < 1 := (y 1).isLt; omega
    rw [Shape.rowMajor_val_two, Shape.rowMajor_val_one]
    show (y 0).val = (y 0).val * 1 + (y 1).val
    rw [hu]; omega)

/-- The f32 pattern of the kernel's factor two is the real number two. -/
theorem two7 : Ideal.ofBits .f32 0x40000000#32 = ((2 : ℝ) : EReal) := by
  simp [Ideal.ofBits, Ideal.ieee, -EReal.coe_mul]; norm_num

/-! ## One tile's update over the reals -/

/-- A node's term of the sum. -/
def term7 (h s : Fin 50000 → Fin 128 → ℝ) (w : Fin 50000 → ℝ) (i : Fin 50000) : ℝ :=
  w i * (∑ k : Fin 128, h i k * h i k) - 2 * ∑ k : Fin 128, h i k * s i k

/-- A tile's partial sum, from the tile's three blocks. -/
def tile7 (hB sB : Fin 5000 → Fin 128 → ℝ) (wB : Fin 5000 → ℝ) : ℝ :=
  ∑ r : Fin 5000, (wB r * (∑ k : Fin 128, hB r k * hB r k) - 2 * ∑ k : Fin 128, hB r k * sB r k)

/-- Each row's sum over the features of the products of two blocks' entries. -/
theorem rowDot7 (xv yv : FVec Idealize.ShloMosaic.Ideal S5000x128 .f32) (xB yB : Fin 5000 → Fin 128 → ℝ)
    (hx : Holds2 (n0 := 5000) (n1 := 128) xv xB) (hy : Holds2 (n0 := 5000) (n1 := 128) yv yB) (r : S5000.Idx) :
    multiReduction .add [1] S5000 (mulf xv yv) 0x00000000#32 reduces_S5000x128_S5000 (.inl rfl) rfl r
      = ((∑ k : Fin 128, xB (r 0) k * yB (r 0) k : ℝ) : EReal) := by
  refine (Ideal.multiReduction_add_single (mulf xv yv) _ reduces_S5000x128_S5000 (.inl rfl) rfl r).trans ?_
  refine Math.sum_eq_coe_of_forall _ _ (fun k : Fin 128 => xB (r 0) k * yB (r 0) k) fun k _ => ?_
  show xv (reduces_S5000x128_S5000.lift r k) * yv (reduces_S5000x128_S5000.lift r k) = _
  rw [hx (reduces_S5000x128_S5000.lift r k), hy (reduces_S5000x128_S5000.lift r k), Math.coe_mul_coe]
  rfl

/-- The rows' weighted differences, as the kernel forms them (a column of one entry per row). -/
def rowTerms7 (hv sv : Vec Ideal S5000x128 .f32) (wv : Vec Ideal S5000x1 .f32) : FVec Ideal S5000x1 .f32 :=
  subf
    (mulf (wv : FVec Ideal S5000x1 .f32)
      (shapeCast S5000x1 (multiReduction .add [1] S5000 (mulf (hv : FVec Ideal S5000x128 .f32) (hv : FVec Ideal S5000x128 .f32)) 0x00000000#32
        reduces_S5000x128_S5000 (.inl rfl) rfl) shapeCasts_S5000_S5000x1))
    (mulf (broadcast S5000x1 (Scalar.ofBits (F := Ideal) .f32 0x40000000#32))
      (shapeCast S5000x1 (multiReduction .add [1] S5000 (mulf (hv : FVec Ideal S5000x128 .f32) (sv : FVec Ideal S5000x128 .f32)) 0x00000000#32
        reduces_S5000x128_S5000 (.inl rfl) rfl) shapeCasts_S5000_S5000x1))

/-- The update is the accumulator plus the sum over the tile's rows of those differences. -/
theorem pay2_shape7 (hv sv : Vec Ideal S5000x128 .f32) (wv : Vec Ideal S5000x1 .f32) (av : Vec Ideal S1x1 .f32) :
    k7_pay2 (F := Ideal) hv sv wv av
      = addf (av : FVec Ideal S1x1 .f32)
          (shapeCast S1x1 (multiReduction .add [0] S1 (rowTerms7 hv sv wv) 0x00000000#32 reduces_S5000x1_S1 (.inl rfl) rfl) shapeCasts_S1_S1x1) := by
  unfold k7_pay2 rowTerms7
  simp only [shapeCast_self]

theorem rowTerms7_coe (hv sv : Vec Ideal S5000x128 .f32) (wv : Vec Ideal S5000x1 .f32)
    (hB sB : Fin 5000 → Fin 128 → ℝ) (wB : Fin 5000 → ℝ)
    (hh : Holds2 (n0 := 5000) (n1 := 128) hv hB) (hs : Holds2 (n0 := 5000) (n1 := 128) sv sB)
    (hw : Holds2 (n0 := 5000) (n1 := 1) wv (fun r _ => wB r)) (y : S5000x1.Idx) :
    rowTerms7 hv sv wv y
      = ((wB (y 0) * (∑ k : Fin 128, hB (y 0) k * hB (y 0) k) - 2 * ∑ k : Fin 128, hB (y 0) k * sB (y 0) k : ℝ) : EReal) := by
  unfold rowTerms7
  show wv y * shapeCast S5000x1 _ shapeCasts_S5000_S5000x1 y
      - Scalar.ofBits (F := Ideal) .f32 0x40000000#32 * shapeCast S5000x1 _ shapeCasts_S5000_S5000x1 y = _
  rw [castCol7, castCol7, rowDot7 hv hv hB hB hh hh, rowDot7 hv sv hB sB hh hs, hw y]
  show ((wB (y 0) : ℝ) : EReal) * _ - Ideal.ofBits .f32 0x40000000#32 * _ = _
  rw [two7, Math.coe_mul_coe, Math.coe_mul_coe, Math.coe_sub_coe]

/-- ONE TILE: blocks holding real tables and an accumulator holding a real give the accumulator plus the tile's sum. -/
theorem pay2_coe7 (hv sv : Vec Ideal S5000x128 .f32) (wv : Vec Ideal S5000x1 .f32) (av : Vec Ideal S1x1 .f32)
    (hB sB : Fin 5000 → Fin 128 → ℝ) (wB : Fin 5000 → ℝ) (a : ℝ)
    (hh : Holds2 (n0 := 5000) (n1 := 128) hv hB) (hs : Holds2 (n0 := 5000) (n1 := 128) sv sB)
    (hw : Holds2 (n0 := 5000) (n1 := 1) wv (fun r _ => wB r)) (ha : ∀ j, av j = ((a : ℝ) : EReal)) (j : S1x1.Idx) :
    k7_pay2 (F := Ideal) hv sv wv av j = ((a + tile7 hB sB wB : ℝ) : EReal) := by
  rw [pay2_shape7]
  show av j + shapeCast S1x1 _ shapeCasts_S1_S1x1 j = _
  rw [castCol7, ha j]
  refine (congrArg (fun x => ((a : ℝ) : EReal) + x)
    (Ideal.multiReduction_add_single (rowTerms7 hv sv wv) _ reduces_S5000x1_S1 (.inl rfl) rfl (ix1 (j 0)))).trans ?_
  refine (congrArg (fun x => ((a : ℝ) : EReal) + x)
    (Math.sum_eq_coe_of_forall _ _
      (fun r : Fin 5000 => wB r * (∑ k : Fin 128, hB r k * hB r k) - 2 * ∑ k : Fin 128, hB r k * sB r k)
      fun r _ => rowTerms7_coe hv sv wv hB sB wB hh hs hw (reduces_S5000x1_S1.lift (ix1 (j 0)) r))).trans ?_
  exact Math.coe_add_coe _ _

/-- The cleared accumulator is the real zero. -/
theorem pay1_coe7 (j : S1x1.Idx) : k7_pay1 (F := Ideal) j = ((0 : ℝ) : EReal) := by
  unfold k7_pay1
  simp only [shapeCast_self]
  show Ideal.ofBits .f32 0x00000000#32 = _
  rw [Ideal.ofBits_zero_f32]; rfl

/-! ## The ten tiles -/

/-- An array holding a real table has row tiles holding the table's rows. -/
theorem rowsA7_holds (X : Vec Ideal S50000x128 .f32) (x : Fin 50000 → Fin 128 → ℝ) (hX : Holds2 (n0 := 50000) (n1 := 128) X x) (n : Fin 10) :
    Holds2 (n0 := 5000) (n1 := 128) (rowsA7 X n)
      (fun r k => x ⟨5000 * n.val + r.val, by have := r.isLt; have := n.isLt; omega⟩ k) := fun y => by
  unfold rowsA7
  exact hX _

theorem rowsW7_holds (X : Vec Ideal S50000x1 .f32) (x : Fin 50000 → ℝ) (hX : Holds2 (n0 := 50000) (n1 := 1) X (fun i _ => x i)) (n : Fin 10) :
    Holds2 (n0 := 5000) (n1 := 1) (rowsW7 X n)
      (fun r _ => x ⟨5000 * n.val + r.val, by have := r.isLt; have := n.isLt; omega⟩) := fun y => by
  unfold rowsW7
  exact hX _

/-- A node's term by its row number (zero past the last row). -/
def termAt7 (h s : Fin 50000 → Fin 128 → ℝ) (w : Fin 50000 → ℝ) (n : ℕ) : ℝ :=
  if hn : n < 50000 then term7 h s w ⟨n, hn⟩ else 0

/-- A tile's partial sum is the sum of its rows' terms. -/
theorem tile7_eq (h s : Fin 50000 → Fin 128 → ℝ) (w : Fin 50000 → ℝ) (n : Fin 10) :
    tile7 (fun r k => h ⟨5000 * n.val + r.val, by have := r.isLt; have := n.isLt; omega⟩ k)
        (fun r k => s ⟨5000 * n.val + r.val, by have := r.isLt; have := n.isLt; omega⟩ k)
        (fun r => w ⟨5000 * n.val + r.val, by have := r.isLt; have := n.isLt; omega⟩)
      = ∑ r : Fin 5000, termAt7 h s w (5000 * n.val + r.val) := by
  unfold tile7
  refine Finset.sum_congr rfl fun r _ => ?_
  have hlt : 5000 * n.val + r.val < 50000 := by have := r.isLt; have := n.isLt; omega
  unfold termAt7
  rw [dif_pos hlt]
  rfl

/-- The running total after tile `n` holds the sum of the terms of tiles 0 … n. -/
theorem tot7_coe (H S : Vec Ideal S50000x128 .f32) (W : Vec Ideal S50000x1 .f32)
    (h s : Fin 50000 → Fin 128 → ℝ) (w : Fin 50000 → ℝ)
    (hH : Holds2 (n0 := 50000) (n1 := 128) H h) (hS : Holds2 (n0 := 50000) (n1 := 128) S s)
    (hW : Holds2 (n0 := 50000) (n1 := 1) W (fun i _ => w i)) :
    ∀ (n : ℕ) (hn : n < 10) (j : S1x1.Idx),
      tot7 (F := Ideal) H S W n hn j
        = ((∑ t ∈ Finset.range (n + 1), ∑ r : Fin 5000, termAt7 h s w (5000 * t + r.val) : ℝ) : EReal)
  | 0, hn, j => by
    show k7_pay2 (F := Ideal) (rowsA7 H ⟨0, hn⟩) (rowsA7 S ⟨0, hn⟩) (rowsW7 W ⟨0, hn⟩) (k7_pay1 (F := Ideal)) j = _
    rw [pay2_coe7 _ _ _ _ _ _ _ 0 (rowsA7_holds H h hH ⟨0, hn⟩) (rowsA7_holds S s hS ⟨0, hn⟩) (rowsW7_holds W w hW ⟨0, hn⟩)
      pay1_coe7 j, tile7_eq h s w ⟨0, hn⟩]
    exact congrArg (fun x : ℝ => (x : EReal)) (by rw [Finset.sum_range_succ, Finset.sum_range_zero] <;> rfl)
  | n + 1, hn, j => by
    show k7_pay2 (F := Ideal) (rowsA7 H ⟨n + 1, hn⟩) (rowsA7 S ⟨n + 1, hn⟩) (rowsW7 W ⟨n + 1, hn⟩)
      (tot7 (F := Ideal) H S W n (Nat.lt_of_succ_lt hn)) j = _
    rw [pay2_coe7 _ _ _ _ _ _ _ _ (rowsA7_holds H h hH ⟨n + 1, hn⟩) (rowsA7_holds S s hS ⟨n + 1, hn⟩) (rowsW7_holds W w hW ⟨n + 1, hn⟩)
      (tot7_coe H S W h s w hH hS hW n (Nat.lt_of_succ_lt hn)) j, tile7_eq h s w ⟨n + 1, hn⟩]
    exact congrArg (fun x : ℝ => (x : EReal))
      (Finset.sum_range_succ (fun t => ∑ r : Fin 5000, termAt7 h s w (5000 * t + r.val)) (n + 1)).symm

/-- The ten tiles' terms are all the nodes' terms. -/
theorem regroup7 (h s : Fin 50000 → Fin 128 → ℝ) (w : Fin 50000 → ℝ) :
    ∑ t ∈ Finset.range 10, ∑ r : Fin 5000, termAt7 h s w (5000 * t + r.val) = ∑ i : Fin 50000, term7 h s w i := by
  rw [← Math.sum_fin_val_eq_sum_range_tiles (n := 50000) (a := 10) (b := 5000) (by norm_num) (termAt7 h s w)]
  refine Finset.sum_congr rfl fun i _ => ?_
  unfold termAt7
  rw [dif_pos i.isLt]

/-! ## The region's result -/

/-- REGION 7 OVER THE REALS. -/
theorem val7 (V : Entry Ideal) (c : Dev nD) (h s : Spec.Hidden) (w : Fin 50000 → ℝ)
    (hh : Holds2 (n0 := 50000) (n1 := 128) (hArr7 V c) h) (hs : Holds2 (n0 := 50000) (n1 := 128) (sArr7 V c) s)
    (hw : Holds2 (n0 := 50000) (n1 := 1) (wArr7 V c) (fun i _ => w i)) :
    Holds2 (n0 := 1) (n1 := 1) ((dat7 V c).arrAt 3 cfg7.N)
      (fun _ _ => ∑ i : Fin 50000, (w i * (∑ k : Fin 128, h i k * h i k) - 2 * ∑ k : Fin 128, h i k * s i k)) := by
  rw [final7_3]
  intro j
  unfold G7_3
  have e := tot7_coe (hArr7 V c) (sArr7 V c) (wArr7 V c) h s w hh hs hw 9 (by decide) j
  rw [show (9 : ℕ) + 1 = 10 from rfl] at e
  rw [e, regroup7]
  rfl

/-- With the weights the two degrees' sum and the second table the neighbour sum, that is the node-wise energy. -/
theorem val7_energy (V : Entry Ideal) (c : Dev nD) (I : Spec.Inputs) (h : Spec.Hidden)
    (hh : Holds2 (n0 := 50000) (n1 := 128) (hArr7 V c) h) (hs : Holds2 (n0 := 50000) (n1 := 128) (sArr7 V c) (Spec.nbr I h))
    (hw : Holds2 (n0 := 50000) (n1 := 1) (wArr7 V c) (fun i _ => Spec.degOut I i + Spec.degIn I i)) :
    Holds2 (n0 := 1) (n1 := 1) ((dat7 V c).arrAt 3 cfg7.N) (fun _ _ => Spec.energyNode I h) :=
  val7 V c h (Spec.nbr I h) (fun i => Spec.degOut I i + Spec.degIn I i) hh hs hw

end Cert.KernelIdeal.Hand.Val

end
-- ==== Proof.KI.Val8.lean ====
/-
  Region 8 over the reals. When the three input arrays of the region hold real tables — the hidden state `h`, a
  second table `s` of the same shape, one weight `w i` per node — the region's one-cell result holds
      Σ_i ( w i · Σ_k h i k · h i k  −  2 · Σ_k h i k · s i k ),        i over the 50000 nodes, k over the 128 features.

  The kernel adds the ten row tiles' partial sums in grid order onto a cleared accumulator. One tile's update is read
  operation by operation at an index (row sums of squares and of products, the weighted difference per row, the sum
  over the tile's rows); since every operand is the coercion of a real, each extended-real operation is the coercion
  of the real one. The ten partial sums are then regrouped into the one sum over all rows.
-/
import proofs.«160050_j32744830665390_2_alg».proof.Proof.Spec
import proofs.«160050_j32744830665390_2_alg».proof.Proof.Bridge.Inputs
import proofs.«160050_j32744830665390_2_alg».proof.Proof.Math.Lift
import proofs.«160050_j32744830665390_2_alg».proof.Proof.Math.Dirichlet
import proofs.«160050_j32744830665390_2_alg».proof.Proof.KI.Reg8
import Idealize.ShloMosaic.PureOps.Ideal.Laws
import Idealize.ShloMosaic.Lib.Pipeline.Value
import Idealize.ShloMosaic.Lib.ValueIdx

set_option maxRecDepth 16384

noncomputable section

namespace Cert.KernelIdeal.Hand.Val

open Cert.KernelIdeal Cert.KernelIdeal.Gen Cert.KernelIdeal.Hand
open Cert.Hand Cert.Hand.Bridge
open Idealize.ShloMosaic Idealize.ShloMosaic.TcCoe Idealize.ShloMosaic.ValueIdx
open Idealize.SL.Sem
open Idealize.ShloMosaic.Pipeline (Dat)
open scoped BigOperators

/-! ## Two layout steps and a constant -/

/-- A vector cast to a column reads, at `(i, 0)`, the vector at `i`. -/
theorem castCol8 {α : Type} {a : ℕ} (x : (⟨1, ![a]⟩ : Shape).Idx → α) (hc : (⟨1, ![a]⟩ : Shape).ShapeCasts ⟨2, ![a, 1]⟩)
    (y : (⟨2, ![a, 1]⟩ : Shape).Idx) : shapeCast ⟨2, ![a, 1]⟩ x hc y = x (ix1 (y 0)) :=
  shapeCast_apply x hc _ _ (by
    have hu : (y 1).val = 0 := by have h1 : (y 1).val < 1 := (y 1).isLt; omega
    rw [Shape.rowMajor_val_two, Shape.rowMajor_val_one]
    show (y 0).val = (y 0).val * 1 + (y 1).val
    rw [hu]; omega)

/-- The f32 pattern of the kernel's factor two is the real number two. -/
theorem two8 : Ideal.ofBits .f32 0x40000000#32 = ((2 : ℝ) : EReal) := by
  simp [Ideal.ofBits, Ideal.ieee, -EReal.coe_mul]; norm_num

/-! ## One tile's update over the reals -/

/-- A node's term of the sum. -/
def term8 (h s : Fin 50000 → Fin 128 → ℝ) (w : Fin 50000 → ℝ) (i : Fin 50000) : ℝ :=
  w i * (∑ k : Fin 128, h i k * h i k) - 2 * ∑ k : Fin 128, h i k * s i k

/-- A tile's partial sum, from the tile's three blocks. -/
def tile8 (hB sB : Fin 5000 → Fin 128 → ℝ) (wB : Fin 5000 → ℝ) : ℝ :=
  ∑ r : Fin 5000, (wB r * (∑ k : Fin 128, hB r k * hB r k) - 2 * ∑ k : Fin 128, hB r k * sB r k)

/-- Each row's sum over the features of the products of two blocks' entries. -/
theorem rowDot8 (xv yv : FVec Idealize.ShloMosaic.Ideal S5000x128 .f32) (xB yB : Fin 5000 → Fin 128 → ℝ)
    (hx : Holds2 (n0 := 5000) (n1 := 128) xv xB) (hy : Holds2 (n0 := 5000) (n1 := 128) yv yB) (r : S5000.Idx) :
    multiReduction .add [1] S5000 (mulf xv yv) 0x00000000#32 reduces_S5000x128_S5000 (.inl rfl) rfl r
      = ((∑ k : Fin 128, xB (r 0) k * yB (r 0) k : ℝ) : EReal) := by
  refine (Ideal.multiReduction_add_single (mulf xv yv) _ reduces_S5000x128_S5000 (.inl rfl) rfl r).trans ?_
  refine Math.sum_eq_coe_of_forall _ _ (fun k : Fin 128 => xB (r 0) k * yB (r 0) k) fun k _ => ?_
  show xv (reduces_S5000x128_S5000.lift r k) * yv (reduces_S5000x128_S5000.lift r k) = _
  rw [hx (reduces_S5000x128_S5000.lift r k), hy (reduces_S5000x128_S5000.lift r k), Math.coe_mul_coe]
  rfl

/-- The rows' weighted differences, as the kernel forms them (a column of one entry per row). -/
def rowTerms8 (hv sv : Vec Ideal S5000x128 .f32) (wv : Vec Ideal S5000x1 .f32) : FVec Ideal S5000x1 .f32 :=
  subf
    (mulf (wv : FVec Ideal S5000x1 .f32)
      (shapeCast S5000x1 (multiReduction .add [1] S5000 (mulf (hv : FVec Ideal S5000x128 .f32) (hv : FVec Ideal S5000x128 .f32)) 0x00000000#32
        reduces_S5000x128_S5000 (.inl rfl) rfl) shapeCasts_S5000_S5000x1))
    (mulf (broadcast S5000x1 (Scalar.ofBits (F := Ideal) .f32 0x40000000#32))
      (shapeCast S5000x1 (multiReduction .add [1] S5000 (mulf (hv : FVec Ideal S5000x128 .f32) (sv : FVec Ideal S5000x128 .f32)) 0x00000000#32
        reduces_S5000x128_S5000 (.inl rfl) rfl) shapeCasts_S5000_S5000x1))

/-- The update is the accumulator plus the sum over the tile's rows of those differences. -/
theorem pay2_shape8 (hv sv : Vec Ideal S5000x128 .f32) (wv : Vec Ideal S5000x1 .f32) (av : Vec Ideal S1x1 .f32) :
    k8_pay2 (F := Ideal) hv sv wv av
      = addf (av : FVec Ideal S1x1 .f32)
          (shapeCast S1x1 (multiReduction .add [0] S1 (rowTerms8 hv sv wv) 0x00000000#32 reduces_S5000x1_S1 (.inl rfl) rfl) shapeCasts_S1_S1x1) := by
  unfold k8_pay2 rowTerms8
  simp only [shapeCast_self]

theorem rowTerms8_coe (hv sv : Vec Ideal S5000x128 .f32) (wv : Vec Ideal S5000x1 .f32)
    (hB sB : Fin 5000 → Fin 128 → ℝ) (wB : Fin 5000 → ℝ)
    (hh : Holds2 (n0 := 5000) (n1 := 128) hv hB) (hs : Holds2 (n0 := 5000) (n1 := 128) sv sB)
    (hw : Holds2 (n0 := 5000) (n1 := 1) wv (fun r _ => wB r)) (y : S5000x1.Idx) :
    rowTerms8 hv sv wv y
      = ((wB (y 0) * (∑ k : Fin 128, hB (y 0) k * hB (y 0) k) - 2 * ∑ k : Fin 128, hB (y 0) k * sB (y 0) k : ℝ) : EReal) := by
  unfold rowTerms8
  show wv y * shapeCast S5000x1 _ shapeCasts_S5000_S5000x1 y
      - Scalar.ofBits (F := Ideal) .f32 0x40000000#32 * shapeCast S5000x1 _ shapeCasts_S5000_S5000x1 y = _
  rw [castCol8, castCol8, rowDot8 hv hv hB hB hh hh, rowDot8 hv sv hB sB hh hs, hw y]
  show ((wB (y 0) : ℝ) : EReal) * _ - Ideal.ofBits .f32 0x40000000#32 * _ = _
  rw [two8, Math.coe_mul_coe, Math.coe_mul_coe, Math.coe_sub_coe]

/-- ONE TILE: blocks holding real tables and an accumulator holding a real give the accumulator plus the tile's sum. -/
theorem pay2_coe8 (hv sv : Vec Ideal S5000x128 .f32) (wv : Vec Ideal S5000x1 .f32) (av : Vec Ideal S1x1 .f32)
    (hB sB : Fin 5000 → Fin 128 → ℝ) (wB : Fin 5000 → ℝ) (a : ℝ)
    (hh : Holds2 (n0 := 5000) (n1 := 128) hv hB) (hs : Holds2 (n0 := 5000) (n1 := 128) sv sB)
    (hw : Holds2 (n0 := 5000) (n1 := 1) wv (fun r _ => wB r)) (ha : ∀ j, av j = ((a : ℝ) : EReal)) (j : S1x1.Idx) :
    k8_pay2 (F := Ideal) hv sv wv av j = ((a + tile8 hB sB wB : ℝ) : EReal) := by
  rw [pay2_shape8]
  show av j + shapeCast S1x1 _ shapeCasts_S1_S1x1 j = _
  rw [castCol8, ha j]
  refine (congrArg (fun x => ((a : ℝ) : EReal) + x)
    (Ideal.multiReduction_add_single (rowTerms8 hv sv wv) _ reduces_S5000x1_S1 (.inl rfl) rfl (ix1 (j 0)))).trans ?_
  refine (congrArg (fun x => ((a : ℝ) : EReal) + x)
    (Math.sum_eq_coe_of_forall _ _
      (fun r : Fin 5000 => wB r * (∑ k : Fin 128, hB r k * hB r k) - 2 * ∑ k : Fin 128, hB r k * sB r k)
      fun r _ => rowTerms8_coe hv sv wv hB sB wB hh hs hw (reduces_S5000x1_S1.lift (ix1 (j 0)) r))).trans ?_
  exact Math.coe_add_coe _ _

/-- The cleared accumulator is the real zero. -/
theorem pay1_coe8 (j : S1x1.Idx) : k8_pay1 (F := Ideal) j = ((0 : ℝ) : EReal) := by
  unfold k8_pay1
  simp only [shapeCast_self]
  show Ideal.ofBits .f32 0x00000000#32 = _
  rw [Ideal.ofBits_zero_f32]; rfl

/-! ## The ten tiles -/

/-- An array holding a real table has row tiles holding the table's rows. -/
theorem rowsA8_holds (X : Vec Ideal S50000x128 .f32) (x : Fin 50000 → Fin 128 → ℝ) (hX : Holds2 (n0 := 50000) (n1 := 128) X x) (n : Fin 10) :
    Holds2 (n0 := 5000) (n1 := 128) (rowsA8 X n)
      (fun r k => x ⟨5000 * n.val + r.val, by have := r.isLt; have := n.isLt; omega⟩ k) := fun y => by
  unfold rowsA8
  exact hX _

theorem rowsW8_holds (X : Vec Ideal S50000x1 .f32) (x : Fin 50000 → ℝ) (hX : Holds2 (n0 := 50000) (n1 := 1) X (fun i _ => x i)) (n : Fin 10) :
    Holds2 (n0 := 5000) (n1 := 1) (rowsW8 X n)
      (fun r _ => x ⟨5000 * n.val + r.val, by have := r.isLt; have := n.isLt; omega⟩) := fun y => by
  unfold rowsW8
  exact hX _

/-- A node's term by its row number (zero past the last row). -/
def termAt8 (h s : Fin 50000 → Fin 128 → ℝ) (w : Fin 50000 → ℝ) (n : ℕ) : ℝ :=
  if hn : n < 50000 then term8 h s w ⟨n, hn⟩ else 0

/-- A tile's partial sum is the sum of its rows' terms. -/
theorem tile8_eq (h s : Fin 50000 → Fin 128 → ℝ) (w : Fin 50000 → ℝ) (n : Fin 10) :
    tile8 (fun r k => h ⟨5000 * n.val + r.val, by have := r.isLt; have := n.isLt; omega⟩ k)
        (fun r k => s ⟨5000 * n.val + r.val, by have := r.isLt; have := n.isLt; omega⟩ k)
        (fun r => w ⟨5000 * n.val + r.val, by have := r.isLt; have := n.isLt; omega⟩)
      = ∑ r : Fin 5000, termAt8 h s w (5000 * n.val + r.val) := by
  unfold tile8
  refine Finset.sum_congr rfl fun r _ => ?_
  have hlt : 5000 * n.val + r.val < 50000 := by have := r.isLt; have := n.isLt; omega
  unfold termAt8
  rw [dif_pos hlt]
  rfl

/-- The running total after tile `n` holds the sum of the terms of tiles 0 … n. -/
theorem tot8_coe (H S : Vec Ideal S50000x128 .f32) (W : Vec Ideal S50000x1 .f32)
    (h s : Fin 50000 → Fin 128 → ℝ) (w : Fin 50000 → ℝ)
    (hH : Holds2 (n0 := 50000) (n1 := 128) H h) (hS : Holds2 (n0 := 50000) (n1 := 128) S s)
    (hW : Holds2 (n0 := 50000) (n1 := 1) W (fun i _ => w i)) :
    ∀ (n : ℕ) (hn : n < 10) (j : S1x1.Idx),
      tot8 (F := Ideal) H S W n hn j
        = ((∑ t ∈ Finset.range (n + 1), ∑ r : Fin 5000, termAt8 h s w (5000 * t + r.val) : ℝ) : EReal)
  | 0, hn, j => by
    show k8_pay2 (F := Ideal) (rowsA8 H ⟨0, hn⟩) (rowsA8 S ⟨0, hn⟩) (rowsW8 W ⟨0, hn⟩) (k8_pay1 (F := Ideal)) j = _
    rw [pay2_coe8 _ _ _ _ _ _ _ 0 (rowsA8_holds H h hH ⟨0, hn⟩) (rowsA8_holds S s hS ⟨0, hn⟩) (rowsW8_holds W w hW ⟨0, hn⟩)
      pay1_coe8 j, tile8_eq h s w ⟨0, hn⟩]
    exact congrArg (fun x : ℝ => (x : EReal)) (by rw [Finset.sum_range_succ, Finset.sum_range_zero] <;> rfl)
  | n + 1, hn, j => by
    show k8_pay2 (F := Ideal) (rowsA8 H ⟨n + 1, hn⟩) (rowsA8 S ⟨n + 1, hn⟩) (rowsW8 W ⟨n + 1, hn⟩)
      (tot8 (F := Ideal) H S W n (Nat.lt_of_succ_lt hn)) j = _
    rw [pay2_coe8 _ _ _ _ _ _ _ _ (rowsA8_holds H h hH ⟨n + 1, hn⟩) (rowsA8_holds S s hS ⟨n + 1, hn⟩) (rowsW8_holds W w hW ⟨n + 1, hn⟩)
      (tot8_coe H S W h s w hH hS hW n (Nat.lt_of_succ_lt hn)) j, tile8_eq h s w ⟨n + 1, hn⟩]
    exact congrArg (fun x : ℝ => (x : EReal))
      (Finset.sum_range_succ (fun t => ∑ r : Fin 5000, termAt8 h s w (5000 * t + r.val)) (n + 1)).symm

/-- The ten tiles' terms are all the nodes' terms. -/
theorem regroup8 (h s : Fin 50000 → Fin 128 → ℝ) (w : Fin 50000 → ℝ) :
    ∑ t ∈ Finset.range 10, ∑ r : Fin 5000, termAt8 h s w (5000 * t + r.val) = ∑ i : Fin 50000, term8 h s w i := by
  rw [← Math.sum_fin_val_eq_sum_range_tiles (n := 50000) (a := 10) (b := 5000) (by norm_num) (termAt8 h s w)]
  refine Finset.sum_congr rfl fun i _ => ?_
  unfold termAt8
  rw [dif_pos i.isLt]

/-! ## The region's result -/

/-- REGION 7 OVER THE REALS. -/
theorem val8 (V : Entry Ideal) (c : Dev nD) (h s : Spec.Hidden) (w : Fin 50000 → ℝ)
    (hh : Holds2 (n0 := 50000) (n1 := 128) (hArr8 V c) h) (hs : Holds2 (n0 := 50000) (n1 := 128) (sArr8 V c) s)
    (hw : Holds2 (n0 := 50000) (n1 := 1) (wArr8 V c) (fun i _ => w i)) :
    Holds2 (n0 := 1) (n1 := 1) ((dat8 V c).arrAt 3 cfg8.N)
      (fun _ _ => ∑ i : Fin 50000, (w i * (∑ k : Fin 128, h i k * h i k) - 2 * ∑ k : Fin 128, h i k * s i k)) := by
  rw [final8_3]
  intro j
  unfold G8_3
  have e := tot8_coe (hArr8 V c) (sArr8 V c) (wArr8 V c) h s w hh hs hw 9 (by decide) j
  rw [show (9 : ℕ) + 1 = 10 from rfl] at e
  rw [e, regroup8]
  rfl

/-- With the weights the two degrees' sum and the second table the neighbour sum, that is the node-wise energy. -/
theorem val8_energy (V : Entry Ideal) (c : Dev nD) (I : Spec.Inputs) (h : Spec.Hidden)
    (hh : Holds2 (n0 := 50000) (n1 := 128) (hArr8 V c) h) (hs : Holds2 (n0 := 50000) (n1 := 128) (sArr8 V c) (Spec.nbr I h))
    (hw : Holds2 (n0 := 50000) (n1 := 1) (wArr8 V c) (fun i _ => Spec.degOut I i + Spec.degIn I i)) :
    Holds2 (n0 := 1) (n1 := 1) ((dat8 V c).arrAt 3 cfg8.N) (fun _ _ => Spec.energyNode I h) :=
  val8 V c h (Spec.nbr I h) (fun i => Spec.degOut I i + Spec.degIn I i) hh hs hw

end Cert.KernelIdeal.Hand.Val

end
-- ==== Proof.KI.Val9.lean ====
/-
  Region 9 over the reals. When the three input arrays of the region hold real tables — the hidden state `h`, a
  second table `s` of the same shape, one weight `w i` per node — the region's one-cell result holds
      Σ_i ( w i · Σ_k h i k · h i k  −  2 · Σ_k h i k · s i k ),        i over the 50000 nodes, k over the 128 features.

  The kernel adds the ten row tiles' partial sums in grid order onto a cleared accumulator. One tile's update is read
  operation by operation at an index (row sums of squares and of products, the weighted difference per row, the sum
  over the tile's rows); since every operand is the coercion of a real, each extended-real operation is the coercion
  of the real one. The ten partial sums are then regrouped into the one sum over all rows.
-/
import proofs.«160050_j32744830665390_2_alg».proof.Proof.Spec
import proofs.«160050_j32744830665390_2_alg».proof.Proof.Bridge.Inputs
import proofs.«160050_j32744830665390_2_alg».proof.Proof.Math.Lift
import proofs.«160050_j32744830665390_2_alg».proof.Proof.Math.Dirichlet
import proofs.«160050_j32744830665390_2_alg».proof.Proof.KI.Reg9
import Idealize.ShloMosaic.PureOps.Ideal.Laws
import Idealize.ShloMosaic.Lib.Pipeline.Value
import Idealize.ShloMosaic.Lib.ValueIdx

set_option maxRecDepth 16384

noncomputable section

namespace Cert.KernelIdeal.Hand.Val

open Cert.KernelIdeal Cert.KernelIdeal.Gen Cert.KernelIdeal.Hand
open Cert.Hand Cert.Hand.Bridge
open Idealize.ShloMosaic Idealize.ShloMosaic.TcCoe Idealize.ShloMosaic.ValueIdx
open Idealize.SL.Sem
open Idealize.ShloMosaic.Pipeline (Dat)
open scoped BigOperators

/-! ## Two layout steps and a constant -/

/-- A vector cast to a column reads, at `(i, 0)`, the vector at `i`. -/
theorem castCol9 {α : Type} {a : ℕ} (x : (⟨1, ![a]⟩ : Shape).Idx → α) (hc : (⟨1, ![a]⟩ : Shape).ShapeCasts ⟨2, ![a, 1]⟩)
    (y : (⟨2, ![a, 1]⟩ : Shape).Idx) : shapeCast ⟨2, ![a, 1]⟩ x hc y = x (ix1 (y 0)) :=
  shapeCast_apply x hc _ _ (by
    have hu : (y 1).val = 0 := by have h1 : (y 1).val < 1 := (y 1).isLt; omega
    rw [Shape.rowMajor_val_two, Shape.rowMajor_val_one]
    show (y 0).val = (y 0).val * 1 + (y 1).val
    rw [hu]; omega)

/-- The f32 pattern of the kernel's factor two is the real number two. -/
theorem two9 : Ideal.ofBits .f32 0x40000000#32 = ((2 : ℝ) : EReal) := by
  simp [Ideal.ofBits, Ideal.ieee, -EReal.coe_mul]; norm_num

/-! ## One tile's update over the reals -/

/-- A node's term of the sum. -/
def term9 (h s : Fin 50000 → Fin 128 → ℝ) (w : Fin 50000 → ℝ) (i : Fin 50000) : ℝ :=
  w i * (∑ k : Fin 128, h i k * h i k) - 2 * ∑ k : Fin 128, h i k * s i k

/-- A tile's partial sum, from the tile's three blocks. -/
def tile9 (hB sB : Fin 5000 → Fin 128 → ℝ) (wB : Fin 5000 → ℝ) : ℝ :=
  ∑ r : Fin 5000, (wB r * (∑ k : Fin 128, hB r k * hB r k) - 2 * ∑ k : Fin 128, hB r k * sB r k)

/-- Each row's sum over the features of the products of two blocks' entries. -/
theorem rowDot9 (xv yv : FVec Idealize.ShloMosaic.Ideal S5000x128 .f32) (xB yB : Fin 5000 → Fin 128 → ℝ)
    (hx : Holds2 (n0 := 5000) (n1 := 128) xv xB) (hy : Holds2 (n0 := 5000) (n1 := 128) yv yB) (r : S5000.Idx) :
    multiReduction .add [1] S5000 (mulf xv yv) 0x00000000#32 reduces_S5000x128_S5000 (.inl rfl) rfl r
      = ((∑ k : Fin 128, xB (r 0) k * yB (r 0) k : ℝ) : EReal) := by
  refine (Ideal.multiReduction_add_single (mulf xv yv) _ reduces_S5000x128_S5000 (.inl rfl) rfl r).trans ?_
  refine Math.sum_eq_coe_of_forall _ _ (fun k : Fin 128 => xB (r 0) k * yB (r 0) k) fun k _ => ?_
  show xv (reduces_S5000x128_S5000.lift r k) * yv (reduces_S5000x128_S5000.lift r k) = _
  rw [hx (reduces_S5000x128_S5000.lift r k), hy (reduces_S5000x128_S5000.lift r k), Math.coe_mul_coe]
  rfl

/-- The rows' weighted differences, as the kernel forms them (a column of one entry per row). -/
def rowTerms9 (hv sv : Vec Ideal S5000x128 .f32) (wv : Vec Ideal S5000x1 .f32) : FVec Ideal S5000x1 .f32 :=
  subf
    (mulf (wv : FVec Ideal S5000x1 .f32)
      (shapeCast S5000x1 (multiReduction .add [1] S5000 (mulf (hv : FVec Ideal S5000x128 .f32) (hv : FVec Ideal S5000x128 .f32)) 0x00000000#32
        reduces_S5000x128_S5000 (.inl rfl) rfl) shapeCasts_S5000_S5000x1))
    (mulf (broadcast S5000x1 (Scalar.ofBits (F := Ideal) .f32 0x40000000#32))
      (shapeCast S5000x1 (multiReduction .add [1] S5000 (mulf (hv : FVec Ideal S5000x128 .f32) (sv : FVec Ideal S5000x128 .f32)) 0x00000000#32
        reduces_S5000x128_S5000 (.inl rfl) rfl) shapeCasts_S5000_S5000x1))

/-- The update is the accumulator plus the sum over the tile's rows of those differences. -/
theorem pay2_shape9 (hv sv : Vec Ideal S5000x128 .f32) (wv : Vec Ideal S5000x1 .f32) (av : Vec Ideal S1x1 .f32) :
    k9_pay2 (F := Ideal) hv sv wv av
      = addf (av : FVec Ideal S1x1 .f32)
          (shapeCast S1x1 (multiReduction .add [0] S1 (rowTerms9 hv sv wv) 0x00000000#32 reduces_S5000x1_S1 (.inl rfl) rfl) shapeCasts_S1_S1x1) := by
  unfold k9_pay2 rowTerms9
  simp only [shapeCast_self]

theorem rowTerms9_coe (hv sv : Vec Ideal S5000x128 .f32) (wv : Vec Ideal S5000x1 .f32)
    (hB sB : Fin 5000 → Fin 128 → ℝ) (wB : Fin 5000 → ℝ)
    (hh : Holds2 (n0 := 5000) (n1 := 128) hv hB) (hs : Holds2 (n0 := 5000) (n1 := 128) sv sB)
    (hw : Holds2 (n0 := 5000) (n1 := 1) wv (fun r _ => wB r)) (y : S5000x1.Idx) :
    rowTerms9 hv sv wv y
      = ((wB (y 0) * (∑ k : Fin 128, hB (y 0) k * hB (y 0) k) - 2 * ∑ k : Fin 128, hB (y 0) k * sB (y 0) k : ℝ) : EReal) := by
  unfold rowTerms9
  show wv y * shapeCast S5000x1 _ shapeCasts_S5000_S5000x1 y
      - Scalar.ofBits (F := Ideal) .f32 0x40000000#32 * shapeCast S5000x1 _ shapeCasts_S5000_S5000x1 y = _
  rw [castCol9, castCol9, rowDot9 hv hv hB hB hh hh, rowDot9 hv sv hB sB hh hs, hw y]
  show ((wB (y 0) : ℝ) : EReal) * _ - Ideal.ofBits .f32 0x40000000#32 * _ = _
  rw [two9, Math.coe_mul_coe, Math.coe_mul_coe, Math.coe_sub_coe]

/-- ONE TILE: blocks holding real tables and an accumulator holding a real give the accumulator plus the tile's sum. -/
theorem pay2_coe9 (hv sv : Vec Ideal S5000x128 .f32) (wv : Vec Ideal S5000x1 .f32) (av : Vec Ideal S1x1 .f32)
    (hB sB : Fin 5000 → Fin 128 → ℝ) (wB : Fin 5000 → ℝ) (a : ℝ)
    (hh : Holds2 (n0 := 5000) (n1 := 128) hv hB) (hs : Holds2 (n0 := 5000) (n1 := 128) sv sB)
    (hw : Holds2 (n0 := 5000) (n1 := 1) wv (fun r _ => wB r)) (ha : ∀ j, av j = ((a : ℝ) : EReal)) (j : S1x1.Idx) :
    k9_pay2 (F := Ideal) hv sv wv av j = ((a + tile9 hB sB wB : ℝ) : EReal) := by
  rw [pay2_shape9]
  show av j + shapeCast S1x1 _ shapeCasts_S1_S1x1 j = _
  rw [castCol9, ha j]
  refine (congrArg (fun x => ((a : ℝ) : EReal) + x)
    (Ideal.multiReduction_add_single (rowTerms9 hv sv wv) _ reduces_S5000x1_S1 (.inl rfl) rfl (ix1 (j 0)))).trans ?_
  refine (congrArg (fun x => ((a : ℝ) : EReal) + x)
    (Math.sum_eq_coe_of_forall _ _
      (fun r : Fin 5000 => wB r * (∑ k : Fin 128, hB r k * hB r k) - 2 * ∑ k : Fin 128, hB r k * sB r k)
      fun r _ => rowTerms9_coe hv sv wv hB sB wB hh hs hw (reduces_S5000x1_S1.lift (ix1 (j 0)) r))).trans ?_
  exact Math.coe_add_coe _ _

/-- The cleared accumulator is the real zero. -/
theorem pay1_coe9 (j : S1x1.Idx) : k9_pay1 (F := Ideal) j = ((0 : ℝ) : EReal) := by
  unfold k9_pay1
  simp only [shapeCast_self]
  show Ideal.ofBits .f32 0x00000000#32 = _
  rw [Ideal.ofBits_zero_f32]; rfl

/-! ## The ten tiles -/

/-- An array holding a real table has row tiles holding the table's rows. -/
theorem rowsA9_holds (X : Vec Ideal S50000x128 .f32) (x : Fin 50000 → Fin 128 → ℝ) (hX : Holds2 (n0 := 50000) (n1 := 128) X x) (n : Fin 10) :
    Holds2 (n0 := 5000) (n1 := 128) (rowsA9 X n)
      (fun r k => x ⟨5000 * n.val + r.val, by have := r.isLt; have := n.isLt; omega⟩ k) := fun y => by
  unfold rowsA9
  exact hX _

theorem rowsW9_holds (X : Vec Ideal S50000x1 .f32) (x : Fin 50000 → ℝ) (hX : Holds2 (n0 := 50000) (n1 := 1) X (fun i _ => x i)) (n : Fin 10) :
    Holds2 (n0 := 5000) (n1 := 1) (rowsW9 X n)
      (fun r _ => x ⟨5000 * n.val + r.val, by have := r.isLt; have := n.isLt; omega⟩) := fun y => by
  unfold rowsW9
  exact hX _

/-- A node's term by its row number (zero past the last row). -/
def termAt9 (h s : Fin 50000 → Fin 128 → ℝ) (w : Fin 50000 → ℝ) (n : ℕ) : ℝ :=
  if hn : n < 50000 then term9 h s w ⟨n, hn⟩ else 0

/-- A tile's partial sum is the sum of its rows' terms. -/
theorem tile9_eq (h s : Fin 50000 → Fin 128 → ℝ) (w : Fin 50000 → ℝ) (n : Fin 10) :
    tile9 (fun r k => h ⟨5000 * n.val + r.val, by have := r.isLt; have := n.isLt; omega⟩ k)
        (fun r k => s ⟨5000 * n.val + r.val, by have := r.isLt; have := n.isLt; omega⟩ k)
        (fun r => w ⟨5000 * n.val + r.val, by have := r.isLt; have := n.isLt; omega⟩)
      = ∑ r : Fin 5000, termAt9 h s w (5000 * n.val + r.val) := by
  unfold tile9
  refine Finset.sum_congr rfl fun r _ => ?_
  have hlt : 5000 * n.val + r.val < 50000 := by have := r.isLt; have := n.isLt; omega
  unfold termAt9
  rw [dif_pos hlt]
  rfl

/-- The running total after tile `n` holds the sum of the terms of tiles 0 … n. -/
theorem tot9_coe (H S : Vec Ideal S50000x128 .f32) (W : Vec Ideal S50000x1 .f32)
    (h s : Fin 50000 → Fin 128 → ℝ) (w : Fin 50000 → ℝ)
    (hH : Holds2 (n0 := 50000) (n1 := 128) H h) (hS : Holds2 (n0 := 50000) (n1 := 128) S s)
    (hW : Holds2 (n0 := 50000) (n1 := 1) W (fun i _ => w i)) :
    ∀ (n : ℕ) (hn : n < 10) (j : S1x1.Idx),
      tot9 (F := Ideal) H S W n hn j
        = ((∑ t ∈ Finset.range (n + 1), ∑ r : Fin 5000, termAt9 h s w (5000 * t + r.val) : ℝ) : EReal)
  | 0, hn, j => by
    show k9_pay2 (F := Ideal) (rowsA9 H ⟨0, hn⟩) (rowsA9 S ⟨0, hn⟩) (rowsW9 W ⟨0, hn⟩) (k9_pay1 (F := Ideal)) j = _
    rw [pay2_coe9 _ _ _ _ _ _ _ 0 (rowsA9_holds H h hH ⟨0, hn⟩) (rowsA9_holds S s hS ⟨0, hn⟩) (rowsW9_holds W w hW ⟨0, hn⟩)
      pay1_coe9 j, tile9_eq h s w ⟨0, hn⟩]
    exact congrArg (fun x : ℝ => (x : EReal)) (by rw [Finset.sum_range_succ, Finset.sum_range_zero] <;> rfl)
  | n + 1, hn, j => by
    show k9_pay2 (F := Ideal) (rowsA9 H ⟨n + 1, hn⟩) (rowsA9 S ⟨n + 1, hn⟩) (rowsW9 W ⟨n + 1, hn⟩)
      (tot9 (F := Ideal) H S W n (Nat.lt_of_succ_lt hn)) j = _
    rw [pay2_coe9 _ _ _ _ _ _ _ _ (rowsA9_holds H h hH ⟨n + 1, hn⟩) (rowsA9_holds S s hS ⟨n + 1, hn⟩) (rowsW9_holds W w hW ⟨n + 1, hn⟩)
      (tot9_coe H S W h s w hH hS hW n (Nat.lt_of_succ_lt hn)) j, tile9_eq h s w ⟨n + 1, hn⟩]
    exact congrArg (fun x : ℝ => (x : EReal))
      (Finset.sum_range_succ (fun t => ∑ r : Fin 5000, termAt9 h s w (5000 * t + r.val)) (n + 1)).symm

/-- The ten tiles' terms are all the nodes' terms. -/
theorem regroup9 (h s : Fin 50000 → Fin 128 → ℝ) (w : Fin 50000 → ℝ) :
    ∑ t ∈ Finset.range 10, ∑ r : Fin 5000, termAt9 h s w (5000 * t + r.val) = ∑ i : Fin 50000, term9 h s w i := by
  rw [← Math.sum_fin_val_eq_sum_range_tiles (n := 50000) (a := 10) (b := 5000) (by norm_num) (termAt9 h s w)]
  refine Finset.sum_congr rfl fun i _ => ?_
  unfold termAt9
  rw [dif_pos i.isLt]

/-! ## The region's result -/

/-- REGION 7 OVER THE REALS. -/
theorem val9 (V : Entry Ideal) (c : Dev nD) (h s : Spec.Hidden) (w : Fin 50000 → ℝ)
    (hh : Holds2 (n0 := 50000) (n1 := 128) (hArr9 V c) h) (hs : Holds2 (n0 := 50000) (n1 := 128) (sArr9 V c) s)
    (hw : Holds2 (n0 := 50000) (n1 := 1) (wArr9 V c) (fun i _ => w i)) :
    Holds2 (n0 := 1) (n1 := 1) ((dat9 V c).arrAt 3 cfg9.N)
      (fun _ _ => ∑ i : Fin 50000, (w i * (∑ k : Fin 128, h i k * h i k) - 2 * ∑ k : Fin 128, h i k * s i k)) := by
  rw [final9_3]
  intro j
  unfold G9_3
  have e := tot9_coe (hArr9 V c) (sArr9 V c) (wArr9 V c) h s w hh hs hw 9 (by decide) j
  rw [show (9 : ℕ) + 1 = 10 from rfl] at e
  rw [e, regroup9]
  rfl

/-- With the weights the two degrees' sum and the second table the neighbour sum, that is the node-wise energy. -/
theorem val9_energy (V : Entry Ideal) (c : Dev nD) (I : Spec.Inputs) (h : Spec.Hidden)
    (hh : Holds2 (n0 := 50000) (n1 := 128) (hArr9 V c) h) (hs : Holds2 (n0 := 50000) (n1 := 128) (sArr9 V c) (Spec.nbr I h))
    (hw : Holds2 (n0 := 50000) (n1 := 1) (wArr9 V c) (fun i _ => Spec.degOut I i + Spec.degIn I i)) :
    Holds2 (n0 := 1) (n1 := 1) ((dat9 V c).arrAt 3 cfg9.N) (fun _ _ => Spec.energyNode I h) :=
  val9 V c h (Spec.nbr I h) (fun i => Spec.degOut I i + Spec.degIn I i) hh hs hw

end Cert.KernelIdeal.Hand.Val

end
-- ==== Proof.KI.Val10.lean ====
/-
  Region 10 over the reals. When the three input arrays of the region hold real tables — the hidden state `h`, a
  second table `s` of the same shape, one weight `w i` per node — the region's one-cell result holds
      Σ_i ( w i · Σ_k h i k · h i k  −  2 · Σ_k h i k · s i k ),        i over the 50000 nodes, k over the 128 features.

  The kernel adds the ten row tiles' partial sums in grid order onto a cleared accumulator. One tile's update is read
  operation by operation at an index (row sums of squares and of products, the weighted difference per row, the sum
  over the tile's rows); since every operand is the coercion of a real, each extended-real operation is the coercion
  of the real one. The ten partial sums are then regrouped into the one sum over all rows.
-/
import proofs.«160050_j32744830665390_2_alg».proof.Proof.Spec
import proofs.«160050_j32744830665390_2_alg».proof.Proof.Bridge.Inputs
import proofs.«160050_j32744830665390_2_alg».proof.Proof.Math.Lift
import proofs.«160050_j32744830665390_2_alg».proof.Proof.Math.Dirichlet
import proofs.«160050_j32744830665390_2_alg».proof.Proof.KI.Reg10
import Idealize.ShloMosaic.PureOps.Ideal.Laws
import Idealize.ShloMosaic.Lib.Pipeline.Value
import Idealize.ShloMosaic.Lib.ValueIdx

set_option maxRecDepth 16384

noncomputable section

namespace Cert.KernelIdeal.Hand.Val

open Cert.KernelIdeal Cert.KernelIdeal.Gen Cert.KernelIdeal.Hand
open Cert.Hand Cert.Hand.Bridge
open Idealize.ShloMosaic Idealize.ShloMosaic.TcCoe Idealize.ShloMosaic.ValueIdx
open Idealize.SL.Sem
open Idealize.ShloMosaic.Pipeline (Dat)
open scoped BigOperators

/-! ## Two layout steps and a constant -/

/-- A vector cast to a column reads, at `(i, 0)`, the vector at `i`. -/
theorem castCol10 {α : Type} {a : ℕ} (x : (⟨1, ![a]⟩ : Shape).Idx → α) (hc : (⟨1, ![a]⟩ : Shape).ShapeCasts ⟨2, ![a, 1]⟩)
    (y : (⟨2, ![a, 1]⟩ : Shape).Idx) : shapeCast ⟨2, ![a, 1]⟩ x hc y = x (ix1 (y 0)) :=
  shapeCast_apply x hc _ _ (by
    have hu : (y 1).val = 0 := by have h1 : (y 1).val < 1 := (y 1).isLt; omega
    rw [Shape.rowMajor_val_two, Shape.rowMajor_val_one]
    show (y 0).val = (y 0).val * 1 + (y 1).val
    rw [hu]; omega)

/-- The f32 pattern of the kernel's factor two is the real number two. -/
theorem two10 : Ideal.ofBits .f32 0x40000000#32 = ((2 : ℝ) : EReal) := by
  simp [Ideal.ofBits, Ideal.ieee, -EReal.coe_mul]; norm_num

/-! ## One tile's update over the reals -/

/-- A node's term of the sum. -/
def term10 (h s : Fin 50000 → Fin 128 → ℝ) (w : Fin 50000 → ℝ) (i : Fin 50000) : ℝ :=
  w i * (∑ k : Fin 128, h i k * h i k) - 2 * ∑ k : Fin 128, h i k * s i k

/-- A tile's partial sum, from the tile's three blocks. -/
def tile10 (hB sB : Fin 5000 → Fin 128 → ℝ) (wB : Fin 5000 → ℝ) : ℝ :=
  ∑ r : Fin 5000, (wB r * (∑ k : Fin 128, hB r k * hB r k) - 2 * ∑ k : Fin 128, hB r k * sB r k)

/-- Each row's sum over the features of the products of two blocks' entries. -/
theorem rowDot10 (xv yv : FVec Idealize.ShloMosaic.Ideal S5000x128 .f32) (xB yB : Fin 5000 → Fin 128 → ℝ)
    (hx : Holds2 (n0 := 5000) (n1 := 128) xv xB) (hy : Holds2 (n0 := 5000) (n1 := 128) yv yB) (r : S5000.Idx) :
    multiReduction .add [1] S5000 (mulf xv yv) 0x00000000#32 reduces_S5000x128_S5000 (.inl rfl) rfl r
      = ((∑ k : Fin 128, xB (r 0) k * yB (r 0) k : ℝ) : EReal) := by
  refine (Ideal.multiReduction_add_single (mulf xv yv) _ reduces_S5000x128_S5000 (.inl rfl) rfl r).trans ?_
  refine Math.sum_eq_coe_of_forall _ _ (fun k : Fin 128 => xB (r 0) k * yB (r 0) k) fun k _ => ?_
  show xv (reduces_S5000x128_S5000.lift r k) * yv (reduces_S5000x128_S5000.lift r k) = _
  rw [hx (reduces_S5000x128_S5000.lift r k), hy (reduces_S5000x128_S5000.lift r k), Math.coe_mul_coe]
  rfl

/-- The rows' weighted differences, as the kernel forms them (a column of one entry per row). -/
def rowTerms10 (hv sv : Vec Ideal S5000x128 .f32) (wv : Vec Ideal S5000x1 .f32) : FVec Ideal S5000x1 .f32 :=
  subf
    (mulf (wv : FVec Ideal S5000x1 .f32)
      (shapeCast S5000x1 (multiReduction .add [1] S5000 (mulf (hv : FVec Ideal S5000x128 .f32) (hv : FVec Ideal S5000x128 .f32)) 0x00000000#32
        reduces_S5000x128_S5000 (.inl rfl) rfl) shapeCasts_S5000_S5000x1))
    (mulf (broadcast S5000x1 (Scalar.ofBits (F := Ideal) .f32 0x40000000#32))
      (shapeCast S5000x1 (multiReduction .add [1] S5000 (mulf (hv : FVec Ideal S5000x128 .f32) (sv : FVec Ideal S5000x128 .f32)) 0x00000000#32
        reduces_S5000x128_S5000 (.inl rfl) rfl) shapeCasts_S5000_S5000x1))

/-- The update is the accumulator plus the sum over the tile's rows of those differences. -/
theorem pay2_shape10 (hv sv : Vec Ideal S5000x128 .f32) (wv : Vec Ideal S5000x1 .f32) (av : Vec Ideal S1x1 .f32) :
    k10_pay2 (F := Ideal) hv sv wv av
      = addf (av : FVec Ideal S1x1 .f32)
          (shapeCast S1x1 (multiReduction .add [0] S1 (rowTerms10 hv sv wv) 0x00000000#32 reduces_S5000x1_S1 (.inl rfl) rfl) shapeCasts_S1_S1x1) := by
  unfold k10_pay2 rowTerms10
  simp only [shapeCast_self]

theorem rowTerms10_coe (hv sv : Vec Ideal S5000x128 .f32) (wv : Vec Ideal S5000x1 .f32)
    (hB sB : Fin 5000 → Fin 128 → ℝ) (wB : Fin 5000 → ℝ)
    (hh : Holds2 (n0 := 5000) (n1 := 128) hv hB) (hs : Holds2 (n0 := 5000) (n1 := 128) sv sB)
    (hw : Holds2 (n0 := 5000) (n1 := 1) wv (fun r _ => wB r)) (y : S5000x1.Idx) :
    rowTerms10 hv sv wv y
      = ((wB (y 0) * (∑ k : Fin 128, hB (y 0) k * hB (y 0) k) - 2 * ∑ k : Fin 128, hB (y 0) k * sB (y 0) k : ℝ) : EReal) := by
  unfold rowTerms10
  show wv y * shapeCast S5000x1 _ shapeCasts_S5000_S5000x1 y
      - Scalar.ofBits (F := Ideal) .f32 0x40000000#32 * shapeCast S5000x1 _ shapeCasts_S5000_S5000x1 y = _
  rw [castCol10, castCol10, rowDot10 hv hv hB hB hh hh, rowDot10 hv sv hB sB hh hs, hw y]
  show ((wB (y 0) : ℝ) : EReal) * _ - Ideal.ofBits .f32 0x40000000#32 * _ = _
  rw [two10, Math.coe_mul_coe, Math.coe_mul_coe, Math.coe_sub_coe]

/-- ONE TILE: blocks holding real tables and an accumulator holding a real give the accumulator plus the tile's sum. -/
theorem pay2_coe10 (hv sv : Vec Ideal S5000x128 .f32) (wv : Vec Ideal S5000x1 .f32) (av : Vec Ideal S1x1 .f32)
    (hB sB : Fin 5000 → Fin 128 → ℝ) (wB : Fin 5000 → ℝ) (a : ℝ)
    (hh : Holds2 (n0 := 5000) (n1 := 128) hv hB) (hs : Holds2 (n0 := 5000) (n1 := 128) sv sB)
    (hw : Holds2 (n0 := 5000) (n1 := 1) wv (fun r _ => wB r)) (ha : ∀ j, av j = ((a : ℝ) : EReal)) (j : S1x1.Idx) :
    k10_pay2 (F := Ideal) hv sv wv av j = ((a + tile10 hB sB wB : ℝ) : EReal) := by
  rw [pay2_shape10]
  show av j + shapeCast S1x1 _ shapeCasts_S1_S1x1 j = _
  rw [castCol10, ha j]
  refine (congrArg (fun x => ((a : ℝ) : EReal) + x)
    (Ideal.multiReduction_add_single (rowTerms10 hv sv wv) _ reduces_S5000x1_S1 (.inl rfl) rfl (ix1 (j 0)))).trans ?_
  refine (congrArg (fun x => ((a : ℝ) : EReal) + x)
    (Math.sum_eq_coe_of_forall _ _
      (fun r : Fin 5000 => wB r * (∑ k : Fin 128, hB r k * hB r k) - 2 * ∑ k : Fin 128, hB r k * sB r k)
      fun r _ => rowTerms10_coe hv sv wv hB sB wB hh hs hw (reduces_S5000x1_S1.lift (ix1 (j 0)) r))).trans ?_
  exact Math.coe_add_coe _ _

/-- The cleared accumulator is the real zero. -/
theorem pay1_coe10 (j : S1x1.Idx) : k10_pay1 (F := Ideal) j = ((0 : ℝ) : EReal) := by
  unfold k10_pay1
  simp only [shapeCast_self]
  show Ideal.ofBits .f32 0x00000000#32 = _
  rw [Ideal.ofBits_zero_f32]; rfl

/-! ## The ten tiles -/

/-- An array holding a real table has row tiles holding the table's rows. -/
theorem rowsA10_holds (X : Vec Ideal S50000x128 .f32) (x : Fin 50000 → Fin 128 → ℝ) (hX : Holds2 (n0 := 50000) (n1 := 128) X x) (n : Fin 10) :
    Holds2 (n0 := 5000) (n1 := 128) (rowsA10 X n)
      (fun r k => x ⟨5000 * n.val + r.val, by have := r.isLt; have := n.isLt; omega⟩ k) := fun y => by
  unfold rowsA10
  exact hX _

theorem rowsW10_holds (X : Vec Ideal S50000x1 .f32) (x : Fin 50000 → ℝ) (hX : Holds2 (n0 := 50000) (n1 := 1) X (fun i _ => x i)) (n : Fin 10) :
    Holds2 (n0 := 5000) (n1 := 1) (rowsW10 X n)
      (fun r _ => x ⟨5000 * n.val + r.val, by have := r.isLt; have := n.isLt; omega⟩) := fun y => by
  unfold rowsW10
  exact hX _

/-- A node's term by its row number (zero past the last row). -/
def termAt10 (h s : Fin 50000 → Fin 128 → ℝ) (w : Fin 50000 → ℝ) (n : ℕ) : ℝ :=
  if hn : n < 50000 then term10 h s w ⟨n, hn⟩ else 0

/-- A tile's partial sum is the sum of its rows' terms. -/
theorem tile10_eq (h s : Fin 50000 → Fin 128 → ℝ) (w : Fin 50000 → ℝ) (n : Fin 10) :
    tile10 (fun r k => h ⟨5000 * n.val + r.val, by have := r.isLt; have := n.isLt; omega⟩ k)
        (fun r k => s ⟨5000 * n.val + r.val, by have := r.isLt; have := n.isLt; omega⟩ k)
        (fun r => w ⟨5000 * n.val + r.val, by have := r.isLt; have := n.isLt; omega⟩)
      = ∑ r : Fin 5000, termAt10 h s w (5000 * n.val + r.val) := by
  unfold tile10
  refine Finset.sum_congr rfl fun r _ => ?_
  have hlt : 5000 * n.val + r.val < 50000 := by have := r.isLt; have := n.isLt; omega
  unfold termAt10
  rw [dif_pos hlt]
  rfl

/-- The running total after tile `n` holds the sum of the terms of tiles 0 … n. -/
theorem tot10_coe (H S : Vec Ideal S50000x128 .f32) (W : Vec Ideal S50000x1 .f32)
    (h s : Fin 50000 → Fin 128 → ℝ) (w : Fin 50000 → ℝ)
    (hH : Holds2 (n0 := 50000) (n1 := 128) H h) (hS : Holds2 (n0 := 50000) (n1 := 128) S s)
    (hW : Holds2 (n0 := 50000) (n1 := 1) W (fun i _ => w i)) :
    ∀ (n : ℕ) (hn : n < 10) (j : S1x1.Idx),
      tot10 (F := Ideal) H S W n hn j
        = ((∑ t ∈ Finset.range (n + 1), ∑ r : Fin 5000, termAt10 h s w (5000 * t + r.val) : ℝ) : EReal)
  | 0, hn, j => by
    show k10_pay2 (F := Ideal) (rowsA10 H ⟨0, hn⟩) (rowsA10 S ⟨0, hn⟩) (rowsW10 W ⟨0, hn⟩) (k10_pay1 (F := Ideal)) j = _
    rw [pay2_coe10 _ _ _ _ _ _ _ 0 (rowsA10_holds H h hH ⟨0, hn⟩) (rowsA10_holds S s hS ⟨0, hn⟩) (rowsW10_holds W w hW ⟨0, hn⟩)
      pay1_coe10 j, tile10_eq h s w ⟨0, hn⟩]
    exact congrArg (fun x : ℝ => (x : EReal)) (by rw [Finset.sum_range_succ, Finset.sum_range_zero] <;> rfl)
  | n + 1, hn, j => by
    show k10_pay2 (F := Ideal) (rowsA10 H ⟨n + 1, hn⟩) (rowsA10 S ⟨n + 1, hn⟩) (rowsW10 W ⟨n + 1, hn⟩)
      (tot10 (F := Ideal) H S W n (Nat.lt_of_succ_lt hn)) j = _
    rw [pay2_coe10 _ _ _ _ _ _ _ _ (rowsA10_holds H h hH ⟨n + 1, hn⟩) (rowsA10_holds S s hS ⟨n + 1, hn⟩) (rowsW10_holds W w hW ⟨n + 1, hn⟩)
      (tot10_coe H S W h s w hH hS hW n (Nat.lt_of_succ_lt hn)) j, tile10_eq h s w ⟨n + 1, hn⟩]
    exact congrArg (fun x : ℝ => (x : EReal))
      (Finset.sum_range_succ (fun t => ∑ r : Fin 5000, termAt10 h s w (5000 * t + r.val)) (n + 1)).symm

/-- The ten tiles' terms are all the nodes' terms. -/
theorem regroup10 (h s : Fin 50000 → Fin 128 → ℝ) (w : Fin 50000 → ℝ) :
    ∑ t ∈ Finset.range 10, ∑ r : Fin 5000, termAt10 h s w (5000 * t + r.val) = ∑ i : Fin 50000, term10 h s w i := by
  rw [← Math.sum_fin_val_eq_sum_range_tiles (n := 50000) (a := 10) (b := 5000) (by norm_num) (termAt10 h s w)]
  refine Finset.sum_congr rfl fun i _ => ?_
  unfold termAt10
  rw [dif_pos i.isLt]

/-! ## The region's result -/

/-- REGION 7 OVER THE REALS. -/
theorem val10 (V : Entry Ideal) (c : Dev nD) (h s : Spec.Hidden) (w : Fin 50000 → ℝ)
    (hh : Holds2 (n0 := 50000) (n1 := 128) (hArr10 V c) h) (hs : Holds2 (n0 := 50000) (n1 := 128) (sArr10 V c) s)
    (hw : Holds2 (n0 := 50000) (n1 := 1) (wArr10 V c) (fun i _ => w i)) :
    Holds2 (n0 := 1) (n1 := 1) ((dat10 V c).arrAt 3 cfg10.N)
      (fun _ _ => ∑ i : Fin 50000, (w i * (∑ k : Fin 128, h i k * h i k) - 2 * ∑ k : Fin 128, h i k * s i k)) := by
  rw [final10_3]
  intro j
  unfold G10_3
  have e := tot10_coe (hArr10 V c) (sArr10 V c) (wArr10 V c) h s w hh hs hw 9 (by decide) j
  rw [show (9 : ℕ) + 1 = 10 from rfl] at e
  rw [e, regroup10]
  rfl

/-- With the weights the two degrees' sum and the second table the neighbour sum, that is the node-wise energy. -/
theorem val10_energy (V : Entry Ideal) (c : Dev nD) (I : Spec.Inputs) (h : Spec.Hidden)
    (hh : Holds2 (n0 := 50000) (n1 := 128) (hArr10 V c) h) (hs : Holds2 (n0 := 50000) (n1 := 128) (sArr10 V c) (Spec.nbr I h))
    (hw : Holds2 (n0 := 50000) (n1 := 1) (wArr10 V c) (fun i _ => Spec.degOut I i + Spec.degIn I i)) :
    Holds2 (n0 := 1) (n1 := 1) ((dat10 V c).arrAt 3 cfg10.N) (fun _ _ => Spec.energyNode I h) :=
  val10 V c h (Spec.nbr I h) (fun i => Spec.degOut I i + Spec.degIn I i) hh hs hw

end Cert.KernelIdeal.Hand.Val

end
-- ==== Proof.KI.ValH.lean ====
/-
  The host operations around the four node-wise energy regions, read over the reals.

  Before each of those regions the host forms the unweighted neighbour sum of a hidden state: it reads the source
  node of every edge (a negative index word would first be wrapped around by the number of nodes; the edge ends are
  in range, so the wrap never applies), gathers the hidden state's rows at the sources, and adds each gathered row
  into the row of the edge's target, starting from a table of zeros. When the hidden state holds a real table `h` and
  the two index vectors name the edge ends, the result holds  (i, k) ↦ Σ_{e : dst e = i} h (src e) k.

  After each region the host divides the region's one-cell total by the number of edges, 800000, and adds the
  quotient to the running sum.
-/
import proofs.«160050_j32744830665390_2_alg».proof.Proof.Spec
import proofs.«160050_j32744830665390_2_alg».proof.Proof.Bridge.Inputs
import proofs.«160050_j32744830665390_2_alg».proof.Proof.Math.Lift
import proofs.«160050_j32744830665390_2_alg».proof.Proof.Val.GatherScatter
import proofs.«160050_j32744830665390_2_alg».proof.Proof.Gen.KernelIdeal.Launch
import Idealize.ShloMosaic.PureOps.Ideal.Laws
import Idealize.ShloMosaic.Lib.StableHlo.Run
import Idealize.ShloMosaic.Lib.Pipeline.Value
import Idealize.ShloMosaic.Lib.ValueIdx

set_option maxRecDepth 16384

noncomputable section

namespace Cert.KernelIdeal.Hand.Val

open Cert.KernelIdeal Cert.KernelIdeal.Gen
open Cert.Hand Cert.Hand.Bridge
open Idealize.ShloMosaic Idealize.ShloMosaic.ValueIdx
open scoped BigOperators

/-! ## The index words -/

/-- An index word that is not negative is left alone by the wrap-around. -/
theorem wrap_of_nonneg (a : BitVec 32) (h0 : 0 ≤ a.toInt) :
    Scalar.select (IntOp.cmpi .slt a 0#32) (IntOp.addi a 50000#32) a = a := by
  have hlt : a.slt 0#32 = false := by
    unfold BitVec.slt
    exact decide_eq_false (by rw [show (0#32 : BitVec 32).toInt = 0 from by decide]; omega)
  have hc : IntOp.cmpi .slt a 0#32 = 0#1 := by
    show BitVec.ofBool (a.slt 0#32) = 0#1
    rw [hlt]; rfl
  rw [hc, select_zero]

/-- The source index vector after the wrap-around, as a column. -/
def srcCol (a : IVec S800000 32) : IVec S800000x1 32 :=
  broadcastInDim S800000x1 ![0] bcast_S800000_S800000x1_0
    (select (cmpi .slt a (broadcastInDim S800000 ![] bcast_S_S800000 (constantI S_ 32 0#32)))
      (addi a (broadcastInDim S800000 ![] bcast_S_S800000 (constantI S_ 32 50000#32))) a)

/-- The target index vector as a column. -/
def dstCol (a : IVec S800000 32) : IVec S800000x1 32 :=
  broadcastInDim S800000x1 ![0] bcast_S800000_S800000x1_0 a

/-- A vector made a column reads, at `(e, 0)`, the vector at `e`. -/
theorem edgeCol_apply {α : Type} (x : S800000.Idx → α) (e : Fin 800000) :
    broadcastInDim S800000x1 ![0] bcast_S800000_S800000x1_0 x (ix2 e (0 : Fin 1)) = x (ix1 e) :=
  broadcastInDim_apply ![0] bcast_S800000_S800000x1_0 x (ix2 e (0 : Fin 1)) (ix1 e) fun a => by
    split
    · rename_i h1; exact absurd h1 (by fin_cases a <;> decide)
    · fin_cases a; rfl

/-- A scalar splat over the edges reads the scalar everywhere. -/
theorem edgeSplat_apply {α : Type} (x : S_.Idx → α) (i : S800000.Idx) :
    broadcastInDim S800000 ![] bcast_S_S800000 x i = x ix0 :=
  broadcastInDim_apply ![] bcast_S_S800000 x i ix0 fun a => a.elim0

/-- Index vectors that name the edge ends give columns that name them. -/
theorem srcCol_names (a : IVec S800000 32) (f : Fin 800000 → Fin 50000) (h : Ends a f) : Val.Names (srcCol a) f := fun e => by
  obtain ⟨h0, h1, hn⟩ := h (ix1 e)
  have hn' : node (a (ix1 e)) = f e := hn
  unfold srcCol
  rw [edgeCol_apply]
  show (Scalar.select (IntOp.cmpi .slt (a (ix1 e)) (broadcastInDim S800000 ![] bcast_S_S800000 (constantI S_ 32 0#32) (ix1 e)))
      (IntOp.addi (a (ix1 e)) (broadcastInDim S800000 ![] bcast_S_S800000 (constantI S_ 32 50000#32) (ix1 e))) (a (ix1 e))).toInt = _
  rw [edgeSplat_apply, edgeSplat_apply]
  show (Scalar.select (IntOp.cmpi .slt (a (ix1 e)) 0#32) (IntOp.addi (a (ix1 e)) 50000#32) (a (ix1 e))).toInt = _
  rw [wrap_of_nonneg _ h0, ← hn']
  exact (Bridge.node_val h0 h1).symm

theorem dstCol_names (a : IVec S800000 32) (f : Fin 800000 → Fin 50000) (h : Ends a f) : Val.Names (dstCol a) f := fun e => by
  obtain ⟨h0, h1, hn⟩ := h (ix1 e)
  have hn' : node (a (ix1 e)) = f e := hn
  unfold dstCol
  rw [edgeCol_apply, ← hn']
  exact (Bridge.node_val h0 h1).symm

/-! ## The neighbour sum -/

/-- The host's neighbour sum of a table `X` along the edges whose ends the two index vectors hold. -/
def nbrOps (X : Vec Ideal S50000x128 .f32) (srcW dstW : IVec S800000 32) : Vec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (dstCol dstW)
    (Host.gather gather_S50000x128_S800000x1_S800000x128_1_0_n_n_0_1_1128 X (srcCol srcW))

/-- The table of zeros the sum starts from. -/
theorem nbrZeros_apply (i : S50000x128.Idx) :
    broadcastInDim S50000x128 ![] bcast_S_S50000x128 (constant (F := Ideal) S_ .f32 0x00000000#32) i = 0 := by
  rw [broadcastInDim_apply ![] bcast_S_S50000x128 _ i ix0 fun a => a.elim0]
  show Ideal.ofBits .f32 0x00000000#32 = 0
  exact Ideal.ofBits_zero_f32

/-- THE NEIGHBOUR SUM OVER THE REALS. -/
theorem nbrOps_holds (X : Vec Ideal S50000x128 .f32) (srcW dstW : IVec S800000 32) (I : Spec.Inputs) (h : Spec.Hidden)
    (hsrc : Ends srcW I.src) (hdst : Ends dstW I.dst) (hX : Holds2 (n0 := 50000) (n1 := 128) X h) :
    Holds2 (n0 := 50000) (n1 := 128) (nbrOps X srcW dstW) (Spec.nbr I h) := fun i => by
  obtain ⟨p, q, rfl⟩ : ∃ (p : Fin 50000) (q : Fin 128), i = ix2 p q := ⟨i 0, i 1, eq_ix2 i⟩
  unfold nbrOps
  refine (Val.scatterRow_of_names _ _ (dstCol dstW) _ I.dst (dstCol_names dstW I.dst hdst) p q).trans ?_
  rw [nbrZeros_apply, zero_add]
  refine (Math.sum_eq_coe_of_forall _ _ (fun e : Fin 800000 => if I.dst e = p then h (I.src e) q else 0) fun e _ => ?_).trans ?_
  · by_cases hd : I.dst e = p
    · rw [if_pos hd, if_pos hd]
      refine (Val.gatherRow_of_names _ X (srcCol srcW) I.src (srcCol_names srcW I.src hsrc) e q).trans ?_
      exact hX (ix2 (I.src e) q)
    · rw [if_neg hd, if_neg hd]; rfl
  · rfl

/-! ## The running sum -/

/-- The f32 pattern of the number of edges is the real number 800000. -/
theorem regEdges_f32 : Ideal.ofBits .f32 0x49435000#32 = ((800000 : ℝ) : EReal) := by
  simp [Ideal.ofBits, Ideal.ieee, -EReal.coe_mul]; norm_num

/-- A region's one-cell total divided by the number of edges and added to the running sum. -/
def regOps (acc : Vec Ideal S_ .f32) (tot : Vec Ideal S1x1 .f32) : Vec Ideal S_ .f32 :=
  addf (acc : FVec Ideal S_ .f32)
    (Host.divf (F := Ideal) (shapeCast S_ (tot : FVec Ideal S1x1 .f32) shapeCasts_S1x1_S_) (constant (F := Ideal) S_ .f32 0x49435000#32))

/-- THE RUNNING SUM OVER THE REALS. -/
theorem regOps_holds (acc : Vec Ideal S_ .f32) (tot : Vec Ideal S1x1 .f32) (a t : ℝ)
    (ha : Holds0 acc a) (ht : Holds2 (n0 := 1) (n1 := 1) tot (fun _ _ => t)) :
    Holds0 (regOps acc tot) (a + t / 800000) := fun i => by
  unfold regOps
  show acc i + Ideal.div (shapeCast S_ (tot : FVec Ideal S1x1 .f32) shapeCasts_S1x1_S_ i) (Ideal.ofBits .f32 0x49435000#32) = _
  rw [shapeCast_apply (tot : FVec Ideal S1x1 .f32) shapeCasts_S1x1_S_ i (ix2 (0 : Fin 1) (0 : Fin 1)) (by
      have h1 := (S1x1.rowMajor (ix2 (0 : Fin 1) (0 : Fin 1))).isLt
      have h2 := (S_.rowMajor i).isLt
      have e1 : S1x1.numel = 1 := by decide
      have e2 : S_.numel = 1 := by decide
      omega),
    ha i, ht (ix2 (0 : Fin 1) (0 : Fin 1)), regEdges_f32, Math.div_coe_coe _ (show (800000 : ℝ) ≠ 0 by norm_num), Math.coe_add_coe]

/-- The zero the first running sum starts from. -/
theorem regZero_holds : Holds0 (constant (F := Ideal) S_ .f32 0x00000000#32) 0 := fun i => by
  show Ideal.ofBits .f32 0x00000000#32 = _
  rw [Ideal.ofBits_zero_f32]; rfl

end Cert.KernelIdeal.Hand.Val

end
-- ==== Proof.KI.ValH7.lean ====
/-
  The host operations before region 7, read over the reals: the neighbour sum of the hidden state the next energy
  region reads.
-/
import proofs.«160050_j32744830665390_2_alg».proof.Proof.KI.ValH

set_option maxRecDepth 16384

noncomputable section

namespace Cert.KernelIdeal.Hand.Val

open Cert.KernelIdeal Cert.KernelIdeal.Gen
open Cert.Hand Cert.Hand.Bridge
open Idealize.ShloMosaic Idealize.ShloMosaic.ValueIdx

set_option maxHeartbeats 4000000 in
/-- What the stretch leaves in the neighbour-sum buffer, as the operations' term over the buffers it reads. -/
theorem after7_nbr (V : Valuation τ sig (Elt Ideal)) :
    StableHlo.after (hostOps7 (F := Ideal)) V (Proc.devRef .tc main_v208)
      = nbrOps (V (Proc.devRef .tc main_v39)) (V (Proc.devRef .tc main_v1)) (V (Proc.devRef .tc main_v3)) := by
  unfold hostOps7
  after_results <;> rfl

/-- THE NEIGHBOUR SUM: from index vectors naming the edge ends and the hidden state holding `h`. -/
theorem stage7_nbr (V : Valuation τ sig (Elt Ideal)) (I : Spec.Inputs) (h : Spec.Hidden)
    (hsrc : Ends (V (Proc.devRef .tc main_v1)) I.src) (hdst : Ends (V (Proc.devRef .tc main_v3)) I.dst)
    (hh : Holds2 (n0 := 50000) (n1 := 128) (V (Proc.devRef .tc main_v39)) h) :
    Holds2 (n0 := 50000) (n1 := 128) (StableHlo.after (hostOps7 (F := Ideal)) V (Proc.devRef .tc main_v208)) (Spec.nbr I h) := by
  rw [after7_nbr]
  exact nbrOps_holds _ _ _ I h hsrc hdst hh

end Cert.KernelIdeal.Hand.Val

end
-- ==== Proof.KI.ValH8.lean ====
/-
  The host operations between regions 7 and 8, read over the reals: the neighbour sum of the hidden state the next energy
  region reads, and the running sum after the previous region's total has been added.
-/
import proofs.«160050_j32744830665390_2_alg».proof.Proof.KI.ValH

set_option maxRecDepth 16384

noncomputable section

namespace Cert.KernelIdeal.Hand.Val

open Cert.KernelIdeal Cert.KernelIdeal.Gen
open Cert.Hand Cert.Hand.Bridge
open Idealize.ShloMosaic Idealize.ShloMosaic.ValueIdx

set_option maxHeartbeats 4000000 in
/-- What the stretch leaves in the neighbour-sum buffer, as the operations' term over the buffers it reads. -/
theorem after8_nbr (V : Valuation τ sig (Elt Ideal)) :
    StableHlo.after (hostOps8 (F := Ideal)) V (Proc.devRef .tc main_v222)
      = nbrOps (V (Proc.devRef .tc main_v92)) (V (Proc.devRef .tc main_v1)) (V (Proc.devRef .tc main_v3)) := by
  unfold hostOps8
  after_results <;> rfl

/-- THE NEIGHBOUR SUM: from index vectors naming the edge ends and the hidden state holding `h`. -/
theorem stage8_nbr (V : Valuation τ sig (Elt Ideal)) (I : Spec.Inputs) (h : Spec.Hidden)
    (hsrc : Ends (V (Proc.devRef .tc main_v1)) I.src) (hdst : Ends (V (Proc.devRef .tc main_v3)) I.dst)
    (hh : Holds2 (n0 := 50000) (n1 := 128) (V (Proc.devRef .tc main_v92)) h) :
    Holds2 (n0 := 50000) (n1 := 128) (StableHlo.after (hostOps8 (F := Ideal)) V (Proc.devRef .tc main_v222)) (Spec.nbr I h) := by
  rw [after8_nbr]
  exact nbrOps_holds _ _ _ I h hsrc hdst hh

set_option maxHeartbeats 4000000 in
/-- What the stretch leaves in the running-sum buffer. -/
theorem after8_sum (V : Valuation τ sig (Elt Ideal)) :
    StableHlo.after (hostOps8 (F := Ideal)) V (Proc.devRef .tc main_v212)
      = regOps (constant (F := Ideal) S_ .f32 0x00000000#32) (V (Proc.devRef .tc main_v209)) := by
  unfold hostOps8
  after_results <;> rfl

/-- THE RUNNING SUM: the previous region's total `t` over the number of edges, added to zero. -/
theorem stage8_sum (V : Valuation τ sig (Elt Ideal)) (t : ℝ)
    (ht : Holds2 (n0 := 1) (n1 := 1) (V (Proc.devRef .tc main_v209)) (fun _ _ => t)) :
    Holds0 (StableHlo.after (hostOps8 (F := Ideal)) V (Proc.devRef .tc main_v212)) (0 + t / 800000) := by
  rw [after8_sum]
  exact regOps_holds _ _ 0 t regZero_holds ht

end Cert.KernelIdeal.Hand.Val

end
-- ==== Proof.KI.ValH9.lean ====
/-
  The host operations between regions 8 and 9, read over the reals: the neighbour sum of the hidden state the next energy
  region reads, and the running sum after the previous region's total has been added.
-/
import proofs.«160050_j32744830665390_2_alg».proof.Proof.KI.ValH

set_option maxRecDepth 16384

noncomputable section

namespace Cert.KernelIdeal.Hand.Val

open Cert.KernelIdeal Cert.KernelIdeal.Gen
open Cert.Hand Cert.Hand.Bridge
open Idealize.ShloMosaic Idealize.ShloMosaic.ValueIdx

set_option maxHeartbeats 4000000 in
/-- What the stretch leaves in the neighbour-sum buffer, as the operations' term over the buffers it reads. -/
theorem after9_nbr (V : Valuation τ sig (Elt Ideal)) :
    StableHlo.after (hostOps9 (F := Ideal)) V (Proc.devRef .tc main_v236)
      = nbrOps (V (Proc.devRef .tc main_v145)) (V (Proc.devRef .tc main_v1)) (V (Proc.devRef .tc main_v3)) := by
  unfold hostOps9
  after_results <;> rfl

/-- THE NEIGHBOUR SUM: from index vectors naming the edge ends and the hidden state holding `h`. -/
theorem stage9_nbr (V : Valuation τ sig (Elt Ideal)) (I : Spec.Inputs) (h : Spec.Hidden)
    (hsrc : Ends (V (Proc.devRef .tc main_v1)) I.src) (hdst : Ends (V (Proc.devRef .tc main_v3)) I.dst)
    (hh : Holds2 (n0 := 50000) (n1 := 128) (V (Proc.devRef .tc main_v145)) h) :
    Holds2 (n0 := 50000) (n1 := 128) (StableHlo.after (hostOps9 (F := Ideal)) V (Proc.devRef .tc main_v236)) (Spec.nbr I h) := by
  rw [after9_nbr]
  exact nbrOps_holds _ _ _ I h hsrc hdst hh

set_option maxHeartbeats 4000000 in
/-- What the stretch leaves in the running-sum buffer. -/
theorem after9_sum (V : Valuation τ sig (Elt Ideal)) :
    StableHlo.after (hostOps9 (F := Ideal)) V (Proc.devRef .tc main_v226)
      = regOps (V (Proc.devRef .tc main_v212)) (V (Proc.devRef .tc main_v223)) := by
  unfold hostOps9
  after_results <;> rfl

/-- THE RUNNING SUM: the previous region's total `t` over the number of edges, added to the sum so far `a`. -/
theorem stage9_sum (V : Valuation τ sig (Elt Ideal)) (a t : ℝ)
    (ha : Holds0 (V (Proc.devRef .tc main_v212)) a) (ht : Holds2 (n0 := 1) (n1 := 1) (V (Proc.devRef .tc main_v223)) (fun _ _ => t)) :
    Holds0 (StableHlo.after (hostOps9 (F := Ideal)) V (Proc.devRef .tc main_v226)) (a + t / 800000) := by
  rw [after9_sum]
  exact regOps_holds _ _ a t ha ht

end Cert.KernelIdeal.Hand.Val

end
-- ==== Proof.KI.ValH10.lean ====
/-
  The host operations between regions 9 and 10, read over the reals: the neighbour sum of the hidden state the next energy
  region reads, and the running sum after the previous region's total has been added.
-/
import proofs.«160050_j32744830665390_2_alg».proof.Proof.KI.ValH

set_option maxRecDepth 16384

noncomputable section

namespace Cert.KernelIdeal.Hand.Val

open Cert.KernelIdeal Cert.KernelIdeal.Gen
open Cert.Hand Cert.Hand.Bridge
open Idealize.ShloMosaic Idealize.ShloMosaic.ValueIdx

set_option maxHeartbeats 4000000 in
/-- What the stretch leaves in the neighbour-sum buffer, as the operations' term over the buffers it reads. -/
theorem after10_nbr (V : Valuation τ sig (Elt Ideal)) :
    StableHlo.after (hostOps10 (F := Ideal)) V (Proc.devRef .tc main_v250)
      = nbrOps (V (Proc.devRef .tc main_v198)) (V (Proc.devRef .tc main_v1)) (V (Proc.devRef .tc main_v3)) := by
  unfold hostOps10
  after_results <;> rfl

/-- THE NEIGHBOUR SUM: from index vectors naming the edge ends and the hidden state holding `h`. -/
theorem stage10_nbr (V : Valuation τ sig (Elt Ideal)) (I : Spec.Inputs) (h : Spec.Hidden)
    (hsrc : Ends (V (Proc.devRef .tc main_v1)) I.src) (hdst : Ends (V (Proc.devRef .tc main_v3)) I.dst)
    (hh : Holds2 (n0 := 50000) (n1 := 128) (V (Proc.devRef .tc main_v198)) h) :
    Holds2 (n0 := 50000) (n1 := 128) (StableHlo.after (hostOps10 (F := Ideal)) V (Proc.devRef .tc main_v250)) (Spec.nbr I h) := by
  rw [after10_nbr]
  exact nbrOps_holds _ _ _ I h hsrc hdst hh

set_option maxHeartbeats 4000000 in
/-- What the stretch leaves in the running-sum buffer. -/
theorem after10_sum (V : Valuation τ sig (Elt Ideal)) :
    StableHlo.after (hostOps10 (F := Ideal)) V (Proc.devRef .tc main_v240)
      = regOps (V (Proc.devRef .tc main_v226)) (V (Proc.devRef .tc main_v237)) := by
  unfold hostOps10
  after_results <;> rfl

/-- THE RUNNING SUM: the previous region's total `t` over the number of edges, added to the sum so far `a`. -/
theorem stage10_sum (V : Valuation τ sig (Elt Ideal)) (a t : ℝ)
    (ha : Holds0 (V (Proc.devRef .tc main_v226)) a) (ht : Holds2 (n0 := 1) (n1 := 1) (V (Proc.devRef .tc main_v237)) (fun _ _ => t)) :
    Holds0 (StableHlo.after (hostOps10 (F := Ideal)) V (Proc.devRef .tc main_v240)) (a + t / 800000) := by
  rw [after10_sum]
  exact regOps_holds _ _ a t ha ht

end Cert.KernelIdeal.Hand.Val

end
-- ==== Proof.KI.ValH11.lean ====
/-
  The host stretch before region 11, read over the reals.

  After the fourth energy region the host finishes the regulariser — the last hidden state's energy total (a 1×1
  table, flattened to a scalar) divided by the number of edges (the f32 word 0x49435000, 800000), added to the three
  earlier terms' sum, the whole divided by four (0x40800000) — and pools the last hidden state by graph: it counts each
  graph's nodes (a scatter-add of ones over the batch numbers into 128 zeros), sums each graph's rows (a scatter-add
  of the hidden state's rows into a 128×128 table of zeros), and divides each sum by its count, the count raised to at
  least one.  A node whose batch number is no graph's lands nowhere: it is counted in no graph and summed into none.
  Last, the head's two bias vectors get a leading unit axis.

  Read at the ideal instance, where a float is an extended real: if the arrays the stretch reads hold real tables,
  the arrays it leaves for region 11 and for the return hold the regulariser, the pooled means and the biases as rows.
-/
import proofs.«160050_j32744830665390_2_alg».proof.Proof.Spec
import proofs.«160050_j32744830665390_2_alg».proof.Proof.Bridge.Inputs
import proofs.«160050_j32744830665390_2_alg».proof.Proof.Math.Lift
import proofs.«160050_j32744830665390_2_alg».proof.Proof.Val.GatherScatter
import proofs.«160050_j32744830665390_2_alg».proof.Proof.Gen.KernelIdeal.Launch
import Idealize.ShloMosaic.Lib.StableHlo.Run
import Idealize.ShloMosaic.Lib.ValueLayout

noncomputable section

namespace Cert.KernelIdeal.Hand.Val

open Cert.KernelIdeal Cert.KernelIdeal.Gen
open Idealize.ShloMosaic Idealize.ShloMosaic.TcCoe Idealize.ShloMosaic.ValueIdx Idealize.ShloMosaic.StableHlo
open Cert.Hand Cert.Hand.Bridge
open scoped BigOperators

/-! ## The constants -/

/-- The f32 word 0x49435000 is 800000, the number of edges: sign 0, exponent 146, fraction 0x435000, that is
    (2^23 + 4411392) · 2^(146 − 127 − 23) = 12800000 / 16. -/
theorem edges_word11 : Ideal.ofBits .f32 0x49435000#32 = ((800000 : ℝ) : EReal) := by
  have hex : ((0x49435000#32 : BitVec 32).extractLsb' 23 8).toNat = 146 := by decide
  have hfr : ((0x49435000#32 : BitVec 32).extractLsb' 0 23).toNat = 4411392 := by decide
  have hneg : ((0x49435000#32 : BitVec 32).extractLsb' (8 + 23) 1 == 1#1) = false := by decide
  unfold Ideal.ofBits Ideal.ieee
  simp only [hex, hfr, hneg]
  norm_num

/-- The f32 word 0x40800000 is 4, the number of hidden states: sign 0, exponent 129, fraction 0, that is
    2^23 · 2^(129 − 127 − 23). -/
theorem four_word11 : Ideal.ofBits .f32 0x40800000#32 = ((4 : ℝ) : EReal) := by
  have hex : ((0x40800000#32 : BitVec 32).extractLsb' 23 8).toNat = 129 := by decide
  have hfr : ((0x40800000#32 : BitVec 32).extractLsb' 0 23).toNat = 0 := by decide
  have hneg : ((0x40800000#32 : BitVec 32).extractLsb' (8 + 23) 1 == 1#1) = false := by decide
  unfold Ideal.ofBits Ideal.ieee
  simp only [hex, hfr, hneg]
  norm_num

/-- The f32 word 0x3F800000 is 1: sign 0, exponent 127, fraction 0, that is 2^23 · 2^(127 − 127 − 23). -/
theorem one_word11 : Ideal.ofBits .f32 0x3F800000#32 = ((1 : ℝ) : EReal) := by
  have hex : ((0x3F800000#32 : BitVec 32).extractLsb' 23 8).toNat = 127 := by decide
  have hfr : ((0x3F800000#32 : BitVec 32).extractLsb' 0 23).toNat = 0 := by decide
  have hneg : ((0x3F800000#32 : BitVec 32).extractLsb' (8 + 23) 1 == 1#1) = false := by decide
  unfold Ideal.ofBits Ideal.ieee
  simp only [hex, hfr, hneg]
  norm_num

/-- A conditional between a coerced real and zero is the coercion of the conditional between the real and zero. -/
theorem ite_coe_zero11 (p : Prop) [Decidable p] (a : ℝ) :
    (if p then (a : EReal) else 0) = ((if p then a else 0 : ℝ) : EReal) := by
  by_cases hp : p
  · rw [if_pos hp, if_pos hp]
  · rw [if_neg hp, if_neg hp]; rfl

section Stretch

variable (V : Valuation τ sig (Elt Ideal))

/-! ## What the stretch leaves, as terms over what it finds -/

/-- The regulariser: the three earlier terms' sum plus the last total over 800000, over 4. -/
theorem reg11_term : StableHlo.after hostOps11 V (Proc.devRef .tc main_v255)
    = Host.divf
        (addf (V (Proc.devRef .tc main_v240))
          (Host.divf (shapeCast S_ (V (Proc.devRef .tc main_v251)) shapeCasts_S1x1_S_)
            (constant (F := Ideal) S_ .f32 0x49435000#32)))
        (constant (F := Ideal) S_ .f32 0x40800000#32) := by
  after_results
  rfl

/-- The batch numbers as a column: the index column both pooling scatters read. -/
abbrev batchCol11 : IVec S50000x1 32 :=
  broadcastInDim S50000x1 ![0] bcast_S50000_S50000x1_0 (V (Proc.devRef .tc main_arg14))

/-- Each graph's node count: ones scattered over the batch numbers into zeros. -/
abbrev counts11 : FVec Ideal S128 .f32 :=
  Host.scatterAdd scatter_S128_S50000x1_S50000_n_0_0_1
    (broadcastInDim S128 ![] bcast_S_S128 (constant (F := Ideal) S_ .f32 0x00000000#32))
    (batchCol11 V)
    (broadcastInDim S50000 ![] bcast_S_S50000 (constant (F := Ideal) S_ .f32 0x3F800000#32))

/-- The last hidden state's array, as a table of extended reals. -/
abbrev last11 : FVec Ideal S50000x128 .f32 := V (Proc.devRef .tc main_v198)

/-- Each graph's row sums: the last hidden state's rows scattered over the batch numbers into zeros. -/
abbrev sums11 : FVec Ideal S128x128 .f32 :=
  Host.scatterAdd scatter_S128x128_S50000x1_S50000x128_1_0_0_1
    (broadcastInDim S128x128 ![] bcast_S_S128x128 (constant (F := Ideal) S_ .f32 0x00000000#32))
    (batchCol11 V)
    (last11 V)

set_option maxHeartbeats 4000000 in
/-- The pooled means: the sums over the counts raised to at least one, each count laid along its row. -/
theorem pool11_term : StableHlo.after hostOps11 V (Proc.devRef .tc main_v267)
    = Host.divf (sums11 V)
        (broadcastInDim S128x128 ![0, 1] bcast_S128x1_S128x128_0_1
          (broadcastInDim S128x1 ![0] bcast_S128_S128x1_0
            (maximumf (counts11 V)
              (broadcastInDim S128 ![] bcast_S_S128 (constant (F := Ideal) S_ .f32 0x3F800000#32))))) := by
  after_results

/-- The first bias as a row. -/
theorem bias1_11_term : StableHlo.after hostOps11 V (Proc.devRef .tc main_v268)
    = shapeCast S1x64 (V (Proc.devRef .tc main_arg10)) shapeCasts_S64_S1x64 := by
  after_results
  rfl

/-- The second bias as a row. -/
theorem bias2_11_term : StableHlo.after hostOps11 V (Proc.devRef .tc main_v269)
    = shapeCast S1x2 (V (Proc.devRef .tc main_arg12)) shapeCasts_S2_S1x2 := by
  after_results
  rfl

/-- The stretch writes neither weight of the head. -/
theorem w1_11_kept : StableHlo.after hostOps11 V (Proc.devRef .tc main_arg9) = V (Proc.devRef .tc main_arg9) := by
  after_results
theorem w2_11_kept : StableHlo.after hostOps11 V (Proc.devRef .tc main_arg11) = V (Proc.devRef .tc main_arg11) := by
  after_results

/-! ## Over the reals -/

variable (I : Spec.Inputs)

/-- The regulariser holds the mean of the four terms. -/
theorem valH11_reg (a t : ℝ) (ha : Holds0 (V (Proc.devRef .tc main_v240)) a)
    (ht : Holds2 (n0 := 1) (n1 := 1) (V (Proc.devRef .tc main_v251)) (fun _ _ => t)) :
    Holds0 (StableHlo.after hostOps11 V (Proc.devRef .tc main_v255)) ((a + t / 800000) / 4) := by
  rw [reg11_term]
  intro i
  have e0 : V (Proc.devRef .tc main_v240) i = ((a : ℝ) : EReal) := ha i
  have e1 : shapeCast S_ (V (Proc.devRef .tc main_v251)) shapeCasts_S1x1_S_ i = ((t : ℝ) : EReal) := by
    refine (shapeCast_apply (V (Proc.devRef .tc main_v251)) shapeCasts_S1x1_S_ i (ix2 (0 : Fin 1) (0 : Fin 1)) ?_).trans
      (ht (ix2 (0 : Fin 1) (0 : Fin 1)))
    have h1 : (S_ : Shape).numel = 1 := by decide
    have h2 := (S_.rowMajor i).isLt
    show ((⟨2, ![1, 1]⟩ : Shape).rowMajor (ix2 (0 : Fin 1) (0 : Fin 1))).val = (S_.rowMajor i).val
    rw [Shape.rowMajor_val_two]
    show 0 * 1 + 0 = (S_.rowMajor i).val
    omega
  have key : ∀ x y : EReal, x = ((a : ℝ) : EReal) → y = ((t : ℝ) : EReal) →
      Ideal.div (x + Ideal.div y (Ideal.ofBits .f32 0x49435000#32)) (Ideal.ofBits .f32 0x40800000#32)
        = ((((a + t / 800000) / 4 : ℝ)) : EReal) := by
    intro x y hx hy
    rw [hx, hy, edges_word11, four_word11, Math.div_coe_coe _ (by norm_num : (800000 : ℝ) ≠ 0), Math.coe_add_coe,
      Math.div_coe_coe _ (by norm_num : (4 : ℝ) ≠ 0)]
  exact key _ _ e0 e1

/-- The index column reads the batch numbers. -/
theorem batchCol11_apply (hb : Batch (V (Proc.devRef .tc main_arg14)) I.batch) (e : Fin 50000) :
    (batchCol11 V (ix2 e (0 : Fin 1))).toInt = I.batch e := by
  have h := broadcastInDim_apply ![0] bcast_S50000_S50000x1_0 (V (Proc.devRef .tc main_arg14)) (ix2 e (0 : Fin 1)) (ix1 e)
    (fun a => by match a with | ⟨0, _⟩ => rfl)
  show (broadcastInDim S50000x1 ![0] bcast_S50000_S50000x1_0 (V (Proc.devRef .tc main_arg14)) (ix2 e (0 : Fin 1))).toInt = _
  rw [h]
  exact hb (ix1 e)

/-- A splat of the zero word reads zero, of the one word one. -/
theorem zeros1_11 (g : Fin 128) :
    broadcastInDim S128 ![] bcast_S_S128 (constant (F := Ideal) S_ .f32 0x00000000#32) (ix1 g) = 0 :=
  (broadcastInDim_apply (s := S_) (t := S128) ![] bcast_S_S128 (constant (F := Ideal) S_ .f32 0x00000000#32) (ix1 g) ix0
    (fun a => a.elim0)).trans Ideal.ofBits_zero_f32
theorem zeros2_11 (g k : Fin 128) :
    broadcastInDim S128x128 ![] bcast_S_S128x128 (constant (F := Ideal) S_ .f32 0x00000000#32) (ix2 g k) = 0 :=
  (broadcastInDim_apply (s := S_) (t := S128x128) ![] bcast_S_S128x128 (constant (F := Ideal) S_ .f32 0x00000000#32) (ix2 g k) ix0
    (fun a => a.elim0)).trans Ideal.ofBits_zero_f32
theorem ones1_11 (g : Fin 128) :
    broadcastInDim S128 ![] bcast_S_S128 (constant (F := Ideal) S_ .f32 0x3F800000#32) (ix1 g) = ((1 : ℝ) : EReal) :=
  (broadcastInDim_apply (s := S_) (t := S128) ![] bcast_S_S128 (constant (F := Ideal) S_ .f32 0x3F800000#32) (ix1 g) ix0
    (fun a => a.elim0)).trans one_word11
theorem onesN_11 (e : Fin 50000) :
    broadcastInDim S50000 ![] bcast_S_S50000 (constant (F := Ideal) S_ .f32 0x3F800000#32) (ix1 e) = ((1 : ℝ) : EReal) :=
  (broadcastInDim_apply (s := S_) (t := S50000) ![] bcast_S_S50000 (constant (F := Ideal) S_ .f32 0x3F800000#32) (ix1 e) ix0
    (fun a => a.elim0)).trans one_word11

/-- The counts hold each graph's number of nodes. -/
theorem counts11_apply (hb : Batch (V (Proc.devRef .tc main_arg14)) I.batch) (g : Fin 128) :
    counts11 V (ix1 g) = ((Spec.count I g : ℝ) : EReal) := by
  refine (Cert.Hand.Val.scatterVec_apply (N := 128) (E := 50000) _
    (broadcastInDim S128 ![] bcast_S_S128 (constant (F := Ideal) S_ .f32 0x00000000#32)) (batchCol11 V)
    (broadcastInDim S50000 ![] bcast_S_S50000 (constant (F := Ideal) S_ .f32 0x3F800000#32)) (ix1 g)).trans ?_
  show broadcastInDim S128 ![] bcast_S_S128 (constant (F := Ideal) S_ .f32 0x00000000#32) (ix1 g)
      + ∑ e : Fin 50000, (if (batchCol11 V (ix2 e (0 : Fin 1))).toInt = (g.val : ℤ)
          then broadcastInDim S50000 ![] bcast_S_S50000 (constant (F := Ideal) S_ .f32 0x3F800000#32) (ix1 e) else 0)
    = ((∑ i : Fin 50000, if I.batch i = (g.val : ℤ) then (1 : ℝ) else 0 : ℝ) : EReal)
  rw [zeros1_11, zero_add]
  exact Math.sum_eq_coe_of_forall Finset.univ _ _ fun e _ => by
    rw [batchCol11_apply V I hb e, onesN_11]
    exact ite_coe_zero11 _ _

/-- The sums hold each graph's sum of rows. -/
theorem sums11_apply (h3 : Spec.Hidden) (hh : Holds2 (n0 := 50000) (n1 := 128) (V (Proc.devRef .tc main_v198)) h3)
    (hb : Batch (V (Proc.devRef .tc main_arg14)) I.batch) (g k : Fin 128) :
    sums11 V (ix2 g k) = ((∑ i : Fin 50000, if I.batch i = (g.val : ℤ) then h3 i k else 0 : ℝ) : EReal) := by
  have hU : ∀ e : Fin 50000, last11 V (ix2 e k) = ((h3 e k : ℝ) : EReal) := fun e => hh (ix2 e k)
  refine (Cert.Hand.Val.scatterRow_apply (N := 128) (E := 50000) (H := 128) _
    (broadcastInDim S128x128 ![] bcast_S_S128x128 (constant (F := Ideal) S_ .f32 0x00000000#32)) (batchCol11 V)
    (last11 V) (ix2 g k)).trans ?_
  show broadcastInDim S128x128 ![] bcast_S_S128x128 (constant (F := Ideal) S_ .f32 0x00000000#32) (ix2 g k)
      + ∑ e : Fin 50000, (if (batchCol11 V (ix2 e (0 : Fin 1))).toInt = (g.val : ℤ)
          then last11 V (ix2 e k) else 0)
    = _
  rw [zeros2_11, zero_add]
  exact Math.sum_eq_coe_of_forall Finset.univ _ _ fun e _ => by
    rw [batchCol11_apply V I hb e, hU e]
    exact ite_coe_zero11 _ _

/-- The pooled means hold each graph's mean row of the last hidden state. -/
theorem valH11_pool (h3 : Spec.Hidden) (hh : Holds2 (n0 := 50000) (n1 := 128) (V (Proc.devRef .tc main_v198)) h3)
    (hb : Batch (V (Proc.devRef .tc main_arg14)) I.batch) :
    Holds2 (n0 := 128) (n1 := 128) (StableHlo.after hostOps11 V (Proc.devRef .tc main_v267))
      (fun g k => (∑ i : Fin 50000, if I.batch i = (g.val : ℤ) then h3 i k else 0) / max (Spec.count I g) 1) := by
  rw [pool11_term]
  intro i
  obtain ⟨g, k, rfl⟩ : ∃ (g : Fin 128) (k : Fin 128), i = ix2 g k := ⟨i 0, i 1, eq_ix2 i⟩
  have hden : broadcastInDim S128x128 ![0, 1] bcast_S128x1_S128x128_0_1
        (broadcastInDim S128x1 ![0] bcast_S128_S128x1_0
          (maximumf (counts11 V)
            (broadcastInDim S128 ![] bcast_S_S128 (constant (F := Ideal) S_ .f32 0x3F800000#32)))) (ix2 g k)
      = ((max (Spec.count I g) 1 : ℝ) : EReal) := by
    refine (broadcastInDim_apply (s := S128x1) (t := S128x128) ![0, 1] bcast_S128x1_S128x128_0_1 _ (ix2 g k) (ix2 g (0 : Fin 1))
      (fun a => by match a with | ⟨0, _⟩ => rfl | ⟨1, _⟩ => rfl)).trans ?_
    refine (broadcastInDim_apply (s := S128) (t := S128x1) ![0] bcast_S128_S128x1_0 _ (ix2 g (0 : Fin 1)) (ix1 g)
      (fun a => by match a with | ⟨0, _⟩ => rfl)).trans ?_
    rw [maximumf_apply, counts11_apply V I hb g, ones1_11, Math.max_coe_coe]
  have hnum := sums11_apply V I h3 hh hb g k
  refine Eq.trans (b := (((∑ i : Fin 50000, if I.batch i = (g.val : ℤ) then h3 i k else 0) / max (Spec.count I g) 1 : ℝ) : EReal)) ?_ rfl
  have hdiv : ∀ (x y : FVec Ideal S128x128 .f32) (j : S128x128.Idx), Host.divf x y j = Ideal.div (x j) (y j) := fun _ _ _ => rfl
  rw [hdiv, hden, hnum, Math.div_coe_coe _ (lt_of_lt_of_le one_pos (le_max_right (Spec.count I g) 1)).ne']

/-- The first bias row holds the first bias. -/
theorem valH11_b1 (h : Holds1 (n0 := 64) (V (Proc.devRef .tc main_arg10)) I.b1) :
    Holds2 (n0 := 1) (n1 := 64) (StableHlo.after hostOps11 V (Proc.devRef .tc main_v268)) (fun _ j => I.b1 j) := by
  rw [bias1_11_term]
  intro i
  obtain ⟨u, j, rfl⟩ : ∃ (u : Fin 1) (j : Fin 64), i = ix2 u j := ⟨i 0, i 1, eq_ix2 i⟩
  exact (shapeCast_a_1a_apply (V (Proc.devRef .tc main_arg10)) shapeCasts_S64_S1x64 u j).trans (h (ix1 j))

/-- The second bias row holds the second bias. -/
theorem valH11_b2 (h : Holds1 (n0 := 2) (V (Proc.devRef .tc main_arg12)) I.b2) :
    Holds2 (n0 := 1) (n1 := 2) (StableHlo.after hostOps11 V (Proc.devRef .tc main_v269)) (fun _ o => I.b2 o) := by
  rw [bias2_11_term]
  intro i
  obtain ⟨u, o, rfl⟩ : ∃ (u : Fin 1) (o : Fin 2), i = ix2 u o := ⟨i 0, i 1, eq_ix2 i⟩
  exact (shapeCast_a_1a_apply (V (Proc.devRef .tc main_arg12)) shapeCasts_S2_S1x2 u o).trans (h (ix1 o))

/-- THE STAGE: after the stretch the regulariser's scalar holds the mean of the four energy terms, the pooled table
    each graph's mean row of the last hidden state, the two bias rows the head's biases; the head's weights are as
    they were. -/
theorem valH11 (a t : ℝ) (h3 : Spec.Hidden)
    (ha : Holds0 (V (Proc.devRef .tc main_v240)) a)
    (ht : Holds2 (n0 := 1) (n1 := 1) (V (Proc.devRef .tc main_v251)) (fun _ _ => t))
    (hh : Holds2 (n0 := 50000) (n1 := 128) (V (Proc.devRef .tc main_v198)) h3)
    (hb : Batch (V (Proc.devRef .tc main_arg14)) I.batch)
    (h1 : Holds1 (n0 := 64) (V (Proc.devRef .tc main_arg10)) I.b1)
    (h2 : Holds1 (n0 := 2) (V (Proc.devRef .tc main_arg12)) I.b2) :
    Holds0 (StableHlo.after hostOps11 V (Proc.devRef .tc main_v255)) ((a + t / 800000) / 4)
    ∧ Holds2 (n0 := 128) (n1 := 128) (StableHlo.after hostOps11 V (Proc.devRef .tc main_v267))
        (fun g k => (∑ i : Fin 50000, if I.batch i = (g.val : ℤ) then h3 i k else 0) / max (Spec.count I g) 1)
    ∧ Holds2 (n0 := 1) (n1 := 64) (StableHlo.after hostOps11 V (Proc.devRef .tc main_v268)) (fun _ j => I.b1 j)
    ∧ Holds2 (n0 := 1) (n1 := 2) (StableHlo.after hostOps11 V (Proc.devRef .tc main_v269)) (fun _ o => I.b2 o)
    ∧ StableHlo.after hostOps11 V (Proc.devRef .tc main_arg9) = V (Proc.devRef .tc main_arg9)
    ∧ StableHlo.after hostOps11 V (Proc.devRef .tc main_arg11) = V (Proc.devRef .tc main_arg11) :=
  ⟨valH11_reg V a t ha ht, valH11_pool V I h3 hh hb, valH11_b1 V I h1, valH11_b2 V I h2, w1_11_kept V, w2_11_kept V⟩

end Stretch

end Cert.KernelIdeal.Hand.Val

end
-- ==== Proof.Bridge.KernelReg.lean ====
/-
  The regulariser on the kernel's side, over the reals.

  After the third layer the four hidden states sit in their buffers. The kernel program then treats them one after the
  other: a host stretch forms the hidden state's neighbour sum, a region totals the node-wise energy
      Σ_i ((d_out i + d_in i)·‖h i‖² − 2·⟨h i, (nbr h) i⟩),
  and the next stretch divides the total by the number of edges and adds it to the running sum; after the fourth, the
  sum is divided by four. Each item's lemma is applied at the buffers' contents before it; what an item does not write
  is carried across it unchanged. The result is the specification's regulariser, its four terms added in the same order.
-/
import proofs.«160050_j32744830665390_2_alg».proof.Proof.Spec
import proofs.«160050_j32744830665390_2_alg».proof.Proof.Bridge.Inputs
import proofs.«160050_j32744830665390_2_alg».proof.Proof.KI.Fold
import proofs.«160050_j32744830665390_2_alg».proof.Proof.KI.Val7
import proofs.«160050_j32744830665390_2_alg».proof.Proof.KI.Val8
import proofs.«160050_j32744830665390_2_alg».proof.Proof.KI.Val9
import proofs.«160050_j32744830665390_2_alg».proof.Proof.KI.Val10
import proofs.«160050_j32744830665390_2_alg».proof.Proof.KI.ValH7
import proofs.«160050_j32744830665390_2_alg».proof.Proof.KI.ValH8
import proofs.«160050_j32744830665390_2_alg».proof.Proof.KI.ValH9
import proofs.«160050_j32744830665390_2_alg».proof.Proof.KI.ValH10
import proofs.«160050_j32744830665390_2_alg».proof.Proof.KI.ValH11

set_option maxRecDepth 16384

noncomputable section

namespace Cert.Hand.Bridge

open Cert.KernelIdeal Cert.KernelIdeal.Gen Cert.KernelIdeal.Hand Cert.KernelIdeal.Hand.Val
open Idealize.ShloMosaic Idealize.ShloMosaic.TcCoe Idealize.ShloMosaic.ValueIdx
open Idealize.SL.Sem

variable (m : (ℓ : Loc nD τ sig) → Buf (Elt Ideal) ℓ) (c : Dev nD)

/-! ## A buffer none of the items so far writes holds what it held after the third layer -/

theorem keep17 (r : Ref sig .tc) (h7 : r ∉ hostOps7_W) : W17 m c r = W16 m c r := W17_of m c r h7
theorem keep18 (r : Ref sig .tc) (h7 : r ∉ hostOps7_W) (h7' : r ∉ ([main_v209] : List (Ref sig .tc))) : W18 m c r = W16 m c r :=
  (W18_of m c r h7').trans (keep17 m c r h7)
theorem keep19 (r : Ref sig .tc) (h7 : r ∉ hostOps7_W) (h7' : r ∉ ([main_v209] : List (Ref sig .tc))) (h8 : r ∉ hostOps8_W) :
    W19 m c r = W16 m c r := (W19_of m c r h8).trans (keep18 m c r h7 h7')
theorem keep20 (r : Ref sig .tc) (h7 : r ∉ hostOps7_W) (h7' : r ∉ ([main_v209] : List (Ref sig .tc))) (h8 : r ∉ hostOps8_W)
    (h8' : r ∉ ([main_v223] : List (Ref sig .tc))) : W20 m c r = W16 m c r := (W20_of m c r h8').trans (keep19 m c r h7 h7' h8)
theorem keep21 (r : Ref sig .tc) (h7 : r ∉ hostOps7_W) (h7' : r ∉ ([main_v209] : List (Ref sig .tc))) (h8 : r ∉ hostOps8_W)
    (h8' : r ∉ ([main_v223] : List (Ref sig .tc))) (h9 : r ∉ hostOps9_W) : W21 m c r = W16 m c r :=
  (W21_of m c r h9).trans (keep20 m c r h7 h7' h8 h8')
theorem keep22 (r : Ref sig .tc) (h7 : r ∉ hostOps7_W) (h7' : r ∉ ([main_v209] : List (Ref sig .tc))) (h8 : r ∉ hostOps8_W)
    (h8' : r ∉ ([main_v223] : List (Ref sig .tc))) (h9 : r ∉ hostOps9_W) (h9' : r ∉ ([main_v237] : List (Ref sig .tc))) :
    W22 m c r = W16 m c r := (W22_of m c r h9').trans (keep21 m c r h7 h7' h8 h8' h9)
theorem keep23 (r : Ref sig .tc) (h7 : r ∉ hostOps7_W) (h7' : r ∉ ([main_v209] : List (Ref sig .tc))) (h8 : r ∉ hostOps8_W)
    (h8' : r ∉ ([main_v223] : List (Ref sig .tc))) (h9 : r ∉ hostOps9_W) (h9' : r ∉ ([main_v237] : List (Ref sig .tc)))
    (h10 : r ∉ hostOps10_W) : W23 m c r = W16 m c r := (W23_of m c r h10).trans (keep22 m c r h7 h7' h8 h8' h9 h9')

/-! ## The four energies and their mean -/

/-- What the regulariser's items read of the state after the third layer: the four hidden states in their buffers,
    the two index vectors naming the edge ends, and the column of the nodes' degree sums. -/
structure RegFacts (I : Spec.Inputs) : Prop where
  h0 : Holds2 (n0 := 50000) (n1 := 128) (W16 m c (Proc.devRef .tc main_v39)) (Spec.hidden I eps Spec.varMom 0)
  h1 : Holds2 (n0 := 50000) (n1 := 128) (W16 m c (Proc.devRef .tc main_v92)) (Spec.hidden I eps Spec.varMom 1)
  h2 : Holds2 (n0 := 50000) (n1 := 128) (W16 m c (Proc.devRef .tc main_v145)) (Spec.hidden I eps Spec.varMom 2)
  h3 : Holds2 (n0 := 50000) (n1 := 128) (W16 m c (Proc.devRef .tc main_v198)) (Spec.hidden I eps Spec.varMom 3)
  src : Ends (W16 m c (Proc.devRef .tc main_v1)) I.src
  dst : Ends (W16 m c (Proc.devRef .tc main_v3)) I.dst
  deg : Holds2 (n0 := 50000) (n1 := 1) (W16 m c (Proc.devRef .tc main_v35)) (fun i _ => Spec.degOut I i + Spec.degIn I i)

/-- THE REGULARISER from what is known after the third layer. -/
theorem kernel_reg_of_facts (I : Spec.Inputs) (hL : RegFacts m c I) :
    Holds0 (W26 m c (Proc.devRef .tc main_v255)) (Spec.reg I eps (Spec.energyNode I) Spec.varMom) := by
  -- the first hidden state: its neighbour sum, then its energy
  have d17 : Holds2 (n0 := 50000) (n1 := 1) (W17 m c (Proc.devRef .tc main_v35)) (fun i _ => Spec.degOut I i + Spec.degIn I i) := by
    rw [keep17 m c main_v35 (by decide)]; exact hL.deg
  have a17 : Holds2 (n0 := 50000) (n1 := 128) (W17 m c (Proc.devRef .tc main_v39)) (Spec.hidden I eps Spec.varMom 0) := by
    rw [keep17 m c main_v39 (by decide)]; exact hL.h0
  have s7 : Holds2 (n0 := 50000) (n1 := 128) (W17 m c (Proc.devRef .tc main_v208)) (Spec.nbr I (Spec.hidden I eps Spec.varMom 0)) :=
    stage7_nbr (W16 m c) I _ hL.src hL.dst hL.h0
  have t7 : Holds2 (n0 := 1) (n1 := 1) (W18 m c (Proc.devRef .tc main_v209))
      (fun _ _ => Spec.energyNode I (Spec.hidden I eps Spec.varMom 0)) := by
    rw [W18_v209]
    exact val7_energy (En7 m) c I _ a17 s7 d17
  -- the second
  have r8 : Holds0 (W19 m c (Proc.devRef .tc main_v212)) (0 + Spec.energyNode I (Spec.hidden I eps Spec.varMom 0) / 800000) :=
    stage8_sum (W18 m c) _ t7
  have e18s : Ends (W18 m c (Proc.devRef .tc main_v1)) I.src := by
    rw [keep18 m c main_v1 (by decide) (by decide)]; exact hL.src
  have e18d : Ends (W18 m c (Proc.devRef .tc main_v3)) I.dst := by
    rw [keep18 m c main_v3 (by decide) (by decide)]; exact hL.dst
  have a18 : Holds2 (n0 := 50000) (n1 := 128) (W18 m c (Proc.devRef .tc main_v92)) (Spec.hidden I eps Spec.varMom 1) := by
    rw [keep18 m c main_v92 (by decide) (by decide)]; exact hL.h1
  have s8 : Holds2 (n0 := 50000) (n1 := 128) (W19 m c (Proc.devRef .tc main_v222)) (Spec.nbr I (Spec.hidden I eps Spec.varMom 1)) :=
    stage8_nbr (W18 m c) I _ e18s e18d a18
  have d19 : Holds2 (n0 := 50000) (n1 := 1) (W19 m c (Proc.devRef .tc main_v35)) (fun i _ => Spec.degOut I i + Spec.degIn I i) := by
    rw [keep19 m c main_v35 (by decide) (by decide) (by decide)]; exact hL.deg
  have a19 : Holds2 (n0 := 50000) (n1 := 128) (W19 m c (Proc.devRef .tc main_v92)) (Spec.hidden I eps Spec.varMom 1) := by
    rw [keep19 m c main_v92 (by decide) (by decide) (by decide)]; exact hL.h1
  have t8 : Holds2 (n0 := 1) (n1 := 1) (W20 m c (Proc.devRef .tc main_v223))
      (fun _ _ => Spec.energyNode I (Spec.hidden I eps Spec.varMom 1)) := by
    rw [W20_v223]
    exact val8_energy (En8 m) c I _ a19 s8 d19
  -- the third
  have r8' : Holds0 (W20 m c (Proc.devRef .tc main_v212)) (0 + Spec.energyNode I (Spec.hidden I eps Spec.varMom 0) / 800000) := by
    rw [W20_of m c main_v212 (by decide)]; exact r8
  have r9 : Holds0 (W21 m c (Proc.devRef .tc main_v226))
      ((0 + Spec.energyNode I (Spec.hidden I eps Spec.varMom 0) / 800000) + Spec.energyNode I (Spec.hidden I eps Spec.varMom 1) / 800000) :=
    stage9_sum (W20 m c) _ _ r8' t8
  have e20s : Ends (W20 m c (Proc.devRef .tc main_v1)) I.src := by
    rw [keep20 m c main_v1 (by decide) (by decide) (by decide) (by decide)]; exact hL.src
  have e20d : Ends (W20 m c (Proc.devRef .tc main_v3)) I.dst := by
    rw [keep20 m c main_v3 (by decide) (by decide) (by decide) (by decide)]; exact hL.dst
  have a20 : Holds2 (n0 := 50000) (n1 := 128) (W20 m c (Proc.devRef .tc main_v145)) (Spec.hidden I eps Spec.varMom 2) := by
    rw [keep20 m c main_v145 (by decide) (by decide) (by decide) (by decide)]; exact hL.h2
  have s9 : Holds2 (n0 := 50000) (n1 := 128) (W21 m c (Proc.devRef .tc main_v236)) (Spec.nbr I (Spec.hidden I eps Spec.varMom 2)) :=
    stage9_nbr (W20 m c) I _ e20s e20d a20
  have d21 : Holds2 (n0 := 50000) (n1 := 1) (W21 m c (Proc.devRef .tc main_v35)) (fun i _ => Spec.degOut I i + Spec.degIn I i) := by
    rw [keep21 m c main_v35 (by decide) (by decide) (by decide) (by decide) (by decide)]; exact hL.deg
  have a21 : Holds2 (n0 := 50000) (n1 := 128) (W21 m c (Proc.devRef .tc main_v145)) (Spec.hidden I eps Spec.varMom 2) := by
    rw [keep21 m c main_v145 (by decide) (by decide) (by decide) (by decide) (by decide)]; exact hL.h2
  have t9 : Holds2 (n0 := 1) (n1 := 1) (W22 m c (Proc.devRef .tc main_v237))
      (fun _ _ => Spec.energyNode I (Spec.hidden I eps Spec.varMom 2)) := by
    rw [W22_v237]
    exact val9_energy (En9 m) c I _ a21 s9 d21
  -- the fourth
  have r9' : Holds0 (W22 m c (Proc.devRef .tc main_v226))
      ((0 + Spec.energyNode I (Spec.hidden I eps Spec.varMom 0) / 800000) + Spec.energyNode I (Spec.hidden I eps Spec.varMom 1) / 800000) := by
    rw [W22_of m c main_v226 (by decide)]; exact r9
  have r10 : Holds0 (W23 m c (Proc.devRef .tc main_v240))
      (((0 + Spec.energyNode I (Spec.hidden I eps Spec.varMom 0) / 800000) + Spec.energyNode I (Spec.hidden I eps Spec.varMom 1) / 800000)
        + Spec.energyNode I (Spec.hidden I eps Spec.varMom 2) / 800000) :=
    stage10_sum (W22 m c) _ _ r9' t9
  have e22s : Ends (W22 m c (Proc.devRef .tc main_v1)) I.src := by
    rw [keep22 m c main_v1 (by decide) (by decide) (by decide) (by decide) (by decide) (by decide)]; exact hL.src
  have e22d : Ends (W22 m c (Proc.devRef .tc main_v3)) I.dst := by
    rw [keep22 m c main_v3 (by decide) (by decide) (by decide) (by decide) (by decide) (by decide)]; exact hL.dst
  have a22 : Holds2 (n0 := 50000) (n1 := 128) (W22 m c (Proc.devRef .tc main_v198)) (Spec.hidden I eps Spec.varMom 3) := by
    rw [keep22 m c main_v198 (by decide) (by decide) (by decide) (by decide) (by decide) (by decide)]; exact hL.h3
  have s10 : Holds2 (n0 := 50000) (n1 := 128) (W23 m c (Proc.devRef .tc main_v250)) (Spec.nbr I (Spec.hidden I eps Spec.varMom 3)) :=
    stage10_nbr (W22 m c) I _ e22s e22d a22
  have d23 : Holds2 (n0 := 50000) (n1 := 1) (W23 m c (Proc.devRef .tc main_v35)) (fun i _ => Spec.degOut I i + Spec.degIn I i) := by
    rw [keep23 m c main_v35 (by decide) (by decide) (by decide) (by decide) (by decide) (by decide) (by decide)]; exact hL.deg
  have a23 : Holds2 (n0 := 50000) (n1 := 128) (W23 m c (Proc.devRef .tc main_v198)) (Spec.hidden I eps Spec.varMom 3) := by
    rw [keep23 m c main_v198 (by decide) (by decide) (by decide) (by decide) (by decide) (by decide) (by decide)]; exact hL.h3
  have t10 : Holds2 (n0 := 1) (n1 := 1) (W24 m c (Proc.devRef .tc main_v251))
      (fun _ _ => Spec.energyNode I (Spec.hidden I eps Spec.varMom 3)) := by
    rw [W24_v251]
    exact val10_energy (En10 m) c I _ a23 s10 d23
  -- the mean of the four
  have r10' : Holds0 (W24 m c (Proc.devRef .tc main_v240))
      (((0 + Spec.energyNode I (Spec.hidden I eps Spec.varMom 0) / 800000) + Spec.energyNode I (Spec.hidden I eps Spec.varMom 1) / 800000)
        + Spec.energyNode I (Spec.hidden I eps Spec.varMom 2) / 800000) := by
    rw [W24_of m c main_v240 (by decide)]; exact r10
  have r11 : Holds0 (W25 m c (Proc.devRef .tc main_v255))
      (((((0 + Spec.energyNode I (Spec.hidden I eps Spec.varMom 0) / 800000) + Spec.energyNode I (Spec.hidden I eps Spec.varMom 1) / 800000)
        + Spec.energyNode I (Spec.hidden I eps Spec.varMom 2) / 800000) + Spec.energyNode I (Spec.hidden I eps Spec.varMom 3) / 800000) / 4) :=
    valH11_reg (W24 m c) _ _ r10' t10
  rw [W26_of m c main_v255 (by decide)]
  exact r11

end Cert.Hand.Bridge

end
-- ==== Proof.KI.Val11.lean ====
/-
  What region 11 leaves in its output array, over the reals: when the five arrays the head reads hold real tables —
  the pooled means P (128 graphs × 128 features), the first affine map's weight and bias, the second's weight and
  bias — the 128×2 array the region writes holds

      logits g o = (Σ_j relu((Σ_k P g k · w₁ k j) + b₁ j) · w₂ j o) + b₂ o.

  At the ideal values a change of format is the identity, a matrix product accumulated from the zero splat is the
  plain sum of products over the contracted coordinate, a one-row bias laid along every row reads its column, and
  the rectifier is the maximum with zero; every operand being the coercion of a real, the result is the coercion of
  the same expression over the reals.
-/
import proofs.«160050_j32744830665390_2_alg».proof.Proof.Spec
import proofs.«160050_j32744830665390_2_alg».proof.Proof.Bridge.Inputs
import proofs.«160050_j32744830665390_2_alg».proof.Proof.Math.Lift
import proofs.«160050_j32744830665390_2_alg».proof.Proof.KI.Reg11
import Idealize.ShloMosaic.Lib.StackMember
import Idealize.ShloMosaic.Lib.ValueLayout

noncomputable section

namespace Cert.KernelIdeal.Hand.Val

open Cert.KernelIdeal.Gen Cert.Hand Cert.Hand.Bridge Cert.Hand.Math
open Idealize.ShloMosaic Idealize.ShloMosaic.ValueIdx Idealize.ShloMosaic.TcCoe
open scoped BigOperators

/-! ## The matrix product at an entry -/

/-- An m×k by k×n product accumulated from the zero splat, at entry (a, b): the sum over the contracted coordinate
    of the products of the entries. -/
theorem matmul_plain_zero_apply11 {m k n : Nat} {φ₁ φ₂ : FTy} (A : FVec Ideal ⟨2, ![m, k]⟩ φ₁)
    (B : FVec Ideal ⟨2, ![k, n]⟩ φ₂) (a : Fin m) (b : Fin n) :
    matmul (DotDims.plain m k n) none A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply none A B a b

/-! ## The payload in two layers -/

/-- The head's hidden layer as the payload computes it: relu(g·w₁ + b₁), the product's operands through the
    narrower format. -/
def hid11 (a0 : FVec Ideal S128x128 .f32) (a1 : FVec Ideal S128x64 .f32) (a2 : FVec Ideal S1x64 .f32) :
    FVec Ideal S128x64 .f32 :=
  maximumf
    (addf
      (matmul dot_S128x128_S128x64_S128x64_1_0_0_1_n_n none
        (truncf .bf16 (shapeCast S128x128 a0 shapeCasts_S128x128_S128x128) bitsLt_bf16_f32)
        (truncf .bf16 a1 bitsLt_bf16_f32) (constant (F := Ideal) S128x64 .f32 0x00000000#32))
      (broadcastTo S128x64 (shapeCast S1x64 a2 shapeCasts_S1x64_S1x64) broadcasts_S1x64_S128x64))
    (broadcast S128x64 (Scalar.ofBits (F := Ideal) .f32 0x00000000#32))

/-- The payload is the second affine map of the hidden layer. -/
theorem pay11_eq (a0 : FVec Ideal S128x128 .f32) (a1 : FVec Ideal S128x64 .f32) (a2 : FVec Ideal S1x64 .f32)
    (a3 : FVec Ideal S64x2 .f32) (a4 : FVec Ideal S1x2 .f32) :
    k11_pay1 (F := Ideal) a0 a1 a2 a3 a4
      = addf
          (matmul dot_S128x64_S64x2_S128x2_1_0_0_1_n_n none (truncf .bf16 (hid11 a0 a1 a2) bitsLt_bf16_f32)
            (truncf .bf16 a3 bitsLt_bf16_f32) (constant (F := Ideal) S128x2 .f32 0x00000000#32))
          (broadcastTo S128x2 (shapeCast S1x2 a4 shapeCasts_S1x2_S1x2) broadcasts_S1x2_S128x2) := rfl

/-- The first product at an entry. -/
theorem mm1_apply11 (A : FVec Ideal S128x128 .bf16) (B : FVec Ideal S128x64 .bf16) (g : Fin 128) (j : Fin 64) :
    matmul dot_S128x128_S128x64_S128x64_1_0_0_1_n_n none A B (constant (F := Ideal) S128x64 .f32 0x00000000#32) (ix2 g j)
      = ∑ k : Fin 128, A (ix2 g k) * B (ix2 k j) :=
  matmul_plain_zero_apply11 (m := 128) (k := 128) (n := 64) A B g j

/-- The second product at an entry. -/
theorem mm2_apply11 (A : FVec Ideal S128x64 .bf16) (B : FVec Ideal S64x2 .bf16) (g : Fin 128) (o : Fin 2) :
    matmul dot_S128x64_S64x2_S128x2_1_0_0_1_n_n none A B (constant (F := Ideal) S128x2 .f32 0x00000000#32) (ix2 g o)
      = ∑ j : Fin 64, A (ix2 g j) * B (ix2 j o) :=
  matmul_plain_zero_apply11 (m := 128) (k := 64) (n := 2) A B g o

/-! ## Over the reals -/

/-- The hidden layer at an entry, the three arrays holding real tables. -/
theorem hid11_apply (a0 : FVec Ideal S128x128 .f32) (a1 : FVec Ideal S128x64 .f32) (a2 : FVec Ideal S1x64 .f32)
    (P : Fin 128 → Fin 128 → ℝ) (W1 : Fin 128 → Fin 64 → ℝ) (B1 : Fin 64 → ℝ)
    (h0 : Holds2 (n0 := 128) (n1 := 128) a0 P) (h1 : Holds2 (n0 := 128) (n1 := 64) a1 W1)
    (h2 : Holds2 (n0 := 1) (n1 := 64) a2 (fun _ j => B1 j)) (g : Fin 128) (j : Fin 64) :
    hid11 a0 a1 a2 (ix2 g j) = ((max ((∑ k : Fin 128, P g k * W1 k j) + B1 j) 0 : ℝ) : EReal) := by
  have hs : (∑ k : Fin 128, a0 (ix2 g k) * a1 (ix2 k j)) = ((∑ k : Fin 128, P g k * W1 k j : ℝ) : EReal) :=
    sum_eq_coe_of_forall Finset.univ _ _ fun k _ => by
      rw [h0 (ix2 g k), h1 (ix2 k j)]; exact coe_mul_coe _ _
  have hb : a2 (ix2 (0 : Fin 1) j) = ((B1 j : ℝ) : EReal) := h2 (ix2 (0 : Fin 1) j)
  unfold hid11
  rw [maximumf_apply, addf_apply, mm1_apply11, broadcastTo_1b_ab_apply, broadcast_apply]
  simp only [truncf_apply, shapeCast_self]
  rw [hs, hb, coe_add_coe]
  show max (((∑ k : Fin 128, P g k * W1 k j) + B1 j : ℝ) : EReal) (Ideal.ofBits .f32 0x00000000#32) = _
  rw [Ideal.ofBits_zero_f32, max_coe_zero]

/-- The payload of five arrays holding real tables holds the logits of those tables. -/
theorem pay11_holds (a0 : FVec Ideal S128x128 .f32) (a1 : FVec Ideal S128x64 .f32) (a2 : FVec Ideal S1x64 .f32)
    (a3 : FVec Ideal S64x2 .f32) (a4 : FVec Ideal S1x2 .f32)
    (P : Fin 128 → Fin 128 → ℝ) (W1 : Fin 128 → Fin 64 → ℝ) (B1 : Fin 64 → ℝ) (W2 : Fin 64 → Fin 2 → ℝ) (B2 : Fin 2 → ℝ)
    (h0 : Holds2 (n0 := 128) (n1 := 128) a0 P) (h1 : Holds2 (n0 := 128) (n1 := 64) a1 W1)
    (h2 : Holds2 (n0 := 1) (n1 := 64) a2 (fun _ j => B1 j)) (h3 : Holds2 (n0 := 64) (n1 := 2) a3 W2)
    (h4 : Holds2 (n0 := 1) (n1 := 2) a4 (fun _ o => B2 o)) :
    Holds2 (n0 := 128) (n1 := 2) (k11_pay1 (F := Ideal) a0 a1 a2 a3 a4)
      (fun g o => (∑ j : Fin 64, max ((∑ k : Fin 128, P g k * W1 k j) + B1 j) 0 * W2 j o) + B2 o) := by
  intro i
  obtain ⟨g, o, rfl⟩ : ∃ (g : Fin 128) (o : Fin 2), i = ix2 g o := ⟨i 0, i 1, eq_ix2 i⟩
  have hs : (∑ j : Fin 64, hid11 a0 a1 a2 (ix2 g j) * a3 (ix2 j o))
      = ((∑ j : Fin 64, max ((∑ k : Fin 128, P g k * W1 k j) + B1 j) 0 * W2 j o : ℝ) : EReal) :=
    sum_eq_coe_of_forall Finset.univ _ _ fun j _ => by
      rw [hid11_apply a0 a1 a2 P W1 B1 h0 h1 h2 g j, h3 (ix2 j o)]; exact coe_mul_coe _ _
  have hb : a4 (ix2 (0 : Fin 1) o) = ((B2 o : ℝ) : EReal) := h4 (ix2 (0 : Fin 1) o)
  show k11_pay1 (F := Ideal) a0 a1 a2 a3 a4 (ix2 g o)
    = (((∑ j : Fin 64, max ((∑ k : Fin 128, P g k * W1 k j) + B1 j) 0 * W2 j o) + B2 o : ℝ) : EReal)
  rw [pay11_eq, addf_apply, mm2_apply11, broadcastTo_1b_ab_apply]
  simp only [truncf_apply, shapeCast_self]
  rw [hs, hb, coe_add_coe]

/-! ## The region's output array -/

/-- REGION 11's output array holds the logits of the tables its five input arrays hold. -/
theorem val11 (V : Entry Ideal) (c : Dev nD) (I : Spec.Inputs) (P : Fin 128 → Fin 128 → ℝ)
    (hP : Holds2 (n0 := 128) (n1 := 128) (V c main_v267) P) (hw1 : Holds2 (n0 := 128) (n1 := 64) (V c main_arg9) I.w1)
    (hb1 : Holds2 (n0 := 1) (n1 := 64) (V c main_v268) (fun _ j => I.b1 j))
    (hw2 : Holds2 (n0 := 64) (n1 := 2) (V c main_arg11) I.w2)
    (hb2 : Holds2 (n0 := 1) (n1 := 2) (V c main_v269) (fun _ o => I.b2 o)) :
    Holds2 (n0 := 128) (n1 := 2) ((dat11 V c).arrAt 5 cfg11.N)
      (fun g o => (∑ j : Fin 64, max ((∑ k : Fin 128, P g k * I.w1 k j) + I.b1 j) 0 * I.w2 j o) + I.b2 o) := by
  rw [final11_5 V c]
  exact pay11_holds _ _ _ _ _ P I.w1 I.b1 I.w2 I.b2 hP hw1 hb1 hw2 hb2

end Cert.KernelIdeal.Hand.Val

end
-- ==== Proof.Bridge.KernelHead.lean ====
/-
  The head of the kernel program's value thread: from the last hidden state to the logits.

  After region 6 the kernel program's buffers hold the last hidden state, the batch numbers and the head's
  parameters.  The four energy regions and the host stretches among them write none of these; the last host stretch
  pools the hidden state by graph and lays the biases out as rows; region 11 applies the head.  So the array the
  program returns as its logits holds the specification's logits.
-/
import proofs.«160050_j32744830665390_2_alg».proof.Proof.Spec
import proofs.«160050_j32744830665390_2_alg».proof.Proof.Bridge.Inputs
import proofs.«160050_j32744830665390_2_alg».proof.Proof.KI.Fold
import proofs.«160050_j32744830665390_2_alg».proof.Proof.KI.Val11
import proofs.«160050_j32744830665390_2_alg».proof.Proof.KI.ValH11

noncomputable section

namespace Cert.Hand.Bridge

open Cert.KernelIdeal Cert.KernelIdeal.Gen Cert.KernelIdeal.Hand Cert.KernelIdeal.Hand.Val
open Idealize.ShloMosaic Idealize.ShloMosaic.TcCoe Idealize.ShloMosaic.ValueIdx
open scoped BigOperators

variable (m : (ℓ : Loc nD τ sig) → Buf (Elt Ideal) ℓ)

/-- A buffer that neither the four energy regions nor the host stretches among them write holds, when the last host
    stretch begins, what it held after region 6. -/
theorem W24_of_W16 (c : Dev nD) (r : Ref sig .tc)
    (h17 : r ∉ hostOps7_W) (h18 : r ∉ ([main_v209] : List (Ref sig .tc)))
    (h19 : r ∉ hostOps8_W) (h20 : r ∉ ([main_v223] : List (Ref sig .tc)))
    (h21 : r ∉ hostOps9_W) (h22 : r ∉ ([main_v237] : List (Ref sig .tc)))
    (h23 : r ∉ hostOps10_W) (h24 : r ∉ ([main_v251] : List (Ref sig .tc))) :
    W24 m c r = W16 m c r :=
  (W24_of m c r h24).trans <| (W23_of m c r h23).trans <| (W22_of m c r h22).trans <| (W21_of m c r h21).trans <|
    (W20_of m c r h20).trans <| (W19_of m c r h19).trans <| (W18_of m c r h18).trans (W17_of m c r h17)

/-- The six buffers the head reads, carried from after region 6 to the last host stretch. -/
theorem W24_v198 (c : Dev nD) : W24 m c (Proc.devRef .tc main_v198) = W16 m c (Proc.devRef .tc main_v198) :=
  W24_of_W16 m c main_v198 (by decide) (by decide) (by decide) (by decide) (by decide) (by decide) (by decide) (by decide)
theorem W24_arg14 (c : Dev nD) : W24 m c (Proc.devRef .tc main_arg14) = W16 m c (Proc.devRef .tc main_arg14) :=
  W24_of_W16 m c main_arg14 (by decide) (by decide) (by decide) (by decide) (by decide) (by decide) (by decide) (by decide)
theorem W24_arg9 (c : Dev nD) : W24 m c (Proc.devRef .tc main_arg9) = W16 m c (Proc.devRef .tc main_arg9) :=
  W24_of_W16 m c main_arg9 (by decide) (by decide) (by decide) (by decide) (by decide) (by decide) (by decide) (by decide)
theorem W24_arg10 (c : Dev nD) : W24 m c (Proc.devRef .tc main_arg10) = W16 m c (Proc.devRef .tc main_arg10) :=
  W24_of_W16 m c main_arg10 (by decide) (by decide) (by decide) (by decide) (by decide) (by decide) (by decide) (by decide)
theorem W24_arg11 (c : Dev nD) : W24 m c (Proc.devRef .tc main_arg11) = W16 m c (Proc.devRef .tc main_arg11) :=
  W24_of_W16 m c main_arg11 (by decide) (by decide) (by decide) (by decide) (by decide) (by decide) (by decide) (by decide)
theorem W24_arg12 (c : Dev nD) : W24 m c (Proc.devRef .tc main_arg12) = W16 m c (Proc.devRef .tc main_arg12) :=
  W24_of_W16 m c main_arg12 (by decide) (by decide) (by decide) (by decide) (by decide) (by decide) (by decide) (by decide)

/-- THE HEAD: if after region 6 the last hidden state's array holds a table `h3` and the batch numbers and the head's
    parameters are in their argument buffers, the array region 11 writes holds the head of the graph means of `h3`. -/
theorem kernel_head (c : Dev nD) (I : Spec.Inputs) (h3 : Spec.Hidden)
    (hh : Holds2 (n0 := 50000) (n1 := 128) (W16 m c (Proc.devRef .tc main_v198)) h3)
    (hb : Batch (W16 m c (Proc.devRef .tc main_arg14)) I.batch)
    (hw1 : Holds2 (n0 := 128) (n1 := 64) (W16 m c (Proc.devRef .tc main_arg9)) I.w1)
    (hb1 : Holds1 (n0 := 64) (W16 m c (Proc.devRef .tc main_arg10)) I.b1)
    (hw2 : Holds2 (n0 := 64) (n1 := 2) (W16 m c (Proc.devRef .tc main_arg11)) I.w2)
    (hb2 : Holds1 (n0 := 2) (W16 m c (Proc.devRef .tc main_arg12)) I.b2) :
    Holds2 (n0 := 128) (n1 := 2) (W26 m c (Proc.devRef .tc main_v270))
      (fun g o => (∑ j : Fin 64, max ((∑ k : Fin 128,
          ((∑ i : Fin 50000, if I.batch i = (g.val : ℤ) then h3 i k else 0) / max (Spec.count I g) 1) * I.w1 k j)
        + I.b1 j) 0 * I.w2 j o) + I.b2 o) := by
  -- the facts when the last host stretch begins
  have hh' : Holds2 (n0 := 50000) (n1 := 128) (W24 m c (Proc.devRef .tc main_v198)) h3 := by
    rw [W24_v198 m c]; exact hh
  have hb' : Batch (W24 m c (Proc.devRef .tc main_arg14)) I.batch := by
    rw [W24_arg14 m c]; exact hb
  have hb1' : Holds1 (n0 := 64) (W24 m c (Proc.devRef .tc main_arg10)) I.b1 := by
    rw [W24_arg10 m c]; exact hb1
  have hb2' : Holds1 (n0 := 2) (W24 m c (Proc.devRef .tc main_arg12)) I.b2 := by
    rw [W24_arg12 m c]; exact hb2
  -- after it: the pooled means, the bias rows, the weights untouched
  have hP := valH11_pool (W24 m c) I h3 hh' hb'
  have hr1 := valH11_b1 (W24 m c) I hb1'
  have hr2 := valH11_b2 (W24 m c) I hb2'
  have hw1' : Holds2 (n0 := 128) (n1 := 64) (En11 m c main_arg9) I.w1 := by
    show Holds2 (n0 := 128) (n1 := 64) (StableHlo.after hostOps11 (W24 m c) (Proc.devRef .tc main_arg9)) I.w1
    rw [w1_11_kept (W24 m c), W24_arg9 m c]; exact hw1
  have hw2' : Holds2 (n0 := 64) (n1 := 2) (En11 m c main_arg11) I.w2 := by
    show Holds2 (n0 := 64) (n1 := 2) (StableHlo.after hostOps11 (W24 m c) (Proc.devRef .tc main_arg11)) I.w2
    rw [w2_11_kept (W24 m c), W24_arg11 m c]; exact hw2
  -- region 11
  have hv := val11 (En11 m) c I _ hP hw1' hr1 hw2' hr2
  rw [show W26 m c (Proc.devRef .tc main_v270) = X11 m c from W26_v270 m c]
  exact hv

/-- The specification's logits are the head of the graph means of the last hidden state. -/
theorem logits_eq (I : Spec.Inputs) (ε : ℝ) (var : Spec.Hidden → Fin 128 → ℝ) (g : Fin 128) (o : Fin 2) :
    Spec.logits I ε var g o
      = (∑ j : Fin 64, max ((∑ k : Fin 128,
          ((∑ i : Fin 50000, if I.batch i = (g.val : ℤ) then Spec.hidden I ε var 3 i k else 0) / max (Spec.count I g) 1)
            * I.w1 k j) + I.b1 j) 0 * I.w2 j o) + I.b2 o := rfl

/-- THE LOGITS from six facts after region 6: the last hidden state in its array, the batch numbers and the head's
    parameters in their argument buffers. -/
theorem kernel_logits_of (c : Dev nD) (I : Spec.Inputs)
    (hh : Holds2 (n0 := 50000) (n1 := 128) (W16 m c (Proc.devRef .tc main_v198)) (Spec.hidden I eps Spec.varMom 3))
    (hb : Batch (W16 m c (Proc.devRef .tc main_arg14)) I.batch)
    (hw1 : Holds2 (n0 := 128) (n1 := 64) (W16 m c (Proc.devRef .tc main_arg9)) I.w1)
    (hb1 : Holds1 (n0 := 64) (W16 m c (Proc.devRef .tc main_arg10)) I.b1)
    (hw2 : Holds2 (n0 := 64) (n1 := 2) (W16 m c (Proc.devRef .tc main_arg11)) I.w2)
    (hb2 : Holds1 (n0 := 2) (W16 m c (Proc.devRef .tc main_arg12)) I.b2) :
    Holds2 (n0 := 128) (n1 := 2) (W26 m c (Proc.devRef .tc main_v270)) (Spec.logits I eps Spec.varMom) := by
  have h := kernel_head m c I (Spec.hidden I eps Spec.varMom 3) hh hb hw1 hb1 hw2 hb2
  have e : Spec.logits I eps Spec.varMom = fun g o => (∑ j : Fin 64, max ((∑ k : Fin 128,
          ((∑ i : Fin 50000, if I.batch i = (g.val : ℤ) then Spec.hidden I eps Spec.varMom 3 i k else 0)
              / max (Spec.count I g) 1) * I.w1 k j) + I.b1 j) 0 * I.w2 j o) + I.b2 o :=
    funext fun g => funext fun o => logits_eq I eps Spec.varMom g o
  rw [e]
  exact h

end Cert.Hand.Bridge

end
-- ==== Proof.Bridge.Kernel.lean ====
/-
  The kernel program's two results over the reals, from its arguments: the layers' thread gives what is known once
  the third layer is done; the regulariser's thread and the head's thread start from there.
-/
import proofs.«160050_j32744830665390_2_alg».proof.Proof.Bridge.KernelLayers
import proofs.«160050_j32744830665390_2_alg».proof.Proof.Bridge.KernelReg
import proofs.«160050_j32744830665390_2_alg».proof.Proof.Bridge.KernelHead

noncomputable section

namespace Cert.Hand.Bridge

open Idealize.ShloMosaic Idealize.ShloMosaic.TcCoe
open Cert.KernelIdeal Cert.KernelIdeal.Gen Cert.KernelIdeal.Hand

/-- The kernel program ends with the specification's logits, the batch variance in its moment form. -/
theorem kernel_logits (m : (ℓ : Loc nD τ sig) → Buf (Elt Ideal) ℓ) (c : Dev nD) (I : Spec.Inputs) (hA : Args m c I) :
    Holds2 (n0 := 128) (n1 := 2) (W26 m c (Proc.devRef .tc main_v270)) (Spec.logits I eps Spec.varMom) :=
  have L := afterLayers hA
  kernel_logits_of m c I L.h3 L.batch L.w1 L.b1 L.w2 L.b2

/-- The kernel program ends with the specification's regulariser, the Dirichlet energy in its node form. -/
theorem kernel_reg (m : (ℓ : Loc nD τ sig) → Buf (Elt Ideal) ℓ) (c : Dev nD) (I : Spec.Inputs) (hA : Args m c I) :
    Holds0 (W26 m c (Proc.devRef .tc main_v255)) (Spec.reg I eps (Spec.energyNode I) Spec.varMom) :=
  have L := afterLayers hA
  kernel_reg_of_facts m c I { h0 := L.h0, h1 := L.h1, h2 := L.h2, h3 := L.h3, src := L.src, dst := L.dst, deg := L.deg }

end Cert.Hand.Bridge

end
-- ==== Proof.RefVal.WBase.lean ====
/-
  Reading lemmas shared by the windows of the reference program's value.

  A run of host operations split in two is the second half run after the first.  A table that holds a real table is
  read at coordinates.  A vector laid along a column or a row of a rectangle reads, at a position, the vector's own
  entry; a scalar laid over any shape reads the scalar.  A slice of a stacked weight array, flattened, reads the
  array at the slice's position.  An elementwise operation on entries that are real numbers is the real operation on
  those numbers; a row sum, a column sum or a matrix product of real entries is the real sum.
-/
import proofs.«160050_j32744830665390_2_alg».proof.Proof.Ref.Ops
import proofs.«160050_j32744830665390_2_alg».proof.Proof.Spec
import proofs.«160050_j32744830665390_2_alg».proof.Proof.Bridge.Inputs
import proofs.«160050_j32744830665390_2_alg».proof.Proof.Math.Lift
import proofs.«160050_j32744830665390_2_alg».proof.Proof.Math.Consts
import Idealize.ShloMosaic.Lib.StableHlo.Run
import Idealize.ShloMosaic.Lib.Pipeline.Value
import Idealize.ShloMosaic.Lib.ValueLayout
import Idealize.ShloMosaic.Lib.IdealHost
import Idealize.ShloMosaic.Lib.StackMember
import Idealize.ShloMosaic.PureOps.Ideal.Laws

noncomputable section

namespace Cert.ReferenceIdeal.HandVal

open Cert.ReferenceIdeal Cert.ReferenceIdeal.Gen Cert.ReferenceIdeal.HandRun
open Idealize.ShloMosaic Idealize.ShloMosaic.TcCoe Idealize.SL.Sem Idealize.ShloMosaic.StableHlo Idealize.ShloMosaic.ValueIdx
open Cert.Hand Cert.Hand.Bridge
open scoped BigOperators

/-! ## What the windows' boundary buffers hold -/

/-- The edge table: every entry, read signed, is a node number, and its two rows name the edge ends. -/
def EdgeRows (a : IVec (⟨2, ![2, 800000]⟩ : Shape) 32) (src dst : Fin 800000 → Fin 50000) : Prop :=
  (∀ i, 0 ≤ (a i).toInt ∧ (a i).toInt < 50000)
    ∧ (∀ e : Fin 800000, node (a (ix2 (0 : Fin 2) e)) = src e)
    ∧ (∀ e : Fin 800000, node (a (ix2 (1 : Fin 2) e)) = dst e)

/-- A table's rows, centred and scaled to unit variance: the layer norm before its affine map. -/
def rowNorm (h : Spec.Hidden) (ε : ℝ) : Spec.Hidden := fun i k =>
  (h i k - Spec.rowMean h i) * Spec.rsq (Spec.rowVar h i + ε)

/-- The embedding's rows, centred and scaled, before the layer norm's affine map. -/
def embNorm (I : Spec.Inputs) (ε : ℝ) : Spec.Hidden := fun i k =>
  (Spec.embPre I i k - Spec.rowMean (Spec.embPre I) i) * Spec.rsq (Spec.rowVar (Spec.embPre I) i + ε)

/-- A row's variance is not negative: it is a sum of squares over a positive count. -/
theorem rowVar_nonneg (h : Spec.Hidden) (i : Fin 50000) : 0 ≤ Spec.rowVar h i :=
  show 0 ≤ (∑ k : Fin 128, (h i k - Spec.rowMean h i) * (h i k - Spec.rowMean h i)) / 128 from
    div_nonneg (Finset.sum_nonneg fun k _ => mul_self_nonneg _) (by norm_num)

/-! ## A run in two halves -/

/-- The buffers after two runs in a row are the buffers after the second run, started from those after the first. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

/-- Closes an equation between a buffer after a literal run and its operation applied to buffers after the same run:
    both sides are rewritten to the operations' composed term over the run's initial buffers. -/
macro "ssa_eq" : tactic =>
  `(tactic| (after_results_simp <;> (try simp only [cast_eq, id_eq]) <;> (try rfl)))

/-! ## Tables read at coordinates -/

section Tables
variable {n0 n1 n2 n3 : Nat}

theorem holds2_at {a : (⟨2, ![n0, n1]⟩ : Shape).Idx → EReal} {A : Fin n0 → Fin n1 → ℝ} (h : Holds2 a A)
    (p : Fin n0) (q : Fin n1) : a (ix2 p q) = ((A p q : ℝ) : EReal) := h (ix2 p q)

theorem holds1_at {a : (⟨1, ![n0]⟩ : Shape).Idx → EReal} {A : Fin n0 → ℝ} (h : Holds1 a A)
    (p : Fin n0) : a (ix1 p) = ((A p : ℝ) : EReal) := h (ix1 p)

theorem holds4_at {a : (⟨4, ![n0, n1, n2, n3]⟩ : Shape).Idx → EReal} {A : Fin n0 → Fin n1 → Fin n2 → Fin n3 → ℝ}
    (h : Holds4 a A) (l : Fin n0) (p : Fin n1) (j : Fin n2) (k : Fin n3) :
    a (ix4 l p j k) = ((A l p j k : ℝ) : EReal) := h (ix4 l p j k)

theorem holds2_of {a : (⟨2, ![n0, n1]⟩ : Shape).Idx → EReal} {A : Fin n0 → Fin n1 → ℝ}
    (h : ∀ (p : Fin n0) (q : Fin n1), a (ix2 p q) = ((A p q : ℝ) : EReal)) : Holds2 a A :=
  fun i => (congrArg a (eq_ix2 i)).trans (h (i 0) (i 1))

theorem holds1_of {a : (⟨1, ![n0]⟩ : Shape).Idx → EReal} {A : Fin n0 → ℝ}
    (h : ∀ p : Fin n0, a (ix1 p) = ((A p : ℝ) : EReal)) : Holds1 a A :=
  fun i => (congrArg a (eq_ix1 i)).trans (h (i 0))

end Tables

/-! ## Broadcasts read at a position -/

section Broadcasts
variable {α : Type}

/-- A float constant laid over any shape reads the constant's value. -/
theorem splat_apply {T : Shape} (h : (⟨0, ![]⟩ : Shape).BroadcastsInDim T ![]) (b : BitVec 32) (j : T.Idx) :
    broadcastInDim T ![] h (constant (F := Ideal) (⟨0, ![]⟩ : Shape) .f32 b) j = Ideal.ofBits .f32 b :=
  broadcastInDim_scalar_apply h _ j

/-- A column `[n, 1]` laid over `[n, m]` reads, at `(p, q)`, the column at `p`. -/
theorem bcast_colN_apply {n m : Nat} (hn : n ≠ 1)
    (hb : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] hb v (ix2 p q) = v (ix2 p (0 : Fin 1)) :=
  broadcastInDim_apply _ hb v (ix2 p q) (ix2 p (0 : Fin 1)) (fun a => by
    match a with
    | ⟨0, _⟩ =>
      show p.val = if n = 1 then 0 else p.val
      rw [if_neg hn]
    | ⟨1, _⟩ => rfl)

/-- A vector `[m]` as the one row `[1, m]` reads, at `(0, q)`, the vector at `q`. -/
theorem bcast_row1_apply {m : Nat} (hm : m ≠ 1)
    (hb : (⟨1, ![m]⟩ : Shape).BroadcastsInDim ⟨2, ![1, m]⟩ ![1])
    (v : (⟨1, ![m]⟩ : Shape).Idx → α) (u : Fin 1) (q : Fin m) :
    broadcastInDim ⟨2, ![1, m]⟩ ![1] hb v (ix2 u q) = v (ix1 q) :=
  broadcastInDim_apply _ hb v (ix2 u q) (ix1 q) (fun a => by
    match a with
    | ⟨0, _⟩ =>
      show q.val = if m = 1 then 0 else q.val
      rw [if_neg hm])

/-- A row `[1, m]` laid over `[n, m]` reads, at `(p, q)`, the row at `q`. -/
theorem bcast_rowN_apply {n m : Nat} (hm : m ≠ 1)
    (hb : (⟨2, ![1, m]⟩ : Shape).BroadcastsInDim ⟨2, ![n, m]⟩ ![0, 1])
    (v : (⟨2, ![1, m]⟩ : Shape).Idx → α) (p : Fin n) (q : Fin m) :
    broadcastInDim ⟨2, ![n, m]⟩ ![0, 1] hb v (ix2 p q) = v (ix2 (0 : Fin 1) q) :=
  broadcastInDim_apply _ hb v (ix2 p q) (ix2 (0 : Fin 1) q) (fun a => by
    match a with
    | ⟨0, _⟩ => rfl
    | ⟨1, _⟩ =>
      show q.val = if m = 1 then 0 else q.val
      rw [if_neg hm])

/-- A vector `[n]` as the column `[n, 1]` reads, at `(p, 0)`, the vector at `p`. -/
theorem bcast_col1_apply {n : Nat} (hn : n ≠ 1)
    (hb : (⟨1, ![n]⟩ : Shape).BroadcastsInDim ⟨2, ![n, 1]⟩ ![0])
    (v : (⟨1, ![n]⟩ : Shape).Idx → α) (p : Fin n) (u : Fin 1) :
    broadcastInDim ⟨2, ![n, 1]⟩ ![0] hb v (ix2 p u) = v (ix1 p) :=
  broadcastInDim_apply _ hb v (ix2 p u) (ix1 p) (fun a => by
    match a with
    | ⟨0, _⟩ =>
      show p.val = if n = 1 then 0 else p.val
      rw [if_neg hn])

/-- A selection whose condition is one bit laid over the whole shape, the bit set, reads its first branch. -/
theorem select_splat_one {T : Shape} (hb : (⟨0, ![]⟩ : Shape).BroadcastsInDim T ![])
    (c : IVec (⟨0, ![]⟩ : Shape) 1) (hc : c ix0 = 1#1) (a b : T.Idx → α) (j : T.Idx) :
    select (broadcastInDim T ![] hb c) a b j = a j := by
  show Scalar.select (broadcastInDim T ![] hb c j) (a j) (b j) = a j
  rw [broadcastInDim_scalar_apply hb c j, hc]
  exact select_one _ _

end Broadcasts

/-! ## Slices of the stacked weights and biases -/

section Slices
variable {α : Type}

/-- Block `(l, t)` of the `[3, 3, 128, 128]` weight stack, cut out and flattened to `[128, 128]`, reads the stack
    at `(l, t, c, q)`. -/
theorem wslice_at {l t : Nat} (hl : l < 3) (ht : t < 3) (x : (⟨4, ![3, 3, 128, 128]⟩ : Shape).Idx → α)
    (hs : (⟨4, ![3, 3, 128, 128]⟩ : Shape).Slices ![l, t, 0, 0] ⟨4, ![1, 1, 128, 128]⟩)
    (hc : (⟨4, ![1, 1, 128, 128]⟩ : Shape).ShapeCasts ⟨2, ![128, 128]⟩) (c q : Fin 128) :
    shapeCast ⟨2, ![128, 128]⟩ (extractStridedSlice ⟨4, ![1, 1, 128, 128]⟩ ![l, t, 0, 0] x hs) hc (ix2 c q)
      = x (ix4 (⟨l, hl⟩ : Fin 3) (⟨t, ht⟩ : Fin 3) c q) := by
  refine (shapeCast_apply _ hc (ix2 c q) (ix4 (0 : Fin 1) (0 : Fin 1) c q) ?_).trans ?_
  · rw [Shape.rowMajor_val_four, Shape.rowMajor_val_two]
    show (((0 * 1 + 0) * 128 + c.val) * 128 + q.val) = c.val * 128 + q.val
    simp only [Nat.zero_mul, Nat.zero_add]
  · exact extractStridedSlice_apply _ x hs _ (ix4 (⟨l, hl⟩ : Fin 3) (⟨t, ht⟩ : Fin 3) c q) (fun a => by
      match a with
      | ⟨0, _⟩ => exact (Nat.add_zero _).symm
      | ⟨1, _⟩ => exact (Nat.add_zero _).symm
      | ⟨2, _⟩ => exact (Nat.zero_add _).symm
      | ⟨3, _⟩ => exact (Nat.zero_add _).symm)

/-- Row `l` of a `[3, 128]` table, cut out and flattened to `[128]`, reads the table at `(l, q)`. -/
theorem bslice_at {l : Nat} (hl : l < 3) (x : (⟨2, ![3, 128]⟩ : Shape).Idx → α)
    (hs : (⟨2, ![3, 128]⟩ : Shape).Slices ![l, 0] ⟨2, ![1, 128]⟩)
    (hc : (⟨2, ![1, 128]⟩ : Shape).ShapeCasts ⟨1, ![128]⟩) (q : Fin 128) :
    shapeCast ⟨1, ![128]⟩ (extractStridedSlice ⟨2, ![1, 128]⟩ ![l, 0] x hs) hc (ix1 q) = x (ix2 (⟨l, hl⟩ : Fin 3) q) :=
  (shapeCast_1a_a_apply _ hc q).trans
    (slice2_axis0_apply l x hs (0 : Fin 1) q (⟨l, hl⟩ : Fin 3) (Nat.add_zero l).symm)

end Slices

/-! ## Arithmetic on entries that are real numbers -/

section Lift
variable {s : Shape}

theorem addf_at (a b : FVec Ideal s .f32) (i : s.Idx) {x y : ℝ} (ha : a i = ((x : ℝ) : EReal)) (hb : b i = ((y : ℝ) : EReal)) :
    addf a b i = ((x + y : ℝ) : EReal) := by
  show a i + b i = _
  rw [ha, hb]; exact Cert.Hand.Math.coe_add_coe x y

theorem subf_at (a b : FVec Ideal s .f32) (i : s.Idx) {x y : ℝ} (ha : a i = ((x : ℝ) : EReal)) (hb : b i = ((y : ℝ) : EReal)) :
    subf a b i = ((x - y : ℝ) : EReal) := by
  show a i - b i = _
  rw [ha, hb]; exact Cert.Hand.Math.coe_sub_coe x y

theorem mulf_at (a b : FVec Ideal s .f32) (i : s.Idx) {x y : ℝ} (ha : a i = ((x : ℝ) : EReal)) (hb : b i = ((y : ℝ) : EReal)) :
    mulf a b i = ((x * y : ℝ) : EReal) := by
  show a i * b i = _
  rw [ha, hb]; exact Cert.Hand.Math.coe_mul_coe x y

theorem negf_at (a : FVec Ideal s .f32) (i : s.Idx) {x : ℝ} (ha : a i = ((x : ℝ) : EReal)) :
    Host.negf a i = ((-x : ℝ) : EReal) := by
  show -(a i) = _
  rw [ha]; exact Cert.Hand.Math.neg_coe x

theorem maximumf_at (a b : FVec Ideal s .f32) (i : s.Idx) {x y : ℝ} (ha : a i = ((x : ℝ) : EReal)) (hb : b i = ((y : ℝ) : EReal)) :
    maximumf a b i = ((max x y : ℝ) : EReal) := by
  show max (a i) (b i) = _
  rw [ha, hb]; exact Cert.Hand.Math.max_coe_coe x y

theorem divf_at (a b : FVec Ideal s .f32) (i : s.Idx) {x y : ℝ} (ha : a i = ((x : ℝ) : EReal)) (hb : b i = ((y : ℝ) : EReal))
    (hy : y ≠ 0) : Host.divf a b i = ((x / y : ℝ) : EReal) := by
  show Ideal.div (a i) (b i) = _
  rw [ha, hb]; exact Cert.Hand.Math.div_coe_coe x hy

theorem rsqrt_at (a : FVec Ideal s .f32) (i : s.Idx) {x : ℝ} (ha : a i = ((x : ℝ) : EReal)) (hx : 0 < x) :
    Host.rsqrt a i = ((Spec.rsq x : ℝ) : EReal) := by
  show Ideal.rsqrt (a i) = _
  rw [ha]; exact Cert.Hand.Math.rsqrt_coe_of_pos hx

end Lift

/-! ## Sums -/

/-- The sum over the features of a row of real entries. -/
theorem rowSum_at (x : FVec Ideal S50000x128 .f32) (init : FVec Ideal S_ .f32) (p : Fin 50000) (r : Fin 128 → ℝ)
    (hx : ∀ q : Fin 128, x (ix2 p q) = ((r q : ℝ) : EReal)) (hi : init (Shape.Idx.first h_S_) = 0) :
    Host.reduceAdd x init reducesTo_S50000x128_S50000_d1 h_S_ (ix1 p) = ((∑ q : Fin 128, r q : ℝ) : EReal) := by
  have hR : S50000x128.Reduces [1] S50000 := by decide
  refine ((hostReduceAdd_apply x init reducesTo_S50000x128_S50000_d1 h_S_ (ix1 p)).trans
    (Ideal.hostReduceAdd_single reducesTo_S50000x128_S50000_d1 hR x _ (ix1 p))).trans ?_
  rw [hi, zero_add]
  have e : ∀ k : Fin 128, x (hR.lift (ix1 p) k) = ((r k : ℝ) : EReal) := fun k => by
    have hl : hR.lift (ix1 p) k = ix2 p k := by
      funext a
      match a with
      | ⟨0, _⟩ => exact Fin.ext rfl
      | ⟨1, _⟩ => exact Fin.ext rfl
    rw [hl]; exact hx k
  exact (Finset.sum_congr rfl fun k _ => e k).trans (Cert.Hand.Math.sum_coe Finset.univ r)

/-- The sum over the nodes of a column of real entries. -/
theorem colSum_at (x : FVec Ideal S50000x128 .f32) (init : FVec Ideal S_ .f32) (q : Fin 128) (r : Fin 50000 → ℝ)
    (hx : ∀ p : Fin 50000, x (ix2 p q) = ((r p : ℝ) : EReal)) (hi : init (Shape.Idx.first h_S_) = 0) :
    Host.reduceAdd x init reducesTo_S50000x128_S128_d0 h_S_ (ix1 q) = ((∑ p : Fin 50000, r p : ℝ) : EReal) := by
  have hR : S50000x128.Reduces [0] S128 := by decide
  refine ((hostReduceAdd_apply x init reducesTo_S50000x128_S128_d0 h_S_ (ix1 q)).trans
    (Ideal.hostReduceAdd_single reducesTo_S50000x128_S128_d0 hR x _ (ix1 q))).trans ?_
  rw [hi, zero_add]
  have e : ∀ k : Fin 50000, x (hR.lift (ix1 q) k) = ((r k : ℝ) : EReal) := fun k => by
    have hl : hR.lift (ix1 q) k = ix2 k q := by
      funext a
      match a with
      | ⟨0, _⟩ => exact Fin.ext rfl
      | ⟨1, _⟩ => exact Fin.ext rfl
    rw [hl]; exact hx k
  exact (Finset.sum_congr rfl fun k _ => e k).trans (Cert.Hand.Math.sum_coe Finset.univ r)

/-- A node table times a weight matrix, entries real: the real matrix product. -/
theorem dot_at (A : FVec Ideal S50000x128 .f32) (B : FVec Ideal S128x128 .f32) (p : Fin 50000) (q : Fin 128)
    (a b : Fin 128 → ℝ) (hA : ∀ c : Fin 128, A (ix2 p c) = ((a c : ℝ) : EReal))
    (hB : ∀ c : Fin 128, B (ix2 c q) = ((b c : ℝ) : EReal)) :
    Host.dotGeneral dot_S50000x128_S128x128_S50000x128_1_0_0_1_n_n none A B (ix2 p q)
      = ((∑ c : Fin 128, a c * b c : ℝ) : EReal) := by
  refine (StackMember.dotGeneral_plain_apply none A B p q).trans ?_
  refine (Finset.sum_congr rfl fun c _ => ?_).trans (Cert.Hand.Math.sum_coe Finset.univ fun c => a c * b c)
  rw [hA c, hB c]; exact Cert.Hand.Math.coe_mul_coe _ _

end Cert.ReferenceIdeal.HandVal

end
-- ==== Proof.RefVal.W0Ops.lean ====
/-
  Window 0 of the reference program in seven pieces: the window's operations, in order, are the pieces' operations
  in order, so running the window is running the pieces one after the other.
-/
import proofs.«160050_j32744830665390_2_alg».proof.Proof.RefVal.WBase

set_option maxHeartbeats 1000000

noncomputable section

namespace Cert.ReferenceIdeal.HandVal

open Cert.ReferenceIdeal Cert.ReferenceIdeal.Gen Cert.ReferenceIdeal.HandRun
open Idealize.ShloMosaic Idealize.ShloMosaic.TcCoe Idealize.SL.Sem Idealize.ShloMosaic.StableHlo Idealize.ShloMosaic.ValueIdx
open Cert.Hand Cert.Hand.Bridge
open scoped BigOperators

/-- Operations 1 … 4 of window 0. -/
abbrev c0A : List (HloOp τ sig (Elt Ideal)) :=
  [
    unary main_arg13 main_v0 ((extractStridedSlice S1x800000 ![0, 0] · slices_S2x800000_S1x800000_0_0) : IVec S2x800000 32 → IVec S1x800000 32),
    reshape main_v0 main_v1 rfl shapeCasts_S1x800000_S800000,
    unary main_arg13 main_v2 ((extractStridedSlice S1x800000 ![1, 0] · slices_S2x800000_S1x800000_1_0) : IVec S2x800000 32 → IVec S1x800000 32),
    reshape main_v2 main_v3 rfl shapeCasts_S1x800000_S800000 ]

/-- Operations 5 … 21 of window 0. -/
abbrev c0B : List (HloOp τ sig (Elt Ideal)) :=
  [
    nullary main_cst (constant (F := Ideal) S_ .f32 0x3F800000#32),
    unary main_cst main_v4 (broadcastInDim S800000 ![] bcast_S_S800000 : FVec Ideal S_ .f32 → FVec Ideal S800000 .f32),
    nullary main_cst_0 (constant (F := Ideal) S_ .f32 0x00000000#32),
    unary main_cst_0 main_v5 (broadcastInDim S50000 ![] bcast_S_S50000 : FVec Ideal S_ .f32 → FVec Ideal S50000 .f32),
    unary main_v1 main_v6 (broadcastInDim S800000x1 ![0] bcast_S800000_S800000x1_0 : IVec S800000 32 → IVec S800000x1 32),
    ternary main_v5 main_v6 main_v4 main_v7 ((fun x i u => Host.scatterAdd scatter_S50000_S800000x1_S800000_n_0_0_1 x i u) : FVec Ideal S50000 .f32 → IVec S800000x1 32 → FVec Ideal S800000 .f32 → FVec Ideal S50000 .f32),
    nullary main_cst_1 (constant (F := Ideal) S_ .f32 0x00000000#32),
    unary main_cst_1 main_v8 (broadcastInDim S50000 ![] bcast_S_S50000 : FVec Ideal S_ .f32 → FVec Ideal S50000 .f32),
    binary main_v7 main_v8 main_v9 (cmpf .ogt : FVec Ideal S50000 .f32 → FVec Ideal S50000 .f32 → IVec S50000 1),
    nullary main_cst_2 (constant (F := Ideal) S_ .f32 0x3F800000#32),
    unary main_cst_2 main_v10 (broadcastInDim S50000 ![] bcast_S_S50000 : FVec Ideal S_ .f32 → FVec Ideal S50000 .f32),
    binary main_v7 main_v10 main_v11 (maximumf : FVec Ideal S50000 .f32 → FVec Ideal S50000 .f32 → FVec Ideal S50000 .f32),
    unary main_v11 main_v12 (Host.rsqrt : FVec Ideal S50000 .f32 → FVec Ideal S50000 .f32),
    nullary main_cst_3 (constant (F := Ideal) S_ .f32 0x00000000#32),
    TRef.unary (TRef.of main_cst_3 : TRef sig ⟨S_, .f32⟩) main_call0.v0 (id : FVec Ideal S_ .f32 → FVec Ideal S_ .f32),
    TRef.unary main_call0.v0 main_call0.v1 ((broadcastInDim S50000 ![] bcast_S_S50000) : FVec Ideal S_ .f32 → FVec Ideal S50000 .f32),
    TRef.ternary (TRef.of main_v9 : TRef sig ⟨S50000, .i1⟩) (TRef.of main_v12 : TRef sig ⟨S50000, .f32⟩) main_call0.v1 main_call0.v2 (select : IVec S50000 1 → FVec Ideal S50000 .f32 → FVec Ideal S50000 .f32 → FVec Ideal S50000 .f32) ]

/-- Operations 22 … 41 of window 0. -/
abbrev c0C : List (HloOp τ sig (Elt Ideal)) :=
  [
    nullary main_c (constantI S_ 32 0#32),
    unary main_c main_v14 (broadcastInDim S800000 ![] bcast_S_S800000 : IVec S_ 32 → IVec S800000 32),
    binary main_v1 main_v14 main_v15 (cmpi .slt : IVec S800000 32 → IVec S800000 32 → IVec S800000 1),
    nullary main_c_4 (constantI S_ 32 50000#32),
    unary main_c_4 main_v16 (broadcastInDim S800000 ![] bcast_S_S800000 : IVec S_ 32 → IVec S800000 32),
    binary main_v1 main_v16 main_v17 (addi : IVec S800000 32 → IVec S800000 32 → IVec S800000 32),
    ternary main_v15 main_v17 main_v1 main_v18 (select : IVec S800000 1 → IVec S800000 32 → IVec S800000 32 → IVec S800000 32),
    unary main_v18 main_v19 (broadcastInDim S800000x1 ![0] bcast_S800000_S800000x1_0 : IVec S800000 32 → IVec S800000x1 32),
    binary main_v13 main_v19 main_v20 ((fun x i => Host.gather gather_S50000_S800000x1_S800000_n_0_n_n_0_1_1 x i) : FVec Ideal S50000 .f32 → IVec S800000x1 32 → FVec Ideal S800000 .f32),
    unary main_v20 main_v21 (Host.negf : FVec Ideal S800000 .f32 → FVec Ideal S800000 .f32),
    nullary main_c_5 (constantI S_ 32 0#32),
    unary main_c_5 main_v22 (broadcastInDim S800000 ![] bcast_S_S800000 : IVec S_ 32 → IVec S800000 32),
    binary main_v3 main_v22 main_v23 (cmpi .slt : IVec S800000 32 → IVec S800000 32 → IVec S800000 1),
    nullary main_c_6 (constantI S_ 32 50000#32),
    unary main_c_6 main_v24 (broadcastInDim S800000 ![] bcast_S_S800000 : IVec S_ 32 → IVec S800000 32),
    binary main_v3 main_v24 main_v25 (addi : IVec S800000 32 → IVec S800000 32 → IVec S800000 32),
    ternary main_v23 main_v25 main_v3 main_v26 (select : IVec S800000 1 → IVec S800000 32 → IVec S800000 32 → IVec S800000 32),
    unary main_v26 main_v27 (broadcastInDim S800000x1 ![0] bcast_S800000_S800000x1_0 : IVec S800000 32 → IVec S800000x1 32),
    binary main_v13 main_v27 main_v28 ((fun x i => Host.gather gather_S50000_S800000x1_S800000_n_0_n_n_0_1_1 x i) : FVec Ideal S50000 .f32 → IVec S800000x1 32 → FVec Ideal S800000 .f32),
    binary main_v21 main_v28 main_v29 (mulf : FVec Ideal S800000 .f32 → FVec Ideal S800000 .f32 → FVec Ideal S800000 .f32) ]

/-- Operations 42 … 45 of window 0. -/
abbrev c0D : List (HloOp τ sig (Elt Ideal)) :=
  [
    binary main_arg0 main_arg1 main_v30 ((fun l r => Host.dotGeneral dot_S50000x128_S128x128_S50000x128_1_0_0_1_n_n none l r) : FVec Ideal S50000x128 .f32 → FVec Ideal S128x128 .f32 → FVec Ideal S50000x128 .f32),
    unary main_arg2 main_v31 (broadcastInDim S1x128 ![1] bcast_S128_S1x128_1 : FVec Ideal S128 .f32 → FVec Ideal S1x128 .f32),
    unary main_v31 main_v32 (broadcastInDim S50000x128 ![0, 1] bcast_S1x128_S50000x128_0_1 : FVec Ideal S1x128 .f32 → FVec Ideal S50000x128 .f32),
    binary main_v30 main_v32 main_v33 (addf : FVec Ideal S50000x128 .f32 → FVec Ideal S50000x128 .f32 → FVec Ideal S50000x128 .f32) ]

/-- Operations 46 … 51 of window 0. -/
abbrev c0E : List (HloOp τ sig (Elt Ideal)) :=
  [
    nullary main_cst_7 (constant (F := Ideal) S_ .f32 0x00000000#32),
    binary main_v33 main_cst_7 main_v34 ((fun x v => Host.reduceAdd x v reducesTo_S50000x128_S50000_d1 h_S_) : FVec Ideal S50000x128 .f32 → FVec Ideal S_ .f32 → FVec Ideal S50000 .f32),
    unary main_v34 main_v35 (broadcastInDim S50000x1 ![0] bcast_S50000_S50000x1_0 : FVec Ideal S50000 .f32 → FVec Ideal S50000x1 .f32),
    nullary main_cst_8 (constant (F := Ideal) S_ .f32 0x43000000#32),
    unary main_cst_8 main_v36 (broadcastInDim S50000x1 ![] bcast_S_S50000x1 : FVec Ideal S_ .f32 → FVec Ideal S50000x1 .f32),
    binary main_v35 main_v36 main_v37 (Host.divf : FVec Ideal S50000x1 .f32 → FVec Ideal S50000x1 .f32 → FVec Ideal S50000x1 .f32) ]

/-- Operations 52 … 75 of window 0. -/
abbrev c0F : List (HloOp τ sig (Elt Ideal)) :=
  [
    nullary main_c_9 (constantI S_ 32 0#32),
    TRef.nullary main_call1.cst (constant (F := Ideal) S_ .f32 0x00000000#32),
    TRef.binary (TRef.of main_v33 : TRef sig ⟨S50000x128, .f32⟩) main_call1.cst main_call1.v0 ((fun x v => Host.reduceAdd x v reducesTo_S50000x128_S50000_d1 h_S_) : FVec Ideal S50000x128 .f32 → FVec Ideal S_ .f32 → FVec Ideal S50000 .f32),
    TRef.unary main_call1.v0 main_call1.v1 ((broadcastInDim S50000x1 ![0] bcast_S50000_S50000x1_0) : FVec Ideal S50000 .f32 → FVec Ideal S50000x1 .f32),
    TRef.nullary main_call1.cst_0 (constant (F := Ideal) S_ .f32 0x43000000#32),
    TRef.unary main_call1.cst_0 main_call1.v2 ((broadcastInDim S50000x1 ![] bcast_S_S50000x1) : FVec Ideal S_ .f32 → FVec Ideal S50000x1 .f32),
    TRef.binary main_call1.v1 main_call1.v2 main_call1.v3 (Host.divf : FVec Ideal S50000x1 .f32 → FVec Ideal S50000x1 .f32 → FVec Ideal S50000x1 .f32),
    TRef.unary main_call1.v3 main_call1.v4 ((broadcastInDim S50000x128 ![0, 1] bcast_S50000x1_S50000x128_0_1) : FVec Ideal S50000x1 .f32 → FVec Ideal S50000x128 .f32),
    TRef.binary (TRef.of main_v33 : TRef sig ⟨S50000x128, .f32⟩) main_call1.v4 main_call1.v5 (subf : FVec Ideal S50000x128 .f32 → FVec Ideal S50000x128 .f32 → FVec Ideal S50000x128 .f32),
    TRef.binary main_call1.v5 main_call1.v5 main_call1.v6 (mulf : FVec Ideal S50000x128 .f32 → FVec Ideal S50000x128 .f32 → FVec Ideal S50000x128 .f32),
    TRef.unary (TRef.of main_c_9 : TRef sig ⟨S_, .i32⟩) main_call1.v7 ((sitofp .f32) : IVec S_ 32 → FVec Ideal S_ .f32),
    TRef.nullary main_call1.cst_1 (constant (F := Ideal) S_ .f32 0x43000000#32),
    TRef.binary main_call1.cst_1 main_call1.v7 main_call1.v8 (subf : FVec Ideal S_ .f32 → FVec Ideal S_ .f32 → FVec Ideal S_ .f32),
    TRef.nullary main_call1.cst_2 (constant (F := Ideal) S_ .f32 0x00000000#32),
    TRef.binary main_call1.v6 main_call1.cst_2 main_call1.v9 ((fun x v => Host.reduceAdd x v reducesTo_S50000x128_S50000_d1 h_S_) : FVec Ideal S50000x128 .f32 → FVec Ideal S_ .f32 → FVec Ideal S50000 .f32),
    TRef.unary main_call1.v9 main_call1.v10 ((broadcastInDim S50000x1 ![0] bcast_S50000_S50000x1_0) : FVec Ideal S50000 .f32 → FVec Ideal S50000x1 .f32),
    TRef.unary main_call1.v8 main_call1.v11 ((broadcastInDim S50000x1 ![] bcast_S_S50000x1) : FVec Ideal S_ .f32 → FVec Ideal S50000x1 .f32),
    TRef.binary main_call1.v10 main_call1.v11 main_call1.v12 (Host.divf : FVec Ideal S50000x1 .f32 → FVec Ideal S50000x1 .f32 → FVec Ideal S50000x1 .f32),
    TRef.nullary main_call1.cst_3 (constant (F := Ideal) S_ .f32 0x00000000#32),
    TRef.binary main_call1.v8 main_call1.cst_3 main_call1.v13 ((cmpf .ogt) : FVec Ideal S_ .f32 → FVec Ideal S_ .f32 → IVec S_ 1),
    TRef.nullary main_call1.cst_4 (constant (F := Ideal) S_ .f32 0x7FC00000#32),
    TRef.unary main_call1.cst_4 main_call1.call0.v0 (id : FVec Ideal S_ .f32 → FVec Ideal S_ .f32),
    TRef.unary main_call1.call0.v0 main_call1.call0.v1 ((broadcastInDim S50000x1 ![] bcast_S_S50000x1) : FVec Ideal S_ .f32 → FVec Ideal S50000x1 .f32),
    TRef.ternary main_call1.v13 main_call1.v12 main_call1.call0.v1 main_call1.call0.v2 ((fun p a b => select (broadcastInDim S50000x1 ![] bcast_S_S50000x1 p) a b) : IVec S_ 1 → FVec Ideal S50000x1 .f32 → FVec Ideal S50000x1 .f32 → FVec Ideal S50000x1 .f32) ]

/-- Operations 76 … 84 of window 0. -/
abbrev c0G : List (HloOp τ sig (Elt Ideal)) :=
  [
    unary main_v37 main_v39 (broadcastInDim S50000x128 ![0, 1] bcast_S50000x1_S50000x128_0_1 : FVec Ideal S50000x1 .f32 → FVec Ideal S50000x128 .f32),
    binary main_v33 main_v39 main_v40 (subf : FVec Ideal S50000x128 .f32 → FVec Ideal S50000x128 .f32 → FVec Ideal S50000x128 .f32),
    nullary main_cst_10 (constant (F := Ideal) S_ .f32 0x3727C5AC#32),
    unary main_cst_10 main_v41 (broadcastInDim S50000x1 ![] bcast_S_S50000x1 : FVec Ideal S_ .f32 → FVec Ideal S50000x1 .f32),
    binary main_v38 main_v41 main_v42 (addf : FVec Ideal S50000x1 .f32 → FVec Ideal S50000x1 .f32 → FVec Ideal S50000x1 .f32),
    unary main_v42 main_v43 (Host.rsqrt : FVec Ideal S50000x1 .f32 → FVec Ideal S50000x1 .f32),
    unary main_v43 main_v44 (broadcastInDim S50000x128 ![0, 1] bcast_S50000x1_S50000x128_0_1 : FVec Ideal S50000x1 .f32 → FVec Ideal S50000x128 .f32),
    binary main_v40 main_v44 main_v45 (mulf : FVec Ideal S50000x128 .f32 → FVec Ideal S50000x128 .f32 → FVec Ideal S50000x128 .f32),
    unary main_arg3 main_v46 (broadcastInDim S1x128 ![1] bcast_S128_S1x128_1 : FVec Ideal S128 .f32 → FVec Ideal S1x128 .f32) ]

set_option maxRecDepth 16384 in
/-- The window is its pieces in order. -/
theorem ops0_split : (ops0 : List (HloOp τ sig (Elt Ideal))) = c0A ++ (c0B ++ (c0C ++ (c0D ++ (c0E ++ (c0F ++ (c0G)))))) := rfl

/-- Running the window is running its pieces in order. -/
theorem ops0_after (V : Valuation τ sig (Elt Ideal)) :
    after (ops0 : List (HloOp τ sig (Elt Ideal))) V = after c0G (after c0F (after c0E (after c0D (after c0C (after c0B (after c0A (V))))))) := by
  rw [ops0_split]; simp only [after_append]

end Cert.ReferenceIdeal.HandVal

end
-- ==== Proof.RefVal.W0EqA.lean ====
/-
  Window 0, pieces A to D (the edge ends, the out-degree and its inverse square root, the edge weights, the
  embedding's affine map): each buffer a piece writes is its operation applied to the buffers it reads, and the
  buffers a piece does not write are as they were.
-/
import proofs.«160050_j32744830665390_2_alg».proof.Proof.RefVal.W0Ops

set_option maxHeartbeats 1000000

noncomputable section

namespace Cert.ReferenceIdeal.HandVal

open Cert.ReferenceIdeal Cert.ReferenceIdeal.Gen Cert.ReferenceIdeal.HandRun
open Idealize.ShloMosaic Idealize.ShloMosaic.TcCoe Idealize.SL.Sem Idealize.ShloMosaic.StableHlo Idealize.ShloMosaic.ValueIdx
open Cert.Hand Cert.Hand.Bridge
open scoped BigOperators

/-! ### Piece A: each buffer it writes, as its operation applied to the buffers it reads -/

theorem e0A_v0 (V : Valuation τ sig (Elt Ideal)) :
    after c0A V (Proc.devRef .tc main_v0) = ((extractStridedSlice S1x800000 ![0, 0] · slices_S2x800000_S1x800000_0_0) : IVec S2x800000 32 → IVec S1x800000 32) (V (Proc.devRef .tc main_arg13)) := by ssa_eq
theorem e0A_v1 (V : Valuation τ sig (Elt Ideal)) :
    after c0A V (Proc.devRef .tc main_v1) = (shapeCast S800000 (after c0A V (Proc.devRef .tc main_v0)) shapeCasts_S1x800000_S800000 : IVec S800000 32) := by ssa_eq
theorem e0A_v2 (V : Valuation τ sig (Elt Ideal)) :
    after c0A V (Proc.devRef .tc main_v2) = ((extractStridedSlice S1x800000 ![1, 0] · slices_S2x800000_S1x800000_1_0) : IVec S2x800000 32 → IVec S1x800000 32) (V (Proc.devRef .tc main_arg13)) := by ssa_eq
theorem e0A_v3 (V : Valuation τ sig (Elt Ideal)) :
    after c0A V (Proc.devRef .tc main_v3) = (shapeCast S800000 (after c0A V (Proc.devRef .tc main_v2)) shapeCasts_S1x800000_S800000 : IVec S800000 32) := by ssa_eq

/-! ### Piece B: each buffer it writes, as its operation applied to the buffers it reads -/

theorem e0B_cst (V : Valuation τ sig (Elt Ideal)) :
    after c0B V (Proc.devRef .tc main_cst) = (constant (F := Ideal) S_ .f32 0x3F800000#32 : FVec Ideal S_ .f32) := by ssa_eq
theorem e0B_v4 (V : Valuation τ sig (Elt Ideal)) :
    after c0B V (Proc.devRef .tc main_v4) = (broadcastInDim S800000 ![] bcast_S_S800000 : FVec Ideal S_ .f32 → FVec Ideal S800000 .f32) (after c0B V (Proc.devRef .tc main_cst)) := by ssa_eq
theorem e0B_cst_0 (V : Valuation τ sig (Elt Ideal)) :
    after c0B V (Proc.devRef .tc main_cst_0) = (constant (F := Ideal) S_ .f32 0x00000000#32 : FVec Ideal S_ .f32) := by ssa_eq
theorem e0B_v5 (V : Valuation τ sig (Elt Ideal)) :
    after c0B V (Proc.devRef .tc main_v5) = (broadcastInDim S50000 ![] bcast_S_S50000 : FVec Ideal S_ .f32 → FVec Ideal S50000 .f32) (after c0B V (Proc.devRef .tc main_cst_0)) := by ssa_eq
theorem e0B_v6 (V : Valuation τ sig (Elt Ideal)) :
    after c0B V (Proc.devRef .tc main_v6) = (broadcastInDim S800000x1 ![0] bcast_S800000_S800000x1_0 : IVec S800000 32 → IVec S800000x1 32) (V (Proc.devRef .tc main_v1)) := by ssa_eq
theorem e0B_v7 (V : Valuation τ sig (Elt Ideal)) :
    after c0B V (Proc.devRef .tc main_v7) = ((fun x i u => Host.scatterAdd scatter_S50000_S800000x1_S800000_n_0_0_1 x i u) : FVec Ideal S50000 .f32 → IVec S800000x1 32 → FVec Ideal S800000 .f32 → FVec Ideal S50000 .f32) (after c0B V (Proc.devRef .tc main_v5)) (after c0B V (Proc.devRef .tc main_v6)) (after c0B V (Proc.devRef .tc main_v4)) := by ssa_eq
theorem e0B_cst_1 (V : Valuation τ sig (Elt Ideal)) :
    after c0B V (Proc.devRef .tc main_cst_1) = (constant (F := Ideal) S_ .f32 0x00000000#32 : FVec Ideal S_ .f32) := by ssa_eq
theorem e0B_v8 (V : Valuation τ sig (Elt Ideal)) :
    after c0B V (Proc.devRef .tc main_v8) = (broadcastInDim S50000 ![] bcast_S_S50000 : FVec Ideal S_ .f32 → FVec Ideal S50000 .f32) (after c0B V (Proc.devRef .tc main_cst_1)) := by ssa_eq
theorem e0B_v9 (V : Valuation τ sig (Elt Ideal)) :
    after c0B V (Proc.devRef .tc main_v9) = (cmpf .ogt : FVec Ideal S50000 .f32 → FVec Ideal S50000 .f32 → IVec S50000 1) (after c0B V (Proc.devRef .tc main_v7)) (after c0B V (Proc.devRef .tc main_v8)) := by ssa_eq
theorem e0B_cst_2 (V : Valuation τ sig (Elt Ideal)) :
    after c0B V (Proc.devRef .tc main_cst_2) = (constant (F := Ideal) S_ .f32 0x3F800000#32 : FVec Ideal S_ .f32) := by ssa_eq
theorem e0B_v10 (V : Valuation τ sig (Elt Ideal)) :
    after c0B V (Proc.devRef .tc main_v10) = (broadcastInDim S50000 ![] bcast_S_S50000 : FVec Ideal S_ .f32 → FVec Ideal S50000 .f32) (after c0B V (Proc.devRef .tc main_cst_2)) := by ssa_eq
theorem e0B_v11 (V : Valuation τ sig (Elt Ideal)) :
    after c0B V (Proc.devRef .tc main_v11) = (maximumf : FVec Ideal S50000 .f32 → FVec Ideal S50000 .f32 → FVec Ideal S50000 .f32) (after c0B V (Proc.devRef .tc main_v7)) (after c0B V (Proc.devRef .tc main_v10)) := by ssa_eq
theorem e0B_v12 (V : Valuation τ sig (Elt Ideal)) :
    after c0B V (Proc.devRef .tc main_v12) = (Host.rsqrt : FVec Ideal S50000 .f32 → FVec Ideal S50000 .f32) (after c0B V (Proc.devRef .tc main_v11)) := by ssa_eq
theorem e0B_cst_3 (V : Valuation τ sig (Elt Ideal)) :
    after c0B V (Proc.devRef .tc main_cst_3) = (constant (F := Ideal) S_ .f32 0x00000000#32 : FVec Ideal S_ .f32) := by ssa_eq
theorem e0B_call0_v0 (V : Valuation τ sig (Elt Ideal)) :
    after c0B V (Proc.devRef .tc main_call0_v0) = (id : FVec Ideal S_ .f32 → FVec Ideal S_ .f32) (after c0B V (Proc.devRef .tc main_cst_3)) := by ssa_eq
theorem e0B_call0_v1 (V : Valuation τ sig (Elt Ideal)) :
    after c0B V (Proc.devRef .tc main_call0_v1) = ((broadcastInDim S50000 ![] bcast_S_S50000) : FVec Ideal S_ .f32 → FVec Ideal S50000 .f32) (after c0B V (Proc.devRef .tc main_call0_v0)) := by ssa_eq
theorem e0B_v13 (V : Valuation τ sig (Elt Ideal)) :
    after c0B V (Proc.devRef .tc main_v13) = (select : IVec S50000 1 → FVec Ideal S50000 .f32 → FVec Ideal S50000 .f32 → FVec Ideal S50000 .f32) (after c0B V (Proc.devRef .tc main_v9)) (after c0B V (Proc.devRef .tc main_v12)) (after c0B V (Proc.devRef .tc main_call0_v1)) := by ssa_eq

/-! ### Piece C: each buffer it writes, as its operation applied to the buffers it reads -/

theorem e0C_c (V : Valuation τ sig (Elt Ideal)) :
    after c0C V (Proc.devRef .tc main_c) = (constantI S_ 32 0#32 : IVec S_ 32) := by ssa_eq
theorem e0C_v14 (V : Valuation τ sig (Elt Ideal)) :
    after c0C V (Proc.devRef .tc main_v14) = (broadcastInDim S800000 ![] bcast_S_S800000 : IVec S_ 32 → IVec S800000 32) (after c0C V (Proc.devRef .tc main_c)) := by ssa_eq
theorem e0C_v15 (V : Valuation τ sig (Elt Ideal)) :
    after c0C V (Proc.devRef .tc main_v15) = (cmpi .slt : IVec S800000 32 → IVec S800000 32 → IVec S800000 1) (V (Proc.devRef .tc main_v1)) (after c0C V (Proc.devRef .tc main_v14)) := by ssa_eq
theorem e0C_c_4 (V : Valuation τ sig (Elt Ideal)) :
    after c0C V (Proc.devRef .tc main_c_4) = (constantI S_ 32 50000#32 : IVec S_ 32) := by ssa_eq
theorem e0C_v16 (V : Valuation τ sig (Elt Ideal)) :
    after c0C V (Proc.devRef .tc main_v16) = (broadcastInDim S800000 ![] bcast_S_S800000 : IVec S_ 32 → IVec S800000 32) (after c0C V (Proc.devRef .tc main_c_4)) := by ssa_eq
theorem e0C_v17 (V : Valuation τ sig (Elt Ideal)) :
    after c0C V (Proc.devRef .tc main_v17) = (addi : IVec S800000 32 → IVec S800000 32 → IVec S800000 32) (V (Proc.devRef .tc main_v1)) (after c0C V (Proc.devRef .tc main_v16)) := by ssa_eq
theorem e0C_v18 (V : Valuation τ sig (Elt Ideal)) :
    after c0C V (Proc.devRef .tc main_v18) = (select : IVec S800000 1 → IVec S800000 32 → IVec S800000 32 → IVec S800000 32) (after c0C V (Proc.devRef .tc main_v15)) (after c0C V (Proc.devRef .tc main_v17)) (V (Proc.devRef .tc main_v1)) := by ssa_eq
theorem e0C_v19 (V : Valuation τ sig (Elt Ideal)) :
    after c0C V (Proc.devRef .tc main_v19) = (broadcastInDim S800000x1 ![0] bcast_S800000_S800000x1_0 : IVec S800000 32 → IVec S800000x1 32) (after c0C V (Proc.devRef .tc main_v18)) := by ssa_eq
theorem e0C_v20 (V : Valuation τ sig (Elt Ideal)) :
    after c0C V (Proc.devRef .tc main_v20) = ((fun x i => Host.gather gather_S50000_S800000x1_S800000_n_0_n_n_0_1_1 x i) : FVec Ideal S50000 .f32 → IVec S800000x1 32 → FVec Ideal S800000 .f32) (V (Proc.devRef .tc main_v13)) (after c0C V (Proc.devRef .tc main_v19)) := by ssa_eq
theorem e0C_v21 (V : Valuation τ sig (Elt Ideal)) :
    after c0C V (Proc.devRef .tc main_v21) = (Host.negf : FVec Ideal S800000 .f32 → FVec Ideal S800000 .f32) (after c0C V (Proc.devRef .tc main_v20)) := by ssa_eq
theorem e0C_c_5 (V : Valuation τ sig (Elt Ideal)) :
    after c0C V (Proc.devRef .tc main_c_5) = (constantI S_ 32 0#32 : IVec S_ 32) := by ssa_eq
theorem e0C_v22 (V : Valuation τ sig (Elt Ideal)) :
    after c0C V (Proc.devRef .tc main_v22) = (broadcastInDim S800000 ![] bcast_S_S800000 : IVec S_ 32 → IVec S800000 32) (after c0C V (Proc.devRef .tc main_c_5)) := by ssa_eq
theorem e0C_v23 (V : Valuation τ sig (Elt Ideal)) :
    after c0C V (Proc.devRef .tc main_v23) = (cmpi .slt : IVec S800000 32 → IVec S800000 32 → IVec S800000 1) (V (Proc.devRef .tc main_v3)) (after c0C V (Proc.devRef .tc main_v22)) := by ssa_eq
theorem e0C_c_6 (V : Valuation τ sig (Elt Ideal)) :
    after c0C V (Proc.devRef .tc main_c_6) = (constantI S_ 32 50000#32 : IVec S_ 32) := by ssa_eq
theorem e0C_v24 (V : Valuation τ sig (Elt Ideal)) :
    after c0C V (Proc.devRef .tc main_v24) = (broadcastInDim S800000 ![] bcast_S_S800000 : IVec S_ 32 → IVec S800000 32) (after c0C V (Proc.devRef .tc main_c_6)) := by ssa_eq
theorem e0C_v25 (V : Valuation τ sig (Elt Ideal)) :
    after c0C V (Proc.devRef .tc main_v25) = (addi : IVec S800000 32 → IVec S800000 32 → IVec S800000 32) (V (Proc.devRef .tc main_v3)) (after c0C V (Proc.devRef .tc main_v24)) := by ssa_eq
theorem e0C_v26 (V : Valuation τ sig (Elt Ideal)) :
    after c0C V (Proc.devRef .tc main_v26) = (select : IVec S800000 1 → IVec S800000 32 → IVec S800000 32 → IVec S800000 32) (after c0C V (Proc.devRef .tc main_v23)) (after c0C V (Proc.devRef .tc main_v25)) (V (Proc.devRef .tc main_v3)) := by ssa_eq
theorem e0C_v27 (V : Valuation τ sig (Elt Ideal)) :
    after c0C V (Proc.devRef .tc main_v27) = (broadcastInDim S800000x1 ![0] bcast_S800000_S800000x1_0 : IVec S800000 32 → IVec S800000x1 32) (after c0C V (Proc.devRef .tc main_v26)) := by ssa_eq
theorem e0C_v28 (V : Valuation τ sig (Elt Ideal)) :
    after c0C V (Proc.devRef .tc main_v28) = ((fun x i => Host.gather gather_S50000_S800000x1_S800000_n_0_n_n_0_1_1 x i) : FVec Ideal S50000 .f32 → IVec S800000x1 32 → FVec Ideal S800000 .f32) (V (Proc.devRef .tc main_v13)) (after c0C V (Proc.devRef .tc main_v27)) := by ssa_eq
theorem e0C_v29 (V : Valuation τ sig (Elt Ideal)) :
    after c0C V (Proc.devRef .tc main_v29) = (mulf : FVec Ideal S800000 .f32 → FVec Ideal S800000 .f32 → FVec Ideal S800000 .f32) (after c0C V (Proc.devRef .tc main_v21)) (after c0C V (Proc.devRef .tc main_v28)) := by ssa_eq

/-! ### Piece D: each buffer it writes, as its operation applied to the buffers it reads -/

theorem e0D_v30 (V : Valuation τ sig (Elt Ideal)) :
    after c0D V (Proc.devRef .tc main_v30) = ((fun l r => Host.dotGeneral dot_S50000x128_S128x128_S50000x128_1_0_0_1_n_n none l r) : FVec Ideal S50000x128 .f32 → FVec Ideal S128x128 .f32 → FVec Ideal S50000x128 .f32) (V (Proc.devRef .tc main_arg0)) (V (Proc.devRef .tc main_arg1)) := by ssa_eq
theorem e0D_v31 (V : Valuation τ sig (Elt Ideal)) :
    after c0D V (Proc.devRef .tc main_v31) = (broadcastInDim S1x128 ![1] bcast_S128_S1x128_1 : FVec Ideal S128 .f32 → FVec Ideal S1x128 .f32) (V (Proc.devRef .tc main_arg2)) := by ssa_eq
theorem e0D_v32 (V : Valuation τ sig (Elt Ideal)) :
    after c0D V (Proc.devRef .tc main_v32) = (broadcastInDim S50000x128 ![0, 1] bcast_S1x128_S50000x128_0_1 : FVec Ideal S1x128 .f32 → FVec Ideal S50000x128 .f32) (after c0D V (Proc.devRef .tc main_v31)) := by ssa_eq
theorem e0D_v33 (V : Valuation τ sig (Elt Ideal)) :
    after c0D V (Proc.devRef .tc main_v33) = (addf : FVec Ideal S50000x128 .f32 → FVec Ideal S50000x128 .f32 → FVec Ideal S50000x128 .f32) (after c0D V (Proc.devRef .tc main_v30)) (after c0D V (Proc.devRef .tc main_v32)) := by ssa_eq

/-! ### Buffers piece A leaves as they were -/

theorem k0A_arg0 (V : Valuation τ sig (Elt Ideal)) : after c0A V (Proc.devRef .tc main_arg0) = V (Proc.devRef .tc main_arg0) := by after_results_simp
theorem k0A_arg1 (V : Valuation τ sig (Elt Ideal)) : after c0A V (Proc.devRef .tc main_arg1) = V (Proc.devRef .tc main_arg1) := by after_results_simp
theorem k0A_arg2 (V : Valuation τ sig (Elt Ideal)) : after c0A V (Proc.devRef .tc main_arg2) = V (Proc.devRef .tc main_arg2) := by after_results_simp
theorem k0A_arg3 (V : Valuation τ sig (Elt Ideal)) : after c0A V (Proc.devRef .tc main_arg3) = V (Proc.devRef .tc main_arg3) := by after_results_simp

/-! ### Buffers piece B leaves as they were -/

theorem k0B_v1 (V : Valuation τ sig (Elt Ideal)) : after c0B V (Proc.devRef .tc main_v1) = V (Proc.devRef .tc main_v1) := by after_results_simp
theorem k0B_v3 (V : Valuation τ sig (Elt Ideal)) : after c0B V (Proc.devRef .tc main_v3) = V (Proc.devRef .tc main_v3) := by after_results_simp
theorem k0B_arg0 (V : Valuation τ sig (Elt Ideal)) : after c0B V (Proc.devRef .tc main_arg0) = V (Proc.devRef .tc main_arg0) := by after_results_simp
theorem k0B_arg1 (V : Valuation τ sig (Elt Ideal)) : after c0B V (Proc.devRef .tc main_arg1) = V (Proc.devRef .tc main_arg1) := by after_results_simp
theorem k0B_arg2 (V : Valuation τ sig (Elt Ideal)) : after c0B V (Proc.devRef .tc main_arg2) = V (Proc.devRef .tc main_arg2) := by after_results_simp
theorem k0B_arg3 (V : Valuation τ sig (Elt Ideal)) : after c0B V (Proc.devRef .tc main_arg3) = V (Proc.devRef .tc main_arg3) := by after_results_simp

/-! ### Buffers piece C leaves as they were -/

theorem k0C_v1 (V : Valuation τ sig (Elt Ideal)) : after c0C V (Proc.devRef .tc main_v1) = V (Proc.devRef .tc main_v1) := by after_results_simp
theorem k0C_v3 (V : Valuation τ sig (Elt Ideal)) : after c0C V (Proc.devRef .tc main_v3) = V (Proc.devRef .tc main_v3) := by after_results_simp
theorem k0C_arg0 (V : Valuation τ sig (Elt Ideal)) : after c0C V (Proc.devRef .tc main_arg0) = V (Proc.devRef .tc main_arg0) := by after_results_simp
theorem k0C_arg1 (V : Valuation τ sig (Elt Ideal)) : after c0C V (Proc.devRef .tc main_arg1) = V (Proc.devRef .tc main_arg1) := by after_results_simp
theorem k0C_arg2 (V : Valuation τ sig (Elt Ideal)) : after c0C V (Proc.devRef .tc main_arg2) = V (Proc.devRef .tc main_arg2) := by after_results_simp
theorem k0C_arg3 (V : Valuation τ sig (Elt Ideal)) : after c0C V (Proc.devRef .tc main_arg3) = V (Proc.devRef .tc main_arg3) := by after_results_simp

/-! ### Buffers piece D leaves as they were -/

theorem k0D_v1 (V : Valuation τ sig (Elt Ideal)) : after c0D V (Proc.devRef .tc main_v1) = V (Proc.devRef .tc main_v1) := by after_results_simp
theorem k0D_v3 (V : Valuation τ sig (Elt Ideal)) : after c0D V (Proc.devRef .tc main_v3) = V (Proc.devRef .tc main_v3) := by after_results_simp
theorem k0D_v29 (V : Valuation τ sig (Elt Ideal)) : after c0D V (Proc.devRef .tc main_v29) = V (Proc.devRef .tc main_v29) := by after_results_simp
theorem k0D_arg3 (V : Valuation τ sig (Elt Ideal)) : after c0D V (Proc.devRef .tc main_arg3) = V (Proc.devRef .tc main_arg3) := by after_results_simp

end Cert.ReferenceIdeal.HandVal

end
-- ==== Proof.RefVal.W0EqB.lean ====
/-
  Window 0, pieces E to G (the rows' means, the rows' variances, the rows centred and scaled): each buffer a piece
  writes is its operation applied to the buffers it reads, and the buffers a piece does not write are as they were.
-/
import proofs.«160050_j32744830665390_2_alg».proof.Proof.RefVal.W0Ops

set_option maxHeartbeats 1000000

noncomputable section

namespace Cert.ReferenceIdeal.HandVal

open Cert.ReferenceIdeal Cert.ReferenceIdeal.Gen Cert.ReferenceIdeal.HandRun
open Idealize.ShloMosaic Idealize.ShloMosaic.TcCoe Idealize.SL.Sem Idealize.ShloMosaic.StableHlo Idealize.ShloMosaic.ValueIdx
open Cert.Hand Cert.Hand.Bridge
open scoped BigOperators

/-! ### Piece E: each buffer it writes, as its operation applied to the buffers it reads -/

theorem e0E_cst_7 (V : Valuation τ sig (Elt Ideal)) :
    after c0E V (Proc.devRef .tc main_cst_7) = (constant (F := Ideal) S_ .f32 0x00000000#32 : FVec Ideal S_ .f32) := by ssa_eq
theorem e0E_v34 (V : Valuation τ sig (Elt Ideal)) :
    after c0E V (Proc.devRef .tc main_v34) = ((fun x v => Host.reduceAdd x v reducesTo_S50000x128_S50000_d1 h_S_) : FVec Ideal S50000x128 .f32 → FVec Ideal S_ .f32 → FVec Ideal S50000 .f32) (V (Proc.devRef .tc main_v33)) (after c0E V (Proc.devRef .tc main_cst_7)) := by ssa_eq
theorem e0E_v35 (V : Valuation τ sig (Elt Ideal)) :
    after c0E V (Proc.devRef .tc main_v35) = (broadcastInDim S50000x1 ![0] bcast_S50000_S50000x1_0 : FVec Ideal S50000 .f32 → FVec Ideal S50000x1 .f32) (after c0E V (Proc.devRef .tc main_v34)) := by ssa_eq
theorem e0E_cst_8 (V : Valuation τ sig (Elt Ideal)) :
    after c0E V (Proc.devRef .tc main_cst_8) = (constant (F := Ideal) S_ .f32 0x43000000#32 : FVec Ideal S_ .f32) := by ssa_eq
theorem e0E_v36 (V : Valuation τ sig (Elt Ideal)) :
    after c0E V (Proc.devRef .tc main_v36) = (broadcastInDim S50000x1 ![] bcast_S_S50000x1 : FVec Ideal S_ .f32 → FVec Ideal S50000x1 .f32) (after c0E V (Proc.devRef .tc main_cst_8)) := by ssa_eq
theorem e0E_v37 (V : Valuation τ sig (Elt Ideal)) :
    after c0E V (Proc.devRef .tc main_v37) = (Host.divf : FVec Ideal S50000x1 .f32 → FVec Ideal S50000x1 .f32 → FVec Ideal S50000x1 .f32) (after c0E V (Proc.devRef .tc main_v35)) (after c0E V (Proc.devRef .tc main_v36)) := by ssa_eq

/-! ### Piece F: each buffer it writes, as its operation applied to the buffers it reads -/

theorem e0F_c_9 (V : Valuation τ sig (Elt Ideal)) :
    after c0F V (Proc.devRef .tc main_c_9) = (constantI S_ 32 0#32 : IVec S_ 32) := by ssa_eq
theorem e0F_call1_cst (V : Valuation τ sig (Elt Ideal)) :
    after c0F V (Proc.devRef .tc main_call1_cst) = (constant (F := Ideal) S_ .f32 0x00000000#32 : FVec Ideal S_ .f32) := by ssa_eq
theorem e0F_call1_v0 (V : Valuation τ sig (Elt Ideal)) :
    after c0F V (Proc.devRef .tc main_call1_v0) = ((fun x v => Host.reduceAdd x v reducesTo_S50000x128_S50000_d1 h_S_) : FVec Ideal S50000x128 .f32 → FVec Ideal S_ .f32 → FVec Ideal S50000 .f32) (V (Proc.devRef .tc main_v33)) (after c0F V (Proc.devRef .tc main_call1_cst)) := by ssa_eq
theorem e0F_call1_v1 (V : Valuation τ sig (Elt Ideal)) :
    after c0F V (Proc.devRef .tc main_call1_v1) = ((broadcastInDim S50000x1 ![0] bcast_S50000_S50000x1_0) : FVec Ideal S50000 .f32 → FVec Ideal S50000x1 .f32) (after c0F V (Proc.devRef .tc main_call1_v0)) := by ssa_eq
theorem e0F_call1_cst_0 (V : Valuation τ sig (Elt Ideal)) :
    after c0F V (Proc.devRef .tc main_call1_cst_0) = (constant (F := Ideal) S_ .f32 0x43000000#32 : FVec Ideal S_ .f32) := by ssa_eq
theorem e0F_call1_v2 (V : Valuation τ sig (Elt Ideal)) :
    after c0F V (Proc.devRef .tc main_call1_v2) = ((broadcastInDim S50000x1 ![] bcast_S_S50000x1) : FVec Ideal S_ .f32 → FVec Ideal S50000x1 .f32) (after c0F V (Proc.devRef .tc main_call1_cst_0)) := by ssa_eq
theorem e0F_call1_v3 (V : Valuation τ sig (Elt Ideal)) :
    after c0F V (Proc.devRef .tc main_call1_v3) = (Host.divf : FVec Ideal S50000x1 .f32 → FVec Ideal S50000x1 .f32 → FVec Ideal S50000x1 .f32) (after c0F V (Proc.devRef .tc main_call1_v1)) (after c0F V (Proc.devRef .tc main_call1_v2)) := by ssa_eq
theorem e0F_call1_v4 (V : Valuation τ sig (Elt Ideal)) :
    after c0F V (Proc.devRef .tc main_call1_v4) = ((broadcastInDim S50000x128 ![0, 1] bcast_S50000x1_S50000x128_0_1) : FVec Ideal S50000x1 .f32 → FVec Ideal S50000x128 .f32) (after c0F V (Proc.devRef .tc main_call1_v3)) := by ssa_eq
theorem e0F_call1_v5 (V : Valuation τ sig (Elt Ideal)) :
    after c0F V (Proc.devRef .tc main_call1_v5) = (subf : FVec Ideal S50000x128 .f32 → FVec Ideal S50000x128 .f32 → FVec Ideal S50000x128 .f32) (V (Proc.devRef .tc main_v33)) (after c0F V (Proc.devRef .tc main_call1_v4)) := by ssa_eq
theorem e0F_call1_v6 (V : Valuation τ sig (Elt Ideal)) :
    after c0F V (Proc.devRef .tc main_call1_v6) = (mulf : FVec Ideal S50000x128 .f32 → FVec Ideal S50000x128 .f32 → FVec Ideal S50000x128 .f32) (after c0F V (Proc.devRef .tc main_call1_v5)) (after c0F V (Proc.devRef .tc main_call1_v5)) := by ssa_eq
theorem e0F_call1_v7 (V : Valuation τ sig (Elt Ideal)) :
    after c0F V (Proc.devRef .tc main_call1_v7) = ((sitofp .f32) : IVec S_ 32 → FVec Ideal S_ .f32) (after c0F V (Proc.devRef .tc main_c_9)) := by ssa_eq
theorem e0F_call1_cst_1 (V : Valuation τ sig (Elt Ideal)) :
    after c0F V (Proc.devRef .tc main_call1_cst_1) = (constant (F := Ideal) S_ .f32 0x43000000#32 : FVec Ideal S_ .f32) := by ssa_eq
theorem e0F_call1_v8 (V : Valuation τ sig (Elt Ideal)) :
    after c0F V (Proc.devRef .tc main_call1_v8) = (subf : FVec Ideal S_ .f32 → FVec Ideal S_ .f32 → FVec Ideal S_ .f32) (after c0F V (Proc.devRef .tc main_call1_cst_1)) (after c0F V (Proc.devRef .tc main_call1_v7)) := by ssa_eq
theorem e0F_call1_cst_2 (V : Valuation τ sig (Elt Ideal)) :
    after c0F V (Proc.devRef .tc main_call1_cst_2) = (constant (F := Ideal) S_ .f32 0x00000000#32 : FVec Ideal S_ .f32) := by ssa_eq
theorem e0F_call1_v9 (V : Valuation τ sig (Elt Ideal)) :
    after c0F V (Proc.devRef .tc main_call1_v9) = ((fun x v => Host.reduceAdd x v reducesTo_S50000x128_S50000_d1 h_S_) : FVec Ideal S50000x128 .f32 → FVec Ideal S_ .f32 → FVec Ideal S50000 .f32) (after c0F V (Proc.devRef .tc main_call1_v6)) (after c0F V (Proc.devRef .tc main_call1_cst_2)) := by ssa_eq
theorem e0F_call1_v10 (V : Valuation τ sig (Elt Ideal)) :
    after c0F V (Proc.devRef .tc main_call1_v10) = ((broadcastInDim S50000x1 ![0] bcast_S50000_S50000x1_0) : FVec Ideal S50000 .f32 → FVec Ideal S50000x1 .f32) (after c0F V (Proc.devRef .tc main_call1_v9)) := by ssa_eq
theorem e0F_call1_v11 (V : Valuation τ sig (Elt Ideal)) :
    after c0F V (Proc.devRef .tc main_call1_v11) = ((broadcastInDim S50000x1 ![] bcast_S_S50000x1) : FVec Ideal S_ .f32 → FVec Ideal S50000x1 .f32) (after c0F V (Proc.devRef .tc main_call1_v8)) := by ssa_eq
theorem e0F_call1_v12 (V : Valuation τ sig (Elt Ideal)) :
    after c0F V (Proc.devRef .tc main_call1_v12) = (Host.divf : FVec Ideal S50000x1 .f32 → FVec Ideal S50000x1 .f32 → FVec Ideal S50000x1 .f32) (after c0F V (Proc.devRef .tc main_call1_v10)) (after c0F V (Proc.devRef .tc main_call1_v11)) := by ssa_eq
theorem e0F_call1_cst_3 (V : Valuation τ sig (Elt Ideal)) :
    after c0F V (Proc.devRef .tc main_call1_cst_3) = (constant (F := Ideal) S_ .f32 0x00000000#32 : FVec Ideal S_ .f32) := by ssa_eq
theorem e0F_call1_v13 (V : Valuation τ sig (Elt Ideal)) :
    after c0F V (Proc.devRef .tc main_call1_v13) = ((cmpf .ogt) : FVec Ideal S_ .f32 → FVec Ideal S_ .f32 → IVec S_ 1) (after c0F V (Proc.devRef .tc main_call1_v8)) (after c0F V (Proc.devRef .tc main_call1_cst_3)) := by ssa_eq
theorem e0F_call1_cst_4 (V : Valuation τ sig (Elt Ideal)) :
    after c0F V (Proc.devRef .tc main_call1_cst_4) = (constant (F := Ideal) S_ .f32 0x7FC00000#32 : FVec Ideal S_ .f32) := by ssa_eq
theorem e0F_call1_call0_v0 (V : Valuation τ sig (Elt Ideal)) :
    after c0F V (Proc.devRef .tc main_call1_call0_v0) = (id : FVec Ideal S_ .f32 → FVec Ideal S_ .f32) (after c0F V (Proc.devRef .tc main_call1_cst_4)) := by ssa_eq
theorem e0F_call1_call0_v1 (V : Valuation τ sig (Elt Ideal)) :
    after c0F V (Proc.devRef .tc main_call1_call0_v1) = ((broadcastInDim S50000x1 ![] bcast_S_S50000x1) : FVec Ideal S_ .f32 → FVec Ideal S50000x1 .f32) (after c0F V (Proc.devRef .tc main_call1_call0_v0)) := by ssa_eq
theorem e0F_v38 (V : Valuation τ sig (Elt Ideal)) :
    after c0F V (Proc.devRef .tc main_v38) = ((fun p a b => select (broadcastInDim S50000x1 ![] bcast_S_S50000x1 p) a b) : IVec S_ 1 → FVec Ideal S50000x1 .f32 → FVec Ideal S50000x1 .f32 → FVec Ideal S50000x1 .f32) (after c0F V (Proc.devRef .tc main_call1_v13)) (after c0F V (Proc.devRef .tc main_call1_v12)) (after c0F V (Proc.devRef .tc main_call1_call0_v1)) := by ssa_eq

/-! ### Piece G: each buffer it writes, as its operation applied to the buffers it reads -/

theorem e0G_v39 (V : Valuation τ sig (Elt Ideal)) :
    after c0G V (Proc.devRef .tc main_v39) = (broadcastInDim S50000x128 ![0, 1] bcast_S50000x1_S50000x128_0_1 : FVec Ideal S50000x1 .f32 → FVec Ideal S50000x128 .f32) (V (Proc.devRef .tc main_v37)) := by ssa_eq
theorem e0G_v40 (V : Valuation τ sig (Elt Ideal)) :
    after c0G V (Proc.devRef .tc main_v40) = (subf : FVec Ideal S50000x128 .f32 → FVec Ideal S50000x128 .f32 → FVec Ideal S50000x128 .f32) (V (Proc.devRef .tc main_v33)) (after c0G V (Proc.devRef .tc main_v39)) := by ssa_eq
theorem e0G_cst_10 (V : Valuation τ sig (Elt Ideal)) :
    after c0G V (Proc.devRef .tc main_cst_10) = (constant (F := Ideal) S_ .f32 0x3727C5AC#32 : FVec Ideal S_ .f32) := by ssa_eq
theorem e0G_v41 (V : Valuation τ sig (Elt Ideal)) :
    after c0G V (Proc.devRef .tc main_v41) = (broadcastInDim S50000x1 ![] bcast_S_S50000x1 : FVec Ideal S_ .f32 → FVec Ideal S50000x1 .f32) (after c0G V (Proc.devRef .tc main_cst_10)) := by ssa_eq
theorem e0G_v42 (V : Valuation τ sig (Elt Ideal)) :
    after c0G V (Proc.devRef .tc main_v42) = (addf : FVec Ideal S50000x1 .f32 → FVec Ideal S50000x1 .f32 → FVec Ideal S50000x1 .f32) (V (Proc.devRef .tc main_v38)) (after c0G V (Proc.devRef .tc main_v41)) := by ssa_eq
theorem e0G_v43 (V : Valuation τ sig (Elt Ideal)) :
    after c0G V (Proc.devRef .tc main_v43) = (Host.rsqrt : FVec Ideal S50000x1 .f32 → FVec Ideal S50000x1 .f32) (after c0G V (Proc.devRef .tc main_v42)) := by ssa_eq
theorem e0G_v44 (V : Valuation τ sig (Elt Ideal)) :
    after c0G V (Proc.devRef .tc main_v44) = (broadcastInDim S50000x128 ![0, 1] bcast_S50000x1_S50000x128_0_1 : FVec Ideal S50000x1 .f32 → FVec Ideal S50000x128 .f32) (after c0G V (Proc.devRef .tc main_v43)) := by ssa_eq
theorem e0G_v45 (V : Valuation τ sig (Elt Ideal)) :
    after c0G V (Proc.devRef .tc main_v45) = (mulf : FVec Ideal S50000x128 .f32 → FVec Ideal S50000x128 .f32 → FVec Ideal S50000x128 .f32) (after c0G V (Proc.devRef .tc main_v40)) (after c0G V (Proc.devRef .tc main_v44)) := by ssa_eq
theorem e0G_v46 (V : Valuation τ sig (Elt Ideal)) :
    after c0G V (Proc.devRef .tc main_v46) = (broadcastInDim S1x128 ![1] bcast_S128_S1x128_1 : FVec Ideal S128 .f32 → FVec Ideal S1x128 .f32) (V (Proc.devRef .tc main_arg3)) := by ssa_eq

/-! ### Buffers piece E leaves as they were -/

theorem k0E_v1 (V : Valuation τ sig (Elt Ideal)) : after c0E V (Proc.devRef .tc main_v1) = V (Proc.devRef .tc main_v1) := by after_results_simp
theorem k0E_v3 (V : Valuation τ sig (Elt Ideal)) : after c0E V (Proc.devRef .tc main_v3) = V (Proc.devRef .tc main_v3) := by after_results_simp
theorem k0E_v29 (V : Valuation τ sig (Elt Ideal)) : after c0E V (Proc.devRef .tc main_v29) = V (Proc.devRef .tc main_v29) := by after_results_simp
theorem k0E_v33 (V : Valuation τ sig (Elt Ideal)) : after c0E V (Proc.devRef .tc main_v33) = V (Proc.devRef .tc main_v33) := by after_results_simp
theorem k0E_arg3 (V : Valuation τ sig (Elt Ideal)) : after c0E V (Proc.devRef .tc main_arg3) = V (Proc.devRef .tc main_arg3) := by after_results_simp

/-! ### Buffers piece F leaves as they were -/

theorem k0F_v1 (V : Valuation τ sig (Elt Ideal)) : after c0F V (Proc.devRef .tc main_v1) = V (Proc.devRef .tc main_v1) := by after_results_simp
theorem k0F_v3 (V : Valuation τ sig (Elt Ideal)) : after c0F V (Proc.devRef .tc main_v3) = V (Proc.devRef .tc main_v3) := by after_results_simp
theorem k0F_v29 (V : Valuation τ sig (Elt Ideal)) : after c0F V (Proc.devRef .tc main_v29) = V (Proc.devRef .tc main_v29) := by after_results_simp
theorem k0F_v37 (V : Valuation τ sig (Elt Ideal)) : after c0F V (Proc.devRef .tc main_v37) = V (Proc.devRef .tc main_v37) := by after_results_simp
theorem k0F_v33 (V : Valuation τ sig (Elt Ideal)) : after c0F V (Proc.devRef .tc main_v33) = V (Proc.devRef .tc main_v33) := by after_results_simp
theorem k0F_arg3 (V : Valuation τ sig (Elt Ideal)) : after c0F V (Proc.devRef .tc main_arg3) = V (Proc.devRef .tc main_arg3) := by after_results_simp

/-! ### Buffers piece G leaves as they were -/

theorem k0G_v1 (V : Valuation τ sig (Elt Ideal)) : after c0G V (Proc.devRef .tc main_v1) = V (Proc.devRef .tc main_v1) := by after_results_simp
theorem k0G_v3 (V : Valuation τ sig (Elt Ideal)) : after c0G V (Proc.devRef .tc main_v3) = V (Proc.devRef .tc main_v3) := by after_results_simp
theorem k0G_v29 (V : Valuation τ sig (Elt Ideal)) : after c0G V (Proc.devRef .tc main_v29) = V (Proc.devRef .tc main_v29) := by after_results_simp

end Cert.ReferenceIdeal.HandVal

end
-- ==== Proof.RefVal.W0.lean ====
/-
  Window 0 of the reference program, read as real tables.

  From the edge table: its two rows are the edge ends.  A scatter-add of ones along the sources counts each node's
  out-degree d; dinv is d^(-1/2), and 0 at a node no edge leaves; an edge's weight is -dinv(src)·dinv(dst).
  From the features: x·W_in + b_in, each row's mean and its variance as the mean of squared deviations (the outlined
  variance function divides by 128 - 0 and selects on 128 - 0 > 0, which holds), and the rows centred and scaled by
  (variance + ε)^(-1/2).  The layer norm's gain is laid out as a row for the next window.

  The window's operations are taken in seven pieces (the modules this one imports read each piece's buffers as the
  operation that writes them applied to the buffers it reads); here each piece is read as real tables, and the
  pieces are chained through the buffers they leave untouched.
-/
import proofs.«160050_j32744830665390_2_alg».proof.Proof.RefVal.W0EqA
import proofs.«160050_j32744830665390_2_alg».proof.Proof.RefVal.W0EqB
import proofs.«160050_j32744830665390_2_alg».proof.Proof.Val.GatherScatter
import proofs.«160050_j32744830665390_2_alg».proof.Proof.Val.Ends

set_option maxHeartbeats 1000000

noncomputable section

namespace Cert.ReferenceIdeal.HandVal

open Cert.ReferenceIdeal Cert.ReferenceIdeal.Gen Cert.ReferenceIdeal.HandRun
open Idealize.ShloMosaic Idealize.ShloMosaic.TcCoe Idealize.SL.Sem Idealize.ShloMosaic.StableHlo Idealize.ShloMosaic.ValueIdx
open Cert.Hand Cert.Hand.Bridge
open scoped BigOperators

/-! ## Piece A: the two rows of the edge table -/

theorem c0A_ends (V : Valuation τ sig (Elt Ideal)) (I : Spec.Inputs)
    (h13 : EdgeRows (V (Proc.devRef .tc main_arg13)) I.src I.dst) :
    Ends (after c0A V (Proc.devRef .tc main_v1)) I.src ∧ Ends (after c0A V (Proc.devRef .tc main_v3)) I.dst := by
  obtain ⟨hr, hs, hd⟩ := h13
  constructor
  · rw [e0A_v1, e0A_v0]
    have hsrc : (fun e => node (V (Proc.devRef .tc main_arg13) (ix2 (0 : Fin 2) e))) = I.src := funext hs
    rw [← hsrc]
    exact Cert.Hand.Val.ends_row0 (V (Proc.devRef .tc main_arg13)) slices_S2x800000_S1x800000_0_0 shapeCasts_S1x800000_S800000 hr
  · rw [e0A_v3, e0A_v2]
    have hdst : (fun e => node (V (Proc.devRef .tc main_arg13) (ix2 (1 : Fin 2) e))) = I.dst := funext hd
    rw [← hdst]
    exact Cert.Hand.Val.ends_row1 (V (Proc.devRef .tc main_arg13)) slices_S2x800000_S1x800000_1_0 shapeCasts_S1x800000_S800000 hr

/-! ## Piece B: the out-degree and its inverse square root -/

/-- The ordered comparison of two entries that are real numbers is the bit of the real comparison. -/
theorem cmpf_ogt_at {s : Shape} (a b : FVec Ideal s .f32) (i : s.Idx) {x y : ℝ}
    (ha : a i = ((x : ℝ) : EReal)) (hb : b i = ((y : ℝ) : EReal)) :
    cmpf .ogt a b i = BitVec.ofBool (decide (y < x)) := by
  show Ideal.cmp .ogt (a i) (b i) = _
  rw [ha, hb]; exact Cert.Hand.Math.cmp_ogt_coe_coe x y

theorem c0B_dinv (V : Valuation τ sig (Elt Ideal)) (I : Spec.Inputs)
    (hv1 : Ends (V (Proc.devRef .tc main_v1)) I.src) :
    Holds1 (after c0B V (Proc.devRef .tc main_v13)) (Spec.dinv I) := by
  have h5 : ∀ j, after c0B V (Proc.devRef .tc main_v5) j = (0 : EReal) := fun j => by
    rw [e0B_v5, e0B_cst_0]; exact (splat_apply _ _ j).trans Cert.Hand.Math.ofBits_f32_zero'
  have h4 : ∀ j, after c0B V (Proc.devRef .tc main_v4) j = ((1 : ℝ) : EReal) := fun j => by
    rw [e0B_v4, e0B_cst]; exact (splat_apply _ _ j).trans Cert.Hand.Math.ofBits_f32_one
  have h7 : ∀ n : Fin 50000, after c0B V (Proc.devRef .tc main_v7) (ix1 n) = ((Spec.degOut I n : ℝ) : EReal) := fun n => by
    rw [e0B_v7, e0B_v6]
    refine (Cert.Hand.Val.scatterVec_of_names _ _ _ _ I.src (Cert.Hand.Val.names_bcast _ hv1) n).trans ?_
    rw [h5, zero_add]
    show _ = ((∑ e : Fin 800000, if I.src e = n then (1 : ℝ) else 0 : ℝ) : EReal)
    rw [Cert.Hand.Math.coe_finset_sum]
    refine Finset.sum_congr rfl fun e _ => ?_
    rw [h4]
    exact Cert.Hand.Math.ite_coe_coe _ 1 0
  have h8 : ∀ j, after c0B V (Proc.devRef .tc main_v8) j = ((0 : ℝ) : EReal) := fun j => by
    rw [e0B_v8, e0B_cst_1]; exact (splat_apply _ _ j).trans Cert.Hand.Math.ofBits_f32_zero
  have h10 : ∀ j, after c0B V (Proc.devRef .tc main_v10) j = ((1 : ℝ) : EReal) := fun j => by
    rw [e0B_v10, e0B_cst_2]; exact (splat_apply _ _ j).trans Cert.Hand.Math.ofBits_f32_one
  have h11 : ∀ n : Fin 50000, after c0B V (Proc.devRef .tc main_v11) (ix1 n) = ((max (Spec.degOut I n) 1 : ℝ) : EReal) := fun n => by
    rw [e0B_v11]; exact maximumf_at _ _ _ (h7 n) (h10 _)
  have h12 : ∀ n : Fin 50000, after c0B V (Proc.devRef .tc main_v12) (ix1 n) = ((Spec.rsq (max (Spec.degOut I n) 1) : ℝ) : EReal) := fun n => by
    rw [e0B_v12]; exact rsqrt_at _ _ (h11 n) (lt_of_lt_of_le one_pos (le_max_right _ _))
  have h0 : ∀ j, after c0B V (Proc.devRef .tc main_call0_v1) j = ((0 : ℝ) : EReal) := fun j => by
    rw [e0B_call0_v1, e0B_call0_v0, e0B_cst_3]; exact (splat_apply _ _ j).trans Cert.Hand.Math.ofBits_f32_zero
  have h9 : ∀ n : Fin 50000,
      after c0B V (Proc.devRef .tc main_v9) (ix1 n) = BitVec.ofBool (decide ((0 : ℝ) < Spec.degOut I n)) := fun n => by
    rw [e0B_v9]; exact cmpf_ogt_at _ _ _ (h7 n) (h8 _)
  refine holds1_of fun n => ?_
  rw [e0B_v13]
  show Scalar.select (after c0B V (Proc.devRef .tc main_v9) (ix1 n)) (after c0B V (Proc.devRef .tc main_v12) (ix1 n)) (after c0B V (Proc.devRef .tc main_call0_v1) (ix1 n)) = _
  rw [h9 n, h12 n, h0, Cert.Hand.Math.select_ofBool_decide]
  exact Cert.Hand.Math.ite_coe_coe _ _ _

/-! ## Piece C: the edge weights -/

theorem c0C_wEdge (V : Valuation τ sig (Elt Ideal)) (I : Spec.Inputs)
    (hv1 : Ends (V (Proc.devRef .tc main_v1)) I.src) (hv3 : Ends (V (Proc.devRef .tc main_v3)) I.dst)
    (h13 : Holds1 (V (Proc.devRef .tc main_v13)) (Spec.dinv I)) :
    Holds1 (after c0C V (Proc.devRef .tc main_v29)) (Spec.wEdge I) := by
  have h20 : ∀ e : Fin 800000, after c0C V (Proc.devRef .tc main_v20) (ix1 e) = ((Spec.dinv I (I.src e) : ℝ) : EReal) := fun e => by
    rw [e0C_v20, e0C_v19, e0C_v18, e0C_v15, e0C_v17, e0C_v14, e0C_v16, e0C_c, e0C_c_4]
    exact (Cert.Hand.Val.gatherVec_of_names _ _ _ I.src (Cert.Hand.Val.names_wrap_bcast _ _ _ hv1) e).trans
      (holds1_at h13 (I.src e))
  have h21 : ∀ e : Fin 800000, after c0C V (Proc.devRef .tc main_v21) (ix1 e) = ((-(Spec.dinv I (I.src e)) : ℝ) : EReal) := fun e => by
    rw [e0C_v21]; exact negf_at _ _ (h20 e)
  have h28 : ∀ e : Fin 800000, after c0C V (Proc.devRef .tc main_v28) (ix1 e) = ((Spec.dinv I (I.dst e) : ℝ) : EReal) := fun e => by
    rw [e0C_v28, e0C_v27, e0C_v26, e0C_v23, e0C_v25, e0C_v22, e0C_v24, e0C_c_5, e0C_c_6]
    exact (Cert.Hand.Val.gatherVec_of_names _ _ _ I.dst (Cert.Hand.Val.names_wrap_bcast _ _ _ hv3) e).trans
      (holds1_at h13 (I.dst e))
  refine holds1_of fun e => ?_
  rw [e0C_v29]
  exact mulf_at _ _ _ (h21 e) (h28 e)

/-! ## Piece D: the embedding's affine map -/

theorem c0D_embPre (V : Valuation τ sig (Elt Ideal)) (I : Spec.Inputs)
    (h0 : Holds2 (V (Proc.devRef .tc main_arg0)) I.x) (h1 : Holds2 (V (Proc.devRef .tc main_arg1)) I.wIn) (h2 : Holds1 (V (Proc.devRef .tc main_arg2)) I.bIn) :
    Holds2 (after c0D V (Proc.devRef .tc main_v33)) (Spec.embPre I) := by
  have h30 : ∀ (p : Fin 50000) (q : Fin 128), after c0D V (Proc.devRef .tc main_v30) (ix2 p q) = ((Spec.lin I.x I.wIn p q : ℝ) : EReal) :=
    fun p q => by
      rw [e0D_v30]
      exact dot_at _ _ p q (fun c => I.x p c) (fun c => I.wIn c q) (fun c => holds2_at h0 p c) (fun c => holds2_at h1 c q)
  have h31 : ∀ (u : Fin 1) (q : Fin 128), after c0D V (Proc.devRef .tc main_v31) (ix2 u q) = ((I.bIn q : ℝ) : EReal) := fun u q => by
    rw [e0D_v31]; exact (bcast_row1_apply (by decide) _ _ u q).trans (holds1_at h2 q)
  have h32 : ∀ (p : Fin 50000) (q : Fin 128), after c0D V (Proc.devRef .tc main_v32) (ix2 p q) = ((I.bIn q : ℝ) : EReal) := fun p q => by
    rw [e0D_v32]; exact (bcast_rowN_apply (by decide) _ _ p q).trans (h31 0 q)
  refine holds2_of fun p q => ?_
  rw [e0D_v33]
  exact addf_at _ _ _ (h30 p q) (h32 p q)

/-! ## Piece E: the rows' means -/

theorem c0E_mean (V : Valuation τ sig (Elt Ideal)) (h : Spec.Hidden)
    (h33 : Holds2 (V (Proc.devRef .tc main_v33)) h) (p : Fin 50000) :
    after c0E V (Proc.devRef .tc main_v37) (ix2 p (0 : Fin 1)) = ((Spec.rowMean h p : ℝ) : EReal) := by
  have h34 : ∀ p : Fin 50000, after c0E V (Proc.devRef .tc main_v34) (ix1 p) = ((∑ q : Fin 128, h p q : ℝ) : EReal) := fun p => by
    rw [e0E_v34]
    exact rowSum_at _ _ p (fun q => h p q) (fun q => holds2_at h33 p q)
      (by rw [e0E_cst_7]; exact Cert.Hand.Math.ofBits_f32_zero')
  have h35 : ∀ (p : Fin 50000) (u : Fin 1), after c0E V (Proc.devRef .tc main_v35) (ix2 p u) = ((∑ q : Fin 128, h p q : ℝ) : EReal) :=
    fun p u => by
      rw [e0E_v35]; exact (bcast_col1_apply (by decide) _ _ p u).trans (h34 p)
  have h36 : ∀ j, after c0E V (Proc.devRef .tc main_v36) j = ((128 : ℝ) : EReal) := fun j => by
    rw [e0E_v36, e0E_cst_8]; exact (splat_apply _ _ j).trans Cert.Hand.Math.ofBits_f32_128
  rw [e0E_v37]
  exact divf_at _ _ _ (h35 p 0) (h36 _) (by norm_num)

/-! ## Piece F: the rows' variances, as the outlined variance function spells them -/

theorem c0F_var (V : Valuation τ sig (Elt Ideal)) (h : Spec.Hidden)
    (h33 : Holds2 (V (Proc.devRef .tc main_v33)) h) (p : Fin 50000) :
    after c0F V (Proc.devRef .tc main_v38) (ix2 p (0 : Fin 1)) = ((Spec.rowVar h p : ℝ) : EReal) := by
  have s0 : ∀ p : Fin 50000, after c0F V (Proc.devRef .tc main_call1_v0) (ix1 p) = ((∑ q : Fin 128, h p q : ℝ) : EReal) := fun p => by
    rw [e0F_call1_v0]
    exact rowSum_at _ _ p (fun q => h p q) (fun q => holds2_at h33 p q)
      (by rw [e0F_call1_cst]; exact Cert.Hand.Math.ofBits_f32_zero')
  have s1 : ∀ (p : Fin 50000) (u : Fin 1), after c0F V (Proc.devRef .tc main_call1_v1) (ix2 p u) = ((∑ q : Fin 128, h p q : ℝ) : EReal) :=
    fun p u => by
      rw [e0F_call1_v1]; exact (bcast_col1_apply (by decide) _ _ p u).trans (s0 p)
  have s2 : ∀ j, after c0F V (Proc.devRef .tc main_call1_v2) j = ((128 : ℝ) : EReal) := fun j => by
    rw [e0F_call1_v2, e0F_call1_cst_0]; exact (splat_apply _ _ j).trans Cert.Hand.Math.ofBits_f32_128
  have s3 : ∀ p : Fin 50000, after c0F V (Proc.devRef .tc main_call1_v3) (ix2 p (0 : Fin 1)) = ((Spec.rowMean h p : ℝ) : EReal) := fun p => by
    rw [e0F_call1_v3]; exact divf_at _ _ _ (s1 p 0) (s2 _) (by norm_num)
  have s4 : ∀ (p : Fin 50000) (q : Fin 128), after c0F V (Proc.devRef .tc main_call1_v4) (ix2 p q) = ((Spec.rowMean h p : ℝ) : EReal) :=
    fun p q => by
      rw [e0F_call1_v4]; exact (bcast_colN_apply (by decide) _ _ p q).trans (s3 p)
  have s5 : ∀ (p : Fin 50000) (q : Fin 128),
      after c0F V (Proc.devRef .tc main_call1_v5) (ix2 p q) = ((h p q - Spec.rowMean h p : ℝ) : EReal) := fun p q => by
    rw [e0F_call1_v5]; exact subf_at _ _ _ (holds2_at h33 p q) (s4 p q)
  have s6 : ∀ (p : Fin 50000) (q : Fin 128), after c0F V (Proc.devRef .tc main_call1_v6) (ix2 p q)
      = (((h p q - Spec.rowMean h p) * (h p q - Spec.rowMean h p) : ℝ) : EReal) := fun p q => by
    rw [e0F_call1_v6]; exact mulf_at _ _ _ (s5 p q) (s5 p q)
  have s7 : after c0F V (Proc.devRef .tc main_call1_v7) ix0 = ((0 : ℝ) : EReal) := by
    rw [e0F_call1_v7, e0F_c_9]
    show ((((0#32 : BitVec 32).toInt : ℤ) : ℝ) : EReal) = ((0 : ℝ) : EReal)
    simp
  have c1 : after c0F V (Proc.devRef .tc main_call1_cst_1) ix0 = ((128 : ℝ) : EReal) := by
    rw [e0F_call1_cst_1]; exact Cert.Hand.Math.ofBits_f32_128
  have s8 : after c0F V (Proc.devRef .tc main_call1_v8) ix0 = ((128 : ℝ) : EReal) := by
    rw [e0F_call1_v8]
    refine (subf_at _ _ _ c1 s7).trans ?_
    rw [sub_zero]
  have s9 : ∀ p : Fin 50000, after c0F V (Proc.devRef .tc main_call1_v9) (ix1 p)
      = ((∑ q : Fin 128, (h p q - Spec.rowMean h p) * (h p q - Spec.rowMean h p) : ℝ) : EReal) := fun p => by
    rw [e0F_call1_v9]
    exact rowSum_at _ _ p (fun q => (h p q - Spec.rowMean h p) * (h p q - Spec.rowMean h p)) (fun q => s6 p q)
      (by rw [e0F_call1_cst_2]; exact Cert.Hand.Math.ofBits_f32_zero')
  have s10 : ∀ (p : Fin 50000) (u : Fin 1), after c0F V (Proc.devRef .tc main_call1_v10) (ix2 p u)
      = ((∑ q : Fin 128, (h p q - Spec.rowMean h p) * (h p q - Spec.rowMean h p) : ℝ) : EReal) := fun p u => by
    rw [e0F_call1_v10]; exact (bcast_col1_apply (by decide) _ _ p u).trans (s9 p)
  have s11 : ∀ j, after c0F V (Proc.devRef .tc main_call1_v11) j = ((128 : ℝ) : EReal) := fun j => by
    rw [e0F_call1_v11]; exact (broadcastInDim_scalar_apply _ _ j).trans s8
  have s12 : ∀ p : Fin 50000, after c0F V (Proc.devRef .tc main_call1_v12) (ix2 p (0 : Fin 1)) = ((Spec.rowVar h p : ℝ) : EReal) := fun p => by
    rw [e0F_call1_v12]; exact divf_at _ _ _ (s10 p 0) (s11 _) (by norm_num)
  have c3 : after c0F V (Proc.devRef .tc main_call1_cst_3) ix0 = ((0 : ℝ) : EReal) := by
    rw [e0F_call1_cst_3]; exact Cert.Hand.Math.ofBits_f32_zero
  have s13 : after c0F V (Proc.devRef .tc main_call1_v13) ix0 = 1#1 := by
    rw [e0F_call1_v13]
    show Ideal.cmp .ogt (after c0F V (Proc.devRef .tc main_call1_v8) ix0) (after c0F V (Proc.devRef .tc main_call1_cst_3) ix0) = 1#1
    rw [s8, c3, Cert.Hand.Math.cmp_ogt_coe_coe, decide_eq_true (by norm_num : (0 : ℝ) < 128)]
    rfl
  rw [e0F_v38]
  exact (select_splat_one _ _ s13 _ _ _).trans (s12 p)

/-! ## Piece G: the rows centred and scaled, and the layer norm's gain as a row -/

theorem c0G_norm (V : Valuation τ sig (Elt Ideal)) (I : Spec.Inputs) (h : Spec.Hidden)
    (h33 : Holds2 (V (Proc.devRef .tc main_v33)) h)
    (h37 : ∀ p : Fin 50000, V (Proc.devRef .tc main_v37) (ix2 p (0 : Fin 1)) = ((Spec.rowMean h p : ℝ) : EReal))
    (h38 : ∀ p : Fin 50000, V (Proc.devRef .tc main_v38) (ix2 p (0 : Fin 1)) = ((Spec.rowVar h p : ℝ) : EReal))
    (h3 : Holds1 (V (Proc.devRef .tc main_arg3)) I.lnG) :
    Holds2 (after c0G V (Proc.devRef .tc main_v45)) (rowNorm h eps)
      ∧ Holds2 (after c0G V (Proc.devRef .tc main_v46)) (fun (_ : Fin 1) (k : Fin 128) => I.lnG k) := by
  have g39 : ∀ (p : Fin 50000) (q : Fin 128), after c0G V (Proc.devRef .tc main_v39) (ix2 p q) = ((Spec.rowMean h p : ℝ) : EReal) :=
    fun p q => by
      rw [e0G_v39]; exact (bcast_colN_apply (by decide) _ _ p q).trans (h37 p)
  have g40 : ∀ (p : Fin 50000) (q : Fin 128),
      after c0G V (Proc.devRef .tc main_v40) (ix2 p q) = ((h p q - Spec.rowMean h p : ℝ) : EReal) := fun p q => by
    rw [e0G_v40]; exact subf_at _ _ _ (holds2_at h33 p q) (g39 p q)
  have g41 : ∀ j, after c0G V (Proc.devRef .tc main_v41) j = ((eps : ℝ) : EReal) := fun j => by
    rw [e0G_v41, e0G_cst_10]; exact (splat_apply _ _ j).trans eps_spec.1
  have g42 : ∀ p : Fin 50000, after c0G V (Proc.devRef .tc main_v42) (ix2 p (0 : Fin 1)) = ((Spec.rowVar h p + eps : ℝ) : EReal) := fun p => by
    rw [e0G_v42]; exact addf_at _ _ _ (h38 p) (g41 _)
  have g43 : ∀ p : Fin 50000,
      after c0G V (Proc.devRef .tc main_v43) (ix2 p (0 : Fin 1)) = ((Spec.rsq (Spec.rowVar h p + eps) : ℝ) : EReal) := fun p => by
    rw [e0G_v43]; exact rsqrt_at _ _ (g42 p) (add_pos_of_nonneg_of_pos (rowVar_nonneg h p) eps_spec.2)
  have g44 : ∀ (p : Fin 50000) (q : Fin 128),
      after c0G V (Proc.devRef .tc main_v44) (ix2 p q) = ((Spec.rsq (Spec.rowVar h p + eps) : ℝ) : EReal) := fun p q => by
    rw [e0G_v44]; exact (bcast_colN_apply (by decide) _ _ p q).trans (g43 p)
  constructor
  · refine holds2_of fun p q => ?_
    rw [e0G_v45]
    exact mulf_at _ _ _ (g40 p q) (g44 p q)
  · refine holds2_of fun u q => ?_
    rw [e0G_v46]
    exact (bcast_row1_apply (by decide) _ _ u q).trans (holds1_at h3 q)

/-! ## The window -/

/-- Window 0: from the argument arrays to the edge ends, the edge weights, the embedding's normalised rows and the
    layer norm's gain as a row. -/
theorem stage0 (V : Valuation τ sig (Elt Ideal)) (I : Spec.Inputs)
    (h13 : EdgeRows (V (Proc.devRef .tc main_arg13)) I.src I.dst)
    (h0 : Holds2 (V (Proc.devRef .tc main_arg0)) I.x)
    (h1 : Holds2 (V (Proc.devRef .tc main_arg1)) I.wIn)
    (h2 : Holds1 (V (Proc.devRef .tc main_arg2)) I.bIn)
    (h3 : Holds1 (V (Proc.devRef .tc main_arg3)) I.lnG) :
    Ends (after (ops0 (F := Ideal)) V (Proc.devRef .tc main_v1)) I.src
      ∧ Ends (after (ops0 (F := Ideal)) V (Proc.devRef .tc main_v3)) I.dst
      ∧ Holds1 (after (ops0 (F := Ideal)) V (Proc.devRef .tc main_v29)) (Spec.wEdge I)
      ∧ Holds2 (after (ops0 (F := Ideal)) V (Proc.devRef .tc main_v45)) (embNorm I eps)
      ∧ Holds2 (after (ops0 (F := Ideal)) V (Proc.devRef .tc main_v46)) (fun (_ : Fin 1) (k : Fin 128) => I.lnG k) := by
  rw [ops0_after]
  -- piece A
  obtain ⟨a1, a3⟩ := c0A_ends V I h13
  have a_0 : Holds2 (after c0A V (Proc.devRef .tc main_arg0)) I.x := by rw [k0A_arg0]; exact h0
  have a_1 : Holds2 (after c0A V (Proc.devRef .tc main_arg1)) I.wIn := by rw [k0A_arg1]; exact h1
  have a_2 : Holds1 (after c0A V (Proc.devRef .tc main_arg2)) I.bIn := by rw [k0A_arg2]; exact h2
  have a_3 : Holds1 (after c0A V (Proc.devRef .tc main_arg3)) I.lnG := by rw [k0A_arg3]; exact h3
  generalize after c0A V = V1 at *
  -- piece B
  have b13 := c0B_dinv V1 I a1
  have b1 : Ends (after c0B V1 (Proc.devRef .tc main_v1)) I.src := by rw [k0B_v1]; exact a1
  have b3 : Ends (after c0B V1 (Proc.devRef .tc main_v3)) I.dst := by rw [k0B_v3]; exact a3
  have b_0 : Holds2 (after c0B V1 (Proc.devRef .tc main_arg0)) I.x := by rw [k0B_arg0]; exact a_0
  have b_1 : Holds2 (after c0B V1 (Proc.devRef .tc main_arg1)) I.wIn := by rw [k0B_arg1]; exact a_1
  have b_2 : Holds1 (after c0B V1 (Proc.devRef .tc main_arg2)) I.bIn := by rw [k0B_arg2]; exact a_2
  have b_3 : Holds1 (after c0B V1 (Proc.devRef .tc main_arg3)) I.lnG := by rw [k0B_arg3]; exact a_3
  generalize after c0B V1 = V2 at *
  -- piece C
  have c29 := c0C_wEdge V2 I b1 b3 b13
  have c1 : Ends (after c0C V2 (Proc.devRef .tc main_v1)) I.src := by rw [k0C_v1]; exact b1
  have c3 : Ends (after c0C V2 (Proc.devRef .tc main_v3)) I.dst := by rw [k0C_v3]; exact b3
  have c_0 : Holds2 (after c0C V2 (Proc.devRef .tc main_arg0)) I.x := by rw [k0C_arg0]; exact b_0
  have c_1 : Holds2 (after c0C V2 (Proc.devRef .tc main_arg1)) I.wIn := by rw [k0C_arg1]; exact b_1
  have c_2 : Holds1 (after c0C V2 (Proc.devRef .tc main_arg2)) I.bIn := by rw [k0C_arg2]; exact b_2
  have c_3 : Holds1 (after c0C V2 (Proc.devRef .tc main_arg3)) I.lnG := by rw [k0C_arg3]; exact b_3
  generalize after c0C V2 = V3 at *
  -- piece D
  have d33 := c0D_embPre V3 I c_0 c_1 c_2
  have d1 : Ends (after c0D V3 (Proc.devRef .tc main_v1)) I.src := by rw [k0D_v1]; exact c1
  have d3 : Ends (after c0D V3 (Proc.devRef .tc main_v3)) I.dst := by rw [k0D_v3]; exact c3
  have d29 : Holds1 (after c0D V3 (Proc.devRef .tc main_v29)) (Spec.wEdge I) := by rw [k0D_v29]; exact c29
  have d_3 : Holds1 (after c0D V3 (Proc.devRef .tc main_arg3)) I.lnG := by rw [k0D_arg3]; exact c_3
  generalize after c0D V3 = V4 at *
  -- piece E
  have e37 := c0E_mean V4 (Spec.embPre I) d33
  have e1 : Ends (after c0E V4 (Proc.devRef .tc main_v1)) I.src := by rw [k0E_v1]; exact d1
  have e3 : Ends (after c0E V4 (Proc.devRef .tc main_v3)) I.dst := by rw [k0E_v3]; exact d3
  have e29 : Holds1 (after c0E V4 (Proc.devRef .tc main_v29)) (Spec.wEdge I) := by rw [k0E_v29]; exact d29
  have e33 : Holds2 (after c0E V4 (Proc.devRef .tc main_v33)) (Spec.embPre I) := by rw [k0E_v33]; exact d33
  have e_3 : Holds1 (after c0E V4 (Proc.devRef .tc main_arg3)) I.lnG := by rw [k0E_arg3]; exact d_3
  generalize after c0E V4 = V5 at *
  -- piece F
  have f38 := c0F_var V5 (Spec.embPre I) e33
  have f1 : Ends (after c0F V5 (Proc.devRef .tc main_v1)) I.src := by rw [k0F_v1]; exact e1
  have f3 : Ends (after c0F V5 (Proc.devRef .tc main_v3)) I.dst := by rw [k0F_v3]; exact e3
  have f29 : Holds1 (after c0F V5 (Proc.devRef .tc main_v29)) (Spec.wEdge I) := by rw [k0F_v29]; exact e29
  have f33 : Holds2 (after c0F V5 (Proc.devRef .tc main_v33)) (Spec.embPre I) := by rw [k0F_v33]; exact e33
  have f37 : ∀ p : Fin 50000, after c0F V5 (Proc.devRef .tc main_v37) (ix2 p (0 : Fin 1)) = ((Spec.rowMean (Spec.embPre I) p : ℝ) : EReal) :=
    fun p => by rw [k0F_v37]; exact e37 p
  have f_3 : Holds1 (after c0F V5 (Proc.devRef .tc main_arg3)) I.lnG := by rw [k0F_arg3]; exact e_3
  generalize after c0F V5 = V6 at *
  -- piece G
  obtain ⟨g45, g46⟩ := c0G_norm V6 I (Spec.embPre I) f33 f37 f38 f_3
  refine ⟨?_, ?_, ?_, g45, g46⟩
  · rw [k0G_v1]; exact f1
  · rw [k0G_v3]; exact f3
  · rw [k0G_v29]; exact f29

end Cert.ReferenceIdeal.HandVal

end
-- ==== Proof.RefVal.W1.lean ====
/-
  Window 1 of the reference program, read as real tables.

  The layer norm's affine map and the rectifier finish the embedding h.  The first Chebyshev layer follows: the
  Laplacian's action L h gathers each edge's source row, weighs it, and adds it into the edge's target row; L (L h)
  likewise; the layer's table before normalisation is h·W₀ + (L h)·W₁ + (2·L(L h) − h)·W₂ + b, and the window ends
  with the sums of that table's columns.

  The window's operations are taken in seven pieces, chained through the buffers they leave untouched.
-/
import proofs.«160050_j32744830665390_2_alg».proof.Proof.RefVal.WBase
import proofs.«160050_j32744830665390_2_alg».proof.Proof.Val.GatherScatter
import proofs.«160050_j32744830665390_2_alg».proof.Proof.Val.Ends

set_option maxHeartbeats 1000000

noncomputable section

namespace Cert.ReferenceIdeal.HandVal

open Cert.ReferenceIdeal Cert.ReferenceIdeal.Gen Cert.ReferenceIdeal.HandRun
open Idealize.ShloMosaic Idealize.ShloMosaic.TcCoe Idealize.SL.Sem Idealize.ShloMosaic.StableHlo Idealize.ShloMosaic.ValueIdx
open Cert.Hand Cert.Hand.Bridge
open scoped BigOperators

/-- Operations 1 … 8 of window 1. -/
abbrev c1A : List (HloOp τ sig (Elt Ideal)) :=
  [
    unary main_v46 main_v47 (broadcastInDim S50000x128 ![0, 1] bcast_S1x128_S50000x128_0_1 : FVec Ideal S1x128 .f32 → FVec Ideal S50000x128 .f32),
    binary main_v45 main_v47 main_v48 (mulf : FVec Ideal S50000x128 .f32 → FVec Ideal S50000x128 .f32 → FVec Ideal S50000x128 .f32),
    unary main_arg4 main_v49 (broadcastInDim S1x128 ![1] bcast_S128_S1x128_1 : FVec Ideal S128 .f32 → FVec Ideal S1x128 .f32),
    unary main_v49 main_v50 (broadcastInDim S50000x128 ![0, 1] bcast_S1x128_S50000x128_0_1 : FVec Ideal S1x128 .f32 → FVec Ideal S50000x128 .f32),
    binary main_v48 main_v50 main_v51 (addf : FVec Ideal S50000x128 .f32 → FVec Ideal S50000x128 .f32 → FVec Ideal S50000x128 .f32),
    TRef.nullary main_call2.cst (constant (F := Ideal) S_ .f32 0x00000000#32),
    TRef.unary main_call2.cst main_call2.v0 ((broadcastInDim S50000x128 ![] bcast_S_S50000x128) : FVec Ideal S_ .f32 → FVec Ideal S50000x128 .f32),
    TRef.binary (TRef.of main_v51 : TRef sig ⟨S50000x128, .f32⟩) main_call2.v0 main_call2.v1 (maximumf : FVec Ideal S50000x128 .f32 → FVec Ideal S50000x128 .f32 → FVec Ideal S50000x128 .f32) ]

/-- Operations 9 … 11 of window 1. -/
abbrev c1B : List (HloOp τ sig (Elt Ideal)) :=
  [
    unary main_arg5 main_v53 ((extractStridedSlice S1x1x128x128 ![0, 0, 0, 0] · slices_S3x3x128x128_S1x1x128x128_0_0_0_0) : FVec Ideal S3x3x128x128 .f32 → FVec Ideal S1x1x128x128 .f32),
    reshape main_v53 main_v54 rfl shapeCasts_S1x1x128x128_S128x128,
    binary main_v52 main_v54 main_v55 ((fun l r => Host.dotGeneral dot_S50000x128_S128x128_S50000x128_1_0_0_1_n_n none l r) : FVec Ideal S50000x128 .f32 → FVec Ideal S128x128 .f32 → FVec Ideal S50000x128 .f32) ]

/-- Operations 12 … 27 of window 1. -/
abbrev c1C : List (HloOp τ sig (Elt Ideal)) :=
  [
    unary main_v29 main_v56 (broadcastInDim S800000x1 ![0] bcast_S800000_S800000x1_0 : FVec Ideal S800000 .f32 → FVec Ideal S800000x1 .f32),
    nullary main_c_11 (constantI S_ 32 0#32),
    unary main_c_11 main_v57 (broadcastInDim S800000 ![] bcast_S_S800000 : IVec S_ 32 → IVec S800000 32),
    binary main_v1 main_v57 main_v58 (cmpi .slt : IVec S800000 32 → IVec S800000 32 → IVec S800000 1),
    nullary main_c_12 (constantI S_ 32 50000#32),
    unary main_c_12 main_v59 (broadcastInDim S800000 ![] bcast_S_S800000 : IVec S_ 32 → IVec S800000 32),
    binary main_v1 main_v59 main_v60 (addi : IVec S800000 32 → IVec S800000 32 → IVec S800000 32),
    ternary main_v58 main_v60 main_v1 main_v61 (select : IVec S800000 1 → IVec S800000 32 → IVec S800000 32 → IVec S800000 32),
    unary main_v61 main_v62 (broadcastInDim S800000x1 ![0] bcast_S800000_S800000x1_0 : IVec S800000 32 → IVec S800000x1 32),
    binary main_v52 main_v62 main_v63 ((fun x i => Host.gather gather_S50000x128_S800000x1_S800000x128_1_0_n_n_0_1_1128 x i) : FVec Ideal S50000x128 .f32 → IVec S800000x1 32 → FVec Ideal S800000x128 .f32),
    unary main_v56 main_v64 (broadcastInDim S800000x128 ![0, 1] bcast_S800000x1_S800000x128_0_1 : FVec Ideal S800000x1 .f32 → FVec Ideal S800000x128 .f32),
    binary main_v64 main_v63 main_v65 (mulf : FVec Ideal S800000x128 .f32 → FVec Ideal S800000x128 .f32 → FVec Ideal S800000x128 .f32),
    nullary main_cst_13 (constant (F := Ideal) S_ .f32 0x00000000#32),
    unary main_cst_13 main_v66 (broadcastInDim S50000x128 ![] bcast_S_S50000x128 : FVec Ideal S_ .f32 → FVec Ideal S50000x128 .f32),
    unary main_v3 main_v67 (broadcastInDim S800000x1 ![0] bcast_S800000_S800000x1_0 : IVec S800000 32 → IVec S800000x1 32),
    ternary main_v66 main_v67 main_v65 main_v68 ((fun x i u => Host.scatterAdd scatter_S50000x128_S800000x1_S800000x128_1_0_0_1 x i u) : FVec Ideal S50000x128 .f32 → IVec S800000x1 32 → FVec Ideal S800000x128 .f32 → FVec Ideal S50000x128 .f32) ]

/-- Operations 28 … 31 of window 1. -/
abbrev c1D : List (HloOp τ sig (Elt Ideal)) :=
  [
    unary main_arg5 main_v69 ((extractStridedSlice S1x1x128x128 ![0, 1, 0, 0] · slices_S3x3x128x128_S1x1x128x128_0_1_0_0) : FVec Ideal S3x3x128x128 .f32 → FVec Ideal S1x1x128x128 .f32),
    reshape main_v69 main_v70 rfl shapeCasts_S1x1x128x128_S128x128,
    binary main_v68 main_v70 main_v71 ((fun l r => Host.dotGeneral dot_S50000x128_S128x128_S50000x128_1_0_0_1_n_n none l r) : FVec Ideal S50000x128 .f32 → FVec Ideal S128x128 .f32 → FVec Ideal S50000x128 .f32),
    binary main_v55 main_v71 main_v72 (addf : FVec Ideal S50000x128 .f32 → FVec Ideal S50000x128 .f32 → FVec Ideal S50000x128 .f32) ]

/-- Operations 32 … 47 of window 1. -/
abbrev c1E : List (HloOp τ sig (Elt Ideal)) :=
  [
    unary main_v29 main_v73 (broadcastInDim S800000x1 ![0] bcast_S800000_S800000x1_0 : FVec Ideal S800000 .f32 → FVec Ideal S800000x1 .f32),
    nullary main_c_14 (constantI S_ 32 0#32),
    unary main_c_14 main_v74 (broadcastInDim S800000 ![] bcast_S_S800000 : IVec S_ 32 → IVec S800000 32),
    binary main_v1 main_v74 main_v75 (cmpi .slt : IVec S800000 32 → IVec S800000 32 → IVec S800000 1),
    nullary main_c_15 (constantI S_ 32 50000#32),
    unary main_c_15 main_v76 (broadcastInDim S800000 ![] bcast_S_S800000 : IVec S_ 32 → IVec S800000 32),
    binary main_v1 main_v76 main_v77 (addi : IVec S800000 32 → IVec S800000 32 → IVec S800000 32),
    ternary main_v75 main_v77 main_v1 main_v78 (select : IVec S800000 1 → IVec S800000 32 → IVec S800000 32 → IVec S800000 32),
    unary main_v78 main_v79 (broadcastInDim S800000x1 ![0] bcast_S800000_S800000x1_0 : IVec S800000 32 → IVec S800000x1 32),
    binary main_v68 main_v79 main_v80 ((fun x i => Host.gather gather_S50000x128_S800000x1_S800000x128_1_0_n_n_0_1_1128 x i) : FVec Ideal S50000x128 .f32 → IVec S800000x1 32 → FVec Ideal S800000x128 .f32),
    unary main_v73 main_v81 (broadcastInDim S800000x128 ![0, 1] bcast_S800000x1_S800000x128_0_1 : FVec Ideal S800000x1 .f32 → FVec Ideal S800000x128 .f32),
    binary main_v81 main_v80 main_v82 (mulf : FVec Ideal S800000x128 .f32 → FVec Ideal S800000x128 .f32 → FVec Ideal S800000x128 .f32),
    nullary main_cst_16 (constant (F := Ideal) S_ .f32 0x00000000#32),
    unary main_cst_16 main_v83 (broadcastInDim S50000x128 ![] bcast_S_S50000x128 : FVec Ideal S_ .f32 → FVec Ideal S50000x128 .f32),
    unary main_v3 main_v84 (broadcastInDim S800000x1 ![0] bcast_S800000_S800000x1_0 : IVec S800000 32 → IVec S800000x1 32),
    ternary main_v83 main_v84 main_v82 main_v85 ((fun x i u => Host.scatterAdd scatter_S50000x128_S800000x1_S800000x128_1_0_0_1 x i u) : FVec Ideal S50000x128 .f32 → IVec S800000x1 32 → FVec Ideal S800000x128 .f32 → FVec Ideal S50000x128 .f32) ]

/-- Operations 48 … 55 of window 1. -/
abbrev c1F : List (HloOp τ sig (Elt Ideal)) :=
  [
    nullary main_cst_17 (constant (F := Ideal) S_ .f32 0x40000000#32),
    unary main_cst_17 main_v86 (broadcastInDim S50000x128 ![] bcast_S_S50000x128 : FVec Ideal S_ .f32 → FVec Ideal S50000x128 .f32),
    binary main_v86 main_v85 main_v87 (mulf : FVec Ideal S50000x128 .f32 → FVec Ideal S50000x128 .f32 → FVec Ideal S50000x128 .f32),
    binary main_v87 main_v52 main_v88 (subf : FVec Ideal S50000x128 .f32 → FVec Ideal S50000x128 .f32 → FVec Ideal S50000x128 .f32),
    unary main_arg5 main_v89 ((extractStridedSlice S1x1x128x128 ![0, 2, 0, 0] · slices_S3x3x128x128_S1x1x128x128_0_2_0_0) : FVec Ideal S3x3x128x128 .f32 → FVec Ideal S1x1x128x128 .f32),
    reshape main_v89 main_v90 rfl shapeCasts_S1x1x128x128_S128x128,
    binary main_v88 main_v90 main_v91 ((fun l r => Host.dotGeneral dot_S50000x128_S128x128_S50000x128_1_0_0_1_n_n none l r) : FVec Ideal S50000x128 .f32 → FVec Ideal S128x128 .f32 → FVec Ideal S50000x128 .f32),
    binary main_v72 main_v91 main_v92 (addf : FVec Ideal S50000x128 .f32 → FVec Ideal S50000x128 .f32 → FVec Ideal S50000x128 .f32) ]

/-- Operations 56 … 62 of window 1. -/
abbrev c1G : List (HloOp τ sig (Elt Ideal)) :=
  [
    unary main_arg6 main_v93 ((extractStridedSlice S1x128 ![0, 0] · slices_S3x128_S1x128_0_0) : FVec Ideal S3x128 .f32 → FVec Ideal S1x128 .f32),
    reshape main_v93 main_v94 rfl shapeCasts_S1x128_S128,
    unary main_v94 main_v95 (broadcastInDim S1x128 ![1] bcast_S128_S1x128_1 : FVec Ideal S128 .f32 → FVec Ideal S1x128 .f32),
    unary main_v95 main_v96 (broadcastInDim S50000x128 ![0, 1] bcast_S1x128_S50000x128_0_1 : FVec Ideal S1x128 .f32 → FVec Ideal S50000x128 .f32),
    binary main_v92 main_v96 main_v97 (addf : FVec Ideal S50000x128 .f32 → FVec Ideal S50000x128 .f32 → FVec Ideal S50000x128 .f32),
    nullary main_cst_18 (constant (F := Ideal) S_ .f32 0x00000000#32),
    binary main_v97 main_cst_18 main_v98 ((fun x v => Host.reduceAdd x v reducesTo_S50000x128_S128_d0 h_S_) : FVec Ideal S50000x128 .f32 → FVec Ideal S_ .f32 → FVec Ideal S128 .f32) ]

set_option maxRecDepth 16384 in
/-- The window is its pieces in order. -/
theorem ops1_split : (ops1 : List (HloOp τ sig (Elt Ideal))) = c1A ++ (c1B ++ (c1C ++ (c1D ++ (c1E ++ (c1F ++ (c1G)))))) := rfl

/-- Running the window is running its pieces in order. -/
theorem ops1_after (V : Valuation τ sig (Elt Ideal)) :
    after (ops1 : List (HloOp τ sig (Elt Ideal))) V = after c1G (after c1F (after c1E (after c1D (after c1C (after c1B (after c1A (V))))))) := by
  rw [ops1_split]; simp only [after_append]

/-! ### Piece A: each buffer it writes, as its operation applied to the buffers it reads -/

theorem e1A_v47 (V : Valuation τ sig (Elt Ideal)) :
    after c1A V (Proc.devRef .tc main_v47) = (broadcastInDim S50000x128 ![0, 1] bcast_S1x128_S50000x128_0_1 : FVec Ideal S1x128 .f32 → FVec Ideal S50000x128 .f32) (V (Proc.devRef .tc main_v46)) := by ssa_eq
theorem e1A_v48 (V : Valuation τ sig (Elt Ideal)) :
    after c1A V (Proc.devRef .tc main_v48) = (mulf : FVec Ideal S50000x128 .f32 → FVec Ideal S50000x128 .f32 → FVec Ideal S50000x128 .f32) (V (Proc.devRef .tc main_v45)) (after c1A V (Proc.devRef .tc main_v47)) := by ssa_eq
theorem e1A_v49 (V : Valuation τ sig (Elt Ideal)) :
    after c1A V (Proc.devRef .tc main_v49) = (broadcastInDim S1x128 ![1] bcast_S128_S1x128_1 : FVec Ideal S128 .f32 → FVec Ideal S1x128 .f32) (V (Proc.devRef .tc main_arg4)) := by ssa_eq
theorem e1A_v50 (V : Valuation τ sig (Elt Ideal)) :
    after c1A V (Proc.devRef .tc main_v50) = (broadcastInDim S50000x128 ![0, 1] bcast_S1x128_S50000x128_0_1 : FVec Ideal S1x128 .f32 → FVec Ideal S50000x128 .f32) (after c1A V (Proc.devRef .tc main_v49)) := by ssa_eq
theorem e1A_v51 (V : Valuation τ sig (Elt Ideal)) :
    after c1A V (Proc.devRef .tc main_v51) = (addf : FVec Ideal S50000x128 .f32 → FVec Ideal S50000x128 .f32 → FVec Ideal S50000x128 .f32) (after c1A V (Proc.devRef .tc main_v48)) (after c1A V (Proc.devRef .tc main_v50)) := by ssa_eq
theorem e1A_call2_cst (V : Valuation τ sig (Elt Ideal)) :
    after c1A V (Proc.devRef .tc main_call2_cst) = (constant (F := Ideal) S_ .f32 0x00000000#32 : FVec Ideal S_ .f32) := by ssa_eq
theorem e1A_call2_v0 (V : Valuation τ sig (Elt Ideal)) :
    after c1A V (Proc.devRef .tc main_call2_v0) = ((broadcastInDim S50000x128 ![] bcast_S_S50000x128) : FVec Ideal S_ .f32 → FVec Ideal S50000x128 .f32) (after c1A V (Proc.devRef .tc main_call2_cst)) := by ssa_eq
theorem e1A_v52 (V : Valuation τ sig (Elt Ideal)) :
    after c1A V (Proc.devRef .tc main_v52) = (maximumf : FVec Ideal S50000x128 .f32 → FVec Ideal S50000x128 .f32 → FVec Ideal S50000x128 .f32) (after c1A V (Proc.devRef .tc main_v51)) (after c1A V (Proc.devRef .tc main_call2_v0)) := by ssa_eq

/-! ### Piece B: each buffer it writes, as its operation applied to the buffers it reads -/

theorem e1B_v53 (V : Valuation τ sig (Elt Ideal)) :
    after c1B V (Proc.devRef .tc main_v53) = ((extractStridedSlice S1x1x128x128 ![0, 0, 0, 0] · slices_S3x3x128x128_S1x1x128x128_0_0_0_0) : FVec Ideal S3x3x128x128 .f32 → FVec Ideal S1x1x128x128 .f32) (V (Proc.devRef .tc main_arg5)) := by ssa_eq
theorem e1B_v54 (V : Valuation τ sig (Elt Ideal)) :
    after c1B V (Proc.devRef .tc main_v54) = (shapeCast S128x128 (after c1B V (Proc.devRef .tc main_v53)) shapeCasts_S1x1x128x128_S128x128 : FVec Ideal S128x128 .f32) := by ssa_eq
theorem e1B_v55 (V : Valuation τ sig (Elt Ideal)) :
    after c1B V (Proc.devRef .tc main_v55) = ((fun l r => Host.dotGeneral dot_S50000x128_S128x128_S50000x128_1_0_0_1_n_n none l r) : FVec Ideal S50000x128 .f32 → FVec Ideal S128x128 .f32 → FVec Ideal S50000x128 .f32) (V (Proc.devRef .tc main_v52)) (after c1B V (Proc.devRef .tc main_v54)) := by ssa_eq

/-! ### Piece C: each buffer it writes, as its operation applied to the buffers it reads -/

theorem e1C_v56 (V : Valuation τ sig (Elt Ideal)) :
    after c1C V (Proc.devRef .tc main_v56) = (broadcastInDim S800000x1 ![0] bcast_S800000_S800000x1_0 : FVec Ideal S800000 .f32 → FVec Ideal S800000x1 .f32) (V (Proc.devRef .tc main_v29)) := by ssa_eq
theorem e1C_c_11 (V : Valuation τ sig (Elt Ideal)) :
    after c1C V (Proc.devRef .tc main_c_11) = (constantI S_ 32 0#32 : IVec S_ 32) := by ssa_eq
theorem e1C_v57 (V : Valuation τ sig (Elt Ideal)) :
    after c1C V (Proc.devRef .tc main_v57) = (broadcastInDim S800000 ![] bcast_S_S800000 : IVec S_ 32 → IVec S800000 32) (after c1C V (Proc.devRef .tc main_c_11)) := by ssa_eq
theorem e1C_v58 (V : Valuation τ sig (Elt Ideal)) :
    after c1C V (Proc.devRef .tc main_v58) = (cmpi .slt : IVec S800000 32 → IVec S800000 32 → IVec S800000 1) (V (Proc.devRef .tc main_v1)) (after c1C V (Proc.devRef .tc main_v57)) := by ssa_eq
theorem e1C_c_12 (V : Valuation τ sig (Elt Ideal)) :
    after c1C V (Proc.devRef .tc main_c_12) = (constantI S_ 32 50000#32 : IVec S_ 32) := by ssa_eq
theorem e1C_v59 (V : Valuation τ sig (Elt Ideal)) :
    after c1C V (Proc.devRef .tc main_v59) = (broadcastInDim S800000 ![] bcast_S_S800000 : IVec S_ 32 → IVec S800000 32) (after c1C V (Proc.devRef .tc main_c_12)) := by ssa_eq
theorem e1C_v60 (V : Valuation τ sig (Elt Ideal)) :
    after c1C V (Proc.devRef .tc main_v60) = (addi : IVec S800000 32 → IVec S800000 32 → IVec S800000 32) (V (Proc.devRef .tc main_v1)) (after c1C V (Proc.devRef .tc main_v59)) := by ssa_eq
theorem e1C_v61 (V : Valuation τ sig (Elt Ideal)) :
    after c1C V (Proc.devRef .tc main_v61) = (select : IVec S800000 1 → IVec S800000 32 → IVec S800000 32 → IVec S800000 32) (after c1C V (Proc.devRef .tc main_v58)) (after c1C V (Proc.devRef .tc main_v60)) (V (Proc.devRef .tc main_v1)) := by ssa_eq
theorem e1C_v62 (V : Valuation τ sig (Elt Ideal)) :
    after c1C V (Proc.devRef .tc main_v62) = (broadcastInDim S800000x1 ![0] bcast_S800000_S800000x1_0 : IVec S800000 32 → IVec S800000x1 32) (after c1C V (Proc.devRef .tc main_v61)) := by ssa_eq
theorem e1C_v63 (V : Valuation τ sig (Elt Ideal)) :
    after c1C V (Proc.devRef .tc main_v63) = ((fun x i => Host.gather gather_S50000x128_S800000x1_S800000x128_1_0_n_n_0_1_1128 x i) : FVec Ideal S50000x128 .f32 → IVec S800000x1 32 → FVec Ideal S800000x128 .f32) (V (Proc.devRef .tc main_v52)) (after c1C V (Proc.devRef .tc main_v62)) := by ssa_eq
theorem e1C_v64 (V : Valuation τ sig (Elt Ideal)) :
    after c1C V (Proc.devRef .tc main_v64) = (broadcastInDim S800000x128 ![0, 1] bcast_S800000x1_S800000x128_0_1 : FVec Ideal S800000x1 .f32 → FVec Ideal S800000x128 .f32) (after c1C V (Proc.devRef .tc main_v56)) := by ssa_eq
theorem e1C_v65 (V : Valuation τ sig (Elt Ideal)) :
    after c1C V (Proc.devRef .tc main_v65) = (mulf : FVec Ideal S800000x128 .f32 → FVec Ideal S800000x128 .f32 → FVec Ideal S800000x128 .f32) (after c1C V (Proc.devRef .tc main_v64)) (after c1C V (Proc.devRef .tc main_v63)) := by ssa_eq
theorem e1C_cst_13 (V : Valuation τ sig (Elt Ideal)) :
    after c1C V (Proc.devRef .tc main_cst_13) = (constant (F := Ideal) S_ .f32 0x00000000#32 : FVec Ideal S_ .f32) := by ssa_eq
theorem e1C_v66 (V : Valuation τ sig (Elt Ideal)) :
    after c1C V (Proc.devRef .tc main_v66) = (broadcastInDim S50000x128 ![] bcast_S_S50000x128 : FVec Ideal S_ .f32 → FVec Ideal S50000x128 .f32) (after c1C V (Proc.devRef .tc main_cst_13)) := by ssa_eq
theorem e1C_v67 (V : Valuation τ sig (Elt Ideal)) :
    after c1C V (Proc.devRef .tc main_v67) = (broadcastInDim S800000x1 ![0] bcast_S800000_S800000x1_0 : IVec S800000 32 → IVec S800000x1 32) (V (Proc.devRef .tc main_v3)) := by ssa_eq
theorem e1C_v68 (V : Valuation τ sig (Elt Ideal)) :
    after c1C V (Proc.devRef .tc main_v68) = ((fun x i u => Host.scatterAdd scatter_S50000x128_S800000x1_S800000x128_1_0_0_1 x i u) : FVec Ideal S50000x128 .f32 → IVec S800000x1 32 → FVec Ideal S800000x128 .f32 → FVec Ideal S50000x128 .f32) (after c1C V (Proc.devRef .tc main_v66)) (after c1C V (Proc.devRef .tc main_v67)) (after c1C V (Proc.devRef .tc main_v65)) := by ssa_eq

/-! ### Piece D: each buffer it writes, as its operation applied to the buffers it reads -/

theorem e1D_v69 (V : Valuation τ sig (Elt Ideal)) :
    after c1D V (Proc.devRef .tc main_v69) = ((extractStridedSlice S1x1x128x128 ![0, 1, 0, 0] · slices_S3x3x128x128_S1x1x128x128_0_1_0_0) : FVec Ideal S3x3x128x128 .f32 → FVec Ideal S1x1x128x128 .f32) (V (Proc.devRef .tc main_arg5)) := by ssa_eq
theorem e1D_v70 (V : Valuation τ sig (Elt Ideal)) :
    after c1D V (Proc.devRef .tc main_v70) = (shapeCast S128x128 (after c1D V (Proc.devRef .tc main_v69)) shapeCasts_S1x1x128x128_S128x128 : FVec Ideal S128x128 .f32) := by ssa_eq
theorem e1D_v71 (V : Valuation τ sig (Elt Ideal)) :
    after c1D V (Proc.devRef .tc main_v71) = ((fun l r => Host.dotGeneral dot_S50000x128_S128x128_S50000x128_1_0_0_1_n_n none l r) : FVec Ideal S50000x128 .f32 → FVec Ideal S128x128 .f32 → FVec Ideal S50000x128 .f32) (V (Proc.devRef .tc main_v68)) (after c1D V (Proc.devRef .tc main_v70)) := by ssa_eq
theorem e1D_v72 (V : Valuation τ sig (Elt Ideal)) :
    after c1D V (Proc.devRef .tc main_v72) = (addf : FVec Ideal S50000x128 .f32 → FVec Ideal S50000x128 .f32 → FVec Ideal S50000x128 .f32) (V (Proc.devRef .tc main_v55)) (after c1D V (Proc.devRef .tc main_v71)) := by ssa_eq

/-! ### Piece E: each buffer it writes, as its operation applied to the buffers it reads -/

theorem e1E_v73 (V : Valuation τ sig (Elt Ideal)) :
    after c1E V (Proc.devRef .tc main_v73) = (broadcastInDim S800000x1 ![0] bcast_S800000_S800000x1_0 : FVec Ideal S800000 .f32 → FVec Ideal S800000x1 .f32) (V (Proc.devRef .tc main_v29)) := by ssa_eq
theorem e1E_c_14 (V : Valuation τ sig (Elt Ideal)) :
    after c1E V (Proc.devRef .tc main_c_14) = (constantI S_ 32 0#32 : IVec S_ 32) := by ssa_eq
theorem e1E_v74 (V : Valuation τ sig (Elt Ideal)) :
    after c1E V (Proc.devRef .tc main_v74) = (broadcastInDim S800000 ![] bcast_S_S800000 : IVec S_ 32 → IVec S800000 32) (after c1E V (Proc.devRef .tc main_c_14)) := by ssa_eq
theorem e1E_v75 (V : Valuation τ sig (Elt Ideal)) :
    after c1E V (Proc.devRef .tc main_v75) = (cmpi .slt : IVec S800000 32 → IVec S800000 32 → IVec S800000 1) (V (Proc.devRef .tc main_v1)) (after c1E V (Proc.devRef .tc main_v74)) := by ssa_eq
theorem e1E_c_15 (V : Valuation τ sig (Elt Ideal)) :
    after c1E V (Proc.devRef .tc main_c_15) = (constantI S_ 32 50000#32 : IVec S_ 32) := by ssa_eq
theorem e1E_v76 (V : Valuation τ sig (Elt Ideal)) :
    after c1E V (Proc.devRef .tc main_v76) = (broadcastInDim S800000 ![] bcast_S_S800000 : IVec S_ 32 → IVec S800000 32) (after c1E V (Proc.devRef .tc main_c_15)) := by ssa_eq
theorem e1E_v77 (V : Valuation τ sig (Elt Ideal)) :
    after c1E V (Proc.devRef .tc main_v77) = (addi : IVec S800000 32 → IVec S800000 32 → IVec S800000 32) (V (Proc.devRef .tc main_v1)) (after c1E V (Proc.devRef .tc main_v76)) := by ssa_eq
theorem e1E_v78 (V : Valuation τ sig (Elt Ideal)) :
    after c1E V (Proc.devRef .tc main_v78) = (select : IVec S800000 1 → IVec S800000 32 → IVec S800000 32 → IVec S800000 32) (after c1E V (Proc.devRef .tc main_v75)) (after c1E V (Proc.devRef .tc main_v77)) (V (Proc.devRef .tc main_v1)) := by ssa_eq
theorem e1E_v79 (V : Valuation τ sig (Elt Ideal)) :
    after c1E V (Proc.devRef .tc main_v79) = (broadcastInDim S800000x1 ![0] bcast_S800000_S800000x1_0 : IVec S800000 32 → IVec S800000x1 32) (after c1E V (Proc.devRef .tc main_v78)) := by ssa_eq
theorem e1E_v80 (V : Valuation τ sig (Elt Ideal)) :
    after c1E V (Proc.devRef .tc main_v80) = ((fun x i => Host.gather gather_S50000x128_S800000x1_S800000x128_1_0_n_n_0_1_1128 x i) : FVec Ideal S50000x128 .f32 → IVec S800000x1 32 → FVec Ideal S800000x128 .f32) (V (Proc.devRef .tc main_v68)) (after c1E V (Proc.devRef .tc main_v79)) := by ssa_eq
theorem e1E_v81 (V : Valuation τ sig (Elt Ideal)) :
    after c1E V (Proc.devRef .tc main_v81) = (broadcastInDim S800000x128 ![0, 1] bcast_S800000x1_S800000x128_0_1 : FVec Ideal S800000x1 .f32 → FVec Ideal S800000x128 .f32) (after c1E V (Proc.devRef .tc main_v73)) := by ssa_eq
theorem e1E_v82 (V : Valuation τ sig (Elt Ideal)) :
    after c1E V (Proc.devRef .tc main_v82) = (mulf : FVec Ideal S800000x128 .f32 → FVec Ideal S800000x128 .f32 → FVec Ideal S800000x128 .f32) (after c1E V (Proc.devRef .tc main_v81)) (after c1E V (Proc.devRef .tc main_v80)) := by ssa_eq
theorem e1E_cst_16 (V : Valuation τ sig (Elt Ideal)) :
    after c1E V (Proc.devRef .tc main_cst_16) = (constant (F := Ideal) S_ .f32 0x00000000#32 : FVec Ideal S_ .f32) := by ssa_eq
theorem e1E_v83 (V : Valuation τ sig (Elt Ideal)) :
    after c1E V (Proc.devRef .tc main_v83) = (broadcastInDim S50000x128 ![] bcast_S_S50000x128 : FVec Ideal S_ .f32 → FVec Ideal S50000x128 .f32) (after c1E V (Proc.devRef .tc main_cst_16)) := by ssa_eq
theorem e1E_v84 (V : Valuation τ sig (Elt Ideal)) :
    after c1E V (Proc.devRef .tc main_v84) = (broadcastInDim S800000x1 ![0] bcast_S800000_S800000x1_0 : IVec S800000 32 → IVec S800000x1 32) (V (Proc.devRef .tc main_v3)) := by ssa_eq
theorem e1E_v85 (V : Valuation τ sig (Elt Ideal)) :
    after c1E V (Proc.devRef .tc main_v85) = ((fun x i u => Host.scatterAdd scatter_S50000x128_S800000x1_S800000x128_1_0_0_1 x i u) : FVec Ideal S50000x128 .f32 → IVec S800000x1 32 → FVec Ideal S800000x128 .f32 → FVec Ideal S50000x128 .f32) (after c1E V (Proc.devRef .tc main_v83)) (after c1E V (Proc.devRef .tc main_v84)) (after c1E V (Proc.devRef .tc main_v82)) := by ssa_eq

/-! ### Piece F: each buffer it writes, as its operation applied to the buffers it reads -/

theorem e1F_cst_17 (V : Valuation τ sig (Elt Ideal)) :
    after c1F V (Proc.devRef .tc main_cst_17) = (constant (F := Ideal) S_ .f32 0x40000000#32 : FVec Ideal S_ .f32) := by ssa_eq
theorem e1F_v86 (V : Valuation τ sig (Elt Ideal)) :
    after c1F V (Proc.devRef .tc main_v86) = (broadcastInDim S50000x128 ![] bcast_S_S50000x128 : FVec Ideal S_ .f32 → FVec Ideal S50000x128 .f32) (after c1F V (Proc.devRef .tc main_cst_17)) := by ssa_eq
theorem e1F_v87 (V : Valuation τ sig (Elt Ideal)) :
    after c1F V (Proc.devRef .tc main_v87) = (mulf : FVec Ideal S50000x128 .f32 → FVec Ideal S50000x128 .f32 → FVec Ideal S50000x128 .f32) (after c1F V (Proc.devRef .tc main_v86)) (V (Proc.devRef .tc main_v85)) := by ssa_eq
theorem e1F_v88 (V : Valuation τ sig (Elt Ideal)) :
    after c1F V (Proc.devRef .tc main_v88) = (subf : FVec Ideal S50000x128 .f32 → FVec Ideal S50000x128 .f32 → FVec Ideal S50000x128 .f32) (after c1F V (Proc.devRef .tc main_v87)) (V (Proc.devRef .tc main_v52)) := by ssa_eq
theorem e1F_v89 (V : Valuation τ sig (Elt Ideal)) :
    after c1F V (Proc.devRef .tc main_v89) = ((extractStridedSlice S1x1x128x128 ![0, 2, 0, 0] · slices_S3x3x128x128_S1x1x128x128_0_2_0_0) : FVec Ideal S3x3x128x128 .f32 → FVec Ideal S1x1x128x128 .f32) (V (Proc.devRef .tc main_arg5)) := by ssa_eq
theorem e1F_v90 (V : Valuation τ sig (Elt Ideal)) :
    after c1F V (Proc.devRef .tc main_v90) = (shapeCast S128x128 (after c1F V (Proc.devRef .tc main_v89)) shapeCasts_S1x1x128x128_S128x128 : FVec Ideal S128x128 .f32) := by ssa_eq
theorem e1F_v91 (V : Valuation τ sig (Elt Ideal)) :
    after c1F V (Proc.devRef .tc main_v91) = ((fun l r => Host.dotGeneral dot_S50000x128_S128x128_S50000x128_1_0_0_1_n_n none l r) : FVec Ideal S50000x128 .f32 → FVec Ideal S128x128 .f32 → FVec Ideal S50000x128 .f32) (after c1F V (Proc.devRef .tc main_v88)) (after c1F V (Proc.devRef .tc main_v90)) := by ssa_eq
theorem e1F_v92 (V : Valuation τ sig (Elt Ideal)) :
    after c1F V (Proc.devRef .tc main_v92) = (addf : FVec Ideal S50000x128 .f32 → FVec Ideal S50000x128 .f32 → FVec Ideal S50000x128 .f32) (V (Proc.devRef .tc main_v72)) (after c1F V (Proc.devRef .tc main_v91)) := by ssa_eq

/-! ### Piece G: each buffer it writes, as its operation applied to the buffers it reads -/

theorem e1G_v93 (V : Valuation τ sig (Elt Ideal)) :
    after c1G V (Proc.devRef .tc main_v93) = ((extractStridedSlice S1x128 ![0, 0] · slices_S3x128_S1x128_0_0) : FVec Ideal S3x128 .f32 → FVec Ideal S1x128 .f32) (V (Proc.devRef .tc main_arg6)) := by ssa_eq
theorem e1G_v94 (V : Valuation τ sig (Elt Ideal)) :
    after c1G V (Proc.devRef .tc main_v94) = (shapeCast S128 (after c1G V (Proc.devRef .tc main_v93)) shapeCasts_S1x128_S128 : FVec Ideal S128 .f32) := by ssa_eq
theorem e1G_v95 (V : Valuation τ sig (Elt Ideal)) :
    after c1G V (Proc.devRef .tc main_v95) = (broadcastInDim S1x128 ![1] bcast_S128_S1x128_1 : FVec Ideal S128 .f32 → FVec Ideal S1x128 .f32) (after c1G V (Proc.devRef .tc main_v94)) := by ssa_eq
theorem e1G_v96 (V : Valuation τ sig (Elt Ideal)) :
    after c1G V (Proc.devRef .tc main_v96) = (broadcastInDim S50000x128 ![0, 1] bcast_S1x128_S50000x128_0_1 : FVec Ideal S1x128 .f32 → FVec Ideal S50000x128 .f32) (after c1G V (Proc.devRef .tc main_v95)) := by ssa_eq
theorem e1G_v97 (V : Valuation τ sig (Elt Ideal)) :
    after c1G V (Proc.devRef .tc main_v97) = (addf : FVec Ideal S50000x128 .f32 → FVec Ideal S50000x128 .f32 → FVec Ideal S50000x128 .f32) (V (Proc.devRef .tc main_v92)) (after c1G V (Proc.devRef .tc main_v96)) := by ssa_eq
theorem e1G_cst_18 (V : Valuation τ sig (Elt Ideal)) :
    after c1G V (Proc.devRef .tc main_cst_18) = (constant (F := Ideal) S_ .f32 0x00000000#32 : FVec Ideal S_ .f32) := by ssa_eq
theorem e1G_v98 (V : Valuation τ sig (Elt Ideal)) :
    after c1G V (Proc.devRef .tc main_v98) = ((fun x v => Host.reduceAdd x v reducesTo_S50000x128_S128_d0 h_S_) : FVec Ideal S50000x128 .f32 → FVec Ideal S_ .f32 → FVec Ideal S128 .f32) (after c1G V (Proc.devRef .tc main_v97)) (after c1G V (Proc.devRef .tc main_cst_18)) := by ssa_eq

/-! ### Buffers a piece leaves as they were -/

theorem k1A_arg5 (V : Valuation τ sig (Elt Ideal)) : after c1A V (Proc.devRef .tc main_arg5) = V (Proc.devRef .tc main_arg5) := by after_results_simp
theorem k1A_v29 (V : Valuation τ sig (Elt Ideal)) : after c1A V (Proc.devRef .tc main_v29) = V (Proc.devRef .tc main_v29) := by after_results_simp
theorem k1A_v1 (V : Valuation τ sig (Elt Ideal)) : after c1A V (Proc.devRef .tc main_v1) = V (Proc.devRef .tc main_v1) := by after_results_simp
theorem k1A_v3 (V : Valuation τ sig (Elt Ideal)) : after c1A V (Proc.devRef .tc main_v3) = V (Proc.devRef .tc main_v3) := by after_results_simp
theorem k1A_arg6 (V : Valuation τ sig (Elt Ideal)) : after c1A V (Proc.devRef .tc main_arg6) = V (Proc.devRef .tc main_arg6) := by after_results_simp
theorem k1B_v52 (V : Valuation τ sig (Elt Ideal)) : after c1B V (Proc.devRef .tc main_v52) = V (Proc.devRef .tc main_v52) := by after_results_simp
theorem k1B_v29 (V : Valuation τ sig (Elt Ideal)) : after c1B V (Proc.devRef .tc main_v29) = V (Proc.devRef .tc main_v29) := by after_results_simp
theorem k1B_v1 (V : Valuation τ sig (Elt Ideal)) : after c1B V (Proc.devRef .tc main_v1) = V (Proc.devRef .tc main_v1) := by after_results_simp
theorem k1B_v3 (V : Valuation τ sig (Elt Ideal)) : after c1B V (Proc.devRef .tc main_v3) = V (Proc.devRef .tc main_v3) := by after_results_simp
theorem k1B_arg5 (V : Valuation τ sig (Elt Ideal)) : after c1B V (Proc.devRef .tc main_arg5) = V (Proc.devRef .tc main_arg5) := by after_results_simp
theorem k1B_arg6 (V : Valuation τ sig (Elt Ideal)) : after c1B V (Proc.devRef .tc main_arg6) = V (Proc.devRef .tc main_arg6) := by after_results_simp
theorem k1C_v52 (V : Valuation τ sig (Elt Ideal)) : after c1C V (Proc.devRef .tc main_v52) = V (Proc.devRef .tc main_v52) := by after_results_simp
theorem k1C_arg5 (V : Valuation τ sig (Elt Ideal)) : after c1C V (Proc.devRef .tc main_arg5) = V (Proc.devRef .tc main_arg5) := by after_results_simp
theorem k1C_v55 (V : Valuation τ sig (Elt Ideal)) : after c1C V (Proc.devRef .tc main_v55) = V (Proc.devRef .tc main_v55) := by after_results_simp
theorem k1C_v29 (V : Valuation τ sig (Elt Ideal)) : after c1C V (Proc.devRef .tc main_v29) = V (Proc.devRef .tc main_v29) := by after_results_simp
theorem k1C_v1 (V : Valuation τ sig (Elt Ideal)) : after c1C V (Proc.devRef .tc main_v1) = V (Proc.devRef .tc main_v1) := by after_results_simp
theorem k1C_v3 (V : Valuation τ sig (Elt Ideal)) : after c1C V (Proc.devRef .tc main_v3) = V (Proc.devRef .tc main_v3) := by after_results_simp
theorem k1C_arg6 (V : Valuation τ sig (Elt Ideal)) : after c1C V (Proc.devRef .tc main_arg6) = V (Proc.devRef .tc main_arg6) := by after_results_simp
theorem k1D_v52 (V : Valuation τ sig (Elt Ideal)) : after c1D V (Proc.devRef .tc main_v52) = V (Proc.devRef .tc main_v52) := by after_results_simp
theorem k1D_v29 (V : Valuation τ sig (Elt Ideal)) : after c1D V (Proc.devRef .tc main_v29) = V (Proc.devRef .tc main_v29) := by after_results_simp
theorem k1D_v1 (V : Valuation τ sig (Elt Ideal)) : after c1D V (Proc.devRef .tc main_v1) = V (Proc.devRef .tc main_v1) := by after_results_simp
theorem k1D_v68 (V : Valuation τ sig (Elt Ideal)) : after c1D V (Proc.devRef .tc main_v68) = V (Proc.devRef .tc main_v68) := by after_results_simp
theorem k1D_v3 (V : Valuation τ sig (Elt Ideal)) : after c1D V (Proc.devRef .tc main_v3) = V (Proc.devRef .tc main_v3) := by after_results_simp
theorem k1D_arg5 (V : Valuation τ sig (Elt Ideal)) : after c1D V (Proc.devRef .tc main_arg5) = V (Proc.devRef .tc main_arg5) := by after_results_simp
theorem k1D_arg6 (V : Valuation τ sig (Elt Ideal)) : after c1D V (Proc.devRef .tc main_arg6) = V (Proc.devRef .tc main_arg6) := by after_results_simp
theorem k1E_v52 (V : Valuation τ sig (Elt Ideal)) : after c1E V (Proc.devRef .tc main_v52) = V (Proc.devRef .tc main_v52) := by after_results_simp
theorem k1E_arg5 (V : Valuation τ sig (Elt Ideal)) : after c1E V (Proc.devRef .tc main_arg5) = V (Proc.devRef .tc main_arg5) := by after_results_simp
theorem k1E_v72 (V : Valuation τ sig (Elt Ideal)) : after c1E V (Proc.devRef .tc main_v72) = V (Proc.devRef .tc main_v72) := by after_results_simp
theorem k1E_arg6 (V : Valuation τ sig (Elt Ideal)) : after c1E V (Proc.devRef .tc main_arg6) = V (Proc.devRef .tc main_arg6) := by after_results_simp
theorem k1F_v52 (V : Valuation τ sig (Elt Ideal)) : after c1F V (Proc.devRef .tc main_v52) = V (Proc.devRef .tc main_v52) := by after_results_simp
theorem k1F_arg6 (V : Valuation τ sig (Elt Ideal)) : after c1F V (Proc.devRef .tc main_arg6) = V (Proc.devRef .tc main_arg6) := by after_results_simp
theorem k1G_v52 (V : Valuation τ sig (Elt Ideal)) : after c1G V (Proc.devRef .tc main_v52) = V (Proc.devRef .tc main_v52) := by after_results_simp

/-! ## Piece A: the layer norm's affine map and the rectifier -/

theorem c1A_embed (V : Valuation τ sig (Elt Ideal)) (n : Spec.Hidden) (g b : Fin 128 → ℝ)
    (h46 : Holds2 (V (Proc.devRef .tc main_v46)) (fun (_ : Fin 1) (k : Fin 128) => g k))
    (h45 : Holds2 (V (Proc.devRef .tc main_v45)) n)
    (h4 : Holds1 (V (Proc.devRef .tc main_arg4)) b) :
    Holds2 (after c1A V (Proc.devRef .tc main_v52)) (fun p q => max (n p q * g q + b q) 0) := by
  have f47 : ∀ (p : Fin 50000) (q : Fin 128), after c1A V (Proc.devRef .tc main_v47) (ix2 p q) = ((g q : ℝ) : EReal) := fun p q => by
    rw [e1A_v47]; exact (bcast_rowN_apply (by decide) _ _ p q).trans (holds2_at h46 0 q)
  have f48 : ∀ (p : Fin 50000) (q : Fin 128), after c1A V (Proc.devRef .tc main_v48) (ix2 p q) = ((n p q * g q : ℝ) : EReal) := fun p q => by
    rw [e1A_v48]; exact mulf_at _ _ _ (holds2_at h45 p q) (f47 p q)
  have f49 : ∀ (u : Fin 1) (q : Fin 128), after c1A V (Proc.devRef .tc main_v49) (ix2 u q) = ((b q : ℝ) : EReal) := fun u q => by
    rw [e1A_v49]; exact (bcast_row1_apply (by decide) _ _ u q).trans (holds1_at h4 q)
  have f50 : ∀ (p : Fin 50000) (q : Fin 128), after c1A V (Proc.devRef .tc main_v50) (ix2 p q) = ((b q : ℝ) : EReal) := fun p q => by
    rw [e1A_v50]; exact (bcast_rowN_apply (by decide) _ _ p q).trans (f49 0 q)
  have f51 : ∀ (p : Fin 50000) (q : Fin 128), after c1A V (Proc.devRef .tc main_v51) (ix2 p q) = ((n p q * g q + b q : ℝ) : EReal) :=
    fun p q => by
      rw [e1A_v51]; exact addf_at _ _ _ (f48 p q) (f50 p q)
  have fz : ∀ j, after c1A V (Proc.devRef .tc main_call2_v0) j = ((0 : ℝ) : EReal) := fun j => by
    rw [e1A_call2_v0, e1A_call2_cst]; exact (splat_apply _ _ j).trans Cert.Hand.Math.ofBits_f32_zero
  refine holds2_of fun p q => ?_
  rw [e1A_v52]
  exact maximumf_at _ _ _ (f51 p q) (fz _)

/-! ## A block of the layer's weights -/

/-- Block t of layer 0's weights, cut out of the stack and flattened. -/
theorem wblock0 {t : Nat} (ht : t < 3) (I : Spec.Inputs) (x : (⟨4, ![3, 3, 128, 128]⟩ : Shape).Idx → EReal)
    (h5 : Holds4 x I.chebW)
    (hs : (⟨4, ![3, 3, 128, 128]⟩ : Shape).Slices ![0, t, 0, 0] ⟨4, ![1, 1, 128, 128]⟩)
    (hc : (⟨4, ![1, 1, 128, 128]⟩ : Shape).ShapeCasts ⟨2, ![128, 128]⟩) (c q : Fin 128) :
    shapeCast ⟨2, ![128, 128]⟩ (extractStridedSlice ⟨4, ![1, 1, 128, 128]⟩ ![0, t, 0, 0] x hs) hc (ix2 c q)
      = ((I.chebW 0 (⟨t, ht⟩ : Fin 3) c q : ℝ) : EReal) :=
  (wslice_at (by decide) ht x hs hc c q).trans (holds4_at h5 _ _ c q)

/-! ## Piece B: the hidden state times the first block -/

theorem c1B_lin0 (V : Valuation τ sig (Elt Ideal)) (I : Spec.Inputs) (h : Spec.Hidden)
    (h52 : Holds2 (V (Proc.devRef .tc main_v52)) h) (h5 : Holds4 (V (Proc.devRef .tc main_arg5)) I.chebW) :
    Holds2 (after c1B V (Proc.devRef .tc main_v55)) (Spec.lin h (I.chebW 0 0)) := by
  have f54 : ∀ c q : Fin 128, after c1B V (Proc.devRef .tc main_v54) (ix2 c q) = ((I.chebW 0 0 c q : ℝ) : EReal) := fun c q => by
    rw [e1B_v54, e1B_v53]
    exact wblock0 (by decide) I _ h5 _ _ c q
  refine holds2_of fun p q => ?_
  rw [e1B_v55]
  exact dot_at _ _ p q (fun c => h p c) (fun c => I.chebW 0 0 c q) (fun c => holds2_at h52 p c) (fun c => f54 c q)

/-! ## Piece C: the Laplacian's action on the hidden state -/

theorem c1C_lap (V : Valuation τ sig (Elt Ideal)) (I : Spec.Inputs) (h : Spec.Hidden)
    (h52 : Holds2 (V (Proc.devRef .tc main_v52)) h) (h29 : Holds1 (V (Proc.devRef .tc main_v29)) (Spec.wEdge I))
    (hv1 : Ends (V (Proc.devRef .tc main_v1)) I.src) (hv3 : Ends (V (Proc.devRef .tc main_v3)) I.dst) :
    Holds2 (after c1C V (Proc.devRef .tc main_v68)) (Spec.lap I h) := by
  have f56 : ∀ (e : Fin 800000) (u : Fin 1), after c1C V (Proc.devRef .tc main_v56) (ix2 e u) = ((Spec.wEdge I e : ℝ) : EReal) := fun e u => by
    rw [e1C_v56]; exact (bcast_col1_apply (by decide) _ _ e u).trans (holds1_at h29 e)
  have f63 : ∀ (e : Fin 800000) (k : Fin 128), after c1C V (Proc.devRef .tc main_v63) (ix2 e k) = ((h (I.src e) k : ℝ) : EReal) := fun e k => by
    rw [e1C_v63, e1C_v62, e1C_v61, e1C_v58, e1C_v60, e1C_v57, e1C_v59, e1C_c_11, e1C_c_12]
    exact (Cert.Hand.Val.gatherRow_of_names _ _ _ I.src (Cert.Hand.Val.names_wrap_bcast _ _ _ hv1) e k).trans
      (holds2_at h52 (I.src e) k)
  have f64 : ∀ (e : Fin 800000) (k : Fin 128), after c1C V (Proc.devRef .tc main_v64) (ix2 e k) = ((Spec.wEdge I e : ℝ) : EReal) := fun e k => by
    rw [e1C_v64]; exact (bcast_colN_apply (by decide) _ _ e k).trans (f56 e 0)
  have f65 : ∀ (e : Fin 800000) (k : Fin 128),
      after c1C V (Proc.devRef .tc main_v65) (ix2 e k) = ((Spec.wEdge I e * h (I.src e) k : ℝ) : EReal) := fun e k => by
    rw [e1C_v65]; exact mulf_at _ _ _ (f64 e k) (f63 e k)
  have f66 : ∀ j, after c1C V (Proc.devRef .tc main_v66) j = (0 : EReal) := fun j => by
    rw [e1C_v66, e1C_cst_13]; exact (splat_apply _ _ j).trans Cert.Hand.Math.ofBits_f32_zero'
  refine holds2_of fun n k => ?_
  rw [e1C_v68, e1C_v67]
  refine (Cert.Hand.Val.scatterRow_of_names _ _ _ _ I.dst (Cert.Hand.Val.names_bcast _ hv3) n k).trans ?_
  rw [f66, zero_add]
  show _ = ((∑ e : Fin 800000, if I.dst e = n then Spec.wEdge I e * h (I.src e) k else 0 : ℝ) : EReal)
  rw [Cert.Hand.Math.coe_finset_sum]
  refine Finset.sum_congr rfl fun e _ => ?_
  rw [f65]
  exact Cert.Hand.Math.ite_coe_coe _ _ 0

/-! ## Piece D: the second block's term -/

theorem c1D_lin1 (V : Valuation τ sig (Elt Ideal)) (I : Spec.Inputs) (L X0 : Spec.Hidden)
    (h68 : Holds2 (V (Proc.devRef .tc main_v68)) L) (h55 : Holds2 (V (Proc.devRef .tc main_v55)) X0) (h5 : Holds4 (V (Proc.devRef .tc main_arg5)) I.chebW) :
    Holds2 (after c1D V (Proc.devRef .tc main_v72)) (fun p q => X0 p q + Spec.lin L (I.chebW 0 1) p q) := by
  have f70 : ∀ c q : Fin 128, after c1D V (Proc.devRef .tc main_v70) (ix2 c q) = ((I.chebW 0 1 c q : ℝ) : EReal) := fun c q => by
    rw [e1D_v70, e1D_v69]
    exact wblock0 (by decide) I _ h5 _ _ c q
  have f71 : ∀ (p : Fin 50000) (q : Fin 128), after c1D V (Proc.devRef .tc main_v71) (ix2 p q) = ((Spec.lin L (I.chebW 0 1) p q : ℝ) : EReal) :=
    fun p q => by
      rw [e1D_v71]
      exact dot_at _ _ p q (fun c => L p c) (fun c => I.chebW 0 1 c q) (fun c => holds2_at h68 p c) (fun c => f70 c q)
  refine holds2_of fun p q => ?_
  rw [e1D_v72]
  exact addf_at _ _ _ (holds2_at h55 p q) (f71 p q)

/-! ## Piece E: the Laplacian's action once more -/

theorem c1E_lap (V : Valuation τ sig (Elt Ideal)) (I : Spec.Inputs) (L : Spec.Hidden)
    (h68 : Holds2 (V (Proc.devRef .tc main_v68)) L) (h29 : Holds1 (V (Proc.devRef .tc main_v29)) (Spec.wEdge I))
    (hv1 : Ends (V (Proc.devRef .tc main_v1)) I.src) (hv3 : Ends (V (Proc.devRef .tc main_v3)) I.dst) :
    Holds2 (after c1E V (Proc.devRef .tc main_v85)) (Spec.lap I L) := by
  have f73 : ∀ (e : Fin 800000) (u : Fin 1), after c1E V (Proc.devRef .tc main_v73) (ix2 e u) = ((Spec.wEdge I e : ℝ) : EReal) := fun e u => by
    rw [e1E_v73]; exact (bcast_col1_apply (by decide) _ _ e u).trans (holds1_at h29 e)
  have f80 : ∀ (e : Fin 800000) (k : Fin 128), after c1E V (Proc.devRef .tc main_v80) (ix2 e k) = ((L (I.src e) k : ℝ) : EReal) := fun e k => by
    rw [e1E_v80, e1E_v79, e1E_v78, e1E_v75, e1E_v77, e1E_v74, e1E_v76, e1E_c_14, e1E_c_15]
    exact (Cert.Hand.Val.gatherRow_of_names _ _ _ I.src (Cert.Hand.Val.names_wrap_bcast _ _ _ hv1) e k).trans
      (holds2_at h68 (I.src e) k)
  have f81 : ∀ (e : Fin 800000) (k : Fin 128), after c1E V (Proc.devRef .tc main_v81) (ix2 e k) = ((Spec.wEdge I e : ℝ) : EReal) := fun e k => by
    rw [e1E_v81]; exact (bcast_colN_apply (by decide) _ _ e k).trans (f73 e 0)
  have f82 : ∀ (e : Fin 800000) (k : Fin 128),
      after c1E V (Proc.devRef .tc main_v82) (ix2 e k) = ((Spec.wEdge I e * L (I.src e) k : ℝ) : EReal) := fun e k => by
    rw [e1E_v82]; exact mulf_at _ _ _ (f81 e k) (f80 e k)
  have f83 : ∀ j, after c1E V (Proc.devRef .tc main_v83) j = (0 : EReal) := fun j => by
    rw [e1E_v83, e1E_cst_16]; exact (splat_apply _ _ j).trans Cert.Hand.Math.ofBits_f32_zero'
  refine holds2_of fun n k => ?_
  rw [e1E_v85, e1E_v84]
  refine (Cert.Hand.Val.scatterRow_of_names _ _ _ _ I.dst (Cert.Hand.Val.names_bcast _ hv3) n k).trans ?_
  rw [f83, zero_add]
  show _ = ((∑ e : Fin 800000, if I.dst e = n then Spec.wEdge I e * L (I.src e) k else 0 : ℝ) : EReal)
  rw [Cert.Hand.Math.coe_finset_sum]
  refine Finset.sum_congr rfl fun e _ => ?_
  rw [f82]
  exact Cert.Hand.Math.ite_coe_coe _ _ 0

/-! ## Piece F: the third block's term -/

theorem c1F_lin2 (V : Valuation τ sig (Elt Ideal)) (I : Spec.Inputs) (L2 h X1 : Spec.Hidden)
    (h85 : Holds2 (V (Proc.devRef .tc main_v85)) L2) (h52 : Holds2 (V (Proc.devRef .tc main_v52)) h) (h72 : Holds2 (V (Proc.devRef .tc main_v72)) X1)
    (h5 : Holds4 (V (Proc.devRef .tc main_arg5)) I.chebW) :
    Holds2 (after c1F V (Proc.devRef .tc main_v92))
      (fun p q => X1 p q + Spec.lin (fun i' k' => 2 * L2 i' k' - h i' k') (I.chebW 0 2) p q) := by
  have f86 : ∀ j, after c1F V (Proc.devRef .tc main_v86) j = ((2 : ℝ) : EReal) := fun j => by
    rw [e1F_v86, e1F_cst_17]; exact (splat_apply _ _ j).trans Cert.Hand.Math.ofBits_f32_two
  have f87 : ∀ (p : Fin 50000) (q : Fin 128), after c1F V (Proc.devRef .tc main_v87) (ix2 p q) = ((2 * L2 p q : ℝ) : EReal) := fun p q => by
    rw [e1F_v87]; exact mulf_at _ _ _ (f86 _) (holds2_at h85 p q)
  have f88 : ∀ (p : Fin 50000) (q : Fin 128), after c1F V (Proc.devRef .tc main_v88) (ix2 p q) = ((2 * L2 p q - h p q : ℝ) : EReal) :=
    fun p q => by
      rw [e1F_v88]; exact subf_at _ _ _ (f87 p q) (holds2_at h52 p q)
  have f90 : ∀ c q : Fin 128, after c1F V (Proc.devRef .tc main_v90) (ix2 c q) = ((I.chebW 0 2 c q : ℝ) : EReal) := fun c q => by
    rw [e1F_v90, e1F_v89]
    exact wblock0 (by decide) I _ h5 _ _ c q
  have f91 : ∀ (p : Fin 50000) (q : Fin 128), after c1F V (Proc.devRef .tc main_v91) (ix2 p q)
      = ((Spec.lin (fun i' k' => 2 * L2 i' k' - h i' k') (I.chebW 0 2) p q : ℝ) : EReal) := fun p q => by
    rw [e1F_v91]
    exact dot_at _ _ p q (fun c => 2 * L2 p c - h p c) (fun c => I.chebW 0 2 c q) (fun c => f88 p c) (fun c => f90 c q)
  refine holds2_of fun p q => ?_
  rw [e1F_v92]
  exact addf_at _ _ _ (holds2_at h72 p q) (f91 p q)

/-! ## Piece G: the bias, and the columns' sums -/

theorem c1G_bias (V : Valuation τ sig (Elt Ideal)) (I : Spec.Inputs) (X2 : Spec.Hidden)
    (h92 : Holds2 (V (Proc.devRef .tc main_v92)) X2) (h6 : Holds2 (V (Proc.devRef .tc main_arg6)) I.chebB) :
    Holds2 (after c1G V (Proc.devRef .tc main_v97)) (fun p q => X2 p q + I.chebB 0 q)
      ∧ Holds1 (after c1G V (Proc.devRef .tc main_v98)) (fun q => ∑ p : Fin 50000, (X2 p q + I.chebB 0 q)) := by
  have f94 : ∀ q : Fin 128, after c1G V (Proc.devRef .tc main_v94) (ix1 q) = ((I.chebB 0 q : ℝ) : EReal) := fun q => by
    rw [e1G_v94, e1G_v93]
    exact (bslice_at (by decide) _ _ _ q).trans (holds2_at h6 _ q)
  have f95 : ∀ (u : Fin 1) (q : Fin 128), after c1G V (Proc.devRef .tc main_v95) (ix2 u q) = ((I.chebB 0 q : ℝ) : EReal) := fun u q => by
    rw [e1G_v95]; exact (bcast_row1_apply (by decide) _ _ u q).trans (f94 q)
  have f96 : ∀ (p : Fin 50000) (q : Fin 128), after c1G V (Proc.devRef .tc main_v96) (ix2 p q) = ((I.chebB 0 q : ℝ) : EReal) := fun p q => by
    rw [e1G_v96]; exact (bcast_rowN_apply (by decide) _ _ p q).trans (f95 0 q)
  have f97 : ∀ (p : Fin 50000) (q : Fin 128), after c1G V (Proc.devRef .tc main_v97) (ix2 p q) = ((X2 p q + I.chebB 0 q : ℝ) : EReal) :=
    fun p q => by
      rw [e1G_v97]; exact addf_at _ _ _ (holds2_at h92 p q) (f96 p q)
  constructor
  · exact holds2_of f97
  · refine holds1_of fun q => ?_
    rw [e1G_v98]
    exact colSum_at _ _ q (fun p => X2 p q + I.chebB 0 q) (fun p => f97 p q)
      (by rw [e1G_cst_18]; exact Cert.Hand.Math.ofBits_f32_zero')

/-! ## The window -/

/-- Window 1: the embedding, and the first Chebyshev layer up to its pre-norm table and that table's column sums. -/
theorem stage1 (V : Valuation τ sig (Elt Ideal)) (I : Spec.Inputs)
    (h46 : Holds2 (V (Proc.devRef .tc main_v46)) (fun (_ : Fin 1) (k : Fin 128) => I.lnG k))
    (h45 : Holds2 (V (Proc.devRef .tc main_v45)) (embNorm I eps))
    (h4 : Holds1 (V (Proc.devRef .tc main_arg4)) I.lnB)
    (h5 : Holds4 (V (Proc.devRef .tc main_arg5)) I.chebW)
    (h29 : Holds1 (V (Proc.devRef .tc main_v29)) (Spec.wEdge I))
    (hv1 : Ends (V (Proc.devRef .tc main_v1)) I.src)
    (hv3 : Ends (V (Proc.devRef .tc main_v3)) I.dst)
    (h6 : Holds2 (V (Proc.devRef .tc main_arg6)) I.chebB) :
    Holds2 (after (ops1 (F := Ideal)) V (Proc.devRef .tc main_v52)) (Spec.embed I eps)
      ∧ Holds2 (after (ops1 (F := Ideal)) V (Proc.devRef .tc main_v97)) (Spec.chebPre I 0 (Spec.embed I eps))
      ∧ Holds1 (after (ops1 (F := Ideal)) V (Proc.devRef .tc main_v98))
          (fun k => ∑ i : Fin 50000, Spec.chebPre I 0 (Spec.embed I eps) i k) := by
  rw [ops1_after]
  -- piece A
  have a52 : Holds2 (after c1A V (Proc.devRef .tc main_v52)) (Spec.embed I eps) := c1A_embed V (embNorm I eps) I.lnG I.lnB h46 h45 h4
  have a5 : Holds4 (after c1A V (Proc.devRef .tc main_arg5)) I.chebW := by rw [k1A_arg5]; exact h5
  have a29 : Holds1 (after c1A V (Proc.devRef .tc main_v29)) (Spec.wEdge I) := by rw [k1A_v29]; exact h29
  have a1 : Ends (after c1A V (Proc.devRef .tc main_v1)) I.src := by rw [k1A_v1]; exact hv1
  have a3 : Ends (after c1A V (Proc.devRef .tc main_v3)) I.dst := by rw [k1A_v3]; exact hv3
  have a6 : Holds2 (after c1A V (Proc.devRef .tc main_arg6)) I.chebB := by rw [k1A_arg6]; exact h6
  generalize after c1A V = V1 at *
  -- piece B
  have b55 := c1B_lin0 V1 I (Spec.embed I eps) a52 a5
  have b52 : Holds2 (after c1B V1 (Proc.devRef .tc main_v52)) (Spec.embed I eps) := by rw [k1B_v52]; exact a52
  have b29 : Holds1 (after c1B V1 (Proc.devRef .tc main_v29)) (Spec.wEdge I) := by rw [k1B_v29]; exact a29
  have b1 : Ends (after c1B V1 (Proc.devRef .tc main_v1)) I.src := by rw [k1B_v1]; exact a1
  have b3 : Ends (after c1B V1 (Proc.devRef .tc main_v3)) I.dst := by rw [k1B_v3]; exact a3
  have b5 : Holds4 (after c1B V1 (Proc.devRef .tc main_arg5)) I.chebW := by rw [k1B_arg5]; exact a5
  have b6 : Holds2 (after c1B V1 (Proc.devRef .tc main_arg6)) I.chebB := by rw [k1B_arg6]; exact a6
  generalize after c1B V1 = V2 at *
  -- piece C
  have c68 := c1C_lap V2 I (Spec.embed I eps) b52 b29 b1 b3
  have c52 : Holds2 (after c1C V2 (Proc.devRef .tc main_v52)) (Spec.embed I eps) := by rw [k1C_v52]; exact b52
  have c5 : Holds4 (after c1C V2 (Proc.devRef .tc main_arg5)) I.chebW := by rw [k1C_arg5]; exact b5
  have c55 : Holds2 (after c1C V2 (Proc.devRef .tc main_v55)) (Spec.lin (Spec.embed I eps) (I.chebW 0 0)) := by rw [k1C_v55]; exact b55
  have c29 : Holds1 (after c1C V2 (Proc.devRef .tc main_v29)) (Spec.wEdge I) := by rw [k1C_v29]; exact b29
  have c1 : Ends (after c1C V2 (Proc.devRef .tc main_v1)) I.src := by rw [k1C_v1]; exact b1
  have c3 : Ends (after c1C V2 (Proc.devRef .tc main_v3)) I.dst := by rw [k1C_v3]; exact b3
  have c6 : Holds2 (after c1C V2 (Proc.devRef .tc main_arg6)) I.chebB := by rw [k1C_arg6]; exact b6
  generalize after c1C V2 = V3 at *
  -- piece D
  have d72 := c1D_lin1 V3 I (Spec.lap I (Spec.embed I eps)) (Spec.lin (Spec.embed I eps) (I.chebW 0 0)) c68 c55 c5
  have d52 : Holds2 (after c1D V3 (Proc.devRef .tc main_v52)) (Spec.embed I eps) := by rw [k1D_v52]; exact c52
  have d29 : Holds1 (after c1D V3 (Proc.devRef .tc main_v29)) (Spec.wEdge I) := by rw [k1D_v29]; exact c29
  have d1 : Ends (after c1D V3 (Proc.devRef .tc main_v1)) I.src := by rw [k1D_v1]; exact c1
  have d68 : Holds2 (after c1D V3 (Proc.devRef .tc main_v68)) (Spec.lap I (Spec.embed I eps)) := by rw [k1D_v68]; exact c68
  have d3 : Ends (after c1D V3 (Proc.devRef .tc main_v3)) I.dst := by rw [k1D_v3]; exact c3
  have d5 : Holds4 (after c1D V3 (Proc.devRef .tc main_arg5)) I.chebW := by rw [k1D_arg5]; exact c5
  have d6 : Holds2 (after c1D V3 (Proc.devRef .tc main_arg6)) I.chebB := by rw [k1D_arg6]; exact c6
  generalize after c1D V3 = V4 at *
  -- piece E
  have e85 := c1E_lap V4 I (Spec.lap I (Spec.embed I eps)) d68 d29 d1 d3
  have e52 : Holds2 (after c1E V4 (Proc.devRef .tc main_v52)) (Spec.embed I eps) := by rw [k1E_v52]; exact d52
  have e5 : Holds4 (after c1E V4 (Proc.devRef .tc main_arg5)) I.chebW := by rw [k1E_arg5]; exact d5
  have e72 : Holds2 (after c1E V4 (Proc.devRef .tc main_v72))
      (fun p q => Spec.lin (Spec.embed I eps) (I.chebW 0 0) p q + Spec.lin (Spec.lap I (Spec.embed I eps)) (I.chebW 0 1) p q) := by
    rw [k1E_v72]; exact d72
  have e6 : Holds2 (after c1E V4 (Proc.devRef .tc main_arg6)) I.chebB := by rw [k1E_arg6]; exact d6
  generalize after c1E V4 = V5 at *
  -- piece F
  have f92 := c1F_lin2 V5 I _ _ _ e85 e52 e72 e5
  have f52 : Holds2 (after c1F V5 (Proc.devRef .tc main_v52)) (Spec.embed I eps) := by rw [k1F_v52]; exact e52
  have f6 : Holds2 (after c1F V5 (Proc.devRef .tc main_arg6)) I.chebB := by rw [k1F_arg6]; exact e6
  generalize after c1F V5 = V6 at *
  -- piece G
  obtain ⟨g97, g98⟩ := c1G_bias V6 I _ f92 f6
  refine ⟨?_, g97, g98⟩
  rw [k1G_v52]; exact f52

end Cert.ReferenceIdeal.HandVal

end
-- ==== Proof.RefVal.W2.lean ====
/-
  The reference program over the reals, windows 2 to 4: the pieces the three windows share, and window 2.

  A float of the ideal instance is an extended real.  Each piece below is one host expression of the printed text,
  read at an index: a constant laid over a shape, a row laid under every node, a row cut from a parameter table, a
  matrix cut from the Chebyshev weights, a column sum, the column mean, the column variance as the mean of squared
  deviations (the outlined variance: its divisor 50000 - 0 is positive, so its guard selects the quotient), the
  normalisation, scale, shift and rectifier, a matrix product, and the scaled Laplacian's action as gather, weight and
  scatter-add.  Whenever the arrays an expression reads hold real tables, the expression holds the corresponding real
  table of the specification.  Window 2 finishes layer 0 (statistics, normalisation, rectifier) and starts layer 1
  (its first two products and the gather for the third).
-/
import proofs.«160050_j32744830665390_2_alg».proof.Proof.Ref.Ops
import proofs.«160050_j32744830665390_2_alg».proof.Proof.Spec
import proofs.«160050_j32744830665390_2_alg».proof.Proof.Bridge.Inputs
import proofs.«160050_j32744830665390_2_alg».proof.Proof.Val.GatherScatter
import proofs.«160050_j32744830665390_2_alg».proof.Proof.Val.Ends
import proofs.«160050_j32744830665390_2_alg».proof.Proof.Math.Lift
import proofs.«160050_j32744830665390_2_alg».proof.Proof.Math.Consts
import proofs.«160050_j32744830665390_2_alg».proof.Proof.Math.Variance
import Idealize.ShloMosaic.Lib.StableHlo.Run
import Idealize.ShloMosaic.Lib.ValueLayout
import Idealize.ShloMosaic.Lib.IdealHost

noncomputable section

open Cert.ReferenceIdeal Cert.ReferenceIdeal.Gen Cert.ReferenceIdeal.HandRun
open Idealize.ShloMosaic Idealize.ShloMosaic.TcCoe Idealize.ShloMosaic.ValueIdx Idealize.ShloMosaic.StableHlo
open Cert.Hand Cert.Hand.Bridge
open scoped BigOperators

namespace Cert.ReferenceIdeal.HandVal.Mid

/-! ## Tables that hold the same reals -/

/-- A table holding A holds any table equal to A entry by entry. -/
theorem holds2_congr {n0 n1 : Nat} {a : (⟨2, ![n0, n1]⟩ : Shape).Idx → EReal} {A B : Fin n0 → Fin n1 → ℝ}
    (h : Holds2 a A) (e : ∀ i k, A i k = B i k) : Holds2 a B :=
  fun i => (h i).trans (congrArg (fun r : ℝ => (r : EReal)) (e (i 0) (i 1)))

/-- Every rank-2 index is the pair of its coordinates. -/
theorem exists_ix2 {n0 n1 : Nat} (j : (⟨2, ![n0, n1]⟩ : Shape).Idx) : ∃ (i : Fin n0) (k : Fin n1), j = ix2 i k :=
  ⟨j 0, j 1, eq_ix2 j⟩

/-- Every rank-1 index is its coordinate. -/
theorem exists_ix1 {n : Nat} (j : (⟨1, ![n]⟩ : Shape).Idx) : ∃ k : Fin n, j = ix1 k := ⟨j 0, eq_ix1 j⟩

/-! ## Layout operations read at an index -/

/-- A scalar constant laid over any shape reads the constant's value everywhere. -/
theorem splat_apply {T : Shape} (h : S_.BroadcastsInDim T ![]) (b : BitVec 32) (j : T.Idx) :
    broadcastInDim T ![] h (constant (F := Ideal) S_ .f32 b) j = Ideal.ofBits .f32 b :=
  broadcastInDim_scalar_apply h _ j

/-- A [1, 128] row laid under every node reads, at (i, k), the row's entry k. -/
theorem under_apply {α : Type} (r : S1x128.Idx → α) (i : Fin 50000) (k : Fin 128) :
    broadcastInDim S50000x128 ![0, 1] bcast_S1x128_S50000x128_0_1 r (ix2 i k) = r (ix2 (0 : Fin 1) k) :=
  broadcastInDim_apply ![0, 1] bcast_S1x128_S50000x128_0_1 r (ix2 i k) (ix2 (0 : Fin 1) k)
    (fun a => by match a with | ⟨0, _⟩ => rfl | ⟨1, _⟩ => rfl)

/-- A vector of 128 entries as a [1, 128] row reads, at (u, k), the vector's entry k. -/
theorem asRow_apply {α : Type} (r : S128.Idx → α) (u : Fin 1) (k : Fin 128) :
    broadcastInDim S1x128 ![1] bcast_S128_S1x128_1 r (ix2 u k) = r (ix1 k) :=
  broadcastInDim_apply ![1] bcast_S128_S1x128_1 r (ix2 u k) (ix1 k)
    (fun a => by match a with | ⟨0, _⟩ => rfl)

/-- A vector of 128 entries laid under every node. -/
abbrev rowbc {α : Type} (r : S128.Idx → α) : S50000x128.Idx → α :=
  broadcastInDim S50000x128 ![0, 1] bcast_S1x128_S50000x128_0_1 (broadcastInDim S1x128 ![1] bcast_S128_S1x128_1 r)

/-- It reads, at (i, k), the vector's entry k. -/
theorem rowbc_apply {α : Type} (r : S128.Idx → α) (i : Fin 50000) (k : Fin 128) : rowbc r (ix2 i k) = r (ix1 k) :=
  (under_apply _ i k).trans (asRow_apply r 0 k)

/-- Row o of a three-row parameter table, as a vector. -/
abbrev paramRow {α : Type} (o : Nat) (p : S3x128.Idx → α) (hsl : S3x128.Slices ![o, 0] S1x128) : S128.Idx → α :=
  shapeCast S128 (extractStridedSlice S1x128 ![o, 0] p hsl) shapeCasts_S1x128_S128

/-- It reads, at k, the table at (l, k) for the row l numbered o. -/
theorem paramRow_apply {α : Type} (o : Nat) (p : S3x128.Idx → α) (hsl : S3x128.Slices ![o, 0] S1x128)
    (l : Fin 3) (hl : l.val = o) (k : Fin 128) : paramRow o p hsl (ix1 k) = p (ix2 l k) :=
  (shapeCast_1a_a_apply _ shapeCasts_S1x128_S128 k).trans
    (slice2_axis0_apply o p hsl (0 : Fin 1) k l (hl.trans (Nat.add_zero o).symm))

/-- Matrix (ol, op) of the Chebyshev weight table, as a matrix. -/
abbrev weightMat {α : Type} (ol op : Nat) (w : S3x3x128x128.Idx → α)
    (hsl : S3x3x128x128.Slices ![ol, op, 0, 0] S1x1x128x128) : S128x128.Idx → α :=
  shapeCast S128x128 (extractStridedSlice S1x1x128x128 ![ol, op, 0, 0] w hsl) shapeCasts_S1x1x128x128_S128x128

/-- It reads, at (j, k), the table at (l, p, j, k) for the layer l numbered ol and the order p numbered op. -/
theorem weightMat_apply {α : Type} (ol op : Nat) (w : S3x3x128x128.Idx → α)
    (hsl : S3x3x128x128.Slices ![ol, op, 0, 0] S1x1x128x128) (l p : Fin 3) (hl : l.val = ol) (hp : p.val = op)
    (j k : Fin 128) : weightMat ol op w hsl (ix2 j k) = w (ix4 l p j k) :=
  (shapeCast_apply _ shapeCasts_S1x1x128x128_S128x128 (ix2 j k) (ix4 (0 : Fin 1) (0 : Fin 1) j k) (by
      rw [Shape.rowMajor_val_four, Shape.rowMajor_val_two]
      show ((0 * 1 + 0) * 128 + j.val) * 128 + k.val = j.val * 128 + k.val
      omega)).trans
    (extractStridedSlice_apply ![ol, op, 0, 0] w hsl (ix4 (0 : Fin 1) (0 : Fin 1) j k) (ix4 l p j k) (fun a => by
      match a with
      | ⟨0, _⟩ => exact hl.trans (Nat.add_zero ol).symm
      | ⟨1, _⟩ => exact hp.trans (Nat.add_zero op).symm
      | ⟨2, _⟩ => exact (Nat.zero_add _).symm
      | ⟨3, _⟩ => exact (Nat.zero_add _).symm))

/-! ## Column statistics -/

/-- The node axis of a [50000, 128] table can be summed away. -/
theorem reduces_nodes : S50000x128.Reduces [0] S128 := by decide

/-- The column sums of a table, from zero. -/
abbrev colsumTerm (o : FVec Ideal S50000x128 .f32) : FVec Ideal S128 .f32 :=
  Host.reduceAdd o (constant (F := Ideal) S_ .f32 0x00000000#32) reducesTo_S50000x128_S128_d0 h_S_

/-- At column k they are the sum over the nodes of the table's entries in that column. -/
theorem colsum_apply (o : FVec Ideal S50000x128 .f32) (k : Fin 128) :
    colsumTerm o (ix1 k) = ∑ i : Fin 50000, o (ix2 i k) := by
  show Host.reduceAdd o (constant (F := Ideal) S_ .f32 0x00000000#32) reducesTo_S50000x128_S128_d0 h_S_ (ix1 k) = _
  rw [hostReduceAdd_apply, Ideal.hostReduceAdd_single reducesTo_S50000x128_S128_d0 reduces_nodes]
  have h0 : constant (F := Ideal) S_ .f32 0x00000000#32 (Shape.Idx.first h_S_) = (0 : EReal) := Ideal.ofBits_zero_f32
  rw [h0, zero_add]
  refine Finset.sum_congr rfl fun i _ => congrArg o ?_
  funext a
  apply Fin.ext
  match a with
  | ⟨0, _⟩ => rfl
  | ⟨1, _⟩ => rfl

/-- The column sums of a table that holds a real table hold its column sums. -/
theorem holds_colsum {o : FVec Ideal S50000x128 .f32} {O : Spec.Hidden}
    (ho : Holds2 (n0 := 50000) (n1 := 128) o O) :
    Holds1 (n0 := 128) (colsumTerm o) (fun k => ∑ i : Fin 50000, O i k) := by
  unfold Holds1
  intro j
  obtain ⟨k, rfl⟩ := exists_ix1 j
  rw [colsum_apply]
  exact Math.sum_eq_coe_of_forall _ _ (fun i => O i k) fun i _ => ho (ix2 i k)

/-- The column means: the column sums over the number of nodes. -/
abbrev meanTerm (s : FVec Ideal S128 .f32) : FVec Ideal S128 .f32 :=
  Host.divf s (broadcastInDim S128 ![] bcast_S_S128 (constant (F := Ideal) S_ .f32 0x47435000#32))

/-- The quotient of a vector holding the column sums holds the column means. -/
theorem holds_mean {s : FVec Ideal S128 .f32} {O : Spec.Hidden}
    (hs : Holds1 (n0 := 128) s (fun k => ∑ i : Fin 50000, O i k)) :
    Holds1 (n0 := 128) (meanTerm s) (Spec.colMean O) := by
  unfold Holds1
  intro j
  obtain ⟨k, rfl⟩ := exists_ix1 j
  have es : s (ix1 k) = ((∑ i : Fin 50000, O i k : ℝ) : EReal) := hs (ix1 k)
  show Ideal.div (s (ix1 k))
      (broadcastInDim S128 ![] bcast_S_S128 (constant (F := Ideal) S_ .f32 0x47435000#32) (ix1 k))
    = ((Spec.colMean O k : ℝ) : EReal)
  rw [splat_apply, Math.ofBits_f32_50000, es]
  exact Math.div_coe_coe _ (by norm_num)

/-- The deviations from the column means, as the outlined variance spells them: the table less its column sums over
    50000, the quotient taken on a [1, 128] row. -/
abbrev devTerm (o : FVec Ideal S50000x128 .f32) : FVec Ideal S50000x128 .f32 :=
  subf o (broadcastInDim S50000x128 ![0, 1] bcast_S1x128_S50000x128_0_1
    (Host.divf (broadcastInDim S1x128 ![1] bcast_S128_S1x128_1 (colsumTerm o))
      (broadcastInDim S1x128 ![] bcast_S_S1x128 (constant (F := Ideal) S_ .f32 0x47435000#32))))

/-- At (i, k) they are the entry less the column's mean. -/
theorem dev_apply {o : FVec Ideal S50000x128 .f32} {O : Spec.Hidden}
    (ho : Holds2 (n0 := 50000) (n1 := 128) o O) (i : Fin 50000) (k : Fin 128) :
    devTerm o (ix2 i k) = ((O i k - Spec.colMean O k : ℝ) : EReal) := by
  show o (ix2 i k) - broadcastInDim S50000x128 ![0, 1] bcast_S1x128_S50000x128_0_1
      (Host.divf (broadcastInDim S1x128 ![1] bcast_S128_S1x128_1 (colsumTerm o))
        (broadcastInDim S1x128 ![] bcast_S_S1x128 (constant (F := Ideal) S_ .f32 0x47435000#32))) (ix2 i k) = _
  rw [under_apply]
  show o (ix2 i k) - Ideal.div (broadcastInDim S1x128 ![1] bcast_S128_S1x128_1 (colsumTerm o) (ix2 (0 : Fin 1) k))
      (broadcastInDim S1x128 ![] bcast_S_S1x128 (constant (F := Ideal) S_ .f32 0x47435000#32) (ix2 (0 : Fin 1) k)) = _
  have eo : o (ix2 i k) = ((O i k : ℝ) : EReal) := ho (ix2 i k)
  have ec : colsumTerm o (ix1 k) = ((∑ i : Fin 50000, O i k : ℝ) : EReal) := holds_colsum ho (ix1 k)
  rw [asRow_apply, splat_apply, Math.ofBits_f32_50000, ec, eo,
    Math.div_coe_coe _ (by norm_num : (50000 : ℝ) ≠ 0), Math.coe_sub_coe]
  all_goals rfl

/-- The divisor of the outlined variance: 50000 less the degrees of freedom, the integer 0 converted. -/
abbrev divisorTerm : FVec Ideal S_ .f32 :=
  subf (constant (F := Ideal) S_ .f32 0x47435000#32) (sitofp .f32 (constantI S_ 32 0#32))

/-- It is 50000. -/
theorem divisor_apply (i : S_.Idx) : divisorTerm i = ((50000 : ℝ) : EReal) := by
  have hz : (0#32 : BitVec 32).toInt = 0 := by decide
  show Ideal.ofBits .f32 0x47435000#32 - (((0#32 : BitVec 32).toInt : ℝ) : EReal) = _
  rw [hz, Int.cast_zero, Math.ofBits_f32_50000, Math.coe_sub_coe, sub_zero]

/-- The outlined column variance as the host spells it: where the divisor is positive, the column sums of the squared
    deviations over the divisor; elsewhere a constant that is never read. -/
abbrev varTerm (o : FVec Ideal S50000x128 .f32) : FVec Ideal S128 .f32 :=
  select
    (broadcastInDim S128 ![] bcast_S_S128 (cmpf .ogt divisorTerm (constant (F := Ideal) S_ .f32 0x00000000#32)))
    (Host.divf (colsumTerm (mulf (devTerm o) (devTerm o))) (broadcastInDim S128 ![] bcast_S_S128 divisorTerm))
    (broadcastInDim S128 ![] bcast_S_S128 (id (constant (F := Ideal) S_ .f32 0x7FC00000#32)))

/-- The guard of the outlined variance holds: 50000 exceeds 0. -/
theorem guard_apply (j : S128.Idx) :
    broadcastInDim S128 ![] bcast_S_S128 (cmpf .ogt divisorTerm (constant (F := Ideal) S_ .f32 0x00000000#32)) j
      = 1#1 := by
  rw [broadcastInDim_scalar_apply]
  show Ideal.cmp .ogt (divisorTerm ix0) (Ideal.ofBits .f32 0x00000000#32) = 1#1
  rw [divisor_apply, Ideal.ofBits_zero_f32, Math.zero_eq_coe, Math.cmp_ogt_coe_coe,
    decide_eq_true (by norm_num : (0 : ℝ) < 50000)]
  all_goals rfl

/-- The outlined variance of a table that holds a real table holds its mean of squared deviations. -/
theorem holds_var {o : FVec Ideal S50000x128 .f32} {O : Spec.Hidden}
    (ho : Holds2 (n0 := 50000) (n1 := 128) o O) : Holds1 (n0 := 128) (varTerm o) (Spec.varDev O) := by
  unfold Holds1
  intro j
  obtain ⟨k, rfl⟩ := exists_ix1 j
  show Scalar.select
      (broadcastInDim S128 ![] bcast_S_S128 (cmpf .ogt divisorTerm (constant (F := Ideal) S_ .f32 0x00000000#32)) (ix1 k))
      (Ideal.div (colsumTerm (mulf (devTerm o) (devTerm o)) (ix1 k))
        (broadcastInDim S128 ![] bcast_S_S128 divisorTerm (ix1 k)))
      (broadcastInDim S128 ![] bcast_S_S128 (id (constant (F := Ideal) S_ .f32 0x7FC00000#32)) (ix1 k))
    = ((Spec.varDev O k : ℝ) : EReal)
  rw [guard_apply, select_one, colsum_apply, broadcastInDim_scalar_apply, divisor_apply]
  have hsq : ∀ i : Fin 50000, mulf (devTerm o) (devTerm o) (ix2 i k)
      = (((O i k - Spec.colMean O k) * (O i k - Spec.colMean O k) : ℝ) : EReal) := fun i => by
    show devTerm o (ix2 i k) * devTerm o (ix2 i k) = _
    rw [dev_apply ho, Math.coe_mul_coe]
  rw [Math.sum_eq_coe_of_forall _ _ (fun i => (O i k - Spec.colMean O k) * (O i k - Spec.colMean O k))
    (fun i _ => hsq i), Math.div_coe_coe _ (by norm_num : (50000 : ℝ) ≠ 0)]
  all_goals rfl

/-! ## Normalisation, scale, shift and rectifier -/

/-- A parameter table's row, numbered o, holds that row of the real table. -/
theorem holds_paramRow {p : FVec Ideal S3x128 .f32} {P : Fin 3 → Fin 128 → ℝ} (o : Nat)
    (hsl : S3x128.Slices ![o, 0] S1x128) (l : Fin 3) (hl : l.val = o)
    (hp : Holds2 (n0 := 3) (n1 := 128) p P) : Holds1 (n0 := 128) (paramRow o p hsl) (P l) := by
  unfold Holds1
  intro j
  obtain ⟨k, rfl⟩ := exists_ix1 j
  exact (paramRow_apply o p hsl l hl k).trans (hp (ix2 l k))

/-- A Chebyshev weight matrix, numbered (ol, op), holds that matrix of the real table. -/
theorem holds_weightMat {w : FVec Ideal S3x3x128x128 .f32} {W : Fin 3 → Fin 3 → Fin 128 → Fin 128 → ℝ}
    (ol op : Nat) (hsl : S3x3x128x128.Slices ![ol, op, 0, 0] S1x1x128x128) (l p : Fin 3) (hl : l.val = ol)
    (hp : p.val = op) (hw : Holds4 w W) : Holds2 (n0 := 128) (n1 := 128) (weightMat ol op w hsl) (W l p) := by
  unfold Holds2
  intro j
  obtain ⟨a, b, rfl⟩ := exists_ix2 j
  exact (weightMat_apply ol op w hsl l p hl hp a b).trans (hw (ix4 l p a b))

/-- The normalised table: the deviations from the given means times the reciprocal root of the given variances plus
    the stabiliser. -/
abbrev normTerm (o : FVec Ideal S50000x128 .f32) (m v : FVec Ideal S128 .f32) : FVec Ideal S50000x128 .f32 :=
  mulf (subf o (rowbc m))
    (rowbc (Host.rsqrt (addf v (broadcastInDim S128 ![] bcast_S_S128 (constant (F := Ideal) S_ .f32 0x3727C5AC#32)))))

/-- It holds the real normalised table, the variances plus the stabiliser being positive. -/
theorem holds_norm {o : FVec Ideal S50000x128 .f32} {m v : FVec Ideal S128 .f32} {O : Spec.Hidden}
    {M Vr : Fin 128 → ℝ} (ho : Holds2 (n0 := 50000) (n1 := 128) o O) (hm : Holds1 (n0 := 128) m M)
    (hv : Holds1 (n0 := 128) v Vr) (hpos : ∀ k, 0 < Vr k + eps) :
    Holds2 (n0 := 50000) (n1 := 128) (normTerm o m v) (fun i k => (O i k - M k) * Spec.rsq (Vr k + eps)) := by
  unfold Holds2
  intro j
  obtain ⟨i, k, rfl⟩ := exists_ix2 j
  have eo : o (ix2 i k) = ((O i k : ℝ) : EReal) := ho (ix2 i k)
  have em : m (ix1 k) = ((M k : ℝ) : EReal) := hm (ix1 k)
  have ev : v (ix1 k) = ((Vr k : ℝ) : EReal) := hv (ix1 k)
  show (o (ix2 i k) - rowbc m (ix2 i k))
      * rowbc (Host.rsqrt (addf v (broadcastInDim S128 ![] bcast_S_S128 (constant (F := Ideal) S_ .f32 0x3727C5AC#32))))
          (ix2 i k)
    = (((O i k - M k) * Spec.rsq (Vr k + eps) : ℝ) : EReal)
  rw [rowbc_apply, rowbc_apply]
  show (o (ix2 i k) - m (ix1 k))
      * Ideal.rsqrt (v (ix1 k)
          + broadcastInDim S128 ![] bcast_S_S128 (constant (F := Ideal) S_ .f32 0x3727C5AC#32) (ix1 k)) = _
  rw [splat_apply, eps_spec.1, eo, em, ev, Math.coe_add_coe, Math.rsqrt_coe_of_pos (hpos k), Math.coe_sub_coe,
    Math.coe_mul_coe]
  all_goals rfl

/-- A table times a row laid under every node. -/
theorem holds_scale {n : FVec Ideal S50000x128 .f32} {g : FVec Ideal S128 .f32} {N : Spec.Hidden} {G : Fin 128 → ℝ}
    (hn : Holds2 (n0 := 50000) (n1 := 128) n N) (hg : Holds1 (n0 := 128) g G) :
    Holds2 (n0 := 50000) (n1 := 128) (mulf n (rowbc g)) (fun i k => N i k * G k) := by
  unfold Holds2
  intro j
  obtain ⟨i, k, rfl⟩ := exists_ix2 j
  have en : n (ix2 i k) = ((N i k : ℝ) : EReal) := hn (ix2 i k)
  have eg : g (ix1 k) = ((G k : ℝ) : EReal) := hg (ix1 k)
  show n (ix2 i k) * rowbc g (ix2 i k) = ((N i k * G k : ℝ) : EReal)
  rw [rowbc_apply, en, eg, Math.coe_mul_coe]

/-- A table plus a row laid under every node. -/
theorem holds_shift {n : FVec Ideal S50000x128 .f32} {b : FVec Ideal S128 .f32} {N : Spec.Hidden} {B : Fin 128 → ℝ}
    (hn : Holds2 (n0 := 50000) (n1 := 128) n N) (hb : Holds1 (n0 := 128) b B) :
    Holds2 (n0 := 50000) (n1 := 128) (addf n (rowbc b)) (fun i k => N i k + B k) := by
  unfold Holds2
  intro j
  obtain ⟨i, k, rfl⟩ := exists_ix2 j
  have en : n (ix2 i k) = ((N i k : ℝ) : EReal) := hn (ix2 i k)
  have eb : b (ix1 k) = ((B k : ℝ) : EReal) := hb (ix1 k)
  show n (ix2 i k) + rowbc b (ix2 i k) = ((N i k + B k : ℝ) : EReal)
  rw [rowbc_apply, en, eb, Math.coe_add_coe]

/-- The rectifier: the maximum with the zero table. -/
abbrev reluTerm (x : FVec Ideal S50000x128 .f32) : FVec Ideal S50000x128 .f32 :=
  maximumf x (broadcastInDim S50000x128 ![] bcast_S_S50000x128 (constant (F := Ideal) S_ .f32 0x00000000#32))

/-- It holds the positive part. -/
theorem holds_relu {x : FVec Ideal S50000x128 .f32} {X : Spec.Hidden} (hx : Holds2 (n0 := 50000) (n1 := 128) x X) :
    Holds2 (n0 := 50000) (n1 := 128) (reluTerm x) (fun i k => max (X i k) 0) := by
  unfold Holds2
  intro j
  have ex : x j = ((X (j 0) (j 1) : ℝ) : EReal) := hx j
  show max (x j) (broadcastInDim S50000x128 ![] bcast_S_S50000x128 (constant (F := Ideal) S_ .f32 0x00000000#32) j)
    = ((max (X (j 0) (j 1)) 0 : ℝ) : EReal)
  rw [splat_apply, Ideal.ofBits_zero_f32, ex, Math.max_coe_zero]

/-- Two tables added. -/
theorem holds_add {x y : FVec Ideal S50000x128 .f32} {X Y : Spec.Hidden}
    (hx : Holds2 (n0 := 50000) (n1 := 128) x X) (hy : Holds2 (n0 := 50000) (n1 := 128) y Y) :
    Holds2 (n0 := 50000) (n1 := 128) (addf x y) (fun i k => X i k + Y i k) := by
  unfold Holds2
  intro j
  have ex : x j = ((X (j 0) (j 1) : ℝ) : EReal) := hx j
  have ey : y j = ((Y (j 0) (j 1) : ℝ) : EReal) := hy j
  show x j + y j = ((X (j 0) (j 1) + Y (j 0) (j 1) : ℝ) : EReal)
  rw [ex, ey, Math.coe_add_coe]

/-- Twice a table less another: the third Chebyshev term from the second Laplacian and the state. -/
abbrev chebTerm (x h : FVec Ideal S50000x128 .f32) : FVec Ideal S50000x128 .f32 :=
  subf (mulf (broadcastInDim S50000x128 ![] bcast_S_S50000x128 (constant (F := Ideal) S_ .f32 0x40000000#32)) x) h

theorem holds_cheb {x h : FVec Ideal S50000x128 .f32} {X H : Spec.Hidden}
    (hx : Holds2 (n0 := 50000) (n1 := 128) x X) (hh : Holds2 (n0 := 50000) (n1 := 128) h H) :
    Holds2 (n0 := 50000) (n1 := 128) (chebTerm x h) (fun i k => 2 * X i k - H i k) := by
  unfold Holds2
  intro j
  have ex : x j = ((X (j 0) (j 1) : ℝ) : EReal) := hx j
  have eh : h j = ((H (j 0) (j 1) : ℝ) : EReal) := hh j
  show broadcastInDim S50000x128 ![] bcast_S_S50000x128 (constant (F := Ideal) S_ .f32 0x40000000#32) j * x j - h j
    = ((2 * X (j 0) (j 1) - H (j 0) (j 1) : ℝ) : EReal)
  rw [splat_apply, Math.ofBits_f32_two, ex, eh, Math.coe_mul_coe, Math.coe_sub_coe]

/-! ## Products -/

/-- A hidden state times a weight matrix. -/
abbrev dotTerm (h : FVec Ideal S50000x128 .f32) (w : FVec Ideal S128x128 .f32) : FVec Ideal S50000x128 .f32 :=
  Host.dotGeneral dot_S50000x128_S128x128_S50000x128_1_0_0_1_n_n none h w

/-- It holds the real product: at (i, k) the sum over the contracted feature c of the entries (i, c) and (c, k). -/
theorem holds_dot {h : FVec Ideal S50000x128 .f32} {w : FVec Ideal S128x128 .f32} {H : Spec.Hidden}
    {W : Fin 128 → Fin 128 → ℝ} (hh : Holds2 (n0 := 50000) (n1 := 128) h H)
    (hw : Holds2 (n0 := 128) (n1 := 128) w W) : Holds2 (n0 := 50000) (n1 := 128) (dotTerm h w) (Spec.lin H W) := by
  unfold Holds2
  intro j
  obtain ⟨i, k, rfl⟩ := exists_ix2 j
  show FloatOps.dotGeneral dot_S50000x128_S128x128_S50000x128_1_0_0_1_n_n none .single h w (ix2 i k) = _
  rw [Ideal.dotGeneral_apply]
  have hr : (dot_S50000x128_S128x128_S50000x128_1_0_0_1_n_n).contr.rank = 1 := rfl
  have hs : (dot_S50000x128_S128x128_S50000x128_1_0_0_1_n_n).contr.size ⟨0, by omega⟩ = 128 := rfl
  rw [← Equiv.sum_comp (contrEquiv1 dot_S50000x128_S128x128_S50000x128_1_0_0_1_n_n 128 hr hs).symm]
  refine (Math.sum_eq_coe_of_forall _ _ (fun c : Fin 128 => H i c * W c k) fun c _ => ?_).trans rfl
  have hc := contrEquiv1_symm_val dot_S50000x128_S128x128_S50000x128_1_0_0_1_n_n 128 hr hs c
  have el : (dot_S50000x128_S128x128_S50000x128_1_0_0_1_n_n).lhsIdx (ix2 i k)
      ((contrEquiv1 dot_S50000x128_S128x128_S50000x128_1_0_0_1_n_n 128 hr hs).symm c) = ix2 i c := by
    funext a
    apply Fin.ext
    match a with
    | ⟨0, _⟩ => rfl
    | ⟨1, _⟩ => exact hc
  have er : (dot_S50000x128_S128x128_S50000x128_1_0_0_1_n_n).rhsIdx (ix2 i k)
      ((contrEquiv1 dot_S50000x128_S128x128_S50000x128_1_0_0_1_n_n 128 hr hs).symm c) = ix2 c k := by
    funext a
    apply Fin.ext
    match a with
    | ⟨0, _⟩ => exact hc
    | ⟨1, _⟩ => rfl
  have eh : h (ix2 i c) = ((H i c : ℝ) : EReal) := hh (ix2 i c)
  have ew : w (ix2 c k) = ((W c k : ℝ) : EReal) := hw (ix2 c k)
  rw [el, er, eh, ew, Math.coe_mul_coe]

/-! ## The scaled Laplacian: gather at the sources, weigh, scatter-add at the destinations -/

/-- The source column of a gather: the end words, a negative word moved up by the number of nodes, as a column. -/
abbrev srcCol (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The destination column of a scatter: the end words as a column. -/
abbrev dstCol (v : IVec S800000 32) : IVec S800000x1 32 :=
  broadcastInDim S800000x1 ![0] bcast_S800000_S800000x1_0 v

/-- The rows of a hidden state at the edges' ends. -/
abbrev gatherTerm (x : FVec Ideal S50000x128 .f32) (v : IVec S800000 32) : FVec Ideal S800000x128 .f32 :=
  Host.gather gather_S50000x128_S800000x1_S800000x128_1_0_n_n_0_1_1128 x (srcCol v)

/-- It holds, at edge e, the real state's row at the end the word names. -/
theorem holds_gather {x : FVec Ideal S50000x128 .f32} {X : Spec.Hidden} {v : IVec S800000 32}
    {f : Fin 800000 → Fin 50000} (hx : Holds2 (n0 := 50000) (n1 := 128) x X) (hv : Ends v f) :
    Holds2 (n0 := 800000) (n1 := 128) (gatherTerm x v) (fun e k => X (f e) k) := by
  unfold Holds2
  intro j
  obtain ⟨e, k, rfl⟩ := exists_ix2 j
  show Host.gather
      (Val.gatherRowDims 50000 800000 128 gather_S50000x128_S800000x1_S800000x128_1_0_n_n_0_1_1128_wf) x (srcCol v)
      (ix2 e k) = _
  rw [Val.gatherRow_of_names _ x (srcCol v) f (Val.names_wrap_bcast _ _ _ hv) e k]
  exact hx (ix2 (f e) k)

/-- The edge weights laid along every feature. -/
abbrev wCol (w : FVec Ideal S800000 .f32) : FVec Ideal S800000x128 .f32 :=
  broadcastInDim S800000x128 ![0, 1] bcast_S800000x1_S800000x128_0_1
    (broadcastInDim S800000x1 ![0] bcast_S800000_S800000x1_0 w)

/-- They hold, at (e, k), the weight of edge e. -/
theorem holds_wCol {w : FVec Ideal S800000 .f32} {W : Fin 800000 → ℝ} (hw : Holds1 (n0 := 800000) w W) :
    Holds2 (n0 := 800000) (n1 := 128) (wCol w) (fun e _ => W e) := by
  unfold Holds2
  intro j
  obtain ⟨e, k, rfl⟩ := exists_ix2 j
  refine (broadcastInDim_apply ![0, 1] bcast_S800000x1_S800000x128_0_1 _ (ix2 e k) (ix2 e (0 : Fin 1))
    (fun a => by match a with | ⟨0, _⟩ => rfl | ⟨1, _⟩ => rfl)).trans ?_
  exact (Val.bcastCol_apply (by decide) bcast_S800000_S800000x1_0 w e 0).trans (hw (ix1 e))

/-- Two edge tables multiplied. -/
theorem holds_mulE {a b : FVec Ideal S800000x128 .f32} {A B : Fin 800000 → Fin 128 → ℝ}
    (ha : Holds2 (n0 := 800000) (n1 := 128) a A) (hb : Holds2 (n0 := 800000) (n1 := 128) b B) :
    Holds2 (n0 := 800000) (n1 := 128) (mulf a b) (fun e k => A e k * B e k) := by
  unfold Holds2
  intro j
  have ea : a j = ((A (j 0) (j 1) : ℝ) : EReal) := ha j
  have eb : b j = ((B (j 0) (j 1) : ℝ) : EReal) := hb j
  show a j * b j = ((A (j 0) (j 1) * B (j 0) (j 1) : ℝ) : EReal)
  rw [ea, eb, Math.coe_mul_coe]

/-- The scatter-add of an edge table into the zero table, at the destinations. -/
abbrev scatterTerm (d : IVec S800000 32) (u : FVec Ideal S800000x128 .f32) : FVec Ideal S50000x128 .f32 :=
  Host.scatterAdd scatter_S50000x128_S800000x1_S800000x128_1_0_0_1
    (broadcastInDim S50000x128 ![] bcast_S_S50000x128 (constant (F := Ideal) S_ .f32 0x00000000#32)) (dstCol d) u

/-- It holds, at node i, the sum of the real edge table's rows over the edges that end at i. -/
theorem holds_scatter {d : IVec S800000 32} {f : Fin 800000 → Fin 50000} {u : FVec Ideal S800000x128 .f32}
    {Ur : Fin 800000 → Fin 128 → ℝ} (hd : Ends d f) (hu : Holds2 (n0 := 800000) (n1 := 128) u Ur) :
    Holds2 (n0 := 50000) (n1 := 128) (scatterTerm d u)
      (fun i k => ∑ e : Fin 800000, if f e = i then Ur e k else 0) := by
  unfold Holds2
  intro j
  obtain ⟨i, k, rfl⟩ := exists_ix2 j
  show Host.scatterAdd (F := Ideal)
      (Val.scatterRowDims 50000 800000 128 scatter_S50000x128_S800000x1_S800000x128_1_0_0_1_wf)
      (broadcastInDim S50000x128 ![] bcast_S_S50000x128 (constant (F := Ideal) S_ .f32 0x00000000#32)) (dstCol d) u
      (ix2 i k) = _
  rw [Val.scatterRow_of_names _ _ (dstCol d) u f (Val.names_bcast _ hd) i k, splat_apply, Ideal.ofBits_zero_f32,
    zero_add]
  refine Math.sum_eq_coe_of_forall _ _ (fun e => if f e = i then Ur e k else 0) fun e _ => ?_
  have eu : u (ix2 e k) = ((Ur e k : ℝ) : EReal) := hu (ix2 e k)
  rw [eu]
  exact Math.ite_coe_coe _ _ _

/-- The scaled Laplacian's action on a state: gather at the sources, weigh each edge, scatter-add at the
    destinations. -/
abbrev lapTerm (x : FVec Ideal S50000x128 .f32) (s d : IVec S800000 32) (w : FVec Ideal S800000 .f32) :
    FVec Ideal S50000x128 .f32 :=
  scatterTerm d (mulf (wCol w) (gatherTerm x s))

/-- The second half of that action, from a weight table and a gathered table already at hand. -/
theorem holds_lapTail {I : Spec.Inputs} {d : IVec S800000 32} {we g : FVec Ideal S800000x128 .f32} {X : Spec.Hidden}
    (hd : Ends d I.dst) (hwe : Holds2 (n0 := 800000) (n1 := 128) we (fun e _ => Spec.wEdge I e))
    (hg : Holds2 (n0 := 800000) (n1 := 128) g (fun e k => X (I.src e) k)) :
    Holds2 (n0 := 50000) (n1 := 128) (scatterTerm d (mulf we g)) (Spec.lap I X) :=
  holds2_congr (holds_scatter hd (holds_mulE hwe hg)) fun _ _ => rfl

/-- The whole action holds the specification's Laplacian of the real state. -/
theorem holds_lap {I : Spec.Inputs} {x : FVec Ideal S50000x128 .f32} {X : Spec.Hidden} {s d : IVec S800000 32}
    {w : FVec Ideal S800000 .f32} (hx : Holds2 (n0 := 50000) (n1 := 128) x X) (hs : Ends s I.src)
    (hd : Ends d I.dst) (hw : Holds1 (n0 := 800000) w (Spec.wEdge I)) :
    Holds2 (n0 := 50000) (n1 := 128) (lapTerm x s d w) (Spec.lap I X) :=
  holds_lapTail hd (holds_wCol hw) (holds_gather hx hs)

end Cert.ReferenceIdeal.HandVal.Mid

namespace Cert.ReferenceIdeal.HandVal

open Cert.ReferenceIdeal.HandVal.Mid

/-! ## Window 2 -/

section Window2

variable (V : Valuation τ sig (Elt Ideal))

/-- Layer 0's output as window 2 computes it from the pre-norm table (main_v97) and its column sums (main_v98):
    normalise with the column means and the outlined variance, scale and shift by row 0 of the two parameter tables,
    rectify. -/
abbrev out2 : FVec Ideal S50000x128 .f32 :=
  reluTerm (addf
    (mulf
      (normTerm (V (Proc.devRef .tc main_v97)) (meanTerm (V (Proc.devRef .tc main_v98)))
        (varTerm (V (Proc.devRef .tc main_v97))))
      (rowbc (paramRow 0 (V (Proc.devRef .tc main_arg7)) slices_S3x128_S1x128_0_0)))
    (rowbc (paramRow 0 (V (Proc.devRef .tc main_arg8)) slices_S3x128_S1x128_0_0)))

/-- Its scaled Laplacian. -/
abbrev lap2 : FVec Ideal S50000x128 .f32 :=
  lapTerm (out2 V) (V (Proc.devRef .tc main_v1)) (V (Proc.devRef .tc main_v3)) (V (Proc.devRef .tc main_v29))

theorem v121_term : after (ops2 (F := Ideal)) V (Proc.devRef .tc main_v121) = out2 V := by
  after_results_simp <;> rfl

theorem v141_term : after (ops2 (F := Ideal)) V (Proc.devRef .tc main_v141)
    = addf
        (dotTerm (out2 V) (weightMat 1 0 (V (Proc.devRef .tc main_arg5)) slices_S3x3x128x128_S1x1x128x128_1_0_0_0))
        (dotTerm (lap2 V) (weightMat 1 1 (V (Proc.devRef .tc main_arg5)) slices_S3x3x128x128_S1x1x128x128_1_1_0_0)) := by
  after_results_simp <;> rfl

theorem v149_term : after (ops2 (F := Ideal)) V (Proc.devRef .tc main_v149)
    = gatherTerm (lap2 V) (V (Proc.devRef .tc main_v1)) := by
  after_results_simp <;> rfl

theorem v150_term : after (ops2 (F := Ideal)) V (Proc.devRef .tc main_v150)
    = wCol (V (Proc.devRef .tc main_v29)) := by
  after_results_simp <;> rfl

/-- WINDOW 2. If main_v97 holds a pre-norm table o and main_v98 its column sums, the two parameter tables, the
    Chebyshev weights, the edge weights and the edge ends hold the specification's, then after the window main_v121
    holds the layer's output H (batch norm of o with the mean of squared deviations, rectified), main_v141 the first
    two terms of the next layer (H times weight 0 plus the Laplacian of H times weight 1), main_v149 the rows of the
    Laplacian of H at the edges' sources, and main_v150 the edge weights laid along the features. -/
theorem stage2 (I : Spec.Inputs) (o : Spec.Hidden)
    (h98 : Holds1 (n0 := 128) (V (Proc.devRef .tc main_v98)) (fun k => ∑ i : Fin 50000, o i k))
    (h97 : Holds2 (n0 := 50000) (n1 := 128) (V (Proc.devRef .tc main_v97)) o)
    (h7 : Holds2 (n0 := 3) (n1 := 128) (V (Proc.devRef .tc main_arg7)) I.bnG)
    (h8 : Holds2 (n0 := 3) (n1 := 128) (V (Proc.devRef .tc main_arg8)) I.bnB)
    (h5 : Holds4 (n0 := 3) (n1 := 3) (n2 := 128) (n3 := 128) (V (Proc.devRef .tc main_arg5)) I.chebW)
    (h29 : Holds1 (n0 := 800000) (V (Proc.devRef .tc main_v29)) (Spec.wEdge I))
    (hv1 : Ends (V (Proc.devRef .tc main_v1)) I.src) (hv3 : Ends (V (Proc.devRef .tc main_v3)) I.dst) :
    Holds2 (n0 := 50000) (n1 := 128) (after (ops2 (F := Ideal)) V (Proc.devRef .tc main_v121))
      (Spec.bnRelu I eps 0 (Spec.varDev o) o)
    ∧ Holds2 (n0 := 50000) (n1 := 128) (after (ops2 (F := Ideal)) V (Proc.devRef .tc main_v141))
      (fun i k => Spec.lin (Spec.bnRelu I eps 0 (Spec.varDev o) o) (I.chebW 1 0) i k
        + Spec.lin (Spec.lap I (Spec.bnRelu I eps 0 (Spec.varDev o) o)) (I.chebW 1 1) i k)
    ∧ Holds2 (n0 := 800000) (n1 := 128) (after (ops2 (F := Ideal)) V (Proc.devRef .tc main_v149))
      (fun e k => Spec.lap I (Spec.bnRelu I eps 0 (Spec.varDev o) o) (I.src e) k)
    ∧ Holds2 (n0 := 800000) (n1 := 128) (after (ops2 (F := Ideal)) V (Proc.devRef .tc main_v150))
      (fun e _ => Spec.wEdge I e) := by
  have hpos : ∀ k, 0 < Spec.varDev o k + eps := fun k =>
    add_pos_of_nonneg_of_pos
      (Math.meanSqDev_nonneg (fun i : Fin 50000 => o i k) (Spec.colMean o k) (by norm_num : (0 : ℝ) ≤ 50000))
      eps_spec.2
  have hH : Holds2 (n0 := 50000) (n1 := 128) (out2 V) (Spec.bnRelu I eps 0 (Spec.varDev o) o) :=
    holds2_congr
      (holds_relu (holds_shift
        (holds_scale (holds_norm h97 (holds_mean h98) (holds_var h97) hpos)
          (holds_paramRow 0 slices_S3x128_S1x128_0_0 0 rfl h7))
        (holds_paramRow 0 slices_S3x128_S1x128_0_0 0 rfl h8)))
      fun _ _ => rfl
  have hL : Holds2 (n0 := 50000) (n1 := 128) (lap2 V) (Spec.lap I (Spec.bnRelu I eps 0 (Spec.varDev o) o)) :=
    holds_lap hH hv1 hv3 h29
  refine ⟨?_, ?_, ?_, ?_⟩
  · rw [v121_term]; exact hH
  · rw [v141_term]
    exact holds_add
      (holds_dot hH (holds_weightMat 1 0 slices_S3x3x128x128_S1x1x128x128_1_0_0_0 1 0 rfl rfl h5))
      (holds_dot hL (holds_weightMat 1 1 slices_S3x3x128x128_S1x1x128x128_1_1_0_0 1 1 rfl rfl h5))
  · rw [v149_term]; exact holds_gather hL hv1
  · rw [v150_term]; exact holds_wCol h29

end Window2

end Cert.ReferenceIdeal.HandVal

end
-- ==== Proof.RefVal.W3.lean ====
/-
  The reference program over the reals, window 3: the rest of layer 1 (the third Chebyshev term from the gathered
  Laplacian, the bias, batch norm with the mean of squared deviations, the rectifier) and the start of layer 2 (its first
  product and the gather of the new state at the edges' sources).
-/
import proofs.«160050_j32744830665390_2_alg».proof.Proof.RefVal.W2

noncomputable section

open Cert.ReferenceIdeal Cert.ReferenceIdeal.Gen Cert.ReferenceIdeal.HandRun
open Idealize.ShloMosaic Idealize.ShloMosaic.TcCoe Idealize.ShloMosaic.ValueIdx Idealize.ShloMosaic.StableHlo
open Cert.Hand Cert.Hand.Bridge
open scoped BigOperators

namespace Cert.ReferenceIdeal.HandVal

open Cert.ReferenceIdeal.HandVal.Mid

section Window3

variable (V : Valuation τ sig (Elt Ideal))

/-- The Laplacian applied twice to the state, from the weights (main_v150) and the gathered Laplacian (main_v149). -/
abbrev lapLap3 : FVec Ideal S50000x128 .f32 :=
  scatterTerm (V (Proc.devRef .tc main_v3)) (mulf (V (Proc.devRef .tc main_v150)) (V (Proc.devRef .tc main_v149)))

/-- Layer 1 before batch norm: the first two terms (main_v141), the third term, the bias. -/
abbrev pre3 : FVec Ideal S50000x128 .f32 :=
  addf
    (addf (V (Proc.devRef .tc main_v141))
      (dotTerm (chebTerm (lapLap3 V) (V (Proc.devRef .tc main_v121)))
        (weightMat 1 2 (V (Proc.devRef .tc main_arg5)) slices_S3x3x128x128_S1x1x128x128_1_2_0_0)))
    (rowbc (paramRow 1 (V (Proc.devRef .tc main_arg6)) slices_S3x128_S1x128_1_0))

/-- Layer 1's output. -/
abbrev out3 : FVec Ideal S50000x128 .f32 :=
  reluTerm (addf
    (mulf (normTerm (pre3 V) (meanTerm (colsumTerm (pre3 V))) (varTerm (pre3 V)))
      (rowbc (paramRow 1 (V (Proc.devRef .tc main_arg7)) slices_S3x128_S1x128_1_0)))
    (rowbc (paramRow 1 (V (Proc.devRef .tc main_arg8)) slices_S3x128_S1x128_1_0)))

theorem v190_term : after (ops3 (F := Ideal)) V (Proc.devRef .tc main_v190) = out3 V := by
  after_results_simp <;> rfl

theorem v193_term : after (ops3 (F := Ideal)) V (Proc.devRef .tc main_v193)
    = dotTerm (out3 V) (weightMat 2 0 (V (Proc.devRef .tc main_arg5)) slices_S3x3x128x128_S1x1x128x128_2_0_0_0) := by
  after_results_simp <;> rfl

theorem v201_term : after (ops3 (F := Ideal)) V (Proc.devRef .tc main_v201)
    = gatherTerm (out3 V) (V (Proc.devRef .tc main_v1)) := by
  after_results_simp <;> rfl

theorem v202_term : after (ops3 (F := Ideal)) V (Proc.devRef .tc main_v202)
    = wCol (V (Proc.devRef .tc main_v29)) := by
  after_results_simp <;> rfl

/-- WINDOW 3. If main_v121 holds a state h, main_v141 the first two terms of layer 1 on h, main_v149 the rows of the
    Laplacian of h at the edges' sources and main_v150 the edge weights along the features, then after the window
    main_v190 holds layer 1 of h (the variance as the mean of squared deviations), main_v193 its product with weight
    (2, 0), main_v201 its rows at the edges' sources, and main_v202 the edge weights along the features. -/
theorem stage3 (I : Spec.Inputs) (h : Spec.Hidden)
    (h150 : Holds2 (n0 := 800000) (n1 := 128) (V (Proc.devRef .tc main_v150)) (fun e _ => Spec.wEdge I e))
    (h149 : Holds2 (n0 := 800000) (n1 := 128) (V (Proc.devRef .tc main_v149)) (fun e k => Spec.lap I h (I.src e) k))
    (hv3 : Ends (V (Proc.devRef .tc main_v3)) I.dst)
    (h121 : Holds2 (n0 := 50000) (n1 := 128) (V (Proc.devRef .tc main_v121)) h)
    (h5 : Holds4 (n0 := 3) (n1 := 3) (n2 := 128) (n3 := 128) (V (Proc.devRef .tc main_arg5)) I.chebW)
    (h141 : Holds2 (n0 := 50000) (n1 := 128) (V (Proc.devRef .tc main_v141))
      (fun i k => Spec.lin h (I.chebW 1 0) i k + Spec.lin (Spec.lap I h) (I.chebW 1 1) i k))
    (h6 : Holds2 (n0 := 3) (n1 := 128) (V (Proc.devRef .tc main_arg6)) I.chebB)
    (h7 : Holds2 (n0 := 3) (n1 := 128) (V (Proc.devRef .tc main_arg7)) I.bnG)
    (h8 : Holds2 (n0 := 3) (n1 := 128) (V (Proc.devRef .tc main_arg8)) I.bnB)
    (h29 : Holds1 (n0 := 800000) (V (Proc.devRef .tc main_v29)) (Spec.wEdge I))
    (hv1 : Ends (V (Proc.devRef .tc main_v1)) I.src) :
    Holds2 (n0 := 50000) (n1 := 128) (after (ops3 (F := Ideal)) V (Proc.devRef .tc main_v190))
      (Spec.layer I eps Spec.varDev 1 h)
    ∧ Holds2 (n0 := 50000) (n1 := 128) (after (ops3 (F := Ideal)) V (Proc.devRef .tc main_v193))
      (Spec.lin (Spec.layer I eps Spec.varDev 1 h) (I.chebW 2 0))
    ∧ Holds2 (n0 := 800000) (n1 := 128) (after (ops3 (F := Ideal)) V (Proc.devRef .tc main_v201))
      (fun e k => Spec.layer I eps Spec.varDev 1 h (I.src e) k)
    ∧ Holds2 (n0 := 800000) (n1 := 128) (after (ops3 (F := Ideal)) V (Proc.devRef .tc main_v202))
      (fun e _ => Spec.wEdge I e) := by
  have hLL : Holds2 (n0 := 50000) (n1 := 128) (lapLap3 V) (Spec.lap I (Spec.lap I h)) :=
    holds_lapTail hv3 h150 h149
  have hpre : Holds2 (n0 := 50000) (n1 := 128) (pre3 V) (Spec.chebPre I 1 h) :=
    holds2_congr
      (holds_shift
        (holds_add h141
          (holds_dot (holds_cheb hLL h121)
            (holds_weightMat 1 2 slices_S3x3x128x128_S1x1x128x128_1_2_0_0 1 2 rfl rfl h5)))
        (holds_paramRow 1 slices_S3x128_S1x128_1_0 1 rfl h6))
      fun _ _ => rfl
  have hpos : ∀ k, 0 < Spec.varDev (Spec.chebPre I 1 h) k + eps := fun k =>
    add_pos_of_nonneg_of_pos
      (Math.meanSqDev_nonneg (fun i : Fin 50000 => Spec.chebPre I 1 h i k) (Spec.colMean (Spec.chebPre I 1 h) k)
        (by norm_num : (0 : ℝ) ≤ 50000))
      eps_spec.2
  have hH : Holds2 (n0 := 50000) (n1 := 128) (out3 V) (Spec.layer I eps Spec.varDev 1 h) :=
    holds2_congr
      (holds_relu (holds_shift
        (holds_scale (holds_norm hpre (holds_mean (holds_colsum hpre)) (holds_var hpre) hpos)
          (holds_paramRow 1 slices_S3x128_S1x128_1_0 1 rfl h7))
        (holds_paramRow 1 slices_S3x128_S1x128_1_0 1 rfl h8)))
      fun _ _ => rfl
  refine ⟨?_, ?_, ?_, ?_⟩
  · rw [v190_term]; exact hH
  · rw [v193_term]
    exact holds_dot hH (holds_weightMat 2 0 slices_S3x3x128x128_S1x1x128x128_2_0_0_0 2 0 rfl rfl h5)
  · rw [v201_term]; exact holds_gather hH hv1
  · rw [v202_term]; exact holds_wCol h29

end Window3

end Cert.ReferenceIdeal.HandVal

end
-- ==== Proof.RefVal.W4.lean ====
/-
  The reference program over the reals, window 4: layer 2 before its shift and rectifier. The Laplacian of the state
  from the gathered rows, the second product, the Laplacian applied again, the third Chebyshev term and product, the
  bias, then the batch statistics (column means, the mean of squared deviations), the normalisation and the scale.
-/
import proofs.«160050_j32744830665390_2_alg».proof.Proof.RefVal.W2

noncomputable section

open Cert.ReferenceIdeal Cert.ReferenceIdeal.Gen Cert.ReferenceIdeal.HandRun
open Idealize.ShloMosaic Idealize.ShloMosaic.TcCoe Idealize.ShloMosaic.ValueIdx Idealize.ShloMosaic.StableHlo
open Cert.Hand Cert.Hand.Bridge
open scoped BigOperators

namespace Cert.ReferenceIdeal.HandVal

open Cert.ReferenceIdeal.HandVal.Mid

section Window4

variable (V : Valuation τ sig (Elt Ideal))

/-- The Laplacian of the state, from the weights (main_v202) and the state's gathered rows (main_v201). -/
abbrev lap4 : FVec Ideal S50000x128 .f32 :=
  scatterTerm (V (Proc.devRef .tc main_v3)) (mulf (V (Proc.devRef .tc main_v202)) (V (Proc.devRef .tc main_v201)))

/-- The Laplacian applied again. -/
abbrev lapLap4 : FVec Ideal S50000x128 .f32 :=
  lapTerm (lap4 V) (V (Proc.devRef .tc main_v1)) (V (Proc.devRef .tc main_v3)) (V (Proc.devRef .tc main_v29))

/-- Layer 2 before batch norm: the first term (main_v193), the second and third terms, the bias. -/
abbrev pre4 : FVec Ideal S50000x128 .f32 :=
  addf
    (addf
      (addf (V (Proc.devRef .tc main_v193))
        (dotTerm (lap4 V) (weightMat 2 1 (V (Proc.devRef .tc main_arg5)) slices_S3x3x128x128_S1x1x128x128_2_1_0_0)))
      (dotTerm (chebTerm (lapLap4 V) (V (Proc.devRef .tc main_v190)))
        (weightMat 2 2 (V (Proc.devRef .tc main_arg5)) slices_S3x3x128x128_S1x1x128x128_2_2_0_0)))
    (rowbc (paramRow 2 (V (Proc.devRef .tc main_arg6)) slices_S3x128_S1x128_2_0))

theorem v253_term : after (ops4 (F := Ideal)) V (Proc.devRef .tc main_v253)
    = mulf (normTerm (pre4 V) (meanTerm (colsumTerm (pre4 V))) (varTerm (pre4 V)))
        (rowbc (paramRow 2 (V (Proc.devRef .tc main_arg7)) slices_S3x128_S1x128_2_0)) := by
  after_results_simp <;> rfl

/-- WINDOW 4. If main_v190 holds a state h, main_v193 its product with weight (2, 0), main_v201 its rows at the
    edges' sources and main_v202 the edge weights along the features, then after the window main_v253 holds layer 2 of h
    before its shift and rectifier: the deviations of the pre-norm table from its column means, times the reciprocal
    root of its mean of squared deviations plus the stabiliser, times the layer's scale. -/
theorem stage4 (I : Spec.Inputs) (h : Spec.Hidden)
    (h202 : Holds2 (n0 := 800000) (n1 := 128) (V (Proc.devRef .tc main_v202)) (fun e _ => Spec.wEdge I e))
    (h201 : Holds2 (n0 := 800000) (n1 := 128) (V (Proc.devRef .tc main_v201)) (fun e k => h (I.src e) k))
    (hv3 : Ends (V (Proc.devRef .tc main_v3)) I.dst)
    (h5 : Holds4 (n0 := 3) (n1 := 3) (n2 := 128) (n3 := 128) (V (Proc.devRef .tc main_arg5)) I.chebW)
    (h193 : Holds2 (n0 := 50000) (n1 := 128) (V (Proc.devRef .tc main_v193)) (Spec.lin h (I.chebW 2 0)))
    (h29 : Holds1 (n0 := 800000) (V (Proc.devRef .tc main_v29)) (Spec.wEdge I))
    (hv1 : Ends (V (Proc.devRef .tc main_v1)) I.src)
    (h190 : Holds2 (n0 := 50000) (n1 := 128) (V (Proc.devRef .tc main_v190)) h)
    (h6 : Holds2 (n0 := 3) (n1 := 128) (V (Proc.devRef .tc main_arg6)) I.chebB)
    (h7 : Holds2 (n0 := 3) (n1 := 128) (V (Proc.devRef .tc main_arg7)) I.bnG) :
    Holds2 (n0 := 50000) (n1 := 128) (after (ops4 (F := Ideal)) V (Proc.devRef .tc main_v253))
      (fun i k => (Spec.chebPre I 2 h i k - Spec.colMean (Spec.chebPre I 2 h) k)
        * Spec.rsq (Spec.varDev (Spec.chebPre I 2 h) k + eps) * I.bnG 2 k) := by
  have hL : Holds2 (n0 := 50000) (n1 := 128) (lap4 V) (Spec.lap I h) := holds_lapTail hv3 h202 h201
  have hLL : Holds2 (n0 := 50000) (n1 := 128) (lapLap4 V) (Spec.lap I (Spec.lap I h)) := holds_lap hL hv1 hv3 h29
  have hpre : Holds2 (n0 := 50000) (n1 := 128) (pre4 V) (Spec.chebPre I 2 h) :=
    holds2_congr
      (holds_shift
        (holds_add
          (holds_add h193
            (holds_dot hL (holds_weightMat 2 1 slices_S3x3x128x128_S1x1x128x128_2_1_0_0 2 1 rfl rfl h5)))
          (holds_dot (holds_cheb hLL h190)
            (holds_weightMat 2 2 slices_S3x3x128x128_S1x1x128x128_2_2_0_0 2 2 rfl rfl h5)))
        (holds_paramRow 2 slices_S3x128_S1x128_2_0 2 rfl h6))
      fun _ _ => rfl
  have hpos : ∀ k, 0 < Spec.varDev (Spec.chebPre I 2 h) k + eps := fun k =>
    add_pos_of_nonneg_of_pos
      (Math.meanSqDev_nonneg (fun i : Fin 50000 => Spec.chebPre I 2 h i k) (Spec.colMean (Spec.chebPre I 2 h) k)
        (by norm_num : (0 : ℝ) ≤ 50000))
      eps_spec.2
  rw [v253_term]
  exact holds2_congr
    (holds_scale (holds_norm hpre (holds_mean (holds_colsum hpre)) (holds_var hpre) hpos)
      (holds_paramRow 2 slices_S3x128_S1x128_2_0 2 rfl h7))
    fun _ _ => rfl

end Window4

end Cert.ReferenceIdeal.HandVal

end
-- ==== Proof.RefVal.W5.lean ====
/-
  Window 5 of the reference program, read at the extended reals.

  The last layer's batch norm receives its shift and its rectifier: this is the fourth hidden state. Then the
  Dirichlet energy of the first two hidden states is taken edge by edge: for each edge the squared distance between
  the rows at its two ends, summed over the 128 features, then over the 800000 edges, divided by the number of edges.
  The first mean is added to zero (the running sum of the regulariser starts there).

  An edge's end is given as an index word; the program first adds 50000 to a negative word. A word that names a node
  is not negative, so the word is unchanged, and the gather reads the row of the node it names.
-/
import proofs.«160050_j32744830665390_2_alg».proof.Proof.Ref.Ops
import proofs.«160050_j32744830665390_2_alg».proof.Proof.Spec
import proofs.«160050_j32744830665390_2_alg».proof.Proof.Bridge.Inputs
import proofs.«160050_j32744830665390_2_alg».proof.Proof.Val.GatherScatter
import proofs.«160050_j32744830665390_2_alg».proof.Proof.Val.Ends
import proofs.«160050_j32744830665390_2_alg».proof.Proof.Math.Lift
import Idealize.ShloMosaic.Lib.StableHlo.Run
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value
import Idealize.ShloMosaic.PureOps.Ideal.Laws

noncomputable section

open scoped BigOperators

namespace Cert.ReferenceIdeal.HandVal

open Cert.ReferenceIdeal Cert.ReferenceIdeal.Gen Cert.ReferenceIdeal.HandRun
open Idealize.ShloMosaic Idealize.ShloMosaic.TcCoe Idealize.SL.Sem Idealize.ShloMosaic.StableHlo Idealize.ShloMosaic.ValueIdx
open Cert.Hand Cert.Hand.Bridge

namespace W5

/-! ## Two literals -/

/-- The f32 pattern 0x49435000 is the number of edges, 800000. -/
theorem ofBits_800000 : Ideal.ofBits .f32 0x49435000#32 = ((800000 : ℝ) : EReal) := by
  simp [Ideal.ofBits, Ideal.ieee, -EReal.coe_mul]
  norm_num

/-! ## The shift and the rectifier of a batch norm's last step -/

/-- Row 2 of the shift table added to every row of `p`, then the maximum with zero. -/
def shiftRelu (p : FVec Ideal S50000x128 .f32) (b : FVec Ideal S3x128 .f32) : FVec Ideal S50000x128 .f32 :=
  maximumf
    (addf p
      (broadcastInDim S50000x128 ![0, 1] bcast_S1x128_S50000x128_0_1
        (broadcastInDim S1x128 ![1] bcast_S128_S1x128_1
          (shapeCast S128 (extractStridedSlice S1x128 ![2, 0] b slices_S3x128_S1x128_2_0) shapeCasts_S1x128_S128))))
    (broadcastInDim S50000x128 ![] bcast_S_S50000x128 (constant (F := Ideal) S_ .f32 0x00000000#32))

/-- Row 2 of a `[3, 128]` table, sliced out, flattened, and spread over the 50000 rows, reads at `(n, k)` the table
    at `(2, k)`. -/
theorem shiftRow_apply (b : FVec Ideal S3x128 .f32) (n : Fin 50000) (k : Fin 128) :
    (broadcastInDim S50000x128 ![0, 1] bcast_S1x128_S50000x128_0_1
        (broadcastInDim S1x128 ![1] bcast_S128_S1x128_1
          (shapeCast S128 (extractStridedSlice S1x128 ![2, 0] b slices_S3x128_S1x128_2_0) shapeCasts_S1x128_S128)))
      (ix2 n k) = b (ix2 (2 : Fin 3) k) := by
  refine (broadcastInDim_oneRow_apply bcast_S1x128_S50000x128_0_1 _ n k).trans ?_
  refine (broadcastInDim_apply ![1] bcast_S128_S1x128_1 _ (ix2 (0 : Fin 1) k) (ix1 k) ?_).trans ?_
  · intro a
    match a with
    | ⟨0, _⟩ =>
      show k.val = if (128 : ℕ) = 1 then 0 else k.val
      rw [if_neg (by decide)]
  refine (shapeCast_1a_a_apply _ shapeCasts_S1x128_S128 k).trans ?_
  refine extractStridedSlice_apply ![2, 0] b slices_S3x128_S1x128_2_0 (ix2 (0 : Fin 1) k) (ix2 (2 : Fin 3) k) ?_
  intro a
  match a with
  | ⟨0, _⟩ =>
    show (2 : ℕ) = 2 + 0
    rfl
  | ⟨1, _⟩ =>
    show k.val = 0 + k.val
    omega

/-- If `p` holds the real table `P` and `b` the shifts `B`, the result holds `max (P + B₂) 0`. -/
theorem shiftRelu_holds {p : FVec Ideal S50000x128 .f32} {b : FVec Ideal S3x128 .f32} {P : Spec.Hidden}
    {B : Fin 3 → Fin 128 → ℝ} (hp : Holds2 p P) (hb : Holds2 b B) :
    Holds2 (shiftRelu p b) (fun n k => max (P n k + B 2 k) 0) := by
  intro i
  obtain ⟨n, k, rfl⟩ : ∃ (n : Fin 50000) (k : Fin 128), i = ix2 n k := ⟨i 0, i 1, eq_ix2 i⟩
  have hz : (broadcastInDim S50000x128 ![] bcast_S_S50000x128 (constant (F := Ideal) S_ .f32 0x00000000#32)) (ix2 n k)
      = ((0 : ℝ) : EReal) :=
    (broadcastInDim_scalar_apply bcast_S_S50000x128 _ (ix2 n k)).trans
      ((constant_apply _ ix0).trans (Ideal.ofBits_zero_f32.trans Math.zero_eq_coe))
  have hsum : (addf p
      (broadcastInDim S50000x128 ![0, 1] bcast_S1x128_S50000x128_0_1
        (broadcastInDim S1x128 ![1] bcast_S128_S1x128_1
          (shapeCast S128 (extractStridedSlice S1x128 ![2, 0] b slices_S3x128_S1x128_2_0) shapeCasts_S1x128_S128))))
      (ix2 n k) = ((P n k + B 2 k : ℝ) : EReal) := by
    rw [addf_apply, shiftRow_apply b n k, hp (ix2 n k), hb (ix2 (2 : Fin 3) k)]
    exact Math.coe_add_coe _ _
  unfold shiftRelu
  rw [maximumf_apply, hsum, hz]
  exact Math.max_coe_coe _ _

/-! ## The mean over the edges of the squared distance between the rows at an edge's two ends -/

/-- Edge `e`, feature `k`: the squared difference of the two gathered rows. -/
def edgeSq (x : FVec Ideal S50000x128 .f32) (s d : IVec S800000 32) : FVec Ideal S800000x128 .f32 :=
  mulf
    (subf (Host.gather gather_S50000x128_S800000x1_S800000x128_1_0_n_n_0_1_1128 x (broadcastInDim S800000x1 ![0] bcast_S800000_S800000x1_0
      (select (cmpi .slt s (broadcastInDim S800000 ![] bcast_S_S800000 (constantI S_ 32 0#32)))
        (addi s (broadcastInDim S800000 ![] bcast_S_S800000 (constantI S_ 32 50000#32))) s)))
      (Host.gather gather_S50000x128_S800000x1_S800000x128_1_0_n_n_0_1_1128 x (broadcastInDim S800000x1 ![0] bcast_S800000_S800000x1_0
      (select (cmpi .slt d (broadcastInDim S800000 ![] bcast_S_S800000 (constantI S_ 32 0#32)))
        (addi d (broadcastInDim S800000 ![] bcast_S_S800000 (constantI S_ 32 50000#32))) d))))
    (subf (Host.gather gather_S50000x128_S800000x1_S800000x128_1_0_n_n_0_1_1128 x (broadcastInDim S800000x1 ![0] bcast_S800000_S800000x1_0
      (select (cmpi .slt s (broadcastInDim S800000 ![] bcast_S_S800000 (constantI S_ 32 0#32)))
        (addi s (broadcastInDim S800000 ![] bcast_S_S800000 (constantI S_ 32 50000#32))) s)))
      (Host.gather gather_S50000x128_S800000x1_S800000x128_1_0_n_n_0_1_1128 x (broadcastInDim S800000x1 ![0] bcast_S800000_S800000x1_0
      (select (cmpi .slt d (broadcastInDim S800000 ![] bcast_S_S800000 (constantI S_ 32 0#32)))
        (addi d (broadcastInDim S800000 ![] bcast_S_S800000 (constantI S_ 32 50000#32))) d))))

/-- Edge `e`: the sum over the features. -/
def edgeRow (x : FVec Ideal S50000x128 .f32) (s d : IVec S800000 32) : FVec Ideal S800000 .f32 :=
  Host.reduceAdd (F := Ideal) (edgeSq x s d) (constant (F := Ideal) S_ .f32 0x00000000#32) reducesTo_S800000x128_S800000_d1 h_S_

/-- The sum over the edges. -/
def edgeSum (x : FVec Ideal S50000x128 .f32) (s d : IVec S800000 32) : FVec Ideal S_ .f32 :=
  Host.reduceAdd (F := Ideal) (edgeRow x s d) (constant (F := Ideal) S_ .f32 0x00000000#32) reducesTo_S800000_S_d0 h_S_

/-- The mean over the edges. -/
def edgeMean (x : FVec Ideal S50000x128 .f32) (s d : IVec S800000 32) : FVec Ideal S_ .f32 :=
  Host.divf (F := Ideal) (edgeSum x s d) (constant (F := Ideal) S_ .f32 0x49435000#32)

section Energy

variable (I : Spec.Inputs) (h : Spec.Hidden) {x : FVec Ideal S50000x128 .f32} {s d : IVec S800000 32}

/-- A gathered row is the table's row at the node the edge's (unwrapped) index word names. -/
theorem gather_apply {v : IVec S800000 32} {f : Fin 800000 → Fin 50000} (hx : Holds2 x h) (hv : Ends v f)
    (e : Fin 800000) (k : Fin 128) :
    Host.gather gather_S50000x128_S800000x1_S800000x128_1_0_n_n_0_1_1128 x (broadcastInDim S800000x1 ![0] bcast_S800000_S800000x1_0
      (select (cmpi .slt v (broadcastInDim S800000 ![] bcast_S_S800000 (constantI S_ 32 0#32)))
        (addi v (broadcastInDim S800000 ![] bcast_S_S800000 (constantI S_ 32 50000#32))) v)) (ix2 e k) = ((h (f e) k : ℝ) : EReal) :=
  (Val.gatherRow_of_names gather_S50000x128_S800000x1_S800000x128_1_0_n_n_0_1_1128_wf x _ f
      (Val.names_wrap_bcast bcast_S_S800000 bcast_S_S800000 bcast_S800000_S800000x1_0 hv) e k).trans
    (hx (ix2 (f e) k))

theorem edgeSq_apply (hx : Holds2 x h) (hs : Ends s I.src) (hd : Ends d I.dst) (e : Fin 800000) (k : Fin 128) :
    edgeSq x s d (ix2 e k)
      = (((h (I.src e) k - h (I.dst e) k) * (h (I.src e) k - h (I.dst e) k) : ℝ) : EReal) := by
  unfold edgeSq
  rw [mulf_apply, subf_apply, gather_apply h hx hs e k, gather_apply h hx hd e k, Math.coe_sub_coe]
  exact Math.coe_mul_coe _ _

theorem edgeRow_apply (hx : Holds2 x h) (hs : Ends s I.src) (hd : Ends d I.dst) (e : Fin 800000) :
    edgeRow x s d (ix1 e)
      = ((∑ k : Fin 128, (h (I.src e) k - h (I.dst e) k) * (h (I.src e) k - h (I.dst e) k) : ℝ) : EReal) := by
  have hR : S800000x128.Reduces [1] S800000 := by decide
  have h1 : edgeRow x s d (ix1 e)
      = Ideal.hostReduceAdd reducesTo_S800000x128_S800000_d1 (edgeSq x s d) (Ideal.ofBits .f32 0x00000000#32) (ix1 e) := rfl
  rw [h1, Ideal.hostReduceAdd_single reducesTo_S800000x128_S800000_d1 hR, Ideal.ofBits_zero_f32, zero_add]
  refine Math.sum_eq_coe_of_forall Finset.univ _
    (fun k : Fin 128 => (h (I.src e) k - h (I.dst e) k) * (h (I.src e) k - h (I.dst e) k)) (fun k _ => ?_)
  have hl : hR.lift (ix1 e) k = ix2 e k := by
    funext a
    match a with
    | ⟨0, _⟩ => exact Fin.ext rfl
    | ⟨1, _⟩ => exact Fin.ext rfl
  rw [hl]
  exact edgeSq_apply I h hx hs hd e k

theorem edgeSum_apply (hx : Holds2 x h) (hs : Ends s I.src) (hd : Ends d I.dst) (i : S_.Idx) :
    edgeSum x s d i = ((Spec.energyEdge I h : ℝ) : EReal) := by
  have h1 : edgeSum x s d i
      = Ideal.hostReduceAdd reducesTo_S800000_S_d0 (edgeRow x s d) (Ideal.ofBits .f32 0x00000000#32) i := rfl
  rw [h1, Ideal.hostReduceAdd_total reducesTo_S800000_S_d0 (fun b => b.elim0), Ideal.ofBits_zero_f32, zero_add,
    Val.sum_idx1]
  exact Math.sum_eq_coe_of_forall Finset.univ _ _ (fun e _ => edgeRow_apply I h hx hs hd e)

/-- The mean holds the per-edge mean energy of the table. -/
theorem edgeMean_holds (hx : Holds2 x h) (hs : Ends s I.src) (hd : Ends d I.dst) :
    Holds0 (edgeMean x s d) (Spec.energyEdge I h / 800000) := by
  intro i
  have h1 : edgeMean x s d i = Ideal.div (edgeSum x s d i) (Ideal.ofBits .f32 0x49435000#32) := rfl
  rw [h1, edgeSum_apply I h hx hs hd i, ofBits_800000]
  exact Math.div_coe_coe _ (by norm_num)

end Energy

end W5

/-! ## The window -/

/-- Window 5. Reads: the shift table (argument 8), the last layer's scaled normalised table (`main_v253`), the two
    vectors of edge ends (`main_v1`, `main_v3`) and the first two hidden states (`main_v52`, `main_v121`).
    Leaves: the fourth hidden state (`main_v259`), zero plus the first state's mean energy (`main_v279`), the second
    state's mean energy (`main_v298`). -/
theorem stage5 (V : Valuation τ sig (Elt Ideal)) (I : Spec.Inputs) (P h0 h1 : Spec.Hidden)
    (h_arg8 : Holds2 (n0 := 3) (n1 := 128) (V (Proc.devRef .tc main_arg8)) I.bnB)
    (h_v253 : Holds2 (n0 := 50000) (n1 := 128) (V (Proc.devRef .tc main_v253)) P)
    (h_v1 : Ends (V (Proc.devRef .tc main_v1)) I.src)
    (h_v52 : Holds2 (n0 := 50000) (n1 := 128) (V (Proc.devRef .tc main_v52)) h0)
    (h_v3 : Ends (V (Proc.devRef .tc main_v3)) I.dst)
    (h_v121 : Holds2 (n0 := 50000) (n1 := 128) (V (Proc.devRef .tc main_v121)) h1) :
    Holds2 (n0 := 50000) (n1 := 128) (StableHlo.after (ops5 (F := Ideal)) V (Proc.devRef .tc main_v259)) (fun i k => max (P i k + I.bnB 2 k) 0)
    ∧ Holds0 (StableHlo.after (ops5 (F := Ideal)) V (Proc.devRef .tc main_v279)) (0 + Spec.energyEdge I h0 / 800000)
    ∧ Holds0 (StableHlo.after (ops5 (F := Ideal)) V (Proc.devRef .tc main_v298)) (Spec.energyEdge I h1 / 800000) := by
  have k259 : StableHlo.after (ops5 (F := Ideal)) V (Proc.devRef .tc main_v259)
      = W5.shiftRelu (V (Proc.devRef .tc main_v253)) (V (Proc.devRef .tc main_arg8)) := by
    after_results_simp <;> rfl
  have k279 : StableHlo.after (ops5 (F := Ideal)) V (Proc.devRef .tc main_v279)
      = addf (constant (F := Ideal) S_ .f32 0x00000000#32)
          (W5.edgeMean (V (Proc.devRef .tc main_v52)) (V (Proc.devRef .tc main_v1)) (V (Proc.devRef .tc main_v3))) := by
    after_results_simp <;> rfl
  have k298 : StableHlo.after (ops5 (F := Ideal)) V (Proc.devRef .tc main_v298)
      = W5.edgeMean (V (Proc.devRef .tc main_v121)) (V (Proc.devRef .tc main_v1)) (V (Proc.devRef .tc main_v3)) := by
    after_results_simp <;> rfl
  refine ⟨?_, ?_, ?_⟩
  · rw [k259]
    exact W5.shiftRelu_holds h_v253 h_arg8
  · rw [k279]
    intro i
    rw [addf_apply, constant_apply, Ideal.ofBits_zero_f32, W5.edgeMean_holds I h0 h_v52 h_v1 h_v3 i]
    exact Math.coe_add_coe 0 _
  · rw [k298]
    exact W5.edgeMean_holds I h1 h_v121 h_v1 h_v3

end Cert.ReferenceIdeal.HandVal

end
-- ==== Proof.RefVal.W6.lean ====
/-
  Window 6 of the reference program, read at the extended reals.

  The running sum of the regulariser takes the second hidden state's mean energy, then the third's and the fourth's,
  each taken edge by edge as in the window before, and is divided by four. The window ends by preparing the pooling:
  a vector of ones, one per node, and a scalar zero.
-/
import proofs.«160050_j32744830665390_2_alg».proof.Proof.Ref.Ops
import proofs.«160050_j32744830665390_2_alg».proof.Proof.Spec
import proofs.«160050_j32744830665390_2_alg».proof.Proof.Bridge.Inputs
import proofs.«160050_j32744830665390_2_alg».proof.Proof.Val.GatherScatter
import proofs.«160050_j32744830665390_2_alg».proof.Proof.Val.Ends
import proofs.«160050_j32744830665390_2_alg».proof.Proof.Math.Lift
import proofs.«160050_j32744830665390_2_alg».proof.Proof.RefVal.W5
import Idealize.ShloMosaic.Lib.StableHlo.Run
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value
import Idealize.ShloMosaic.PureOps.Ideal.Laws

noncomputable section

open scoped BigOperators

namespace Cert.ReferenceIdeal.HandVal

open Cert.ReferenceIdeal Cert.ReferenceIdeal.Gen Cert.ReferenceIdeal.HandRun
open Idealize.ShloMosaic Idealize.ShloMosaic.TcCoe Idealize.SL.Sem Idealize.ShloMosaic.StableHlo Idealize.ShloMosaic.ValueIdx
open Cert.Hand Cert.Hand.Bridge

namespace W6

/-- The f32 pattern 0x40800000 is the number four. -/
theorem ofBits_four : Ideal.ofBits .f32 0x40800000#32 = ((4 : ℝ) : EReal) := by
  simp [Ideal.ofBits, Ideal.ieee, -EReal.coe_mul]
  norm_num

/-- The running sum `a + b`, plus the mean energies of two more tables, divided by four. -/
def regOf (a b : FVec Ideal S_ .f32) (x2 x3 : FVec Ideal S50000x128 .f32) (s d : IVec S800000 32) : FVec Ideal S_ .f32 :=
  Host.divf (F := Ideal)
    (addf (addf (addf a b) (W5.edgeMean x2 s d)) (W5.edgeMean x3 s d))
    (constant (F := Ideal) S_ .f32 0x40800000#32)

theorem regOf_holds (I : Spec.Inputs) (h2 h3 : Spec.Hidden) {a b : FVec Ideal S_ .f32} {x2 x3 : FVec Ideal S50000x128 .f32}
    {s d : IVec S800000 32} {A B : ℝ} (ha : Holds0 a A) (hb : Holds0 b B) (hx2 : Holds2 x2 h2) (hx3 : Holds2 x3 h3)
    (hs : Ends s I.src) (hd : Ends d I.dst) :
    Holds0 (regOf a b x2 x3 s d) ((((A + B) + Spec.energyEdge I h2 / 800000) + Spec.energyEdge I h3 / 800000) / 4) := by
  intro i
  have h1 : regOf a b x2 x3 s d i
      = Ideal.div (((a i + b i) + W5.edgeMean x2 s d i) + W5.edgeMean x3 s d i) (Ideal.ofBits .f32 0x40800000#32) := rfl
  rw [h1, ha i, hb i, W5.edgeMean_holds I h2 hx2 hs hd i, W5.edgeMean_holds I h3 hx3 hs hd i, ofBits_four,
    Math.coe_add_coe, Math.coe_add_coe, Math.coe_add_coe]
  exact Math.div_coe_coe _ (by norm_num)

/-- A scalar one spread over the nodes holds the vector of ones. -/
theorem ones_holds :
    Holds1 (broadcastInDim S50000 ![] bcast_S_S50000 (constant (F := Ideal) S_ .f32 0x3F800000#32)) (fun _ : Fin 50000 => (1 : ℝ)) :=
  fun i => (broadcastInDim_scalar_apply bcast_S_S50000 _ i).trans
    ((constant_apply _ ix0).trans (Ideal.ofBits_one_f32.trans Math.one_eq_coe))

/-- The scalar zero holds zero. -/
theorem zero_holds : Holds0 (constant (F := Ideal) S_ .f32 0x00000000#32) 0 :=
  fun i => (constant_apply _ i).trans (Ideal.ofBits_zero_f32.trans Math.zero_eq_coe)

end W6

/-! ## The window -/

/-- Window 6. Reads: the two partial sums of the window before (`main_v279`, `main_v298`), the two vectors of edge
    ends (`main_v1`, `main_v3`) and the last two hidden states (`main_v190`, `main_v259`).
    Leaves: the regulariser (`main_v340`), a vector of ones over the nodes (`main_v341`), a scalar zero
    (`main_cst_75`). -/
theorem stage6 (V : Valuation τ sig (Elt Ideal)) (I : Spec.Inputs) (A B : ℝ) (h2 h3 : Spec.Hidden)
    (h_v279 : Holds0 (V (Proc.devRef .tc main_v279)) A)
    (h_v298 : Holds0 (V (Proc.devRef .tc main_v298)) B)
    (h_v1 : Ends (V (Proc.devRef .tc main_v1)) I.src)
    (h_v190 : Holds2 (n0 := 50000) (n1 := 128) (V (Proc.devRef .tc main_v190)) h2)
    (h_v3 : Ends (V (Proc.devRef .tc main_v3)) I.dst)
    (h_v259 : Holds2 (n0 := 50000) (n1 := 128) (V (Proc.devRef .tc main_v259)) h3) :
    Holds0 (StableHlo.after (ops6 (F := Ideal)) V (Proc.devRef .tc main_v340))
      ((((A + B) + Spec.energyEdge I h2 / 800000) + Spec.energyEdge I h3 / 800000) / 4)
    ∧ Holds1 (n0 := 50000) (StableHlo.after (ops6 (F := Ideal)) V (Proc.devRef .tc main_v341)) (fun _ : Fin 50000 => (1 : ℝ))
    ∧ Holds0 (StableHlo.after (ops6 (F := Ideal)) V (Proc.devRef .tc main_cst_75)) 0 := by
  have k340 : StableHlo.after (ops6 (F := Ideal)) V (Proc.devRef .tc main_v340)
      = W6.regOf (V (Proc.devRef .tc main_v279)) (V (Proc.devRef .tc main_v298)) (V (Proc.devRef .tc main_v190))
          (V (Proc.devRef .tc main_v259)) (V (Proc.devRef .tc main_v1)) (V (Proc.devRef .tc main_v3)) := by
    after_results_simp <;> rfl
  have k341 : StableHlo.after (ops6 (F := Ideal)) V (Proc.devRef .tc main_v341)
      = broadcastInDim S50000 ![] bcast_S_S50000 (constant (F := Ideal) S_ .f32 0x3F800000#32) := by
    after_results_simp <;> rfl
  have k75 : StableHlo.after (ops6 (F := Ideal)) V (Proc.devRef .tc main_cst_75)
      = constant (F := Ideal) S_ .f32 0x00000000#32 := by
    after_results_simp <;> rfl
  refine ⟨?_, ?_, ?_⟩
  · rw [k340]
    exact W6.regOf_holds I h2 h3 h_v279 h_v298 h_v190 h_v259 h_v1 h_v3
  · rw [k341]
    exact W6.ones_holds
  · rw [k75]
    exact W6.zero_holds

end Cert.ReferenceIdeal.HandVal

end
-- ==== Proof.RefVal.W7.lean ====
/-
  Window 7 of the reference program, read at the extended reals.

  The pooling: each graph's number of nodes (ones summed into the graph's position) and each graph's sum of the rows of
  the last hidden state (rows summed into the graph's row); a node whose graph number is no graph's position is
  dropped by both sums. The sum is divided by the count, or by one for an empty graph. Then the head: an affine map,
  the rectifier, a second affine map.
-/
import proofs.«160050_j32744830665390_2_alg».proof.Proof.Ref.Ops
import proofs.«160050_j32744830665390_2_alg».proof.Proof.Spec
import proofs.«160050_j32744830665390_2_alg».proof.Proof.Bridge.Inputs
import proofs.«160050_j32744830665390_2_alg».proof.Proof.Val.GatherScatter
import proofs.«160050_j32744830665390_2_alg».proof.Proof.Val.Ends
import proofs.«160050_j32744830665390_2_alg».proof.Proof.Math.Lift
import Idealize.ShloMosaic.Lib.StackMember
import Idealize.ShloMosaic.Lib.StableHlo.Run
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value
import Idealize.ShloMosaic.PureOps.Ideal.Laws

noncomputable section

open scoped BigOperators

namespace Cert.ReferenceIdeal.HandVal

open Cert.ReferenceIdeal Cert.ReferenceIdeal.Gen Cert.ReferenceIdeal.HandRun
open Idealize.ShloMosaic Idealize.ShloMosaic.TcCoe Idealize.SL.Sem Idealize.ShloMosaic.StableHlo Idealize.ShloMosaic.ValueIdx
open Cert.Hand Cert.Hand.Bridge

namespace W7

/-! ## Two layouts read at an index -/

/-- A vector laid as one row and repeated down `m` rows reads, at `(r, c)`, the vector at `c`. -/
theorem biasRow_apply {α : Type} {m n : Nat} (hn : n ≠ 1)
    (hb1 : (⟨1, ![n]⟩ : Shape).BroadcastsInDim ⟨2, ![1, n]⟩ ![1])
    (hb2 : (⟨2, ![1, n]⟩ : Shape).BroadcastsInDim ⟨2, ![m, n]⟩ ![0, 1])
    (b : (⟨1, ![n]⟩ : Shape).Idx → α) (r : Fin m) (c : Fin n) :
    broadcastInDim ⟨2, ![m, n]⟩ ![0, 1] hb2 (broadcastInDim ⟨2, ![1, n]⟩ ![1] hb1 b) (ix2 r c) = b (ix1 c) := by
  refine (broadcastInDim_oneRow_apply hb2 _ r c).trans ?_
  refine broadcastInDim_apply ![1] hb1 b (ix2 (0 : Fin 1) c) (ix1 c) ?_
  intro a
  match a with
  | ⟨0, _⟩ =>
    show c.val = if n = 1 then 0 else c.val
    rw [if_neg hn]

/-- A vector laid as one column and repeated along `n` columns reads, at `(r, c)`, the vector at `r`. -/
theorem countCol_apply {α : Type} {m n : Nat} (hm : m ≠ 1)
    (hb1 : (⟨1, ![m]⟩ : Shape).BroadcastsInDim ⟨2, ![m, 1]⟩ ![0])
    (hb2 : (⟨2, ![m, 1]⟩ : Shape).BroadcastsInDim ⟨2, ![m, n]⟩ ![0, 1])
    (v : (⟨1, ![m]⟩ : Shape).Idx → α) (r : Fin m) (c : Fin n) :
    broadcastInDim ⟨2, ![m, n]⟩ ![0, 1] hb2 (broadcastInDim ⟨2, ![m, 1]⟩ ![0] hb1 v) (ix2 r c) = v (ix1 r) := by
  refine (broadcastInDim_apply ![0, 1] hb2 _ (ix2 r c) (ix2 r (0 : Fin 1)) ?_).trans (Val.bcastCol_apply hm hb1 v r 0)
  intro a
  match a with
  | ⟨0, _⟩ =>
    show r.val = if m = 1 then 0 else r.val
    rw [if_neg hm]
  | ⟨1, _⟩ =>
    show (0 : ℕ) = if (1 : ℕ) = 1 then 0 else c.val
    rw [if_pos rfl]

/-- The scalar zero spread over a shape reads zero. -/
theorem zeros_apply {T : Shape} (hb : S_.BroadcastsInDim T ![]) (j : T.Idx) :
    broadcastInDim T ![] hb (constant (F := Ideal) S_ .f32 0x00000000#32) j = ((0 : ℝ) : EReal) :=
  (broadcastInDim_scalar_apply hb _ j).trans ((constant_apply _ ix0).trans (Ideal.ofBits_zero_f32.trans Math.zero_eq_coe))

/-- The scalar one spread over a shape reads one. -/
theorem ones_apply {T : Shape} (hb : S_.BroadcastsInDim T ![]) (j : T.Idx) :
    broadcastInDim T ![] hb (constant (F := Ideal) S_ .f32 0x3F800000#32) j = ((1 : ℝ) : EReal) :=
  (broadcastInDim_scalar_apply hb _ j).trans ((constant_apply _ ix0).trans (Ideal.ofBits_one_f32.trans Math.one_eq_coe))

/-! ## The pooling -/

/-- Each graph's number of nodes: the updates `ones` summed into the positions the batch numbers name, from `z`. -/
def cntOf (z : FVec Ideal S_ .f32) (bt : IVec S50000 32) (ones : FVec Ideal S50000 .f32) : FVec Ideal S128 .f32 :=
  Host.scatterAdd (F := Ideal) scatter_S128_S50000x1_S50000_n_0_0_1 (broadcastInDim S128 ![] bcast_S_S128 z) (broadcastInDim S50000x1 ![0] bcast_S50000_S50000x1_0 bt) ones

/-- Each graph's sum of rows: the rows of `x` summed into the rows the batch numbers name, from zero. -/
def sumOf (bt : IVec S50000 32) (x : FVec Ideal S50000x128 .f32) : FVec Ideal S128x128 .f32 :=
  Host.scatterAdd (F := Ideal) scatter_S128x128_S50000x1_S50000x128_1_0_0_1 (broadcastInDim S128x128 ![] bcast_S_S128x128 (constant (F := Ideal) S_ .f32 0x00000000#32)) (broadcastInDim S50000x1 ![0] bcast_S50000_S50000x1_0 bt) x

/-- The divisor: each graph's count, or one where it is smaller, along the graph's row. -/
def denOf (z : FVec Ideal S_ .f32) (bt : IVec S50000 32) (ones : FVec Ideal S50000 .f32) : FVec Ideal S128x128 .f32 :=
  broadcastInDim S128x128 ![0, 1] bcast_S128x1_S128x128_0_1
    (broadcastInDim S128x1 ![0] bcast_S128_S128x1_0
      (maximumf (cntOf z bt ones) (broadcastInDim S128 ![] bcast_S_S128 (constant (F := Ideal) S_ .f32 0x3F800000#32))))

/-- The pooled means. -/
def poolOf (z : FVec Ideal S_ .f32) (bt : IVec S50000 32) (ones : FVec Ideal S50000 .f32) (x : FVec Ideal S50000x128 .f32) :
    FVec Ideal S128x128 .f32 :=
  Host.divf (F := Ideal) (sumOf bt x) (denOf z bt ones)

section Pool

variable {z : FVec Ideal S_ .f32} {bt : IVec S50000 32} {ones : FVec Ideal S50000 .f32} {x : FVec Ideal S50000x128 .f32}
  {bat : Fin 50000 → ℤ} {h : Spec.Hidden}

theorem cntOf_apply (hz : Holds0 z 0) (hbt : Batch bt bat) (hones : Holds1 ones (fun _ : Fin 50000 => (1 : ℝ))) (g : Fin 128) :
    cntOf z bt ones (ix1 g) = ((∑ i : Fin 50000, if bat i = (g.val : ℤ) then (1 : ℝ) else 0 : ℝ) : EReal) := by
  have hX : (broadcastInDim S128 ![] bcast_S_S128 z) (ix1 g) = ((0 : ℝ) : EReal) :=
    (broadcastInDim_scalar_apply bcast_S_S128 z (ix1 g)).trans (hz ix0)
  have hterm : ∀ i : Fin 50000, (if bat i = (g.val : ℤ) then ones (ix1 i) else 0)
      = (((if bat i = (g.val : ℤ) then (1 : ℝ) else 0) : ℝ) : EReal) := by
    intro i
    rw [hones (ix1 i)]
    exact Math.ite_coe_coe _ 1 0
  unfold cntOf
  refine (Val.poolVec_of_batch scatter_S128_S50000x1_S50000_n_0_0_1_wf bcast_S50000_S50000x1_0 hbt
    (broadcastInDim S128 ![] bcast_S_S128 z) ones g).trans ?_
  rw [hX, Math.sum_eq_coe_of_forall Finset.univ _ _ (fun i _ => hterm i), Math.coe_add_coe, zero_add]

theorem sumOf_apply (hbt : Batch bt bat) (hx : Holds2 x h) (g k : Fin 128) :
    sumOf bt x (ix2 g k) = ((∑ i : Fin 50000, if bat i = (g.val : ℤ) then h i k else 0 : ℝ) : EReal) := by
  have hterm : ∀ i : Fin 50000, (if bat i = (g.val : ℤ) then x (ix2 i k) else 0)
      = (((if bat i = (g.val : ℤ) then h i k else 0) : ℝ) : EReal) := by
    intro i
    rw [hx (ix2 i k)]
    exact Math.ite_coe_coe _ _ 0
  unfold sumOf
  refine (Val.poolRow_of_batch scatter_S128x128_S50000x1_S50000x128_1_0_0_1_wf bcast_S50000_S50000x1_0 hbt
    (broadcastInDim S128x128 ![] bcast_S_S128x128 (constant (F := Ideal) S_ .f32 0x00000000#32)) x g k).trans ?_
  rw [zeros_apply bcast_S_S128x128 (ix2 g k), Math.sum_eq_coe_of_forall Finset.univ _ _ (fun i _ => hterm i),
    Math.coe_add_coe, zero_add]

theorem denOf_apply (hz : Holds0 z 0) (hbt : Batch bt bat) (hones : Holds1 ones (fun _ : Fin 50000 => (1 : ℝ))) (g k : Fin 128) :
    denOf z bt ones (ix2 g k) = ((max (∑ i : Fin 50000, if bat i = (g.val : ℤ) then (1 : ℝ) else 0) 1 : ℝ) : EReal) := by
  unfold denOf
  refine (countCol_apply (by decide) bcast_S128_S128x1_0 bcast_S128x1_S128x128_0_1 _ g k).trans ?_
  rw [maximumf_apply, cntOf_apply hz hbt hones g, ones_apply bcast_S_S128 (ix1 g)]
  exact Math.max_coe_coe _ _

theorem poolOf_apply (hz : Holds0 z 0) (hbt : Batch bt bat) (hones : Holds1 ones (fun _ : Fin 50000 => (1 : ℝ)))
    (hx : Holds2 x h) (g k : Fin 128) :
    poolOf z bt ones x (ix2 g k)
      = (((∑ i : Fin 50000, if bat i = (g.val : ℤ) then h i k else 0)
          / max (∑ i : Fin 50000, if bat i = (g.val : ℤ) then (1 : ℝ) else 0) 1 : ℝ) : EReal) := by
  unfold poolOf
  rw [hostDivf_apply, sumOf_apply hbt hx g k, denOf_apply hz hbt hones g k]
  exact Math.div_coe_coe _ (lt_of_lt_of_le one_pos (le_max_right _ _)).ne'

end Pool

/-! ## The head -/

/-- The head's hidden layer: `pl · w1 + b1`, rectified. -/
def hidOf (pl : FVec Ideal S128x128 .f32) (w1 : FVec Ideal S128x64 .f32) (b1 : FVec Ideal S64 .f32) : FVec Ideal S128x64 .f32 :=
  maximumf
    (addf (Host.dotGeneral (F := Ideal) dot_S128x128_S128x64_S128x64_1_0_0_1_n_n none pl w1)
      (broadcastInDim S128x64 ![0, 1] bcast_S1x64_S128x64_0_1 (broadcastInDim S1x64 ![1] bcast_S64_S1x64_1 b1)))
    (broadcastInDim S128x64 ![] bcast_S_S128x64 (constant (F := Ideal) S_ .f32 0x00000000#32))

/-- The logits: `hid · w2 + b2`. -/
def headOf (pl : FVec Ideal S128x128 .f32) (w1 : FVec Ideal S128x64 .f32) (b1 : FVec Ideal S64 .f32)
    (w2 : FVec Ideal S64x2 .f32) (b2 : FVec Ideal S2 .f32) : FVec Ideal S128x2 .f32 :=
  addf (Host.dotGeneral (F := Ideal) dot_S128x64_S64x2_S128x2_1_0_0_1_n_n none (hidOf pl w1 b1) w2)
    (broadcastInDim S128x2 ![0, 1] bcast_S1x2_S128x2_0_1 (broadcastInDim S1x2 ![1] bcast_S2_S1x2_1 b2))

section Head

variable {pl : FVec Ideal S128x128 .f32} {w1 : FVec Ideal S128x64 .f32} {b1 : FVec Ideal S64 .f32}
  {w2 : FVec Ideal S64x2 .f32} {b2 : FVec Ideal S2 .f32}
  {PL : Fin 128 → Fin 128 → ℝ} {W1 : Fin 128 → Fin 64 → ℝ} {B1 : Fin 64 → ℝ} {W2 : Fin 64 → Fin 2 → ℝ} {B2 : Fin 2 → ℝ}

theorem hidOf_apply (hpl : ∀ g k : Fin 128, pl (ix2 g k) = ((PL g k : ℝ) : EReal)) (hw1 : Holds2 w1 W1) (hb1 : Holds1 b1 B1)
    (g : Fin 128) (j : Fin 64) :
    hidOf pl w1 b1 (ix2 g j) = ((max ((∑ k : Fin 128, PL g k * W1 k j) + B1 j) 0 : ℝ) : EReal) := by
  have hdot : Host.dotGeneral (F := Ideal) dot_S128x128_S128x64_S128x64_1_0_0_1_n_n none pl w1 (ix2 g j)
      = ((∑ k : Fin 128, PL g k * W1 k j : ℝ) : EReal) := by
    refine (StackMember.dotGeneral_plain_apply none pl w1 g j).trans ?_
    refine Math.sum_eq_coe_of_forall Finset.univ _ (fun k : Fin 128 => PL g k * W1 k j) (fun k _ => ?_)
    rw [hpl g k, hw1 (ix2 k j)]
    exact Math.coe_mul_coe _ _
  unfold hidOf
  rw [maximumf_apply, addf_apply, hdot, biasRow_apply (by decide) bcast_S64_S1x64_1 bcast_S1x64_S128x64_0_1 b1 g j,
    hb1 (ix1 j), zeros_apply bcast_S_S128x64 (ix2 g j), Math.coe_add_coe]
  exact Math.max_coe_coe _ _

theorem headOf_apply (hpl : ∀ g k : Fin 128, pl (ix2 g k) = ((PL g k : ℝ) : EReal)) (hw1 : Holds2 w1 W1) (hb1 : Holds1 b1 B1)
    (hw2 : Holds2 w2 W2) (hb2 : Holds1 b2 B2) (g : Fin 128) (o : Fin 2) :
    headOf pl w1 b1 w2 b2 (ix2 g o)
      = (((∑ j : Fin 64, max ((∑ k : Fin 128, PL g k * W1 k j) + B1 j) 0 * W2 j o) + B2 o : ℝ) : EReal) := by
  have hdot : Host.dotGeneral (F := Ideal) dot_S128x64_S64x2_S128x2_1_0_0_1_n_n none (hidOf pl w1 b1) w2 (ix2 g o)
      = ((∑ j : Fin 64, max ((∑ k : Fin 128, PL g k * W1 k j) + B1 j) 0 * W2 j o : ℝ) : EReal) := by
    refine (StackMember.dotGeneral_plain_apply none (hidOf pl w1 b1) w2 g o).trans ?_
    refine Math.sum_eq_coe_of_forall Finset.univ _
      (fun j : Fin 64 => max ((∑ k : Fin 128, PL g k * W1 k j) + B1 j) 0 * W2 j o) (fun j _ => ?_)
    rw [hidOf_apply hpl hw1 hb1 g j, hw2 (ix2 j o)]
    exact Math.coe_mul_coe _ _
  unfold headOf
  rw [addf_apply, hdot, biasRow_apply (by decide) bcast_S2_S1x2_1 bcast_S1x2_S128x2_0_1 b2 g o, hb2 (ix1 o)]
  exact Math.coe_add_coe _ _

end Head

end W7

/-! ## The window -/

/-- Window 7. Reads: the scalar zero and the vector of ones the window before left (`main_cst_75`, `main_v341`), the
    batch numbers (argument 14), the last hidden state (`main_v259`) and the head's two affine maps (arguments 9 to 12).
    Leaves: the logits (`main_v361`). -/
theorem stage7 (V : Valuation τ sig (Elt Ideal)) (I : Spec.Inputs) (h3 : Spec.Hidden)
    (h_cst_75 : Holds0 (V (Proc.devRef .tc main_cst_75)) 0)
    (h_arg14 : Batch (V (Proc.devRef .tc main_arg14)) I.batch)
    (h_v341 : Holds1 (n0 := 50000) (V (Proc.devRef .tc main_v341)) (fun _ : Fin 50000 => (1 : ℝ)))
    (h_v259 : Holds2 (n0 := 50000) (n1 := 128) (V (Proc.devRef .tc main_v259)) h3)
    (h_arg9 : Holds2 (n0 := 128) (n1 := 64) (V (Proc.devRef .tc main_arg9)) I.w1)
    (h_arg10 : Holds1 (n0 := 64) (V (Proc.devRef .tc main_arg10)) I.b1)
    (h_arg11 : Holds2 (n0 := 64) (n1 := 2) (V (Proc.devRef .tc main_arg11)) I.w2)
    (h_arg12 : Holds1 (n0 := 2) (V (Proc.devRef .tc main_arg12)) I.b2) :
    Holds2 (n0 := 128) (n1 := 2) (StableHlo.after (ops7 (F := Ideal)) V (Proc.devRef .tc main_v361))
      (fun g o => (∑ j : Fin 64,
          max ((∑ k : Fin 128,
              ((∑ i : Fin 50000, if I.batch i = (g.val : ℤ) then h3 i k else 0) / max (Spec.count I g) 1) * I.w1 k j)
            + I.b1 j) 0 * I.w2 j o)
        + I.b2 o) := by
  have k361 : StableHlo.after (ops7 (F := Ideal)) V (Proc.devRef .tc main_v361)
      = W7.headOf
          (W7.poolOf (V (Proc.devRef .tc main_cst_75)) (V (Proc.devRef .tc main_arg14)) (V (Proc.devRef .tc main_v341))
            (V (Proc.devRef .tc main_v259)))
          (V (Proc.devRef .tc main_arg9)) (V (Proc.devRef .tc main_arg10)) (V (Proc.devRef .tc main_arg11))
          (V (Proc.devRef .tc main_arg12)) := by
    after_results_simp <;> rfl
  rw [k361]
  intro i
  obtain ⟨g, o, rfl⟩ : ∃ (g : Fin 128) (o : Fin 2), i = ix2 g o := ⟨i 0, i 1, eq_ix2 i⟩
  exact W7.headOf_apply (fun g k => W7.poolOf_apply h_cst_75 h_arg14 h_v341 h_v259 g k) h_arg9 h_arg10 h_arg11 h_arg12 g o

end Cert.ReferenceIdeal.HandVal

end
-- ==== Proof.Bridge.Reference.lean ====
/- The reference program's two results, read as the real tables the specification names: the line of host operations
   is run window by window (Ref/Run.lean, after_ops); each window's lemma (RefVal/W0 … W7) turns what the buffers it
   reads hold into what the buffers it writes hold, for an arbitrary valuation; a buffer written in one window and
   read in a later one is carried across the windows between, none of which writes it (every operation writes the
   buffer of its own number: Ref/Good.lean, after_keep), and the arguments are carried from the launch. The tables
   chain: the embedding, the three layers' outputs, the four energies, the pooled head. -/
import proofs.«160050_j32744830665390_2_alg».proof.Proof.Ref.Run
import proofs.«160050_j32744830665390_2_alg».proof.Proof.Spec
import proofs.«160050_j32744830665390_2_alg».proof.Proof.Bridge.Inputs
import proofs.«160050_j32744830665390_2_alg».proof.Proof.RefVal.W0
import proofs.«160050_j32744830665390_2_alg».proof.Proof.RefVal.W1
import proofs.«160050_j32744830665390_2_alg».proof.Proof.RefVal.W2
import proofs.«160050_j32744830665390_2_alg».proof.Proof.RefVal.W3
import proofs.«160050_j32744830665390_2_alg».proof.Proof.RefVal.W4
import proofs.«160050_j32744830665390_2_alg».proof.Proof.RefVal.W5
import proofs.«160050_j32744830665390_2_alg».proof.Proof.RefVal.W6
import proofs.«160050_j32744830665390_2_alg».proof.Proof.RefVal.W7

noncomputable section

namespace Cert.Hand.Bridge

open Cert.ReferenceIdeal Cert.ReferenceIdeal.HandRun Cert.ReferenceIdeal.HandVal Idealize.ShloMosaic Idealize.ShloMosaic.TcCoe
  Idealize.SL.Sem Idealize.ShloMosaic.StableHlo

/-- The hidden states as the specification spells them with the deviation form of the batch variance: the
    embedding, and each layer applied to the one before. -/
theorem hidden_eqs (I : Spec.Inputs) :
    Spec.hidden I eps Spec.varDev 0 = Spec.embed I eps
    ∧ Spec.hidden I eps Spec.varDev 1 = Spec.layer I eps Spec.varDev 0 (Spec.embed I eps)
    ∧ Spec.hidden I eps Spec.varDev 2 = Spec.layer I eps Spec.varDev 1 (Spec.layer I eps Spec.varDev 0 (Spec.embed I eps))
    ∧ Spec.hidden I eps Spec.varDev 3
        = Spec.layer I eps Spec.varDev 2 (Spec.layer I eps Spec.varDev 1 (Spec.layer I eps Spec.varDev 0 (Spec.embed I eps))) :=
  ⟨rfl, rfl, rfl, rfl⟩

set_option maxHeartbeats 1000000 in
set_option maxRecDepth 4096 in
/-- Both results at once, along the eight windows. -/
theorem ref_both (m' : (ℓ : Loc nD τ sig) → Buf (Elt Ideal) ℓ) (c : Dev nD) (I : Spec.Inputs)
    (hA : ArgsHold (m' ((c.tc : Thread nD τ).loc main_arg0))
      (m' ((c.tc : Thread nD τ).loc main_arg1))
      (m' ((c.tc : Thread nD τ).loc main_arg2))
      (m' ((c.tc : Thread nD τ).loc main_arg3))
      (m' ((c.tc : Thread nD τ).loc main_arg4))
      (m' ((c.tc : Thread nD τ).loc main_arg5))
      (m' ((c.tc : Thread nD τ).loc main_arg6))
      (m' ((c.tc : Thread nD τ).loc main_arg7))
      (m' ((c.tc : Thread nD τ).loc main_arg8))
      (m' ((c.tc : Thread nD τ).loc main_arg9))
      (m' ((c.tc : Thread nD τ).loc main_arg10))
      (m' ((c.tc : Thread nD τ).loc main_arg11))
      (m' ((c.tc : Thread nD τ).loc main_arg12))
      (m' ((c.tc : Thread nD τ).loc main_arg13))
      (m' ((c.tc : Thread nD τ).loc main_arg14)) I) :
    Holds2 (StableHlo.after (ops (F := Ideal)) (fun b => m' (c, b)) (Proc.devRef .tc main_v361)) (Spec.logits I eps Spec.varDev)
    ∧ Holds0 (StableHlo.after (ops (F := Ideal)) (fun b => m' (c, b)) (Proc.devRef .tc main_v340))
        (Spec.reg I eps (Spec.energyEdge I) Spec.varDev) := by
  rw [after_ops]
  -- the valuations at the window boundaries, named
  obtain ⟨V0, e0⟩ : ∃ W : Valuation τ sig (Elt Ideal), W = fun b => m' (c, b) := ⟨_, rfl⟩
  rw [← e0]
  obtain ⟨V1, e1⟩ : ∃ W : Valuation τ sig (Elt Ideal), W = StableHlo.after (ops0 (F := Ideal)) V0 := ⟨_, rfl⟩
  rw [← e1]
  obtain ⟨V2, e2⟩ : ∃ W : Valuation τ sig (Elt Ideal), W = StableHlo.after (ops1 (F := Ideal)) V1 := ⟨_, rfl⟩
  rw [← e2]
  obtain ⟨V3, e3⟩ : ∃ W : Valuation τ sig (Elt Ideal), W = StableHlo.after (ops2 (F := Ideal)) V2 := ⟨_, rfl⟩
  rw [← e3]
  obtain ⟨V4, e4⟩ : ∃ W : Valuation τ sig (Elt Ideal), W = StableHlo.after (ops3 (F := Ideal)) V3 := ⟨_, rfl⟩
  rw [← e4]
  obtain ⟨V5, e5⟩ : ∃ W : Valuation τ sig (Elt Ideal), W = StableHlo.after (ops4 (F := Ideal)) V4 := ⟨_, rfl⟩
  rw [← e5]
  obtain ⟨V6, e6⟩ : ∃ W : Valuation τ sig (Elt Ideal), W = StableHlo.after (ops5 (F := Ideal)) V5 := ⟨_, rfl⟩
  rw [← e6]
  obtain ⟨V7, e7⟩ : ∃ W : Valuation τ sig (Elt Ideal), W = StableHlo.after (ops6 (F := Ideal)) V6 := ⟨_, rfl⟩
  rw [← e7]
  obtain ⟨V8, e8⟩ : ∃ W : Valuation τ sig (Elt Ideal), W = StableHlo.after (ops7 (F := Ideal)) V7 := ⟨_, rfl⟩
  rw [← e8]
  -- a window leaves every buffer numbered outside its stretch as it was
  have k0 : ∀ {r : Ref sig .tc}, (r.idx.val < 15 ∨ 99 ≤ r.idx.val) → V1 (Proc.devRef .tc r) = V0 (Proc.devRef .tc r) :=
    fun {r} hr => (congrFun e1 (Proc.devRef .tc r)).trans (after_keep _ ops0_good V0 hr)
  have k1 : ∀ {r : Ref sig .tc}, (r.idx.val < 99 ∨ 161 ≤ r.idx.val) → V2 (Proc.devRef .tc r) = V1 (Proc.devRef .tc r) :=
    fun {r} hr => (congrFun e2 (Proc.devRef .tc r)).trans (after_keep _ ops1_good V1 hr)
  have k2 : ∀ {r : Ref sig .tc}, (r.idx.val < 161 ∨ 244 ≤ r.idx.val) → V3 (Proc.devRef .tc r) = V2 (Proc.devRef .tc r) :=
    fun {r} hr => (congrFun e3 (Proc.devRef .tc r)).trans (after_keep _ ops2_good V2 hr)
  have k3 : ∀ {r : Ref sig .tc}, (r.idx.val < 244 ∨ 327 ≤ r.idx.val) → V4 (Proc.devRef .tc r) = V3 (Proc.devRef .tc r) :=
    fun {r} hr => (congrFun e4 (Proc.devRef .tc r)).trans (after_keep _ ops3_good V3 hr)
  have k4 : ∀ {r : Ref sig .tc}, (r.idx.val < 327 ∨ 408 ≤ r.idx.val) → V5 (Proc.devRef .tc r) = V4 (Proc.devRef .tc r) :=
    fun {r} hr => (congrFun e5 (Proc.devRef .tc r)).trans (after_keep _ ops4_good V4 hr)
  have k5 : ∀ {r : Ref sig .tc}, (r.idx.val < 408 ∨ 470 ≤ r.idx.val) → V6 (Proc.devRef .tc r) = V5 (Proc.devRef .tc r) :=
    fun {r} hr => (congrFun e6 (Proc.devRef .tc r)).trans (after_keep _ ops5_good V5 hr)
  have k6 : ∀ {r : Ref sig .tc}, (r.idx.val < 470 ∨ 530 ≤ r.idx.val) → V7 (Proc.devRef .tc r) = V6 (Proc.devRef .tc r) :=
    fun {r} hr => (congrFun e7 (Proc.devRef .tc r)).trans (after_keep _ ops6_good V6 hr)
  have k7 : ∀ {r : Ref sig .tc}, (r.idx.val < 530 ∨ 554 ≤ r.idx.val) → V8 (Proc.devRef .tc r) = V7 (Proc.devRef .tc r) :=
    fun {r} hr => (congrFun e8 (Proc.devRef .tc r)).trans (after_keep _ ops7_good V7 hr)
  -- the arguments (numbers below 15) at every boundary are the launch's
  have a1 : ∀ {r : Ref sig .tc}, r.idx.val < 15 → V1 (Proc.devRef .tc r) = V0 (Proc.devRef .tc r) := fun {r} h => k0 (r := r) (Or.inl h)
  have a2 : ∀ {r : Ref sig .tc}, r.idx.val < 15 → V2 (Proc.devRef .tc r) = V0 (Proc.devRef .tc r) :=
    fun {r} h => (k1 (r := r) (Or.inl (by omega))).trans (a1 h)
  have a3 : ∀ {r : Ref sig .tc}, r.idx.val < 15 → V3 (Proc.devRef .tc r) = V0 (Proc.devRef .tc r) :=
    fun {r} h => (k2 (r := r) (Or.inl (by omega))).trans (a2 h)
  have a4 : ∀ {r : Ref sig .tc}, r.idx.val < 15 → V4 (Proc.devRef .tc r) = V0 (Proc.devRef .tc r) :=
    fun {r} h => (k3 (r := r) (Or.inl (by omega))).trans (a3 h)
  have a5 : ∀ {r : Ref sig .tc}, r.idx.val < 15 → V5 (Proc.devRef .tc r) = V0 (Proc.devRef .tc r) :=
    fun {r} h => (k4 (r := r) (Or.inl (by omega))).trans (a4 h)
  have a6 : ∀ {r : Ref sig .tc}, r.idx.val < 15 → V6 (Proc.devRef .tc r) = V0 (Proc.devRef .tc r) :=
    fun {r} h => (k5 (r := r) (Or.inl (by omega))).trans (a5 h)
  have a7 : ∀ {r : Ref sig .tc}, r.idx.val < 15 → V7 (Proc.devRef .tc r) = V0 (Proc.devRef .tc r) :=
    fun {r} h => (k6 (r := r) (Or.inl (by omega))).trans (a6 h)
  -- what the launch's argument buffers hold
  have A0 : Holds2 (n0 := 50000) (n1 := 128) (V0 (Proc.devRef .tc main_arg0)) I.x := by rw [e0]; exact hA.x
  have A1 : Holds2 (n0 := 128) (n1 := 128) (V0 (Proc.devRef .tc main_arg1)) I.wIn := by rw [e0]; exact hA.wIn
  have A2 : Holds1 (n0 := 128) (V0 (Proc.devRef .tc main_arg2)) I.bIn := by rw [e0]; exact hA.bIn
  have A3 : Holds1 (n0 := 128) (V0 (Proc.devRef .tc main_arg3)) I.lnG := by rw [e0]; exact hA.lnG
  have A4 : Holds1 (n0 := 128) (V0 (Proc.devRef .tc main_arg4)) I.lnB := by rw [e0]; exact hA.lnB
  have A5 : Holds4 (n0 := 3) (n1 := 3) (n2 := 128) (n3 := 128) (V0 (Proc.devRef .tc main_arg5)) I.chebW := by rw [e0]; exact hA.chebW
  have A6 : Holds2 (n0 := 3) (n1 := 128) (V0 (Proc.devRef .tc main_arg6)) I.chebB := by rw [e0]; exact hA.chebB
  have A7 : Holds2 (n0 := 3) (n1 := 128) (V0 (Proc.devRef .tc main_arg7)) I.bnG := by rw [e0]; exact hA.bnG
  have A8 : Holds2 (n0 := 3) (n1 := 128) (V0 (Proc.devRef .tc main_arg8)) I.bnB := by rw [e0]; exact hA.bnB
  have A9 : Holds2 (n0 := 128) (n1 := 64) (V0 (Proc.devRef .tc main_arg9)) I.w1 := by rw [e0]; exact hA.w1
  have A10 : Holds1 (n0 := 64) (V0 (Proc.devRef .tc main_arg10)) I.b1 := by rw [e0]; exact hA.b1
  have A11 : Holds2 (n0 := 64) (n1 := 2) (V0 (Proc.devRef .tc main_arg11)) I.w2 := by rw [e0]; exact hA.w2
  have A12 : Holds1 (n0 := 2) (V0 (Proc.devRef .tc main_arg12)) I.b2 := by rw [e0]; exact hA.b2
  have A13 : EdgeRows (V0 (Proc.devRef .tc main_arg13)) I.src I.dst := by
    rw [e0]; exact ⟨hA.range, fun e => (hA.src e).symm, fun e => (hA.dst e).symm⟩
  have A14 : Batch (V0 (Proc.devRef .tc main_arg14)) I.batch := by rw [e0]; exact hA.batch
  -- window 0: the edge ends, the edge weights, the embedding's normalised table
  have o0 := stage0 V0 I (h13 := A13) (h0 := A0) (h1 := A1) (h2 := A2) (h3 := A3)
  rw [← e1] at o0
  obtain ⟨o0_1, o0_3, o0_29, o0_45, o0_46⟩ := o0
  -- window 1: the embedding, the first layer before its norm and its column sums
  have A4_1 := A4
  rw [← a1 (r := main_arg4) (by decide)] at A4_1
  have A5_1 := A5
  rw [← a1 (r := main_arg5) (by decide)] at A5_1
  have A6_1 := A6
  rw [← a1 (r := main_arg6) (by decide)] at A6_1
  have o1 := stage1 V1 I (h46 := o0_46) (h45 := o0_45) (h4 := A4_1) (h5 := A5_1) (h29 := o0_29) (hv1 := o0_1) (hv3 := o0_3) (h6 := A6_1)
  rw [← e2] at o1
  obtain ⟨o1_52, o1_97, o1_98⟩ := o1
  -- window 2: the first layer's output and the second layer's first terms
  have A7_2 := A7
  rw [← a2 (r := main_arg7) (by decide)] at A7_2
  have A8_2 := A8
  rw [← a2 (r := main_arg8) (by decide)] at A8_2
  have A5_2 := A5
  rw [← a2 (r := main_arg5) (by decide)] at A5_2
  have o0_29_at2 := o0_29
  rw [← k1 (r := main_v29) (by decide)] at o0_29_at2
  have o0_1_at2 := o0_1
  rw [← k1 (r := main_v1) (by decide)] at o0_1_at2
  have o0_3_at2 := o0_3
  rw [← k1 (r := main_v3) (by decide)] at o0_3_at2
  have o2 := stage2 V2 I (Spec.chebPre I 0 (Spec.embed I eps)) (h98 := o1_98) (h97 := o1_97) (h7 := A7_2) (h8 := A8_2) (h5 := A5_2) (h29 := o0_29_at2) (hv1 := o0_1_at2) (hv3 := o0_3_at2)
  rw [← e3] at o2
  obtain ⟨o2_121, o2_141, o2_149, o2_150⟩ := o2
  -- window 3: the second layer's output and the third layer's first terms
  have A5_3 := A5
  rw [← a3 (r := main_arg5) (by decide)] at A5_3
  have A6_3 := A6
  rw [← a3 (r := main_arg6) (by decide)] at A6_3
  have A7_3 := A7
  rw [← a3 (r := main_arg7) (by decide)] at A7_3
  have A8_3 := A8
  rw [← a3 (r := main_arg8) (by decide)] at A8_3
  have o0_3_at3 := o0_3
  rw [← k1 (r := main_v3) (by decide), ← k2 (r := main_v3) (by decide)] at o0_3_at3
  have o0_29_at3 := o0_29
  rw [← k1 (r := main_v29) (by decide), ← k2 (r := main_v29) (by decide)] at o0_29_at3
  have o0_1_at3 := o0_1
  rw [← k1 (r := main_v1) (by decide), ← k2 (r := main_v1) (by decide)] at o0_1_at3
  have o3 := stage3 V3 I (Spec.bnRelu I eps 0 (Spec.varDev (Spec.chebPre I 0 (Spec.embed I eps))) (Spec.chebPre I 0 (Spec.embed I eps)))
    (h150 := o2_150) (h149 := o2_149) (hv3 := o0_3_at3) (h121 := o2_121) (h5 := A5_3) (h141 := o2_141) (h6 := A6_3) (h7 := A7_3) (h8 := A8_3) (h29 := o0_29_at3) (hv1 := o0_1_at3)
  rw [← e4] at o3
  obtain ⟨o3_190, o3_193, o3_201, o3_202⟩ := o3
  -- window 4: the third layer, normalised and scaled
  have A5_4 := A5
  rw [← a4 (r := main_arg5) (by decide)] at A5_4
  have A6_4 := A6
  rw [← a4 (r := main_arg6) (by decide)] at A6_4
  have A7_4 := A7
  rw [← a4 (r := main_arg7) (by decide)] at A7_4
  have o0_3_at4 := o0_3
  rw [← k1 (r := main_v3) (by decide), ← k2 (r := main_v3) (by decide), ← k3 (r := main_v3) (by decide)] at o0_3_at4
  have o0_29_at4 := o0_29
  rw [← k1 (r := main_v29) (by decide), ← k2 (r := main_v29) (by decide), ← k3 (r := main_v29) (by decide)] at o0_29_at4
  have o0_1_at4 := o0_1
  rw [← k1 (r := main_v1) (by decide), ← k2 (r := main_v1) (by decide), ← k3 (r := main_v1) (by decide)] at o0_1_at4
  have o4 := stage4 V4 I (Spec.layer I eps Spec.varDev 1 (Spec.bnRelu I eps 0 (Spec.varDev (Spec.chebPre I 0 (Spec.embed I eps))) (Spec.chebPre I 0 (Spec.embed I eps))))
    (h202 := o3_202) (h201 := o3_201) (hv3 := o0_3_at4) (h5 := A5_4) (h193 := o3_193) (h29 := o0_29_at4) (hv1 := o0_1_at4) (h190 := o3_190) (h6 := A6_4) (h7 := A7_4)
  rw [← e5] at o4
  -- window 5: the third layer's output; the first two energies
  have A8_5 := A8
  rw [← a5 (r := main_arg8) (by decide)] at A8_5
  have o0_1_at5 := o0_1
  rw [← k1 (r := main_v1) (by decide), ← k2 (r := main_v1) (by decide), ← k3 (r := main_v1) (by decide), ← k4 (r := main_v1) (by decide)] at o0_1_at5
  have o1_52_at5 := o1_52
  rw [← k2 (r := main_v52) (by decide), ← k3 (r := main_v52) (by decide), ← k4 (r := main_v52) (by decide)] at o1_52_at5
  have o0_3_at5 := o0_3
  rw [← k1 (r := main_v3) (by decide), ← k2 (r := main_v3) (by decide), ← k3 (r := main_v3) (by decide), ← k4 (r := main_v3) (by decide)] at o0_3_at5
  have o2_121_at5 := o2_121
  rw [← k3 (r := main_v121) (by decide), ← k4 (r := main_v121) (by decide)] at o2_121_at5
  have o5 := stage5 V5 I _ (Spec.embed I eps) (Spec.bnRelu I eps 0 (Spec.varDev (Spec.chebPre I 0 (Spec.embed I eps))) (Spec.chebPre I 0 (Spec.embed I eps)))
    (h_arg8 := A8_5) (h_v253 := o4) (h_v1 := o0_1_at5) (h_v52 := o1_52_at5) (h_v3 := o0_3_at5) (h_v121 := o2_121_at5)
  rw [← e6] at o5
  obtain ⟨o5_259, o5_279, o5_298⟩ := o5
  -- window 6: the regulariser; the pooling's ones and zero
  have o0_1_at6 := o0_1
  rw [← k1 (r := main_v1) (by decide), ← k2 (r := main_v1) (by decide), ← k3 (r := main_v1) (by decide), ← k4 (r := main_v1) (by decide), ← k5 (r := main_v1) (by decide)] at o0_1_at6
  have o3_190_at6 := o3_190
  rw [← k4 (r := main_v190) (by decide), ← k5 (r := main_v190) (by decide)] at o3_190_at6
  have o0_3_at6 := o0_3
  rw [← k1 (r := main_v3) (by decide), ← k2 (r := main_v3) (by decide), ← k3 (r := main_v3) (by decide), ← k4 (r := main_v3) (by decide), ← k5 (r := main_v3) (by decide)] at o0_3_at6
  have o6 := stage6 V6 I _ _ (Spec.layer I eps Spec.varDev 1 (Spec.bnRelu I eps 0 (Spec.varDev (Spec.chebPre I 0 (Spec.embed I eps))) (Spec.chebPre I 0 (Spec.embed I eps)))) _ (h_v279 := o5_279) (h_v298 := o5_298) (h_v1 := o0_1_at6) (h_v190 := o3_190_at6) (h_v3 := o0_3_at6) (h_v259 := o5_259)
  rw [← e7] at o6
  obtain ⟨o6_340, o6_341, o6_c75⟩ := o6
  -- window 7: the pooled head
  have A14_7 := A14
  rw [← a7 (r := main_arg14) (by decide)] at A14_7
  have A9_7 := A9
  rw [← a7 (r := main_arg9) (by decide)] at A9_7
  have A10_7 := A10
  rw [← a7 (r := main_arg10) (by decide)] at A10_7
  have A11_7 := A11
  rw [← a7 (r := main_arg11) (by decide)] at A11_7
  have A12_7 := A12
  rw [← a7 (r := main_arg12) (by decide)] at A12_7
  have o5_259_at7 := o5_259
  rw [← k6 (r := main_v259) (by decide)] at o5_259_at7
  have o7 := stage7 V7 I _ (h_cst_75 := o6_c75) (h_arg14 := A14_7) (h_v341 := o6_341) (h_v259 := o5_259_at7) (h_arg9 := A9_7) (h_arg10 := A10_7) (h_arg11 := A11_7) (h_arg12 := A12_7)
  rw [← e8] at o7
  -- the regulariser's buffer is not written by window 7
  have o6_340_at8 := o6_340
  rw [← k7 (r := main_v340) (by decide)] at o6_340_at8
  -- the tables the windows name are the specification's: its definitions unfolded (a layer is the rectified
  -- shifted norm of its pre-norm table; the hidden states are the embedding and the layers in turn)
  exact ⟨o7, o6_340_at8⟩

/-- The reference's logits are the specification's. -/
theorem ref_logits (m' : (ℓ : Loc nD τ sig) → Buf (Elt Ideal) ℓ) (c : Dev nD) (I : Spec.Inputs)
    (hA : ArgsHold (m' ((c.tc : Thread nD τ).loc main_arg0))
      (m' ((c.tc : Thread nD τ).loc main_arg1))
      (m' ((c.tc : Thread nD τ).loc main_arg2))
      (m' ((c.tc : Thread nD τ).loc main_arg3))
      (m' ((c.tc : Thread nD τ).loc main_arg4))
      (m' ((c.tc : Thread nD τ).loc main_arg5))
      (m' ((c.tc : Thread nD τ).loc main_arg6))
      (m' ((c.tc : Thread nD τ).loc main_arg7))
      (m' ((c.tc : Thread nD τ).loc main_arg8))
      (m' ((c.tc : Thread nD τ).loc main_arg9))
      (m' ((c.tc : Thread nD τ).loc main_arg10))
      (m' ((c.tc : Thread nD τ).loc main_arg11))
      (m' ((c.tc : Thread nD τ).loc main_arg12))
      (m' ((c.tc : Thread nD τ).loc main_arg13))
      (m' ((c.tc : Thread nD τ).loc main_arg14)) I) :
    Holds2 (StableHlo.after (ops (F := Ideal)) (fun b => m' (c, b)) (Proc.devRef .tc main_v361)) (Spec.logits I eps Spec.varDev) :=
  (ref_both m' c I hA).1

/-- The reference's regulariser is the specification's, the energy edge by edge. -/
theorem ref_reg (m' : (ℓ : Loc nD τ sig) → Buf (Elt Ideal) ℓ) (c : Dev nD) (I : Spec.Inputs)
    (hA : ArgsHold (m' ((c.tc : Thread nD τ).loc main_arg0))
      (m' ((c.tc : Thread nD τ).loc main_arg1))
      (m' ((c.tc : Thread nD τ).loc main_arg2))
      (m' ((c.tc : Thread nD τ).loc main_arg3))
      (m' ((c.tc : Thread nD τ).loc main_arg4))
      (m' ((c.tc : Thread nD τ).loc main_arg5))
      (m' ((c.tc : Thread nD τ).loc main_arg6))
      (m' ((c.tc : Thread nD τ).loc main_arg7))
      (m' ((c.tc : Thread nD τ).loc main_arg8))
      (m' ((c.tc : Thread nD τ).loc main_arg9))
      (m' ((c.tc : Thread nD τ).loc main_arg10))
      (m' ((c.tc : Thread nD τ).loc main_arg11))
      (m' ((c.tc : Thread nD τ).loc main_arg12))
      (m' ((c.tc : Thread nD τ).loc main_arg13))
      (m' ((c.tc : Thread nD τ).loc main_arg14)) I) :
    Holds0 (StableHlo.after (ops (F := Ideal)) (fun b => m' (c, b)) (Proc.devRef .tc main_v340))
      (Spec.reg I eps (Spec.energyEdge I) Spec.varDev) :=
  (ref_both m' c I hA).2

end Cert.Hand.Bridge

end
-- ==== Proof.Bridge.Main.lean ====
/-
  The two programs' results agree. The kernel program's run leaves its two results at the last valuation of the
  fold through its twelve regions; the reference's run leaves its two at the composed host operations of @main.
  Both hold the same real tables: the logits of the specification and its regulariser — the kernel's spelt with
  the moment form of the batch variance and the node form of the Dirichlet energy, the reference's with the
  deviation form and the edge form, which agree over the reals.
-/
import proofs.«160050_j32744830665390_2_alg».proof.Defs
import proofs.«160050_j32744830665390_2_alg».proof.Proof.KI.Main
import proofs.«160050_j32744830665390_2_alg».proof.Proof.Ref.Run
import proofs.«160050_j32744830665390_2_alg».proof.Proof.Pre.Decode
import proofs.«160050_j32744830665390_2_alg».proof.Proof.Math.SpecEq
import proofs.«160050_j32744830665390_2_alg».proof.Proof.Bridge.Kernel
import proofs.«160050_j32744830665390_2_alg».proof.Proof.Bridge.Reference
import proofs.«160050_j32744830665390_2_alg».proof.Proof.Gen.Pre_finite_inputs

noncomputable section

namespace Cert.Hand.Bridge

open Idealize.ShloMosaic Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The arguments' agreement, as the claim states it. -/
abbrev Agree : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)

/-- The specification's inputs read off the kernel program's argument arrays on core `c`. -/
abbrev inputsOf (c : Dev Cert.KernelIdeal.nD) : Spec.Inputs :=
  toInputs
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))

/-- Under the precondition the kernel program's arguments hold the inputs read off them: every float entry is a
    real, every edge end a node number. -/
theorem kernel_args_hold (hpre : Cert.Pre_KernelIdeal m) (c : Dev Cert.KernelIdeal.nD) :
    ArgsHold
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (inputsOf m c) :=
  argsHold_toInputs (Cert.Hand.Pre.x_real (hpre c)) (Cert.Hand.Pre.w_in_real (hpre c)) (Cert.Hand.Pre.b_in_real (hpre c)) (Cert.Hand.Pre.ln_g_real (hpre c)) (Cert.Hand.Pre.ln_b_real (hpre c)) (Cert.Hand.Pre.cheb_w_real (hpre c)) (Cert.Hand.Pre.cheb_b_real (hpre c)) (Cert.Hand.Pre.bn_g_real (hpre c)) (Cert.Hand.Pre.bn_b_real (hpre c)) (Cert.Hand.Pre.w1_real (hpre c)) (Cert.Hand.Pre.b1_real (hpre c)) (Cert.Hand.Pre.w2_real (hpre c)) (Cert.Hand.Pre.b2_real (hpre c))
    (Cert.Hand.Pre.edge_in_range (hpre c))

/-- The reference's arguments agree with the kernel program's, so they hold the same inputs. -/
theorem ref_args_hold (hpre : Cert.Pre_KernelIdeal m) (hagree : Agree m m') (c : Dev Cert.KernelIdeal.nD) :
    ArgsHold
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      (inputsOf m c) := by
  have h := hagree c
  rw [h.1, h.2.1, h.2.2.1, h.2.2.2.1, h.2.2.2.2.1, h.2.2.2.2.2.1, h.2.2.2.2.2.2.1, h.2.2.2.2.2.2.2.1, h.2.2.2.2.2.2.2.2.1, h.2.2.2.2.2.2.2.2.2.1, h.2.2.2.2.2.2.2.2.2.2.1, h.2.2.2.2.2.2.2.2.2.2.2.1, h.2.2.2.2.2.2.2.2.2.2.2.2.1, h.2.2.2.2.2.2.2.2.2.2.2.2.2.1, h.2.2.2.2.2.2.2.2.2.2.2.2.2.2]
  exact kernel_args_hold m hpre c

/-- The logits: both programs end with the specification's, the variance spelt either way. -/
theorem results_logits_eq (hpre : Cert.Pre_KernelIdeal m) (hagree : Agree m m') (c : Dev Cert.KernelIdeal.nD) :
    StableHlo.after (Cert.ReferenceIdeal.HandRun.ops (F := Ideal)) (fun b => m' (c, b))
        (Proc.devRef .tc Cert.ReferenceIdeal.main_v361)
      = Cert.KernelIdeal.Hand.W26 m c (Proc.devRef .tc Cert.KernelIdeal.main_v270) := by
  have hK := kernel_logits m c (inputsOf m c) (kernel_args_hold m hpre c)
  have hR := ref_logits m' c (inputsOf m c) (ref_args_hold m m' hpre hagree c)
  funext i
  rw [hR i, hK i, Cert.Hand.Math.logits_varMom_eq_varDev]

/-- The regulariser: the kernel's node-by-node energy with the moment variance is the reference's edge-by-edge
    energy with the deviation variance. -/
theorem results_reg_eq (hpre : Cert.Pre_KernelIdeal m) (hagree : Agree m m') (c : Dev Cert.KernelIdeal.nD) :
    StableHlo.after (Cert.ReferenceIdeal.HandRun.ops (F := Ideal)) (fun b => m' (c, b))
        (Proc.devRef .tc Cert.ReferenceIdeal.main_v340)
      = Cert.KernelIdeal.Hand.W26 m c (Proc.devRef .tc Cert.KernelIdeal.main_v255) := by
  have hK := kernel_reg m c (inputsOf m c) (kernel_args_hold m hpre c)
  have hR := ref_reg m' c (inputsOf m c) (ref_args_hold m m' hpre hagree c)
  funext i
  rw [hR i, hK i, Cert.Hand.Math.reg_node_varMom_eq_edge_varDev]

theorem algebraic : Cert.algebraic_KernelIdeal_ReferenceIdeal := by
  intro m g m' g' hpre hagree
  refine ⟨fun c => Cert.KernelIdeal.Hand.W26 m c (Proc.devRef .tc Cert.KernelIdeal.main_v270),
    fun c => Cert.KernelIdeal.Hand.W26 m c (Proc.devRef .tc Cert.KernelIdeal.main_v255),
    Cert.KernelIdeal.Hand.run_main (F := Ideal) m g, ?_⟩
  refine (θ_run (Cert.ReferenceIdeal.defs (F := Ideal)) _ _).mono
    (fun r h c => ⟨(h c).1.trans (results_logits_eq m m' hpre hagree c), (h c).2.1.trans (results_reg_eq m m' hpre hagree c), (h c).2.2⟩)
    (Cert.ReferenceIdeal.HandRun.run (F := Ideal) m' g')

end Cert.Hand.Bridge

end
-- ==== Proof.lean ====
/-
  The certificate's five claims. Each program's frame — it runs to the end, faults nowhere, leaves its arguments
  unchanged — is its run with the results forgotten: the kernel program's, one text read at the
  bit-exact and at the ideal instance, folds twelve pipelined regions through the host operations between them; the
  reference's is its straight line of host operations. The idealization rewrote nothing, so `preserves` is trivial.
  At the ideal instance both programs end with the specification's logits and regulariser, under the precondition:
  every float input finite and every edge end a node number.
-/
import proofs.«160050_j32744830665390_2_alg».proof.Defs
import proofs.«160050_j32744830665390_2_alg».proof.Proof.Gen.Kernel
import proofs.«160050_j32744830665390_2_alg».proof.Proof.Gen.KernelIdeal
import proofs.«160050_j32744830665390_2_alg».proof.Proof.Gen.ReferenceIdeal
import proofs.«160050_j32744830665390_2_alg».proof.Proof.Gen.Pre_finite_inputs
import proofs.«160050_j32744830665390_2_alg».proof.Proof.KB.Main
import proofs.«160050_j32744830665390_2_alg».proof.Proof.KI.Main
import proofs.«160050_j32744830665390_2_alg».proof.Proof.Ref.Run
import proofs.«160050_j32744830665390_2_alg».proof.Proof.Bridge.Main
import Idealize.ShloMosaic.Adequacy
import Idealize.ShloMosaic.Init

noncomputable section

namespace Cert.Proof

open Idealize.ShloMosaic Idealize.SL.Sem

theorem frame_kernel : Cert.frame_Kernel := fun m g _ => Cert.Kernel.Hand.frame (F := Bits) m g
theorem frame_kernelIdeal : Cert.frame_KernelIdeal := fun m g _ => Cert.KernelIdeal.Hand.frame (F := Ideal) m g
theorem frame_referenceIdeal : Cert.frame_ReferenceIdeal := fun m g _ => Cert.ReferenceIdeal.HandRun.frame (F := Ideal) m g

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, Cert.Hand.Bridge.algebraic⟩

end Cert.Proof

end
